-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v164)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v164) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v327) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S2x800000 : Shape := ⟨2, ![2, 800000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  bcast_S_S50000 : S_.BroadcastsInDim S50000 (![] : Fin 0 → Fin S50000.rank)
  reducesTo_S50000_S_d0 : S50000.ReducesTo [0] S_

variable [Facts]

def fn_part4 {F : FTy → Type} [FloatOps F] (main_arg15 : IVec S50000 32) (main_v63 : IVec S_ 1) (main_v67 : IVec S_ 1) : IVec S_ 1 :=
  let main_v68 : IVec S_ 1 := andi main_v63 main_v67
  let main_c_26 : IVec S_ 32 := constantI S_ 32 0#32
  let main_v69 : IVec S50000 32 := broadcastInDim S50000 ![] bcast_S_S50000 main_c_26
  let main_v70 : IVec S50000 1 := cmpi .sge main_arg15 main_v69
  let main_c_27 : IVec S_ 32 := constantI S_ 32 128#32
  let main_v71 : IVec S50000 32 := broadcastInDim S50000 ![] bcast_S_S50000 main_c_27
  let main_v72 : IVec S50000 1 := cmpi .slt main_arg15 main_v71
  let main_v73 : IVec S50000 1 := andi main_v70 main_v72
  let main_c_28 : IVec S_ 1 := constantI S_ 1 1#1
  let main_v74 : IVec S_ 1 := (fun x v => Host.reduce IntOp.andi x v reducesTo_S50000_S_d0 h_S_) main_v73 main_c_28
  let main_v75 : IVec S_ 1 := andi main_v68 main_v74
  main_v75

def fn_part3 {F : FTy → Type} [FloatOps F] (main_arg11 : FVec F S128 .f32) (main_arg12 : FVec F S128x10 .f32) (main_arg13 : FVec F S10 .f32) (main_arg15 : IVec S50000 32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x10 .f32 := Host.absf main_arg12
  let main_cst_22 : FVec F S_ .f32 := constant S_ .f32 0x7F800000#32
  let main_v60 : FVec F S128x10 .f32 := broadcastInDim S128x10 ![] bcast_S_S128x10 main_cst_22
  let main_v61 : IVec S128x10 1 := cmpf .olt main_v59 main_v60
  let main_c_23 : IVec S_ 1 := constantI S_ 1 1#1
  let main_v62 : IVec S_ 1 := (fun x v => Host.reduce IntOp.andi x v reducesTo_S128x10_S_d0_1 h_S_) main_v61 main_c_23
  let main_v63 : IVec S_ 1 := andi main_v58 main_v62
  let main_v64 : FVec F S10 .f32 := Host.absf main_arg13
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_arg15 main_v63 main_v67

def fn_part2 {F : FTy → Type} [FloatOps F] (main_arg7 : FVec F S4x128 .f32) (main_arg8 : FVec F S128x128 .f32) (main_arg9 : FVec F S128 .f32) (main_arg10 : FVec F S128x128 .f32) (main_arg11 : FVec F S128 .f32) (main_arg12 : FVec F S128x10 .f32) (main_arg13 : FVec F S10 .f32) (main_arg15 : IVec S50000 32) (main_v33 : IVec S_ 1) : IVec S_ 1 :=
  let main_v34 : FVec F S4x128 .f32 := Host.absf main_arg7
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg15 main_v48 main_v49 main_v50

def fn_part1 {F : FTy → Type} [FloatOps F] (main_arg4 : FVec F S4x128 .f32) (main_arg5 : FVec F S4x128 .f32) (main_arg6 : FVec F S4x128 .f32) (main_arg7 : FVec F S4x128 .f32) (main_arg8 : FVec F S128x128 .f32) (main_arg9 : FVec F S128 .f32) (main_arg10 : FVec F S128x128 .f32) (main_arg11 : FVec F S128 .f32) (main_arg12 : FVec F S128x10 .f32) (main_arg13 : FVec F S10 .f32) (main_arg15 : IVec S50000 32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg4
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg5
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg6
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg7 main_arg8 main_arg9 main_arg10 main_arg11 main_arg12 main_arg13 main_arg15 main_v33

def fn {F : FTy → Type} [FloatOps F] (main_arg0 : FVec F S50000x128 .f32) (main_arg1 : FVec F S4x128x128 .f32) (main_arg2 : FVec F S4x128 .f32) (main_arg3 : FVec F S4x128x128 .f32) (main_arg4 : FVec F S4x128 .f32) (main_arg5 : FVec F S4x128 .f32) (main_arg6 : FVec F S4x128 .f32) (main_arg7 : FVec F S4x128 .f32) (main_arg8 : FVec F S128x128 .f32) (main_arg9 : FVec F S128 .f32) (main_arg10 : FVec F S128x128 .f32) (main_arg11 : FVec F S128 .f32) (main_arg12 : FVec F S128x10 .f32) (main_arg13 : FVec F S10 .f32) (main_arg14 : IVec S2x800000 32) (main_arg15 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg1
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg2
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128x128 .f32 := Host.absf main_arg3
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg4 main_arg5 main_arg6 main_arg7 main_arg8 main_arg9 main_arg10 main_arg11 main_arg12 main_arg13 main_arg15 main_v13 main_v16
-- ==== Kernel.lean ====
abbrev S50000x128 : Shape := ⟨2, ![50000, 128]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S50000x1 : Shape := ⟨2, ![50000, 1]⟩
abbrev S1x128 : Shape := ⟨2, ![1, 128]⟩
abbrev S_ : Shape := ⟨0, ![]⟩
abbrev S128x1 : Shape := ⟨2, ![128, 1]⟩
abbrev S800000x1 : Shape := ⟨2, ![800000, 1]⟩
abbrev S800000x128 : Shape := ⟨2, ![800000, 128]⟩
abbrev S1x128x128 : Shape := ⟨3, ![1, 128, 128]⟩
abbrev S5000x128 : Shape := ⟨2, ![5000, 128]⟩
abbrev S1x10 : Shape := ⟨2, ![1, 10]⟩

abbrev nBuf : Space → Nat
  | .hbm => 203
  | .vmem => 144
  | .smem => 0
  | _ => 0

abbrev hbmTy0_0 (i : Nat) : BufTy := match i % 128 with
  | 0 => ⟨S50000x128, .f32⟩
  | 1 => ⟨S4x128x128, .f32⟩
  | 2 => ⟨S4x128, .f32⟩
  | 3 => ⟨S4x128x128, .f32⟩
  | 4 => ⟨S4x128, .f32⟩
  | 5 => ⟨S4x128, .f32⟩
  | 6 => ⟨S4x128, .f32⟩
  | 7 => ⟨S4x128, .f32⟩
  | 8 => ⟨S128x128, .f32⟩
  | 9 => ⟨S128, .f32⟩
  | 10 => ⟨S128x128, .f32⟩
  | 11 => ⟨S128, .f32⟩
  | 12 => ⟨S128x10, .f32⟩
  | 13 => ⟨S10, .f32⟩
  | 14 => ⟨S2x800000, .i32⟩
  | 15 => ⟨S50000, .i32⟩
  | 16 => ⟨S1x800000, .i32⟩
  | 17 => ⟨S800000, .i32⟩
  | 18 => ⟨S1x800000, .i32⟩
  | 19 => ⟨S800000, .i32⟩
  | 20 => ⟨S128, .i32⟩
  | 21 => ⟨S50000x1, .i32⟩
  | 22 => ⟨S1x128, .i32⟩
  | 23 => ⟨S50000x128, .i32⟩
  | 24 => ⟨S50000x128, .i32⟩
  | 25 => ⟨S50000x128, .i1⟩
  | 26 => ⟨S50000x128, .bf16⟩
  | 27 => ⟨S50000x128, .f32⟩
  | 28 => ⟨S_, .f32⟩
  | 29 => ⟨S128, .f32⟩
  | 30 => ⟨S1x128, .f32⟩
  | 31 => ⟨S_, .f32⟩
  | 32 => ⟨S1x128, .f32⟩
  | 33 => ⟨S1x128, .f32⟩
  | 34 => ⟨S128x1, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x128, .f32⟩
  | 44 => ⟨S_, .f32⟩
  | 45 => ⟨S50000x128, .f32⟩
  | 46 => ⟨S800000x1, .i32⟩
  | 47 => ⟨S50000x128, .f32⟩
  | 48 => ⟨S1x128x128, .f32⟩
  | 49 => ⟨S128x128, .f32⟩
  | 50 => ⟨S1x128, .f32⟩
  | 51 => ⟨S128, .f32⟩
  | 52 => ⟨S1x128x128, .f32⟩
  | 53 => ⟨S128x128, .f32⟩
  | 54 => ⟨S1x128, .f32⟩
  | 55 => ⟨S128, .f32⟩
  | 56 => ⟨S1x128, .f32⟩
  | 57 => ⟨S1x128, .f32⟩
  | 58 => ⟨S50000x128, .f32⟩
  | 59 => ⟨S128x128, .f32⟩
  | 60 => ⟨S128x128, .f32⟩
  | 61 => ⟨S128x128, .f32⟩
  | 62 => ⟨S1x128, .f32⟩
  | 63 => ⟨S128, .f32⟩
  | 64 => ⟨S1x128, .f32⟩
  | 65 => ⟨S50000x128, .f32⟩
  | 66 => ⟨S128x128, .f32⟩
  | 67 => ⟨S128x128, .f32⟩
  | 68 => ⟨S128x128, .f32⟩
  | 69 => ⟨S1x128, .f32⟩
  | 70 => ⟨S128, .f32⟩
  | 71 => ⟨S1x128, .f32⟩
  | 72 => ⟨S128, .f32⟩
  | 73 => ⟨S1x128, .f32⟩
  | 74 => ⟨S1x128, .f32⟩
  | 75 => ⟨S50000x128, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x128, .f32⟩
  | 85 => ⟨S_, .f32⟩
  | 86 => ⟨S50000x128, .f32⟩
  | 87 => ⟨S800000x1, .i32⟩
  | 88 => ⟨S50000x128, .f32⟩
  | 89 => ⟨S1x128x128, .f32⟩
  | 90 => ⟨S128x128, .f32⟩
  | 91 => ⟨S1x128, .f32⟩
  | 92 => ⟨S128, .f32⟩
  | 93 => ⟨S1x128x128, .f32⟩
  | 94 => ⟨S128x128, .f32⟩
  | 95 => ⟨S1x128, .f32⟩
  | 96 => ⟨S128, .f32⟩
  | 97 => ⟨S1x128, .f32⟩
  | 98 => ⟨S1x128, .f32⟩
  | 99 => ⟨S50000x128, .f32⟩
  | 100 => ⟨S128x128, .f32⟩
  | 101 => ⟨S128x128, .f32⟩
  | 102 => ⟨S128x128, .f32⟩
  | 103 => ⟨S1x128, .f32⟩
  | 104 => ⟨S128, .f32⟩
  | 105 => ⟨S1x128, .f32⟩
  | 106 => ⟨S50000x128, .f32⟩
  | 107 => ⟨S128x128, .f32⟩
  | 108 => ⟨S128x128, .f32⟩
  | 109 => ⟨S128x128, .f32⟩
  | 110 => ⟨S1x128, .f32⟩
  | 111 => ⟨S128, .f32⟩
  | 112 => ⟨S1x128, .f32⟩
  | 113 => ⟨S128, .f32⟩
  | 114 => ⟨S1x128, .f32⟩
  | 115 => ⟨S1x128, .f32⟩
  | 116 => ⟨S50000x128, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x128, .f32⟩
  | 126 => ⟨S_, .f32⟩
  | 127 => ⟨S50000x128, .f32⟩
  | _ => ⟨S50000x128, .f32⟩

abbrev hbmTy0_1 (i : Nat) : BufTy := match i % 128 with
  | 0 => ⟨S800000x1, .i32⟩
  | 1 => ⟨S50000x128, .f32⟩
  | 2 => ⟨S1x128x128, .f32⟩
  | 3 => ⟨S128x128, .f32⟩
  | 4 => ⟨S1x128, .f32⟩
  | 5 => ⟨S128, .f32⟩
  | 6 => ⟨S1x128x128, .f32⟩
  | 7 => ⟨S128x128, .f32⟩
  | 8 => ⟨S1x128, .f32⟩
  | 9 => ⟨S128, .f32⟩
  | 10 => ⟨S1x128, .f32⟩
  | 11 => ⟨S1x128, .f32⟩
  | 12 => ⟨S50000x128, .f32⟩
  | 13 => ⟨S128x128, .f32⟩
  | 14 => ⟨S128x128, .f32⟩
  | 15 => ⟨S128x128, .f32⟩
  | 16 => ⟨S1x128, .f32⟩
  | 17 => ⟨S128, .f32⟩
  | 18 => ⟨S1x128, .f32⟩
  | 19 => ⟨S50000x128, .f32⟩
  | 20 => ⟨S128x128, .f32⟩
  | 21 => ⟨S128x128, .f32⟩
  | 22 => ⟨S128x128, .f32⟩
  | 23 => ⟨S1x128, .f32⟩
  | 24 => ⟨S128, .f32⟩
  | 25 => ⟨S1x128, .f32⟩
  | 26 => ⟨S128, .f32⟩
  | 27 => ⟨S1x128, .f32⟩
  | 28 => ⟨S1x128, .f32⟩
  | 29 => ⟨S50000x128, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x128, .f32⟩
  | 39 => ⟨S_, .f32⟩
  | 40 => ⟨S50000x128, .f32⟩
  | 41 => ⟨S800000x1, .i32⟩
  | 42 => ⟨S50000x128, .f32⟩
  | 43 => ⟨S1x128x128, .f32⟩
  | 44 => ⟨S128x128, .f32⟩
  | 45 => ⟨S1x128, .f32⟩
  | 46 => ⟨S128, .f32⟩
  | 47 => ⟨S1x128x128, .f32⟩
  | 48 => ⟨S128x128, .f32⟩
  | 49 => ⟨S1x128, .f32⟩
  | 50 => ⟨S128, .f32⟩
  | 51 => ⟨S1x128, .f32⟩
  | 52 => ⟨S1x128, .f32⟩
  | 53 => ⟨S50000x128, .f32⟩
  | 54 => ⟨S128x128, .f32⟩
  | 55 => ⟨S128x128, .f32⟩
  | 56 => ⟨S128x128, .f32⟩
  | 57 => ⟨S1x128, .f32⟩
  | 58 => ⟨S128, .f32⟩
  | 59 => ⟨S1x128, .f32⟩
  | 60 => ⟨S50000x128, .f32⟩
  | 61 => ⟨S128x128, .f32⟩
  | 62 => ⟨S128x128, .f32⟩
  | 63 => ⟨S128x128, .f32⟩
  | 64 => ⟨S1x128, .f32⟩
  | 65 => ⟨S128, .f32⟩
  | 66 => ⟨S1x128, .f32⟩
  | 67 => ⟨S128, .f32⟩
  | 68 => ⟨S1x128, .f32⟩
  | 69 => ⟨S1x128, .f32⟩
  | 70 => ⟨S50000x128, .f32⟩
  | 71 => ⟨S1x128, .f32⟩
  | 72 => ⟨S1x128, .f32⟩
  | 73 => ⟨S1x10, .f32⟩
  | 74 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev vmemTy0_0 (i : Nat) : BufTy := match i % 128 with
  | 0 => ⟨S5000x128, .f32⟩
  | 1 => ⟨S5000x128, .f32⟩
  | 2 => ⟨S5000x128, .f32⟩
  | 3 => ⟨S5000x128, .f32⟩
  | 4 => ⟨S5000x128, .bf16⟩
  | 5 => ⟨S5000x128, .bf16⟩
  | 6 => ⟨S128x128, .f32⟩
  | 7 => ⟨S1x128, .f32⟩
  | 8 => ⟨S128x128, .f32⟩
  | 9 => ⟨S1x128, .f32⟩
  | 10 => ⟨S5000x128, .f32⟩
  | 11 => ⟨S5000x128, .f32⟩
  | 12 => ⟨S128x128, .f32⟩
  | 13 => ⟨S128x128, .f32⟩
  | 14 => ⟨S5000x128, .f32⟩
  | 15 => ⟨S5000x128, .f32⟩
  | 16 => ⟨S5000x128, .bf16⟩
  | 17 => ⟨S5000x128, .bf16⟩
  | 18 => ⟨S128x128, .f32⟩
  | 19 => ⟨S1x128, .f32⟩
  | 20 => ⟨S5000x128, .f32⟩
  | 21 => ⟨S5000x128, .f32⟩
  | 22 => ⟨S128x128, .f32⟩
  | 23 => ⟨S128x128, .f32⟩
  | 24 => ⟨S5000x128, .f32⟩
  | 25 => ⟨S5000x128, .f32⟩
  | 26 => ⟨S5000x128, .bf16⟩
  | 27 => ⟨S5000x128, .bf16⟩
  | 28 => ⟨S128x128, .f32⟩
  | 29 => ⟨S1x128, .f32⟩
  | 30 => ⟨S1x128, .f32⟩
  | 31 => ⟨S5000x128, .f32⟩
  | 32 => ⟨S5000x128, .f32⟩
  | 33 => ⟨S5000x128, .f32⟩
  | 34 => ⟨S5000x128, .f32⟩
  | 35 => ⟨S5000x128, .f32⟩
  | 36 => ⟨S5000x128, .f32⟩
  | 37 => ⟨S5000x128, .bf16⟩
  | 38 => ⟨S5000x128, .bf16⟩
  | 39 => ⟨S128x128, .f32⟩
  | 40 => ⟨S1x128, .f32⟩
  | 41 => ⟨S128x128, .f32⟩
  | 42 => ⟨S1x128, .f32⟩
  | 43 => ⟨S5000x128, .f32⟩
  | 44 => ⟨S5000x128, .f32⟩
  | 45 => ⟨S128x128, .f32⟩
  | 46 => ⟨S128x128, .f32⟩
  | 47 => ⟨S5000x128, .f32⟩
  | 48 => ⟨S5000x128, .f32⟩
  | 49 => ⟨S5000x128, .bf16⟩
  | 50 => ⟨S5000x128, .bf16⟩
  | 51 => ⟨S128x128, .f32⟩
  | 52 => ⟨S1x128, .f32⟩
  | 53 => ⟨S5000x128, .f32⟩
  | 54 => ⟨S5000x128, .f32⟩
  | 55 => ⟨S128x128, .f32⟩
  | 56 => ⟨S128x128, .f32⟩
  | 57 => ⟨S5000x128, .f32⟩
  | 58 => ⟨S5000x128, .f32⟩
  | 59 => ⟨S5000x128, .bf16⟩
  | 60 => ⟨S5000x128, .bf16⟩
  | 61 => ⟨S128x128, .f32⟩
  | 62 => ⟨S1x128, .f32⟩
  | 63 => ⟨S1x128, .f32⟩
  | 64 => ⟨S5000x128, .f32⟩
  | 65 => ⟨S5000x128, .f32⟩
  | 66 => ⟨S5000x128, .f32⟩
  | 67 => ⟨S5000x128, .f32⟩
  | 68 => ⟨S5000x128, .f32⟩
  | 69 => ⟨S5000x128, .f32⟩
  | 70 => ⟨S5000x128, .bf16⟩
  | 71 => ⟨S5000x128, .bf16⟩
  | 72 => ⟨S128x128, .f32⟩
  | 73 => ⟨S1x128, .f32⟩
  | 74 => ⟨S128x128, .f32⟩
  | 75 => ⟨S1x128, .f32⟩
  | 76 => ⟨S5000x128, .f32⟩
  | 77 => ⟨S5000x128, .f32⟩
  | 78 => ⟨S128x128, .f32⟩
  | 79 => ⟨S128x128, .f32⟩
  | 80 => ⟨S5000x128, .f32⟩
  | 81 => ⟨S5000x128, .f32⟩
  | 82 => ⟨S5000x128, .bf16⟩
  | 83 => ⟨S5000x128, .bf16⟩
  | 84 => ⟨S128x128, .f32⟩
  | 85 => ⟨S1x128, .f32⟩
  | 86 => ⟨S5000x128, .f32⟩
  | 87 => ⟨S5000x128, .f32⟩
  | 88 => ⟨S128x128, .f32⟩
  | 89 => ⟨S128x128, .f32⟩
  | 90 => ⟨S5000x128, .f32⟩
  | 91 => ⟨S5000x128, .f32⟩
  | 92 => ⟨S5000x128, .bf16⟩
  | 93 => ⟨S5000x128, .bf16⟩
  | 94 => ⟨S128x128, .f32⟩
  | 95 => ⟨S1x128, .f32⟩
  | 96 => ⟨S1x128, .f32⟩
  | 97 => ⟨S5000x128, .f32⟩
  | 98 => ⟨S5000x128, .f32⟩
  | 99 => ⟨S5000x128, .f32⟩
  | 100 => ⟨S5000x128, .f32⟩
  | 101 => ⟨S5000x128, .f32⟩
  | 102 => ⟨S5000x128, .f32⟩
  | 103 => ⟨S5000x128, .bf16⟩
  | 104 => ⟨S5000x128, .bf16⟩
  | 105 => ⟨S128x128, .f32⟩
  | 106 => ⟨S1x128, .f32⟩
  | 107 => ⟨S128x128, .f32⟩
  | 108 => ⟨S1x128, .f32⟩
  | 109 => ⟨S5000x128, .f32⟩
  | 110 => ⟨S5000x128, .f32⟩
  | 111 => ⟨S128x128, .f32⟩
  | 112 => ⟨S128x128, .f32⟩
  | 113 => ⟨S5000x128, .f32⟩
  | 114 => ⟨S5000x128, .f32⟩
  | 115 => ⟨S5000x128, .bf16⟩
  | 116 => ⟨S5000x128, .bf16⟩
  | 117 => ⟨S128x128, .f32⟩
  | 118 => ⟨S1x128, .f32⟩
  | 119 => ⟨S5000x128, .f32⟩
  | 120 => ⟨S5000x128, .f32⟩
  | 121 => ⟨S128x128, .f32⟩
  | 122 => ⟨S128x128, .f32⟩
  | 123 => ⟨S5000x128, .f32⟩
  | 124 => ⟨S5000x128, .f32⟩
  | 125 => ⟨S5000x128, .bf16⟩
  | 126 => ⟨S5000x128, .bf16⟩
  | 127 => ⟨S128x128, .f32⟩
  | _ => ⟨S50000x128, .f32⟩

abbrev vmemTy0_1 (i : Nat) : BufTy := match i % 128 with
  | 0 => ⟨S1x128, .f32⟩
  | 1 => ⟨S1x128, .f32⟩
  | 2 => ⟨S5000x128, .f32⟩
  | 3 => ⟨S5000x128, .f32⟩
  | 4 => ⟨S5000x128, .f32⟩
  | 5 => ⟨S5000x128, .f32⟩
  | 6 => ⟨S5000x128, .bf16⟩
  | 7 => ⟨S5000x128, .bf16⟩
  | 8 => ⟨S128x128, .f32⟩
  | 9 => ⟨S1x128, .f32⟩
  | 10 => ⟨S128x128, .f32⟩
  | 11 => ⟨S1x128, .f32⟩
  | 12 => ⟨S128x10, .f32⟩
  | 13 => ⟨S1x10, .f32⟩
  | 14 => ⟨S128x10, .f32⟩
  | 15 => ⟨S128x128, .f32⟩
  | _ => ⟨S50000x128, .f32⟩

abbrev vmemTy (i : Nat) : BufTy := match i / 128 with
  | 0 => vmemTy0_0 i
  | 1 => vmemTy0_1 i
  | _ => ⟨S50000x128, .f32⟩

abbrev bufTy : (tb : Table) → Fin (tcTables nBuf tb) → BufTy
  | .hbm, ⟨i, _⟩ => hbmTy i
  | .local _ .vmem, ⟨i, _⟩ => vmemTy i
  | _, _ => ⟨S50000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 135 → Bool
  | ⟨i, _⟩ => dmaSemScopedAt i

abbrev sig : RefSig :=
  ofTc nBuf bufTy 0 135 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37_0 : Ref sig .tc := ⟨.hbm, 58, rfl⟩
abbrev main_v37_1 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43_0 : Ref sig .tc := ⟨.hbm, 65, rfl⟩
abbrev main_v43_1 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_3 : Ref sig .tc := ⟨.hbm, 76, rfl⟩
abbrev main_v53 : Ref sig .tc := ⟨.hbm, 77, rfl⟩
abbrev main_v54 : Ref sig .tc := ⟨.hbm, 78, rfl⟩
abbrev main_c_4 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_5 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73_0 : Ref sig .tc := ⟨.hbm, 99, rfl⟩
abbrev main_v73_1 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79_0 : Ref sig .tc := ⟨.hbm, 106, rfl⟩
abbrev main_v79_1 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_c_6 : Ref sig .tc := ⟨.hbm, 117, rfl⟩
abbrev main_v89 : Ref sig .tc := ⟨.hbm, 118, rfl⟩
abbrev main_v90 : Ref sig .tc := ⟨.hbm, 119, rfl⟩
abbrev main_c_7 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_8 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109_0 : Ref sig .tc := ⟨.hbm, 140, rfl⟩
abbrev main_v109_1 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115_0 : Ref sig .tc := ⟨.hbm, 147, rfl⟩
abbrev main_v115_1 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_c_9 : Ref sig .tc := ⟨.hbm, 158, rfl⟩
abbrev main_v125 : Ref sig .tc := ⟨.hbm, 159, rfl⟩
abbrev main_v126 : Ref sig .tc := ⟨.hbm, 160, rfl⟩
abbrev main_c_10 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_cst_11 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145_0 : Ref sig .tc := ⟨.hbm, 181, rfl⟩
abbrev main_v145_1 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151_0 : Ref sig .tc := ⟨.hbm, 188, rfl⟩
abbrev main_v151_1 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_scratch0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg5_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg7_0 : Ref sig .tc := ⟨.vmem, 43, rfl⟩
abbrev cc3_stg7_1 : Ref sig .tc := ⟨.vmem, 44, rfl⟩
abbrev cc3_stg8_0 : Ref sig .tc := ⟨.vmem, 45, rfl⟩
abbrev cc3_scratch0 : Ref sig .tc := ⟨.vmem, 46, rfl⟩
abbrev cc4_stg0_0 : Ref sig .tc := ⟨.vmem, 47, rfl⟩
abbrev cc4_stg0_1 : Ref sig .tc := ⟨.vmem, 48, rfl⟩
abbrev cc4_stg1_0 : Ref sig .tc := ⟨.vmem, 49, rfl⟩
abbrev cc4_stg1_1 : Ref sig .tc := ⟨.vmem, 50, rfl⟩
abbrev cc4_stg2_0 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg4_1 : Ref sig .tc := ⟨.vmem, 54, rfl⟩
abbrev cc4_stg5_0 : Ref sig .tc := ⟨.vmem, 55, rfl⟩
abbrev cc4_scratch0 : Ref sig .tc := ⟨.vmem, 56, rfl⟩
abbrev cc5_stg0_0 : Ref sig .tc := ⟨.vmem, 57, rfl⟩
abbrev cc5_stg0_1 : Ref sig .tc := ⟨.vmem, 58, rfl⟩
abbrev cc5_stg1_0 : Ref sig .tc := ⟨.vmem, 59, rfl⟩
abbrev cc5_stg1_1 : Ref sig .tc := ⟨.vmem, 60, rfl⟩
abbrev cc5_stg2_0 : Ref sig .tc := ⟨.vmem, 61, rfl⟩
abbrev cc5_stg3_0 : Ref sig .tc := ⟨.vmem, 62, rfl⟩
abbrev cc5_stg4_0 : Ref sig .tc := ⟨.vmem, 63, rfl⟩
abbrev cc5_stg5_0 : Ref sig .tc := ⟨.vmem, 64, rfl⟩
abbrev cc5_stg5_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg2_1 : Ref sig .tc := ⟨.vmem, 71, rfl⟩
abbrev cc6_stg3_0 : Ref sig .tc := ⟨.vmem, 72, rfl⟩
abbrev cc6_stg4_0 : Ref sig .tc := ⟨.vmem, 73, rfl⟩
abbrev cc6_stg5_0 : Ref sig .tc := ⟨.vmem, 74, rfl⟩
abbrev cc6_stg6_0 : Ref sig .tc := ⟨.vmem, 75, rfl⟩
abbrev cc6_stg7_0 : Ref sig .tc := ⟨.vmem, 76, rfl⟩
abbrev cc6_stg7_1 : Ref sig .tc := ⟨.vmem, 77, rfl⟩
abbrev cc6_stg8_0 : Ref sig .tc := ⟨.vmem, 78, rfl⟩
abbrev cc6_scratch0 : Ref sig .tc := ⟨.vmem, 79, rfl⟩
abbrev cc7_stg0_0 : Ref sig .tc := ⟨.vmem, 80, rfl⟩
abbrev cc7_stg0_1 : Ref sig .tc := ⟨.vmem, 81, rfl⟩
abbrev cc7_stg1_0 : Ref sig .tc := ⟨.vmem, 82, rfl⟩
abbrev cc7_stg1_1 : Ref sig .tc := ⟨.vmem, 83, rfl⟩
abbrev cc7_stg2_0 : Ref sig .tc := ⟨.vmem, 84, rfl⟩
abbrev cc7_stg3_0 : Ref sig .tc := ⟨.vmem, 85, rfl⟩
abbrev cc7_stg4_0 : Ref sig .tc := ⟨.vmem, 86, rfl⟩
abbrev cc7_stg4_1 : Ref sig .tc := ⟨.vmem, 87, rfl⟩
abbrev cc7_stg5_0 : Ref sig .tc := ⟨.vmem, 88, rfl⟩
abbrev cc7_scratch0 : Ref sig .tc := ⟨.vmem, 89, rfl⟩
abbrev cc8_stg0_0 : Ref sig .tc := ⟨.vmem, 90, rfl⟩
abbrev cc8_stg0_1 : Ref sig .tc := ⟨.vmem, 91, rfl⟩
abbrev cc8_stg1_0 : Ref sig .tc := ⟨.vmem, 92, rfl⟩
abbrev cc8_stg1_1 : Ref sig .tc := ⟨.vmem, 93, rfl⟩
abbrev cc8_stg2_0 : Ref sig .tc := ⟨.vmem, 94, rfl⟩
abbrev cc8_stg3_0 : Ref sig .tc := ⟨.vmem, 95, rfl⟩
abbrev cc8_stg4_0 : Ref sig .tc := ⟨.vmem, 96, rfl⟩
abbrev cc8_stg5_0 : Ref sig .tc := ⟨.vmem, 97, rfl⟩
abbrev cc8_stg5_1 : Ref sig .tc := ⟨.vmem, 98, rfl⟩
abbrev cc9_stg0_0 : Ref sig .tc := ⟨.vmem, 99, rfl⟩
abbrev cc9_stg0_1 : Ref sig .tc := ⟨.vmem, 100, rfl⟩
abbrev cc9_stg1_0 : Ref sig .tc := ⟨.vmem, 101, rfl⟩
abbrev cc9_stg1_1 : Ref sig .tc := ⟨.vmem, 102, rfl⟩
abbrev cc9_stg2_0 : Ref sig .tc := ⟨.vmem, 103, rfl⟩
abbrev cc9_stg2_1 : Ref sig .tc := ⟨.vmem, 104, rfl⟩
abbrev cc9_stg3_0 : Ref sig .tc := ⟨.vmem, 105, rfl⟩
abbrev cc9_stg4_0 : Ref sig .tc := ⟨.vmem, 106, rfl⟩
abbrev cc9_stg5_0 : Ref sig .tc := ⟨.vmem, 107, rfl⟩
abbrev cc9_stg6_0 : Ref sig .tc := ⟨.vmem, 108, rfl⟩
abbrev cc9_stg7_0 : Ref sig .tc := ⟨.vmem, 109, rfl⟩
abbrev cc9_stg7_1 : Ref sig .tc := ⟨.vmem, 110, rfl⟩
abbrev cc9_stg8_0 : Ref sig .tc := ⟨.vmem, 111, rfl⟩
abbrev cc9_scratch0 : Ref sig .tc := ⟨.vmem, 112, rfl⟩
abbrev cc10_stg0_0 : Ref sig .tc := ⟨.vmem, 113, rfl⟩
abbrev cc10_stg0_1 : Ref sig .tc := ⟨.vmem, 114, rfl⟩
abbrev cc10_stg1_0 : Ref sig .tc := ⟨.vmem, 115, rfl⟩
abbrev cc10_stg1_1 : Ref sig .tc := ⟨.vmem, 116, rfl⟩
abbrev cc10_stg2_0 : Ref sig .tc := ⟨.vmem, 117, rfl⟩
abbrev cc10_stg3_0 : Ref sig .tc := ⟨.vmem, 118, rfl⟩
abbrev cc10_stg4_0 : Ref sig .tc := ⟨.vmem, 119, rfl⟩
abbrev cc10_stg4_1 : Ref sig .tc := ⟨.vmem, 120, rfl⟩
abbrev cc10_stg5_0 : Ref sig .tc := ⟨.vmem, 121, rfl⟩
abbrev cc10_scratch0 : Ref sig .tc := ⟨.vmem, 122, rfl⟩
abbrev cc11_stg0_0 : Ref sig .tc := ⟨.vmem, 123, rfl⟩
abbrev cc11_stg0_1 : Ref sig .tc := ⟨.vmem, 124, rfl⟩
abbrev cc11_stg1_0 : Ref sig .tc := ⟨.vmem, 125, rfl⟩
abbrev cc11_stg1_1 : Ref sig .tc := ⟨.vmem, 126, rfl⟩
abbrev cc11_stg2_0 : Ref sig .tc := ⟨.vmem, 127, rfl⟩
abbrev cc11_stg3_0 : Ref sig .tc := ⟨.vmem, 128, rfl⟩
abbrev cc11_stg4_0 : Ref sig .tc := ⟨.vmem, 129, rfl⟩
abbrev cc11_stg5_0 : Ref sig .tc := ⟨.vmem, 130, rfl⟩
abbrev cc11_stg5_1 : Ref sig .tc := ⟨.vmem, 131, rfl⟩
abbrev cc12_stg0_0 : Ref sig .tc := ⟨.vmem, 132, rfl⟩
abbrev cc12_stg0_1 : Ref sig .tc := ⟨.vmem, 133, rfl⟩
abbrev cc12_stg1_0 : Ref sig .tc := ⟨.vmem, 134, rfl⟩
abbrev cc12_stg1_1 : Ref sig .tc := ⟨.vmem, 135, rfl⟩
abbrev cc12_stg2_0 : Ref sig .tc := ⟨.vmem, 136, rfl⟩
abbrev cc12_stg3_0 : Ref sig .tc := ⟨.vmem, 137, rfl⟩
abbrev cc12_stg4_0 : Ref sig .tc := ⟨.vmem, 138, rfl⟩
abbrev cc12_stg5_0 : Ref sig .tc := ⟨.vmem, 139, rfl⟩
abbrev cc12_stg6_0 : Ref sig .tc := ⟨.vmem, 140, rfl⟩
abbrev cc12_stg7_0 : Ref sig .tc := ⟨.vmem, 141, rfl⟩
abbrev cc12_stg8_0 : Ref sig .tc := ⟨.vmem, 142, rfl⟩
abbrev cc12_scratch0 : Ref sig .tc := ⟨.vmem, 143, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem4_1 : DmaSem sig := 20
abbrev cc1_sem5_0 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem7_0 : DmaSem sig := 41
abbrev cc3_sem7_1 : DmaSem sig := 42
abbrev cc3_sem8_0 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50
abbrev cc4_sem4_1 : DmaSem sig := 51
abbrev cc4_sem5_0 : DmaSem sig := 52
abbrev cc5_sem0_0 : DmaSem sig := 53
abbrev cc5_sem0_1 : DmaSem sig := 54
abbrev cc5_sem1_0 : DmaSem sig := 55
abbrev cc5_sem1_1 : DmaSem sig := 56
abbrev cc5_sem2_0 : DmaSem sig := 57
abbrev cc5_sem3_0 : DmaSem sig := 58
abbrev cc5_sem4_0 : DmaSem sig := 59
abbrev cc5_sem5_0 : DmaSem sig := 60
abbrev cc5_sem5_1 : DmaSem sig := 61
abbrev cc6_sem0_0 : DmaSem sig := 62
abbrev cc6_sem0_1 : DmaSem sig := 63
abbrev cc6_sem1_0 : DmaSem sig := 64
abbrev cc6_sem1_1 : DmaSem sig := 65
abbrev cc6_sem2_0 : DmaSem sig := 66
abbrev cc6_sem2_1 : DmaSem sig := 67
abbrev cc6_sem3_0 : DmaSem sig := 68
abbrev cc6_sem4_0 : DmaSem sig := 69
abbrev cc6_sem5_0 : DmaSem sig := 70
abbrev cc6_sem6_0 : DmaSem sig := 71
abbrev cc6_sem7_0 : DmaSem sig := 72
abbrev cc6_sem7_1 : DmaSem sig := 73
abbrev cc6_sem8_0 : DmaSem sig := 74
abbrev cc7_sem0_0 : DmaSem sig := 75
abbrev cc7_sem0_1 : DmaSem sig := 76
abbrev cc7_sem1_0 : DmaSem sig := 77
abbrev cc7_sem1_1 : DmaSem sig := 78
abbrev cc7_sem2_0 : DmaSem sig := 79
abbrev cc7_sem3_0 : DmaSem sig := 80
abbrev cc7_sem4_0 : DmaSem sig := 81
abbrev cc7_sem4_1 : DmaSem sig := 82
abbrev cc7_sem5_0 : DmaSem sig := 83
abbrev cc8_sem0_0 : DmaSem sig := 84
abbrev cc8_sem0_1 : DmaSem sig := 85
abbrev cc8_sem1_0 : DmaSem sig := 86
abbrev cc8_sem1_1 : DmaSem sig := 87
abbrev cc8_sem2_0 : DmaSem sig := 88
abbrev cc8_sem3_0 : DmaSem sig := 89
abbrev cc8_sem4_0 : DmaSem sig := 90
abbrev cc8_sem5_0 : DmaSem sig := 91
abbrev cc8_sem5_1 : DmaSem sig := 92
abbrev cc9_sem0_0 : DmaSem sig := 93
abbrev cc9_sem0_1 : DmaSem sig := 94
abbrev cc9_sem1_0 : DmaSem sig := 95
abbrev cc9_sem1_1 : DmaSem sig := 96
abbrev cc9_sem2_0 : DmaSem sig := 97
abbrev cc9_sem2_1 : DmaSem sig := 98
abbrev cc9_sem3_0 : DmaSem sig := 99
abbrev cc9_sem4_0 : DmaSem sig := 100
abbrev cc9_sem5_0 : DmaSem sig := 101
abbrev cc9_sem6_0 : DmaSem sig := 102
abbrev cc9_sem7_0 : DmaSem sig := 103
abbrev cc9_sem7_1 : DmaSem sig := 104
abbrev cc9_sem8_0 : DmaSem sig := 105
abbrev cc10_sem0_0 : DmaSem sig := 106
abbrev cc10_sem0_1 : DmaSem sig := 107
abbrev cc10_sem1_0 : DmaSem sig := 108
abbrev cc10_sem1_1 : DmaSem sig := 109
abbrev cc10_sem2_0 : DmaSem sig := 110
abbrev cc10_sem3_0 : DmaSem sig := 111
abbrev cc10_sem4_0 : DmaSem sig := 112
abbrev cc10_sem4_1 : DmaSem sig := 113
abbrev cc10_sem5_0 : DmaSem sig := 114
abbrev cc11_sem0_0 : DmaSem sig := 115
abbrev cc11_sem0_1 : DmaSem sig := 116
abbrev cc11_sem1_0 : DmaSem sig := 117
abbrev cc11_sem1_1 : DmaSem sig := 118
abbrev cc11_sem2_0 : DmaSem sig := 119
abbrev cc11_sem3_0 : DmaSem sig := 120
abbrev cc11_sem4_0 : DmaSem sig := 121
abbrev cc11_sem5_0 : DmaSem sig := 122
abbrev cc11_sem5_1 : DmaSem sig := 123
abbrev cc12_sem0_0 : DmaSem sig := 124
abbrev cc12_sem0_1 : DmaSem sig := 125
abbrev cc12_sem1_0 : DmaSem sig := 126
abbrev cc12_sem1_1 : DmaSem sig := 127
abbrev cc12_sem2_0 : DmaSem sig := 128
abbrev cc12_sem3_0 : DmaSem sig := 129
abbrev cc12_sem4_0 : DmaSem sig := 130
abbrev cc12_sem5_0 : DmaSem sig := 131
abbrev cc12_sem6_0 : DmaSem sig := 132
abbrev cc12_sem7_0 : DmaSem sig := 133
abbrev cc12_sem8_0 : DmaSem sig := 134

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v39 : BitVec 1 := Scalar.cmpi .eq arg0 c9_i32
  let v40 : BitVec 32 := Scalar.extui v39
  let c0_i32_24 : BitVec 32 := 0#32
  let v41 : BitVec 1 := Scalar.cmpi .ne v40 c0_i32_24
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v25 : BitVec 1 := Scalar.cmpi .eq arg0 c9_i32
  let v26 : BitVec 32 := Scalar.extui v25
  let c0_i32_15 : BitVec 32 := 0#32
  let v27 : BitVec 1 := Scalar.cmpi .ne v26 c0_i32_15
  v27

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v40 : BitVec 1 := Scalar.cmpi .eq arg0 c9_i32
  let v41 : BitVec 32 := Scalar.extui v40
  let c0_i32_24 : BitVec 32 := 0#32
  let v42 : BitVec 1 := Scalar.cmpi .ne v41 c0_i32_24
  v42

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S128x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v25 : BitVec 1 := Scalar.cmpi .eq arg0 c9_i32
  let v26 : BitVec 32 := Scalar.extui v25
  let c0_i32_15 : BitVec 32 := 0#32
  let v27 : BitVec 1 := Scalar.cmpi .ne v26 c0_i32_15
  v27

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v40 : BitVec 1 := Scalar.cmpi .eq arg0 c9_i32
  let v41 : BitVec 32 := Scalar.extui v40
  let c0_i32_24 : BitVec 32 := 0#32
  let v42 : BitVec 1 := Scalar.cmpi .ne v41 c0_i32_24
  v42

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 1 → Memref sig .tc .vmem S128x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev grid7 : Pipeline.Grid := ⟨1, ![10], ![false]⟩

def k7_cond2 (i : grid7.Coords) : BitVec 1 :=
  let arg0 : BitVec 32 := BitVec.ofNat 32 (i 0).val
  let c9_i32 : BitVec 32 := 9#32
  let v25 : BitVec 1 := Scalar.cmpi .eq arg0 c9_i32
  let v26 : BitVec 32 := Scalar.extui v25
  let c0_i32_15 : BitVec 32 := 0#32
  let v27 : BitVec 1 := Scalar.cmpi .ne v26 c0_i32_15
  v27

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S128x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def k9_cond2 (i : grid9.Coords) : BitVec 1 :=
  let arg0 : BitVec 32 := BitVec.ofNat 32 (i 0).val
  let c9_i32 : BitVec 32 := 9#32
  let v40 : BitVec 1 := Scalar.cmpi .eq arg0 c9_i32
  let v41 : BitVec 32 := Scalar.extui v40
  let c0_i32_24 : BitVec 32 := 0#32
  let v42 : BitVec 1 := Scalar.cmpi .ne v41 c0_i32_24
  v42

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x128 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S128x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S128x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S5000x128 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev stage9_8 : Fin 1 → Memref sig .tc .vmem S128x128 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev grid10 : Pipeline.Grid := ⟨1, ![10], ![false]⟩

def k10_cond2 (i : grid10.Coords) : BitVec 1 :=
  let arg0 : BitVec 32 := BitVec.ofNat 32 (i 0).val
  let c9_i32 : BitVec 32 := 9#32
  let v25 : BitVec 1 := Scalar.cmpi .eq arg0 c9_i32
  let v26 : BitVec 32 := Scalar.extui v25
  let c0_i32_15 : BitVec 32 := 0#32
  let v27 : BitVec 1 := Scalar.cmpi .ne v26 c0_i32_15
  v27

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x128 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S128x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S5000x128 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 1 → Memref sig .tc .vmem S128x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x128 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S128x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![10], ![false]⟩

def k12_cond2 (i : grid12.Coords) : BitVec 1 :=
  let arg0 : BitVec 32 := BitVec.ofNat 32 (i 0).val
  let c9_i32 : BitVec 32 := 9#32
  let v14 : BitVec 1 := Scalar.cmpi .eq arg0 c9_i32
  let v15 : BitVec 32 := Scalar.extui v14
  let c0_i32_8 : BitVec 32 := 0#32
  let v16 : BitVec 1 := Scalar.cmpi .ne v15 c0_i32_8
  v16

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_8 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x128 .bf16 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S128x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S128x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S1x128 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S128x10 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 1 → Memref sig .tc .vmem S1x10 .f32 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))
abbrev reads12_7 : Fin grid12.rank → Bool := ![false]

abbrev stage12_8 : Fin 1 → Memref sig .tc .vmem S128x10 .f32 := fun | 0 => Memref.whole cc12_stg8_0 | ⟨_ + 1, h⟩ => absurd h (Nat.not_lt.2 (Nat.le_add_left _ _))
abbrev sem12_8 : Fin 1 → DmaSem sig := fun | 0 => cc12_sem8_0 | ⟨_ + 1, h⟩ => absurd h (Nat.not_lt.2 (Nat.le_add_left _ _))
abbrev reads12_8 : Fin grid12.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  bitsLt_bf16_f32 : FTy.bits .bf16 < FTy.bits .f32
  reducesTo_S50000x128_S128_d0 : S50000x128.ReducesTo [0] S128
  h_S_ : 0 < S_.numel
  bcast_S_S1x128 : S_.BroadcastsInDim S1x128 (![] : Fin 0 → Fin S1x128.rank)
  transposes_S1x128_S128x1_1_0 : S1x128.Transposes [1, 0] S128x1
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S128x1_S128x128_0_1 : S128x1.BroadcastsInDim S128x128 (![0, 1] : Fin 2 → Fin S128x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  shapeCasts_S10_S1x10 : S10.ShapeCasts S1x10
  broadcasts_S1x128_S128x128 : S1x128.Broadcasts S128x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  reduces_S128x10_S128 : S128x10.Reduces [1] S128
  shapeCasts_S128_S128x1 : S128.ShapeCasts S128x1
  broadcasts_S128x1_S128x10 : S128x1.Broadcasts S128x10
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S5000x128_S128x128_0_0_1_1_n_n_wf : DotDims.WF S5000x128 S5000x128 S128x128 [0] [0] [1] [1] [] []
  dot_S128x128_S128x128_S128x128_1_0_0_1_n_n_wf : DotDims.WF S128x128 S128x128 S128x128 [1] [0] [0] [1] [] []
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .bf16 = 32 ∨ (Rect.block (s := S50000x128) S5000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .bf16 = 32 ∨ (Rect.block (s := S50000x128) S5000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .bf16 = 32 ∨ (Rect.block (s := S50000x128) S5000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .bf16 = 32 ∨ (Rect.block (s := S50000x128) S5000x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S50000x128.size a
  hwx3_7 : ∀ i : grid3.Coords, EltTy.bits .f32 = 32 ∨ (Rect.block (s := S50000x128) S5000x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .f32 = 32 ∨ (Rect.block (s := S128x128) S128x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .bf16 = 32 ∨ (Rect.block (s := S50000x128) S5000x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .bf16 = 32 ∨ (Rect.block (s := S50000x128) S5000x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .bf16 = 32 ∨ (Rect.block (s := S50000x128) S5000x128.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x128.size a ≤ S50000x128.size a
  hwx6_7 : ∀ i : grid6.Coords, EltTy.bits .f32 = 32 ∨ (Rect.block (s := S50000x128) S5000x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S128x128.size a ≤ S128x128.size a
  hwx6_8 : ∀ i : grid6.Coords, EltTy.bits .f32 = 32 ∨ (Rect.block (s := S128x128) S128x128.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .bf16 = 32 ∨ (Rect.block (s := S50000x128) S5000x128.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S50000x128.size a
  hwx7_4 : ∀ i : grid7.Coords, EltTy.bits .f32 = 32 ∨ (Rect.block (s := S50000x128) S5000x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x128.size a ≤ S128x128.size a
  hwx7_5 : ∀ i : grid7.Coords, EltTy.bits .f32 = 32 ∨ (Rect.block (s := S128x128) S128x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .bf16 = 32 ∨ (Rect.block (s := S50000x128) S5000x128.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S50000x128.size a
  hwx8_5 : ∀ i : grid8.Coords, EltTy.bits .f32 = 32 ∨ (Rect.block (s := S50000x128) S5000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S50000x128.size a
  hwx9_1 : ∀ i : grid9.Coords, EltTy.bits .f32 = 32 ∨ (Rect.block (s := S50000x128) S5000x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x128.size a ≤ S50000x128.size a
  hwx9_2 : ∀ i : grid9.Coords, EltTy.bits .bf16 = 32 ∨ (Rect.block (s := S50000x128) S5000x128.size (cc9_transform_2 i) (hinb9_2 i)).WholeWords (EltTy.packing .bf16)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x128.size a ≤ S128x128.size a
  hwx9_3 : ∀ i : grid9.Coords, EltTy.bits .f32 = 32 ∨ (Rect.block (s := S128x128) S128x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S128x128.size a ≤ S128x128.size a
  hwx9_5 : ∀ i : grid9.Coords, EltTy.bits .f32 = 32 ∨ (Rect.block (s := S128x128) S128x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S5000x128.size a ≤ S50000x128.size a
  hwx9_7 : ∀ i : grid9.Coords, EltTy.bits .f32 = 32 ∨ (Rect.block (s := S50000x128) S5000x128.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S128x128.size a ≤ S128x128.size a
  hwx9_8 : ∀ i : grid9.Coords, EltTy.bits .f32 = 32 ∨ (Rect.block (s := S128x128) S128x128.size (cc9_transform_8 i) (hinb9_8 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x128.size a ≤ S50000x128.size a
  hwx10_1 : ∀ i : grid10.Coords, EltTy.bits .bf16 = 32 ∨ (Rect.block (s := S50000x128) S5000x128.size (cc10_transform_1 i) (hinb10_1 i)).WholeWords (EltTy.packing .bf16)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x128.size a ≤ S128x128.size a
  hwx10_2 : ∀ i : grid10.Coords, EltTy.bits .f32 = 32 ∨ (Rect.block (s := S128x128) S128x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S5000x128.size a ≤ S50000x128.size a
  hwx10_4 : ∀ i : grid10.Coords, EltTy.bits .f32 = 32 ∨ (Rect.block (s := S50000x128) S5000x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S128x128.size a ≤ S128x128.size a
  hwx10_5 : ∀ i : grid10.Coords, EltTy.bits .f32 = 32 ∨ (Rect.block (s := S128x128) S128x128.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x128.size a ≤ S50000x128.size a
  hwx11_1 : ∀ i : grid11.Coords, EltTy.bits .bf16 = 32 ∨ (Rect.block (s := S50000x128) S5000x128.size (cc11_transform_1 i) (hinb11_1 i)).WholeWords (EltTy.packing .bf16)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S128x128.size a ≤ S128x128.size a
  hwx11_2 : ∀ i : grid11.Coords, EltTy.bits .f32 = 32 ∨ (Rect.block (s := S128x128) S128x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x128.size a ≤ S50000x128.size a
  hwx11_5 : ∀ i : grid11.Coords, EltTy.bits .f32 = 32 ∨ (Rect.block (s := S50000x128) S5000x128.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S50000x128.size a
  hwx12_0 : ∀ i : grid12.Coords, EltTy.bits .f32 = 32 ∨ (Rect.block (s := S50000x128) S5000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x128.size a ≤ S50000x128.size a
  hwx12_1 : ∀ i : grid12.Coords, EltTy.bits .bf16 = 32 ∨ (Rect.block (s := S50000x128) S5000x128.size (cc12_transform_1 i) (hinb12_1 i)).WholeWords (EltTy.packing .bf16)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S128x128.size a ≤ S128x128.size a
  hwx12_2 : ∀ i : grid12.Coords, EltTy.bits .f32 = 32 ∨ (Rect.block (s := S128x128) S128x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S128x128.size a ≤ S128x128.size a
  hwx12_4 : ∀ i : grid12.Coords, EltTy.bits .f32 = 32 ∨ (Rect.block (s := S128x128) S128x128.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S1x128.size a ≤ S1x128.size a
  hwx12_5 : ∀ i : grid12.Coords, EltTy.bits .f32 = 32 ∨ (Rect.block (s := S1x128) S1x128.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S128x10.size a ≤ S128x10.size a
  hwx12_6 : ∀ i : grid12.Coords, EltTy.bits .f32 = 32 ∨ (Rect.block (s := S128x10) S128x10.size (cc12_transform_6 i) (hinb12_6 i)).WholeWords (EltTy.packing .f32)
  hstage12_7 : ∀ j, (stage12_7 j).IsWhole
  nbuf12_7 : grid12.bufCount reads12_7 true = 1
  hreads12_7 : ∀ i i' : grid12.Coords, (∀ a, reads12_7 a = true → i a = i' a) → cc12_transform_7 i = cc12_transform_7 i'
  hinb12_7 : ∀ (i : grid12.Coords) a, (cc12_transform_7 i a + 1) * S1x10.size a ≤ S1x10.size a
  hwx12_7 : ∀ i : grid12.Coords, EltTy.bits .f32 = 32 ∨ (Rect.block (s := S1x10) S1x10.size (cc12_transform_7 i) (hinb12_7 i)).WholeWords (EltTy.packing .f32)
  hstage12_8 : ∀ j, (stage12_8 j).IsWhole
  nbuf12_8 : grid12.bufCount reads12_8 true = 1
  hreads12_8 : ∀ i i' : grid12.Coords, (∀ a, reads12_8 a = true → i a = i' a) → cc12_transform_8 i = cc12_transform_8 i'
  hinb12_8 : ∀ (i : grid12.Coords) a, (cc12_transform_8 i a + 1) * S128x10.size a ≤ S128x10.size a
  hwx12_8 : ∀ i : grid12.Coords, EltTy.bits .f32 = 32 ∨ (Rect.block (s := S128x10) S128x10.size (cc12_transform_8 i) (hinb12_8 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v37_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v37_1) S128x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v37_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v43_1) S128x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v43_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v52) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v10) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v64) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v71) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v72) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v73_0) S5000x128.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v73_1) S128x128.size cc3_transform_8 reads3_8 true true 1 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev idle3 : Fin 9 → grid3.Coords → Bool := fun | 0 => fun _ => false | 1 => fun _ => false | 2 => fun _ => false | 3 => fun _ => false | 4 => fun _ => false | 5 => fun _ => false | 6 => fun _ => false | 7 => fun _ => false | 8 => fun i => !(k3_cond2 i == 1#1) | ⟨_ + 9, h⟩ => absurd h (Nat.not_lt.2 (Nat.le_add_left _ _))

abbrev win4_0 : Pipeline.Window sig grid4 :=
  Pipeline.Window.ofSpec (Memref.whole main_v73_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v10) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v75) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v78) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v79_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v79_1) S128x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun _ => false | 5 => fun i => !(k4_cond2 i == 1#1) | ⟨_ + 6, h⟩ => absurd h (Nat.not_lt.2 (Nat.le_add_left _ _))

abbrev win5_0 : Pipeline.Window sig grid5 :=
  Pipeline.Window.ofSpec (Memref.whole main_v79_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v10) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v81) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v86) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v87) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v88) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v88) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v98) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v10) S5000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v100) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v107) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v104) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v108) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v109_0) S5000x128.size cc6_transform_7 reads6_7 true false 2 stage6_7 sem6_7
    hrank6 hreads6_7 hinb6_7 nbuf6_7 (Memref.isWhole_whole _) hwx6_7 hstage6_7

abbrev win6_8 : Pipeline.Window sig grid6 :=
  Pipeline.Window.ofSpec (Memref.whole main_v109_1) S128x128.size cc6_transform_8 reads6_8 true true 1 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev idle6 : Fin 9 → grid6.Coords → Bool := fun | 0 => fun _ => false | 1 => fun _ => false | 2 => fun _ => false | 3 => fun _ => false | 4 => fun _ => false | 5 => fun _ => false | 6 => fun _ => false | 7 => fun _ => false | 8 => fun i => !(k6_cond2 i == 1#1) | ⟨_ + 9, h⟩ => absurd h (Nat.not_lt.2 (Nat.le_add_left _ _))

abbrev win7_0 : Pipeline.Window sig grid7 :=
  Pipeline.Window.ofSpec (Memref.whole main_v109_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v10) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v111) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v114) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v115_0) S5000x128.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v115_1) S128x128.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev idle7 : Fin 6 → grid7.Coords → Bool := fun | 0 => fun _ => false | 1 => fun _ => false | 2 => fun _ => false | 3 => fun _ => false | 4 => fun _ => false | 5 => fun i => !(k7_cond2 i == 1#1) | ⟨_ + 6, h⟩ => absurd h (Nat.not_lt.2 (Nat.le_add_left _ _))

abbrev win8_0 : Pipeline.Window sig grid8 :=
  Pipeline.Window.ofSpec (Memref.whole main_v115_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v10) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v117) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v122) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v123) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v124) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v124) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v134) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v10) S5000x128.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v136) S128x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v143) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v140) S128x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v144) S1x128.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v145_0) S5000x128.size cc9_transform_7 reads9_7 true false 2 stage9_7 sem9_7
    hrank9 hreads9_7 hinb9_7 nbuf9_7 (Memref.isWhole_whole _) hwx9_7 hstage9_7

abbrev win9_8 : Pipeline.Window sig grid9 :=
  Pipeline.Window.ofSpec (Memref.whole main_v145_1) S128x128.size cc9_transform_8 reads9_8 true true 1 stage9_8 sem9_8
    hrank9 hreads9_8 hinb9_8 nbuf9_8 (Memref.isWhole_whole _) hwx9_8 hstage9_8

abbrev win9 : Fin 9 → Pipeline.Window sig grid9 := fun | 0 => win9_0 | 1 => win9_1 | 2 => win9_2 | 3 => win9_3 | 4 => win9_4 | 5 => win9_5 | 6 => win9_6 | 7 => win9_7 | 8 => win9_8 | ⟨_ + 9, h⟩ => absurd h (Nat.not_lt.2 (Nat.le_add_left _ _))
abbrev spec9 : Fin 9 → Pipeline.WinSpec sig grid9.rank := fun w => (win9 w).toWinSpec

abbrev idle9 : Fin 9 → grid9.Coords → Bool := fun | 0 => fun _ => false | 1 => fun _ => false | 2 => fun _ => false | 3 => fun _ => false | 4 => fun _ => false | 5 => fun _ => false | 6 => fun _ => false | 7 => fun _ => false | 8 => fun i => !(k9_cond2 i == 1#1) | ⟨_ + 9, h⟩ => absurd h (Nat.not_lt.2 (Nat.le_add_left _ _))

abbrev win10_0 : Pipeline.Window sig grid10 :=
  Pipeline.Window.ofSpec (Memref.whole main_v145_0) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v10) S5000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v147) S128x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v150) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v151_0) S5000x128.size cc10_transform_4 reads10_4 true false 2 stage10_4 sem10_4
    hrank10 hreads10_4 hinb10_4 nbuf10_4 (Memref.isWhole_whole _) hwx10_4 hstage10_4

abbrev win10_5 : Pipeline.Window sig grid10 :=
  Pipeline.Window.ofSpec (Memref.whole main_v151_1) S128x128.size cc10_transform_5 reads10_5 true true 1 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev idle10 : Fin 6 → grid10.Coords → Bool := fun | 0 => fun _ => false | 1 => fun _ => false | 2 => fun _ => false | 3 => fun _ => false | 4 => fun _ => false | 5 => fun i => !(k10_cond2 i == 1#1) | ⟨_ + 6, h⟩ => absurd h (Nat.not_lt.2 (Nat.le_add_left _ _))

abbrev win11_0 : Pipeline.Window sig grid11 :=
  Pipeline.Window.ofSpec (Memref.whole main_v151_0) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v10) S5000x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v153) S128x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v158) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v159) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v160) S5000x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v160) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v10) S5000x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_arg8) S128x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v161) S1x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_arg10) S128x128.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v162) S1x128.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_arg12) S128x10.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_v163) S1x10.size cc12_transform_7 reads12_7 false true 1 stage12_7 sem12_7
    hrank12 hreads12_7 hinb12_7 nbuf12_7 (Memref.isWhole_whole _) hwx12_7 hstage12_7

abbrev win12_8 : Pipeline.Window sig grid12 :=
  Pipeline.Window.ofSpec (Memref.whole main_v164) S128x10.size cc12_transform_8 reads12_8 true true 1 stage12_8 sem12_8
    hrank12 hreads12_8 hinb12_8 nbuf12_8 (Memref.isWhole_whole _) hwx12_8 hstage12_8

abbrev win12 : Fin 9 → Pipeline.Window sig grid12 := fun | 0 => win12_0 | 1 => win12_1 | 2 => win12_2 | 3 => win12_3 | 4 => win12_4 | 5 => win12_5 | 6 => win12_6 | 7 => win12_7 | 8 => win12_8 | ⟨_ + 9, h⟩ => absurd h (Nat.not_lt.2 (Nat.le_add_left _ _))
abbrev spec12 : Fin 9 → Pipeline.WinSpec sig grid12.rank := fun w => (win12 w).toWinSpec

abbrev idle12 : Fin 9 → grid12.Coords → Bool := fun | 0 => fun _ => false | 1 => fun _ => false | 2 => fun _ => false | 3 => fun _ => false | 4 => fun _ => false | 5 => fun _ => false | 6 => fun _ => false | 7 => fun _ => false | 8 => fun i => !(k12_cond2 i == 1#1) | ⟨_ + 9, h⟩ => absurd h (Nat.not_lt.2 (Nat.le_add_left _ _))

class Facts : Prop extends Facts₀ where

variable [Facts]
-- ==== ReferenceIdeal.lean ====
abbrev S50000x128 : Shape := ⟨2, ![50000, 128]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S50000x1 : Shape := ⟨2, ![50000, 1]⟩
abbrev S128x1 : Shape := ⟨2, ![128, 1]⟩
abbrev S800000x1 : Shape := ⟨2, ![800000, 1]⟩
abbrev S800000x128 : Shape := ⟨2, ![800000, 128]⟩
abbrev S1x128x128 : Shape := ⟨3, ![1, 128, 128]⟩
abbrev S1x128 : Shape := ⟨2, ![1, 128]⟩
abbrev S1x10 : Shape := ⟨2, ![1, 10]⟩

abbrev nBuf : Space → Nat
  | .hbm => 430
  | .vmem => 0
  | .smem => 0
  | _ => 0

abbrev hbmTy0_0 (i : Nat) : BufTy := match i % 128 with
  | 0 => ⟨S50000x128, .f32⟩
  | 1 => ⟨S4x128x128, .f32⟩
  | 2 => ⟨S4x128, .f32⟩
  | 3 => ⟨S4x128x128, .f32⟩
  | 4 => ⟨S4x128, .f32⟩
  | 5 => ⟨S4x128, .f32⟩
  | 6 => ⟨S4x128, .f32⟩
  | 7 => ⟨S4x128, .f32⟩
  | 8 => ⟨S128x128, .f32⟩
  | 9 => ⟨S128, .f32⟩
  | 10 => ⟨S128x128, .f32⟩
  | 11 => ⟨S128, .f32⟩
  | 12 => ⟨S128x10, .f32⟩
  | 13 => ⟨S10, .f32⟩
  | 14 => ⟨S2x800000, .i32⟩
  | 15 => ⟨S50000, .i32⟩
  | 16 => ⟨S1x800000, .i32⟩
  | 17 => ⟨S800000, .i32⟩
  | 18 => ⟨S1x800000, .i32⟩
  | 19 => ⟨S800000, .i32⟩
  | 20 => ⟨S_, .f32⟩
  | 21 => ⟨S50000x1, .f32⟩
  | 22 => ⟨S_, .f32⟩
  | 23 => ⟨S128x1, .f32⟩
  | 24 => ⟨S50000x1, .i32⟩
  | 25 => ⟨S128x1, .f32⟩
  | 26 => ⟨S_, .f32⟩
  | 27 => ⟨S128x1, .f32⟩
  | 28 => ⟨S128x1, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S50000x128, .f32⟩
  | 43 => ⟨S1x128x128, .f32⟩
  | 44 => ⟨S128x128, .f32⟩
  | 45 => ⟨S50000x128, .f32⟩
  | 46 => ⟨S1x128, .f32⟩
  | 47 => ⟨S128, .f32⟩
  | 48 => ⟨S1x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S1x128x128, .f32⟩
  | 55 => ⟨S128x128, .f32⟩
  | 56 => ⟨S50000x128, .f32⟩
  | 57 => ⟨S1x128, .f32⟩
  | 58 => ⟨S128, .f32⟩
  | 59 => ⟨S1x128, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S1x128, .f32⟩
  | 66 => ⟨S128, .f32⟩
  | 67 => ⟨S1x128, .f32⟩
  | 68 => ⟨S128, .f32⟩
  | 69 => ⟨S1x128, .f32⟩
  | 70 => ⟨S128, .f32⟩
  | 71 => ⟨S_, .f32⟩
  | 72 => ⟨S128x128, .f32⟩
  | 73 => ⟨S50000x1, .i32⟩
  | 74 => ⟨S128x128, .f32⟩
  | 75 => ⟨S128x128, .f32⟩
  | 76 => ⟨S128x128, .f32⟩
  | 77 => ⟨S_, .i32⟩
  | 78 => ⟨S50000, .i32⟩
  | 79 => ⟨S50000, .i1⟩
  | 80 => ⟨S_, .i32⟩
  | 81 => ⟨S50000, .i32⟩
  | 82 => ⟨S50000, .i32⟩
  | 83 => ⟨S50000, .i32⟩
  | 84 => ⟨S50000x1, .i32⟩
  | 85 => ⟨S50000x128, .f32⟩
  | 86 => ⟨S1x128, .f32⟩
  | 87 => ⟨S50000x128, .f32⟩
  | 88 => ⟨S50000x128, .f32⟩
  | 89 => ⟨S50000x128, .f32⟩
  | 90 => ⟨S50000x128, .f32⟩
  | 91 => ⟨S_, .f32⟩
  | 92 => ⟨S128x128, .f32⟩
  | 93 => ⟨S50000x1, .i32⟩
  | 94 => ⟨S128x128, .f32⟩
  | 95 => ⟨S128x128, .f32⟩
  | 96 => ⟨S128x128, .f32⟩
  | 97 => ⟨S1x128, .f32⟩
  | 98 => ⟨S50000x128, .f32⟩
  | 99 => ⟨S50000x128, .f32⟩
  | 100 => ⟨S_, .i32⟩
  | 101 => ⟨S50000, .i32⟩
  | 102 => ⟨S50000, .i1⟩
  | 103 => ⟨S_, .i32⟩
  | 104 => ⟨S50000, .i32⟩
  | 105 => ⟨S50000, .i32⟩
  | 106 => ⟨S50000, .i32⟩
  | 107 => ⟨S50000x1, .i32⟩
  | 108 => ⟨S50000x128, .f32⟩
  | 109 => ⟨S_, .f32⟩
  | 110 => ⟨S50000x128, .f32⟩
  | 111 => ⟨S50000x128, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x128, .f32⟩

abbrev hbmTy0_1 (i : Nat) : BufTy := match i % 128 with
  | 0 => ⟨S800000x128, .f32⟩
  | 1 => ⟨S_, .f32⟩
  | 2 => ⟨S50000x128, .f32⟩
  | 3 => ⟨S800000x1, .i32⟩
  | 4 => ⟨S50000x128, .f32⟩
  | 5 => ⟨S50000x128, .f32⟩
  | 6 => ⟨S1x128x128, .f32⟩
  | 7 => ⟨S128x128, .f32⟩
  | 8 => ⟨S50000x128, .f32⟩
  | 9 => ⟨S1x128, .f32⟩
  | 10 => ⟨S128, .f32⟩
  | 11 => ⟨S1x128, .f32⟩
  | 12 => ⟨S50000x128, .f32⟩
  | 13 => ⟨S50000x128, .f32⟩
  | 14 => ⟨S_, .f32⟩
  | 15 => ⟨S50000x128, .f32⟩
  | 16 => ⟨S50000x128, .f32⟩
  | 17 => ⟨S1x128x128, .f32⟩
  | 18 => ⟨S128x128, .f32⟩
  | 19 => ⟨S50000x128, .f32⟩
  | 20 => ⟨S1x128, .f32⟩
  | 21 => ⟨S128, .f32⟩
  | 22 => ⟨S1x128, .f32⟩
  | 23 => ⟨S50000x128, .f32⟩
  | 24 => ⟨S50000x128, .f32⟩
  | 25 => ⟨S_, .f32⟩
  | 26 => ⟨S50000x128, .f32⟩
  | 27 => ⟨S50000x128, .f32⟩
  | 28 => ⟨S1x128, .f32⟩
  | 29 => ⟨S128, .f32⟩
  | 30 => ⟨S1x128, .f32⟩
  | 31 => ⟨S128, .f32⟩
  | 32 => ⟨S1x128, .f32⟩
  | 33 => ⟨S128, .f32⟩
  | 34 => ⟨S_, .f32⟩
  | 35 => ⟨S128x128, .f32⟩
  | 36 => ⟨S50000x1, .i32⟩
  | 37 => ⟨S128x128, .f32⟩
  | 38 => ⟨S128x128, .f32⟩
  | 39 => ⟨S128x128, .f32⟩
  | 40 => ⟨S_, .i32⟩
  | 41 => ⟨S50000, .i32⟩
  | 42 => ⟨S50000, .i1⟩
  | 43 => ⟨S_, .i32⟩
  | 44 => ⟨S50000, .i32⟩
  | 45 => ⟨S50000, .i32⟩
  | 46 => ⟨S50000, .i32⟩
  | 47 => ⟨S50000x1, .i32⟩
  | 48 => ⟨S50000x128, .f32⟩
  | 49 => ⟨S1x128, .f32⟩
  | 50 => ⟨S50000x128, .f32⟩
  | 51 => ⟨S50000x128, .f32⟩
  | 52 => ⟨S50000x128, .f32⟩
  | 53 => ⟨S50000x128, .f32⟩
  | 54 => ⟨S_, .f32⟩
  | 55 => ⟨S128x128, .f32⟩
  | 56 => ⟨S50000x1, .i32⟩
  | 57 => ⟨S128x128, .f32⟩
  | 58 => ⟨S128x128, .f32⟩
  | 59 => ⟨S128x128, .f32⟩
  | 60 => ⟨S1x128, .f32⟩
  | 61 => ⟨S50000x128, .f32⟩
  | 62 => ⟨S50000x128, .f32⟩
  | 63 => ⟨S_, .i32⟩
  | 64 => ⟨S50000, .i32⟩
  | 65 => ⟨S50000, .i1⟩
  | 66 => ⟨S_, .i32⟩
  | 67 => ⟨S50000, .i32⟩
  | 68 => ⟨S50000, .i32⟩
  | 69 => ⟨S50000, .i32⟩
  | 70 => ⟨S50000x1, .i32⟩
  | 71 => ⟨S50000x128, .f32⟩
  | 72 => ⟨S_, .f32⟩
  | 73 => ⟨S50000x128, .f32⟩
  | 74 => ⟨S50000x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x128, .f32⟩
  | 92 => ⟨S_, .f32⟩
  | 93 => ⟨S50000x128, .f32⟩
  | 94 => ⟨S800000x1, .i32⟩
  | 95 => ⟨S50000x128, .f32⟩
  | 96 => ⟨S50000x128, .f32⟩
  | 97 => ⟨S1x128x128, .f32⟩
  | 98 => ⟨S128x128, .f32⟩
  | 99 => ⟨S50000x128, .f32⟩
  | 100 => ⟨S1x128, .f32⟩
  | 101 => ⟨S128, .f32⟩
  | 102 => ⟨S1x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S1x128x128, .f32⟩
  | 109 => ⟨S128x128, .f32⟩
  | 110 => ⟨S50000x128, .f32⟩
  | 111 => ⟨S1x128, .f32⟩
  | 112 => ⟨S128, .f32⟩
  | 113 => ⟨S1x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S1x128, .f32⟩
  | 120 => ⟨S128, .f32⟩
  | 121 => ⟨S1x128, .f32⟩
  | 122 => ⟨S128, .f32⟩
  | 123 => ⟨S1x128, .f32⟩
  | 124 => ⟨S128, .f32⟩
  | 125 => ⟨S_, .f32⟩
  | 126 => ⟨S128x128, .f32⟩
  | 127 => ⟨S50000x1, .i32⟩
  | _ => ⟨S50000x128, .f32⟩

abbrev hbmTy0_2 (i : Nat) : BufTy := match i % 128 with
  | 0 => ⟨S128x128, .f32⟩
  | 1 => ⟨S128x128, .f32⟩
  | 2 => ⟨S128x128, .f32⟩
  | 3 => ⟨S_, .i32⟩
  | 4 => ⟨S50000, .i32⟩
  | 5 => ⟨S50000, .i1⟩
  | 6 => ⟨S_, .i32⟩
  | 7 => ⟨S50000, .i32⟩
  | 8 => ⟨S50000, .i32⟩
  | 9 => ⟨S50000, .i32⟩
  | 10 => ⟨S50000x1, .i32⟩
  | 11 => ⟨S50000x128, .f32⟩
  | 12 => ⟨S1x128, .f32⟩
  | 13 => ⟨S50000x128, .f32⟩
  | 14 => ⟨S50000x128, .f32⟩
  | 15 => ⟨S50000x128, .f32⟩
  | 16 => ⟨S50000x128, .f32⟩
  | 17 => ⟨S_, .f32⟩
  | 18 => ⟨S128x128, .f32⟩
  | 19 => ⟨S50000x1, .i32⟩
  | 20 => ⟨S128x128, .f32⟩
  | 21 => ⟨S128x128, .f32⟩
  | 22 => ⟨S128x128, .f32⟩
  | 23 => ⟨S1x128, .f32⟩
  | 24 => ⟨S50000x128, .f32⟩
  | 25 => ⟨S50000x128, .f32⟩
  | 26 => ⟨S_, .i32⟩
  | 27 => ⟨S50000, .i32⟩
  | 28 => ⟨S50000, .i1⟩
  | 29 => ⟨S_, .i32⟩
  | 30 => ⟨S50000, .i32⟩
  | 31 => ⟨S50000, .i32⟩
  | 32 => ⟨S50000, .i32⟩
  | 33 => ⟨S50000x1, .i32⟩
  | 34 => ⟨S50000x128, .f32⟩
  | 35 => ⟨S_, .f32⟩
  | 36 => ⟨S50000x128, .f32⟩
  | 37 => ⟨S50000x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S_, .f32⟩
  | 56 => ⟨S50000x128, .f32⟩
  | 57 => ⟨S800000x1, .i32⟩
  | 58 => ⟨S50000x128, .f32⟩
  | 59 => ⟨S50000x128, .f32⟩
  | 60 => ⟨S1x128x128, .f32⟩
  | 61 => ⟨S128x128, .f32⟩
  | 62 => ⟨S50000x128, .f32⟩
  | 63 => ⟨S1x128, .f32⟩
  | 64 => ⟨S128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S1x128x128, .f32⟩
  | 72 => ⟨S128x128, .f32⟩
  | 73 => ⟨S50000x128, .f32⟩
  | 74 => ⟨S1x128, .f32⟩
  | 75 => ⟨S128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S1x128, .f32⟩
  | 83 => ⟨S128, .f32⟩
  | 84 => ⟨S1x128, .f32⟩
  | 85 => ⟨S128, .f32⟩
  | 86 => ⟨S1x128, .f32⟩
  | 87 => ⟨S128, .f32⟩
  | 88 => ⟨S_, .f32⟩
  | 89 => ⟨S128x128, .f32⟩
  | 90 => ⟨S50000x1, .i32⟩
  | 91 => ⟨S128x128, .f32⟩
  | 92 => ⟨S128x128, .f32⟩
  | 93 => ⟨S128x128, .f32⟩
  | 94 => ⟨S_, .i32⟩
  | 95 => ⟨S50000, .i32⟩
  | 96 => ⟨S50000, .i1⟩
  | 97 => ⟨S_, .i32⟩
  | 98 => ⟨S50000, .i32⟩
  | 99 => ⟨S50000, .i32⟩
  | 100 => ⟨S50000, .i32⟩
  | 101 => ⟨S50000x1, .i32⟩
  | 102 => ⟨S50000x128, .f32⟩
  | 103 => ⟨S1x128, .f32⟩
  | 104 => ⟨S50000x128, .f32⟩
  | 105 => ⟨S50000x128, .f32⟩
  | 106 => ⟨S50000x128, .f32⟩
  | 107 => ⟨S50000x128, .f32⟩
  | 108 => ⟨S_, .f32⟩
  | 109 => ⟨S128x128, .f32⟩
  | 110 => ⟨S50000x1, .i32⟩
  | 111 => ⟨S128x128, .f32⟩
  | 112 => ⟨S128x128, .f32⟩
  | 113 => ⟨S128x128, .f32⟩
  | 114 => ⟨S1x128, .f32⟩
  | 115 => ⟨S50000x128, .f32⟩
  | 116 => ⟨S50000x128, .f32⟩
  | 117 => ⟨S_, .i32⟩
  | 118 => ⟨S50000, .i32⟩
  | 119 => ⟨S50000, .i1⟩
  | 120 => ⟨S_, .i32⟩
  | 121 => ⟨S50000, .i32⟩
  | 122 => ⟨S50000, .i32⟩
  | 123 => ⟨S50000, .i32⟩
  | 124 => ⟨S50000x1, .i32⟩
  | 125 => ⟨S50000x128, .f32⟩
  | 126 => ⟨S_, .f32⟩
  | 127 => ⟨S50000x128, .f32⟩
  | _ => ⟨S50000x128, .f32⟩

abbrev hbmTy0_3 (i : Nat) : BufTy := match i % 128 with
  | 0 => ⟨S50000x128, .f32⟩
  | 1 => ⟨S50000x128, .f32⟩
  | 2 => ⟨S50000x128, .f32⟩
  | 3 => ⟨S1x128, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S_, .f32⟩
  | 10 => ⟨S128x128, .f32⟩
  | 11 => ⟨S50000x1, .i32⟩
  | 12 => ⟨S128x128, .f32⟩
  | 13 => ⟨S128x128, .f32⟩
  | 14 => ⟨S1x128, .f32⟩
  | 15 => ⟨S128x128, .f32⟩
  | 16 => ⟨S128x128, .f32⟩
  | 17 => ⟨S_, .f32⟩
  | 18 => ⟨S128x128, .f32⟩
  | 19 => ⟨S128x128, .f32⟩
  | 20 => ⟨S128x128, .f32⟩
  | 21 => ⟨S1x128, .f32⟩
  | 22 => ⟨S128x128, .f32⟩
  | 23 => ⟨S128x128, .f32⟩
  | 24 => ⟨S_, .f32⟩
  | 25 => ⟨S128x128, .f32⟩
  | 26 => ⟨S128x128, .f32⟩
  | 27 => ⟨S128x10, .f32⟩
  | 28 => ⟨S1x10, .f32⟩
  | 29 => ⟨S128x10, .f32⟩
  | 30 => ⟨S128x10, .f32⟩
  | 31 => ⟨S_, .f32⟩
  | 32 => ⟨S128, .f32⟩
  | 33 => ⟨S_, .f32⟩
  | 34 => ⟨S128, .f32⟩
  | 35 => ⟨S128, .f32⟩
  | 36 => ⟨S128x1, .f32⟩
  | 37 => ⟨S128x10, .f32⟩
  | 38 => ⟨S128x10, .f32⟩
  | 39 => ⟨S128x10, .f32⟩
  | 40 => ⟨S_, .f32⟩
  | 41 => ⟨S128, .f32⟩
  | 42 => ⟨S128x1, .f32⟩
  | 43 => ⟨S128x1, .f32⟩
  | 44 => ⟨S128x10, .f32⟩
  | 45 => ⟨S128x10, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_c : Ref sig .tc := ⟨.hbm, 29, rfl⟩
abbrev main_v10 : Ref sig .tc := ⟨.hbm, 30, rfl⟩
abbrev main_v11 : Ref sig .tc := ⟨.hbm, 31, rfl⟩
abbrev main_c_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call0_cst : Ref sig .tc := ⟨.hbm, 51, rfl⟩
abbrev main_call0_v0 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_call1_cst : Ref sig .tc := ⟨.hbm, 62, rfl⟩
abbrev main_call1_v0 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_4 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_5 : Ref sig .tc := ⟨.hbm, 77, rfl⟩
abbrev main_v50 : Ref sig .tc := ⟨.hbm, 78, rfl⟩
abbrev main_v51 : Ref sig .tc := ⟨.hbm, 79, rfl⟩
abbrev main_c_6 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_7 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_8 : Ref sig .tc := ⟨.hbm, 100, rfl⟩
abbrev main_v70 : Ref sig .tc := ⟨.hbm, 101, rfl⟩
abbrev main_v71 : Ref sig .tc := ⟨.hbm, 102, rfl⟩
abbrev main_c_9 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_10 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_call2_cst : Ref sig .tc := ⟨.hbm, 117, rfl⟩
abbrev main_call2_v0 : Ref sig .tc := ⟨.hbm, 118, rfl⟩
abbrev main_v84 : Ref sig .tc := ⟨.hbm, 119, rfl⟩
abbrev main_c_11 : Ref sig .tc := ⟨.hbm, 120, rfl⟩
abbrev main_v85 : Ref sig .tc := ⟨.hbm, 121, rfl⟩
abbrev main_v86 : Ref sig .tc := ⟨.hbm, 122, rfl⟩
abbrev main_c_12 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_13 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_call3_cst : Ref sig .tc := ⟨.hbm, 142, rfl⟩
abbrev main_call3_v0 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_call4_cst : Ref sig .tc := ⟨.hbm, 153, rfl⟩
abbrev main_call4_v0 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_cst_14 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_c_15 : Ref sig .tc := ⟨.hbm, 168, rfl⟩
abbrev main_v125 : Ref sig .tc := ⟨.hbm, 169, rfl⟩
abbrev main_v126 : Ref sig .tc := ⟨.hbm, 170, rfl⟩
abbrev main_c_16 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_cst_17 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_c_18 : Ref sig .tc := ⟨.hbm, 191, rfl⟩
abbrev main_v145 : Ref sig .tc := ⟨.hbm, 192, rfl⟩
abbrev main_v146 : Ref sig .tc := ⟨.hbm, 193, rfl⟩
abbrev main_c_19 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_cst_20 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_call5_cst : Ref sig .tc := ⟨.hbm, 208, rfl⟩
abbrev main_call5_v0 : Ref sig .tc := ⟨.hbm, 209, rfl⟩
abbrev main_v159 : Ref sig .tc := ⟨.hbm, 210, rfl⟩
abbrev main_c_21 : Ref sig .tc := ⟨.hbm, 211, rfl⟩
abbrev main_v160 : Ref sig .tc := ⟨.hbm, 212, rfl⟩
abbrev main_v161 : Ref sig .tc := ⟨.hbm, 213, rfl⟩
abbrev main_c_22 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_cst_23 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_call6_cst : Ref sig .tc := ⟨.hbm, 233, rfl⟩
abbrev main_call6_v0 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_call7_cst : Ref sig .tc := ⟨.hbm, 244, rfl⟩
abbrev main_call7_v0 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_cst_24 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_c_25 : Ref sig .tc := ⟨.hbm, 259, rfl⟩
abbrev main_v200 : Ref sig .tc := ⟨.hbm, 260, rfl⟩
abbrev main_v201 : Ref sig .tc := ⟨.hbm, 261, rfl⟩
abbrev main_c_26 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_cst_27 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_c_28 : Ref sig .tc := ⟨.hbm, 282, rfl⟩
abbrev main_v220 : Ref sig .tc := ⟨.hbm, 283, rfl⟩
abbrev main_v221 : Ref sig .tc := ⟨.hbm, 284, rfl⟩
abbrev main_c_29 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_cst_30 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_call8_cst : Ref sig .tc := ⟨.hbm, 299, rfl⟩
abbrev main_call8_v0 : Ref sig .tc := ⟨.hbm, 300, rfl⟩
abbrev main_v234 : Ref sig .tc := ⟨.hbm, 301, rfl⟩
abbrev main_c_31 : Ref sig .tc := ⟨.hbm, 302, rfl⟩
abbrev main_v235 : Ref sig .tc := ⟨.hbm, 303, rfl⟩
abbrev main_v236 : Ref sig .tc := ⟨.hbm, 304, rfl⟩
abbrev main_c_32 : Ref sig .tc := ⟨.hbm, 305, rfl⟩
abbrev main_v237 : Ref sig .tc := ⟨.hbm, 306, rfl⟩
abbrev main_v238 : Ref sig .tc := ⟨.hbm, 307, rfl⟩
abbrev main_v239 : Ref sig .tc := ⟨.hbm, 308, rfl⟩
abbrev main_v240 : Ref sig .tc := ⟨.hbm, 309, rfl⟩
abbrev main_v241 : Ref sig .tc := ⟨.hbm, 310, rfl⟩
abbrev main_cst_33 : Ref sig .tc := ⟨.hbm, 311, rfl⟩
abbrev main_v242 : Ref sig .tc := ⟨.hbm, 312, rfl⟩
abbrev main_v243 : Ref sig .tc := ⟨.hbm, 313, rfl⟩
abbrev main_v244 : Ref sig .tc := ⟨.hbm, 314, rfl⟩
abbrev main_v245 : Ref sig .tc := ⟨.hbm, 315, rfl⟩
abbrev main_v246 : Ref sig .tc := ⟨.hbm, 316, rfl⟩
abbrev main_v247 : Ref sig .tc := ⟨.hbm, 317, rfl⟩
abbrev main_v248 : Ref sig .tc := ⟨.hbm, 318, rfl⟩
abbrev main_v249 : Ref sig .tc := ⟨.hbm, 319, rfl⟩
abbrev main_v250 : Ref sig .tc := ⟨.hbm, 320, rfl⟩
abbrev main_v251 : Ref sig .tc := ⟨.hbm, 321, rfl⟩
abbrev main_v252 : Ref sig .tc := ⟨.hbm, 322, rfl⟩
abbrev main_v253 : Ref sig .tc := ⟨.hbm, 323, rfl⟩
abbrev main_call9_cst : Ref sig .tc := ⟨.hbm, 324, rfl⟩
abbrev main_call9_v0 : Ref sig .tc := ⟨.hbm, 325, rfl⟩
abbrev main_v254 : Ref sig .tc := ⟨.hbm, 326, rfl⟩
abbrev main_v255 : Ref sig .tc := ⟨.hbm, 327, rfl⟩
abbrev main_v256 : Ref sig .tc := ⟨.hbm, 328, rfl⟩
abbrev main_v257 : Ref sig .tc := ⟨.hbm, 329, rfl⟩
abbrev main_v258 : Ref sig .tc := ⟨.hbm, 330, rfl⟩
abbrev main_v259 : Ref sig .tc := ⟨.hbm, 331, rfl⟩
abbrev main_v260 : Ref sig .tc := ⟨.hbm, 332, rfl⟩
abbrev main_v261 : Ref sig .tc := ⟨.hbm, 333, rfl⟩
abbrev main_v262 : Ref sig .tc := ⟨.hbm, 334, rfl⟩
abbrev main_call10_cst : Ref sig .tc := ⟨.hbm, 335, rfl⟩
abbrev main_call10_v0 : Ref sig .tc := ⟨.hbm, 336, rfl⟩
abbrev main_v263 : Ref sig .tc := ⟨.hbm, 337, rfl⟩
abbrev main_v264 : Ref sig .tc := ⟨.hbm, 338, rfl⟩
abbrev main_v265 : Ref sig .tc := ⟨.hbm, 339, rfl⟩
abbrev main_v266 : Ref sig .tc := ⟨.hbm, 340, rfl⟩
abbrev main_v267 : Ref sig .tc := ⟨.hbm, 341, rfl⟩
abbrev main_v268 : Ref sig .tc := ⟨.hbm, 342, rfl⟩
abbrev main_v269 : Ref sig .tc := ⟨.hbm, 343, rfl⟩
abbrev main_cst_34 : Ref sig .tc := ⟨.hbm, 344, rfl⟩
abbrev main_v270 : Ref sig .tc := ⟨.hbm, 345, rfl⟩
abbrev main_v271 : Ref sig .tc := ⟨.hbm, 346, rfl⟩
abbrev main_v272 : Ref sig .tc := ⟨.hbm, 347, rfl⟩
abbrev main_v273 : Ref sig .tc := ⟨.hbm, 348, rfl⟩
abbrev main_v274 : Ref sig .tc := ⟨.hbm, 349, rfl⟩
abbrev main_c_35 : Ref sig .tc := ⟨.hbm, 350, rfl⟩
abbrev main_v275 : Ref sig .tc := ⟨.hbm, 351, rfl⟩
abbrev main_v276 : Ref sig .tc := ⟨.hbm, 352, rfl⟩
abbrev main_c_36 : Ref sig .tc := ⟨.hbm, 353, rfl⟩
abbrev main_v277 : Ref sig .tc := ⟨.hbm, 354, rfl⟩
abbrev main_v278 : Ref sig .tc := ⟨.hbm, 355, rfl⟩
abbrev main_v279 : Ref sig .tc := ⟨.hbm, 356, rfl⟩
abbrev main_v280 : Ref sig .tc := ⟨.hbm, 357, rfl⟩
abbrev main_v281 : Ref sig .tc := ⟨.hbm, 358, rfl⟩
abbrev main_v282 : Ref sig .tc := ⟨.hbm, 359, rfl⟩
abbrev main_v283 : Ref sig .tc := ⟨.hbm, 360, rfl⟩
abbrev main_v284 : Ref sig .tc := ⟨.hbm, 361, rfl⟩
abbrev main_v285 : Ref sig .tc := ⟨.hbm, 362, rfl⟩
abbrev main_v286 : Ref sig .tc := ⟨.hbm, 363, rfl⟩
abbrev main_cst_37 : Ref sig .tc := ⟨.hbm, 364, rfl⟩
abbrev main_v287 : Ref sig .tc := ⟨.hbm, 365, rfl⟩
abbrev main_v288 : Ref sig .tc := ⟨.hbm, 366, rfl⟩
abbrev main_v289 : Ref sig .tc := ⟨.hbm, 367, rfl⟩
abbrev main_v290 : Ref sig .tc := ⟨.hbm, 368, rfl⟩
abbrev main_v291 : Ref sig .tc := ⟨.hbm, 369, rfl⟩
abbrev main_v292 : Ref sig .tc := ⟨.hbm, 370, rfl⟩
abbrev main_v293 : Ref sig .tc := ⟨.hbm, 371, rfl⟩
abbrev main_v294 : Ref sig .tc := ⟨.hbm, 372, rfl⟩
abbrev main_c_38 : Ref sig .tc := ⟨.hbm, 373, rfl⟩
abbrev main_v295 : Ref sig .tc := ⟨.hbm, 374, rfl⟩
abbrev main_v296 : Ref sig .tc := ⟨.hbm, 375, rfl⟩
abbrev main_c_39 : Ref sig .tc := ⟨.hbm, 376, rfl⟩
abbrev main_v297 : Ref sig .tc := ⟨.hbm, 377, rfl⟩
abbrev main_v298 : Ref sig .tc := ⟨.hbm, 378, rfl⟩
abbrev main_v299 : Ref sig .tc := ⟨.hbm, 379, rfl⟩
abbrev main_v300 : Ref sig .tc := ⟨.hbm, 380, rfl⟩
abbrev main_v301 : Ref sig .tc := ⟨.hbm, 381, rfl⟩
abbrev main_cst_40 : Ref sig .tc := ⟨.hbm, 382, rfl⟩
abbrev main_v302 : Ref sig .tc := ⟨.hbm, 383, rfl⟩
abbrev main_v303 : Ref sig .tc := ⟨.hbm, 384, rfl⟩
abbrev main_v304 : Ref sig .tc := ⟨.hbm, 385, rfl⟩
abbrev main_v305 : Ref sig .tc := ⟨.hbm, 386, rfl⟩
abbrev main_v306 : Ref sig .tc := ⟨.hbm, 387, rfl⟩
abbrev main_v307 : Ref sig .tc := ⟨.hbm, 388, rfl⟩
abbrev main_v308 : Ref sig .tc := ⟨.hbm, 389, rfl⟩
abbrev main_call11_cst : Ref sig .tc := ⟨.hbm, 390, rfl⟩
abbrev main_call11_v0 : Ref sig .tc := ⟨.hbm, 391, rfl⟩
abbrev main_v309 : Ref sig .tc := ⟨.hbm, 392, rfl⟩
abbrev main_cst_41 : Ref sig .tc := ⟨.hbm, 393, rfl⟩
abbrev main_v310 : Ref sig .tc := ⟨.hbm, 394, rfl⟩
abbrev main_v311 : Ref sig .tc := ⟨.hbm, 395, rfl⟩
abbrev main_v312 : Ref sig .tc := ⟨.hbm, 396, rfl⟩
abbrev main_v313 : Ref sig .tc := ⟨.hbm, 397, rfl⟩
abbrev main_v314 : Ref sig .tc := ⟨.hbm, 398, rfl⟩
abbrev main_v315 : Ref sig .tc := ⟨.hbm, 399, rfl⟩
abbrev main_v316 : Ref sig .tc := ⟨.hbm, 400, rfl⟩
abbrev main_call12_cst : Ref sig .tc := ⟨.hbm, 401, rfl⟩
abbrev main_call12_v0 : Ref sig .tc := ⟨.hbm, 402, rfl⟩
abbrev main_v317 : Ref sig .tc := ⟨.hbm, 403, rfl⟩
abbrev main_v318 : Ref sig .tc := ⟨.hbm, 404, rfl⟩
abbrev main_v319 : Ref sig .tc := ⟨.hbm, 405, rfl⟩
abbrev main_v320 : Ref sig .tc := ⟨.hbm, 406, rfl⟩
abbrev main_v321 : Ref sig .tc := ⟨.hbm, 407, rfl⟩
abbrev main_call13_cst : Ref sig .tc := ⟨.hbm, 408, rfl⟩
abbrev main_call13_v0 : Ref sig .tc := ⟨.hbm, 409, rfl⟩
abbrev main_v322 : Ref sig .tc := ⟨.hbm, 410, rfl⟩
abbrev main_v323 : Ref sig .tc := ⟨.hbm, 411, rfl⟩
abbrev main_v324 : Ref sig .tc := ⟨.hbm, 412, rfl⟩
abbrev main_v325 : Ref sig .tc := ⟨.hbm, 413, rfl⟩
abbrev main_v326 : Ref sig .tc := ⟨.hbm, 414, rfl⟩
abbrev main_call14_cst : Ref sig .tc := ⟨.hbm, 415, rfl⟩
abbrev main_call14_v0 : Ref sig .tc := ⟨.hbm, 416, rfl⟩
abbrev main_call14_cst_0 : Ref sig .tc := ⟨.hbm, 417, rfl⟩
abbrev main_call14_v1 : Ref sig .tc := ⟨.hbm, 418, rfl⟩
abbrev main_call14_v2 : Ref sig .tc := ⟨.hbm, 419, rfl⟩
abbrev main_call14_v3 : Ref sig .tc := ⟨.hbm, 420, rfl⟩
abbrev main_call14_v4 : Ref sig .tc := ⟨.hbm, 421, rfl⟩
abbrev main_call14_v5 : Ref sig .tc := ⟨.hbm, 422, rfl⟩
abbrev main_call14_v6 : Ref sig .tc := ⟨.hbm, 423, rfl⟩
abbrev main_call14_cst_1 : Ref sig .tc := ⟨.hbm, 424, rfl⟩
abbrev main_call14_v7 : Ref sig .tc := ⟨.hbm, 425, rfl⟩
abbrev main_call14_v8 : Ref sig .tc := ⟨.hbm, 426, rfl⟩
abbrev main_call14_v9 : Ref sig .tc := ⟨.hbm, 427, rfl⟩
abbrev main_call14_v10 : Ref sig .tc := ⟨.hbm, 428, rfl⟩
abbrev main_v327 : Ref sig .tc := ⟨.hbm, 429, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x1 : S_.BroadcastsInDim S50000x1 (![] : Fin 0 → Fin S50000x1.rank)
  bcast_S_S128x1 : S_.BroadcastsInDim S128x1 (![] : Fin 0 → Fin S128x1.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128x128 : S_.BroadcastsInDim S128x128 (![] : Fin 0 → Fin S128x128.rank)
  bcast_S128x1_S128x128_0_1 : S128x1.BroadcastsInDim S128x128 (![0, 1] : Fin 2 → Fin S128x128.rank)
  bcast_S_S50000 : S_.BroadcastsInDim S50000 (![] : Fin 0 → Fin S50000.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S1x128_S128x128_0_1 : S1x128.BroadcastsInDim S128x128 (![0, 1] : Fin 2 → Fin S128x128.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x10_0_1 : S128x1.BroadcastsInDim S128x10 (![0, 1] : Fin 2 → Fin S128x10.rank)
  scatter_S128x1_S50000x1_S50000x1_1_0_0_1_wf : ScatterDims.WF S128x1 S50000x1 S50000x1 [1] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S128x128_S50000x1_S50000x128_1_0_0_1_wf : ScatterDims.WF S128x128 S50000x1 S50000x128 [1] [0] [0] 1
  gather_S128x128_S50000x1_S50000x128_1_0_n_n_0_1_1128_wf : GatherDims.WF S128x128 S50000x1 S50000x128 [1] [0] [] [0] [] 1 ![1, 128]
  dot_S128x128_S128x128_S128x128_1_0_0_1_n_n_wf : DotDims.WF S128x128 S128x128 S128x128 [1] [0] [0] [1] [] []
  dot_S128x128_S128x10_S128x10_1_0_0_1_n_n_wf : DotDims.WF S128x128 S128x10 S128x10 [1] [0] [0] [1] [] []

variable [Facts₀]

def scatter_S128x1_S50000x1_S50000x1_1_0_0_1 : ScatterDims S128x1 S50000x1 S50000x1 where
  updateWindowDims := [1]
  insertedWindowDims := [0]
  scatterDimsToOperandDims := [0]
  indexVectorDim := 1
  wf := scatter_S128x1_S50000x1_S50000x1_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def gather_S128x128_S50000x1_S50000x128_1_0_n_n_0_1_1128 : GatherDims S128x128 S50000x1 S50000x128 where
  offsetDims := [1]
  collapsedSliceDims := [0]
  operandBatchingDims := []
  startIndicesBatchingDims := []
  startIndexMap := [0]
  indexVectorDim := 1
  sliceSizes := ![1, 128]
  wf := gather_S128x128_S50000x1_S50000x128_1_0_n_n_0_1_1128_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.K.Reg0.lean ====
/- Region 0 of @main (custom_call 0, the GIN layer's MLP with its per-graph accumulator): the kernel body's three control
   cases as triples with named contents, the accumulator's value point by point, the pipeline's proof data over an invariant
   that names the scratch's contents, the body obligation at every point, and the invariant at the region's two ends. -/
import proofs.«408428_j10917806867267_1_alg».proof.Proof.Gen.Kernel.Launch
import proofs.«408428_j10917806867267_1_alg».proof.Proof.Gen.Kernel.Skeleton
import proofs.«408428_j10917806867267_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the long axes' extents recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's accesses and what it leaves -/

/-- The whole-buffer rectangles the body loads and stores through. -/
abbrev rA0 : Rect S5000x128 := Rect.unit (s := S5000x128) ![0, 0] S5000x128.size inb_S5000x128_S5000x128_0_0
abbrev rB0 : Rect S128x128 := Rect.unit (s := S128x128) ![0, 0] S128x128.size inb_S128x128_S128x128_0_0
abbrev rC0 : Rect S1x128 := Rect.unit (s := S1x128) ![0, 0] S1x128.size inb_S1x128_S1x128_0_0

/-- The point's MLP output, from the blocks of windows 0, 1, 3, 4, 5, 6. -/
def tval0 (x0 x1 : Vec F S5000x128 .f32) (x3 : Vec F S128x128 .f32) (x4 : Vec F S1x128 .f32) (x5 : Vec F S128x128 .f32) (x6 : Vec F S1x128 .f32) :
    FVec F S5000x128 .f32 :=
  k0_pay3 (View.ld x0 rA0) (View.ld x1 rA0) (View.ld x3 rB0) (View.ld x4 rC0) (View.ld x5 rB0) (View.ld x6 rC0)

/-- What the body leaves in window 7's staging buffer: its one store. -/
def out0_7 (x0 x1 : Vec F S5000x128 .f32) (x3 : Vec F S128x128 .f32) (x4 : Vec F S1x128 .f32) (x5 : Vec F S128x128 .f32) (x6 : Vec F S1x128 .f32) :
    Vec F S5000x128 .f32 :=
  View.canon [⟨rA0, tval0 x0 x1 x3 x4 x5 x6⟩]

/-- The accumulator zeroed. -/
def zero0 : Vec F S128x128 .f32 := View.canon [⟨rB0, k0_pay2 (F := F)⟩]

/-- The accumulator after a point that found it at `s`: `s` plus the point's term. -/
def scr0 (x0 x1 : Vec F S5000x128 .f32) (x2 : Vec F S5000x128 .bf16) (x3 : Vec F S128x128 .f32) (x4 : Vec F S1x128 .f32) (x5 : Vec F S128x128 .f32) (x6 : Vec F S1x128 .f32)
    (s : Vec F S128x128 .f32) : Vec F S128x128 .f32 :=
  View.canon [⟨rB0, k0_pay1 (tval0 x0 x1 x3 x4 x5 x6) (k0_pay4 (View.ld x2 rA0)) (View.ld s rB0)⟩]

/-- What the last point leaves in window 8's staging buffer: the accumulator copied. -/
def out0_8 (s : Vec F S128x128 .f32) : Vec F S128x128 .f32 := View.canon [⟨rB0, View.ld s rB0⟩]

/-- One whole-buffer store covers the buffer. -/
theorem coverA0 {e : EltTy} (p : rA0.shape.Idx → Elt F e) (y : S5000x128.Idx) :
    ∃ pc ∈ ([⟨rA0, p⟩] : List (View.Piece (Elt F) S5000x128 e)), y ∈ pc.1.set :=
  View.cover_of_tiled [⟨rA0, p⟩] S5000x128.size (by rfl) y
theorem coverB0 {e : EltTy} (p : rB0.shape.Idx → Elt F e) (y : S128x128.Idx) :
    ∃ pc ∈ ([⟨rB0, p⟩] : List (View.Piece (Elt F) S128x128 e)), y ∈ pc.1.set :=
  View.cover_of_tiled [⟨rB0, p⟩] S128x128.size (by rfl) y

/-- The conditions of the body's two `scf.if`s, from the grid coordinates. -/
abbrev cond0_1 (i : grid0.Coords) : Prop := (Scalar.cmpi .ne (Scalar.extui (Scalar.cmpi .eq (BitVec.ofNat 32 (i 0).val) 0#32)) 0#32) = 1#1
abbrev cond0_2 (i : grid0.Coords) : Prop := k0_cond2 i = 1#1

/-- The conditions in closed form, decided over the grid: the first holds at the first point only, the second at the
    last only; window 8 is idle off the last point and written back at it only. -/
theorem hcond0_1 : ∀ t : Fin cfg0.N, cond0_1 (grid0.coords t) ↔ t.val = 0 :=
  (by decide +kernel : ∀ t : Fin grid0.N, cond0_1 (grid0.coords t) ↔ t.val = 0)
theorem hcond0_2 : ∀ t : Fin cfg0.N, cond0_2 (grid0.coords t) ↔ t.val + 1 = cfg0.N :=
  (by decide +kernel : ∀ t : Fin grid0.N, cond0_2 (grid0.coords t) ↔ t.val + 1 = grid0.N)
theorem hidle0_8 : ∀ t : Fin cfg0.N, cfg0.idle 8 (cfg0.grid.coords t) = !decide (t.val + 1 = cfg0.N) :=
  (by decide +kernel : ∀ t : Fin grid0.N, idle0 8 (grid0.coords t) = !decide (t.val + 1 = grid0.N))
theorem hflush0_8 : ∀ t : Fin cfg0.N, (cfg0.win 8).flush t = decide (t.val + 1 = cfg0.N) :=
  (by decide +kernel : ∀ t : Fin grid0.N, win0_8.flush t = decide (t.val + 1 = grid0.N))
theorem one_lt_N0 : 1 < cfg0.N := by decide

/-- A whole-buffer store hides every earlier one. -/
theorem canon_headB0 {e : EltTy} (p : rB0.shape.Idx → Elt F e) (L : List (View.Piece (Elt F) S128x128 e)) :
    View.canon (⟨rB0, p⟩ :: L) = View.canon [⟨rB0, p⟩] := by
  funext y
  obtain ⟨pc, hm, hy⟩ := coverB0 (F := F) p y
  rw [List.mem_singleton] at hm; subst hm
  obtain ⟨x, rfl⟩ := rB0.exists_idx_of_mem hy
  exact (View.canon_cons_emb rB0 p L x).trans (View.canon_cons_emb rB0 p [] x).symm

theorem coverB0_cons {e : EltTy} (p : rB0.shape.Idx → Elt F e) (L : List (View.Piece (Elt F) S128x128 e)) (y : S128x128.Idx) :
    ∃ pc ∈ (⟨rB0, p⟩ :: L), y ∈ pc.1.set := by
  obtain ⟨pc, hm, hy⟩ := coverB0 (F := F) p y
  exact ⟨pc, List.mem_cons.mpr (Or.inl (List.mem_singleton.mp hm)), hy⟩

/-- So a buffer whose last store was whole reads that store's payload. -/
theorem read_writes_headB0 {κ : Kind} {sp : Space} {e : EltTy} (v : View sig κ sp S128x128 e) (f : v.ty.Contents (Elt F))
    (p : rB0.shape.Idx → Elt F e) (L : List (View.Piece (Elt F) S128x128 e)) :
    v.read (Elt F) (v.writes (Elt F) f (⟨rB0, p⟩ :: L)) = View.canon [⟨rB0, p⟩] :=
  (View.read_writes_eq_canon v f _ (coverB0_cons p L)).trans (canon_headB0 p L)

/-! ## The kernel body on any whole staging memrefs, case by case -/

set_option maxHeartbeats 4000000 in
/-- The first point: the accumulator is zeroed first; the second `scf.if` is not taken. -/
theorem run0_A (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S128x128 .f32) (harg9 : arg9.IsWhole) (arg10 : Memref sig .tc .vmem S128x128 .f32) (harg10 : arg10.IsWhole)
    (hc1 : cond0_1 i) (hc2 : ¬cond0_2 i)
    (x0 x1 : Vec F S5000x128 .f32) (x2 : Vec F S5000x128 .bf16) (x3 : Vec F S128x128 .f32) (x4 : Vec F S1x128 .f32) (x5 : Vec F S128x128 .f32) (x6 : Vec F S1x128 .f32) (x8 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x3 x4 x5 x6)
            ∗ owns (c : Thread nD τ) arg9 fullShare x8
            ∗ owns (c : Thread nD τ) arg10 fullShare (scr0 x0 x1 x2 x3 x4 x5 x6 (zero0 (F := F)))) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8 arg9 harg9 arg10 harg10) K := by
  simp only [cc0__gin_mlp_kernel_eq_skeleton]; unfold cc0__gin_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds, %fs, -, HS⟩, Hk⟩
  subst hf0 hf1 hf2 hf3 hf4 hf5 hf6 hf8
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr
    swap; · iexact H7
    ipureintro; exact View.read_writes_eq_canon _ _ _ (coverA0 _)
  isplitl [H8]
  · iexists _; isplitr; · ipureintro; rfl
    iexact H8
  iexists _; isplitr
  swap; · iexact HS
  ipureintro
  refine (read_writes_headB0 _ _ _ _).trans ?_
  unfold scr0
  refine congrArg (fun p => View.canon [(⟨rB0, p⟩ : View.Piece (Elt F) S128x128 .f32)]) ?_
  refine congrArg (k0_pay1 _ _) ?_
  unfold zero0
  try dsimp only
  exact View.readCov_eq_canon_ld _ _ _ (coverB0 (F := F) _)

set_option maxHeartbeats 4000000 in
/-- A middle point: neither `scf.if` taken. -/
theorem run0_B (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S128x128 .f32) (harg9 : arg9.IsWhole) (arg10 : Memref sig .tc .vmem S128x128 .f32) (harg10 : arg10.IsWhole)
    (hc1 : ¬cond0_1 i) (hc2 : ¬cond0_2 i)
    (x0 x1 : Vec F S5000x128 .f32) (x2 : Vec F S5000x128 .bf16) (x3 : Vec F S128x128 .f32) (x4 : Vec F S1x128 .f32) (x5 : Vec F S128x128 .f32) (x6 : Vec F S1x128 .f32) (x8 s : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ owns (c : Thread nD τ) arg9 fullShare x8
        ∗ owns (c : Thread nD τ) arg10 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x3 x4 x5 x6)
            ∗ owns (c : Thread nD τ) arg9 fullShare x8
            ∗ owns (c : Thread nD τ) arg10 fullShare (scr0 x0 x1 x2 x3 x4 x5 x6 s)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8 arg9 harg9 arg10 harg10) K := by
  simp only [cc0__gin_mlp_kernel_eq_skeleton]; unfold cc0__gin_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs, %hfs, HS⟩, Hk⟩
  subst hf0 hf1 hf2 hf3 hf4 hf5 hf6 hf8 hfs
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr
    swap; · iexact H7
    ipureintro; exact View.read_writes_eq_canon _ _ _ (coverA0 _)
  isplitl [H8]
  · iexists _; isplitr; · ipureintro; rfl
    iexact H8
  iexists _; isplitr
  swap; · iexact HS
  ipureintro; exact View.read_writes_eq_canon _ _ _ (coverB0 _)

set_option maxHeartbeats 4000000 in
/-- The last point: the accumulator is not zeroed; it is copied into window 8 at the end. -/
theorem run0_C (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S128x128 .f32) (harg9 : arg9.IsWhole) (arg10 : Memref sig .tc .vmem S128x128 .f32) (harg10 : arg10.IsWhole)
    (hc1 : ¬cond0_1 i) (hc2 : cond0_2 i)
    (x0 x1 : Vec F S5000x128 .f32) (x2 : Vec F S5000x128 .bf16) (x3 : Vec F S128x128 .f32) (x4 : Vec F S1x128 .f32) (x5 : Vec F S128x128 .f32) (x6 : Vec F S1x128 .f32) (s : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ owns (c : Thread nD τ) arg10 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x3 x4 x5 x6)
            ∗ owns (c : Thread nD τ) arg9 fullShare (out0_8 (scr0 x0 x1 x2 x3 x4 x5 x6 s))
            ∗ owns (c : Thread nD τ) arg10 fullShare (scr0 x0 x1 x2 x3 x4 x5 x6 s)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8 arg9 harg9 arg10 harg10) K := by
  simp only [cc0__gin_mlp_kernel_eq_skeleton]; unfold cc0__gin_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS⟩, Hk⟩
  subst hf0 hf1 hf2 hf3 hf4 hf5 hf6 hfs
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr
    swap; · iexact H7
    ipureintro; exact View.read_writes_eq_canon _ _ _ (coverA0 _)
  isplitl [H8]
  · iexists _; isplitr
    swap; · iexact H8
    ipureintro
    refine (read_writes_headB0 _ _ _ _).trans ?_
    unfold out0_8
    refine congrArg (fun p => View.canon [(⟨rB0, p⟩ : View.Piece (Elt F) S128x128 .f32)]) ?_
    unfold scr0
    exact View.readCov_eq_canon_ld _ _ _ (coverB0 (F := F) _)
  iexists _; isplitr
  swap; · iexact HS
  ipureintro; exact View.read_writes_eq_canon _ _ _ (coverB0 _)

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place: unfetched, the block index has not moved. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (Pipeline.UD sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator, point by point -/

/-- The scratch operand: a whole scoped buffer of the kernel's own, passed beside the windows. -/
abbrev scM0_0 : Memref sig .tc .vmem S128x128 .f32 := Memref.whole cc0_scratch0

/-- Point number `n` of the grid (wrapped past the last). -/
def pt0 (n : ℕ) : Fin cfg0.N := ⟨n % cfg0.N, Nat.mod_lt _ (Nat.lt_trans Nat.zero_lt_one one_lt_N0)⟩
theorem pt0_val (t : Fin cfg0.N) : pt0 t.val = t := Fin.ext (Nat.mod_eq_of_lt t.isLt)

/-- The accumulator after point `t`, if the point found it at `s`. -/
def stepAt0 (c : Dev nD) (t : Fin cfg0.N) (s : Vec F S128x128 .f32) : Vec F S128x128 .f32 :=
  scr0 (iblk0 V c 0 t) (iblk0 V c 1 t) (iblk0 V c 2 t) (iblk0 V c 3 t) (iblk0 V c 4 t) (iblk0 V c 5 t) (iblk0 V c 6 t) s

/-- The accumulator after point `n`: zeroed at the first point, each point's term added. -/
def acc0 (c : Dev nD) : ℕ → Vec F S128x128 .f32
  | 0 => stepAt0 V c (pt0 0) (zero0 (F := F))
  | n + 1 => stepAt0 V c (pt0 (n + 1)) (acc0 c n)

theorem acc0_first (c : Dev nD) (t : Fin cfg0.N) (h : t.val = 0) : acc0 V c t.val = stepAt0 V c t (zero0 (F := F)) := by
  rw [h]; show stepAt0 V c (pt0 0) _ = _; rw [← h, pt0_val]
theorem acc0_next (c : Dev nD) (t : Fin cfg0.N) (n : ℕ) (h : t.val = n + 1) : acc0 V c t.val = stepAt0 V c t (acc0 V c n) := by
  rw [h]; show stepAt0 V c (pt0 (n + 1)) _ = _; rw [← h, pt0_val]

/-- The scratch before point `k`: at some contents before the first, then at the accumulated value. -/
def scrAt0 (c : Dev nD) : ℕ → sProp 𝕄
  | 0 => iprop(∃ d, owns (c : Thread nD τ) scM0_0 fullShare d)
  | n + 1 => owns (c : Thread nD τ) scM0_0 fullShare (acc0 V c n)

/-- The scratch whole at some contents, as its points-to. -/
theorem scr_whole0 (c : Dev nD) :
    (iprop(∃ d, owns (c : Thread nD τ) scM0_0 fullShare d) : sProp 𝕄)
      = iprop(∃ f : Buf (Elt F) ((c : Thread nD τ).loc cc0_scratch0), ((c : Thread nD τ).loc cc0_scratch0) ↦{fullShare} f) := by
  simp only [scM0_0, owns_whole]; try rfl

theorem scrAt0_some (c : Dev nD) (k : ℕ) :
    scrAt0 V c k ⊢ (iprop(∃ f : Buf (Elt F) ((c : Thread nD τ).loc cc0_scratch0), ((c : Thread nD τ).loc cc0_scratch0) ↦{fullShare} f) : sProp 𝕄) := by
  rw [← scr_whole0]
  cases k with
  | zero => unfold scrAt0; iintro H; iexact H
  | succ n => unfold scrAt0; iintro H; iexists _; iexact H

/-- The invariant before point `k`: every other scoped buffer that is no staging buffer at some contents, the generator
    register at some state, the scratch as `scrAt0` says. -/
def Φ0 (c : Dev nD) (k : Fin (cfg0.N + 1)) : sProp 𝕄 :=
  iprop(Pipeline.scopedRestBut (Ix := Unit) (Name := ℕ) (U := Pipeline.UD sig nD τ) (Lvl := ℕ) (Val := Elt F) spec0 c [cc0_scratch0]
    ∗ (∃ r, prngReg c r) ∗ scrAt0 V c k.val)

/-! ## The pipeline's proof data -/

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 3 t) (iblk0 V c 4 t) (iblk0 V c 5 t) (iblk0 V c 6 t)
    | ⟨8, _⟩ => out0_8 (acc0 V c t.val)
  Φ := Φ0 V c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 3 t) (iblk0 V c 4 t) (iblk0 V c 5 t) (iblk0 V c 6 t) := by dsimp only [dat0]
theorem after0_8 (c : Dev nD) (t : Fin cfg0.N) : (dat0 V c).after 8 t = out0_8 (acc0 V c t.val) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

theorem Φ0_castSucc (c : Dev nD) (t : Fin cfg0.N) : (dat0 V c).Φ t.castSucc
    = iprop(Pipeline.scopedRestBut (Ix := Unit) (Name := ℕ) (U := Pipeline.UD sig nD τ) (Lvl := ℕ) (Val := Elt F) spec0 c [cc0_scratch0]
        ∗ (∃ r, prngReg c r) ∗ scrAt0 V c t.val) := rfl
theorem Φ0_succ (c : Dev nD) (t : Fin cfg0.N) : (dat0 V c).Φ t.succ
    = iprop(Pipeline.scopedRestBut (Ix := Unit) (Name := ℕ) (U := Pipeline.UD sig nD τ) (Lvl := ℕ) (Val := Elt F) spec0 c [cc0_scratch0]
        ∗ (∃ r, prngReg c r) ∗ owns (c : Thread nD τ) scM0_0 fullShare (acc0 V c t.val)) := rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns: window 8's buffer as found off the last point, at the accumulator's copy at it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ (dat0 V c).leavesExact 8 t)

theorem scrAt0_first (c : Dev nD) (t : Fin cfg0.N) (h : t.val = 0) :
    scrAt0 V c t.val = iprop(∃ d, owns (c : Thread nD τ) scM0_0 fullShare d) := by rw [h]; rfl
theorem scrAt0_next (c : Dev nD) (t : Fin cfg0.N) (n : ℕ) (h : t.val = n + 1) :
    scrAt0 V c t.val = owns (c : Thread nD τ) scM0_0 fullShare (acc0 V c n) := by rw [h]; rfl

theorem leaves0_8_idle (c : Dev nD) (t : Fin cfg0.N) (h : ¬t.val + 1 = cfg0.N) :
    (dat0 V c).leavesExact 8 t = iprop(∃ d, owns (c : Thread nD τ) (st0_8 t) fullShare ((dat0 V c).before 8 t d)) :=
  Dat.leavesExact_idle _ 8 t (by rw [hidle0_8, decide_eq_false h]; rfl) (by rw [hflush0_8, decide_eq_false h])
theorem leaves0_8_last (c : Dev nD) (t : Fin cfg0.N) (h : t.val + 1 = cfg0.N) :
    (dat0 V c).leavesExact 8 t = owns (c : Thread nD τ) (st0_8 t) fullShare ((dat0 V c).after 8 t) := by
  unfold Dat.leavesExact; rw [hidle0_8, decide_eq_true h]; rfl

/-- The body at any point, by its three control cases: the inputs' memrefs hold their blocks; the invariant hands the
    body its scratch — at anything before the first point, at the accumulated value later — and takes it back one point on. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl,
    after0_0, after0_1, after0_2, after0_3, after0_4, after0_5, after0_6, after0_7, Φ0_castSucc, Φ0_succ]
  by_cases hA : t.val = 0
  · have h1 : cond0_1 (grid0.coords t) := (hcond0_1 t).mpr hA
    have hL : ¬t.val + 1 = cfg0.N := fun h => by have := one_lt_N0; omega
    have h2 : ¬cond0_2 (grid0.coords t) := fun h => hL ((hcond0_2 t).mp h)
    rw [scrAt0_first V c t hA, acc0_first V c t hA, leaves0_8_idle V c t hL]; unfold stepAt0
    iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run0_A c Set.univ (grid0.coords t) _ _ _ _ _ _ _ _ _ _ _ _ _ _ _ _ _ _ _ _ h1 h2 (iblk0 V c 0 t) (iblk0 V c 1 t) (iblk0 V c 2 t) (iblk0 V c 3 t) (iblk0 V c 4 t) (iblk0 V c 5 t) (iblk0 V c 6 t) ((dat0 V c).before 8 t d8) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS]; · iexact HS
    iintro ⟨H0, H1, H2, H3, H4, H5, H6, H7, H8, HS⟩
    isplitl [HR Hg HS]
    · isplitl [HR]; · iexact HR
      isplitl [Hg]; · iexact Hg
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists d8; iexact H8
  obtain ⟨n, hn⟩ := Nat.exists_eq_add_one_of_ne_zero hA
  have h1 : ¬cond0_1 (grid0.coords t) := fun h => hA ((hcond0_1 t).mp h)
  rw [scrAt0_next V c t n hn, acc0_next V c t n hn]; unfold stepAt0
  by_cases hL : t.val + 1 = cfg0.N
  · have h2 : cond0_2 (grid0.coords t) := (hcond0_2 t).mpr hL
    rw [leaves0_8_last V c t hL, after0_8, acc0_next V c t n hn]; unfold stepAt0
    iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run0_C c Set.univ (grid0.coords t) _ _ _ _ _ _ _ _ _ _ _ _ _ _ _ _ _ _ _ _ h1 h2 (iblk0 V c 0 t) (iblk0 V c 1 t) (iblk0 V c 2 t) (iblk0 V c 3 t) (iblk0 V c 4 t) (iblk0 V c 5 t) (iblk0 V c 6 t) (acc0 V c n) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, H7, H8, HS⟩
    isplitl [HR Hg HS]
    · isplitl [HR]; · iexact HR
      isplitl [Hg]; · iexact Hg
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  have h2 : ¬cond0_2 (grid0.coords t) := fun h => hL ((hcond0_2 t).mp h)
  rw [leaves0_8_idle V c t hL]
  iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run0_B c Set.univ (grid0.coords t) _ _ _ _ _ _ _ _ _ _ _ _ _ _ _ _ _ _ _ _ h1 h2 (iblk0 V c 0 t) (iblk0 V c 1 t) (iblk0 V c 2 t) (iblk0 V c 3 t) (iblk0 V c 4 t) (iblk0 V c 5 t) (iblk0 V c 6 t) ((dat0 V c).before 8 t d8) (acc0 V c n) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [HS]; · iexact HS
  iintro ⟨H0, H1, H2, H3, H4, H5, H6, H7, H8, HS⟩
  isplitl [HR Hg HS]
  · isplitl [HR]; · iexact HR
    isplitl [Hg]; · iexact Hg
    iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's ends -/

/-- Entering: the scratch is split off the scoped rest, at whatever it holds. -/
theorem hin0 (c : Dev nD) : (iprop((∃ r, prngReg c r) ∗ Pipeline.scopedRest spec0 c) : sProp 𝕄) ⊢ (dat0 V c).Φ 0 := by
  rw [show (dat0 V c).Φ 0 = Φ0 V c 0 from rfl, scopedRest0_split]; unfold Φ0
  rw [show scrAt0 V c ((0 : Fin (cfg0.N + 1)) : ℕ) = iprop(∃ d, owns (c : Thread nD τ) scM0_0 fullShare d) from rfl, scr_whole0]
  iintro ⟨Hp, Hs, Hr⟩
  isplitl [Hr]; · iexact Hr
  isplitl [Hp]; · iexact Hp
  iexact Hs

/-- Leaving: the scratch, at the accumulated value, goes back into the scoped rest. -/
theorem hout0 (c : Dev nD) : (dat0 V c).Φ (Fin.last cfg0.N) ⊢ (iprop((∃ r, prngReg c r) ∗ Pipeline.scopedRest spec0 c) : sProp 𝕄) := by
  rw [show (dat0 V c).Φ (Fin.last cfg0.N) = Φ0 V c (Fin.last cfg0.N) from rfl, scopedRest0_split]; unfold Φ0
  iintro ⟨Hr, Hp, Hs⟩
  isplitl [Hp]; · iexact Hp
  isplitl [Hs]; swap; · iexact Hr
  iapply (scrAt0_some V c _); iexact Hs

end Regions

end Cert.Kernel.Hand

end
-- ==== Proof.K.Reg1.lean ====
import proofs.«408428_j10917806867267_1_alg».proof.Proof.Gen.Kernel.Launch
import proofs.«408428_j10917806867267_1_alg».proof.Proof.Gen.Kernel.Skeleton
import proofs.«408428_j10917806867267_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's two branch conditions, decided over the grid -/

/-- The first `scf.if`'s condition (the point's coordinate is 0), as the skeleton's scalar chain computes it. -/
abbrev cond1_0 (i : grid1.Coords) : Prop :=
  (Scalar.cmpi .ne (Scalar.extui (Scalar.cmpi .eq (BitVec.ofNat 32 (i 0).val) 0#32)) 0#32) = 1#1
/-- The second `scf.if`'s condition (the point's coordinate is the last). -/
abbrev cond1_1 (i : grid1.Coords) : Prop := k1_cond2 i = 1#1

/-- The first condition holds at the first point only. -/
theorem hcond1_0 : ∀ t : Fin cfg1.N, cond1_0 (grid1.coords t) ↔ t.val = 0 :=
  (by decide +kernel : ∀ t : Fin grid1.N, cond1_0 (grid1.coords t) ↔ t.val = 0)
/-- The second holds at the last point only. -/
theorem hcond1_1 : ∀ t : Fin cfg1.N, cond1_1 (grid1.coords t) ↔ t.val + 1 = cfg1.N :=
  (by decide +kernel : ∀ t : Fin grid1.N, cond1_1 (grid1.coords t) ↔ t.val + 1 = grid1.N)

/-! ## The body on any whole memrefs, case by case: pieces the run finds

The body never touches the matrix output's memref where its second branch is not taken, so the first two cases are
stated without it (it is framed around them). -/

set_option maxHeartbeats 4000000 in
/-- THE FIRST POINT (first branch taken: the accumulator is zeroed before it is read; second not). On whole memrefs —
    the four inputs at their contents, the row output and the accumulator at anything — the body runs to the
    continuation holding the inputs as they were and the row output and the accumulator with their pieces written;
    the pieces are the witness the run finds. -/
noncomputable def kernelRun1_A (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond1_0 i) (hc1 : ¬cond1_1 i)
    (x0 : Vec F S5000x128 .f32) (x1 : Vec F S5000x128 .bf16) (x2 : Vec F S128x128 .f32) (x3 : Vec F S1x128 .f32) :
    { L : List (View.Piece (Elt F) S5000x128 .f32) × List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc1__center_varsum_kernel i arg1 harg1 arg2 harg2 arg3 harg3 arg4 harg4 arg5 harg5 arg6 harg6 arg7 harg7) K } := by
  refine ⟨(?_, ?_), fun E K => ?run⟩
  case run =>
    simp only [cc1__center_varsum_kernel_eq_skeleton]; unfold cc1__center_varsum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d6, %f6, -, H6⟩, Hk⟩
    obtain rfl := harg1.eq_unread hf0; obtain rfl := harg2.eq_unread hf1; obtain rfl := harg3.eq_unread hf2; obtain rfl := harg4.eq_unread hf3

    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H6

set_option maxHeartbeats 4000000 in
/-- THE MIDDLE POINTS (neither branch taken): as the first point's, the accumulator coming at `s`. -/
noncomputable def kernelRun1_B (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond1_0 i) (hc1 : ¬cond1_1 i)
    (x0 : Vec F S5000x128 .f32) (x1 : Vec F S5000x128 .bf16) (x2 : Vec F S128x128 .f32) (x3 : Vec F S1x128 .f32) (s : Vec F S128x128 .f32) :
    { L : List (View.Piece (Elt F) S5000x128 .f32) × List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg7 fullShare s
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc1__center_varsum_kernel i arg1 harg1 arg2 harg2 arg3 harg3 arg4 harg4 arg5 harg5 arg6 harg6 arg7 harg7) K } := by
  refine ⟨(?_, ?_), fun E K => ?run⟩
  case run =>
    simp only [cc1__center_varsum_kernel_eq_skeleton]; unfold cc1__center_varsum_kernel_skel
    unfold owns
    iintro ⟨⟨%f0, %hf0, H0⟩, ⟨%f1, %hf1, H1⟩, ⟨%f2, %hf2, H2⟩, ⟨%f3, %hf3, H3⟩, ⟨%d4, %f4, -, H4⟩, ⟨%f6, %hf6, H6⟩, Hk⟩
    obtain rfl := harg1.eq_unread hf0; obtain rfl := harg2.eq_unread hf1; obtain rfl := harg3.eq_unread hf2; obtain rfl := harg4.eq_unread hf3
    obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H6

set_option maxHeartbeats 4000000 in
/-- THE LAST POINT (second branch taken: the accumulator is copied into the matrix output at the end). The matrix
    output comes at anything and leaves with its pieces written. -/
noncomputable def kernelRun1_C (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond1_0 i) (hc1 : cond1_1 i)
    (x0 : Vec F S5000x128 .f32) (x1 : Vec F S5000x128 .bf16) (x2 : Vec F S128x128 .f32) (x3 : Vec F S1x128 .f32) (s : Vec F S128x128 .f32) :
    { L : List (View.Piece (Elt F) S5000x128 .f32) × List (View.Piece (Elt F) S128x128 .f32) × List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ owns (c : Thread nD τ) arg7 fullShare s
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2.1)
                ∗ (∃ f, arg7.view.loc (c : Thread nD τ) ↦[arg7.view.set]{fullShare} arg7.view.writes (Elt F) f L.2.2)) -∗ K ⟨⟩))
          ⊢ wp frame (wpE (defs₀ (F := F)) Variants.none c none) E (cc1__center_varsum_kernel i arg1 harg1 arg2 harg2 arg3 harg3 arg4 harg4 arg5 harg5 arg6 harg6 arg7 harg7) K } := by
  refine ⟨(?_, ?_, ?_), fun E K => ?run⟩
  case run =>
    simp only [cc1__center_varsum_kernel_eq_skeleton]; unfold cc1__center_varsum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
    obtain rfl := harg1.eq_unread hf0; obtain rfl := harg2.eq_unread hf1; obtain rfl := harg3.eq_unread hf2; obtain rfl := harg4.eq_unread hf3
    obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-! ## The memrefs the pipeline passes the body, and views to state contents through -/

/-- One whole buffer of each written shape, through which written contents are stated (the choice does not matter:
    pieces that cover a whole view read back the same over anything). -/
abbrev VO1_4 : View sig .tc .vmem S5000x128 .f32 := (Memref.whole cc1_stg4_0 : Memref sig .tc .vmem S5000x128 .f32).view
abbrev VO1_5 : View sig .tc .vmem S128x128 .f32 := (Memref.whole cc1_stg5_0 : Memref sig .tc .vmem S128x128 .f32).view
abbrev VS1 : View sig .tc .vmem S128x128 .f32 := (Memref.whole cc1_scratch0 : Memref sig .tc .vmem S128x128 .f32).view
/-- Each window's current staging memref at point `t`, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S5000x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .f32 := win1_5.stage (cfg1.slots t 5)
abbrev hs1_5 (t : Fin cfg1.N) : (ms1_5 t).IsWhole := hstage1_5 ((cfg1.slots t 5).cast nbuf1_5)
/-- The accumulator: the kernel's own whole scoped buffer, passed beside the windows. -/
abbrev scM1 : Memref sig .tc .vmem S128x128 .f32 := Memref.whole cc1_scratch0

/-! ## Each case's pieces tile what they are written to, and what they leave -/

theorem cover1_A_4 (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond1_0 i) (hc1 : ¬cond1_1 i) (x0 : Vec F S5000x128 .f32) (x1 : Vec F S5000x128 .bf16) (x2 : Vec F S128x128 .f32) (x3 : Vec F S1x128 .f32) (y : S5000x128.Idx) :
    ∃ pc ∈ (kernelRun1_A c i arg1 harg1 arg2 harg2 arg3 harg3 arg4 harg4 arg5 harg5 arg6 harg6 arg7 harg7 hc0 hc1 x0 x1 x2 x3).1.1, y ∈ pc.1.set :=
  View.cover_of_tiledL (kernelRun1_A c i arg1 harg1 arg2 harg2 arg3 harg3 arg4 harg4 arg5 harg5 arg6 harg6 arg7 harg7 hc0 hc1 x0 x1 x2 x3).1.1 S5000x128.size (by sl_kernel_rfl) y

theorem cover1_A_s (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond1_0 i) (hc1 : ¬cond1_1 i) (x0 : Vec F S5000x128 .f32) (x1 : Vec F S5000x128 .bf16) (x2 : Vec F S128x128 .f32) (x3 : Vec F S1x128 .f32) (y : S128x128.Idx) :
    ∃ pc ∈ (kernelRun1_A c i arg1 harg1 arg2 harg2 arg3 harg3 arg4 harg4 arg5 harg5 arg6 harg6 arg7 harg7 hc0 hc1 x0 x1 x2 x3).1.2, y ∈ pc.1.set :=
  View.cover_of_tiledL (kernelRun1_A c i arg1 harg1 arg2 harg2 arg3 harg3 arg4 harg4 arg5 harg5 arg6 harg6 arg7 harg7 hc0 hc1 x0 x1 x2 x3).1.2 S128x128.size (by sl_kernel_rfl) y

theorem cover1_B_4 (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond1_0 i) (hc1 : ¬cond1_1 i) (x0 : Vec F S5000x128 .f32) (x1 : Vec F S5000x128 .bf16) (x2 : Vec F S128x128 .f32) (x3 : Vec F S1x128 .f32) (s : Vec F S128x128 .f32) (y : S5000x128.Idx) :
    ∃ pc ∈ (kernelRun1_B c i arg1 harg1 arg2 harg2 arg3 harg3 arg4 harg4 arg5 harg5 arg6 harg6 arg7 harg7 hc0 hc1 x0 x1 x2 x3 s).1.1, y ∈ pc.1.set :=
  View.cover_of_tiledL (kernelRun1_B c i arg1 harg1 arg2 harg2 arg3 harg3 arg4 harg4 arg5 harg5 arg6 harg6 arg7 harg7 hc0 hc1 x0 x1 x2 x3 s).1.1 S5000x128.size (by sl_kernel_rfl) y

theorem cover1_B_s (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond1_0 i) (hc1 : ¬cond1_1 i) (x0 : Vec F S5000x128 .f32) (x1 : Vec F S5000x128 .bf16) (x2 : Vec F S128x128 .f32) (x3 : Vec F S1x128 .f32) (s : Vec F S128x128 .f32) (y : S128x128.Idx) :
    ∃ pc ∈ (kernelRun1_B c i arg1 harg1 arg2 harg2 arg3 harg3 arg4 harg4 arg5 harg5 arg6 harg6 arg7 harg7 hc0 hc1 x0 x1 x2 x3 s).1.2, y ∈ pc.1.set :=
  View.cover_of_tiledL (kernelRun1_B c i arg1 harg1 arg2 harg2 arg3 harg3 arg4 harg4 arg5 harg5 arg6 harg6 arg7 harg7 hc0 hc1 x0 x1 x2 x3 s).1.2 S128x128.size (by sl_kernel_rfl) y

theorem cover1_C_4 (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond1_0 i) (hc1 : cond1_1 i) (x0 : Vec F S5000x128 .f32) (x1 : Vec F S5000x128 .bf16) (x2 : Vec F S128x128 .f32) (x3 : Vec F S1x128 .f32) (s : Vec F S128x128 .f32) (y : S5000x128.Idx) :
    ∃ pc ∈ (kernelRun1_C c i arg1 harg1 arg2 harg2 arg3 harg3 arg4 harg4 arg5 harg5 arg6 harg6 arg7 harg7 hc0 hc1 x0 x1 x2 x3 s).1.1, y ∈ pc.1.set :=
  View.cover_of_tiledL (kernelRun1_C c i arg1 harg1 arg2 harg2 arg3 harg3 arg4 harg4 arg5 harg5 arg6 harg6 arg7 harg7 hc0 hc1 x0 x1 x2 x3 s).1.1 S5000x128.size (by sl_kernel_rfl) y

theorem cover1_C_5 (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond1_0 i) (hc1 : cond1_1 i) (x0 : Vec F S5000x128 .f32) (x1 : Vec F S5000x128 .bf16) (x2 : Vec F S128x128 .f32) (x3 : Vec F S1x128 .f32) (s : Vec F S128x128 .f32) (y : S128x128.Idx) :
    ∃ pc ∈ (kernelRun1_C c i arg1 harg1 arg2 harg2 arg3 harg3 arg4 harg4 arg5 harg5 arg6 harg6 arg7 harg7 hc0 hc1 x0 x1 x2 x3 s).1.2.1, y ∈ pc.1.set :=
  View.cover_of_tiledL (kernelRun1_C c i arg1 harg1 arg2 harg2 arg3 harg3 arg4 harg4 arg5 harg5 arg6 harg6 arg7 harg7 hc0 hc1 x0 x1 x2 x3 s).1.2.1 S128x128.size (by sl_kernel_rfl) y

theorem cover1_C_s (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond1_0 i) (hc1 : cond1_1 i) (x0 : Vec F S5000x128 .f32) (x1 : Vec F S5000x128 .bf16) (x2 : Vec F S128x128 .f32) (x3 : Vec F S1x128 .f32) (s : Vec F S128x128 .f32) (y : S128x128.Idx) :
    ∃ pc ∈ (kernelRun1_C c i arg1 harg1 arg2 harg2 arg3 harg3 arg4 harg4 arg5 harg5 arg6 harg6 arg7 harg7 hc0 hc1 x0 x1 x2 x3 s).1.2.2, y ∈ pc.1.set :=
  View.cover_of_tiledL (kernelRun1_C c i arg1 harg1 arg2 harg2 arg3 harg3 arg4 harg4 arg5 harg5 arg6 harg6 arg7 harg7 hc0 hc1 x0 x1 x2 x3 s).1.2.2 S128x128.size (by sl_kernel_rfl) y

/-- What the first point leaves in the row output: its pieces read back over anything. -/
def row1_A (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond1_0 i) (hc1 : ¬cond1_1 i) (x0 : Vec F S5000x128 .f32) (x1 : Vec F S5000x128 .bf16) (x2 : Vec F S128x128 .f32) (x3 : Vec F S1x128 .f32) : Vec F S5000x128 .f32 :=
  VO1_4.read (Elt F) (VO1_4.writes (Elt F) VO1_4.junk (kernelRun1_A c i arg1 harg1 arg2 harg2 arg3 harg3 arg4 harg4 arg5 harg5 arg6 harg6 arg7 harg7 hc0 hc1 x0 x1 x2 x3).1.1)

/-- What the first point leaves in the accumulator. -/
def scr1_A (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond1_0 i) (hc1 : ¬cond1_1 i) (x0 : Vec F S5000x128 .f32) (x1 : Vec F S5000x128 .bf16) (x2 : Vec F S128x128 .f32) (x3 : Vec F S1x128 .f32) : Vec F S128x128 .f32 :=
  VS1.read (Elt F) (VS1.writes (Elt F) VS1.junk (kernelRun1_A c i arg1 harg1 arg2 harg2 arg3 harg3 arg4 harg4 arg5 harg5 arg6 harg6 arg7 harg7 hc0 hc1 x0 x1 x2 x3).1.2)

/-- What a middle point leaves in the row output, -/
def row1_B (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond1_0 i) (hc1 : ¬cond1_1 i) (x0 : Vec F S5000x128 .f32) (x1 : Vec F S5000x128 .bf16) (x2 : Vec F S128x128 .f32) (x3 : Vec F S1x128 .f32) (s : Vec F S128x128 .f32) : Vec F S5000x128 .f32 :=
  VO1_4.read (Elt F) (VO1_4.writes (Elt F) VO1_4.junk (kernelRun1_B c i arg1 harg1 arg2 harg2 arg3 harg3 arg4 harg4 arg5 harg5 arg6 harg6 arg7 harg7 hc0 hc1 x0 x1 x2 x3 s).1.1)

/-- and in the accumulator, found at `s`. -/
def scr1_B (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond1_0 i) (hc1 : ¬cond1_1 i) (x0 : Vec F S5000x128 .f32) (x1 : Vec F S5000x128 .bf16) (x2 : Vec F S128x128 .f32) (x3 : Vec F S1x128 .f32) (s : Vec F S128x128 .f32) : Vec F S128x128 .f32 :=
  VS1.read (Elt F) (VS1.writes (Elt F) VS1.junk (kernelRun1_B c i arg1 harg1 arg2 harg2 arg3 harg3 arg4 harg4 arg5 harg5 arg6 harg6 arg7 harg7 hc0 hc1 x0 x1 x2 x3 s).1.2)

/-- What the last point leaves in the row output, -/
def row1_C (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond1_0 i) (hc1 : cond1_1 i) (x0 : Vec F S5000x128 .f32) (x1 : Vec F S5000x128 .bf16) (x2 : Vec F S128x128 .f32) (x3 : Vec F S1x128 .f32) (s : Vec F S128x128 .f32) : Vec F S5000x128 .f32 :=
  VO1_4.read (Elt F) (VO1_4.writes (Elt F) VO1_4.junk (kernelRun1_C c i arg1 harg1 arg2 harg2 arg3 harg3 arg4 harg4 arg5 harg5 arg6 harg6 arg7 harg7 hc0 hc1 x0 x1 x2 x3 s).1.1)

/-- in the matrix output, -/
def mat1_C (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond1_0 i) (hc1 : cond1_1 i) (x0 : Vec F S5000x128 .f32) (x1 : Vec F S5000x128 .bf16) (x2 : Vec F S128x128 .f32) (x3 : Vec F S1x128 .f32) (s : Vec F S128x128 .f32) : Vec F S128x128 .f32 :=
  VO1_5.read (Elt F) (VO1_5.writes (Elt F) VO1_5.junk (kernelRun1_C c i arg1 harg1 arg2 harg2 arg3 harg3 arg4 harg4 arg5 harg5 arg6 harg6 arg7 harg7 hc0 hc1 x0 x1 x2 x3 s).1.2.1)

/-- and in the accumulator, found at `s`. -/
def scr1_C (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond1_0 i) (hc1 : cond1_1 i) (x0 : Vec F S5000x128 .f32) (x1 : Vec F S5000x128 .bf16) (x2 : Vec F S128x128 .f32) (x3 : Vec F S1x128 .f32) (s : Vec F S128x128 .f32) : Vec F S128x128 .f32 :=
  VS1.read (Elt F) (VS1.writes (Elt F) VS1.junk (kernelRun1_C c i arg1 harg1 arg2 harg2 arg3 harg3 arg4 harg4 arg5 harg5 arg6 harg6 arg7 harg7 hc0 hc1 x0 x1 x2 x3 s).1.2.2)

section Region

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for ANY proof data whose array is `V`'s and whose body leaves the block in place; the
    windows uncut and never idle. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each point leaves: the accumulation -/

/-- The grid has at least two points: its first point is not its last. -/
theorem first_ne_last1 : ¬((0 : ℕ) + 1 = cfg1.N) := by rw [show cfg1.N = 10 from N_1]; decide

/-- THE ACCUMULATION. What the body leaves at position `n` in (the row output, the matrix output, the accumulator):
    the case the position selects — the first point's, the last point's, a middle point's —, run at the point's
    memrefs and input blocks, the accumulator found at what this leaves in it at `n - 1`. (The matrix output is written
    at the last point only; elsewhere the component repeats the accumulator's and is read nowhere.) -/
def outs1 (c : Dev nD) : (n : ℕ) → n < cfg1.N → Vec F S5000x128 .f32 × Vec F S128x128 .f32 × Vec F S128x128 .f32
  | 0, hn =>
    (row1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr rfl) (fun h => first_ne_last1 ((hcond1_1 ⟨0, hn⟩).mp h)) (iblk1 V c 0 ⟨0, hn⟩) (iblk1 V c 1 ⟨0, hn⟩) (iblk1 V c 2 ⟨0, hn⟩) (iblk1 V c 3 ⟨0, hn⟩),
     scr1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr rfl) (fun h => first_ne_last1 ((hcond1_1 ⟨0, hn⟩).mp h)) (iblk1 V c 0 ⟨0, hn⟩) (iblk1 V c 1 ⟨0, hn⟩) (iblk1 V c 2 ⟨0, hn⟩) (iblk1 V c 3 ⟨0, hn⟩),
     scr1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr rfl) (fun h => first_ne_last1 ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h1 : n + 1 + 1 = cfg1.N then
      (row1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outs1 c n (Nat.lt_of_succ_lt hn)).2.2,
       mat1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outs1 c n (Nat.lt_of_succ_lt hn)).2.2,
       scr1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outs1 c n (Nat.lt_of_succ_lt hn)).2.2)
    else
      (row1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outs1 c n (Nat.lt_of_succ_lt hn)).2.2,
       scr1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outs1 c n (Nat.lt_of_succ_lt hn)).2.2,
       scr1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outs1 c n (Nat.lt_of_succ_lt hn)).2.2)

/-- What the accumulator holds after position `n`. -/
abbrev acc1 (c : Dev nD) (n : ℕ) (hn : n < cfg1.N) : Vec F S128x128 .f32 := (outs1 V c n hn).2.2

/-- `outs1` at the first point. -/
theorem outs1_A (c : Dev nD) (t : Fin cfg1.N) (h0 : t.val = 0) (hc0 : cond1_0 (grid1.coords t)) (hc1 : ¬cond1_1 (grid1.coords t)) :
    outs1 V c t.val t.isLt =
      (row1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t),
       scr1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t),
       scr1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t)) := by
  obtain ⟨n, hn⟩ := t
  cases n with
  | zero => exact rfl
  | succ n => exact absurd h0 (Nat.succ_ne_zero n)

/-- `outs1` at the last point: over what the point before left in the accumulator. -/
theorem outs1_C (c : Dev nD) (t : Fin cfg1.N) (h0 : ¬t.val = 0) (h1 : t.val + 1 = cfg1.N) (hc0 : ¬cond1_0 (grid1.coords t)) (hc1 : cond1_1 (grid1.coords t)) :
    outs1 V c t.val t.isLt =
      (row1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (acc1 V c (t.val - 1) (Nat.lt_of_le_of_lt (Nat.sub_le _ _) t.isLt)),
       mat1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (acc1 V c (t.val - 1) (Nat.lt_of_le_of_lt (Nat.sub_le _ _) t.isLt)),
       scr1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (acc1 V c (t.val - 1) (Nat.lt_of_le_of_lt (Nat.sub_le _ _) t.isLt))) := by
  obtain ⟨n, hn⟩ := t
  cases n with
  | zero => exact absurd rfl h0
  | succ n => exact (dif_pos h1).trans rfl

/-- `outs1` at a middle point. -/
theorem outs1_B (c : Dev nD) (t : Fin cfg1.N) (h0 : ¬t.val = 0) (h1 : ¬t.val + 1 = cfg1.N) (hc0 : ¬cond1_0 (grid1.coords t)) (hc1 : ¬cond1_1 (grid1.coords t)) :
    outs1 V c t.val t.isLt =
      (row1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (acc1 V c (t.val - 1) (Nat.lt_of_le_of_lt (Nat.sub_le _ _) t.isLt)),
       scr1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (acc1 V c (t.val - 1) (Nat.lt_of_le_of_lt (Nat.sub_le _ _) t.isLt)),
       scr1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (acc1 V c (t.val - 1) (Nat.lt_of_le_of_lt (Nat.sub_le _ _) t.isLt))) := by
  obtain ⟨n, hn⟩ := t
  cases n with
  | zero => exact absurd rfl h0
  | succ n => exact (dif_neg h1).trans rfl

/-! ## The pipeline's proof data -/

/-- What the accumulator is owned at before position `n` (after position `n - 1`): before the first point at SOME
    contents (the region finds it at anything; the first point zeroes it before reading), after point `n` at the value
    accumulated through it. -/
def scrAt1 (c : Dev nD) : (n : ℕ) → n < cfg1.N + 1 → sProp 𝕄
  | 0, _ => iprop(∃ d, owns (c : Thread nD τ) scM1 fullShare d)
  | n + 1, h => owns (c : Thread nD τ) scM1 fullShare (acc1 V c n (Nat.lt_of_succ_lt_succ h))

/-- The body's invariant before point `t`: the core's scoped buffers that are neither a staging buffer of this call
    nor its accumulator, unopened; the generator register at some state; the accumulator whole at its contents there. -/
def Phi1 (c : Dev nD) (t : Fin (cfg1.N + 1)) : sProp 𝕄 :=
  iprop(Pipeline.scopedRestBut (Ix := Unit) (Name := ℕ) (U := Pipeline.UD sig nD τ) (Lvl := ℕ) (Val := Elt F) spec1 c [cc1_scratch0]
    ∗ (∃ r, prngReg c r) ∗ scrAt1 V c t.val t.isLt)

/-- The proof data of the pipeline on core `c`: the arrays as the region finds them (`V`); after the body at point `t`
    each input's buffer at its block, the row output's and the matrix output's at what `outs1` says; the invariant
    `Phi1`; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outs1 V c t.val t.isLt).1
    | ⟨5, _⟩ => (outs1 V c t.val t.isLt).2.1
  Φ t := Phi1 V c t
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outs1 V c t.val t.isLt).1 := by dsimp only [dat1]
theorem after1_5 (c : Dev nD) (t : Fin cfg1.N) : (dat1 V c).after 5 t = (outs1 V c t.val t.isLt).2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The accumulator's clause of the invariant, by the point. -/
theorem scrAt1_succ (c : Dev nD) (t : Fin cfg1.N) :
    scrAt1 V c t.succ.val t.succ.isLt = owns (c : Thread nD τ) scM1 fullShare (acc1 V c t.val t.isLt) := by
  obtain ⟨n, hn⟩ := t; rfl
theorem scrAt1_castSucc_zero (c : Dev nD) (t : Fin cfg1.N) (h0 : t.val = 0) :
    scrAt1 V c t.castSucc.val t.castSucc.isLt = iprop(∃ d, owns (c : Thread nD τ) scM1 fullShare d) := by
  obtain ⟨n, hn⟩ := t
  cases n with
  | zero => rfl
  | succ n => exact absurd h0 (Nat.succ_ne_zero n)
theorem scrAt1_castSucc_pos (c : Dev nD) (t : Fin cfg1.N) (h0 : ¬t.val = 0) :
    scrAt1 V c t.castSucc.val t.castSucc.isLt
      = owns (c : Thread nD τ) scM1 fullShare (acc1 V c (t.val - 1) (Nat.lt_of_le_of_lt (Nat.sub_le _ _) t.isLt)) := by
  obtain ⟨n, hn⟩ := t
  cases n with
  | zero => exact absurd rfl h0
  | succ n => rfl
/-- At any point the clause gives the accumulator at some contents. -/
theorem scrAt1_some (c : Dev nD) (n : ℕ) (h : n < cfg1.N + 1) :
    scrAt1 V c n h ⊢ (iprop(∃ d, owns (c : Thread nD τ) scM1 fullShare d) : sProp 𝕄) := by
  cases n with
  | zero => exact .rfl
  | succ n => rw [scrAt1]; iintro H; iexists _; iexact H

/-! ## Where the matrix output's window is idle -/

/-- The matrix output's window is idle exactly where the second branch is not taken, -/
theorem idle1_5_of (i : grid1.Coords) (h : ¬cond1_1 i) : cfg1.idle 5 i = true := by
  show (!(k1_cond2 i == 1#1)) = true
  rw [Bool.not_eq_true', beq_eq_false_iff_ne]; exact h
theorem live1_5_of (i : grid1.Coords) (h : cond1_1 i) : cfg1.idle 5 i = false := by
  show (!(k1_cond2 i == 1#1)) = false
  rw [Bool.not_eq_false', beq_iff_eq]; exact h
/-- and is not written back before the last point. -/
theorem noflush1_5 (t : Fin cfg1.N) (h1 : ¬t.val + 1 = cfg1.N) : (cfg1.win 5).flush t = false := by
  have hN : cfg1.N = 10 := N_1
  have ht : t.val < cfg1.N := t.isLt
  exact Bool.eq_false_iff.mpr fun h => by have := (flush1_5 _).mp h; omega
/-- The obligation's post for it at a live point. -/
theorem leaves1_5_live {c : Dev nD} (dat : Dat τ (Elt F) Unit ℕ (Pipeline.UD sig nD τ) ℕ cfg1 c) (t : Fin cfg1.N)
    (hi : cfg1.idle 5 (cfg1.grid.coords t) = false) :
    dat.leavesExact 5 t = owns (c : Thread nD τ) ((cfg1.win 5).stage (cfg1.slots t 5)) fullShare (dat.after 5 t) := by
  unfold Dat.leavesExact; rw [hi]

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns: the matrix output's buffer as it was found where its window is idle. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ (dat1 V c).leavesExact 5 t)

set_option maxHeartbeats 1600000 in
/-- The body at any point. The inputs' memrefs hold their blocks; the point's position says which case it is in; the
    invariant hands the body the accumulator — at anything at the first point, else at what the point before left —
    and takes it back at what this point leaves; the rest of the invariant and the core's `owes` pass through unread;
    the matrix output's buffer is framed around the body where its window is idle. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    after1_0, after1_1, after1_2, after1_3, after1_4]
  rw [show (dat1 V c).Φ t.succ = Phi1 V c t.succ from rfl, show (dat1 V c).Φ t.castSucc = Phi1 V c t.castSucc from rfl]
  unfold Phi1
  rw [scrAt1_succ]
  unfold acc1
  by_cases h0 : t.val = 0
  · have hc0 : cond1_0 (grid1.coords t) := (hcond1_0 t).mpr h0
    have h1 : ¬t.val + 1 = cfg1.N := fun h => first_ne_last1 (by rw [h0] at h; exact h)
    have hc1 : ¬cond1_1 (grid1.coords t) := fun h => h1 ((hcond1_1 t).mp h)
    rw [scrAt1_castSucc_zero V c t h0, Dat.leavesExact_idle _ 5 t (idle1_5_of _ hc1) (noflush1_5 t h1), outs1_A V c t h0 hc0 hc1]
    dsimp only
    unfold row1_A scr1_A
    iintro ⟨⟨Hrest, Hg, HS⟩, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ _ _ hc0 hc1 (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%e6, HS⟩⟩
    isplitl [Hrest Hg HS]
    · isplitl [Hrest]; · iexact Hrest
      isplitl [Hg]; · iexact Hg
      unfold owns; iexists _; isplitr
      swap; · iexact HS
      ipureintro; exact View.read_writes_of_cover _ _ _ _ _ (cover1_A_s c _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 c _ _ _ _ _ _ _ _ _ _ _ _ _ _ _ _ _ _ _ _ _)
    iexists d5; iexact H5
  · have hc0 : ¬cond1_0 (grid1.coords t) := fun h => h0 ((hcond1_0 t).mp h)
    rw [scrAt1_castSucc_pos V c t h0]
    unfold acc1
    by_cases h1 : t.val + 1 = cfg1.N
    · have hc1 : cond1_1 (grid1.coords t) := (hcond1_1 t).mpr h1
      rw [leaves1_5_live _ t (live1_5_of _ hc1), after1_5, outs1_C V c t h0 h1 hc0 hc1]
      dsimp only
      unfold row1_C mat1_C scr1_C acc1
      iintro ⟨⟨Hrest, Hg, HS⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ hc0 hc1 (iblk1 V c 0 t) (iblk1 V c 1 t) (iblk1 V c 2 t) (iblk1 V c 3 t) _).2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, ⟨%e4, H4⟩, ⟨%e5, H5⟩, ⟨%e6, HS⟩⟩
      isplitl [Hrest Hg HS]
      · isplitl [Hrest]; · iexact Hrest
        isplitl [Hg]; · iexact Hg
        unfold owns; iexists _; isplitr
        swap; · iexact HS
        ipureintro; exact View.read_writes_of_cover _ _ _ _ _ (cover1_C_s c _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_C_4 c _ _ _ _ _ _ _ _ _ _ _ _ _ _ _ _ _ _ _ _ _ _)
      unfold owns; iexists _; isplitr
      swap; · iexact H5
      ipureintro; exact View.read_writes_of_cover _ _ _ _ _ (cover1_C_5 c _ _ _ _ _ _ _ _ _ _ _ _ _ _ _ _ _ _ _ _ _ _)
    · have hc1 : ¬cond1_1 (grid1.coords t) := fun h => h1 ((hcond1_1 t).mp h)
      rw [Dat.leavesExact_idle _ 5 t (idle1_5_of _ hc1) (noflush1_5 t h1), outs1_B V c t h0 h1 hc0 hc1]
      dsimp only
      unfold row1_B scr1_B acc1
      iintro ⟨⟨Hrest, Hg, HS⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ hc0 hc1 (iblk1 V c 0 t) (iblk1 V c 1 t) (iblk1 V c 2 t) (iblk1 V c 3 t) _).2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%e6, HS⟩⟩
      isplitl [Hrest Hg HS]
      · isplitl [Hrest]; · iexact Hrest
        isplitl [Hg]; · iexact Hg
        unfold owns; iexists _; isplitr
        swap; · iexact HS
        ipureintro; exact View.read_writes_of_cover _ _ _ _ _ (cover1_B_s c _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_B_4 c _ _ _ _ _ _ _ _ _ _ _ _ _ _ _ _ _ _ _ _ _ _)
      iexists d5; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- ENTRY: the generator register and the scoped buffers no window stages make the invariant before the first point —
    the accumulator split out of them, at whatever it holds. -/
theorem hin1 (c : Dev nD) : (iprop((∃ r, prngReg c r) ∗ Pipeline.scopedRest spec1 c) : sProp 𝕄) ⊢ (dat1 V c).Φ 0 := by
  rw [show (dat1 V c).Φ 0 = Phi1 V c 0 from rfl]; unfold Phi1
  rw [show scrAt1 V c (0 : Fin (cfg1.N + 1)).val (0 : Fin (cfg1.N + 1)).isLt = iprop(∃ d, owns (c : Thread nD τ) scM1 fullShare d) from rfl,
    scopedRest1_split]
  simp only [scM1, owns_whole]
  iintro ⟨Hg, HS, Hrest⟩
  isplitl [Hrest]; · iexact Hrest
  isplitl [Hg]; · iexact Hg
  iexact HS

/-- EXIT: the invariant after the last point gives them back, the accumulator forgotten into them. -/
theorem hout1 (c : Dev nD) : (dat1 V c).Φ (Fin.last cfg1.N) ⊢ (iprop((∃ r, prngReg c r) ∗ Pipeline.scopedRest spec1 c) : sProp 𝕄) := by
  rw [show (dat1 V c).Φ (Fin.last cfg1.N) = Phi1 V c (Fin.last cfg1.N) from rfl]; unfold Phi1
  rw [scopedRest1_split]
  iintro ⟨Hrest, Hg, HS⟩
  ihave HS' := scrAt1_some V c _ _ $$ HS
  isplitl [Hg]; · iexact Hg
  isplitl [HS']
  · simp only [scM1, owns_whole]; iexact HS'
  iexact Hrest

end Region

end Cert.Kernel.Hand

end
-- ==== Proof.K.Reg2.lean ====
import proofs.«408428_j10917806867267_1_alg».proof.Proof.Gen.Kernel.Launch
import proofs.«408428_j10917806867267_1_alg».proof.Proof.Gen.Kernel.Skeleton
import proofs.«408428_j10917806867267_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The normalising launch as a pipeline region, at arbitrary entry contents

Six windows and no scratch: a tile of rows of the features, the same tile of the one-hot membership matrix, the
per-graph variances, the scale row and the shift row come in; one tile of rows goes out. The body reads the five
inputs whole and writes the output tile whole, once, so the output buffer after the body is one payload over the
five input blocks and every input buffer is left as found. Everything is stated at a parameter `V`, the buffer
contents when the region is entered, and at any float model `F`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`: what the window's index map cuts out of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## An input's buffer holds its block at every point

For any proof data over the entry arrays whose body leaves the input's block in place: where the window is fetched
the buffer holds the fetched block; where it is not, its block index has not moved since the point before, so the
block left there is still this point's. The tiles of rows are fetched at every point, the variances and the two
rows at the first point only; the one argument covers both. -/

theorem inputHolds2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem inputHolds2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem inputHolds2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem inputHolds2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem inputHolds2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev whole2_rows : Rect S5000x128 := Rect.unit (s := S5000x128) ![0, 0] S5000x128.size inb_S5000x128_S5000x128_0_0
abbrev whole2_square : Rect S128x128 := Rect.unit (s := S128x128) ![0, 0] S128x128.size inb_S128x128_S128x128_0_0
abbrev whole2_row : Rect S1x128 := Rect.unit (s := S1x128) ![0, 0] S1x128.size inb_S1x128_S1x128_0_0

/-! ## What the body leaves in the output buffer -/

/-- The output buffer after the body, from the five input blocks: its single store, of the payload at the inputs
    read whole. -/
def out2_5 (x0 : Vec F S5000x128 .f32) (x1 : Vec F S5000x128 .bf16) (x2 : Vec F S128x128 .f32) (x3 : Vec F S1x128 .f32) (x4 : Vec F S1x128 .f32) : Vec F S5000x128 .f32 :=
  View.canon [⟨whole2_rows, k2_pay1 (View.ld x1 whole2_rows) (View.ld x2 whole2_square) (View.ld x3 whole2_row) (View.ld x0 whole2_rows) (View.ld x4 whole2_row)⟩]

/-- The single store is the whole buffer, so it covers it. -/
theorem storeCovers2_5 (p0 : Vec F S5000x128 .f32) (y : S5000x128.Idx) :
    ∃ pc ∈ ([⟨whole2_rows, p0⟩] : List (View.Piece (Elt F) S5000x128 .f32)), y ∈ pc.1.set :=
  View.cover_of_tiled [⟨whole2_rows, p0⟩] S5000x128.size (by rfl) y

/-! ## The body's triple -/

set_option maxHeartbeats 1000000 in
/-- The body on whole buffers, the five inputs' at read contents `x0 … x4` and the output's at anything, runs to the
    continuation with the inputs' as they were and the output's at `out2_5` of them. -/
theorem kernelTriple2 (c : Dev nD) (E : Set ℕ) (i : grid2.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .bf16) (x2 : Vec F S128x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__normalize_kernel i arg1 harg1 arg2 harg2 arg3 harg3 arg4 harg4 arg5 harg5 arg6 harg6) K := by
  simp only [cc2__normalize_kernel_eq_skeleton]; unfold cc2__normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (storeCovers2_5 _)

/-! ## The pipeline's proof data -/

/-- The proof data on core `c`: the arrays as the region finds them; after the body at point `t` each input's
    buffer at its block and the output's at `out2_5` of the input blocks; the invariant that of a body touching
    nothing but its windows; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current buffer holds its block at every point, fetched there or not. -/
theorem before2_0 (c : Dev nD) (t : Fin cfg2.N) (d) : (dat2 V c).before 0 t d = iblk2 V c 0 t :=
  inputHolds2_0_of V (dat2 V c) (A_eq2 V c 0) (after2_0 V c) t d
theorem before2_1 (c : Dev nD) (t : Fin cfg2.N) (d) : (dat2 V c).before 1 t d = iblk2 V c 1 t :=
  inputHolds2_1_of V (dat2 V c) (A_eq2 V c 1) (after2_1 V c) t d
theorem before2_2 (c : Dev nD) (t : Fin cfg2.N) (d) : (dat2 V c).before 2 t d = iblk2 V c 2 t :=
  inputHolds2_2_of V (dat2 V c) (A_eq2 V c 2) (after2_2 V c) t d
theorem before2_3 (c : Dev nD) (t : Fin cfg2.N) (d) : (dat2 V c).before 3 t d = iblk2 V c 3 t :=
  inputHolds2_3_of V (dat2 V c) (A_eq2 V c 3) (after2_3 V c) t d
theorem before2_4 (c : Dev nD) (t : Fin cfg2.N) (d) : (dat2 V c).before 4 t d = iblk2 V c 4 t :=
  inputHolds2_4_of V (dat2 V c) (A_eq2 V c 4) (after2_4 V c) t d

/-! ## The body obligation, at a generic point -/

/-- What the body is called with at point `t`, the windows one by one, -/
def bodyGiven2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyLeaves2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and
    what the core owes pass through unread. -/
theorem bodyTriple2 (c : Dev nD) (t : Fin cfg2.N) :
    bodyGiven2 V c t ⊢ wp frame (wpE (defs₀ (F := F)) Variants.none c none) Set.univ (bodyAt2 t) (fun _ => bodyLeaves2 V c t) := by
  unfold bodyGiven2 bodyLeaves2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (kernelTriple2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact bodyTriple2 V c t

/-! ## The invariant at the region's two ends -/

/-- Entering: the generator register and the scoped rest make up the invariant before the first point. -/
theorem hin2 (c : Dev nD) : (iprop((∃ r, prngReg c r) ∗ Pipeline.scopedRest spec2 c) : sProp 𝕄) ⊢ (dat2 V c).Φ 0 := by
  rw [show (dat2 V c).Φ 0 = Pipeline.ΦA spec2 c from rfl]; unfold Pipeline.ΦA
  iintro ⟨Hp, Hr⟩
  isplitl [Hr]; · iexact Hr
  iexact Hp

/-- Leaving: the invariant after the last point hands both back. -/
theorem hout2 (c : Dev nD) : (dat2 V c).Φ (Fin.last cfg2.N) ⊢ (iprop((∃ r, prngReg c r) ∗ Pipeline.scopedRest spec2 c) : sProp 𝕄) := by
  rw [show (dat2 V c).Φ (Fin.last cfg2.N) = Pipeline.ΦA spec2 c from rfl]; unfold Pipeline.ΦA
  iintro ⟨Hr, Hp⟩
  isplitl [Hp]; · iexact Hp
  iexact Hr

end Cert.Kernel.Hand
-- ==== Proof.K.Reg3.lean ====
/- Region 3 of @main (custom_call 3, the GIN layer's MLP with its per-graph accumulator): the kernel body's three control
   cases as triples with named contents, the accumulator's value point by point, the pipeline's proof data over an invariant
   that names the scratch's contents, the body obligation at every point, and the invariant at the region's two ends. -/
import proofs.«408428_j10917806867267_1_alg».proof.Proof.Gen.Kernel.Launch
import proofs.«408428_j10917806867267_1_alg».proof.Proof.Gen.Kernel.Skeleton
import proofs.«408428_j10917806867267_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the long axes' extents recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's accesses and what it leaves -/

/-- The whole-buffer rectangles the body loads and stores through. -/
abbrev rA3 : Rect S5000x128 := Rect.unit (s := S5000x128) ![0, 0] S5000x128.size inb_S5000x128_S5000x128_0_0
abbrev rB3 : Rect S128x128 := Rect.unit (s := S128x128) ![0, 0] S128x128.size inb_S128x128_S128x128_0_0
abbrev rC3 : Rect S1x128 := Rect.unit (s := S1x128) ![0, 0] S1x128.size inb_S1x128_S1x128_0_0

/-- The point's MLP output, from the blocks of windows 0, 1, 3, 4, 5, 6. -/
def tval3 (x0 x1 : Vec F S5000x128 .f32) (x3 : Vec F S128x128 .f32) (x4 : Vec F S1x128 .f32) (x5 : Vec F S128x128 .f32) (x6 : Vec F S1x128 .f32) :
    FVec F S5000x128 .f32 :=
  k3_pay3 (View.ld x0 rA3) (View.ld x1 rA3) (View.ld x3 rB3) (View.ld x4 rC3) (View.ld x5 rB3) (View.ld x6 rC3)

/-- What the body leaves in window 7's staging buffer: its one store. -/
def out3_7 (x0 x1 : Vec F S5000x128 .f32) (x3 : Vec F S128x128 .f32) (x4 : Vec F S1x128 .f32) (x5 : Vec F S128x128 .f32) (x6 : Vec F S1x128 .f32) :
    Vec F S5000x128 .f32 :=
  View.canon [⟨rA3, tval3 x0 x1 x3 x4 x5 x6⟩]

/-- The accumulator zeroed. -/
def zero3 : Vec F S128x128 .f32 := View.canon [⟨rB3, k3_pay2 (F := F)⟩]

/-- The accumulator after a point that found it at `s`: `s` plus the point's term. -/
def scr3 (x0 x1 : Vec F S5000x128 .f32) (x2 : Vec F S5000x128 .bf16) (x3 : Vec F S128x128 .f32) (x4 : Vec F S1x128 .f32) (x5 : Vec F S128x128 .f32) (x6 : Vec F S1x128 .f32)
    (s : Vec F S128x128 .f32) : Vec F S128x128 .f32 :=
  View.canon [⟨rB3, k3_pay1 (tval3 x0 x1 x3 x4 x5 x6) (k3_pay4 (View.ld x2 rA3)) (View.ld s rB3)⟩]

/-- What the last point leaves in window 8's staging buffer: the accumulator copied. -/
def out3_8 (s : Vec F S128x128 .f32) : Vec F S128x128 .f32 := View.canon [⟨rB3, View.ld s rB3⟩]

/-- One whole-buffer store covers the buffer. -/
theorem coverA3 {e : EltTy} (p : rA3.shape.Idx → Elt F e) (y : S5000x128.Idx) :
    ∃ pc ∈ ([⟨rA3, p⟩] : List (View.Piece (Elt F) S5000x128 e)), y ∈ pc.1.set :=
  View.cover_of_tiled [⟨rA3, p⟩] S5000x128.size (by rfl) y
theorem coverB3 {e : EltTy} (p : rB3.shape.Idx → Elt F e) (y : S128x128.Idx) :
    ∃ pc ∈ ([⟨rB3, p⟩] : List (View.Piece (Elt F) S128x128 e)), y ∈ pc.1.set :=
  View.cover_of_tiled [⟨rB3, p⟩] S128x128.size (by rfl) y

/-- The conditions of the body's two `scf.if`s, from the grid coordinates. -/
abbrev cond3_1 (i : grid3.Coords) : Prop := (Scalar.cmpi .ne (Scalar.extui (Scalar.cmpi .eq (BitVec.ofNat 32 (i 0).val) 0#32)) 0#32) = 1#1
abbrev cond3_2 (i : grid3.Coords) : Prop := k3_cond2 i = 1#1

/-- The conditions in closed form, decided over the grid: the first holds at the first point only, the second at the
    last only; window 8 is idle off the last point and written back at it only. -/
theorem hcond3_1 : ∀ t : Fin cfg3.N, cond3_1 (grid3.coords t) ↔ t.val = 0 :=
  (by decide +kernel : ∀ t : Fin grid3.N, cond3_1 (grid3.coords t) ↔ t.val = 0)
theorem hcond3_2 : ∀ t : Fin cfg3.N, cond3_2 (grid3.coords t) ↔ t.val + 1 = cfg3.N :=
  (by decide +kernel : ∀ t : Fin grid3.N, cond3_2 (grid3.coords t) ↔ t.val + 1 = grid3.N)
theorem hidle3_8 : ∀ t : Fin cfg3.N, cfg3.idle 8 (cfg3.grid.coords t) = !decide (t.val + 1 = cfg3.N) :=
  (by decide +kernel : ∀ t : Fin grid3.N, idle3 8 (grid3.coords t) = !decide (t.val + 1 = grid3.N))
theorem hflush3_8 : ∀ t : Fin cfg3.N, (cfg3.win 8).flush t = decide (t.val + 1 = cfg3.N) :=
  (by decide +kernel : ∀ t : Fin grid3.N, win3_8.flush t = decide (t.val + 1 = grid3.N))
theorem one_lt_N3 : 1 < cfg3.N := by decide

/-- A whole-buffer store hides every earlier one. -/
theorem canon_headB3 {e : EltTy} (p : rB3.shape.Idx → Elt F e) (L : List (View.Piece (Elt F) S128x128 e)) :
    View.canon (⟨rB3, p⟩ :: L) = View.canon [⟨rB3, p⟩] := by
  funext y
  obtain ⟨pc, hm, hy⟩ := coverB3 (F := F) p y
  rw [List.mem_singleton] at hm; subst hm
  obtain ⟨x, rfl⟩ := rB3.exists_idx_of_mem hy
  exact (View.canon_cons_emb rB3 p L x).trans (View.canon_cons_emb rB3 p [] x).symm

theorem coverB3_cons {e : EltTy} (p : rB3.shape.Idx → Elt F e) (L : List (View.Piece (Elt F) S128x128 e)) (y : S128x128.Idx) :
    ∃ pc ∈ (⟨rB3, p⟩ :: L), y ∈ pc.1.set := by
  obtain ⟨pc, hm, hy⟩ := coverB3 (F := F) p y
  exact ⟨pc, List.mem_cons.mpr (Or.inl (List.mem_singleton.mp hm)), hy⟩

/-- So a buffer whose last store was whole reads that store's payload. -/
theorem read_writes_headB3 {κ : Kind} {sp : Space} {e : EltTy} (v : View sig κ sp S128x128 e) (f : v.ty.Contents (Elt F))
    (p : rB3.shape.Idx → Elt F e) (L : List (View.Piece (Elt F) S128x128 e)) :
    v.read (Elt F) (v.writes (Elt F) f (⟨rB3, p⟩ :: L)) = View.canon [⟨rB3, p⟩] :=
  (View.read_writes_eq_canon v f _ (coverB3_cons p L)).trans (canon_headB3 p L)

/-! ## The kernel body on any whole staging memrefs, case by case -/

set_option maxHeartbeats 4000000 in
/-- The first point: the accumulator is zeroed first; the second `scf.if` is not taken. -/
theorem run3_A (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S128x128 .f32) (harg9 : arg9.IsWhole) (arg10 : Memref sig .tc .vmem S128x128 .f32) (harg10 : arg10.IsWhole)
    (hc1 : cond3_1 i) (hc2 : ¬cond3_2 i)
    (x0 x1 : Vec F S5000x128 .f32) (x2 : Vec F S5000x128 .bf16) (x3 : Vec F S128x128 .f32) (x4 : Vec F S1x128 .f32) (x5 : Vec F S128x128 .f32) (x6 : Vec F S1x128 .f32) (x8 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out3_7 x0 x1 x3 x4 x5 x6)
            ∗ owns (c : Thread nD τ) arg9 fullShare x8
            ∗ owns (c : Thread nD τ) arg10 fullShare (scr3 x0 x1 x2 x3 x4 x5 x6 (zero3 (F := F)))) -∗ K ⟨⟩))
      ⊢ wp frame (wpE (defs₀ (F := F)) Variants.none c none) E (cc3__gin_mlp_kernel i arg1 harg1 arg2 harg2 arg3 harg3 arg4 harg4 arg5 harg5 arg6 harg6 arg7 harg7 arg8 harg8 arg9 harg9 arg10 harg10) K := by
  simp only [cc3__gin_mlp_kernel_eq_skeleton]; unfold cc3__gin_mlp_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds, %fs, -, HS⟩, Hk⟩
  subst hf0 hf1 hf2 hf3 hf4 hf5 hf6 hf8
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr
    swap; · iexact H7
    ipureintro; exact View.read_writes_eq_canon _ _ _ (coverA3 _)
  isplitl [H8]
  · iexists _; isplitr; · ipureintro; rfl
    iexact H8
  iexists _; isplitr
  swap; · iexact HS
  ipureintro
  refine (read_writes_headB3 _ _ _ _).trans ?_
  unfold scr3
  refine congrArg (fun p => View.canon [(⟨rB3, p⟩ : View.Piece (Elt F) S128x128 .f32)]) ?_
  refine congrArg (k3_pay1 _ _) ?_
  unfold zero3
  try dsimp only
  exact View.readCov_eq_canon_ld _ _ _ (coverB3 (F := F) _)

set_option maxHeartbeats 4000000 in
/-- A middle point: neither `scf.if` taken. -/
theorem run3_B (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S128x128 .f32) (harg9 : arg9.IsWhole) (arg10 : Memref sig .tc .vmem S128x128 .f32) (harg10 : arg10.IsWhole)
    (hc1 : ¬cond3_1 i) (hc2 : ¬cond3_2 i)
    (x0 x1 : Vec F S5000x128 .f32) (x2 : Vec F S5000x128 .bf16) (x3 : Vec F S128x128 .f32) (x4 : Vec F S1x128 .f32) (x5 : Vec F S128x128 .f32) (x6 : Vec F S1x128 .f32) (x8 s : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ owns (c : Thread nD τ) arg9 fullShare x8
        ∗ owns (c : Thread nD τ) arg10 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out3_7 x0 x1 x3 x4 x5 x6)
            ∗ owns (c : Thread nD τ) arg9 fullShare x8
            ∗ owns (c : Thread nD τ) arg10 fullShare (scr3 x0 x1 x2 x3 x4 x5 x6 s)) -∗ K ⟨⟩))
      ⊢ wp frame (wpE (defs₀ (F := F)) Variants.none c none) E (cc3__gin_mlp_kernel i arg1 harg1 arg2 harg2 arg3 harg3 arg4 harg4 arg5 harg5 arg6 harg6 arg7 harg7 arg8 harg8 arg9 harg9 arg10 harg10) K := by
  simp only [cc3__gin_mlp_kernel_eq_skeleton]; unfold cc3__gin_mlp_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs, %hfs, HS⟩, Hk⟩
  subst hf0 hf1 hf2 hf3 hf4 hf5 hf6 hf8 hfs
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr
    swap; · iexact H7
    ipureintro; exact View.read_writes_eq_canon _ _ _ (coverA3 _)
  isplitl [H8]
  · iexists _; isplitr; · ipureintro; rfl
    iexact H8
  iexists _; isplitr
  swap; · iexact HS
  ipureintro; exact View.read_writes_eq_canon _ _ _ (coverB3 _)

set_option maxHeartbeats 4000000 in
/-- The last point: the accumulator is not zeroed; it is copied into window 8 at the end. -/
theorem run3_C (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S128x128 .f32) (harg9 : arg9.IsWhole) (arg10 : Memref sig .tc .vmem S128x128 .f32) (harg10 : arg10.IsWhole)
    (hc1 : ¬cond3_1 i) (hc2 : cond3_2 i)
    (x0 x1 : Vec F S5000x128 .f32) (x2 : Vec F S5000x128 .bf16) (x3 : Vec F S128x128 .f32) (x4 : Vec F S1x128 .f32) (x5 : Vec F S128x128 .f32) (x6 : Vec F S1x128 .f32) (s : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ owns (c : Thread nD τ) arg10 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out3_7 x0 x1 x3 x4 x5 x6)
            ∗ owns (c : Thread nD τ) arg9 fullShare (out3_8 (scr3 x0 x1 x2 x3 x4 x5 x6 s))
            ∗ owns (c : Thread nD τ) arg10 fullShare (scr3 x0 x1 x2 x3 x4 x5 x6 s)) -∗ K ⟨⟩))
      ⊢ wp frame (wpE (defs₀ (F := F)) Variants.none c none) E (cc3__gin_mlp_kernel i arg1 harg1 arg2 harg2 arg3 harg3 arg4 harg4 arg5 harg5 arg6 harg6 arg7 harg7 arg8 harg8 arg9 harg9 arg10 harg10) K := by
  simp only [cc3__gin_mlp_kernel_eq_skeleton]; unfold cc3__gin_mlp_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS⟩, Hk⟩
  subst hf0 hf1 hf2 hf3 hf4 hf5 hf6 hfs
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr
    swap; · iexact H7
    ipureintro; exact View.read_writes_eq_canon _ _ _ (coverA3 _)
  isplitl [H8]
  · iexists _; isplitr
    swap; · iexact H8
    ipureintro
    refine (read_writes_headB3 _ _ _ _).trans ?_
    unfold out3_8
    refine congrArg (fun p => View.canon [(⟨rB3, p⟩ : View.Piece (Elt F) S128x128 .f32)]) ?_
    unfold scr3
    exact View.readCov_eq_canon_ld _ _ _ (coverB3 (F := F) _)
  iexists _; isplitr
  swap; · iexact HS
  ipureintro; exact View.read_writes_eq_canon _ _ _ (coverB3 _)

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is `V`'s and whose body leaves the block in place: unfetched, the block index has not moved. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (Pipeline.UD sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (Pipeline.UD sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The accumulator, point by point -/

/-- The scratch operand: a whole scoped buffer of the kernel's own, passed beside the windows. -/
abbrev scM3_0 : Memref sig .tc .vmem S128x128 .f32 := Memref.whole cc3_scratch0

/-- Point number `n` of the grid (wrapped past the last). -/
def pt3 (n : ℕ) : Fin cfg3.N := ⟨n % cfg3.N, Nat.mod_lt _ (Nat.lt_trans Nat.zero_lt_one one_lt_N3)⟩
theorem pt3_val (t : Fin cfg3.N) : pt3 t.val = t := Fin.ext (Nat.mod_eq_of_lt t.isLt)

/-- The accumulator after point `t`, if the point found it at `s`. -/
def stepAt3 (c : Dev nD) (t : Fin cfg3.N) (s : Vec F S128x128 .f32) : Vec F S128x128 .f32 :=
  scr3 (iblk3 V c 0 t) (iblk3 V c 1 t) (iblk3 V c 2 t) (iblk3 V c 3 t) (iblk3 V c 4 t) (iblk3 V c 5 t) (iblk3 V c 6 t) s

/-- The accumulator after point `n`: zeroed at the first point, each point's term added. -/
def acc3 (c : Dev nD) : ℕ → Vec F S128x128 .f32
  | 0 => stepAt3 V c (pt3 0) (zero3 (F := F))
  | n + 1 => stepAt3 V c (pt3 (n + 1)) (acc3 c n)

theorem acc3_first (c : Dev nD) (t : Fin cfg3.N) (h : t.val = 0) : acc3 V c t.val = stepAt3 V c t (zero3 (F := F)) := by
  rw [h]; show stepAt3 V c (pt3 0) _ = _; rw [← h, pt3_val]
theorem acc3_next (c : Dev nD) (t : Fin cfg3.N) (n : ℕ) (h : t.val = n + 1) : acc3 V c t.val = stepAt3 V c t (acc3 V c n) := by
  rw [h]; show stepAt3 V c (pt3 (n + 1)) _ = _; rw [← h, pt3_val]

/-- The scratch before point `k`: at some contents before the first, then at the accumulated value. -/
def scrAt3 (c : Dev nD) : ℕ → sProp 𝕄
  | 0 => iprop(∃ d, owns (c : Thread nD τ) scM3_0 fullShare d)
  | n + 1 => owns (c : Thread nD τ) scM3_0 fullShare (acc3 V c n)

/-- The scratch whole at some contents, as its points-to. -/
theorem scr_whole3 (c : Dev nD) :
    (iprop(∃ d, owns (c : Thread nD τ) scM3_0 fullShare d) : sProp 𝕄)
      = iprop(∃ f : Buf (Elt F) ((c : Thread nD τ).loc cc3_scratch0), ((c : Thread nD τ).loc cc3_scratch0) ↦{fullShare} f) := by
  simp only [scM3_0, owns_whole]; try rfl

theorem scrAt3_some (c : Dev nD) (k : ℕ) :
    scrAt3 V c k ⊢ (iprop(∃ f : Buf (Elt F) ((c : Thread nD τ).loc cc3_scratch0), ((c : Thread nD τ).loc cc3_scratch0) ↦{fullShare} f) : sProp 𝕄) := by
  rw [← scr_whole3]
  cases k with
  | zero => unfold scrAt3; iintro H; iexact H
  | succ n => unfold scrAt3; iintro H; iexists _; iexact H

/-- The invariant before point `k`: every other scoped buffer that is no staging buffer at some contents, the generator
    register at some state, the scratch as `scrAt3` says. -/
def Φ3 (c : Dev nD) (k : Fin (cfg3.N + 1)) : sProp 𝕄 :=
  iprop(Pipeline.scopedRestBut (Ix := Unit) (Name := ℕ) (U := Pipeline.UD sig nD τ) (Lvl := ℕ) (Val := Elt F) spec3 c [cc3_scratch0]
    ∗ (∃ r, prngReg c r) ∗ scrAt3 V c k.val)

/-! ## The pipeline's proof data -/

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 3 t) (iblk3 V c 4 t) (iblk3 V c 5 t) (iblk3 V c 6 t)
    | ⟨8, _⟩ => out3_8 (acc3 V c t.val)
  Φ := Φ3 V c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 3 t) (iblk3 V c 4 t) (iblk3 V c 5 t) (iblk3 V c 6 t) := by dsimp only [dat3]
theorem after3_8 (c : Dev nD) (t : Fin cfg3.N) : (dat3 V c).after 8 t = out3_8 (acc3 V c t.val) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

theorem Φ3_castSucc (c : Dev nD) (t : Fin cfg3.N) : (dat3 V c).Φ t.castSucc
    = iprop(Pipeline.scopedRestBut (Ix := Unit) (Name := ℕ) (U := Pipeline.UD sig nD τ) (Lvl := ℕ) (Val := Elt F) spec3 c [cc3_scratch0]
        ∗ (∃ r, prngReg c r) ∗ scrAt3 V c t.val) := rfl
theorem Φ3_succ (c : Dev nD) (t : Fin cfg3.N) : (dat3 V c).Φ t.succ
    = iprop(Pipeline.scopedRestBut (Ix := Unit) (Name := ℕ) (U := Pipeline.UD sig nD τ) (Lvl := ℕ) (Val := Elt F) spec3 c [cc3_scratch0]
        ∗ (∃ r, prngReg c r) ∗ owns (c : Thread nD τ) scM3_0 fullShare (acc3 V c t.val)) := rfl

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- and what it returns: window 8's buffer as found off the last point, at the accumulator's copy at it. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ (dat3 V c).leavesExact 8 t)

theorem scrAt3_first (c : Dev nD) (t : Fin cfg3.N) (h : t.val = 0) :
    scrAt3 V c t.val = iprop(∃ d, owns (c : Thread nD τ) scM3_0 fullShare d) := by rw [h]; rfl
theorem scrAt3_next (c : Dev nD) (t : Fin cfg3.N) (n : ℕ) (h : t.val = n + 1) :
    scrAt3 V c t.val = owns (c : Thread nD τ) scM3_0 fullShare (acc3 V c n) := by rw [h]; rfl

theorem leaves3_8_idle (c : Dev nD) (t : Fin cfg3.N) (h : ¬t.val + 1 = cfg3.N) :
    (dat3 V c).leavesExact 8 t = iprop(∃ d, owns (c : Thread nD τ) (st3_8 t) fullShare ((dat3 V c).before 8 t d)) :=
  Dat.leavesExact_idle _ 8 t (by rw [hidle3_8, decide_eq_false h]; rfl) (by rw [hflush3_8, decide_eq_false h])
theorem leaves3_8_last (c : Dev nD) (t : Fin cfg3.N) (h : t.val + 1 = cfg3.N) :
    (dat3 V c).leavesExact 8 t = owns (c : Thread nD τ) (st3_8 t) fullShare ((dat3 V c).after 8 t) := by
  unfold Dat.leavesExact; rw [hidle3_8, decide_eq_true h]; rfl

/-- The body at any point, by its three control cases: the inputs' memrefs hold their blocks; the invariant hands the
    body its scratch — at anything before the first point, at the accumulated value later — and takes it back one point on. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl,
    after3_0, after3_1, after3_2, after3_3, after3_4, after3_5, after3_6, after3_7, Φ3_castSucc, Φ3_succ]
  by_cases hA : t.val = 0
  · have h1 : cond3_1 (grid3.coords t) := (hcond3_1 t).mpr hA
    have hL : ¬t.val + 1 = cfg3.N := fun h => by have := one_lt_N3; omega
    have h2 : ¬cond3_2 (grid3.coords t) := fun h => hL ((hcond3_2 t).mp h)
    rw [scrAt3_first V c t hA, acc3_first V c t hA, leaves3_8_idle V c t hL]; unfold stepAt3
    iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run3_A c Set.univ (grid3.coords t) _ _ _ _ _ _ _ _ _ _ _ _ _ _ _ _ _ _ _ _ h1 h2 (iblk3 V c 0 t) (iblk3 V c 1 t) (iblk3 V c 2 t) (iblk3 V c 3 t) (iblk3 V c 4 t) (iblk3 V c 5 t) (iblk3 V c 6 t) ((dat3 V c).before 8 t d8) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS]; · iexact HS
    iintro ⟨H0, H1, H2, H3, H4, H5, H6, H7, H8, HS⟩
    isplitl [HR Hg HS]
    · isplitl [HR]; · iexact HR
      isplitl [Hg]; · iexact Hg
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists d8; iexact H8
  obtain ⟨n, hn⟩ := Nat.exists_eq_add_one_of_ne_zero hA
  have h1 : ¬cond3_1 (grid3.coords t) := fun h => hA ((hcond3_1 t).mp h)
  rw [scrAt3_next V c t n hn, acc3_next V c t n hn]; unfold stepAt3
  by_cases hL : t.val + 1 = cfg3.N
  · have h2 : cond3_2 (grid3.coords t) := (hcond3_2 t).mpr hL
    rw [leaves3_8_last V c t hL, after3_8, acc3_next V c t n hn]; unfold stepAt3
    iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run3_C c Set.univ (grid3.coords t) _ _ _ _ _ _ _ _ _ _ _ _ _ _ _ _ _ _ _ _ h1 h2 (iblk3 V c 0 t) (iblk3 V c 1 t) (iblk3 V c 2 t) (iblk3 V c 3 t) (iblk3 V c 4 t) (iblk3 V c 5 t) (iblk3 V c 6 t) (acc3 V c n) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, H7, H8, HS⟩
    isplitl [HR Hg HS]
    · isplitl [HR]; · iexact HR
      isplitl [Hg]; · iexact Hg
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  have h2 : ¬cond3_2 (grid3.coords t) := fun h => hL ((hcond3_2 t).mp h)
  rw [leaves3_8_idle V c t hL]
  iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run3_B c Set.univ (grid3.coords t) _ _ _ _ _ _ _ _ _ _ _ _ _ _ _ _ _ _ _ _ h1 h2 (iblk3 V c 0 t) (iblk3 V c 1 t) (iblk3 V c 2 t) (iblk3 V c 3 t) (iblk3 V c 4 t) (iblk3 V c 5 t) (iblk3 V c 6 t) ((dat3 V c).before 8 t d8) (acc3 V c n) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [HS]; · iexact HS
  iintro ⟨H0, H1, H2, H3, H4, H5, H6, H7, H8, HS⟩
  isplitl [HR Hg HS]
  · isplitl [HR]; · iexact HR
    isplitl [Hg]; · iexact Hg
    iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's ends -/

/-- Entering: the scratch is split off the scoped rest, at whatever it holds. -/
theorem hin3 (c : Dev nD) : (iprop((∃ r, prngReg c r) ∗ Pipeline.scopedRest spec3 c) : sProp 𝕄) ⊢ (dat3 V c).Φ 0 := by
  rw [show (dat3 V c).Φ 0 = Φ3 V c 0 from rfl, scopedRest3_split]; unfold Φ3
  rw [show scrAt3 V c ((0 : Fin (cfg3.N + 1)) : ℕ) = iprop(∃ d, owns (c : Thread nD τ) scM3_0 fullShare d) from rfl, scr_whole3]
  iintro ⟨Hp, Hs, Hr⟩
  isplitl [Hr]; · iexact Hr
  isplitl [Hp]; · iexact Hp
  iexact Hs

/-- Leaving: the scratch, at the accumulated value, goes back into the scoped rest. -/
theorem hout3 (c : Dev nD) : (dat3 V c).Φ (Fin.last cfg3.N) ⊢ (iprop((∃ r, prngReg c r) ∗ Pipeline.scopedRest spec3 c) : sProp 𝕄) := by
  rw [show (dat3 V c).Φ (Fin.last cfg3.N) = Φ3 V c (Fin.last cfg3.N) from rfl, scopedRest3_split]; unfold Φ3
  iintro ⟨Hr, Hp, Hs⟩
  isplitl [Hp]; · iexact Hp
  isplitl [Hs]; swap; · iexact Hr
  iapply (scrAt3_some V c _); iexact Hs

end Regions

end Cert.Kernel.Hand

end
-- ==== Proof.K.Reg4.lean ====
import proofs.«408428_j10917806867267_1_alg».proof.Proof.Gen.Kernel.Launch
import proofs.«408428_j10917806867267_1_alg».proof.Proof.Gen.Kernel.Skeleton
import proofs.«408428_j10917806867267_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's two branch conditions, decided over the grid -/

/-- The first `scf.if`'s condition (the point's coordinate is 0), as the skeleton's scalar chain computes it. -/
abbrev cond4_0 (i : grid4.Coords) : Prop :=
  (Scalar.cmpi .ne (Scalar.extui (Scalar.cmpi .eq (BitVec.ofNat 32 (i 0).val) 0#32)) 0#32) = 1#1
/-- The second `scf.if`'s condition (the point's coordinate is the last). -/
abbrev cond4_1 (i : grid4.Coords) : Prop := k4_cond2 i = 1#1

/-- The first condition holds at the first point only. -/
theorem hcond4_0 : ∀ t : Fin cfg4.N, cond4_0 (grid4.coords t) ↔ t.val = 0 :=
  (by decide +kernel : ∀ t : Fin grid4.N, cond4_0 (grid4.coords t) ↔ t.val = 0)
/-- The second holds at the last point only. -/
theorem hcond4_1 : ∀ t : Fin cfg4.N, cond4_1 (grid4.coords t) ↔ t.val + 1 = cfg4.N :=
  (by decide +kernel : ∀ t : Fin grid4.N, cond4_1 (grid4.coords t) ↔ t.val + 1 = grid4.N)

/-! ## The body on any whole memrefs, case by case: pieces the run finds

The body never touches the matrix output's memref where its second branch is not taken, so the first two cases are
stated without it (it is framed around them). -/

set_option maxHeartbeats 4000000 in
/-- THE FIRST POINT (first branch taken: the accumulator is zeroed before it is read; second not). On whole memrefs —
    the four inputs at their contents, the row output and the accumulator at anything — the body runs to the
    continuation holding the inputs as they were and the row output and the accumulator with their pieces written;
    the pieces are the witness the run finds. -/
noncomputable def kernelRun4_A (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond4_0 i) (hc1 : ¬cond4_1 i)
    (x0 : Vec F S5000x128 .f32) (x1 : Vec F S5000x128 .bf16) (x2 : Vec F S128x128 .f32) (x3 : Vec F S1x128 .f32) :
    { L : List (View.Piece (Elt F) S5000x128 .f32) × List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc4__center_varsum_kernel i arg1 harg1 arg2 harg2 arg3 harg3 arg4 harg4 arg5 harg5 arg6 harg6 arg7 harg7) K } := by
  refine ⟨(?_, ?_), fun E K => ?run⟩
  case run =>
    simp only [cc4__center_varsum_kernel_eq_skeleton]; unfold cc4__center_varsum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d6, %f6, -, H6⟩, Hk⟩
    obtain rfl := harg1.eq_unread hf0; obtain rfl := harg2.eq_unread hf1; obtain rfl := harg3.eq_unread hf2; obtain rfl := harg4.eq_unread hf3

    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H6

set_option maxHeartbeats 4000000 in
/-- THE MIDDLE POINTS (neither branch taken): as the first point's, the accumulator coming at `s`. -/
noncomputable def kernelRun4_B (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond4_0 i) (hc1 : ¬cond4_1 i)
    (x0 : Vec F S5000x128 .f32) (x1 : Vec F S5000x128 .bf16) (x2 : Vec F S128x128 .f32) (x3 : Vec F S1x128 .f32) (s : Vec F S128x128 .f32) :
    { L : List (View.Piece (Elt F) S5000x128 .f32) × List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg7 fullShare s
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc4__center_varsum_kernel i arg1 harg1 arg2 harg2 arg3 harg3 arg4 harg4 arg5 harg5 arg6 harg6 arg7 harg7) K } := by
  refine ⟨(?_, ?_), fun E K => ?run⟩
  case run =>
    simp only [cc4__center_varsum_kernel_eq_skeleton]; unfold cc4__center_varsum_kernel_skel
    unfold owns
    iintro ⟨⟨%f0, %hf0, H0⟩, ⟨%f1, %hf1, H1⟩, ⟨%f2, %hf2, H2⟩, ⟨%f3, %hf3, H3⟩, ⟨%d4, %f4, -, H4⟩, ⟨%f6, %hf6, H6⟩, Hk⟩
    obtain rfl := harg1.eq_unread hf0; obtain rfl := harg2.eq_unread hf1; obtain rfl := harg3.eq_unread hf2; obtain rfl := harg4.eq_unread hf3
    obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H6

set_option maxHeartbeats 4000000 in
/-- THE LAST POINT (second branch taken: the accumulator is copied into the matrix output at the end). The matrix
    output comes at anything and leaves with its pieces written. -/
noncomputable def kernelRun4_C (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond4_0 i) (hc1 : cond4_1 i)
    (x0 : Vec F S5000x128 .f32) (x1 : Vec F S5000x128 .bf16) (x2 : Vec F S128x128 .f32) (x3 : Vec F S1x128 .f32) (s : Vec F S128x128 .f32) :
    { L : List (View.Piece (Elt F) S5000x128 .f32) × List (View.Piece (Elt F) S128x128 .f32) × List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ owns (c : Thread nD τ) arg7 fullShare s
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2.1)
                ∗ (∃ f, arg7.view.loc (c : Thread nD τ) ↦[arg7.view.set]{fullShare} arg7.view.writes (Elt F) f L.2.2)) -∗ K ⟨⟩))
          ⊢ wp frame (wpE (defs₀ (F := F)) Variants.none c none) E (cc4__center_varsum_kernel i arg1 harg1 arg2 harg2 arg3 harg3 arg4 harg4 arg5 harg5 arg6 harg6 arg7 harg7) K } := by
  refine ⟨(?_, ?_, ?_), fun E K => ?run⟩
  case run =>
    simp only [cc4__center_varsum_kernel_eq_skeleton]; unfold cc4__center_varsum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
    obtain rfl := harg1.eq_unread hf0; obtain rfl := harg2.eq_unread hf1; obtain rfl := harg3.eq_unread hf2; obtain rfl := harg4.eq_unread hf3
    obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-! ## The memrefs the pipeline passes the body, and views to state contents through -/

/-- One whole buffer of each written shape, through which written contents are stated (the choice does not matter:
    pieces that cover a whole view read back the same over anything). -/
abbrev VO4_4 : View sig .tc .vmem S5000x128 .f32 := (Memref.whole cc4_stg4_0 : Memref sig .tc .vmem S5000x128 .f32).view
abbrev VO4_5 : View sig .tc .vmem S128x128 .f32 := (Memref.whole cc4_stg5_0 : Memref sig .tc .vmem S128x128 .f32).view
abbrev VS4 : View sig .tc .vmem S128x128 .f32 := (Memref.whole cc4_scratch0 : Memref sig .tc .vmem S128x128 .f32).view
/-- Each window's current staging memref at point `t`, and its wholeness. -/
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S5000x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S128x128 .f32 := win4_5.stage (cfg4.slots t 5)
abbrev hs4_5 (t : Fin cfg4.N) : (ms4_5 t).IsWhole := hstage4_5 ((cfg4.slots t 5).cast nbuf4_5)
/-- The accumulator: the kernel's own whole scoped buffer, passed beside the windows. -/
abbrev scM4 : Memref sig .tc .vmem S128x128 .f32 := Memref.whole cc4_scratch0

/-! ## Each case's pieces tile what they are written to, and what they leave -/

theorem cover4_A_4 (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond4_0 i) (hc1 : ¬cond4_1 i) (x0 : Vec F S5000x128 .f32) (x1 : Vec F S5000x128 .bf16) (x2 : Vec F S128x128 .f32) (x3 : Vec F S1x128 .f32) (y : S5000x128.Idx) :
    ∃ pc ∈ (kernelRun4_A c i arg1 harg1 arg2 harg2 arg3 harg3 arg4 harg4 arg5 harg5 arg6 harg6 arg7 harg7 hc0 hc1 x0 x1 x2 x3).1.1, y ∈ pc.1.set :=
  View.cover_of_tiledL (kernelRun4_A c i arg1 harg1 arg2 harg2 arg3 harg3 arg4 harg4 arg5 harg5 arg6 harg6 arg7 harg7 hc0 hc1 x0 x1 x2 x3).1.1 S5000x128.size (by sl_kernel_rfl) y

theorem cover4_A_s (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond4_0 i) (hc1 : ¬cond4_1 i) (x0 : Vec F S5000x128 .f32) (x1 : Vec F S5000x128 .bf16) (x2 : Vec F S128x128 .f32) (x3 : Vec F S1x128 .f32) (y : S128x128.Idx) :
    ∃ pc ∈ (kernelRun4_A c i arg1 harg1 arg2 harg2 arg3 harg3 arg4 harg4 arg5 harg5 arg6 harg6 arg7 harg7 hc0 hc1 x0 x1 x2 x3).1.2, y ∈ pc.1.set :=
  View.cover_of_tiledL (kernelRun4_A c i arg1 harg1 arg2 harg2 arg3 harg3 arg4 harg4 arg5 harg5 arg6 harg6 arg7 harg7 hc0 hc1 x0 x1 x2 x3).1.2 S128x128.size (by sl_kernel_rfl) y

theorem cover4_B_4 (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond4_0 i) (hc1 : ¬cond4_1 i) (x0 : Vec F S5000x128 .f32) (x1 : Vec F S5000x128 .bf16) (x2 : Vec F S128x128 .f32) (x3 : Vec F S1x128 .f32) (s : Vec F S128x128 .f32) (y : S5000x128.Idx) :
    ∃ pc ∈ (kernelRun4_B c i arg1 harg1 arg2 harg2 arg3 harg3 arg4 harg4 arg5 harg5 arg6 harg6 arg7 harg7 hc0 hc1 x0 x1 x2 x3 s).1.1, y ∈ pc.1.set :=
  View.cover_of_tiledL (kernelRun4_B c i arg1 harg1 arg2 harg2 arg3 harg3 arg4 harg4 arg5 harg5 arg6 harg6 arg7 harg7 hc0 hc1 x0 x1 x2 x3 s).1.1 S5000x128.size (by sl_kernel_rfl) y

theorem cover4_B_s (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond4_0 i) (hc1 : ¬cond4_1 i) (x0 : Vec F S5000x128 .f32) (x1 : Vec F S5000x128 .bf16) (x2 : Vec F S128x128 .f32) (x3 : Vec F S1x128 .f32) (s : Vec F S128x128 .f32) (y : S128x128.Idx) :
    ∃ pc ∈ (kernelRun4_B c i arg1 harg1 arg2 harg2 arg3 harg3 arg4 harg4 arg5 harg5 arg6 harg6 arg7 harg7 hc0 hc1 x0 x1 x2 x3 s).1.2, y ∈ pc.1.set :=
  View.cover_of_tiledL (kernelRun4_B c i arg1 harg1 arg2 harg2 arg3 harg3 arg4 harg4 arg5 harg5 arg6 harg6 arg7 harg7 hc0 hc1 x0 x1 x2 x3 s).1.2 S128x128.size (by sl_kernel_rfl) y

theorem cover4_C_4 (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond4_0 i) (hc1 : cond4_1 i) (x0 : Vec F S5000x128 .f32) (x1 : Vec F S5000x128 .bf16) (x2 : Vec F S128x128 .f32) (x3 : Vec F S1x128 .f32) (s : Vec F S128x128 .f32) (y : S5000x128.Idx) :
    ∃ pc ∈ (kernelRun4_C c i arg1 harg1 arg2 harg2 arg3 harg3 arg4 harg4 arg5 harg5 arg6 harg6 arg7 harg7 hc0 hc1 x0 x1 x2 x3 s).1.1, y ∈ pc.1.set :=
  View.cover_of_tiledL (kernelRun4_C c i arg1 harg1 arg2 harg2 arg3 harg3 arg4 harg4 arg5 harg5 arg6 harg6 arg7 harg7 hc0 hc1 x0 x1 x2 x3 s).1.1 S5000x128.size (by sl_kernel_rfl) y

theorem cover4_C_5 (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond4_0 i) (hc1 : cond4_1 i) (x0 : Vec F S5000x128 .f32) (x1 : Vec F S5000x128 .bf16) (x2 : Vec F S128x128 .f32) (x3 : Vec F S1x128 .f32) (s : Vec F S128x128 .f32) (y : S128x128.Idx) :
    ∃ pc ∈ (kernelRun4_C c i arg1 harg1 arg2 harg2 arg3 harg3 arg4 harg4 arg5 harg5 arg6 harg6 arg7 harg7 hc0 hc1 x0 x1 x2 x3 s).1.2.1, y ∈ pc.1.set :=
  View.cover_of_tiledL (kernelRun4_C c i arg1 harg1 arg2 harg2 arg3 harg3 arg4 harg4 arg5 harg5 arg6 harg6 arg7 harg7 hc0 hc1 x0 x1 x2 x3 s).1.2.1 S128x128.size (by sl_kernel_rfl) y

theorem cover4_C_s (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond4_0 i) (hc1 : cond4_1 i) (x0 : Vec F S5000x128 .f32) (x1 : Vec F S5000x128 .bf16) (x2 : Vec F S128x128 .f32) (x3 : Vec F S1x128 .f32) (s : Vec F S128x128 .f32) (y : S128x128.Idx) :
    ∃ pc ∈ (kernelRun4_C c i arg1 harg1 arg2 harg2 arg3 harg3 arg4 harg4 arg5 harg5 arg6 harg6 arg7 harg7 hc0 hc1 x0 x1 x2 x3 s).1.2.2, y ∈ pc.1.set :=
  View.cover_of_tiledL (kernelRun4_C c i arg1 harg1 arg2 harg2 arg3 harg3 arg4 harg4 arg5 harg5 arg6 harg6 arg7 harg7 hc0 hc1 x0 x1 x2 x3 s).1.2.2 S128x128.size (by sl_kernel_rfl) y

/-- What the first point leaves in the row output: its pieces read back over anything. -/
def row4_A (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond4_0 i) (hc1 : ¬cond4_1 i) (x0 : Vec F S5000x128 .f32) (x1 : Vec F S5000x128 .bf16) (x2 : Vec F S128x128 .f32) (x3 : Vec F S1x128 .f32) : Vec F S5000x128 .f32 :=
  VO4_4.read (Elt F) (VO4_4.writes (Elt F) VO4_4.junk (kernelRun4_A c i arg1 harg1 arg2 harg2 arg3 harg3 arg4 harg4 arg5 harg5 arg6 harg6 arg7 harg7 hc0 hc1 x0 x1 x2 x3).1.1)

/-- What the first point leaves in the accumulator. -/
def scr4_A (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond4_0 i) (hc1 : ¬cond4_1 i) (x0 : Vec F S5000x128 .f32) (x1 : Vec F S5000x128 .bf16) (x2 : Vec F S128x128 .f32) (x3 : Vec F S1x128 .f32) : Vec F S128x128 .f32 :=
  VS4.read (Elt F) (VS4.writes (Elt F) VS4.junk (kernelRun4_A c i arg1 harg1 arg2 harg2 arg3 harg3 arg4 harg4 arg5 harg5 arg6 harg6 arg7 harg7 hc0 hc1 x0 x1 x2 x3).1.2)

/-- What a middle point leaves in the row output, -/
def row4_B (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond4_0 i) (hc1 : ¬cond4_1 i) (x0 : Vec F S5000x128 .f32) (x1 : Vec F S5000x128 .bf16) (x2 : Vec F S128x128 .f32) (x3 : Vec F S1x128 .f32) (s : Vec F S128x128 .f32) : Vec F S5000x128 .f32 :=
  VO4_4.read (Elt F) (VO4_4.writes (Elt F) VO4_4.junk (kernelRun4_B c i arg1 harg1 arg2 harg2 arg3 harg3 arg4 harg4 arg5 harg5 arg6 harg6 arg7 harg7 hc0 hc1 x0 x1 x2 x3 s).1.1)

/-- and in the accumulator, found at `s`. -/
def scr4_B (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond4_0 i) (hc1 : ¬cond4_1 i) (x0 : Vec F S5000x128 .f32) (x1 : Vec F S5000x128 .bf16) (x2 : Vec F S128x128 .f32) (x3 : Vec F S1x128 .f32) (s : Vec F S128x128 .f32) : Vec F S128x128 .f32 :=
  VS4.read (Elt F) (VS4.writes (Elt F) VS4.junk (kernelRun4_B c i arg1 harg1 arg2 harg2 arg3 harg3 arg4 harg4 arg5 harg5 arg6 harg6 arg7 harg7 hc0 hc1 x0 x1 x2 x3 s).1.2)

/-- What the last point leaves in the row output, -/
def row4_C (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond4_0 i) (hc1 : cond4_1 i) (x0 : Vec F S5000x128 .f32) (x1 : Vec F S5000x128 .bf16) (x2 : Vec F S128x128 .f32) (x3 : Vec F S1x128 .f32) (s : Vec F S128x128 .f32) : Vec F S5000x128 .f32 :=
  VO4_4.read (Elt F) (VO4_4.writes (Elt F) VO4_4.junk (kernelRun4_C c i arg1 harg1 arg2 harg2 arg3 harg3 arg4 harg4 arg5 harg5 arg6 harg6 arg7 harg7 hc0 hc1 x0 x1 x2 x3 s).1.1)

/-- in the matrix output, -/
def mat4_C (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond4_0 i) (hc1 : cond4_1 i) (x0 : Vec F S5000x128 .f32) (x1 : Vec F S5000x128 .bf16) (x2 : Vec F S128x128 .f32) (x3 : Vec F S1x128 .f32) (s : Vec F S128x128 .f32) : Vec F S128x128 .f32 :=
  VO4_5.read (Elt F) (VO4_5.writes (Elt F) VO4_5.junk (kernelRun4_C c i arg1 harg1 arg2 harg2 arg3 harg3 arg4 harg4 arg5 harg5 arg6 harg6 arg7 harg7 hc0 hc1 x0 x1 x2 x3 s).1.2.1)

/-- and in the accumulator, found at `s`. -/
def scr4_C (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond4_0 i) (hc1 : cond4_1 i) (x0 : Vec F S5000x128 .f32) (x1 : Vec F S5000x128 .bf16) (x2 : Vec F S128x128 .f32) (x3 : Vec F S1x128 .f32) (s : Vec F S128x128 .f32) : Vec F S128x128 .f32 :=
  VS4.read (Elt F) (VS4.writes (Elt F) VS4.junk (kernelRun4_C c i arg1 harg1 arg2 harg2 arg3 harg3 arg4 harg4 arg5 harg5 arg6 harg6 arg7 harg7 hc0 hc1 x0 x1 x2 x3 s).1.2.2)

section Region

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not (unfetched, the
    block index has not moved), for ANY proof data whose array is `V`'s and whose body leaves the block in place; the
    windows uncut and never idle. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## What each point leaves: the accumulation -/

/-- The grid has at least two points: its first point is not its last. -/
theorem first_ne_last4 : ¬((0 : ℕ) + 1 = cfg4.N) := by rw [show cfg4.N = 10 from N_4]; decide

/-- THE ACCUMULATION. What the body leaves at position `n` in (the row output, the matrix output, the accumulator):
    the case the position selects — the first point's, the last point's, a middle point's —, run at the point's
    memrefs and input blocks, the accumulator found at what this leaves in it at `n - 1`. (The matrix output is written
    at the last point only; elsewhere the component repeats the accumulator's and is read nowhere.) -/
def outs4 (c : Dev nD) : (n : ℕ) → n < cfg4.N → Vec F S5000x128 .f32 × Vec F S128x128 .f32 × Vec F S128x128 .f32
  | 0, hn =>
    (row4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4 (Memref.isWhole_whole _) ((hcond4_0 ⟨0, hn⟩).mpr rfl) (fun h => first_ne_last4 ((hcond4_1 ⟨0, hn⟩).mp h)) (iblk4 V c 0 ⟨0, hn⟩) (iblk4 V c 1 ⟨0, hn⟩) (iblk4 V c 2 ⟨0, hn⟩) (iblk4 V c 3 ⟨0, hn⟩),
     scr4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4 (Memref.isWhole_whole _) ((hcond4_0 ⟨0, hn⟩).mpr rfl) (fun h => first_ne_last4 ((hcond4_1 ⟨0, hn⟩).mp h)) (iblk4 V c 0 ⟨0, hn⟩) (iblk4 V c 1 ⟨0, hn⟩) (iblk4 V c 2 ⟨0, hn⟩) (iblk4 V c 3 ⟨0, hn⟩),
     scr4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4 (Memref.isWhole_whole _) ((hcond4_0 ⟨0, hn⟩).mpr rfl) (fun h => first_ne_last4 ((hcond4_1 ⟨0, hn⟩).mp h)) (iblk4 V c 0 ⟨0, hn⟩) (iblk4 V c 1 ⟨0, hn⟩) (iblk4 V c 2 ⟨0, hn⟩) (iblk4 V c 3 ⟨0, hn⟩))
  | n + 1, hn =>
    if h1 : n + 1 + 1 = cfg4.N then
      (row4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outs4 c n (Nat.lt_of_succ_lt hn)).2.2,
       mat4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outs4 c n (Nat.lt_of_succ_lt hn)).2.2,
       scr4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outs4 c n (Nat.lt_of_succ_lt hn)).2.2)
    else
      (row4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outs4 c n (Nat.lt_of_succ_lt hn)).2.2,
       scr4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outs4 c n (Nat.lt_of_succ_lt hn)).2.2,
       scr4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outs4 c n (Nat.lt_of_succ_lt hn)).2.2)

/-- What the accumulator holds after position `n`. -/
abbrev acc4 (c : Dev nD) (n : ℕ) (hn : n < cfg4.N) : Vec F S128x128 .f32 := (outs4 V c n hn).2.2

/-- `outs4` at the first point. -/
theorem outs4_A (c : Dev nD) (t : Fin cfg4.N) (h0 : t.val = 0) (hc0 : cond4_0 (grid4.coords t)) (hc1 : ¬cond4_1 (grid4.coords t)) :
    outs4 V c t.val t.isLt =
      (row4_A c (grid4.coords t) (ms4_0 t) (hs4_0 t) (ms4_1 t) (hs4_1 t) (ms4_2 t) (hs4_2 t) (ms4_3 t) (hs4_3 t) (ms4_4 t) (hs4_4 t) (ms4_5 t) (hs4_5 t) scM4 (Memref.isWhole_whole _) hc0 hc1 (iblk4 V c 0 t) (iblk4 V c 1 t) (iblk4 V c 2 t) (iblk4 V c 3 t),
       scr4_A c (grid4.coords t) (ms4_0 t) (hs4_0 t) (ms4_1 t) (hs4_1 t) (ms4_2 t) (hs4_2 t) (ms4_3 t) (hs4_3 t) (ms4_4 t) (hs4_4 t) (ms4_5 t) (hs4_5 t) scM4 (Memref.isWhole_whole _) hc0 hc1 (iblk4 V c 0 t) (iblk4 V c 1 t) (iblk4 V c 2 t) (iblk4 V c 3 t),
       scr4_A c (grid4.coords t) (ms4_0 t) (hs4_0 t) (ms4_1 t) (hs4_1 t) (ms4_2 t) (hs4_2 t) (ms4_3 t) (hs4_3 t) (ms4_4 t) (hs4_4 t) (ms4_5 t) (hs4_5 t) scM4 (Memref.isWhole_whole _) hc0 hc1 (iblk4 V c 0 t) (iblk4 V c 1 t) (iblk4 V c 2 t) (iblk4 V c 3 t)) := by
  obtain ⟨n, hn⟩ := t
  cases n with
  | zero => exact rfl
  | succ n => exact absurd h0 (Nat.succ_ne_zero n)

/-- `outs4` at the last point: over what the point before left in the accumulator. -/
theorem outs4_C (c : Dev nD) (t : Fin cfg4.N) (h0 : ¬t.val = 0) (h1 : t.val + 1 = cfg4.N) (hc0 : ¬cond4_0 (grid4.coords t)) (hc1 : cond4_1 (grid4.coords t)) :
    outs4 V c t.val t.isLt =
      (row4_C c (grid4.coords t) (ms4_0 t) (hs4_0 t) (ms4_1 t) (hs4_1 t) (ms4_2 t) (hs4_2 t) (ms4_3 t) (hs4_3 t) (ms4_4 t) (hs4_4 t) (ms4_5 t) (hs4_5 t) scM4 (Memref.isWhole_whole _) hc0 hc1 (iblk4 V c 0 t) (iblk4 V c 1 t) (iblk4 V c 2 t) (iblk4 V c 3 t) (acc4 V c (t.val - 1) (Nat.lt_of_le_of_lt (Nat.sub_le _ _) t.isLt)),
       mat4_C c (grid4.coords t) (ms4_0 t) (hs4_0 t) (ms4_1 t) (hs4_1 t) (ms4_2 t) (hs4_2 t) (ms4_3 t) (hs4_3 t) (ms4_4 t) (hs4_4 t) (ms4_5 t) (hs4_5 t) scM4 (Memref.isWhole_whole _) hc0 hc1 (iblk4 V c 0 t) (iblk4 V c 1 t) (iblk4 V c 2 t) (iblk4 V c 3 t) (acc4 V c (t.val - 1) (Nat.lt_of_le_of_lt (Nat.sub_le _ _) t.isLt)),
       scr4_C c (grid4.coords t) (ms4_0 t) (hs4_0 t) (ms4_1 t) (hs4_1 t) (ms4_2 t) (hs4_2 t) (ms4_3 t) (hs4_3 t) (ms4_4 t) (hs4_4 t) (ms4_5 t) (hs4_5 t) scM4 (Memref.isWhole_whole _) hc0 hc1 (iblk4 V c 0 t) (iblk4 V c 1 t) (iblk4 V c 2 t) (iblk4 V c 3 t) (acc4 V c (t.val - 1) (Nat.lt_of_le_of_lt (Nat.sub_le _ _) t.isLt))) := by
  obtain ⟨n, hn⟩ := t
  cases n with
  | zero => exact absurd rfl h0
  | succ n => exact (dif_pos h1).trans rfl

/-- `outs4` at a middle point. -/
theorem outs4_B (c : Dev nD) (t : Fin cfg4.N) (h0 : ¬t.val = 0) (h1 : ¬t.val + 1 = cfg4.N) (hc0 : ¬cond4_0 (grid4.coords t)) (hc1 : ¬cond4_1 (grid4.coords t)) :
    outs4 V c t.val t.isLt =
      (row4_B c (grid4.coords t) (ms4_0 t) (hs4_0 t) (ms4_1 t) (hs4_1 t) (ms4_2 t) (hs4_2 t) (ms4_3 t) (hs4_3 t) (ms4_4 t) (hs4_4 t) (ms4_5 t) (hs4_5 t) scM4 (Memref.isWhole_whole _) hc0 hc1 (iblk4 V c 0 t) (iblk4 V c 1 t) (iblk4 V c 2 t) (iblk4 V c 3 t) (acc4 V c (t.val - 1) (Nat.lt_of_le_of_lt (Nat.sub_le _ _) t.isLt)),
       scr4_B c (grid4.coords t) (ms4_0 t) (hs4_0 t) (ms4_1 t) (hs4_1 t) (ms4_2 t) (hs4_2 t) (ms4_3 t) (hs4_3 t) (ms4_4 t) (hs4_4 t) (ms4_5 t) (hs4_5 t) scM4 (Memref.isWhole_whole _) hc0 hc1 (iblk4 V c 0 t) (iblk4 V c 1 t) (iblk4 V c 2 t) (iblk4 V c 3 t) (acc4 V c (t.val - 1) (Nat.lt_of_le_of_lt (Nat.sub_le _ _) t.isLt)),
       scr4_B c (grid4.coords t) (ms4_0 t) (hs4_0 t) (ms4_1 t) (hs4_1 t) (ms4_2 t) (hs4_2 t) (ms4_3 t) (hs4_3 t) (ms4_4 t) (hs4_4 t) (ms4_5 t) (hs4_5 t) scM4 (Memref.isWhole_whole _) hc0 hc1 (iblk4 V c 0 t) (iblk4 V c 1 t) (iblk4 V c 2 t) (iblk4 V c 3 t) (acc4 V c (t.val - 1) (Nat.lt_of_le_of_lt (Nat.sub_le _ _) t.isLt))) := by
  obtain ⟨n, hn⟩ := t
  cases n with
  | zero => exact absurd rfl h0
  | succ n => exact (dif_neg h1).trans rfl

/-! ## The pipeline's proof data -/

/-- What the accumulator is owned at before position `n` (after position `n - 1`): before the first point at SOME
    contents (the region finds it at anything; the first point zeroes it before reading), after point `n` at the value
    accumulated through it. -/
def scrAt4 (c : Dev nD) : (n : ℕ) → n < cfg4.N + 1 → sProp 𝕄
  | 0, _ => iprop(∃ d, owns (c : Thread nD τ) scM4 fullShare d)
  | n + 1, h => owns (c : Thread nD τ) scM4 fullShare (acc4 V c n (Nat.lt_of_succ_lt_succ h))

/-- The body's invariant before point `t`: the core's scoped buffers that are neither a staging buffer of this call
    nor its accumulator, unopened; the generator register at some state; the accumulator whole at its contents there. -/
def Phi4 (c : Dev nD) (t : Fin (cfg4.N + 1)) : sProp 𝕄 :=
  iprop(Pipeline.scopedRestBut (Ix := Unit) (Name := ℕ) (U := Pipeline.UD sig nD τ) (Lvl := ℕ) (Val := Elt F) spec4 c [cc4_scratch0]
    ∗ (∃ r, prngReg c r) ∗ scrAt4 V c t.val t.isLt)

/-- The proof data of the pipeline on core `c`: the arrays as the region finds them (`V`); after the body at point `t`
    each input's buffer at its block, the row output's and the matrix output's at what `outs4` says; the invariant
    `Phi4`; nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outs4 V c t.val t.isLt).1
    | ⟨5, _⟩ => (outs4 V c t.val t.isLt).2.1
  Φ t := Phi4 V c t
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outs4 V c t.val t.isLt).1 := by dsimp only [dat4]
theorem after4_5 (c : Dev nD) (t : Fin cfg4.N) : (dat4 V c).after 5 t = (outs4 V c t.val t.isLt).2.1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- The accumulator's clause of the invariant, by the point. -/
theorem scrAt4_succ (c : Dev nD) (t : Fin cfg4.N) :
    scrAt4 V c t.succ.val t.succ.isLt = owns (c : Thread nD τ) scM4 fullShare (acc4 V c t.val t.isLt) := by
  obtain ⟨n, hn⟩ := t; rfl
theorem scrAt4_castSucc_zero (c : Dev nD) (t : Fin cfg4.N) (h0 : t.val = 0) :
    scrAt4 V c t.castSucc.val t.castSucc.isLt = iprop(∃ d, owns (c : Thread nD τ) scM4 fullShare d) := by
  obtain ⟨n, hn⟩ := t
  cases n with
  | zero => rfl
  | succ n => exact absurd h0 (Nat.succ_ne_zero n)
theorem scrAt4_castSucc_pos (c : Dev nD) (t : Fin cfg4.N) (h0 : ¬t.val = 0) :
    scrAt4 V c t.castSucc.val t.castSucc.isLt
      = owns (c : Thread nD τ) scM4 fullShare (acc4 V c (t.val - 1) (Nat.lt_of_le_of_lt (Nat.sub_le _ _) t.isLt)) := by
  obtain ⟨n, hn⟩ := t
  cases n with
  | zero => exact absurd rfl h0
  | succ n => rfl
/-- At any point the clause gives the accumulator at some contents. -/
theorem scrAt4_some (c : Dev nD) (n : ℕ) (h : n < cfg4.N + 1) :
    scrAt4 V c n h ⊢ (iprop(∃ d, owns (c : Thread nD τ) scM4 fullShare d) : sProp 𝕄) := by
  cases n with
  | zero => exact .rfl
  | succ n => rw [scrAt4]; iintro H; iexists _; iexact H

/-! ## Where the matrix output's window is idle -/

/-- The matrix output's window is idle exactly where the second branch is not taken, -/
theorem idle4_5_of (i : grid4.Coords) (h : ¬cond4_1 i) : cfg4.idle 5 i = true := by
  show (!(k4_cond2 i == 1#1)) = true
  rw [Bool.not_eq_true', beq_eq_false_iff_ne]; exact h
theorem live4_5_of (i : grid4.Coords) (h : cond4_1 i) : cfg4.idle 5 i = false := by
  show (!(k4_cond2 i == 1#1)) = false
  rw [Bool.not_eq_false', beq_iff_eq]; exact h
/-- and is not written back before the last point. -/
theorem noflush4_5 (t : Fin cfg4.N) (h1 : ¬t.val + 1 = cfg4.N) : (cfg4.win 5).flush t = false := by
  have hN : cfg4.N = 10 := N_4
  have ht : t.val < cfg4.N := t.isLt
  exact Bool.eq_false_iff.mpr fun h => by have := (flush4_5 _).mp h; omega
/-- The obligation's post for it at a live point. -/
theorem leaves4_5_live {c : Dev nD} (dat : Dat τ (Elt F) Unit ℕ (Pipeline.UD sig nD τ) ℕ cfg4 c) (t : Fin cfg4.N)
    (hi : cfg4.idle 5 (cfg4.grid.coords t) = false) :
    dat.leavesExact 5 t = owns (c : Thread nD τ) ((cfg4.win 5).stage (cfg4.slots t 5)) fullShare (dat.after 5 t) := by
  unfold Dat.leavesExact; rw [hi]

/-! ## The body obligation, at a generic point -/

/-- What the body is called with at point `t` (the obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

/-- and what it returns: the matrix output's buffer as it was found where its window is idle. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ (dat4 V c).leavesExact 5 t)

set_option maxHeartbeats 1600000 in
/-- The body at any point. The inputs' memrefs hold their blocks; the point's position says which case it is in; the
    invariant hands the body the accumulator — at anything at the first point, else at what the point before left —
    and takes it back at what this point leaves; the rest of the invariant and the core's `owes` pass through unread;
    the matrix output's buffer is framed around the body where its window is idle. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl,
    after4_0, after4_1, after4_2, after4_3, after4_4]
  rw [show (dat4 V c).Φ t.succ = Phi4 V c t.succ from rfl, show (dat4 V c).Φ t.castSucc = Phi4 V c t.castSucc from rfl]
  unfold Phi4
  rw [scrAt4_succ]
  unfold acc4
  by_cases h0 : t.val = 0
  · have hc0 : cond4_0 (grid4.coords t) := (hcond4_0 t).mpr h0
    have h1 : ¬t.val + 1 = cfg4.N := fun h => first_ne_last4 (by rw [h0] at h; exact h)
    have hc1 : ¬cond4_1 (grid4.coords t) := fun h => h1 ((hcond4_1 t).mp h)
    rw [scrAt4_castSucc_zero V c t h0, Dat.leavesExact_idle _ 5 t (idle4_5_of _ hc1) (noflush4_5 t h1), outs4_A V c t h0 hc0 hc1]
    dsimp only
    unfold row4_A scr4_A
    iintro ⟨⟨Hrest, Hg, HS⟩, Ho, ⟨%d0, H0⟩, ⟨%d1, H1⟩, ⟨%d2, H2⟩, ⟨%d3, H3⟩, ⟨%d4, H4⟩, ⟨%d5, H5⟩⟩
    iapply ((kernelRun4_A c (grid4.coords t) _ _ _ _ _ _ _ _ _ _ _ _ _ _ hc0 hc1 (iblk4 V c 0 t) (iblk4 V c 1 t) (iblk4 V c 2 t) (iblk4 V c 3 t)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%e6, HS⟩⟩
    isplitl [Hrest Hg HS]
    · isplitl [Hrest]; · iexact Hrest
      isplitl [Hg]; · iexact Hg
      unfold owns; iexists _; isplitr
      swap; · iexact HS
      ipureintro; exact View.read_writes_of_cover _ _ _ _ _ (cover4_A_s c _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover4_A_4 c _ _ _ _ _ _ _ _ _ _ _ _ _ _ _ _ _ _ _ _ _)
    iexists d5; iexact H5
  · have hc0 : ¬cond4_0 (grid4.coords t) := fun h => h0 ((hcond4_0 t).mp h)
    rw [scrAt4_castSucc_pos V c t h0]
    unfold acc4
    by_cases h1 : t.val + 1 = cfg4.N
    · have hc1 : cond4_1 (grid4.coords t) := (hcond4_1 t).mpr h1
      rw [leaves4_5_live _ t (live4_5_of _ hc1), after4_5, outs4_C V c t h0 h1 hc0 hc1]
      dsimp only
      unfold row4_C mat4_C scr4_C acc4
      iintro ⟨⟨Hrest, Hg, HS⟩, Ho, ⟨%d0, H0⟩, ⟨%d1, H1⟩, ⟨%d2, H2⟩, ⟨%d3, H3⟩, ⟨%d4, H4⟩, ⟨%d5, H5⟩⟩
      iapply ((kernelRun4_C c (grid4.coords t) _ _ _ _ _ _ _ _ _ _ _ _ _ _ hc0 hc1 (iblk4 V c 0 t) (iblk4 V c 1 t) (iblk4 V c 2 t) (iblk4 V c 3 t) _).2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, ⟨%e4, H4⟩, ⟨%e5, H5⟩, ⟨%e6, HS⟩⟩
      isplitl [Hrest Hg HS]
      · isplitl [Hrest]; · iexact Hrest
        isplitl [Hg]; · iexact Hg
        unfold owns; iexists _; isplitr
        swap; · iexact HS
        ipureintro; exact View.read_writes_of_cover _ _ _ _ _ (cover4_C_s c _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_C_4 c _ _ _ _ _ _ _ _ _ _ _ _ _ _ _ _ _ _ _ _ _ _)
      unfold owns; iexists _; isplitr
      swap; · iexact H5
      ipureintro; exact View.read_writes_of_cover _ _ _ _ _ (cover4_C_5 c _ _ _ _ _ _ _ _ _ _ _ _ _ _ _ _ _ _ _ _ _ _)
    · have hc1 : ¬cond4_1 (grid4.coords t) := fun h => h1 ((hcond4_1 t).mp h)
      rw [Dat.leavesExact_idle _ 5 t (idle4_5_of _ hc1) (noflush4_5 t h1), outs4_B V c t h0 h1 hc0 hc1]
      dsimp only
      unfold row4_B scr4_B acc4
      iintro ⟨⟨Hrest, Hg, HS⟩, Ho, ⟨%d0, H0⟩, ⟨%d1, H1⟩, ⟨%d2, H2⟩, ⟨%d3, H3⟩, ⟨%d4, H4⟩, ⟨%d5, H5⟩⟩
      iapply ((kernelRun4_B c (grid4.coords t) _ _ _ _ _ _ _ _ _ _ _ _ _ _ hc0 hc1 (iblk4 V c 0 t) (iblk4 V c 1 t) (iblk4 V c 2 t) (iblk4 V c 3 t) _).2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%e6, HS⟩⟩
      isplitl [Hrest Hg HS]
      · isplitl [Hrest]; · iexact Hrest
        isplitl [Hg]; · iexact Hg
        unfold owns; iexists _; isplitr
        swap; · iexact HS
        ipureintro; exact View.read_writes_of_cover _ _ _ _ _ (cover4_B_s c _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_B_4 c _ _ _ _ _ _ _ _ _ _ _ _ _ _ _ _ _ _ _ _ _ _)
      iexists d5; iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's ends -/

/-- ENTRY: the generator register and the scoped buffers no window stages make the invariant before the first point —
    the accumulator split out of them, at whatever it holds. -/
theorem hin4 (c : Dev nD) : (iprop((∃ r, prngReg c r) ∗ Pipeline.scopedRest spec4 c) : sProp 𝕄) ⊢ (dat4 V c).Φ 0 := by
  rw [show (dat4 V c).Φ 0 = Phi4 V c 0 from rfl]; unfold Phi4
  rw [show scrAt4 V c (0 : Fin (cfg4.N + 1)).val (0 : Fin (cfg4.N + 1)).isLt = iprop(∃ d, owns (c : Thread nD τ) scM4 fullShare d) from rfl,
    scopedRest4_split]
  simp only [scM4, owns_whole]
  iintro ⟨Hg, HS, Hrest⟩
  isplitl [Hrest]; · iexact Hrest
  isplitl [Hg]; · iexact Hg
  iexact HS

/-- EXIT: the invariant after the last point gives them back, the accumulator forgotten into them. -/
theorem hout4 (c : Dev nD) : (dat4 V c).Φ (Fin.last cfg4.N) ⊢ (iprop((∃ r, prngReg c r) ∗ Pipeline.scopedRest spec4 c) : sProp 𝕄) := by
  rw [show (dat4 V c).Φ (Fin.last cfg4.N) = Phi4 V c (Fin.last cfg4.N) from rfl]; unfold Phi4
  rw [scopedRest4_split]
  iintro ⟨Hrest, Hg, HS⟩
  ihave HS' := scrAt4_some V c _ _ $$ HS
  isplitl [Hg]; · iexact Hg
  isplitl [HS']
  · simp only [scM4, owns_whole]; iexact HS'
  iexact Hrest

end Region

end Cert.Kernel.Hand

end
-- ==== Proof.K.Reg5.lean ====
import proofs.«408428_j10917806867267_1_alg».proof.Proof.Gen.Kernel.Launch
import proofs.«408428_j10917806867267_1_alg».proof.Proof.Gen.Kernel.Skeleton
import proofs.«408428_j10917806867267_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The normalising launch as a pipeline region, at arbitrary entry contents

Six windows and no scratch: a tile of rows of the features, the same tile of the one-hot membership matrix, the
per-graph variances, the scale row and the shift row come in; one tile of rows goes out. The body reads the five
inputs whole and writes the output tile whole, once, so the output buffer after the body is one payload over the
five input blocks and every input buffer is left as found. Everything is stated at a parameter `V`, the buffer
contents when the region is entered, and at any float model `F`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`: what the window's index map cuts out of its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## An input's buffer holds its block at every point

For any proof data over the entry arrays whose body leaves the input's block in place: where the window is fetched
the buffer holds the fetched block; where it is not, its block index has not moved since the point before, so the
block left there is still this point's. The tiles of rows are fetched at every point, the variances and the two
rows at the first point only; the one argument covers both. -/

theorem inputHolds5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem inputHolds5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem inputHolds5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem inputHolds5_3_of {c : Dev nD} (dat : Dat τ (Elt F) Unit ℕ (Pipeline.UD sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem inputHolds5_4_of {c : Dev nD} (dat : Dat τ (Elt F) Unit ℕ (Pipeline.UD sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev whole5_rows : Rect S5000x128 := Rect.unit (s := S5000x128) ![0, 0] S5000x128.size inb_S5000x128_S5000x128_0_0
abbrev whole5_square : Rect S128x128 := Rect.unit (s := S128x128) ![0, 0] S128x128.size inb_S128x128_S128x128_0_0
abbrev whole5_row : Rect S1x128 := Rect.unit (s := S1x128) ![0, 0] S1x128.size inb_S1x128_S1x128_0_0

/-! ## What the body leaves in the output buffer -/

/-- The output buffer after the body, from the five input blocks: its single store, of the payload at the inputs
    read whole. -/
def out5_5 (x0 : Vec F S5000x128 .f32) (x1 : Vec F S5000x128 .bf16) (x2 : Vec F S128x128 .f32) (x3 : Vec F S1x128 .f32) (x4 : Vec F S1x128 .f32) : Vec F S5000x128 .f32 :=
  View.canon [⟨whole5_rows, k5_pay1 (View.ld x1 whole5_rows) (View.ld x2 whole5_square) (View.ld x3 whole5_row) (View.ld x0 whole5_rows) (View.ld x4 whole5_row)⟩]

/-- The single store is the whole buffer, so it covers it. -/
theorem storeCovers5_5 (p0 : Vec F S5000x128 .f32) (y : S5000x128.Idx) :
    ∃ pc ∈ ([⟨whole5_rows, p0⟩] : List (View.Piece (Elt F) S5000x128 .f32)), y ∈ pc.1.set :=
  View.cover_of_tiled [⟨whole5_rows, p0⟩] S5000x128.size (by rfl) y

/-! ## The body's triple -/

set_option maxHeartbeats 1000000 in
/-- The body on whole buffers, the five inputs' at read contents `x0 … x4` and the output's at anything, runs to the
    continuation with the inputs' as they were and the output's at `out5_5` of them. -/
theorem kernelTriple5 (c : Dev nD) (E : Set ℕ) (i : grid5.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .bf16) (x2 : Vec F S128x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__normalize_kernel i arg1 harg1 arg2 harg2 arg3 harg3 arg4 harg4 arg5 harg5 arg6 harg6) K := by
  simp only [cc5__normalize_kernel_eq_skeleton]; unfold cc5__normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (storeCovers5_5 _)

/-! ## The pipeline's proof data -/

/-- The proof data on core `c`: the arrays as the region finds them; after the body at point `t` each input's
    buffer at its block and the output's at `out5_5` of the input blocks; the invariant that of a body touching
    nothing but its windows; nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current buffer holds its block at every point, fetched there or not. -/
theorem before5_0 (c : Dev nD) (t : Fin cfg5.N) (d) : (dat5 V c).before 0 t d = iblk5 V c 0 t :=
  inputHolds5_0_of V (dat5 V c) (A_eq5 V c 0) (after5_0 V c) t d
theorem before5_1 (c : Dev nD) (t : Fin cfg5.N) (d) : (dat5 V c).before 1 t d = iblk5 V c 1 t :=
  inputHolds5_1_of V (dat5 V c) (A_eq5 V c 1) (after5_1 V c) t d
theorem before5_2 (c : Dev nD) (t : Fin cfg5.N) (d) : (dat5 V c).before 2 t d = iblk5 V c 2 t :=
  inputHolds5_2_of V (dat5 V c) (A_eq5 V c 2) (after5_2 V c) t d
theorem before5_3 (c : Dev nD) (t : Fin cfg5.N) (d) : (dat5 V c).before 3 t d = iblk5 V c 3 t :=
  inputHolds5_3_of V (dat5 V c) (A_eq5 V c 3) (after5_3 V c) t d
theorem before5_4 (c : Dev nD) (t : Fin cfg5.N) (d) : (dat5 V c).before 4 t d = iblk5 V c 4 t :=
  inputHolds5_4_of V (dat5 V c) (A_eq5 V c 4) (after5_4 V c) t d

/-! ## The body obligation, at a generic point -/

/-- What the body is called with at point `t`, the windows one by one, -/
def bodyGiven5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyLeaves5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the body's triple applies; the invariant and
    what the core owes pass through unread. -/
theorem bodyTriple5 (c : Dev nD) (t : Fin cfg5.N) :
    bodyGiven5 V c t ⊢ wp frame (wpE (defs₀ (F := F)) Variants.none c none) Set.univ (bodyAt5 t) (fun _ => bodyLeaves5 V c t) := by
  unfold bodyGiven5 bodyLeaves5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (kernelTriple5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact bodyTriple5 V c t

/-! ## The invariant at the region's two ends -/

/-- Entering: the generator register and the scoped rest make up the invariant before the first point. -/
theorem hin5 (c : Dev nD) : (iprop((∃ r, prngReg c r) ∗ Pipeline.scopedRest spec5 c) : sProp 𝕄) ⊢ (dat5 V c).Φ 0 := by
  rw [show (dat5 V c).Φ 0 = Pipeline.ΦA spec5 c from rfl]; unfold Pipeline.ΦA
  iintro ⟨Hp, Hr⟩
  isplitl [Hr]; · iexact Hr
  iexact Hp

/-- Leaving: the invariant after the last point hands both back. -/
theorem hout5 (c : Dev nD) : (dat5 V c).Φ (Fin.last cfg5.N) ⊢ (iprop((∃ r, prngReg c r) ∗ Pipeline.scopedRest spec5 c) : sProp 𝕄) := by
  rw [show (dat5 V c).Φ (Fin.last cfg5.N) = Pipeline.ΦA spec5 c from rfl]; unfold Pipeline.ΦA
  iintro ⟨Hr, Hp⟩
  isplitl [Hp]; · iexact Hp
  iexact Hr

end Cert.Kernel.Hand
-- ==== Proof.K.Reg6.lean ====
/- Region 6 of @main (custom_call 6, the GIN layer's MLP with its per-graph accumulator): the kernel body's three control
   cases as triples with named contents, the accumulator's value point by point, the pipeline's proof data over an invariant
   that names the scratch's contents, the body obligation at every point, and the invariant at the region's two ends. -/
import proofs.«408428_j10917806867267_1_alg».proof.Proof.Gen.Kernel.Launch
import proofs.«408428_j10917806867267_1_alg».proof.Proof.Gen.Kernel.Skeleton
import proofs.«408428_j10917806867267_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the long axes' extents recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's accesses and what it leaves -/

/-- The whole-buffer rectangles the body loads and stores through. -/
abbrev rA6 : Rect S5000x128 := Rect.unit (s := S5000x128) ![0, 0] S5000x128.size inb_S5000x128_S5000x128_0_0
abbrev rB6 : Rect S128x128 := Rect.unit (s := S128x128) ![0, 0] S128x128.size inb_S128x128_S128x128_0_0
abbrev rC6 : Rect S1x128 := Rect.unit (s := S1x128) ![0, 0] S1x128.size inb_S1x128_S1x128_0_0

/-- The point's MLP output, from the blocks of windows 0, 1, 3, 4, 5, 6. -/
def tval6 (x0 x1 : Vec F S5000x128 .f32) (x3 : Vec F S128x128 .f32) (x4 : Vec F S1x128 .f32) (x5 : Vec F S128x128 .f32) (x6 : Vec F S1x128 .f32) :
    FVec F S5000x128 .f32 :=
  k6_pay3 (View.ld x0 rA6) (View.ld x1 rA6) (View.ld x3 rB6) (View.ld x4 rC6) (View.ld x5 rB6) (View.ld x6 rC6)

/-- What the body leaves in window 7's staging buffer: its one store. -/
def out6_7 (x0 x1 : Vec F S5000x128 .f32) (x3 : Vec F S128x128 .f32) (x4 : Vec F S1x128 .f32) (x5 : Vec F S128x128 .f32) (x6 : Vec F S1x128 .f32) :
    Vec F S5000x128 .f32 :=
  View.canon [⟨rA6, tval6 x0 x1 x3 x4 x5 x6⟩]

/-- The accumulator zeroed. -/
def zero6 : Vec F S128x128 .f32 := View.canon [⟨rB6, k6_pay2 (F := F)⟩]

/-- The accumulator after a point that found it at `s`: `s` plus the point's term. -/
def scr6 (x0 x1 : Vec F S5000x128 .f32) (x2 : Vec F S5000x128 .bf16) (x3 : Vec F S128x128 .f32) (x4 : Vec F S1x128 .f32) (x5 : Vec F S128x128 .f32) (x6 : Vec F S1x128 .f32)
    (s : Vec F S128x128 .f32) : Vec F S128x128 .f32 :=
  View.canon [⟨rB6, k6_pay1 (tval6 x0 x1 x3 x4 x5 x6) (k6_pay4 (View.ld x2 rA6)) (View.ld s rB6)⟩]

/-- What the last point leaves in window 8's staging buffer: the accumulator copied. -/
def out6_8 (s : Vec F S128x128 .f32) : Vec F S128x128 .f32 := View.canon [⟨rB6, View.ld s rB6⟩]

/-- One whole-buffer store covers the buffer. -/
theorem coverA6 {e : EltTy} (p : rA6.shape.Idx → Elt F e) (y : S5000x128.Idx) :
    ∃ pc ∈ ([⟨rA6, p⟩] : List (View.Piece (Elt F) S5000x128 e)), y ∈ pc.1.set :=
  View.cover_of_tiled [⟨rA6, p⟩] S5000x128.size (by rfl) y
theorem coverB6 {e : EltTy} (p : rB6.shape.Idx → Elt F e) (y : S128x128.Idx) :
    ∃ pc ∈ ([⟨rB6, p⟩] : List (View.Piece (Elt F) S128x128 e)), y ∈ pc.1.set :=
  View.cover_of_tiled [⟨rB6, p⟩] S128x128.size (by rfl) y

/-- The conditions of the body's two `scf.if`s, from the grid coordinates. -/
abbrev cond6_1 (i : grid6.Coords) : Prop := (Scalar.cmpi .ne (Scalar.extui (Scalar.cmpi .eq (BitVec.ofNat 32 (i 0).val) 0#32)) 0#32) = 1#1
abbrev cond6_2 (i : grid6.Coords) : Prop := k6_cond2 i = 1#1

/-- The conditions in closed form, decided over the grid: the first holds at the first point only, the second at the
    last only; window 8 is idle off the last point and written back at it only. -/
theorem hcond6_1 : ∀ t : Fin cfg6.N, cond6_1 (grid6.coords t) ↔ t.val = 0 :=
  (by decide +kernel : ∀ t : Fin grid6.N, cond6_1 (grid6.coords t) ↔ t.val = 0)
theorem hcond6_2 : ∀ t : Fin cfg6.N, cond6_2 (grid6.coords t) ↔ t.val + 1 = cfg6.N :=
  (by decide +kernel : ∀ t : Fin grid6.N, cond6_2 (grid6.coords t) ↔ t.val + 1 = grid6.N)
theorem hidle6_8 : ∀ t : Fin cfg6.N, cfg6.idle 8 (cfg6.grid.coords t) = !decide (t.val + 1 = cfg6.N) :=
  (by decide +kernel : ∀ t : Fin grid6.N, idle6 8 (grid6.coords t) = !decide (t.val + 1 = grid6.N))
theorem hflush6_8 : ∀ t : Fin cfg6.N, (cfg6.win 8).flush t = decide (t.val + 1 = cfg6.N) :=
  (by decide +kernel : ∀ t : Fin grid6.N, win6_8.flush t = decide (t.val + 1 = grid6.N))
theorem one_lt_N6 : 1 < cfg6.N := by decide

/-- A whole-buffer store hides every earlier one. -/
theorem canon_headB6 {e : EltTy} (p : rB6.shape.Idx → Elt F e) (L : List (View.Piece (Elt F) S128x128 e)) :
    View.canon (⟨rB6, p⟩ :: L) = View.canon [⟨rB6, p⟩] := by
  funext y
  obtain ⟨pc, hm, hy⟩ := coverB6 (F := F) p y
  rw [List.mem_singleton] at hm; subst hm
  obtain ⟨x, rfl⟩ := rB6.exists_idx_of_mem hy
  exact (View.canon_cons_emb rB6 p L x).trans (View.canon_cons_emb rB6 p [] x).symm

theorem coverB6_cons {e : EltTy} (p : rB6.shape.Idx → Elt F e) (L : List (View.Piece (Elt F) S128x128 e)) (y : S128x128.Idx) :
    ∃ pc ∈ (⟨rB6, p⟩ :: L), y ∈ pc.1.set := by
  obtain ⟨pc, hm, hy⟩ := coverB6 (F := F) p y
  exact ⟨pc, List.mem_cons.mpr (Or.inl (List.mem_singleton.mp hm)), hy⟩

/-- So a buffer whose last store was whole reads that store's payload. -/
theorem read_writes_headB6 {κ : Kind} {sp : Space} {e : EltTy} (v : View sig κ sp S128x128 e) (f : v.ty.Contents (Elt F))
    (p : rB6.shape.Idx → Elt F e) (L : List (View.Piece (Elt F) S128x128 e)) :
    v.read (Elt F) (v.writes (Elt F) f (⟨rB6, p⟩ :: L)) = View.canon [⟨rB6, p⟩] :=
  (View.read_writes_eq_canon v f _ (coverB6_cons p L)).trans (canon_headB6 p L)

/-! ## The kernel body on any whole staging memrefs, case by case -/

set_option maxHeartbeats 4000000 in
/-- The first point: the accumulator is zeroed first; the second `scf.if` is not taken. -/
theorem run6_A (c : Dev nD) (E : Set ℕ) (i : grid6.Coords) (arg1 : Memref sig .tc .vmem S5000x128 .f32) (harg1 : arg1.IsWhole) (arg2 : Memref sig .tc .vmem S5000x128 .f32) (harg2 : arg2.IsWhole) (arg3 : Memref sig .tc .vmem S5000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S128x128 .f32) (harg9 : arg9.IsWhole) (arg10 : Memref sig .tc .vmem S128x128 .f32) (harg10 : arg10.IsWhole)
    (hc1 : cond6_1 i) (hc2 : ¬cond6_2 i)
    (x0 x1 : Vec F S5000x128 .f32) (x2 : Vec F S5000x128 .bf16) (x3 : Vec F S128x128 .f32) (x4 : Vec F S1x128 .f32) (x5 : Vec F S128x128 .f32) (x6 : Vec F S1x128 .f32) (x8 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out6_7 x0 x1 x3 x4 x5 x6)
            ∗ owns (c : Thread nD τ) arg9 fullShare x8
            ∗ owns (c : Thread nD τ) arg10 fullShare (scr6 x0 x1 x2 x3 x4 x5 x6 (zero6 (F := F)))) -∗ K ⟨⟩))
      ⊢ wp frame (wpE (defs₀ (F := F)) Variants.none c none) E (cc6__gin_mlp_kernel i arg1 harg1 arg2 harg2 arg3 harg3 arg4 harg4 arg5 harg5 arg6 harg6 arg7 harg7 arg8 harg8 arg9 harg9 arg10 harg10) K := by
  simp only [cc6__gin_mlp_kernel_eq_skeleton]; unfold cc6__gin_mlp_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds, %fs, -, HS⟩, Hk⟩
  subst hf0 hf1 hf2 hf3 hf4 hf5 hf6 hf8
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr
    swap; · iexact H7
    ipureintro; exact View.read_writes_eq_canon _ _ _ (coverA6 _)
  isplitl [H8]
  · iexists _; isplitr; · ipureintro; rfl
    iexact H8
  iexists _; isplitr
  swap; · iexact HS
  ipureintro
  refine (read_writes_headB6 _ _ _ _).trans ?_
  unfold scr6
  refine congrArg (fun p => View.canon [(⟨rB6, p⟩ : View.Piece (Elt F) S128x128 .f32)]) ?_
  refine congrArg (k6_pay1 _ _) ?_
  unfold zero6
  try dsimp only
  exact View.readCov_eq_canon_ld _ _ _ (coverB6 (F := F) _)

set_option maxHeartbeats 4000000 in
/-- A middle point: neither `scf.if` taken. -/
theorem run6_B (c : Dev nD) (E : Set ℕ) (i : grid6.Coords) (arg1 : Memref sig .tc .vmem S5000x128 .f32) (harg1 : arg1.IsWhole) (arg2 : Memref sig .tc .vmem S5000x128 .f32) (harg2 : arg2.IsWhole) (arg3 : Memref sig .tc .vmem S5000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S128x128 .f32) (harg9 : arg9.IsWhole) (arg10 : Memref sig .tc .vmem S128x128 .f32) (harg10 : arg10.IsWhole)
    (hc1 : ¬cond6_1 i) (hc2 : ¬cond6_2 i)
    (x0 x1 : Vec F S5000x128 .f32) (x2 : Vec F S5000x128 .bf16) (x3 : Vec F S128x128 .f32) (x4 : Vec F S1x128 .f32) (x5 : Vec F S128x128 .f32) (x6 : Vec F S1x128 .f32) (x8 s : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ owns (c : Thread nD τ) arg9 fullShare x8
        ∗ owns (c : Thread nD τ) arg10 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out6_7 x0 x1 x3 x4 x5 x6)
            ∗ owns (c : Thread nD τ) arg9 fullShare x8
            ∗ owns (c : Thread nD τ) arg10 fullShare (scr6 x0 x1 x2 x3 x4 x5 x6 s)) -∗ K ⟨⟩))
      ⊢ wp frame (wpE (defs₀ (F := F)) Variants.none c none) E (cc6__gin_mlp_kernel i arg1 harg1 arg2 harg2 arg3 harg3 arg4 harg4 arg5 harg5 arg6 harg6 arg7 harg7 arg8 harg8 arg9 harg9 arg10 harg10) K := by
  simp only [cc6__gin_mlp_kernel_eq_skeleton]; unfold cc6__gin_mlp_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs, %hfs, HS⟩, Hk⟩
  subst hf0 hf1 hf2 hf3 hf4 hf5 hf6 hf8 hfs
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr
    swap; · iexact H7
    ipureintro; exact View.read_writes_eq_canon _ _ _ (coverA6 _)
  isplitl [H8]
  · iexists _; isplitr; · ipureintro; rfl
    iexact H8
  iexists _; isplitr
  swap; · iexact HS
  ipureintro; exact View.read_writes_eq_canon _ _ _ (coverB6 _)

set_option maxHeartbeats 4000000 in
/-- The last point: the accumulator is not zeroed; it is copied into window 8 at the end. -/
theorem run6_C (c : Dev nD) (E : Set ℕ) (i : grid6.Coords) (arg1 : Memref sig .tc .vmem S5000x128 .f32) (harg1 : arg1.IsWhole) (arg2 : Memref sig .tc .vmem S5000x128 .f32) (harg2 : arg2.IsWhole) (arg3 : Memref sig .tc .vmem S5000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S128x128 .f32) (harg9 : arg9.IsWhole) (arg10 : Memref sig .tc .vmem S128x128 .f32) (harg10 : arg10.IsWhole)
    (hc1 : ¬cond6_1 i) (hc2 : cond6_2 i)
    (x0 x1 : Vec F S5000x128 .f32) (x2 : Vec F S5000x128 .bf16) (x3 : Vec F S128x128 .f32) (x4 : Vec F S1x128 .f32) (x5 : Vec F S128x128 .f32) (x6 : Vec F S1x128 .f32) (s : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ owns (c : Thread nD τ) arg10 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out6_7 x0 x1 x3 x4 x5 x6)
            ∗ owns (c : Thread nD τ) arg9 fullShare (out6_8 (scr6 x0 x1 x2 x3 x4 x5 x6 s))
            ∗ owns (c : Thread nD τ) arg10 fullShare (scr6 x0 x1 x2 x3 x4 x5 x6 s)) -∗ K ⟨⟩))
      ⊢ wp frame (wpE (defs₀ (F := F)) Variants.none c none) E (cc6__gin_mlp_kernel i arg1 harg1 arg2 harg2 arg3 harg3 arg4 harg4 arg5 harg5 arg6 harg6 arg7 harg7 arg8 harg8 arg9 harg9 arg10 harg10) K := by
  simp only [cc6__gin_mlp_kernel_eq_skeleton]; unfold cc6__gin_mlp_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS⟩, Hk⟩
  subst hf0 hf1 hf2 hf3 hf4 hf5 hf6 hfs
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr
    swap; · iexact H7
    ipureintro; exact View.read_writes_eq_canon _ _ _ (coverA6 _)
  isplitl [H8]
  · iexists _; isplitr
    swap; · iexact H8
    ipureintro
    refine (read_writes_headB6 _ _ _ _).trans ?_
    unfold out6_8
    refine congrArg (fun p => View.canon [(⟨rB6, p⟩ : View.Piece (Elt F) S128x128 .f32)]) ?_
    unfold scr6
    exact View.readCov_eq_canon_ld _ _ _ (coverB6 (F := F) _)
  iexists _; isplitr
  swap; · iexact HS
  ipureintro; exact View.read_writes_eq_canon _ _ _ (coverB6 _)

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not, for any proof
    data whose array is `V`'s and whose body leaves the block in place: unfetched, the block index has not moved. -/
theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (Pipeline.UD sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (Pipeline.UD sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (Pipeline.UD sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (Pipeline.UD sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (Pipeline.UD sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
theorem before6_6_of {c : Dev nD} (dat : Dat τ (Elt F) Unit ℕ (Pipeline.UD sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-! ## The accumulator, point by point -/

/-- The scratch operand: a whole scoped buffer of the kernel's own, passed beside the windows. -/
abbrev scM6_0 : Memref sig .tc .vmem S128x128 .f32 := Memref.whole cc6_scratch0

/-- Point number `n` of the grid (wrapped past the last). -/
def pt6 (n : ℕ) : Fin cfg6.N := ⟨n % cfg6.N, Nat.mod_lt _ (Nat.lt_trans Nat.zero_lt_one one_lt_N6)⟩
theorem pt6_val (t : Fin cfg6.N) : pt6 t.val = t := Fin.ext (Nat.mod_eq_of_lt t.isLt)

/-- The accumulator after point `t`, if the point found it at `s`. -/
def stepAt6 (c : Dev nD) (t : Fin cfg6.N) (s : Vec F S128x128 .f32) : Vec F S128x128 .f32 :=
  scr6 (iblk6 V c 0 t) (iblk6 V c 1 t) (iblk6 V c 2 t) (iblk6 V c 3 t) (iblk6 V c 4 t) (iblk6 V c 5 t) (iblk6 V c 6 t) s

/-- The accumulator after point `n`: zeroed at the first point, each point's term added. -/
def acc6 (c : Dev nD) : ℕ → Vec F S128x128 .f32
  | 0 => stepAt6 V c (pt6 0) (zero6 (F := F))
  | n + 1 => stepAt6 V c (pt6 (n + 1)) (acc6 c n)

theorem acc6_first (c : Dev nD) (t : Fin cfg6.N) (h : t.val = 0) : acc6 V c t.val = stepAt6 V c t (zero6 (F := F)) := by
  rw [h]; show stepAt6 V c (pt6 0) _ = _; rw [← h, pt6_val]
theorem acc6_next (c : Dev nD) (t : Fin cfg6.N) (n : ℕ) (h : t.val = n + 1) : acc6 V c t.val = stepAt6 V c t (acc6 V c n) := by
  rw [h]; show stepAt6 V c (pt6 (n + 1)) _ = _; rw [← h, pt6_val]

/-- The scratch before point `k`: at some contents before the first, then at the accumulated value. -/
def scrAt6 (c : Dev nD) : ℕ → sProp 𝕄
  | 0 => iprop(∃ d, owns (c : Thread nD τ) scM6_0 fullShare d)
  | n + 1 => owns (c : Thread nD τ) scM6_0 fullShare (acc6 V c n)

/-- The scratch whole at some contents, as its points-to. -/
theorem scr_whole6 (c : Dev nD) :
    (iprop(∃ d, owns (c : Thread nD τ) scM6_0 fullShare d) : sProp 𝕄)
      = iprop(∃ f : Buf (Elt F) ((c : Thread nD τ).loc cc6_scratch0), ((c : Thread nD τ).loc cc6_scratch0) ↦{fullShare} f) := by
  simp only [scM6_0, owns_whole]; try rfl

theorem scrAt6_some (c : Dev nD) (k : ℕ) :
    scrAt6 V c k ⊢ (iprop(∃ f : Buf (Elt F) ((c : Thread nD τ).loc cc6_scratch0), ((c : Thread nD τ).loc cc6_scratch0) ↦{fullShare} f) : sProp 𝕄) := by
  rw [← scr_whole6]
  cases k with
  | zero => unfold scrAt6; iintro H; iexact H
  | succ n => unfold scrAt6; iintro H; iexists _; iexact H

/-- The invariant before point `k`: every other scoped buffer that is no staging buffer at some contents, the generator
    register at some state, the scratch as `scrAt6` says. -/
def Φ6 (c : Dev nD) (k : Fin (cfg6.N + 1)) : sProp 𝕄 :=
  iprop(Pipeline.scopedRestBut (Ix := Unit) (Name := ℕ) (U := Pipeline.UD sig nD τ) (Lvl := ℕ) (Val := Elt F) spec6 c [cc6_scratch0]
    ∗ (∃ r, prngReg c r) ∗ scrAt6 V c k.val)

/-! ## The pipeline's proof data -/

def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 3 t) (iblk6 V c 4 t) (iblk6 V c 5 t) (iblk6 V c 6 t)
    | ⟨8, _⟩ => out6_8 (acc6 V c t.val)
  Φ := Φ6 V c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = out6_7 (iblk6 V c 0 t) (iblk6 V c 1 t) (iblk6 V c 3 t) (iblk6 V c 4 t) (iblk6 V c 5 t) (iblk6 V c 6 t) := by dsimp only [dat6]
theorem after6_8 (c : Dev nD) (t : Fin cfg6.N) : (dat6 V c).after 8 t = out6_8 (acc6 V c t.val) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

theorem Φ6_castSucc (c : Dev nD) (t : Fin cfg6.N) : (dat6 V c).Φ t.castSucc
    = iprop(Pipeline.scopedRestBut (Ix := Unit) (Name := ℕ) (U := Pipeline.UD sig nD τ) (Lvl := ℕ) (Val := Elt F) spec6 c [cc6_scratch0]
        ∗ (∃ r, prngReg c r) ∗ scrAt6 V c t.val) := rfl
theorem Φ6_succ (c : Dev nD) (t : Fin cfg6.N) : (dat6 V c).Φ t.succ
    = iprop(Pipeline.scopedRestBut (Ix := Unit) (Name := ℕ) (U := Pipeline.UD sig nD τ) (Lvl := ℕ) (Val := Elt F) spec6 c [cc6_scratch0]
        ∗ (∃ r, prngReg c r) ∗ owns (c : Thread nD τ) scM6_0 fullShare (acc6 V c t.val)) := rfl

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d)))

/-- and what it returns: window 8's buffer as found off the last point, at the accumulator's copy at it. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ (dat6 V c).leavesExact 8 t)

theorem scrAt6_first (c : Dev nD) (t : Fin cfg6.N) (h : t.val = 0) :
    scrAt6 V c t.val = iprop(∃ d, owns (c : Thread nD τ) scM6_0 fullShare d) := by rw [h]; rfl
theorem scrAt6_next (c : Dev nD) (t : Fin cfg6.N) (n : ℕ) (h : t.val = n + 1) :
    scrAt6 V c t.val = owns (c : Thread nD τ) scM6_0 fullShare (acc6 V c n) := by rw [h]; rfl

theorem leaves6_8_idle (c : Dev nD) (t : Fin cfg6.N) (h : ¬t.val + 1 = cfg6.N) :
    (dat6 V c).leavesExact 8 t = iprop(∃ d, owns (c : Thread nD τ) (st6_8 t) fullShare ((dat6 V c).before 8 t d)) :=
  Dat.leavesExact_idle _ 8 t (by rw [hidle6_8, decide_eq_false h]; rfl) (by rw [hflush6_8, decide_eq_false h])
theorem leaves6_8_last (c : Dev nD) (t : Fin cfg6.N) (h : t.val + 1 = cfg6.N) :
    (dat6 V c).leavesExact 8 t = owns (c : Thread nD τ) (st6_8 t) fullShare ((dat6 V c).after 8 t) := by
  unfold Dat.leavesExact; rw [hidle6_8, decide_eq_true h]; rfl

/-- The body at any point, by its three control cases: the inputs' memrefs hold their blocks; the invariant hands the
    body its scratch — at anything before the first point, at the accumulated value later — and takes it back one point on. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).owesAt () t.succ = (dat6 V c).owesAt () t.castSucc from rfl,
    after6_0, after6_1, after6_2, after6_3, after6_4, after6_5, after6_6, after6_7, Φ6_castSucc, Φ6_succ]
  by_cases hA : t.val = 0
  · have h1 : cond6_1 (grid6.coords t) := (hcond6_1 t).mpr hA
    have hL : ¬t.val + 1 = cfg6.N := fun h => by have := one_lt_N6; omega
    have h2 : ¬cond6_2 (grid6.coords t) := fun h => hL ((hcond6_2 t).mp h)
    rw [scrAt6_first V c t hA, acc6_first V c t hA, leaves6_8_idle V c t hL]; unfold stepAt6
    iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run6_A c Set.univ (grid6.coords t) _ _ _ _ _ _ _ _ _ _ _ _ _ _ _ _ _ _ _ _ h1 h2 (iblk6 V c 0 t) (iblk6 V c 1 t) (iblk6 V c 2 t) (iblk6 V c 3 t) (iblk6 V c 4 t) (iblk6 V c 5 t) (iblk6 V c 6 t) ((dat6 V c).before 8 t d8) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS]; · iexact HS
    iintro ⟨H0, H1, H2, H3, H4, H5, H6, H7, H8, HS⟩
    isplitl [HR Hg HS]
    · isplitl [HR]; · iexact HR
      isplitl [Hg]; · iexact Hg
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists d8; iexact H8
  obtain ⟨n, hn⟩ := Nat.exists_eq_add_one_of_ne_zero hA
  have h1 : ¬cond6_1 (grid6.coords t) := fun h => hA ((hcond6_1 t).mp h)
  rw [scrAt6_next V c t n hn, acc6_next V c t n hn]; unfold stepAt6
  by_cases hL : t.val + 1 = cfg6.N
  · have h2 : cond6_2 (grid6.coords t) := (hcond6_2 t).mpr hL
    rw [leaves6_8_last V c t hL, after6_8, acc6_next V c t n hn]; unfold stepAt6
    iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run6_C c Set.univ (grid6.coords t) _ _ _ _ _ _ _ _ _ _ _ _ _ _ _ _ _ _ _ _ h1 h2 (iblk6 V c 0 t) (iblk6 V c 1 t) (iblk6 V c 2 t) (iblk6 V c 3 t) (iblk6 V c 4 t) (iblk6 V c 5 t) (iblk6 V c 6 t) (acc6 V c n) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, H7, H8, HS⟩
    isplitl [HR Hg HS]
    · isplitl [HR]; · iexact HR
      isplitl [Hg]; · iexact Hg
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  have h2 : ¬cond6_2 (grid6.coords t) := fun h => hL ((hcond6_2 t).mp h)
  rw [leaves6_8_idle V c t hL]
  iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run6_B c Set.univ (grid6.coords t) _ _ _ _ _ _ _ _ _ _ _ _ _ _ _ _ _ _ _ _ h1 h2 (iblk6 V c 0 t) (iblk6 V c 1 t) (iblk6 V c 2 t) (iblk6 V c 3 t) (iblk6 V c 4 t) (iblk6 V c 5 t) (iblk6 V c 6 t) ((dat6 V c).before 8 t d8) (acc6 V c n) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [HS]; · iexact HS
  iintro ⟨H0, H1, H2, H3, H4, H5, H6, H7, H8, HS⟩
  isplitl [HR Hg HS]
  · isplitl [HR]; · iexact HR
    isplitl [Hg]; · iexact Hg
    iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## The invariant at the region's ends -/

/-- Entering: the scratch is split off the scoped rest, at whatever it holds. -/
theorem hin6 (c : Dev nD) : (iprop((∃ r, prngReg c r) ∗ Pipeline.scopedRest spec6 c) : sProp 𝕄) ⊢ (dat6 V c).Φ 0 := by
  rw [show (dat6 V c).Φ 0 = Φ6 V c 0 from rfl, scopedRest6_split]; unfold Φ6
  rw [show scrAt6 V c ((0 : Fin (cfg6.N + 1)) : ℕ) = iprop(∃ d, owns (c : Thread nD τ) scM6_0 fullShare d) from rfl, scr_whole6]
  iintro ⟨Hp, Hs, Hr⟩
  isplitl [Hr]; · iexact Hr
  isplitl [Hp]; · iexact Hp
  iexact Hs

/-- Leaving: the scratch, at the accumulated value, goes back into the scoped rest. -/
theorem hout6 (c : Dev nD) : (dat6 V c).Φ (Fin.last cfg6.N) ⊢ (iprop((∃ r, prngReg c r) ∗ Pipeline.scopedRest spec6 c) : sProp 𝕄) := by
  rw [show (dat6 V c).Φ (Fin.last cfg6.N) = Φ6 V c (Fin.last cfg6.N) from rfl, scopedRest6_split]; unfold Φ6
  iintro ⟨Hr, Hp, Hs⟩
  isplitl [Hp]; · iexact Hp
  isplitl [Hs]; swap; · iexact Hr
  iapply (scrAt6_some V c _); iexact Hs

end Regions

end Cert.Kernel.Hand

end
-- ==== Proof.K.Reg7.lean ====
import proofs.«408428_j10917806867267_1_alg».proof.Proof.Gen.Kernel.Launch
import proofs.«408428_j10917806867267_1_alg».proof.Proof.Gen.Kernel.Skeleton
import proofs.«408428_j10917806867267_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's two branch conditions, decided over the grid -/

/-- The first `scf.if`'s condition (the point's coordinate is 0), as the skeleton's scalar chain computes it. -/
abbrev cond7_0 (i : grid7.Coords) : Prop :=
  (Scalar.cmpi .ne (Scalar.extui (Scalar.cmpi .eq (BitVec.ofNat 32 (i 0).val) 0#32)) 0#32) = 1#1
/-- The second `scf.if`'s condition (the point's coordinate is the last). -/
abbrev cond7_1 (i : grid7.Coords) : Prop := k7_cond2 i = 1#1

/-- The first condition holds at the first point only. -/
theorem hcond7_0 : ∀ t : Fin cfg7.N, cond7_0 (grid7.coords t) ↔ t.val = 0 :=
  (by decide +kernel : ∀ t : Fin grid7.N, cond7_0 (grid7.coords t) ↔ t.val = 0)
/-- The second holds at the last point only. -/
theorem hcond7_1 : ∀ t : Fin cfg7.N, cond7_1 (grid7.coords t) ↔ t.val + 1 = cfg7.N :=
  (by decide +kernel : ∀ t : Fin grid7.N, cond7_1 (grid7.coords t) ↔ t.val + 1 = grid7.N)

/-! ## The body on any whole memrefs, case by case: pieces the run finds

The body never touches the matrix output's memref where its second branch is not taken, so the first two cases are
stated without it (it is framed around them). -/

set_option maxHeartbeats 4000000 in
/-- THE FIRST POINT (first branch taken: the accumulator is zeroed before it is read; second not). On whole memrefs —
    the four inputs at their contents, the row output and the accumulator at anything — the body runs to the
    continuation holding the inputs as they were and the row output and the accumulator with their pieces written;
    the pieces are the witness the run finds. -/
noncomputable def kernelRun7_A (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond7_0 i) (hc1 : ¬cond7_1 i)
    (x0 : Vec F S5000x128 .f32) (x1 : Vec F S5000x128 .bf16) (x2 : Vec F S128x128 .f32) (x3 : Vec F S1x128 .f32) :
    { L : List (View.Piece (Elt F) S5000x128 .f32) × List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc7__center_varsum_kernel i arg1 harg1 arg2 harg2 arg3 harg3 arg4 harg4 arg5 harg5 arg6 harg6 arg7 harg7) K } := by
  refine ⟨(?_, ?_), fun E K => ?run⟩
  case run =>
    simp only [cc7__center_varsum_kernel_eq_skeleton]; unfold cc7__center_varsum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d6, %f6, -, H6⟩, Hk⟩
    obtain rfl := harg1.eq_unread hf0; obtain rfl := harg2.eq_unread hf1; obtain rfl := harg3.eq_unread hf2; obtain rfl := harg4.eq_unread hf3

    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H6

set_option maxHeartbeats 4000000 in
/-- THE MIDDLE POINTS (neither branch taken): as the first point's, the accumulator coming at `s`. -/
noncomputable def kernelRun7_B (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond7_0 i) (hc1 : ¬cond7_1 i)
    (x0 : Vec F S5000x128 .f32) (x1 : Vec F S5000x128 .bf16) (x2 : Vec F S128x128 .f32) (x3 : Vec F S1x128 .f32) (s : Vec F S128x128 .f32) :
    { L : List (View.Piece (Elt F) S5000x128 .f32) × List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg7 fullShare s
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc7__center_varsum_kernel i arg1 harg1 arg2 harg2 arg3 harg3 arg4 harg4 arg5 harg5 arg6 harg6 arg7 harg7) K } := by
  refine ⟨(?_, ?_), fun E K => ?run⟩
  case run =>
    simp only [cc7__center_varsum_kernel_eq_skeleton]; unfold cc7__center_varsum_kernel_skel
    unfold owns
    iintro ⟨⟨%f0, %hf0, H0⟩, ⟨%f1, %hf1, H1⟩, ⟨%f2, %hf2, H2⟩, ⟨%f3, %hf3, H3⟩, ⟨%d4, %f4, -, H4⟩, ⟨%f6, %hf6, H6⟩, Hk⟩
    obtain rfl := harg1.eq_unread hf0; obtain rfl := harg2.eq_unread hf1; obtain rfl := harg3.eq_unread hf2; obtain rfl := harg4.eq_unread hf3
    obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H6

set_option maxHeartbeats 4000000 in
/-- THE LAST POINT (second branch taken: the accumulator is copied into the matrix output at the end). The matrix
    output comes at anything and leaves with its pieces written. -/
noncomputable def kernelRun7_C (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond7_0 i) (hc1 : cond7_1 i)
    (x0 : Vec F S5000x128 .f32) (x1 : Vec F S5000x128 .bf16) (x2 : Vec F S128x128 .f32) (x3 : Vec F S1x128 .f32) (s : Vec F S128x128 .f32) :
    { L : List (View.Piece (Elt F) S5000x128 .f32) × List (View.Piece (Elt F) S128x128 .f32) × List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ owns (c : Thread nD τ) arg7 fullShare s
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2.1)
                ∗ (∃ f, arg7.view.loc (c : Thread nD τ) ↦[arg7.view.set]{fullShare} arg7.view.writes (Elt F) f L.2.2)) -∗ K ⟨⟩))
          ⊢ wp frame (wpE (defs₀ (F := F)) Variants.none c none) E (cc7__center_varsum_kernel i arg1 harg1 arg2 harg2 arg3 harg3 arg4 harg4 arg5 harg5 arg6 harg6 arg7 harg7) K } := by
  refine ⟨(?_, ?_, ?_), fun E K => ?run⟩
  case run =>
    simp only [cc7__center_varsum_kernel_eq_skeleton]; unfold cc7__center_varsum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
    obtain rfl := harg1.eq_unread hf0; obtain rfl := harg2.eq_unread hf1; obtain rfl := harg3.eq_unread hf2; obtain rfl := harg4.eq_unread hf3
    obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-! ## The memrefs the pipeline passes the body, and views to state contents through -/

/-- One whole buffer of each written shape, through which written contents are stated (the choice does not matter:
    pieces that cover a whole view read back the same over anything). -/
abbrev VO7_4 : View sig .tc .vmem S5000x128 .f32 := (Memref.whole cc7_stg4_0 : Memref sig .tc .vmem S5000x128 .f32).view
abbrev VO7_5 : View sig .tc .vmem S128x128 .f32 := (Memref.whole cc7_stg5_0 : Memref sig .tc .vmem S128x128 .f32).view
abbrev VS7 : View sig .tc .vmem S128x128 .f32 := (Memref.whole cc7_scratch0 : Memref sig .tc .vmem S128x128 .f32).view
/-- Each window's current staging memref at point `t`, and its wholeness. -/
abbrev ms7_0 (t : Fin cfg7.N) : Memref sig .tc .vmem S5000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S5000x128 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S128x128 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x128 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S5000x128 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S128x128 .f32 := win7_5.stage (cfg7.slots t 5)
abbrev hs7_5 (t : Fin cfg7.N) : (ms7_5 t).IsWhole := hstage7_5 ((cfg7.slots t 5).cast nbuf7_5)
/-- The accumulator: the kernel's own whole scoped buffer, passed beside the windows. -/
abbrev scM7 : Memref sig .tc .vmem S128x128 .f32 := Memref.whole cc7_scratch0

/-! ## Each case's pieces tile what they are written to, and what they leave -/

theorem cover7_A_4 (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond7_0 i) (hc1 : ¬cond7_1 i) (x0 : Vec F S5000x128 .f32) (x1 : Vec F S5000x128 .bf16) (x2 : Vec F S128x128 .f32) (x3 : Vec F S1x128 .f32) (y : S5000x128.Idx) :
    ∃ pc ∈ (kernelRun7_A c i arg1 harg1 arg2 harg2 arg3 harg3 arg4 harg4 arg5 harg5 arg6 harg6 arg7 harg7 hc0 hc1 x0 x1 x2 x3).1.1, y ∈ pc.1.set :=
  View.cover_of_tiledL (kernelRun7_A c i arg1 harg1 arg2 harg2 arg3 harg3 arg4 harg4 arg5 harg5 arg6 harg6 arg7 harg7 hc0 hc1 x0 x1 x2 x3).1.1 S5000x128.size (by sl_kernel_rfl) y

theorem cover7_A_s (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond7_0 i) (hc1 : ¬cond7_1 i) (x0 : Vec F S5000x128 .f32) (x1 : Vec F S5000x128 .bf16) (x2 : Vec F S128x128 .f32) (x3 : Vec F S1x128 .f32) (y : S128x128.Idx) :
    ∃ pc ∈ (kernelRun7_A c i arg1 harg1 arg2 harg2 arg3 harg3 arg4 harg4 arg5 harg5 arg6 harg6 arg7 harg7 hc0 hc1 x0 x1 x2 x3).1.2, y ∈ pc.1.set :=
  View.cover_of_tiledL (kernelRun7_A c i arg1 harg1 arg2 harg2 arg3 harg3 arg4 harg4 arg5 harg5 arg6 harg6 arg7 harg7 hc0 hc1 x0 x1 x2 x3).1.2 S128x128.size (by sl_kernel_rfl) y

theorem cover7_B_4 (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond7_0 i) (hc1 : ¬cond7_1 i) (x0 : Vec F S5000x128 .f32) (x1 : Vec F S5000x128 .bf16) (x2 : Vec F S128x128 .f32) (x3 : Vec F S1x128 .f32) (s : Vec F S128x128 .f32) (y : S5000x128.Idx) :
    ∃ pc ∈ (kernelRun7_B c i arg1 harg1 arg2 harg2 arg3 harg3 arg4 harg4 arg5 harg5 arg6 harg6 arg7 harg7 hc0 hc1 x0 x1 x2 x3 s).1.1, y ∈ pc.1.set :=
  View.cover_of_tiledL (kernelRun7_B c i arg1 harg1 arg2 harg2 arg3 harg3 arg4 harg4 arg5 harg5 arg6 harg6 arg7 harg7 hc0 hc1 x0 x1 x2 x3 s).1.1 S5000x128.size (by sl_kernel_rfl) y

theorem cover7_B_s (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond7_0 i) (hc1 : ¬cond7_1 i) (x0 : Vec F S5000x128 .f32) (x1 : Vec F S5000x128 .bf16) (x2 : Vec F S128x128 .f32) (x3 : Vec F S1x128 .f32) (s : Vec F S128x128 .f32) (y : S128x128.Idx) :
    ∃ pc ∈ (kernelRun7_B c i arg1 harg1 arg2 harg2 arg3 harg3 arg4 harg4 arg5 harg5 arg6 harg6 arg7 harg7 hc0 hc1 x0 x1 x2 x3 s).1.2, y ∈ pc.1.set :=
  View.cover_of_tiledL (kernelRun7_B c i arg1 harg1 arg2 harg2 arg3 harg3 arg4 harg4 arg5 harg5 arg6 harg6 arg7 harg7 hc0 hc1 x0 x1 x2 x3 s).1.2 S128x128.size (by sl_kernel_rfl) y

theorem cover7_C_4 (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond7_0 i) (hc1 : cond7_1 i) (x0 : Vec F S5000x128 .f32) (x1 : Vec F S5000x128 .bf16) (x2 : Vec F S128x128 .f32) (x3 : Vec F S1x128 .f32) (s : Vec F S128x128 .f32) (y : S5000x128.Idx) :
    ∃ pc ∈ (kernelRun7_C c i arg1 harg1 arg2 harg2 arg3 harg3 arg4 harg4 arg5 harg5 arg6 harg6 arg7 harg7 hc0 hc1 x0 x1 x2 x3 s).1.1, y ∈ pc.1.set :=
  View.cover_of_tiledL (kernelRun7_C c i arg1 harg1 arg2 harg2 arg3 harg3 arg4 harg4 arg5 harg5 arg6 harg6 arg7 harg7 hc0 hc1 x0 x1 x2 x3 s).1.1 S5000x128.size (by sl_kernel_rfl) y

theorem cover7_C_5 (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond7_0 i) (hc1 : cond7_1 i) (x0 : Vec F S5000x128 .f32) (x1 : Vec F S5000x128 .bf16) (x2 : Vec F S128x128 .f32) (x3 : Vec F S1x128 .f32) (s : Vec F S128x128 .f32) (y : S128x128.Idx) :
    ∃ pc ∈ (kernelRun7_C c i arg1 harg1 arg2 harg2 arg3 harg3 arg4 harg4 arg5 harg5 arg6 harg6 arg7 harg7 hc0 hc1 x0 x1 x2 x3 s).1.2.1, y ∈ pc.1.set :=
  View.cover_of_tiledL (kernelRun7_C c i arg1 harg1 arg2 harg2 arg3 harg3 arg4 harg4 arg5 harg5 arg6 harg6 arg7 harg7 hc0 hc1 x0 x1 x2 x3 s).1.2.1 S128x128.size (by sl_kernel_rfl) y

theorem cover7_C_s (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond7_0 i) (hc1 : cond7_1 i) (x0 : Vec F S5000x128 .f32) (x1 : Vec F S5000x128 .bf16) (x2 : Vec F S128x128 .f32) (x3 : Vec F S1x128 .f32) (s : Vec F S128x128 .f32) (y : S128x128.Idx) :
    ∃ pc ∈ (kernelRun7_C c i arg1 harg1 arg2 harg2 arg3 harg3 arg4 harg4 arg5 harg5 arg6 harg6 arg7 harg7 hc0 hc1 x0 x1 x2 x3 s).1.2.2, y ∈ pc.1.set :=
  View.cover_of_tiledL (kernelRun7_C c i arg1 harg1 arg2 harg2 arg3 harg3 arg4 harg4 arg5 harg5 arg6 harg6 arg7 harg7 hc0 hc1 x0 x1 x2 x3 s).1.2.2 S128x128.size (by sl_kernel_rfl) y

/-- What the first point leaves in the row output: its pieces read back over anything. -/
def row7_A (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond7_0 i) (hc1 : ¬cond7_1 i) (x0 : Vec F S5000x128 .f32) (x1 : Vec F S5000x128 .bf16) (x2 : Vec F S128x128 .f32) (x3 : Vec F S1x128 .f32) : Vec F S5000x128 .f32 :=
  VO7_4.read (Elt F) (VO7_4.writes (Elt F) VO7_4.junk (kernelRun7_A c i arg1 harg1 arg2 harg2 arg3 harg3 arg4 harg4 arg5 harg5 arg6 harg6 arg7 harg7 hc0 hc1 x0 x1 x2 x3).1.1)

/-- What the first point leaves in the accumulator. -/
def scr7_A (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond7_0 i) (hc1 : ¬cond7_1 i) (x0 : Vec F S5000x128 .f32) (x1 : Vec F S5000x128 .bf16) (x2 : Vec F S128x128 .f32) (x3 : Vec F S1x128 .f32) : Vec F S128x128 .f32 :=
  VS7.read (Elt F) (VS7.writes (Elt F) VS7.junk (kernelRun7_A c i arg1 harg1 arg2 harg2 arg3 harg3 arg4 harg4 arg5 harg5 arg6 harg6 arg7 harg7 hc0 hc1 x0 x1 x2 x3).1.2)

/-- What a middle point leaves in the row output, -/
def row7_B (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond7_0 i) (hc1 : ¬cond7_1 i) (x0 : Vec F S5000x128 .f32) (x1 : Vec F S5000x128 .bf16) (x2 : Vec F S128x128 .f32) (x3 : Vec F S1x128 .f32) (s : Vec F S128x128 .f32) : Vec F S5000x128 .f32 :=
  VO7_4.read (Elt F) (VO7_4.writes (Elt F) VO7_4.junk (kernelRun7_B c i arg1 harg1 arg2 harg2 arg3 harg3 arg4 harg4 arg5 harg5 arg6 harg6 arg7 harg7 hc0 hc1 x0 x1 x2 x3 s).1.1)

/-- and in the accumulator, found at `s`. -/
def scr7_B (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond7_0 i) (hc1 : ¬cond7_1 i) (x0 : Vec F S5000x128 .f32) (x1 : Vec F S5000x128 .bf16) (x2 : Vec F S128x128 .f32) (x3 : Vec F S1x128 .f32) (s : Vec F S128x128 .f32) : Vec F S128x128 .f32 :=
  VS7.read (Elt F) (VS7.writes (Elt F) VS7.junk (kernelRun7_B c i arg1 harg1 arg2 harg2 arg3 harg3 arg4 harg4 arg5 harg5 arg6 harg6 arg7 harg7 hc0 hc1 x0 x1 x2 x3 s).1.2)

/-- What the last point leaves in the row output, -/
def row7_C (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond7_0 i) (hc1 : cond7_1 i) (x0 : Vec F S5000x128 .f32) (x1 : Vec F S5000x128 .bf16) (x2 : Vec F S128x128 .f32) (x3 : Vec F S1x128 .f32) (s : Vec F S128x128 .f32) : Vec F S5000x128 .f32 :=
  VO7_4.read (Elt F) (VO7_4.writes (Elt F) VO7_4.junk (kernelRun7_C c i arg1 harg1 arg2 harg2 arg3 harg3 arg4 harg4 arg5 harg5 arg6 harg6 arg7 harg7 hc0 hc1 x0 x1 x2 x3 s).1.1)

/-- in the matrix output, -/
def mat7_C (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond7_0 i) (hc1 : cond7_1 i) (x0 : Vec F S5000x128 .f32) (x1 : Vec F S5000x128 .bf16) (x2 : Vec F S128x128 .f32) (x3 : Vec F S1x128 .f32) (s : Vec F S128x128 .f32) : Vec F S128x128 .f32 :=
  VO7_5.read (Elt F) (VO7_5.writes (Elt F) VO7_5.junk (kernelRun7_C c i arg1 harg1 arg2 harg2 arg3 harg3 arg4 harg4 arg5 harg5 arg6 harg6 arg7 harg7 hc0 hc1 x0 x1 x2 x3 s).1.2.1)

/-- and in the accumulator, found at `s`. -/
def scr7_C (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond7_0 i) (hc1 : cond7_1 i) (x0 : Vec F S5000x128 .f32) (x1 : Vec F S5000x128 .bf16) (x2 : Vec F S128x128 .f32) (x3 : Vec F S1x128 .f32) (s : Vec F S128x128 .f32) : Vec F S128x128 .f32 :=
  VS7.read (Elt F) (VS7.writes (Elt F) VS7.junk (kernelRun7_C c i arg1 harg1 arg2 harg2 arg3 harg3 arg4 harg4 arg5 harg5 arg6 harg6 arg7 harg7 hc0 hc1 x0 x1 x2 x3 s).1.2.2)

section Region

variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not (unfetched, the
    block index has not moved), for ANY proof data whose array is `V`'s and whose body leaves the block in place; the
    windows uncut and never idle. -/
theorem before7_0_of {c : Dev nD} (dat : Dat τ (Elt F) Unit ℕ (Pipeline.UD sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (Pipeline.UD sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (Pipeline.UD sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (Pipeline.UD sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## What each point leaves: the accumulation -/

/-- The grid has at least two points: its first point is not its last. -/
theorem first_ne_last7 : ¬((0 : ℕ) + 1 = cfg7.N) := by rw [show cfg7.N = 10 from N_7]; decide

/-- THE ACCUMULATION. What the body leaves at position `n` in (the row output, the matrix output, the accumulator):
    the case the position selects — the first point's, the last point's, a middle point's —, run at the point's
    memrefs and input blocks, the accumulator found at what this leaves in it at `n - 1`. (The matrix output is written
    at the last point only; elsewhere the component repeats the accumulator's and is read nowhere.) -/
def outs7 (c : Dev nD) : (n : ℕ) → n < cfg7.N → Vec F S5000x128 .f32 × Vec F S128x128 .f32 × Vec F S128x128 .f32
  | 0, hn =>
    (row7_A c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) scM7 (Memref.isWhole_whole _) ((hcond7_0 ⟨0, hn⟩).mpr rfl) (fun h => first_ne_last7 ((hcond7_1 ⟨0, hn⟩).mp h)) (iblk7 V c 0 ⟨0, hn⟩) (iblk7 V c 1 ⟨0, hn⟩) (iblk7 V c 2 ⟨0, hn⟩) (iblk7 V c 3 ⟨0, hn⟩),
     scr7_A c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) scM7 (Memref.isWhole_whole _) ((hcond7_0 ⟨0, hn⟩).mpr rfl) (fun h => first_ne_last7 ((hcond7_1 ⟨0, hn⟩).mp h)) (iblk7 V c 0 ⟨0, hn⟩) (iblk7 V c 1 ⟨0, hn⟩) (iblk7 V c 2 ⟨0, hn⟩) (iblk7 V c 3 ⟨0, hn⟩),
     scr7_A c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) scM7 (Memref.isWhole_whole _) ((hcond7_0 ⟨0, hn⟩).mpr rfl) (fun h => first_ne_last7 ((hcond7_1 ⟨0, hn⟩).mp h)) (iblk7 V c 0 ⟨0, hn⟩) (iblk7 V c 1 ⟨0, hn⟩) (iblk7 V c 2 ⟨0, hn⟩) (iblk7 V c 3 ⟨0, hn⟩))
  | n + 1, hn =>
    if h1 : n + 1 + 1 = cfg7.N then
      (row7_C c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7 (Memref.isWhole_whole _) (fun h => Nat.succ_ne_zero n ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outs7 c n (Nat.lt_of_succ_lt hn)).2.2,
       mat7_C c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7 (Memref.isWhole_whole _) (fun h => Nat.succ_ne_zero n ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outs7 c n (Nat.lt_of_succ_lt hn)).2.2,
       scr7_C c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7 (Memref.isWhole_whole _) (fun h => Nat.succ_ne_zero n ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outs7 c n (Nat.lt_of_succ_lt hn)).2.2)
    else
      (row7_B c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7 (Memref.isWhole_whole _) (fun h => Nat.succ_ne_zero n ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outs7 c n (Nat.lt_of_succ_lt hn)).2.2,
       scr7_B c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7 (Memref.isWhole_whole _) (fun h => Nat.succ_ne_zero n ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outs7 c n (Nat.lt_of_succ_lt hn)).2.2,
       scr7_B c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7 (Memref.isWhole_whole _) (fun h => Nat.succ_ne_zero n ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outs7 c n (Nat.lt_of_succ_lt hn)).2.2)

/-- What the accumulator holds after position `n`. -/
abbrev acc7 (c : Dev nD) (n : ℕ) (hn : n < cfg7.N) : Vec F S128x128 .f32 := (outs7 V c n hn).2.2

/-- `outs7` at the first point. -/
theorem outs7_A (c : Dev nD) (t : Fin cfg7.N) (h0 : t.val = 0) (hc0 : cond7_0 (grid7.coords t)) (hc1 : ¬cond7_1 (grid7.coords t)) :
    outs7 V c t.val t.isLt =
      (row7_A c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) hc0 hc1 (iblk7 V c 0 t) (iblk7 V c 1 t) (iblk7 V c 2 t) (iblk7 V c 3 t),
       scr7_A c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) hc0 hc1 (iblk7 V c 0 t) (iblk7 V c 1 t) (iblk7 V c 2 t) (iblk7 V c 3 t),
       scr7_A c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) hc0 hc1 (iblk7 V c 0 t) (iblk7 V c 1 t) (iblk7 V c 2 t) (iblk7 V c 3 t)) := by
  obtain ⟨n, hn⟩ := t
  cases n with
  | zero => exact rfl
  | succ n => exact absurd h0 (Nat.succ_ne_zero n)

/-- `outs7` at the last point: over what the point before left in the accumulator. -/
theorem outs7_C (c : Dev nD) (t : Fin cfg7.N) (h0 : ¬t.val = 0) (h1 : t.val + 1 = cfg7.N) (hc0 : ¬cond7_0 (grid7.coords t)) (hc1 : cond7_1 (grid7.coords t)) :
    outs7 V c t.val t.isLt =
      (row7_C c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) hc0 hc1 (iblk7 V c 0 t) (iblk7 V c 1 t) (iblk7 V c 2 t) (iblk7 V c 3 t) (acc7 V c (t.val - 1) (Nat.lt_of_le_of_lt (Nat.sub_le _ _) t.isLt)),
       mat7_C c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) hc0 hc1 (iblk7 V c 0 t) (iblk7 V c 1 t) (iblk7 V c 2 t) (iblk7 V c 3 t) (acc7 V c (t.val - 1) (Nat.lt_of_le_of_lt (Nat.sub_le _ _) t.isLt)),
       scr7_C c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) hc0 hc1 (iblk7 V c 0 t) (iblk7 V c 1 t) (iblk7 V c 2 t) (iblk7 V c 3 t) (acc7 V c (t.val - 1) (Nat.lt_of_le_of_lt (Nat.sub_le _ _) t.isLt))) := by
  obtain ⟨n, hn⟩ := t
  cases n with
  | zero => exact absurd rfl h0
  | succ n => exact (dif_pos h1).trans rfl

/-- `outs7` at a middle point. -/
theorem outs7_B (c : Dev nD) (t : Fin cfg7.N) (h0 : ¬t.val = 0) (h1 : ¬t.val + 1 = cfg7.N) (hc0 : ¬cond7_0 (grid7.coords t)) (hc1 : ¬cond7_1 (grid7.coords t)) :
    outs7 V c t.val t.isLt =
      (row7_B c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) hc0 hc1 (iblk7 V c 0 t) (iblk7 V c 1 t) (iblk7 V c 2 t) (iblk7 V c 3 t) (acc7 V c (t.val - 1) (Nat.lt_of_le_of_lt (Nat.sub_le _ _) t.isLt)),
       scr7_B c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) hc0 hc1 (iblk7 V c 0 t) (iblk7 V c 1 t) (iblk7 V c 2 t) (iblk7 V c 3 t) (acc7 V c (t.val - 1) (Nat.lt_of_le_of_lt (Nat.sub_le _ _) t.isLt)),
       scr7_B c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) hc0 hc1 (iblk7 V c 0 t) (iblk7 V c 1 t) (iblk7 V c 2 t) (iblk7 V c 3 t) (acc7 V c (t.val - 1) (Nat.lt_of_le_of_lt (Nat.sub_le _ _) t.isLt))) := by
  obtain ⟨n, hn⟩ := t
  cases n with
  | zero => exact absurd rfl h0
  | succ n => exact (dif_neg h1).trans rfl

/-! ## The pipeline's proof data -/

/-- What the accumulator is owned at before position `n` (after position `n - 1`): before the first point at SOME
    contents (the region finds it at anything; the first point zeroes it before reading), after point `n` at the value
    accumulated through it. -/
def scrAt7 (c : Dev nD) : (n : ℕ) → n < cfg7.N + 1 → sProp 𝕄
  | 0, _ => iprop(∃ d, owns (c : Thread nD τ) scM7 fullShare d)
  | n + 1, h => owns (c : Thread nD τ) scM7 fullShare (acc7 V c n (Nat.lt_of_succ_lt_succ h))

/-- The body's invariant before point `t`: the core's scoped buffers that are neither a staging buffer of this call
    nor its accumulator, unopened; the generator register at some state; the accumulator whole at its contents there. -/
def Phi7 (c : Dev nD) (t : Fin (cfg7.N + 1)) : sProp 𝕄 :=
  iprop(Pipeline.scopedRestBut (Ix := Unit) (Name := ℕ) (U := Pipeline.UD sig nD τ) (Lvl := ℕ) (Val := Elt F) spec7 c [cc7_scratch0]
    ∗ (∃ r, prngReg c r) ∗ scrAt7 V c t.val t.isLt)

/-- The proof data of the pipeline on core `c`: the arrays as the region finds them (`V`); after the body at point `t`
    each input's buffer at its block, the row output's and the matrix output's at what `outs7` says; the invariant
    `Phi7`; nothing owed; full shares. -/
def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => (outs7 V c t.val t.isLt).1
    | ⟨5, _⟩ => (outs7 V c t.val t.isLt).2.1
  Φ t := Phi7 V c t
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = (outs7 V c t.val t.isLt).1 := by dsimp only [dat7]
theorem after7_5 (c : Dev nD) (t : Fin cfg7.N) : (dat7 V c).after 5 t = (outs7 V c t.val t.isLt).2.1 := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-- The accumulator's clause of the invariant, by the point. -/
theorem scrAt7_succ (c : Dev nD) (t : Fin cfg7.N) :
    scrAt7 V c t.succ.val t.succ.isLt = owns (c : Thread nD τ) scM7 fullShare (acc7 V c t.val t.isLt) := by
  obtain ⟨n, hn⟩ := t; rfl
theorem scrAt7_castSucc_zero (c : Dev nD) (t : Fin cfg7.N) (h0 : t.val = 0) :
    scrAt7 V c t.castSucc.val t.castSucc.isLt = iprop(∃ d, owns (c : Thread nD τ) scM7 fullShare d) := by
  obtain ⟨n, hn⟩ := t
  cases n with
  | zero => rfl
  | succ n => exact absurd h0 (Nat.succ_ne_zero n)
theorem scrAt7_castSucc_pos (c : Dev nD) (t : Fin cfg7.N) (h0 : ¬t.val = 0) :
    scrAt7 V c t.castSucc.val t.castSucc.isLt
      = owns (c : Thread nD τ) scM7 fullShare (acc7 V c (t.val - 1) (Nat.lt_of_le_of_lt (Nat.sub_le _ _) t.isLt)) := by
  obtain ⟨n, hn⟩ := t
  cases n with
  | zero => exact absurd rfl h0
  | succ n => rfl
/-- At any point the clause gives the accumulator at some contents. -/
theorem scrAt7_some (c : Dev nD) (n : ℕ) (h : n < cfg7.N + 1) :
    scrAt7 V c n h ⊢ (iprop(∃ d, owns (c : Thread nD τ) scM7 fullShare d) : sProp 𝕄) := by
  cases n with
  | zero => exact .rfl
  | succ n => rw [scrAt7]; iintro H; iexists _; iexact H

/-! ## Where the matrix output's window is idle -/

/-- The matrix output's window is idle exactly where the second branch is not taken, -/
theorem idle7_5_of (i : grid7.Coords) (h : ¬cond7_1 i) : cfg7.idle 5 i = true := by
  show (!(k7_cond2 i == 1#1)) = true
  rw [Bool.not_eq_true', beq_eq_false_iff_ne]; exact h
theorem live7_5_of (i : grid7.Coords) (h : cond7_1 i) : cfg7.idle 5 i = false := by
  show (!(k7_cond2 i == 1#1)) = false
  rw [Bool.not_eq_false', beq_iff_eq]; exact h
/-- and is not written back before the last point. -/
theorem noflush7_5 (t : Fin cfg7.N) (h1 : ¬t.val + 1 = cfg7.N) : (cfg7.win 5).flush t = false := by
  have hN : cfg7.N = 10 := N_7
  have ht : t.val < cfg7.N := t.isLt
  exact Bool.eq_false_iff.mpr fun h => by have := (flush7_5 _).mp h; omega
/-- The obligation's post for it at a live point. -/
theorem leaves7_5_live {c : Dev nD} (dat : Dat τ (Elt F) Unit ℕ (Pipeline.UD sig nD τ) ℕ cfg7 c) (t : Fin cfg7.N)
    (hi : cfg7.idle 5 (cfg7.grid.coords t) = false) :
    dat.leavesExact 5 t = owns (c : Thread nD τ) ((cfg7.win 5).stage (cfg7.slots t 5)) fullShare (dat.after 5 t) := by
  unfold Dat.leavesExact; rw [hi]

/-! ## The body obligation, at a generic point -/

/-- What the body is called with at point `t` (the obligation's precondition, the windows one by one), -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d)))

/-- and what it returns: the matrix output's buffer as it was found where its window is idle. -/
def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ owns (c : Thread nD τ) (ms7_2 t) fullShare ((dat7 V c).after 2 t)
    ∗ owns (c : Thread nD τ) (ms7_3 t) fullShare ((dat7 V c).after 3 t)
    ∗ owns (c : Thread nD τ) (ms7_4 t) fullShare ((dat7 V c).after 4 t)
    ∗ (dat7 V c).leavesExact 5 t)

set_option maxHeartbeats 1600000 in
/-- The body at any point. The inputs' memrefs hold their blocks; the point's position says which case it is in; the
    invariant hands the body the accumulator — at anything at the first point, else at what the point before left —
    and takes it back at what this point leaves; the rest of the invariant and the core's `owes` pass through unread;
    the matrix output's buffer is framed around the body where its window is idle. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).owesAt () t.succ = (dat7 V c).owesAt () t.castSucc from rfl,
    after7_0, after7_1, after7_2, after7_3, after7_4]
  rw [show (dat7 V c).Φ t.succ = Phi7 V c t.succ from rfl, show (dat7 V c).Φ t.castSucc = Phi7 V c t.castSucc from rfl]
  unfold Phi7
  rw [scrAt7_succ]
  unfold acc7
  by_cases h0 : t.val = 0
  · have hc0 : cond7_0 (grid7.coords t) := (hcond7_0 t).mpr h0
    have h1 : ¬t.val + 1 = cfg7.N := fun h => first_ne_last7 (by rw [h0] at h; exact h)
    have hc1 : ¬cond7_1 (grid7.coords t) := fun h => h1 ((hcond7_1 t).mp h)
    rw [scrAt7_castSucc_zero V c t h0, Dat.leavesExact_idle _ 5 t (idle7_5_of _ hc1) (noflush7_5 t h1), outs7_A V c t h0 hc0 hc1]
    dsimp only
    unfold row7_A scr7_A
    iintro ⟨⟨Hrest, Hg, HS⟩, Ho, ⟨%d0, H0⟩, ⟨%d1, H1⟩, ⟨%d2, H2⟩, ⟨%d3, H3⟩, ⟨%d4, H4⟩, ⟨%d5, H5⟩⟩
    iapply ((kernelRun7_A c (grid7.coords t) _ _ _ _ _ _ _ _ _ _ _ _ _ _ hc0 hc1 (iblk7 V c 0 t) (iblk7 V c 1 t) (iblk7 V c 2 t) (iblk7 V c 3 t)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%e6, HS⟩⟩
    isplitl [Hrest Hg HS]
    · isplitl [Hrest]; · iexact Hrest
      isplitl [Hg]; · iexact Hg
      unfold owns; iexists _; isplitr
      swap; · iexact HS
      ipureintro; exact View.read_writes_of_cover _ _ _ _ _ (cover7_A_s c _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover7_A_4 c _ _ _ _ _ _ _ _ _ _ _ _ _ _ _ _ _ _ _ _ _)
    iexists d5; iexact H5
  · have hc0 : ¬cond7_0 (grid7.coords t) := fun h => h0 ((hcond7_0 t).mp h)
    rw [scrAt7_castSucc_pos V c t h0]
    unfold acc7
    by_cases h1 : t.val + 1 = cfg7.N
    · have hc1 : cond7_1 (grid7.coords t) := (hcond7_1 t).mpr h1
      rw [leaves7_5_live _ t (live7_5_of _ hc1), after7_5, outs7_C V c t h0 h1 hc0 hc1]
      dsimp only
      unfold row7_C mat7_C scr7_C acc7
      iintro ⟨⟨Hrest, Hg, HS⟩, Ho, ⟨%d0, H0⟩, ⟨%d1, H1⟩, ⟨%d2, H2⟩, ⟨%d3, H3⟩, ⟨%d4, H4⟩, ⟨%d5, H5⟩⟩
      iapply ((kernelRun7_C c (grid7.coords t) _ _ _ _ _ _ _ _ _ _ _ _ _ _ hc0 hc1 (iblk7 V c 0 t) (iblk7 V c 1 t) (iblk7 V c 2 t) (iblk7 V c 3 t) _).2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, ⟨%e4, H4⟩, ⟨%e5, H5⟩, ⟨%e6, HS⟩⟩
      isplitl [Hrest Hg HS]
      · isplitl [Hrest]; · iexact Hrest
        isplitl [Hg]; · iexact Hg
        unfold owns; iexists _; isplitr
        swap; · iexact HS
        ipureintro; exact View.read_writes_of_cover _ _ _ _ _ (cover7_C_s c _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover7_C_4 c _ _ _ _ _ _ _ _ _ _ _ _ _ _ _ _ _ _ _ _ _ _)
      unfold owns; iexists _; isplitr
      swap; · iexact H5
      ipureintro; exact View.read_writes_of_cover _ _ _ _ _ (cover7_C_5 c _ _ _ _ _ _ _ _ _ _ _ _ _ _ _ _ _ _ _ _ _ _)
    · have hc1 : ¬cond7_1 (grid7.coords t) := fun h => h1 ((hcond7_1 t).mp h)
      rw [Dat.leavesExact_idle _ 5 t (idle7_5_of _ hc1) (noflush7_5 t h1), outs7_B V c t h0 h1 hc0 hc1]
      dsimp only
      unfold row7_B scr7_B acc7
      iintro ⟨⟨Hrest, Hg, HS⟩, Ho, ⟨%d0, H0⟩, ⟨%d1, H1⟩, ⟨%d2, H2⟩, ⟨%d3, H3⟩, ⟨%d4, H4⟩, ⟨%d5, H5⟩⟩
      iapply ((kernelRun7_B c (grid7.coords t) _ _ _ _ _ _ _ _ _ _ _ _ _ _ hc0 hc1 (iblk7 V c 0 t) (iblk7 V c 1 t) (iblk7 V c 2 t) (iblk7 V c 3 t) _).2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%e6, HS⟩⟩
      isplitl [Hrest Hg HS]
      · isplitl [Hrest]; · iexact Hrest
        isplitl [Hg]; · iexact Hg
        unfold owns; iexists _; isplitr
        swap; · iexact HS
        ipureintro; exact View.read_writes_of_cover _ _ _ _ _ (cover7_B_s c _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover7_B_4 c _ _ _ _ _ _ _ _ _ _ _ _ _ _ _ _ _ _ _ _ _ _)
      iexists d5; iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## The invariant at the region's ends -/

/-- ENTRY: the generator register and the scoped buffers no window stages make the invariant before the first point —
    the accumulator split out of them, at whatever it holds. -/
theorem hin7 (c : Dev nD) : (iprop((∃ r, prngReg c r) ∗ Pipeline.scopedRest spec7 c) : sProp 𝕄) ⊢ (dat7 V c).Φ 0 := by
  rw [show (dat7 V c).Φ 0 = Phi7 V c 0 from rfl]; unfold Phi7
  rw [show scrAt7 V c (0 : Fin (cfg7.N + 1)).val (0 : Fin (cfg7.N + 1)).isLt = iprop(∃ d, owns (c : Thread nD τ) scM7 fullShare d) from rfl,
    scopedRest7_split]
  simp only [scM7, owns_whole]
  iintro ⟨Hg, HS, Hrest⟩
  isplitl [Hrest]; · iexact Hrest
  isplitl [Hg]; · iexact Hg
  iexact HS

/-- EXIT: the invariant after the last point gives them back, the accumulator forgotten into them. -/
theorem hout7 (c : Dev nD) : (dat7 V c).Φ (Fin.last cfg7.N) ⊢ (iprop((∃ r, prngReg c r) ∗ Pipeline.scopedRest spec7 c) : sProp 𝕄) := by
  rw [show (dat7 V c).Φ (Fin.last cfg7.N) = Phi7 V c (Fin.last cfg7.N) from rfl]; unfold Phi7
  rw [scopedRest7_split]
  iintro ⟨Hrest, Hg, HS⟩
  ihave HS' := scrAt7_some V c _ _ $$ HS
  isplitl [Hg]; · iexact Hg
  isplitl [HS']
  · simp only [scM7, owns_whole]; iexact HS'
  iexact Hrest

end Region

end Cert.Kernel.Hand

end
-- ==== Proof.K.Reg8.lean ====
import proofs.«408428_j10917806867267_1_alg».proof.Proof.Gen.Kernel.Launch
import proofs.«408428_j10917806867267_1_alg».proof.Proof.Gen.Kernel.Skeleton
import proofs.«408428_j10917806867267_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The normalising launch as a pipeline region, at arbitrary entry contents

Six windows and no scratch: a tile of rows of the features, the same tile of the one-hot membership matrix, the
per-graph variances, the scale row and the shift row come in; one tile of rows goes out. The body reads the five
inputs whole and writes the output tile whole, once, so the output buffer after the body is one payload over the
five input blocks and every input buffer is left as found. Everything is stated at a parameter `V`, the buffer
contents when the region is entered, and at any float model `F`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`: what the window's index map cuts out of its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## An input's buffer holds its block at every point

For any proof data over the entry arrays whose body leaves the input's block in place: where the window is fetched
the buffer holds the fetched block; where it is not, its block index has not moved since the point before, so the
block left there is still this point's. The tiles of rows are fetched at every point, the variances and the two
rows at the first point only; the one argument covers both. -/

theorem inputHolds8_0_of {c : Dev nD} (dat : Dat τ (Elt F) Unit ℕ (Pipeline.UD sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem inputHolds8_1_of {c : Dev nD} (dat : Dat τ (Elt F) Unit ℕ (Pipeline.UD sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem inputHolds8_2_of {c : Dev nD} (dat : Dat τ (Elt F) Unit ℕ (Pipeline.UD sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem inputHolds8_3_of {c : Dev nD} (dat : Dat τ (Elt F) Unit ℕ (Pipeline.UD sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

theorem inputHolds8_4_of {c : Dev nD} (dat : Dat τ (Elt F) Unit ℕ (Pipeline.UD sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer whole -/

abbrev whole8_rows : Rect S5000x128 := Rect.unit (s := S5000x128) ![0, 0] S5000x128.size inb_S5000x128_S5000x128_0_0
abbrev whole8_square : Rect S128x128 := Rect.unit (s := S128x128) ![0, 0] S128x128.size inb_S128x128_S128x128_0_0
abbrev whole8_row : Rect S1x128 := Rect.unit (s := S1x128) ![0, 0] S1x128.size inb_S1x128_S1x128_0_0

/-! ## What the body leaves in the output buffer -/

/-- The output buffer after the body, from the five input blocks: its single store, of the payload at the inputs
    read whole. -/
def out8_5 (x0 : Vec F S5000x128 .f32) (x1 : Vec F S5000x128 .bf16) (x2 : Vec F S128x128 .f32) (x3 : Vec F S1x128 .f32) (x4 : Vec F S1x128 .f32) : Vec F S5000x128 .f32 :=
  View.canon [⟨whole8_rows, k8_pay1 (View.ld x1 whole8_rows) (View.ld x2 whole8_square) (View.ld x3 whole8_row) (View.ld x0 whole8_rows) (View.ld x4 whole8_row)⟩]

/-- The single store is the whole buffer, so it covers it. -/
theorem storeCovers8_5 (p0 : Vec F S5000x128 .f32) (y : S5000x128.Idx) :
    ∃ pc ∈ ([⟨whole8_rows, p0⟩] : List (View.Piece (Elt F) S5000x128 .f32)), y ∈ pc.1.set :=
  View.cover_of_tiled [⟨whole8_rows, p0⟩] S5000x128.size (by rfl) y

/-! ## The body's triple -/

set_option maxHeartbeats 1000000 in
/-- The body on whole buffers, the five inputs' at read contents `x0 … x4` and the output's at anything, runs to the
    continuation with the inputs' as they were and the output's at `out8_5` of them. -/
theorem kernelTriple8 (c : Dev nD) (E : Set ℕ) (i : grid8.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .bf16) (x2 : Vec F S128x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out8_5 x0 x1 x2 x3 x4)) -∗ K ⟨⟩))
      ⊢ wp frame (wpE (defs₀ (F := F)) Variants.none c none) E (cc8__normalize_kernel i arg1 harg1 arg2 harg2 arg3 harg3 arg4 harg4 arg5 harg5 arg6 harg6) K := by
  simp only [cc8__normalize_kernel_eq_skeleton]; unfold cc8__normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (storeCovers8_5 _)

/-! ## The pipeline's proof data -/

/-- The proof data on core `c`: the arrays as the region finds them; after the body at point `t` each input's
    buffer at its block and the output's at `out8_5` of the input blocks; the invariant that of a body touching
    nothing but its windows; nothing owed; full shares. -/
def dat8 (c : Dev nD) : Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

/-- Each input's current buffer holds its block at every point, fetched there or not. -/
theorem before8_0 (c : Dev nD) (t : Fin cfg8.N) (d) : (dat8 V c).before 0 t d = iblk8 V c 0 t :=
  inputHolds8_0_of V (dat8 V c) (A_eq8 V c 0) (after8_0 V c) t d
theorem before8_1 (c : Dev nD) (t : Fin cfg8.N) (d) : (dat8 V c).before 1 t d = iblk8 V c 1 t :=
  inputHolds8_1_of V (dat8 V c) (A_eq8 V c 1) (after8_1 V c) t d
theorem before8_2 (c : Dev nD) (t : Fin cfg8.N) (d) : (dat8 V c).before 2 t d = iblk8 V c 2 t :=
  inputHolds8_2_of V (dat8 V c) (A_eq8 V c 2) (after8_2 V c) t d
theorem before8_3 (c : Dev nD) (t : Fin cfg8.N) (d) : (dat8 V c).before 3 t d = iblk8 V c 3 t :=
  inputHolds8_3_of V (dat8 V c) (A_eq8 V c 3) (after8_3 V c) t d
theorem before8_4 (c : Dev nD) (t : Fin cfg8.N) (d) : (dat8 V c).before 4 t d = iblk8 V c 4 t :=
  inputHolds8_4_of V (dat8 V c) (A_eq8 V c 4) (after8_4 V c) t d

/-! ## The body obligation, at a generic point -/

/-- What the body is called with at point `t`, the windows one by one, -/
def bodyGiven8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyLeaves8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' buffers hold their blocks, so the body's triple applies; the invariant and
    what the core owes pass through unread. -/
theorem bodyTriple8 (c : Dev nD) (t : Fin cfg8.N) :
    bodyGiven8 V c t ⊢ wp frame (wpE (defs₀ (F := F)) Variants.none c none) Set.univ (bodyAt8 t) (fun _ => bodyLeaves8 V c t) := by
  unfold bodyGiven8 bodyLeaves8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (kernelTriple8 c Set.univ (grid8.coords t) _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact bodyTriple8 V c t

/-! ## The invariant at the region's two ends -/

/-- Entering: the generator register and the scoped rest make up the invariant before the first point. -/
theorem hin8 (c : Dev nD) : (iprop((∃ r, prngReg c r) ∗ Pipeline.scopedRest spec8 c) : sProp 𝕄) ⊢ (dat8 V c).Φ 0 := by
  rw [show (dat8 V c).Φ 0 = Pipeline.ΦA spec8 c from rfl]; unfold Pipeline.ΦA
  iintro ⟨Hp, Hr⟩
  isplitl [Hr]; · iexact Hr
  iexact Hp

/-- Leaving: the invariant after the last point hands both back. -/
theorem hout8 (c : Dev nD) : (dat8 V c).Φ (Fin.last cfg8.N) ⊢ (iprop((∃ r, prngReg c r) ∗ Pipeline.scopedRest spec8 c) : sProp 𝕄) := by
  rw [show (dat8 V c).Φ (Fin.last cfg8.N) = Pipeline.ΦA spec8 c from rfl]; unfold Pipeline.ΦA
  iintro ⟨Hr, Hp⟩
  isplitl [Hp]; · iexact Hp
  iexact Hr

end Cert.Kernel.Hand
-- ==== Proof.K.Reg9.lean ====
/- Region 9 of @main (custom_call 9, the GIN layer's MLP with its per-graph accumulator): the kernel body's three control
   cases as triples with named contents, the accumulator's value point by point, the pipeline's proof data over an invariant
   that names the scratch's contents, the body obligation at every point, and the invariant at the region's two ends. -/
import proofs.«408428_j10917806867267_1_alg».proof.Proof.Gen.Kernel.Launch
import proofs.«408428_j10917806867267_1_alg».proof.Proof.Gen.Kernel.Skeleton
import proofs.«408428_j10917806867267_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the long axes' extents recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's accesses and what it leaves -/

/-- The whole-buffer rectangles the body loads and stores through. -/
abbrev rA9 : Rect S5000x128 := Rect.unit (s := S5000x128) ![0, 0] S5000x128.size inb_S5000x128_S5000x128_0_0
abbrev rB9 : Rect S128x128 := Rect.unit (s := S128x128) ![0, 0] S128x128.size inb_S128x128_S128x128_0_0
abbrev rC9 : Rect S1x128 := Rect.unit (s := S1x128) ![0, 0] S1x128.size inb_S1x128_S1x128_0_0

/-- The point's MLP output, from the blocks of windows 0, 1, 3, 4, 5, 6. -/
def tval9 (x0 x1 : Vec F S5000x128 .f32) (x3 : Vec F S128x128 .f32) (x4 : Vec F S1x128 .f32) (x5 : Vec F S128x128 .f32) (x6 : Vec F S1x128 .f32) :
    FVec F S5000x128 .f32 :=
  k9_pay3 (View.ld x0 rA9) (View.ld x1 rA9) (View.ld x3 rB9) (View.ld x4 rC9) (View.ld x5 rB9) (View.ld x6 rC9)

/-- What the body leaves in window 7's staging buffer: its one store. -/
def out9_7 (x0 x1 : Vec F S5000x128 .f32) (x3 : Vec F S128x128 .f32) (x4 : Vec F S1x128 .f32) (x5 : Vec F S128x128 .f32) (x6 : Vec F S1x128 .f32) :
    Vec F S5000x128 .f32 :=
  View.canon [⟨rA9, tval9 x0 x1 x3 x4 x5 x6⟩]

/-- The accumulator zeroed. -/
def zero9 : Vec F S128x128 .f32 := View.canon [⟨rB9, k9_pay2 (F := F)⟩]

/-- The accumulator after a point that found it at `s`: `s` plus the point's term. -/
def scr9 (x0 x1 : Vec F S5000x128 .f32) (x2 : Vec F S5000x128 .bf16) (x3 : Vec F S128x128 .f32) (x4 : Vec F S1x128 .f32) (x5 : Vec F S128x128 .f32) (x6 : Vec F S1x128 .f32)
    (s : Vec F S128x128 .f32) : Vec F S128x128 .f32 :=
  View.canon [⟨rB9, k9_pay1 (tval9 x0 x1 x3 x4 x5 x6) (k9_pay4 (View.ld x2 rA9)) (View.ld s rB9)⟩]

/-- What the last point leaves in window 8's staging buffer: the accumulator copied. -/
def out9_8 (s : Vec F S128x128 .f32) : Vec F S128x128 .f32 := View.canon [⟨rB9, View.ld s rB9⟩]

/-- One whole-buffer store covers the buffer. -/
theorem coverA9 {e : EltTy} (p : rA9.shape.Idx → Elt F e) (y : S5000x128.Idx) :
    ∃ pc ∈ ([⟨rA9, p⟩] : List (View.Piece (Elt F) S5000x128 e)), y ∈ pc.1.set :=
  View.cover_of_tiled [⟨rA9, p⟩] S5000x128.size (by rfl) y
theorem coverB9 {e : EltTy} (p : rB9.shape.Idx → Elt F e) (y : S128x128.Idx) :
    ∃ pc ∈ ([⟨rB9, p⟩] : List (View.Piece (Elt F) S128x128 e)), y ∈ pc.1.set :=
  View.cover_of_tiled [⟨rB9, p⟩] S128x128.size (by rfl) y

/-- The conditions of the body's two `scf.if`s, from the grid coordinates. -/
abbrev cond9_1 (i : grid9.Coords) : Prop := (Scalar.cmpi .ne (Scalar.extui (Scalar.cmpi .eq (BitVec.ofNat 32 (i 0).val) 0#32)) 0#32) = 1#1
abbrev cond9_2 (i : grid9.Coords) : Prop := k9_cond2 i = 1#1

/-- The conditions in closed form, decided over the grid: the first holds at the first point only, the second at the
    last only; window 8 is idle off the last point and written back at it only. -/
theorem hcond9_1 : ∀ t : Fin cfg9.N, cond9_1 (grid9.coords t) ↔ t.val = 0 :=
  (by decide +kernel : ∀ t : Fin grid9.N, cond9_1 (grid9.coords t) ↔ t.val = 0)
theorem hcond9_2 : ∀ t : Fin cfg9.N, cond9_2 (grid9.coords t) ↔ t.val + 1 = cfg9.N :=
  (by decide +kernel : ∀ t : Fin grid9.N, cond9_2 (grid9.coords t) ↔ t.val + 1 = grid9.N)
theorem hidle9_8 : ∀ t : Fin cfg9.N, cfg9.idle 8 (cfg9.grid.coords t) = !decide (t.val + 1 = cfg9.N) :=
  (by decide +kernel : ∀ t : Fin grid9.N, idle9 8 (grid9.coords t) = !decide (t.val + 1 = grid9.N))
theorem hflush9_8 : ∀ t : Fin cfg9.N, (cfg9.win 8).flush t = decide (t.val + 1 = cfg9.N) :=
  (by decide +kernel : ∀ t : Fin grid9.N, win9_8.flush t = decide (t.val + 1 = grid9.N))
theorem one_lt_N9 : 1 < cfg9.N := by decide

/-- A whole-buffer store hides every earlier one. -/
theorem canon_headB9 {e : EltTy} (p : rB9.shape.Idx → Elt F e) (L : List (View.Piece (Elt F) S128x128 e)) :
    View.canon (⟨rB9, p⟩ :: L) = View.canon [⟨rB9, p⟩] := by
  funext y
  obtain ⟨pc, hm, hy⟩ := coverB9 (F := F) p y
  rw [List.mem_singleton] at hm; subst hm
  obtain ⟨x, rfl⟩ := rB9.exists_idx_of_mem hy
  exact (View.canon_cons_emb rB9 p L x).trans (View.canon_cons_emb rB9 p [] x).symm

theorem coverB9_cons {e : EltTy} (p : rB9.shape.Idx → Elt F e) (L : List (View.Piece (Elt F) S128x128 e)) (y : S128x128.Idx) :
    ∃ pc ∈ (⟨rB9, p⟩ :: L), y ∈ pc.1.set := by
  obtain ⟨pc, hm, hy⟩ := coverB9 (F := F) p y
  exact ⟨pc, List.mem_cons.mpr (Or.inl (List.mem_singleton.mp hm)), hy⟩

/-- So a buffer whose last store was whole reads that store's payload. -/
theorem read_writes_headB9 {κ : Kind} {sp : Space} {e : EltTy} (v : View sig κ sp S128x128 e) (f : v.ty.Contents (Elt F))
    (p : rB9.shape.Idx → Elt F e) (L : List (View.Piece (Elt F) S128x128 e)) :
    v.read (Elt F) (v.writes (Elt F) f (⟨rB9, p⟩ :: L)) = View.canon [⟨rB9, p⟩] :=
  (View.read_writes_eq_canon v f _ (coverB9_cons p L)).trans (canon_headB9 p L)

/-! ## The kernel body on any whole staging memrefs, case by case -/

set_option maxHeartbeats 4000000 in
/-- The first point: the accumulator is zeroed first; the second `scf.if` is not taken. -/
theorem run9_A (c : Dev nD) (E : Set ℕ) (i : grid9.Coords) (arg1 : Memref sig .tc .vmem S5000x128 .f32) (harg1 : arg1.IsWhole) (arg2 : Memref sig .tc .vmem S5000x128 .f32) (harg2 : arg2.IsWhole) (arg3 : Memref sig .tc .vmem S5000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S128x128 .f32) (harg9 : arg9.IsWhole) (arg10 : Memref sig .tc .vmem S128x128 .f32) (harg10 : arg10.IsWhole)
    (hc1 : cond9_1 i) (hc2 : ¬cond9_2 i)
    (x0 x1 : Vec F S5000x128 .f32) (x2 : Vec F S5000x128 .bf16) (x3 : Vec F S128x128 .f32) (x4 : Vec F S1x128 .f32) (x5 : Vec F S128x128 .f32) (x6 : Vec F S1x128 .f32) (x8 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out9_7 x0 x1 x3 x4 x5 x6)
            ∗ owns (c : Thread nD τ) arg9 fullShare x8
            ∗ owns (c : Thread nD τ) arg10 fullShare (scr9 x0 x1 x2 x3 x4 x5 x6 (zero9 (F := F)))) -∗ K ⟨⟩))
      ⊢ wp frame (wpE (defs₀ (F := F)) Variants.none c none) E (cc9__gin_mlp_kernel i arg1 harg1 arg2 harg2 arg3 harg3 arg4 harg4 arg5 harg5 arg6 harg6 arg7 harg7 arg8 harg8 arg9 harg9 arg10 harg10) K := by
  simp only [cc9__gin_mlp_kernel_eq_skeleton]; unfold cc9__gin_mlp_kernel_skel
  simp only [k9_part1_eq_skeleton]; unfold k9_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds, %fs, -, HS⟩, Hk⟩
  subst hf0 hf1 hf2 hf3 hf4 hf5 hf6 hf8
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr
    swap; · iexact H7
    ipureintro; exact View.read_writes_eq_canon _ _ _ (coverA9 _)
  isplitl [H8]
  · iexists _; isplitr; · ipureintro; rfl
    iexact H8
  iexists _; isplitr
  swap; · iexact HS
  ipureintro
  refine (read_writes_headB9 _ _ _ _).trans ?_
  unfold scr9
  refine congrArg (fun p => View.canon [(⟨rB9, p⟩ : View.Piece (Elt F) S128x128 .f32)]) ?_
  refine congrArg (k9_pay1 _ _) ?_
  unfold zero9
  try dsimp only
  exact View.readCov_eq_canon_ld _ _ _ (coverB9 (F := F) _)

set_option maxHeartbeats 4000000 in
/-- A middle point: neither `scf.if` taken. -/
theorem run9_B (c : Dev nD) (E : Set ℕ) (i : grid9.Coords) (arg1 : Memref sig .tc .vmem S5000x128 .f32) (harg1 : arg1.IsWhole) (arg2 : Memref sig .tc .vmem S5000x128 .f32) (harg2 : arg2.IsWhole) (arg3 : Memref sig .tc .vmem S5000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S128x128 .f32) (harg9 : arg9.IsWhole) (arg10 : Memref sig .tc .vmem S128x128 .f32) (harg10 : arg10.IsWhole)
    (hc1 : ¬cond9_1 i) (hc2 : ¬cond9_2 i)
    (x0 x1 : Vec F S5000x128 .f32) (x2 : Vec F S5000x128 .bf16) (x3 : Vec F S128x128 .f32) (x4 : Vec F S1x128 .f32) (x5 : Vec F S128x128 .f32) (x6 : Vec F S1x128 .f32) (x8 s : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ owns (c : Thread nD τ) arg9 fullShare x8
        ∗ owns (c : Thread nD τ) arg10 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out9_7 x0 x1 x3 x4 x5 x6)
            ∗ owns (c : Thread nD τ) arg9 fullShare x8
            ∗ owns (c : Thread nD τ) arg10 fullShare (scr9 x0 x1 x2 x3 x4 x5 x6 s)) -∗ K ⟨⟩))
      ⊢ wp frame (wpE (defs₀ (F := F)) Variants.none c none) E (cc9__gin_mlp_kernel i arg1 harg1 arg2 harg2 arg3 harg3 arg4 harg4 arg5 harg5 arg6 harg6 arg7 harg7 arg8 harg8 arg9 harg9 arg10 harg10) K := by
  simp only [cc9__gin_mlp_kernel_eq_skeleton]; unfold cc9__gin_mlp_kernel_skel
  simp only [k9_part1_eq_skeleton]; unfold k9_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs, %hfs, HS⟩, Hk⟩
  subst hf0 hf1 hf2 hf3 hf4 hf5 hf6 hf8 hfs
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr
    swap; · iexact H7
    ipureintro; exact View.read_writes_eq_canon _ _ _ (coverA9 _)
  isplitl [H8]
  · iexists _; isplitr; · ipureintro; rfl
    iexact H8
  iexists _; isplitr
  swap; · iexact HS
  ipureintro; exact View.read_writes_eq_canon _ _ _ (coverB9 _)

set_option maxHeartbeats 4000000 in
/-- The last point: the accumulator is not zeroed; it is copied into window 8 at the end. -/
theorem run9_C (c : Dev nD) (E : Set ℕ) (i : grid9.Coords) (arg1 : Memref sig .tc .vmem S5000x128 .f32) (harg1 : arg1.IsWhole) (arg2 : Memref sig .tc .vmem S5000x128 .f32) (harg2 : arg2.IsWhole) (arg3 : Memref sig .tc .vmem S5000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S128x128 .f32) (harg9 : arg9.IsWhole) (arg10 : Memref sig .tc .vmem S128x128 .f32) (harg10 : arg10.IsWhole)
    (hc1 : ¬cond9_1 i) (hc2 : cond9_2 i)
    (x0 x1 : Vec F S5000x128 .f32) (x2 : Vec F S5000x128 .bf16) (x3 : Vec F S128x128 .f32) (x4 : Vec F S1x128 .f32) (x5 : Vec F S128x128 .f32) (x6 : Vec F S1x128 .f32) (s : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ owns (c : Thread nD τ) arg10 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out9_7 x0 x1 x3 x4 x5 x6)
            ∗ owns (c : Thread nD τ) arg9 fullShare (out9_8 (scr9 x0 x1 x2 x3 x4 x5 x6 s))
            ∗ owns (c : Thread nD τ) arg10 fullShare (scr9 x0 x1 x2 x3 x4 x5 x6 s)) -∗ K ⟨⟩))
      ⊢ wp frame (wpE (defs₀ (F := F)) Variants.none c none) E (cc9__gin_mlp_kernel i arg1 harg1 arg2 harg2 arg3 harg3 arg4 harg4 arg5 harg5 arg6 harg6 arg7 harg7 arg8 harg8 arg9 harg9 arg10 harg10) K := by
  simp only [cc9__gin_mlp_kernel_eq_skeleton]; unfold cc9__gin_mlp_kernel_skel
  simp only [k9_part1_eq_skeleton]; unfold k9_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS⟩, Hk⟩
  subst hf0 hf1 hf2 hf3 hf4 hf5 hf6 hfs
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr
    swap; · iexact H7
    ipureintro; exact View.read_writes_eq_canon _ _ _ (coverA9 _)
  isplitl [H8]
  · iexists _; isplitr
    swap; · iexact H8
    ipureintro
    refine (read_writes_headB9 _ _ _ _).trans ?_
    unfold out9_8
    refine congrArg (fun p => View.canon [(⟨rB9, p⟩ : View.Piece (Elt F) S128x128 .f32)]) ?_
    unfold scr9
    exact View.readCov_eq_canon_ld _ _ _ (coverB9 (F := F) _)
  iexists _; isplitr
  swap; · iexact HS
  ipureintro; exact View.read_writes_eq_canon _ _ _ (coverB9 _)

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, fetched there or not, for any proof
    data whose array is `V`'s and whose body leaves the block in place: unfetched, the block index has not moved. -/
theorem before9_0_of {c : Dev nD} (dat : Dat τ (Elt F) Unit ℕ (Pipeline.UD sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (Pipeline.UD sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (Pipeline.UD sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
theorem before9_3_of {c : Dev nD} (dat : Dat τ (Elt F) Unit ℕ (Pipeline.UD sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
theorem before9_4_of {c : Dev nD} (dat : Dat τ (Elt F) Unit ℕ (Pipeline.UD sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)
theorem before9_5_of {c : Dev nD} (dat : Dat τ (Elt F) Unit ℕ (Pipeline.UD sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)
theorem before9_6_of {c : Dev nD} (dat : Dat τ (Elt F) Unit ℕ (Pipeline.UD sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)

/-! ## The accumulator, point by point -/

/-- The scratch operand: a whole scoped buffer of the kernel's own, passed beside the windows. -/
abbrev scM9_0 : Memref sig .tc .vmem S128x128 .f32 := Memref.whole cc9_scratch0

/-- Point number `n` of the grid (wrapped past the last). -/
def pt9 (n : ℕ) : Fin cfg9.N := ⟨n % cfg9.N, Nat.mod_lt _ (Nat.lt_trans Nat.zero_lt_one one_lt_N9)⟩
theorem pt9_val (t : Fin cfg9.N) : pt9 t.val = t := Fin.ext (Nat.mod_eq_of_lt t.isLt)

/-- The accumulator after point `t`, if the point found it at `s`. -/
def stepAt9 (c : Dev nD) (t : Fin cfg9.N) (s : Vec F S128x128 .f32) : Vec F S128x128 .f32 :=
  scr9 (iblk9 V c 0 t) (iblk9 V c 1 t) (iblk9 V c 2 t) (iblk9 V c 3 t) (iblk9 V c 4 t) (iblk9 V c 5 t) (iblk9 V c 6 t) s

/-- The accumulator after point `n`: zeroed at the first point, each point's term added. -/
def acc9 (c : Dev nD) : ℕ → Vec F S128x128 .f32
  | 0 => stepAt9 V c (pt9 0) (zero9 (F := F))
  | n + 1 => stepAt9 V c (pt9 (n + 1)) (acc9 c n)

theorem acc9_first (c : Dev nD) (t : Fin cfg9.N) (h : t.val = 0) : acc9 V c t.val = stepAt9 V c t (zero9 (F := F)) := by
  rw [h]; show stepAt9 V c (pt9 0) _ = _; rw [← h, pt9_val]
theorem acc9_next (c : Dev nD) (t : Fin cfg9.N) (n : ℕ) (h : t.val = n + 1) : acc9 V c t.val = stepAt9 V c t (acc9 V c n) := by
  rw [h]; show stepAt9 V c (pt9 (n + 1)) _ = _; rw [← h, pt9_val]

/-- The scratch before point `k`: at some contents before the first, then at the accumulated value. -/
def scrAt9 (c : Dev nD) : ℕ → sProp 𝕄
  | 0 => iprop(∃ d, owns (c : Thread nD τ) scM9_0 fullShare d)
  | n + 1 => owns (c : Thread nD τ) scM9_0 fullShare (acc9 V c n)

/-- The scratch whole at some contents, as its points-to. -/
theorem scr_whole9 (c : Dev nD) :
    (iprop(∃ d, owns (c : Thread nD τ) scM9_0 fullShare d) : sProp 𝕄)
      = iprop(∃ f : Buf (Elt F) ((c : Thread nD τ).loc cc9_scratch0), ((c : Thread nD τ).loc cc9_scratch0) ↦{fullShare} f) := by
  simp only [scM9_0, owns_whole]; try rfl

theorem scrAt9_some (c : Dev nD) (k : ℕ) :
    scrAt9 V c k ⊢ (iprop(∃ f : Buf (Elt F) ((c : Thread nD τ).loc cc9_scratch0), ((c : Thread nD τ).loc cc9_scratch0) ↦{fullShare} f) : sProp 𝕄) := by
  rw [← scr_whole9]
  cases k with
  | zero => unfold scrAt9; iintro H; iexact H
  | succ n => unfold scrAt9; iintro H; iexists _; iexact H

/-- The invariant before point `k`: every other scoped buffer that is no staging buffer at some contents, the generator
    register at some state, the scratch as `scrAt9` says. -/
def Φ9 (c : Dev nD) (k : Fin (cfg9.N + 1)) : sProp 𝕄 :=
  iprop(Pipeline.scopedRestBut (Ix := Unit) (Name := ℕ) (U := Pipeline.UD sig nD τ) (Lvl := ℕ) (Val := Elt F) spec9 c [cc9_scratch0]
    ∗ (∃ r, prngReg c r) ∗ scrAt9 V c k.val)

/-! ## The pipeline's proof data -/

def dat9 (c : Dev nD) : Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => out9_7 (iblk9 V c 0 t) (iblk9 V c 1 t) (iblk9 V c 3 t) (iblk9 V c 4 t) (iblk9 V c 5 t) (iblk9 V c 6 t)
    | ⟨8, _⟩ => out9_8 (acc9 V c t.val)
  Φ := Φ9 V c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = out9_7 (iblk9 V c 0 t) (iblk9 V c 1 t) (iblk9 V c 3 t) (iblk9 V c 4 t) (iblk9 V c 5 t) (iblk9 V c 6 t) := by dsimp only [dat9]
theorem after9_8 (c : Dev nD) (t : Fin cfg9.N) : (dat9 V c).after 8 t = out9_8 (acc9 V c t.val) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d

theorem Φ9_castSucc (c : Dev nD) (t : Fin cfg9.N) : (dat9 V c).Φ t.castSucc
    = iprop(Pipeline.scopedRestBut (Ix := Unit) (Name := ℕ) (U := Pipeline.UD sig nD τ) (Lvl := ℕ) (Val := Elt F) spec9 c [cc9_scratch0]
        ∗ (∃ r, prngReg c r) ∗ scrAt9 V c t.val) := rfl
theorem Φ9_succ (c : Dev nD) (t : Fin cfg9.N) : (dat9 V c).Φ t.succ
    = iprop(Pipeline.scopedRestBut (Ix := Unit) (Name := ℕ) (U := Pipeline.UD sig nD τ) (Lvl := ℕ) (Val := Elt F) spec9 c [cc9_scratch0]
        ∗ (∃ r, prngReg c r) ∗ owns (c : Thread nD τ) scM9_0 fullShare (acc9 V c t.val)) := rfl

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d))
    ∗ (∃ d, owns (c : Thread nD τ) (st9_8 t) fullShare ((dat9 V c).before 8 t d)))

/-- and what it returns: window 8's buffer as found off the last point, at the accumulator's copy at it. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t)
    ∗ (dat9 V c).leavesExact 8 t)

theorem scrAt9_first (c : Dev nD) (t : Fin cfg9.N) (h : t.val = 0) :
    scrAt9 V c t.val = iprop(∃ d, owns (c : Thread nD τ) scM9_0 fullShare d) := by rw [h]; rfl
theorem scrAt9_next (c : Dev nD) (t : Fin cfg9.N) (n : ℕ) (h : t.val = n + 1) :
    scrAt9 V c t.val = owns (c : Thread nD τ) scM9_0 fullShare (acc9 V c n) := by rw [h]; rfl

theorem leaves9_8_idle (c : Dev nD) (t : Fin cfg9.N) (h : ¬t.val + 1 = cfg9.N) :
    (dat9 V c).leavesExact 8 t = iprop(∃ d, owns (c : Thread nD τ) (st9_8 t) fullShare ((dat9 V c).before 8 t d)) :=
  Dat.leavesExact_idle _ 8 t (by rw [hidle9_8, decide_eq_false h]; rfl) (by rw [hflush9_8, decide_eq_false h])
theorem leaves9_8_last (c : Dev nD) (t : Fin cfg9.N) (h : t.val + 1 = cfg9.N) :
    (dat9 V c).leavesExact 8 t = owns (c : Thread nD τ) (st9_8 t) fullShare ((dat9 V c).after 8 t) := by
  unfold Dat.leavesExact; rw [hidle9_8, decide_eq_true h]; rfl

/-- The body at any point, by its three control cases: the inputs' memrefs hold their blocks; the invariant hands the
    body its scratch — at anything before the first point, at the accumulated value later — and takes it back one point on. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6]
  rw [show (dat9 V c).owesAt () t.succ = (dat9 V c).owesAt () t.castSucc from rfl,
    after9_0, after9_1, after9_2, after9_3, after9_4, after9_5, after9_6, after9_7, Φ9_castSucc, Φ9_succ]
  by_cases hA : t.val = 0
  · have h1 : cond9_1 (grid9.coords t) := (hcond9_1 t).mpr hA
    have hL : ¬t.val + 1 = cfg9.N := fun h => by have := one_lt_N9; omega
    have h2 : ¬cond9_2 (grid9.coords t) := fun h => hL ((hcond9_2 t).mp h)
    rw [scrAt9_first V c t hA, acc9_first V c t hA, leaves9_8_idle V c t hL]; unfold stepAt9
    iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run9_A c Set.univ (grid9.coords t) _ _ _ _ _ _ _ _ _ _ _ _ _ _ _ _ _ _ _ _ h1 h2 (iblk9 V c 0 t) (iblk9 V c 1 t) (iblk9 V c 2 t) (iblk9 V c 3 t) (iblk9 V c 4 t) (iblk9 V c 5 t) (iblk9 V c 6 t) ((dat9 V c).before 8 t d8) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS]; · iexact HS
    iintro ⟨H0, H1, H2, H3, H4, H5, H6, H7, H8, HS⟩
    isplitl [HR Hg HS]
    · isplitl [HR]; · iexact HR
      isplitl [Hg]; · iexact Hg
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists d8; iexact H8
  obtain ⟨n, hn⟩ := Nat.exists_eq_add_one_of_ne_zero hA
  have h1 : ¬cond9_1 (grid9.coords t) := fun h => hA ((hcond9_1 t).mp h)
  rw [scrAt9_next V c t n hn, acc9_next V c t n hn]; unfold stepAt9
  by_cases hL : t.val + 1 = cfg9.N
  · have h2 : cond9_2 (grid9.coords t) := (hcond9_2 t).mpr hL
    rw [leaves9_8_last V c t hL, after9_8, acc9_next V c t n hn]; unfold stepAt9
    iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run9_C c Set.univ (grid9.coords t) _ _ _ _ _ _ _ _ _ _ _ _ _ _ _ _ _ _ _ _ h1 h2 (iblk9 V c 0 t) (iblk9 V c 1 t) (iblk9 V c 2 t) (iblk9 V c 3 t) (iblk9 V c 4 t) (iblk9 V c 5 t) (iblk9 V c 6 t) (acc9 V c n) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, H7, H8, HS⟩
    isplitl [HR Hg HS]
    · isplitl [HR]; · iexact HR
      isplitl [Hg]; · iexact Hg
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  have h2 : ¬cond9_2 (grid9.coords t) := fun h => hL ((hcond9_2 t).mp h)
  rw [leaves9_8_idle V c t hL]
  iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run9_B c Set.univ (grid9.coords t) _ _ _ _ _ _ _ _ _ _ _ _ _ _ _ _ _ _ _ _ h1 h2 (iblk9 V c 0 t) (iblk9 V c 1 t) (iblk9 V c 2 t) (iblk9 V c 3 t) (iblk9 V c 4 t) (iblk9 V c 5 t) (iblk9 V c 6 t) ((dat9 V c).before 8 t d8) (acc9 V c n) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [HS]; · iexact HS
  iintro ⟨H0, H1, H2, H3, H4, H5, H6, H7, H8, HS⟩
  isplitl [HR Hg HS]
  · isplitl [HR]; · iexact HR
    isplitl [Hg]; · iexact Hg
    iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

/-- The library's body obligation, at every point. -/
theorem body_obligation9 (c : Dev nD) : BodyObligation (dat9 (F := F) V c) (defs₀ (F := F)) Variants.none () Set.univ := fun t => by
  rw [bigSep_W9, bigSep_W9]
  exact sound_body9 V c t

/-! ## The invariant at the region's ends -/

/-- Entering: the scratch is split off the scoped rest, at whatever it holds. -/
theorem hin9 (c : Dev nD) : (iprop((∃ r, prngReg c r) ∗ Pipeline.scopedRest spec9 c) : sProp 𝕄) ⊢ (dat9 V c).Φ 0 := by
  rw [show (dat9 V c).Φ 0 = Φ9 V c 0 from rfl, scopedRest9_split]; unfold Φ9
  rw [show scrAt9 V c ((0 : Fin (cfg9.N + 1)) : ℕ) = iprop(∃ d, owns (c : Thread nD τ) scM9_0 fullShare d) from rfl, scr_whole9]
  iintro ⟨Hp, Hs, Hr⟩
  isplitl [Hr]; · iexact Hr
  isplitl [Hp]; · iexact Hp
  iexact Hs

/-- Leaving: the scratch, at the accumulated value, goes back into the scoped rest. -/
theorem hout9 (c : Dev nD) : (dat9 V c).Φ (Fin.last cfg9.N) ⊢ (iprop((∃ r, prngReg c r) ∗ Pipeline.scopedRest spec9 c) : sProp 𝕄) := by
  rw [show (dat9 V c).Φ (Fin.last cfg9.N) = Φ9 V c (Fin.last cfg9.N) from rfl, scopedRest9_split]; unfold Φ9
  iintro ⟨Hr, Hp, Hs⟩
  isplitl [Hp]; · iexact Hp
  isplitl [Hs]; swap; · iexact Hr
  iapply (scrAt9_some V c _); iexact Hs

end Regions

end Cert.Kernel.Hand

end
-- ==== Proof.K.Reg10.lean ====
import proofs.«408428_j10917806867267_1_alg».proof.Proof.Gen.Kernel.Launch
import proofs.«408428_j10917806867267_1_alg».proof.Proof.Gen.Kernel.Skeleton
import proofs.«408428_j10917806867267_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's two branch conditions, decided over the grid -/

/-- The first `scf.if`'s condition (the point's coordinate is 0), as the skeleton's scalar chain computes it. -/
abbrev cond10_0 (i : grid10.Coords) : Prop :=
  (Scalar.cmpi .ne (Scalar.extui (Scalar.cmpi .eq (BitVec.ofNat 32 (i 0).val) 0#32)) 0#32) = 1#1
/-- The second `scf.if`'s condition (the point's coordinate is the last). -/
abbrev cond10_1 (i : grid10.Coords) : Prop := k10_cond2 i = 1#1

/-- The first condition holds at the first point only. -/
theorem hcond10_0 : ∀ t : Fin cfg10.N, cond10_0 (grid10.coords t) ↔ t.val = 0 :=
  (by decide +kernel : ∀ t : Fin grid10.N, cond10_0 (grid10.coords t) ↔ t.val = 0)
/-- The second holds at the last point only. -/
theorem hcond10_1 : ∀ t : Fin cfg10.N, cond10_1 (grid10.coords t) ↔ t.val + 1 = cfg10.N :=
  (by decide +kernel : ∀ t : Fin grid10.N, cond10_1 (grid10.coords t) ↔ t.val + 1 = grid10.N)

/-! ## The body on any whole memrefs, case by case: pieces the run finds

The body never touches the matrix output's memref where its second branch is not taken, so the first two cases are
stated without it (it is framed around them). -/

set_option maxHeartbeats 4000000 in
/-- THE FIRST POINT (first branch taken: the accumulator is zeroed before it is read; second not). On whole memrefs —
    the four inputs at their contents, the row output and the accumulator at anything — the body runs to the
    continuation holding the inputs as they were and the row output and the accumulator with their pieces written;
    the pieces are the witness the run finds. -/
noncomputable def kernelRun10_A (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond10_0 i) (hc1 : ¬cond10_1 i)
    (x0 : Vec F S5000x128 .f32) (x1 : Vec F S5000x128 .bf16) (x2 : Vec F S128x128 .f32) (x3 : Vec F S1x128 .f32) :
    { L : List (View.Piece (Elt F) S5000x128 .f32) × List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc10__center_varsum_kernel i arg1 harg1 arg2 harg2 arg3 harg3 arg4 harg4 arg5 harg5 arg6 harg6 arg7 harg7) K } := by
  refine ⟨(?_, ?_), fun E K => ?run⟩
  case run =>
    simp only [cc10__center_varsum_kernel_eq_skeleton]; unfold cc10__center_varsum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d6, %f6, -, H6⟩, Hk⟩
    obtain rfl := harg1.eq_unread hf0; obtain rfl := harg2.eq_unread hf1; obtain rfl := harg3.eq_unread hf2; obtain rfl := harg4.eq_unread hf3

    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H6

set_option maxHeartbeats 4000000 in
/-- THE MIDDLE POINTS (neither branch taken): as the first point's, the accumulator coming at `s`. -/
noncomputable def kernelRun10_B (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond10_0 i) (hc1 : ¬cond10_1 i)
    (x0 : Vec F S5000x128 .f32) (x1 : Vec F S5000x128 .bf16) (x2 : Vec F S128x128 .f32) (x3 : Vec F S1x128 .f32) (s : Vec F S128x128 .f32) :
    { L : List (View.Piece (Elt F) S5000x128 .f32) × List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg7 fullShare s
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc10__center_varsum_kernel i arg1 harg1 arg2 harg2 arg3 harg3 arg4 harg4 arg5 harg5 arg6 harg6 arg7 harg7) K } := by
  refine ⟨(?_, ?_), fun E K => ?run⟩
  case run =>
    simp only [cc10__center_varsum_kernel_eq_skeleton]; unfold cc10__center_varsum_kernel_skel
    unfold owns
    iintro ⟨⟨%f0, %hf0, H0⟩, ⟨%f1, %hf1, H1⟩, ⟨%f2, %hf2, H2⟩, ⟨%f3, %hf3, H3⟩, ⟨%d4, %f4, -, H4⟩, ⟨%f6, %hf6, H6⟩, Hk⟩
    obtain rfl := harg1.eq_unread hf0; obtain rfl := harg2.eq_unread hf1; obtain rfl := harg3.eq_unread hf2; obtain rfl := harg4.eq_unread hf3
    obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H6

set_option maxHeartbeats 4000000 in
/-- THE LAST POINT (second branch taken: the accumulator is copied into the matrix output at the end). The matrix
    output comes at anything and leaves with its pieces written. -/
noncomputable def kernelRun10_C (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond10_0 i) (hc1 : cond10_1 i)
    (x0 : Vec F S5000x128 .f32) (x1 : Vec F S5000x128 .bf16) (x2 : Vec F S128x128 .f32) (x3 : Vec F S1x128 .f32) (s : Vec F S128x128 .f32) :
    { L : List (View.Piece (Elt F) S5000x128 .f32) × List (View.Piece (Elt F) S128x128 .f32) × List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ owns (c : Thread nD τ) arg7 fullShare s
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2.1)
                ∗ (∃ f, arg7.view.loc (c : Thread nD τ) ↦[arg7.view.set]{fullShare} arg7.view.writes (Elt F) f L.2.2)) -∗ K ⟨⟩))
          ⊢ wp frame (wpE (defs₀ (F := F)) Variants.none c none) E (cc10__center_varsum_kernel i arg1 harg1 arg2 harg2 arg3 harg3 arg4 harg4 arg5 harg5 arg6 harg6 arg7 harg7) K } := by
  refine ⟨(?_, ?_, ?_), fun E K => ?run⟩
  case run =>
    simp only [cc10__center_varsum_kernel_eq_skeleton]; unfold cc10__center_varsum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
    obtain rfl := harg1.eq_unread hf0; obtain rfl := harg2.eq_unread hf1; obtain rfl := harg3.eq_unread hf2; obtain rfl := harg4.eq_unread hf3
    obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-! ## The memrefs the pipeline passes the body, and views to state contents through -/

/-- One whole buffer of each written shape, through which written contents are stated (the choice does not matter:
    pieces that cover a whole view read back the same over anything). -/
abbrev VO10_4 : View sig .tc .vmem S5000x128 .f32 := (Memref.whole cc10_stg4_0 : Memref sig .tc .vmem S5000x128 .f32).view
abbrev VO10_5 : View sig .tc .vmem S128x128 .f32 := (Memref.whole cc10_stg5_0 : Memref sig .tc .vmem S128x128 .f32).view
abbrev VS10 : View sig .tc .vmem S128x128 .f32 := (Memref.whole cc10_scratch0 : Memref sig .tc .vmem S128x128 .f32).view
/-- Each window's current staging memref at point `t`, and its wholeness. -/
abbrev ms10_0 (t : Fin cfg10.N) : Memref sig .tc .vmem S5000x128 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S5000x128 .bf16 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S128x128 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S1x128 .f32 := win10_3.stage (cfg10.slots t 3)
abbrev hs10_3 (t : Fin cfg10.N) : (ms10_3 t).IsWhole := hstage10_3 ((cfg10.slots t 3).cast nbuf10_3)
abbrev ms10_4 (t : Fin cfg10.N) : Memref sig .tc .vmem S5000x128 .f32 := win10_4.stage (cfg10.slots t 4)
abbrev hs10_4 (t : Fin cfg10.N) : (ms10_4 t).IsWhole := hstage10_4 ((cfg10.slots t 4).cast nbuf10_4)
abbrev ms10_5 (t : Fin cfg10.N) : Memref sig .tc .vmem S128x128 .f32 := win10_5.stage (cfg10.slots t 5)
abbrev hs10_5 (t : Fin cfg10.N) : (ms10_5 t).IsWhole := hstage10_5 ((cfg10.slots t 5).cast nbuf10_5)
/-- The accumulator: the kernel's own whole scoped buffer, passed beside the windows. -/
abbrev scM10 : Memref sig .tc .vmem S128x128 .f32 := Memref.whole cc10_scratch0

/-! ## Each case's pieces tile what they are written to, and what they leave -/

theorem cover10_A_4 (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond10_0 i) (hc1 : ¬cond10_1 i) (x0 : Vec F S5000x128 .f32) (x1 : Vec F S5000x128 .bf16) (x2 : Vec F S128x128 .f32) (x3 : Vec F S1x128 .f32) (y : S5000x128.Idx) :
    ∃ pc ∈ (kernelRun10_A c i arg1 harg1 arg2 harg2 arg3 harg3 arg4 harg4 arg5 harg5 arg6 harg6 arg7 harg7 hc0 hc1 x0 x1 x2 x3).1.1, y ∈ pc.1.set :=
  View.cover_of_tiledL (kernelRun10_A c i arg1 harg1 arg2 harg2 arg3 harg3 arg4 harg4 arg5 harg5 arg6 harg6 arg7 harg7 hc0 hc1 x0 x1 x2 x3).1.1 S5000x128.size (by sl_kernel_rfl) y

theorem cover10_A_s (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond10_0 i) (hc1 : ¬cond10_1 i) (x0 : Vec F S5000x128 .f32) (x1 : Vec F S5000x128 .bf16) (x2 : Vec F S128x128 .f32) (x3 : Vec F S1x128 .f32) (y : S128x128.Idx) :
    ∃ pc ∈ (kernelRun10_A c i arg1 harg1 arg2 harg2 arg3 harg3 arg4 harg4 arg5 harg5 arg6 harg6 arg7 harg7 hc0 hc1 x0 x1 x2 x3).1.2, y ∈ pc.1.set :=
  View.cover_of_tiledL (kernelRun10_A c i arg1 harg1 arg2 harg2 arg3 harg3 arg4 harg4 arg5 harg5 arg6 harg6 arg7 harg7 hc0 hc1 x0 x1 x2 x3).1.2 S128x128.size (by sl_kernel_rfl) y

theorem cover10_B_4 (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond10_0 i) (hc1 : ¬cond10_1 i) (x0 : Vec F S5000x128 .f32) (x1 : Vec F S5000x128 .bf16) (x2 : Vec F S128x128 .f32) (x3 : Vec F S1x128 .f32) (s : Vec F S128x128 .f32) (y : S5000x128.Idx) :
    ∃ pc ∈ (kernelRun10_B c i arg1 harg1 arg2 harg2 arg3 harg3 arg4 harg4 arg5 harg5 arg6 harg6 arg7 harg7 hc0 hc1 x0 x1 x2 x3 s).1.1, y ∈ pc.1.set :=
  View.cover_of_tiledL (kernelRun10_B c i arg1 harg1 arg2 harg2 arg3 harg3 arg4 harg4 arg5 harg5 arg6 harg6 arg7 harg7 hc0 hc1 x0 x1 x2 x3 s).1.1 S5000x128.size (by sl_kernel_rfl) y

theorem cover10_B_s (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond10_0 i) (hc1 : ¬cond10_1 i) (x0 : Vec F S5000x128 .f32) (x1 : Vec F S5000x128 .bf16) (x2 : Vec F S128x128 .f32) (x3 : Vec F S1x128 .f32) (s : Vec F S128x128 .f32) (y : S128x128.Idx) :
    ∃ pc ∈ (kernelRun10_B c i arg1 harg1 arg2 harg2 arg3 harg3 arg4 harg4 arg5 harg5 arg6 harg6 arg7 harg7 hc0 hc1 x0 x1 x2 x3 s).1.2, y ∈ pc.1.set :=
  View.cover_of_tiledL (kernelRun10_B c i arg1 harg1 arg2 harg2 arg3 harg3 arg4 harg4 arg5 harg5 arg6 harg6 arg7 harg7 hc0 hc1 x0 x1 x2 x3 s).1.2 S128x128.size (by sl_kernel_rfl) y

theorem cover10_C_4 (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond10_0 i) (hc1 : cond10_1 i) (x0 : Vec F S5000x128 .f32) (x1 : Vec F S5000x128 .bf16) (x2 : Vec F S128x128 .f32) (x3 : Vec F S1x128 .f32) (s : Vec F S128x128 .f32) (y : S5000x128.Idx) :
    ∃ pc ∈ (kernelRun10_C c i arg1 harg1 arg2 harg2 arg3 harg3 arg4 harg4 arg5 harg5 arg6 harg6 arg7 harg7 hc0 hc1 x0 x1 x2 x3 s).1.1, y ∈ pc.1.set :=
  View.cover_of_tiledL (kernelRun10_C c i arg1 harg1 arg2 harg2 arg3 harg3 arg4 harg4 arg5 harg5 arg6 harg6 arg7 harg7 hc0 hc1 x0 x1 x2 x3 s).1.1 S5000x128.size (by sl_kernel_rfl) y

theorem cover10_C_5 (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond10_0 i) (hc1 : cond10_1 i) (x0 : Vec F S5000x128 .f32) (x1 : Vec F S5000x128 .bf16) (x2 : Vec F S128x128 .f32) (x3 : Vec F S1x128 .f32) (s : Vec F S128x128 .f32) (y : S128x128.Idx) :
    ∃ pc ∈ (kernelRun10_C c i arg1 harg1 arg2 harg2 arg3 harg3 arg4 harg4 arg5 harg5 arg6 harg6 arg7 harg7 hc0 hc1 x0 x1 x2 x3 s).1.2.1, y ∈ pc.1.set :=
  View.cover_of_tiledL (kernelRun10_C c i arg1 harg1 arg2 harg2 arg3 harg3 arg4 harg4 arg5 harg5 arg6 harg6 arg7 harg7 hc0 hc1 x0 x1 x2 x3 s).1.2.1 S128x128.size (by sl_kernel_rfl) y

theorem cover10_C_s (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond10_0 i) (hc1 : cond10_1 i) (x0 : Vec F S5000x128 .f32) (x1 : Vec F S5000x128 .bf16) (x2 : Vec F S128x128 .f32) (x3 : Vec F S1x128 .f32) (s : Vec F S128x128 .f32) (y : S128x128.Idx) :
    ∃ pc ∈ (kernelRun10_C c i arg1 harg1 arg2 harg2 arg3 harg3 arg4 harg4 arg5 harg5 arg6 harg6 arg7 harg7 hc0 hc1 x0 x1 x2 x3 s).1.2.2, y ∈ pc.1.set :=
  View.cover_of_tiledL (kernelRun10_C c i arg1 harg1 arg2 harg2 arg3 harg3 arg4 harg4 arg5 harg5 arg6 harg6 arg7 harg7 hc0 hc1 x0 x1 x2 x3 s).1.2.2 S128x128.size (by sl_kernel_rfl) y

/-- What the first point leaves in the row output: its pieces read back over anything. -/
def row10_A (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond10_0 i) (hc1 : ¬cond10_1 i) (x0 : Vec F S5000x128 .f32) (x1 : Vec F S5000x128 .bf16) (x2 : Vec F S128x128 .f32) (x3 : Vec F S1x128 .f32) : Vec F S5000x128 .f32 :=
  VO10_4.read (Elt F) (VO10_4.writes (Elt F) VO10_4.junk (kernelRun10_A c i arg1 harg1 arg2 harg2 arg3 harg3 arg4 harg4 arg5 harg5 arg6 harg6 arg7 harg7 hc0 hc1 x0 x1 x2 x3).1.1)

/-- What the first point leaves in the accumulator. -/
def scr10_A (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond10_0 i) (hc1 : ¬cond10_1 i) (x0 : Vec F S5000x128 .f32) (x1 : Vec F S5000x128 .bf16) (x2 : Vec F S128x128 .f32) (x3 : Vec F S1x128 .f32) : Vec F S128x128 .f32 :=
  VS10.read (Elt F) (VS10.writes (Elt F) VS10.junk (kernelRun10_A c i arg1 harg1 arg2 harg2 arg3 harg3 arg4 harg4 arg5 harg5 arg6 harg6 arg7 harg7 hc0 hc1 x0 x1 x2 x3).1.2)

/-- What a middle point leaves in the row output, -/
def row10_B (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond10_0 i) (hc1 : ¬cond10_1 i) (x0 : Vec F S5000x128 .f32) (x1 : Vec F S5000x128 .bf16) (x2 : Vec F S128x128 .f32) (x3 : Vec F S1x128 .f32) (s : Vec F S128x128 .f32) : Vec F S5000x128 .f32 :=
  VO10_4.read (Elt F) (VO10_4.writes (Elt F) VO10_4.junk (kernelRun10_B c i arg1 harg1 arg2 harg2 arg3 harg3 arg4 harg4 arg5 harg5 arg6 harg6 arg7 harg7 hc0 hc1 x0 x1 x2 x3 s).1.1)

/-- and in the accumulator, found at `s`. -/
def scr10_B (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond10_0 i) (hc1 : ¬cond10_1 i) (x0 : Vec F S5000x128 .f32) (x1 : Vec F S5000x128 .bf16) (x2 : Vec F S128x128 .f32) (x3 : Vec F S1x128 .f32) (s : Vec F S128x128 .f32) : Vec F S128x128 .f32 :=
  VS10.read (Elt F) (VS10.writes (Elt F) VS10.junk (kernelRun10_B c i arg1 harg1 arg2 harg2 arg3 harg3 arg4 harg4 arg5 harg5 arg6 harg6 arg7 harg7 hc0 hc1 x0 x1 x2 x3 s).1.2)

/-- What the last point leaves in the row output, -/
def row10_C (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond10_0 i) (hc1 : cond10_1 i) (x0 : Vec F S5000x128 .f32) (x1 : Vec F S5000x128 .bf16) (x2 : Vec F S128x128 .f32) (x3 : Vec F S1x128 .f32) (s : Vec F S128x128 .f32) : Vec F S5000x128 .f32 :=
  VO10_4.read (Elt F) (VO10_4.writes (Elt F) VO10_4.junk (kernelRun10_C c i arg1 harg1 arg2 harg2 arg3 harg3 arg4 harg4 arg5 harg5 arg6 harg6 arg7 harg7 hc0 hc1 x0 x1 x2 x3 s).1.1)

/-- in the matrix output, -/
def mat10_C (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond10_0 i) (hc1 : cond10_1 i) (x0 : Vec F S5000x128 .f32) (x1 : Vec F S5000x128 .bf16) (x2 : Vec F S128x128 .f32) (x3 : Vec F S1x128 .f32) (s : Vec F S128x128 .f32) : Vec F S128x128 .f32 :=
  VO10_5.read (Elt F) (VO10_5.writes (Elt F) VO10_5.junk (kernelRun10_C c i arg1 harg1 arg2 harg2 arg3 harg3 arg4 harg4 arg5 harg5 arg6 harg6 arg7 harg7 hc0 hc1 x0 x1 x2 x3 s).1.2.1)

/-- and in the accumulator, found at `s`. -/
def scr10_C (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond10_0 i) (hc1 : cond10_1 i) (x0 : Vec F S5000x128 .f32) (x1 : Vec F S5000x128 .bf16) (x2 : Vec F S128x128 .f32) (x3 : Vec F S1x128 .f32) (s : Vec F S128x128 .f32) : Vec F S128x128 .f32 :=
  VS10.read (Elt F) (VS10.writes (Elt F) VS10.junk (kernelRun10_C c i arg1 harg1 arg2 harg2 arg3 harg3 arg4 harg4 arg5 harg5 arg6 harg6 arg7 harg7 hc0 hc1 x0 x1 x2 x3 s).1.2.2)

section Region

variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's current staging buffer holds its block at every point, fetched there or not (unfetched, the
    block index has not moved), for ANY proof data whose array is `V`'s and whose body leaves the block in place; the
    windows uncut and never idle. -/
theorem before10_0_of {c : Dev nD} (dat : Dat τ (Elt F) Unit ℕ (Pipeline.UD sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (Pipeline.UD sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (Pipeline.UD sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
theorem before10_3_of {c : Dev nD} (dat : Dat τ (Elt F) Unit ℕ (Pipeline.UD sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-! ## What each point leaves: the accumulation -/

/-- The grid has at least two points: its first point is not its last. -/
theorem first_ne_last10 : ¬((0 : ℕ) + 1 = cfg10.N) := by rw [show cfg10.N = 10 from N_10]; decide

/-- THE ACCUMULATION. What the body leaves at position `n` in (the row output, the matrix output, the accumulator):
    the case the position selects — the first point's, the last point's, a middle point's —, run at the point's
    memrefs and input blocks, the accumulator found at what this leaves in it at `n - 1`. (The matrix output is written
    at the last point only; elsewhere the component repeats the accumulator's and is read nowhere.) -/
def outs10 (c : Dev nD) : (n : ℕ) → n < cfg10.N → Vec F S5000x128 .f32 × Vec F S128x128 .f32 × Vec F S128x128 .f32
  | 0, hn =>
    (row10_A c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) scM10 (Memref.isWhole_whole _) ((hcond10_0 ⟨0, hn⟩).mpr rfl) (fun h => first_ne_last10 ((hcond10_1 ⟨0, hn⟩).mp h)) (iblk10 V c 0 ⟨0, hn⟩) (iblk10 V c 1 ⟨0, hn⟩) (iblk10 V c 2 ⟨0, hn⟩) (iblk10 V c 3 ⟨0, hn⟩),
     scr10_A c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) scM10 (Memref.isWhole_whole _) ((hcond10_0 ⟨0, hn⟩).mpr rfl) (fun h => first_ne_last10 ((hcond10_1 ⟨0, hn⟩).mp h)) (iblk10 V c 0 ⟨0, hn⟩) (iblk10 V c 1 ⟨0, hn⟩) (iblk10 V c 2 ⟨0, hn⟩) (iblk10 V c 3 ⟨0, hn⟩),
     scr10_A c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) scM10 (Memref.isWhole_whole _) ((hcond10_0 ⟨0, hn⟩).mpr rfl) (fun h => first_ne_last10 ((hcond10_1 ⟨0, hn⟩).mp h)) (iblk10 V c 0 ⟨0, hn⟩) (iblk10 V c 1 ⟨0, hn⟩) (iblk10 V c 2 ⟨0, hn⟩) (iblk10 V c 3 ⟨0, hn⟩))
  | n + 1, hn =>
    if h1 : n + 1 + 1 = cfg10.N then
      (row10_C c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) scM10 (Memref.isWhole_whole _) (fun h => Nat.succ_ne_zero n ((hcond10_0 ⟨n + 1, hn⟩).mp h)) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (outs10 c n (Nat.lt_of_succ_lt hn)).2.2,
       mat10_C c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) scM10 (Memref.isWhole_whole _) (fun h => Nat.succ_ne_zero n ((hcond10_0 ⟨n + 1, hn⟩).mp h)) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (outs10 c n (Nat.lt_of_succ_lt hn)).2.2,
       scr10_C c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) scM10 (Memref.isWhole_whole _) (fun h => Nat.succ_ne_zero n ((hcond10_0 ⟨n + 1, hn⟩).mp h)) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (outs10 c n (Nat.lt_of_succ_lt hn)).2.2)
    else
      (row10_B c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) scM10 (Memref.isWhole_whole _) (fun h => Nat.succ_ne_zero n ((hcond10_0 ⟨n + 1, hn⟩).mp h)) (fun h => h1 ((hcond10_1 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (outs10 c n (Nat.lt_of_succ_lt hn)).2.2,
       scr10_B c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) scM10 (Memref.isWhole_whole _) (fun h => Nat.succ_ne_zero n ((hcond10_0 ⟨n + 1, hn⟩).mp h)) (fun h => h1 ((hcond10_1 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (outs10 c n (Nat.lt_of_succ_lt hn)).2.2,
       scr10_B c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) scM10 (Memref.isWhole_whole _) (fun h => Nat.succ_ne_zero n ((hcond10_0 ⟨n + 1, hn⟩).mp h)) (fun h => h1 ((hcond10_1 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (outs10 c n (Nat.lt_of_succ_lt hn)).2.2)

/-- What the accumulator holds after position `n`. -/
abbrev acc10 (c : Dev nD) (n : ℕ) (hn : n < cfg10.N) : Vec F S128x128 .f32 := (outs10 V c n hn).2.2

/-- `outs10` at the first point. -/
theorem outs10_A (c : Dev nD) (t : Fin cfg10.N) (h0 : t.val = 0) (hc0 : cond10_0 (grid10.coords t)) (hc1 : ¬cond10_1 (grid10.coords t)) :
    outs10 V c t.val t.isLt =
      (row10_A c (grid10.coords t) (ms10_0 t) (hs10_0 t) (ms10_1 t) (hs10_1 t) (ms10_2 t) (hs10_2 t) (ms10_3 t) (hs10_3 t) (ms10_4 t) (hs10_4 t) (ms10_5 t) (hs10_5 t) scM10 (Memref.isWhole_whole _) hc0 hc1 (iblk10 V c 0 t) (iblk10 V c 1 t) (iblk10 V c 2 t) (iblk10 V c 3 t),
       scr10_A c (grid10.coords t) (ms10_0 t) (hs10_0 t) (ms10_1 t) (hs10_1 t) (ms10_2 t) (hs10_2 t) (ms10_3 t) (hs10_3 t) (ms10_4 t) (hs10_4 t) (ms10_5 t) (hs10_5 t) scM10 (Memref.isWhole_whole _) hc0 hc1 (iblk10 V c 0 t) (iblk10 V c 1 t) (iblk10 V c 2 t) (iblk10 V c 3 t),
       scr10_A c (grid10.coords t) (ms10_0 t) (hs10_0 t) (ms10_1 t) (hs10_1 t) (ms10_2 t) (hs10_2 t) (ms10_3 t) (hs10_3 t) (ms10_4 t) (hs10_4 t) (ms10_5 t) (hs10_5 t) scM10 (Memref.isWhole_whole _) hc0 hc1 (iblk10 V c 0 t) (iblk10 V c 1 t) (iblk10 V c 2 t) (iblk10 V c 3 t)) := by
  obtain ⟨n, hn⟩ := t
  cases n with
  | zero => exact rfl
  | succ n => exact absurd h0 (Nat.succ_ne_zero n)

/-- `outs10` at the last point: over what the point before left in the accumulator. -/
theorem outs10_C (c : Dev nD) (t : Fin cfg10.N) (h0 : ¬t.val = 0) (h1 : t.val + 1 = cfg10.N) (hc0 : ¬cond10_0 (grid10.coords t)) (hc1 : cond10_1 (grid10.coords t)) :
    outs10 V c t.val t.isLt =
      (row10_C c (grid10.coords t) (ms10_0 t) (hs10_0 t) (ms10_1 t) (hs10_1 t) (ms10_2 t) (hs10_2 t) (ms10_3 t) (hs10_3 t) (ms10_4 t) (hs10_4 t) (ms10_5 t) (hs10_5 t) scM10 (Memref.isWhole_whole _) hc0 hc1 (iblk10 V c 0 t) (iblk10 V c 1 t) (iblk10 V c 2 t) (iblk10 V c 3 t) (acc10 V c (t.val - 1) (Nat.lt_of_le_of_lt (Nat.sub_le _ _) t.isLt)),
       mat10_C c (grid10.coords t) (ms10_0 t) (hs10_0 t) (ms10_1 t) (hs10_1 t) (ms10_2 t) (hs10_2 t) (ms10_3 t) (hs10_3 t) (ms10_4 t) (hs10_4 t) (ms10_5 t) (hs10_5 t) scM10 (Memref.isWhole_whole _) hc0 hc1 (iblk10 V c 0 t) (iblk10 V c 1 t) (iblk10 V c 2 t) (iblk10 V c 3 t) (acc10 V c (t.val - 1) (Nat.lt_of_le_of_lt (Nat.sub_le _ _) t.isLt)),
       scr10_C c (grid10.coords t) (ms10_0 t) (hs10_0 t) (ms10_1 t) (hs10_1 t) (ms10_2 t) (hs10_2 t) (ms10_3 t) (hs10_3 t) (ms10_4 t) (hs10_4 t) (ms10_5 t) (hs10_5 t) scM10 (Memref.isWhole_whole _) hc0 hc1 (iblk10 V c 0 t) (iblk10 V c 1 t) (iblk10 V c 2 t) (iblk10 V c 3 t) (acc10 V c (t.val - 1) (Nat.lt_of_le_of_lt (Nat.sub_le _ _) t.isLt))) := by
  obtain ⟨n, hn⟩ := t
  cases n with
  | zero => exact absurd rfl h0
  | succ n => exact (dif_pos h1).trans rfl

/-- `outs10` at a middle point. -/
theorem outs10_B (c : Dev nD) (t : Fin cfg10.N) (h0 : ¬t.val = 0) (h1 : ¬t.val + 1 = cfg10.N) (hc0 : ¬cond10_0 (grid10.coords t)) (hc1 : ¬cond10_1 (grid10.coords t)) :
    outs10 V c t.val t.isLt =
      (row10_B c (grid10.coords t) (ms10_0 t) (hs10_0 t) (ms10_1 t) (hs10_1 t) (ms10_2 t) (hs10_2 t) (ms10_3 t) (hs10_3 t) (ms10_4 t) (hs10_4 t) (ms10_5 t) (hs10_5 t) scM10 (Memref.isWhole_whole _) hc0 hc1 (iblk10 V c 0 t) (iblk10 V c 1 t) (iblk10 V c 2 t) (iblk10 V c 3 t) (acc10 V c (t.val - 1) (Nat.lt_of_le_of_lt (Nat.sub_le _ _) t.isLt)),
       scr10_B c (grid10.coords t) (ms10_0 t) (hs10_0 t) (ms10_1 t) (hs10_1 t) (ms10_2 t) (hs10_2 t) (ms10_3 t) (hs10_3 t) (ms10_4 t) (hs10_4 t) (ms10_5 t) (hs10_5 t) scM10 (Memref.isWhole_whole _) hc0 hc1 (iblk10 V c 0 t) (iblk10 V c 1 t) (iblk10 V c 2 t) (iblk10 V c 3 t) (acc10 V c (t.val - 1) (Nat.lt_of_le_of_lt (Nat.sub_le _ _) t.isLt)),
       scr10_B c (grid10.coords t) (ms10_0 t) (hs10_0 t) (ms10_1 t) (hs10_1 t) (ms10_2 t) (hs10_2 t) (ms10_3 t) (hs10_3 t) (ms10_4 t) (hs10_4 t) (ms10_5 t) (hs10_5 t) scM10 (Memref.isWhole_whole _) hc0 hc1 (iblk10 V c 0 t) (iblk10 V c 1 t) (iblk10 V c 2 t) (iblk10 V c 3 t) (acc10 V c (t.val - 1) (Nat.lt_of_le_of_lt (Nat.sub_le _ _) t.isLt))) := by
  obtain ⟨n, hn⟩ := t
  cases n with
  | zero => exact absurd rfl h0
  | succ n => exact (dif_neg h1).trans rfl

/-! ## The pipeline's proof data -/

/-- What the accumulator is owned at before position `n` (after position `n - 1`): before the first point at SOME
    contents (the region finds it at anything; the first point zeroes it before reading), after point `n` at the value
    accumulated through it. -/
def scrAt10 (c : Dev nD) : (n : ℕ) → n < cfg10.N + 1 → sProp 𝕄
  | 0, _ => iprop(∃ d, owns (c : Thread nD τ) scM10 fullShare d)
  | n + 1, h => owns (c : Thread nD τ) scM10 fullShare (acc10 V c n (Nat.lt_of_succ_lt_succ h))

/-- The body's invariant before point `t`: the core's scoped buffers that are neither a staging buffer of this call
    nor its accumulator, unopened; the generator register at some state; the accumulator whole at its contents there. -/
def Phi10 (c : Dev nD) (t : Fin (cfg10.N + 1)) : sProp 𝕄 :=
  iprop(Pipeline.scopedRestBut (Ix := Unit) (Name := ℕ) (U := Pipeline.UD sig nD τ) (Lvl := ℕ) (Val := Elt F) spec10 c [cc10_scratch0]
    ∗ (∃ r, prngReg c r) ∗ scrAt10 V c t.val t.isLt)

/-- The proof data of the pipeline on core `c`: the arrays as the region finds them (`V`); after the body at point `t`
    each input's buffer at its block, the row output's and the matrix output's at what `outs10` says; the invariant
    `Phi10`; nothing owed; full shares. -/
def dat10 (c : Dev nD) : Dat τ (Elt F) Unit ℕ (Pipeline.UD sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => (outs10 V c t.val t.isLt).1
    | ⟨5, _⟩ => (outs10 V c t.val t.isLt).2.1
  Φ t := Phi10 V c t
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = (outs10 V c t.val t.isLt).1 := by dsimp only [dat10]
theorem after10_5 (c : Dev nD) (t : Fin cfg10.N) : (dat10 V c).after 5 t = (outs10 V c t.val t.isLt).2.1 := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d

/-- The accumulator's clause of the invariant, by the point. -/
theorem scrAt10_succ (c : Dev nD) (t : Fin cfg10.N) :
    scrAt10 V c t.succ.val t.succ.isLt = owns (c : Thread nD τ) scM10 fullShare (acc10 V c t.val t.isLt) := by
  obtain ⟨n, hn⟩ := t; rfl
theorem scrAt10_castSucc_zero (c : Dev nD) (t : Fin cfg10.N) (h0 : t.val = 0) :
    scrAt10 V c t.castSucc.val t.castSucc.isLt = iprop(∃ d, owns (c : Thread nD τ) scM10 fullShare d) := by
  obtain ⟨n, hn⟩ := t
  cases n with
  | zero => rfl
  | succ n => exact absurd h0 (Nat.succ_ne_zero n)
theorem scrAt10_castSucc_pos (c : Dev nD) (t : Fin cfg10.N) (h0 : ¬t.val = 0) :
    scrAt10 V c t.castSucc.val t.castSucc.isLt
      = owns (c : Thread nD τ) scM10 fullShare (acc10 V c (t.val - 1) (Nat.lt_of_le_of_lt (Nat.sub_le _ _) t.isLt)) := by
  obtain ⟨n, hn⟩ := t
  cases n with
  | zero => exact absurd rfl h0
  | succ n => rfl
/-- At any point the clause gives the accumulator at some contents. -/
theorem scrAt10_some (c : Dev nD) (n : ℕ) (h : n < cfg10.N + 1) :
    scrAt10 V c n h ⊢ (iprop(∃ d, owns (c : Thread nD τ) scM10 fullShare d) : sProp 𝕄) := by
  cases n with
  | zero => exact .rfl
  | succ n => rw [scrAt10]; iintro H; iexists _; iexact H

/-! ## Where the matrix output's window is idle -/

/-- The matrix output's window is idle exactly where the second branch is not taken, -/
theorem idle10_5_of (i : grid10.Coords) (h : ¬cond10_1 i) : cfg10.idle 5 i = true := by
  show (!(k10_cond2 i == 1#1)) = true
  rw [Bool.not_eq_true', beq_eq_false_iff_ne]; exact h
theorem live10_5_of (i : grid10.Coords) (h : cond10_1 i) : cfg10.idle 5 i = false := by
  show (!(k10_cond2 i == 1#1)) = false
  rw [Bool.not_eq_false', beq_iff_eq]; exact h
/-- and is not written back before the last point. -/
theorem noflush10_5 (t : Fin cfg10.N) (h1 : ¬t.val + 1 = cfg10.N) : (cfg10.win 5).flush t = false := by
  have hN : cfg10.N = 10 := N_10
  have ht : t.val < cfg10.N := t.isLt
  exact Bool.eq_false_iff.mpr fun h => by have := (flush10_5 _).mp h; omega
/-- The obligation's post for it at a live point. -/
theorem leaves10_5_live {c : Dev nD} (dat : Dat τ (Elt F) Unit ℕ (Pipeline.UD sig nD τ) ℕ cfg10 c) (t : Fin cfg10.N)
    (hi : cfg10.idle 5 (cfg10.grid.coords t) = false) :
    dat.leavesExact 5 t = owns (c : Thread nD τ) ((cfg10.win 5).stage (cfg10.slots t 5)) fullShare (dat.after 5 t) := by
  unfold Dat.leavesExact; rw [hi]

/-! ## The body obligation, at a generic point -/

/-- What the body is called with at point `t` (the obligation's precondition, the windows one by one), -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d))
    ∗ (∃ d, owns (c : Thread nD τ) (ms10_4 t) fullShare ((dat10 V c).before 4 t d))
    ∗ (∃ d, owns (c : Thread nD τ) (ms10_5 t) fullShare ((dat10 V c).before 5 t d)))

/-- and what it returns: the matrix output's buffer as it was found where its window is idle. -/
def bodyPost10 (c : Dev nD) (t : Fin cfg10.N) : sProp 𝕄 :=
  iprop((dat10 V c).Φ t.succ ∗ (dat10 V c).owesAt () t.succ
    ∗ owns (c : Thread nD τ) (ms10_0 t) fullShare ((dat10 V c).after 0 t)
    ∗ owns (c : Thread nD τ) (ms10_1 t) fullShare ((dat10 V c).after 1 t)
    ∗ owns (c : Thread nD τ) (ms10_2 t) fullShare ((dat10 V c).after 2 t)
    ∗ owns (c : Thread nD τ) (ms10_3 t) fullShare ((dat10 V c).after 3 t)
    ∗ owns (c : Thread nD τ) (ms10_4 t) fullShare ((dat10 V c).after 4 t)
    ∗ (dat10 V c).leavesExact 5 t)

set_option maxHeartbeats 1600000 in
/-- The body at any point. The inputs' memrefs hold their blocks; the point's position says which case it is in; the
    invariant hands the body the accumulator — at anything at the first point, else at what the point before left —
    and takes it back at what this point leaves; the rest of the invariant and the core's `owes` pass through unread;
    the matrix output's buffer is framed around the body where its window is idle. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3]
  rw [show (dat10 V c).owesAt () t.succ = (dat10 V c).owesAt () t.castSucc from rfl,
    after10_0, after10_1, after10_2, after10_3, after10_4]
  rw [show (dat10 V c).Φ t.succ = Phi10 V c t.succ from rfl, show (dat10 V c).Φ t.castSucc = Phi10 V c t.castSucc from rfl]
  unfold Phi10
  rw [scrAt10_succ]
  unfold acc10
  by_cases h0 : t.val = 0
  · have hc0 : cond10_0 (grid10.coords t) := (hcond10_0 t).mpr h0
    have h1 : ¬t.val + 1 = cfg10.N := fun h => first_ne_last10 (by rw [h0] at h; exact h)
    have hc1 : ¬cond10_1 (grid10.coords t) := fun h => h1 ((hcond10_1 t).mp h)
    rw [scrAt10_castSucc_zero V c t h0, Dat.leavesExact_idle _ 5 t (idle10_5_of _ hc1) (noflush10_5 t h1), outs10_A V c t h0 hc0 hc1]
    dsimp only
    unfold row10_A scr10_A
    iintro ⟨⟨Hrest, Hg, HS⟩, Ho, ⟨%d0, H0⟩, ⟨%d1, H1⟩, ⟨%d2, H2⟩, ⟨%d3, H3⟩, ⟨%d4, H4⟩, ⟨%d5, H5⟩⟩
    iapply ((kernelRun10_A c (grid10.coords t) _ _ _ _ _ _ _ _ _ _ _ _ _ _ hc0 hc1 (iblk10 V c 0 t) (iblk10 V c 1 t) (iblk10 V c 2 t) (iblk10 V c 3 t)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%e6, HS⟩⟩
    isplitl [Hrest Hg HS]
    · isplitl [Hrest]; · iexact Hrest
      isplitl [Hg]; · iexact Hg
      unfold owns; iexists _; isplitr
      swap; · iexact HS
      ipureintro; exact View.read_writes_of_cover _ _ _ _ _ (cover10_A_s c _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover10_A_4 c _ _ _ _ _ _ _ _ _ _ _ _ _ _ _ _ _ _ _ _ _)
    iexists d5; iexact H5
  · have hc0 : ¬cond10_0 (grid10.coords t) := fun h => h0 ((hcond10_0 t).mp h)
    rw [scrAt10_castSucc_pos V c t h0]
    unfold acc10
    by_cases h1 : t.val + 1 = cfg10.N
    · have hc1 : cond10_1 (grid10.coords t) := (hcond10_1 t).mpr h1
      rw [leaves10_5_live _ t (live10_5_of _ hc1), after10_5, outs10_C V c t h0 h1 hc0 hc1]
      dsimp only
      unfold row10_C mat10_C scr10_C acc10
      iintro ⟨⟨Hrest, Hg, HS⟩, Ho, ⟨%d0, H0⟩, ⟨%d1, H1⟩, ⟨%d2, H2⟩, ⟨%d3, H3⟩, ⟨%d4, H4⟩, ⟨%d5, H5⟩⟩
      iapply ((kernelRun10_C c (grid10.coords t) _ _ _ _ _ _ _ _ _ _ _ _ _ _ hc0 hc1 (iblk10 V c 0 t) (iblk10 V c 1 t) (iblk10 V c 2 t) (iblk10 V c 3 t) _).2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, ⟨%e4, H4⟩, ⟨%e5, H5⟩, ⟨%e6, HS⟩⟩
      isplitl [Hrest Hg HS]
      · isplitl [Hrest]; · iexact Hrest
        isplitl [Hg]; · iexact Hg
        unfold owns; iexists _; isplitr
        swap; · iexact HS
        ipureintro; exact View.read_writes_of_cover _ _ _ _ _ (cover10_C_s c _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover10_C_4 c _ _ _ _ _ _ _ _ _ _ _ _ _ _ _ _ _ _ _ _ _ _)
      unfold owns; iexists _; isplitr
      swap; · iexact H5
      ipureintro; exact View.read_writes_of_cover _ _ _ _ _ (cover10_C_5 c _ _ _ _ _ _ _ _ _ _ _ _ _ _ _ _ _ _ _ _ _ _)
    · have hc1 : ¬cond10_1 (grid10.coords t) := fun h => h1 ((hcond10_1 t).mp h)
      rw [Dat.leavesExact_idle _ 5 t (idle10_5_of _ hc1) (noflush10_5 t h1), outs10_B V c t h0 h1 hc0 hc1]
      dsimp only
      unfold row10_B scr10_B acc10
      iintro ⟨⟨Hrest, Hg, HS⟩, Ho, ⟨%d0, H0⟩, ⟨%d1, H1⟩, ⟨%d2, H2⟩, ⟨%d3, H3⟩, ⟨%d4, H4⟩, ⟨%d5, H5⟩⟩
      iapply ((kernelRun10_B c (grid10.coords t) _ _ _ _ _ _ _ _ _ _ _ _ _ _ hc0 hc1 (iblk10 V c 0 t) (iblk10 V c 1 t) (iblk10 V c 2 t) (iblk10 V c 3 t) _).2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%e6, HS⟩⟩
      isplitl [Hrest Hg HS]
      · isplitl [Hrest]; · iexact Hrest
        isplitl [Hg]; · iexact Hg
        unfold owns; iexists _; isplitr
        swap; · iexact HS
        ipureintro; exact View.read_writes_of_cover _ _ _ _ _ (cover10_B_s c _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover10_B_4 c _ _ _ _ _ _ _ _ _ _ _ _ _ _ _ _ _ _ _ _ _ _)
      iexists d5; iexact H5

/-- The library's body obligation, at every point. -/
theorem body_obligation10 (c : Dev nD) : BodyObligation (dat10 (F := F) V c) (defs₀ (F := F)) Variants.none () Set.univ := fun t => by
  rw [bigSep_W10, bigSep_W10]
  exact sound_body10 V c t

/-! ## The invariant at the region's ends -/

/-- ENTRY: the generator register and the scoped buffers no window stages make the invariant before the first point —
    the accumulator split out of them, at whatever it holds. -/
theorem hin10 (c : Dev nD) : (iprop((∃ r, prngReg c r) ∗ Pipeline.scopedRest spec10 c) : sProp 𝕄) ⊢ (dat10 V c).Φ 0 := by
  rw [show (dat10 V c).Φ 0 = Phi10 V c 0 from rfl]; unfold Phi10
  rw [show scrAt10 V c (0 : Fin (cfg10.N + 1)).val (0 : Fin (cfg10.N + 1)).isLt = iprop(∃ d, owns (c : Thread nD τ) scM10 fullShare d) from rfl,
    scopedRest10_split]
  simp only [scM10, owns_whole]
  iintro ⟨Hg, HS, Hrest⟩
  isplitl [Hrest]; · iexact Hrest
  isplitl [Hg]; · iexact Hg
  iexact HS

/-- EXIT: the invariant after the last point gives them back, the accumulator forgotten into them. -/
theorem hout10 (c : Dev nD) : (dat10 V c).Φ (Fin.last cfg10.N) ⊢ (iprop((∃ r, prngReg c r) ∗ Pipeline.scopedRest spec10 c) : sProp 𝕄) := by
  rw [show (dat10 V c).Φ (Fin.last cfg10.N) = Phi10 V c (Fin.last cfg10.N) from rfl]; unfold Phi10
  rw [scopedRest10_split]
  iintro ⟨Hrest, Hg, HS⟩
  ihave HS' := scrAt10_some V c _ _ $$ HS
  isplitl [Hg]; · iexact Hg
  isplitl [HS']
  · simp only [scM10, owns_whole]; iexact HS'
  iexact Hrest

end Region

end Cert.Kernel.Hand

end
-- ==== Proof.K.Reg11.lean ====
import proofs.«408428_j10917806867267_1_alg».proof.Proof.Gen.Kernel.Launch
import proofs.«408428_j10917806867267_1_alg».proof.Proof.Gen.Kernel.Skeleton
import proofs.«408428_j10917806867267_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The normalising launch as a pipeline region, at arbitrary entry contents

Six windows and no scratch: a tile of rows of the features, the same tile of the one-hot membership matrix, the
per-graph variances, the scale row and the shift row come in; one tile of rows goes out. The body reads the five
inputs whole and writes the output tile whole, once, so the output buffer after the body is one payload over the
five input blocks and every input buffer is left as found. Everything is stated at a parameter `V`, the buffer
contents when the region is entered, and at any float model `F`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`: what the window's index map cuts out of its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! ## An input's buffer holds its block at every point

For any proof data over the entry arrays whose body leaves the input's block in place: where the window is fetched
the buffer holds the fetched block; where it is not, its block index has not moved since the point before, so the
block left there is still this point's. The tiles of rows are fetched at every point, the variances and the two
rows at the first point only; the one argument covers both. -/

theorem inputHolds11_0_of {c : Dev nD} (dat : Dat τ (Elt F) Unit ℕ (Pipeline.UD sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem inputHolds11_1_of {c : Dev nD} (dat : Dat τ (Elt F) Unit ℕ (Pipeline.UD sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem inputHolds11_2_of {c : Dev nD} (dat : Dat τ (Elt F) Unit ℕ (Pipeline.UD sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

theorem inputHolds11_3_of {c : Dev nD} (dat : Dat τ (Elt F) Unit ℕ (Pipeline.UD sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

theorem inputHolds11_4_of {c : Dev nD} (dat : Dat τ (Elt F) Unit ℕ (Pipeline.UD sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: each buffer whole -/

abbrev whole11_rows : Rect S5000x128 := Rect.unit (s := S5000x128) ![0, 0] S5000x128.size inb_S5000x128_S5000x128_0_0
abbrev whole11_square : Rect S128x128 := Rect.unit (s := S128x128) ![0, 0] S128x128.size inb_S128x128_S128x128_0_0
abbrev whole11_row : Rect S1x128 := Rect.unit (s := S1x128) ![0, 0] S1x128.size inb_S1x128_S1x128_0_0

/-! ## What the body leaves in the output buffer -/

/-- The output buffer after the body, from the five input blocks: its single store, of the payload at the inputs
    read whole. -/
def out11_5 (x0 : Vec F S5000x128 .f32) (x1 : Vec F S5000x128 .bf16) (x2 : Vec F S128x128 .f32) (x3 : Vec F S1x128 .f32) (x4 : Vec F S1x128 .f32) : Vec F S5000x128 .f32 :=
  View.canon [⟨whole11_rows, k11_pay1 (View.ld x1 whole11_rows) (View.ld x2 whole11_square) (View.ld x3 whole11_row) (View.ld x0 whole11_rows) (View.ld x4 whole11_row)⟩]

/-- The single store is the whole buffer, so it covers it. -/
theorem storeCovers11_5 (p0 : Vec F S5000x128 .f32) (y : S5000x128.Idx) :
    ∃ pc ∈ ([⟨whole11_rows, p0⟩] : List (View.Piece (Elt F) S5000x128 .f32)), y ∈ pc.1.set :=
  View.cover_of_tiled [⟨whole11_rows, p0⟩] S5000x128.size (by rfl) y

/-! ## The body's triple -/

set_option maxHeartbeats 1000000 in
/-- The body on whole buffers, the five inputs' at read contents `x0 … x4` and the output's at anything, runs to the
    continuation with the inputs' as they were and the output's at `out11_5` of them. -/
theorem kernelTriple11 (c : Dev nD) (E : Set ℕ) (i : grid11.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .bf16) (x2 : Vec F S128x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out11_5 x0 x1 x2 x3 x4)) -∗ K ⟨⟩))
      ⊢ wp frame (wpE (defs₀ (F := F)) Variants.none c none) E (cc11__normalize_kernel i arg1 harg1 arg2 harg2 arg3 harg3 arg4 harg4 arg5 harg5 arg6 harg6) K := by
  simp only [cc11__normalize_kernel_eq_skeleton]; unfold cc11__normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (storeCovers11_5 _)

/-! ## The pipeline's proof data -/

/-- The proof data on core `c`: the arrays as the region finds them; after the body at point `t` each input's
    buffer at its block and the output's at `out11_5` of the input blocks; the invariant that of a body touching
    nothing but its windows; nothing owed; full shares. -/
def dat11 (c : Dev nD) : Dat τ (Elt F) Unit ℕ (Pipeline.UD sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = out11_5 (iblk11 V c 0 t) (iblk11 V c 1 t) (iblk11 V c 2 t) (iblk11 V c 3 t) (iblk11 V c 4 t) := by dsimp only [dat11]

/-- Each input's current buffer holds its block at every point, fetched there or not. -/
theorem before11_0 (c : Dev nD) (t : Fin cfg11.N) (d) : (dat11 V c).before 0 t d = iblk11 V c 0 t :=
  inputHolds11_0_of V (dat11 V c) (A_eq11 V c 0) (after11_0 V c) t d
theorem before11_1 (c : Dev nD) (t : Fin cfg11.N) (d) : (dat11 V c).before 1 t d = iblk11 V c 1 t :=
  inputHolds11_1_of V (dat11 V c) (A_eq11 V c 1) (after11_1 V c) t d
theorem before11_2 (c : Dev nD) (t : Fin cfg11.N) (d) : (dat11 V c).before 2 t d = iblk11 V c 2 t :=
  inputHolds11_2_of V (dat11 V c) (A_eq11 V c 2) (after11_2 V c) t d
theorem before11_3 (c : Dev nD) (t : Fin cfg11.N) (d) : (dat11 V c).before 3 t d = iblk11 V c 3 t :=
  inputHolds11_3_of V (dat11 V c) (A_eq11 V c 3) (after11_3 V c) t d
theorem before11_4 (c : Dev nD) (t : Fin cfg11.N) (d) : (dat11 V c).before 4 t d = iblk11 V c 4 t :=
  inputHolds11_4_of V (dat11 V c) (A_eq11 V c 4) (after11_4 V c) t d

/-! ## The body obligation, at a generic point -/

/-- What the body is called with at point `t`, the windows one by one, -/
def bodyGiven11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyLeaves11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any point: the inputs' buffers hold their blocks, so the body's triple applies; the invariant and
    what the core owes pass through unread. -/
theorem bodyTriple11 (c : Dev nD) (t : Fin cfg11.N) :
    bodyGiven11 V c t ⊢ wp frame (wpE (defs₀ (F := F)) Variants.none c none) Set.univ (bodyAt11 t) (fun _ => bodyLeaves11 V c t) := by
  unfold bodyGiven11 bodyLeaves11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (kernelTriple11 c Set.univ (grid11.coords t) _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation11 (c : Dev nD) : BodyObligation (dat11 (F := F) V c) (defs₀ (F := F)) Variants.none () Set.univ := fun t => by
  rw [bigSep_W11, bigSep_W11]
  exact bodyTriple11 V c t

/-! ## The invariant at the region's two ends -/

/-- Entering: the generator register and the scoped rest make up the invariant before the first point. -/
theorem hin11 (c : Dev nD) : (iprop((∃ r, prngReg c r) ∗ Pipeline.scopedRest spec11 c) : sProp 𝕄) ⊢ (dat11 V c).Φ 0 := by
  rw [show (dat11 V c).Φ 0 = Pipeline.ΦA spec11 c from rfl]; unfold Pipeline.ΦA
  iintro ⟨Hp, Hr⟩
  isplitl [Hr]; · iexact Hr
  iexact Hp

/-- Leaving: the invariant after the last point hands both back. -/
theorem hout11 (c : Dev nD) : (dat11 V c).Φ (Fin.last cfg11.N) ⊢ (iprop((∃ r, prngReg c r) ∗ Pipeline.scopedRest spec11 c) : sProp 𝕄) := by
  rw [show (dat11 V c).Φ (Fin.last cfg11.N) = Pipeline.ΦA spec11 c from rfl]; unfold Pipeline.ΦA
  iintro ⟨Hr, Hp⟩
  isplitl [Hp]; · iexact Hp
  iexact Hr

end Cert.Kernel.Hand
-- ==== Proof.K.Reg12.lean ====
/- Region 12 of the kernel program (the pooling head): nine windows and one scratch buffer carried across the ten
   grid points. The scratch is an accumulator: the first point fills it with zeros, every point adds the product of
   the transposed one-hot block with the feature block into it, and the last point reads it back, applies two
   affine layers with a rectifier each and a third affine layer, and stores the row-wise log-softmax over ten lanes
   into window 8, which is idle at every other point. Stated at the region-entry contents `V`, generic in `F`.
   The invariant names the scratch's contents by recursion on the point: before the first point some contents,
   after point `t` the value accumulated through `t`. -/
import proofs.«408428_j10917806867267_1_alg».proof.Proof.Gen.Kernel.Launch
import proofs.«408428_j10917806867267_1_alg».proof.Proof.Gen.Kernel.Skeleton
import proofs.«408428_j10917806867267_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region12

variable (V : (c : Dev nD) → (b : Ref sig .tc) → Buf (Elt F) ((c : Thread nD τ).loc b))

/-! ## The body's two conditions in closed form -/

/-- The condition of the first conditional (the zero fill), from the grid coordinates. -/
abbrev cond12_0 (i : grid12.Coords) : Prop := (Scalar.cmpi .ne (Scalar.extui (Scalar.cmpi .eq (BitVec.ofNat 32 (i 0).val) 0#32)) 0#32) = 1#1
/-- It holds at the first point only; the second (the head) at the last point only. -/
theorem hcond12_0 : ∀ t : Fin cfg12.N, cond12_0 (grid12.coords t) ↔ t.val = 0 :=
  (by decide +kernel : ∀ t : Fin grid12.N, cond12_0 (grid12.coords t) ↔ t.val = 0)
theorem hcond12_1 : ∀ t : Fin cfg12.N, k12_cond2 (grid12.coords t) = 1#1 ↔ t.val = 9 :=
  (by decide +kernel : ∀ t : Fin grid12.N, k12_cond2 (grid12.coords t) = 1#1 ↔ t.val = 9)

/-- Windows 0 to 7 are live at every point; window 8 is live exactly where the head runs, and where it is idle its
    block is not written back. -/
theorem liveAt12_0 : ∀ t : Fin cfg12.N, cfg12.idle 0 (grid12.coords t) = false := fun _ => rfl
theorem liveAt12_1 : ∀ t : Fin cfg12.N, cfg12.idle 1 (grid12.coords t) = false := fun _ => rfl
theorem liveAt12_2 : ∀ t : Fin cfg12.N, cfg12.idle 2 (grid12.coords t) = false := fun _ => rfl
theorem liveAt12_3 : ∀ t : Fin cfg12.N, cfg12.idle 3 (grid12.coords t) = false := fun _ => rfl
theorem liveAt12_4 : ∀ t : Fin cfg12.N, cfg12.idle 4 (grid12.coords t) = false := fun _ => rfl
theorem liveAt12_5 : ∀ t : Fin cfg12.N, cfg12.idle 5 (grid12.coords t) = false := fun _ => rfl
theorem liveAt12_6 : ∀ t : Fin cfg12.N, cfg12.idle 6 (grid12.coords t) = false := fun _ => rfl
theorem liveAt12_7 : ∀ t : Fin cfg12.N, cfg12.idle 7 (grid12.coords t) = false := fun _ => rfl
theorem idleAt12_8 : ∀ t : Fin cfg12.N, ¬k12_cond2 (grid12.coords t) = 1#1 → cfg12.idle 8 (grid12.coords t) = true := by decide +kernel
theorem noFlush12_8 : ∀ t : Fin cfg12.N, ¬k12_cond2 (grid12.coords t) = 1#1 → (cfg12.win 8).flush t = false := by decide +kernel
theorem liveAt12_8 : ∀ t : Fin cfg12.N, k12_cond2 (grid12.coords t) = 1#1 → cfg12.idle 8 (grid12.coords t) = false := by decide +kernel

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current staging buffer holds its block at every point, fetched there or not, for any proof data
    whose array is `V`'s and whose body leaves the block in place: unfetched, the block index has not moved. -/
theorem before12_0_of {c : Dev nD} (dat : Dat τ (Elt F) Unit ℕ (Pipeline.UD sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (Pipeline.UD sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
theorem before12_2_of {c : Dev nD} (dat : Dat τ (Elt F) Unit ℕ (Pipeline.UD sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)
theorem before12_3_of {c : Dev nD} (dat : Dat τ (Elt F) Unit ℕ (Pipeline.UD sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)
theorem before12_4_of {c : Dev nD} (dat : Dat τ (Elt F) Unit ℕ (Pipeline.UD sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)
theorem before12_5_of {c : Dev nD} (dat : Dat τ (Elt F) Unit ℕ (Pipeline.UD sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)
theorem before12_6_of {c : Dev nD} (dat : Dat τ (Elt F) Unit ℕ (Pipeline.UD sig nD τ) ℕ cfg12 c) (hA : dat.A 6 = V c (Pipeline.arrRef spec12 6))
    (hafter : ∀ t, dat.after 6 t = iblk12 V c 6 t) (t : Fin cfg12.N) (d) : dat.before 6 t d = iblk12 V c 6 t :=
  (dat.before_in_eq_fetched 6 rfl (fun _ => rfl) (fun _ _ _ => rfl) (fun t => by rw [hafter]; unfold Dat.blockOf iblk12; rw [hA]; try rfl) t d).trans
    (by unfold Dat.fetched Dat.blockOf iblk12; rw [hA]; try rfl)
theorem before12_7_of {c : Dev nD} (dat : Dat τ (Elt F) Unit ℕ (Pipeline.UD sig nD τ) ℕ cfg12 c) (hA : dat.A 7 = V c (Pipeline.arrRef spec12 7))
    (hafter : ∀ t, dat.after 7 t = iblk12 V c 7 t) (t : Fin cfg12.N) (d) : dat.before 7 t d = iblk12 V c 7 t :=
  (dat.before_in_eq_fetched 7 rfl (fun _ => rfl) (fun _ _ _ => rfl) (fun t => by rw [hafter]; unfold Dat.blockOf iblk12; rw [hA]; try rfl) t d).trans
    (by unfold Dat.fetched Dat.blockOf iblk12; rw [hA]; try rfl)

/-! ## What the body's stores leave -/

abbrev r12_5k : Rect S5000x128 := Rect.unit (s := S5000x128) ![0, 0] S5000x128.size inb_S5000x128_S5000x128_0_0
abbrev r12_128 : Rect S128x128 := Rect.unit (s := S128x128) ![0, 0] S128x128.size inb_S128x128_S128x128_0_0
abbrev r12_1x128 : Rect S1x128 := Rect.unit (s := S1x128) ![0, 0] S1x128.size inb_S1x128_S1x128_0_0
abbrev r12_128x10 : Rect S128x10 := Rect.unit (s := S128x10) ![0, 0] S128x10.size inb_S128x10_S128x10_0_0
abbrev r12_1x10 : Rect S1x10 := Rect.unit (s := S1x10) ![0, 0] S1x10.size inb_S1x10_S1x10_0_0

/-- The scratch after the zero fill. -/
def zero12 : Vec F S128x128 .f32 := View.canon [⟨r12_128, k12_pay1 (F := F)⟩]

/-- One accumulation step: the scratch at `s`, after a point whose feature block is `x0` and one-hot block `x1`. -/
def acc12 (x0 : Vec F S5000x128 .f32) (x1 : Vec F S5000x128 .bf16) (s : Vec F S128x128 .f32) : Vec F S128x128 .f32 :=
  View.canon [⟨r12_128, k12_pay2 (View.ld x1 r12_5k) (View.ld x0 r12_5k) (View.ld s r12_128)⟩]

/-- The head: what the last point stores into window 8, from the accumulated value `a` and the six parameter blocks. -/
def head12 (a : Vec F S128x128 .f32) (x2 : Vec F S128x128 .f32) (x3 : Vec F S1x128 .f32) (x4 : Vec F S128x128 .f32) (x5 : Vec F S1x128 .f32)
    (x6 : Vec F S128x10 .f32) (x7 : Vec F S1x10 .f32) : Vec F S128x10 .f32 :=
  View.canon [⟨r12_128x10, k12_pay3
    (k12_pay4 (View.ld a r12_128) (View.ld x2 r12_128) (View.ld x3 r12_1x128) (View.ld x4 r12_128) (View.ld x5 r12_1x128) (View.ld x6 r12_128x10) (View.ld x7 r12_1x10))
    (k12_pay5 (View.ld a r12_128) (View.ld x2 r12_128) (View.ld x3 r12_1x128) (View.ld x4 r12_128) (View.ld x5 r12_1x128) (View.ld x6 r12_128x10) (View.ld x7 r12_1x10))⟩]

/-- One whole-buffer store covers its buffer. -/
theorem cover12_128 (p0 : Vec F S128x128 .f32) (y : S128x128.Idx) :
    ∃ pc ∈ ([⟨r12_128, p0⟩] : List (View.Piece (Elt F) S128x128 .f32)), y ∈ pc.1.set :=
  View.cover_of_tiled [⟨r12_128, p0⟩] S128x128.size (by rfl) y
theorem cover12_128x10 (p0 : Vec F S128x10 .f32) (y : S128x10.Idx) :
    ∃ pc ∈ ([⟨r12_128x10, p0⟩] : List (View.Piece (Elt F) S128x10 .f32)), y ∈ pc.1.set :=
  View.cover_of_tiled [⟨r12_128x10, p0⟩] S128x10.size (by rfl) y

/-! ## The body's triple, case by case -/

set_option maxHeartbeats 1000000 in
/-- A middle point (neither conditional taken): the scratch at `s` goes to `acc12 x0 x1 s`; windows 0 and 1 are read. -/
theorem run12_mid (c : Dev nD) (E : Set ℕ) (i : grid12.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S128x10 .f32) (harg9 : arg9.IsWhole) (arg10 : Memref sig .tc .vmem S128x128 .f32) (harg10 : arg10.IsWhole)
    (hc0 : ¬cond12_0 i) (hc1 : ¬k12_cond2 i = 1#1)
    (x0 : Vec F S5000x128 .f32) (x1 : Vec F S5000x128 .bf16) (s : Vec F S128x128 .f32) (K : PUnit → sProp 𝕄) :
    iprop(owns (c : Thread nD τ) arg1 fullShare x0 ∗ owns (c : Thread nD τ) arg2 fullShare x1 ∗ owns (c : Thread nD τ) arg10 fullShare s
        ∗ (iprop(owns (c : Thread nD τ) arg1 fullShare x0 ∗ owns (c : Thread nD τ) arg2 fullShare x1 ∗ owns (c : Thread nD τ) arg10 fullShare (acc12 x0 x1 s)) -∗ K ⟨⟩))
      ⊢ wp frame (wpE (defs₀ (F := F)) Variants.none c none) E (cc12__pool_head_kernel i arg1 harg1 arg2 harg2 arg3 harg3 arg4 harg4 arg5 harg5 arg6 harg6 arg7 harg7 arg8 harg8 arg9 harg9 arg10 harg10) K := by
  simp only [cc12__pool_head_kernel_eq_skeleton]; unfold cc12__pool_head_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  exact View.read_writes_eq_canon _ _ _ (cover12_128 _)

set_option maxHeartbeats 1000000 in
/-- The first point (the zero fill taken, the head not): the scratch at anything goes to `acc12 x0 x1 zero12`. -/
theorem run12_first (c : Dev nD) (E : Set ℕ) (i : grid12.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S128x10 .f32) (harg9 : arg9.IsWhole) (arg10 : Memref sig .tc .vmem S128x128 .f32) (harg10 : arg10.IsWhole)
    (hc0 : cond12_0 i) (hc1 : ¬k12_cond2 i = 1#1)
    (x0 : Vec F S5000x128 .f32) (x1 : Vec F S5000x128 .bf16) (K : PUnit → sProp 𝕄) :
    iprop(owns (c : Thread nD τ) arg1 fullShare x0 ∗ owns (c : Thread nD τ) arg2 fullShare x1 ∗ (∃ d, owns (c : Thread nD τ) arg10 fullShare d)
        ∗ (iprop(owns (c : Thread nD τ) arg1 fullShare x0 ∗ owns (c : Thread nD τ) arg2 fullShare x1 ∗ owns (c : Thread nD τ) arg10 fullShare (acc12 x0 x1 zero12)) -∗ K ⟨⟩))
      ⊢ wp frame (wpE (defs₀ (F := F)) Variants.none c none) E (cc12__pool_head_kernel i arg1 harg1 arg2 harg2 arg3 harg3 arg4 harg4 arg5 harg5 arg6 harg6 arg7 harg7 arg8 harg8 arg9 harg9 arg10 harg10) K := by
  simp only [cc12__pool_head_kernel_eq_skeleton]; unfold cc12__pool_head_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [View.readCov_eq_canon_ld _ _ _ (cover12_128 _)]
  exact View.read_writes_eq_canon arg10.view (arg10.view.writes (Elt F) fs [_]) [_] (cover12_128 _)

set_option maxHeartbeats 1000000 in
/-- The last point (the head taken, the zero fill not): the scratch at `s` goes to `a := acc12 x0 x1 s`, and window 8 to
    the head of `a` and the parameter blocks; windows 0 to 7 are read. -/
theorem run12_last (c : Dev nD) (E : Set ℕ) (i : grid12.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S128x10 .f32) (harg9 : arg9.IsWhole) (arg10 : Memref sig .tc .vmem S128x128 .f32) (harg10 : arg10.IsWhole)
    (hc0 : ¬cond12_0 i) (hc1 : k12_cond2 i = 1#1)
    (x0 : Vec F S5000x128 .f32) (x1 : Vec F S5000x128 .bf16) (x2 : Vec F S128x128 .f32) (x3 : Vec F S1x128 .f32) (x4 : Vec F S128x128 .f32) (x5 : Vec F S1x128 .f32)
    (x6 : Vec F S128x10 .f32) (x7 : Vec F S1x10 .f32) (s : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ owns (c : Thread nD τ) arg10 fullShare s
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (head12 (acc12 x0 x1 s) x2 x3 x4 x5 x6 x7) ∗ owns (c : Thread nD τ) arg10 fullShare (acc12 x0 x1 s)) -∗ K ⟨⟩))
      ⊢ wp frame (wpE (defs₀ (F := F)) Variants.none c none) E (cc12__pool_head_kernel i arg1 harg1 arg2 harg2 arg3 harg3 arg4 harg4 arg5 harg5 arg6 harg6 arg7 harg7 arg8 harg8 arg9 harg9 arg10 harg10) K := by
  simp only [cc12__pool_head_kernel_eq_skeleton]; unfold cc12__pool_head_kernel_skel
  simp only [k12_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
  subst hf0; subst hf1; subst hf2; subst hf3; subst hf4; subst hf5; subst hf6; subst hf7; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_run_names
    rw [View.readCov_eq_canon_ld _ _ _ (cover12_128 _)]
    exact View.read_writes_eq_canon _ _ _ (cover12_128x10 _)
  iexists _; isplitr
  swap; · iexact HS
  ipureintro
  sl_unfold_run_names
  exact View.read_writes_eq_canon _ _ _ (cover12_128 _)

/-! ## The accumulated value, by recursion on the point -/

/-- The scratch operand: a whole scoped buffer of the kernel's own. -/
abbrev scM12 : Memref sig .tc .vmem S128x128 .f32 := Memref.whole cc12_scratch0

/-- The value in the scratch after the points below `n` (and the zero fill): zeros, then one accumulation step per point. -/
def accAt12 (c : Dev nD) : ℕ → Vec F S128x128 .f32
  | 0 => zero12
  | n + 1 => if h : n < cfg12.N then acc12 (iblk12 V c 0 ⟨n, h⟩) (iblk12 V c 1 ⟨n, h⟩) (accAt12 c n) else accAt12 c n

theorem accAt12_zero (c : Dev nD) (n : ℕ) (h : n = 0) : accAt12 V c n = zero12 := by subst h; rfl
theorem accAt12_succ (c : Dev nD) (t : Fin cfg12.N) :
    accAt12 V c (t.val + 1) = acc12 (iblk12 V c 0 t) (iblk12 V c 1 t) (accAt12 V c t.val) := by
  rw [accAt12, dif_pos t.isLt]

/-- The scratch as the invariant holds it before point `n`: at some contents before the first point, then at the
    value accumulated so far. -/
def scr12 (c : Dev nD) : ℕ → sProp 𝕄
  | 0 => iprop(∃ d, owns (c : Thread nD τ) scM12 fullShare d)
  | n + 1 => owns (c : Thread nD τ) scM12 fullShare (accAt12 V c (n + 1))

theorem scr12_zero (c : Dev nD) (n : ℕ) (h : n = 0) : scr12 V c n = iprop(∃ d, owns (c : Thread nD τ) scM12 fullShare d) := by
  subst h; rfl
theorem scr12_pos (c : Dev nD) (n : ℕ) (h : n ≠ 0) : scr12 V c n = owns (c : Thread nD τ) scM12 fullShare (accAt12 V c n) := by
  cases n with
  | zero => exact absurd rfl h
  | succ n => rfl

/-- The region's invariant before point `n`: every scoped buffer that is neither a staging buffer nor the scratch at
    some contents, the generator register at some state, and the scratch as `scr12` names it. -/
def Φ12 (c : Dev nD) (n : ℕ) : sProp 𝕄 :=
  iprop(Pipeline.scopedRestBut (Ix := Unit) (Name := ℕ) (U := Pipeline.UD sig nD τ) (Lvl := ℕ) (Val := Elt F) spec12 c [cc12_scratch0]
    ∗ (∃ r, prngReg c r) ∗ scr12 V c n)

/-! ## The pipeline's proof data -/

/-- The proof data of the region on core `c`: the arrays as the region finds them; after the body each input's buffer
    at its block, window 8's at the head of the value accumulated through the point (consulted at the last point
    only: elsewhere the window is idle); the invariant `Φ12`; nothing owed; full shares. -/
def dat12 (c : Dev nD) : Dat τ (Elt F) Unit ℕ (Pipeline.UD sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => iblk12 V c 7 t
    | ⟨8, _⟩ => head12 (accAt12 V c (t.val + 1)) (iblk12 V c 2 t) (iblk12 V c 3 t) (iblk12 V c 4 t) (iblk12 V c 5 t) (iblk12 V c 6 t) (iblk12 V c 7 t)
  Φ t := Φ12 V c t.val
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = iblk12 V c 7 t := by dsimp only [dat12]
theorem after12_8 (c : Dev nD) (t : Fin cfg12.N) : (dat12 V c).after 8 t
    = head12 (accAt12 V c (t.val + 1)) (iblk12 V c 2 t) (iblk12 V c 3 t) (iblk12 V c 4 t) (iblk12 V c 5 t) (iblk12 V c 6 t) (iblk12 V c 7 t) := by
  dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d
theorem before12_6 (c : Dev nD) (t : Fin cfg12.N) (d) : (dat12 V c).before 6 t d = iblk12 V c 6 t :=
  before12_6_of V (dat12 V c) (A_eq12 V c 6) (after12_6 V c) t d
theorem before12_7 (c : Dev nD) (t : Fin cfg12.N) (d) : (dat12 V c).before 7 t d = iblk12 V c 7 t :=
  before12_7_of V (dat12 V c) (A_eq12 V c 7) (after12_7 V c) t d

/-- A live input window's buffer is left at its block. -/
theorem leaves12_0 (c : Dev nD) (t : Fin cfg12.N) :
    (dat12 V c).leavesExact 0 t = owns (c : Thread nD τ) (st12_0 t) fullShare (iblk12 V c 0 t) := by
  unfold Dat.leavesExact; rw [liveAt12_0 t, after12_0]
theorem leaves12_1 (c : Dev nD) (t : Fin cfg12.N) :
    (dat12 V c).leavesExact 1 t = owns (c : Thread nD τ) (st12_1 t) fullShare (iblk12 V c 1 t) := by
  unfold Dat.leavesExact; rw [liveAt12_1 t, after12_1]
theorem leaves12_2 (c : Dev nD) (t : Fin cfg12.N) :
    (dat12 V c).leavesExact 2 t = owns (c : Thread nD τ) (st12_2 t) fullShare (iblk12 V c 2 t) := by
  unfold Dat.leavesExact; rw [liveAt12_2 t, after12_2]
theorem leaves12_3 (c : Dev nD) (t : Fin cfg12.N) :
    (dat12 V c).leavesExact 3 t = owns (c : Thread nD τ) (st12_3 t) fullShare (iblk12 V c 3 t) := by
  unfold Dat.leavesExact; rw [liveAt12_3 t, after12_3]
theorem leaves12_4 (c : Dev nD) (t : Fin cfg12.N) :
    (dat12 V c).leavesExact 4 t = owns (c : Thread nD τ) (st12_4 t) fullShare (iblk12 V c 4 t) := by
  unfold Dat.leavesExact; rw [liveAt12_4 t, after12_4]
theorem leaves12_5 (c : Dev nD) (t : Fin cfg12.N) :
    (dat12 V c).leavesExact 5 t = owns (c : Thread nD τ) (st12_5 t) fullShare (iblk12 V c 5 t) := by
  unfold Dat.leavesExact; rw [liveAt12_5 t, after12_5]
theorem leaves12_6 (c : Dev nD) (t : Fin cfg12.N) :
    (dat12 V c).leavesExact 6 t = owns (c : Thread nD τ) (st12_6 t) fullShare (iblk12 V c 6 t) := by
  unfold Dat.leavesExact; rw [liveAt12_6 t, after12_6]
theorem leaves12_7 (c : Dev nD) (t : Fin cfg12.N) :
    (dat12 V c).leavesExact 7 t = owns (c : Thread nD τ) (st12_7 t) fullShare (iblk12 V c 7 t) := by
  unfold Dat.leavesExact; rw [liveAt12_7 t, after12_7]

/-! ## The body obligation, at a generic point -/

def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d))
    ∗ (∃ d, owns (c : Thread nD τ) (st12_8 t) fullShare ((dat12 V c).before 8 t d)))

def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t
    ∗ (dat12 V c).leavesExact 3 t
    ∗ (dat12 V c).leavesExact 4 t
    ∗ (dat12 V c).leavesExact 5 t
    ∗ (dat12 V c).leavesExact 6 t
    ∗ (dat12 V c).leavesExact 7 t
    ∗ (dat12 V c).leavesExact 8 t)

set_option maxHeartbeats 4000000 in
/-- The body at any point, by the point's case: the inputs' memrefs hold their blocks; the invariant hands the body the
    scratch at the value accumulated so far (at anything before the first point) and takes it back one step on; window 8
    is handed back as found where the head does not run, and left at the head's value where it does. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6, before12_7]
  rw [show (dat12 V c).owesAt () t.succ = (dat12 V c).owesAt () t.castSucc from rfl]
  rw [leaves12_0, leaves12_1, leaves12_2, leaves12_3, leaves12_4, leaves12_5, leaves12_6, leaves12_7]
  rw [show (dat12 V c).Φ t.castSucc = Φ12 V c t.val from rfl, show (dat12 V c).Φ t.succ = Φ12 V c (t.val + 1) from rfl]
  unfold Φ12
  rw [scr12_pos V c (t.val + 1) (Nat.succ_ne_zero _), accAt12_succ V c t]
  have hN : t.val < 10 := lt_of_lt_of_eq t.isLt (show cfg12.N = 10 from N_12)
  by_cases h0 : t.val = 0
  · have hc0 : cond12_0 (grid12.coords t) := (hcond12_0 t).mpr h0
    have hc1 : ¬k12_cond2 (grid12.coords t) = 1#1 := fun h => by have := (hcond12_1 t).mp h; omega
    rw [Dat.leavesExact_idle (dat12 V c) 8 t (idleAt12_8 t hc1) (noFlush12_8 t hc1)]
    rw [scr12_zero V c t.val h0, accAt12_zero V c t.val h0]
    iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run12_first c Set.univ (grid12.coords t) _ _ _ _ _ _ _ _ _ _ _ _ _ _ _ _ _ _ _ _ hc0 hc1 (iblk12 V c 0 t) (iblk12 V c 1 t) _)
    isplitl [H0]; · iexact H0
    isplitl [H1]; · iexact H1
    isplitl [HS]; · iexact HS
    iintro ⟨H0, H1, HS⟩
    isplitl [HR Hg HS]
    · isplitl [HR]; · iexact HR
      isplitl [Hg]; · iexact Hg
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists d8; iexact H8
  by_cases h9 : t.val = 9
  · have hc0 : ¬cond12_0 (grid12.coords t) := fun h => h0 ((hcond12_0 t).mp h)
    have hc1 : k12_cond2 (grid12.coords t) = 1#1 := (hcond12_1 t).mpr h9
    rw [show (dat12 V c).leavesExact 8 t = owns (c : Thread nD τ) (st12_8 t) fullShare ((dat12 V c).after 8 t) from by
      unfold Dat.leavesExact; rw [liveAt12_8 t hc1], after12_8, accAt12_succ V c t]
    rw [scr12_pos V c t.val h0]
    iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run12_last c Set.univ (grid12.coords t) _ _ _ _ _ _ _ _ _ _ _ _ _ _ _ _ _ _ _ _ hc0 hc1 (iblk12 V c 0 t) (iblk12 V c 1 t) (iblk12 V c 2 t) (iblk12 V c 3 t) (iblk12 V c 4 t) (iblk12 V c 5 t) (iblk12 V c 6 t) (iblk12 V c 7 t) (accAt12 V c t.val) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [HR Hg HS]
    · isplitl [HR]; · iexact HR
      isplitl [Hg]; · iexact Hg
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc0 : ¬cond12_0 (grid12.coords t) := fun h => h0 ((hcond12_0 t).mp h)
    have hc1 : ¬k12_cond2 (grid12.coords t) = 1#1 := fun h => h9 ((hcond12_1 t).mp h)
    rw [Dat.leavesExact_idle (dat12 V c) 8 t (idleAt12_8 t hc1) (noFlush12_8 t hc1)]
    rw [scr12_pos V c t.val h0]
    iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run12_mid c Set.univ (grid12.coords t) _ _ _ _ _ _ _ _ _ _ _ _ _ _ _ _ _ _ _ _ hc0 hc1 (iblk12 V c 0 t) (iblk12 V c 1 t) (accAt12 V c t.val) _)
    isplitl [H0]; · iexact H0
    isplitl [H1]; · iexact H1
    isplitl [HS]; · iexact HS
    iintro ⟨H0, H1, HS⟩
    isplitl [HR Hg HS]
    · isplitl [HR]; · iexact HR
      isplitl [Hg]; · iexact Hg
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists d8; iexact H8

/-- The library's body obligation, at every point. -/
theorem body_obligation12 (c : Dev nD) : BodyObligation (dat12 (F := F) V c) (defs₀ (F := F)) Variants.none () Set.univ := fun t => by
  rw [bigSep_W12, bigSep_W12]
  exact sound_body12 V c t

/-! ## Into the invariant and out of it -/

/-- The generator register and the scoped buffers no window stages make the invariant before the first point: the
    scratch is one of those buffers, at some contents. -/
theorem hin12 (c : Dev nD) : (iprop((∃ r, prngReg c r) ∗ Pipeline.scopedRest spec12 c) : sProp 𝕄) ⊢ (dat12 V c).Φ 0 := by
  rw [show (dat12 V c).Φ 0 = Φ12 V c 0 from rfl]; unfold Φ12
  rw [scopedRest12_split c, scr12_zero V c 0 rfl]; simp only [owns_whole]
  iintro ⟨Hg, Hs, HR⟩
  isplitl [HR]; · iexact HR
  isplitl [Hg]; · iexact Hg
  iexact Hs

/-- After the last point the invariant gives them back: the scratch's named contents are forgotten. -/
theorem hout12 (c : Dev nD) : (dat12 V c).Φ (Fin.last cfg12.N) ⊢ (iprop((∃ r, prngReg c r) ∗ Pipeline.scopedRest spec12 c) : sProp 𝕄) := by
  rw [show (dat12 V c).Φ (Fin.last cfg12.N) = Φ12 V c cfg12.N from rfl]; unfold Φ12
  rw [scopedRest12_split c, scr12_pos V c cfg12.N (by rw [show cfg12.N = 10 from N_12]; decide)]; simp only [owns_whole]
  iintro ⟨HR, Hg, Hs⟩
  isplitl [Hg]; · iexact Hg
  isplitl [Hs]; · iexists _; iexact Hs
  iexact HR

end Region12

end Cert.Kernel.Hand

end
-- ==== Proof.K.Run.lean ====
import proofs.«408428_j10917806867267_1_alg».proof.Proof.Gen.Kernel.Launch
import proofs.«408428_j10917806867267_1_alg».proof.Proof.Gen.Kernel.Regions
import proofs.«408428_j10917806867267_1_alg».proof.Proof.K.Reg0
import proofs.«408428_j10917806867267_1_alg».proof.Proof.K.Reg1
import proofs.«408428_j10917806867267_1_alg».proof.Proof.K.Reg2
import proofs.«408428_j10917806867267_1_alg».proof.Proof.K.Reg3
import proofs.«408428_j10917806867267_1_alg».proof.Proof.K.Reg4
import proofs.«408428_j10917806867267_1_alg».proof.Proof.K.Reg5
import proofs.«408428_j10917806867267_1_alg».proof.Proof.K.Reg6
import proofs.«408428_j10917806867267_1_alg».proof.Proof.K.Reg7
import proofs.«408428_j10917806867267_1_alg».proof.Proof.K.Reg8
import proofs.«408428_j10917806867267_1_alg».proof.Proof.K.Reg9
import proofs.«408428_j10917806867267_1_alg».proof.Proof.K.Reg10
import proofs.«408428_j10917806867267_1_alg».proof.Proof.K.Reg11
import proofs.«408428_j10917806867267_1_alg».proof.Proof.K.Reg12
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The program as thirteen host stretches and thirteen pipeline regions

The buffers of a core are followed from the launch memory through the program: a host stretch replaces them by the
stretch's operations applied to them; a region leaves its windows' arrays at what its write-backs fold to and every other
buffer as it was. Each region is entered from the buffers the stretch before it leaves and is certified by its own
module (its proof data at those entry contents, its body obligation, and the two entailments that hand the invariant
the scoped buffers and take them back). The run theorem says: every weakly fair execution ends, nothing faults, and
every unscoped buffer ends at the last of these valuations. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers at every boundary -/

/-- Core c's unscoped buffers at launch. -/
abbrev Wl : Dev nD → Valuation τ sig (Elt F) := fun c b => m ((c : Dev nD), b)

/-- After host stretch 0: its operations applied to what came before. -/
def Wh0 (c : Dev nD) : Valuation τ sig (Elt F) := StableHlo.after hostOps0 (Wl m c)
/-- The same, read at the TensorCore's references: the entry contents of region 0. -/
abbrev Vh0 : (c : Dev nD) → (b : Ref sig .tc) → Buf (Elt F) ((c : Thread nD τ).loc b) := fun c b => Wh0 m c b
/-- After region 0: its windows' arrays at what the write-backs fold to, every other buffer as entered. -/
def Wr0 (c : Dev nD) : Valuation τ sig (Elt F) :=
  Pipeline.withArrays spec0 c (Wh0 m c) fun w => (dat0 (Vh0 m) c).arrAt w cfg0.N
theorem Wr0_arr (c : Dev nD) (w : Fin cfg0.W) :
    Wr0 m c (Proc.devRef .tc (Pipeline.arrRef spec0 w)) = (dat0 (Vh0 m) c).arrAt w cfg0.N := by
  unfold Wr0; exact Pipeline.withArrays_arr spec0 launch0.win.arr_inj c _ _ w
theorem Wr0_of_ne (c : Dev nD) (b : Ref sig .tc) (hb : ∀ w, Pipeline.arrRef spec0 w ≠ b) :
    Wr0 m c (Proc.devRef .tc b) = Wh0 m c (Proc.devRef .tc b) := by
  unfold Wr0; exact Pipeline.withArrays_of_ne spec0 c _ _ b hb
abbrev Vr0 : (c : Dev nD) → (b : Ref sig .tc) → Buf (Elt F) ((c : Thread nD τ).loc b) := fun c b => Wr0 m c b
theorem arrays_left0 (c : Dev nD) (w : Fin cfg0.W) :
    (dat0 (Vh0 m) c).arrAt w cfg0.N = Vr0 m c (Pipeline.arrRef spec0 w) := (Wr0_arr m c w).symm
theorem others_kept0 (c : Dev nD) : ∀ b, b ∉ Finset.univ.image (Pipeline.arrRef spec0) → Vr0 m c b = Vh0 m c b :=
  fun b hb => Wr0_of_ne m c b fun w e => hb (Finset.mem_image.mpr ⟨w, Finset.mem_univ _, e⟩)
theorem Wh0_of (c : Dev nD) (r : Ref sig .tc) (h : r ∉ hostOps0_W) : Wh0 m c r = Wl m c r :=
  StableHlo.after_of_writes_sub hostOps0 _ hostOps0_writes h

/-- After host stretch 1: its operations applied to what came before. -/
def Wh1 (c : Dev nD) : Valuation τ sig (Elt F) := StableHlo.after hostOps1 (Wr0 m c)
/-- The same, read at the TensorCore's references: the entry contents of region 1. -/
abbrev Vh1 : (c : Dev nD) → (b : Ref sig .tc) → Buf (Elt F) ((c : Thread nD τ).loc b) := fun c b => Wh1 m c b
/-- After region 1: its windows' arrays at what the write-backs fold to, every other buffer as entered. -/
def Wr1 (c : Dev nD) : Valuation τ sig (Elt F) :=
  Pipeline.withArrays spec1 c (Wh1 m c) fun w => (dat1 (Vh1 m) c).arrAt w cfg1.N
theorem Wr1_arr (c : Dev nD) (w : Fin cfg1.W) :
    Wr1 m c (Proc.devRef .tc (Pipeline.arrRef spec1 w)) = (dat1 (Vh1 m) c).arrAt w cfg1.N := by
  unfold Wr1; exact Pipeline.withArrays_arr spec1 launch1.win.arr_inj c _ _ w
theorem Wr1_of_ne (c : Dev nD) (b : Ref sig .tc) (hb : ∀ w, Pipeline.arrRef spec1 w ≠ b) :
    Wr1 m c (Proc.devRef .tc b) = Wh1 m c (Proc.devRef .tc b) := by
  unfold Wr1; exact Pipeline.withArrays_of_ne spec1 c _ _ b hb
abbrev Vr1 : (c : Dev nD) → (b : Ref sig .tc) → Buf (Elt F) ((c : Thread nD τ).loc b) := fun c b => Wr1 m c b
theorem arrays_left1 (c : Dev nD) (w : Fin cfg1.W) :
    (dat1 (Vh1 m) c).arrAt w cfg1.N = Vr1 m c (Pipeline.arrRef spec1 w) := (Wr1_arr m c w).symm
theorem others_kept1 (c : Dev nD) : ∀ b, b ∉ Finset.univ.image (Pipeline.arrRef spec1) → Vr1 m c b = Vh1 m c b :=
  fun b hb => Wr1_of_ne m c b fun w e => hb (Finset.mem_image.mpr ⟨w, Finset.mem_univ _, e⟩)
theorem Wh1_of (c : Dev nD) (r : Ref sig .tc) (h : r ∉ hostOps1_W) : Wh1 m c r = Wr0 m c r :=
  StableHlo.after_of_writes_sub hostOps1 _ hostOps1_writes h

/-- After host stretch 2: its operations applied to what came before. -/
def Wh2 (c : Dev nD) : Valuation τ sig (Elt F) := StableHlo.after hostOps2 (Wr1 m c)
/-- The same, read at the TensorCore's references: the entry contents of region 2. -/
abbrev Vh2 : (c : Dev nD) → (b : Ref sig .tc) → Buf (Elt F) ((c : Thread nD τ).loc b) := fun c b => Wh2 m c b
/-- After region 2: its windows' arrays at what the write-backs fold to, every other buffer as entered. -/
def Wr2 (c : Dev nD) : Valuation τ sig (Elt F) :=
  Pipeline.withArrays spec2 c (Wh2 m c) fun w => (dat2 (Vh2 m) c).arrAt w cfg2.N
theorem Wr2_arr (c : Dev nD) (w : Fin cfg2.W) :
    Wr2 m c (Proc.devRef .tc (Pipeline.arrRef spec2 w)) = (dat2 (Vh2 m) c).arrAt w cfg2.N := by
  unfold Wr2; exact Pipeline.withArrays_arr spec2 launch2.win.arr_inj c _ _ w
theorem Wr2_of_ne (c : Dev nD) (b : Ref sig .tc) (hb : ∀ w, Pipeline.arrRef spec2 w ≠ b) :
    Wr2 m c (Proc.devRef .tc b) = Wh2 m c (Proc.devRef .tc b) := by
  unfold Wr2; exact Pipeline.withArrays_of_ne spec2 c _ _ b hb
abbrev Vr2 : (c : Dev nD) → (b : Ref sig .tc) → Buf (Elt F) ((c : Thread nD τ).loc b) := fun c b => Wr2 m c b
theorem arrays_left2 (c : Dev nD) (w : Fin cfg2.W) :
    (dat2 (Vh2 m) c).arrAt w cfg2.N = Vr2 m c (Pipeline.arrRef spec2 w) := (Wr2_arr m c w).symm
theorem others_kept2 (c : Dev nD) : ∀ b, b ∉ Finset.univ.image (Pipeline.arrRef spec2) → Vr2 m c b = Vh2 m c b :=
  fun b hb => Wr2_of_ne m c b fun w e => hb (Finset.mem_image.mpr ⟨w, Finset.mem_univ _, e⟩)
theorem Wh2_of (c : Dev nD) (r : Ref sig .tc) (h : r ∉ hostOps2_W) : Wh2 m c r = Wr1 m c r :=
  StableHlo.after_of_writes_sub hostOps2 _ hostOps2_writes h

/-- After host stretch 3: its operations applied to what came before. -/
def Wh3 (c : Dev nD) : Valuation τ sig (Elt F) := StableHlo.after hostOps3 (Wr2 m c)
/-- The same, read at the TensorCore's references: the entry contents of region 3. -/
abbrev Vh3 : (c : Dev nD) → (b : Ref sig .tc) → Buf (Elt F) ((c : Thread nD τ).loc b) := fun c b => Wh3 m c b
/-- After region 3: its windows' arrays at what the write-backs fold to, every other buffer as entered. -/
def Wr3 (c : Dev nD) : Valuation τ sig (Elt F) :=
  Pipeline.withArrays spec3 c (Wh3 m c) fun w => (dat3 (Vh3 m) c).arrAt w cfg3.N
theorem Wr3_arr (c : Dev nD) (w : Fin cfg3.W) :
    Wr3 m c (Proc.devRef .tc (Pipeline.arrRef spec3 w)) = (dat3 (Vh3 m) c).arrAt w cfg3.N := by
  unfold Wr3; exact Pipeline.withArrays_arr spec3 launch3.win.arr_inj c _ _ w
theorem Wr3_of_ne (c : Dev nD) (b : Ref sig .tc) (hb : ∀ w, Pipeline.arrRef spec3 w ≠ b) :
    Wr3 m c (Proc.devRef .tc b) = Wh3 m c (Proc.devRef .tc b) := by
  unfold Wr3; exact Pipeline.withArrays_of_ne spec3 c _ _ b hb
abbrev Vr3 : (c : Dev nD) → (b : Ref sig .tc) → Buf (Elt F) ((c : Thread nD τ).loc b) := fun c b => Wr3 m c b
theorem arrays_left3 (c : Dev nD) (w : Fin cfg3.W) :
    (dat3 (Vh3 m) c).arrAt w cfg3.N = Vr3 m c (Pipeline.arrRef spec3 w) := (Wr3_arr m c w).symm
theorem others_kept3 (c : Dev nD) : ∀ b, b ∉ Finset.univ.image (Pipeline.arrRef spec3) → Vr3 m c b = Vh3 m c b :=
  fun b hb => Wr3_of_ne m c b fun w e => hb (Finset.mem_image.mpr ⟨w, Finset.mem_univ _, e⟩)
theorem Wh3_of (c : Dev nD) (r : Ref sig .tc) (h : r ∉ hostOps3_W) : Wh3 m c r = Wr2 m c r :=
  StableHlo.after_of_writes_sub hostOps3 _ hostOps3_writes h

/-- After host stretch 4: its operations applied to what came before. -/
def Wh4 (c : Dev nD) : Valuation τ sig (Elt F) := StableHlo.after hostOps4 (Wr3 m c)
/-- The same, read at the TensorCore's references: the entry contents of region 4. -/
abbrev Vh4 : (c : Dev nD) → (b : Ref sig .tc) → Buf (Elt F) ((c : Thread nD τ).loc b) := fun c b => Wh4 m c b
/-- After region 4: its windows' arrays at what the write-backs fold to, every other buffer as entered. -/
def Wr4 (c : Dev nD) : Valuation τ sig (Elt F) :=
  Pipeline.withArrays spec4 c (Wh4 m c) fun w => (dat4 (Vh4 m) c).arrAt w cfg4.N
theorem Wr4_arr (c : Dev nD) (w : Fin cfg4.W) :
    Wr4 m c (Proc.devRef .tc (Pipeline.arrRef spec4 w)) = (dat4 (Vh4 m) c).arrAt w cfg4.N := by
  unfold Wr4; exact Pipeline.withArrays_arr spec4 launch4.win.arr_inj c _ _ w
theorem Wr4_of_ne (c : Dev nD) (b : Ref sig .tc) (hb : ∀ w, Pipeline.arrRef spec4 w ≠ b) :
    Wr4 m c (Proc.devRef .tc b) = Wh4 m c (Proc.devRef .tc b) := by
  unfold Wr4; exact Pipeline.withArrays_of_ne spec4 c _ _ b hb
abbrev Vr4 : (c : Dev nD) → (b : Ref sig .tc) → Buf (Elt F) ((c : Thread nD τ).loc b) := fun c b => Wr4 m c b
theorem arrays_left4 (c : Dev nD) (w : Fin cfg4.W) :
    (dat4 (Vh4 m) c).arrAt w cfg4.N = Vr4 m c (Pipeline.arrRef spec4 w) := (Wr4_arr m c w).symm
theorem others_kept4 (c : Dev nD) : ∀ b, b ∉ Finset.univ.image (Pipeline.arrRef spec4) → Vr4 m c b = Vh4 m c b :=
  fun b hb => Wr4_of_ne m c b fun w e => hb (Finset.mem_image.mpr ⟨w, Finset.mem_univ _, e⟩)
theorem Wh4_of (c : Dev nD) (r : Ref sig .tc) (h : r ∉ hostOps4_W) : Wh4 m c r = Wr3 m c r :=
  StableHlo.after_of_writes_sub hostOps4 _ hostOps4_writes h

/-- After host stretch 5: its operations applied to what came before. -/
def Wh5 (c : Dev nD) : Valuation τ sig (Elt F) := StableHlo.after hostOps5 (Wr4 m c)
/-- The same, read at the TensorCore's references: the entry contents of region 5. -/
abbrev Vh5 : (c : Dev nD) → (b : Ref sig .tc) → Buf (Elt F) ((c : Thread nD τ).loc b) := fun c b => Wh5 m c b
/-- After region 5: its windows' arrays at what the write-backs fold to, every other buffer as entered. -/
def Wr5 (c : Dev nD) : Valuation τ sig (Elt F) :=
  Pipeline.withArrays spec5 c (Wh5 m c) fun w => (dat5 (Vh5 m) c).arrAt w cfg5.N
theorem Wr5_arr (c : Dev nD) (w : Fin cfg5.W) :
    Wr5 m c (Proc.devRef .tc (Pipeline.arrRef spec5 w)) = (dat5 (Vh5 m) c).arrAt w cfg5.N := by
  unfold Wr5; exact Pipeline.withArrays_arr spec5 launch5.win.arr_inj c _ _ w
theorem Wr5_of_ne (c : Dev nD) (b : Ref sig .tc) (hb : ∀ w, Pipeline.arrRef spec5 w ≠ b) :
    Wr5 m c (Proc.devRef .tc b) = Wh5 m c (Proc.devRef .tc b) := by
  unfold Wr5; exact Pipeline.withArrays_of_ne spec5 c _ _ b hb
abbrev Vr5 : (c : Dev nD) → (b : Ref sig .tc) → Buf (Elt F) ((c : Thread nD τ).loc b) := fun c b => Wr5 m c b
theorem arrays_left5 (c : Dev nD) (w : Fin cfg5.W) :
    (dat5 (Vh5 m) c).arrAt w cfg5.N = Vr5 m c (Pipeline.arrRef spec5 w) := (Wr5_arr m c w).symm
theorem others_kept5 (c : Dev nD) : ∀ b, b ∉ Finset.univ.image (Pipeline.arrRef spec5) → Vr5 m c b = Vh5 m c b :=
  fun b hb => Wr5_of_ne m c b fun w e => hb (Finset.mem_image.mpr ⟨w, Finset.mem_univ _, e⟩)
theorem Wh5_of (c : Dev nD) (r : Ref sig .tc) (h : r ∉ hostOps5_W) : Wh5 m c r = Wr4 m c r :=
  StableHlo.after_of_writes_sub hostOps5 _ hostOps5_writes h

/-- After host stretch 6: its operations applied to what came before. -/
def Wh6 (c : Dev nD) : Valuation τ sig (Elt F) := StableHlo.after hostOps6 (Wr5 m c)
/-- The same, read at the TensorCore's references: the entry contents of region 6. -/
abbrev Vh6 : (c : Dev nD) → (b : Ref sig .tc) → Buf (Elt F) ((c : Thread nD τ).loc b) := fun c b => Wh6 m c b
/-- After region 6: its windows' arrays at what the write-backs fold to, every other buffer as entered. -/
def Wr6 (c : Dev nD) : Valuation τ sig (Elt F) :=
  Pipeline.withArrays spec6 c (Wh6 m c) fun w => (dat6 (Vh6 m) c).arrAt w cfg6.N
theorem Wr6_arr (c : Dev nD) (w : Fin cfg6.W) :
    Wr6 m c (Proc.devRef .tc (Pipeline.arrRef spec6 w)) = (dat6 (Vh6 m) c).arrAt w cfg6.N := by
  unfold Wr6; exact Pipeline.withArrays_arr spec6 launch6.win.arr_inj c _ _ w
theorem Wr6_of_ne (c : Dev nD) (b : Ref sig .tc) (hb : ∀ w, Pipeline.arrRef spec6 w ≠ b) :
    Wr6 m c (Proc.devRef .tc b) = Wh6 m c (Proc.devRef .tc b) := by
  unfold Wr6; exact Pipeline.withArrays_of_ne spec6 c _ _ b hb
abbrev Vr6 : (c : Dev nD) → (b : Ref sig .tc) → Buf (Elt F) ((c : Thread nD τ).loc b) := fun c b => Wr6 m c b
theorem arrays_left6 (c : Dev nD) (w : Fin cfg6.W) :
    (dat6 (Vh6 m) c).arrAt w cfg6.N = Vr6 m c (Pipeline.arrRef spec6 w) := (Wr6_arr m c w).symm
theorem others_kept6 (c : Dev nD) : ∀ b, b ∉ Finset.univ.image (Pipeline.arrRef spec6) → Vr6 m c b = Vh6 m c b :=
  fun b hb => Wr6_of_ne m c b fun w e => hb (Finset.mem_image.mpr ⟨w, Finset.mem_univ _, e⟩)
theorem Wh6_of (c : Dev nD) (r : Ref sig .tc) (h : r ∉ hostOps6_W) : Wh6 m c r = Wr5 m c r :=
  StableHlo.after_of_writes_sub hostOps6 _ hostOps6_writes h

/-- After host stretch 7: its operations applied to what came before. -/
def Wh7 (c : Dev nD) : Valuation τ sig (Elt F) := StableHlo.after hostOps7 (Wr6 m c)
/-- The same, read at the TensorCore's references: the entry contents of region 7. -/
abbrev Vh7 : (c : Dev nD) → (b : Ref sig .tc) → Buf (Elt F) ((c : Thread nD τ).loc b) := fun c b => Wh7 m c b
/-- After region 7: its windows' arrays at what the write-backs fold to, every other buffer as entered. -/
def Wr7 (c : Dev nD) : Valuation τ sig (Elt F) :=
  Pipeline.withArrays spec7 c (Wh7 m c) fun w => (dat7 (Vh7 m) c).arrAt w cfg7.N
theorem Wr7_arr (c : Dev nD) (w : Fin cfg7.W) :
    Wr7 m c (Proc.devRef .tc (Pipeline.arrRef spec7 w)) = (dat7 (Vh7 m) c).arrAt w cfg7.N := by
  unfold Wr7; exact Pipeline.withArrays_arr spec7 launch7.win.arr_inj c _ _ w
theorem Wr7_of_ne (c : Dev nD) (b : Ref sig .tc) (hb : ∀ w, Pipeline.arrRef spec7 w ≠ b) :
    Wr7 m c (Proc.devRef .tc b) = Wh7 m c (Proc.devRef .tc b) := by
  unfold Wr7; exact Pipeline.withArrays_of_ne spec7 c _ _ b hb
abbrev Vr7 : (c : Dev nD) → (b : Ref sig .tc) → Buf (Elt F) ((c : Thread nD τ).loc b) := fun c b => Wr7 m c b
theorem arrays_left7 (c : Dev nD) (w : Fin cfg7.W) :
    (dat7 (Vh7 m) c).arrAt w cfg7.N = Vr7 m c (Pipeline.arrRef spec7 w) := (Wr7_arr m c w).symm
theorem others_kept7 (c : Dev nD) : ∀ b, b ∉ Finset.univ.image (Pipeline.arrRef spec7) → Vr7 m c b = Vh7 m c b :=
  fun b hb => Wr7_of_ne m c b fun w e => hb (Finset.mem_image.mpr ⟨w, Finset.mem_univ _, e⟩)
theorem Wh7_of (c : Dev nD) (r : Ref sig .tc) (h : r ∉ hostOps7_W) : Wh7 m c r = Wr6 m c r :=
  StableHlo.after_of_writes_sub hostOps7 _ hostOps7_writes h

/-- After host stretch 8: its operations applied to what came before. -/
def Wh8 (c : Dev nD) : Valuation τ sig (Elt F) := StableHlo.after hostOps8 (Wr7 m c)
/-- The same, read at the TensorCore's references: the entry contents of region 8. -/
abbrev Vh8 : (c : Dev nD) → (b : Ref sig .tc) → Buf (Elt F) ((c : Thread nD τ).loc b) := fun c b => Wh8 m c b
/-- After region 8: its windows' arrays at what the write-backs fold to, every other buffer as entered. -/
def Wr8 (c : Dev nD) : Valuation τ sig (Elt F) :=
  Pipeline.withArrays spec8 c (Wh8 m c) fun w => (dat8 (Vh8 m) c).arrAt w cfg8.N
theorem Wr8_arr (c : Dev nD) (w : Fin cfg8.W) :
    Wr8 m c (Proc.devRef .tc (Pipeline.arrRef spec8 w)) = (dat8 (Vh8 m) c).arrAt w cfg8.N := by
  unfold Wr8; exact Pipeline.withArrays_arr spec8 launch8.win.arr_inj c _ _ w
theorem Wr8_of_ne (c : Dev nD) (b : Ref sig .tc) (hb : ∀ w, Pipeline.arrRef spec8 w ≠ b) :
    Wr8 m c (Proc.devRef .tc b) = Wh8 m c (Proc.devRef .tc b) := by
  unfold Wr8; exact Pipeline.withArrays_of_ne spec8 c _ _ b hb
abbrev Vr8 : (c : Dev nD) → (b : Ref sig .tc) → Buf (Elt F) ((c : Thread nD τ).loc b) := fun c b => Wr8 m c b
theorem arrays_left8 (c : Dev nD) (w : Fin cfg8.W) :
    (dat8 (Vh8 m) c).arrAt w cfg8.N = Vr8 m c (Pipeline.arrRef spec8 w) := (Wr8_arr m c w).symm
theorem others_kept8 (c : Dev nD) : ∀ b, b ∉ Finset.univ.image (Pipeline.arrRef spec8) → Vr8 m c b = Vh8 m c b :=
  fun b hb => Wr8_of_ne m c b fun w e => hb (Finset.mem_image.mpr ⟨w, Finset.mem_univ _, e⟩)
theorem Wh8_of (c : Dev nD) (r : Ref sig .tc) (h : r ∉ hostOps8_W) : Wh8 m c r = Wr7 m c r :=
  StableHlo.after_of_writes_sub hostOps8 _ hostOps8_writes h

/-- After host stretch 9: its operations applied to what came before. -/
def Wh9 (c : Dev nD) : Valuation τ sig (Elt F) := StableHlo.after hostOps9 (Wr8 m c)
/-- The same, read at the TensorCore's references: the entry contents of region 9. -/
abbrev Vh9 : (c : Dev nD) → (b : Ref sig .tc) → Buf (Elt F) ((c : Thread nD τ).loc b) := fun c b => Wh9 m c b
/-- After region 9: its windows' arrays at what the write-backs fold to, every other buffer as entered. -/
def Wr9 (c : Dev nD) : Valuation τ sig (Elt F) :=
  Pipeline.withArrays spec9 c (Wh9 m c) fun w => (dat9 (Vh9 m) c).arrAt w cfg9.N
theorem Wr9_arr (c : Dev nD) (w : Fin cfg9.W) :
    Wr9 m c (Proc.devRef .tc (Pipeline.arrRef spec9 w)) = (dat9 (Vh9 m) c).arrAt w cfg9.N := by
  unfold Wr9; exact Pipeline.withArrays_arr spec9 launch9.win.arr_inj c _ _ w
theorem Wr9_of_ne (c : Dev nD) (b : Ref sig .tc) (hb : ∀ w, Pipeline.arrRef spec9 w ≠ b) :
    Wr9 m c (Proc.devRef .tc b) = Wh9 m c (Proc.devRef .tc b) := by
  unfold Wr9; exact Pipeline.withArrays_of_ne spec9 c _ _ b hb
abbrev Vr9 : (c : Dev nD) → (b : Ref sig .tc) → Buf (Elt F) ((c : Thread nD τ).loc b) := fun c b => Wr9 m c b
theorem arrays_left9 (c : Dev nD) (w : Fin cfg9.W) :
    (dat9 (Vh9 m) c).arrAt w cfg9.N = Vr9 m c (Pipeline.arrRef spec9 w) := (Wr9_arr m c w).symm
theorem others_kept9 (c : Dev nD) : ∀ b, b ∉ Finset.univ.image (Pipeline.arrRef spec9) → Vr9 m c b = Vh9 m c b :=
  fun b hb => Wr9_of_ne m c b fun w e => hb (Finset.mem_image.mpr ⟨w, Finset.mem_univ _, e⟩)
theorem Wh9_of (c : Dev nD) (r : Ref sig .tc) (h : r ∉ hostOps9_W) : Wh9 m c r = Wr8 m c r :=
  StableHlo.after_of_writes_sub hostOps9 _ hostOps9_writes h

/-- After host stretch 10: its operations applied to what came before. -/
def Wh10 (c : Dev nD) : Valuation τ sig (Elt F) := StableHlo.after hostOps10 (Wr9 m c)
/-- The same, read at the TensorCore's references: the entry contents of region 10. -/
abbrev Vh10 : (c : Dev nD) → (b : Ref sig .tc) → Buf (Elt F) ((c : Thread nD τ).loc b) := fun c b => Wh10 m c b
/-- After region 10: its windows' arrays at what the write-backs fold to, every other buffer as entered. -/
def Wr10 (c : Dev nD) : Valuation τ sig (Elt F) :=
  Pipeline.withArrays spec10 c (Wh10 m c) fun w => (dat10 (Vh10 m) c).arrAt w cfg10.N
theorem Wr10_arr (c : Dev nD) (w : Fin cfg10.W) :
    Wr10 m c (Proc.devRef .tc (Pipeline.arrRef spec10 w)) = (dat10 (Vh10 m) c).arrAt w cfg10.N := by
  unfold Wr10; exact Pipeline.withArrays_arr spec10 launch10.win.arr_inj c _ _ w
theorem Wr10_of_ne (c : Dev nD) (b : Ref sig .tc) (hb : ∀ w, Pipeline.arrRef spec10 w ≠ b) :
    Wr10 m c (Proc.devRef .tc b) = Wh10 m c (Proc.devRef .tc b) := by
  unfold Wr10; exact Pipeline.withArrays_of_ne spec10 c _ _ b hb
abbrev Vr10 : (c : Dev nD) → (b : Ref sig .tc) → Buf (Elt F) ((c : Thread nD τ).loc b) := fun c b => Wr10 m c b
theorem arrays_left10 (c : Dev nD) (w : Fin cfg10.W) :
    (dat10 (Vh10 m) c).arrAt w cfg10.N = Vr10 m c (Pipeline.arrRef spec10 w) := (Wr10_arr m c w).symm
theorem others_kept10 (c : Dev nD) : ∀ b, b ∉ Finset.univ.image (Pipeline.arrRef spec10) → Vr10 m c b = Vh10 m c b :=
  fun b hb => Wr10_of_ne m c b fun w e => hb (Finset.mem_image.mpr ⟨w, Finset.mem_univ _, e⟩)
theorem Wh10_of (c : Dev nD) (r : Ref sig .tc) (h : r ∉ hostOps10_W) : Wh10 m c r = Wr9 m c r :=
  StableHlo.after_of_writes_sub hostOps10 _ hostOps10_writes h

/-- After host stretch 11: its operations applied to what came before. -/
def Wh11 (c : Dev nD) : Valuation τ sig (Elt F) := StableHlo.after hostOps11 (Wr10 m c)
/-- The same, read at the TensorCore's references: the entry contents of region 11. -/
abbrev Vh11 : (c : Dev nD) → (b : Ref sig .tc) → Buf (Elt F) ((c : Thread nD τ).loc b) := fun c b => Wh11 m c b
/-- After region 11: its windows' arrays at what the write-backs fold to, every other buffer as entered. -/
def Wr11 (c : Dev nD) : Valuation τ sig (Elt F) :=
  Pipeline.withArrays spec11 c (Wh11 m c) fun w => (dat11 (Vh11 m) c).arrAt w cfg11.N
theorem Wr11_arr (c : Dev nD) (w : Fin cfg11.W) :
    Wr11 m c (Proc.devRef .tc (Pipeline.arrRef spec11 w)) = (dat11 (Vh11 m) c).arrAt w cfg11.N := by
  unfold Wr11; exact Pipeline.withArrays_arr spec11 launch11.win.arr_inj c _ _ w
theorem Wr11_of_ne (c : Dev nD) (b : Ref sig .tc) (hb : ∀ w, Pipeline.arrRef spec11 w ≠ b) :
    Wr11 m c (Proc.devRef .tc b) = Wh11 m c (Proc.devRef .tc b) := by
  unfold Wr11; exact Pipeline.withArrays_of_ne spec11 c _ _ b hb
abbrev Vr11 : (c : Dev nD) → (b : Ref sig .tc) → Buf (Elt F) ((c : Thread nD τ).loc b) := fun c b => Wr11 m c b
theorem arrays_left11 (c : Dev nD) (w : Fin cfg11.W) :
    (dat11 (Vh11 m) c).arrAt w cfg11.N = Vr11 m c (Pipeline.arrRef spec11 w) := (Wr11_arr m c w).symm
theorem others_kept11 (c : Dev nD) : ∀ b, b ∉ Finset.univ.image (Pipeline.arrRef spec11) → Vr11 m c b = Vh11 m c b :=
  fun b hb => Wr11_of_ne m c b fun w e => hb (Finset.mem_image.mpr ⟨w, Finset.mem_univ _, e⟩)
theorem Wh11_of (c : Dev nD) (r : Ref sig .tc) (h : r ∉ hostOps11_W) : Wh11 m c r = Wr10 m c r :=
  StableHlo.after_of_writes_sub hostOps11 _ hostOps11_writes h

/-- After host stretch 12: its operations applied to what came before. -/
def Wh12 (c : Dev nD) : Valuation τ sig (Elt F) := StableHlo.after hostOps12 (Wr11 m c)
/-- The same, read at the TensorCore's references: the entry contents of region 12. -/
abbrev Vh12 : (c : Dev nD) → (b : Ref sig .tc) → Buf (Elt F) ((c : Thread nD τ).loc b) := fun c b => Wh12 m c b
/-- After region 12: its windows' arrays at what the write-backs fold to, every other buffer as entered. -/
def Wr12 (c : Dev nD) : Valuation τ sig (Elt F) :=
  Pipeline.withArrays spec12 c (Wh12 m c) fun w => (dat12 (Vh12 m) c).arrAt w cfg12.N
theorem Wr12_arr (c : Dev nD) (w : Fin cfg12.W) :
    Wr12 m c (Proc.devRef .tc (Pipeline.arrRef spec12 w)) = (dat12 (Vh12 m) c).arrAt w cfg12.N := by
  unfold Wr12; exact Pipeline.withArrays_arr spec12 launch12.win.arr_inj c _ _ w
theorem Wr12_of_ne (c : Dev nD) (b : Ref sig .tc) (hb : ∀ w, Pipeline.arrRef spec12 w ≠ b) :
    Wr12 m c (Proc.devRef .tc b) = Wh12 m c (Proc.devRef .tc b) := by
  unfold Wr12; exact Pipeline.withArrays_of_ne spec12 c _ _ b hb
abbrev Vr12 : (c : Dev nD) → (b : Ref sig .tc) → Buf (Elt F) ((c : Thread nD τ).loc b) := fun c b => Wr12 m c b
theorem arrays_left12 (c : Dev nD) (w : Fin cfg12.W) :
    (dat12 (Vh12 m) c).arrAt w cfg12.N = Vr12 m c (Pipeline.arrRef spec12 w) := (Wr12_arr m c w).symm
theorem others_kept12 (c : Dev nD) : ∀ b, b ∉ Finset.univ.image (Pipeline.arrRef spec12) → Vr12 m c b = Vh12 m c b :=
  fun b hb => Wr12_of_ne m c b fun w e => hb (Finset.mem_image.mpr ⟨w, Finset.mem_univ _, e⟩)
theorem Wh12_of (c : Dev nD) (r : Ref sig .tc) (h : r ∉ hostOps12_W) : Wh12 m c r = Wr11 m c r :=
  StableHlo.after_of_writes_sub hostOps12 _ hostOps12_writes h

/-! ## The proof data of every region, and what rides beside the buffers -/

/-- Every pipeline's proof data, each at its region's entry contents: a literal match, so that the pinned configuration
    at a numeral reduces to the printed one. -/
def pdats : (p : Fin 13) → (c : Dev nD) → Dat τ (Elt F) Unit ℕ (Pipeline.UD sig nD τ) ℕ (Pipeline.pin (pcfgs (F := F)) adm p) c
  | ⟨0, _⟩ => fun c => dat0 (Vh0 m) c
  | ⟨1, _⟩ => fun c => dat1 (Vh1 m) c
  | ⟨2, _⟩ => fun c => dat2 (Vh2 m) c
  | ⟨3, _⟩ => fun c => dat3 (Vh3 m) c
  | ⟨4, _⟩ => fun c => dat4 (Vh4 m) c
  | ⟨5, _⟩ => fun c => dat5 (Vh5 m) c
  | ⟨6, _⟩ => fun c => dat6 (Vh6 m) c
  | ⟨7, _⟩ => fun c => dat7 (Vh7 m) c
  | ⟨8, _⟩ => fun c => dat8 (Vh8 m) c
  | ⟨9, _⟩ => fun c => dat9 (Vh9 m) c
  | ⟨10, _⟩ => fun c => dat10 (Vh10 m) c
  | ⟨11, _⟩ => fun c => dat11 (Vh11 m) c
  | ⟨12, _⟩ => fun c => dat12 (Vh12 m) c

/-- No variant, no level, nothing owed. -/
abbrev noVar : Variants := Variants.none
abbrev noLev : GSem nD τ sig → Finset Unit := fun _ => ∅
abbrev lev0 : GSem nD τ sig → Unit → ℕ := fun _ _ => 0
/-- Beside the buffers, through every segment: the generator register at some state, and the core owing nothing. -/
abbrev rest (c : Dev nD) : sProp 𝕄 := iprop((∃ r, prngReg c r) ∗ ∃ W, owes (c : Thread nD τ) (0 : CellTallies nD τ sig Unit) W)
/-- A host stretch as a segment over the unscoped buffers from the contents W. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ noVar noLev lev0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest
/-- The last state without the owes: every unscoped buffer at the last contents, the generator register at some state. -/
abbrev lastState (c : Dev nD) : sProp 𝕄 := iprop(StableHlo.held (c : Thread nD τ) (Pipeline.ucRefs τ sig) (Wr12 m c) ∗ ∃ r, prngReg c r)

/-! ## The regions as segments -/

set_option backward.isDefEq.respectTransparency.types false in
/-- Region 0: entered from the buffers host stretch 0 leaves, left at those with its arrays updated. Its arrays are split
    out of the unscoped buffers at entry and put back at exit; the generator register goes into the invariant and comes
    back; nothing is owed. -/
def reg0 : Pipeline.RegionSeg (pcfgs (F := F)) adm (pdats m) () defs₀ noVar noLev lev0 0 where
  win := launch0.win.to₀
  block_pos := launch0.block_pos
  stage_whole := launch0.stage_whole
  K := PEmpty
  osem k := k.elim
  ho := Pipeline.OwnSemFacts.none _
  hbody c := (body_obligation0 (Vh0 m) c).loose
  hwaits := Pipeline.hwaits_of_owed_zero _ _ _ _ noLev lev0 0 fun _ _ => rfl
  pre c := iprop(StableHlo.held (c : Thread nD τ) (Pipeline.ucRefs τ sig) (Wh0 m c) ∗ rest c)
  post c := iprop(StableHlo.held (c : Thread nD τ) (Pipeline.ucRefs τ sig) (Wr0 m c) ∗ rest c)
  X c := iprop(∃ r, prngReg c r)
  Y c := iprop(∃ r, prngReg c r)
  Z c := Pipeline.unscopedRest (Ix := Unit) (Name := ℕ) (U := Pipeline.UD sig nD τ) (Lvl := ℕ) spec0 c (Vh0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vh0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (Vh0 m) c).Φ 0 from rfl]
    iintro ⟨Hp, -, Hr⟩
    iapply (hin0 (Vh0 m) c)
    isplitl [Hp]; · iexact Hp
    iexact Hr
  hout c := by
    rw [Pipeline.ownSems0_none, show (pdats m 0 c).Φ (Fin.last _) = (dat0 (Vh0 m) c).Φ (Fin.last cfg0.N) from rfl]
    iintro H
    ihave H' := (hout0 (Vh0 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (Vh0 m c) (Vr0 m c) ((pdats m 0 c).arrAt · cfg0.N) (arrays_left0 m c) (others_kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from the buffers host stretch 1 leaves, left at those with its arrays updated. Its arrays are split
    out of the unscoped buffers at entry and put back at exit; the generator register goes into the invariant and comes
    back; nothing is owed. -/
def reg1 : Pipeline.RegionSeg (pcfgs (F := F)) adm (pdats m) () defs₀ noVar noLev lev0 1 where
  win := launch1.win.to₀
  block_pos := launch1.block_pos
  stage_whole := launch1.stage_whole
  K := PEmpty
  osem k := k.elim
  ho := Pipeline.OwnSemFacts.none _
  hbody c := (body_obligation1 (Vh1 m) c).loose
  hwaits := Pipeline.hwaits_of_owed_zero _ _ _ _ noLev lev0 1 fun _ _ => rfl
  pre c := iprop(StableHlo.held (c : Thread nD τ) (Pipeline.ucRefs τ sig) (Wh1 m c) ∗ rest c)
  post c := iprop(StableHlo.held (c : Thread nD τ) (Pipeline.ucRefs τ sig) (Wr1 m c) ∗ rest c)
  X c := iprop(∃ r, prngReg c r)
  Y c := iprop(∃ r, prngReg c r)
  Z c := Pipeline.unscopedRest (Ix := Unit) (Name := ℕ) (U := Pipeline.UD sig nD τ) (Lvl := ℕ) spec1 c (Vh1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vh1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Vh1 m) c).Φ 0 from rfl]
    iintro ⟨Hp, -, Hr⟩
    iapply (hin1 (Vh1 m) c)
    isplitl [Hp]; · iexact Hp
    iexact Hr
  hout c := by
    rw [Pipeline.ownSems0_none, show (pdats m 1 c).Φ (Fin.last _) = (dat1 (Vh1 m) c).Φ (Fin.last cfg1.N) from rfl]
    iintro H
    ihave H' := (hout1 (Vh1 m) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (Vh1 m c) (Vr1 m c) ((pdats m 1 c).arrAt · cfg1.N) (arrays_left1 m c) (others_kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from the buffers host stretch 2 leaves, left at those with its arrays updated. Its arrays are split
    out of the unscoped buffers at entry and put back at exit; the generator register goes into the invariant and comes
    back; nothing is owed. -/
def reg2 : Pipeline.RegionSeg (pcfgs (F := F)) adm (pdats m) () defs₀ noVar noLev lev0 2 where
  win := launch2.win.to₀
  block_pos := launch2.block_pos
  stage_whole := launch2.stage_whole
  K := PEmpty
  osem k := k.elim
  ho := Pipeline.OwnSemFacts.none _
  hbody c := (body_obligation2 (Vh2 m) c).loose
  hwaits := Pipeline.hwaits_of_owed_zero _ _ _ _ noLev lev0 2 fun _ _ => rfl
  pre c := iprop(StableHlo.held (c : Thread nD τ) (Pipeline.ucRefs τ sig) (Wh2 m c) ∗ rest c)
  post c := iprop(StableHlo.held (c : Thread nD τ) (Pipeline.ucRefs τ sig) (Wr2 m c) ∗ rest c)
  X c := iprop(∃ r, prngReg c r)
  Y c := iprop(∃ r, prngReg c r)
  Z c := Pipeline.unscopedRest (Ix := Unit) (Name := ℕ) (U := Pipeline.UD sig nD τ) (Lvl := ℕ) spec2 c (Vh2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vh2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (Vh2 m) c).Φ 0 from rfl]
    iintro ⟨Hp, -, Hr⟩
    iapply (hin2 (Vh2 m) c)
    isplitl [Hp]; · iexact Hp
    iexact Hr
  hout c := by
    rw [Pipeline.ownSems0_none, show (pdats m 2 c).Φ (Fin.last _) = (dat2 (Vh2 m) c).Φ (Fin.last cfg2.N) from rfl]
    iintro H
    ihave H' := (hout2 (Vh2 m) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (Vh2 m c) (Vr2 m c) ((pdats m 2 c).arrAt · cfg2.N) (arrays_left2 m c) (others_kept2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from the buffers host stretch 3 leaves, left at those with its arrays updated. Its arrays are split
    out of the unscoped buffers at entry and put back at exit; the generator register goes into the invariant and comes
    back; nothing is owed. -/
def reg3 : Pipeline.RegionSeg (pcfgs (F := F)) adm (pdats m) () defs₀ noVar noLev lev0 3 where
  win := launch3.win.to₀
  block_pos := launch3.block_pos
  stage_whole := launch3.stage_whole
  K := PEmpty
  osem k := k.elim
  ho := Pipeline.OwnSemFacts.none _
  hbody c := (body_obligation3 (Vh3 m) c).loose
  hwaits := Pipeline.hwaits_of_owed_zero _ _ _ _ noLev lev0 3 fun _ _ => rfl
  pre c := iprop(StableHlo.held (c : Thread nD τ) (Pipeline.ucRefs τ sig) (Wh3 m c) ∗ rest c)
  post c := iprop(StableHlo.held (c : Thread nD τ) (Pipeline.ucRefs τ sig) (Wr3 m c) ∗ rest c)
  X c := iprop(∃ r, prngReg c r)
  Y c := iprop(∃ r, prngReg c r)
  Z c := Pipeline.unscopedRest (Ix := Unit) (Name := ℕ) (U := Pipeline.UD sig nD τ) (Lvl := ℕ) spec3 c (Vh3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vh3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (Vh3 m) c).Φ 0 from rfl]
    iintro ⟨Hp, -, Hr⟩
    iapply (hin3 (Vh3 m) c)
    isplitl [Hp]; · iexact Hp
    iexact Hr
  hout c := by
    rw [Pipeline.ownSems0_none, show (pdats m 3 c).Φ (Fin.last _) = (dat3 (Vh3 m) c).Φ (Fin.last cfg3.N) from rfl]
    iintro H
    ihave H' := (hout3 (Vh3 m) c) $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun _ => rfl)
      (Vh3 m c) (Vr3 m c) ((pdats m 3 c).arrAt · cfg3.N) (arrays_left3 m c) (others_kept3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from the buffers host stretch 4 leaves, left at those with its arrays updated. Its arrays are split
    out of the unscoped buffers at entry and put back at exit; the generator register goes into the invariant and comes
    back; nothing is owed. -/
def reg4 : Pipeline.RegionSeg (pcfgs (F := F)) adm (pdats m) () defs₀ noVar noLev lev0 4 where
  win := launch4.win.to₀
  block_pos := launch4.block_pos
  stage_whole := launch4.stage_whole
  K := PEmpty
  osem k := k.elim
  ho := Pipeline.OwnSemFacts.none _
  hbody c := (body_obligation4 (Vh4 m) c).loose
  hwaits := Pipeline.hwaits_of_owed_zero _ _ _ _ noLev lev0 4 fun _ _ => rfl
  pre c := iprop(StableHlo.held (c : Thread nD τ) (Pipeline.ucRefs τ sig) (Wh4 m c) ∗ rest c)
  post c := iprop(StableHlo.held (c : Thread nD τ) (Pipeline.ucRefs τ sig) (Wr4 m c) ∗ rest c)
  X c := iprop(∃ r, prngReg c r)
  Y c := iprop(∃ r, prngReg c r)
  Z c := Pipeline.unscopedRest (Ix := Unit) (Name := ℕ) (U := Pipeline.UD sig nD τ) (Lvl := ℕ) spec4 c (Vh4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vh4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (Vh4 m) c).Φ 0 from rfl]
    iintro ⟨Hp, -, Hr⟩
    iapply (hin4 (Vh4 m) c)
    isplitl [Hp]; · iexact Hp
    iexact Hr
  hout c := by
    rw [Pipeline.ownSems0_none, show (pdats m 4 c).Φ (Fin.last _) = (dat4 (Vh4 m) c).Φ (Fin.last cfg4.N) from rfl]
    iintro H
    ihave H' := (hout4 (Vh4 m) c) $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m) ((pdats m 4 c).share_full fun _ => rfl)
      (Vh4 m c) (Vr4 m c) ((pdats m 4 c).arrAt · cfg4.N) (arrays_left4 m c) (others_kept4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from the buffers host stretch 5 leaves, left at those with its arrays updated. Its arrays are split
    out of the unscoped buffers at entry and put back at exit; the generator register goes into the invariant and comes
    back; nothing is owed. -/
def reg5 : Pipeline.RegionSeg (pcfgs (F := F)) adm (pdats m) () defs₀ noVar noLev lev0 5 where
  win := launch5.win.to₀
  block_pos := launch5.block_pos
  stage_whole := launch5.stage_whole
  K := PEmpty
  osem k := k.elim
  ho := Pipeline.OwnSemFacts.none _
  hbody c := (body_obligation5 (Vh5 m) c).loose
  hwaits := Pipeline.hwaits_of_owed_zero _ _ _ _ noLev lev0 5 fun _ _ => rfl
  pre c := iprop(StableHlo.held (c : Thread nD τ) (Pipeline.ucRefs τ sig) (Wh5 m c) ∗ rest c)
  post c := iprop(StableHlo.held (c : Thread nD τ) (Pipeline.ucRefs τ sig) (Wr5 m c) ∗ rest c)
  X c := iprop(∃ r, prngReg c r)
  Y c := iprop(∃ r, prngReg c r)
  Z c := Pipeline.unscopedRest (Ix := Unit) (Name := ℕ) (U := Pipeline.UD sig nD τ) (Lvl := ℕ) spec5 c (Vh5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Vh5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (Vh5 m) c).Φ 0 from rfl]
    iintro ⟨Hp, -, Hr⟩
    iapply (hin5 (Vh5 m) c)
    isplitl [Hp]; · iexact Hp
    iexact Hr
  hout c := by
    rw [Pipeline.ownSems0_none, show (pdats m 5 c).Φ (Fin.last _) = (dat5 (Vh5 m) c).Φ (Fin.last cfg5.N) from rfl]
    iintro H
    ihave H' := (hout5 (Vh5 m) c) $$ H
    icases H' with ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m) ((pdats m 5 c).share_full fun _ => rfl)
      (Vh5 m c) (Vr5 m c) ((pdats m 5 c).arrAt · cfg5.N) (arrays_left5 m c) (others_kept5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from the buffers host stretch 6 leaves, left at those with its arrays updated. Its arrays are split
    out of the unscoped buffers at entry and put back at exit; the generator register goes into the invariant and comes
    back; nothing is owed. -/
def reg6 : Pipeline.RegionSeg (pcfgs (F := F)) adm (pdats m) () defs₀ noVar noLev lev0 6 where
  win := launch6.win.to₀
  block_pos := launch6.block_pos
  stage_whole := launch6.stage_whole
  K := PEmpty
  osem k := k.elim
  ho := Pipeline.OwnSemFacts.none _
  hbody c := (body_obligation6 (Vh6 m) c).loose
  hwaits := Pipeline.hwaits_of_owed_zero _ _ _ _ noLev lev0 6 fun _ _ => rfl
  pre c := iprop(StableHlo.held (c : Thread nD τ) (Pipeline.ucRefs τ sig) (Wh6 m c) ∗ rest c)
  post c := iprop(StableHlo.held (c : Thread nD τ) (Pipeline.ucRefs τ sig) (Wr6 m c) ∗ rest c)
  X c := iprop(∃ r, prngReg c r)
  Y c := iprop(∃ r, prngReg c r)
  Z c := Pipeline.unscopedRest (Ix := Unit) (Name := ℕ) (U := Pipeline.UD sig nD τ) (Lvl := ℕ) spec6 c (Vh6 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (Vh6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = (dat6 (Vh6 m) c).Φ 0 from rfl]
    iintro ⟨Hp, -, Hr⟩
    iapply (hin6 (Vh6 m) c)
    isplitl [Hp]; · iexact Hp
    iexact Hr
  hout c := by
    rw [Pipeline.ownSems0_none, show (pdats m 6 c).Φ (Fin.last _) = (dat6 (Vh6 m) c).Φ (Fin.last cfg6.N) from rfl]
    iintro H
    ihave H' := (hout6 (Vh6 m) c) $$ H
    icases H' with ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := Pipeline.UD sig nD τ) (Lvl := ℕ)
      launch6.win launch6.arr_whole c (pdats m) ((pdats m 6 c).share_full fun _ => rfl)
      (Vh6 m c) (Vr6 m c) ((pdats m 6 c).arrAt · cfg6.N) (arrays_left6 m c) (others_kept6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from the buffers host stretch 7 leaves, left at those with its arrays updated. Its arrays are split
    out of the unscoped buffers at entry and put back at exit; the generator register goes into the invariant and comes
    back; nothing is owed. -/
def reg7 : Pipeline.RegionSeg (pcfgs (F := F)) adm (pdats m) () defs₀ noVar noLev lev0 7 where
  win := launch7.win.to₀
  block_pos := launch7.block_pos
  stage_whole := launch7.stage_whole
  K := PEmpty
  osem k := k.elim
  ho := Pipeline.OwnSemFacts.none _
  hbody c := (body_obligation7 (Vh7 m) c).loose
  hwaits := Pipeline.hwaits_of_owed_zero _ _ _ _ noLev lev0 7 fun _ _ => rfl
  pre c := iprop(StableHlo.held (c : Thread nD τ) (Pipeline.ucRefs τ sig) (Wh7 m c) ∗ rest c)
  post c := iprop(StableHlo.held (c : Thread nD τ) (Pipeline.ucRefs τ sig) (Wr7 m c) ∗ rest c)
  X c := iprop(∃ r, prngReg c r)
  Y c := iprop(∃ r, prngReg c r)
  Z c := Pipeline.unscopedRest (Ix := Unit) (Name := ℕ) (U := Pipeline.UD sig nD τ) (Lvl := ℕ) spec7 c (Vh7 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (Vh7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = (dat7 (Vh7 m) c).Φ 0 from rfl]
    iintro ⟨Hp, -, Hr⟩
    iapply (hin7 (Vh7 m) c)
    isplitl [Hp]; · iexact Hp
    iexact Hr
  hout c := by
    rw [Pipeline.ownSems0_none, show (pdats m 7 c).Φ (Fin.last _) = (dat7 (Vh7 m) c).Φ (Fin.last cfg7.N) from rfl]
    iintro H
    ihave H' := (hout7 (Vh7 m) c) $$ H
    icases H' with ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := Pipeline.UD sig nD τ) (Lvl := ℕ)
      launch7.win launch7.arr_whole c (pdats m) ((pdats m 7 c).share_full fun _ => rfl)
      (Vh7 m c) (Vr7 m c) ((pdats m 7 c).arrAt · cfg7.N) (arrays_left7 m c) (others_kept7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8: entered from the buffers host stretch 8 leaves, left at those with its arrays updated. Its arrays are split
    out of the unscoped buffers at entry and put back at exit; the generator register goes into the invariant and comes
    back; nothing is owed. -/
def reg8 : Pipeline.RegionSeg (pcfgs (F := F)) adm (pdats m) () defs₀ noVar noLev lev0 8 where
  win := launch8.win.to₀
  block_pos := launch8.block_pos
  stage_whole := launch8.stage_whole
  K := PEmpty
  osem k := k.elim
  ho := Pipeline.OwnSemFacts.none _
  hbody c := (body_obligation8 (Vh8 m) c).loose
  hwaits := Pipeline.hwaits_of_owed_zero _ _ _ _ noLev lev0 8 fun _ _ => rfl
  pre c := iprop(StableHlo.held (c : Thread nD τ) (Pipeline.ucRefs τ sig) (Wh8 m c) ∗ rest c)
  post c := iprop(StableHlo.held (c : Thread nD τ) (Pipeline.ucRefs τ sig) (Wr8 m c) ∗ rest c)
  X c := iprop(∃ r, prngReg c r)
  Y c := iprop(∃ r, prngReg c r)
  Z c := Pipeline.unscopedRest (Ix := Unit) (Name := ℕ) (U := Pipeline.UD sig nD τ) (Lvl := ℕ) spec8 c (Vh8 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (Vh8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = (dat8 (Vh8 m) c).Φ 0 from rfl]
    iintro ⟨Hp, -, Hr⟩
    iapply (hin8 (Vh8 m) c)
    isplitl [Hp]; · iexact Hp
    iexact Hr
  hout c := by
    rw [Pipeline.ownSems0_none, show (pdats m 8 c).Φ (Fin.last _) = (dat8 (Vh8 m) c).Φ (Fin.last cfg8.N) from rfl]
    iintro H
    ihave H' := (hout8 (Vh8 m) c) $$ H
    icases H' with ⟨Hp, Hr⟩
    isplitl [Hp]; · iexact Hp
    isplitr; · iempintro
    iexact Hr
  hexit c := by
    have hjoin := Pipeline.unscopedBufs_of_arrays (p := 8) (pcfgs (F := F)) adm (Ix := Unit) (Name := ℕ) (U := Pipeline.UD sig nD τ) (Lvl := ℕ)
      launch8.win launch8.arr_whole c (pdats m) ((pdats m 8 c).share_full fun _ => rfl)
      (Vh8 m c) (Vr8 m c) ((pdats m 8 c).arrAt · cfg8.N) (arrays_left8 m c) (others_kept8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9: entered from the buffers host stretch 9 leaves, left at those with its arrays updated. Its arrays are split
    out of the unscoped buffers at entry and put back at exit; the generator register goes into the invariant and comes
    back; nothing is owed. -/
def reg9 : Pipeline.RegionSeg (pcfgs (F := F)) adm (pdats m) () defs₀ noVar noLev lev0 9 where
  win := launch9.win.to₀
  block_pos := launch9.block_pos
  stage_whole := launch9.stage_whole
  K := PEmpty
  osem k := k.elim
  ho := Pipeline.OwnSemFacts.none _
  hbody c := (body_obligation9 (Vh9 m) c).loose
  hwaits := Pipeline.hwaits_of_owed_zero _ _ _ _ noLev lev0 9 fun _ _ => rfl
  pre c := iprop(StableHlo.held (c : Thread nD τ) (Pipeline.ucRefs τ sig) (Wh9 m c) ∗ rest c)
  post c := iprop(StableHlo.held (c : Thread nD τ) (Pipeline.ucRefs τ sig) (Wr9 m c) ∗ rest c)
  X c := iprop(∃ r, prngReg c r)
  Y c := iprop(∃ r, prngReg c r)
  Z c := Pipeline.unscopedRest (Ix := Unit) (Name := ℕ) (U := Pipeline.UD sig nD τ) (Lvl := ℕ) spec9 c (Vh9 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (Vh9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = (dat9 (Vh9 m) c).Φ 0 from rfl]
    iintro ⟨Hp, -, Hr⟩
    iapply (hin9 (Vh9 m) c)
    isplitl [Hp]; · iexact Hp
    iexact Hr
  hout c := by
    rw [Pipeline.ownSems0_none, show (pdats m 9 c).Φ (Fin.last _) = (dat9 (Vh9 m) c).Φ (Fin.last cfg9.N) from rfl]
    iintro H
    ihave H' := (hout9 (Vh9 m) c) $$ H
    icases H' with ⟨Hp, Hr⟩
    isplitl [Hp]; · iexact Hp
    isplitr; · iempintro
    iexact Hr
  hexit c := by
    have hjoin := Pipeline.unscopedBufs_of_arrays (p := 9) (pcfgs (F := F)) adm (Ix := Unit) (Name := ℕ) (U := Pipeline.UD sig nD τ) (Lvl := ℕ)
      launch9.win launch9.arr_whole c (pdats m) ((pdats m 9 c).share_full fun _ => rfl)
      (Vh9 m c) (Vr9 m c) ((pdats m 9 c).arrAt · cfg9.N) (arrays_left9 m c) (others_kept9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10: entered from the buffers host stretch 10 leaves, left at those with its arrays updated. Its arrays are split
    out of the unscoped buffers at entry and put back at exit; the generator register goes into the invariant and comes
    back; nothing is owed. -/
def reg10 : Pipeline.RegionSeg (pcfgs (F := F)) adm (pdats m) () defs₀ noVar noLev lev0 10 where
  win := launch10.win.to₀
  block_pos := launch10.block_pos
  stage_whole := launch10.stage_whole
  K := PEmpty
  osem k := k.elim
  ho := Pipeline.OwnSemFacts.none _
  hbody c := (body_obligation10 (Vh10 m) c).loose
  hwaits := Pipeline.hwaits_of_owed_zero _ _ _ _ noLev lev0 10 fun _ _ => rfl
  pre c := iprop(StableHlo.held (c : Thread nD τ) (Pipeline.ucRefs τ sig) (Wh10 m c) ∗ rest c)
  post c := iprop(StableHlo.held (c : Thread nD τ) (Pipeline.ucRefs τ sig) (Wr10 m c) ∗ rest c)
  X c := iprop(∃ r, prngReg c r)
  Y c := iprop(∃ r, prngReg c r)
  Z c := Pipeline.unscopedRest (Ix := Unit) (Name := ℕ) (U := Pipeline.UD sig nD τ) (Lvl := ℕ) spec10 c (Vh10 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (Vh10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = (dat10 (Vh10 m) c).Φ 0 from rfl]
    iintro ⟨Hp, -, Hr⟩
    iapply (hin10 (Vh10 m) c)
    isplitl [Hp]; · iexact Hp
    iexact Hr
  hout c := by
    rw [Pipeline.ownSems0_none, show (pdats m 10 c).Φ (Fin.last _) = (dat10 (Vh10 m) c).Φ (Fin.last cfg10.N) from rfl]
    iintro H
    ihave H' := (hout10 (Vh10 m) c) $$ H
    icases H' with ⟨Hp, Hr⟩
    isplitl [Hp]; · iexact Hp
    isplitr; · iempintro
    iexact Hr
  hexit c := by
    have hjoin := Pipeline.unscopedBufs_of_arrays (p := 10) (pcfgs (F := F)) adm (Ix := Unit) (Name := ℕ) (U := Pipeline.UD sig nD τ) (Lvl := ℕ)
      launch10.win launch10.arr_whole c (pdats m) ((pdats m 10 c).share_full fun _ => rfl)
      (Vh10 m c) (Vr10 m c) ((pdats m 10 c).arrAt · cfg10.N) (arrays_left10 m c) (others_kept10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11: entered from the buffers host stretch 11 leaves, left at those with its arrays updated. Its arrays are split
    out of the unscoped buffers at entry and put back at exit; the generator register goes into the invariant and comes
    back; nothing is owed. -/
def reg11 : Pipeline.RegionSeg (pcfgs (F := F)) adm (pdats m) () defs₀ noVar noLev lev0 11 where
  win := launch11.win.to₀
  block_pos := launch11.block_pos
  stage_whole := launch11.stage_whole
  K := PEmpty
  osem k := k.elim
  ho := Pipeline.OwnSemFacts.none _
  hbody c := (body_obligation11 (Vh11 m) c).loose
  hwaits := Pipeline.hwaits_of_owed_zero _ _ _ _ noLev lev0 11 fun _ _ => rfl
  pre c := iprop(StableHlo.held (c : Thread nD τ) (Pipeline.ucRefs τ sig) (Wh11 m c) ∗ rest c)
  post c := iprop(StableHlo.held (c : Thread nD τ) (Pipeline.ucRefs τ sig) (Wr11 m c) ∗ rest c)
  X c := iprop(∃ r, prngReg c r)
  Y c := iprop(∃ r, prngReg c r)
  Z c := Pipeline.unscopedRest (Ix := Unit) (Name := ℕ) (U := Pipeline.UD sig nD τ) (Lvl := ℕ) spec11 c (Vh11 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (Vh11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = (dat11 (Vh11 m) c).Φ 0 from rfl]
    iintro ⟨Hp, -, Hr⟩
    iapply (hin11 (Vh11 m) c)
    isplitl [Hp]; · iexact Hp
    iexact Hr
  hout c := by
    rw [Pipeline.ownSems0_none, show (pdats m 11 c).Φ (Fin.last _) = (dat11 (Vh11 m) c).Φ (Fin.last cfg11.N) from rfl]
    iintro H
    ihave H' := (hout11 (Vh11 m) c) $$ H
    icases H' with ⟨Hp, Hr⟩
    isplitl [Hp]; · iexact Hp
    isplitr; · iempintro
    iexact Hr
  hexit c := by
    have hjoin := Pipeline.unscopedBufs_of_arrays (p := 11) (pcfgs (F := F)) adm (Ix := Unit) (Name := ℕ) (U := Pipeline.UD sig nD τ) (Lvl := ℕ)
      launch11.win launch11.arr_whole c (pdats m) ((pdats m 11 c).share_full fun _ => rfl)
      (Vh11 m c) (Vr11 m c) ((pdats m 11 c).arrAt · cfg11.N) (arrays_left11 m c) (others_kept11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 12: entered from the buffers host stretch 12 leaves, left at those with its arrays updated. Its arrays are split
    out of the unscoped buffers at entry and put back at exit; the generator register goes into the invariant and comes
    back; nothing is owed. -/
def reg12 : Pipeline.RegionSeg (pcfgs (F := F)) adm (pdats m) () defs₀ noVar noLev lev0 12 where
  win := launch12.win.to₀
  block_pos := launch12.block_pos
  stage_whole := launch12.stage_whole
  K := PEmpty
  osem k := k.elim
  ho := Pipeline.OwnSemFacts.none _
  hbody c := (body_obligation12 (Vh12 m) c).loose
  hwaits := Pipeline.hwaits_of_owed_zero _ _ _ _ noLev lev0 12 fun _ _ => rfl
  pre c := iprop(StableHlo.held (c : Thread nD τ) (Pipeline.ucRefs τ sig) (Wh12 m c) ∗ rest c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec12 c (Vh12 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (Vh12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = (dat12 (Vh12 m) c).Φ 0 from rfl]
    iintro ⟨Hp, -, Hr⟩
    iapply (hin12 (Vh12 m) c)
    isplitl [Hp]; · iexact Hp
    iexact Hr
  hout c := by
    rw [Pipeline.ownSems0_none, show (pdats m 12 c).Φ (Fin.last _) = (dat12 (Vh12 m) c).Φ (Fin.last cfg12.N) from rfl]
    iintro H
    ihave H' := (hout12 (Vh12 m) c) $$ H
    icases H' with ⟨Hp, Hr⟩
    isplitl [Hp]; · iexact Hp
    isplitr; · iempintro
    iexact Hr
  hexit c := by
    have hjoin := Pipeline.unscopedBufs_of_arrays (p := 12) (pcfgs (F := F)) adm (Ix := Unit) (Name := ℕ) (U := Pipeline.UD sig nD τ) (Lvl := ℕ)
      launch12.win launch12.arr_whole c (pdats m) ((pdats m 12 c).share_full fun _ => rfl)
      (Vh12 m c) (Vr12 m c) ((pdats m 12 c).arrAt · cfg12.N) (arrays_left12 m c) (others_kept12 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The program's 26 segments in order. -/
abbrev segs : List (Pipeline.Seg (pcfgs (F := F)) adm (pdats m) () defs₀ noVar noLev lev0) :=
  [
    .host (hostSeg hostOps0 hostOps0_sub hostOps0_fresh (Wl m)),
    .region (reg0 m),
    .host (hostSeg hostOps1 hostOps1_sub hostOps1_fresh (Wr0 m)),
    .region (reg1 m),
    .host (hostSeg hostOps2 hostOps2_sub hostOps2_fresh (Wr1 m)),
    .region (reg2 m),
    .host (hostSeg hostOps3 hostOps3_sub hostOps3_fresh (Wr2 m)),
    .region (reg3 m),
    .host (hostSeg hostOps4 hostOps4_sub hostOps4_fresh (Wr3 m)),
    .region (reg4 m),
    .host (hostSeg hostOps5 hostOps5_sub hostOps5_fresh (Wr4 m)),
    .region (reg5 m),
    .host (hostSeg hostOps6 hostOps6_sub hostOps6_fresh (Wr5 m)),
    .region (reg6 m),
    .host (hostSeg hostOps7 hostOps7_sub hostOps7_fresh (Wr6 m)),
    .region (reg7 m),
    .host (hostSeg hostOps8 hostOps8_sub hostOps8_fresh (Wr7 m)),
    .region (reg8 m),
    .host (hostSeg hostOps9 hostOps9_sub hostOps9_fresh (Wr8 m)),
    .region (reg9 m),
    .host (hostSeg hostOps10 hostOps10_sub hostOps10_fresh (Wr9 m)),
    .region (reg10 m),
    .host (hostSeg hostOps11 hostOps11_sub hostOps11_fresh (Wr10 m)),
    .region (reg11 m),
    .host (hostSeg hostOps12 hostOps12_sub hostOps12_fresh (Wr11 m)),
    .region (reg12 m) ]

/-- The program is the run of its segments. -/
theorem main_run (c : Dev nD) : main (F := F) c = Pipeline.Seg.run (segs m) := (main_chain c).trans (by chain_rfl)

set_option backward.isDefEq.respectTransparency.types false in
/-- From any memory with zero counters every weakly fair execution of the program terminates, nothing faulting, and
    every unscoped buffer of every core ends at the last valuation of the fold. -/
theorem kernel_run : θ_run defs (onTc (τ := τ) (main (F := F))) ⟨m, fun _ => 0, ρ⟩ (fun r => ∀ c : Dev nD,
      ∀ b ∈ Pipeline.ucRefs τ sig, r.2.mem (((c : Thread nD τ)).1, b) = Wr12 m c b) :=
  Pipeline.θ_run_regions_kit (pcfgs (F := F)) adm (pdats m) () cellOf_inj embL defs₀ noVar noLev lev0 m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m c) ∗ rest c)) (Tₙ := lastState m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach noLev lev0 fun c => ?_
      rw [show unscopedBufs c (fun b => m ((c : Thread nD τ).loc b)) = StableHlo.held (c : Thread nD τ) (Pipeline.ucRefs τ sig) (Wl m c)
        from Pipeline.unscopedBufs_held c (Wl m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wr12 m c b)
    (hfin := fun c s' => by
      iintro ⟨⟨Hh, -⟩, HSI⟩
      unfold StableHlo.held
      imodintro
      iapply (pointsTo_read_all (Pipeline.ucRefs τ sig) (fun b => (((c : Thread nD τ)).1, b)) (Wr12 m c) s')
      isplitl [Hh] <;> iassumption)
    (hQ := fun s h c => h c)

end Cert.Kernel.Hand

end
-- ==== Proof.K.RunFacts.lean ====
import proofs.«408428_j10917806867267_1_alg».proof.Proof.K.Run

/-! # What the run leaves: the arguments as launched, the result where the last region folds it

No host stretch writes an argument and no region has one as an output window's array, so an argument's buffer at the
last boundary is walked back boundary by boundary to the launch memory: through a host stretch by "not among the
references it writes", through a region by "no window's array" or, where the argument IS an input window's array, by
"an input window's array is left as entered". -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- An unscoped TensorCore reference is among those the last state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- main_arg0 ends as launched. -/
theorem Wr12_main_arg0 (c : Dev nD) : Wr12 m c (Proc.devRef .tc main_arg0) = m ((c : Thread nD τ).loc main_arg0) :=
  (Wr12_of_ne m c main_arg0 (by decide)).trans <|
  (Wh12_of m c main_arg0 (by decide)).trans <|
  (Wr11_of_ne m c main_arg0 (by decide)).trans <|
  (Wh11_of m c main_arg0 (by decide)).trans <|
  (Wr10_of_ne m c main_arg0 (by decide)).trans <|
  (Wh10_of m c main_arg0 (by decide)).trans <|
  (Wr9_of_ne m c main_arg0 (by decide)).trans <|
  (Wh9_of m c main_arg0 (by decide)).trans <|
  (Wr8_of_ne m c main_arg0 (by decide)).trans <|
  (Wh8_of m c main_arg0 (by decide)).trans <|
  (Wr7_of_ne m c main_arg0 (by decide)).trans <|
  (Wh7_of m c main_arg0 (by decide)).trans <|
  (Wr6_of_ne m c main_arg0 (by decide)).trans <|
  (Wh6_of m c main_arg0 (by decide)).trans <|
  (Wr5_of_ne m c main_arg0 (by decide)).trans <|
  (Wh5_of m c main_arg0 (by decide)).trans <|
  (Wr4_of_ne m c main_arg0 (by decide)).trans <|
  (Wh4_of m c main_arg0 (by decide)).trans <|
  (Wr3_of_ne m c main_arg0 (by decide)).trans <|
  (Wh3_of m c main_arg0 (by decide)).trans <|
  (Wr2_of_ne m c main_arg0 (by decide)).trans <|
  (Wh2_of m c main_arg0 (by decide)).trans <|
  (Wr1_of_ne m c main_arg0 (by decide)).trans <|
  (Wh1_of m c main_arg0 (by decide)).trans <|
  ((Wr0_arr m c 0).trans (((dat0 (Vh0 m) c).arrAt_in 0 rfl _).trans (A_eq0 (Vh0 m) c 0))).trans <|
  (Wh0_of m c main_arg0 (by decide)).trans <| rfl

/-- main_arg1 ends as launched. -/
theorem Wr12_main_arg1 (c : Dev nD) : Wr12 m c (Proc.devRef .tc main_arg1) = m ((c : Thread nD τ).loc main_arg1) :=
  (Wr12_of_ne m c main_arg1 (by decide)).trans <|
  (Wh12_of m c main_arg1 (by decide)).trans <|
  (Wr11_of_ne m c main_arg1 (by decide)).trans <|
  (Wh11_of m c main_arg1 (by decide)).trans <|
  (Wr10_of_ne m c main_arg1 (by decide)).trans <|
  (Wh10_of m c main_arg1 (by decide)).trans <|
  (Wr9_of_ne m c main_arg1 (by decide)).trans <|
  (Wh9_of m c main_arg1 (by decide)).trans <|
  (Wr8_of_ne m c main_arg1 (by decide)).trans <|
  (Wh8_of m c main_arg1 (by decide)).trans <|
  (Wr7_of_ne m c main_arg1 (by decide)).trans <|
  (Wh7_of m c main_arg1 (by decide)).trans <|
  (Wr6_of_ne m c main_arg1 (by decide)).trans <|
  (Wh6_of m c main_arg1 (by decide)).trans <|
  (Wr5_of_ne m c main_arg1 (by decide)).trans <|
  (Wh5_of m c main_arg1 (by decide)).trans <|
  (Wr4_of_ne m c main_arg1 (by decide)).trans <|
  (Wh4_of m c main_arg1 (by decide)).trans <|
  (Wr3_of_ne m c main_arg1 (by decide)).trans <|
  (Wh3_of m c main_arg1 (by decide)).trans <|
  (Wr2_of_ne m c main_arg1 (by decide)).trans <|
  (Wh2_of m c main_arg1 (by decide)).trans <|
  (Wr1_of_ne m c main_arg1 (by decide)).trans <|
  (Wh1_of m c main_arg1 (by decide)).trans <|
  (Wr0_of_ne m c main_arg1 (by decide)).trans <|
  (Wh0_of m c main_arg1 (by decide)).trans <| rfl

/-- main_arg2 ends as launched. -/
theorem Wr12_main_arg2 (c : Dev nD) : Wr12 m c (Proc.devRef .tc main_arg2) = m ((c : Thread nD τ).loc main_arg2) :=
  (Wr12_of_ne m c main_arg2 (by decide)).trans <|
  (Wh12_of m c main_arg2 (by decide)).trans <|
  (Wr11_of_ne m c main_arg2 (by decide)).trans <|
  (Wh11_of m c main_arg2 (by decide)).trans <|
  (Wr10_of_ne m c main_arg2 (by decide)).trans <|
  (Wh10_of m c main_arg2 (by decide)).trans <|
  (Wr9_of_ne m c main_arg2 (by decide)).trans <|
  (Wh9_of m c main_arg2 (by decide)).trans <|
  (Wr8_of_ne m c main_arg2 (by decide)).trans <|
  (Wh8_of m c main_arg2 (by decide)).trans <|
  (Wr7_of_ne m c main_arg2 (by decide)).trans <|
  (Wh7_of m c main_arg2 (by decide)).trans <|
  (Wr6_of_ne m c main_arg2 (by decide)).trans <|
  (Wh6_of m c main_arg2 (by decide)).trans <|
  (Wr5_of_ne m c main_arg2 (by decide)).trans <|
  (Wh5_of m c main_arg2 (by decide)).trans <|
  (Wr4_of_ne m c main_arg2 (by decide)).trans <|
  (Wh4_of m c main_arg2 (by decide)).trans <|
  (Wr3_of_ne m c main_arg2 (by decide)).trans <|
  (Wh3_of m c main_arg2 (by decide)).trans <|
  (Wr2_of_ne m c main_arg2 (by decide)).trans <|
  (Wh2_of m c main_arg2 (by decide)).trans <|
  (Wr1_of_ne m c main_arg2 (by decide)).trans <|
  (Wh1_of m c main_arg2 (by decide)).trans <|
  (Wr0_of_ne m c main_arg2 (by decide)).trans <|
  (Wh0_of m c main_arg2 (by decide)).trans <| rfl

/-- main_arg3 ends as launched. -/
theorem Wr12_main_arg3 (c : Dev nD) : Wr12 m c (Proc.devRef .tc main_arg3) = m ((c : Thread nD τ).loc main_arg3) :=
  (Wr12_of_ne m c main_arg3 (by decide)).trans <|
  (Wh12_of m c main_arg3 (by decide)).trans <|
  (Wr11_of_ne m c main_arg3 (by decide)).trans <|
  (Wh11_of m c main_arg3 (by decide)).trans <|
  (Wr10_of_ne m c main_arg3 (by decide)).trans <|
  (Wh10_of m c main_arg3 (by decide)).trans <|
  (Wr9_of_ne m c main_arg3 (by decide)).trans <|
  (Wh9_of m c main_arg3 (by decide)).trans <|
  (Wr8_of_ne m c main_arg3 (by decide)).trans <|
  (Wh8_of m c main_arg3 (by decide)).trans <|
  (Wr7_of_ne m c main_arg3 (by decide)).trans <|
  (Wh7_of m c main_arg3 (by decide)).trans <|
  (Wr6_of_ne m c main_arg3 (by decide)).trans <|
  (Wh6_of m c main_arg3 (by decide)).trans <|
  (Wr5_of_ne m c main_arg3 (by decide)).trans <|
  (Wh5_of m c main_arg3 (by decide)).trans <|
  (Wr4_of_ne m c main_arg3 (by decide)).trans <|
  (Wh4_of m c main_arg3 (by decide)).trans <|
  (Wr3_of_ne m c main_arg3 (by decide)).trans <|
  (Wh3_of m c main_arg3 (by decide)).trans <|
  (Wr2_of_ne m c main_arg3 (by decide)).trans <|
  (Wh2_of m c main_arg3 (by decide)).trans <|
  (Wr1_of_ne m c main_arg3 (by decide)).trans <|
  (Wh1_of m c main_arg3 (by decide)).trans <|
  (Wr0_of_ne m c main_arg3 (by decide)).trans <|
  (Wh0_of m c main_arg3 (by decide)).trans <| rfl

/-- main_arg4 ends as launched. -/
theorem Wr12_main_arg4 (c : Dev nD) : Wr12 m c (Proc.devRef .tc main_arg4) = m ((c : Thread nD τ).loc main_arg4) :=
  (Wr12_of_ne m c main_arg4 (by decide)).trans <|
  (Wh12_of m c main_arg4 (by decide)).trans <|
  (Wr11_of_ne m c main_arg4 (by decide)).trans <|
  (Wh11_of m c main_arg4 (by decide)).trans <|
  (Wr10_of_ne m c main_arg4 (by decide)).trans <|
  (Wh10_of m c main_arg4 (by decide)).trans <|
  (Wr9_of_ne m c main_arg4 (by decide)).trans <|
  (Wh9_of m c main_arg4 (by decide)).trans <|
  (Wr8_of_ne m c main_arg4 (by decide)).trans <|
  (Wh8_of m c main_arg4 (by decide)).trans <|
  (Wr7_of_ne m c main_arg4 (by decide)).trans <|
  (Wh7_of m c main_arg4 (by decide)).trans <|
  (Wr6_of_ne m c main_arg4 (by decide)).trans <|
  (Wh6_of m c main_arg4 (by decide)).trans <|
  (Wr5_of_ne m c main_arg4 (by decide)).trans <|
  (Wh5_of m c main_arg4 (by decide)).trans <|
  (Wr4_of_ne m c main_arg4 (by decide)).trans <|
  (Wh4_of m c main_arg4 (by decide)).trans <|
  (Wr3_of_ne m c main_arg4 (by decide)).trans <|
  (Wh3_of m c main_arg4 (by decide)).trans <|
  (Wr2_of_ne m c main_arg4 (by decide)).trans <|
  (Wh2_of m c main_arg4 (by decide)).trans <|
  (Wr1_of_ne m c main_arg4 (by decide)).trans <|
  (Wh1_of m c main_arg4 (by decide)).trans <|
  (Wr0_of_ne m c main_arg4 (by decide)).trans <|
  (Wh0_of m c main_arg4 (by decide)).trans <| rfl

/-- main_arg5 ends as launched. -/
theorem Wr12_main_arg5 (c : Dev nD) : Wr12 m c (Proc.devRef .tc main_arg5) = m ((c : Thread nD τ).loc main_arg5) :=
  (Wr12_of_ne m c main_arg5 (by decide)).trans <|
  (Wh12_of m c main_arg5 (by decide)).trans <|
  (Wr11_of_ne m c main_arg5 (by decide)).trans <|
  (Wh11_of m c main_arg5 (by decide)).trans <|
  (Wr10_of_ne m c main_arg5 (by decide)).trans <|
  (Wh10_of m c main_arg5 (by decide)).trans <|
  (Wr9_of_ne m c main_arg5 (by decide)).trans <|
  (Wh9_of m c main_arg5 (by decide)).trans <|
  (Wr8_of_ne m c main_arg5 (by decide)).trans <|
  (Wh8_of m c main_arg5 (by decide)).trans <|
  (Wr7_of_ne m c main_arg5 (by decide)).trans <|
  (Wh7_of m c main_arg5 (by decide)).trans <|
  (Wr6_of_ne m c main_arg5 (by decide)).trans <|
  (Wh6_of m c main_arg5 (by decide)).trans <|
  (Wr5_of_ne m c main_arg5 (by decide)).trans <|
  (Wh5_of m c main_arg5 (by decide)).trans <|
  (Wr4_of_ne m c main_arg5 (by decide)).trans <|
  (Wh4_of m c main_arg5 (by decide)).trans <|
  (Wr3_of_ne m c main_arg5 (by decide)).trans <|
  (Wh3_of m c main_arg5 (by decide)).trans <|
  (Wr2_of_ne m c main_arg5 (by decide)).trans <|
  (Wh2_of m c main_arg5 (by decide)).trans <|
  (Wr1_of_ne m c main_arg5 (by decide)).trans <|
  (Wh1_of m c main_arg5 (by decide)).trans <|
  (Wr0_of_ne m c main_arg5 (by decide)).trans <|
  (Wh0_of m c main_arg5 (by decide)).trans <| rfl

/-- main_arg6 ends as launched. -/
theorem Wr12_main_arg6 (c : Dev nD) : Wr12 m c (Proc.devRef .tc main_arg6) = m ((c : Thread nD τ).loc main_arg6) :=
  (Wr12_of_ne m c main_arg6 (by decide)).trans <|
  (Wh12_of m c main_arg6 (by decide)).trans <|
  (Wr11_of_ne m c main_arg6 (by decide)).trans <|
  (Wh11_of m c main_arg6 (by decide)).trans <|
  (Wr10_of_ne m c main_arg6 (by decide)).trans <|
  (Wh10_of m c main_arg6 (by decide)).trans <|
  (Wr9_of_ne m c main_arg6 (by decide)).trans <|
  (Wh9_of m c main_arg6 (by decide)).trans <|
  (Wr8_of_ne m c main_arg6 (by decide)).trans <|
  (Wh8_of m c main_arg6 (by decide)).trans <|
  (Wr7_of_ne m c main_arg6 (by decide)).trans <|
  (Wh7_of m c main_arg6 (by decide)).trans <|
  (Wr6_of_ne m c main_arg6 (by decide)).trans <|
  (Wh6_of m c main_arg6 (by decide)).trans <|
  (Wr5_of_ne m c main_arg6 (by decide)).trans <|
  (Wh5_of m c main_arg6 (by decide)).trans <|
  (Wr4_of_ne m c main_arg6 (by decide)).trans <|
  (Wh4_of m c main_arg6 (by decide)).trans <|
  (Wr3_of_ne m c main_arg6 (by decide)).trans <|
  (Wh3_of m c main_arg6 (by decide)).trans <|
  (Wr2_of_ne m c main_arg6 (by decide)).trans <|
  (Wh2_of m c main_arg6 (by decide)).trans <|
  (Wr1_of_ne m c main_arg6 (by decide)).trans <|
  (Wh1_of m c main_arg6 (by decide)).trans <|
  (Wr0_of_ne m c main_arg6 (by decide)).trans <|
  (Wh0_of m c main_arg6 (by decide)).trans <| rfl

/-- main_arg7 ends as launched. -/
theorem Wr12_main_arg7 (c : Dev nD) : Wr12 m c (Proc.devRef .tc main_arg7) = m ((c : Thread nD τ).loc main_arg7) :=
  (Wr12_of_ne m c main_arg7 (by decide)).trans <|
  (Wh12_of m c main_arg7 (by decide)).trans <|
  (Wr11_of_ne m c main_arg7 (by decide)).trans <|
  (Wh11_of m c main_arg7 (by decide)).trans <|
  (Wr10_of_ne m c main_arg7 (by decide)).trans <|
  (Wh10_of m c main_arg7 (by decide)).trans <|
  (Wr9_of_ne m c main_arg7 (by decide)).trans <|
  (Wh9_of m c main_arg7 (by decide)).trans <|
  (Wr8_of_ne m c main_arg7 (by decide)).trans <|
  (Wh8_of m c main_arg7 (by decide)).trans <|
  (Wr7_of_ne m c main_arg7 (by decide)).trans <|
  (Wh7_of m c main_arg7 (by decide)).trans <|
  (Wr6_of_ne m c main_arg7 (by decide)).trans <|
  (Wh6_of m c main_arg7 (by decide)).trans <|
  (Wr5_of_ne m c main_arg7 (by decide)).trans <|
  (Wh5_of m c main_arg7 (by decide)).trans <|
  (Wr4_of_ne m c main_arg7 (by decide)).trans <|
  (Wh4_of m c main_arg7 (by decide)).trans <|
  (Wr3_of_ne m c main_arg7 (by decide)).trans <|
  (Wh3_of m c main_arg7 (by decide)).trans <|
  (Wr2_of_ne m c main_arg7 (by decide)).trans <|
  (Wh2_of m c main_arg7 (by decide)).trans <|
  (Wr1_of_ne m c main_arg7 (by decide)).trans <|
  (Wh1_of m c main_arg7 (by decide)).trans <|
  (Wr0_of_ne m c main_arg7 (by decide)).trans <|
  (Wh0_of m c main_arg7 (by decide)).trans <| rfl

/-- main_arg8 ends as launched. -/
theorem Wr12_main_arg8 (c : Dev nD) : Wr12 m c (Proc.devRef .tc main_arg8) = m ((c : Thread nD τ).loc main_arg8) :=
  ((Wr12_arr m c 2).trans (((dat12 (Vh12 m) c).arrAt_in 2 rfl _).trans (A_eq12 (Vh12 m) c 2))).trans <|
  (Wh12_of m c main_arg8 (by decide)).trans <|
  (Wr11_of_ne m c main_arg8 (by decide)).trans <|
  (Wh11_of m c main_arg8 (by decide)).trans <|
  (Wr10_of_ne m c main_arg8 (by decide)).trans <|
  (Wh10_of m c main_arg8 (by decide)).trans <|
  (Wr9_of_ne m c main_arg8 (by decide)).trans <|
  (Wh9_of m c main_arg8 (by decide)).trans <|
  (Wr8_of_ne m c main_arg8 (by decide)).trans <|
  (Wh8_of m c main_arg8 (by decide)).trans <|
  (Wr7_of_ne m c main_arg8 (by decide)).trans <|
  (Wh7_of m c main_arg8 (by decide)).trans <|
  (Wr6_of_ne m c main_arg8 (by decide)).trans <|
  (Wh6_of m c main_arg8 (by decide)).trans <|
  (Wr5_of_ne m c main_arg8 (by decide)).trans <|
  (Wh5_of m c main_arg8 (by decide)).trans <|
  (Wr4_of_ne m c main_arg8 (by decide)).trans <|
  (Wh4_of m c main_arg8 (by decide)).trans <|
  (Wr3_of_ne m c main_arg8 (by decide)).trans <|
  (Wh3_of m c main_arg8 (by decide)).trans <|
  (Wr2_of_ne m c main_arg8 (by decide)).trans <|
  (Wh2_of m c main_arg8 (by decide)).trans <|
  (Wr1_of_ne m c main_arg8 (by decide)).trans <|
  (Wh1_of m c main_arg8 (by decide)).trans <|
  (Wr0_of_ne m c main_arg8 (by decide)).trans <|
  (Wh0_of m c main_arg8 (by decide)).trans <| rfl

/-- main_arg9 ends as launched. -/
theorem Wr12_main_arg9 (c : Dev nD) : Wr12 m c (Proc.devRef .tc main_arg9) = m ((c : Thread nD τ).loc main_arg9) :=
  (Wr12_of_ne m c main_arg9 (by decide)).trans <|
  (Wh12_of m c main_arg9 (by decide)).trans <|
  (Wr11_of_ne m c main_arg9 (by decide)).trans <|
  (Wh11_of m c main_arg9 (by decide)).trans <|
  (Wr10_of_ne m c main_arg9 (by decide)).trans <|
  (Wh10_of m c main_arg9 (by decide)).trans <|
  (Wr9_of_ne m c main_arg9 (by decide)).trans <|
  (Wh9_of m c main_arg9 (by decide)).trans <|
  (Wr8_of_ne m c main_arg9 (by decide)).trans <|
  (Wh8_of m c main_arg9 (by decide)).trans <|
  (Wr7_of_ne m c main_arg9 (by decide)).trans <|
  (Wh7_of m c main_arg9 (by decide)).trans <|
  (Wr6_of_ne m c main_arg9 (by decide)).trans <|
  (Wh6_of m c main_arg9 (by decide)).trans <|
  (Wr5_of_ne m c main_arg9 (by decide)).trans <|
  (Wh5_of m c main_arg9 (by decide)).trans <|
  (Wr4_of_ne m c main_arg9 (by decide)).trans <|
  (Wh4_of m c main_arg9 (by decide)).trans <|
  (Wr3_of_ne m c main_arg9 (by decide)).trans <|
  (Wh3_of m c main_arg9 (by decide)).trans <|
  (Wr2_of_ne m c main_arg9 (by decide)).trans <|
  (Wh2_of m c main_arg9 (by decide)).trans <|
  (Wr1_of_ne m c main_arg9 (by decide)).trans <|
  (Wh1_of m c main_arg9 (by decide)).trans <|
  (Wr0_of_ne m c main_arg9 (by decide)).trans <|
  (Wh0_of m c main_arg9 (by decide)).trans <| rfl

/-- main_arg10 ends as launched. -/
theorem Wr12_main_arg10 (c : Dev nD) : Wr12 m c (Proc.devRef .tc main_arg10) = m ((c : Thread nD τ).loc main_arg10) :=
  ((Wr12_arr m c 4).trans (((dat12 (Vh12 m) c).arrAt_in 4 rfl _).trans (A_eq12 (Vh12 m) c 4))).trans <|
  (Wh12_of m c main_arg10 (by decide)).trans <|
  (Wr11_of_ne m c main_arg10 (by decide)).trans <|
  (Wh11_of m c main_arg10 (by decide)).trans <|
  (Wr10_of_ne m c main_arg10 (by decide)).trans <|
  (Wh10_of m c main_arg10 (by decide)).trans <|
  (Wr9_of_ne m c main_arg10 (by decide)).trans <|
  (Wh9_of m c main_arg10 (by decide)).trans <|
  (Wr8_of_ne m c main_arg10 (by decide)).trans <|
  (Wh8_of m c main_arg10 (by decide)).trans <|
  (Wr7_of_ne m c main_arg10 (by decide)).trans <|
  (Wh7_of m c main_arg10 (by decide)).trans <|
  (Wr6_of_ne m c main_arg10 (by decide)).trans <|
  (Wh6_of m c main_arg10 (by decide)).trans <|
  (Wr5_of_ne m c main_arg10 (by decide)).trans <|
  (Wh5_of m c main_arg10 (by decide)).trans <|
  (Wr4_of_ne m c main_arg10 (by decide)).trans <|
  (Wh4_of m c main_arg10 (by decide)).trans <|
  (Wr3_of_ne m c main_arg10 (by decide)).trans <|
  (Wh3_of m c main_arg10 (by decide)).trans <|
  (Wr2_of_ne m c main_arg10 (by decide)).trans <|
  (Wh2_of m c main_arg10 (by decide)).trans <|
  (Wr1_of_ne m c main_arg10 (by decide)).trans <|
  (Wh1_of m c main_arg10 (by decide)).trans <|
  (Wr0_of_ne m c main_arg10 (by decide)).trans <|
  (Wh0_of m c main_arg10 (by decide)).trans <| rfl

/-- main_arg11 ends as launched. -/
theorem Wr12_main_arg11 (c : Dev nD) : Wr12 m c (Proc.devRef .tc main_arg11) = m ((c : Thread nD τ).loc main_arg11) :=
  (Wr12_of_ne m c main_arg11 (by decide)).trans <|
  (Wh12_of m c main_arg11 (by decide)).trans <|
  (Wr11_of_ne m c main_arg11 (by decide)).trans <|
  (Wh11_of m c main_arg11 (by decide)).trans <|
  (Wr10_of_ne m c main_arg11 (by decide)).trans <|
  (Wh10_of m c main_arg11 (by decide)).trans <|
  (Wr9_of_ne m c main_arg11 (by decide)).trans <|
  (Wh9_of m c main_arg11 (by decide)).trans <|
  (Wr8_of_ne m c main_arg11 (by decide)).trans <|
  (Wh8_of m c main_arg11 (by decide)).trans <|
  (Wr7_of_ne m c main_arg11 (by decide)).trans <|
  (Wh7_of m c main_arg11 (by decide)).trans <|
  (Wr6_of_ne m c main_arg11 (by decide)).trans <|
  (Wh6_of m c main_arg11 (by decide)).trans <|
  (Wr5_of_ne m c main_arg11 (by decide)).trans <|
  (Wh5_of m c main_arg11 (by decide)).trans <|
  (Wr4_of_ne m c main_arg11 (by decide)).trans <|
  (Wh4_of m c main_arg11 (by decide)).trans <|
  (Wr3_of_ne m c main_arg11 (by decide)).trans <|
  (Wh3_of m c main_arg11 (by decide)).trans <|
  (Wr2_of_ne m c main_arg11 (by decide)).trans <|
  (Wh2_of m c main_arg11 (by decide)).trans <|
  (Wr1_of_ne m c main_arg11 (by decide)).trans <|
  (Wh1_of m c main_arg11 (by decide)).trans <|
  (Wr0_of_ne m c main_arg11 (by decide)).trans <|
  (Wh0_of m c main_arg11 (by decide)).trans <| rfl

/-- main_arg12 ends as launched. -/
theorem Wr12_main_arg12 (c : Dev nD) : Wr12 m c (Proc.devRef .tc main_arg12) = m ((c : Thread nD τ).loc main_arg12) :=
  ((Wr12_arr m c 6).trans (((dat12 (Vh12 m) c).arrAt_in 6 rfl _).trans (A_eq12 (Vh12 m) c 6))).trans <|
  (Wh12_of m c main_arg12 (by decide)).trans <|
  (Wr11_of_ne m c main_arg12 (by decide)).trans <|
  (Wh11_of m c main_arg12 (by decide)).trans <|
  (Wr10_of_ne m c main_arg12 (by decide)).trans <|
  (Wh10_of m c main_arg12 (by decide)).trans <|
  (Wr9_of_ne m c main_arg12 (by decide)).trans <|
  (Wh9_of m c main_arg12 (by decide)).trans <|
  (Wr8_of_ne m c main_arg12 (by decide)).trans <|
  (Wh8_of m c main_arg12 (by decide)).trans <|
  (Wr7_of_ne m c main_arg12 (by decide)).trans <|
  (Wh7_of m c main_arg12 (by decide)).trans <|
  (Wr6_of_ne m c main_arg12 (by decide)).trans <|
  (Wh6_of m c main_arg12 (by decide)).trans <|
  (Wr5_of_ne m c main_arg12 (by decide)).trans <|
  (Wh5_of m c main_arg12 (by decide)).trans <|
  (Wr4_of_ne m c main_arg12 (by decide)).trans <|
  (Wh4_of m c main_arg12 (by decide)).trans <|
  (Wr3_of_ne m c main_arg12 (by decide)).trans <|
  (Wh3_of m c main_arg12 (by decide)).trans <|
  (Wr2_of_ne m c main_arg12 (by decide)).trans <|
  (Wh2_of m c main_arg12 (by decide)).trans <|
  (Wr1_of_ne m c main_arg12 (by decide)).trans <|
  (Wh1_of m c main_arg12 (by decide)).trans <|
  (Wr0_of_ne m c main_arg12 (by decide)).trans <|
  (Wh0_of m c main_arg12 (by decide)).trans <| rfl

/-- main_arg13 ends as launched. -/
theorem Wr12_main_arg13 (c : Dev nD) : Wr12 m c (Proc.devRef .tc main_arg13) = m ((c : Thread nD τ).loc main_arg13) :=
  (Wr12_of_ne m c main_arg13 (by decide)).trans <|
  (Wh12_of m c main_arg13 (by decide)).trans <|
  (Wr11_of_ne m c main_arg13 (by decide)).trans <|
  (Wh11_of m c main_arg13 (by decide)).trans <|
  (Wr10_of_ne m c main_arg13 (by decide)).trans <|
  (Wh10_of m c main_arg13 (by decide)).trans <|
  (Wr9_of_ne m c main_arg13 (by decide)).trans <|
  (Wh9_of m c main_arg13 (by decide)).trans <|
  (Wr8_of_ne m c main_arg13 (by decide)).trans <|
  (Wh8_of m c main_arg13 (by decide)).trans <|
  (Wr7_of_ne m c main_arg13 (by decide)).trans <|
  (Wh7_of m c main_arg13 (by decide)).trans <|
  (Wr6_of_ne m c main_arg13 (by decide)).trans <|
  (Wh6_of m c main_arg13 (by decide)).trans <|
  (Wr5_of_ne m c main_arg13 (by decide)).trans <|
  (Wh5_of m c main_arg13 (by decide)).trans <|
  (Wr4_of_ne m c main_arg13 (by decide)).trans <|
  (Wh4_of m c main_arg13 (by decide)).trans <|
  (Wr3_of_ne m c main_arg13 (by decide)).trans <|
  (Wh3_of m c main_arg13 (by decide)).trans <|
  (Wr2_of_ne m c main_arg13 (by decide)).trans <|
  (Wh2_of m c main_arg13 (by decide)).trans <|
  (Wr1_of_ne m c main_arg13 (by decide)).trans <|
  (Wh1_of m c main_arg13 (by decide)).trans <|
  (Wr0_of_ne m c main_arg13 (by decide)).trans <|
  (Wh0_of m c main_arg13 (by decide)).trans <| rfl

/-- main_arg14 ends as launched. -/
theorem Wr12_main_arg14 (c : Dev nD) : Wr12 m c (Proc.devRef .tc main_arg14) = m ((c : Thread nD τ).loc main_arg14) :=
  (Wr12_of_ne m c main_arg14 (by decide)).trans <|
  (Wh12_of m c main_arg14 (by decide)).trans <|
  (Wr11_of_ne m c main_arg14 (by decide)).trans <|
  (Wh11_of m c main_arg14 (by decide)).trans <|
  (Wr10_of_ne m c main_arg14 (by decide)).trans <|
  (Wh10_of m c main_arg14 (by decide)).trans <|
  (Wr9_of_ne m c main_arg14 (by decide)).trans <|
  (Wh9_of m c main_arg14 (by decide)).trans <|
  (Wr8_of_ne m c main_arg14 (by decide)).trans <|
  (Wh8_of m c main_arg14 (by decide)).trans <|
  (Wr7_of_ne m c main_arg14 (by decide)).trans <|
  (Wh7_of m c main_arg14 (by decide)).trans <|
  (Wr6_of_ne m c main_arg14 (by decide)).trans <|
  (Wh6_of m c main_arg14 (by decide)).trans <|
  (Wr5_of_ne m c main_arg14 (by decide)).trans <|
  (Wh5_of m c main_arg14 (by decide)).trans <|
  (Wr4_of_ne m c main_arg14 (by decide)).trans <|
  (Wh4_of m c main_arg14 (by decide)).trans <|
  (Wr3_of_ne m c main_arg14 (by decide)).trans <|
  (Wh3_of m c main_arg14 (by decide)).trans <|
  (Wr2_of_ne m c main_arg14 (by decide)).trans <|
  (Wh2_of m c main_arg14 (by decide)).trans <|
  (Wr1_of_ne m c main_arg14 (by decide)).trans <|
  (Wh1_of m c main_arg14 (by decide)).trans <|
  (Wr0_of_ne m c main_arg14 (by decide)).trans <|
  (Wh0_of m c main_arg14 (by decide)).trans <| rfl

/-- main_arg15 ends as launched. -/
theorem Wr12_main_arg15 (c : Dev nD) : Wr12 m c (Proc.devRef .tc main_arg15) = m ((c : Thread nD τ).loc main_arg15) :=
  (Wr12_of_ne m c main_arg15 (by decide)).trans <|
  (Wh12_of m c main_arg15 (by decide)).trans <|
  (Wr11_of_ne m c main_arg15 (by decide)).trans <|
  (Wh11_of m c main_arg15 (by decide)).trans <|
  (Wr10_of_ne m c main_arg15 (by decide)).trans <|
  (Wh10_of m c main_arg15 (by decide)).trans <|
  (Wr9_of_ne m c main_arg15 (by decide)).trans <|
  (Wh9_of m c main_arg15 (by decide)).trans <|
  (Wr8_of_ne m c main_arg15 (by decide)).trans <|
  (Wh8_of m c main_arg15 (by decide)).trans <|
  (Wr7_of_ne m c main_arg15 (by decide)).trans <|
  (Wh7_of m c main_arg15 (by decide)).trans <|
  (Wr6_of_ne m c main_arg15 (by decide)).trans <|
  (Wh6_of m c main_arg15 (by decide)).trans <|
  (Wr5_of_ne m c main_arg15 (by decide)).trans <|
  (Wh5_of m c main_arg15 (by decide)).trans <|
  (Wr4_of_ne m c main_arg15 (by decide)).trans <|
  (Wh4_of m c main_arg15 (by decide)).trans <|
  (Wr3_of_ne m c main_arg15 (by decide)).trans <|
  (Wh3_of m c main_arg15 (by decide)).trans <|
  (Wr2_of_ne m c main_arg15 (by decide)).trans <|
  (Wh2_of m c main_arg15 (by decide)).trans <|
  (Wr1_of_ne m c main_arg15 (by decide)).trans <|
  (Wh1_of m c main_arg15 (by decide)).trans <|
  (Wr0_of_ne m c main_arg15 (by decide)).trans <|
  (Wh0_of m c main_arg15 (by decide)).trans <| rfl

/-- The result's buffer at the end: what the last region's write-backs fold to in its output window's array. -/
theorem Wr12_result (c : Dev nD) : Wr12 m c (Proc.devRef .tc main_v164) = (dat12 (Vh12 m) c).arrAt 8 cfg12.N := Wr12_arr m c 8

/-- The frame: every weakly fair execution terminates, nothing faults, every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_unscoped main_arg0 (by decide))).trans (Wr12_main_arg0 m c),
     (h c _ (mem_unscoped main_arg1 (by decide))).trans (Wr12_main_arg1 m c),
     (h c _ (mem_unscoped main_arg2 (by decide))).trans (Wr12_main_arg2 m c),
     (h c _ (mem_unscoped main_arg3 (by decide))).trans (Wr12_main_arg3 m c),
     (h c _ (mem_unscoped main_arg4 (by decide))).trans (Wr12_main_arg4 m c),
     (h c _ (mem_unscoped main_arg5 (by decide))).trans (Wr12_main_arg5 m c),
     (h c _ (mem_unscoped main_arg6 (by decide))).trans (Wr12_main_arg6 m c),
     (h c _ (mem_unscoped main_arg7 (by decide))).trans (Wr12_main_arg7 m c),
     (h c _ (mem_unscoped main_arg8 (by decide))).trans (Wr12_main_arg8 m c),
     (h c _ (mem_unscoped main_arg9 (by decide))).trans (Wr12_main_arg9 m c),
     (h c _ (mem_unscoped main_arg10 (by decide))).trans (Wr12_main_arg10 m c),
     (h c _ (mem_unscoped main_arg11 (by decide))).trans (Wr12_main_arg11 m c),
     (h c _ (mem_unscoped main_arg12 (by decide))).trans (Wr12_main_arg12 m c),
     (h c _ (mem_unscoped main_arg13 (by decide))).trans (Wr12_main_arg13 m c),
     (h c _ (mem_unscoped main_arg14 (by decide))).trans (Wr12_main_arg14 m c),
     (h c _ (mem_unscoped main_arg15 (by decide))).trans (Wr12_main_arg15 m c)⟩)
    (kernel_run m ρ)

/-- The run with the result named: besides the frame, the result's buffer ends at the last region's fold. -/
theorem run_result : θ_run defs (onTc (τ := τ) (main (F := F))) ⟨m, fun _ => 0, ρ⟩ (fun r => ∀ c : Dev nD,
      r.2.mem ((c.tc : Thread nD τ).loc main_v164) = (dat12 (Vh12 m) c).arrAt 8 cfg12.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_unscoped main_v164 (by decide))).trans (Wr12_result m c),
     (h c _ (mem_unscoped main_arg0 (by decide))).trans (Wr12_main_arg0 m c),
     (h c _ (mem_unscoped main_arg1 (by decide))).trans (Wr12_main_arg1 m c),
     (h c _ (mem_unscoped main_arg2 (by decide))).trans (Wr12_main_arg2 m c),
     (h c _ (mem_unscoped main_arg3 (by decide))).trans (Wr12_main_arg3 m c),
     (h c _ (mem_unscoped main_arg4 (by decide))).trans (Wr12_main_arg4 m c),
     (h c _ (mem_unscoped main_arg5 (by decide))).trans (Wr12_main_arg5 m c),
     (h c _ (mem_unscoped main_arg6 (by decide))).trans (Wr12_main_arg6 m c),
     (h c _ (mem_unscoped main_arg7 (by decide))).trans (Wr12_main_arg7 m c),
     (h c _ (mem_unscoped main_arg8 (by decide))).trans (Wr12_main_arg8 m c),
     (h c _ (mem_unscoped main_arg9 (by decide))).trans (Wr12_main_arg9 m c),
     (h c _ (mem_unscoped main_arg10 (by decide))).trans (Wr12_main_arg10 m c),
     (h c _ (mem_unscoped main_arg11 (by decide))).trans (Wr12_main_arg11 m c),
     (h c _ (mem_unscoped main_arg12 (by decide))).trans (Wr12_main_arg12 m c),
     (h c _ (mem_unscoped main_arg13 (by decide))).trans (Wr12_main_arg13 m c),
     (h c _ (mem_unscoped main_arg14 (by decide))).trans (Wr12_main_arg14 m c),
     (h c _ (mem_unscoped main_arg15 (by decide))).trans (Wr12_main_arg15 m c)⟩)
    (kernel_run m ρ)

end Cert.Kernel.Hand

end
-- ==== Proof.KI.Reg0.lean ====
/- Region 0 of @main (custom_call 0, the GIN layer's MLP with its per-graph accumulator): the kernel body's three control
   cases as triples with named contents, the accumulator's value point by point, the pipeline's proof data over an invariant
   that names the scratch's contents, the body obligation at every point, and the invariant at the region's two ends. -/
import proofs.«408428_j10917806867267_1_alg».proof.Proof.Gen.KernelIdeal.Launch
import proofs.«408428_j10917806867267_1_alg».proof.Proof.Gen.KernelIdeal.Skeleton
import proofs.«408428_j10917806867267_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the long axes' extents recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's accesses and what it leaves -/

/-- The whole-buffer rectangles the body loads and stores through. -/
abbrev rA0 : Rect S5000x128 := Rect.unit (s := S5000x128) ![0, 0] S5000x128.size inb_S5000x128_S5000x128_0_0
abbrev rB0 : Rect S128x128 := Rect.unit (s := S128x128) ![0, 0] S128x128.size inb_S128x128_S128x128_0_0
abbrev rC0 : Rect S1x128 := Rect.unit (s := S1x128) ![0, 0] S1x128.size inb_S1x128_S1x128_0_0

/-- The point's MLP output, from the blocks of windows 0, 1, 3, 4, 5, 6. -/
def tval0 (x0 x1 : Vec F S5000x128 .f32) (x3 : Vec F S128x128 .f32) (x4 : Vec F S1x128 .f32) (x5 : Vec F S128x128 .f32) (x6 : Vec F S1x128 .f32) :
    FVec F S5000x128 .f32 :=
  k0_pay3 (View.ld x0 rA0) (View.ld x1 rA0) (View.ld x3 rB0) (View.ld x4 rC0) (View.ld x5 rB0) (View.ld x6 rC0)

/-- What the body leaves in window 7's staging buffer: its one store. -/
def out0_7 (x0 x1 : Vec F S5000x128 .f32) (x3 : Vec F S128x128 .f32) (x4 : Vec F S1x128 .f32) (x5 : Vec F S128x128 .f32) (x6 : Vec F S1x128 .f32) :
    Vec F S5000x128 .f32 :=
  View.canon [⟨rA0, tval0 x0 x1 x3 x4 x5 x6⟩]

/-- The accumulator zeroed. -/
def zero0 : Vec F S128x128 .f32 := View.canon [⟨rB0, k0_pay2 (F := F)⟩]

/-- The accumulator after a point that found it at `s`: `s` plus the point's term. -/
def scr0 (x0 x1 : Vec F S5000x128 .f32) (x2 : Vec F S5000x128 .bf16) (x3 : Vec F S128x128 .f32) (x4 : Vec F S1x128 .f32) (x5 : Vec F S128x128 .f32) (x6 : Vec F S1x128 .f32)
    (s : Vec F S128x128 .f32) : Vec F S128x128 .f32 :=
  View.canon [⟨rB0, k0_pay1 (tval0 x0 x1 x3 x4 x5 x6) (k0_pay4 (View.ld x2 rA0)) (View.ld s rB0)⟩]

/-- What the last point leaves in window 8's staging buffer: the accumulator copied. -/
def out0_8 (s : Vec F S128x128 .f32) : Vec F S128x128 .f32 := View.canon [⟨rB0, View.ld s rB0⟩]

/-- One whole-buffer store covers the buffer. -/
theorem coverA0 {e : EltTy} (p : rA0.shape.Idx → Elt F e) (y : S5000x128.Idx) :
    ∃ pc ∈ ([⟨rA0, p⟩] : List (View.Piece (Elt F) S5000x128 e)), y ∈ pc.1.set :=
  View.cover_of_tiled [⟨rA0, p⟩] S5000x128.size (by rfl) y
theorem coverB0 {e : EltTy} (p : rB0.shape.Idx → Elt F e) (y : S128x128.Idx) :
    ∃ pc ∈ ([⟨rB0, p⟩] : List (View.Piece (Elt F) S128x128 e)), y ∈ pc.1.set :=
  View.cover_of_tiled [⟨rB0, p⟩] S128x128.size (by rfl) y

/-- The conditions of the body's two `scf.if`s, from the grid coordinates. -/
abbrev cond0_1 (i : grid0.Coords) : Prop := (Scalar.cmpi .ne (Scalar.extui (Scalar.cmpi .eq (BitVec.ofNat 32 (i 0).val) 0#32)) 0#32) = 1#1
abbrev cond0_2 (i : grid0.Coords) : Prop := k0_cond2 i = 1#1

/-- The conditions in closed form, decided over the grid: the first holds at the first point only, the second at the
    last only; window 8 is idle off the last point and written back at it only. -/
theorem hcond0_1 : ∀ t : Fin cfg0.N, cond0_1 (grid0.coords t) ↔ t.val = 0 :=
  (by decide +kernel : ∀ t : Fin grid0.N, cond0_1 (grid0.coords t) ↔ t.val = 0)
theorem hcond0_2 : ∀ t : Fin cfg0.N, cond0_2 (grid0.coords t) ↔ t.val + 1 = cfg0.N :=
  (by decide +kernel : ∀ t : Fin grid0.N, cond0_2 (grid0.coords t) ↔ t.val + 1 = grid0.N)
theorem hidle0_8 : ∀ t : Fin cfg0.N, cfg0.idle 8 (cfg0.grid.coords t) = !decide (t.val + 1 = cfg0.N) :=
  (by decide +kernel : ∀ t : Fin grid0.N, idle0 8 (grid0.coords t) = !decide (t.val + 1 = grid0.N))
theorem hflush0_8 : ∀ t : Fin cfg0.N, (cfg0.win 8).flush t = decide (t.val + 1 = cfg0.N) :=
  (by decide +kernel : ∀ t : Fin grid0.N, win0_8.flush t = decide (t.val + 1 = grid0.N))
theorem one_lt_N0 : 1 < cfg0.N := by decide

/-- A whole-buffer store hides every earlier one. -/
theorem canon_headB0 {e : EltTy} (p : rB0.shape.Idx → Elt F e) (L : List (View.Piece (Elt F) S128x128 e)) :
    View.canon (⟨rB0, p⟩ :: L) = View.canon [⟨rB0, p⟩] := by
  funext y
  obtain ⟨pc, hm, hy⟩ := coverB0 (F := F) p y
  rw [List.mem_singleton] at hm; subst hm
  obtain ⟨x, rfl⟩ := rB0.exists_idx_of_mem hy
  exact (View.canon_cons_emb rB0 p L x).trans (View.canon_cons_emb rB0 p [] x).symm

theorem coverB0_cons {e : EltTy} (p : rB0.shape.Idx → Elt F e) (L : List (View.Piece (Elt F) S128x128 e)) (y : S128x128.Idx) :
    ∃ pc ∈ (⟨rB0, p⟩ :: L), y ∈ pc.1.set := by
  obtain ⟨pc, hm, hy⟩ := coverB0 (F := F) p y
  exact ⟨pc, List.mem_cons.mpr (Or.inl (List.mem_singleton.mp hm)), hy⟩

/-- So a buffer whose last store was whole reads that store's payload. -/
theorem read_writes_headB0 {κ : Kind} {sp : Space} {e : EltTy} (v : View sig κ sp S128x128 e) (f : v.ty.Contents (Elt F))
    (p : rB0.shape.Idx → Elt F e) (L : List (View.Piece (Elt F) S128x128 e)) :
    v.read (Elt F) (v.writes (Elt F) f (⟨rB0, p⟩ :: L)) = View.canon [⟨rB0, p⟩] :=
  (View.read_writes_eq_canon v f _ (coverB0_cons p L)).trans (canon_headB0 p L)

/-! ## The kernel body on any whole staging memrefs, case by case -/

set_option maxHeartbeats 4000000 in
/-- The first point: the accumulator is zeroed first; the second `scf.if` is not taken. -/
theorem run0_A (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S128x128 .f32) (harg9 : arg9.IsWhole) (arg10 : Memref sig .tc .vmem S128x128 .f32) (harg10 : arg10.IsWhole)
    (hc1 : cond0_1 i) (hc2 : ¬cond0_2 i)
    (x0 x1 : Vec F S5000x128 .f32) (x2 : Vec F S5000x128 .bf16) (x3 : Vec F S128x128 .f32) (x4 : Vec F S1x128 .f32) (x5 : Vec F S128x128 .f32) (x6 : Vec F S1x128 .f32) (x8 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x3 x4 x5 x6)
            ∗ owns (c : Thread nD τ) arg9 fullShare x8
            ∗ owns (c : Thread nD τ) arg10 fullShare (scr0 x0 x1 x2 x3 x4 x5 x6 (zero0 (F := F)))) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8 arg9 harg9 arg10 harg10) K := by
  simp only [cc0__gin_mlp_kernel_eq_skeleton]; unfold cc0__gin_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds, %fs, -, HS⟩, Hk⟩
  subst hf0 hf1 hf2 hf3 hf4 hf5 hf6 hf8
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr
    swap; · iexact H7
    ipureintro; exact View.read_writes_eq_canon _ _ _ (coverA0 _)
  isplitl [H8]
  · iexists _; isplitr; · ipureintro; rfl
    iexact H8
  iexists _; isplitr
  swap; · iexact HS
  ipureintro
  refine (read_writes_headB0 _ _ _ _).trans ?_
  unfold scr0
  refine congrArg (fun p => View.canon [(⟨rB0, p⟩ : View.Piece (Elt F) S128x128 .f32)]) ?_
  refine congrArg (k0_pay1 _ _) ?_
  unfold zero0
  try dsimp only
  exact View.readCov_eq_canon_ld _ _ _ (coverB0 (F := F) _)

set_option maxHeartbeats 4000000 in
/-- A middle point: neither `scf.if` taken. -/
theorem run0_B (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S128x128 .f32) (harg9 : arg9.IsWhole) (arg10 : Memref sig .tc .vmem S128x128 .f32) (harg10 : arg10.IsWhole)
    (hc1 : ¬cond0_1 i) (hc2 : ¬cond0_2 i)
    (x0 x1 : Vec F S5000x128 .f32) (x2 : Vec F S5000x128 .bf16) (x3 : Vec F S128x128 .f32) (x4 : Vec F S1x128 .f32) (x5 : Vec F S128x128 .f32) (x6 : Vec F S1x128 .f32) (x8 s : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ owns (c : Thread nD τ) arg9 fullShare x8
        ∗ owns (c : Thread nD τ) arg10 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x3 x4 x5 x6)
            ∗ owns (c : Thread nD τ) arg9 fullShare x8
            ∗ owns (c : Thread nD τ) arg10 fullShare (scr0 x0 x1 x2 x3 x4 x5 x6 s)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8 arg9 harg9 arg10 harg10) K := by
  simp only [cc0__gin_mlp_kernel_eq_skeleton]; unfold cc0__gin_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs, %hfs, HS⟩, Hk⟩
  subst hf0 hf1 hf2 hf3 hf4 hf5 hf6 hf8 hfs
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr
    swap; · iexact H7
    ipureintro; exact View.read_writes_eq_canon _ _ _ (coverA0 _)
  isplitl [H8]
  · iexists _; isplitr; · ipureintro; rfl
    iexact H8
  iexists _; isplitr
  swap; · iexact HS
  ipureintro; exact View.read_writes_eq_canon _ _ _ (coverB0 _)

set_option maxHeartbeats 4000000 in
/-- The last point: the accumulator is not zeroed; it is copied into window 8 at the end. -/
theorem run0_C (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S128x128 .f32) (harg9 : arg9.IsWhole) (arg10 : Memref sig .tc .vmem S128x128 .f32) (harg10 : arg10.IsWhole)
    (hc1 : ¬cond0_1 i) (hc2 : cond0_2 i)
    (x0 x1 : Vec F S5000x128 .f32) (x2 : Vec F S5000x128 .bf16) (x3 : Vec F S128x128 .f32) (x4 : Vec F S1x128 .f32) (x5 : Vec F S128x128 .f32) (x6 : Vec F S1x128 .f32) (s : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ owns (c : Thread nD τ) arg10 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x3 x4 x5 x6)
            ∗ owns (c : Thread nD τ) arg9 fullShare (out0_8 (scr0 x0 x1 x2 x3 x4 x5 x6 s))
            ∗ owns (c : Thread nD τ) arg10 fullShare (scr0 x0 x1 x2 x3 x4 x5 x6 s)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8 arg9 harg9 arg10 harg10) K := by
  simp only [cc0__gin_mlp_kernel_eq_skeleton]; unfold cc0__gin_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS⟩, Hk⟩
  subst hf0 hf1 hf2 hf3 hf4 hf5 hf6 hfs
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr
    swap; · iexact H7
    ipureintro; exact View.read_writes_eq_canon _ _ _ (coverA0 _)
  isplitl [H8]
  · iexists _; isplitr
    swap; · iexact H8
    ipureintro
    refine (read_writes_headB0 _ _ _ _).trans ?_
    unfold out0_8
    refine congrArg (fun p => View.canon [(⟨rB0, p⟩ : View.Piece (Elt F) S128x128 .f32)]) ?_
    unfold scr0
    exact View.readCov_eq_canon_ld _ _ _ (coverB0 (F := F) _)
  iexists _; isplitr
  swap; · iexact HS
  ipureintro; exact View.read_writes_eq_canon _ _ _ (coverB0 _)

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place: unfetched, the block index has not moved. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (Pipeline.UD sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator, point by point -/

/-- The scratch operand: a whole scoped buffer of the kernel's own, passed beside the windows. -/
abbrev scM0_0 : Memref sig .tc .vmem S128x128 .f32 := Memref.whole cc0_scratch0

/-- Point number `n` of the grid (wrapped past the last). -/
def pt0 (n : ℕ) : Fin cfg0.N := ⟨n % cfg0.N, Nat.mod_lt _ (Nat.lt_trans Nat.zero_lt_one one_lt_N0)⟩
theorem pt0_val (t : Fin cfg0.N) : pt0 t.val = t := Fin.ext (Nat.mod_eq_of_lt t.isLt)

/-- The accumulator after point `t`, if the point found it at `s`. -/
def stepAt0 (c : Dev nD) (t : Fin cfg0.N) (s : Vec F S128x128 .f32) : Vec F S128x128 .f32 :=
  scr0 (iblk0 V c 0 t) (iblk0 V c 1 t) (iblk0 V c 2 t) (iblk0 V c 3 t) (iblk0 V c 4 t) (iblk0 V c 5 t) (iblk0 V c 6 t) s

/-- The accumulator after point `n`: zeroed at the first point, each point's term added. -/
def acc0 (c : Dev nD) : ℕ → Vec F S128x128 .f32
  | 0 => stepAt0 V c (pt0 0) (zero0 (F := F))
  | n + 1 => stepAt0 V c (pt0 (n + 1)) (acc0 c n)

theorem acc0_first (c : Dev nD) (t : Fin cfg0.N) (h : t.val = 0) : acc0 V c t.val = stepAt0 V c t (zero0 (F := F)) := by
  rw [h]; show stepAt0 V c (pt0 0) _ = _; rw [← h, pt0_val]
theorem acc0_next (c : Dev nD) (t : Fin cfg0.N) (n : ℕ) (h : t.val = n + 1) : acc0 V c t.val = stepAt0 V c t (acc0 V c n) := by
  rw [h]; show stepAt0 V c (pt0 (n + 1)) _ = _; rw [← h, pt0_val]

/-- The scratch before point `k`: at some contents before the first, then at the accumulated value. -/
def scrAt0 (c : Dev nD) : ℕ → sProp 𝕄
  | 0 => iprop(∃ d, owns (c : Thread nD τ) scM0_0 fullShare d)
  | n + 1 => owns (c : Thread nD τ) scM0_0 fullShare (acc0 V c n)

/-- The scratch whole at some contents, as its points-to. -/
theorem scr_whole0 (c : Dev nD) :
    (iprop(∃ d, owns (c : Thread nD τ) scM0_0 fullShare d) : sProp 𝕄)
      = iprop(∃ f : Buf (Elt F) ((c : Thread nD τ).loc cc0_scratch0), ((c : Thread nD τ).loc cc0_scratch0) ↦{fullShare} f) := by
  simp only [scM0_0, owns_whole]; try rfl

theorem scrAt0_some (c : Dev nD) (k : ℕ) :
    scrAt0 V c k ⊢ (iprop(∃ f : Buf (Elt F) ((c : Thread nD τ).loc cc0_scratch0), ((c : Thread nD τ).loc cc0_scratch0) ↦{fullShare} f) : sProp 𝕄) := by
  rw [← scr_whole0]
  cases k with
  | zero => unfold scrAt0; iintro H; iexact H
  | succ n => unfold scrAt0; iintro H; iexists _; iexact H

/-- The invariant before point `k`: every other scoped buffer that is no staging buffer at some contents, the generator
    register at some state, the scratch as `scrAt0` says. -/
def Φ0 (c : Dev nD) (k : Fin (cfg0.N + 1)) : sProp 𝕄 :=
  iprop(Pipeline.scopedRestBut (Ix := Unit) (Name := ℕ) (U := Pipeline.UD sig nD τ) (Lvl := ℕ) (Val := Elt F) spec0 c [cc0_scratch0]
    ∗ (∃ r, prngReg c r) ∗ scrAt0 V c k.val)

/-! ## The pipeline's proof data -/

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 3 t) (iblk0 V c 4 t) (iblk0 V c 5 t) (iblk0 V c 6 t)
    | ⟨8, _⟩ => out0_8 (acc0 V c t.val)
  Φ := Φ0 V c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 3 t) (iblk0 V c 4 t) (iblk0 V c 5 t) (iblk0 V c 6 t) := by dsimp only [dat0]
theorem after0_8 (c : Dev nD) (t : Fin cfg0.N) : (dat0 V c).after 8 t = out0_8 (acc0 V c t.val) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

theorem Φ0_castSucc (c : Dev nD) (t : Fin cfg0.N) : (dat0 V c).Φ t.castSucc
    = iprop(Pipeline.scopedRestBut (Ix := Unit) (Name := ℕ) (U := Pipeline.UD sig nD τ) (Lvl := ℕ) (Val := Elt F) spec0 c [cc0_scratch0]
        ∗ (∃ r, prngReg c r) ∗ scrAt0 V c t.val) := rfl
theorem Φ0_succ (c : Dev nD) (t : Fin cfg0.N) : (dat0 V c).Φ t.succ
    = iprop(Pipeline.scopedRestBut (Ix := Unit) (Name := ℕ) (U := Pipeline.UD sig nD τ) (Lvl := ℕ) (Val := Elt F) spec0 c [cc0_scratch0]
        ∗ (∃ r, prngReg c r) ∗ owns (c : Thread nD τ) scM0_0 fullShare (acc0 V c t.val)) := rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns: window 8's buffer as found off the last point, at the accumulator's copy at it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ (dat0 V c).leavesExact 8 t)

theorem scrAt0_first (c : Dev nD) (t : Fin cfg0.N) (h : t.val = 0) :
    scrAt0 V c t.val = iprop(∃ d, owns (c : Thread nD τ) scM0_0 fullShare d) := by rw [h]; rfl
theorem scrAt0_next (c : Dev nD) (t : Fin cfg0.N) (n : ℕ) (h : t.val = n + 1) :
    scrAt0 V c t.val = owns (c : Thread nD τ) scM0_0 fullShare (acc0 V c n) := by rw [h]; rfl

theorem leaves0_8_idle (c : Dev nD) (t : Fin cfg0.N) (h : ¬t.val + 1 = cfg0.N) :
    (dat0 V c).leavesExact 8 t = iprop(∃ d, owns (c : Thread nD τ) (st0_8 t) fullShare ((dat0 V c).before 8 t d)) :=
  Dat.leavesExact_idle _ 8 t (by rw [hidle0_8, decide_eq_false h]; rfl) (by rw [hflush0_8, decide_eq_false h])
theorem leaves0_8_last (c : Dev nD) (t : Fin cfg0.N) (h : t.val + 1 = cfg0.N) :
    (dat0 V c).leavesExact 8 t = owns (c : Thread nD τ) (st0_8 t) fullShare ((dat0 V c).after 8 t) := by
  unfold Dat.leavesExact; rw [hidle0_8, decide_eq_true h]; rfl

/-- The body at any point, by its three control cases: the inputs' memrefs hold their blocks; the invariant hands the
    body its scratch — at anything before the first point, at the accumulated value later — and takes it back one point on. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl,
    after0_0, after0_1, after0_2, after0_3, after0_4, after0_5, after0_6, after0_7, Φ0_castSucc, Φ0_succ]
  by_cases hA : t.val = 0
  · have h1 : cond0_1 (grid0.coords t) := (hcond0_1 t).mpr hA
    have hL : ¬t.val + 1 = cfg0.N := fun h => by have := one_lt_N0; omega
    have h2 : ¬cond0_2 (grid0.coords t) := fun h => hL ((hcond0_2 t).mp h)
    rw [scrAt0_first V c t hA, acc0_first V c t hA, leaves0_8_idle V c t hL]; unfold stepAt0
    iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run0_A c Set.univ (grid0.coords t) _ _ _ _ _ _ _ _ _ _ _ _ _ _ _ _ _ _ _ _ h1 h2 (iblk0 V c 0 t) (iblk0 V c 1 t) (iblk0 V c 2 t) (iblk0 V c 3 t) (iblk0 V c 4 t) (iblk0 V c 5 t) (iblk0 V c 6 t) ((dat0 V c).before 8 t d8) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS]; · iexact HS
    iintro ⟨H0, H1, H2, H3, H4, H5, H6, H7, H8, HS⟩
    isplitl [HR Hg HS]
    · isplitl [HR]; · iexact HR
      isplitl [Hg]; · iexact Hg
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists d8; iexact H8
  obtain ⟨n, hn⟩ := Nat.exists_eq_add_one_of_ne_zero hA
  have h1 : ¬cond0_1 (grid0.coords t) := fun h => hA ((hcond0_1 t).mp h)
  rw [scrAt0_next V c t n hn, acc0_next V c t n hn]; unfold stepAt0
  by_cases hL : t.val + 1 = cfg0.N
  · have h2 : cond0_2 (grid0.coords t) := (hcond0_2 t).mpr hL
    rw [leaves0_8_last V c t hL, after0_8, acc0_next V c t n hn]; unfold stepAt0
    iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run0_C c Set.univ (grid0.coords t) _ _ _ _ _ _ _ _ _ _ _ _ _ _ _ _ _ _ _ _ h1 h2 (iblk0 V c 0 t) (iblk0 V c 1 t) (iblk0 V c 2 t) (iblk0 V c 3 t) (iblk0 V c 4 t) (iblk0 V c 5 t) (iblk0 V c 6 t) (acc0 V c n) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, H7, H8, HS⟩
    isplitl [HR Hg HS]
    · isplitl [HR]; · iexact HR
      isplitl [Hg]; · iexact Hg
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  have h2 : ¬cond0_2 (grid0.coords t) := fun h => hL ((hcond0_2 t).mp h)
  rw [leaves0_8_idle V c t hL]
  iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run0_B c Set.univ (grid0.coords t) _ _ _ _ _ _ _ _ _ _ _ _ _ _ _ _ _ _ _ _ h1 h2 (iblk0 V c 0 t) (iblk0 V c 1 t) (iblk0 V c 2 t) (iblk0 V c 3 t) (iblk0 V c 4 t) (iblk0 V c 5 t) (iblk0 V c 6 t) ((dat0 V c).before 8 t d8) (acc0 V c n) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [HS]; · iexact HS
  iintro ⟨H0, H1, H2, H3, H4, H5, H6, H7, H8, HS⟩
  isplitl [HR Hg HS]
  · isplitl [HR]; · iexact HR
    isplitl [Hg]; · iexact Hg
    iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's ends -/

/-- Entering: the scratch is split off the scoped rest, at whatever it holds. -/
theorem hin0 (c : Dev nD) : (iprop((∃ r, prngReg c r) ∗ Pipeline.scopedRest spec0 c) : sProp 𝕄) ⊢ (dat0 V c).Φ 0 := by
  rw [show (dat0 V c).Φ 0 = Φ0 V c 0 from rfl, scopedRest0_split]; unfold Φ0
  rw [show scrAt0 V c ((0 : Fin (cfg0.N + 1)) : ℕ) = iprop(∃ d, owns (c : Thread nD τ) scM0_0 fullShare d) from rfl, scr_whole0]
  iintro ⟨Hp, Hs, Hr⟩
  isplitl [Hr]; · iexact Hr
  isplitl [Hp]; · iexact Hp
  iexact Hs

/-- Leaving: the scratch, at the accumulated value, goes back into the scoped rest. -/
theorem hout0 (c : Dev nD) : (dat0 V c).Φ (Fin.last cfg0.N) ⊢ (iprop((∃ r, prngReg c r) ∗ Pipeline.scopedRest spec0 c) : sProp 𝕄) := by
  rw [show (dat0 V c).Φ (Fin.last cfg0.N) = Φ0 V c (Fin.last cfg0.N) from rfl, scopedRest0_split]; unfold Φ0
  iintro ⟨Hr, Hp, Hs⟩
  isplitl [Hp]; · iexact Hp
  isplitl [Hs]; swap; · iexact Hr
  iapply (scrAt0_some V c _); iexact Hs

end Regions

end Cert.KernelIdeal.Hand

end
-- ==== Proof.KI.Reg1.lean ====
import proofs.«408428_j10917806867267_1_alg».proof.Proof.Gen.KernelIdeal.Launch
import proofs.«408428_j10917806867267_1_alg».proof.Proof.Gen.KernelIdeal.Skeleton
import proofs.«408428_j10917806867267_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's two branch conditions, decided over the grid -/

/-- The first `scf.if`'s condition (the point's coordinate is 0), as the skeleton's scalar chain computes it. -/
abbrev cond1_0 (i : grid1.Coords) : Prop :=
  (Scalar.cmpi .ne (Scalar.extui (Scalar.cmpi .eq (BitVec.ofNat 32 (i 0).val) 0#32)) 0#32) = 1#1
/-- The second `scf.if`'s condition (the point's coordinate is the last). -/
abbrev cond1_1 (i : grid1.Coords) : Prop := k1_cond2 i = 1#1

/-- The first condition holds at the first point only. -/
theorem hcond1_0 : ∀ t : Fin cfg1.N, cond1_0 (grid1.coords t) ↔ t.val = 0 :=
  (by decide +kernel : ∀ t : Fin grid1.N, cond1_0 (grid1.coords t) ↔ t.val = 0)
/-- The second holds at the last point only. -/
theorem hcond1_1 : ∀ t : Fin cfg1.N, cond1_1 (grid1.coords t) ↔ t.val + 1 = cfg1.N :=
  (by decide +kernel : ∀ t : Fin grid1.N, cond1_1 (grid1.coords t) ↔ t.val + 1 = grid1.N)

/-! ## The body on any whole memrefs, case by case: pieces the run finds

The body never touches the matrix output's memref where its second branch is not taken, so the first two cases are
stated without it (it is framed around them). -/

set_option maxHeartbeats 4000000 in
/-- THE FIRST POINT (first branch taken: the accumulator is zeroed before it is read; second not). On whole memrefs —
    the four inputs at their contents, the row output and the accumulator at anything — the body runs to the
    continuation holding the inputs as they were and the row output and the accumulator with their pieces written;
    the pieces are the witness the run finds. -/
noncomputable def kernelRun1_A (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond1_0 i) (hc1 : ¬cond1_1 i)
    (x0 : Vec F S5000x128 .f32) (x1 : Vec F S5000x128 .bf16) (x2 : Vec F S128x128 .f32) (x3 : Vec F S1x128 .f32) :
    { L : List (View.Piece (Elt F) S5000x128 .f32) × List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc1__center_varsum_kernel i arg1 harg1 arg2 harg2 arg3 harg3 arg4 harg4 arg5 harg5 arg6 harg6 arg7 harg7) K } := by
  refine ⟨(?_, ?_), fun E K => ?run⟩
  case run =>
    simp only [cc1__center_varsum_kernel_eq_skeleton]; unfold cc1__center_varsum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d6, %f6, -, H6⟩, Hk⟩
    obtain rfl := harg1.eq_unread hf0; obtain rfl := harg2.eq_unread hf1; obtain rfl := harg3.eq_unread hf2; obtain rfl := harg4.eq_unread hf3

    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H6

set_option maxHeartbeats 4000000 in
/-- THE MIDDLE POINTS (neither branch taken): as the first point's, the accumulator coming at `s`. -/
noncomputable def kernelRun1_B (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond1_0 i) (hc1 : ¬cond1_1 i)
    (x0 : Vec F S5000x128 .f32) (x1 : Vec F S5000x128 .bf16) (x2 : Vec F S128x128 .f32) (x3 : Vec F S1x128 .f32) (s : Vec F S128x128 .f32) :
    { L : List (View.Piece (Elt F) S5000x128 .f32) × List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg7 fullShare s
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc1__center_varsum_kernel i arg1 harg1 arg2 harg2 arg3 harg3 arg4 harg4 arg5 harg5 arg6 harg6 arg7 harg7) K } := by
  refine ⟨(?_, ?_), fun E K => ?run⟩
  case run =>
    simp only [cc1__center_varsum_kernel_eq_skeleton]; unfold cc1__center_varsum_kernel_skel
    unfold owns
    iintro ⟨⟨%f0, %hf0, H0⟩, ⟨%f1, %hf1, H1⟩, ⟨%f2, %hf2, H2⟩, ⟨%f3, %hf3, H3⟩, ⟨%d4, %f4, -, H4⟩, ⟨%f6, %hf6, H6⟩, Hk⟩
    obtain rfl := harg1.eq_unread hf0; obtain rfl := harg2.eq_unread hf1; obtain rfl := harg3.eq_unread hf2; obtain rfl := harg4.eq_unread hf3
    obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H6

set_option maxHeartbeats 4000000 in
/-- THE LAST POINT (second branch taken: the accumulator is copied into the matrix output at the end). The matrix
    output comes at anything and leaves with its pieces written. -/
noncomputable def kernelRun1_C (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond1_0 i) (hc1 : cond1_1 i)
    (x0 : Vec F S5000x128 .f32) (x1 : Vec F S5000x128 .bf16) (x2 : Vec F S128x128 .f32) (x3 : Vec F S1x128 .f32) (s : Vec F S128x128 .f32) :
    { L : List (View.Piece (Elt F) S5000x128 .f32) × List (View.Piece (Elt F) S128x128 .f32) × List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ owns (c : Thread nD τ) arg7 fullShare s
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2.1)
                ∗ (∃ f, arg7.view.loc (c : Thread nD τ) ↦[arg7.view.set]{fullShare} arg7.view.writes (Elt F) f L.2.2)) -∗ K ⟨⟩))
          ⊢ wp frame (wpE (defs₀ (F := F)) Variants.none c none) E (cc1__center_varsum_kernel i arg1 harg1 arg2 harg2 arg3 harg3 arg4 harg4 arg5 harg5 arg6 harg6 arg7 harg7) K } := by
  refine ⟨(?_, ?_, ?_), fun E K => ?run⟩
  case run =>
    simp only [cc1__center_varsum_kernel_eq_skeleton]; unfold cc1__center_varsum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
    obtain rfl := harg1.eq_unread hf0; obtain rfl := harg2.eq_unread hf1; obtain rfl := harg3.eq_unread hf2; obtain rfl := harg4.eq_unread hf3
    obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-! ## The memrefs the pipeline passes the body, and views to state contents through -/

/-- One whole buffer of each written shape, through which written contents are stated (the choice does not matter:
    pieces that cover a whole view read back the same over anything). -/
abbrev VO1_4 : View sig .tc .vmem S5000x128 .f32 := (Memref.whole cc1_stg4_0 : Memref sig .tc .vmem S5000x128 .f32).view
abbrev VO1_5 : View sig .tc .vmem S128x128 .f32 := (Memref.whole cc1_stg5_0 : Memref sig .tc .vmem S128x128 .f32).view
abbrev VS1 : View sig .tc .vmem S128x128 .f32 := (Memref.whole cc1_scratch0 : Memref sig .tc .vmem S128x128 .f32).view
/-- Each window's current staging memref at point `t`, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S5000x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .f32 := win1_5.stage (cfg1.slots t 5)
abbrev hs1_5 (t : Fin cfg1.N) : (ms1_5 t).IsWhole := hstage1_5 ((cfg1.slots t 5).cast nbuf1_5)
/-- The accumulator: the kernel's own whole scoped buffer, passed beside the windows. -/
abbrev scM1 : Memref sig .tc .vmem S128x128 .f32 := Memref.whole cc1_scratch0

/-! ## Each case's pieces tile what they are written to, and what they leave -/

theorem cover1_A_4 (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond1_0 i) (hc1 : ¬cond1_1 i) (x0 : Vec F S5000x128 .f32) (x1 : Vec F S5000x128 .bf16) (x2 : Vec F S128x128 .f32) (x3 : Vec F S1x128 .f32) (y : S5000x128.Idx) :
    ∃ pc ∈ (kernelRun1_A c i arg1 harg1 arg2 harg2 arg3 harg3 arg4 harg4 arg5 harg5 arg6 harg6 arg7 harg7 hc0 hc1 x0 x1 x2 x3).1.1, y ∈ pc.1.set :=
  View.cover_of_tiledL (kernelRun1_A c i arg1 harg1 arg2 harg2 arg3 harg3 arg4 harg4 arg5 harg5 arg6 harg6 arg7 harg7 hc0 hc1 x0 x1 x2 x3).1.1 S5000x128.size (by sl_kernel_rfl) y

theorem cover1_A_s (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond1_0 i) (hc1 : ¬cond1_1 i) (x0 : Vec F S5000x128 .f32) (x1 : Vec F S5000x128 .bf16) (x2 : Vec F S128x128 .f32) (x3 : Vec F S1x128 .f32) (y : S128x128.Idx) :
    ∃ pc ∈ (kernelRun1_A c i arg1 harg1 arg2 harg2 arg3 harg3 arg4 harg4 arg5 harg5 arg6 harg6 arg7 harg7 hc0 hc1 x0 x1 x2 x3).1.2, y ∈ pc.1.set :=
  View.cover_of_tiledL (kernelRun1_A c i arg1 harg1 arg2 harg2 arg3 harg3 arg4 harg4 arg5 harg5 arg6 harg6 arg7 harg7 hc0 hc1 x0 x1 x2 x3).1.2 S128x128.size (by sl_kernel_rfl) y

theorem cover1_B_4 (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond1_0 i) (hc1 : ¬cond1_1 i) (x0 : Vec F S5000x128 .f32) (x1 : Vec F S5000x128 .bf16) (x2 : Vec F S128x128 .f32) (x3 : Vec F S1x128 .f32) (s : Vec F S128x128 .f32) (y : S5000x128.Idx) :
    ∃ pc ∈ (kernelRun1_B c i arg1 harg1 arg2 harg2 arg3 harg3 arg4 harg4 arg5 harg5 arg6 harg6 arg7 harg7 hc0 hc1 x0 x1 x2 x3 s).1.1, y ∈ pc.1.set :=
  View.cover_of_tiledL (kernelRun1_B c i arg1 harg1 arg2 harg2 arg3 harg3 arg4 harg4 arg5 harg5 arg6 harg6 arg7 harg7 hc0 hc1 x0 x1 x2 x3 s).1.1 S5000x128.size (by sl_kernel_rfl) y

theorem cover1_B_s (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond1_0 i) (hc1 : ¬cond1_1 i) (x0 : Vec F S5000x128 .f32) (x1 : Vec F S5000x128 .bf16) (x2 : Vec F S128x128 .f32) (x3 : Vec F S1x128 .f32) (s : Vec F S128x128 .f32) (y : S128x128.Idx) :
    ∃ pc ∈ (kernelRun1_B c i arg1 harg1 arg2 harg2 arg3 harg3 arg4 harg4 arg5 harg5 arg6 harg6 arg7 harg7 hc0 hc1 x0 x1 x2 x3 s).1.2, y ∈ pc.1.set :=
  View.cover_of_tiledL (kernelRun1_B c i arg1 harg1 arg2 harg2 arg3 harg3 arg4 harg4 arg5 harg5 arg6 harg6 arg7 harg7 hc0 hc1 x0 x1 x2 x3 s).1.2 S128x128.size (by sl_kernel_rfl) y

theorem cover1_C_4 (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond1_0 i) (hc1 : cond1_1 i) (x0 : Vec F S5000x128 .f32) (x1 : Vec F S5000x128 .bf16) (x2 : Vec F S128x128 .f32) (x3 : Vec F S1x128 .f32) (s : Vec F S128x128 .f32) (y : S5000x128.Idx) :
    ∃ pc ∈ (kernelRun1_C c i arg1 harg1 arg2 harg2 arg3 harg3 arg4 harg4 arg5 harg5 arg6 harg6 arg7 harg7 hc0 hc1 x0 x1 x2 x3 s).1.1, y ∈ pc.1.set :=
  View.cover_of_tiledL (kernelRun1_C c i arg1 harg1 arg2 harg2 arg3 harg3 arg4 harg4 arg5 harg5 arg6 harg6 arg7 harg7 hc0 hc1 x0 x1 x2 x3 s).1.1 S5000x128.size (by sl_kernel_rfl) y

theorem cover1_C_5 (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond1_0 i) (hc1 : cond1_1 i) (x0 : Vec F S5000x128 .f32) (x1 : Vec F S5000x128 .bf16) (x2 : Vec F S128x128 .f32) (x3 : Vec F S1x128 .f32) (s : Vec F S128x128 .f32) (y : S128x128.Idx) :
    ∃ pc ∈ (kernelRun1_C c i arg1 harg1 arg2 harg2 arg3 harg3 arg4 harg4 arg5 harg5 arg6 harg6 arg7 harg7 hc0 hc1 x0 x1 x2 x3 s).1.2.1, y ∈ pc.1.set :=
  View.cover_of_tiledL (kernelRun1_C c i arg1 harg1 arg2 harg2 arg3 harg3 arg4 harg4 arg5 harg5 arg6 harg6 arg7 harg7 hc0 hc1 x0 x1 x2 x3 s).1.2.1 S128x128.size (by sl_kernel_rfl) y

theorem cover1_C_s (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond1_0 i) (hc1 : cond1_1 i) (x0 : Vec F S5000x128 .f32) (x1 : Vec F S5000x128 .bf16) (x2 : Vec F S128x128 .f32) (x3 : Vec F S1x128 .f32) (s : Vec F S128x128 .f32) (y : S128x128.Idx) :
    ∃ pc ∈ (kernelRun1_C c i arg1 harg1 arg2 harg2 arg3 harg3 arg4 harg4 arg5 harg5 arg6 harg6 arg7 harg7 hc0 hc1 x0 x1 x2 x3 s).1.2.2, y ∈ pc.1.set :=
  View.cover_of_tiledL (kernelRun1_C c i arg1 harg1 arg2 harg2 arg3 harg3 arg4 harg4 arg5 harg5 arg6 harg6 arg7 harg7 hc0 hc1 x0 x1 x2 x3 s).1.2.2 S128x128.size (by sl_kernel_rfl) y

/-- What the first point leaves in the row output: its pieces read back over anything. -/
def row1_A (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond1_0 i) (hc1 : ¬cond1_1 i) (x0 : Vec F S5000x128 .f32) (x1 : Vec F S5000x128 .bf16) (x2 : Vec F S128x128 .f32) (x3 : Vec F S1x128 .f32) : Vec F S5000x128 .f32 :=
  VO1_4.read (Elt F) (VO1_4.writes (Elt F) VO1_4.junk (kernelRun1_A c i arg1 harg1 arg2 harg2 arg3 harg3 arg4 harg4 arg5 harg5 arg6 harg6 arg7 harg7 hc0 hc1 x0 x1 x2 x3).1.1)

/-- What the first point leaves in the accumulator. -/
def scr1_A (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond1_0 i) (hc1 : ¬cond1_1 i) (x0 : Vec F S5000x128 .f32) (x1 : Vec F S5000x128 .bf16) (x2 : Vec F S128x128 .f32) (x3 : Vec F S1x128 .f32) : Vec F S128x128 .f32 :=
  VS1.read (Elt F) (VS1.writes (Elt F) VS1.junk (kernelRun1_A c i arg1 harg1 arg2 harg2 arg3 harg3 arg4 harg4 arg5 harg5 arg6 harg6 arg7 harg7 hc0 hc1 x0 x1 x2 x3).1.2)

/-- What a middle point leaves in the row output, -/
def row1_B (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond1_0 i) (hc1 : ¬cond1_1 i) (x0 : Vec F S5000x128 .f32) (x1 : Vec F S5000x128 .bf16) (x2 : Vec F S128x128 .f32) (x3 : Vec F S1x128 .f32) (s : Vec F S128x128 .f32) : Vec F S5000x128 .f32 :=
  VO1_4.read (Elt F) (VO1_4.writes (Elt F) VO1_4.junk (kernelRun1_B c i arg1 harg1 arg2 harg2 arg3 harg3 arg4 harg4 arg5 harg5 arg6 harg6 arg7 harg7 hc0 hc1 x0 x1 x2 x3 s).1.1)

/-- and in the accumulator, found at `s`. -/
def scr1_B (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond1_0 i) (hc1 : ¬cond1_1 i) (x0 : Vec F S5000x128 .f32) (x1 : Vec F S5000x128 .bf16) (x2 : Vec F S128x128 .f32) (x3 : Vec F S1x128 .f32) (s : Vec F S128x128 .f32) : Vec F S128x128 .f32 :=
  VS1.read (Elt F) (VS1.writes (Elt F) VS1.junk (kernelRun1_B c i arg1 harg1 arg2 harg2 arg3 harg3 arg4 harg4 arg5 harg5 arg6 harg6 arg7 harg7 hc0 hc1 x0 x1 x2 x3 s).1.2)

/-- What the last point leaves in the row output, -/
def row1_C (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond1_0 i) (hc1 : cond1_1 i) (x0 : Vec F S5000x128 .f32) (x1 : Vec F S5000x128 .bf16) (x2 : Vec F S128x128 .f32) (x3 : Vec F S1x128 .f32) (s : Vec F S128x128 .f32) : Vec F S5000x128 .f32 :=
  VO1_4.read (Elt F) (VO1_4.writes (Elt F) VO1_4.junk (kernelRun1_C c i arg1 harg1 arg2 harg2 arg3 harg3 arg4 harg4 arg5 harg5 arg6 harg6 arg7 harg7 hc0 hc1 x0 x1 x2 x3 s).1.1)

/-- in the matrix output, -/
def mat1_C (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond1_0 i) (hc1 : cond1_1 i) (x0 : Vec F S5000x128 .f32) (x1 : Vec F S5000x128 .bf16) (x2 : Vec F S128x128 .f32) (x3 : Vec F S1x128 .f32) (s : Vec F S128x128 .f32) : Vec F S128x128 .f32 :=
  VO1_5.read (Elt F) (VO1_5.writes (Elt F) VO1_5.junk (kernelRun1_C c i arg1 harg1 arg2 harg2 arg3 harg3 arg4 harg4 arg5 harg5 arg6 harg6 arg7 harg7 hc0 hc1 x0 x1 x2 x3 s).1.2.1)

/-- and in the accumulator, found at `s`. -/
def scr1_C (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond1_0 i) (hc1 : cond1_1 i) (x0 : Vec F S5000x128 .f32) (x1 : Vec F S5000x128 .bf16) (x2 : Vec F S128x128 .f32) (x3 : Vec F S1x128 .f32) (s : Vec F S128x128 .f32) : Vec F S128x128 .f32 :=
  VS1.read (Elt F) (VS1.writes (Elt F) VS1.junk (kernelRun1_C c i arg1 harg1 arg2 harg2 arg3 harg3 arg4 harg4 arg5 harg5 arg6 harg6 arg7 harg7 hc0 hc1 x0 x1 x2 x3 s).1.2.2)

section Region

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for ANY proof data whose array is `V`'s and whose body leaves the block in place; the
    windows uncut and never idle. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each point leaves: the accumulation -/

/-- The grid has at least two points: its first point is not its last. -/
theorem first_ne_last1 : ¬((0 : ℕ) + 1 = cfg1.N) := by rw [show cfg1.N = 10 from N_1]; decide

/-- THE ACCUMULATION. What the body leaves at position `n` in (the row output, the matrix output, the accumulator):
    the case the position selects — the first point's, the last point's, a middle point's —, run at the point's
    memrefs and input blocks, the accumulator found at what this leaves in it at `n - 1`. (The matrix output is written
    at the last point only; elsewhere the component repeats the accumulator's and is read nowhere.) -/
def outs1 (c : Dev nD) : (n : ℕ) → n < cfg1.N → Vec F S5000x128 .f32 × Vec F S128x128 .f32 × Vec F S128x128 .f32
  | 0, hn =>
    (row1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr rfl) (fun h => first_ne_last1 ((hcond1_1 ⟨0, hn⟩).mp h)) (iblk1 V c 0 ⟨0, hn⟩) (iblk1 V c 1 ⟨0, hn⟩) (iblk1 V c 2 ⟨0, hn⟩) (iblk1 V c 3 ⟨0, hn⟩),
     scr1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr rfl) (fun h => first_ne_last1 ((hcond1_1 ⟨0, hn⟩).mp h)) (iblk1 V c 0 ⟨0, hn⟩) (iblk1 V c 1 ⟨0, hn⟩) (iblk1 V c 2 ⟨0, hn⟩) (iblk1 V c 3 ⟨0, hn⟩),
     scr1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr rfl) (fun h => first_ne_last1 ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h1 : n + 1 + 1 = cfg1.N then
      (row1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outs1 c n (Nat.lt_of_succ_lt hn)).2.2,
       mat1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outs1 c n (Nat.lt_of_succ_lt hn)).2.2,
       scr1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outs1 c n (Nat.lt_of_succ_lt hn)).2.2)
    else
      (row1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outs1 c n (Nat.lt_of_succ_lt hn)).2.2,
       scr1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outs1 c n (Nat.lt_of_succ_lt hn)).2.2,
       scr1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outs1 c n (Nat.lt_of_succ_lt hn)).2.2)

/-- What the accumulator holds after position `n`. -/
abbrev acc1 (c : Dev nD) (n : ℕ) (hn : n < cfg1.N) : Vec F S128x128 .f32 := (outs1 V c n hn).2.2

/-- `outs1` at the first point. -/
theorem outs1_A (c : Dev nD) (t : Fin cfg1.N) (h0 : t.val = 0) (hc0 : cond1_0 (grid1.coords t)) (hc1 : ¬cond1_1 (grid1.coords t)) :
    outs1 V c t.val t.isLt =
      (row1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t),
       scr1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t),
       scr1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t)) := by
  obtain ⟨n, hn⟩ := t
  cases n with
  | zero => exact rfl
  | succ n => exact absurd h0 (Nat.succ_ne_zero n)

/-- `outs1` at the last point: over what the point before left in the accumulator. -/
theorem outs1_C (c : Dev nD) (t : Fin cfg1.N) (h0 : ¬t.val = 0) (h1 : t.val + 1 = cfg1.N) (hc0 : ¬cond1_0 (grid1.coords t)) (hc1 : cond1_1 (grid1.coords t)) :
    outs1 V c t.val t.isLt =
      (row1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (acc1 V c (t.val - 1) (Nat.lt_of_le_of_lt (Nat.sub_le _ _) t.isLt)),
       mat1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (acc1 V c (t.val - 1) (Nat.lt_of_le_of_lt (Nat.sub_le _ _) t.isLt)),
       scr1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (acc1 V c (t.val - 1) (Nat.lt_of_le_of_lt (Nat.sub_le _ _) t.isLt))) := by
  obtain ⟨n, hn⟩ := t
  cases n with
  | zero => exact absurd rfl h0
  | succ n => exact (dif_pos h1).trans rfl

/-- `outs1` at a middle point. -/
theorem outs1_B (c : Dev nD) (t : Fin cfg1.N) (h0 : ¬t.val = 0) (h1 : ¬t.val + 1 = cfg1.N) (hc0 : ¬cond1_0 (grid1.coords t)) (hc1 : ¬cond1_1 (grid1.coords t)) :
    outs1 V c t.val t.isLt =
      (row1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (acc1 V c (t.val - 1) (Nat.lt_of_le_of_lt (Nat.sub_le _ _) t.isLt)),
       scr1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (acc1 V c (t.val - 1) (Nat.lt_of_le_of_lt (Nat.sub_le _ _) t.isLt)),
       scr1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (acc1 V c (t.val - 1) (Nat.lt_of_le_of_lt (Nat.sub_le _ _) t.isLt))) := by
  obtain ⟨n, hn⟩ := t
  cases n with
  | zero => exact absurd rfl h0
  | succ n => exact (dif_neg h1).trans rfl

/-! ## The pipeline's proof data -/

/-- What the accumulator is owned at before position `n` (after position `n - 1`): before the first point at SOME
    contents (the region finds it at anything; the first point zeroes it before reading), after point `n` at the value
    accumulated through it. -/
def scrAt1 (c : Dev nD) : (n : ℕ) → n < cfg1.N + 1 → sProp 𝕄
  | 0, _ => iprop(∃ d, owns (c : Thread nD τ) scM1 fullShare d)
  | n + 1, h => owns (c : Thread nD τ) scM1 fullShare (acc1 V c n (Nat.lt_of_succ_lt_succ h))

/-- The body's invariant before point `t`: the core's scoped buffers that are neither a staging buffer of this call
    nor its accumulator, unopened; the generator register at some state; the accumulator whole at its contents there. -/
def Phi1 (c : Dev nD) (t : Fin (cfg1.N + 1)) : sProp 𝕄 :=
  iprop(Pipeline.scopedRestBut (Ix := Unit) (Name := ℕ) (U := Pipeline.UD sig nD τ) (Lvl := ℕ) (Val := Elt F) spec1 c [cc1_scratch0]
    ∗ (∃ r, prngReg c r) ∗ scrAt1 V c t.val t.isLt)

/-- The proof data of the pipeline on core `c`: the arrays as the region finds them (`V`); after the body at point `t`
    each input's buffer at its block, the row output's and the matrix output's at what `outs1` says; the invariant
    `Phi1`; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outs1 V c t.val t.isLt).1
    | ⟨5, _⟩ => (outs1 V c t.val t.isLt).2.1
  Φ t := Phi1 V c t
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outs1 V c t.val t.isLt).1 := by dsimp only [dat1]
theorem after1_5 (c : Dev nD) (t : Fin cfg1.N) : (dat1 V c).after 5 t = (outs1 V c t.val t.isLt).2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The accumulator's clause of the invariant, by the point. -/
theorem scrAt1_succ (c : Dev nD) (t : Fin cfg1.N) :
    scrAt1 V c t.succ.val t.succ.isLt = owns (c : Thread nD τ) scM1 fullShare (acc1 V c t.val t.isLt) := by
  obtain ⟨n, hn⟩ := t; rfl
theorem scrAt1_castSucc_zero (c : Dev nD) (t : Fin cfg1.N) (h0 : t.val = 0) :
    scrAt1 V c t.castSucc.val t.castSucc.isLt = iprop(∃ d, owns (c : Thread nD τ) scM1 fullShare d) := by
  obtain ⟨n, hn⟩ := t
  cases n with
  | zero => rfl
  | succ n => exact absurd h0 (Nat.succ_ne_zero n)
theorem scrAt1_castSucc_pos (c : Dev nD) (t : Fin cfg1.N) (h0 : ¬t.val = 0) :
    scrAt1 V c t.castSucc.val t.castSucc.isLt
      = owns (c : Thread nD τ) scM1 fullShare (acc1 V c (t.val - 1) (Nat.lt_of_le_of_lt (Nat.sub_le _ _) t.isLt)) := by
  obtain ⟨n, hn⟩ := t
  cases n with
  | zero => exact absurd rfl h0
  | succ n => rfl
/-- At any point the clause gives the accumulator at some contents. -/
theorem scrAt1_some (c : Dev nD) (n : ℕ) (h : n < cfg1.N + 1) :
    scrAt1 V c n h ⊢ (iprop(∃ d, owns (c : Thread nD τ) scM1 fullShare d) : sProp 𝕄) := by
  cases n with
  | zero => exact .rfl
  | succ n => rw [scrAt1]; iintro H; iexists _; iexact H

/-! ## Where the matrix output's window is idle -/

/-- The matrix output's window is idle exactly where the second branch is not taken, -/
theorem idle1_5_of (i : grid1.Coords) (h : ¬cond1_1 i) : cfg1.idle 5 i = true := by
  show (!(k1_cond2 i == 1#1)) = true
  rw [Bool.not_eq_true', beq_eq_false_iff_ne]; exact h
theorem live1_5_of (i : grid1.Coords) (h : cond1_1 i) : cfg1.idle 5 i = false := by
  show (!(k1_cond2 i == 1#1)) = false
  rw [Bool.not_eq_false', beq_iff_eq]; exact h
/-- and is not written back before the last point. -/
theorem noflush1_5 (t : Fin cfg1.N) (h1 : ¬t.val + 1 = cfg1.N) : (cfg1.win 5).flush t = false := by
  have hN : cfg1.N = 10 := N_1
  have ht : t.val < cfg1.N := t.isLt
  exact Bool.eq_false_iff.mpr fun h => by have := (flush1_5 _).mp h; omega
/-- The obligation's post for it at a live point. -/
theorem leaves1_5_live {c : Dev nD} (dat : Dat τ (Elt F) Unit ℕ (Pipeline.UD sig nD τ) ℕ cfg1 c) (t : Fin cfg1.N)
    (hi : cfg1.idle 5 (cfg1.grid.coords t) = false) :
    dat.leavesExact 5 t = owns (c : Thread nD τ) ((cfg1.win 5).stage (cfg1.slots t 5)) fullShare (dat.after 5 t) := by
  unfold Dat.leavesExact; rw [hi]

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns: the matrix output's buffer as it was found where its window is idle. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ (dat1 V c).leavesExact 5 t)

set_option maxHeartbeats 1600000 in
/-- The body at any point. The inputs' memrefs hold their blocks; the point's position says which case it is in; the
    invariant hands the body the accumulator — at anything at the first point, else at what the point before left —
    and takes it back at what this point leaves; the rest of the invariant and the core's `owes` pass through unread;
    the matrix output's buffer is framed around the body where its window is idle. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    after1_0, after1_1, after1_2, after1_3, after1_4]
  rw [show (dat1 V c).Φ t.succ = Phi1 V c t.succ from rfl, show (dat1 V c).Φ t.castSucc = Phi1 V c t.castSucc from rfl]
  unfold Phi1
  rw [scrAt1_succ]
  unfold acc1
  by_cases h0 : t.val = 0
  · have hc0 : cond1_0 (grid1.coords t) := (hcond1_0 t).mpr h0
    have h1 : ¬t.val + 1 = cfg1.N := fun h => first_ne_last1 (by rw [h0] at h; exact h)
    have hc1 : ¬cond1_1 (grid1.coords t) := fun h => h1 ((hcond1_1 t).mp h)
    rw [scrAt1_castSucc_zero V c t h0, Dat.leavesExact_idle _ 5 t (idle1_5_of _ hc1) (noflush1_5 t h1), outs1_A V c t h0 hc0 hc1]
    dsimp only
    unfold row1_A scr1_A
    iintro ⟨⟨Hrest, Hg, HS⟩, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ _ _ hc0 hc1 (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%e6, HS⟩⟩
    isplitl [Hrest Hg HS]
    · isplitl [Hrest]; · iexact Hrest
      isplitl [Hg]; · iexact Hg
      unfold owns; iexists _; isplitr
      swap; · iexact HS
      ipureintro; exact View.read_writes_of_cover _ _ _ _ _ (cover1_A_s c _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 c _ _ _ _ _ _ _ _ _ _ _ _ _ _ _ _ _ _ _ _ _)
    iexists d5; iexact H5
  · have hc0 : ¬cond1_0 (grid1.coords t) := fun h => h0 ((hcond1_0 t).mp h)
    rw [scrAt1_castSucc_pos V c t h0]
    unfold acc1
    by_cases h1 : t.val + 1 = cfg1.N
    · have hc1 : cond1_1 (grid1.coords t) := (hcond1_1 t).mpr h1
      rw [leaves1_5_live _ t (live1_5_of _ hc1), after1_5, outs1_C V c t h0 h1 hc0 hc1]
      dsimp only
      unfold row1_C mat1_C scr1_C acc1
      iintro ⟨⟨Hrest, Hg, HS⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ hc0 hc1 (iblk1 V c 0 t) (iblk1 V c 1 t) (iblk1 V c 2 t) (iblk1 V c 3 t) _).2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, ⟨%e4, H4⟩, ⟨%e5, H5⟩, ⟨%e6, HS⟩⟩
      isplitl [Hrest Hg HS]
      · isplitl [Hrest]; · iexact Hrest
        isplitl [Hg]; · iexact Hg
        unfold owns; iexists _; isplitr
        swap; · iexact HS
        ipureintro; exact View.read_writes_of_cover _ _ _ _ _ (cover1_C_s c _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_C_4 c _ _ _ _ _ _ _ _ _ _ _ _ _ _ _ _ _ _ _ _ _ _)
      unfold owns; iexists _; isplitr
      swap; · iexact H5
      ipureintro; exact View.read_writes_of_cover _ _ _ _ _ (cover1_C_5 c _ _ _ _ _ _ _ _ _ _ _ _ _ _ _ _ _ _ _ _ _ _)
    · have hc1 : ¬cond1_1 (grid1.coords t) := fun h => h1 ((hcond1_1 t).mp h)
      rw [Dat.leavesExact_idle _ 5 t (idle1_5_of _ hc1) (noflush1_5 t h1), outs1_B V c t h0 h1 hc0 hc1]
      dsimp only
      unfold row1_B scr1_B acc1
      iintro ⟨⟨Hrest, Hg, HS⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ hc0 hc1 (iblk1 V c 0 t) (iblk1 V c 1 t) (iblk1 V c 2 t) (iblk1 V c 3 t) _).2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%e6, HS⟩⟩
      isplitl [Hrest Hg HS]
      · isplitl [Hrest]; · iexact Hrest
        isplitl [Hg]; · iexact Hg
        unfold owns; iexists _; isplitr
        swap; · iexact HS
        ipureintro; exact View.read_writes_of_cover _ _ _ _ _ (cover1_B_s c _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_B_4 c _ _ _ _ _ _ _ _ _ _ _ _ _ _ _ _ _ _ _ _ _ _)
      iexists d5; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- ENTRY: the generator register and the scoped buffers no window stages make the invariant before the first point —
    the accumulator split out of them, at whatever it holds. -/
theorem hin1 (c : Dev nD) : (iprop((∃ r, prngReg c r) ∗ Pipeline.scopedRest spec1 c) : sProp 𝕄) ⊢ (dat1 V c).Φ 0 := by
  rw [show (dat1 V c).Φ 0 = Phi1 V c 0 from rfl]; unfold Phi1
  rw [show scrAt1 V c (0 : Fin (cfg1.N + 1)).val (0 : Fin (cfg1.N + 1)).isLt = iprop(∃ d, owns (c : Thread nD τ) scM1 fullShare d) from rfl,
    scopedRest1_split]
  simp only [scM1, owns_whole]
  iintro ⟨Hg, HS, Hrest⟩
  isplitl [Hrest]; · iexact Hrest
  isplitl [Hg]; · iexact Hg
  iexact HS

/-- EXIT: the invariant after the last point gives them back, the accumulator forgotten into them. -/
theorem hout1 (c : Dev nD) : (dat1 V c).Φ (Fin.last cfg1.N) ⊢ (iprop((∃ r, prngReg c r) ∗ Pipeline.scopedRest spec1 c) : sProp 𝕄) := by
  rw [show (dat1 V c).Φ (Fin.last cfg1.N) = Phi1 V c (Fin.last cfg1.N) from rfl]; unfold Phi1
  rw [scopedRest1_split]
  iintro ⟨Hrest, Hg, HS⟩
  ihave HS' := scrAt1_some V c _ _ $$ HS
  isplitl [Hg]; · iexact Hg
  isplitl [HS']
  · simp only [scM1, owns_whole]; iexact HS'
  iexact Hrest

end Region

end Cert.KernelIdeal.Hand

end
-- ==== Proof.KI.Reg2.lean ====
import proofs.«408428_j10917806867267_1_alg».proof.Proof.Gen.KernelIdeal.Launch
import proofs.«408428_j10917806867267_1_alg».proof.Proof.Gen.KernelIdeal.Skeleton
import proofs.«408428_j10917806867267_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The normalising launch as a pipeline region, at arbitrary entry contents

Six windows and no scratch: a tile of rows of the features, the same tile of the one-hot membership matrix, the
per-graph variances, the scale row and the shift row come in; one tile of rows goes out. The body reads the five
inputs whole and writes the output tile whole, once, so the output buffer after the body is one payload over the
five input blocks and every input buffer is left as found. Everything is stated at a parameter `V`, the buffer
contents when the region is entered, and at any float model `F`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`: what the window's index map cuts out of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## An input's buffer holds its block at every point

For any proof data over the entry arrays whose body leaves the input's block in place: where the window is fetched
the buffer holds the fetched block; where it is not, its block index has not moved since the point before, so the
block left there is still this point's. The tiles of rows are fetched at every point, the variances and the two
rows at the first point only; the one argument covers both. -/

theorem inputHolds2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem inputHolds2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem inputHolds2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem inputHolds2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem inputHolds2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev whole2_rows : Rect S5000x128 := Rect.unit (s := S5000x128) ![0, 0] S5000x128.size inb_S5000x128_S5000x128_0_0
abbrev whole2_square : Rect S128x128 := Rect.unit (s := S128x128) ![0, 0] S128x128.size inb_S128x128_S128x128_0_0
abbrev whole2_row : Rect S1x128 := Rect.unit (s := S1x128) ![0, 0] S1x128.size inb_S1x128_S1x128_0_0

/-! ## What the body leaves in the output buffer -/

/-- The output buffer after the body, from the five input blocks: its single store, of the payload at the inputs
    read whole. -/
def out2_5 (x0 : Vec F S5000x128 .f32) (x1 : Vec F S5000x128 .bf16) (x2 : Vec F S128x128 .f32) (x3 : Vec F S1x128 .f32) (x4 : Vec F S1x128 .f32) : Vec F S5000x128 .f32 :=
  View.canon [⟨whole2_rows, k2_pay1 (View.ld x1 whole2_rows) (View.ld x2 whole2_square) (View.ld x3 whole2_row) (View.ld x0 whole2_rows) (View.ld x4 whole2_row)⟩]

/-- The single store is the whole buffer, so it covers it. -/
theorem storeCovers2_5 (p0 : Vec F S5000x128 .f32) (y : S5000x128.Idx) :
    ∃ pc ∈ ([⟨whole2_rows, p0⟩] : List (View.Piece (Elt F) S5000x128 .f32)), y ∈ pc.1.set :=
  View.cover_of_tiled [⟨whole2_rows, p0⟩] S5000x128.size (by rfl) y

/-! ## The body's triple -/

set_option maxHeartbeats 1000000 in
/-- The body on whole buffers, the five inputs' at read contents `x0 … x4` and the output's at anything, runs to the
    continuation with the inputs' as they were and the output's at `out2_5` of them. -/
theorem kernelTriple2 (c : Dev nD) (E : Set ℕ) (i : grid2.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .bf16) (x2 : Vec F S128x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__normalize_kernel i arg1 harg1 arg2 harg2 arg3 harg3 arg4 harg4 arg5 harg5 arg6 harg6) K := by
  simp only [cc2__normalize_kernel_eq_skeleton]; unfold cc2__normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (storeCovers2_5 _)

/-! ## The pipeline's proof data -/

/-- The proof data on core `c`: the arrays as the region finds them; after the body at point `t` each input's
    buffer at its block and the output's at `out2_5` of the input blocks; the invariant that of a body touching
    nothing but its windows; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current buffer holds its block at every point, fetched there or not. -/
theorem before2_0 (c : Dev nD) (t : Fin cfg2.N) (d) : (dat2 V c).before 0 t d = iblk2 V c 0 t :=
  inputHolds2_0_of V (dat2 V c) (A_eq2 V c 0) (after2_0 V c) t d
theorem before2_1 (c : Dev nD) (t : Fin cfg2.N) (d) : (dat2 V c).before 1 t d = iblk2 V c 1 t :=
  inputHolds2_1_of V (dat2 V c) (A_eq2 V c 1) (after2_1 V c) t d
theorem before2_2 (c : Dev nD) (t : Fin cfg2.N) (d) : (dat2 V c).before 2 t d = iblk2 V c 2 t :=
  inputHolds2_2_of V (dat2 V c) (A_eq2 V c 2) (after2_2 V c) t d
theorem before2_3 (c : Dev nD) (t : Fin cfg2.N) (d) : (dat2 V c).before 3 t d = iblk2 V c 3 t :=
  inputHolds2_3_of V (dat2 V c) (A_eq2 V c 3) (after2_3 V c) t d
theorem before2_4 (c : Dev nD) (t : Fin cfg2.N) (d) : (dat2 V c).before 4 t d = iblk2 V c 4 t :=
  inputHolds2_4_of V (dat2 V c) (A_eq2 V c 4) (after2_4 V c) t d

/-! ## The body obligation, at a generic point -/

/-- What the body is called with at point `t`, the windows one by one, -/
def bodyGiven2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyLeaves2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and
    what the core owes pass through unread. -/
theorem bodyTriple2 (c : Dev nD) (t : Fin cfg2.N) :
    bodyGiven2 V c t ⊢ wp frame (wpE (defs₀ (F := F)) Variants.none c none) Set.univ (bodyAt2 t) (fun _ => bodyLeaves2 V c t) := by
  unfold bodyGiven2 bodyLeaves2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (kernelTriple2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact bodyTriple2 V c t

/-! ## The invariant at the region's two ends -/

/-- Entering: the generator register and the scoped rest make up the invariant before the first point. -/
theorem hin2 (c : Dev nD) : (iprop((∃ r, prngReg c r) ∗ Pipeline.scopedRest spec2 c) : sProp 𝕄) ⊢ (dat2 V c).Φ 0 := by
  rw [show (dat2 V c).Φ 0 = Pipeline.ΦA spec2 c from rfl]; unfold Pipeline.ΦA
  iintro ⟨Hp, Hr⟩
  isplitl [Hr]; · iexact Hr
  iexact Hp

/-- Leaving: the invariant after the last point hands both back. -/
theorem hout2 (c : Dev nD) : (dat2 V c).Φ (Fin.last cfg2.N) ⊢ (iprop((∃ r, prngReg c r) ∗ Pipeline.scopedRest spec2 c) : sProp 𝕄) := by
  rw [show (dat2 V c).Φ (Fin.last cfg2.N) = Pipeline.ΦA spec2 c from rfl]; unfold Pipeline.ΦA
  iintro ⟨Hr, Hp⟩
  isplitl [Hp]; · iexact Hp
  iexact Hr

end Cert.KernelIdeal.Hand
-- ==== Proof.KI.Reg3.lean ====
/- Region 3 of @main (custom_call 3, the GIN layer's MLP with its per-graph accumulator): the kernel body's three control
   cases as triples with named contents, the accumulator's value point by point, the pipeline's proof data over an invariant
   that names the scratch's contents, the body obligation at every point, and the invariant at the region's two ends. -/
import proofs.«408428_j10917806867267_1_alg».proof.Proof.Gen.KernelIdeal.Launch
import proofs.«408428_j10917806867267_1_alg».proof.Proof.Gen.KernelIdeal.Skeleton
import proofs.«408428_j10917806867267_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the long axes' extents recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's accesses and what it leaves -/

/-- The whole-buffer rectangles the body loads and stores through. -/
abbrev rA3 : Rect S5000x128 := Rect.unit (s := S5000x128) ![0, 0] S5000x128.size inb_S5000x128_S5000x128_0_0
abbrev rB3 : Rect S128x128 := Rect.unit (s := S128x128) ![0, 0] S128x128.size inb_S128x128_S128x128_0_0
abbrev rC3 : Rect S1x128 := Rect.unit (s := S1x128) ![0, 0] S1x128.size inb_S1x128_S1x128_0_0

/-- The point's MLP output, from the blocks of windows 0, 1, 3, 4, 5, 6. -/
def tval3 (x0 x1 : Vec F S5000x128 .f32) (x3 : Vec F S128x128 .f32) (x4 : Vec F S1x128 .f32) (x5 : Vec F S128x128 .f32) (x6 : Vec F S1x128 .f32) :
    FVec F S5000x128 .f32 :=
  k3_pay3 (View.ld x0 rA3) (View.ld x1 rA3) (View.ld x3 rB3) (View.ld x4 rC3) (View.ld x5 rB3) (View.ld x6 rC3)

/-- What the body leaves in window 7's staging buffer: its one store. -/
def out3_7 (x0 x1 : Vec F S5000x128 .f32) (x3 : Vec F S128x128 .f32) (x4 : Vec F S1x128 .f32) (x5 : Vec F S128x128 .f32) (x6 : Vec F S1x128 .f32) :
    Vec F S5000x128 .f32 :=
  View.canon [⟨rA3, tval3 x0 x1 x3 x4 x5 x6⟩]

/-- The accumulator zeroed. -/
def zero3 : Vec F S128x128 .f32 := View.canon [⟨rB3, k3_pay2 (F := F)⟩]

/-- The accumulator after a point that found it at `s`: `s` plus the point's term. -/
def scr3 (x0 x1 : Vec F S5000x128 .f32) (x2 : Vec F S5000x128 .bf16) (x3 : Vec F S128x128 .f32) (x4 : Vec F S1x128 .f32) (x5 : Vec F S128x128 .f32) (x6 : Vec F S1x128 .f32)
    (s : Vec F S128x128 .f32) : Vec F S128x128 .f32 :=
  View.canon [⟨rB3, k3_pay1 (tval3 x0 x1 x3 x4 x5 x6) (k3_pay4 (View.ld x2 rA3)) (View.ld s rB3)⟩]

/-- What the last point leaves in window 8's staging buffer: the accumulator copied. -/
def out3_8 (s : Vec F S128x128 .f32) : Vec F S128x128 .f32 := View.canon [⟨rB3, View.ld s rB3⟩]

/-- One whole-buffer store covers the buffer. -/
theorem coverA3 {e : EltTy} (p : rA3.shape.Idx → Elt F e) (y : S5000x128.Idx) :
    ∃ pc ∈ ([⟨rA3, p⟩] : List (View.Piece (Elt F) S5000x128 e)), y ∈ pc.1.set :=
  View.cover_of_tiled [⟨rA3, p⟩] S5000x128.size (by rfl) y
theorem coverB3 {e : EltTy} (p : rB3.shape.Idx → Elt F e) (y : S128x128.Idx) :
    ∃ pc ∈ ([⟨rB3, p⟩] : List (View.Piece (Elt F) S128x128 e)), y ∈ pc.1.set :=
  View.cover_of_tiled [⟨rB3, p⟩] S128x128.size (by rfl) y

/-- The conditions of the body's two `scf.if`s, from the grid coordinates. -/
abbrev cond3_1 (i : grid3.Coords) : Prop := (Scalar.cmpi .ne (Scalar.extui (Scalar.cmpi .eq (BitVec.ofNat 32 (i 0).val) 0#32)) 0#32) = 1#1
abbrev cond3_2 (i : grid3.Coords) : Prop := k3_cond2 i = 1#1

/-- The conditions in closed form, decided over the grid: the first holds at the first point only, the second at the
    last only; window 8 is idle off the last point and written back at it only. -/
theorem hcond3_1 : ∀ t : Fin cfg3.N, cond3_1 (grid3.coords t) ↔ t.val = 0 :=
  (by decide +kernel : ∀ t : Fin grid3.N, cond3_1 (grid3.coords t) ↔ t.val = 0)
theorem hcond3_2 : ∀ t : Fin cfg3.N, cond3_2 (grid3.coords t) ↔ t.val + 1 = cfg3.N :=
  (by decide +kernel : ∀ t : Fin grid3.N, cond3_2 (grid3.coords t) ↔ t.val + 1 = grid3.N)
theorem hidle3_8 : ∀ t : Fin cfg3.N, cfg3.idle 8 (cfg3.grid.coords t) = !decide (t.val + 1 = cfg3.N) :=
  (by decide +kernel : ∀ t : Fin grid3.N, idle3 8 (grid3.coords t) = !decide (t.val + 1 = grid3.N))
theorem hflush3_8 : ∀ t : Fin cfg3.N, (cfg3.win 8).flush t = decide (t.val + 1 = cfg3.N) :=
  (by decide +kernel : ∀ t : Fin grid3.N, win3_8.flush t = decide (t.val + 1 = grid3.N))
theorem one_lt_N3 : 1 < cfg3.N := by decide

/-- A whole-buffer store hides every earlier one. -/
theorem canon_headB3 {e : EltTy} (p : rB3.shape.Idx → Elt F e) (L : List (View.Piece (Elt F) S128x128 e)) :
    View.canon (⟨rB3, p⟩ :: L) = View.canon [⟨rB3, p⟩] := by
  funext y
  obtain ⟨pc, hm, hy⟩ := coverB3 (F := F) p y
  rw [List.mem_singleton] at hm; subst hm
  obtain ⟨x, rfl⟩ := rB3.exists_idx_of_mem hy
  exact (View.canon_cons_emb rB3 p L x).trans (View.canon_cons_emb rB3 p [] x).symm

theorem coverB3_cons {e : EltTy} (p : rB3.shape.Idx → Elt F e) (L : List (View.Piece (Elt F) S128x128 e)) (y : S128x128.Idx) :
    ∃ pc ∈ (⟨rB3, p⟩ :: L), y ∈ pc.1.set := by
  obtain ⟨pc, hm, hy⟩ := coverB3 (F := F) p y
  exact ⟨pc, List.mem_cons.mpr (Or.inl (List.mem_singleton.mp hm)), hy⟩

/-- So a buffer whose last store was whole reads that store's payload. -/
theorem read_writes_headB3 {κ : Kind} {sp : Space} {e : EltTy} (v : View sig κ sp S128x128 e) (f : v.ty.Contents (Elt F))
    (p : rB3.shape.Idx → Elt F e) (L : List (View.Piece (Elt F) S128x128 e)) :
    v.read (Elt F) (v.writes (Elt F) f (⟨rB3, p⟩ :: L)) = View.canon [⟨rB3, p⟩] :=
  (View.read_writes_eq_canon v f _ (coverB3_cons p L)).trans (canon_headB3 p L)

/-! ## The kernel body on any whole staging memrefs, case by case -/

set_option maxHeartbeats 4000000 in
/-- The first point: the accumulator is zeroed first; the second `scf.if` is not taken. -/
theorem run3_A (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S128x128 .f32) (harg9 : arg9.IsWhole) (arg10 : Memref sig .tc .vmem S128x128 .f32) (harg10 : arg10.IsWhole)
    (hc1 : cond3_1 i) (hc2 : ¬cond3_2 i)
    (x0 x1 : Vec F S5000x128 .f32) (x2 : Vec F S5000x128 .bf16) (x3 : Vec F S128x128 .f32) (x4 : Vec F S1x128 .f32) (x5 : Vec F S128x128 .f32) (x6 : Vec F S1x128 .f32) (x8 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out3_7 x0 x1 x3 x4 x5 x6)
            ∗ owns (c : Thread nD τ) arg9 fullShare x8
            ∗ owns (c : Thread nD τ) arg10 fullShare (scr3 x0 x1 x2 x3 x4 x5 x6 (zero3 (F := F)))) -∗ K ⟨⟩))
      ⊢ wp frame (wpE (defs₀ (F := F)) Variants.none c none) E (cc3__gin_mlp_kernel i arg1 harg1 arg2 harg2 arg3 harg3 arg4 harg4 arg5 harg5 arg6 harg6 arg7 harg7 arg8 harg8 arg9 harg9 arg10 harg10) K := by
  simp only [cc3__gin_mlp_kernel_eq_skeleton]; unfold cc3__gin_mlp_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds, %fs, -, HS⟩, Hk⟩
  subst hf0 hf1 hf2 hf3 hf4 hf5 hf6 hf8
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr
    swap; · iexact H7
    ipureintro; exact View.read_writes_eq_canon _ _ _ (coverA3 _)
  isplitl [H8]
  · iexists _; isplitr; · ipureintro; rfl
    iexact H8
  iexists _; isplitr
  swap; · iexact HS
  ipureintro
  refine (read_writes_headB3 _ _ _ _).trans ?_
  unfold scr3
  refine congrArg (fun p => View.canon [(⟨rB3, p⟩ : View.Piece (Elt F) S128x128 .f32)]) ?_
  refine congrArg (k3_pay1 _ _) ?_
  unfold zero3
  try dsimp only
  exact View.readCov_eq_canon_ld _ _ _ (coverB3 (F := F) _)

set_option maxHeartbeats 4000000 in
/-- A middle point: neither `scf.if` taken. -/
theorem run3_B (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S128x128 .f32) (harg9 : arg9.IsWhole) (arg10 : Memref sig .tc .vmem S128x128 .f32) (harg10 : arg10.IsWhole)
    (hc1 : ¬cond3_1 i) (hc2 : ¬cond3_2 i)
    (x0 x1 : Vec F S5000x128 .f32) (x2 : Vec F S5000x128 .bf16) (x3 : Vec F S128x128 .f32) (x4 : Vec F S1x128 .f32) (x5 : Vec F S128x128 .f32) (x6 : Vec F S1x128 .f32) (x8 s : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ owns (c : Thread nD τ) arg9 fullShare x8
        ∗ owns (c : Thread nD τ) arg10 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out3_7 x0 x1 x3 x4 x5 x6)
            ∗ owns (c : Thread nD τ) arg9 fullShare x8
            ∗ owns (c : Thread nD τ) arg10 fullShare (scr3 x0 x1 x2 x3 x4 x5 x6 s)) -∗ K ⟨⟩))
      ⊢ wp frame (wpE (defs₀ (F := F)) Variants.none c none) E (cc3__gin_mlp_kernel i arg1 harg1 arg2 harg2 arg3 harg3 arg4 harg4 arg5 harg5 arg6 harg6 arg7 harg7 arg8 harg8 arg9 harg9 arg10 harg10) K := by
  simp only [cc3__gin_mlp_kernel_eq_skeleton]; unfold cc3__gin_mlp_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs, %hfs, HS⟩, Hk⟩
  subst hf0 hf1 hf2 hf3 hf4 hf5 hf6 hf8 hfs
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr
    swap; · iexact H7
    ipureintro; exact View.read_writes_eq_canon _ _ _ (coverA3 _)
  isplitl [H8]
  · iexists _; isplitr; · ipureintro; rfl
    iexact H8
  iexists _; isplitr
  swap; · iexact HS
  ipureintro; exact View.read_writes_eq_canon _ _ _ (coverB3 _)

set_option maxHeartbeats 4000000 in
/-- The last point: the accumulator is not zeroed; it is copied into window 8 at the end. -/
theorem run3_C (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S128x128 .f32) (harg9 : arg9.IsWhole) (arg10 : Memref sig .tc .vmem S128x128 .f32) (harg10 : arg10.IsWhole)
    (hc1 : ¬cond3_1 i) (hc2 : cond3_2 i)
    (x0 x1 : Vec F S5000x128 .f32) (x2 : Vec F S5000x128 .bf16) (x3 : Vec F S128x128 .f32) (x4 : Vec F S1x128 .f32) (x5 : Vec F S128x128 .f32) (x6 : Vec F S1x128 .f32) (s : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ owns (c : Thread nD τ) arg10 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out3_7 x0 x1 x3 x4 x5 x6)
            ∗ owns (c : Thread nD τ) arg9 fullShare (out3_8 (scr3 x0 x1 x2 x3 x4 x5 x6 s))
            ∗ owns (c : Thread nD τ) arg10 fullShare (scr3 x0 x1 x2 x3 x4 x5 x6 s)) -∗ K ⟨⟩))
      ⊢ wp frame (wpE (defs₀ (F := F)) Variants.none c none) E (cc3__gin_mlp_kernel i arg1 harg1 arg2 harg2 arg3 harg3 arg4 harg4 arg5 harg5 arg6 harg6 arg7 harg7 arg8 harg8 arg9 harg9 arg10 harg10) K := by
  simp only [cc3__gin_mlp_kernel_eq_skeleton]; unfold cc3__gin_mlp_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS⟩, Hk⟩
  subst hf0 hf1 hf2 hf3 hf4 hf5 hf6 hfs
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr
    swap; · iexact H7
    ipureintro; exact View.read_writes_eq_canon _ _ _ (coverA3 _)
  isplitl [H8]
  · iexists _; isplitr
    swap; · iexact H8
    ipureintro
    refine (read_writes_headB3 _ _ _ _).trans ?_
    unfold out3_8
    refine congrArg (fun p => View.canon [(⟨rB3, p⟩ : View.Piece (Elt F) S128x128 .f32)]) ?_
    unfold scr3
    exact View.readCov_eq_canon_ld _ _ _ (coverB3 (F := F) _)
  iexists _; isplitr
  swap; · iexact HS
  ipureintro; exact View.read_writes_eq_canon _ _ _ (coverB3 _)

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is `V`'s and whose body leaves the block in place: unfetched, the block index has not moved. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (Pipeline.UD sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (Pipeline.UD sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The accumulator, point by point -/

/-- The scratch operand: a whole scoped buffer of the kernel's own, passed beside the windows. -/
abbrev scM3_0 : Memref sig .tc .vmem S128x128 .f32 := Memref.whole cc3_scratch0

/-- Point number `n` of the grid (wrapped past the last). -/
def pt3 (n : ℕ) : Fin cfg3.N := ⟨n % cfg3.N, Nat.mod_lt _ (Nat.lt_trans Nat.zero_lt_one one_lt_N3)⟩
theorem pt3_val (t : Fin cfg3.N) : pt3 t.val = t := Fin.ext (Nat.mod_eq_of_lt t.isLt)

/-- The accumulator after point `t`, if the point found it at `s`. -/
def stepAt3 (c : Dev nD) (t : Fin cfg3.N) (s : Vec F S128x128 .f32) : Vec F S128x128 .f32 :=
  scr3 (iblk3 V c 0 t) (iblk3 V c 1 t) (iblk3 V c 2 t) (iblk3 V c 3 t) (iblk3 V c 4 t) (iblk3 V c 5 t) (iblk3 V c 6 t) s

/-- The accumulator after point `n`: zeroed at the first point, each point's term added. -/
def acc3 (c : Dev nD) : ℕ → Vec F S128x128 .f32
  | 0 => stepAt3 V c (pt3 0) (zero3 (F := F))
  | n + 1 => stepAt3 V c (pt3 (n + 1)) (acc3 c n)

theorem acc3_first (c : Dev nD) (t : Fin cfg3.N) (h : t.val = 0) : acc3 V c t.val = stepAt3 V c t (zero3 (F := F)) := by
  rw [h]; show stepAt3 V c (pt3 0) _ = _; rw [← h, pt3_val]
theorem acc3_next (c : Dev nD) (t : Fin cfg3.N) (n : ℕ) (h : t.val = n + 1) : acc3 V c t.val = stepAt3 V c t (acc3 V c n) := by
  rw [h]; show stepAt3 V c (pt3 (n + 1)) _ = _; rw [← h, pt3_val]

/-- The scratch before point `k`: at some contents before the first, then at the accumulated value. -/
def scrAt3 (c : Dev nD) : ℕ → sProp 𝕄
  | 0 => iprop(∃ d, owns (c : Thread nD τ) scM3_0 fullShare d)
  | n + 1 => owns (c : Thread nD τ) scM3_0 fullShare (acc3 V c n)

/-- The scratch whole at some contents, as its points-to. -/
theorem scr_whole3 (c : Dev nD) :
    (iprop(∃ d, owns (c : Thread nD τ) scM3_0 fullShare d) : sProp 𝕄)
      = iprop(∃ f : Buf (Elt F) ((c : Thread nD τ).loc cc3_scratch0), ((c : Thread nD τ).loc cc3_scratch0) ↦{fullShare} f) := by
  simp only [scM3_0, owns_whole]; try rfl

theorem scrAt3_some (c : Dev nD) (k : ℕ) :
    scrAt3 V c k ⊢ (iprop(∃ f : Buf (Elt F) ((c : Thread nD τ).loc cc3_scratch0), ((c : Thread nD τ).loc cc3_scratch0) ↦{fullShare} f) : sProp 𝕄) := by
  rw [← scr_whole3]
  cases k with
  | zero => unfold scrAt3; iintro H; iexact H
  | succ n => unfold scrAt3; iintro H; iexists _; iexact H

/-- The invariant before point `k`: every other scoped buffer that is no staging buffer at some contents, the generator
    register at some state, the scratch as `scrAt3` says. -/
def Φ3 (c : Dev nD) (k : Fin (cfg3.N + 1)) : sProp 𝕄 :=
  iprop(Pipeline.scopedRestBut (Ix := Unit) (Name := ℕ) (U := Pipeline.UD sig nD τ) (Lvl := ℕ) (Val := Elt F) spec3 c [cc3_scratch0]
    ∗ (∃ r, prngReg c r) ∗ scrAt3 V c k.val)

/-! ## The pipeline's proof data -/

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 3 t) (iblk3 V c 4 t) (iblk3 V c 5 t) (iblk3 V c 6 t)
    | ⟨8, _⟩ => out3_8 (acc3 V c t.val)
  Φ := Φ3 V c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 3 t) (iblk3 V c 4 t) (iblk3 V c 5 t) (iblk3 V c 6 t) := by dsimp only [dat3]
theorem after3_8 (c : Dev nD) (t : Fin cfg3.N) : (dat3 V c).after 8 t = out3_8 (acc3 V c t.val) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

theorem Φ3_castSucc (c : Dev nD) (t : Fin cfg3.N) : (dat3 V c).Φ t.castSucc
    = iprop(Pipeline.scopedRestBut (Ix := Unit) (Name := ℕ) (U := Pipeline.UD sig nD τ) (Lvl := ℕ) (Val := Elt F) spec3 c [cc3_scratch0]
        ∗ (∃ r, prngReg c r) ∗ scrAt3 V c t.val) := rfl
theorem Φ3_succ (c : Dev nD) (t : Fin cfg3.N) : (dat3 V c).Φ t.succ
    = iprop(Pipeline.scopedRestBut (Ix := Unit) (Name := ℕ) (U := Pipeline.UD sig nD τ) (Lvl := ℕ) (Val := Elt F) spec3 c [cc3_scratch0]
        ∗ (∃ r, prngReg c r) ∗ owns (c : Thread nD τ) scM3_0 fullShare (acc3 V c t.val)) := rfl

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- and what it returns: window 8's buffer as found off the last point, at the accumulator's copy at it. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ (dat3 V c).leavesExact 8 t)

theorem scrAt3_first (c : Dev nD) (t : Fin cfg3.N) (h : t.val = 0) :
    scrAt3 V c t.val = iprop(∃ d, owns (c : Thread nD τ) scM3_0 fullShare d) := by rw [h]; rfl
theorem scrAt3_next (c : Dev nD) (t : Fin cfg3.N) (n : ℕ) (h : t.val = n + 1) :
    scrAt3 V c t.val = owns (c : Thread nD τ) scM3_0 fullShare (acc3 V c n) := by rw [h]; rfl

theorem leaves3_8_idle (c : Dev nD) (t : Fin cfg3.N) (h : ¬t.val + 1 = cfg3.N) :
    (dat3 V c).leavesExact 8 t = iprop(∃ d, owns (c : Thread nD τ) (st3_8 t) fullShare ((dat3 V c).before 8 t d)) :=
  Dat.leavesExact_idle _ 8 t (by rw [hidle3_8, decide_eq_false h]; rfl) (by rw [hflush3_8, decide_eq_false h])
theorem leaves3_8_last (c : Dev nD) (t : Fin cfg3.N) (h : t.val + 1 = cfg3.N) :
    (dat3 V c).leavesExact 8 t = owns (c : Thread nD τ) (st3_8 t) fullShare ((dat3 V c).after 8 t) := by
  unfold Dat.leavesExact; rw [hidle3_8, decide_eq_true h]; rfl

/-- The body at any point, by its three control cases: the inputs' memrefs hold their blocks; the invariant hands the
    body its scratch — at anything before the first point, at the accumulated value later — and takes it back one point on. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl,
    after3_0, after3_1, after3_2, after3_3, after3_4, after3_5, after3_6, after3_7, Φ3_castSucc, Φ3_succ]
  by_cases hA : t.val = 0
  · have h1 : cond3_1 (grid3.coords t) := (hcond3_1 t).mpr hA
    have hL : ¬t.val + 1 = cfg3.N := fun h => by have := one_lt_N3; omega
    have h2 : ¬cond3_2 (grid3.coords t) := fun h => hL ((hcond3_2 t).mp h)
    rw [scrAt3_first V c t hA, acc3_first V c t hA, leaves3_8_idle V c t hL]; unfold stepAt3
    iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run3_A c Set.univ (grid3.coords t) _ _ _ _ _ _ _ _ _ _ _ _ _ _ _ _ _ _ _ _ h1 h2 (iblk3 V c 0 t) (iblk3 V c 1 t) (iblk3 V c 2 t) (iblk3 V c 3 t) (iblk3 V c 4 t) (iblk3 V c 5 t) (iblk3 V c 6 t) ((dat3 V c).before 8 t d8) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS]; · iexact HS
    iintro ⟨H0, H1, H2, H3, H4, H5, H6, H7, H8, HS⟩
    isplitl [HR Hg HS]
    · isplitl [HR]; · iexact HR
      isplitl [Hg]; · iexact Hg
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists d8; iexact H8
  obtain ⟨n, hn⟩ := Nat.exists_eq_add_one_of_ne_zero hA
  have h1 : ¬cond3_1 (grid3.coords t) := fun h => hA ((hcond3_1 t).mp h)
  rw [scrAt3_next V c t n hn, acc3_next V c t n hn]; unfold stepAt3
  by_cases hL : t.val + 1 = cfg3.N
  · have h2 : cond3_2 (grid3.coords t) := (hcond3_2 t).mpr hL
    rw [leaves3_8_last V c t hL, after3_8, acc3_next V c t n hn]; unfold stepAt3
    iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run3_C c Set.univ (grid3.coords t) _ _ _ _ _ _ _ _ _ _ _ _ _ _ _ _ _ _ _ _ h1 h2 (iblk3 V c 0 t) (iblk3 V c 1 t) (iblk3 V c 2 t) (iblk3 V c 3 t) (iblk3 V c 4 t) (iblk3 V c 5 t) (iblk3 V c 6 t) (acc3 V c n) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, H7, H8, HS⟩
    isplitl [HR Hg HS]
    · isplitl [HR]; · iexact HR
      isplitl [Hg]; · iexact Hg
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  have h2 : ¬cond3_2 (grid3.coords t) := fun h => hL ((hcond3_2 t).mp h)
  rw [leaves3_8_idle V c t hL]
  iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run3_B c Set.univ (grid3.coords t) _ _ _ _ _ _ _ _ _ _ _ _ _ _ _ _ _ _ _ _ h1 h2 (iblk3 V c 0 t) (iblk3 V c 1 t) (iblk3 V c 2 t) (iblk3 V c 3 t) (iblk3 V c 4 t) (iblk3 V c 5 t) (iblk3 V c 6 t) ((dat3 V c).before 8 t d8) (acc3 V c n) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [HS]; · iexact HS
  iintro ⟨H0, H1, H2, H3, H4, H5, H6, H7, H8, HS⟩
  isplitl [HR Hg HS]
  · isplitl [HR]; · iexact HR
    isplitl [Hg]; · iexact Hg
    iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's ends -/

/-- Entering: the scratch is split off the scoped rest, at whatever it holds. -/
theorem hin3 (c : Dev nD) : (iprop((∃ r, prngReg c r) ∗ Pipeline.scopedRest spec3 c) : sProp 𝕄) ⊢ (dat3 V c).Φ 0 := by
  rw [show (dat3 V c).Φ 0 = Φ3 V c 0 from rfl, scopedRest3_split]; unfold Φ3
  rw [show scrAt3 V c ((0 : Fin (cfg3.N + 1)) : ℕ) = iprop(∃ d, owns (c : Thread nD τ) scM3_0 fullShare d) from rfl, scr_whole3]
  iintro ⟨Hp, Hs, Hr⟩
  isplitl [Hr]; · iexact Hr
  isplitl [Hp]; · iexact Hp
  iexact Hs

/-- Leaving: the scratch, at the accumulated value, goes back into the scoped rest. -/
theorem hout3 (c : Dev nD) : (dat3 V c).Φ (Fin.last cfg3.N) ⊢ (iprop((∃ r, prngReg c r) ∗ Pipeline.scopedRest spec3 c) : sProp 𝕄) := by
  rw [show (dat3 V c).Φ (Fin.last cfg3.N) = Φ3 V c (Fin.last cfg3.N) from rfl, scopedRest3_split]; unfold Φ3
  iintro ⟨Hr, Hp, Hs⟩
  isplitl [Hp]; · iexact Hp
  isplitl [Hs]; swap; · iexact Hr
  iapply (scrAt3_some V c _); iexact Hs

end Regions

end Cert.KernelIdeal.Hand

end
-- ==== Proof.KI.Reg4.lean ====
import proofs.«408428_j10917806867267_1_alg».proof.Proof.Gen.KernelIdeal.Launch
import proofs.«408428_j10917806867267_1_alg».proof.Proof.Gen.KernelIdeal.Skeleton
import proofs.«408428_j10917806867267_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's two branch conditions, decided over the grid -/

/-- The first `scf.if`'s condition (the point's coordinate is 0), as the skeleton's scalar chain computes it. -/
abbrev cond4_0 (i : grid4.Coords) : Prop :=
  (Scalar.cmpi .ne (Scalar.extui (Scalar.cmpi .eq (BitVec.ofNat 32 (i 0).val) 0#32)) 0#32) = 1#1
/-- The second `scf.if`'s condition (the point's coordinate is the last). -/
abbrev cond4_1 (i : grid4.Coords) : Prop := k4_cond2 i = 1#1

/-- The first condition holds at the first point only. -/
theorem hcond4_0 : ∀ t : Fin cfg4.N, cond4_0 (grid4.coords t) ↔ t.val = 0 :=
  (by decide +kernel : ∀ t : Fin grid4.N, cond4_0 (grid4.coords t) ↔ t.val = 0)
/-- The second holds at the last point only. -/
theorem hcond4_1 : ∀ t : Fin cfg4.N, cond4_1 (grid4.coords t) ↔ t.val + 1 = cfg4.N :=
  (by decide +kernel : ∀ t : Fin grid4.N, cond4_1 (grid4.coords t) ↔ t.val + 1 = grid4.N)

/-! ## The body on any whole memrefs, case by case: pieces the run finds

The body never touches the matrix output's memref where its second branch is not taken, so the first two cases are
stated without it (it is framed around them). -/

set_option maxHeartbeats 4000000 in
/-- THE FIRST POINT (first branch taken: the accumulator is zeroed before it is read; second not). On whole memrefs —
    the four inputs at their contents, the row output and the accumulator at anything — the body runs to the
    continuation holding the inputs as they were and the row output and the accumulator with their pieces written;
    the pieces are the witness the run finds. -/
noncomputable def kernelRun4_A (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond4_0 i) (hc1 : ¬cond4_1 i)
    (x0 : Vec F S5000x128 .f32) (x1 : Vec F S5000x128 .bf16) (x2 : Vec F S128x128 .f32) (x3 : Vec F S1x128 .f32) :
    { L : List (View.Piece (Elt F) S5000x128 .f32) × List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc4__center_varsum_kernel i arg1 harg1 arg2 harg2 arg3 harg3 arg4 harg4 arg5 harg5 arg6 harg6 arg7 harg7) K } := by
  refine ⟨(?_, ?_), fun E K => ?run⟩
  case run =>
    simp only [cc4__center_varsum_kernel_eq_skeleton]; unfold cc4__center_varsum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d6, %f6, -, H6⟩, Hk⟩
    obtain rfl := harg1.eq_unread hf0; obtain rfl := harg2.eq_unread hf1; obtain rfl := harg3.eq_unread hf2; obtain rfl := harg4.eq_unread hf3

    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H6

set_option maxHeartbeats 4000000 in
/-- THE MIDDLE POINTS (neither branch taken): as the first point's, the accumulator coming at `s`. -/
noncomputable def kernelRun4_B (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond4_0 i) (hc1 : ¬cond4_1 i)
    (x0 : Vec F S5000x128 .f32) (x1 : Vec F S5000x128 .bf16) (x2 : Vec F S128x128 .f32) (x3 : Vec F S1x128 .f32) (s : Vec F S128x128 .f32) :
    { L : List (View.Piece (Elt F) S5000x128 .f32) × List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg7 fullShare s
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc4__center_varsum_kernel i arg1 harg1 arg2 harg2 arg3 harg3 arg4 harg4 arg5 harg5 arg6 harg6 arg7 harg7) K } := by
  refine ⟨(?_, ?_), fun E K => ?run⟩
  case run =>
    simp only [cc4__center_varsum_kernel_eq_skeleton]; unfold cc4__center_varsum_kernel_skel
    unfold owns
    iintro ⟨⟨%f0, %hf0, H0⟩, ⟨%f1, %hf1, H1⟩, ⟨%f2, %hf2, H2⟩, ⟨%f3, %hf3, H3⟩, ⟨%d4, %f4, -, H4⟩, ⟨%f6, %hf6, H6⟩, Hk⟩
    obtain rfl := harg1.eq_unread hf0; obtain rfl := harg2.eq_unread hf1; obtain rfl := harg3.eq_unread hf2; obtain rfl := harg4.eq_unread hf3
    obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H6

set_option maxHeartbeats 4000000 in
/-- THE LAST POINT (second branch taken: the accumulator is copied into the matrix output at the end). The matrix
    output comes at anything and leaves with its pieces written. -/
noncomputable def kernelRun4_C (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond4_0 i) (hc1 : cond4_1 i)
    (x0 : Vec F S5000x128 .f32) (x1 : Vec F S5000x128 .bf16) (x2 : Vec F S128x128 .f32) (x3 : Vec F S1x128 .f32) (s : Vec F S128x128 .f32) :
    { L : List (View.Piece (Elt F) S5000x128 .f32) × List (View.Piece (Elt F) S128x128 .f32) × List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ owns (c : Thread nD τ) arg7 fullShare s
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2.1)
                ∗ (∃ f, arg7.view.loc (c : Thread nD τ) ↦[arg7.view.set]{fullShare} arg7.view.writes (Elt F) f L.2.2)) -∗ K ⟨⟩))
          ⊢ wp frame (wpE (defs₀ (F := F)) Variants.none c none) E (cc4__center_varsum_kernel i arg1 harg1 arg2 harg2 arg3 harg3 arg4 harg4 arg5 harg5 arg6 harg6 arg7 harg7) K } := by
  refine ⟨(?_, ?_, ?_), fun E K => ?run⟩
  case run =>
    simp only [cc4__center_varsum_kernel_eq_skeleton]; unfold cc4__center_varsum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
    obtain rfl := harg1.eq_unread hf0; obtain rfl := harg2.eq_unread hf1; obtain rfl := harg3.eq_unread hf2; obtain rfl := harg4.eq_unread hf3
    obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-! ## The memrefs the pipeline passes the body, and views to state contents through -/

/-- One whole buffer of each written shape, through which written contents are stated (the choice does not matter:
    pieces that cover a whole view read back the same over anything). -/
abbrev VO4_4 : View sig .tc .vmem S5000x128 .f32 := (Memref.whole cc4_stg4_0 : Memref sig .tc .vmem S5000x128 .f32).view
abbrev VO4_5 : View sig .tc .vmem S128x128 .f32 := (Memref.whole cc4_stg5_0 : Memref sig .tc .vmem S128x128 .f32).view
abbrev VS4 : View sig .tc .vmem S128x128 .f32 := (Memref.whole cc4_scratch0 : Memref sig .tc .vmem S128x128 .f32).view
/-- Each window's current staging memref at point `t`, and its wholeness. -/
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S5000x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S128x128 .f32 := win4_5.stage (cfg4.slots t 5)
abbrev hs4_5 (t : Fin cfg4.N) : (ms4_5 t).IsWhole := hstage4_5 ((cfg4.slots t 5).cast nbuf4_5)
/-- The accumulator: the kernel's own whole scoped buffer, passed beside the windows. -/
abbrev scM4 : Memref sig .tc .vmem S128x128 .f32 := Memref.whole cc4_scratch0

/-! ## Each case's pieces tile what they are written to, and what they leave -/

theorem cover4_A_4 (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond4_0 i) (hc1 : ¬cond4_1 i) (x0 : Vec F S5000x128 .f32) (x1 : Vec F S5000x128 .bf16) (x2 : Vec F S128x128 .f32) (x3 : Vec F S1x128 .f32) (y : S5000x128.Idx) :
    ∃ pc ∈ (kernelRun4_A c i arg1 harg1 arg2 harg2 arg3 harg3 arg4 harg4 arg5 harg5 arg6 harg6 arg7 harg7 hc0 hc1 x0 x1 x2 x3).1.1, y ∈ pc.1.set :=
  View.cover_of_tiledL (kernelRun4_A c i arg1 harg1 arg2 harg2 arg3 harg3 arg4 harg4 arg5 harg5 arg6 harg6 arg7 harg7 hc0 hc1 x0 x1 x2 x3).1.1 S5000x128.size (by sl_kernel_rfl) y

theorem cover4_A_s (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond4_0 i) (hc1 : ¬cond4_1 i) (x0 : Vec F S5000x128 .f32) (x1 : Vec F S5000x128 .bf16) (x2 : Vec F S128x128 .f32) (x3 : Vec F S1x128 .f32) (y : S128x128.Idx) :
    ∃ pc ∈ (kernelRun4_A c i arg1 harg1 arg2 harg2 arg3 harg3 arg4 harg4 arg5 harg5 arg6 harg6 arg7 harg7 hc0 hc1 x0 x1 x2 x3).1.2, y ∈ pc.1.set :=
  View.cover_of_tiledL (kernelRun4_A c i arg1 harg1 arg2 harg2 arg3 harg3 arg4 harg4 arg5 harg5 arg6 harg6 arg7 harg7 hc0 hc1 x0 x1 x2 x3).1.2 S128x128.size (by sl_kernel_rfl) y

theorem cover4_B_4 (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond4_0 i) (hc1 : ¬cond4_1 i) (x0 : Vec F S5000x128 .f32) (x1 : Vec F S5000x128 .bf16) (x2 : Vec F S128x128 .f32) (x3 : Vec F S1x128 .f32) (s : Vec F S128x128 .f32) (y : S5000x128.Idx) :
    ∃ pc ∈ (kernelRun4_B c i arg1 harg1 arg2 harg2 arg3 harg3 arg4 harg4 arg5 harg5 arg6 harg6 arg7 harg7 hc0 hc1 x0 x1 x2 x3 s).1.1, y ∈ pc.1.set :=
  View.cover_of_tiledL (kernelRun4_B c i arg1 harg1 arg2 harg2 arg3 harg3 arg4 harg4 arg5 harg5 arg6 harg6 arg7 harg7 hc0 hc1 x0 x1 x2 x3 s).1.1 S5000x128.size (by sl_kernel_rfl) y

theorem cover4_B_s (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond4_0 i) (hc1 : ¬cond4_1 i) (x0 : Vec F S5000x128 .f32) (x1 : Vec F S5000x128 .bf16) (x2 : Vec F S128x128 .f32) (x3 : Vec F S1x128 .f32) (s : Vec F S128x128 .f32) (y : S128x128.Idx) :
    ∃ pc ∈ (kernelRun4_B c i arg1 harg1 arg2 harg2 arg3 harg3 arg4 harg4 arg5 harg5 arg6 harg6 arg7 harg7 hc0 hc1 x0 x1 x2 x3 s).1.2, y ∈ pc.1.set :=
  View.cover_of_tiledL (kernelRun4_B c i arg1 harg1 arg2 harg2 arg3 harg3 arg4 harg4 arg5 harg5 arg6 harg6 arg7 harg7 hc0 hc1 x0 x1 x2 x3 s).1.2 S128x128.size (by sl_kernel_rfl) y

theorem cover4_C_4 (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond4_0 i) (hc1 : cond4_1 i) (x0 : Vec F S5000x128 .f32) (x1 : Vec F S5000x128 .bf16) (x2 : Vec F S128x128 .f32) (x3 : Vec F S1x128 .f32) (s : Vec F S128x128 .f32) (y : S5000x128.Idx) :
    ∃ pc ∈ (kernelRun4_C c i arg1 harg1 arg2 harg2 arg3 harg3 arg4 harg4 arg5 harg5 arg6 harg6 arg7 harg7 hc0 hc1 x0 x1 x2 x3 s).1.1, y ∈ pc.1.set :=
  View.cover_of_tiledL (kernelRun4_C c i arg1 harg1 arg2 harg2 arg3 harg3 arg4 harg4 arg5 harg5 arg6 harg6 arg7 harg7 hc0 hc1 x0 x1 x2 x3 s).1.1 S5000x128.size (by sl_kernel_rfl) y

theorem cover4_C_5 (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond4_0 i) (hc1 : cond4_1 i) (x0 : Vec F S5000x128 .f32) (x1 : Vec F S5000x128 .bf16) (x2 : Vec F S128x128 .f32) (x3 : Vec F S1x128 .f32) (s : Vec F S128x128 .f32) (y : S128x128.Idx) :
    ∃ pc ∈ (kernelRun4_C c i arg1 harg1 arg2 harg2 arg3 harg3 arg4 harg4 arg5 harg5 arg6 harg6 arg7 harg7 hc0 hc1 x0 x1 x2 x3 s).1.2.1, y ∈ pc.1.set :=
  View.cover_of_tiledL (kernelRun4_C c i arg1 harg1 arg2 harg2 arg3 harg3 arg4 harg4 arg5 harg5 arg6 harg6 arg7 harg7 hc0 hc1 x0 x1 x2 x3 s).1.2.1 S128x128.size (by sl_kernel_rfl) y

theorem cover4_C_s (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond4_0 i) (hc1 : cond4_1 i) (x0 : Vec F S5000x128 .f32) (x1 : Vec F S5000x128 .bf16) (x2 : Vec F S128x128 .f32) (x3 : Vec F S1x128 .f32) (s : Vec F S128x128 .f32) (y : S128x128.Idx) :
    ∃ pc ∈ (kernelRun4_C c i arg1 harg1 arg2 harg2 arg3 harg3 arg4 harg4 arg5 harg5 arg6 harg6 arg7 harg7 hc0 hc1 x0 x1 x2 x3 s).1.2.2, y ∈ pc.1.set :=
  View.cover_of_tiledL (kernelRun4_C c i arg1 harg1 arg2 harg2 arg3 harg3 arg4 harg4 arg5 harg5 arg6 harg6 arg7 harg7 hc0 hc1 x0 x1 x2 x3 s).1.2.2 S128x128.size (by sl_kernel_rfl) y

/-- What the first point leaves in the row output: its pieces read back over anything. -/
def row4_A (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond4_0 i) (hc1 : ¬cond4_1 i) (x0 : Vec F S5000x128 .f32) (x1 : Vec F S5000x128 .bf16) (x2 : Vec F S128x128 .f32) (x3 : Vec F S1x128 .f32) : Vec F S5000x128 .f32 :=
  VO4_4.read (Elt F) (VO4_4.writes (Elt F) VO4_4.junk (kernelRun4_A c i arg1 harg1 arg2 harg2 arg3 harg3 arg4 harg4 arg5 harg5 arg6 harg6 arg7 harg7 hc0 hc1 x0 x1 x2 x3).1.1)

/-- What the first point leaves in the accumulator. -/
def scr4_A (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond4_0 i) (hc1 : ¬cond4_1 i) (x0 : Vec F S5000x128 .f32) (x1 : Vec F S5000x128 .bf16) (x2 : Vec F S128x128 .f32) (x3 : Vec F S1x128 .f32) : Vec F S128x128 .f32 :=
  VS4.read (Elt F) (VS4.writes (Elt F) VS4.junk (kernelRun4_A c i arg1 harg1 arg2 harg2 arg3 harg3 arg4 harg4 arg5 harg5 arg6 harg6 arg7 harg7 hc0 hc1 x0 x1 x2 x3).1.2)

/-- What a middle point leaves in the row output, -/
def row4_B (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond4_0 i) (hc1 : ¬cond4_1 i) (x0 : Vec F S5000x128 .f32) (x1 : Vec F S5000x128 .bf16) (x2 : Vec F S128x128 .f32) (x3 : Vec F S1x128 .f32) (s : Vec F S128x128 .f32) : Vec F S5000x128 .f32 :=
  VO4_4.read (Elt F) (VO4_4.writes (Elt F) VO4_4.junk (kernelRun4_B c i arg1 harg1 arg2 harg2 arg3 harg3 arg4 harg4 arg5 harg5 arg6 harg6 arg7 harg7 hc0 hc1 x0 x1 x2 x3 s).1.1)

/-- and in the accumulator, found at `s`. -/
def scr4_B (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond4_0 i) (hc1 : ¬cond4_1 i) (x0 : Vec F S5000x128 .f32) (x1 : Vec F S5000x128 .bf16) (x2 : Vec F S128x128 .f32) (x3 : Vec F S1x128 .f32) (s : Vec F S128x128 .f32) : Vec F S128x128 .f32 :=
  VS4.read (Elt F) (VS4.writes (Elt F) VS4.junk (kernelRun4_B c i arg1 harg1 arg2 harg2 arg3 harg3 arg4 harg4 arg5 harg5 arg6 harg6 arg7 harg7 hc0 hc1 x0 x1 x2 x3 s).1.2)

/-- What the last point leaves in the row output, -/
def row4_C (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond4_0 i) (hc1 : cond4_1 i) (x0 : Vec F S5000x128 .f32) (x1 : Vec F S5000x128 .bf16) (x2 : Vec F S128x128 .f32) (x3 : Vec F S1x128 .f32) (s : Vec F S128x128 .f32) : Vec F S5000x128 .f32 :=
  VO4_4.read (Elt F) (VO4_4.writes (Elt F) VO4_4.junk (kernelRun4_C c i arg1 harg1 arg2 harg2 arg3 harg3 arg4 harg4 arg5 harg5 arg6 harg6 arg7 harg7 hc0 hc1 x0 x1 x2 x3 s).1.1)

/-- in the matrix output, -/
def mat4_C (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond4_0 i) (hc1 : cond4_1 i) (x0 : Vec F S5000x128 .f32) (x1 : Vec F S5000x128 .bf16) (x2 : Vec F S128x128 .f32) (x3 : Vec F S1x128 .f32) (s : Vec F S128x128 .f32) : Vec F S128x128 .f32 :=
  VO4_5.read (Elt F) (VO4_5.writes (Elt F) VO4_5.junk (kernelRun4_C c i arg1 harg1 arg2 harg2 arg3 harg3 arg4 harg4 arg5 harg5 arg6 harg6 arg7 harg7 hc0 hc1 x0 x1 x2 x3 s).1.2.1)

/-- and in the accumulator, found at `s`. -/
def scr4_C (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond4_0 i) (hc1 : cond4_1 i) (x0 : Vec F S5000x128 .f32) (x1 : Vec F S5000x128 .bf16) (x2 : Vec F S128x128 .f32) (x3 : Vec F S1x128 .f32) (s : Vec F S128x128 .f32) : Vec F S128x128 .f32 :=
  VS4.read (Elt F) (VS4.writes (Elt F) VS4.junk (kernelRun4_C c i arg1 harg1 arg2 harg2 arg3 harg3 arg4 harg4 arg5 harg5 arg6 harg6 arg7 harg7 hc0 hc1 x0 x1 x2 x3 s).1.2.2)

section Region

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not (unfetched, the
    block index has not moved), for ANY proof data whose array is `V`'s and whose body leaves the block in place; the
    windows uncut and never idle. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## What each point leaves: the accumulation -/

/-- The grid has at least two points: its first point is not its last. -/
theorem first_ne_last4 : ¬((0 : ℕ) + 1 = cfg4.N) := by rw [show cfg4.N = 10 from N_4]; decide

/-- THE ACCUMULATION. What the body leaves at position `n` in (the row output, the matrix output, the accumulator):
    the case the position selects — the first point's, the last point's, a middle point's —, run at the point's
    memrefs and input blocks, the accumulator found at what this leaves in it at `n - 1`. (The matrix output is written
    at the last point only; elsewhere the component repeats the accumulator's and is read nowhere.) -/
def outs4 (c : Dev nD) : (n : ℕ) → n < cfg4.N → Vec F S5000x128 .f32 × Vec F S128x128 .f32 × Vec F S128x128 .f32
  | 0, hn =>
    (row4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4 (Memref.isWhole_whole _) ((hcond4_0 ⟨0, hn⟩).mpr rfl) (fun h => first_ne_last4 ((hcond4_1 ⟨0, hn⟩).mp h)) (iblk4 V c 0 ⟨0, hn⟩) (iblk4 V c 1 ⟨0, hn⟩) (iblk4 V c 2 ⟨0, hn⟩) (iblk4 V c 3 ⟨0, hn⟩),
     scr4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4 (Memref.isWhole_whole _) ((hcond4_0 ⟨0, hn⟩).mpr rfl) (fun h => first_ne_last4 ((hcond4_1 ⟨0, hn⟩).mp h)) (iblk4 V c 0 ⟨0, hn⟩) (iblk4 V c 1 ⟨0, hn⟩) (iblk4 V c 2 ⟨0, hn⟩) (iblk4 V c 3 ⟨0, hn⟩),
     scr4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4 (Memref.isWhole_whole _) ((hcond4_0 ⟨0, hn⟩).mpr rfl) (fun h => first_ne_last4 ((hcond4_1 ⟨0, hn⟩).mp h)) (iblk4 V c 0 ⟨0, hn⟩) (iblk4 V c 1 ⟨0, hn⟩) (iblk4 V c 2 ⟨0, hn⟩) (iblk4 V c 3 ⟨0, hn⟩))
  | n + 1, hn =>
    if h1 : n + 1 + 1 = cfg4.N then
      (row4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outs4 c n (Nat.lt_of_succ_lt hn)).2.2,
       mat4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outs4 c n (Nat.lt_of_succ_lt hn)).2.2,
       scr4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outs4 c n (Nat.lt_of_succ_lt hn)).2.2)
    else
      (row4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outs4 c n (Nat.lt_of_succ_lt hn)).2.2,
       scr4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outs4 c n (Nat.lt_of_succ_lt hn)).2.2,
       scr4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outs4 c n (Nat.lt_of_succ_lt hn)).2.2)

/-- What the accumulator holds after position `n`. -/
abbrev acc4 (c : Dev nD) (n : ℕ) (hn : n < cfg4.N) : Vec F S128x128 .f32 := (outs4 V c n hn).2.2

/-- `outs4` at the first point. -/
theorem outs4_A (c : Dev nD) (t : Fin cfg4.N) (h0 : t.val = 0) (hc0 : cond4_0 (grid4.coords t)) (hc1 : ¬cond4_1 (grid4.coords t)) :
    outs4 V c t.val t.isLt =
      (row4_A c (grid4.coords t) (ms4_0 t) (hs4_0 t) (ms4_1 t) (hs4_1 t) (ms4_2 t) (hs4_2 t) (ms4_3 t) (hs4_3 t) (ms4_4 t) (hs4_4 t) (ms4_5 t) (hs4_5 t) scM4 (Memref.isWhole_whole _) hc0 hc1 (iblk4 V c 0 t) (iblk4 V c 1 t) (iblk4 V c 2 t) (iblk4 V c 3 t),
       scr4_A c (grid4.coords t) (ms4_0 t) (hs4_0 t) (ms4_1 t) (hs4_1 t) (ms4_2 t) (hs4_2 t) (ms4_3 t) (hs4_3 t) (ms4_4 t) (hs4_4 t) (ms4_5 t) (hs4_5 t) scM4 (Memref.isWhole_whole _) hc0 hc1 (iblk4 V c 0 t) (iblk4 V c 1 t) (iblk4 V c 2 t) (iblk4 V c 3 t),
       scr4_A c (grid4.coords t) (ms4_0 t) (hs4_0 t) (ms4_1 t) (hs4_1 t) (ms4_2 t) (hs4_2 t) (ms4_3 t) (hs4_3 t) (ms4_4 t) (hs4_4 t) (ms4_5 t) (hs4_5 t) scM4 (Memref.isWhole_whole _) hc0 hc1 (iblk4 V c 0 t) (iblk4 V c 1 t) (iblk4 V c 2 t) (iblk4 V c 3 t)) := by
  obtain ⟨n, hn⟩ := t
  cases n with
  | zero => exact rfl
  | succ n => exact absurd h0 (Nat.succ_ne_zero n)

/-- `outs4` at the last point: over what the point before left in the accumulator. -/
theorem outs4_C (c : Dev nD) (t : Fin cfg4.N) (h0 : ¬t.val = 0) (h1 : t.val + 1 = cfg4.N) (hc0 : ¬cond4_0 (grid4.coords t)) (hc1 : cond4_1 (grid4.coords t)) :
    outs4 V c t.val t.isLt =
      (row4_C c (grid4.coords t) (ms4_0 t) (hs4_0 t) (ms4_1 t) (hs4_1 t) (ms4_2 t) (hs4_2 t) (ms4_3 t) (hs4_3 t) (ms4_4 t) (hs4_4 t) (ms4_5 t) (hs4_5 t) scM4 (Memref.isWhole_whole _) hc0 hc1 (iblk4 V c 0 t) (iblk4 V c 1 t) (iblk4 V c 2 t) (iblk4 V c 3 t) (acc4 V c (t.val - 1) (Nat.lt_of_le_of_lt (Nat.sub_le _ _) t.isLt)),
       mat4_C c (grid4.coords t) (ms4_0 t) (hs4_0 t) (ms4_1 t) (hs4_1 t) (ms4_2 t) (hs4_2 t) (ms4_3 t) (hs4_3 t) (ms4_4 t) (hs4_4 t) (ms4_5 t) (hs4_5 t) scM4 (Memref.isWhole_whole _) hc0 hc1 (iblk4 V c 0 t) (iblk4 V c 1 t) (iblk4 V c 2 t) (iblk4 V c 3 t) (acc4 V c (t.val - 1) (Nat.lt_of_le_of_lt (Nat.sub_le _ _) t.isLt)),
       scr4_C c (grid4.coords t) (ms4_0 t) (hs4_0 t) (ms4_1 t) (hs4_1 t) (ms4_2 t) (hs4_2 t) (ms4_3 t) (hs4_3 t) (ms4_4 t) (hs4_4 t) (ms4_5 t) (hs4_5 t) scM4 (Memref.isWhole_whole _) hc0 hc1 (iblk4 V c 0 t) (iblk4 V c 1 t) (iblk4 V c 2 t) (iblk4 V c 3 t) (acc4 V c (t.val - 1) (Nat.lt_of_le_of_lt (Nat.sub_le _ _) t.isLt))) := by
  obtain ⟨n, hn⟩ := t
  cases n with
  | zero => exact absurd rfl h0
  | succ n => exact (dif_pos h1).trans rfl

/-- `outs4` at a middle point. -/
theorem outs4_B (c : Dev nD) (t : Fin cfg4.N) (h0 : ¬t.val = 0) (h1 : ¬t.val + 1 = cfg4.N) (hc0 : ¬cond4_0 (grid4.coords t)) (hc1 : ¬cond4_1 (grid4.coords t)) :
    outs4 V c t.val t.isLt =
      (row4_B c (grid4.coords t) (ms4_0 t) (hs4_0 t) (ms4_1 t) (hs4_1 t) (ms4_2 t) (hs4_2 t) (ms4_3 t) (hs4_3 t) (ms4_4 t) (hs4_4 t) (ms4_5 t) (hs4_5 t) scM4 (Memref.isWhole_whole _) hc0 hc1 (iblk4 V c 0 t) (iblk4 V c 1 t) (iblk4 V c 2 t) (iblk4 V c 3 t) (acc4 V c (t.val - 1) (Nat.lt_of_le_of_lt (Nat.sub_le _ _) t.isLt)),
       scr4_B c (grid4.coords t) (ms4_0 t) (hs4_0 t) (ms4_1 t) (hs4_1 t) (ms4_2 t) (hs4_2 t) (ms4_3 t) (hs4_3 t) (ms4_4 t) (hs4_4 t) (ms4_5 t) (hs4_5 t) scM4 (Memref.isWhole_whole _) hc0 hc1 (iblk4 V c 0 t) (iblk4 V c 1 t) (iblk4 V c 2 t) (iblk4 V c 3 t) (acc4 V c (t.val - 1) (Nat.lt_of_le_of_lt (Nat.sub_le _ _) t.isLt)),
       scr4_B c (grid4.coords t) (ms4_0 t) (hs4_0 t) (ms4_1 t) (hs4_1 t) (ms4_2 t) (hs4_2 t) (ms4_3 t) (hs4_3 t) (ms4_4 t) (hs4_4 t) (ms4_5 t) (hs4_5 t) scM4 (Memref.isWhole_whole _) hc0 hc1 (iblk4 V c 0 t) (iblk4 V c 1 t) (iblk4 V c 2 t) (iblk4 V c 3 t) (acc4 V c (t.val - 1) (Nat.lt_of_le_of_lt (Nat.sub_le _ _) t.isLt))) := by
  obtain ⟨n, hn⟩ := t
  cases n with
  | zero => exact absurd rfl h0
  | succ n => exact (dif_neg h1).trans rfl

/-! ## The pipeline's proof data -/

/-- What the accumulator is owned at before position `n` (after position `n - 1`): before the first point at SOME
    contents (the region finds it at anything; the first point zeroes it before reading), after point `n` at the value
    accumulated through it. -/
def scrAt4 (c : Dev nD) : (n : ℕ) → n < cfg4.N + 1 → sProp 𝕄
  | 0, _ => iprop(∃ d, owns (c : Thread nD τ) scM4 fullShare d)
  | n + 1, h => owns (c : Thread nD τ) scM4 fullShare (acc4 V c n (Nat.lt_of_succ_lt_succ h))

/-- The body's invariant before point `t`: the core's scoped buffers that are neither a staging buffer of this call
    nor its accumulator, unopened; the generator register at some state; the accumulator whole at its contents there. -/
def Phi4 (c : Dev nD) (t : Fin (cfg4.N + 1)) : sProp 𝕄 :=
  iprop(Pipeline.scopedRestBut (Ix := Unit) (Name := ℕ) (U := Pipeline.UD sig nD τ) (Lvl := ℕ) (Val := Elt F) spec4 c [cc4_scratch0]
    ∗ (∃ r, prngReg c r) ∗ scrAt4 V c t.val t.isLt)

/-- The proof data of the pipeline on core `c`: the arrays as the region finds them (`V`); after the body at point `t`
    each input's buffer at its block, the row output's and the matrix output's at what `outs4` says; the invariant
    `Phi4`; nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outs4 V c t.val t.isLt).1
    | ⟨5, _⟩ => (outs4 V c t.val t.isLt).2.1
  Φ t := Phi4 V c t
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outs4 V c t.val t.isLt).1 := by dsimp only [dat4]
theorem after4_5 (c : Dev nD) (t : Fin cfg4.N) : (dat4 V c).after 5 t = (outs4 V c t.val t.isLt).2.1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- The accumulator's clause of the invariant, by the point. -/
theorem scrAt4_succ (c : Dev nD) (t : Fin cfg4.N) :
    scrAt4 V c t.succ.val t.succ.isLt = owns (c : Thread nD τ) scM4 fullShare (acc4 V c t.val t.isLt) := by
  obtain ⟨n, hn⟩ := t; rfl
theorem scrAt4_castSucc_zero (c : Dev nD) (t : Fin cfg4.N) (h0 : t.val = 0) :
    scrAt4 V c t.castSucc.val t.castSucc.isLt = iprop(∃ d, owns (c : Thread nD τ) scM4 fullShare d) := by
  obtain ⟨n, hn⟩ := t
  cases n with
  | zero => rfl
  | succ n => exact absurd h0 (Nat.succ_ne_zero n)
theorem scrAt4_castSucc_pos (c : Dev nD) (t : Fin cfg4.N) (h0 : ¬t.val = 0) :
    scrAt4 V c t.castSucc.val t.castSucc.isLt
      = owns (c : Thread nD τ) scM4 fullShare (acc4 V c (t.val - 1) (Nat.lt_of_le_of_lt (Nat.sub_le _ _) t.isLt)) := by
  obtain ⟨n, hn⟩ := t
  cases n with
  | zero => exact absurd rfl h0
  | succ n => rfl
/-- At any point the clause gives the accumulator at some contents. -/
theorem scrAt4_some (c : Dev nD) (n : ℕ) (h : n < cfg4.N + 1) :
    scrAt4 V c n h ⊢ (iprop(∃ d, owns (c : Thread nD τ) scM4 fullShare d) : sProp 𝕄) := by
  cases n with
  | zero => exact .rfl
  | succ n => rw [scrAt4]; iintro H; iexists _; iexact H

/-! ## Where the matrix output's window is idle -/

/-- The matrix output's window is idle exactly where the second branch is not taken, -/
theorem idle4_5_of (i : grid4.Coords) (h : ¬cond4_1 i) : cfg4.idle 5 i = true := by
  show (!(k4_cond2 i == 1#1)) = true
  rw [Bool.not_eq_true', beq_eq_false_iff_ne]; exact h
theorem live4_5_of (i : grid4.Coords) (h : cond4_1 i) : cfg4.idle 5 i = false := by
  show (!(k4_cond2 i == 1#1)) = false
  rw [Bool.not_eq_false', beq_iff_eq]; exact h
/-- and is not written back before the last point. -/
theorem noflush4_5 (t : Fin cfg4.N) (h1 : ¬t.val + 1 = cfg4.N) : (cfg4.win 5).flush t = false := by
  have hN : cfg4.N = 10 := N_4
  have ht : t.val < cfg4.N := t.isLt
  exact Bool.eq_false_iff.mpr fun h => by have := (flush4_5 _).mp h; omega
/-- The obligation's post for it at a live point. -/
theorem leaves4_5_live {c : Dev nD} (dat : Dat τ (Elt F) Unit ℕ (Pipeline.UD sig nD τ) ℕ cfg4 c) (t : Fin cfg4.N)
    (hi : cfg4.idle 5 (cfg4.grid.coords t) = false) :
    dat.leavesExact 5 t = owns (c : Thread nD τ) ((cfg4.win 5).stage (cfg4.slots t 5)) fullShare (dat.after 5 t) := by
  unfold Dat.leavesExact; rw [hi]

/-! ## The body obligation, at a generic point -/

/-- What the body is called with at point `t` (the obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

/-- and what it returns: the matrix output's buffer as it was found where its window is idle. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ (dat4 V c).leavesExact 5 t)

set_option maxHeartbeats 1600000 in
/-- The body at any point. The inputs' memrefs hold their blocks; the point's position says which case it is in; the
    invariant hands the body the accumulator — at anything at the first point, else at what the point before left —
    and takes it back at what this point leaves; the rest of the invariant and the core's `owes` pass through unread;
    the matrix output's buffer is framed around the body where its window is idle. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl,
    after4_0, after4_1, after4_2, after4_3, after4_4]
  rw [show (dat4 V c).Φ t.succ = Phi4 V c t.succ from rfl, show (dat4 V c).Φ t.castSucc = Phi4 V c t.castSucc from rfl]
  unfold Phi4
  rw [scrAt4_succ]
  unfold acc4
  by_cases h0 : t.val = 0
  · have hc0 : cond4_0 (grid4.coords t) := (hcond4_0 t).mpr h0
    have h1 : ¬t.val + 1 = cfg4.N := fun h => first_ne_last4 (by rw [h0] at h; exact h)
    have hc1 : ¬cond4_1 (grid4.coords t) := fun h => h1 ((hcond4_1 t).mp h)
    rw [scrAt4_castSucc_zero V c t h0, Dat.leavesExact_idle _ 5 t (idle4_5_of _ hc1) (noflush4_5 t h1), outs4_A V c t h0 hc0 hc1]
    dsimp only
    unfold row4_A scr4_A
    iintro ⟨⟨Hrest, Hg, HS⟩, Ho, ⟨%d0, H0⟩, ⟨%d1, H1⟩, ⟨%d2, H2⟩, ⟨%d3, H3⟩, ⟨%d4, H4⟩, ⟨%d5, H5⟩⟩
    iapply ((kernelRun4_A c (grid4.coords t) _ _ _ _ _ _ _ _ _ _ _ _ _ _ hc0 hc1 (iblk4 V c 0 t) (iblk4 V c 1 t) (iblk4 V c 2 t) (iblk4 V c 3 t)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%e6, HS⟩⟩
    isplitl [Hrest Hg HS]
    · isplitl [Hrest]; · iexact Hrest
      isplitl [Hg]; · iexact Hg
      unfold owns; iexists _; isplitr
      swap; · iexact HS
      ipureintro; exact View.read_writes_of_cover _ _ _ _ _ (cover4_A_s c _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover4_A_4 c _ _ _ _ _ _ _ _ _ _ _ _ _ _ _ _ _ _ _ _ _)
    iexists d5; iexact H5
  · have hc0 : ¬cond4_0 (grid4.coords t) := fun h => h0 ((hcond4_0 t).mp h)
    rw [scrAt4_castSucc_pos V c t h0]
    unfold acc4
    by_cases h1 : t.val + 1 = cfg4.N
    · have hc1 : cond4_1 (grid4.coords t) := (hcond4_1 t).mpr h1
      rw [leaves4_5_live _ t (live4_5_of _ hc1), after4_5, outs4_C V c t h0 h1 hc0 hc1]
      dsimp only
      unfold row4_C mat4_C scr4_C acc4
      iintro ⟨⟨Hrest, Hg, HS⟩, Ho, ⟨%d0, H0⟩, ⟨%d1, H1⟩, ⟨%d2, H2⟩, ⟨%d3, H3⟩, ⟨%d4, H4⟩, ⟨%d5, H5⟩⟩
      iapply ((kernelRun4_C c (grid4.coords t) _ _ _ _ _ _ _ _ _ _ _ _ _ _ hc0 hc1 (iblk4 V c 0 t) (iblk4 V c 1 t) (iblk4 V c 2 t) (iblk4 V c 3 t) _).2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, ⟨%e4, H4⟩, ⟨%e5, H5⟩, ⟨%e6, HS⟩⟩
      isplitl [Hrest Hg HS]
      · isplitl [Hrest]; · iexact Hrest
        isplitl [Hg]; · iexact Hg
        unfold owns; iexists _; isplitr
        swap; · iexact HS
        ipureintro; exact View.read_writes_of_cover _ _ _ _ _ (cover4_C_s c _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_C_4 c _ _ _ _ _ _ _ _ _ _ _ _ _ _ _ _ _ _ _ _ _ _)
      unfold owns; iexists _; isplitr
      swap; · iexact H5
      ipureintro; exact View.read_writes_of_cover _ _ _ _ _ (cover4_C_5 c _ _ _ _ _ _ _ _ _ _ _ _ _ _ _ _ _ _ _ _ _ _)
    · have hc1 : ¬cond4_1 (grid4.coords t) := fun h => h1 ((hcond4_1 t).mp h)
      rw [Dat.leavesExact_idle _ 5 t (idle4_5_of _ hc1) (noflush4_5 t h1), outs4_B V c t h0 h1 hc0 hc1]
      dsimp only
      unfold row4_B scr4_B acc4
      iintro ⟨⟨Hrest, Hg, HS⟩, Ho, ⟨%d0, H0⟩, ⟨%d1, H1⟩, ⟨%d2, H2⟩, ⟨%d3, H3⟩, ⟨%d4, H4⟩, ⟨%d5, H5⟩⟩
      iapply ((kernelRun4_B c (grid4.coords t) _ _ _ _ _ _ _ _ _ _ _ _ _ _ hc0 hc1 (iblk4 V c 0 t) (iblk4 V c 1 t) (iblk4 V c 2 t) (iblk4 V c 3 t) _).2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%e6, HS⟩⟩
      isplitl [Hrest Hg HS]
      · isplitl [Hrest]; · iexact Hrest
        isplitl [Hg]; · iexact Hg
        unfold owns; iexists _; isplitr
        swap; · iexact HS
        ipureintro; exact View.read_writes_of_cover _ _ _ _ _ (cover4_B_s c _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_B_4 c _ _ _ _ _ _ _ _ _ _ _ _ _ _ _ _ _ _ _ _ _ _)
      iexists d5; iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's ends -/

/-- ENTRY: the generator register and the scoped buffers no window stages make the invariant before the first point —
    the accumulator split out of them, at whatever it holds. -/
theorem hin4 (c : Dev nD) : (iprop((∃ r, prngReg c r) ∗ Pipeline.scopedRest spec4 c) : sProp 𝕄) ⊢ (dat4 V c).Φ 0 := by
  rw [show (dat4 V c).Φ 0 = Phi4 V c 0 from rfl]; unfold Phi4
  rw [show scrAt4 V c (0 : Fin (cfg4.N + 1)).val (0 : Fin (cfg4.N + 1)).isLt = iprop(∃ d, owns (c : Thread nD τ) scM4 fullShare d) from rfl,
    scopedRest4_split]
  simp only [scM4, owns_whole]
  iintro ⟨Hg, HS, Hrest⟩
  isplitl [Hrest]; · iexact Hrest
  isplitl [Hg]; · iexact Hg
  iexact HS

/-- EXIT: the invariant after the last point gives them back, the accumulator forgotten into them. -/
theorem hout4 (c : Dev nD) : (dat4 V c).Φ (Fin.last cfg4.N) ⊢ (iprop((∃ r, prngReg c r) ∗ Pipeline.scopedRest spec4 c) : sProp 𝕄) := by
  rw [show (dat4 V c).Φ (Fin.last cfg4.N) = Phi4 V c (Fin.last cfg4.N) from rfl]; unfold Phi4
  rw [scopedRest4_split]
  iintro ⟨Hrest, Hg, HS⟩
  ihave HS' := scrAt4_some V c _ _ $$ HS
  isplitl [Hg]; · iexact Hg
  isplitl [HS']
  · simp only [scM4, owns_whole]; iexact HS'
  iexact Hrest

end Region

end Cert.KernelIdeal.Hand

end
-- ==== Proof.KI.Reg5.lean ====
import proofs.«408428_j10917806867267_1_alg».proof.Proof.Gen.KernelIdeal.Launch
import proofs.«408428_j10917806867267_1_alg».proof.Proof.Gen.KernelIdeal.Skeleton
import proofs.«408428_j10917806867267_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The normalising launch as a pipeline region, at arbitrary entry contents

Six windows and no scratch: a tile of rows of the features, the same tile of the one-hot membership matrix, the
per-graph variances, the scale row and the shift row come in; one tile of rows goes out. The body reads the five
inputs whole and writes the output tile whole, once, so the output buffer after the body is one payload over the
five input blocks and every input buffer is left as found. Everything is stated at a parameter `V`, the buffer
contents when the region is entered, and at any float model `F`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`: what the window's index map cuts out of its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## An input's buffer holds its block at every point

For any proof data over the entry arrays whose body leaves the input's block in place: where the window is fetched
the buffer holds the fetched block; where it is not, its block index has not moved since the point before, so the
block left there is still this point's. The tiles of rows are fetched at every point, the variances and the two
rows at the first point only; the one argument covers both. -/

theorem inputHolds5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem inputHolds5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem inputHolds5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem inputHolds5_3_of {c : Dev nD} (dat : Dat τ (Elt F) Unit ℕ (Pipeline.UD sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem inputHolds5_4_of {c : Dev nD} (dat : Dat τ (Elt F) Unit ℕ (Pipeline.UD sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev whole5_rows : Rect S5000x128 := Rect.unit (s := S5000x128) ![0, 0] S5000x128.size inb_S5000x128_S5000x128_0_0
abbrev whole5_square : Rect S128x128 := Rect.unit (s := S128x128) ![0, 0] S128x128.size inb_S128x128_S128x128_0_0
abbrev whole5_row : Rect S1x128 := Rect.unit (s := S1x128) ![0, 0] S1x128.size inb_S1x128_S1x128_0_0

/-! ## What the body leaves in the output buffer -/

/-- The output buffer after the body, from the five input blocks: its single store, of the payload at the inputs
    read whole. -/
def out5_5 (x0 : Vec F S5000x128 .f32) (x1 : Vec F S5000x128 .bf16) (x2 : Vec F S128x128 .f32) (x3 : Vec F S1x128 .f32) (x4 : Vec F S1x128 .f32) : Vec F S5000x128 .f32 :=
  View.canon [⟨whole5_rows, k5_pay1 (View.ld x1 whole5_rows) (View.ld x2 whole5_square) (View.ld x3 whole5_row) (View.ld x0 whole5_rows) (View.ld x4 whole5_row)⟩]

/-- The single store is the whole buffer, so it covers it. -/
theorem storeCovers5_5 (p0 : Vec F S5000x128 .f32) (y : S5000x128.Idx) :
    ∃ pc ∈ ([⟨whole5_rows, p0⟩] : List (View.Piece (Elt F) S5000x128 .f32)), y ∈ pc.1.set :=
  View.cover_of_tiled [⟨whole5_rows, p0⟩] S5000x128.size (by rfl) y

/-! ## The body's triple -/

set_option maxHeartbeats 1000000 in
/-- The body on whole buffers, the five inputs' at read contents `x0 … x4` and the output's at anything, runs to the
    continuation with the inputs' as they were and the output's at `out5_5` of them. -/
theorem kernelTriple5 (c : Dev nD) (E : Set ℕ) (i : grid5.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .bf16) (x2 : Vec F S128x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__normalize_kernel i arg1 harg1 arg2 harg2 arg3 harg3 arg4 harg4 arg5 harg5 arg6 harg6) K := by
  simp only [cc5__normalize_kernel_eq_skeleton]; unfold cc5__normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (storeCovers5_5 _)

/-! ## The pipeline's proof data -/

/-- The proof data on core `c`: the arrays as the region finds them; after the body at point `t` each input's
    buffer at its block and the output's at `out5_5` of the input blocks; the invariant that of a body touching
    nothing but its windows; nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current buffer holds its block at every point, fetched there or not. -/
theorem before5_0 (c : Dev nD) (t : Fin cfg5.N) (d) : (dat5 V c).before 0 t d = iblk5 V c 0 t :=
  inputHolds5_0_of V (dat5 V c) (A_eq5 V c 0) (after5_0 V c) t d
theorem before5_1 (c : Dev nD) (t : Fin cfg5.N) (d) : (dat5 V c).before 1 t d = iblk5 V c 1 t :=
  inputHolds5_1_of V (dat5 V c) (A_eq5 V c 1) (after5_1 V c) t d
theorem before5_2 (c : Dev nD) (t : Fin cfg5.N) (d) : (dat5 V c).before 2 t d = iblk5 V c 2 t :=
  inputHolds5_2_of V (dat5 V c) (A_eq5 V c 2) (after5_2 V c) t d
theorem before5_3 (c : Dev nD) (t : Fin cfg5.N) (d) : (dat5 V c).before 3 t d = iblk5 V c 3 t :=
  inputHolds5_3_of V (dat5 V c) (A_eq5 V c 3) (after5_3 V c) t d
theorem before5_4 (c : Dev nD) (t : Fin cfg5.N) (d) : (dat5 V c).before 4 t d = iblk5 V c 4 t :=
  inputHolds5_4_of V (dat5 V c) (A_eq5 V c 4) (after5_4 V c) t d

/-! ## The body obligation, at a generic point -/

/-- What the body is called with at point `t`, the windows one by one, -/
def bodyGiven5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyLeaves5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the body's triple applies; the invariant and
    what the core owes pass through unread. -/
theorem bodyTriple5 (c : Dev nD) (t : Fin cfg5.N) :
    bodyGiven5 V c t ⊢ wp frame (wpE (defs₀ (F := F)) Variants.none c none) Set.univ (bodyAt5 t) (fun _ => bodyLeaves5 V c t) := by
  unfold bodyGiven5 bodyLeaves5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (kernelTriple5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact bodyTriple5 V c t

/-! ## The invariant at the region's two ends -/

/-- Entering: the generator register and the scoped rest make up the invariant before the first point. -/
theorem hin5 (c : Dev nD) : (iprop((∃ r, prngReg c r) ∗ Pipeline.scopedRest spec5 c) : sProp 𝕄) ⊢ (dat5 V c).Φ 0 := by
  rw [show (dat5 V c).Φ 0 = Pipeline.ΦA spec5 c from rfl]; unfold Pipeline.ΦA
  iintro ⟨Hp, Hr⟩
  isplitl [Hr]; · iexact Hr
  iexact Hp

/-- Leaving: the invariant after the last point hands both back. -/
theorem hout5 (c : Dev nD) : (dat5 V c).Φ (Fin.last cfg5.N) ⊢ (iprop((∃ r, prngReg c r) ∗ Pipeline.scopedRest spec5 c) : sProp 𝕄) := by
  rw [show (dat5 V c).Φ (Fin.last cfg5.N) = Pipeline.ΦA spec5 c from rfl]; unfold Pipeline.ΦA
  iintro ⟨Hr, Hp⟩
  isplitl [Hp]; · iexact Hp
  iexact Hr

end Cert.KernelIdeal.Hand
-- ==== Proof.KI.Reg6.lean ====
/- Region 6 of @main (custom_call 6, the GIN layer's MLP with its per-graph accumulator): the kernel body's three control
   cases as triples with named contents, the accumulator's value point by point, the pipeline's proof data over an invariant
   that names the scratch's contents, the body obligation at every point, and the invariant at the region's two ends. -/
import proofs.«408428_j10917806867267_1_alg».proof.Proof.Gen.KernelIdeal.Launch
import proofs.«408428_j10917806867267_1_alg».proof.Proof.Gen.KernelIdeal.Skeleton
import proofs.«408428_j10917806867267_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the long axes' extents recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's accesses and what it leaves -/

/-- The whole-buffer rectangles the body loads and stores through. -/
abbrev rA6 : Rect S5000x128 := Rect.unit (s := S5000x128) ![0, 0] S5000x128.size inb_S5000x128_S5000x128_0_0
abbrev rB6 : Rect S128x128 := Rect.unit (s := S128x128) ![0, 0] S128x128.size inb_S128x128_S128x128_0_0
abbrev rC6 : Rect S1x128 := Rect.unit (s := S1x128) ![0, 0] S1x128.size inb_S1x128_S1x128_0_0

/-- The point's MLP output, from the blocks of windows 0, 1, 3, 4, 5, 6. -/
def tval6 (x0 x1 : Vec F S5000x128 .f32) (x3 : Vec F S128x128 .f32) (x4 : Vec F S1x128 .f32) (x5 : Vec F S128x128 .f32) (x6 : Vec F S1x128 .f32) :
    FVec F S5000x128 .f32 :=
  k6_pay3 (View.ld x0 rA6) (View.ld x1 rA6) (View.ld x3 rB6) (View.ld x4 rC6) (View.ld x5 rB6) (View.ld x6 rC6)

/-- What the body leaves in window 7's staging buffer: its one store. -/
def out6_7 (x0 x1 : Vec F S5000x128 .f32) (x3 : Vec F S128x128 .f32) (x4 : Vec F S1x128 .f32) (x5 : Vec F S128x128 .f32) (x6 : Vec F S1x128 .f32) :
    Vec F S5000x128 .f32 :=
  View.canon [⟨rA6, tval6 x0 x1 x3 x4 x5 x6⟩]

/-- The accumulator zeroed. -/
def zero6 : Vec F S128x128 .f32 := View.canon [⟨rB6, k6_pay2 (F := F)⟩]

/-- The accumulator after a point that found it at `s`: `s` plus the point's term. -/
def scr6 (x0 x1 : Vec F S5000x128 .f32) (x2 : Vec F S5000x128 .bf16) (x3 : Vec F S128x128 .f32) (x4 : Vec F S1x128 .f32) (x5 : Vec F S128x128 .f32) (x6 : Vec F S1x128 .f32)
    (s : Vec F S128x128 .f32) : Vec F S128x128 .f32 :=
  View.canon [⟨rB6, k6_pay1 (tval6 x0 x1 x3 x4 x5 x6) (k6_pay4 (View.ld x2 rA6)) (View.ld s rB6)⟩]

/-- What the last point leaves in window 8's staging buffer: the accumulator copied. -/
def out6_8 (s : Vec F S128x128 .f32) : Vec F S128x128 .f32 := View.canon [⟨rB6, View.ld s rB6⟩]

/-- One whole-buffer store covers the buffer. -/
theorem coverA6 {e : EltTy} (p : rA6.shape.Idx → Elt F e) (y : S5000x128.Idx) :
    ∃ pc ∈ ([⟨rA6, p⟩] : List (View.Piece (Elt F) S5000x128 e)), y ∈ pc.1.set :=
  View.cover_of_tiled [⟨rA6, p⟩] S5000x128.size (by rfl) y
theorem coverB6 {e : EltTy} (p : rB6.shape.Idx → Elt F e) (y : S128x128.Idx) :
    ∃ pc ∈ ([⟨rB6, p⟩] : List (View.Piece (Elt F) S128x128 e)), y ∈ pc.1.set :=
  View.cover_of_tiled [⟨rB6, p⟩] S128x128.size (by rfl) y

/-- The conditions of the body's two `scf.if`s, from the grid coordinates. -/
abbrev cond6_1 (i : grid6.Coords) : Prop := (Scalar.cmpi .ne (Scalar.extui (Scalar.cmpi .eq (BitVec.ofNat 32 (i 0).val) 0#32)) 0#32) = 1#1
abbrev cond6_2 (i : grid6.Coords) : Prop := k6_cond2 i = 1#1

/-- The conditions in closed form, decided over the grid: the first holds at the first point only, the second at the
    last only; window 8 is idle off the last point and written back at it only. -/
theorem hcond6_1 : ∀ t : Fin cfg6.N, cond6_1 (grid6.coords t) ↔ t.val = 0 :=
  (by decide +kernel : ∀ t : Fin grid6.N, cond6_1 (grid6.coords t) ↔ t.val = 0)
theorem hcond6_2 : ∀ t : Fin cfg6.N, cond6_2 (grid6.coords t) ↔ t.val + 1 = cfg6.N :=
  (by decide +kernel : ∀ t : Fin grid6.N, cond6_2 (grid6.coords t) ↔ t.val + 1 = grid6.N)
theorem hidle6_8 : ∀ t : Fin cfg6.N, cfg6.idle 8 (cfg6.grid.coords t) = !decide (t.val + 1 = cfg6.N) :=
  (by decide +kernel : ∀ t : Fin grid6.N, idle6 8 (grid6.coords t) = !decide (t.val + 1 = grid6.N))
theorem hflush6_8 : ∀ t : Fin cfg6.N, (cfg6.win 8).flush t = decide (t.val + 1 = cfg6.N) :=
  (by decide +kernel : ∀ t : Fin grid6.N, win6_8.flush t = decide (t.val + 1 = grid6.N))
theorem one_lt_N6 : 1 < cfg6.N := by decide

/-- A whole-buffer store hides every earlier one. -/
theorem canon_headB6 {e : EltTy} (p : rB6.shape.Idx → Elt F e) (L : List (View.Piece (Elt F) S128x128 e)) :
    View.canon (⟨rB6, p⟩ :: L) = View.canon [⟨rB6, p⟩] := by
  funext y
  obtain ⟨pc, hm, hy⟩ := coverB6 (F := F) p y
  rw [List.mem_singleton] at hm; subst hm
  obtain ⟨x, rfl⟩ := rB6.exists_idx_of_mem hy
  exact (View.canon_cons_emb rB6 p L x).trans (View.canon_cons_emb rB6 p [] x).symm

theorem coverB6_cons {e : EltTy} (p : rB6.shape.Idx → Elt F e) (L : List (View.Piece (Elt F) S128x128 e)) (y : S128x128.Idx) :
    ∃ pc ∈ (⟨rB6, p⟩ :: L), y ∈ pc.1.set := by
  obtain ⟨pc, hm, hy⟩ := coverB6 (F := F) p y
  exact ⟨pc, List.mem_cons.mpr (Or.inl (List.mem_singleton.mp hm)), hy⟩

/-- So a buffer whose last store was whole reads that store's payload. -/
theorem read_writes_headB6 {κ : Kind} {sp : Space} {e : EltTy} (v : View sig κ sp S128x128 e) (f : v.ty.Contents (Elt F))
    (p : rB6.shape.Idx → Elt F e) (L : List (View.Piece (Elt F) S128x128 e)) :
    v.read (Elt F) (v.writes (Elt F) f (⟨rB6, p⟩ :: L)) = View.canon [⟨rB6, p⟩] :=
  (View.read_writes_eq_canon v f _ (coverB6_cons p L)).trans (canon_headB6 p L)

/-! ## The kernel body on any whole staging memrefs, case by case -/

set_option maxHeartbeats 4000000 in
/-- The first point: the accumulator is zeroed first; the second `scf.if` is not taken. -/
theorem run6_A (c : Dev nD) (E : Set ℕ) (i : grid6.Coords) (arg1 : Memref sig .tc .vmem S5000x128 .f32) (harg1 : arg1.IsWhole) (arg2 : Memref sig .tc .vmem S5000x128 .f32) (harg2 : arg2.IsWhole) (arg3 : Memref sig .tc .vmem S5000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S128x128 .f32) (harg9 : arg9.IsWhole) (arg10 : Memref sig .tc .vmem S128x128 .f32) (harg10 : arg10.IsWhole)
    (hc1 : cond6_1 i) (hc2 : ¬cond6_2 i)
    (x0 x1 : Vec F S5000x128 .f32) (x2 : Vec F S5000x128 .bf16) (x3 : Vec F S128x128 .f32) (x4 : Vec F S1x128 .f32) (x5 : Vec F S128x128 .f32) (x6 : Vec F S1x128 .f32) (x8 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out6_7 x0 x1 x3 x4 x5 x6)
            ∗ owns (c : Thread nD τ) arg9 fullShare x8
            ∗ owns (c : Thread nD τ) arg10 fullShare (scr6 x0 x1 x2 x3 x4 x5 x6 (zero6 (F := F)))) -∗ K ⟨⟩))
      ⊢ wp frame (wpE (defs₀ (F := F)) Variants.none c none) E (cc6__gin_mlp_kernel i arg1 harg1 arg2 harg2 arg3 harg3 arg4 harg4 arg5 harg5 arg6 harg6 arg7 harg7 arg8 harg8 arg9 harg9 arg10 harg10) K := by
  simp only [cc6__gin_mlp_kernel_eq_skeleton]; unfold cc6__gin_mlp_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds, %fs, -, HS⟩, Hk⟩
  subst hf0 hf1 hf2 hf3 hf4 hf5 hf6 hf8
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr
    swap; · iexact H7
    ipureintro; exact View.read_writes_eq_canon _ _ _ (coverA6 _)
  isplitl [H8]
  · iexists _; isplitr; · ipureintro; rfl
    iexact H8
  iexists _; isplitr
  swap; · iexact HS
  ipureintro
  refine (read_writes_headB6 _ _ _ _).trans ?_
  unfold scr6
  refine congrArg (fun p => View.canon [(⟨rB6, p⟩ : View.Piece (Elt F) S128x128 .f32)]) ?_
  refine congrArg (k6_pay1 _ _) ?_
  unfold zero6
  try dsimp only
  exact View.readCov_eq_canon_ld _ _ _ (coverB6 (F := F) _)

set_option maxHeartbeats 4000000 in
/-- A middle point: neither `scf.if` taken. -/
theorem run6_B (c : Dev nD) (E : Set ℕ) (i : grid6.Coords) (arg1 : Memref sig .tc .vmem S5000x128 .f32) (harg1 : arg1.IsWhole) (arg2 : Memref sig .tc .vmem S5000x128 .f32) (harg2 : arg2.IsWhole) (arg3 : Memref sig .tc .vmem S5000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S128x128 .f32) (harg9 : arg9.IsWhole) (arg10 : Memref sig .tc .vmem S128x128 .f32) (harg10 : arg10.IsWhole)
    (hc1 : ¬cond6_1 i) (hc2 : ¬cond6_2 i)
    (x0 x1 : Vec F S5000x128 .f32) (x2 : Vec F S5000x128 .bf16) (x3 : Vec F S128x128 .f32) (x4 : Vec F S1x128 .f32) (x5 : Vec F S128x128 .f32) (x6 : Vec F S1x128 .f32) (x8 s : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ owns (c : Thread nD τ) arg9 fullShare x8
        ∗ owns (c : Thread nD τ) arg10 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out6_7 x0 x1 x3 x4 x5 x6)
            ∗ owns (c : Thread nD τ) arg9 fullShare x8
            ∗ owns (c : Thread nD τ) arg10 fullShare (scr6 x0 x1 x2 x3 x4 x5 x6 s)) -∗ K ⟨⟩))
      ⊢ wp frame (wpE (defs₀ (F := F)) Variants.none c none) E (cc6__gin_mlp_kernel i arg1 harg1 arg2 harg2 arg3 harg3 arg4 harg4 arg5 harg5 arg6 harg6 arg7 harg7 arg8 harg8 arg9 harg9 arg10 harg10) K := by
  simp only [cc6__gin_mlp_kernel_eq_skeleton]; unfold cc6__gin_mlp_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs, %hfs, HS⟩, Hk⟩
  subst hf0 hf1 hf2 hf3 hf4 hf5 hf6 hf8 hfs
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr
    swap; · iexact H7
    ipureintro; exact View.read_writes_eq_canon _ _ _ (coverA6 _)
  isplitl [H8]
  · iexists _; isplitr; · ipureintro; rfl
    iexact H8
  iexists _; isplitr
  swap; · iexact HS
  ipureintro; exact View.read_writes_eq_canon _ _ _ (coverB6 _)

set_option maxHeartbeats 4000000 in
/-- The last point: the accumulator is not zeroed; it is copied into window 8 at the end. -/
theorem run6_C (c : Dev nD) (E : Set ℕ) (i : grid6.Coords) (arg1 : Memref sig .tc .vmem S5000x128 .f32) (harg1 : arg1.IsWhole) (arg2 : Memref sig .tc .vmem S5000x128 .f32) (harg2 : arg2.IsWhole) (arg3 : Memref sig .tc .vmem S5000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S128x128 .f32) (harg9 : arg9.IsWhole) (arg10 : Memref sig .tc .vmem S128x128 .f32) (harg10 : arg10.IsWhole)
    (hc1 : ¬cond6_1 i) (hc2 : cond6_2 i)
    (x0 x1 : Vec F S5000x128 .f32) (x2 : Vec F S5000x128 .bf16) (x3 : Vec F S128x128 .f32) (x4 : Vec F S1x128 .f32) (x5 : Vec F S128x128 .f32) (x6 : Vec F S1x128 .f32) (s : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ owns (c : Thread nD τ) arg10 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out6_7 x0 x1 x3 x4 x5 x6)
            ∗ owns (c : Thread nD τ) arg9 fullShare (out6_8 (scr6 x0 x1 x2 x3 x4 x5 x6 s))
            ∗ owns (c : Thread nD τ) arg10 fullShare (scr6 x0 x1 x2 x3 x4 x5 x6 s)) -∗ K ⟨⟩))
      ⊢ wp frame (wpE (defs₀ (F := F)) Variants.none c none) E (cc6__gin_mlp_kernel i arg1 harg1 arg2 harg2 arg3 harg3 arg4 harg4 arg5 harg5 arg6 harg6 arg7 harg7 arg8 harg8 arg9 harg9 arg10 harg10) K := by
  simp only [cc6__gin_mlp_kernel_eq_skeleton]; unfold cc6__gin_mlp_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS⟩, Hk⟩
  subst hf0 hf1 hf2 hf3 hf4 hf5 hf6 hfs
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr
    swap; · iexact H7
    ipureintro; exact View.read_writes_eq_canon _ _ _ (coverA6 _)
  isplitl [H8]
  · iexists _; isplitr
    swap; · iexact H8
    ipureintro
    refine (read_writes_headB6 _ _ _ _).trans ?_
    unfold out6_8
    refine congrArg (fun p => View.canon [(⟨rB6, p⟩ : View.Piece (Elt F) S128x128 .f32)]) ?_
    unfold scr6
    exact View.readCov_eq_canon_ld _ _ _ (coverB6 (F := F) _)
  iexists _; isplitr
  swap; · iexact HS
  ipureintro; exact View.read_writes_eq_canon _ _ _ (coverB6 _)

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not, for any proof
    data whose array is `V`'s and whose body leaves the block in place: unfetched, the block index has not moved. -/
theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (Pipeline.UD sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (Pipeline.UD sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (Pipeline.UD sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (Pipeline.UD sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (Pipeline.UD sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
theorem before6_6_of {c : Dev nD} (dat : Dat τ (Elt F) Unit ℕ (Pipeline.UD sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-! ## The accumulator, point by point -/

/-- The scratch operand: a whole scoped buffer of the kernel's own, passed beside the windows. -/
abbrev scM6_0 : Memref sig .tc .vmem S128x128 .f32 := Memref.whole cc6_scratch0

/-- Point number `n` of the grid (wrapped past the last). -/
def pt6 (n : ℕ) : Fin cfg6.N := ⟨n % cfg6.N, Nat.mod_lt _ (Nat.lt_trans Nat.zero_lt_one one_lt_N6)⟩
theorem pt6_val (t : Fin cfg6.N) : pt6 t.val = t := Fin.ext (Nat.mod_eq_of_lt t.isLt)

/-- The accumulator after point `t`, if the point found it at `s`. -/
def stepAt6 (c : Dev nD) (t : Fin cfg6.N) (s : Vec F S128x128 .f32) : Vec F S128x128 .f32 :=
  scr6 (iblk6 V c 0 t) (iblk6 V c 1 t) (iblk6 V c 2 t) (iblk6 V c 3 t) (iblk6 V c 4 t) (iblk6 V c 5 t) (iblk6 V c 6 t) s

/-- The accumulator after point `n`: zeroed at the first point, each point's term added. -/
def acc6 (c : Dev nD) : ℕ → Vec F S128x128 .f32
  | 0 => stepAt6 V c (pt6 0) (zero6 (F := F))
  | n + 1 => stepAt6 V c (pt6 (n + 1)) (acc6 c n)

theorem acc6_first (c : Dev nD) (t : Fin cfg6.N) (h : t.val = 0) : acc6 V c t.val = stepAt6 V c t (zero6 (F := F)) := by
  rw [h]; show stepAt6 V c (pt6 0) _ = _; rw [← h, pt6_val]
theorem acc6_next (c : Dev nD) (t : Fin cfg6.N) (n : ℕ) (h : t.val = n + 1) : acc6 V c t.val = stepAt6 V c t (acc6 V c n) := by
  rw [h]; show stepAt6 V c (pt6 (n + 1)) _ = _; rw [← h, pt6_val]

/-- The scratch before point `k`: at some contents before the first, then at the accumulated value. -/
def scrAt6 (c : Dev nD) : ℕ → sProp 𝕄
  | 0 => iprop(∃ d, owns (c : Thread nD τ) scM6_0 fullShare d)
  | n + 1 => owns (c : Thread nD τ) scM6_0 fullShare (acc6 V c n)

/-- The scratch whole at some contents, as its points-to. -/
theorem scr_whole6 (c : Dev nD) :
    (iprop(∃ d, owns (c : Thread nD τ) scM6_0 fullShare d) : sProp 𝕄)
      = iprop(∃ f : Buf (Elt F) ((c : Thread nD τ).loc cc6_scratch0), ((c : Thread nD τ).loc cc6_scratch0) ↦{fullShare} f) := by
  simp only [scM6_0, owns_whole]; try rfl

theorem scrAt6_some (c : Dev nD) (k : ℕ) :
    scrAt6 V c k ⊢ (iprop(∃ f : Buf (Elt F) ((c : Thread nD τ).loc cc6_scratch0), ((c : Thread nD τ).loc cc6_scratch0) ↦{fullShare} f) : sProp 𝕄) := by
  rw [← scr_whole6]
  cases k with
  | zero => unfold scrAt6; iintro H; iexact H
  | succ n => unfold scrAt6; iintro H; iexists _; iexact H

/-- The invariant before point `k`: every other scoped buffer that is no staging buffer at some contents, the generator
    register at some state, the scratch as `scrAt6` says. -/
def Φ6 (c : Dev nD) (k : Fin (cfg6.N + 1)) : sProp 𝕄 :=
  iprop(Pipeline.scopedRestBut (Ix := Unit) (Name := ℕ) (U := Pipeline.UD sig nD τ) (Lvl := ℕ) (Val := Elt F) spec6 c [cc6_scratch0]
    ∗ (∃ r, prngReg c r) ∗ scrAt6 V c k.val)

/-! ## The pipeline's proof data -/

def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 3 t) (iblk6 V c 4 t) (iblk6 V c 5 t) (iblk6 V c 6 t)
    | ⟨8, _⟩ => out6_8 (acc6 V c t.val)
  Φ := Φ6 V c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = out6_7 (iblk6 V c 0 t) (iblk6 V c 1 t) (iblk6 V c 3 t) (iblk6 V c 4 t) (iblk6 V c 5 t) (iblk6 V c 6 t) := by dsimp only [dat6]
theorem after6_8 (c : Dev nD) (t : Fin cfg6.N) : (dat6 V c).after 8 t = out6_8 (acc6 V c t.val) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

theorem Φ6_castSucc (c : Dev nD) (t : Fin cfg6.N) : (dat6 V c).Φ t.castSucc
    = iprop(Pipeline.scopedRestBut (Ix := Unit) (Name := ℕ) (U := Pipeline.UD sig nD τ) (Lvl := ℕ) (Val := Elt F) spec6 c [cc6_scratch0]
        ∗ (∃ r, prngReg c r) ∗ scrAt6 V c t.val) := rfl
theorem Φ6_succ (c : Dev nD) (t : Fin cfg6.N) : (dat6 V c).Φ t.succ
    = iprop(Pipeline.scopedRestBut (Ix := Unit) (Name := ℕ) (U := Pipeline.UD sig nD τ) (Lvl := ℕ) (Val := Elt F) spec6 c [cc6_scratch0]
        ∗ (∃ r, prngReg c r) ∗ owns (c : Thread nD τ) scM6_0 fullShare (acc6 V c t.val)) := rfl

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d)))

/-- and what it returns: window 8's buffer as found off the last point, at the accumulator's copy at it. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ (dat6 V c).leavesExact 8 t)

theorem scrAt6_first (c : Dev nD) (t : Fin cfg6.N) (h : t.val = 0) :
    scrAt6 V c t.val = iprop(∃ d, owns (c : Thread nD τ) scM6_0 fullShare d) := by rw [h]; rfl
theorem scrAt6_next (c : Dev nD) (t : Fin cfg6.N) (n : ℕ) (h : t.val = n + 1) :
    scrAt6 V c t.val = owns (c : Thread nD τ) scM6_0 fullShare (acc6 V c n) := by rw [h]; rfl

theorem leaves6_8_idle (c : Dev nD) (t : Fin cfg6.N) (h : ¬t.val + 1 = cfg6.N) :
    (dat6 V c).leavesExact 8 t = iprop(∃ d, owns (c : Thread nD τ) (st6_8 t) fullShare ((dat6 V c).before 8 t d)) :=
  Dat.leavesExact_idle _ 8 t (by rw [hidle6_8, decide_eq_false h]; rfl) (by rw [hflush6_8, decide_eq_false h])
theorem leaves6_8_last (c : Dev nD) (t : Fin cfg6.N) (h : t.val + 1 = cfg6.N) :
    (dat6 V c).leavesExact 8 t = owns (c : Thread nD τ) (st6_8 t) fullShare ((dat6 V c).after 8 t) := by
  unfold Dat.leavesExact; rw [hidle6_8, decide_eq_true h]; rfl

/-- The body at any point, by its three control cases: the inputs' memrefs hold their blocks; the invariant hands the
    body its scratch — at anything before the first point, at the accumulated value later — and takes it back one point on. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).owesAt () t.succ = (dat6 V c).owesAt () t.castSucc from rfl,
    after6_0, after6_1, after6_2, after6_3, after6_4, after6_5, after6_6, after6_7, Φ6_castSucc, Φ6_succ]
  by_cases hA : t.val = 0
  · have h1 : cond6_1 (grid6.coords t) := (hcond6_1 t).mpr hA
    have hL : ¬t.val + 1 = cfg6.N := fun h => by have := one_lt_N6; omega
    have h2 : ¬cond6_2 (grid6.coords t) := fun h => hL ((hcond6_2 t).mp h)
    rw [scrAt6_first V c t hA, acc6_first V c t hA, leaves6_8_idle V c t hL]; unfold stepAt6
    iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run6_A c Set.univ (grid6.coords t) _ _ _ _ _ _ _ _ _ _ _ _ _ _ _ _ _ _ _ _ h1 h2 (iblk6 V c 0 t) (iblk6 V c 1 t) (iblk6 V c 2 t) (iblk6 V c 3 t) (iblk6 V c 4 t) (iblk6 V c 5 t) (iblk6 V c 6 t) ((dat6 V c).before 8 t d8) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS]; · iexact HS
    iintro ⟨H0, H1, H2, H3, H4, H5, H6, H7, H8, HS⟩
    isplitl [HR Hg HS]
    · isplitl [HR]; · iexact HR
      isplitl [Hg]; · iexact Hg
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists d8; iexact H8
  obtain ⟨n, hn⟩ := Nat.exists_eq_add_one_of_ne_zero hA
  have h1 : ¬cond6_1 (grid6.coords t) := fun h => hA ((hcond6_1 t).mp h)
  rw [scrAt6_next V c t n hn, acc6_next V c t n hn]; unfold stepAt6
  by_cases hL : t.val + 1 = cfg6.N
  · have h2 : cond6_2 (grid6.coords t) := (hcond6_2 t).mpr hL
    rw [leaves6_8_last V c t hL, after6_8, acc6_next V c t n hn]; unfold stepAt6
    iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run6_C c Set.univ (grid6.coords t) _ _ _ _ _ _ _ _ _ _ _ _ _ _ _ _ _ _ _ _ h1 h2 (iblk6 V c 0 t) (iblk6 V c 1 t) (iblk6 V c 2 t) (iblk6 V c 3 t) (iblk6 V c 4 t) (iblk6 V c 5 t) (iblk6 V c 6 t) (acc6 V c n) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, H7, H8, HS⟩
    isplitl [HR Hg HS]
    · isplitl [HR]; · iexact HR
      isplitl [Hg]; · iexact Hg
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  have h2 : ¬cond6_2 (grid6.coords t) := fun h => hL ((hcond6_2 t).mp h)
  rw [leaves6_8_idle V c t hL]
  iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run6_B c Set.univ (grid6.coords t) _ _ _ _ _ _ _ _ _ _ _ _ _ _ _ _ _ _ _ _ h1 h2 (iblk6 V c 0 t) (iblk6 V c 1 t) (iblk6 V c 2 t) (iblk6 V c 3 t) (iblk6 V c 4 t) (iblk6 V c 5 t) (iblk6 V c 6 t) ((dat6 V c).before 8 t d8) (acc6 V c n) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [HS]; · iexact HS
  iintro ⟨H0, H1, H2, H3, H4, H5, H6, H7, H8, HS⟩
  isplitl [HR Hg HS]
  · isplitl [HR]; · iexact HR
    isplitl [Hg]; · iexact Hg
    iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## The invariant at the region's ends -/

/-- Entering: the scratch is split off the scoped rest, at whatever it holds. -/
theorem hin6 (c : Dev nD) : (iprop((∃ r, prngReg c r) ∗ Pipeline.scopedRest spec6 c) : sProp 𝕄) ⊢ (dat6 V c).Φ 0 := by
  rw [show (dat6 V c).Φ 0 = Φ6 V c 0 from rfl, scopedRest6_split]; unfold Φ6
  rw [show scrAt6 V c ((0 : Fin (cfg6.N + 1)) : ℕ) = iprop(∃ d, owns (c : Thread nD τ) scM6_0 fullShare d) from rfl, scr_whole6]
  iintro ⟨Hp, Hs, Hr⟩
  isplitl [Hr]; · iexact Hr
  isplitl [Hp]; · iexact Hp
  iexact Hs

/-- Leaving: the scratch, at the accumulated value, goes back into the scoped rest. -/
theorem hout6 (c : Dev nD) : (dat6 V c).Φ (Fin.last cfg6.N) ⊢ (iprop((∃ r, prngReg c r) ∗ Pipeline.scopedRest spec6 c) : sProp 𝕄) := by
  rw [show (dat6 V c).Φ (Fin.last cfg6.N) = Φ6 V c (Fin.last cfg6.N) from rfl, scopedRest6_split]; unfold Φ6
  iintro ⟨Hr, Hp, Hs⟩
  isplitl [Hp]; · iexact Hp
  isplitl [Hs]; swap; · iexact Hr
  iapply (scrAt6_some V c _); iexact Hs

end Regions

end Cert.KernelIdeal.Hand

end
-- ==== Proof.KI.Reg7.lean ====
import proofs.«408428_j10917806867267_1_alg».proof.Proof.Gen.KernelIdeal.Launch
import proofs.«408428_j10917806867267_1_alg».proof.Proof.Gen.KernelIdeal.Skeleton
import proofs.«408428_j10917806867267_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's two branch conditions, decided over the grid -/

/-- The first `scf.if`'s condition (the point's coordinate is 0), as the skeleton's scalar chain computes it. -/
abbrev cond7_0 (i : grid7.Coords) : Prop :=
  (Scalar.cmpi .ne (Scalar.extui (Scalar.cmpi .eq (BitVec.ofNat 32 (i 0).val) 0#32)) 0#32) = 1#1
/-- The second `scf.if`'s condition (the point's coordinate is the last). -/
abbrev cond7_1 (i : grid7.Coords) : Prop := k7_cond2 i = 1#1

/-- The first condition holds at the first point only. -/
theorem hcond7_0 : ∀ t : Fin cfg7.N, cond7_0 (grid7.coords t) ↔ t.val = 0 :=
  (by decide +kernel : ∀ t : Fin grid7.N, cond7_0 (grid7.coords t) ↔ t.val = 0)
/-- The second holds at the last point only. -/
theorem hcond7_1 : ∀ t : Fin cfg7.N, cond7_1 (grid7.coords t) ↔ t.val + 1 = cfg7.N :=
  (by decide +kernel : ∀ t : Fin grid7.N, cond7_1 (grid7.coords t) ↔ t.val + 1 = grid7.N)

/-! ## The body on any whole memrefs, case by case: pieces the run finds

The body never touches the matrix output's memref where its second branch is not taken, so the first two cases are
stated without it (it is framed around them). -/

set_option maxHeartbeats 4000000 in
/-- THE FIRST POINT (first branch taken: the accumulator is zeroed before it is read; second not). On whole memrefs —
    the four inputs at their contents, the row output and the accumulator at anything — the body runs to the
    continuation holding the inputs as they were and the row output and the accumulator with their pieces written;
    the pieces are the witness the run finds. -/
noncomputable def kernelRun7_A (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond7_0 i) (hc1 : ¬cond7_1 i)
    (x0 : Vec F S5000x128 .f32) (x1 : Vec F S5000x128 .bf16) (x2 : Vec F S128x128 .f32) (x3 : Vec F S1x128 .f32) :
    { L : List (View.Piece (Elt F) S5000x128 .f32) × List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc7__center_varsum_kernel i arg1 harg1 arg2 harg2 arg3 harg3 arg4 harg4 arg5 harg5 arg6 harg6 arg7 harg7) K } := by
  refine ⟨(?_, ?_), fun E K => ?run⟩
  case run =>
    simp only [cc7__center_varsum_kernel_eq_skeleton]; unfold cc7__center_varsum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d6, %f6, -, H6⟩, Hk⟩
    obtain rfl := harg1.eq_unread hf0; obtain rfl := harg2.eq_unread hf1; obtain rfl := harg3.eq_unread hf2; obtain rfl := harg4.eq_unread hf3

    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H6

set_option maxHeartbeats 4000000 in
/-- THE MIDDLE POINTS (neither branch taken): as the first point's, the accumulator coming at `s`. -/
noncomputable def kernelRun7_B (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond7_0 i) (hc1 : ¬cond7_1 i)
    (x0 : Vec F S5000x128 .f32) (x1 : Vec F S5000x128 .bf16) (x2 : Vec F S128x128 .f32) (x3 : Vec F S1x128 .f32) (s : Vec F S128x128 .f32) :
    { L : List (View.Piece (Elt F) S5000x128 .f32) × List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg7 fullShare s
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc7__center_varsum_kernel i arg1 harg1 arg2 harg2 arg3 harg3 arg4 harg4 arg5 harg5 arg6 harg6 arg7 harg7) K } := by
  refine ⟨(?_, ?_), fun E K => ?run⟩
  case run =>
    simp only [cc7__center_varsum_kernel_eq_skeleton]; unfold cc7__center_varsum_kernel_skel
    unfold owns
    iintro ⟨⟨%f0, %hf0, H0⟩, ⟨%f1, %hf1, H1⟩, ⟨%f2, %hf2, H2⟩, ⟨%f3, %hf3, H3⟩, ⟨%d4, %f4, -, H4⟩, ⟨%f6, %hf6, H6⟩, Hk⟩
    obtain rfl := harg1.eq_unread hf0; obtain rfl := harg2.eq_unread hf1; obtain rfl := harg3.eq_unread hf2; obtain rfl := harg4.eq_unread hf3
    obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H6

set_option maxHeartbeats 4000000 in
/-- THE LAST POINT (second branch taken: the accumulator is copied into the matrix output at the end). The matrix
    output comes at anything and leaves with its pieces written. -/
noncomputable def kernelRun7_C (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond7_0 i) (hc1 : cond7_1 i)
    (x0 : Vec F S5000x128 .f32) (x1 : Vec F S5000x128 .bf16) (x2 : Vec F S128x128 .f32) (x3 : Vec F S1x128 .f32) (s : Vec F S128x128 .f32) :
    { L : List (View.Piece (Elt F) S5000x128 .f32) × List (View.Piece (Elt F) S128x128 .f32) × List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ owns (c : Thread nD τ) arg7 fullShare s
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2.1)
                ∗ (∃ f, arg7.view.loc (c : Thread nD τ) ↦[arg7.view.set]{fullShare} arg7.view.writes (Elt F) f L.2.2)) -∗ K ⟨⟩))
          ⊢ wp frame (wpE (defs₀ (F := F)) Variants.none c none) E (cc7__center_varsum_kernel i arg1 harg1 arg2 harg2 arg3 harg3 arg4 harg4 arg5 harg5 arg6 harg6 arg7 harg7) K } := by
  refine ⟨(?_, ?_, ?_), fun E K => ?run⟩
  case run =>
    simp only [cc7__center_varsum_kernel_eq_skeleton]; unfold cc7__center_varsum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
    obtain rfl := harg1.eq_unread hf0; obtain rfl := harg2.eq_unread hf1; obtain rfl := harg3.eq_unread hf2; obtain rfl := harg4.eq_unread hf3
    obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-! ## The memrefs the pipeline passes the body, and views to state contents through -/

/-- One whole buffer of each written shape, through which written contents are stated (the choice does not matter:
    pieces that cover a whole view read back the same over anything). -/
abbrev VO7_4 : View sig .tc .vmem S5000x128 .f32 := (Memref.whole cc7_stg4_0 : Memref sig .tc .vmem S5000x128 .f32).view
abbrev VO7_5 : View sig .tc .vmem S128x128 .f32 := (Memref.whole cc7_stg5_0 : Memref sig .tc .vmem S128x128 .f32).view
abbrev VS7 : View sig .tc .vmem S128x128 .f32 := (Memref.whole cc7_scratch0 : Memref sig .tc .vmem S128x128 .f32).view
/-- Each window's current staging memref at point `t`, and its wholeness. -/
abbrev ms7_0 (t : Fin cfg7.N) : Memref sig .tc .vmem S5000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S5000x128 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S128x128 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x128 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S5000x128 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S128x128 .f32 := win7_5.stage (cfg7.slots t 5)
abbrev hs7_5 (t : Fin cfg7.N) : (ms7_5 t).IsWhole := hstage7_5 ((cfg7.slots t 5).cast nbuf7_5)
/-- The accumulator: the kernel's own whole scoped buffer, passed beside the windows. -/
abbrev scM7 : Memref sig .tc .vmem S128x128 .f32 := Memref.whole cc7_scratch0

/-! ## Each case's pieces tile what they are written to, and what they leave -/

theorem cover7_A_4 (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond7_0 i) (hc1 : ¬cond7_1 i) (x0 : Vec F S5000x128 .f32) (x1 : Vec F S5000x128 .bf16) (x2 : Vec F S128x128 .f32) (x3 : Vec F S1x128 .f32) (y : S5000x128.Idx) :
    ∃ pc ∈ (kernelRun7_A c i arg1 harg1 arg2 harg2 arg3 harg3 arg4 harg4 arg5 harg5 arg6 harg6 arg7 harg7 hc0 hc1 x0 x1 x2 x3).1.1, y ∈ pc.1.set :=
  View.cover_of_tiledL (kernelRun7_A c i arg1 harg1 arg2 harg2 arg3 harg3 arg4 harg4 arg5 harg5 arg6 harg6 arg7 harg7 hc0 hc1 x0 x1 x2 x3).1.1 S5000x128.size (by sl_kernel_rfl) y

theorem cover7_A_s (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond7_0 i) (hc1 : ¬cond7_1 i) (x0 : Vec F S5000x128 .f32) (x1 : Vec F S5000x128 .bf16) (x2 : Vec F S128x128 .f32) (x3 : Vec F S1x128 .f32) (y : S128x128.Idx) :
    ∃ pc ∈ (kernelRun7_A c i arg1 harg1 arg2 harg2 arg3 harg3 arg4 harg4 arg5 harg5 arg6 harg6 arg7 harg7 hc0 hc1 x0 x1 x2 x3).1.2, y ∈ pc.1.set :=
  View.cover_of_tiledL (kernelRun7_A c i arg1 harg1 arg2 harg2 arg3 harg3 arg4 harg4 arg5 harg5 arg6 harg6 arg7 harg7 hc0 hc1 x0 x1 x2 x3).1.2 S128x128.size (by sl_kernel_rfl) y

theorem cover7_B_4 (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond7_0 i) (hc1 : ¬cond7_1 i) (x0 : Vec F S5000x128 .f32) (x1 : Vec F S5000x128 .bf16) (x2 : Vec F S128x128 .f32) (x3 : Vec F S1x128 .f32) (s : Vec F S128x128 .f32) (y : S5000x128.Idx) :
    ∃ pc ∈ (kernelRun7_B c i arg1 harg1 arg2 harg2 arg3 harg3 arg4 harg4 arg5 harg5 arg6 harg6 arg7 harg7 hc0 hc1 x0 x1 x2 x3 s).1.1, y ∈ pc.1.set :=
  View.cover_of_tiledL (kernelRun7_B c i arg1 harg1 arg2 harg2 arg3 harg3 arg4 harg4 arg5 harg5 arg6 harg6 arg7 harg7 hc0 hc1 x0 x1 x2 x3 s).1.1 S5000x128.size (by sl_kernel_rfl) y

theorem cover7_B_s (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond7_0 i) (hc1 : ¬cond7_1 i) (x0 : Vec F S5000x128 .f32) (x1 : Vec F S5000x128 .bf16) (x2 : Vec F S128x128 .f32) (x3 : Vec F S1x128 .f32) (s : Vec F S128x128 .f32) (y : S128x128.Idx) :
    ∃ pc ∈ (kernelRun7_B c i arg1 harg1 arg2 harg2 arg3 harg3 arg4 harg4 arg5 harg5 arg6 harg6 arg7 harg7 hc0 hc1 x0 x1 x2 x3 s).1.2, y ∈ pc.1.set :=
  View.cover_of_tiledL (kernelRun7_B c i arg1 harg1 arg2 harg2 arg3 harg3 arg4 harg4 arg5 harg5 arg6 harg6 arg7 harg7 hc0 hc1 x0 x1 x2 x3 s).1.2 S128x128.size (by sl_kernel_rfl) y

theorem cover7_C_4 (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond7_0 i) (hc1 : cond7_1 i) (x0 : Vec F S5000x128 .f32) (x1 : Vec F S5000x128 .bf16) (x2 : Vec F S128x128 .f32) (x3 : Vec F S1x128 .f32) (s : Vec F S128x128 .f32) (y : S5000x128.Idx) :
    ∃ pc ∈ (kernelRun7_C c i arg1 harg1 arg2 harg2 arg3 harg3 arg4 harg4 arg5 harg5 arg6 harg6 arg7 harg7 hc0 hc1 x0 x1 x2 x3 s).1.1, y ∈ pc.1.set :=
  View.cover_of_tiledL (kernelRun7_C c i arg1 harg1 arg2 harg2 arg3 harg3 arg4 harg4 arg5 harg5 arg6 harg6 arg7 harg7 hc0 hc1 x0 x1 x2 x3 s).1.1 S5000x128.size (by sl_kernel_rfl) y

theorem cover7_C_5 (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond7_0 i) (hc1 : cond7_1 i) (x0 : Vec F S5000x128 .f32) (x1 : Vec F S5000x128 .bf16) (x2 : Vec F S128x128 .f32) (x3 : Vec F S1x128 .f32) (s : Vec F S128x128 .f32) (y : S128x128.Idx) :
    ∃ pc ∈ (kernelRun7_C c i arg1 harg1 arg2 harg2 arg3 harg3 arg4 harg4 arg5 harg5 arg6 harg6 arg7 harg7 hc0 hc1 x0 x1 x2 x3 s).1.2.1, y ∈ pc.1.set :=
  View.cover_of_tiledL (kernelRun7_C c i arg1 harg1 arg2 harg2 arg3 harg3 arg4 harg4 arg5 harg5 arg6 harg6 arg7 harg7 hc0 hc1 x0 x1 x2 x3 s).1.2.1 S128x128.size (by sl_kernel_rfl) y

theorem cover7_C_s (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond7_0 i) (hc1 : cond7_1 i) (x0 : Vec F S5000x128 .f32) (x1 : Vec F S5000x128 .bf16) (x2 : Vec F S128x128 .f32) (x3 : Vec F S1x128 .f32) (s : Vec F S128x128 .f32) (y : S128x128.Idx) :
    ∃ pc ∈ (kernelRun7_C c i arg1 harg1 arg2 harg2 arg3 harg3 arg4 harg4 arg5 harg5 arg6 harg6 arg7 harg7 hc0 hc1 x0 x1 x2 x3 s).1.2.2, y ∈ pc.1.set :=
  View.cover_of_tiledL (kernelRun7_C c i arg1 harg1 arg2 harg2 arg3 harg3 arg4 harg4 arg5 harg5 arg6 harg6 arg7 harg7 hc0 hc1 x0 x1 x2 x3 s).1.2.2 S128x128.size (by sl_kernel_rfl) y

/-- What the first point leaves in the row output: its pieces read back over anything. -/
def row7_A (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond7_0 i) (hc1 : ¬cond7_1 i) (x0 : Vec F S5000x128 .f32) (x1 : Vec F S5000x128 .bf16) (x2 : Vec F S128x128 .f32) (x3 : Vec F S1x128 .f32) : Vec F S5000x128 .f32 :=
  VO7_4.read (Elt F) (VO7_4.writes (Elt F) VO7_4.junk (kernelRun7_A c i arg1 harg1 arg2 harg2 arg3 harg3 arg4 harg4 arg5 harg5 arg6 harg6 arg7 harg7 hc0 hc1 x0 x1 x2 x3).1.1)

/-- What the first point leaves in the accumulator. -/
def scr7_A (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond7_0 i) (hc1 : ¬cond7_1 i) (x0 : Vec F S5000x128 .f32) (x1 : Vec F S5000x128 .bf16) (x2 : Vec F S128x128 .f32) (x3 : Vec F S1x128 .f32) : Vec F S128x128 .f32 :=
  VS7.read (Elt F) (VS7.writes (Elt F) VS7.junk (kernelRun7_A c i arg1 harg1 arg2 harg2 arg3 harg3 arg4 harg4 arg5 harg5 arg6 harg6 arg7 harg7 hc0 hc1 x0 x1 x2 x3).1.2)

/-- What a middle point leaves in the row output, -/
def row7_B (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond7_0 i) (hc1 : ¬cond7_1 i) (x0 : Vec F S5000x128 .f32) (x1 : Vec F S5000x128 .bf16) (x2 : Vec F S128x128 .f32) (x3 : Vec F S1x128 .f32) (s : Vec F S128x128 .f32) : Vec F S5000x128 .f32 :=
  VO7_4.read (Elt F) (VO7_4.writes (Elt F) VO7_4.junk (kernelRun7_B c i arg1 harg1 arg2 harg2 arg3 harg3 arg4 harg4 arg5 harg5 arg6 harg6 arg7 harg7 hc0 hc1 x0 x1 x2 x3 s).1.1)

/-- and in the accumulator, found at `s`. -/
def scr7_B (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond7_0 i) (hc1 : ¬cond7_1 i) (x0 : Vec F S5000x128 .f32) (x1 : Vec F S5000x128 .bf16) (x2 : Vec F S128x128 .f32) (x3 : Vec F S1x128 .f32) (s : Vec F S128x128 .f32) : Vec F S128x128 .f32 :=
  VS7.read (Elt F) (VS7.writes (Elt F) VS7.junk (kernelRun7_B c i arg1 harg1 arg2 harg2 arg3 harg3 arg4 harg4 arg5 harg5 arg6 harg6 arg7 harg7 hc0 hc1 x0 x1 x2 x3 s).1.2)

/-- What the last point leaves in the row output, -/
def row7_C (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond7_0 i) (hc1 : cond7_1 i) (x0 : Vec F S5000x128 .f32) (x1 : Vec F S5000x128 .bf16) (x2 : Vec F S128x128 .f32) (x3 : Vec F S1x128 .f32) (s : Vec F S128x128 .f32) : Vec F S5000x128 .f32 :=
  VO7_4.read (Elt F) (VO7_4.writes (Elt F) VO7_4.junk (kernelRun7_C c i arg1 harg1 arg2 harg2 arg3 harg3 arg4 harg4 arg5 harg5 arg6 harg6 arg7 harg7 hc0 hc1 x0 x1 x2 x3 s).1.1)

/-- in the matrix output, -/
def mat7_C (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond7_0 i) (hc1 : cond7_1 i) (x0 : Vec F S5000x128 .f32) (x1 : Vec F S5000x128 .bf16) (x2 : Vec F S128x128 .f32) (x3 : Vec F S1x128 .f32) (s : Vec F S128x128 .f32) : Vec F S128x128 .f32 :=
  VO7_5.read (Elt F) (VO7_5.writes (Elt F) VO7_5.junk (kernelRun7_C c i arg1 harg1 arg2 harg2 arg3 harg3 arg4 harg4 arg5 harg5 arg6 harg6 arg7 harg7 hc0 hc1 x0 x1 x2 x3 s).1.2.1)

/-- and in the accumulator, found at `s`. -/
def scr7_C (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond7_0 i) (hc1 : cond7_1 i) (x0 : Vec F S5000x128 .f32) (x1 : Vec F S5000x128 .bf16) (x2 : Vec F S128x128 .f32) (x3 : Vec F S1x128 .f32) (s : Vec F S128x128 .f32) : Vec F S128x128 .f32 :=
  VS7.read (Elt F) (VS7.writes (Elt F) VS7.junk (kernelRun7_C c i arg1 harg1 arg2 harg2 arg3 harg3 arg4 harg4 arg5 harg5 arg6 harg6 arg7 harg7 hc0 hc1 x0 x1 x2 x3 s).1.2.2)

section Region

variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not (unfetched, the
    block index has not moved), for ANY proof data whose array is `V`'s and whose body leaves the block in place; the
    windows uncut and never idle. -/
theorem before7_0_of {c : Dev nD} (dat : Dat τ (Elt F) Unit ℕ (Pipeline.UD sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (Pipeline.UD sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (Pipeline.UD sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (Pipeline.UD sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## What each point leaves: the accumulation -/

/-- The grid has at least two points: its first point is not its last. -/
theorem first_ne_last7 : ¬((0 : ℕ) + 1 = cfg7.N) := by rw [show cfg7.N = 10 from N_7]; decide

/-- THE ACCUMULATION. What the body leaves at position `n` in (the row output, the matrix output, the accumulator):
    the case the position selects — the first point's, the last point's, a middle point's —, run at the point's
    memrefs and input blocks, the accumulator found at what this leaves in it at `n - 1`. (The matrix output is written
    at the last point only; elsewhere the component repeats the accumulator's and is read nowhere.) -/
def outs7 (c : Dev nD) : (n : ℕ) → n < cfg7.N → Vec F S5000x128 .f32 × Vec F S128x128 .f32 × Vec F S128x128 .f32
  | 0, hn =>
    (row7_A c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) scM7 (Memref.isWhole_whole _) ((hcond7_0 ⟨0, hn⟩).mpr rfl) (fun h => first_ne_last7 ((hcond7_1 ⟨0, hn⟩).mp h)) (iblk7 V c 0 ⟨0, hn⟩) (iblk7 V c 1 ⟨0, hn⟩) (iblk7 V c 2 ⟨0, hn⟩) (iblk7 V c 3 ⟨0, hn⟩),
     scr7_A c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) scM7 (Memref.isWhole_whole _) ((hcond7_0 ⟨0, hn⟩).mpr rfl) (fun h => first_ne_last7 ((hcond7_1 ⟨0, hn⟩).mp h)) (iblk7 V c 0 ⟨0, hn⟩) (iblk7 V c 1 ⟨0, hn⟩) (iblk7 V c 2 ⟨0, hn⟩) (iblk7 V c 3 ⟨0, hn⟩),
     scr7_A c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) scM7 (Memref.isWhole_whole _) ((hcond7_0 ⟨0, hn⟩).mpr rfl) (fun h => first_ne_last7 ((hcond7_1 ⟨0, hn⟩).mp h)) (iblk7 V c 0 ⟨0, hn⟩) (iblk7 V c 1 ⟨0, hn⟩) (iblk7 V c 2 ⟨0, hn⟩) (iblk7 V c 3 ⟨0, hn⟩))
  | n + 1, hn =>
    if h1 : n + 1 + 1 = cfg7.N then
      (row7_C c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7 (Memref.isWhole_whole _) (fun h => Nat.succ_ne_zero n ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outs7 c n (Nat.lt_of_succ_lt hn)).2.2,
       mat7_C c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7 (Memref.isWhole_whole _) (fun h => Nat.succ_ne_zero n ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outs7 c n (Nat.lt_of_succ_lt hn)).2.2,
       scr7_C c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7 (Memref.isWhole_whole _) (fun h => Nat.succ_ne_zero n ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outs7 c n (Nat.lt_of_succ_lt hn)).2.2)
    else
      (row7_B c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7 (Memref.isWhole_whole _) (fun h => Nat.succ_ne_zero n ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outs7 c n (Nat.lt_of_succ_lt hn)).2.2,
       scr7_B c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7 (Memref.isWhole_whole _) (fun h => Nat.succ_ne_zero n ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outs7 c n (Nat.lt_of_succ_lt hn)).2.2,
       scr7_B c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7 (Memref.isWhole_whole _) (fun h => Nat.succ_ne_zero n ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outs7 c n (Nat.lt_of_succ_lt hn)).2.2)

/-- What the accumulator holds after position `n`. -/
abbrev acc7 (c : Dev nD) (n : ℕ) (hn : n < cfg7.N) : Vec F S128x128 .f32 := (outs7 V c n hn).2.2

/-- `outs7` at the first point. -/
theorem outs7_A (c : Dev nD) (t : Fin cfg7.N) (h0 : t.val = 0) (hc0 : cond7_0 (grid7.coords t)) (hc1 : ¬cond7_1 (grid7.coords t)) :
    outs7 V c t.val t.isLt =
      (row7_A c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) hc0 hc1 (iblk7 V c 0 t) (iblk7 V c 1 t) (iblk7 V c 2 t) (iblk7 V c 3 t),
       scr7_A c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) hc0 hc1 (iblk7 V c 0 t) (iblk7 V c 1 t) (iblk7 V c 2 t) (iblk7 V c 3 t),
       scr7_A c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) hc0 hc1 (iblk7 V c 0 t) (iblk7 V c 1 t) (iblk7 V c 2 t) (iblk7 V c 3 t)) := by
  obtain ⟨n, hn⟩ := t
  cases n with
  | zero => exact rfl
  | succ n => exact absurd h0 (Nat.succ_ne_zero n)

/-- `outs7` at the last point: over what the point before left in the accumulator. -/
theorem outs7_C (c : Dev nD) (t : Fin cfg7.N) (h0 : ¬t.val = 0) (h1 : t.val + 1 = cfg7.N) (hc0 : ¬cond7_0 (grid7.coords t)) (hc1 : cond7_1 (grid7.coords t)) :
    outs7 V c t.val t.isLt =
      (row7_C c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) hc0 hc1 (iblk7 V c 0 t) (iblk7 V c 1 t) (iblk7 V c 2 t) (iblk7 V c 3 t) (acc7 V c (t.val - 1) (Nat.lt_of_le_of_lt (Nat.sub_le _ _) t.isLt)),
       mat7_C c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) hc0 hc1 (iblk7 V c 0 t) (iblk7 V c 1 t) (iblk7 V c 2 t) (iblk7 V c 3 t) (acc7 V c (t.val - 1) (Nat.lt_of_le_of_lt (Nat.sub_le _ _) t.isLt)),
       scr7_C c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) hc0 hc1 (iblk7 V c 0 t) (iblk7 V c 1 t) (iblk7 V c 2 t) (iblk7 V c 3 t) (acc7 V c (t.val - 1) (Nat.lt_of_le_of_lt (Nat.sub_le _ _) t.isLt))) := by
  obtain ⟨n, hn⟩ := t
  cases n with
  | zero => exact absurd rfl h0
  | succ n => exact (dif_pos h1).trans rfl

/-- `outs7` at a middle point. -/
theorem outs7_B (c : Dev nD) (t : Fin cfg7.N) (h0 : ¬t.val = 0) (h1 : ¬t.val + 1 = cfg7.N) (hc0 : ¬cond7_0 (grid7.coords t)) (hc1 : ¬cond7_1 (grid7.coords t)) :
    outs7 V c t.val t.isLt =
      (row7_B c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) hc0 hc1 (iblk7 V c 0 t) (iblk7 V c 1 t) (iblk7 V c 2 t) (iblk7 V c 3 t) (acc7 V c (t.val - 1) (Nat.lt_of_le_of_lt (Nat.sub_le _ _) t.isLt)),
       scr7_B c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) hc0 hc1 (iblk7 V c 0 t) (iblk7 V c 1 t) (iblk7 V c 2 t) (iblk7 V c 3 t) (acc7 V c (t.val - 1) (Nat.lt_of_le_of_lt (Nat.sub_le _ _) t.isLt)),
       scr7_B c (grid7.coords t) (ms7_0 t) (hs7_0 t) (ms7_1 t) (hs7_1 t) (ms7_2 t) (hs7_2 t) (ms7_3 t) (hs7_3 t) (ms7_4 t) (hs7_4 t) (ms7_5 t) (hs7_5 t) scM7 (Memref.isWhole_whole _) hc0 hc1 (iblk7 V c 0 t) (iblk7 V c 1 t) (iblk7 V c 2 t) (iblk7 V c 3 t) (acc7 V c (t.val - 1) (Nat.lt_of_le_of_lt (Nat.sub_le _ _) t.isLt))) := by
  obtain ⟨n, hn⟩ := t
  cases n with
  | zero => exact absurd rfl h0
  | succ n => exact (dif_neg h1).trans rfl

/-! ## The pipeline's proof data -/

/-- What the accumulator is owned at before position `n` (after position `n - 1`): before the first point at SOME
    contents (the region finds it at anything; the first point zeroes it before reading), after point `n` at the value
    accumulated through it. -/
def scrAt7 (c : Dev nD) : (n : ℕ) → n < cfg7.N + 1 → sProp 𝕄
  | 0, _ => iprop(∃ d, owns (c : Thread nD τ) scM7 fullShare d)
  | n + 1, h => owns (c : Thread nD τ) scM7 fullShare (acc7 V c n (Nat.lt_of_succ_lt_succ h))

/-- The body's invariant before point `t`: the core's scoped buffers that are neither a staging buffer of this call
    nor its accumulator, unopened; the generator register at some state; the accumulator whole at its contents there. -/
def Phi7 (c : Dev nD) (t : Fin (cfg7.N + 1)) : sProp 𝕄 :=
  iprop(Pipeline.scopedRestBut (Ix := Unit) (Name := ℕ) (U := Pipeline.UD sig nD τ) (Lvl := ℕ) (Val := Elt F) spec7 c [cc7_scratch0]
    ∗ (∃ r, prngReg c r) ∗ scrAt7 V c t.val t.isLt)

/-- The proof data of the pipeline on core `c`: the arrays as the region finds them (`V`); after the body at point `t`
    each input's buffer at its block, the row output's and the matrix output's at what `outs7` says; the invariant
    `Phi7`; nothing owed; full shares. -/
def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => (outs7 V c t.val t.isLt).1
    | ⟨5, _⟩ => (outs7 V c t.val t.isLt).2.1
  Φ t := Phi7 V c t
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = (outs7 V c t.val t.isLt).1 := by dsimp only [dat7]
theorem after7_5 (c : Dev nD) (t : Fin cfg7.N) : (dat7 V c).after 5 t = (outs7 V c t.val t.isLt).2.1 := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-- The accumulator's clause of the invariant, by the point. -/
theorem scrAt7_succ (c : Dev nD) (t : Fin cfg7.N) :
    scrAt7 V c t.succ.val t.succ.isLt = owns (c : Thread nD τ) scM7 fullShare (acc7 V c t.val t.isLt) := by
  obtain ⟨n, hn⟩ := t; rfl
theorem scrAt7_castSucc_zero (c : Dev nD) (t : Fin cfg7.N) (h0 : t.val = 0) :
    scrAt7 V c t.castSucc.val t.castSucc.isLt = iprop(∃ d, owns (c : Thread nD τ) scM7 fullShare d) := by
  obtain ⟨n, hn⟩ := t
  cases n with
  | zero => rfl
  | succ n => exact absurd h0 (Nat.succ_ne_zero n)
theorem scrAt7_castSucc_pos (c : Dev nD) (t : Fin cfg7.N) (h0 : ¬t.val = 0) :
    scrAt7 V c t.castSucc.val t.castSucc.isLt
      = owns (c : Thread nD τ) scM7 fullShare (acc7 V c (t.val - 1) (Nat.lt_of_le_of_lt (Nat.sub_le _ _) t.isLt)) := by
  obtain ⟨n, hn⟩ := t
  cases n with
  | zero => exact absurd rfl h0
  | succ n => rfl
/-- At any point the clause gives the accumulator at some contents. -/
theorem scrAt7_some (c : Dev nD) (n : ℕ) (h : n < cfg7.N + 1) :
    scrAt7 V c n h ⊢ (iprop(∃ d, owns (c : Thread nD τ) scM7 fullShare d) : sProp 𝕄) := by
  cases n with
  | zero => exact .rfl
  | succ n => rw [scrAt7]; iintro H; iexists _; iexact H

/-! ## Where the matrix output's window is idle -/

/-- The matrix output's window is idle exactly where the second branch is not taken, -/
theorem idle7_5_of (i : grid7.Coords) (h : ¬cond7_1 i) : cfg7.idle 5 i = true := by
  show (!(k7_cond2 i == 1#1)) = true
  rw [Bool.not_eq_true', beq_eq_false_iff_ne]; exact h
theorem live7_5_of (i : grid7.Coords) (h : cond7_1 i) : cfg7.idle 5 i = false := by
  show (!(k7_cond2 i == 1#1)) = false
  rw [Bool.not_eq_false', beq_iff_eq]; exact h
/-- and is not written back before the last point. -/
theorem noflush7_5 (t : Fin cfg7.N) (h1 : ¬t.val + 1 = cfg7.N) : (cfg7.win 5).flush t = false := by
  have hN : cfg7.N = 10 := N_7
  have ht : t.val < cfg7.N := t.isLt
  exact Bool.eq_false_iff.mpr fun h => by have := (flush7_5 _).mp h; omega
/-- The obligation's post for it at a live point. -/
theorem leaves7_5_live {c : Dev nD} (dat : Dat τ (Elt F) Unit ℕ (Pipeline.UD sig nD τ) ℕ cfg7 c) (t : Fin cfg7.N)
    (hi : cfg7.idle 5 (cfg7.grid.coords t) = false) :
    dat.leavesExact 5 t = owns (c : Thread nD τ) ((cfg7.win 5).stage (cfg7.slots t 5)) fullShare (dat.after 5 t) := by
  unfold Dat.leavesExact; rw [hi]

/-! ## The body obligation, at a generic point -/

/-- What the body is called with at point `t` (the obligation's precondition, the windows one by one), -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d)))

/-- and what it returns: the matrix output's buffer as it was found where its window is idle. -/
def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ owns (c : Thread nD τ) (ms7_2 t) fullShare ((dat7 V c).after 2 t)
    ∗ owns (c : Thread nD τ) (ms7_3 t) fullShare ((dat7 V c).after 3 t)
    ∗ owns (c : Thread nD τ) (ms7_4 t) fullShare ((dat7 V c).after 4 t)
    ∗ (dat7 V c).leavesExact 5 t)

set_option maxHeartbeats 1600000 in
/-- The body at any point. The inputs' memrefs hold their blocks; the point's position says which case it is in; the
    invariant hands the body the accumulator — at anything at the first point, else at what the point before left —
    and takes it back at what this point leaves; the rest of the invariant and the core's `owes` pass through unread;
    the matrix output's buffer is framed around the body where its window is idle. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).owesAt () t.succ = (dat7 V c).owesAt () t.castSucc from rfl,
    after7_0, after7_1, after7_2, after7_3, after7_4]
  rw [show (dat7 V c).Φ t.succ = Phi7 V c t.succ from rfl, show (dat7 V c).Φ t.castSucc = Phi7 V c t.castSucc from rfl]
  unfold Phi7
  rw [scrAt7_succ]
  unfold acc7
  by_cases h0 : t.val = 0
  · have hc0 : cond7_0 (grid7.coords t) := (hcond7_0 t).mpr h0
    have h1 : ¬t.val + 1 = cfg7.N := fun h => first_ne_last7 (by rw [h0] at h; exact h)
    have hc1 : ¬cond7_1 (grid7.coords t) := fun h => h1 ((hcond7_1 t).mp h)
    rw [scrAt7_castSucc_zero V c t h0, Dat.leavesExact_idle _ 5 t (idle7_5_of _ hc1) (noflush7_5 t h1), outs7_A V c t h0 hc0 hc1]
    dsimp only
    unfold row7_A scr7_A
    iintro ⟨⟨Hrest, Hg, HS⟩, Ho, ⟨%d0, H0⟩, ⟨%d1, H1⟩, ⟨%d2, H2⟩, ⟨%d3, H3⟩, ⟨%d4, H4⟩, ⟨%d5, H5⟩⟩
    iapply ((kernelRun7_A c (grid7.coords t) _ _ _ _ _ _ _ _ _ _ _ _ _ _ hc0 hc1 (iblk7 V c 0 t) (iblk7 V c 1 t) (iblk7 V c 2 t) (iblk7 V c 3 t)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%e6, HS⟩⟩
    isplitl [Hrest Hg HS]
    · isplitl [Hrest]; · iexact Hrest
      isplitl [Hg]; · iexact Hg
      unfold owns; iexists _; isplitr
      swap; · iexact HS
      ipureintro; exact View.read_writes_of_cover _ _ _ _ _ (cover7_A_s c _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover7_A_4 c _ _ _ _ _ _ _ _ _ _ _ _ _ _ _ _ _ _ _ _ _)
    iexists d5; iexact H5
  · have hc0 : ¬cond7_0 (grid7.coords t) := fun h => h0 ((hcond7_0 t).mp h)
    rw [scrAt7_castSucc_pos V c t h0]
    unfold acc7
    by_cases h1 : t.val + 1 = cfg7.N
    · have hc1 : cond7_1 (grid7.coords t) := (hcond7_1 t).mpr h1
      rw [leaves7_5_live _ t (live7_5_of _ hc1), after7_5, outs7_C V c t h0 h1 hc0 hc1]
      dsimp only
      unfold row7_C mat7_C scr7_C acc7
      iintro ⟨⟨Hrest, Hg, HS⟩, Ho, ⟨%d0, H0⟩, ⟨%d1, H1⟩, ⟨%d2, H2⟩, ⟨%d3, H3⟩, ⟨%d4, H4⟩, ⟨%d5, H5⟩⟩
      iapply ((kernelRun7_C c (grid7.coords t) _ _ _ _ _ _ _ _ _ _ _ _ _ _ hc0 hc1 (iblk7 V c 0 t) (iblk7 V c 1 t) (iblk7 V c 2 t) (iblk7 V c 3 t) _).2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, ⟨%e4, H4⟩, ⟨%e5, H5⟩, ⟨%e6, HS⟩⟩
      isplitl [Hrest Hg HS]
      · isplitl [Hrest]; · iexact Hrest
        isplitl [Hg]; · iexact Hg
        unfold owns; iexists _; isplitr
        swap; · iexact HS
        ipureintro; exact View.read_writes_of_cover _ _ _ _ _ (cover7_C_s c _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover7_C_4 c _ _ _ _ _ _ _ _ _ _ _ _ _ _ _ _ _ _ _ _ _ _)
      unfold owns; iexists _; isplitr
      swap; · iexact H5
      ipureintro; exact View.read_writes_of_cover _ _ _ _ _ (cover7_C_5 c _ _ _ _ _ _ _ _ _ _ _ _ _ _ _ _ _ _ _ _ _ _)
    · have hc1 : ¬cond7_1 (grid7.coords t) := fun h => h1 ((hcond7_1 t).mp h)
      rw [Dat.leavesExact_idle _ 5 t (idle7_5_of _ hc1) (noflush7_5 t h1), outs7_B V c t h0 h1 hc0 hc1]
      dsimp only
      unfold row7_B scr7_B acc7
      iintro ⟨⟨Hrest, Hg, HS⟩, Ho, ⟨%d0, H0⟩, ⟨%d1, H1⟩, ⟨%d2, H2⟩, ⟨%d3, H3⟩, ⟨%d4, H4⟩, ⟨%d5, H5⟩⟩
      iapply ((kernelRun7_B c (grid7.coords t) _ _ _ _ _ _ _ _ _ _ _ _ _ _ hc0 hc1 (iblk7 V c 0 t) (iblk7 V c 1 t) (iblk7 V c 2 t) (iblk7 V c 3 t) _).2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%e6, HS⟩⟩
      isplitl [Hrest Hg HS]
      · isplitl [Hrest]; · iexact Hrest
        isplitl [Hg]; · iexact Hg
        unfold owns; iexists _; isplitr
        swap; · iexact HS
        ipureintro; exact View.read_writes_of_cover _ _ _ _ _ (cover7_B_s c _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover7_B_4 c _ _ _ _ _ _ _ _ _ _ _ _ _ _ _ _ _ _ _ _ _ _)
      iexists d5; iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## The invariant at the region's ends -/

/-- ENTRY: the generator register and the scoped buffers no window stages make the invariant before the first point —
    the accumulator split out of them, at whatever it holds. -/
theorem hin7 (c : Dev nD) : (iprop((∃ r, prngReg c r) ∗ Pipeline.scopedRest spec7 c) : sProp 𝕄) ⊢ (dat7 V c).Φ 0 := by
  rw [show (dat7 V c).Φ 0 = Phi7 V c 0 from rfl]; unfold Phi7
  rw [show scrAt7 V c (0 : Fin (cfg7.N + 1)).val (0 : Fin (cfg7.N + 1)).isLt = iprop(∃ d, owns (c : Thread nD τ) scM7 fullShare d) from rfl,
    scopedRest7_split]
  simp only [scM7, owns_whole]
  iintro ⟨Hg, HS, Hrest⟩
  isplitl [Hrest]; · iexact Hrest
  isplitl [Hg]; · iexact Hg
  iexact HS

/-- EXIT: the invariant after the last point gives them back, the accumulator forgotten into them. -/
theorem hout7 (c : Dev nD) : (dat7 V c).Φ (Fin.last cfg7.N) ⊢ (iprop((∃ r, prngReg c r) ∗ Pipeline.scopedRest spec7 c) : sProp 𝕄) := by
  rw [show (dat7 V c).Φ (Fin.last cfg7.N) = Phi7 V c (Fin.last cfg7.N) from rfl]; unfold Phi7
  rw [scopedRest7_split]
  iintro ⟨Hrest, Hg, HS⟩
  ihave HS' := scrAt7_some V c _ _ $$ HS
  isplitl [Hg]; · iexact Hg
  isplitl [HS']
  · simp only [scM7, owns_whole]; iexact HS'
  iexact Hrest

end Region

end Cert.KernelIdeal.Hand

end
-- ==== Proof.KI.Reg8.lean ====
import proofs.«408428_j10917806867267_1_alg».proof.Proof.Gen.KernelIdeal.Launch
import proofs.«408428_j10917806867267_1_alg».proof.Proof.Gen.KernelIdeal.Skeleton
import proofs.«408428_j10917806867267_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The normalising launch as a pipeline region, at arbitrary entry contents

Six windows and no scratch: a tile of rows of the features, the same tile of the one-hot membership matrix, the
per-graph variances, the scale row and the shift row come in; one tile of rows goes out. The body reads the five
inputs whole and writes the output tile whole, once, so the output buffer after the body is one payload over the
five input blocks and every input buffer is left as found. Everything is stated at a parameter `V`, the buffer
contents when the region is entered, and at any float model `F`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`: what the window's index map cuts out of its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## An input's buffer holds its block at every point

For any proof data over the entry arrays whose body leaves the input's block in place: where the window is fetched
the buffer holds the fetched block; where it is not, its block index has not moved since the point before, so the
block left there is still this point's. The tiles of rows are fetched at every point, the variances and the two
rows at the first point only; the one argument covers both. -/

theorem inputHolds8_0_of {c : Dev nD} (dat : Dat τ (Elt F) Unit ℕ (Pipeline.UD sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem inputHolds8_1_of {c : Dev nD} (dat : Dat τ (Elt F) Unit ℕ (Pipeline.UD sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem inputHolds8_2_of {c : Dev nD} (dat : Dat τ (Elt F) Unit ℕ (Pipeline.UD sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem inputHolds8_3_of {c : Dev nD} (dat : Dat τ (Elt F) Unit ℕ (Pipeline.UD sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

theorem inputHolds8_4_of {c : Dev nD} (dat : Dat τ (Elt F) Unit ℕ (Pipeline.UD sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer whole -/

abbrev whole8_rows : Rect S5000x128 := Rect.unit (s := S5000x128) ![0, 0] S5000x128.size inb_S5000x128_S5000x128_0_0
abbrev whole8_square : Rect S128x128 := Rect.unit (s := S128x128) ![0, 0] S128x128.size inb_S128x128_S128x128_0_0
abbrev whole8_row : Rect S1x128 := Rect.unit (s := S1x128) ![0, 0] S1x128.size inb_S1x128_S1x128_0_0

/-! ## What the body leaves in the output buffer -/

/-- The output buffer after the body, from the five input blocks: its single store, of the payload at the inputs
    read whole. -/
def out8_5 (x0 : Vec F S5000x128 .f32) (x1 : Vec F S5000x128 .bf16) (x2 : Vec F S128x128 .f32) (x3 : Vec F S1x128 .f32) (x4 : Vec F S1x128 .f32) : Vec F S5000x128 .f32 :=
  View.canon [⟨whole8_rows, k8_pay1 (View.ld x1 whole8_rows) (View.ld x2 whole8_square) (View.ld x3 whole8_row) (View.ld x0 whole8_rows) (View.ld x4 whole8_row)⟩]

/-- The single store is the whole buffer, so it covers it. -/
theorem storeCovers8_5 (p0 : Vec F S5000x128 .f32) (y : S5000x128.Idx) :
    ∃ pc ∈ ([⟨whole8_rows, p0⟩] : List (View.Piece (Elt F) S5000x128 .f32)), y ∈ pc.1.set :=
  View.cover_of_tiled [⟨whole8_rows, p0⟩] S5000x128.size (by rfl) y

/-! ## The body's triple -/

set_option maxHeartbeats 1000000 in
/-- The body on whole buffers, the five inputs' at read contents `x0 … x4` and the output's at anything, runs to the
    continuation with the inputs' as they were and the output's at `out8_5` of them. -/
theorem kernelTriple8 (c : Dev nD) (E : Set ℕ) (i : grid8.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .bf16) (x2 : Vec F S128x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out8_5 x0 x1 x2 x3 x4)) -∗ K ⟨⟩))
      ⊢ wp frame (wpE (defs₀ (F := F)) Variants.none c none) E (cc8__normalize_kernel i arg1 harg1 arg2 harg2 arg3 harg3 arg4 harg4 arg5 harg5 arg6 harg6) K := by
  simp only [cc8__normalize_kernel_eq_skeleton]; unfold cc8__normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (storeCovers8_5 _)

/-! ## The pipeline's proof data -/

/-- The proof data on core `c`: the arrays as the region finds them; after the body at point `t` each input's
    buffer at its block and the output's at `out8_5` of the input blocks; the invariant that of a body touching
    nothing but its windows; nothing owed; full shares. -/
def dat8 (c : Dev nD) : Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

/-- Each input's current buffer holds its block at every point, fetched there or not. -/
theorem before8_0 (c : Dev nD) (t : Fin cfg8.N) (d) : (dat8 V c).before 0 t d = iblk8 V c 0 t :=
  inputHolds8_0_of V (dat8 V c) (A_eq8 V c 0) (after8_0 V c) t d
theorem before8_1 (c : Dev nD) (t : Fin cfg8.N) (d) : (dat8 V c).before 1 t d = iblk8 V c 1 t :=
  inputHolds8_1_of V (dat8 V c) (A_eq8 V c 1) (after8_1 V c) t d
theorem before8_2 (c : Dev nD) (t : Fin cfg8.N) (d) : (dat8 V c).before 2 t d = iblk8 V c 2 t :=
  inputHolds8_2_of V (dat8 V c) (A_eq8 V c 2) (after8_2 V c) t d
theorem before8_3 (c : Dev nD) (t : Fin cfg8.N) (d) : (dat8 V c).before 3 t d = iblk8 V c 3 t :=
  inputHolds8_3_of V (dat8 V c) (A_eq8 V c 3) (after8_3 V c) t d
theorem before8_4 (c : Dev nD) (t : Fin cfg8.N) (d) : (dat8 V c).before 4 t d = iblk8 V c 4 t :=
  inputHolds8_4_of V (dat8 V c) (A_eq8 V c 4) (after8_4 V c) t d

/-! ## The body obligation, at a generic point -/

/-- What the body is called with at point `t`, the windows one by one, -/
def bodyGiven8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyLeaves8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' buffers hold their blocks, so the body's triple applies; the invariant and
    what the core owes pass through unread. -/
theorem bodyTriple8 (c : Dev nD) (t : Fin cfg8.N) :
    bodyGiven8 V c t ⊢ wp frame (wpE (defs₀ (F := F)) Variants.none c none) Set.univ (bodyAt8 t) (fun _ => bodyLeaves8 V c t) := by
  unfold bodyGiven8 bodyLeaves8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (kernelTriple8 c Set.univ (grid8.coords t) _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact bodyTriple8 V c t

/-! ## The invariant at the region's two ends -/

/-- Entering: the generator register and the scoped rest make up the invariant before the first point. -/
theorem hin8 (c : Dev nD) : (iprop((∃ r, prngReg c r) ∗ Pipeline.scopedRest spec8 c) : sProp 𝕄) ⊢ (dat8 V c).Φ 0 := by
  rw [show (dat8 V c).Φ 0 = Pipeline.ΦA spec8 c from rfl]; unfold Pipeline.ΦA
  iintro ⟨Hp, Hr⟩
  isplitl [Hr]; · iexact Hr
  iexact Hp

/-- Leaving: the invariant after the last point hands both back. -/
theorem hout8 (c : Dev nD) : (dat8 V c).Φ (Fin.last cfg8.N) ⊢ (iprop((∃ r, prngReg c r) ∗ Pipeline.scopedRest spec8 c) : sProp 𝕄) := by
  rw [show (dat8 V c).Φ (Fin.last cfg8.N) = Pipeline.ΦA spec8 c from rfl]; unfold Pipeline.ΦA
  iintro ⟨Hr, Hp⟩
  isplitl [Hp]; · iexact Hp
  iexact Hr

end Cert.KernelIdeal.Hand
-- ==== Proof.KI.Reg9.lean ====
/- Region 9 of @main (custom_call 9, the GIN layer's MLP with its per-graph accumulator): the kernel body's three control
   cases as triples with named contents, the accumulator's value point by point, the pipeline's proof data over an invariant
   that names the scratch's contents, the body obligation at every point, and the invariant at the region's two ends. -/
import proofs.«408428_j10917806867267_1_alg».proof.Proof.Gen.KernelIdeal.Launch
import proofs.«408428_j10917806867267_1_alg».proof.Proof.Gen.KernelIdeal.Skeleton
import proofs.«408428_j10917806867267_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the long axes' extents recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's accesses and what it leaves -/

/-- The whole-buffer rectangles the body loads and stores through. -/
abbrev rA9 : Rect S5000x128 := Rect.unit (s := S5000x128) ![0, 0] S5000x128.size inb_S5000x128_S5000x128_0_0
abbrev rB9 : Rect S128x128 := Rect.unit (s := S128x128) ![0, 0] S128x128.size inb_S128x128_S128x128_0_0
abbrev rC9 : Rect S1x128 := Rect.unit (s := S1x128) ![0, 0] S1x128.size inb_S1x128_S1x128_0_0

/-- The point's MLP output, from the blocks of windows 0, 1, 3, 4, 5, 6. -/
def tval9 (x0 x1 : Vec F S5000x128 .f32) (x3 : Vec F S128x128 .f32) (x4 : Vec F S1x128 .f32) (x5 : Vec F S128x128 .f32) (x6 : Vec F S1x128 .f32) :
    FVec F S5000x128 .f32 :=
  k9_pay3 (View.ld x0 rA9) (View.ld x1 rA9) (View.ld x3 rB9) (View.ld x4 rC9) (View.ld x5 rB9) (View.ld x6 rC9)

/-- What the body leaves in window 7's staging buffer: its one store. -/
def out9_7 (x0 x1 : Vec F S5000x128 .f32) (x3 : Vec F S128x128 .f32) (x4 : Vec F S1x128 .f32) (x5 : Vec F S128x128 .f32) (x6 : Vec F S1x128 .f32) :
    Vec F S5000x128 .f32 :=
  View.canon [⟨rA9, tval9 x0 x1 x3 x4 x5 x6⟩]

/-- The accumulator zeroed. -/
def zero9 : Vec F S128x128 .f32 := View.canon [⟨rB9, k9_pay2 (F := F)⟩]

/-- The accumulator after a point that found it at `s`: `s` plus the point's term. -/
def scr9 (x0 x1 : Vec F S5000x128 .f32) (x2 : Vec F S5000x128 .bf16) (x3 : Vec F S128x128 .f32) (x4 : Vec F S1x128 .f32) (x5 : Vec F S128x128 .f32) (x6 : Vec F S1x128 .f32)
    (s : Vec F S128x128 .f32) : Vec F S128x128 .f32 :=
  View.canon [⟨rB9, k9_pay1 (tval9 x0 x1 x3 x4 x5 x6) (k9_pay4 (View.ld x2 rA9)) (View.ld s rB9)⟩]

/-- What the last point leaves in window 8's staging buffer: the accumulator copied. -/
def out9_8 (s : Vec F S128x128 .f32) : Vec F S128x128 .f32 := View.canon [⟨rB9, View.ld s rB9⟩]

/-- One whole-buffer store covers the buffer. -/
theorem coverA9 {e : EltTy} (p : rA9.shape.Idx → Elt F e) (y : S5000x128.Idx) :
    ∃ pc ∈ ([⟨rA9, p⟩] : List (View.Piece (Elt F) S5000x128 e)), y ∈ pc.1.set :=
  View.cover_of_tiled [⟨rA9, p⟩] S5000x128.size (by rfl) y
theorem coverB9 {e : EltTy} (p : rB9.shape.Idx → Elt F e) (y : S128x128.Idx) :
    ∃ pc ∈ ([⟨rB9, p⟩] : List (View.Piece (Elt F) S128x128 e)), y ∈ pc.1.set :=
  View.cover_of_tiled [⟨rB9, p⟩] S128x128.size (by rfl) y

/-- The conditions of the body's two `scf.if`s, from the grid coordinates. -/
abbrev cond9_1 (i : grid9.Coords) : Prop := (Scalar.cmpi .ne (Scalar.extui (Scalar.cmpi .eq (BitVec.ofNat 32 (i 0).val) 0#32)) 0#32) = 1#1
abbrev cond9_2 (i : grid9.Coords) : Prop := k9_cond2 i = 1#1

/-- The conditions in closed form, decided over the grid: the first holds at the first point only, the second at the
    last only; window 8 is idle off the last point and written back at it only. -/
theorem hcond9_1 : ∀ t : Fin cfg9.N, cond9_1 (grid9.coords t) ↔ t.val = 0 :=
  (by decide +kernel : ∀ t : Fin grid9.N, cond9_1 (grid9.coords t) ↔ t.val = 0)
theorem hcond9_2 : ∀ t : Fin cfg9.N, cond9_2 (grid9.coords t) ↔ t.val + 1 = cfg9.N :=
  (by decide +kernel : ∀ t : Fin grid9.N, cond9_2 (grid9.coords t) ↔ t.val + 1 = grid9.N)
theorem hidle9_8 : ∀ t : Fin cfg9.N, cfg9.idle 8 (cfg9.grid.coords t) = !decide (t.val + 1 = cfg9.N) :=
  (by decide +kernel : ∀ t : Fin grid9.N, idle9 8 (grid9.coords t) = !decide (t.val + 1 = grid9.N))
theorem hflush9_8 : ∀ t : Fin cfg9.N, (cfg9.win 8).flush t = decide (t.val + 1 = cfg9.N) :=
  (by decide +kernel : ∀ t : Fin grid9.N, win9_8.flush t = decide (t.val + 1 = grid9.N))
theorem one_lt_N9 : 1 < cfg9.N := by decide

/-- A whole-buffer store hides every earlier one. -/
theorem canon_headB9 {e : EltTy} (p : rB9.shape.Idx → Elt F e) (L : List (View.Piece (Elt F) S128x128 e)) :
    View.canon (⟨rB9, p⟩ :: L) = View.canon [⟨rB9, p⟩] := by
  funext y
  obtain ⟨pc, hm, hy⟩ := coverB9 (F := F) p y
  rw [List.mem_singleton] at hm; subst hm
  obtain ⟨x, rfl⟩ := rB9.exists_idx_of_mem hy
  exact (View.canon_cons_emb rB9 p L x).trans (View.canon_cons_emb rB9 p [] x).symm

theorem coverB9_cons {e : EltTy} (p : rB9.shape.Idx → Elt F e) (L : List (View.Piece (Elt F) S128x128 e)) (y : S128x128.Idx) :
    ∃ pc ∈ (⟨rB9, p⟩ :: L), y ∈ pc.1.set := by
  obtain ⟨pc, hm, hy⟩ := coverB9 (F := F) p y
  exact ⟨pc, List.mem_cons.mpr (Or.inl (List.mem_singleton.mp hm)), hy⟩

/-- So a buffer whose last store was whole reads that store's payload. -/
theorem read_writes_headB9 {κ : Kind} {sp : Space} {e : EltTy} (v : View sig κ sp S128x128 e) (f : v.ty.Contents (Elt F))
    (p : rB9.shape.Idx → Elt F e) (L : List (View.Piece (Elt F) S128x128 e)) :
    v.read (Elt F) (v.writes (Elt F) f (⟨rB9, p⟩ :: L)) = View.canon [⟨rB9, p⟩] :=
  (View.read_writes_eq_canon v f _ (coverB9_cons p L)).trans (canon_headB9 p L)

/-! ## The kernel body on any whole staging memrefs, case by case -/

set_option maxHeartbeats 4000000 in
/-- The first point: the accumulator is zeroed first; the second `scf.if` is not taken. -/
theorem run9_A (c : Dev nD) (E : Set ℕ) (i : grid9.Coords) (arg1 : Memref sig .tc .vmem S5000x128 .f32) (harg1 : arg1.IsWhole) (arg2 : Memref sig .tc .vmem S5000x128 .f32) (harg2 : arg2.IsWhole) (arg3 : Memref sig .tc .vmem S5000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S128x128 .f32) (harg9 : arg9.IsWhole) (arg10 : Memref sig .tc .vmem S128x128 .f32) (harg10 : arg10.IsWhole)
    (hc1 : cond9_1 i) (hc2 : ¬cond9_2 i)
    (x0 x1 : Vec F S5000x128 .f32) (x2 : Vec F S5000x128 .bf16) (x3 : Vec F S128x128 .f32) (x4 : Vec F S1x128 .f32) (x5 : Vec F S128x128 .f32) (x6 : Vec F S1x128 .f32) (x8 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out9_7 x0 x1 x3 x4 x5 x6)
            ∗ owns (c : Thread nD τ) arg9 fullShare x8
            ∗ owns (c : Thread nD τ) arg10 fullShare (scr9 x0 x1 x2 x3 x4 x5 x6 (zero9 (F := F)))) -∗ K ⟨⟩))
      ⊢ wp frame (wpE (defs₀ (F := F)) Variants.none c none) E (cc9__gin_mlp_kernel i arg1 harg1 arg2 harg2 arg3 harg3 arg4 harg4 arg5 harg5 arg6 harg6 arg7 harg7 arg8 harg8 arg9 harg9 arg10 harg10) K := by
  simp only [cc9__gin_mlp_kernel_eq_skeleton]; unfold cc9__gin_mlp_kernel_skel
  simp only [k9_part1_eq_skeleton]; unfold k9_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds, %fs, -, HS⟩, Hk⟩
  subst hf0 hf1 hf2 hf3 hf4 hf5 hf6 hf8
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr
    swap; · iexact H7
    ipureintro; exact View.read_writes_eq_canon _ _ _ (coverA9 _)
  isplitl [H8]
  · iexists _; isplitr; · ipureintro; rfl
    iexact H8
  iexists _; isplitr
  swap; · iexact HS
  ipureintro
  refine (read_writes_headB9 _ _ _ _).trans ?_
  unfold scr9
  refine congrArg (fun p => View.canon [(⟨rB9, p⟩ : View.Piece (Elt F) S128x128 .f32)]) ?_
  refine congrArg (k9_pay1 _ _) ?_
  unfold zero9
  try dsimp only
  exact View.readCov_eq_canon_ld _ _ _ (coverB9 (F := F) _)

set_option maxHeartbeats 4000000 in
/-- A middle point: neither `scf.if` taken. -/
theorem run9_B (c : Dev nD) (E : Set ℕ) (i : grid9.Coords) (arg1 : Memref sig .tc .vmem S5000x128 .f32) (harg1 : arg1.IsWhole) (arg2 : Memref sig .tc .vmem S5000x128 .f32) (harg2 : arg2.IsWhole) (arg3 : Memref sig .tc .vmem S5000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S128x128 .f32) (harg9 : arg9.IsWhole) (arg10 : Memref sig .tc .vmem S128x128 .f32) (harg10 : arg10.IsWhole)
    (hc1 : ¬cond9_1 i) (hc2 : ¬cond9_2 i)
    (x0 x1 : Vec F S5000x128 .f32) (x2 : Vec F S5000x128 .bf16) (x3 : Vec F S128x128 .f32) (x4 : Vec F S1x128 .f32) (x5 : Vec F S128x128 .f32) (x6 : Vec F S1x128 .f32) (x8 s : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ owns (c : Thread nD τ) arg9 fullShare x8
        ∗ owns (c : Thread nD τ) arg10 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out9_7 x0 x1 x3 x4 x5 x6)
            ∗ owns (c : Thread nD τ) arg9 fullShare x8
            ∗ owns (c : Thread nD τ) arg10 fullShare (scr9 x0 x1 x2 x3 x4 x5 x6 s)) -∗ K ⟨⟩))
      ⊢ wp frame (wpE (defs₀ (F := F)) Variants.none c none) E (cc9__gin_mlp_kernel i arg1 harg1 arg2 harg2 arg3 harg3 arg4 harg4 arg5 harg5 arg6 harg6 arg7 harg7 arg8 harg8 arg9 harg9 arg10 harg10) K := by
  simp only [cc9__gin_mlp_kernel_eq_skeleton]; unfold cc9__gin_mlp_kernel_skel
  simp only [k9_part1_eq_skeleton]; unfold k9_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs, %hfs, HS⟩, Hk⟩
  subst hf0 hf1 hf2 hf3 hf4 hf5 hf6 hf8 hfs
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr
    swap; · iexact H7
    ipureintro; exact View.read_writes_eq_canon _ _ _ (coverA9 _)
  isplitl [H8]
  · iexists _; isplitr; · ipureintro; rfl
    iexact H8
  iexists _; isplitr
  swap; · iexact HS
  ipureintro; exact View.read_writes_eq_canon _ _ _ (coverB9 _)

set_option maxHeartbeats 4000000 in
/-- The last point: the accumulator is not zeroed; it is copied into window 8 at the end. -/
theorem run9_C (c : Dev nD) (E : Set ℕ) (i : grid9.Coords) (arg1 : Memref sig .tc .vmem S5000x128 .f32) (harg1 : arg1.IsWhole) (arg2 : Memref sig .tc .vmem S5000x128 .f32) (harg2 : arg2.IsWhole) (arg3 : Memref sig .tc .vmem S5000x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S128x128 .f32) (harg9 : arg9.IsWhole) (arg10 : Memref sig .tc .vmem S128x128 .f32) (harg10 : arg10.IsWhole)
    (hc1 : ¬cond9_1 i) (hc2 : cond9_2 i)
    (x0 x1 : Vec F S5000x128 .f32) (x2 : Vec F S5000x128 .bf16) (x3 : Vec F S128x128 .f32) (x4 : Vec F S1x128 .f32) (x5 : Vec F S128x128 .f32) (x6 : Vec F S1x128 .f32) (s : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ owns (c : Thread nD τ) arg10 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out9_7 x0 x1 x3 x4 x5 x6)
            ∗ owns (c : Thread nD τ) arg9 fullShare (out9_8 (scr9 x0 x1 x2 x3 x4 x5 x6 s))
            ∗ owns (c : Thread nD τ) arg10 fullShare (scr9 x0 x1 x2 x3 x4 x5 x6 s)) -∗ K ⟨⟩))
      ⊢ wp frame (wpE (defs₀ (F := F)) Variants.none c none) E (cc9__gin_mlp_kernel i arg1 harg1 arg2 harg2 arg3 harg3 arg4 harg4 arg5 harg5 arg6 harg6 arg7 harg7 arg8 harg8 arg9 harg9 arg10 harg10) K := by
  simp only [cc9__gin_mlp_kernel_eq_skeleton]; unfold cc9__gin_mlp_kernel_skel
  simp only [k9_part1_eq_skeleton]; unfold k9_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS⟩, Hk⟩
  subst hf0 hf1 hf2 hf3 hf4 hf5 hf6 hfs
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr
    swap; · iexact H7
    ipureintro; exact View.read_writes_eq_canon _ _ _ (coverA9 _)
  isplitl [H8]
  · iexists _; isplitr
    swap; · iexact H8
    ipureintro
    refine (read_writes_headB9 _ _ _ _).trans ?_
    unfold out9_8
    refine congrArg (fun p => View.canon [(⟨rB9, p⟩ : View.Piece (Elt F) S128x128 .f32)]) ?_
    unfold scr9
    exact View.readCov_eq_canon_ld _ _ _ (coverB9 (F := F) _)
  iexists _; isplitr
  swap; · iexact HS
  ipureintro; exact View.read_writes_eq_canon _ _ _ (coverB9 _)

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, fetched there or not, for any proof
    data whose array is `V`'s and whose body leaves the block in place: unfetched, the block index has not moved. -/
theorem before9_0_of {c : Dev nD} (dat : Dat τ (Elt F) Unit ℕ (Pipeline.UD sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (Pipeline.UD sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (Pipeline.UD sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
theorem before9_3_of {c : Dev nD} (dat : Dat τ (Elt F) Unit ℕ (Pipeline.UD sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
theorem before9_4_of {c : Dev nD} (dat : Dat τ (Elt F) Unit ℕ (Pipeline.UD sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)
theorem before9_5_of {c : Dev nD} (dat : Dat τ (Elt F) Unit ℕ (Pipeline.UD sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)
theorem before9_6_of {c : Dev nD} (dat : Dat τ (Elt F) Unit ℕ (Pipeline.UD sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)

/-! ## The accumulator, point by point -/

/-- The scratch operand: a whole scoped buffer of the kernel's own, passed beside the windows. -/
abbrev scM9_0 : Memref sig .tc .vmem S128x128 .f32 := Memref.whole cc9_scratch0

/-- Point number `n` of the grid (wrapped past the last). -/
def pt9 (n : ℕ) : Fin cfg9.N := ⟨n % cfg9.N, Nat.mod_lt _ (Nat.lt_trans Nat.zero_lt_one one_lt_N9)⟩
theorem pt9_val (t : Fin cfg9.N) : pt9 t.val = t := Fin.ext (Nat.mod_eq_of_lt t.isLt)

/-- The accumulator after point `t`, if the point found it at `s`. -/
def stepAt9 (c : Dev nD) (t : Fin cfg9.N) (s : Vec F S128x128 .f32) : Vec F S128x128 .f32 :=
  scr9 (iblk9 V c 0 t) (iblk9 V c 1 t) (iblk9 V c 2 t) (iblk9 V c 3 t) (iblk9 V c 4 t) (iblk9 V c 5 t) (iblk9 V c 6 t) s

/-- The accumulator after point `n`: zeroed at the first point, each point's term added. -/
def acc9 (c : Dev nD) : ℕ → Vec F S128x128 .f32
  | 0 => stepAt9 V c (pt9 0) (zero9 (F := F))
  | n + 1 => stepAt9 V c (pt9 (n + 1)) (acc9 c n)

theorem acc9_first (c : Dev nD) (t : Fin cfg9.N) (h : t.val = 0) : acc9 V c t.val = stepAt9 V c t (zero9 (F := F)) := by
  rw [h]; show stepAt9 V c (pt9 0) _ = _; rw [← h, pt9_val]
theorem acc9_next (c : Dev nD) (t : Fin cfg9.N) (n : ℕ) (h : t.val = n + 1) : acc9 V c t.val = stepAt9 V c t (acc9 V c n) := by
  rw [h]; show stepAt9 V c (pt9 (n + 1)) _ = _; rw [← h, pt9_val]

/-- The scratch before point `k`: at some contents before the first, then at the accumulated value. -/
def scrAt9 (c : Dev nD) : ℕ → sProp 𝕄
  | 0 => iprop(∃ d, owns (c : Thread nD τ) scM9_0 fullShare d)
  | n + 1 => owns (c : Thread nD τ) scM9_0 fullShare (acc9 V c n)

/-- The scratch whole at some contents, as its points-to. -/
theorem scr_whole9 (c : Dev nD) :
    (iprop(∃ d, owns (c : Thread nD τ) scM9_0 fullShare d) : sProp 𝕄)
      = iprop(∃ f : Buf (Elt F) ((c : Thread nD τ).loc cc9_scratch0), ((c : Thread nD τ).loc cc9_scratch0) ↦{fullShare} f) := by
  simp only [scM9_0, owns_whole]; try rfl

theorem scrAt9_some (c : Dev nD) (k : ℕ) :
    scrAt9 V c k ⊢ (iprop(∃ f : Buf (Elt F) ((c : Thread nD τ).loc cc9_scratch0), ((c : Thread nD τ).loc cc9_scratch0) ↦{fullShare} f) : sProp 𝕄) := by
  rw [← scr_whole9]
  cases k with
  | zero => unfold scrAt9; iintro H; iexact H
  | succ n => unfold scrAt9; iintro H; iexists _; iexact H

/-- The invariant before point `k`: every other scoped buffer that is no staging buffer at some contents, the generator
    register at some state, the scratch as `scrAt9` says. -/
def Φ9 (c : Dev nD) (k : Fin (cfg9.N + 1)) : sProp 𝕄 :=
  iprop(Pipeline.scopedRestBut (Ix := Unit) (Name := ℕ) (U := Pipeline.UD sig nD τ) (Lvl := ℕ) (Val := Elt F) spec9 c [cc9_scratch0]
    ∗ (∃ r, prngReg c r) ∗ scrAt9 V c k.val)

/-! ## The pipeline's proof data -/

def dat9 (c : Dev nD) : Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => out9_7 (iblk9 V c 0 t) (iblk9 V c 1 t) (iblk9 V c 3 t) (iblk9 V c 4 t) (iblk9 V c 5 t) (iblk9 V c 6 t)
    | ⟨8, _⟩ => out9_8 (acc9 V c t.val)
  Φ := Φ9 V c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = out9_7 (iblk9 V c 0 t) (iblk9 V c 1 t) (iblk9 V c 3 t) (iblk9 V c 4 t) (iblk9 V c 5 t) (iblk9 V c 6 t) := by dsimp only [dat9]
theorem after9_8 (c : Dev nD) (t : Fin cfg9.N) : (dat9 V c).after 8 t = out9_8 (acc9 V c t.val) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d

theorem Φ9_castSucc (c : Dev nD) (t : Fin cfg9.N) : (dat9 V c).Φ t.castSucc
    = iprop(Pipeline.scopedRestBut (Ix := Unit) (Name := ℕ) (U := Pipeline.UD sig nD τ) (Lvl := ℕ) (Val := Elt F) spec9 c [cc9_scratch0]
        ∗ (∃ r, prngReg c r) ∗ scrAt9 V c t.val) := rfl
theorem Φ9_succ (c : Dev nD) (t : Fin cfg9.N) : (dat9 V c).Φ t.succ
    = iprop(Pipeline.scopedRestBut (Ix := Unit) (Name := ℕ) (U := Pipeline.UD sig nD τ) (Lvl := ℕ) (Val := Elt F) spec9 c [cc9_scratch0]
        ∗ (∃ r, prngReg c r) ∗ owns (c : Thread nD τ) scM9_0 fullShare (acc9 V c t.val)) := rfl

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d))
    ∗ (∃ d, owns (c : Thread nD τ) (st9_8 t) fullShare ((dat9 V c).before 8 t d)))

/-- and what it returns: window 8's buffer as found off the last point, at the accumulator's copy at it. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t)
    ∗ (dat9 V c).leavesExact 8 t)

theorem scrAt9_first (c : Dev nD) (t : Fin cfg9.N) (h : t.val = 0) :
    scrAt9 V c t.val = iprop(∃ d, owns (c : Thread nD τ) scM9_0 fullShare d) := by rw [h]; rfl
theorem scrAt9_next (c : Dev nD) (t : Fin cfg9.N) (n : ℕ) (h : t.val = n + 1) :
    scrAt9 V c t.val = owns (c : Thread nD τ) scM9_0 fullShare (acc9 V c n) := by rw [h]; rfl

theorem leaves9_8_idle (c : Dev nD) (t : Fin cfg9.N) (h : ¬t.val + 1 = cfg9.N) :
    (dat9 V c).leavesExact 8 t = iprop(∃ d, owns (c : Thread nD τ) (st9_8 t) fullShare ((dat9 V c).before 8 t d)) :=
  Dat.leavesExact_idle _ 8 t (by rw [hidle9_8, decide_eq_false h]; rfl) (by rw [hflush9_8, decide_eq_false h])
theorem leaves9_8_last (c : Dev nD) (t : Fin cfg9.N) (h : t.val + 1 = cfg9.N) :
    (dat9 V c).leavesExact 8 t = owns (c : Thread nD τ) (st9_8 t) fullShare ((dat9 V c).after 8 t) := by
  unfold Dat.leavesExact; rw [hidle9_8, decide_eq_true h]; rfl

/-- The body at any point, by its three control cases: the inputs' memrefs hold their blocks; the invariant hands the
    body its scratch — at anything before the first point, at the accumulated value later — and takes it back one point on. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6]
  rw [show (dat9 V c).owesAt () t.succ = (dat9 V c).owesAt () t.castSucc from rfl,
    after9_0, after9_1, after9_2, after9_3, after9_4, after9_5, after9_6, after9_7, Φ9_castSucc, Φ9_succ]
  by_cases hA : t.val = 0
  · have h1 : cond9_1 (grid9.coords t) := (hcond9_1 t).mpr hA
    have hL : ¬t.val + 1 = cfg9.N := fun h => by have := one_lt_N9; omega
    have h2 : ¬cond9_2 (grid9.coords t) := fun h => hL ((hcond9_2 t).mp h)
    rw [scrAt9_first V c t hA, acc9_first V c t hA, leaves9_8_idle V c t hL]; unfold stepAt9
    iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run9_A c Set.univ (grid9.coords t) _ _ _ _ _ _ _ _ _ _ _ _ _ _ _ _ _ _ _ _ h1 h2 (iblk9 V c 0 t) (iblk9 V c 1 t) (iblk9 V c 2 t) (iblk9 V c 3 t) (iblk9 V c 4 t) (iblk9 V c 5 t) (iblk9 V c 6 t) ((dat9 V c).before 8 t d8) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS]; · iexact HS
    iintro ⟨H0, H1, H2, H3, H4, H5, H6, H7, H8, HS⟩
    isplitl [HR Hg HS]
    · isplitl [HR]; · iexact HR
      isplitl [Hg]; · iexact Hg
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists d8; iexact H8
  obtain ⟨n, hn⟩ := Nat.exists_eq_add_one_of_ne_zero hA
  have h1 : ¬cond9_1 (grid9.coords t) := fun h => hA ((hcond9_1 t).mp h)
  rw [scrAt9_next V c t n hn, acc9_next V c t n hn]; unfold stepAt9
  by_cases hL : t.val + 1 = cfg9.N
  · have h2 : cond9_2 (grid9.coords t) := (hcond9_2 t).mpr hL
    rw [leaves9_8_last V c t hL, after9_8, acc9_next V c t n hn]; unfold stepAt9
    iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run9_C c Set.univ (grid9.coords t) _ _ _ _ _ _ _ _ _ _ _ _ _ _ _ _ _ _ _ _ h1 h2 (iblk9 V c 0 t) (iblk9 V c 1 t) (iblk9 V c 2 t) (iblk9 V c 3 t) (iblk9 V c 4 t) (iblk9 V c 5 t) (iblk9 V c 6 t) (acc9 V c n) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, H7, H8, HS⟩
    isplitl [HR Hg HS]
    · isplitl [HR]; · iexact HR
      isplitl [Hg]; · iexact Hg
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  have h2 : ¬cond9_2 (grid9.coords t) := fun h => hL ((hcond9_2 t).mp h)
  rw [leaves9_8_idle V c t hL]
  iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run9_B c Set.univ (grid9.coords t) _ _ _ _ _ _ _ _ _ _ _ _ _ _ _ _ _ _ _ _ h1 h2 (iblk9 V c 0 t) (iblk9 V c 1 t) (iblk9 V c 2 t) (iblk9 V c 3 t) (iblk9 V c 4 t) (iblk9 V c 5 t) (iblk9 V c 6 t) ((dat9 V c).before 8 t d8) (acc9 V c n) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [HS]; · iexact HS
  iintro ⟨H0, H1, H2, H3, H4, H5, H6, H7, H8, HS⟩
  isplitl [HR Hg HS]
  · isplitl [HR]; · iexact HR
    isplitl [Hg]; · iexact Hg
    iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

/-- The library's body obligation, at every point. -/
theorem body_obligation9 (c : Dev nD) : BodyObligation (dat9 (F := F) V c) (defs₀ (F := F)) Variants.none () Set.univ := fun t => by
  rw [bigSep_W9, bigSep_W9]
  exact sound_body9 V c t

/-! ## The invariant at the region's ends -/

/-- Entering: the scratch is split off the scoped rest, at whatever it holds. -/
theorem hin9 (c : Dev nD) : (iprop((∃ r, prngReg c r) ∗ Pipeline.scopedRest spec9 c) : sProp 𝕄) ⊢ (dat9 V c).Φ 0 := by
  rw [show (dat9 V c).Φ 0 = Φ9 V c 0 from rfl, scopedRest9_split]; unfold Φ9
  rw [show scrAt9 V c ((0 : Fin (cfg9.N + 1)) : ℕ) = iprop(∃ d, owns (c : Thread nD τ) scM9_0 fullShare d) from rfl, scr_whole9]
  iintro ⟨Hp, Hs, Hr⟩
  isplitl [Hr]; · iexact Hr
  isplitl [Hp]; · iexact Hp
  iexact Hs

/-- Leaving: the scratch, at the accumulated value, goes back into the scoped rest. -/
theorem hout9 (c : Dev nD) : (dat9 V c).Φ (Fin.last cfg9.N) ⊢ (iprop((∃ r, prngReg c r) ∗ Pipeline.scopedRest spec9 c) : sProp 𝕄) := by
  rw [show (dat9 V c).Φ (Fin.last cfg9.N) = Φ9 V c (Fin.last cfg9.N) from rfl, scopedRest9_split]; unfold Φ9
  iintro ⟨Hr, Hp, Hs⟩
  isplitl [Hp]; · iexact Hp
  isplitl [Hs]; swap; · iexact Hr
  iapply (scrAt9_some V c _); iexact Hs

end Regions

end Cert.KernelIdeal.Hand

end
-- ==== Proof.KI.Reg10.lean ====
import proofs.«408428_j10917806867267_1_alg».proof.Proof.Gen.KernelIdeal.Launch
import proofs.«408428_j10917806867267_1_alg».proof.Proof.Gen.KernelIdeal.Skeleton
import proofs.«408428_j10917806867267_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's two branch conditions, decided over the grid -/

/-- The first `scf.if`'s condition (the point's coordinate is 0), as the skeleton's scalar chain computes it. -/
abbrev cond10_0 (i : grid10.Coords) : Prop :=
  (Scalar.cmpi .ne (Scalar.extui (Scalar.cmpi .eq (BitVec.ofNat 32 (i 0).val) 0#32)) 0#32) = 1#1
/-- The second `scf.if`'s condition (the point's coordinate is the last). -/
abbrev cond10_1 (i : grid10.Coords) : Prop := k10_cond2 i = 1#1

/-- The first condition holds at the first point only. -/
theorem hcond10_0 : ∀ t : Fin cfg10.N, cond10_0 (grid10.coords t) ↔ t.val = 0 :=
  (by decide +kernel : ∀ t : Fin grid10.N, cond10_0 (grid10.coords t) ↔ t.val = 0)
/-- The second holds at the last point only. -/
theorem hcond10_1 : ∀ t : Fin cfg10.N, cond10_1 (grid10.coords t) ↔ t.val + 1 = cfg10.N :=
  (by decide +kernel : ∀ t : Fin grid10.N, cond10_1 (grid10.coords t) ↔ t.val + 1 = grid10.N)

/-! ## The body on any whole memrefs, case by case: pieces the run finds

The body never touches the matrix output's memref where its second branch is not taken, so the first two cases are
stated without it (it is framed around them). -/

set_option maxHeartbeats 4000000 in
/-- THE FIRST POINT (first branch taken: the accumulator is zeroed before it is read; second not). On whole memrefs —
    the four inputs at their contents, the row output and the accumulator at anything — the body runs to the
    continuation holding the inputs as they were and the row output and the accumulator with their pieces written;
    the pieces are the witness the run finds. -/
noncomputable def kernelRun10_A (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond10_0 i) (hc1 : ¬cond10_1 i)
    (x0 : Vec F S5000x128 .f32) (x1 : Vec F S5000x128 .bf16) (x2 : Vec F S128x128 .f32) (x3 : Vec F S1x128 .f32) :
    { L : List (View.Piece (Elt F) S5000x128 .f32) × List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc10__center_varsum_kernel i arg1 harg1 arg2 harg2 arg3 harg3 arg4 harg4 arg5 harg5 arg6 harg6 arg7 harg7) K } := by
  refine ⟨(?_, ?_), fun E K => ?run⟩
  case run =>
    simp only [cc10__center_varsum_kernel_eq_skeleton]; unfold cc10__center_varsum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d6, %f6, -, H6⟩, Hk⟩
    obtain rfl := harg1.eq_unread hf0; obtain rfl := harg2.eq_unread hf1; obtain rfl := harg3.eq_unread hf2; obtain rfl := harg4.eq_unread hf3

    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H6

set_option maxHeartbeats 4000000 in
/-- THE MIDDLE POINTS (neither branch taken): as the first point's, the accumulator coming at `s`. -/
noncomputable def kernelRun10_B (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond10_0 i) (hc1 : ¬cond10_1 i)
    (x0 : Vec F S5000x128 .f32) (x1 : Vec F S5000x128 .bf16) (x2 : Vec F S128x128 .f32) (x3 : Vec F S1x128 .f32) (s : Vec F S128x128 .f32) :
    { L : List (View.Piece (Elt F) S5000x128 .f32) × List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg7 fullShare s
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc10__center_varsum_kernel i arg1 harg1 arg2 harg2 arg3 harg3 arg4 harg4 arg5 harg5 arg6 harg6 arg7 harg7) K } := by
  refine ⟨(?_, ?_), fun E K => ?run⟩
  case run =>
    simp only [cc10__center_varsum_kernel_eq_skeleton]; unfold cc10__center_varsum_kernel_skel
    unfold owns
    iintro ⟨⟨%f0, %hf0, H0⟩, ⟨%f1, %hf1, H1⟩, ⟨%f2, %hf2, H2⟩, ⟨%f3, %hf3, H3⟩, ⟨%d4, %f4, -, H4⟩, ⟨%f6, %hf6, H6⟩, Hk⟩
    obtain rfl := harg1.eq_unread hf0; obtain rfl := harg2.eq_unread hf1; obtain rfl := harg3.eq_unread hf2; obtain rfl := harg4.eq_unread hf3
    obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H6

set_option maxHeartbeats 4000000 in
/-- THE LAST POINT (second branch taken: the accumulator is copied into the matrix output at the end). The matrix
    output comes at anything and leaves with its pieces written. -/
noncomputable def kernelRun10_C (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond10_0 i) (hc1 : cond10_1 i)
    (x0 : Vec F S5000x128 .f32) (x1 : Vec F S5000x128 .bf16) (x2 : Vec F S128x128 .f32) (x3 : Vec F S1x128 .f32) (s : Vec F S128x128 .f32) :
    { L : List (View.Piece (Elt F) S5000x128 .f32) × List (View.Piece (Elt F) S128x128 .f32) × List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ owns (c : Thread nD τ) arg7 fullShare s
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2.1)
                ∗ (∃ f, arg7.view.loc (c : Thread nD τ) ↦[arg7.view.set]{fullShare} arg7.view.writes (Elt F) f L.2.2)) -∗ K ⟨⟩))
          ⊢ wp frame (wpE (defs₀ (F := F)) Variants.none c none) E (cc10__center_varsum_kernel i arg1 harg1 arg2 harg2 arg3 harg3 arg4 harg4 arg5 harg5 arg6 harg6 arg7 harg7) K } := by
  refine ⟨(?_, ?_, ?_), fun E K => ?run⟩
  case run =>
    simp only [cc10__center_varsum_kernel_eq_skeleton]; unfold cc10__center_varsum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
    obtain rfl := harg1.eq_unread hf0; obtain rfl := harg2.eq_unread hf1; obtain rfl := harg3.eq_unread hf2; obtain rfl := harg4.eq_unread hf3
    obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-! ## The memrefs the pipeline passes the body, and views to state contents through -/

/-- One whole buffer of each written shape, through which written contents are stated (the choice does not matter:
    pieces that cover a whole view read back the same over anything). -/
abbrev VO10_4 : View sig .tc .vmem S5000x128 .f32 := (Memref.whole cc10_stg4_0 : Memref sig .tc .vmem S5000x128 .f32).view
abbrev VO10_5 : View sig .tc .vmem S128x128 .f32 := (Memref.whole cc10_stg5_0 : Memref sig .tc .vmem S128x128 .f32).view
abbrev VS10 : View sig .tc .vmem S128x128 .f32 := (Memref.whole cc10_scratch0 : Memref sig .tc .vmem S128x128 .f32).view
/-- Each window's current staging memref at point `t`, and its wholeness. -/
abbrev ms10_0 (t : Fin cfg10.N) : Memref sig .tc .vmem S5000x128 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S5000x128 .bf16 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S128x128 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S1x128 .f32 := win10_3.stage (cfg10.slots t 3)
abbrev hs10_3 (t : Fin cfg10.N) : (ms10_3 t).IsWhole := hstage10_3 ((cfg10.slots t 3).cast nbuf10_3)
abbrev ms10_4 (t : Fin cfg10.N) : Memref sig .tc .vmem S5000x128 .f32 := win10_4.stage (cfg10.slots t 4)
abbrev hs10_4 (t : Fin cfg10.N) : (ms10_4 t).IsWhole := hstage10_4 ((cfg10.slots t 4).cast nbuf10_4)
abbrev ms10_5 (t : Fin cfg10.N) : Memref sig .tc .vmem S128x128 .f32 := win10_5.stage (cfg10.slots t 5)
abbrev hs10_5 (t : Fin cfg10.N) : (ms10_5 t).IsWhole := hstage10_5 ((cfg10.slots t 5).cast nbuf10_5)
/-- The accumulator: the kernel's own whole scoped buffer, passed beside the windows. -/
abbrev scM10 : Memref sig .tc .vmem S128x128 .f32 := Memref.whole cc10_scratch0

/-! ## Each case's pieces tile what they are written to, and what they leave -/

theorem cover10_A_4 (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond10_0 i) (hc1 : ¬cond10_1 i) (x0 : Vec F S5000x128 .f32) (x1 : Vec F S5000x128 .bf16) (x2 : Vec F S128x128 .f32) (x3 : Vec F S1x128 .f32) (y : S5000x128.Idx) :
    ∃ pc ∈ (kernelRun10_A c i arg1 harg1 arg2 harg2 arg3 harg3 arg4 harg4 arg5 harg5 arg6 harg6 arg7 harg7 hc0 hc1 x0 x1 x2 x3).1.1, y ∈ pc.1.set :=
  View.cover_of_tiledL (kernelRun10_A c i arg1 harg1 arg2 harg2 arg3 harg3 arg4 harg4 arg5 harg5 arg6 harg6 arg7 harg7 hc0 hc1 x0 x1 x2 x3).1.1 S5000x128.size (by sl_kernel_rfl) y

theorem cover10_A_s (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond10_0 i) (hc1 : ¬cond10_1 i) (x0 : Vec F S5000x128 .f32) (x1 : Vec F S5000x128 .bf16) (x2 : Vec F S128x128 .f32) (x3 : Vec F S1x128 .f32) (y : S128x128.Idx) :
    ∃ pc ∈ (kernelRun10_A c i arg1 harg1 arg2 harg2 arg3 harg3 arg4 harg4 arg5 harg5 arg6 harg6 arg7 harg7 hc0 hc1 x0 x1 x2 x3).1.2, y ∈ pc.1.set :=
  View.cover_of_tiledL (kernelRun10_A c i arg1 harg1 arg2 harg2 arg3 harg3 arg4 harg4 arg5 harg5 arg6 harg6 arg7 harg7 hc0 hc1 x0 x1 x2 x3).1.2 S128x128.size (by sl_kernel_rfl) y

theorem cover10_B_4 (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond10_0 i) (hc1 : ¬cond10_1 i) (x0 : Vec F S5000x128 .f32) (x1 : Vec F S5000x128 .bf16) (x2 : Vec F S128x128 .f32) (x3 : Vec F S1x128 .f32) (s : Vec F S128x128 .f32) (y : S5000x128.Idx) :
    ∃ pc ∈ (kernelRun10_B c i arg1 harg1 arg2 harg2 arg3 harg3 arg4 harg4 arg5 harg5 arg6 harg6 arg7 harg7 hc0 hc1 x0 x1 x2 x3 s).1.1, y ∈ pc.1.set :=
  View.cover_of_tiledL (kernelRun10_B c i arg1 harg1 arg2 harg2 arg3 harg3 arg4 harg4 arg5 harg5 arg6 harg6 arg7 harg7 hc0 hc1 x0 x1 x2 x3 s).1.1 S5000x128.size (by sl_kernel_rfl) y

theorem cover10_B_s (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond10_0 i) (hc1 : ¬cond10_1 i) (x0 : Vec F S5000x128 .f32) (x1 : Vec F S5000x128 .bf16) (x2 : Vec F S128x128 .f32) (x3 : Vec F S1x128 .f32) (s : Vec F S128x128 .f32) (y : S128x128.Idx) :
    ∃ pc ∈ (kernelRun10_B c i arg1 harg1 arg2 harg2 arg3 harg3 arg4 harg4 arg5 harg5 arg6 harg6 arg7 harg7 hc0 hc1 x0 x1 x2 x3 s).1.2, y ∈ pc.1.set :=
  View.cover_of_tiledL (kernelRun10_B c i arg1 harg1 arg2 harg2 arg3 harg3 arg4 harg4 arg5 harg5 arg6 harg6 arg7 harg7 hc0 hc1 x0 x1 x2 x3 s).1.2 S128x128.size (by sl_kernel_rfl) y

theorem cover10_C_4 (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond10_0 i) (hc1 : cond10_1 i) (x0 : Vec F S5000x128 .f32) (x1 : Vec F S5000x128 .bf16) (x2 : Vec F S128x128 .f32) (x3 : Vec F S1x128 .f32) (s : Vec F S128x128 .f32) (y : S5000x128.Idx) :
    ∃ pc ∈ (kernelRun10_C c i arg1 harg1 arg2 harg2 arg3 harg3 arg4 harg4 arg5 harg5 arg6 harg6 arg7 harg7 hc0 hc1 x0 x1 x2 x3 s).1.1, y ∈ pc.1.set :=
  View.cover_of_tiledL (kernelRun10_C c i arg1 harg1 arg2 harg2 arg3 harg3 arg4 harg4 arg5 harg5 arg6 harg6 arg7 harg7 hc0 hc1 x0 x1 x2 x3 s).1.1 S5000x128.size (by sl_kernel_rfl) y

theorem cover10_C_5 (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond10_0 i) (hc1 : cond10_1 i) (x0 : Vec F S5000x128 .f32) (x1 : Vec F S5000x128 .bf16) (x2 : Vec F S128x128 .f32) (x3 : Vec F S1x128 .f32) (s : Vec F S128x128 .f32) (y : S128x128.Idx) :
    ∃ pc ∈ (kernelRun10_C c i arg1 harg1 arg2 harg2 arg3 harg3 arg4 harg4 arg5 harg5 arg6 harg6 arg7 harg7 hc0 hc1 x0 x1 x2 x3 s).1.2.1, y ∈ pc.1.set :=
  View.cover_of_tiledL (kernelRun10_C c i arg1 harg1 arg2 harg2 arg3 harg3 arg4 harg4 arg5 harg5 arg6 harg6 arg7 harg7 hc0 hc1 x0 x1 x2 x3 s).1.2.1 S128x128.size (by sl_kernel_rfl) y

theorem cover10_C_s (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond10_0 i) (hc1 : cond10_1 i) (x0 : Vec F S5000x128 .f32) (x1 : Vec F S5000x128 .bf16) (x2 : Vec F S128x128 .f32) (x3 : Vec F S1x128 .f32) (s : Vec F S128x128 .f32) (y : S128x128.Idx) :
    ∃ pc ∈ (kernelRun10_C c i arg1 harg1 arg2 harg2 arg3 harg3 arg4 harg4 arg5 harg5 arg6 harg6 arg7 harg7 hc0 hc1 x0 x1 x2 x3 s).1.2.2, y ∈ pc.1.set :=
  View.cover_of_tiledL (kernelRun10_C c i arg1 harg1 arg2 harg2 arg3 harg3 arg4 harg4 arg5 harg5 arg6 harg6 arg7 harg7 hc0 hc1 x0 x1 x2 x3 s).1.2.2 S128x128.size (by sl_kernel_rfl) y

/-- What the first point leaves in the row output: its pieces read back over anything. -/
def row10_A (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond10_0 i) (hc1 : ¬cond10_1 i) (x0 : Vec F S5000x128 .f32) (x1 : Vec F S5000x128 .bf16) (x2 : Vec F S128x128 .f32) (x3 : Vec F S1x128 .f32) : Vec F S5000x128 .f32 :=
  VO10_4.read (Elt F) (VO10_4.writes (Elt F) VO10_4.junk (kernelRun10_A c i arg1 harg1 arg2 harg2 arg3 harg3 arg4 harg4 arg5 harg5 arg6 harg6 arg7 harg7 hc0 hc1 x0 x1 x2 x3).1.1)

/-- What the first point leaves in the accumulator. -/
def scr10_A (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : cond10_0 i) (hc1 : ¬cond10_1 i) (x0 : Vec F S5000x128 .f32) (x1 : Vec F S5000x128 .bf16) (x2 : Vec F S128x128 .f32) (x3 : Vec F S1x128 .f32) : Vec F S128x128 .f32 :=
  VS10.read (Elt F) (VS10.writes (Elt F) VS10.junk (kernelRun10_A c i arg1 harg1 arg2 harg2 arg3 harg3 arg4 harg4 arg5 harg5 arg6 harg6 arg7 harg7 hc0 hc1 x0 x1 x2 x3).1.2)

/-- What a middle point leaves in the row output, -/
def row10_B (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond10_0 i) (hc1 : ¬cond10_1 i) (x0 : Vec F S5000x128 .f32) (x1 : Vec F S5000x128 .bf16) (x2 : Vec F S128x128 .f32) (x3 : Vec F S1x128 .f32) (s : Vec F S128x128 .f32) : Vec F S5000x128 .f32 :=
  VO10_4.read (Elt F) (VO10_4.writes (Elt F) VO10_4.junk (kernelRun10_B c i arg1 harg1 arg2 harg2 arg3 harg3 arg4 harg4 arg5 harg5 arg6 harg6 arg7 harg7 hc0 hc1 x0 x1 x2 x3 s).1.1)

/-- and in the accumulator, found at `s`. -/
def scr10_B (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond10_0 i) (hc1 : ¬cond10_1 i) (x0 : Vec F S5000x128 .f32) (x1 : Vec F S5000x128 .bf16) (x2 : Vec F S128x128 .f32) (x3 : Vec F S1x128 .f32) (s : Vec F S128x128 .f32) : Vec F S128x128 .f32 :=
  VS10.read (Elt F) (VS10.writes (Elt F) VS10.junk (kernelRun10_B c i arg1 harg1 arg2 harg2 arg3 harg3 arg4 harg4 arg5 harg5 arg6 harg6 arg7 harg7 hc0 hc1 x0 x1 x2 x3 s).1.2)

/-- What the last point leaves in the row output, -/
def row10_C (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond10_0 i) (hc1 : cond10_1 i) (x0 : Vec F S5000x128 .f32) (x1 : Vec F S5000x128 .bf16) (x2 : Vec F S128x128 .f32) (x3 : Vec F S1x128 .f32) (s : Vec F S128x128 .f32) : Vec F S5000x128 .f32 :=
  VO10_4.read (Elt F) (VO10_4.writes (Elt F) VO10_4.junk (kernelRun10_C c i arg1 harg1 arg2 harg2 arg3 harg3 arg4 harg4 arg5 harg5 arg6 harg6 arg7 harg7 hc0 hc1 x0 x1 x2 x3 s).1.1)

/-- in the matrix output, -/
def mat10_C (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond10_0 i) (hc1 : cond10_1 i) (x0 : Vec F S5000x128 .f32) (x1 : Vec F S5000x128 .bf16) (x2 : Vec F S128x128 .f32) (x3 : Vec F S1x128 .f32) (s : Vec F S128x128 .f32) : Vec F S128x128 .f32 :=
  VO10_5.read (Elt F) (VO10_5.writes (Elt F) VO10_5.junk (kernelRun10_C c i arg1 harg1 arg2 harg2 arg3 harg3 arg4 harg4 arg5 harg5 arg6 harg6 arg7 harg7 hc0 hc1 x0 x1 x2 x3 s).1.2.1)

/-- and in the accumulator, found at `s`. -/
def scr10_C (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole)
    (hc0 : ¬cond10_0 i) (hc1 : cond10_1 i) (x0 : Vec F S5000x128 .f32) (x1 : Vec F S5000x128 .bf16) (x2 : Vec F S128x128 .f32) (x3 : Vec F S1x128 .f32) (s : Vec F S128x128 .f32) : Vec F S128x128 .f32 :=
  VS10.read (Elt F) (VS10.writes (Elt F) VS10.junk (kernelRun10_C c i arg1 harg1 arg2 harg2 arg3 harg3 arg4 harg4 arg5 harg5 arg6 harg6 arg7 harg7 hc0 hc1 x0 x1 x2 x3 s).1.2.2)

section Region

variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's current staging buffer holds its block at every point, fetched there or not (unfetched, the
    block index has not moved), for ANY proof data whose array is `V`'s and whose body leaves the block in place; the
    windows uncut and never idle. -/
theorem before10_0_of {c : Dev nD} (dat : Dat τ (Elt F) Unit ℕ (Pipeline.UD sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (Pipeline.UD sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (Pipeline.UD sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
theorem before10_3_of {c : Dev nD} (dat : Dat τ (Elt F) Unit ℕ (Pipeline.UD sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-! ## What each point leaves: the accumulation -/

/-- The grid has at least two points: its first point is not its last. -/
theorem first_ne_last10 : ¬((0 : ℕ) + 1 = cfg10.N) := by rw [show cfg10.N = 10 from N_10]; decide

/-- THE ACCUMULATION. What the body leaves at position `n` in (the row output, the matrix output, the accumulator):
    the case the position selects — the first point's, the last point's, a middle point's —, run at the point's
    memrefs and input blocks, the accumulator found at what this leaves in it at `n - 1`. (The matrix output is written
    at the last point only; elsewhere the component repeats the accumulator's and is read nowhere.) -/
def outs10 (c : Dev nD) : (n : ℕ) → n < cfg10.N → Vec F S5000x128 .f32 × Vec F S128x128 .f32 × Vec F S128x128 .f32
  | 0, hn =>
    (row10_A c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) scM10 (Memref.isWhole_whole _) ((hcond10_0 ⟨0, hn⟩).mpr rfl) (fun h => first_ne_last10 ((hcond10_1 ⟨0, hn⟩).mp h)) (iblk10 V c 0 ⟨0, hn⟩) (iblk10 V c 1 ⟨0, hn⟩) (iblk10 V c 2 ⟨0, hn⟩) (iblk10 V c 3 ⟨0, hn⟩),
     scr10_A c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) scM10 (Memref.isWhole_whole _) ((hcond10_0 ⟨0, hn⟩).mpr rfl) (fun h => first_ne_last10 ((hcond10_1 ⟨0, hn⟩).mp h)) (iblk10 V c 0 ⟨0, hn⟩) (iblk10 V c 1 ⟨0, hn⟩) (iblk10 V c 2 ⟨0, hn⟩) (iblk10 V c 3 ⟨0, hn⟩),
     scr10_A c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) scM10 (Memref.isWhole_whole _) ((hcond10_0 ⟨0, hn⟩).mpr rfl) (fun h => first_ne_last10 ((hcond10_1 ⟨0, hn⟩).mp h)) (iblk10 V c 0 ⟨0, hn⟩) (iblk10 V c 1 ⟨0, hn⟩) (iblk10 V c 2 ⟨0, hn⟩) (iblk10 V c 3 ⟨0, hn⟩))
  | n + 1, hn =>
    if h1 : n + 1 + 1 = cfg10.N then
      (row10_C c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) scM10 (Memref.isWhole_whole _) (fun h => Nat.succ_ne_zero n ((hcond10_0 ⟨n + 1, hn⟩).mp h)) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (outs10 c n (Nat.lt_of_succ_lt hn)).2.2,
       mat10_C c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) scM10 (Memref.isWhole_whole _) (fun h => Nat.succ_ne_zero n ((hcond10_0 ⟨n + 1, hn⟩).mp h)) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (outs10 c n (Nat.lt_of_succ_lt hn)).2.2,
       scr10_C c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) scM10 (Memref.isWhole_whole _) (fun h => Nat.succ_ne_zero n ((hcond10_0 ⟨n + 1, hn⟩).mp h)) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (outs10 c n (Nat.lt_of_succ_lt hn)).2.2)
    else
      (row10_B c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) scM10 (Memref.isWhole_whole _) (fun h => Nat.succ_ne_zero n ((hcond10_0 ⟨n + 1, hn⟩).mp h)) (fun h => h1 ((hcond10_1 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (outs10 c n (Nat.lt_of_succ_lt hn)).2.2,
       scr10_B c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) scM10 (Memref.isWhole_whole _) (fun h => Nat.succ_ne_zero n ((hcond10_0 ⟨n + 1, hn⟩).mp h)) (fun h => h1 ((hcond10_1 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (outs10 c n (Nat.lt_of_succ_lt hn)).2.2,
       scr10_B c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) scM10 (Memref.isWhole_whole _) (fun h => Nat.succ_ne_zero n ((hcond10_0 ⟨n + 1, hn⟩).mp h)) (fun h => h1 ((hcond10_1 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (outs10 c n (Nat.lt_of_succ_lt hn)).2.2)

/-- What the accumulator holds after position `n`. -/
abbrev acc10 (c : Dev nD) (n : ℕ) (hn : n < cfg10.N) : Vec F S128x128 .f32 := (outs10 V c n hn).2.2

/-- `outs10` at the first point. -/
theorem outs10_A (c : Dev nD) (t : Fin cfg10.N) (h0 : t.val = 0) (hc0 : cond10_0 (grid10.coords t)) (hc1 : ¬cond10_1 (grid10.coords t)) :
    outs10 V c t.val t.isLt =
      (row10_A c (grid10.coords t) (ms10_0 t) (hs10_0 t) (ms10_1 t) (hs10_1 t) (ms10_2 t) (hs10_2 t) (ms10_3 t) (hs10_3 t) (ms10_4 t) (hs10_4 t) (ms10_5 t) (hs10_5 t) scM10 (Memref.isWhole_whole _) hc0 hc1 (iblk10 V c 0 t) (iblk10 V c 1 t) (iblk10 V c 2 t) (iblk10 V c 3 t),
       scr10_A c (grid10.coords t) (ms10_0 t) (hs10_0 t) (ms10_1 t) (hs10_1 t) (ms10_2 t) (hs10_2 t) (ms10_3 t) (hs10_3 t) (ms10_4 t) (hs10_4 t) (ms10_5 t) (hs10_5 t) scM10 (Memref.isWhole_whole _) hc0 hc1 (iblk10 V c 0 t) (iblk10 V c 1 t) (iblk10 V c 2 t) (iblk10 V c 3 t),
       scr10_A c (grid10.coords t) (ms10_0 t) (hs10_0 t) (ms10_1 t) (hs10_1 t) (ms10_2 t) (hs10_2 t) (ms10_3 t) (hs10_3 t) (ms10_4 t) (hs10_4 t) (ms10_5 t) (hs10_5 t) scM10 (Memref.isWhole_whole _) hc0 hc1 (iblk10 V c 0 t) (iblk10 V c 1 t) (iblk10 V c 2 t) (iblk10 V c 3 t)) := by
  obtain ⟨n, hn⟩ := t
  cases n with
  | zero => exact rfl
  | succ n => exact absurd h0 (Nat.succ_ne_zero n)

/-- `outs10` at the last point: over what the point before left in the accumulator. -/
theorem outs10_C (c : Dev nD) (t : Fin cfg10.N) (h0 : ¬t.val = 0) (h1 : t.val + 1 = cfg10.N) (hc0 : ¬cond10_0 (grid10.coords t)) (hc1 : cond10_1 (grid10.coords t)) :
    outs10 V c t.val t.isLt =
      (row10_C c (grid10.coords t) (ms10_0 t) (hs10_0 t) (ms10_1 t) (hs10_1 t) (ms10_2 t) (hs10_2 t) (ms10_3 t) (hs10_3 t) (ms10_4 t) (hs10_4 t) (ms10_5 t) (hs10_5 t) scM10 (Memref.isWhole_whole _) hc0 hc1 (iblk10 V c 0 t) (iblk10 V c 1 t) (iblk10 V c 2 t) (iblk10 V c 3 t) (acc10 V c (t.val - 1) (Nat.lt_of_le_of_lt (Nat.sub_le _ _) t.isLt)),
       mat10_C c (grid10.coords t) (ms10_0 t) (hs10_0 t) (ms10_1 t) (hs10_1 t) (ms10_2 t) (hs10_2 t) (ms10_3 t) (hs10_3 t) (ms10_4 t) (hs10_4 t) (ms10_5 t) (hs10_5 t) scM10 (Memref.isWhole_whole _) hc0 hc1 (iblk10 V c 0 t) (iblk10 V c 1 t) (iblk10 V c 2 t) (iblk10 V c 3 t) (acc10 V c (t.val - 1) (Nat.lt_of_le_of_lt (Nat.sub_le _ _) t.isLt)),
       scr10_C c (grid10.coords t) (ms10_0 t) (hs10_0 t) (ms10_1 t) (hs10_1 t) (ms10_2 t) (hs10_2 t) (ms10_3 t) (hs10_3 t) (ms10_4 t) (hs10_4 t) (ms10_5 t) (hs10_5 t) scM10 (Memref.isWhole_whole _) hc0 hc1 (iblk10 V c 0 t) (iblk10 V c 1 t) (iblk10 V c 2 t) (iblk10 V c 3 t) (acc10 V c (t.val - 1) (Nat.lt_of_le_of_lt (Nat.sub_le _ _) t.isLt))) := by
  obtain ⟨n, hn⟩ := t
  cases n with
  | zero => exact absurd rfl h0
  | succ n => exact (dif_pos h1).trans rfl

/-- `outs10` at a middle point. -/
theorem outs10_B (c : Dev nD) (t : Fin cfg10.N) (h0 : ¬t.val = 0) (h1 : ¬t.val + 1 = cfg10.N) (hc0 : ¬cond10_0 (grid10.coords t)) (hc1 : ¬cond10_1 (grid10.coords t)) :
    outs10 V c t.val t.isLt =
      (row10_B c (grid10.coords t) (ms10_0 t) (hs10_0 t) (ms10_1 t) (hs10_1 t) (ms10_2 t) (hs10_2 t) (ms10_3 t) (hs10_3 t) (ms10_4 t) (hs10_4 t) (ms10_5 t) (hs10_5 t) scM10 (Memref.isWhole_whole _) hc0 hc1 (iblk10 V c 0 t) (iblk10 V c 1 t) (iblk10 V c 2 t) (iblk10 V c 3 t) (acc10 V c (t.val - 1) (Nat.lt_of_le_of_lt (Nat.sub_le _ _) t.isLt)),
       scr10_B c (grid10.coords t) (ms10_0 t) (hs10_0 t) (ms10_1 t) (hs10_1 t) (ms10_2 t) (hs10_2 t) (ms10_3 t) (hs10_3 t) (ms10_4 t) (hs10_4 t) (ms10_5 t) (hs10_5 t) scM10 (Memref.isWhole_whole _) hc0 hc1 (iblk10 V c 0 t) (iblk10 V c 1 t) (iblk10 V c 2 t) (iblk10 V c 3 t) (acc10 V c (t.val - 1) (Nat.lt_of_le_of_lt (Nat.sub_le _ _) t.isLt)),
       scr10_B c (grid10.coords t) (ms10_0 t) (hs10_0 t) (ms10_1 t) (hs10_1 t) (ms10_2 t) (hs10_2 t) (ms10_3 t) (hs10_3 t) (ms10_4 t) (hs10_4 t) (ms10_5 t) (hs10_5 t) scM10 (Memref.isWhole_whole _) hc0 hc1 (iblk10 V c 0 t) (iblk10 V c 1 t) (iblk10 V c 2 t) (iblk10 V c 3 t) (acc10 V c (t.val - 1) (Nat.lt_of_le_of_lt (Nat.sub_le _ _) t.isLt))) := by
  obtain ⟨n, hn⟩ := t
  cases n with
  | zero => exact absurd rfl h0
  | succ n => exact (dif_neg h1).trans rfl

/-! ## The pipeline's proof data -/

/-- What the accumulator is owned at before position `n` (after position `n - 1`): before the first point at SOME
    contents (the region finds it at anything; the first point zeroes it before reading), after point `n` at the value
    accumulated through it. -/
def scrAt10 (c : Dev nD) : (n : ℕ) → n < cfg10.N + 1 → sProp 𝕄
  | 0, _ => iprop(∃ d, owns (c : Thread nD τ) scM10 fullShare d)
  | n + 1, h => owns (c : Thread nD τ) scM10 fullShare (acc10 V c n (Nat.lt_of_succ_lt_succ h))

/-- The body's invariant before point `t`: the core's scoped buffers that are neither a staging buffer of this call
    nor its accumulator, unopened; the generator register at some state; the accumulator whole at its contents there. -/
def Phi10 (c : Dev nD) (t : Fin (cfg10.N + 1)) : sProp 𝕄 :=
  iprop(Pipeline.scopedRestBut (Ix := Unit) (Name := ℕ) (U := Pipeline.UD sig nD τ) (Lvl := ℕ) (Val := Elt F) spec10 c [cc10_scratch0]
    ∗ (∃ r, prngReg c r) ∗ scrAt10 V c t.val t.isLt)

/-- The proof data of the pipeline on core `c`: the arrays as the region finds them (`V`); after the body at point `t`
    each input's buffer at its block, the row output's and the matrix output's at what `outs10` says; the invariant
    `Phi10`; nothing owed; full shares. -/
def dat10 (c : Dev nD) : Dat τ (Elt F) Unit ℕ (Pipeline.UD sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => (outs10 V c t.val t.isLt).1
    | ⟨5, _⟩ => (outs10 V c t.val t.isLt).2.1
  Φ t := Phi10 V c t
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = (outs10 V c t.val t.isLt).1 := by dsimp only [dat10]
theorem after10_5 (c : Dev nD) (t : Fin cfg10.N) : (dat10 V c).after 5 t = (outs10 V c t.val t.isLt).2.1 := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d

/-- The accumulator's clause of the invariant, by the point. -/
theorem scrAt10_succ (c : Dev nD) (t : Fin cfg10.N) :
    scrAt10 V c t.succ.val t.succ.isLt = owns (c : Thread nD τ) scM10 fullShare (acc10 V c t.val t.isLt) := by
  obtain ⟨n, hn⟩ := t; rfl
theorem scrAt10_castSucc_zero (c : Dev nD) (t : Fin cfg10.N) (h0 : t.val = 0) :
    scrAt10 V c t.castSucc.val t.castSucc.isLt = iprop(∃ d, owns (c : Thread nD τ) scM10 fullShare d) := by
  obtain ⟨n, hn⟩ := t
  cases n with
  | zero => rfl
  | succ n => exact absurd h0 (Nat.succ_ne_zero n)
theorem scrAt10_castSucc_pos (c : Dev nD) (t : Fin cfg10.N) (h0 : ¬t.val = 0) :
    scrAt10 V c t.castSucc.val t.castSucc.isLt
      = owns (c : Thread nD τ) scM10 fullShare (acc10 V c (t.val - 1) (Nat.lt_of_le_of_lt (Nat.sub_le _ _) t.isLt)) := by
  obtain ⟨n, hn⟩ := t
  cases n with
  | zero => exact absurd rfl h0
  | succ n => rfl
/-- At any point the clause gives the accumulator at some contents. -/
theorem scrAt10_some (c : Dev nD) (n : ℕ) (h : n < cfg10.N + 1) :
    scrAt10 V c n h ⊢ (iprop(∃ d, owns (c : Thread nD τ) scM10 fullShare d) : sProp 𝕄) := by
  cases n with
  | zero => exact .rfl
  | succ n => rw [scrAt10]; iintro H; iexists _; iexact H

/-! ## Where the matrix output's window is idle -/

/-- The matrix output's window is idle exactly where the second branch is not taken, -/
theorem idle10_5_of (i : grid10.Coords) (h : ¬cond10_1 i) : cfg10.idle 5 i = true := by
  show (!(k10_cond2 i == 1#1)) = true
  rw [Bool.not_eq_true', beq_eq_false_iff_ne]; exact h
theorem live10_5_of (i : grid10.Coords) (h : cond10_1 i) : cfg10.idle 5 i = false := by
  show (!(k10_cond2 i == 1#1)) = false
  rw [Bool.not_eq_false', beq_iff_eq]; exact h
/-- and is not written back before the last point. -/
theorem noflush10_5 (t : Fin cfg10.N) (h1 : ¬t.val + 1 = cfg10.N) : (cfg10.win 5).flush t = false := by
  have hN : cfg10.N = 10 := N_10
  have ht : t.val < cfg10.N := t.isLt
  exact Bool.eq_false_iff.mpr fun h => by have := (flush10_5 _).mp h; omega
/-- The obligation's post for it at a live point. -/
theorem leaves10_5_live {c : Dev nD} (dat : Dat τ (Elt F) Unit ℕ (Pipeline.UD sig nD τ) ℕ cfg10 c) (t : Fin cfg10.N)
    (hi : cfg10.idle 5 (cfg10.grid.coords t) = false) :
    dat.leavesExact 5 t = owns (c : Thread nD τ) ((cfg10.win 5).stage (cfg10.slots t 5)) fullShare (dat.after 5 t) := by
  unfold Dat.leavesExact; rw [hi]

/-! ## The body obligation, at a generic point -/

/-- What the body is called with at point `t` (the obligation's precondition, the windows one by one), -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d))
    ∗ (∃ d, owns (c : Thread nD τ) (ms10_4 t) fullShare ((dat10 V c).before 4 t d))
    ∗ (∃ d, owns (c : Thread nD τ) (ms10_5 t) fullShare ((dat10 V c).before 5 t d)))

/-- and what it returns: the matrix output's buffer as it was found where its window is idle. -/
def bodyPost10 (c : Dev nD) (t : Fin cfg10.N) : sProp 𝕄 :=
  iprop((dat10 V c).Φ t.succ ∗ (dat10 V c).owesAt () t.succ
    ∗ owns (c : Thread nD τ) (ms10_0 t) fullShare ((dat10 V c).after 0 t)
    ∗ owns (c : Thread nD τ) (ms10_1 t) fullShare ((dat10 V c).after 1 t)
    ∗ owns (c : Thread nD τ) (ms10_2 t) fullShare ((dat10 V c).after 2 t)
    ∗ owns (c : Thread nD τ) (ms10_3 t) fullShare ((dat10 V c).after 3 t)
    ∗ owns (c : Thread nD τ) (ms10_4 t) fullShare ((dat10 V c).after 4 t)
    ∗ (dat10 V c).leavesExact 5 t)

set_option maxHeartbeats 1600000 in
/-- The body at any point. The inputs' memrefs hold their blocks; the point's position says which case it is in; the
    invariant hands the body the accumulator — at anything at the first point, else at what the point before left —
    and takes it back at what this point leaves; the rest of the invariant and the core's `owes` pass through unread;
    the matrix output's buffer is framed around the body where its window is idle. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3]
  rw [show (dat10 V c).owesAt () t.succ = (dat10 V c).owesAt () t.castSucc from rfl,
    after10_0, after10_1, after10_2, after10_3, after10_4]
  rw [show (dat10 V c).Φ t.succ = Phi10 V c t.succ from rfl, show (dat10 V c).Φ t.castSucc = Phi10 V c t.castSucc from rfl]
  unfold Phi10
  rw [scrAt10_succ]
  unfold acc10
  by_cases h0 : t.val = 0
  · have hc0 : cond10_0 (grid10.coords t) := (hcond10_0 t).mpr h0
    have h1 : ¬t.val + 1 = cfg10.N := fun h => first_ne_last10 (by rw [h0] at h; exact h)
    have hc1 : ¬cond10_1 (grid10.coords t) := fun h => h1 ((hcond10_1 t).mp h)
    rw [scrAt10_castSucc_zero V c t h0, Dat.leavesExact_idle _ 5 t (idle10_5_of _ hc1) (noflush10_5 t h1), outs10_A V c t h0 hc0 hc1]
    dsimp only
    unfold row10_A scr10_A
    iintro ⟨⟨Hrest, Hg, HS⟩, Ho, ⟨%d0, H0⟩, ⟨%d1, H1⟩, ⟨%d2, H2⟩, ⟨%d3, H3⟩, ⟨%d4, H4⟩, ⟨%d5, H5⟩⟩
    iapply ((kernelRun10_A c (grid10.coords t) _ _ _ _ _ _ _ _ _ _ _ _ _ _ hc0 hc1 (iblk10 V c 0 t) (iblk10 V c 1 t) (iblk10 V c 2 t) (iblk10 V c 3 t)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%e6, HS⟩⟩
    isplitl [Hrest Hg HS]
    · isplitl [Hrest]; · iexact Hrest
      isplitl [Hg]; · iexact Hg
      unfold owns; iexists _; isplitr
      swap; · iexact HS
      ipureintro; exact View.read_writes_of_cover _ _ _ _ _ (cover10_A_s c _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover10_A_4 c _ _ _ _ _ _ _ _ _ _ _ _ _ _ _ _ _ _ _ _ _)
    iexists d5; iexact H5
  · have hc0 : ¬cond10_0 (grid10.coords t) := fun h => h0 ((hcond10_0 t).mp h)
    rw [scrAt10_castSucc_pos V c t h0]
    unfold acc10
    by_cases h1 : t.val + 1 = cfg10.N
    · have hc1 : cond10_1 (grid10.coords t) := (hcond10_1 t).mpr h1
      rw [leaves10_5_live _ t (live10_5_of _ hc1), after10_5, outs10_C V c t h0 h1 hc0 hc1]
      dsimp only
      unfold row10_C mat10_C scr10_C acc10
      iintro ⟨⟨Hrest, Hg, HS⟩, Ho, ⟨%d0, H0⟩, ⟨%d1, H1⟩, ⟨%d2, H2⟩, ⟨%d3, H3⟩, ⟨%d4, H4⟩, ⟨%d5, H5⟩⟩
      iapply ((kernelRun10_C c (grid10.coords t) _ _ _ _ _ _ _ _ _ _ _ _ _ _ hc0 hc1 (iblk10 V c 0 t) (iblk10 V c 1 t) (iblk10 V c 2 t) (iblk10 V c 3 t) _).2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, ⟨%e4, H4⟩, ⟨%e5, H5⟩, ⟨%e6, HS⟩⟩
      isplitl [Hrest Hg HS]
      · isplitl [Hrest]; · iexact Hrest
        isplitl [Hg]; · iexact Hg
        unfold owns; iexists _; isplitr
        swap; · iexact HS
        ipureintro; exact View.read_writes_of_cover _ _ _ _ _ (cover10_C_s c _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover10_C_4 c _ _ _ _ _ _ _ _ _ _ _ _ _ _ _ _ _ _ _ _ _ _)
      unfold owns; iexists _; isplitr
      swap; · iexact H5
      ipureintro; exact View.read_writes_of_cover _ _ _ _ _ (cover10_C_5 c _ _ _ _ _ _ _ _ _ _ _ _ _ _ _ _ _ _ _ _ _ _)
    · have hc1 : ¬cond10_1 (grid10.coords t) := fun h => h1 ((hcond10_1 t).mp h)
      rw [Dat.leavesExact_idle _ 5 t (idle10_5_of _ hc1) (noflush10_5 t h1), outs10_B V c t h0 h1 hc0 hc1]
      dsimp only
      unfold row10_B scr10_B acc10
      iintro ⟨⟨Hrest, Hg, HS⟩, Ho, ⟨%d0, H0⟩, ⟨%d1, H1⟩, ⟨%d2, H2⟩, ⟨%d3, H3⟩, ⟨%d4, H4⟩, ⟨%d5, H5⟩⟩
      iapply ((kernelRun10_B c (grid10.coords t) _ _ _ _ _ _ _ _ _ _ _ _ _ _ hc0 hc1 (iblk10 V c 0 t) (iblk10 V c 1 t) (iblk10 V c 2 t) (iblk10 V c 3 t) _).2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%e6, HS⟩⟩
      isplitl [Hrest Hg HS]
      · isplitl [Hrest]; · iexact Hrest
        isplitl [Hg]; · iexact Hg
        unfold owns; iexists _; isplitr
        swap; · iexact HS
        ipureintro; exact View.read_writes_of_cover _ _ _ _ _ (cover10_B_s c _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover10_B_4 c _ _ _ _ _ _ _ _ _ _ _ _ _ _ _ _ _ _ _ _ _ _)
      iexists d5; iexact H5

/-- The library's body obligation, at every point. -/
theorem body_obligation10 (c : Dev nD) : BodyObligation (dat10 (F := F) V c) (defs₀ (F := F)) Variants.none () Set.univ := fun t => by
  rw [bigSep_W10, bigSep_W10]
  exact sound_body10 V c t

/-! ## The invariant at the region's ends -/

/-- ENTRY: the generator register and the scoped buffers no window stages make the invariant before the first point —
    the accumulator split out of them, at whatever it holds. -/
theorem hin10 (c : Dev nD) : (iprop((∃ r, prngReg c r) ∗ Pipeline.scopedRest spec10 c) : sProp 𝕄) ⊢ (dat10 V c).Φ 0 := by
  rw [show (dat10 V c).Φ 0 = Phi10 V c 0 from rfl]; unfold Phi10
  rw [show scrAt10 V c (0 : Fin (cfg10.N + 1)).val (0 : Fin (cfg10.N + 1)).isLt = iprop(∃ d, owns (c : Thread nD τ) scM10 fullShare d) from rfl,
    scopedRest10_split]
  simp only [scM10, owns_whole]
  iintro ⟨Hg, HS, Hrest⟩
  isplitl [Hrest]; · iexact Hrest
  isplitl [Hg]; · iexact Hg
  iexact HS

/-- EXIT: the invariant after the last point gives them back, the accumulator forgotten into them. -/
theorem hout10 (c : Dev nD) : (dat10 V c).Φ (Fin.last cfg10.N) ⊢ (iprop((∃ r, prngReg c r) ∗ Pipeline.scopedRest spec10 c) : sProp 𝕄) := by
  rw [show (dat10 V c).Φ (Fin.last cfg10.N) = Phi10 V c (Fin.last cfg10.N) from rfl]; unfold Phi10
  rw [scopedRest10_split]
  iintro ⟨Hrest, Hg, HS⟩
  ihave HS' := scrAt10_some V c _ _ $$ HS
  isplitl [Hg]; · iexact Hg
  isplitl [HS']
  · simp only [scM10, owns_whole]; iexact HS'
  iexact Hrest

end Region

end Cert.KernelIdeal.Hand

end
-- ==== Proof.KI.Reg11.lean ====
import proofs.«408428_j10917806867267_1_alg».proof.Proof.Gen.KernelIdeal.Launch
import proofs.«408428_j10917806867267_1_alg».proof.Proof.Gen.KernelIdeal.Skeleton
import proofs.«408428_j10917806867267_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The normalising launch as a pipeline region, at arbitrary entry contents

Six windows and no scratch: a tile of rows of the features, the same tile of the one-hot membership matrix, the
per-graph variances, the scale row and the shift row come in; one tile of rows goes out. The body reads the five
inputs whole and writes the output tile whole, once, so the output buffer after the body is one payload over the
five input blocks and every input buffer is left as found. Everything is stated at a parameter `V`, the buffer
contents when the region is entered, and at any float model `F`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`: what the window's index map cuts out of its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! ## An input's buffer holds its block at every point

For any proof data over the entry arrays whose body leaves the input's block in place: where the window is fetched
the buffer holds the fetched block; where it is not, its block index has not moved since the point before, so the
block left there is still this point's. The tiles of rows are fetched at every point, the variances and the two
rows at the first point only; the one argument covers both. -/

theorem inputHolds11_0_of {c : Dev nD} (dat : Dat τ (Elt F) Unit ℕ (Pipeline.UD sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem inputHolds11_1_of {c : Dev nD} (dat : Dat τ (Elt F) Unit ℕ (Pipeline.UD sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem inputHolds11_2_of {c : Dev nD} (dat : Dat τ (Elt F) Unit ℕ (Pipeline.UD sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

theorem inputHolds11_3_of {c : Dev nD} (dat : Dat τ (Elt F) Unit ℕ (Pipeline.UD sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

theorem inputHolds11_4_of {c : Dev nD} (dat : Dat τ (Elt F) Unit ℕ (Pipeline.UD sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: each buffer whole -/

abbrev whole11_rows : Rect S5000x128 := Rect.unit (s := S5000x128) ![0, 0] S5000x128.size inb_S5000x128_S5000x128_0_0
abbrev whole11_square : Rect S128x128 := Rect.unit (s := S128x128) ![0, 0] S128x128.size inb_S128x128_S128x128_0_0
abbrev whole11_row : Rect S1x128 := Rect.unit (s := S1x128) ![0, 0] S1x128.size inb_S1x128_S1x128_0_0

/-! ## What the body leaves in the output buffer -/

/-- The output buffer after the body, from the five input blocks: its single store, of the payload at the inputs
    read whole. -/
def out11_5 (x0 : Vec F S5000x128 .f32) (x1 : Vec F S5000x128 .bf16) (x2 : Vec F S128x128 .f32) (x3 : Vec F S1x128 .f32) (x4 : Vec F S1x128 .f32) : Vec F S5000x128 .f32 :=
  View.canon [⟨whole11_rows, k11_pay1 (View.ld x1 whole11_rows) (View.ld x2 whole11_square) (View.ld x3 whole11_row) (View.ld x0 whole11_rows) (View.ld x4 whole11_row)⟩]

/-- The single store is the whole buffer, so it covers it. -/
theorem storeCovers11_5 (p0 : Vec F S5000x128 .f32) (y : S5000x128.Idx) :
    ∃ pc ∈ ([⟨whole11_rows, p0⟩] : List (View.Piece (Elt F) S5000x128 .f32)), y ∈ pc.1.set :=
  View.cover_of_tiled [⟨whole11_rows, p0⟩] S5000x128.size (by rfl) y

/-! ## The body's triple -/

set_option maxHeartbeats 1000000 in
/-- The body on whole buffers, the five inputs' at read contents `x0 … x4` and the output's at anything, runs to the
    continuation with the inputs' as they were and the output's at `out11_5` of them. -/
theorem kernelTriple11 (c : Dev nD) (E : Set ℕ) (i : grid11.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .bf16) (x2 : Vec F S128x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out11_5 x0 x1 x2 x3 x4)) -∗ K ⟨⟩))
      ⊢ wp frame (wpE (defs₀ (F := F)) Variants.none c none) E (cc11__normalize_kernel i arg1 harg1 arg2 harg2 arg3 harg3 arg4 harg4 arg5 harg5 arg6 harg6) K := by
  simp only [cc11__normalize_kernel_eq_skeleton]; unfold cc11__normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (storeCovers11_5 _)

/-! ## The pipeline's proof data -/

/-- The proof data on core `c`: the arrays as the region finds them; after the body at point `t` each input's
    buffer at its block and the output's at `out11_5` of the input blocks; the invariant that of a body touching
    nothing but its windows; nothing owed; full shares. -/
def dat11 (c : Dev nD) : Dat τ (Elt F) Unit ℕ (Pipeline.UD sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = out11_5 (iblk11 V c 0 t) (iblk11 V c 1 t) (iblk11 V c 2 t) (iblk11 V c 3 t) (iblk11 V c 4 t) := by dsimp only [dat11]

/-- Each input's current buffer holds its block at every point, fetched there or not. -/
theorem before11_0 (c : Dev nD) (t : Fin cfg11.N) (d) : (dat11 V c).before 0 t d = iblk11 V c 0 t :=
  inputHolds11_0_of V (dat11 V c) (A_eq11 V c 0) (after11_0 V c) t d
theorem before11_1 (c : Dev nD) (t : Fin cfg11.N) (d) : (dat11 V c).before 1 t d = iblk11 V c 1 t :=
  inputHolds11_1_of V (dat11 V c) (A_eq11 V c 1) (after11_1 V c) t d
theorem before11_2 (c : Dev nD) (t : Fin cfg11.N) (d) : (dat11 V c).before 2 t d = iblk11 V c 2 t :=
  inputHolds11_2_of V (dat11 V c) (A_eq11 V c 2) (after11_2 V c) t d
theorem before11_3 (c : Dev nD) (t : Fin cfg11.N) (d) : (dat11 V c).before 3 t d = iblk11 V c 3 t :=
  inputHolds11_3_of V (dat11 V c) (A_eq11 V c 3) (after11_3 V c) t d
theorem before11_4 (c : Dev nD) (t : Fin cfg11.N) (d) : (dat11 V c).before 4 t d = iblk11 V c 4 t :=
  inputHolds11_4_of V (dat11 V c) (A_eq11 V c 4) (after11_4 V c) t d

/-! ## The body obligation, at a generic point -/

/-- What the body is called with at point `t`, the windows one by one, -/
def bodyGiven11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyLeaves11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any point: the inputs' buffers hold their blocks, so the body's triple applies; the invariant and
    what the core owes pass through unread. -/
theorem bodyTriple11 (c : Dev nD) (t : Fin cfg11.N) :
    bodyGiven11 V c t ⊢ wp frame (wpE (defs₀ (F := F)) Variants.none c none) Set.univ (bodyAt11 t) (fun _ => bodyLeaves11 V c t) := by
  unfold bodyGiven11 bodyLeaves11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (kernelTriple11 c Set.univ (grid11.coords t) _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation11 (c : Dev nD) : BodyObligation (dat11 (F := F) V c) (defs₀ (F := F)) Variants.none () Set.univ := fun t => by
  rw [bigSep_W11, bigSep_W11]
  exact bodyTriple11 V c t

/-! ## The invariant at the region's two ends -/

/-- Entering: the generator register and the scoped rest make up the invariant before the first point. -/
theorem hin11 (c : Dev nD) : (iprop((∃ r, prngReg c r) ∗ Pipeline.scopedRest spec11 c) : sProp 𝕄) ⊢ (dat11 V c).Φ 0 := by
  rw [show (dat11 V c).Φ 0 = Pipeline.ΦA spec11 c from rfl]; unfold Pipeline.ΦA
  iintro ⟨Hp, Hr⟩
  isplitl [Hr]; · iexact Hr
  iexact Hp

/-- Leaving: the invariant after the last point hands both back. -/
theorem hout11 (c : Dev nD) : (dat11 V c).Φ (Fin.last cfg11.N) ⊢ (iprop((∃ r, prngReg c r) ∗ Pipeline.scopedRest spec11 c) : sProp 𝕄) := by
  rw [show (dat11 V c).Φ (Fin.last cfg11.N) = Pipeline.ΦA spec11 c from rfl]; unfold Pipeline.ΦA
  iintro ⟨Hr, Hp⟩
  isplitl [Hp]; · iexact Hp
  iexact Hr

end Cert.KernelIdeal.Hand
-- ==== Proof.KI.Reg12.lean ====
/- Region 12 of the kernel program (the pooling head): nine windows and one scratch buffer carried across the ten
   grid points. The scratch is an accumulator: the first point fills it with zeros, every point adds the product of
   the transposed one-hot block with the feature block into it, and the last point reads it back, applies two
   affine layers with a rectifier each and a third affine layer, and stores the row-wise log-softmax over ten lanes
   into window 8, which is idle at every other point. Stated at the region-entry contents `V`, generic in `F`.
   The invariant names the scratch's contents by recursion on the point: before the first point some contents,
   after point `t` the value accumulated through `t`. -/
import proofs.«408428_j10917806867267_1_alg».proof.Proof.Gen.KernelIdeal.Launch
import proofs.«408428_j10917806867267_1_alg».proof.Proof.Gen.KernelIdeal.Skeleton
import proofs.«408428_j10917806867267_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region12

variable (V : (c : Dev nD) → (b : Ref sig .tc) → Buf (Elt F) ((c : Thread nD τ).loc b))

/-! ## The body's two conditions in closed form -/

/-- The condition of the first conditional (the zero fill), from the grid coordinates. -/
abbrev cond12_0 (i : grid12.Coords) : Prop := (Scalar.cmpi .ne (Scalar.extui (Scalar.cmpi .eq (BitVec.ofNat 32 (i 0).val) 0#32)) 0#32) = 1#1
/-- It holds at the first point only; the second (the head) at the last point only. -/
theorem hcond12_0 : ∀ t : Fin cfg12.N, cond12_0 (grid12.coords t) ↔ t.val = 0 :=
  (by decide +kernel : ∀ t : Fin grid12.N, cond12_0 (grid12.coords t) ↔ t.val = 0)
theorem hcond12_1 : ∀ t : Fin cfg12.N, k12_cond2 (grid12.coords t) = 1#1 ↔ t.val = 9 :=
  (by decide +kernel : ∀ t : Fin grid12.N, k12_cond2 (grid12.coords t) = 1#1 ↔ t.val = 9)

/-- Windows 0 to 7 are live at every point; window 8 is live exactly where the head runs, and where it is idle its
    block is not written back. -/
theorem liveAt12_0 : ∀ t : Fin cfg12.N, cfg12.idle 0 (grid12.coords t) = false := fun _ => rfl
theorem liveAt12_1 : ∀ t : Fin cfg12.N, cfg12.idle 1 (grid12.coords t) = false := fun _ => rfl
theorem liveAt12_2 : ∀ t : Fin cfg12.N, cfg12.idle 2 (grid12.coords t) = false := fun _ => rfl
theorem liveAt12_3 : ∀ t : Fin cfg12.N, cfg12.idle 3 (grid12.coords t) = false := fun _ => rfl
theorem liveAt12_4 : ∀ t : Fin cfg12.N, cfg12.idle 4 (grid12.coords t) = false := fun _ => rfl
theorem liveAt12_5 : ∀ t : Fin cfg12.N, cfg12.idle 5 (grid12.coords t) = false := fun _ => rfl
theorem liveAt12_6 : ∀ t : Fin cfg12.N, cfg12.idle 6 (grid12.coords t) = false := fun _ => rfl
theorem liveAt12_7 : ∀ t : Fin cfg12.N, cfg12.idle 7 (grid12.coords t) = false := fun _ => rfl
theorem idleAt12_8 : ∀ t : Fin cfg12.N, ¬k12_cond2 (grid12.coords t) = 1#1 → cfg12.idle 8 (grid12.coords t) = true := by decide +kernel
theorem noFlush12_8 : ∀ t : Fin cfg12.N, ¬k12_cond2 (grid12.coords t) = 1#1 → (cfg12.win 8).flush t = false := by decide +kernel
theorem liveAt12_8 : ∀ t : Fin cfg12.N, k12_cond2 (grid12.coords t) = 1#1 → cfg12.idle 8 (grid12.coords t) = false := by decide +kernel

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current staging buffer holds its block at every point, fetched there or not, for any proof data
    whose array is `V`'s and whose body leaves the block in place: unfetched, the block index has not moved. -/
theorem before12_0_of {c : Dev nD} (dat : Dat τ (Elt F) Unit ℕ (Pipeline.UD sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (Pipeline.UD sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
theorem before12_2_of {c : Dev nD} (dat : Dat τ (Elt F) Unit ℕ (Pipeline.UD sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)
theorem before12_3_of {c : Dev nD} (dat : Dat τ (Elt F) Unit ℕ (Pipeline.UD sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)
theorem before12_4_of {c : Dev nD} (dat : Dat τ (Elt F) Unit ℕ (Pipeline.UD sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)
theorem before12_5_of {c : Dev nD} (dat : Dat τ (Elt F) Unit ℕ (Pipeline.UD sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)
theorem before12_6_of {c : Dev nD} (dat : Dat τ (Elt F) Unit ℕ (Pipeline.UD sig nD τ) ℕ cfg12 c) (hA : dat.A 6 = V c (Pipeline.arrRef spec12 6))
    (hafter : ∀ t, dat.after 6 t = iblk12 V c 6 t) (t : Fin cfg12.N) (d) : dat.before 6 t d = iblk12 V c 6 t :=
  (dat.before_in_eq_fetched 6 rfl (fun _ => rfl) (fun _ _ _ => rfl) (fun t => by rw [hafter]; unfold Dat.blockOf iblk12; rw [hA]; try rfl) t d).trans
    (by unfold Dat.fetched Dat.blockOf iblk12; rw [hA]; try rfl)
theorem before12_7_of {c : Dev nD} (dat : Dat τ (Elt F) Unit ℕ (Pipeline.UD sig nD τ) ℕ cfg12 c) (hA : dat.A 7 = V c (Pipeline.arrRef spec12 7))
    (hafter : ∀ t, dat.after 7 t = iblk12 V c 7 t) (t : Fin cfg12.N) (d) : dat.before 7 t d = iblk12 V c 7 t :=
  (dat.before_in_eq_fetched 7 rfl (fun _ => rfl) (fun _ _ _ => rfl) (fun t => by rw [hafter]; unfold Dat.blockOf iblk12; rw [hA]; try rfl) t d).trans
    (by unfold Dat.fetched Dat.blockOf iblk12; rw [hA]; try rfl)

/-! ## What the body's stores leave -/

abbrev r12_5k : Rect S5000x128 := Rect.unit (s := S5000x128) ![0, 0] S5000x128.size inb_S5000x128_S5000x128_0_0
abbrev r12_128 : Rect S128x128 := Rect.unit (s := S128x128) ![0, 0] S128x128.size inb_S128x128_S128x128_0_0
abbrev r12_1x128 : Rect S1x128 := Rect.unit (s := S1x128) ![0, 0] S1x128.size inb_S1x128_S1x128_0_0
abbrev r12_128x10 : Rect S128x10 := Rect.unit (s := S128x10) ![0, 0] S128x10.size inb_S128x10_S128x10_0_0
abbrev r12_1x10 : Rect S1x10 := Rect.unit (s := S1x10) ![0, 0] S1x10.size inb_S1x10_S1x10_0_0

/-- The scratch after the zero fill. -/
def zero12 : Vec F S128x128 .f32 := View.canon [⟨r12_128, k12_pay1 (F := F)⟩]

/-- One accumulation step: the scratch at `s`, after a point whose feature block is `x0` and one-hot block `x1`. -/
def acc12 (x0 : Vec F S5000x128 .f32) (x1 : Vec F S5000x128 .bf16) (s : Vec F S128x128 .f32) : Vec F S128x128 .f32 :=
  View.canon [⟨r12_128, k12_pay2 (View.ld x1 r12_5k) (View.ld x0 r12_5k) (View.ld s r12_128)⟩]

/-- The head: what the last point stores into window 8, from the accumulated value `a` and the six parameter blocks. -/
def head12 (a : Vec F S128x128 .f32) (x2 : Vec F S128x128 .f32) (x3 : Vec F S1x128 .f32) (x4 : Vec F S128x128 .f32) (x5 : Vec F S1x128 .f32)
    (x6 : Vec F S128x10 .f32) (x7 : Vec F S1x10 .f32) : Vec F S128x10 .f32 :=
  View.canon [⟨r12_128x10, k12_pay3
    (k12_pay4 (View.ld a r12_128) (View.ld x2 r12_128) (View.ld x3 r12_1x128) (View.ld x4 r12_128) (View.ld x5 r12_1x128) (View.ld x6 r12_128x10) (View.ld x7 r12_1x10))
    (k12_pay5 (View.ld a r12_128) (View.ld x2 r12_128) (View.ld x3 r12_1x128) (View.ld x4 r12_128) (View.ld x5 r12_1x128) (View.ld x6 r12_128x10) (View.ld x7 r12_1x10))⟩]

/-- One whole-buffer store covers its buffer. -/
theorem cover12_128 (p0 : Vec F S128x128 .f32) (y : S128x128.Idx) :
    ∃ pc ∈ ([⟨r12_128, p0⟩] : List (View.Piece (Elt F) S128x128 .f32)), y ∈ pc.1.set :=
  View.cover_of_tiled [⟨r12_128, p0⟩] S128x128.size (by rfl) y
theorem cover12_128x10 (p0 : Vec F S128x10 .f32) (y : S128x10.Idx) :
    ∃ pc ∈ ([⟨r12_128x10, p0⟩] : List (View.Piece (Elt F) S128x10 .f32)), y ∈ pc.1.set :=
  View.cover_of_tiled [⟨r12_128x10, p0⟩] S128x10.size (by rfl) y

/-! ## The body's triple, case by case -/

set_option maxHeartbeats 1000000 in
/-- A middle point (neither conditional taken): the scratch at `s` goes to `acc12 x0 x1 s`; windows 0 and 1 are read. -/
theorem run12_mid (c : Dev nD) (E : Set ℕ) (i : grid12.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S128x10 .f32) (harg9 : arg9.IsWhole) (arg10 : Memref sig .tc .vmem S128x128 .f32) (harg10 : arg10.IsWhole)
    (hc0 : ¬cond12_0 i) (hc1 : ¬k12_cond2 i = 1#1)
    (x0 : Vec F S5000x128 .f32) (x1 : Vec F S5000x128 .bf16) (s : Vec F S128x128 .f32) (K : PUnit → sProp 𝕄) :
    iprop(owns (c : Thread nD τ) arg1 fullShare x0 ∗ owns (c : Thread nD τ) arg2 fullShare x1 ∗ owns (c : Thread nD τ) arg10 fullShare s
        ∗ (iprop(owns (c : Thread nD τ) arg1 fullShare x0 ∗ owns (c : Thread nD τ) arg2 fullShare x1 ∗ owns (c : Thread nD τ) arg10 fullShare (acc12 x0 x1 s)) -∗ K ⟨⟩))
      ⊢ wp frame (wpE (defs₀ (F := F)) Variants.none c none) E (cc12__pool_head_kernel i arg1 harg1 arg2 harg2 arg3 harg3 arg4 harg4 arg5 harg5 arg6 harg6 arg7 harg7 arg8 harg8 arg9 harg9 arg10 harg10) K := by
  simp only [cc12__pool_head_kernel_eq_skeleton]; unfold cc12__pool_head_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  exact View.read_writes_eq_canon _ _ _ (cover12_128 _)

set_option maxHeartbeats 1000000 in
/-- The first point (the zero fill taken, the head not): the scratch at anything goes to `acc12 x0 x1 zero12`. -/
theorem run12_first (c : Dev nD) (E : Set ℕ) (i : grid12.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S128x10 .f32) (harg9 : arg9.IsWhole) (arg10 : Memref sig .tc .vmem S128x128 .f32) (harg10 : arg10.IsWhole)
    (hc0 : cond12_0 i) (hc1 : ¬k12_cond2 i = 1#1)
    (x0 : Vec F S5000x128 .f32) (x1 : Vec F S5000x128 .bf16) (K : PUnit → sProp 𝕄) :
    iprop(owns (c : Thread nD τ) arg1 fullShare x0 ∗ owns (c : Thread nD τ) arg2 fullShare x1 ∗ (∃ d, owns (c : Thread nD τ) arg10 fullShare d)
        ∗ (iprop(owns (c : Thread nD τ) arg1 fullShare x0 ∗ owns (c : Thread nD τ) arg2 fullShare x1 ∗ owns (c : Thread nD τ) arg10 fullShare (acc12 x0 x1 zero12)) -∗ K ⟨⟩))
      ⊢ wp frame (wpE (defs₀ (F := F)) Variants.none c none) E (cc12__pool_head_kernel i arg1 harg1 arg2 harg2 arg3 harg3 arg4 harg4 arg5 harg5 arg6 harg6 arg7 harg7 arg8 harg8 arg9 harg9 arg10 harg10) K := by
  simp only [cc12__pool_head_kernel_eq_skeleton]; unfold cc12__pool_head_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [View.readCov_eq_canon_ld _ _ _ (cover12_128 _)]
  exact View.read_writes_eq_canon arg10.view (arg10.view.writes (Elt F) fs [_]) [_] (cover12_128 _)

set_option maxHeartbeats 1000000 in
/-- The last point (the head taken, the zero fill not): the scratch at `s` goes to `a := acc12 x0 x1 s`, and window 8 to
    the head of `a` and the parameter blocks; windows 0 to 7 are read. -/
theorem run12_last (c : Dev nD) (E : Set ℕ) (i : grid12.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S128x10 .f32) (harg9 : arg9.IsWhole) (arg10 : Memref sig .tc .vmem S128x128 .f32) (harg10 : arg10.IsWhole)
    (hc0 : ¬cond12_0 i) (hc1 : k12_cond2 i = 1#1)
    (x0 : Vec F S5000x128 .f32) (x1 : Vec F S5000x128 .bf16) (x2 : Vec F S128x128 .f32) (x3 : Vec F S1x128 .f32) (x4 : Vec F S128x128 .f32) (x5 : Vec F S1x128 .f32)
    (x6 : Vec F S128x10 .f32) (x7 : Vec F S1x10 .f32) (s : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ owns (c : Thread nD τ) arg10 fullShare s
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (head12 (acc12 x0 x1 s) x2 x3 x4 x5 x6 x7) ∗ owns (c : Thread nD τ) arg10 fullShare (acc12 x0 x1 s)) -∗ K ⟨⟩))
      ⊢ wp frame (wpE (defs₀ (F := F)) Variants.none c none) E (cc12__pool_head_kernel i arg1 harg1 arg2 harg2 arg3 harg3 arg4 harg4 arg5 harg5 arg6 harg6 arg7 harg7 arg8 harg8 arg9 harg9 arg10 harg10) K := by
  simp only [cc12__pool_head_kernel_eq_skeleton]; unfold cc12__pool_head_kernel_skel
  simp only [k12_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
  subst hf0; subst hf1; subst hf2; subst hf3; subst hf4; subst hf5; subst hf6; subst hf7; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_run_names
    rw [View.readCov_eq_canon_ld _ _ _ (cover12_128 _)]
    exact View.read_writes_eq_canon _ _ _ (cover12_128x10 _)
  iexists _; isplitr
  swap; · iexact HS
  ipureintro
  sl_unfold_run_names
  exact View.read_writes_eq_canon _ _ _ (cover12_128 _)

/-! ## The accumulated value, by recursion on the point -/

/-- The scratch operand: a whole scoped buffer of the kernel's own. -/
abbrev scM12 : Memref sig .tc .vmem S128x128 .f32 := Memref.whole cc12_scratch0

/-- The value in the scratch after the points below `n` (and the zero fill): zeros, then one accumulation step per point. -/
def accAt12 (c : Dev nD) : ℕ → Vec F S128x128 .f32
  | 0 => zero12
  | n + 1 => if h : n < cfg12.N then acc12 (iblk12 V c 0 ⟨n, h⟩) (iblk12 V c 1 ⟨n, h⟩) (accAt12 c n) else accAt12 c n

theorem accAt12_zero (c : Dev nD) (n : ℕ) (h : n = 0) : accAt12 V c n = zero12 := by subst h; rfl
theorem accAt12_succ (c : Dev nD) (t : Fin cfg12.N) :
    accAt12 V c (t.val + 1) = acc12 (iblk12 V c 0 t) (iblk12 V c 1 t) (accAt12 V c t.val) := by
  rw [accAt12, dif_pos t.isLt]

/-- The scratch as the invariant holds it before point `n`: at some contents before the first point, then at the
    value accumulated so far. -/
def scr12 (c : Dev nD) : ℕ → sProp 𝕄
  | 0 => iprop(∃ d, owns (c : Thread nD τ) scM12 fullShare d)
  | n + 1 => owns (c : Thread nD τ) scM12 fullShare (accAt12 V c (n + 1))

theorem scr12_zero (c : Dev nD) (n : ℕ) (h : n = 0) : scr12 V c n = iprop(∃ d, owns (c : Thread nD τ) scM12 fullShare d) := by
  subst h; rfl
theorem scr12_pos (c : Dev nD) (n : ℕ) (h : n ≠ 0) : scr12 V c n = owns (c : Thread nD τ) scM12 fullShare (accAt12 V c n) := by
  cases n with
  | zero => exact absurd rfl h
  | succ n => rfl

/-- The region's invariant before point `n`: every scoped buffer that is neither a staging buffer nor the scratch at
    some contents, the generator register at some state, and the scratch as `scr12` names it. -/
def Φ12 (c : Dev nD) (n : ℕ) : sProp 𝕄 :=
  iprop(Pipeline.scopedRestBut (Ix := Unit) (Name := ℕ) (U := Pipeline.UD sig nD τ) (Lvl := ℕ) (Val := Elt F) spec12 c [cc12_scratch0]
    ∗ (∃ r, prngReg c r) ∗ scr12 V c n)

/-! ## The pipeline's proof data -/

/-- The proof data of the region on core `c`: the arrays as the region finds them; after the body each input's buffer
    at its block, window 8's at the head of the value accumulated through the point (consulted at the last point
    only: elsewhere the window is idle); the invariant `Φ12`; nothing owed; full shares. -/
def dat12 (c : Dev nD) : Dat τ (Elt F) Unit ℕ (Pipeline.UD sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => iblk12 V c 7 t
    | ⟨8, _⟩ => head12 (accAt12 V c (t.val + 1)) (iblk12 V c 2 t) (iblk12 V c 3 t) (iblk12 V c 4 t) (iblk12 V c 5 t) (iblk12 V c 6 t) (iblk12 V c 7 t)
  Φ t := Φ12 V c t.val
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = iblk12 V c 7 t := by dsimp only [dat12]
theorem after12_8 (c : Dev nD) (t : Fin cfg12.N) : (dat12 V c).after 8 t
    = head12 (accAt12 V c (t.val + 1)) (iblk12 V c 2 t) (iblk12 V c 3 t) (iblk12 V c 4 t) (iblk12 V c 5 t) (iblk12 V c 6 t) (iblk12 V c 7 t) := by
  dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d
theorem before12_6 (c : Dev nD) (t : Fin cfg12.N) (d) : (dat12 V c).before 6 t d = iblk12 V c 6 t :=
  before12_6_of V (dat12 V c) (A_eq12 V c 6) (after12_6 V c) t d
theorem before12_7 (c : Dev nD) (t : Fin cfg12.N) (d) : (dat12 V c).before 7 t d = iblk12 V c 7 t :=
  before12_7_of V (dat12 V c) (A_eq12 V c 7) (after12_7 V c) t d

/-- A live input window's buffer is left at its block. -/
theorem leaves12_0 (c : Dev nD) (t : Fin cfg12.N) :
    (dat12 V c).leavesExact 0 t = owns (c : Thread nD τ) (st12_0 t) fullShare (iblk12 V c 0 t) := by
  unfold Dat.leavesExact; rw [liveAt12_0 t, after12_0]
theorem leaves12_1 (c : Dev nD) (t : Fin cfg12.N) :
    (dat12 V c).leavesExact 1 t = owns (c : Thread nD τ) (st12_1 t) fullShare (iblk12 V c 1 t) := by
  unfold Dat.leavesExact; rw [liveAt12_1 t, after12_1]
theorem leaves12_2 (c : Dev nD) (t : Fin cfg12.N) :
    (dat12 V c).leavesExact 2 t = owns (c : Thread nD τ) (st12_2 t) fullShare (iblk12 V c 2 t) := by
  unfold Dat.leavesExact; rw [liveAt12_2 t, after12_2]
theorem leaves12_3 (c : Dev nD) (t : Fin cfg12.N) :
    (dat12 V c).leavesExact 3 t = owns (c : Thread nD τ) (st12_3 t) fullShare (iblk12 V c 3 t) := by
  unfold Dat.leavesExact; rw [liveAt12_3 t, after12_3]
theorem leaves12_4 (c : Dev nD) (t : Fin cfg12.N) :
    (dat12 V c).leavesExact 4 t = owns (c : Thread nD τ) (st12_4 t) fullShare (iblk12 V c 4 t) := by
  unfold Dat.leavesExact; rw [liveAt12_4 t, after12_4]
theorem leaves12_5 (c : Dev nD) (t : Fin cfg12.N) :
    (dat12 V c).leavesExact 5 t = owns (c : Thread nD τ) (st12_5 t) fullShare (iblk12 V c 5 t) := by
  unfold Dat.leavesExact; rw [liveAt12_5 t, after12_5]
theorem leaves12_6 (c : Dev nD) (t : Fin cfg12.N) :
    (dat12 V c).leavesExact 6 t = owns (c : Thread nD τ) (st12_6 t) fullShare (iblk12 V c 6 t) := by
  unfold Dat.leavesExact; rw [liveAt12_6 t, after12_6]
theorem leaves12_7 (c : Dev nD) (t : Fin cfg12.N) :
    (dat12 V c).leavesExact 7 t = owns (c : Thread nD τ) (st12_7 t) fullShare (iblk12 V c 7 t) := by
  unfold Dat.leavesExact; rw [liveAt12_7 t, after12_7]

/-! ## The body obligation, at a generic point -/

def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d))
    ∗ (∃ d, owns (c : Thread nD τ) (st12_8 t) fullShare ((dat12 V c).before 8 t d)))

def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t
    ∗ (dat12 V c).leavesExact 3 t
    ∗ (dat12 V c).leavesExact 4 t
    ∗ (dat12 V c).leavesExact 5 t
    ∗ (dat12 V c).leavesExact 6 t
    ∗ (dat12 V c).leavesExact 7 t
    ∗ (dat12 V c).leavesExact 8 t)

set_option maxHeartbeats 4000000 in
/-- The body at any point, by the point's case: the inputs' memrefs hold their blocks; the invariant hands the body the
    scratch at the value accumulated so far (at anything before the first point) and takes it back one step on; window 8
    is handed back as found where the head does not run, and left at the head's value where it does. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6, before12_7]
  rw [show (dat12 V c).owesAt () t.succ = (dat12 V c).owesAt () t.castSucc from rfl]
  rw [leaves12_0, leaves12_1, leaves12_2, leaves12_3, leaves12_4, leaves12_5, leaves12_6, leaves12_7]
  rw [show (dat12 V c).Φ t.castSucc = Φ12 V c t.val from rfl, show (dat12 V c).Φ t.succ = Φ12 V c (t.val + 1) from rfl]
  unfold Φ12
  rw [scr12_pos V c (t.val + 1) (Nat.succ_ne_zero _), accAt12_succ V c t]
  have hN : t.val < 10 := lt_of_lt_of_eq t.isLt (show cfg12.N = 10 from N_12)
  by_cases h0 : t.val = 0
  · have hc0 : cond12_0 (grid12.coords t) := (hcond12_0 t).mpr h0
    have hc1 : ¬k12_cond2 (grid12.coords t) = 1#1 := fun h => by have := (hcond12_1 t).mp h; omega
    rw [Dat.leavesExact_idle (dat12 V c) 8 t (idleAt12_8 t hc1) (noFlush12_8 t hc1)]
    rw [scr12_zero V c t.val h0, accAt12_zero V c t.val h0]
    iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run12_first c Set.univ (grid12.coords t) _ _ _ _ _ _ _ _ _ _ _ _ _ _ _ _ _ _ _ _ hc0 hc1 (iblk12 V c 0 t) (iblk12 V c 1 t) _)
    isplitl [H0]; · iexact H0
    isplitl [H1]; · iexact H1
    isplitl [HS]; · iexact HS
    iintro ⟨H0, H1, HS⟩
    isplitl [HR Hg HS]
    · isplitl [HR]; · iexact HR
      isplitl [Hg]; · iexact Hg
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists d8; iexact H8
  by_cases h9 : t.val = 9
  · have hc0 : ¬cond12_0 (grid12.coords t) := fun h => h0 ((hcond12_0 t).mp h)
    have hc1 : k12_cond2 (grid12.coords t) = 1#1 := (hcond12_1 t).mpr h9
    rw [show (dat12 V c).leavesExact 8 t = owns (c : Thread nD τ) (st12_8 t) fullShare ((dat12 V c).after 8 t) from by
      unfold Dat.leavesExact; rw [liveAt12_8 t hc1], after12_8, accAt12_succ V c t]
    rw [scr12_pos V c t.val h0]
    iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run12_last c Set.univ (grid12.coords t) _ _ _ _ _ _ _ _ _ _ _ _ _ _ _ _ _ _ _ _ hc0 hc1 (iblk12 V c 0 t) (iblk12 V c 1 t) (iblk12 V c 2 t) (iblk12 V c 3 t) (iblk12 V c 4 t) (iblk12 V c 5 t) (iblk12 V c 6 t) (iblk12 V c 7 t) (accAt12 V c t.val) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [HR Hg HS]
    · isplitl [HR]; · iexact HR
      isplitl [Hg]; · iexact Hg
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc0 : ¬cond12_0 (grid12.coords t) := fun h => h0 ((hcond12_0 t).mp h)
    have hc1 : ¬k12_cond2 (grid12.coords t) = 1#1 := fun h => h9 ((hcond12_1 t).mp h)
    rw [Dat.leavesExact_idle (dat12 V c) 8 t (idleAt12_8 t hc1) (noFlush12_8 t hc1)]
    rw [scr12_pos V c t.val h0]
    iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run12_mid c Set.univ (grid12.coords t) _ _ _ _ _ _ _ _ _ _ _ _ _ _ _ _ _ _ _ _ hc0 hc1 (iblk12 V c 0 t) (iblk12 V c 1 t) (accAt12 V c t.val) _)
    isplitl [H0]; · iexact H0
    isplitl [H1]; · iexact H1
    isplitl [HS]; · iexact HS
    iintro ⟨H0, H1, HS⟩
    isplitl [HR Hg HS]
    · isplitl [HR]; · iexact HR
      isplitl [Hg]; · iexact Hg
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists d8; iexact H8

/-- The library's body obligation, at every point. -/
theorem body_obligation12 (c : Dev nD) : BodyObligation (dat12 (F := F) V c) (defs₀ (F := F)) Variants.none () Set.univ := fun t => by
  rw [bigSep_W12, bigSep_W12]
  exact sound_body12 V c t

/-! ## Into the invariant and out of it -/

/-- The generator register and the scoped buffers no window stages make the invariant before the first point: the
    scratch is one of those buffers, at some contents. -/
theorem hin12 (c : Dev nD) : (iprop((∃ r, prngReg c r) ∗ Pipeline.scopedRest spec12 c) : sProp 𝕄) ⊢ (dat12 V c).Φ 0 := by
  rw [show (dat12 V c).Φ 0 = Φ12 V c 0 from rfl]; unfold Φ12
  rw [scopedRest12_split c, scr12_zero V c 0 rfl]; simp only [owns_whole]
  iintro ⟨Hg, Hs, HR⟩
  isplitl [HR]; · iexact HR
  isplitl [Hg]; · iexact Hg
  iexact Hs

/-- After the last point the invariant gives them back: the scratch's named contents are forgotten. -/
theorem hout12 (c : Dev nD) : (dat12 V c).Φ (Fin.last cfg12.N) ⊢ (iprop((∃ r, prngReg c r) ∗ Pipeline.scopedRest spec12 c) : sProp 𝕄) := by
  rw [show (dat12 V c).Φ (Fin.last cfg12.N) = Φ12 V c cfg12.N from rfl]; unfold Φ12
  rw [scopedRest12_split c, scr12_pos V c cfg12.N (by rw [show cfg12.N = 10 from N_12]; decide)]; simp only [owns_whole]
  iintro ⟨HR, Hg, Hs⟩
  isplitl [Hg]; · iexact Hg
  isplitl [Hs]; · iexists _; iexact Hs
  iexact HR

end Region12

end Cert.KernelIdeal.Hand

end
-- ==== Proof.KI.Run.lean ====
import proofs.«408428_j10917806867267_1_alg».proof.Proof.Gen.KernelIdeal.Launch
import proofs.«408428_j10917806867267_1_alg».proof.Proof.Gen.KernelIdeal.Regions
import proofs.«408428_j10917806867267_1_alg».proof.Proof.KI.Reg0
import proofs.«408428_j10917806867267_1_alg».proof.Proof.KI.Reg1
import proofs.«408428_j10917806867267_1_alg».proof.Proof.KI.Reg2
import proofs.«408428_j10917806867267_1_alg».proof.Proof.KI.Reg3
import proofs.«408428_j10917806867267_1_alg».proof.Proof.KI.Reg4
import proofs.«408428_j10917806867267_1_alg».proof.Proof.KI.Reg5
import proofs.«408428_j10917806867267_1_alg».proof.Proof.KI.Reg6
import proofs.«408428_j10917806867267_1_alg».proof.Proof.KI.Reg7
import proofs.«408428_j10917806867267_1_alg».proof.Proof.KI.Reg8
import proofs.«408428_j10917806867267_1_alg».proof.Proof.KI.Reg9
import proofs.«408428_j10917806867267_1_alg».proof.Proof.KI.Reg10
import proofs.«408428_j10917806867267_1_alg».proof.Proof.KI.Reg11
import proofs.«408428_j10917806867267_1_alg».proof.Proof.KI.Reg12
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The program as thirteen host stretches and thirteen pipeline regions

The buffers of a core are followed from the launch memory through the program: a host stretch replaces them by the
stretch's operations applied to them; a region leaves its windows' arrays at what its write-backs fold to and every other
buffer as it was. Each region is entered from the buffers the stretch before it leaves and is certified by its own
module (its proof data at those entry contents, its body obligation, and the two entailments that hand the invariant
the scoped buffers and take them back). The run theorem says: every weakly fair execution ends, nothing faults, and
every unscoped buffer ends at the last of these valuations. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers at every boundary -/

/-- Core c's unscoped buffers at launch. -/
abbrev Wl : Dev nD → Valuation τ sig (Elt F) := fun c b => m ((c : Dev nD), b)

/-- After host stretch 0: its operations applied to what came before. -/
def Wh0 (c : Dev nD) : Valuation τ sig (Elt F) := StableHlo.after hostOps0 (Wl m c)
/-- The same, read at the TensorCore's references: the entry contents of region 0. -/
abbrev Vh0 : (c : Dev nD) → (b : Ref sig .tc) → Buf (Elt F) ((c : Thread nD τ).loc b) := fun c b => Wh0 m c b
/-- After region 0: its windows' arrays at what the write-backs fold to, every other buffer as entered. -/
def Wr0 (c : Dev nD) : Valuation τ sig (Elt F) :=
  Pipeline.withArrays spec0 c (Wh0 m c) fun w => (dat0 (Vh0 m) c).arrAt w cfg0.N
theorem Wr0_arr (c : Dev nD) (w : Fin cfg0.W) :
    Wr0 m c (Proc.devRef .tc (Pipeline.arrRef spec0 w)) = (dat0 (Vh0 m) c).arrAt w cfg0.N := by
  unfold Wr0; exact Pipeline.withArrays_arr spec0 launch0.win.arr_inj c _ _ w
theorem Wr0_of_ne (c : Dev nD) (b : Ref sig .tc) (hb : ∀ w, Pipeline.arrRef spec0 w ≠ b) :
    Wr0 m c (Proc.devRef .tc b) = Wh0 m c (Proc.devRef .tc b) := by
  unfold Wr0; exact Pipeline.withArrays_of_ne spec0 c _ _ b hb
abbrev Vr0 : (c : Dev nD) → (b : Ref sig .tc) → Buf (Elt F) ((c : Thread nD τ).loc b) := fun c b => Wr0 m c b
theorem arrays_left0 (c : Dev nD) (w : Fin cfg0.W) :
    (dat0 (Vh0 m) c).arrAt w cfg0.N = Vr0 m c (Pipeline.arrRef spec0 w) := (Wr0_arr m c w).symm
theorem others_kept0 (c : Dev nD) : ∀ b, b ∉ Finset.univ.image (Pipeline.arrRef spec0) → Vr0 m c b = Vh0 m c b :=
  fun b hb => Wr0_of_ne m c b fun w e => hb (Finset.mem_image.mpr ⟨w, Finset.mem_univ _, e⟩)
theorem Wh0_of (c : Dev nD) (r : Ref sig .tc) (h : r ∉ hostOps0_W) : Wh0 m c r = Wl m c r :=
  StableHlo.after_of_writes_sub hostOps0 _ hostOps0_writes h

/-- After host stretch 1: its operations applied to what came before. -/
def Wh1 (c : Dev nD) : Valuation τ sig (Elt F) := StableHlo.after hostOps1 (Wr0 m c)
/-- The same, read at the TensorCore's references: the entry contents of region 1. -/
abbrev Vh1 : (c : Dev nD) → (b : Ref sig .tc) → Buf (Elt F) ((c : Thread nD τ).loc b) := fun c b => Wh1 m c b
/-- After region 1: its windows' arrays at what the write-backs fold to, every other buffer as entered. -/
def Wr1 (c : Dev nD) : Valuation τ sig (Elt F) :=
  Pipeline.withArrays spec1 c (Wh1 m c) fun w => (dat1 (Vh1 m) c).arrAt w cfg1.N
theorem Wr1_arr (c : Dev nD) (w : Fin cfg1.W) :
    Wr1 m c (Proc.devRef .tc (Pipeline.arrRef spec1 w)) = (dat1 (Vh1 m) c).arrAt w cfg1.N := by
  unfold Wr1; exact Pipeline.withArrays_arr spec1 launch1.win.arr_inj c _ _ w
theorem Wr1_of_ne (c : Dev nD) (b : Ref sig .tc) (hb : ∀ w, Pipeline.arrRef spec1 w ≠ b) :
    Wr1 m c (Proc.devRef .tc b) = Wh1 m c (Proc.devRef .tc b) := by
  unfold Wr1; exact Pipeline.withArrays_of_ne spec1 c _ _ b hb
abbrev Vr1 : (c : Dev nD) → (b : Ref sig .tc) → Buf (Elt F) ((c : Thread nD τ).loc b) := fun c b => Wr1 m c b
theorem arrays_left1 (c : Dev nD) (w : Fin cfg1.W) :
    (dat1 (Vh1 m) c).arrAt w cfg1.N = Vr1 m c (Pipeline.arrRef spec1 w) := (Wr1_arr m c w).symm
theorem others_kept1 (c : Dev nD) : ∀ b, b ∉ Finset.univ.image (Pipeline.arrRef spec1) → Vr1 m c b = Vh1 m c b :=
  fun b hb => Wr1_of_ne m c b fun w e => hb (Finset.mem_image.mpr ⟨w, Finset.mem_univ _, e⟩)
theorem Wh1_of (c : Dev nD) (r : Ref sig .tc) (h : r ∉ hostOps1_W) : Wh1 m c r = Wr0 m c r :=
  StableHlo.after_of_writes_sub hostOps1 _ hostOps1_writes h

/-- After host stretch 2: its operations applied to what came before. -/
def Wh2 (c : Dev nD) : Valuation τ sig (Elt F) := StableHlo.after hostOps2 (Wr1 m c)
/-- The same, read at the TensorCore's references: the entry contents of region 2. -/
abbrev Vh2 : (c : Dev nD) → (b : Ref sig .tc) → Buf (Elt F) ((c : Thread nD τ).loc b) := fun c b => Wh2 m c b
/-- After region 2: its windows' arrays at what the write-backs fold to, every other buffer as entered. -/
def Wr2 (c : Dev nD) : Valuation τ sig (Elt F) :=
  Pipeline.withArrays spec2 c (Wh2 m c) fun w => (dat2 (Vh2 m) c).arrAt w cfg2.N
theorem Wr2_arr (c : Dev nD) (w : Fin cfg2.W) :
    Wr2 m c (Proc.devRef .tc (Pipeline.arrRef spec2 w)) = (dat2 (Vh2 m) c).arrAt w cfg2.N := by
  unfold Wr2; exact Pipeline.withArrays_arr spec2 launch2.win.arr_inj c _ _ w
theorem Wr2_of_ne (c : Dev nD) (b : Ref sig .tc) (hb : ∀ w, Pipeline.arrRef spec2 w ≠ b) :
    Wr2 m c (Proc.devRef .tc b) = Wh2 m c (Proc.devRef .tc b) := by
  unfold Wr2; exact Pipeline.withArrays_of_ne spec2 c _ _ b hb
abbrev Vr2 : (c : Dev nD) → (b : Ref sig .tc) → Buf (Elt F) ((c : Thread nD τ).loc b) := fun c b => Wr2 m c b
theorem arrays_left2 (c : Dev nD) (w : Fin cfg2.W) :
    (dat2 (Vh2 m) c).arrAt w cfg2.N = Vr2 m c (Pipeline.arrRef spec2 w) := (Wr2_arr m c w).symm
theorem others_kept2 (c : Dev nD) : ∀ b, b ∉ Finset.univ.image (Pipeline.arrRef spec2) → Vr2 m c b = Vh2 m c b :=
  fun b hb => Wr2_of_ne m c b fun w e => hb (Finset.mem_image.mpr ⟨w, Finset.mem_univ _, e⟩)
theorem Wh2_of (c : Dev nD) (r : Ref sig .tc) (h : r ∉ hostOps2_W) : Wh2 m c r = Wr1 m c r :=
  StableHlo.after_of_writes_sub hostOps2 _ hostOps2_writes h

/-- After host stretch 3: its operations applied to what came before. -/
def Wh3 (c : Dev nD) : Valuation τ sig (Elt F) := StableHlo.after hostOps3 (Wr2 m c)
/-- The same, read at the TensorCore's references: the entry contents of region 3. -/
abbrev Vh3 : (c : Dev nD) → (b : Ref sig .tc) → Buf (Elt F) ((c : Thread nD τ).loc b) := fun c b => Wh3 m c b
/-- After region 3: its windows' arrays at what the write-backs fold to, every other buffer as entered. -/
def Wr3 (c : Dev nD) : Valuation τ sig (Elt F) :=
  Pipeline.withArrays spec3 c (Wh3 m c) fun w => (dat3 (Vh3 m) c).arrAt w cfg3.N
theorem Wr3_arr (c : Dev nD) (w : Fin cfg3.W) :
    Wr3 m c (Proc.devRef .tc (Pipeline.arrRef spec3 w)) = (dat3 (Vh3 m) c).arrAt w cfg3.N := by
  unfold Wr3; exact Pipeline.withArrays_arr spec3 launch3.win.arr_inj c _ _ w
theorem Wr3_of_ne (c : Dev nD) (b : Ref sig .tc) (hb : ∀ w, Pipeline.arrRef spec3 w ≠ b) :
    Wr3 m c (Proc.devRef .tc b) = Wh3 m c (Proc.devRef .tc b) := by
  unfold Wr3; exact Pipeline.withArrays_of_ne spec3 c _ _ b hb
abbrev Vr3 : (c : Dev nD) → (b : Ref sig .tc) → Buf (Elt F) ((c : Thread nD τ).loc b) := fun c b => Wr3 m c b
theorem arrays_left3 (c : Dev nD) (w : Fin cfg3.W) :
    (dat3 (Vh3 m) c).arrAt w cfg3.N = Vr3 m c (Pipeline.arrRef spec3 w) := (Wr3_arr m c w).symm
theorem others_kept3 (c : Dev nD) : ∀ b, b ∉ Finset.univ.image (Pipeline.arrRef spec3) → Vr3 m c b = Vh3 m c b :=
  fun b hb => Wr3_of_ne m c b fun w e => hb (Finset.mem_image.mpr ⟨w, Finset.mem_univ _, e⟩)
theorem Wh3_of (c : Dev nD) (r : Ref sig .tc) (h : r ∉ hostOps3_W) : Wh3 m c r = Wr2 m c r :=
  StableHlo.after_of_writes_sub hostOps3 _ hostOps3_writes h

/-- After host stretch 4: its operations applied to what came before. -/
def Wh4 (c : Dev nD) : Valuation τ sig (Elt F) := StableHlo.after hostOps4 (Wr3 m c)
/-- The same, read at the TensorCore's references: the entry contents of region 4. -/
abbrev Vh4 : (c : Dev nD) → (b : Ref sig .tc) → Buf (Elt F) ((c : Thread nD τ).loc b) := fun c b => Wh4 m c b
/-- After region 4: its windows' arrays at what the write-backs fold to, every other buffer as entered. -/
def Wr4 (c : Dev nD) : Valuation τ sig (Elt F) :=
  Pipeline.withArrays spec4 c (Wh4 m c) fun w => (dat4 (Vh4 m) c).arrAt w cfg4.N
theorem Wr4_arr (c : Dev nD) (w : Fin cfg4.W) :
    Wr4 m c (Proc.devRef .tc (Pipeline.arrRef spec4 w)) = (dat4 (Vh4 m) c).arrAt w cfg4.N := by
  unfold Wr4; exact Pipeline.withArrays_arr spec4 launch4.win.arr_inj c _ _ w
theorem Wr4_of_ne (c : Dev nD) (b : Ref sig .tc) (hb : ∀ w, Pipeline.arrRef spec4 w ≠ b) :
    Wr4 m c (Proc.devRef .tc b) = Wh4 m c (Proc.devRef .tc b) := by
  unfold Wr4; exact Pipeline.withArrays_of_ne spec4 c _ _ b hb
abbrev Vr4 : (c : Dev nD) → (b : Ref sig .tc) → Buf (Elt F) ((c : Thread nD τ).loc b) := fun c b => Wr4 m c b
theorem arrays_left4 (c : Dev nD) (w : Fin cfg4.W) :
    (dat4 (Vh4 m) c).arrAt w cfg4.N = Vr4 m c (Pipeline.arrRef spec4 w) := (Wr4_arr m c w).symm
theorem others_kept4 (c : Dev nD) : ∀ b, b ∉ Finset.univ.image (Pipeline.arrRef spec4) → Vr4 m c b = Vh4 m c b :=
  fun b hb => Wr4_of_ne m c b fun w e => hb (Finset.mem_image.mpr ⟨w, Finset.mem_univ _, e⟩)
theorem Wh4_of (c : Dev nD) (r : Ref sig .tc) (h : r ∉ hostOps4_W) : Wh4 m c r = Wr3 m c r :=
  StableHlo.after_of_writes_sub hostOps4 _ hostOps4_writes h

/-- After host stretch 5: its operations applied to what came before. -/
def Wh5 (c : Dev nD) : Valuation τ sig (Elt F) := StableHlo.after hostOps5 (Wr4 m c)
/-- The same, read at the TensorCore's references: the entry contents of region 5. -/
abbrev Vh5 : (c : Dev nD) → (b : Ref sig .tc) → Buf (Elt F) ((c : Thread nD τ).loc b) := fun c b => Wh5 m c b
/-- After region 5: its windows' arrays at what the write-backs fold to, every other buffer as entered. -/
def Wr5 (c : Dev nD) : Valuation τ sig (Elt F) :=
  Pipeline.withArrays spec5 c (Wh5 m c) fun w => (dat5 (Vh5 m) c).arrAt w cfg5.N
theorem Wr5_arr (c : Dev nD) (w : Fin cfg5.W) :
    Wr5 m c (Proc.devRef .tc (Pipeline.arrRef spec5 w)) = (dat5 (Vh5 m) c).arrAt w cfg5.N := by
  unfold Wr5; exact Pipeline.withArrays_arr spec5 launch5.win.arr_inj c _ _ w
theorem Wr5_of_ne (c : Dev nD) (b : Ref sig .tc) (hb : ∀ w, Pipeline.arrRef spec5 w ≠ b) :
    Wr5 m c (Proc.devRef .tc b) = Wh5 m c (Proc.devRef .tc b) := by
  unfold Wr5; exact Pipeline.withArrays_of_ne spec5 c _ _ b hb
abbrev Vr5 : (c : Dev nD) → (b : Ref sig .tc) → Buf (Elt F) ((c : Thread nD τ).loc b) := fun c b => Wr5 m c b
theorem arrays_left5 (c : Dev nD) (w : Fin cfg5.W) :
    (dat5 (Vh5 m) c).arrAt w cfg5.N = Vr5 m c (Pipeline.arrRef spec5 w) := (Wr5_arr m c w).symm
theorem others_kept5 (c : Dev nD) : ∀ b, b ∉ Finset.univ.image (Pipeline.arrRef spec5) → Vr5 m c b = Vh5 m c b :=
  fun b hb => Wr5_of_ne m c b fun w e => hb (Finset.mem_image.mpr ⟨w, Finset.mem_univ _, e⟩)
theorem Wh5_of (c : Dev nD) (r : Ref sig .tc) (h : r ∉ hostOps5_W) : Wh5 m c r = Wr4 m c r :=
  StableHlo.after_of_writes_sub hostOps5 _ hostOps5_writes h

/-- After host stretch 6: its operations applied to what came before. -/
def Wh6 (c : Dev nD) : Valuation τ sig (Elt F) := StableHlo.after hostOps6 (Wr5 m c)
/-- The same, read at the TensorCore's references: the entry contents of region 6. -/
abbrev Vh6 : (c : Dev nD) → (b : Ref sig .tc) → Buf (Elt F) ((c : Thread nD τ).loc b) := fun c b => Wh6 m c b
/-- After region 6: its windows' arrays at what the write-backs fold to, every other buffer as entered. -/
def Wr6 (c : Dev nD) : Valuation τ sig (Elt F) :=
  Pipeline.withArrays spec6 c (Wh6 m c) fun w => (dat6 (Vh6 m) c).arrAt w cfg6.N
theorem Wr6_arr (c : Dev nD) (w : Fin cfg6.W) :
    Wr6 m c (Proc.devRef .tc (Pipeline.arrRef spec6 w)) = (dat6 (Vh6 m) c).arrAt w cfg6.N := by
  unfold Wr6; exact Pipeline.withArrays_arr spec6 launch6.win.arr_inj c _ _ w
theorem Wr6_of_ne (c : Dev nD) (b : Ref sig .tc) (hb : ∀ w, Pipeline.arrRef spec6 w ≠ b) :
    Wr6 m c (Proc.devRef .tc b) = Wh6 m c (Proc.devRef .tc b) := by
  unfold Wr6; exact Pipeline.withArrays_of_ne spec6 c _ _ b hb
abbrev Vr6 : (c : Dev nD) → (b : Ref sig .tc) → Buf (Elt F) ((c : Thread nD τ).loc b) := fun c b => Wr6 m c b
theorem arrays_left6 (c : Dev nD) (w : Fin cfg6.W) :
    (dat6 (Vh6 m) c).arrAt w cfg6.N = Vr6 m c (Pipeline.arrRef spec6 w) := (Wr6_arr m c w).symm
theorem others_kept6 (c : Dev nD) : ∀ b, b ∉ Finset.univ.image (Pipeline.arrRef spec6) → Vr6 m c b = Vh6 m c b :=
  fun b hb => Wr6_of_ne m c b fun w e => hb (Finset.mem_image.mpr ⟨w, Finset.mem_univ _, e⟩)
theorem Wh6_of (c : Dev nD) (r : Ref sig .tc) (h : r ∉ hostOps6_W) : Wh6 m c r = Wr5 m c r :=
  StableHlo.after_of_writes_sub hostOps6 _ hostOps6_writes h

/-- After host stretch 7: its operations applied to what came before. -/
def Wh7 (c : Dev nD) : Valuation τ sig (Elt F) := StableHlo.after hostOps7 (Wr6 m c)
/-- The same, read at the TensorCore's references: the entry contents of region 7. -/
abbrev Vh7 : (c : Dev nD) → (b : Ref sig .tc) → Buf (Elt F) ((c : Thread nD τ).loc b) := fun c b => Wh7 m c b
/-- After region 7: its windows' arrays at what the write-backs fold to, every other buffer as entered. -/
def Wr7 (c : Dev nD) : Valuation τ sig (Elt F) :=
  Pipeline.withArrays spec7 c (Wh7 m c) fun w => (dat7 (Vh7 m) c).arrAt w cfg7.N
theorem Wr7_arr (c : Dev nD) (w : Fin cfg7.W) :
    Wr7 m c (Proc.devRef .tc (Pipeline.arrRef spec7 w)) = (dat7 (Vh7 m) c).arrAt w cfg7.N := by
  unfold Wr7; exact Pipeline.withArrays_arr spec7 launch7.win.arr_inj c _ _ w
theorem Wr7_of_ne (c : Dev nD) (b : Ref sig .tc) (hb : ∀ w, Pipeline.arrRef spec7 w ≠ b) :
    Wr7 m c (Proc.devRef .tc b) = Wh7 m c (Proc.devRef .tc b) := by
  unfold Wr7; exact Pipeline.withArrays_of_ne spec7 c _ _ b hb
abbrev Vr7 : (c : Dev nD) → (b : Ref sig .tc) → Buf (Elt F) ((c : Thread nD τ).loc b) := fun c b => Wr7 m c b
theorem arrays_left7 (c : Dev nD) (w : Fin cfg7.W) :
    (dat7 (Vh7 m) c).arrAt w cfg7.N = Vr7 m c (Pipeline.arrRef spec7 w) := (Wr7_arr m c w).symm
theorem others_kept7 (c : Dev nD) : ∀ b, b ∉ Finset.univ.image (Pipeline.arrRef spec7) → Vr7 m c b = Vh7 m c b :=
  fun b hb => Wr7_of_ne m c b fun w e => hb (Finset.mem_image.mpr ⟨w, Finset.mem_univ _, e⟩)
theorem Wh7_of (c : Dev nD) (r : Ref sig .tc) (h : r ∉ hostOps7_W) : Wh7 m c r = Wr6 m c r :=
  StableHlo.after_of_writes_sub hostOps7 _ hostOps7_writes h

/-- After host stretch 8: its operations applied to what came before. -/
def Wh8 (c : Dev nD) : Valuation τ sig (Elt F) := StableHlo.after hostOps8 (Wr7 m c)
/-- The same, read at the TensorCore's references: the entry contents of region 8. -/
abbrev Vh8 : (c : Dev nD) → (b : Ref sig .tc) → Buf (Elt F) ((c : Thread nD τ).loc b) := fun c b => Wh8 m c b
/-- After region 8: its windows' arrays at what the write-backs fold to, every other buffer as entered. -/
def Wr8 (c : Dev nD) : Valuation τ sig (Elt F) :=
  Pipeline.withArrays spec8 c (Wh8 m c) fun w => (dat8 (Vh8 m) c).arrAt w cfg8.N
theorem Wr8_arr (c : Dev nD) (w : Fin cfg8.W) :
    Wr8 m c (Proc.devRef .tc (Pipeline.arrRef spec8 w)) = (dat8 (Vh8 m) c).arrAt w cfg8.N := by
  unfold Wr8; exact Pipeline.withArrays_arr spec8 launch8.win.arr_inj c _ _ w
theorem Wr8_of_ne (c : Dev nD) (b : Ref sig .tc) (hb : ∀ w, Pipeline.arrRef spec8 w ≠ b) :
    Wr8 m c (Proc.devRef .tc b) = Wh8 m c (Proc.devRef .tc b) := by
  unfold Wr8; exact Pipeline.withArrays_of_ne spec8 c _ _ b hb
abbrev Vr8 : (c : Dev nD) → (b : Ref sig .tc) → Buf (Elt F) ((c : Thread nD τ).loc b) := fun c b => Wr8 m c b
theorem arrays_left8 (c : Dev nD) (w : Fin cfg8.W) :
    (dat8 (Vh8 m) c).arrAt w cfg8.N = Vr8 m c (Pipeline.arrRef spec8 w) := (Wr8_arr m c w).symm
theorem others_kept8 (c : Dev nD) : ∀ b, b ∉ Finset.univ.image (Pipeline.arrRef spec8) → Vr8 m c b = Vh8 m c b :=
  fun b hb => Wr8_of_ne m c b fun w e => hb (Finset.mem_image.mpr ⟨w, Finset.mem_univ _, e⟩)
theorem Wh8_of (c : Dev nD) (r : Ref sig .tc) (h : r ∉ hostOps8_W) : Wh8 m c r = Wr7 m c r :=
  StableHlo.after_of_writes_sub hostOps8 _ hostOps8_writes h

/-- After host stretch 9: its operations applied to what came before. -/
def Wh9 (c : Dev nD) : Valuation τ sig (Elt F) := StableHlo.after hostOps9 (Wr8 m c)
/-- The same, read at the TensorCore's references: the entry contents of region 9. -/
abbrev Vh9 : (c : Dev nD) → (b : Ref sig .tc) → Buf (Elt F) ((c : Thread nD τ).loc b) := fun c b => Wh9 m c b
/-- After region 9: its windows' arrays at what the write-backs fold to, every other buffer as entered. -/
def Wr9 (c : Dev nD) : Valuation τ sig (Elt F) :=
  Pipeline.withArrays spec9 c (Wh9 m c) fun w => (dat9 (Vh9 m) c).arrAt w cfg9.N
theorem Wr9_arr (c : Dev nD) (w : Fin cfg9.W) :
    Wr9 m c (Proc.devRef .tc (Pipeline.arrRef spec9 w)) = (dat9 (Vh9 m) c).arrAt w cfg9.N := by
  unfold Wr9; exact Pipeline.withArrays_arr spec9 launch9.win.arr_inj c _ _ w
theorem Wr9_of_ne (c : Dev nD) (b : Ref sig .tc) (hb : ∀ w, Pipeline.arrRef spec9 w ≠ b) :
    Wr9 m c (Proc.devRef .tc b) = Wh9 m c (Proc.devRef .tc b) := by
  unfold Wr9; exact Pipeline.withArrays_of_ne spec9 c _ _ b hb
abbrev Vr9 : (c : Dev nD) → (b : Ref sig .tc) → Buf (Elt F) ((c : Thread nD τ).loc b) := fun c b => Wr9 m c b
theorem arrays_left9 (c : Dev nD) (w : Fin cfg9.W) :
    (dat9 (Vh9 m) c).arrAt w cfg9.N = Vr9 m c (Pipeline.arrRef spec9 w) := (Wr9_arr m c w).symm
theorem others_kept9 (c : Dev nD) : ∀ b, b ∉ Finset.univ.image (Pipeline.arrRef spec9) → Vr9 m c b = Vh9 m c b :=
  fun b hb => Wr9_of_ne m c b fun w e => hb (Finset.mem_image.mpr ⟨w, Finset.mem_univ _, e⟩)
theorem Wh9_of (c : Dev nD) (r : Ref sig .tc) (h : r ∉ hostOps9_W) : Wh9 m c r = Wr8 m c r :=
  StableHlo.after_of_writes_sub hostOps9 _ hostOps9_writes h

/-- After host stretch 10: its operations applied to what came before. -/
def Wh10 (c : Dev nD) : Valuation τ sig (Elt F) := StableHlo.after hostOps10 (Wr9 m c)
/-- The same, read at the TensorCore's references: the entry contents of region 10. -/
abbrev Vh10 : (c : Dev nD) → (b : Ref sig .tc) → Buf (Elt F) ((c : Thread nD τ).loc b) := fun c b => Wh10 m c b
/-- After region 10: its windows' arrays at what the write-backs fold to, every other buffer as entered. -/
def Wr10 (c : Dev nD) : Valuation τ sig (Elt F) :=
  Pipeline.withArrays spec10 c (Wh10 m c) fun w => (dat10 (Vh10 m) c).arrAt w cfg10.N
theorem Wr10_arr (c : Dev nD) (w : Fin cfg10.W) :
    Wr10 m c (Proc.devRef .tc (Pipeline.arrRef spec10 w)) = (dat10 (Vh10 m) c).arrAt w cfg10.N := by
  unfold Wr10; exact Pipeline.withArrays_arr spec10 launch10.win.arr_inj c _ _ w
theorem Wr10_of_ne (c : Dev nD) (b : Ref sig .tc) (hb : ∀ w, Pipeline.arrRef spec10 w ≠ b) :
    Wr10 m c (Proc.devRef .tc b) = Wh10 m c (Proc.devRef .tc b) := by
  unfold Wr10; exact Pipeline.withArrays_of_ne spec10 c _ _ b hb
abbrev Vr10 : (c : Dev nD) → (b : Ref sig .tc) → Buf (Elt F) ((c : Thread nD τ).loc b) := fun c b => Wr10 m c b
theorem arrays_left10 (c : Dev nD) (w : Fin cfg10.W) :
    (dat10 (Vh10 m) c).arrAt w cfg10.N = Vr10 m c (Pipeline.arrRef spec10 w) := (Wr10_arr m c w).symm
theorem others_kept10 (c : Dev nD) : ∀ b, b ∉ Finset.univ.image (Pipeline.arrRef spec10) → Vr10 m c b = Vh10 m c b :=
  fun b hb => Wr10_of_ne m c b fun w e => hb (Finset.mem_image.mpr ⟨w, Finset.mem_univ _, e⟩)
theorem Wh10_of (c : Dev nD) (r : Ref sig .tc) (h : r ∉ hostOps10_W) : Wh10 m c r = Wr9 m c r :=
  StableHlo.after_of_writes_sub hostOps10 _ hostOps10_writes h

/-- After host stretch 11: its operations applied to what came before. -/
def Wh11 (c : Dev nD) : Valuation τ sig (Elt F) := StableHlo.after hostOps11 (Wr10 m c)
/-- The same, read at the TensorCore's references: the entry contents of region 11. -/
abbrev Vh11 : (c : Dev nD) → (b : Ref sig .tc) → Buf (Elt F) ((c : Thread nD τ).loc b) := fun c b => Wh11 m c b
/-- After region 11: its windows' arrays at what the write-backs fold to, every other buffer as entered. -/
def Wr11 (c : Dev nD) : Valuation τ sig (Elt F) :=
  Pipeline.withArrays spec11 c (Wh11 m c) fun w => (dat11 (Vh11 m) c).arrAt w cfg11.N
theorem Wr11_arr (c : Dev nD) (w : Fin cfg11.W) :
    Wr11 m c (Proc.devRef .tc (Pipeline.arrRef spec11 w)) = (dat11 (Vh11 m) c).arrAt w cfg11.N := by
  unfold Wr11; exact Pipeline.withArrays_arr spec11 launch11.win.arr_inj c _ _ w
theorem Wr11_of_ne (c : Dev nD) (b : Ref sig .tc) (hb : ∀ w, Pipeline.arrRef spec11 w ≠ b) :
    Wr11 m c (Proc.devRef .tc b) = Wh11 m c (Proc.devRef .tc b) := by
  unfold Wr11; exact Pipeline.withArrays_of_ne spec11 c _ _ b hb
abbrev Vr11 : (c : Dev nD) → (b : Ref sig .tc) → Buf (Elt F) ((c : Thread nD τ).loc b) := fun c b => Wr11 m c b
theorem arrays_left11 (c : Dev nD) (w : Fin cfg11.W) :
    (dat11 (Vh11 m) c).arrAt w cfg11.N = Vr11 m c (Pipeline.arrRef spec11 w) := (Wr11_arr m c w).symm
theorem others_kept11 (c : Dev nD) : ∀ b, b ∉ Finset.univ.image (Pipeline.arrRef spec11) → Vr11 m c b = Vh11 m c b :=
  fun b hb => Wr11_of_ne m c b fun w e => hb (Finset.mem_image.mpr ⟨w, Finset.mem_univ _, e⟩)
theorem Wh11_of (c : Dev nD) (r : Ref sig .tc) (h : r ∉ hostOps11_W) : Wh11 m c r = Wr10 m c r :=
  StableHlo.after_of_writes_sub hostOps11 _ hostOps11_writes h

/-- After host stretch 12: its operations applied to what came before. -/
def Wh12 (c : Dev nD) : Valuation τ sig (Elt F) := StableHlo.after hostOps12 (Wr11 m c)
/-- The same, read at the TensorCore's references: the entry contents of region 12. -/
abbrev Vh12 : (c : Dev nD) → (b : Ref sig .tc) → Buf (Elt F) ((c : Thread nD τ).loc b) := fun c b => Wh12 m c b
/-- After region 12: its windows' arrays at what the write-backs fold to, every other buffer as entered. -/
def Wr12 (c : Dev nD) : Valuation τ sig (Elt F) :=
  Pipeline.withArrays spec12 c (Wh12 m c) fun w => (dat12 (Vh12 m) c).arrAt w cfg12.N
theorem Wr12_arr (c : Dev nD) (w : Fin cfg12.W) :
    Wr12 m c (Proc.devRef .tc (Pipeline.arrRef spec12 w)) = (dat12 (Vh12 m) c).arrAt w cfg12.N := by
  unfold Wr12; exact Pipeline.withArrays_arr spec12 launch12.win.arr_inj c _ _ w
theorem Wr12_of_ne (c : Dev nD) (b : Ref sig .tc) (hb : ∀ w, Pipeline.arrRef spec12 w ≠ b) :
    Wr12 m c (Proc.devRef .tc b) = Wh12 m c (Proc.devRef .tc b) := by
  unfold Wr12; exact Pipeline.withArrays_of_ne spec12 c _ _ b hb
abbrev Vr12 : (c : Dev nD) → (b : Ref sig .tc) → Buf (Elt F) ((c : Thread nD τ).loc b) := fun c b => Wr12 m c b
theorem arrays_left12 (c : Dev nD) (w : Fin cfg12.W) :
    (dat12 (Vh12 m) c).arrAt w cfg12.N = Vr12 m c (Pipeline.arrRef spec12 w) := (Wr12_arr m c w).symm
theorem others_kept12 (c : Dev nD) : ∀ b, b ∉ Finset.univ.image (Pipeline.arrRef spec12) → Vr12 m c b = Vh12 m c b :=
  fun b hb => Wr12_of_ne m c b fun w e => hb (Finset.mem_image.mpr ⟨w, Finset.mem_univ _, e⟩)
theorem Wh12_of (c : Dev nD) (r : Ref sig .tc) (h : r ∉ hostOps12_W) : Wh12 m c r = Wr11 m c r :=
  StableHlo.after_of_writes_sub hostOps12 _ hostOps12_writes h

/-! ## The proof data of every region, and what rides beside the buffers -/

/-- Every pipeline's proof data, each at its region's entry contents: a literal match, so that the pinned configuration
    at a numeral reduces to the printed one. -/
def pdats : (p : Fin 13) → (c : Dev nD) → Dat τ (Elt F) Unit ℕ (Pipeline.UD sig nD τ) ℕ (Pipeline.pin (pcfgs (F := F)) adm p) c
  | ⟨0, _⟩ => fun c => dat0 (Vh0 m) c
  | ⟨1, _⟩ => fun c => dat1 (Vh1 m) c
  | ⟨2, _⟩ => fun c => dat2 (Vh2 m) c
  | ⟨3, _⟩ => fun c => dat3 (Vh3 m) c
  | ⟨4, _⟩ => fun c => dat4 (Vh4 m) c
  | ⟨5, _⟩ => fun c => dat5 (Vh5 m) c
  | ⟨6, _⟩ => fun c => dat6 (Vh6 m) c
  | ⟨7, _⟩ => fun c => dat7 (Vh7 m) c
  | ⟨8, _⟩ => fun c => dat8 (Vh8 m) c
  | ⟨9, _⟩ => fun c => dat9 (Vh9 m) c
  | ⟨10, _⟩ => fun c => dat10 (Vh10 m) c
  | ⟨11, _⟩ => fun c => dat11 (Vh11 m) c
  | ⟨12, _⟩ => fun c => dat12 (Vh12 m) c

/-- No variant, no level, nothing owed. -/
abbrev noVar : Variants := Variants.none
abbrev noLev : GSem nD τ sig → Finset Unit := fun _ => ∅
abbrev lev0 : GSem nD τ sig → Unit → ℕ := fun _ _ => 0
/-- Beside the buffers, through every segment: the generator register at some state, and the core owing nothing. -/
abbrev rest (c : Dev nD) : sProp 𝕄 := iprop((∃ r, prngReg c r) ∗ ∃ W, owes (c : Thread nD τ) (0 : CellTallies nD τ sig Unit) W)
/-- A host stretch as a segment over the unscoped buffers from the contents W. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ noVar noLev lev0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest
/-- The last state without the owes: every unscoped buffer at the last contents, the generator register at some state. -/
abbrev lastState (c : Dev nD) : sProp 𝕄 := iprop(StableHlo.held (c : Thread nD τ) (Pipeline.ucRefs τ sig) (Wr12 m c) ∗ ∃ r, prngReg c r)

/-! ## The regions as segments -/

set_option backward.isDefEq.respectTransparency.types false in
/-- Region 0: entered from the buffers host stretch 0 leaves, left at those with its arrays updated. Its arrays are split
    out of the unscoped buffers at entry and put back at exit; the generator register goes into the invariant and comes
    back; nothing is owed. -/
def reg0 : Pipeline.RegionSeg (pcfgs (F := F)) adm (pdats m) () defs₀ noVar noLev lev0 0 where
  win := launch0.win.to₀
  block_pos := launch0.block_pos
  stage_whole := launch0.stage_whole
  K := PEmpty
  osem k := k.elim
  ho := Pipeline.OwnSemFacts.none _
  hbody c := (body_obligation0 (Vh0 m) c).loose
  hwaits := Pipeline.hwaits_of_owed_zero _ _ _ _ noLev lev0 0 fun _ _ => rfl
  pre c := iprop(StableHlo.held (c : Thread nD τ) (Pipeline.ucRefs τ sig) (Wh0 m c) ∗ rest c)
  post c := iprop(StableHlo.held (c : Thread nD τ) (Pipeline.ucRefs τ sig) (Wr0 m c) ∗ rest c)
  X c := iprop(∃ r, prngReg c r)
  Y c := iprop(∃ r, prngReg c r)
  Z c := Pipeline.unscopedRest (Ix := Unit) (Name := ℕ) (U := Pipeline.UD sig nD τ) (Lvl := ℕ) spec0 c (Vh0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vh0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (Vh0 m) c).Φ 0 from rfl]
    iintro ⟨Hp, -, Hr⟩
    iapply (hin0 (Vh0 m) c)
    isplitl [Hp]; · iexact Hp
    iexact Hr
  hout c := by
    rw [Pipeline.ownSems0_none, show (pdats m 0 c).Φ (Fin.last _) = (dat0 (Vh0 m) c).Φ (Fin.last cfg0.N) from rfl]
    iintro H
    ihave H' := (hout0 (Vh0 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (Vh0 m c) (Vr0 m c) ((pdats m 0 c).arrAt · cfg0.N) (arrays_left0 m c) (others_kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from the buffers host stretch 1 leaves, left at those with its arrays updated. Its arrays are split
    out of the unscoped buffers at entry and put back at exit; the generator register goes into the invariant and comes
    back; nothing is owed. -/
def reg1 : Pipeline.RegionSeg (pcfgs (F := F)) adm (pdats m) () defs₀ noVar noLev lev0 1 where
  win := launch1.win.to₀
  block_pos := launch1.block_pos
  stage_whole := launch1.stage_whole
  K := PEmpty
  osem k := k.elim
  ho := Pipeline.OwnSemFacts.none _
  hbody c := (body_obligation1 (Vh1 m) c).loose
  hwaits := Pipeline.hwaits_of_owed_zero _ _ _ _ noLev lev0 1 fun _ _ => rfl
  pre c := iprop(StableHlo.held (c : Thread nD τ) (Pipeline.ucRefs τ sig) (Wh1 m c) ∗ rest c)
  post c := iprop(StableHlo.held (c : Thread nD τ) (Pipeline.ucRefs τ sig) (Wr1 m c) ∗ rest c)
  X c := iprop(∃ r, prngReg c r)
  Y c := iprop(∃ r, prngReg c r)
  Z c := Pipeline.unscopedRest (Ix := Unit) (Name := ℕ) (U := Pipeline.UD sig nD τ) (Lvl := ℕ) spec1 c (Vh1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vh1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Vh1 m) c).Φ 0 from rfl]
    iintro ⟨Hp, -, Hr⟩
    iapply (hin1 (Vh1 m) c)
    isplitl [Hp]; · iexact Hp
    iexact Hr
  hout c := by
    rw [Pipeline.ownSems0_none, show (pdats m 1 c).Φ (Fin.last _) = (dat1 (Vh1 m) c).Φ (Fin.last cfg1.N) from rfl]
    iintro H
    ihave H' := (hout1 (Vh1 m) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (Vh1 m c) (Vr1 m c) ((pdats m 1 c).arrAt · cfg1.N) (arrays_left1 m c) (others_kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from the buffers host stretch 2 leaves, left at those with its arrays updated. Its arrays are split
    out of the unscoped buffers at entry and put back at exit; the generator register goes into the invariant and comes
    back; nothing is owed. -/
def reg2 : Pipeline.RegionSeg (pcfgs (F := F)) adm (pdats m) () defs₀ noVar noLev lev0 2 where
  win := launch2.win.to₀
  block_pos := launch2.block_pos
  stage_whole := launch2.stage_whole
  K := PEmpty
  osem k := k.elim
  ho := Pipeline.OwnSemFacts.none _
  hbody c := (body_obligation2 (Vh2 m) c).loose
  hwaits := Pipeline.hwaits_of_owed_zero _ _ _ _ noLev lev0 2 fun _ _ => rfl
  pre c := iprop(StableHlo.held (c : Thread nD τ) (Pipeline.ucRefs τ sig) (Wh2 m c) ∗ rest c)
  post c := iprop(StableHlo.held (c : Thread nD τ) (Pipeline.ucRefs τ sig) (Wr2 m c) ∗ rest c)
  X c := iprop(∃ r, prngReg c r)
  Y c := iprop(∃ r, prngReg c r)
  Z c := Pipeline.unscopedRest (Ix := Unit) (Name := ℕ) (U := Pipeline.UD sig nD τ) (Lvl := ℕ) spec2 c (Vh2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vh2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (Vh2 m) c).Φ 0 from rfl]
    iintro ⟨Hp, -, Hr⟩
    iapply (hin2 (Vh2 m) c)
    isplitl [Hp]; · iexact Hp
    iexact Hr
  hout c := by
    rw [Pipeline.ownSems0_none, show (pdats m 2 c).Φ (Fin.last _) = (dat2 (Vh2 m) c).Φ (Fin.last cfg2.N) from rfl]
    iintro H
    ihave H' := (hout2 (Vh2 m) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (Vh2 m c) (Vr2 m c) ((pdats m 2 c).arrAt · cfg2.N) (arrays_left2 m c) (others_kept2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from the buffers host stretch 3 leaves, left at those with its arrays updated. Its arrays are split
    out of the unscoped buffers at entry and put back at exit; the generator register goes into the invariant and comes
    back; nothing is owed. -/
def reg3 : Pipeline.RegionSeg (pcfgs (F := F)) adm (pdats m) () defs₀ noVar noLev lev0 3 where
  win := launch3.win.to₀
  block_pos := launch3.block_pos
  stage_whole := launch3.stage_whole
  K := PEmpty
  osem k := k.elim
  ho := Pipeline.OwnSemFacts.none _
  hbody c := (body_obligation3 (Vh3 m) c).loose
  hwaits := Pipeline.hwaits_of_owed_zero _ _ _ _ noLev lev0 3 fun _ _ => rfl
  pre c := iprop(StableHlo.held (c : Thread nD τ) (Pipeline.ucRefs τ sig) (Wh3 m c) ∗ rest c)
  post c := iprop(StableHlo.held (c : Thread nD τ) (Pipeline.ucRefs τ sig) (Wr3 m c) ∗ rest c)
  X c := iprop(∃ r, prngReg c r)
  Y c := iprop(∃ r, prngReg c r)
  Z c := Pipeline.unscopedRest (Ix := Unit) (Name := ℕ) (U := Pipeline.UD sig nD τ) (Lvl := ℕ) spec3 c (Vh3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vh3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (Vh3 m) c).Φ 0 from rfl]
    iintro ⟨Hp, -, Hr⟩
    iapply (hin3 (Vh3 m) c)
    isplitl [Hp]; · iexact Hp
    iexact Hr
  hout c := by
    rw [Pipeline.ownSems0_none, show (pdats m 3 c).Φ (Fin.last _) = (dat3 (Vh3 m) c).Φ (Fin.last cfg3.N) from rfl]
    iintro H
    ihave H' := (hout3 (Vh3 m) c) $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun _ => rfl)
      (Vh3 m c) (Vr3 m c) ((pdats m 3 c).arrAt · cfg3.N) (arrays_left3 m c) (others_kept3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from the buffers host stretch 4 leaves, left at those with its arrays updated. Its arrays are split
    out of the unscoped buffers at entry and put back at exit; the generator register goes into the invariant and comes
    back; nothing is owed. -/
def reg4 : Pipeline.RegionSeg (pcfgs (F := F)) adm (pdats m) () defs₀ noVar noLev lev0 4 where
  win := launch4.win.to₀
  block_pos := launch4.block_pos
  stage_whole := launch4.stage_whole
  K := PEmpty
  osem k := k.elim
  ho := Pipeline.OwnSemFacts.none _
  hbody c := (body_obligation4 (Vh4 m) c).loose
  hwaits := Pipeline.hwaits_of_owed_zero _ _ _ _ noLev lev0 4 fun _ _ => rfl
  pre c := iprop(StableHlo.held (c : Thread nD τ) (Pipeline.ucRefs τ sig) (Wh4 m c) ∗ rest c)
  post c := iprop(StableHlo.held (c : Thread nD τ) (Pipeline.ucRefs τ sig) (Wr4 m c) ∗ rest c)
  X c := iprop(∃ r, prngReg c r)
  Y c := iprop(∃ r, prngReg c r)
  Z c := Pipeline.unscopedRest (Ix := Unit) (Name := ℕ) (U := Pipeline.UD sig nD τ) (Lvl := ℕ) spec4 c (Vh4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vh4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (Vh4 m) c).Φ 0 from rfl]
    iintro ⟨Hp, -, Hr⟩
    iapply (hin4 (Vh4 m) c)
    isplitl [Hp]; · iexact Hp
    iexact Hr
  hout c := by
    rw [Pipeline.ownSems0_none, show (pdats m 4 c).Φ (Fin.last _) = (dat4 (Vh4 m) c).Φ (Fin.last cfg4.N) from rfl]
    iintro H
    ihave H' := (hout4 (Vh4 m) c) $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m) ((pdats m 4 c).share_full fun _ => rfl)
      (Vh4 m c) (Vr4 m c) ((pdats m 4 c).arrAt · cfg4.N) (arrays_left4 m c) (others_kept4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from the buffers host stretch 5 leaves, left at those with its arrays updated. Its arrays are split
    out of the unscoped buffers at entry and put back at exit; the generator register goes into the invariant and comes
    back; nothing is owed. -/
def reg5 : Pipeline.RegionSeg (pcfgs (F := F)) adm (pdats m) () defs₀ noVar noLev lev0 5 where
  win := launch5.win.to₀
  block_pos := launch5.block_pos
  stage_whole := launch5.stage_whole
  K := PEmpty
  osem k := k.elim
  ho := Pipeline.OwnSemFacts.none _
  hbody c := (body_obligation5 (Vh5 m) c).loose
  hwaits := Pipeline.hwaits_of_owed_zero _ _ _ _ noLev lev0 5 fun _ _ => rfl
  pre c := iprop(StableHlo.held (c : Thread nD τ) (Pipeline.ucRefs τ sig) (Wh5 m c) ∗ rest c)
  post c := iprop(StableHlo.held (c : Thread nD τ) (Pipeline.ucRefs τ sig) (Wr5 m c) ∗ rest c)
  X c := iprop(∃ r, prngReg c r)
  Y c := iprop(∃ r, prngReg c r)
  Z c := Pipeline.unscopedRest (Ix := Unit) (Name := ℕ) (U := Pipeline.UD sig nD τ) (Lvl := ℕ) spec5 c (Vh5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Vh5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (Vh5 m) c).Φ 0 from rfl]
    iintro ⟨Hp, -, Hr⟩
    iapply (hin5 (Vh5 m) c)
    isplitl [Hp]; · iexact Hp
    iexact Hr
  hout c := by
    rw [Pipeline.ownSems0_none, show (pdats m 5 c).Φ (Fin.last _) = (dat5 (Vh5 m) c).Φ (Fin.last cfg5.N) from rfl]
    iintro H
    ihave H' := (hout5 (Vh5 m) c) $$ H
    icases H' with ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m) ((pdats m 5 c).share_full fun _ => rfl)
      (Vh5 m c) (Vr5 m c) ((pdats m 5 c).arrAt · cfg5.N) (arrays_left5 m c) (others_kept5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from the buffers host stretch 6 leaves, left at those with its arrays updated. Its arrays are split
    out of the unscoped buffers at entry and put back at exit; the generator register goes into the invariant and comes
    back; nothing is owed. -/
def reg6 : Pipeline.RegionSeg (pcfgs (F := F)) adm (pdats m) () defs₀ noVar noLev lev0 6 where
  win := launch6.win.to₀
  block_pos := launch6.block_pos
  stage_whole := launch6.stage_whole
  K := PEmpty
  osem k := k.elim
  ho := Pipeline.OwnSemFacts.none _
  hbody c := (body_obligation6 (Vh6 m) c).loose
  hwaits := Pipeline.hwaits_of_owed_zero _ _ _ _ noLev lev0 6 fun _ _ => rfl
  pre c := iprop(StableHlo.held (c : Thread nD τ) (Pipeline.ucRefs τ sig) (Wh6 m c) ∗ rest c)
  post c := iprop(StableHlo.held (c : Thread nD τ) (Pipeline.ucRefs τ sig) (Wr6 m c) ∗ rest c)
  X c := iprop(∃ r, prngReg c r)
  Y c := iprop(∃ r, prngReg c r)
  Z c := Pipeline.unscopedRest (Ix := Unit) (Name := ℕ) (U := Pipeline.UD sig nD τ) (Lvl := ℕ) spec6 c (Vh6 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (Vh6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = (dat6 (Vh6 m) c).Φ 0 from rfl]
    iintro ⟨Hp, -, Hr⟩
    iapply (hin6 (Vh6 m) c)
    isplitl [Hp]; · iexact Hp
    iexact Hr
  hout c := by
    rw [Pipeline.ownSems0_none, show (pdats m 6 c).Φ (Fin.last _) = (dat6 (Vh6 m) c).Φ (Fin.last cfg6.N) from rfl]
    iintro H
    ihave H' := (hout6 (Vh6 m) c) $$ H
    icases H' with ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := Pipeline.UD sig nD τ) (Lvl := ℕ)
      launch6.win launch6.arr_whole c (pdats m) ((pdats m 6 c).share_full fun _ => rfl)
      (Vh6 m c) (Vr6 m c) ((pdats m 6 c).arrAt · cfg6.N) (arrays_left6 m c) (others_kept6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from the buffers host stretch 7 leaves, left at those with its arrays updated. Its arrays are split
    out of the unscoped buffers at entry and put back at exit; the generator register goes into the invariant and comes
    back; nothing is owed. -/
def reg7 : Pipeline.RegionSeg (pcfgs (F := F)) adm (pdats m) () defs₀ noVar noLev lev0 7 where
  win := launch7.win.to₀
  block_pos := launch7.block_pos
  stage_whole := launch7.stage_whole
  K := PEmpty
  osem k := k.elim
  ho := Pipeline.OwnSemFacts.none _
  hbody c := (body_obligation7 (Vh7 m) c).loose
  hwaits := Pipeline.hwaits_of_owed_zero _ _ _ _ noLev lev0 7 fun _ _ => rfl
  pre c := iprop(StableHlo.held (c : Thread nD τ) (Pipeline.ucRefs τ sig) (Wh7 m c) ∗ rest c)
  post c := iprop(StableHlo.held (c : Thread nD τ) (Pipeline.ucRefs τ sig) (Wr7 m c) ∗ rest c)
  X c := iprop(∃ r, prngReg c r)
  Y c := iprop(∃ r, prngReg c r)
  Z c := Pipeline.unscopedRest (Ix := Unit) (Name := ℕ) (U := Pipeline.UD sig nD τ) (Lvl := ℕ) spec7 c (Vh7 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (Vh7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = (dat7 (Vh7 m) c).Φ 0 from rfl]
    iintro ⟨Hp, -, Hr⟩
    iapply (hin7 (Vh7 m) c)
    isplitl [Hp]; · iexact Hp
    iexact Hr
  hout c := by
    rw [Pipeline.ownSems0_none, show (pdats m 7 c).Φ (Fin.last _) = (dat7 (Vh7 m) c).Φ (Fin.last cfg7.N) from rfl]
    iintro H
    ihave H' := (hout7 (Vh7 m) c) $$ H
    icases H' with ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := Pipeline.UD sig nD τ) (Lvl := ℕ)
      launch7.win launch7.arr_whole c (pdats m) ((pdats m 7 c).share_full fun _ => rfl)
      (Vh7 m c) (Vr7 m c) ((pdats m 7 c).arrAt · cfg7.N) (arrays_left7 m c) (others_kept7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8: entered from the buffers host stretch 8 leaves, left at those with its arrays updated. Its arrays are split
    out of the unscoped buffers at entry and put back at exit; the generator register goes into the invariant and comes
    back; nothing is owed. -/
def reg8 : Pipeline.RegionSeg (pcfgs (F := F)) adm (pdats m) () defs₀ noVar noLev lev0 8 where
  win := launch8.win.to₀
  block_pos := launch8.block_pos
  stage_whole := launch8.stage_whole
  K := PEmpty
  osem k := k.elim
  ho := Pipeline.OwnSemFacts.none _
  hbody c := (body_obligation8 (Vh8 m) c).loose
  hwaits := Pipeline.hwaits_of_owed_zero _ _ _ _ noLev lev0 8 fun _ _ => rfl
  pre c := iprop(StableHlo.held (c : Thread nD τ) (Pipeline.ucRefs τ sig) (Wh8 m c) ∗ rest c)
  post c := iprop(StableHlo.held (c : Thread nD τ) (Pipeline.ucRefs τ sig) (Wr8 m c) ∗ rest c)
  X c := iprop(∃ r, prngReg c r)
  Y c := iprop(∃ r, prngReg c r)
  Z c := Pipeline.unscopedRest (Ix := Unit) (Name := ℕ) (U := Pipeline.UD sig nD τ) (Lvl := ℕ) spec8 c (Vh8 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (Vh8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = (dat8 (Vh8 m) c).Φ 0 from rfl]
    iintro ⟨Hp, -, Hr⟩
    iapply (hin8 (Vh8 m) c)
    isplitl [Hp]; · iexact Hp
    iexact Hr
  hout c := by
    rw [Pipeline.ownSems0_none, show (pdats m 8 c).Φ (Fin.last _) = (dat8 (Vh8 m) c).Φ (Fin.last cfg8.N) from rfl]
    iintro H
    ihave H' := (hout8 (Vh8 m) c) $$ H
    icases H' with ⟨Hp, Hr⟩
    isplitl [Hp]; · iexact Hp
    isplitr; · iempintro
    iexact Hr
  hexit c := by
    have hjoin := Pipeline.unscopedBufs_of_arrays (p := 8) (pcfgs (F := F)) adm (Ix := Unit) (Name := ℕ) (U := Pipeline.UD sig nD τ) (Lvl := ℕ)
      launch8.win launch8.arr_whole c (pdats m) ((pdats m 8 c).share_full fun _ => rfl)
      (Vh8 m c) (Vr8 m c) ((pdats m 8 c).arrAt · cfg8.N) (arrays_left8 m c) (others_kept8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9: entered from the buffers host stretch 9 leaves, left at those with its arrays updated. Its arrays are split
    out of the unscoped buffers at entry and put back at exit; the generator register goes into the invariant and comes
    back; nothing is owed. -/
def reg9 : Pipeline.RegionSeg (pcfgs (F := F)) adm (pdats m) () defs₀ noVar noLev lev0 9 where
  win := launch9.win.to₀
  block_pos := launch9.block_pos
  stage_whole := launch9.stage_whole
  K := PEmpty
  osem k := k.elim
  ho := Pipeline.OwnSemFacts.none _
  hbody c := (body_obligation9 (Vh9 m) c).loose
  hwaits := Pipeline.hwaits_of_owed_zero _ _ _ _ noLev lev0 9 fun _ _ => rfl
  pre c := iprop(StableHlo.held (c : Thread nD τ) (Pipeline.ucRefs τ sig) (Wh9 m c) ∗ rest c)
  post c := iprop(StableHlo.held (c : Thread nD τ) (Pipeline.ucRefs τ sig) (Wr9 m c) ∗ rest c)
  X c := iprop(∃ r, prngReg c r)
  Y c := iprop(∃ r, prngReg c r)
  Z c := Pipeline.unscopedRest (Ix := Unit) (Name := ℕ) (U := Pipeline.UD sig nD τ) (Lvl := ℕ) spec9 c (Vh9 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (Vh9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = (dat9 (Vh9 m) c).Φ 0 from rfl]
    iintro ⟨Hp, -, Hr⟩
    iapply (hin9 (Vh9 m) c)
    isplitl [Hp]; · iexact Hp
    iexact Hr
  hout c := by
    rw [Pipeline.ownSems0_none, show (pdats m 9 c).Φ (Fin.last _) = (dat9 (Vh9 m) c).Φ (Fin.last cfg9.N) from rfl]
    iintro H
    ihave H' := (hout9 (Vh9 m) c) $$ H
    icases H' with ⟨Hp, Hr⟩
    isplitl [Hp]; · iexact Hp
    isplitr; · iempintro
    iexact Hr
  hexit c := by
    have hjoin := Pipeline.unscopedBufs_of_arrays (p := 9) (pcfgs (F := F)) adm (Ix := Unit) (Name := ℕ) (U := Pipeline.UD sig nD τ) (Lvl := ℕ)
      launch9.win launch9.arr_whole c (pdats m) ((pdats m 9 c).share_full fun _ => rfl)
      (Vh9 m c) (Vr9 m c) ((pdats m 9 c).arrAt · cfg9.N) (arrays_left9 m c) (others_kept9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10: entered from the buffers host stretch 10 leaves, left at those with its arrays updated. Its arrays are split
    out of the unscoped buffers at entry and put back at exit; the generator register goes into the invariant and comes
    back; nothing is owed. -/
def reg10 : Pipeline.RegionSeg (pcfgs (F := F)) adm (pdats m) () defs₀ noVar noLev lev0 10 where
  win := launch10.win.to₀
  block_pos := launch10.block_pos
  stage_whole := launch10.stage_whole
  K := PEmpty
  osem k := k.elim
  ho := Pipeline.OwnSemFacts.none _
  hbody c := (body_obligation10 (Vh10 m) c).loose
  hwaits := Pipeline.hwaits_of_owed_zero _ _ _ _ noLev lev0 10 fun _ _ => rfl
  pre c := iprop(StableHlo.held (c : Thread nD τ) (Pipeline.ucRefs τ sig) (Wh10 m c) ∗ rest c)
  post c := iprop(StableHlo.held (c : Thread nD τ) (Pipeline.ucRefs τ sig) (Wr10 m c) ∗ rest c)
  X c := iprop(∃ r, prngReg c r)
  Y c := iprop(∃ r, prngReg c r)
  Z c := Pipeline.unscopedRest (Ix := Unit) (Name := ℕ) (U := Pipeline.UD sig nD τ) (Lvl := ℕ) spec10 c (Vh10 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (Vh10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = (dat10 (Vh10 m) c).Φ 0 from rfl]
    iintro ⟨Hp, -, Hr⟩
    iapply (hin10 (Vh10 m) c)
    isplitl [Hp]; · iexact Hp
    iexact Hr
  hout c := by
    rw [Pipeline.ownSems0_none, show (pdats m 10 c).Φ (Fin.last _) = (dat10 (Vh10 m) c).Φ (Fin.last cfg10.N) from rfl]
    iintro H
    ihave H' := (hout10 (Vh10 m) c) $$ H
    icases H' with ⟨Hp, Hr⟩
    isplitl [Hp]; · iexact Hp
    isplitr; · iempintro
    iexact Hr
  hexit c := by
    have hjoin := Pipeline.unscopedBufs_of_arrays (p := 10) (pcfgs (F := F)) adm (Ix := Unit) (Name := ℕ) (U := Pipeline.UD sig nD τ) (Lvl := ℕ)
      launch10.win launch10.arr_whole c (pdats m) ((pdats m 10 c).share_full fun _ => rfl)
      (Vh10 m c) (Vr10 m c) ((pdats m 10 c).arrAt · cfg10.N) (arrays_left10 m c) (others_kept10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11: entered from the buffers host stretch 11 leaves, left at those with its arrays updated. Its arrays are split
    out of the unscoped buffers at entry and put back at exit; the generator register goes into the invariant and comes
    back; nothing is owed. -/
def reg11 : Pipeline.RegionSeg (pcfgs (F := F)) adm (pdats m) () defs₀ noVar noLev lev0 11 where
  win := launch11.win.to₀
  block_pos := launch11.block_pos
  stage_whole := launch11.stage_whole
  K := PEmpty
  osem k := k.elim
  ho := Pipeline.OwnSemFacts.none _
  hbody c := (body_obligation11 (Vh11 m) c).loose
  hwaits := Pipeline.hwaits_of_owed_zero _ _ _ _ noLev lev0 11 fun _ _ => rfl
  pre c := iprop(StableHlo.held (c : Thread nD τ) (Pipeline.ucRefs τ sig) (Wh11 m c) ∗ rest c)
  post c := iprop(StableHlo.held (c : Thread nD τ) (Pipeline.ucRefs τ sig) (Wr11 m c) ∗ rest c)
  X c := iprop(∃ r, prngReg c r)
  Y c := iprop(∃ r, prngReg c r)
  Z c := Pipeline.unscopedRest (Ix := Unit) (Name := ℕ) (U := Pipeline.UD sig nD τ) (Lvl := ℕ) spec11 c (Vh11 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (Vh11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = (dat11 (Vh11 m) c).Φ 0 from rfl]
    iintro ⟨Hp, -, Hr⟩
    iapply (hin11 (Vh11 m) c)
    isplitl [Hp]; · iexact Hp
    iexact Hr
  hout c := by
    rw [Pipeline.ownSems0_none, show (pdats m 11 c).Φ (Fin.last _) = (dat11 (Vh11 m) c).Φ (Fin.last cfg11.N) from rfl]
    iintro H
    ihave H' := (hout11 (Vh11 m) c) $$ H
    icases H' with ⟨Hp, Hr⟩
    isplitl [Hp]; · iexact Hp
    isplitr; · iempintro
    iexact Hr
  hexit c := by
    have hjoin := Pipeline.unscopedBufs_of_arrays (p := 11) (pcfgs (F := F)) adm (Ix := Unit) (Name := ℕ) (U := Pipeline.UD sig nD τ) (Lvl := ℕ)
      launch11.win launch11.arr_whole c (pdats m) ((pdats m 11 c).share_full fun _ => rfl)
      (Vh11 m c) (Vr11 m c) ((pdats m 11 c).arrAt · cfg11.N) (arrays_left11 m c) (others_kept11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 12: entered from the buffers host stretch 12 leaves, left at those with its arrays updated. Its arrays are split
    out of the unscoped buffers at entry and put back at exit; the generator register goes into the invariant and comes
    back; nothing is owed. -/
def reg12 : Pipeline.RegionSeg (pcfgs (F := F)) adm (pdats m) () defs₀ noVar noLev lev0 12 where
  win := launch12.win.to₀
  block_pos := launch12.block_pos
  stage_whole := launch12.stage_whole
  K := PEmpty
  osem k := k.elim
  ho := Pipeline.OwnSemFacts.none _
  hbody c := (body_obligation12 (Vh12 m) c).loose
  hwaits := Pipeline.hwaits_of_owed_zero _ _ _ _ noLev lev0 12 fun _ _ => rfl
  pre c := iprop(StableHlo.held (c : Thread nD τ) (Pipeline.ucRefs τ sig) (Wh12 m c) ∗ rest c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec12 c (Vh12 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (Vh12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = (dat12 (Vh12 m) c).Φ 0 from rfl]
    iintro ⟨Hp, -, Hr⟩
    iapply (hin12 (Vh12 m) c)
    isplitl [Hp]; · iexact Hp
    iexact Hr
  hout c := by
    rw [Pipeline.ownSems0_none, show (pdats m 12 c).Φ (Fin.last _) = (dat12 (Vh12 m) c).Φ (Fin.last cfg12.N) from rfl]
    iintro H
    ihave H' := (hout12 (Vh12 m) c) $$ H
    icases H' with ⟨Hp, Hr⟩
    isplitl [Hp]; · iexact Hp
    isplitr; · iempintro
    iexact Hr
  hexit c := by
    have hjoin := Pipeline.unscopedBufs_of_arrays (p := 12) (pcfgs (F := F)) adm (Ix := Unit) (Name := ℕ) (U := Pipeline.UD sig nD τ) (Lvl := ℕ)
      launch12.win launch12.arr_whole c (pdats m) ((pdats m 12 c).share_full fun _ => rfl)
      (Vh12 m c) (Vr12 m c) ((pdats m 12 c).arrAt · cfg12.N) (arrays_left12 m c) (others_kept12 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The program's 26 segments in order. -/
abbrev segs : List (Pipeline.Seg (pcfgs (F := F)) adm (pdats m) () defs₀ noVar noLev lev0) :=
  [
    .host (hostSeg hostOps0 hostOps0_sub hostOps0_fresh (Wl m)),
    .region (reg0 m),
    .host (hostSeg hostOps1 hostOps1_sub hostOps1_fresh (Wr0 m)),
    .region (reg1 m),
    .host (hostSeg hostOps2 hostOps2_sub hostOps2_fresh (Wr1 m)),
    .region (reg2 m),
    .host (hostSeg hostOps3 hostOps3_sub hostOps3_fresh (Wr2 m)),
    .region (reg3 m),
    .host (hostSeg hostOps4 hostOps4_sub hostOps4_fresh (Wr3 m)),
    .region (reg4 m),
    .host (hostSeg hostOps5 hostOps5_sub hostOps5_fresh (Wr4 m)),
    .region (reg5 m),
    .host (hostSeg hostOps6 hostOps6_sub hostOps6_fresh (Wr5 m)),
    .region (reg6 m),
    .host (hostSeg hostOps7 hostOps7_sub hostOps7_fresh (Wr6 m)),
    .region (reg7 m),
    .host (hostSeg hostOps8 hostOps8_sub hostOps8_fresh (Wr7 m)),
    .region (reg8 m),
    .host (hostSeg hostOps9 hostOps9_sub hostOps9_fresh (Wr8 m)),
    .region (reg9 m),
    .host (hostSeg hostOps10 hostOps10_sub hostOps10_fresh (Wr9 m)),
    .region (reg10 m),
    .host (hostSeg hostOps11 hostOps11_sub hostOps11_fresh (Wr10 m)),
    .region (reg11 m),
    .host (hostSeg hostOps12 hostOps12_sub hostOps12_fresh (Wr11 m)),
    .region (reg12 m) ]

/-- The program is the run of its segments. -/
theorem main_run (c : Dev nD) : main (F := F) c = Pipeline.Seg.run (segs m) := (main_chain c).trans (by chain_rfl)

set_option backward.isDefEq.respectTransparency.types false in
/-- From any memory with zero counters every weakly fair execution of the program terminates, nothing faulting, and
    every unscoped buffer of every core ends at the last valuation of the fold. -/
theorem kernel_run : θ_run defs (onTc (τ := τ) (main (F := F))) ⟨m, fun _ => 0, ρ⟩ (fun r => ∀ c : Dev nD,
      ∀ b ∈ Pipeline.ucRefs τ sig, r.2.mem (((c : Thread nD τ)).1, b) = Wr12 m c b) :=
  Pipeline.θ_run_regions_kit (pcfgs (F := F)) adm (pdats m) () cellOf_inj embL defs₀ noVar noLev lev0 m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m c) ∗ rest c)) (Tₙ := lastState m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach noLev lev0 fun c => ?_
      rw [show unscopedBufs c (fun b => m ((c : Thread nD τ).loc b)) = StableHlo.held (c : Thread nD τ) (Pipeline.ucRefs τ sig) (Wl m c)
        from Pipeline.unscopedBufs_held c (Wl m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wr12 m c b)
    (hfin := fun c s' => by
      iintro ⟨⟨Hh, -⟩, HSI⟩
      unfold StableHlo.held
      imodintro
      iapply (pointsTo_read_all (Pipeline.ucRefs τ sig) (fun b => (((c : Thread nD τ)).1, b)) (Wr12 m c) s')
      isplitl [Hh] <;> iassumption)
    (hQ := fun s h c => h c)

end Cert.KernelIdeal.Hand

end
-- ==== Proof.KI.RunFacts.lean ====
import proofs.«408428_j10917806867267_1_alg».proof.Proof.KI.Run

/-! # What the run leaves: the arguments as launched, the result where the last region folds it

No host stretch writes an argument and no region has one as an output window's array, so an argument's buffer at the
last boundary is walked back boundary by boundary to the launch memory: through a host stretch by "not among the
references it writes", through a region by "no window's array" or, where the argument IS an input window's array, by
"an input window's array is left as entered". -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- An unscoped TensorCore reference is among those the last state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- main_arg0 ends as launched. -/
theorem Wr12_main_arg0 (c : Dev nD) : Wr12 m c (Proc.devRef .tc main_arg0) = m ((c : Thread nD τ).loc main_arg0) :=
  (Wr12_of_ne m c main_arg0 (by decide)).trans <|
  (Wh12_of m c main_arg0 (by decide)).trans <|
  (Wr11_of_ne m c main_arg0 (by decide)).trans <|
  (Wh11_of m c main_arg0 (by decide)).trans <|
  (Wr10_of_ne m c main_arg0 (by decide)).trans <|
  (Wh10_of m c main_arg0 (by decide)).trans <|
  (Wr9_of_ne m c main_arg0 (by decide)).trans <|
  (Wh9_of m c main_arg0 (by decide)).trans <|
  (Wr8_of_ne m c main_arg0 (by decide)).trans <|
  (Wh8_of m c main_arg0 (by decide)).trans <|
  (Wr7_of_ne m c main_arg0 (by decide)).trans <|
  (Wh7_of m c main_arg0 (by decide)).trans <|
  (Wr6_of_ne m c main_arg0 (by decide)).trans <|
  (Wh6_of m c main_arg0 (by decide)).trans <|
  (Wr5_of_ne m c main_arg0 (by decide)).trans <|
  (Wh5_of m c main_arg0 (by decide)).trans <|
  (Wr4_of_ne m c main_arg0 (by decide)).trans <|
  (Wh4_of m c main_arg0 (by decide)).trans <|
  (Wr3_of_ne m c main_arg0 (by decide)).trans <|
  (Wh3_of m c main_arg0 (by decide)).trans <|
  (Wr2_of_ne m c main_arg0 (by decide)).trans <|
  (Wh2_of m c main_arg0 (by decide)).trans <|
  (Wr1_of_ne m c main_arg0 (by decide)).trans <|
  (Wh1_of m c main_arg0 (by decide)).trans <|
  ((Wr0_arr m c 0).trans (((dat0 (Vh0 m) c).arrAt_in 0 rfl _).trans (A_eq0 (Vh0 m) c 0))).trans <|
  (Wh0_of m c main_arg0 (by decide)).trans <| rfl

/-- main_arg1 ends as launched. -/
theorem Wr12_main_arg1 (c : Dev nD) : Wr12 m c (Proc.devRef .tc main_arg1) = m ((c : Thread nD τ).loc main_arg1) :=
  (Wr12_of_ne m c main_arg1 (by decide)).trans <|
  (Wh12_of m c main_arg1 (by decide)).trans <|
  (Wr11_of_ne m c main_arg1 (by decide)).trans <|
  (Wh11_of m c main_arg1 (by decide)).trans <|
  (Wr10_of_ne m c main_arg1 (by decide)).trans <|
  (Wh10_of m c main_arg1 (by decide)).trans <|
  (Wr9_of_ne m c main_arg1 (by decide)).trans <|
  (Wh9_of m c main_arg1 (by decide)).trans <|
  (Wr8_of_ne m c main_arg1 (by decide)).trans <|
  (Wh8_of m c main_arg1 (by decide)).trans <|
  (Wr7_of_ne m c main_arg1 (by decide)).trans <|
  (Wh7_of m c main_arg1 (by decide)).trans <|
  (Wr6_of_ne m c main_arg1 (by decide)).trans <|
  (Wh6_of m c main_arg1 (by decide)).trans <|
  (Wr5_of_ne m c main_arg1 (by decide)).trans <|
  (Wh5_of m c main_arg1 (by decide)).trans <|
  (Wr4_of_ne m c main_arg1 (by decide)).trans <|
  (Wh4_of m c main_arg1 (by decide)).trans <|
  (Wr3_of_ne m c main_arg1 (by decide)).trans <|
  (Wh3_of m c main_arg1 (by decide)).trans <|
  (Wr2_of_ne m c main_arg1 (by decide)).trans <|
  (Wh2_of m c main_arg1 (by decide)).trans <|
  (Wr1_of_ne m c main_arg1 (by decide)).trans <|
  (Wh1_of m c main_arg1 (by decide)).trans <|
  (Wr0_of_ne m c main_arg1 (by decide)).trans <|
  (Wh0_of m c main_arg1 (by decide)).trans <| rfl

/-- main_arg2 ends as launched. -/
theorem Wr12_main_arg2 (c : Dev nD) : Wr12 m c (Proc.devRef .tc main_arg2) = m ((c : Thread nD τ).loc main_arg2) :=
  (Wr12_of_ne m c main_arg2 (by decide)).trans <|
  (Wh12_of m c main_arg2 (by decide)).trans <|
  (Wr11_of_ne m c main_arg2 (by decide)).trans <|
  (Wh11_of m c main_arg2 (by decide)).trans <|
  (Wr10_of_ne m c main_arg2 (by decide)).trans <|
  (Wh10_of m c main_arg2 (by decide)).trans <|
  (Wr9_of_ne m c main_arg2 (by decide)).trans <|
  (Wh9_of m c main_arg2 (by decide)).trans <|
  (Wr8_of_ne m c main_arg2 (by decide)).trans <|
  (Wh8_of m c main_arg2 (by decide)).trans <|
  (Wr7_of_ne m c main_arg2 (by decide)).trans <|
  (Wh7_of m c main_arg2 (by decide)).trans <|
  (Wr6_of_ne m c main_arg2 (by decide)).trans <|
  (Wh6_of m c main_arg2 (by decide)).trans <|
  (Wr5_of_ne m c main_arg2 (by decide)).trans <|
  (Wh5_of m c main_arg2 (by decide)).trans <|
  (Wr4_of_ne m c main_arg2 (by decide)).trans <|
  (Wh4_of m c main_arg2 (by decide)).trans <|
  (Wr3_of_ne m c main_arg2 (by decide)).trans <|
  (Wh3_of m c main_arg2 (by decide)).trans <|
  (Wr2_of_ne m c main_arg2 (by decide)).trans <|
  (Wh2_of m c main_arg2 (by decide)).trans <|
  (Wr1_of_ne m c main_arg2 (by decide)).trans <|
  (Wh1_of m c main_arg2 (by decide)).trans <|
  (Wr0_of_ne m c main_arg2 (by decide)).trans <|
  (Wh0_of m c main_arg2 (by decide)).trans <| rfl

/-- main_arg3 ends as launched. -/
theorem Wr12_main_arg3 (c : Dev nD) : Wr12 m c (Proc.devRef .tc main_arg3) = m ((c : Thread nD τ).loc main_arg3) :=
  (Wr12_of_ne m c main_arg3 (by decide)).trans <|
  (Wh12_of m c main_arg3 (by decide)).trans <|
  (Wr11_of_ne m c main_arg3 (by decide)).trans <|
  (Wh11_of m c main_arg3 (by decide)).trans <|
  (Wr10_of_ne m c main_arg3 (by decide)).trans <|
  (Wh10_of m c main_arg3 (by decide)).trans <|
  (Wr9_of_ne m c main_arg3 (by decide)).trans <|
  (Wh9_of m c main_arg3 (by decide)).trans <|
  (Wr8_of_ne m c main_arg3 (by decide)).trans <|
  (Wh8_of m c main_arg3 (by decide)).trans <|
  (Wr7_of_ne m c main_arg3 (by decide)).trans <|
  (Wh7_of m c main_arg3 (by decide)).trans <|
  (Wr6_of_ne m c main_arg3 (by decide)).trans <|
  (Wh6_of m c main_arg3 (by decide)).trans <|
  (Wr5_of_ne m c main_arg3 (by decide)).trans <|
  (Wh5_of m c main_arg3 (by decide)).trans <|
  (Wr4_of_ne m c main_arg3 (by decide)).trans <|
  (Wh4_of m c main_arg3 (by decide)).trans <|
  (Wr3_of_ne m c main_arg3 (by decide)).trans <|
  (Wh3_of m c main_arg3 (by decide)).trans <|
  (Wr2_of_ne m c main_arg3 (by decide)).trans <|
  (Wh2_of m c main_arg3 (by decide)).trans <|
  (Wr1_of_ne m c main_arg3 (by decide)).trans <|
  (Wh1_of m c main_arg3 (by decide)).trans <|
  (Wr0_of_ne m c main_arg3 (by decide)).trans <|
  (Wh0_of m c main_arg3 (by decide)).trans <| rfl

/-- main_arg4 ends as launched. -/
theorem Wr12_main_arg4 (c : Dev nD) : Wr12 m c (Proc.devRef .tc main_arg4) = m ((c : Thread nD τ).loc main_arg4) :=
  (Wr12_of_ne m c main_arg4 (by decide)).trans <|
  (Wh12_of m c main_arg4 (by decide)).trans <|
  (Wr11_of_ne m c main_arg4 (by decide)).trans <|
  (Wh11_of m c main_arg4 (by decide)).trans <|
  (Wr10_of_ne m c main_arg4 (by decide)).trans <|
  (Wh10_of m c main_arg4 (by decide)).trans <|
  (Wr9_of_ne m c main_arg4 (by decide)).trans <|
  (Wh9_of m c main_arg4 (by decide)).trans <|
  (Wr8_of_ne m c main_arg4 (by decide)).trans <|
  (Wh8_of m c main_arg4 (by decide)).trans <|
  (Wr7_of_ne m c main_arg4 (by decide)).trans <|
  (Wh7_of m c main_arg4 (by decide)).trans <|
  (Wr6_of_ne m c main_arg4 (by decide)).trans <|
  (Wh6_of m c main_arg4 (by decide)).trans <|
  (Wr5_of_ne m c main_arg4 (by decide)).trans <|
  (Wh5_of m c main_arg4 (by decide)).trans <|
  (Wr4_of_ne m c main_arg4 (by decide)).trans <|
  (Wh4_of m c main_arg4 (by decide)).trans <|
  (Wr3_of_ne m c main_arg4 (by decide)).trans <|
  (Wh3_of m c main_arg4 (by decide)).trans <|
  (Wr2_of_ne m c main_arg4 (by decide)).trans <|
  (Wh2_of m c main_arg4 (by decide)).trans <|
  (Wr1_of_ne m c main_arg4 (by decide)).trans <|
  (Wh1_of m c main_arg4 (by decide)).trans <|
  (Wr0_of_ne m c main_arg4 (by decide)).trans <|
  (Wh0_of m c main_arg4 (by decide)).trans <| rfl

/-- main_arg5 ends as launched. -/
theorem Wr12_main_arg5 (c : Dev nD) : Wr12 m c (Proc.devRef .tc main_arg5) = m ((c : Thread nD τ).loc main_arg5) :=
  (Wr12_of_ne m c main_arg5 (by decide)).trans <|
  (Wh12_of m c main_arg5 (by decide)).trans <|
  (Wr11_of_ne m c main_arg5 (by decide)).trans <|
  (Wh11_of m c main_arg5 (by decide)).trans <|
  (Wr10_of_ne m c main_arg5 (by decide)).trans <|
  (Wh10_of m c main_arg5 (by decide)).trans <|
  (Wr9_of_ne m c main_arg5 (by decide)).trans <|
  (Wh9_of m c main_arg5 (by decide)).trans <|
  (Wr8_of_ne m c main_arg5 (by decide)).trans <|
  (Wh8_of m c main_arg5 (by decide)).trans <|
  (Wr7_of_ne m c main_arg5 (by decide)).trans <|
  (Wh7_of m c main_arg5 (by decide)).trans <|
  (Wr6_of_ne m c main_arg5 (by decide)).trans <|
  (Wh6_of m c main_arg5 (by decide)).trans <|
  (Wr5_of_ne m c main_arg5 (by decide)).trans <|
  (Wh5_of m c main_arg5 (by decide)).trans <|
  (Wr4_of_ne m c main_arg5 (by decide)).trans <|
  (Wh4_of m c main_arg5 (by decide)).trans <|
  (Wr3_of_ne m c main_arg5 (by decide)).trans <|
  (Wh3_of m c main_arg5 (by decide)).trans <|
  (Wr2_of_ne m c main_arg5 (by decide)).trans <|
  (Wh2_of m c main_arg5 (by decide)).trans <|
  (Wr1_of_ne m c main_arg5 (by decide)).trans <|
  (Wh1_of m c main_arg5 (by decide)).trans <|
  (Wr0_of_ne m c main_arg5 (by decide)).trans <|
  (Wh0_of m c main_arg5 (by decide)).trans <| rfl

/-- main_arg6 ends as launched. -/
theorem Wr12_main_arg6 (c : Dev nD) : Wr12 m c (Proc.devRef .tc main_arg6) = m ((c : Thread nD τ).loc main_arg6) :=
  (Wr12_of_ne m c main_arg6 (by decide)).trans <|
  (Wh12_of m c main_arg6 (by decide)).trans <|
  (Wr11_of_ne m c main_arg6 (by decide)).trans <|
  (Wh11_of m c main_arg6 (by decide)).trans <|
  (Wr10_of_ne m c main_arg6 (by decide)).trans <|
  (Wh10_of m c main_arg6 (by decide)).trans <|
  (Wr9_of_ne m c main_arg6 (by decide)).trans <|
  (Wh9_of m c main_arg6 (by decide)).trans <|
  (Wr8_of_ne m c main_arg6 (by decide)).trans <|
  (Wh8_of m c main_arg6 (by decide)).trans <|
  (Wr7_of_ne m c main_arg6 (by decide)).trans <|
  (Wh7_of m c main_arg6 (by decide)).trans <|
  (Wr6_of_ne m c main_arg6 (by decide)).trans <|
  (Wh6_of m c main_arg6 (by decide)).trans <|
  (Wr5_of_ne m c main_arg6 (by decide)).trans <|
  (Wh5_of m c main_arg6 (by decide)).trans <|
  (Wr4_of_ne m c main_arg6 (by decide)).trans <|
  (Wh4_of m c main_arg6 (by decide)).trans <|
  (Wr3_of_ne m c main_arg6 (by decide)).trans <|
  (Wh3_of m c main_arg6 (by decide)).trans <|
  (Wr2_of_ne m c main_arg6 (by decide)).trans <|
  (Wh2_of m c main_arg6 (by decide)).trans <|
  (Wr1_of_ne m c main_arg6 (by decide)).trans <|
  (Wh1_of m c main_arg6 (by decide)).trans <|
  (Wr0_of_ne m c main_arg6 (by decide)).trans <|
  (Wh0_of m c main_arg6 (by decide)).trans <| rfl

/-- main_arg7 ends as launched. -/
theorem Wr12_main_arg7 (c : Dev nD) : Wr12 m c (Proc.devRef .tc main_arg7) = m ((c : Thread nD τ).loc main_arg7) :=
  (Wr12_of_ne m c main_arg7 (by decide)).trans <|
  (Wh12_of m c main_arg7 (by decide)).trans <|
  (Wr11_of_ne m c main_arg7 (by decide)).trans <|
  (Wh11_of m c main_arg7 (by decide)).trans <|
  (Wr10_of_ne m c main_arg7 (by decide)).trans <|
  (Wh10_of m c main_arg7 (by decide)).trans <|
  (Wr9_of_ne m c main_arg7 (by decide)).trans <|
  (Wh9_of m c main_arg7 (by decide)).trans <|
  (Wr8_of_ne m c main_arg7 (by decide)).trans <|
  (Wh8_of m c main_arg7 (by decide)).trans <|
  (Wr7_of_ne m c main_arg7 (by decide)).trans <|
  (Wh7_of m c main_arg7 (by decide)).trans <|
  (Wr6_of_ne m c main_arg7 (by decide)).trans <|
  (Wh6_of m c main_arg7 (by decide)).trans <|
  (Wr5_of_ne m c main_arg7 (by decide)).trans <|
  (Wh5_of m c main_arg7 (by decide)).trans <|
  (Wr4_of_ne m c main_arg7 (by decide)).trans <|
  (Wh4_of m c main_arg7 (by decide)).trans <|
  (Wr3_of_ne m c main_arg7 (by decide)).trans <|
  (Wh3_of m c main_arg7 (by decide)).trans <|
  (Wr2_of_ne m c main_arg7 (by decide)).trans <|
  (Wh2_of m c main_arg7 (by decide)).trans <|
  (Wr1_of_ne m c main_arg7 (by decide)).trans <|
  (Wh1_of m c main_arg7 (by decide)).trans <|
  (Wr0_of_ne m c main_arg7 (by decide)).trans <|
  (Wh0_of m c main_arg7 (by decide)).trans <| rfl

/-- main_arg8 ends as launched. -/
theorem Wr12_main_arg8 (c : Dev nD) : Wr12 m c (Proc.devRef .tc main_arg8) = m ((c : Thread nD τ).loc main_arg8) :=
  ((Wr12_arr m c 2).trans (((dat12 (Vh12 m) c).arrAt_in 2 rfl _).trans (A_eq12 (Vh12 m) c 2))).trans <|
  (Wh12_of m c main_arg8 (by decide)).trans <|
  (Wr11_of_ne m c main_arg8 (by decide)).trans <|
  (Wh11_of m c main_arg8 (by decide)).trans <|
  (Wr10_of_ne m c main_arg8 (by decide)).trans <|
  (Wh10_of m c main_arg8 (by decide)).trans <|
  (Wr9_of_ne m c main_arg8 (by decide)).trans <|
  (Wh9_of m c main_arg8 (by decide)).trans <|
  (Wr8_of_ne m c main_arg8 (by decide)).trans <|
  (Wh8_of m c main_arg8 (by decide)).trans <|
  (Wr7_of_ne m c main_arg8 (by decide)).trans <|
  (Wh7_of m c main_arg8 (by decide)).trans <|
  (Wr6_of_ne m c main_arg8 (by decide)).trans <|
  (Wh6_of m c main_arg8 (by decide)).trans <|
  (Wr5_of_ne m c main_arg8 (by decide)).trans <|
  (Wh5_of m c main_arg8 (by decide)).trans <|
  (Wr4_of_ne m c main_arg8 (by decide)).trans <|
  (Wh4_of m c main_arg8 (by decide)).trans <|
  (Wr3_of_ne m c main_arg8 (by decide)).trans <|
  (Wh3_of m c main_arg8 (by decide)).trans <|
  (Wr2_of_ne m c main_arg8 (by decide)).trans <|
  (Wh2_of m c main_arg8 (by decide)).trans <|
  (Wr1_of_ne m c main_arg8 (by decide)).trans <|
  (Wh1_of m c main_arg8 (by decide)).trans <|
  (Wr0_of_ne m c main_arg8 (by decide)).trans <|
  (Wh0_of m c main_arg8 (by decide)).trans <| rfl

/-- main_arg9 ends as launched. -/
theorem Wr12_main_arg9 (c : Dev nD) : Wr12 m c (Proc.devRef .tc main_arg9) = m ((c : Thread nD τ).loc main_arg9) :=
  (Wr12_of_ne m c main_arg9 (by decide)).trans <|
  (Wh12_of m c main_arg9 (by decide)).trans <|
  (Wr11_of_ne m c main_arg9 (by decide)).trans <|
  (Wh11_of m c main_arg9 (by decide)).trans <|
  (Wr10_of_ne m c main_arg9 (by decide)).trans <|
  (Wh10_of m c main_arg9 (by decide)).trans <|
  (Wr9_of_ne m c main_arg9 (by decide)).trans <|
  (Wh9_of m c main_arg9 (by decide)).trans <|
  (Wr8_of_ne m c main_arg9 (by decide)).trans <|
  (Wh8_of m c main_arg9 (by decide)).trans <|
  (Wr7_of_ne m c main_arg9 (by decide)).trans <|
  (Wh7_of m c main_arg9 (by decide)).trans <|
  (Wr6_of_ne m c main_arg9 (by decide)).trans <|
  (Wh6_of m c main_arg9 (by decide)).trans <|
  (Wr5_of_ne m c main_arg9 (by decide)).trans <|
  (Wh5_of m c main_arg9 (by decide)).trans <|
  (Wr4_of_ne m c main_arg9 (by decide)).trans <|
  (Wh4_of m c main_arg9 (by decide)).trans <|
  (Wr3_of_ne m c main_arg9 (by decide)).trans <|
  (Wh3_of m c main_arg9 (by decide)).trans <|
  (Wr2_of_ne m c main_arg9 (by decide)).trans <|
  (Wh2_of m c main_arg9 (by decide)).trans <|
  (Wr1_of_ne m c main_arg9 (by decide)).trans <|
  (Wh1_of m c main_arg9 (by decide)).trans <|
  (Wr0_of_ne m c main_arg9 (by decide)).trans <|
  (Wh0_of m c main_arg9 (by decide)).trans <| rfl

/-- main_arg10 ends as launched. -/
theorem Wr12_main_arg10 (c : Dev nD) : Wr12 m c (Proc.devRef .tc main_arg10) = m ((c : Thread nD τ).loc main_arg10) :=
  ((Wr12_arr m c 4).trans (((dat12 (Vh12 m) c).arrAt_in 4 rfl _).trans (A_eq12 (Vh12 m) c 4))).trans <|
  (Wh12_of m c main_arg10 (by decide)).trans <|
  (Wr11_of_ne m c main_arg10 (by decide)).trans <|
  (Wh11_of m c main_arg10 (by decide)).trans <|
  (Wr10_of_ne m c main_arg10 (by decide)).trans <|
  (Wh10_of m c main_arg10 (by decide)).trans <|
  (Wr9_of_ne m c main_arg10 (by decide)).trans <|
  (Wh9_of m c main_arg10 (by decide)).trans <|
  (Wr8_of_ne m c main_arg10 (by decide)).trans <|
  (Wh8_of m c main_arg10 (by decide)).trans <|
  (Wr7_of_ne m c main_arg10 (by decide)).trans <|
  (Wh7_of m c main_arg10 (by decide)).trans <|
  (Wr6_of_ne m c main_arg10 (by decide)).trans <|
  (Wh6_of m c main_arg10 (by decide)).trans <|
  (Wr5_of_ne m c main_arg10 (by decide)).trans <|
  (Wh5_of m c main_arg10 (by decide)).trans <|
  (Wr4_of_ne m c main_arg10 (by decide)).trans <|
  (Wh4_of m c main_arg10 (by decide)).trans <|
  (Wr3_of_ne m c main_arg10 (by decide)).trans <|
  (Wh3_of m c main_arg10 (by decide)).trans <|
  (Wr2_of_ne m c main_arg10 (by decide)).trans <|
  (Wh2_of m c main_arg10 (by decide)).trans <|
  (Wr1_of_ne m c main_arg10 (by decide)).trans <|
  (Wh1_of m c main_arg10 (by decide)).trans <|
  (Wr0_of_ne m c main_arg10 (by decide)).trans <|
  (Wh0_of m c main_arg10 (by decide)).trans <| rfl

/-- main_arg11 ends as launched. -/
theorem Wr12_main_arg11 (c : Dev nD) : Wr12 m c (Proc.devRef .tc main_arg11) = m ((c : Thread nD τ).loc main_arg11) :=
  (Wr12_of_ne m c main_arg11 (by decide)).trans <|
  (Wh12_of m c main_arg11 (by decide)).trans <|
  (Wr11_of_ne m c main_arg11 (by decide)).trans <|
  (Wh11_of m c main_arg11 (by decide)).trans <|
  (Wr10_of_ne m c main_arg11 (by decide)).trans <|
  (Wh10_of m c main_arg11 (by decide)).trans <|
  (Wr9_of_ne m c main_arg11 (by decide)).trans <|
  (Wh9_of m c main_arg11 (by decide)).trans <|
  (Wr8_of_ne m c main_arg11 (by decide)).trans <|
  (Wh8_of m c main_arg11 (by decide)).trans <|
  (Wr7_of_ne m c main_arg11 (by decide)).trans <|
  (Wh7_of m c main_arg11 (by decide)).trans <|
  (Wr6_of_ne m c main_arg11 (by decide)).trans <|
  (Wh6_of m c main_arg11 (by decide)).trans <|
  (Wr5_of_ne m c main_arg11 (by decide)).trans <|
  (Wh5_of m c main_arg11 (by decide)).trans <|
  (Wr4_of_ne m c main_arg11 (by decide)).trans <|
  (Wh4_of m c main_arg11 (by decide)).trans <|
  (Wr3_of_ne m c main_arg11 (by decide)).trans <|
  (Wh3_of m c main_arg11 (by decide)).trans <|
  (Wr2_of_ne m c main_arg11 (by decide)).trans <|
  (Wh2_of m c main_arg11 (by decide)).trans <|
  (Wr1_of_ne m c main_arg11 (by decide)).trans <|
  (Wh1_of m c main_arg11 (by decide)).trans <|
  (Wr0_of_ne m c main_arg11 (by decide)).trans <|
  (Wh0_of m c main_arg11 (by decide)).trans <| rfl

/-- main_arg12 ends as launched. -/
theorem Wr12_main_arg12 (c : Dev nD) : Wr12 m c (Proc.devRef .tc main_arg12) = m ((c : Thread nD τ).loc main_arg12) :=
  ((Wr12_arr m c 6).trans (((dat12 (Vh12 m) c).arrAt_in 6 rfl _).trans (A_eq12 (Vh12 m) c 6))).trans <|
  (Wh12_of m c main_arg12 (by decide)).trans <|
  (Wr11_of_ne m c main_arg12 (by decide)).trans <|
  (Wh11_of m c main_arg12 (by decide)).trans <|
  (Wr10_of_ne m c main_arg12 (by decide)).trans <|
  (Wh10_of m c main_arg12 (by decide)).trans <|
  (Wr9_of_ne m c main_arg12 (by decide)).trans <|
  (Wh9_of m c main_arg12 (by decide)).trans <|
  (Wr8_of_ne m c main_arg12 (by decide)).trans <|
  (Wh8_of m c main_arg12 (by decide)).trans <|
  (Wr7_of_ne m c main_arg12 (by decide)).trans <|
  (Wh7_of m c main_arg12 (by decide)).trans <|
  (Wr6_of_ne m c main_arg12 (by decide)).trans <|
  (Wh6_of m c main_arg12 (by decide)).trans <|
  (Wr5_of_ne m c main_arg12 (by decide)).trans <|
  (Wh5_of m c main_arg12 (by decide)).trans <|
  (Wr4_of_ne m c main_arg12 (by decide)).trans <|
  (Wh4_of m c main_arg12 (by decide)).trans <|
  (Wr3_of_ne m c main_arg12 (by decide)).trans <|
  (Wh3_of m c main_arg12 (by decide)).trans <|
  (Wr2_of_ne m c main_arg12 (by decide)).trans <|
  (Wh2_of m c main_arg12 (by decide)).trans <|
  (Wr1_of_ne m c main_arg12 (by decide)).trans <|
  (Wh1_of m c main_arg12 (by decide)).trans <|
  (Wr0_of_ne m c main_arg12 (by decide)).trans <|
  (Wh0_of m c main_arg12 (by decide)).trans <| rfl

/-- main_arg13 ends as launched. -/
theorem Wr12_main_arg13 (c : Dev nD) : Wr12 m c (Proc.devRef .tc main_arg13) = m ((c : Thread nD τ).loc main_arg13) :=
  (Wr12_of_ne m c main_arg13 (by decide)).trans <|
  (Wh12_of m c main_arg13 (by decide)).trans <|
  (Wr11_of_ne m c main_arg13 (by decide)).trans <|
  (Wh11_of m c main_arg13 (by decide)).trans <|
  (Wr10_of_ne m c main_arg13 (by decide)).trans <|
  (Wh10_of m c main_arg13 (by decide)).trans <|
  (Wr9_of_ne m c main_arg13 (by decide)).trans <|
  (Wh9_of m c main_arg13 (by decide)).trans <|
  (Wr8_of_ne m c main_arg13 (by decide)).trans <|
  (Wh8_of m c main_arg13 (by decide)).trans <|
  (Wr7_of_ne m c main_arg13 (by decide)).trans <|
  (Wh7_of m c main_arg13 (by decide)).trans <|
  (Wr6_of_ne m c main_arg13 (by decide)).trans <|
  (Wh6_of m c main_arg13 (by decide)).trans <|
  (Wr5_of_ne m c main_arg13 (by decide)).trans <|
  (Wh5_of m c main_arg13 (by decide)).trans <|
  (Wr4_of_ne m c main_arg13 (by decide)).trans <|
  (Wh4_of m c main_arg13 (by decide)).trans <|
  (Wr3_of_ne m c main_arg13 (by decide)).trans <|
  (Wh3_of m c main_arg13 (by decide)).trans <|
  (Wr2_of_ne m c main_arg13 (by decide)).trans <|
  (Wh2_of m c main_arg13 (by decide)).trans <|
  (Wr1_of_ne m c main_arg13 (by decide)).trans <|
  (Wh1_of m c main_arg13 (by decide)).trans <|
  (Wr0_of_ne m c main_arg13 (by decide)).trans <|
  (Wh0_of m c main_arg13 (by decide)).trans <| rfl

/-- main_arg14 ends as launched. -/
theorem Wr12_main_arg14 (c : Dev nD) : Wr12 m c (Proc.devRef .tc main_arg14) = m ((c : Thread nD τ).loc main_arg14) :=
  (Wr12_of_ne m c main_arg14 (by decide)).trans <|
  (Wh12_of m c main_arg14 (by decide)).trans <|
  (Wr11_of_ne m c main_arg14 (by decide)).trans <|
  (Wh11_of m c main_arg14 (by decide)).trans <|
  (Wr10_of_ne m c main_arg14 (by decide)).trans <|
  (Wh10_of m c main_arg14 (by decide)).trans <|
  (Wr9_of_ne m c main_arg14 (by decide)).trans <|
  (Wh9_of m c main_arg14 (by decide)).trans <|
  (Wr8_of_ne m c main_arg14 (by decide)).trans <|
  (Wh8_of m c main_arg14 (by decide)).trans <|
  (Wr7_of_ne m c main_arg14 (by decide)).trans <|
  (Wh7_of m c main_arg14 (by decide)).trans <|
  (Wr6_of_ne m c main_arg14 (by decide)).trans <|
  (Wh6_of m c main_arg14 (by decide)).trans <|
  (Wr5_of_ne m c main_arg14 (by decide)).trans <|
  (Wh5_of m c main_arg14 (by decide)).trans <|
  (Wr4_of_ne m c main_arg14 (by decide)).trans <|
  (Wh4_of m c main_arg14 (by decide)).trans <|
  (Wr3_of_ne m c main_arg14 (by decide)).trans <|
  (Wh3_of m c main_arg14 (by decide)).trans <|
  (Wr2_of_ne m c main_arg14 (by decide)).trans <|
  (Wh2_of m c main_arg14 (by decide)).trans <|
  (Wr1_of_ne m c main_arg14 (by decide)).trans <|
  (Wh1_of m c main_arg14 (by decide)).trans <|
  (Wr0_of_ne m c main_arg14 (by decide)).trans <|
  (Wh0_of m c main_arg14 (by decide)).trans <| rfl

/-- main_arg15 ends as launched. -/
theorem Wr12_main_arg15 (c : Dev nD) : Wr12 m c (Proc.devRef .tc main_arg15) = m ((c : Thread nD τ).loc main_arg15) :=
  (Wr12_of_ne m c main_arg15 (by decide)).trans <|
  (Wh12_of m c main_arg15 (by decide)).trans <|
  (Wr11_of_ne m c main_arg15 (by decide)).trans <|
  (Wh11_of m c main_arg15 (by decide)).trans <|
  (Wr10_of_ne m c main_arg15 (by decide)).trans <|
  (Wh10_of m c main_arg15 (by decide)).trans <|
  (Wr9_of_ne m c main_arg15 (by decide)).trans <|
  (Wh9_of m c main_arg15 (by decide)).trans <|
  (Wr8_of_ne m c main_arg15 (by decide)).trans <|
  (Wh8_of m c main_arg15 (by decide)).trans <|
  (Wr7_of_ne m c main_arg15 (by decide)).trans <|
  (Wh7_of m c main_arg15 (by decide)).trans <|
  (Wr6_of_ne m c main_arg15 (by decide)).trans <|
  (Wh6_of m c main_arg15 (by decide)).trans <|
  (Wr5_of_ne m c main_arg15 (by decide)).trans <|
  (Wh5_of m c main_arg15 (by decide)).trans <|
  (Wr4_of_ne m c main_arg15 (by decide)).trans <|
  (Wh4_of m c main_arg15 (by decide)).trans <|
  (Wr3_of_ne m c main_arg15 (by decide)).trans <|
  (Wh3_of m c main_arg15 (by decide)).trans <|
  (Wr2_of_ne m c main_arg15 (by decide)).trans <|
  (Wh2_of m c main_arg15 (by decide)).trans <|
  (Wr1_of_ne m c main_arg15 (by decide)).trans <|
  (Wh1_of m c main_arg15 (by decide)).trans <|
  (Wr0_of_ne m c main_arg15 (by decide)).trans <|
  (Wh0_of m c main_arg15 (by decide)).trans <| rfl

/-- The result's buffer at the end: what the last region's write-backs fold to in its output window's array. -/
theorem Wr12_result (c : Dev nD) : Wr12 m c (Proc.devRef .tc main_v164) = (dat12 (Vh12 m) c).arrAt 8 cfg12.N := Wr12_arr m c 8

/-- The frame: every weakly fair execution terminates, nothing faults, every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_unscoped main_arg0 (by decide))).trans (Wr12_main_arg0 m c),
     (h c _ (mem_unscoped main_arg1 (by decide))).trans (Wr12_main_arg1 m c),
     (h c _ (mem_unscoped main_arg2 (by decide))).trans (Wr12_main_arg2 m c),
     (h c _ (mem_unscoped main_arg3 (by decide))).trans (Wr12_main_arg3 m c),
     (h c _ (mem_unscoped main_arg4 (by decide))).trans (Wr12_main_arg4 m c),
     (h c _ (mem_unscoped main_arg5 (by decide))).trans (Wr12_main_arg5 m c),
     (h c _ (mem_unscoped main_arg6 (by decide))).trans (Wr12_main_arg6 m c),
     (h c _ (mem_unscoped main_arg7 (by decide))).trans (Wr12_main_arg7 m c),
     (h c _ (mem_unscoped main_arg8 (by decide))).trans (Wr12_main_arg8 m c),
     (h c _ (mem_unscoped main_arg9 (by decide))).trans (Wr12_main_arg9 m c),
     (h c _ (mem_unscoped main_arg10 (by decide))).trans (Wr12_main_arg10 m c),
     (h c _ (mem_unscoped main_arg11 (by decide))).trans (Wr12_main_arg11 m c),
     (h c _ (mem_unscoped main_arg12 (by decide))).trans (Wr12_main_arg12 m c),
     (h c _ (mem_unscoped main_arg13 (by decide))).trans (Wr12_main_arg13 m c),
     (h c _ (mem_unscoped main_arg14 (by decide))).trans (Wr12_main_arg14 m c),
     (h c _ (mem_unscoped main_arg15 (by decide))).trans (Wr12_main_arg15 m c)⟩)
    (kernel_run m ρ)

/-- The run with the result named: besides the frame, the result's buffer ends at the last region's fold. -/
theorem run_result : θ_run defs (onTc (τ := τ) (main (F := F))) ⟨m, fun _ => 0, ρ⟩ (fun r => ∀ c : Dev nD,
      r.2.mem ((c.tc : Thread nD τ).loc main_v164) = (dat12 (Vh12 m) c).arrAt 8 cfg12.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_unscoped main_v164 (by decide))).trans (Wr12_result m c),
     (h c _ (mem_unscoped main_arg0 (by decide))).trans (Wr12_main_arg0 m c),
     (h c _ (mem_unscoped main_arg1 (by decide))).trans (Wr12_main_arg1 m c),
     (h c _ (mem_unscoped main_arg2 (by decide))).trans (Wr12_main_arg2 m c),
     (h c _ (mem_unscoped main_arg3 (by decide))).trans (Wr12_main_arg3 m c),
     (h c _ (mem_unscoped main_arg4 (by decide))).trans (Wr12_main_arg4 m c),
     (h c _ (mem_unscoped main_arg5 (by decide))).trans (Wr12_main_arg5 m c),
     (h c _ (mem_unscoped main_arg6 (by decide))).trans (Wr12_main_arg6 m c),
     (h c _ (mem_unscoped main_arg7 (by decide))).trans (Wr12_main_arg7 m c),
     (h c _ (mem_unscoped main_arg8 (by decide))).trans (Wr12_main_arg8 m c),
     (h c _ (mem_unscoped main_arg9 (by decide))).trans (Wr12_main_arg9 m c),
     (h c _ (mem_unscoped main_arg10 (by decide))).trans (Wr12_main_arg10 m c),
     (h c _ (mem_unscoped main_arg11 (by decide))).trans (Wr12_main_arg11 m c),
     (h c _ (mem_unscoped main_arg12 (by decide))).trans (Wr12_main_arg12 m c),
     (h c _ (mem_unscoped main_arg13 (by decide))).trans (Wr12_main_arg13 m c),
     (h c _ (mem_unscoped main_arg14 (by decide))).trans (Wr12_main_arg14 m c),
     (h c _ (mem_unscoped main_arg15 (by decide))).trans (Wr12_main_arg15 m c)⟩)
    (kernel_run m ρ)

end Cert.KernelIdeal.Hand

end
-- ==== Proof.RefRunC0.lean ====
import proofs.«408428_j10917806867267_1_alg».proof.Proof.RefRead

set_option maxHeartbeats 1000000

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 0 … 31 of the reference's @main, in order. -/
abbrev ops0 : List (HloOp τ sig (Elt F)) :=
  [ unary main_arg14 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg14 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S50000x1 ![] bcast_S_S50000x1 : (⟨S_, .f32⟩ : BufTy).Contents (Elt F) → (⟨S50000x1, .f32⟩ : BufTy).Contents (Elt F)),
    nullary main_cst_0 (constant S_ .f32 0x00000000#32),
    unary main_cst_0 main_v5 (broadcastInDim S128x1 ![] bcast_S_S128x1 : (⟨S_, .f32⟩ : BufTy).Contents (Elt F) → (⟨S128x1, .f32⟩ : BufTy).Contents (Elt F)),
    unary main_arg15 main_v6 (broadcastInDim S50000x1 ![0] bcast_S50000_S50000x1_0 : (⟨S50000, .i32⟩ : BufTy).Contents (Elt F) → (⟨S50000x1, .i32⟩ : BufTy).Contents (Elt F)),
    ternary main_v5 main_v6 main_v4 main_v7 ((fun x i u => Host.scatterAdd scatter_S128x1_S50000x1_S50000x1_1_0_0_1 x i u) : (⟨S128x1, .f32⟩ : BufTy).Contents (Elt F) → (⟨S50000x1, .i32⟩ : BufTy).Contents (Elt F) → (⟨S50000x1, .f32⟩ : BufTy).Contents (Elt F) → (⟨S128x1, .f32⟩ : BufTy).Contents (Elt F)),
    nullary main_cst_1 (constant S_ .f32 0x3F800000#32),
    unary main_cst_1 main_v8 (broadcastInDim S128x1 ![] bcast_S_S128x1 : (⟨S_, .f32⟩ : BufTy).Contents (Elt F) → (⟨S128x1, .f32⟩ : BufTy).Contents (Elt F)),
    binary main_v7 main_v8 main_v9 (maximumf : (⟨S128x1, .f32⟩ : BufTy).Contents (Elt F) → (⟨S128x1, .f32⟩ : BufTy).Contents (Elt F) → (⟨S128x1, .f32⟩ : BufTy).Contents (Elt F)),
    nullary main_c (constantI S_ 32 0#32),
    unary main_c main_v10 (broadcastInDim S800000 ![] bcast_S_S800000 : (⟨S_, .i32⟩ : BufTy).Contents (Elt F) → (⟨S800000, .i32⟩ : BufTy).Contents (Elt F)),
    binary main_v1 main_v10 main_v11 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v12 (broadcastInDim S800000 ![] bcast_S_S800000 : (⟨S_, .i32⟩ : BufTy).Contents (Elt F) → (⟨S800000, .i32⟩ : BufTy).Contents (Elt F)),
    binary main_v1 main_v12 main_v13 (addi : (⟨S800000, .i32⟩ : BufTy).Contents (Elt F) → (⟨S800000, .i32⟩ : BufTy).Contents (Elt F) → (⟨S800000, .i32⟩ : BufTy).Contents (Elt F)),
    ternary main_v11 main_v13 main_v1 main_v14 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v14 main_v15 (broadcastInDim S800000x1 ![0] bcast_S800000_S800000x1_0 : (⟨S800000, .i32⟩ : BufTy).Contents (Elt F) → (⟨S800000x1, .i32⟩ : BufTy).Contents (Elt F)),
    binary main_arg0 main_v15 main_v16 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_3 (constant S_ .f32 0x00000000#32),
    unary main_cst_3 main_v17 (broadcastInDim S50000x128 ![] bcast_S_S50000x128 : (⟨S_, .f32⟩ : BufTy).Contents (Elt F) → (⟨S50000x128, .f32⟩ : BufTy).Contents (Elt F)),
    unary main_v3 main_v18 (broadcastInDim S800000x1 ![0] bcast_S800000_S800000x1_0 : (⟨S800000, .i32⟩ : BufTy).Contents (Elt F) → (⟨S800000x1, .i32⟩ : BufTy).Contents (Elt F)),
    ternary main_v17 main_v18 main_v16 main_v19 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_arg0 main_v19 main_v20 (addf : (⟨S50000x128, .f32⟩ : BufTy).Contents (Elt F) → (⟨S50000x128, .f32⟩ : BufTy).Contents (Elt F) → (⟨S50000x128, .f32⟩ : BufTy).Contents (Elt F)),
    unary main_arg1 main_v21 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v21 main_v22 rfl shapeCasts_S1x128x128_S128x128,
    binary main_v20 main_v22 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg2 main_v24 ((extractStridedSlice S1x128 ![0, 0] · slices_S4x128_S1x128_0_0) : (⟨S4x128, .f32⟩ : BufTy).Contents (Elt F) → (⟨S1x128, .f32⟩ : BufTy).Contents (Elt F)),
    reshape main_v24 main_v25 rfl shapeCasts_S1x128_S128 ]

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub ..⟩

theorem ops0_fresh : (ops0 : List (HloOp τ sig (Elt F))).Forall fun op => op.fresh = ∅ := by
  simp only [List.Forall]; repeat' constructor

/-- The references these operations write. -/
abbrev ops0_W : List (Ref sig .tc) := [main_v0, main_v1, main_v2, main_v3, main_cst, main_v4, main_cst_0, main_v5, main_v6, main_v7, main_cst_1, main_v8, main_v9, main_c, main_v10, main_v11, main_c_2, main_v12, main_v13, main_v14, main_v15, main_v16, main_cst_3, main_v17, main_v18, main_v19, main_v20, main_v21, main_v22, main_v23, main_v24, main_v25]

theorem ops0_writes : (ops0 : List (HloOp τ sig (Elt F))).Forall fun op => op.writes ⊆ (ops0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A reference these operations do not write keeps its contents. -/
theorem c0_keeps (V : Valuation τ sig (Elt F)) (r : Ref sig .tc) (h : r ∉ ops0_W) :
    after (ops0 (F := F)) V (Proc.devRef .tc r) = V (Proc.devRef .tc r) :=
  after_of_writes_sub ops0 V ops0_writes h

/-! From any contents V: each reference the stretch writes ends at its stage, given that the references the stage
    reads from before the stretch stand at theirs. -/

theorem c0_main_v0 (V : Valuation τ sig (Elt F)) (x14 : (⟨S2x800000, .i32⟩ : BufTy).Contents (Elt F))
    (h_main_arg14 : V (Proc.devRef .tc main_arg14) = x14) :
    after (ops0 (F := F)) V (Proc.devRef .tc main_v0) = val_main_v0 (F := F) x14 := by
  after_results_simp
  simp only [h_main_arg14]
  rfl

theorem c0_main_v1 (V : Valuation τ sig (Elt F)) (x14 : (⟨S2x800000, .i32⟩ : BufTy).Contents (Elt F))
    (h_main_arg14 : V (Proc.devRef .tc main_arg14) = x14) :
    after (ops0 (F := F)) V (Proc.devRef .tc main_v1) = val_main_v1 (F := F) x14 := by
  after_results_simp
  simp only [h_main_arg14]
  rfl

theorem c0_main_v2 (V : Valuation τ sig (Elt F)) (x14 : (⟨S2x800000, .i32⟩ : BufTy).Contents (Elt F))
    (h_main_arg14 : V (Proc.devRef .tc main_arg14) = x14) :
    after (ops0 (F := F)) V (Proc.devRef .tc main_v2) = val_main_v2 (F := F) x14 := by
  after_results_simp
  simp only [h_main_arg14]
  rfl

theorem c0_main_v3 (V : Valuation τ sig (Elt F)) (x14 : (⟨S2x800000, .i32⟩ : BufTy).Contents (Elt F))
    (h_main_arg14 : V (Proc.devRef .tc main_arg14) = x14) :
    after (ops0 (F := F)) V (Proc.devRef .tc main_v3) = val_main_v3 (F := F) x14 := by
  after_results_simp
  simp only [h_main_arg14]
  rfl

theorem c0_main_cst (V : Valuation τ sig (Elt F)) :
    after (ops0 (F := F)) V (Proc.devRef .tc main_cst) = val_main_cst (F := F) := by
  after_results_simp
  rfl

theorem c0_main_v4 (V : Valuation τ sig (Elt F)) :
    after (ops0 (F := F)) V (Proc.devRef .tc main_v4) = val_main_v4 (F := F) := by
  after_results_simp
  rfl

theorem c0_main_cst_0 (V : Valuation τ sig (Elt F)) :
    after (ops0 (F := F)) V (Proc.devRef .tc main_cst_0) = val_main_cst_0 (F := F) := by
  after_results_simp
  rfl

theorem c0_main_v5 (V : Valuation τ sig (Elt F)) :
    after (ops0 (F := F)) V (Proc.devRef .tc main_v5) = val_main_v5 (F := F) := by
  after_results_simp
  rfl

theorem c0_main_v6 (V : Valuation τ sig (Elt F)) (x15 : (⟨S50000, .i32⟩ : BufTy).Contents (Elt F))
    (h_main_arg15 : V (Proc.devRef .tc main_arg15) = x15) :
    after (ops0 (F := F)) V (Proc.devRef .tc main_v6) = val_main_v6 (F := F) x15 := by
  after_results_simp
  simp only [h_main_arg15]
  rfl

theorem c0_main_v7 (V : Valuation τ sig (Elt F)) (x15 : (⟨S50000, .i32⟩ : BufTy).Contents (Elt F))
    (h_main_arg15 : V (Proc.devRef .tc main_arg15) = x15) :
    after (ops0 (F := F)) V (Proc.devRef .tc main_v7) = val_main_v7 (F := F) x15 := by
  after_results_simp
  simp only [h_main_arg15]
  rfl

theorem c0_main_cst_1 (V : Valuation τ sig (Elt F)) :
    after (ops0 (F := F)) V (Proc.devRef .tc main_cst_1) = val_main_cst_1 (F := F) := by
  after_results_simp
  rfl

theorem c0_main_v8 (V : Valuation τ sig (Elt F)) :
    after (ops0 (F := F)) V (Proc.devRef .tc main_v8) = val_main_v8 (F := F) := by
  after_results_simp
  rfl

theorem c0_main_v9 (V : Valuation τ sig (Elt F)) (x15 : (⟨S50000, .i32⟩ : BufTy).Contents (Elt F))
    (h_main_arg15 : V (Proc.devRef .tc main_arg15) = x15) :
    after (ops0 (F := F)) V (Proc.devRef .tc main_v9) = val_main_v9 (F := F) x15 := by
  after_results_simp
  simp only [h_main_arg15]
  rfl

theorem c0_main_c (V : Valuation τ sig (Elt F)) :
    after (ops0 (F := F)) V (Proc.devRef .tc main_c) = val_main_c (F := F) := by
  after_results_simp
  rfl

theorem c0_main_v10 (V : Valuation τ sig (Elt F)) :
    after (ops0 (F := F)) V (Proc.devRef .tc main_v10) = val_main_v10 (F := F) := by
  after_results_simp
  rfl

theorem c0_main_v11 (V : Valuation τ sig (Elt F)) (x14 : (⟨S2x800000, .i32⟩ : BufTy).Contents (Elt F))
    (h_main_arg14 : V (Proc.devRef .tc main_arg14) = x14) :
    after (ops0 (F := F)) V (Proc.devRef .tc main_v11) = val_main_v11 (F := F) x14 := by
  after_results_simp
  simp only [h_main_arg14]
  rfl

theorem c0_main_c_2 (V : Valuation τ sig (Elt F)) :
    after (ops0 (F := F)) V (Proc.devRef .tc main_c_2) = val_main_c_2 (F := F) := by
  after_results_simp
  rfl

theorem c0_main_v12 (V : Valuation τ sig (Elt F)) :
    after (ops0 (F := F)) V (Proc.devRef .tc main_v12) = val_main_v12 (F := F) := by
  after_results_simp
  rfl

theorem c0_main_v13 (V : Valuation τ sig (Elt F)) (x14 : (⟨S2x800000, .i32⟩ : BufTy).Contents (Elt F))
    (h_main_arg14 : V (Proc.devRef .tc main_arg14) = x14) :
    after (ops0 (F := F)) V (Proc.devRef .tc main_v13) = val_main_v13 (F := F) x14 := by
  after_results_simp
  simp only [h_main_arg14]
  rfl

theorem c0_main_v14 (V : Valuation τ sig (Elt F)) (x14 : (⟨S2x800000, .i32⟩ : BufTy).Contents (Elt F))
    (h_main_arg14 : V (Proc.devRef .tc main_arg14) = x14) :
    after (ops0 (F := F)) V (Proc.devRef .tc main_v14) = val_main_v14 (F := F) x14 := by
  after_results_simp
  simp only [h_main_arg14]
  rfl

theorem c0_main_v15 (V : Valuation τ sig (Elt F)) (x14 : (⟨S2x800000, .i32⟩ : BufTy).Contents (Elt F))
    (h_main_arg14 : V (Proc.devRef .tc main_arg14) = x14) :
    after (ops0 (F := F)) V (Proc.devRef .tc main_v15) = val_main_v15 (F := F) x14 := by
  after_results_simp
  simp only [h_main_arg14]
  rfl

theorem c0_main_v16 (V : Valuation τ sig (Elt F)) (x0 : (⟨S50000x128, .f32⟩ : BufTy).Contents (Elt F)) (x14 : (⟨S2x800000, .i32⟩ : BufTy).Contents (Elt F))
    (h_main_arg0 : V (Proc.devRef .tc main_arg0) = x0)
    (h_main_arg14 : V (Proc.devRef .tc main_arg14) = x14) :
    after (ops0 (F := F)) V (Proc.devRef .tc main_v16) = val_main_v16 (F := F) x0 x14 := by
  after_results_simp
  simp only [h_main_arg0, h_main_arg14]
  rfl

theorem c0_main_cst_3 (V : Valuation τ sig (Elt F)) :
    after (ops0 (F := F)) V (Proc.devRef .tc main_cst_3) = val_main_cst_3 (F := F) := by
  after_results_simp
  rfl

theorem c0_main_v17 (V : Valuation τ sig (Elt F)) :
    after (ops0 (F := F)) V (Proc.devRef .tc main_v17) = val_main_v17 (F := F) := by
  after_results_simp
  rfl

theorem c0_main_v18 (V : Valuation τ sig (Elt F)) (x14 : (⟨S2x800000, .i32⟩ : BufTy).Contents (Elt F))
    (h_main_arg14 : V (Proc.devRef .tc main_arg14) = x14) :
    after (ops0 (F := F)) V (Proc.devRef .tc main_v18) = val_main_v18 (F := F) x14 := by
  after_results_simp
  simp only [h_main_arg14]
  rfl

theorem c0_main_v19 (V : Valuation τ sig (Elt F)) (x0 : (⟨S50000x128, .f32⟩ : BufTy).Contents (Elt F)) (x14 : (⟨S2x800000, .i32⟩ : BufTy).Contents (Elt F))
    (h_main_arg14 : V (Proc.devRef .tc main_arg14) = x14)
    (h_main_arg0 : V (Proc.devRef .tc main_arg0) = x0) :
    after (ops0 (F := F)) V (Proc.devRef .tc main_v19) = val_main_v19 (F := F) x0 x14 := by
  after_results_simp
  simp only [h_main_arg14, h_main_arg0]
  rfl

theorem c0_main_v20 (V : Valuation τ sig (Elt F)) (x0 : (⟨S50000x128, .f32⟩ : BufTy).Contents (Elt F)) (x14 : (⟨S2x800000, .i32⟩ : BufTy).Contents (Elt F))
    (h_main_arg0 : V (Proc.devRef .tc main_arg0) = x0)
    (h_main_arg14 : V (Proc.devRef .tc main_arg14) = x14) :
    after (ops0 (F := F)) V (Proc.devRef .tc main_v20) = val_main_v20 (F := F) x0 x14 := by
  after_results_simp
  simp only [h_main_arg0, h_main_arg14]
  rfl

theorem c0_main_v21 (V : Valuation τ sig (Elt F)) (x1 : (⟨S4x128x128, .f32⟩ : BufTy).Contents (Elt F))
    (h_main_arg1 : V (Proc.devRef .tc main_arg1) = x1) :
    after (ops0 (F := F)) V (Proc.devRef .tc main_v21) = val_main_v21 (F := F) x1 := by
  after_results_simp
  simp only [h_main_arg1]
  rfl

theorem c0_main_v22 (V : Valuation τ sig (Elt F)) (x1 : (⟨S4x128x128, .f32⟩ : BufTy).Contents (Elt F))
    (h_main_arg1 : V (Proc.devRef .tc main_arg1) = x1) :
    after (ops0 (F := F)) V (Proc.devRef .tc main_v22) = val_main_v22 (F := F) x1 := by
  after_results_simp
  simp only [h_main_arg1]
  rfl

theorem c0_main_v23 (V : Valuation τ sig (Elt F)) (x0 : (⟨S50000x128, .f32⟩ : BufTy).Contents (Elt F)) (x1 : (⟨S4x128x128, .f32⟩ : BufTy).Contents (Elt F)) (x14 : (⟨S2x800000, .i32⟩ : BufTy).Contents (Elt F))
    (h_main_arg0 : V (Proc.devRef .tc main_arg0) = x0)
    (h_main_arg14 : V (Proc.devRef .tc main_arg14) = x14)
    (h_main_arg1 : V (Proc.devRef .tc main_arg1) = x1) :
    after (ops0 (F := F)) V (Proc.devRef .tc main_v23) = val_main_v23 (F := F) x0 x1 x14 := by
  after_results_simp
  simp only [h_main_arg0, h_main_arg14, h_main_arg1]
  rfl

theorem c0_main_v24 (V : Valuation τ sig (Elt F)) (x2 : (⟨S4x128, .f32⟩ : BufTy).Contents (Elt F))
    (h_main_arg2 : V (Proc.devRef .tc main_arg2) = x2) :
    after (ops0 (F := F)) V (Proc.devRef .tc main_v24) = val_main_v24 (F := F) x2 := by
  after_results_simp
  simp only [h_main_arg2]
  rfl

theorem c0_main_v25 (V : Valuation τ sig (Elt F)) (x2 : (⟨S4x128, .f32⟩ : BufTy).Contents (Elt F))
    (h_main_arg2 : V (Proc.devRef .tc main_arg2) = x2) :
    after (ops0 (F := F)) V (Proc.devRef .tc main_v25) = val_main_v25 (F := F) x2 := by
  after_results_simp
  simp only [h_main_arg2]
  rfl

end Cert.ReferenceIdeal.RunH

end
-- ==== Proof.RefRunC1.lean ====
import proofs.«408428_j10917806867267_1_alg».proof.Proof.RefRead

set_option maxHeartbeats 1000000

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 32 … 63 of the reference's @main, in order. -/
abbrev ops1 : List (HloOp τ sig (Elt F)) :=
  [ unary main_v25 main_v26 (broadcastInDim S1x128 ![1] bcast_S128_S1x128_1 : (⟨S128, .f32⟩ : BufTy).Contents (Elt F) → (⟨S1x128, .f32⟩ : BufTy).Contents (Elt F)),
    unary main_v26 main_v27 (broadcastInDim S50000x128 ![0, 1] bcast_S1x128_S50000x128_0_1 : (⟨S1x128, .f32⟩ : BufTy).Contents (Elt F) → (⟨S50000x128, .f32⟩ : BufTy).Contents (Elt F)),
    binary main_v23 main_v27 main_v28 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v28) (TRef.of (T := ⟨S50000x128, .f32⟩) main_call0_v0) (TRef.of (T := ⟨S50000x128, .f32⟩) main_v29) maximumf,
    unary main_arg3 main_v30 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v30 main_v31 rfl shapeCasts_S1x128x128_S128x128,
    binary main_v29 main_v31 main_v32 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v33 ((extractStridedSlice S1x128 ![0, 0] · slices_S4x128_S1x128_0_0) : (⟨S4x128, .f32⟩ : BufTy).Contents (Elt F) → (⟨S1x128, .f32⟩ : BufTy).Contents (Elt F)),
    reshape main_v33 main_v34 rfl shapeCasts_S1x128_S128,
    unary main_v34 main_v35 (broadcastInDim S1x128 ![1] bcast_S128_S1x128_1 : (⟨S128, .f32⟩ : BufTy).Contents (Elt F) → (⟨S1x128, .f32⟩ : BufTy).Contents (Elt F)),
    unary main_v35 main_v36 (broadcastInDim S50000x128 ![0, 1] bcast_S1x128_S50000x128_0_1 : (⟨S1x128, .f32⟩ : BufTy).Contents (Elt F) → (⟨S50000x128, .f32⟩ : BufTy).Contents (Elt F)),
    binary main_v32 main_v36 main_v37 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v37) (TRef.of (T := ⟨S50000x128, .f32⟩) main_call1_v0) (TRef.of (T := ⟨S50000x128, .f32⟩) main_v38) maximumf,
    unary main_arg5 main_v39 ((extractStridedSlice S1x128 ![0, 0] · slices_S4x128_S1x128_0_0) : (⟨S4x128, .f32⟩ : BufTy).Contents (Elt F) → (⟨S1x128, .f32⟩ : BufTy).Contents (Elt F)),
    reshape main_v39 main_v40 rfl shapeCasts_S1x128_S128,
    unary main_arg6 main_v41 ((extractStridedSlice S1x128 ![0, 0] · slices_S4x128_S1x128_0_0) : (⟨S4x128, .f32⟩ : BufTy).Contents (Elt F) → (⟨S1x128, .f32⟩ : BufTy).Contents (Elt F)),
    reshape main_v41 main_v42 rfl shapeCasts_S1x128_S128,
    unary main_arg7 main_v43 ((extractStridedSlice S1x128 ![0, 0] · slices_S4x128_S1x128_0_0) : (⟨S4x128, .f32⟩ : BufTy).Contents (Elt F) → (⟨S1x128, .f32⟩ : BufTy).Contents (Elt F)),
    reshape main_v43 main_v44 rfl shapeCasts_S1x128_S128,
    nullary main_cst_4 (constant S_ .f32 0x00000000#32),
    unary main_cst_4 main_v45 (broadcastInDim S128x128 ![] bcast_S_S128x128 : (⟨S_, .f32⟩ : BufTy).Contents (Elt F) → (⟨S128x128, .f32⟩ : BufTy).Contents (Elt F)),
    unary main_arg15 main_v46 (broadcastInDim S50000x1 ![0] bcast_S50000_S50000x1_0 : (⟨S50000, .i32⟩ : BufTy).Contents (Elt F) → (⟨S50000x1, .i32⟩ : BufTy).Contents (Elt F)),
    ternary main_v45 main_v46 main_v38 main_v47 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    unary main_v9 main_v48 (broadcastInDim S128x128 ![0, 1] bcast_S128x1_S128x128_0_1 : (⟨S128x1, .f32⟩ : BufTy).Contents (Elt F) → (⟨S128x128, .f32⟩ : BufTy).Contents (Elt F)),
    binary main_v47 main_v48 main_v49 (Host.divf : (⟨S128x128, .f32⟩ : BufTy).Contents (Elt F) → (⟨S128x128, .f32⟩ : BufTy).Contents (Elt F) → (⟨S128x128, .f32⟩ : BufTy).Contents (Elt F)),
    nullary main_c_5 (constantI S_ 32 0#32),
    unary main_c_5 main_v50 (broadcastInDim S50000 ![] bcast_S_S50000 : (⟨S_, .i32⟩ : BufTy).Contents (Elt F) → (⟨S50000, .i32⟩ : BufTy).Contents (Elt F)),
    binary main_arg15 main_v50 main_v51 (cmpi .slt : (⟨S50000, .i32⟩ : BufTy).Contents (Elt F) → (⟨S50000, .i32⟩ : BufTy).Contents (Elt F) → (⟨S50000, .i1⟩ : BufTy).Contents (Elt F)) ]

set_option maxRecDepth 8192 in
theorem ops1_sub : (ops1 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., nullary_bufs_sub .., unary_bufs_sub .., unary_bufs_sub .., ternary_bufs_sub .., unary_bufs_sub .., binary_bufs_sub .., nullary_bufs_sub .., unary_bufs_sub .., binary_bufs_sub ..⟩

theorem ops1_fresh : (ops1 : List (HloOp τ sig (Elt F))).Forall fun op => op.fresh = ∅ := by
  simp only [List.Forall]; repeat' constructor

/-- The references these operations write. -/
abbrev ops1_W : List (Ref sig .tc) := [main_v26, main_v27, main_v28, main_call0_cst, main_call0_v0, main_v29, main_v30, main_v31, main_v32, main_v33, main_v34, main_v35, main_v36, main_v37, main_call1_cst, main_call1_v0, main_v38, main_v39, main_v40, main_v41, main_v42, main_v43, main_v44, main_cst_4, main_v45, main_v46, main_v47, main_v48, main_v49, main_c_5, main_v50, main_v51]

theorem ops1_writes : (ops1 : List (HloOp τ sig (Elt F))).Forall fun op => op.writes ⊆ (ops1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A reference these operations do not write keeps its contents. -/
theorem c1_keeps (V : Valuation τ sig (Elt F)) (r : Ref sig .tc) (h : r ∉ ops1_W) :
    after (ops1 (F := F)) V (Proc.devRef .tc r) = V (Proc.devRef .tc r) :=
  after_of_writes_sub ops1 V ops1_writes h

/-! From any contents V: each reference the stretch writes ends at its stage, given that the references the stage
    reads from before the stretch stand at theirs. -/

theorem c1_main_v26 (V : Valuation τ sig (Elt F)) (x2 : (⟨S4x128, .f32⟩ : BufTy).Contents (Elt F))
    (h_main_v25 : V (Proc.devRef .tc main_v25) = val_main_v25 (F := F) x2) :
    after (ops1 (F := F)) V (Proc.devRef .tc main_v26) = val_main_v26 (F := F) x2 := by
  after_results_simp
  simp only [h_main_v25]
  rfl

theorem c1_main_v27 (V : Valuation τ sig (Elt F)) (x2 : (⟨S4x128, .f32⟩ : BufTy).Contents (Elt F))
    (h_main_v25 : V (Proc.devRef .tc main_v25) = val_main_v25 (F := F) x2) :
    after (ops1 (F := F)) V (Proc.devRef .tc main_v27) = val_main_v27 (F := F) x2 := by
  after_results_simp
  simp only [h_main_v25]
  rfl

theorem c1_main_v28 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x14 : (⟨S2x800000, .i32⟩ : BufTy).Contents (Elt F))
    (h_main_v23 : V (Proc.devRef .tc main_v23) = val_main_v23 (F := F) x0 x1 x14)
    (h_main_v25 : V (Proc.devRef .tc main_v25) = val_main_v25 (F := F) x2) :
    after (ops1 (F := F)) V (Proc.devRef .tc main_v28) = val_main_v28 (F := F) x0 x1 x2 x14 := by
  after_results_simp
  simp only [h_main_v23, h_main_v25]
  rfl

theorem c1_main_call0_cst (V : Valuation τ sig (Elt F)) :
    after (ops1 (F := F)) V (Proc.devRef .tc main_call0_cst) = val_main_call0_cst (F := F) := by
  after_results_simp
  rfl

theorem c1_main_call0_v0 (V : Valuation τ sig (Elt F)) :
    after (ops1 (F := F)) V (Proc.devRef .tc main_call0_v0) = val_main_call0_v0 (F := F) := by
  after_results_simp
  rfl

theorem c1_main_v29 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x14 : (⟨S2x800000, .i32⟩ : BufTy).Contents (Elt F))
    (h_main_v23 : V (Proc.devRef .tc main_v23) = val_main_v23 (F := F) x0 x1 x14)
    (h_main_v25 : V (Proc.devRef .tc main_v25) = val_main_v25 (F := F) x2) :
    after (ops1 (F := F)) V (Proc.devRef .tc main_v29) = val_main_v29 (F := F) x0 x1 x2 x14 := by
  after_results_simp
  simp only [h_main_v23, h_main_v25]
  rfl

theorem c1_main_v30 (V : Valuation τ sig (Elt F)) (x3 : (⟨S4x128x128, .f32⟩ : BufTy).Contents (Elt F))
    (h_main_arg3 : V (Proc.devRef .tc main_arg3) = x3) :
    after (ops1 (F := F)) V (Proc.devRef .tc main_v30) = val_main_v30 (F := F) x3 := by
  after_results_simp
  simp only [h_main_arg3]
  rfl

theorem c1_main_v31 (V : Valuation τ sig (Elt F)) (x3 : (⟨S4x128x128, .f32⟩ : BufTy).Contents (Elt F))
    (h_main_arg3 : V (Proc.devRef .tc main_arg3) = x3) :
    after (ops1 (F := F)) V (Proc.devRef .tc main_v31) = val_main_v31 (F := F) x3 := by
  after_results_simp
  simp only [h_main_arg3]
  rfl

theorem c1_main_v32 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x14 : (⟨S2x800000, .i32⟩ : BufTy).Contents (Elt F))
    (h_main_v23 : V (Proc.devRef .tc main_v23) = val_main_v23 (F := F) x0 x1 x14)
    (h_main_v25 : V (Proc.devRef .tc main_v25) = val_main_v25 (F := F) x2)
    (h_main_arg3 : V (Proc.devRef .tc main_arg3) = x3) :
    after (ops1 (F := F)) V (Proc.devRef .tc main_v32) = val_main_v32 (F := F) x0 x1 x2 x3 x14 := by
  after_results_simp
  simp only [h_main_v23, h_main_v25, h_main_arg3]
  rfl

theorem c1_main_v33 (V : Valuation τ sig (Elt F)) (x4 : (⟨S4x128, .f32⟩ : BufTy).Contents (Elt F))
    (h_main_arg4 : V (Proc.devRef .tc main_arg4) = x4) :
    after (ops1 (F := F)) V (Proc.devRef .tc main_v33) = val_main_v33 (F := F) x4 := by
  after_results_simp
  simp only [h_main_arg4]
  rfl

theorem c1_main_v34 (V : Valuation τ sig (Elt F)) (x4 : (⟨S4x128, .f32⟩ : BufTy).Contents (Elt F))
    (h_main_arg4 : V (Proc.devRef .tc main_arg4) = x4) :
    after (ops1 (F := F)) V (Proc.devRef .tc main_v34) = val_main_v34 (F := F) x4 := by
  after_results_simp
  simp only [h_main_arg4]
  rfl

theorem c1_main_v35 (V : Valuation τ sig (Elt F)) (x4 : (⟨S4x128, .f32⟩ : BufTy).Contents (Elt F))
    (h_main_arg4 : V (Proc.devRef .tc main_arg4) = x4) :
    after (ops1 (F := F)) V (Proc.devRef .tc main_v35) = val_main_v35 (F := F) x4 := by
  after_results_simp
  simp only [h_main_arg4]
  rfl

theorem c1_main_v36 (V : Valuation τ sig (Elt F)) (x4 : (⟨S4x128, .f32⟩ : BufTy).Contents (Elt F))
    (h_main_arg4 : V (Proc.devRef .tc main_arg4) = x4) :
    after (ops1 (F := F)) V (Proc.devRef .tc main_v36) = val_main_v36 (F := F) x4 := by
  after_results_simp
  simp only [h_main_arg4]
  rfl

theorem c1_main_v37 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x14 : (⟨S2x800000, .i32⟩ : BufTy).Contents (Elt F))
    (h_main_v23 : V (Proc.devRef .tc main_v23) = val_main_v23 (F := F) x0 x1 x14)
    (h_main_v25 : V (Proc.devRef .tc main_v25) = val_main_v25 (F := F) x2)
    (h_main_arg3 : V (Proc.devRef .tc main_arg3) = x3)
    (h_main_arg4 : V (Proc.devRef .tc main_arg4) = x4) :
    after (ops1 (F := F)) V (Proc.devRef .tc main_v37) = val_main_v37 (F := F) x0 x1 x2 x3 x4 x14 := by
  after_results_simp
  simp only [h_main_v23, h_main_v25, h_main_arg3, h_main_arg4]
  rfl

theorem c1_main_call1_cst (V : Valuation τ sig (Elt F)) :
    after (ops1 (F := F)) V (Proc.devRef .tc main_call1_cst) = val_main_call1_cst (F := F) := by
  after_results_simp
  rfl

theorem c1_main_call1_v0 (V : Valuation τ sig (Elt F)) :
    after (ops1 (F := F)) V (Proc.devRef .tc main_call1_v0) = val_main_call1_v0 (F := F) := by
  after_results_simp
  rfl

theorem c1_main_v38 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x14 : (⟨S2x800000, .i32⟩ : BufTy).Contents (Elt F))
    (h_main_v23 : V (Proc.devRef .tc main_v23) = val_main_v23 (F := F) x0 x1 x14)
    (h_main_v25 : V (Proc.devRef .tc main_v25) = val_main_v25 (F := F) x2)
    (h_main_arg3 : V (Proc.devRef .tc main_arg3) = x3)
    (h_main_arg4 : V (Proc.devRef .tc main_arg4) = x4) :
    after (ops1 (F := F)) V (Proc.devRef .tc main_v38) = val_main_v38 (F := F) x0 x1 x2 x3 x4 x14 := by
  after_results_simp
  simp only [h_main_v23, h_main_v25, h_main_arg3, h_main_arg4]
  rfl

theorem c1_main_v39 (V : Valuation τ sig (Elt F)) (x5 : (⟨S4x128, .f32⟩ : BufTy).Contents (Elt F))
    (h_main_arg5 : V (Proc.devRef .tc main_arg5) = x5) :
    after (ops1 (F := F)) V (Proc.devRef .tc main_v39) = val_main_v39 (F := F) x5 := by
  after_results_simp
  simp only [h_main_arg5]
  rfl

theorem c1_main_v40 (V : Valuation τ sig (Elt F)) (x5 : (⟨S4x128, .f32⟩ : BufTy).Contents (Elt F))
    (h_main_arg5 : V (Proc.devRef .tc main_arg5) = x5) :
    after (ops1 (F := F)) V (Proc.devRef .tc main_v40) = val_main_v40 (F := F) x5 := by
  after_results_simp
  simp only [h_main_arg5]
  rfl

theorem c1_main_v41 (V : Valuation τ sig (Elt F)) (x6 : (⟨S4x128, .f32⟩ : BufTy).Contents (Elt F))
    (h_main_arg6 : V (Proc.devRef .tc main_arg6) = x6) :
    after (ops1 (F := F)) V (Proc.devRef .tc main_v41) = val_main_v41 (F := F) x6 := by
  after_results_simp
  simp only [h_main_arg6]
  rfl

theorem c1_main_v42 (V : Valuation τ sig (Elt F)) (x6 : (⟨S4x128, .f32⟩ : BufTy).Contents (Elt F))
    (h_main_arg6 : V (Proc.devRef .tc main_arg6) = x6) :
    after (ops1 (F := F)) V (Proc.devRef .tc main_v42) = val_main_v42 (F := F) x6 := by
  after_results_simp
  simp only [h_main_arg6]
  rfl

theorem c1_main_v43 (V : Valuation τ sig (Elt F)) (x7 : (⟨S4x128, .f32⟩ : BufTy).Contents (Elt F))
    (h_main_arg7 : V (Proc.devRef .tc main_arg7) = x7) :
    after (ops1 (F := F)) V (Proc.devRef .tc main_v43) = val_main_v43 (F := F) x7 := by
  after_results_simp
  simp only [h_main_arg7]
  rfl

theorem c1_main_v44 (V : Valuation τ sig (Elt F)) (x7 : (⟨S4x128, .f32⟩ : BufTy).Contents (Elt F))
    (h_main_arg7 : V (Proc.devRef .tc main_arg7) = x7) :
    after (ops1 (F := F)) V (Proc.devRef .tc main_v44) = val_main_v44 (F := F) x7 := by
  after_results_simp
  simp only [h_main_arg7]
  rfl

theorem c1_main_cst_4 (V : Valuation τ sig (Elt F)) :
    after (ops1 (F := F)) V (Proc.devRef .tc main_cst_4) = val_main_cst_4 (F := F) := by
  after_results_simp
  rfl

theorem c1_main_v45 (V : Valuation τ sig (Elt F)) :
    after (ops1 (F := F)) V (Proc.devRef .tc main_v45) = val_main_v45 (F := F) := by
  after_results_simp
  rfl

theorem c1_main_v46 (V : Valuation τ sig (Elt F)) (x15 : (⟨S50000, .i32⟩ : BufTy).Contents (Elt F))
    (h_main_arg15 : V (Proc.devRef .tc main_arg15) = x15) :
    after (ops1 (F := F)) V (Proc.devRef .tc main_v46) = val_main_v46 (F := F) x15 := by
  after_results_simp
  simp only [h_main_arg15]
  rfl

theorem c1_main_v47 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x14 : (⟨S2x800000, .i32⟩ : BufTy).Contents (Elt F)) (x15 : (⟨S50000, .i32⟩ : BufTy).Contents (Elt F))
    (h_main_arg15 : V (Proc.devRef .tc main_arg15) = x15)
    (h_main_v23 : V (Proc.devRef .tc main_v23) = val_main_v23 (F := F) x0 x1 x14)
    (h_main_v25 : V (Proc.devRef .tc main_v25) = val_main_v25 (F := F) x2)
    (h_main_arg3 : V (Proc.devRef .tc main_arg3) = x3)
    (h_main_arg4 : V (Proc.devRef .tc main_arg4) = x4) :
    after (ops1 (F := F)) V (Proc.devRef .tc main_v47) = val_main_v47 (F := F) x0 x1 x2 x3 x4 x14 x15 := by
  after_results_simp
  simp only [h_main_arg15, h_main_v23, h_main_v25, h_main_arg3, h_main_arg4]
  rfl

theorem c1_main_v48 (V : Valuation τ sig (Elt F)) (x15 : (⟨S50000, .i32⟩ : BufTy).Contents (Elt F))
    (h_main_v9 : V (Proc.devRef .tc main_v9) = val_main_v9 (F := F) x15) :
    after (ops1 (F := F)) V (Proc.devRef .tc main_v48) = val_main_v48 (F := F) x15 := by
  after_results_simp
  simp only [h_main_v9]
  rfl

theorem c1_main_v49 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x14 : (⟨S2x800000, .i32⟩ : BufTy).Contents (Elt F)) (x15 : (⟨S50000, .i32⟩ : BufTy).Contents (Elt F))
    (h_main_arg15 : V (Proc.devRef .tc main_arg15) = x15)
    (h_main_v23 : V (Proc.devRef .tc main_v23) = val_main_v23 (F := F) x0 x1 x14)
    (h_main_v25 : V (Proc.devRef .tc main_v25) = val_main_v25 (F := F) x2)
    (h_main_arg3 : V (Proc.devRef .tc main_arg3) = x3)
    (h_main_arg4 : V (Proc.devRef .tc main_arg4) = x4)
    (h_main_v9 : V (Proc.devRef .tc main_v9) = val_main_v9 (F := F) x15) :
    after (ops1 (F := F)) V (Proc.devRef .tc main_v49) = val_main_v49 (F := F) x0 x1 x2 x3 x4 x14 x15 := by
  after_results_simp
  simp only [h_main_arg15, h_main_v23, h_main_v25, h_main_arg3, h_main_arg4, h_main_v9]
  rfl

theorem c1_main_c_5 (V : Valuation τ sig (Elt F)) :
    after (ops1 (F := F)) V (Proc.devRef .tc main_c_5) = val_main_c_5 (F := F) := by
  after_results_simp
  rfl

theorem c1_main_v50 (V : Valuation τ sig (Elt F)) :
    after (ops1 (F := F)) V (Proc.devRef .tc main_v50) = val_main_v50 (F := F) := by
  after_results_simp
  rfl

theorem c1_main_v51 (V : Valuation τ sig (Elt F)) (x15 : (⟨S50000, .i32⟩ : BufTy).Contents (Elt F))
    (h_main_arg15 : V (Proc.devRef .tc main_arg15) = x15) :
    after (ops1 (F := F)) V (Proc.devRef .tc main_v51) = val_main_v51 (F := F) x15 := by
  after_results_simp
  simp only [h_main_arg15]
  rfl

end Cert.ReferenceIdeal.RunH

end
-- ==== Proof.RefRunC2.lean ====
import proofs.«408428_j10917806867267_1_alg».proof.Proof.RefRead

set_option maxHeartbeats 1000000

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 64 … 94 of the reference's @main, in order. -/
abbrev ops2 : List (HloOp τ sig (Elt F)) :=
  [ nullary main_c_6 (constantI S_ 32 128#32),
    unary main_c_6 main_v52 (broadcastInDim S50000 ![] bcast_S_S50000 : (⟨S_, .i32⟩ : BufTy).Contents (Elt F) → (⟨S50000, .i32⟩ : BufTy).Contents (Elt F)),
    binary main_arg15 main_v52 main_v53 (addi : (⟨S50000, .i32⟩ : BufTy).Contents (Elt F) → (⟨S50000, .i32⟩ : BufTy).Contents (Elt F) → (⟨S50000, .i32⟩ : BufTy).Contents (Elt F)),
    ternary main_v51 main_v53 main_arg15 main_v54 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v54 main_v55 (broadcastInDim S50000x1 ![0] bcast_S50000_S50000x1_0 : (⟨S50000, .i32⟩ : BufTy).Contents (Elt F) → (⟨S50000x1, .i32⟩ : BufTy).Contents (Elt F)),
    binary main_v49 main_v55 main_v56 ((fun x i => Host.gather gather_S128x128_S50000x1_S50000x128_1_0_n_n_0_1_1128 x i) : (⟨S128x128, .f32⟩ : BufTy).Contents (Elt F) → (⟨S50000x1, .i32⟩ : BufTy).Contents (Elt F) → (⟨S50000x128, .f32⟩ : BufTy).Contents (Elt F)),
    unary main_v44 main_v57 (broadcastInDim S1x128 ![1] bcast_S128_S1x128_1 : (⟨S128, .f32⟩ : BufTy).Contents (Elt F) → (⟨S1x128, .f32⟩ : BufTy).Contents (Elt F)),
    unary main_v57 main_v58 (broadcastInDim S50000x128 ![0, 1] bcast_S1x128_S50000x128_0_1 : (⟨S1x128, .f32⟩ : BufTy).Contents (Elt F) → (⟨S50000x128, .f32⟩ : BufTy).Contents (Elt F)),
    binary main_v56 main_v58 main_v59 (mulf : (⟨S50000x128, .f32⟩ : BufTy).Contents (Elt F) → (⟨S50000x128, .f32⟩ : BufTy).Contents (Elt F) → (⟨S50000x128, .f32⟩ : BufTy).Contents (Elt F)),
    binary main_v38 main_v59 main_v60 (subf : (⟨S50000x128, .f32⟩ : BufTy).Contents (Elt F) → (⟨S50000x128, .f32⟩ : BufTy).Contents (Elt F) → (⟨S50000x128, .f32⟩ : BufTy).Contents (Elt F)),
    binary main_v60 main_v60 main_v61 (mulf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x00000000#32),
    unary main_cst_7 main_v62 (broadcastInDim S128x128 ![] bcast_S_S128x128 : (⟨S_, .f32⟩ : BufTy).Contents (Elt F) → (⟨S128x128, .f32⟩ : BufTy).Contents (Elt F)),
    unary main_arg15 main_v63 (broadcastInDim S50000x1 ![0] bcast_S50000_S50000x1_0 : (⟨S50000, .i32⟩ : BufTy).Contents (Elt F) → (⟨S50000x1, .i32⟩ : BufTy).Contents (Elt F)),
    ternary main_v62 main_v63 main_v61 main_v64 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    unary main_v9 main_v65 (broadcastInDim S128x128 ![0, 1] bcast_S128x1_S128x128_0_1 : (⟨S128x1, .f32⟩ : BufTy).Contents (Elt F) → (⟨S128x128, .f32⟩ : BufTy).Contents (Elt F)),
    binary main_v64 main_v65 main_v66 (Host.divf : (⟨S128x128, .f32⟩ : BufTy).Contents (Elt F) → (⟨S128x128, .f32⟩ : BufTy).Contents (Elt F) → (⟨S128x128, .f32⟩ : BufTy).Contents (Elt F)),
    unary main_v40 main_v67 (broadcastInDim S1x128 ![1] bcast_S128_S1x128_1 : (⟨S128, .f32⟩ : BufTy).Contents (Elt F) → (⟨S1x128, .f32⟩ : BufTy).Contents (Elt F)),
    unary main_v67 main_v68 (broadcastInDim S50000x128 ![0, 1] bcast_S1x128_S50000x128_0_1 : (⟨S1x128, .f32⟩ : BufTy).Contents (Elt F) → (⟨S50000x128, .f32⟩ : BufTy).Contents (Elt F)),
    binary main_v68 main_v60 main_v69 (mulf : (⟨S50000x128, .f32⟩ : BufTy).Contents (Elt F) → (⟨S50000x128, .f32⟩ : BufTy).Contents (Elt F) → (⟨S50000x128, .f32⟩ : BufTy).Contents (Elt F)),
    nullary main_c_8 (constantI S_ 32 0#32),
    unary main_c_8 main_v70 (broadcastInDim S50000 ![] bcast_S_S50000 : (⟨S_, .i32⟩ : BufTy).Contents (Elt F) → (⟨S50000, .i32⟩ : BufTy).Contents (Elt F)),
    binary main_arg15 main_v70 main_v71 (cmpi .slt : (⟨S50000, .i32⟩ : BufTy).Contents (Elt F) → (⟨S50000, .i32⟩ : BufTy).Contents (Elt F) → (⟨S50000, .i1⟩ : BufTy).Contents (Elt F)),
    nullary main_c_9 (constantI S_ 32 128#32),
    unary main_c_9 main_v72 (broadcastInDim S50000 ![] bcast_S_S50000 : (⟨S_, .i32⟩ : BufTy).Contents (Elt F) → (⟨S50000, .i32⟩ : BufTy).Contents (Elt F)),
    binary main_arg15 main_v72 main_v73 (addi : (⟨S50000, .i32⟩ : BufTy).Contents (Elt F) → (⟨S50000, .i32⟩ : BufTy).Contents (Elt F) → (⟨S50000, .i32⟩ : BufTy).Contents (Elt F)),
    ternary main_v71 main_v73 main_arg15 main_v74 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v74 main_v75 (broadcastInDim S50000x1 ![0] bcast_S50000_S50000x1_0 : (⟨S50000, .i32⟩ : BufTy).Contents (Elt F) → (⟨S50000x1, .i32⟩ : BufTy).Contents (Elt F)),
    binary main_v66 main_v75 main_v76 ((fun x i => Host.gather gather_S128x128_S50000x1_S50000x128_1_0_n_n_0_1_1128 x i) : (⟨S128x128, .f32⟩ : BufTy).Contents (Elt F) → (⟨S50000x1, .i32⟩ : BufTy).Contents (Elt F) → (⟨S50000x128, .f32⟩ : BufTy).Contents (Elt F)),
    nullary main_cst_10 (constant S_ .f32 0x3727C5AC#32),
    unary main_cst_10 main_v77 (broadcastInDim S50000x128 ![] bcast_S_S50000x128 : (⟨S_, .f32⟩ : BufTy).Contents (Elt F) → (⟨S50000x128, .f32⟩ : BufTy).Contents (Elt F)) ]

set_option maxRecDepth 8192 in
theorem ops2_sub : (ops2 : List (HloOp τ sig (Elt F))).Forall fun op => op.bufs ⊆ tcRefs τ sig :=
  ⟨nullary_bufs_sub .., unary_bufs_sub .., binary_bufs_sub .., ternary_bufs_sub .., unary_bufs_sub .., binary_bufs_sub .., unary_bufs_sub .., unary_bufs_sub .., binary_bufs_sub .., binary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub ..⟩

theorem ops2_fresh : (ops2 : List (HloOp τ sig (Elt F))).Forall fun op => op.fresh = ∅ := by
  simp only [List.Forall]; repeat' constructor

/-- The references these operations write. -/
abbrev ops2_W : List (Ref sig .tc) := [main_c_6, main_v52, main_v53, main_v54, main_v55, main_v56, main_v57, main_v58, main_v59, main_v60, main_v61, main_cst_7, main_v62, main_v63, main_v64, main_v65, main_v66, main_v67, main_v68, main_v69, main_c_8, main_v70, main_v71, main_c_9, main_v72, main_v73, main_v74, main_v75, main_v76, main_cst_10, main_v77]

theorem ops2_writes : (ops2 : List (HloOp τ sig (Elt F))).Forall fun op => op.writes ⊆ (ops2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A reference these operations do not write keeps its contents. -/
theorem c2_keeps (V : Valuation τ sig (Elt F)) (r : Ref sig .tc) (h : r ∉ ops2_W) :
    after (ops2 (F := F)) V (Proc.devRef .tc r) = V (Proc.devRef .tc r) :=
  after_of_writes_sub ops2 V ops2_writes h

/-! From any contents V: each reference the stretch writes ends at its stage, given that the references the stage
    reads from before the stretch stand at theirs. -/

theorem c2_main_c_6 (V : Valuation τ sig (Elt F)) :
    after (ops2 (F := F)) V (Proc.devRef .tc main_c_6) = val_main_c_6 (F := F) := by
  after_results_simp
  rfl

theorem c2_main_v52 (V : Valuation τ sig (Elt F)) :
    after (ops2 (F := F)) V (Proc.devRef .tc main_v52) = val_main_v52 (F := F) := by
  after_results_simp
  rfl

theorem c2_main_v53 (V : Valuation τ sig (Elt F)) (x15 : (⟨S50000, .i32⟩ : BufTy).Contents (Elt F))
    (h_main_arg15 : V (Proc.devRef .tc main_arg15) = x15) :
    after (ops2 (F := F)) V (Proc.devRef .tc main_v53) = val_main_v53 (F := F) x15 := by
  after_results_simp
  simp only [h_main_arg15]
  rfl

theorem c2_main_v54 (V : Valuation τ sig (Elt F)) (x15 : (⟨S50000, .i32⟩ : BufTy).Contents (Elt F))
    (h_main_v51 : V (Proc.devRef .tc main_v51) = val_main_v51 (F := F) x15)
    (h_main_arg15 : V (Proc.devRef .tc main_arg15) = x15) :
    after (ops2 (F := F)) V (Proc.devRef .tc main_v54) = val_main_v54 (F := F) x15 := by
  after_results_simp
  simp only [h_main_v51, h_main_arg15]
  rfl

theorem c2_main_v55 (V : Valuation τ sig (Elt F)) (x15 : (⟨S50000, .i32⟩ : BufTy).Contents (Elt F))
    (h_main_v51 : V (Proc.devRef .tc main_v51) = val_main_v51 (F := F) x15)
    (h_main_arg15 : V (Proc.devRef .tc main_arg15) = x15) :
    after (ops2 (F := F)) V (Proc.devRef .tc main_v55) = val_main_v55 (F := F) x15 := by
  after_results_simp
  simp only [h_main_v51, h_main_arg15]
  rfl

theorem c2_main_v56 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x14 : (⟨S2x800000, .i32⟩ : BufTy).Contents (Elt F)) (x15 : (⟨S50000, .i32⟩ : BufTy).Contents (Elt F))
    (h_main_v49 : V (Proc.devRef .tc main_v49) = val_main_v49 (F := F) x0 x1 x2 x3 x4 x14 x15)
    (h_main_v51 : V (Proc.devRef .tc main_v51) = val_main_v51 (F := F) x15)
    (h_main_arg15 : V (Proc.devRef .tc main_arg15) = x15) :
    after (ops2 (F := F)) V (Proc.devRef .tc main_v56) = val_main_v56 (F := F) x0 x1 x2 x3 x4 x14 x15 := by
  after_results_simp
  simp only [h_main_v49, h_main_v51, h_main_arg15]
  rfl

theorem c2_main_v57 (V : Valuation τ sig (Elt F)) (x7 : (⟨S4x128, .f32⟩ : BufTy).Contents (Elt F))
    (h_main_v44 : V (Proc.devRef .tc main_v44) = val_main_v44 (F := F) x7) :
    after (ops2 (F := F)) V (Proc.devRef .tc main_v57) = val_main_v57 (F := F) x7 := by
  after_results_simp
  simp only [h_main_v44]
  rfl

theorem c2_main_v58 (V : Valuation τ sig (Elt F)) (x7 : (⟨S4x128, .f32⟩ : BufTy).Contents (Elt F))
    (h_main_v44 : V (Proc.devRef .tc main_v44) = val_main_v44 (F := F) x7) :
    after (ops2 (F := F)) V (Proc.devRef .tc main_v58) = val_main_v58 (F := F) x7 := by
  after_results_simp
  simp only [h_main_v44]
  rfl

theorem c2_main_v59 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v49 : V (Proc.devRef .tc main_v49) = val_main_v49 (F := F) x0 x1 x2 x3 x4 x14 x15)
    (h_main_v51 : V (Proc.devRef .tc main_v51) = val_main_v51 (F := F) x15)
    (h_main_arg15 : V (Proc.devRef .tc main_arg15) = x15)
    (h_main_v44 : V (Proc.devRef .tc main_v44) = val_main_v44 (F := F) x7) :
    after (ops2 (F := F)) V (Proc.devRef .tc main_v59) = val_main_v59 (F := F) x0 x1 x2 x3 x4 x7 x14 x15 := by
  after_results_simp
  simp only [h_main_v49, h_main_v51, h_main_arg15, h_main_v44]
  rfl

theorem c2_main_v60 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v38 : V (Proc.devRef .tc main_v38) = val_main_v38 (F := F) x0 x1 x2 x3 x4 x14)
    (h_main_v49 : V (Proc.devRef .tc main_v49) = val_main_v49 (F := F) x0 x1 x2 x3 x4 x14 x15)
    (h_main_v51 : V (Proc.devRef .tc main_v51) = val_main_v51 (F := F) x15)
    (h_main_arg15 : V (Proc.devRef .tc main_arg15) = x15)
    (h_main_v44 : V (Proc.devRef .tc main_v44) = val_main_v44 (F := F) x7) :
    after (ops2 (F := F)) V (Proc.devRef .tc main_v60) = val_main_v60 (F := F) x0 x1 x2 x3 x4 x7 x14 x15 := by
  after_results_simp
  simp only [h_main_v38, h_main_v49, h_main_v51, h_main_arg15, h_main_v44]
  rfl

theorem c2_main_v61 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v38 : V (Proc.devRef .tc main_v38) = val_main_v38 (F := F) x0 x1 x2 x3 x4 x14)
    (h_main_v49 : V (Proc.devRef .tc main_v49) = val_main_v49 (F := F) x0 x1 x2 x3 x4 x14 x15)
    (h_main_v51 : V (Proc.devRef .tc main_v51) = val_main_v51 (F := F) x15)
    (h_main_arg15 : V (Proc.devRef .tc main_arg15) = x15)
    (h_main_v44 : V (Proc.devRef .tc main_v44) = val_main_v44 (F := F) x7) :
    after (ops2 (F := F)) V (Proc.devRef .tc main_v61) = val_main_v61 (F := F) x0 x1 x2 x3 x4 x7 x14 x15 := by
  after_results_simp
  simp only [h_main_v38, h_main_v49, h_main_v51, h_main_arg15, h_main_v44]
  rfl

theorem c2_main_cst_7 (V : Valuation τ sig (Elt F)) :
    after (ops2 (F := F)) V (Proc.devRef .tc main_cst_7) = val_main_cst_7 (F := F) := by
  after_results_simp
  rfl

theorem c2_main_v62 (V : Valuation τ sig (Elt F)) :
    after (ops2 (F := F)) V (Proc.devRef .tc main_v62) = val_main_v62 (F := F) := by
  after_results_simp
  rfl

theorem c2_main_v63 (V : Valuation τ sig (Elt F)) (x15 : (⟨S50000, .i32⟩ : BufTy).Contents (Elt F))
    (h_main_arg15 : V (Proc.devRef .tc main_arg15) = x15) :
    after (ops2 (F := F)) V (Proc.devRef .tc main_v63) = val_main_v63 (F := F) x15 := by
  after_results_simp
  simp only [h_main_arg15]
  rfl

theorem c2_main_v64 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_arg15 : V (Proc.devRef .tc main_arg15) = x15)
    (h_main_v38 : V (Proc.devRef .tc main_v38) = val_main_v38 (F := F) x0 x1 x2 x3 x4 x14)
    (h_main_v49 : V (Proc.devRef .tc main_v49) = val_main_v49 (F := F) x0 x1 x2 x3 x4 x14 x15)
    (h_main_v51 : V (Proc.devRef .tc main_v51) = val_main_v51 (F := F) x15)
    (h_main_v44 : V (Proc.devRef .tc main_v44) = val_main_v44 (F := F) x7) :
    after (ops2 (F := F)) V (Proc.devRef .tc main_v64) = val_main_v64 (F := F) x0 x1 x2 x3 x4 x7 x14 x15 := by
  after_results_simp
  simp only [h_main_arg15, h_main_v38, h_main_v49, h_main_v51, h_main_v44]
  rfl

theorem c2_main_v65 (V : Valuation τ sig (Elt F)) (x15 : (⟨S50000, .i32⟩ : BufTy).Contents (Elt F))
    (h_main_v9 : V (Proc.devRef .tc main_v9) = val_main_v9 (F := F) x15) :
    after (ops2 (F := F)) V (Proc.devRef .tc main_v65) = val_main_v65 (F := F) x15 := by
  after_results_simp
  simp only [h_main_v9]
  rfl

theorem c2_main_v66 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_arg15 : V (Proc.devRef .tc main_arg15) = x15)
    (h_main_v38 : V (Proc.devRef .tc main_v38) = val_main_v38 (F := F) x0 x1 x2 x3 x4 x14)
    (h_main_v49 : V (Proc.devRef .tc main_v49) = val_main_v49 (F := F) x0 x1 x2 x3 x4 x14 x15)
    (h_main_v51 : V (Proc.devRef .tc main_v51) = val_main_v51 (F := F) x15)
    (h_main_v44 : V (Proc.devRef .tc main_v44) = val_main_v44 (F := F) x7)
    (h_main_v9 : V (Proc.devRef .tc main_v9) = val_main_v9 (F := F) x15) :
    after (ops2 (F := F)) V (Proc.devRef .tc main_v66) = val_main_v66 (F := F) x0 x1 x2 x3 x4 x7 x14 x15 := by
  after_results_simp
  simp only [h_main_arg15, h_main_v38, h_main_v49, h_main_v51, h_main_v44, h_main_v9]
  rfl

theorem c2_main_v67 (V : Valuation τ sig (Elt F)) (x5 : (⟨S4x128, .f32⟩ : BufTy).Contents (Elt F))
    (h_main_v40 : V (Proc.devRef .tc main_v40) = val_main_v40 (F := F) x5) :
    after (ops2 (F := F)) V (Proc.devRef .tc main_v67) = val_main_v67 (F := F) x5 := by
  after_results_simp
  simp only [h_main_v40]
  rfl

theorem c2_main_v68 (V : Valuation τ sig (Elt F)) (x5 : (⟨S4x128, .f32⟩ : BufTy).Contents (Elt F))
    (h_main_v40 : V (Proc.devRef .tc main_v40) = val_main_v40 (F := F) x5) :
    after (ops2 (F := F)) V (Proc.devRef .tc main_v68) = val_main_v68 (F := F) x5 := by
  after_results_simp
  simp only [h_main_v40]
  rfl

theorem c2_main_v69 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v40 : V (Proc.devRef .tc main_v40) = val_main_v40 (F := F) x5)
    (h_main_v38 : V (Proc.devRef .tc main_v38) = val_main_v38 (F := F) x0 x1 x2 x3 x4 x14)
    (h_main_v49 : V (Proc.devRef .tc main_v49) = val_main_v49 (F := F) x0 x1 x2 x3 x4 x14 x15)
    (h_main_v51 : V (Proc.devRef .tc main_v51) = val_main_v51 (F := F) x15)
    (h_main_arg15 : V (Proc.devRef .tc main_arg15) = x15)
    (h_main_v44 : V (Proc.devRef .tc main_v44) = val_main_v44 (F := F) x7) :
    after (ops2 (F := F)) V (Proc.devRef .tc main_v69) = val_main_v69 (F := F) x0 x1 x2 x3 x4 x5 x7 x14 x15 := by
  after_results_simp
  simp only [h_main_v40, h_main_v38, h_main_v49, h_main_v51, h_main_arg15, h_main_v44]
  rfl

theorem c2_main_c_8 (V : Valuation τ sig (Elt F)) :
    after (ops2 (F := F)) V (Proc.devRef .tc main_c_8) = val_main_c_8 (F := F) := by
  after_results_simp
  rfl

theorem c2_main_v70 (V : Valuation τ sig (Elt F)) :
    after (ops2 (F := F)) V (Proc.devRef .tc main_v70) = val_main_v70 (F := F) := by
  after_results_simp
  rfl

theorem c2_main_v71 (V : Valuation τ sig (Elt F)) (x15 : (⟨S50000, .i32⟩ : BufTy).Contents (Elt F))
    (h_main_arg15 : V (Proc.devRef .tc main_arg15) = x15) :
    after (ops2 (F := F)) V (Proc.devRef .tc main_v71) = val_main_v71 (F := F) x15 := by
  after_results_simp
  simp only [h_main_arg15]
  rfl

theorem c2_main_c_9 (V : Valuation τ sig (Elt F)) :
    after (ops2 (F := F)) V (Proc.devRef .tc main_c_9) = val_main_c_9 (F := F) := by
  after_results_simp
  rfl

theorem c2_main_v72 (V : Valuation τ sig (Elt F)) :
    after (ops2 (F := F)) V (Proc.devRef .tc main_v72) = val_main_v72 (F := F) := by
  after_results_simp
  rfl

theorem c2_main_v73 (V : Valuation τ sig (Elt F)) (x15 : (⟨S50000, .i32⟩ : BufTy).Contents (Elt F))
    (h_main_arg15 : V (Proc.devRef .tc main_arg15) = x15) :
    after (ops2 (F := F)) V (Proc.devRef .tc main_v73) = val_main_v73 (F := F) x15 := by
  after_results_simp
  simp only [h_main_arg15]
  rfl

theorem c2_main_v74 (V : Valuation τ sig (Elt F)) (x15 : (⟨S50000, .i32⟩ : BufTy).Contents (Elt F))
    (h_main_arg15 : V (Proc.devRef .tc main_arg15) = x15) :
    after (ops2 (F := F)) V (Proc.devRef .tc main_v74) = val_main_v74 (F := F) x15 := by
  after_results_simp
  simp only [h_main_arg15]
  rfl

theorem c2_main_v75 (V : Valuation τ sig (Elt F)) (x15 : (⟨S50000, .i32⟩ : BufTy).Contents (Elt F))
    (h_main_arg15 : V (Proc.devRef .tc main_arg15) = x15) :
    after (ops2 (F := F)) V (Proc.devRef .tc main_v75) = val_main_v75 (F := F) x15 := by
  after_results_simp
  simp only [h_main_arg15]
  rfl

theorem c2_main_v76 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_arg15 : V (Proc.devRef .tc main_arg15) = x15)
    (h_main_v38 : V (Proc.devRef .tc main_v38) = val_main_v38 (F := F) x0 x1 x2 x3 x4 x14)
    (h_main_v49 : V (Proc.devRef .tc main_v49) = val_main_v49 (F := F) x0 x1 x2 x3 x4 x14 x15)
    (h_main_v51 : V (Proc.devRef .tc main_v51) = val_main_v51 (F := F) x15)
    (h_main_v44 : V (Proc.devRef .tc main_v44) = val_main_v44 (F := F) x7)
    (h_main_v9 : V (Proc.devRef .tc main_v9) = val_main_v9 (F := F) x15) :
    after (ops2 (F := F)) V (Proc.devRef .tc main_v76) = val_main_v76 (F := F) x0 x1 x2 x3 x4 x7 x14 x15 := by
  after_results_simp
  simp only [h_main_arg15, h_main_v38, h_main_v49, h_main_v51, h_main_v44, h_main_v9]
  rfl

theorem c2_main_cst_10 (V : Valuation τ sig (Elt F)) :
    after (ops2 (F := F)) V (Proc.devRef .tc main_cst_10) = val_main_cst_10 (F := F) := by
  after_results_simp
  rfl

theorem c2_main_v77 (V : Valuation τ sig (Elt F)) :
    after (ops2 (F := F)) V (Proc.devRef .tc main_v77) = val_main_v77 (F := F) := by
  after_results_simp
  rfl

end Cert.ReferenceIdeal.RunH

end
-- ==== Proof.RefRunC3.lean ====
import proofs.«408428_j10917806867267_1_alg».proof.Proof.RefRead

set_option maxHeartbeats 1000000

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 95 … 125 of the reference's @main, in order. -/
abbrev ops3 : List (HloOp τ sig (Elt F)) :=
  [ binary main_v76 main_v77 main_v78 (addf : (⟨S50000x128, .f32⟩ : BufTy).Contents (Elt F) → (⟨S50000x128, .f32⟩ : BufTy).Contents (Elt F) → (⟨S50000x128, .f32⟩ : BufTy).Contents (Elt F)),
    unary main_v78 main_v79 (Host.sqrt : (⟨S50000x128, .f32⟩ : BufTy).Contents (Elt F) → (⟨S50000x128, .f32⟩ : BufTy).Contents (Elt F)),
    binary main_v69 main_v79 main_v80 (Host.divf : (⟨S50000x128, .f32⟩ : BufTy).Contents (Elt F) → (⟨S50000x128, .f32⟩ : BufTy).Contents (Elt F) → (⟨S50000x128, .f32⟩ : BufTy).Contents (Elt F)),
    unary main_v42 main_v81 (broadcastInDim S1x128 ![1] bcast_S128_S1x128_1 : (⟨S128, .f32⟩ : BufTy).Contents (Elt F) → (⟨S1x128, .f32⟩ : BufTy).Contents (Elt F)),
    unary main_v81 main_v82 (broadcastInDim S50000x128 ![0, 1] bcast_S1x128_S50000x128_0_1 : (⟨S1x128, .f32⟩ : BufTy).Contents (Elt F) → (⟨S50000x128, .f32⟩ : BufTy).Contents (Elt F)),
    binary main_v80 main_v82 main_v83 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v83) (TRef.of (T := ⟨S50000x128, .f32⟩) main_call2_v0) (TRef.of (T := ⟨S50000x128, .f32⟩) main_v84) maximumf,
    nullary main_c_11 (constantI S_ 32 0#32),
    unary main_c_11 main_v85 (broadcastInDim S800000 ![] bcast_S_S800000 : (⟨S_, .i32⟩ : BufTy).Contents (Elt F) → (⟨S800000, .i32⟩ : BufTy).Contents (Elt F)),
    binary main_v1 main_v85 main_v86 (cmpi .slt : (⟨S800000, .i32⟩ : BufTy).Contents (Elt F) → (⟨S800000, .i32⟩ : BufTy).Contents (Elt F) → (⟨S800000, .i1⟩ : BufTy).Contents (Elt F)),
    nullary main_c_12 (constantI S_ 32 50000#32),
    unary main_c_12 main_v87 (broadcastInDim S800000 ![] bcast_S_S800000 : (⟨S_, .i32⟩ : BufTy).Contents (Elt F) → (⟨S800000, .i32⟩ : BufTy).Contents (Elt F)),
    binary main_v1 main_v87 main_v88 (addi : (⟨S800000, .i32⟩ : BufTy).Contents (Elt F) → (⟨S800000, .i32⟩ : BufTy).Contents (Elt F) → (⟨S800000, .i32⟩ : BufTy).Contents (Elt F)),
    ternary main_v86 main_v88 main_v1 main_v89 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v89 main_v90 (broadcastInDim S800000x1 ![0] bcast_S800000_S800000x1_0 : (⟨S800000, .i32⟩ : BufTy).Contents (Elt F) → (⟨S800000x1, .i32⟩ : BufTy).Contents (Elt F)),
    binary main_v84 main_v90 main_v91 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_13 (constant S_ .f32 0x00000000#32),
    unary main_cst_13 main_v92 (broadcastInDim S50000x128 ![] bcast_S_S50000x128 : (⟨S_, .f32⟩ : BufTy).Contents (Elt F) → (⟨S50000x128, .f32⟩ : BufTy).Contents (Elt F)),
    unary main_v3 main_v93 (broadcastInDim S800000x1 ![0] bcast_S800000_S800000x1_0 : (⟨S800000, .i32⟩ : BufTy).Contents (Elt F) → (⟨S800000x1, .i32⟩ : BufTy).Contents (Elt F)),
    ternary main_v92 main_v93 main_v91 main_v94 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v84 main_v94 main_v95 (addf : (⟨S50000x128, .f32⟩ : BufTy).Contents (Elt F) → (⟨S50000x128, .f32⟩ : BufTy).Contents (Elt F) → (⟨S50000x128, .f32⟩ : BufTy).Contents (Elt F)),
    unary main_arg1 main_v96 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v96 main_v97 rfl shapeCasts_S1x128x128_S128x128,
    binary main_v95 main_v97 main_v98 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg2 main_v99 ((extractStridedSlice S1x128 ![1, 0] · slices_S4x128_S1x128_1_0) : (⟨S4x128, .f32⟩ : BufTy).Contents (Elt F) → (⟨S1x128, .f32⟩ : BufTy).Contents (Elt F)),
    reshape main_v99 main_v100 rfl shapeCasts_S1x128_S128,
    unary main_v100 main_v101 (broadcastInDim S1x128 ![1] bcast_S128_S1x128_1 : (⟨S128, .f32⟩ : BufTy).Contents (Elt F) → (⟨S1x128, .f32⟩ : BufTy).Contents (Elt F)),
    unary main_v101 main_v102 (broadcastInDim S50000x128 ![0, 1] bcast_S1x128_S50000x128_0_1 : (⟨S1x128, .f32⟩ : BufTy).Contents (Elt F) → (⟨S50000x128, .f32⟩ : BufTy).Contents (Elt F)),
    binary main_v98 main_v102 main_v103 (addf : (⟨S50000x128, .f32⟩ : BufTy).Contents (Elt F) → (⟨S50000x128, .f32⟩ : BufTy).Contents (Elt F) → (⟨S50000x128, .f32⟩ : BufTy).Contents (Elt F)) ]

set_option maxRecDepth 8192 in
theorem ops3_sub : (ops3 : List (HloOp τ sig (Elt F))).Forall fun op => op.bufs ⊆ tcRefs τ sig :=
  ⟨binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub ..⟩

theorem ops3_fresh : (ops3 : List (HloOp τ sig (Elt F))).Forall fun op => op.fresh = ∅ := by
  simp only [List.Forall]; repeat' constructor

/-- The references these operations write. -/
abbrev ops3_W : List (Ref sig .tc) := [main_v78, main_v79, main_v80, main_v81, main_v82, main_v83, main_call2_cst, main_call2_v0, main_v84, main_c_11, main_v85, main_v86, main_c_12, main_v87, main_v88, main_v89, main_v90, main_v91, main_cst_13, main_v92, main_v93, main_v94, main_v95, main_v96, main_v97, main_v98, main_v99, main_v100, main_v101, main_v102, main_v103]

theorem ops3_writes : (ops3 : List (HloOp τ sig (Elt F))).Forall fun op => op.writes ⊆ (ops3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A reference these operations do not write keeps its contents. -/
theorem c3_keeps (V : Valuation τ sig (Elt F)) (r : Ref sig .tc) (h : r ∉ ops3_W) :
    after (ops3 (F := F)) V (Proc.devRef .tc r) = V (Proc.devRef .tc r) :=
  after_of_writes_sub ops3 V ops3_writes h

/-! From any contents V: each reference the stretch writes ends at its stage, given that the references the stage
    reads from before the stretch stand at theirs. -/

theorem c3_main_v78 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v76 : V (Proc.devRef .tc main_v76) = val_main_v76 (F := F) x0 x1 x2 x3 x4 x7 x14 x15)
    (h_main_v77 : V (Proc.devRef .tc main_v77) = val_main_v77 (F := F)) :
    after (ops3 (F := F)) V (Proc.devRef .tc main_v78) = val_main_v78 (F := F) x0 x1 x2 x3 x4 x7 x14 x15 := by
  after_results_simp
  simp only [h_main_v76, h_main_v77]
  rfl

theorem c3_main_v79 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v76 : V (Proc.devRef .tc main_v76) = val_main_v76 (F := F) x0 x1 x2 x3 x4 x7 x14 x15)
    (h_main_v77 : V (Proc.devRef .tc main_v77) = val_main_v77 (F := F)) :
    after (ops3 (F := F)) V (Proc.devRef .tc main_v79) = val_main_v79 (F := F) x0 x1 x2 x3 x4 x7 x14 x15 := by
  after_results_simp
  simp only [h_main_v76, h_main_v77]
  rfl

theorem c3_main_v80 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v69 : V (Proc.devRef .tc main_v69) = val_main_v69 (F := F) x0 x1 x2 x3 x4 x5 x7 x14 x15)
    (h_main_v76 : V (Proc.devRef .tc main_v76) = val_main_v76 (F := F) x0 x1 x2 x3 x4 x7 x14 x15)
    (h_main_v77 : V (Proc.devRef .tc main_v77) = val_main_v77 (F := F)) :
    after (ops3 (F := F)) V (Proc.devRef .tc main_v80) = val_main_v80 (F := F) x0 x1 x2 x3 x4 x5 x7 x14 x15 := by
  after_results_simp
  simp only [h_main_v69, h_main_v76, h_main_v77]
  rfl

theorem c3_main_v81 (V : Valuation τ sig (Elt F)) (x6 : (⟨S4x128, .f32⟩ : BufTy).Contents (Elt F))
    (h_main_v42 : V (Proc.devRef .tc main_v42) = val_main_v42 (F := F) x6) :
    after (ops3 (F := F)) V (Proc.devRef .tc main_v81) = val_main_v81 (F := F) x6 := by
  after_results_simp
  simp only [h_main_v42]
  rfl

theorem c3_main_v82 (V : Valuation τ sig (Elt F)) (x6 : (⟨S4x128, .f32⟩ : BufTy).Contents (Elt F))
    (h_main_v42 : V (Proc.devRef .tc main_v42) = val_main_v42 (F := F) x6) :
    after (ops3 (F := F)) V (Proc.devRef .tc main_v82) = val_main_v82 (F := F) x6 := by
  after_results_simp
  simp only [h_main_v42]
  rfl

theorem c3_main_v83 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v69 : V (Proc.devRef .tc main_v69) = val_main_v69 (F := F) x0 x1 x2 x3 x4 x5 x7 x14 x15)
    (h_main_v76 : V (Proc.devRef .tc main_v76) = val_main_v76 (F := F) x0 x1 x2 x3 x4 x7 x14 x15)
    (h_main_v77 : V (Proc.devRef .tc main_v77) = val_main_v77 (F := F))
    (h_main_v42 : V (Proc.devRef .tc main_v42) = val_main_v42 (F := F) x6) :
    after (ops3 (F := F)) V (Proc.devRef .tc main_v83) = val_main_v83 (F := F) x0 x1 x2 x3 x4 x5 x6 x7 x14 x15 := by
  after_results_simp
  simp only [h_main_v69, h_main_v76, h_main_v77, h_main_v42]
  rfl

theorem c3_main_call2_cst (V : Valuation τ sig (Elt F)) :
    after (ops3 (F := F)) V (Proc.devRef .tc main_call2_cst) = val_main_call2_cst (F := F) := by
  after_results_simp
  rfl

theorem c3_main_call2_v0 (V : Valuation τ sig (Elt F)) :
    after (ops3 (F := F)) V (Proc.devRef .tc main_call2_v0) = val_main_call2_v0 (F := F) := by
  after_results_simp
  rfl

theorem c3_main_v84 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v69 : V (Proc.devRef .tc main_v69) = val_main_v69 (F := F) x0 x1 x2 x3 x4 x5 x7 x14 x15)
    (h_main_v76 : V (Proc.devRef .tc main_v76) = val_main_v76 (F := F) x0 x1 x2 x3 x4 x7 x14 x15)
    (h_main_v77 : V (Proc.devRef .tc main_v77) = val_main_v77 (F := F))
    (h_main_v42 : V (Proc.devRef .tc main_v42) = val_main_v42 (F := F) x6) :
    after (ops3 (F := F)) V (Proc.devRef .tc main_v84) = val_main_v84 (F := F) x0 x1 x2 x3 x4 x5 x6 x7 x14 x15 := by
  after_results_simp
  simp only [h_main_v69, h_main_v76, h_main_v77, h_main_v42]
  rfl

theorem c3_main_c_11 (V : Valuation τ sig (Elt F)) :
    after (ops3 (F := F)) V (Proc.devRef .tc main_c_11) = val_main_c_11 (F := F) := by
  after_results_simp
  rfl

theorem c3_main_v85 (V : Valuation τ sig (Elt F)) :
    after (ops3 (F := F)) V (Proc.devRef .tc main_v85) = val_main_v85 (F := F) := by
  after_results_simp
  rfl

theorem c3_main_v86 (V : Valuation τ sig (Elt F)) (x14 : (⟨S2x800000, .i32⟩ : BufTy).Contents (Elt F))
    (h_main_v1 : V (Proc.devRef .tc main_v1) = val_main_v1 (F := F) x14) :
    after (ops3 (F := F)) V (Proc.devRef .tc main_v86) = val_main_v86 (F := F) x14 := by
  after_results_simp
  simp only [h_main_v1]
  rfl

theorem c3_main_c_12 (V : Valuation τ sig (Elt F)) :
    after (ops3 (F := F)) V (Proc.devRef .tc main_c_12) = val_main_c_12 (F := F) := by
  after_results_simp
  rfl

theorem c3_main_v87 (V : Valuation τ sig (Elt F)) :
    after (ops3 (F := F)) V (Proc.devRef .tc main_v87) = val_main_v87 (F := F) := by
  after_results_simp
  rfl

theorem c3_main_v88 (V : Valuation τ sig (Elt F)) (x14 : (⟨S2x800000, .i32⟩ : BufTy).Contents (Elt F))
    (h_main_v1 : V (Proc.devRef .tc main_v1) = val_main_v1 (F := F) x14) :
    after (ops3 (F := F)) V (Proc.devRef .tc main_v88) = val_main_v88 (F := F) x14 := by
  after_results_simp
  simp only [h_main_v1]
  rfl

theorem c3_main_v89 (V : Valuation τ sig (Elt F)) (x14 : (⟨S2x800000, .i32⟩ : BufTy).Contents (Elt F))
    (h_main_v1 : V (Proc.devRef .tc main_v1) = val_main_v1 (F := F) x14) :
    after (ops3 (F := F)) V (Proc.devRef .tc main_v89) = val_main_v89 (F := F) x14 := by
  after_results_simp
  simp only [h_main_v1]
  rfl

theorem c3_main_v90 (V : Valuation τ sig (Elt F)) (x14 : (⟨S2x800000, .i32⟩ : BufTy).Contents (Elt F))
    (h_main_v1 : V (Proc.devRef .tc main_v1) = val_main_v1 (F := F) x14) :
    after (ops3 (F := F)) V (Proc.devRef .tc main_v90) = val_main_v90 (F := F) x14 := by
  after_results_simp
  simp only [h_main_v1]
  rfl

theorem c3_main_v91 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v69 : V (Proc.devRef .tc main_v69) = val_main_v69 (F := F) x0 x1 x2 x3 x4 x5 x7 x14 x15)
    (h_main_v76 : V (Proc.devRef .tc main_v76) = val_main_v76 (F := F) x0 x1 x2 x3 x4 x7 x14 x15)
    (h_main_v77 : V (Proc.devRef .tc main_v77) = val_main_v77 (F := F))
    (h_main_v42 : V (Proc.devRef .tc main_v42) = val_main_v42 (F := F) x6)
    (h_main_v1 : V (Proc.devRef .tc main_v1) = val_main_v1 (F := F) x14) :
    after (ops3 (F := F)) V (Proc.devRef .tc main_v91) = val_main_v91 (F := F) x0 x1 x2 x3 x4 x5 x6 x7 x14 x15 := by
  after_results_simp
  simp only [h_main_v69, h_main_v76, h_main_v77, h_main_v42, h_main_v1]
  rfl

theorem c3_main_cst_13 (V : Valuation τ sig (Elt F)) :
    after (ops3 (F := F)) V (Proc.devRef .tc main_cst_13) = val_main_cst_13 (F := F) := by
  after_results_simp
  rfl

theorem c3_main_v92 (V : Valuation τ sig (Elt F)) :
    after (ops3 (F := F)) V (Proc.devRef .tc main_v92) = val_main_v92 (F := F) := by
  after_results_simp
  rfl

theorem c3_main_v93 (V : Valuation τ sig (Elt F)) (x14 : (⟨S2x800000, .i32⟩ : BufTy).Contents (Elt F))
    (h_main_v3 : V (Proc.devRef .tc main_v3) = val_main_v3 (F := F) x14) :
    after (ops3 (F := F)) V (Proc.devRef .tc main_v93) = val_main_v93 (F := F) x14 := by
  after_results_simp
  simp only [h_main_v3]
  rfl

theorem c3_main_v94 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v3 : V (Proc.devRef .tc main_v3) = val_main_v3 (F := F) x14)
    (h_main_v69 : V (Proc.devRef .tc main_v69) = val_main_v69 (F := F) x0 x1 x2 x3 x4 x5 x7 x14 x15)
    (h_main_v76 : V (Proc.devRef .tc main_v76) = val_main_v76 (F := F) x0 x1 x2 x3 x4 x7 x14 x15)
    (h_main_v77 : V (Proc.devRef .tc main_v77) = val_main_v77 (F := F))
    (h_main_v42 : V (Proc.devRef .tc main_v42) = val_main_v42 (F := F) x6)
    (h_main_v1 : V (Proc.devRef .tc main_v1) = val_main_v1 (F := F) x14) :
    after (ops3 (F := F)) V (Proc.devRef .tc main_v94) = val_main_v94 (F := F) x0 x1 x2 x3 x4 x5 x6 x7 x14 x15 := by
  after_results_simp
  simp only [h_main_v3, h_main_v69, h_main_v76, h_main_v77, h_main_v42, h_main_v1]
  rfl

theorem c3_main_v95 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v69 : V (Proc.devRef .tc main_v69) = val_main_v69 (F := F) x0 x1 x2 x3 x4 x5 x7 x14 x15)
    (h_main_v76 : V (Proc.devRef .tc main_v76) = val_main_v76 (F := F) x0 x1 x2 x3 x4 x7 x14 x15)
    (h_main_v77 : V (Proc.devRef .tc main_v77) = val_main_v77 (F := F))
    (h_main_v42 : V (Proc.devRef .tc main_v42) = val_main_v42 (F := F) x6)
    (h_main_v3 : V (Proc.devRef .tc main_v3) = val_main_v3 (F := F) x14)
    (h_main_v1 : V (Proc.devRef .tc main_v1) = val_main_v1 (F := F) x14) :
    after (ops3 (F := F)) V (Proc.devRef .tc main_v95) = val_main_v95 (F := F) x0 x1 x2 x3 x4 x5 x6 x7 x14 x15 := by
  after_results_simp
  simp only [h_main_v69, h_main_v76, h_main_v77, h_main_v42, h_main_v3, h_main_v1]
  rfl

theorem c3_main_v96 (V : Valuation τ sig (Elt F)) (x1 : (⟨S4x128x128, .f32⟩ : BufTy).Contents (Elt F))
    (h_main_arg1 : V (Proc.devRef .tc main_arg1) = x1) :
    after (ops3 (F := F)) V (Proc.devRef .tc main_v96) = val_main_v96 (F := F) x1 := by
  after_results_simp
  simp only [h_main_arg1]
  rfl

theorem c3_main_v97 (V : Valuation τ sig (Elt F)) (x1 : (⟨S4x128x128, .f32⟩ : BufTy).Contents (Elt F))
    (h_main_arg1 : V (Proc.devRef .tc main_arg1) = x1) :
    after (ops3 (F := F)) V (Proc.devRef .tc main_v97) = val_main_v97 (F := F) x1 := by
  after_results_simp
  simp only [h_main_arg1]
  rfl

theorem c3_main_v98 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v69 : V (Proc.devRef .tc main_v69) = val_main_v69 (F := F) x0 x1 x2 x3 x4 x5 x7 x14 x15)
    (h_main_v76 : V (Proc.devRef .tc main_v76) = val_main_v76 (F := F) x0 x1 x2 x3 x4 x7 x14 x15)
    (h_main_v77 : V (Proc.devRef .tc main_v77) = val_main_v77 (F := F))
    (h_main_v42 : V (Proc.devRef .tc main_v42) = val_main_v42 (F := F) x6)
    (h_main_v3 : V (Proc.devRef .tc main_v3) = val_main_v3 (F := F) x14)
    (h_main_v1 : V (Proc.devRef .tc main_v1) = val_main_v1 (F := F) x14)
    (h_main_arg1 : V (Proc.devRef .tc main_arg1) = x1) :
    after (ops3 (F := F)) V (Proc.devRef .tc main_v98) = val_main_v98 (F := F) x0 x1 x2 x3 x4 x5 x6 x7 x14 x15 := by
  after_results_simp
  simp only [h_main_v69, h_main_v76, h_main_v77, h_main_v42, h_main_v3, h_main_v1, h_main_arg1]
  rfl

theorem c3_main_v99 (V : Valuation τ sig (Elt F)) (x2 : (⟨S4x128, .f32⟩ : BufTy).Contents (Elt F))
    (h_main_arg2 : V (Proc.devRef .tc main_arg2) = x2) :
    after (ops3 (F := F)) V (Proc.devRef .tc main_v99) = val_main_v99 (F := F) x2 := by
  after_results_simp
  simp only [h_main_arg2]
  rfl

theorem c3_main_v100 (V : Valuation τ sig (Elt F)) (x2 : (⟨S4x128, .f32⟩ : BufTy).Contents (Elt F))
    (h_main_arg2 : V (Proc.devRef .tc main_arg2) = x2) :
    after (ops3 (F := F)) V (Proc.devRef .tc main_v100) = val_main_v100 (F := F) x2 := by
  after_results_simp
  simp only [h_main_arg2]
  rfl

theorem c3_main_v101 (V : Valuation τ sig (Elt F)) (x2 : (⟨S4x128, .f32⟩ : BufTy).Contents (Elt F))
    (h_main_arg2 : V (Proc.devRef .tc main_arg2) = x2) :
    after (ops3 (F := F)) V (Proc.devRef .tc main_v101) = val_main_v101 (F := F) x2 := by
  after_results_simp
  simp only [h_main_arg2]
  rfl

theorem c3_main_v102 (V : Valuation τ sig (Elt F)) (x2 : (⟨S4x128, .f32⟩ : BufTy).Contents (Elt F))
    (h_main_arg2 : V (Proc.devRef .tc main_arg2) = x2) :
    after (ops3 (F := F)) V (Proc.devRef .tc main_v102) = val_main_v102 (F := F) x2 := by
  after_results_simp
  simp only [h_main_arg2]
  rfl

theorem c3_main_v103 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v69 : V (Proc.devRef .tc main_v69) = val_main_v69 (F := F) x0 x1 x2 x3 x4 x5 x7 x14 x15)
    (h_main_v76 : V (Proc.devRef .tc main_v76) = val_main_v76 (F := F) x0 x1 x2 x3 x4 x7 x14 x15)
    (h_main_v77 : V (Proc.devRef .tc main_v77) = val_main_v77 (F := F))
    (h_main_v42 : V (Proc.devRef .tc main_v42) = val_main_v42 (F := F) x6)
    (h_main_v3 : V (Proc.devRef .tc main_v3) = val_main_v3 (F := F) x14)
    (h_main_v1 : V (Proc.devRef .tc main_v1) = val_main_v1 (F := F) x14)
    (h_main_arg1 : V (Proc.devRef .tc main_arg1) = x1)
    (h_main_arg2 : V (Proc.devRef .tc main_arg2) = x2) :
    after (ops3 (F := F)) V (Proc.devRef .tc main_v103) = val_main_v103 (F := F) x0 x1 x2 x3 x4 x5 x6 x7 x14 x15 := by
  after_results_simp
  simp only [h_main_v69, h_main_v76, h_main_v77, h_main_v42, h_main_v3, h_main_v1, h_main_arg1, h_main_arg2]
  rfl

end Cert.ReferenceIdeal.RunH

end
-- ==== Proof.RefRunC4.lean ====
import proofs.«408428_j10917806867267_1_alg».proof.Proof.RefRead

set_option maxHeartbeats 1000000

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 126 … 157 of the reference's @main, in order. -/
abbrev ops4 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v103) (TRef.of (T := ⟨S50000x128, .f32⟩) main_call3_v0) (TRef.of (T := ⟨S50000x128, .f32⟩) main_v104) maximumf,
    unary main_arg3 main_v105 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v105 main_v106 rfl shapeCasts_S1x128x128_S128x128,
    binary main_v104 main_v106 main_v107 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v108 ((extractStridedSlice S1x128 ![1, 0] · slices_S4x128_S1x128_1_0) : (⟨S4x128, .f32⟩ : BufTy).Contents (Elt F) → (⟨S1x128, .f32⟩ : BufTy).Contents (Elt F)),
    reshape main_v108 main_v109 rfl shapeCasts_S1x128_S128,
    unary main_v109 main_v110 (broadcastInDim S1x128 ![1] bcast_S128_S1x128_1 : (⟨S128, .f32⟩ : BufTy).Contents (Elt F) → (⟨S1x128, .f32⟩ : BufTy).Contents (Elt F)),
    unary main_v110 main_v111 (broadcastInDim S50000x128 ![0, 1] bcast_S1x128_S50000x128_0_1 : (⟨S1x128, .f32⟩ : BufTy).Contents (Elt F) → (⟨S50000x128, .f32⟩ : BufTy).Contents (Elt F)),
    binary main_v107 main_v111 main_v112 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v112) (TRef.of (T := ⟨S50000x128, .f32⟩) main_call4_v0) (TRef.of (T := ⟨S50000x128, .f32⟩) main_v113) maximumf,
    unary main_arg5 main_v114 ((extractStridedSlice S1x128 ![1, 0] · slices_S4x128_S1x128_1_0) : (⟨S4x128, .f32⟩ : BufTy).Contents (Elt F) → (⟨S1x128, .f32⟩ : BufTy).Contents (Elt F)),
    reshape main_v114 main_v115 rfl shapeCasts_S1x128_S128,
    unary main_arg6 main_v116 ((extractStridedSlice S1x128 ![1, 0] · slices_S4x128_S1x128_1_0) : (⟨S4x128, .f32⟩ : BufTy).Contents (Elt F) → (⟨S1x128, .f32⟩ : BufTy).Contents (Elt F)),
    reshape main_v116 main_v117 rfl shapeCasts_S1x128_S128,
    unary main_arg7 main_v118 ((extractStridedSlice S1x128 ![1, 0] · slices_S4x128_S1x128_1_0) : (⟨S4x128, .f32⟩ : BufTy).Contents (Elt F) → (⟨S1x128, .f32⟩ : BufTy).Contents (Elt F)),
    reshape main_v118 main_v119 rfl shapeCasts_S1x128_S128,
    nullary main_cst_14 (constant S_ .f32 0x00000000#32),
    unary main_cst_14 main_v120 (broadcastInDim S128x128 ![] bcast_S_S128x128 : (⟨S_, .f32⟩ : BufTy).Contents (Elt F) → (⟨S128x128, .f32⟩ : BufTy).Contents (Elt F)),
    unary main_arg15 main_v121 (broadcastInDim S50000x1 ![0] bcast_S50000_S50000x1_0 : (⟨S50000, .i32⟩ : BufTy).Contents (Elt F) → (⟨S50000x1, .i32⟩ : BufTy).Contents (Elt F)),
    ternary main_v120 main_v121 main_v113 main_v122 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    unary main_v9 main_v123 (broadcastInDim S128x128 ![0, 1] bcast_S128x1_S128x128_0_1 : (⟨S128x1, .f32⟩ : BufTy).Contents (Elt F) → (⟨S128x128, .f32⟩ : BufTy).Contents (Elt F)),
    binary main_v122 main_v123 main_v124 (Host.divf : (⟨S128x128, .f32⟩ : BufTy).Contents (Elt F) → (⟨S128x128, .f32⟩ : BufTy).Contents (Elt F) → (⟨S128x128, .f32⟩ : BufTy).Contents (Elt F)),
    nullary main_c_15 (constantI S_ 32 0#32),
    unary main_c_15 main_v125 (broadcastInDim S50000 ![] bcast_S_S50000 : (⟨S_, .i32⟩ : BufTy).Contents (Elt F) → (⟨S50000, .i32⟩ : BufTy).Contents (Elt F)),
    binary main_arg15 main_v125 main_v126 (cmpi .slt : (⟨S50000, .i32⟩ : BufTy).Contents (Elt F) → (⟨S50000, .i32⟩ : BufTy).Contents (Elt F) → (⟨S50000, .i1⟩ : BufTy).Contents (Elt F)),
    nullary main_c_16 (constantI S_ 32 128#32),
    unary main_c_16 main_v127 (broadcastInDim S50000 ![] bcast_S_S50000 : (⟨S_, .i32⟩ : BufTy).Contents (Elt F) → (⟨S50000, .i32⟩ : BufTy).Contents (Elt F)),
    binary main_arg15 main_v127 main_v128 (addi : (⟨S50000, .i32⟩ : BufTy).Contents (Elt F) → (⟨S50000, .i32⟩ : BufTy).Contents (Elt F) → (⟨S50000, .i32⟩ : BufTy).Contents (Elt F)) ]

set_option maxRecDepth 8192 in
theorem ops4_sub : (ops4 : List (HloOp τ sig (Elt F))).Forall fun op => op.bufs ⊆ tcRefs τ sig :=
  ⟨nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub ..⟩

theorem ops4_fresh : (ops4 : List (HloOp τ sig (Elt F))).Forall fun op => op.fresh = ∅ := by
  simp only [List.Forall]; repeat' constructor

/-- The references these operations write. -/
abbrev ops4_W : List (Ref sig .tc) := [main_call3_cst, main_call3_v0, main_v104, main_v105, main_v106, main_v107, main_v108, main_v109, main_v110, main_v111, main_v112, main_call4_cst, main_call4_v0, main_v113, main_v114, main_v115, main_v116, main_v117, main_v118, main_v119, main_cst_14, main_v120, main_v121, main_v122, main_v123, main_v124, main_c_15, main_v125, main_v126, main_c_16, main_v127, main_v128]

theorem ops4_writes : (ops4 : List (HloOp τ sig (Elt F))).Forall fun op => op.writes ⊆ (ops4_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A reference these operations do not write keeps its contents. -/
theorem c4_keeps (V : Valuation τ sig (Elt F)) (r : Ref sig .tc) (h : r ∉ ops4_W) :
    after (ops4 (F := F)) V (Proc.devRef .tc r) = V (Proc.devRef .tc r) :=
  after_of_writes_sub ops4 V ops4_writes h

/-! From any contents V: each reference the stretch writes ends at its stage, given that the references the stage
    reads from before the stretch stand at theirs. -/

theorem c4_main_call3_cst (V : Valuation τ sig (Elt F)) :
    after (ops4 (F := F)) V (Proc.devRef .tc main_call3_cst) = val_main_call3_cst (F := F) := by
  after_results_simp
  rfl

theorem c4_main_call3_v0 (V : Valuation τ sig (Elt F)) :
    after (ops4 (F := F)) V (Proc.devRef .tc main_call3_v0) = val_main_call3_v0 (F := F) := by
  after_results_simp
  rfl

theorem c4_main_v104 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v103 : V (Proc.devRef .tc main_v103) = val_main_v103 (F := F) x0 x1 x2 x3 x4 x5 x6 x7 x14 x15) :
    after (ops4 (F := F)) V (Proc.devRef .tc main_v104) = val_main_v104 (F := F) x0 x1 x2 x3 x4 x5 x6 x7 x14 x15 := by
  after_results_simp
  simp only [h_main_v103]
  rfl

theorem c4_main_v105 (V : Valuation τ sig (Elt F)) (x3 : (⟨S4x128x128, .f32⟩ : BufTy).Contents (Elt F))
    (h_main_arg3 : V (Proc.devRef .tc main_arg3) = x3) :
    after (ops4 (F := F)) V (Proc.devRef .tc main_v105) = val_main_v105 (F := F) x3 := by
  after_results_simp
  simp only [h_main_arg3]
  rfl

theorem c4_main_v106 (V : Valuation τ sig (Elt F)) (x3 : (⟨S4x128x128, .f32⟩ : BufTy).Contents (Elt F))
    (h_main_arg3 : V (Proc.devRef .tc main_arg3) = x3) :
    after (ops4 (F := F)) V (Proc.devRef .tc main_v106) = val_main_v106 (F := F) x3 := by
  after_results_simp
  simp only [h_main_arg3]
  rfl

theorem c4_main_v107 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v103 : V (Proc.devRef .tc main_v103) = val_main_v103 (F := F) x0 x1 x2 x3 x4 x5 x6 x7 x14 x15)
    (h_main_arg3 : V (Proc.devRef .tc main_arg3) = x3) :
    after (ops4 (F := F)) V (Proc.devRef .tc main_v107) = val_main_v107 (F := F) x0 x1 x2 x3 x4 x5 x6 x7 x14 x15 := by
  after_results_simp
  simp only [h_main_v103, h_main_arg3]
  rfl

theorem c4_main_v108 (V : Valuation τ sig (Elt F)) (x4 : (⟨S4x128, .f32⟩ : BufTy).Contents (Elt F))
    (h_main_arg4 : V (Proc.devRef .tc main_arg4) = x4) :
    after (ops4 (F := F)) V (Proc.devRef .tc main_v108) = val_main_v108 (F := F) x4 := by
  after_results_simp
  simp only [h_main_arg4]
  rfl

theorem c4_main_v109 (V : Valuation τ sig (Elt F)) (x4 : (⟨S4x128, .f32⟩ : BufTy).Contents (Elt F))
    (h_main_arg4 : V (Proc.devRef .tc main_arg4) = x4) :
    after (ops4 (F := F)) V (Proc.devRef .tc main_v109) = val_main_v109 (F := F) x4 := by
  after_results_simp
  simp only [h_main_arg4]
  rfl

theorem c4_main_v110 (V : Valuation τ sig (Elt F)) (x4 : (⟨S4x128, .f32⟩ : BufTy).Contents (Elt F))
    (h_main_arg4 : V (Proc.devRef .tc main_arg4) = x4) :
    after (ops4 (F := F)) V (Proc.devRef .tc main_v110) = val_main_v110 (F := F) x4 := by
  after_results_simp
  simp only [h_main_arg4]
  rfl

theorem c4_main_v111 (V : Valuation τ sig (Elt F)) (x4 : (⟨S4x128, .f32⟩ : BufTy).Contents (Elt F))
    (h_main_arg4 : V (Proc.devRef .tc main_arg4) = x4) :
    after (ops4 (F := F)) V (Proc.devRef .tc main_v111) = val_main_v111 (F := F) x4 := by
  after_results_simp
  simp only [h_main_arg4]
  rfl

theorem c4_main_v112 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v103 : V (Proc.devRef .tc main_v103) = val_main_v103 (F := F) x0 x1 x2 x3 x4 x5 x6 x7 x14 x15)
    (h_main_arg3 : V (Proc.devRef .tc main_arg3) = x3)
    (h_main_arg4 : V (Proc.devRef .tc main_arg4) = x4) :
    after (ops4 (F := F)) V (Proc.devRef .tc main_v112) = val_main_v112 (F := F) x0 x1 x2 x3 x4 x5 x6 x7 x14 x15 := by
  after_results_simp
  simp only [h_main_v103, h_main_arg3, h_main_arg4]
  rfl

theorem c4_main_call4_cst (V : Valuation τ sig (Elt F)) :
    after (ops4 (F := F)) V (Proc.devRef .tc main_call4_cst) = val_main_call4_cst (F := F) := by
  after_results_simp
  rfl

theorem c4_main_call4_v0 (V : Valuation τ sig (Elt F)) :
    after (ops4 (F := F)) V (Proc.devRef .tc main_call4_v0) = val_main_call4_v0 (F := F) := by
  after_results_simp
  rfl

theorem c4_main_v113 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v103 : V (Proc.devRef .tc main_v103) = val_main_v103 (F := F) x0 x1 x2 x3 x4 x5 x6 x7 x14 x15)
    (h_main_arg3 : V (Proc.devRef .tc main_arg3) = x3)
    (h_main_arg4 : V (Proc.devRef .tc main_arg4) = x4) :
    after (ops4 (F := F)) V (Proc.devRef .tc main_v113) = val_main_v113 (F := F) x0 x1 x2 x3 x4 x5 x6 x7 x14 x15 := by
  after_results_simp
  simp only [h_main_v103, h_main_arg3, h_main_arg4]
  rfl

theorem c4_main_v114 (V : Valuation τ sig (Elt F)) (x5 : (⟨S4x128, .f32⟩ : BufTy).Contents (Elt F))
    (h_main_arg5 : V (Proc.devRef .tc main_arg5) = x5) :
    after (ops4 (F := F)) V (Proc.devRef .tc main_v114) = val_main_v114 (F := F) x5 := by
  after_results_simp
  simp only [h_main_arg5]
  rfl

theorem c4_main_v115 (V : Valuation τ sig (Elt F)) (x5 : (⟨S4x128, .f32⟩ : BufTy).Contents (Elt F))
    (h_main_arg5 : V (Proc.devRef .tc main_arg5) = x5) :
    after (ops4 (F := F)) V (Proc.devRef .tc main_v115) = val_main_v115 (F := F) x5 := by
  after_results_simp
  simp only [h_main_arg5]
  rfl

theorem c4_main_v116 (V : Valuation τ sig (Elt F)) (x6 : (⟨S4x128, .f32⟩ : BufTy).Contents (Elt F))
    (h_main_arg6 : V (Proc.devRef .tc main_arg6) = x6) :
    after (ops4 (F := F)) V (Proc.devRef .tc main_v116) = val_main_v116 (F := F) x6 := by
  after_results_simp
  simp only [h_main_arg6]
  rfl

theorem c4_main_v117 (V : Valuation τ sig (Elt F)) (x6 : (⟨S4x128, .f32⟩ : BufTy).Contents (Elt F))
    (h_main_arg6 : V (Proc.devRef .tc main_arg6) = x6) :
    after (ops4 (F := F)) V (Proc.devRef .tc main_v117) = val_main_v117 (F := F) x6 := by
  after_results_simp
  simp only [h_main_arg6]
  rfl

theorem c4_main_v118 (V : Valuation τ sig (Elt F)) (x7 : (⟨S4x128, .f32⟩ : BufTy).Contents (Elt F))
    (h_main_arg7 : V (Proc.devRef .tc main_arg7) = x7) :
    after (ops4 (F := F)) V (Proc.devRef .tc main_v118) = val_main_v118 (F := F) x7 := by
  after_results_simp
  simp only [h_main_arg7]
  rfl

theorem c4_main_v119 (V : Valuation τ sig (Elt F)) (x7 : (⟨S4x128, .f32⟩ : BufTy).Contents (Elt F))
    (h_main_arg7 : V (Proc.devRef .tc main_arg7) = x7) :
    after (ops4 (F := F)) V (Proc.devRef .tc main_v119) = val_main_v119 (F := F) x7 := by
  after_results_simp
  simp only [h_main_arg7]
  rfl

theorem c4_main_cst_14 (V : Valuation τ sig (Elt F)) :
    after (ops4 (F := F)) V (Proc.devRef .tc main_cst_14) = val_main_cst_14 (F := F) := by
  after_results_simp
  rfl

theorem c4_main_v120 (V : Valuation τ sig (Elt F)) :
    after (ops4 (F := F)) V (Proc.devRef .tc main_v120) = val_main_v120 (F := F) := by
  after_results_simp
  rfl

theorem c4_main_v121 (V : Valuation τ sig (Elt F)) (x15 : (⟨S50000, .i32⟩ : BufTy).Contents (Elt F))
    (h_main_arg15 : V (Proc.devRef .tc main_arg15) = x15) :
    after (ops4 (F := F)) V (Proc.devRef .tc main_v121) = val_main_v121 (F := F) x15 := by
  after_results_simp
  simp only [h_main_arg15]
  rfl

theorem c4_main_v122 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_arg15 : V (Proc.devRef .tc main_arg15) = x15)
    (h_main_v103 : V (Proc.devRef .tc main_v103) = val_main_v103 (F := F) x0 x1 x2 x3 x4 x5 x6 x7 x14 x15)
    (h_main_arg3 : V (Proc.devRef .tc main_arg3) = x3)
    (h_main_arg4 : V (Proc.devRef .tc main_arg4) = x4) :
    after (ops4 (F := F)) V (Proc.devRef .tc main_v122) = val_main_v122 (F := F) x0 x1 x2 x3 x4 x5 x6 x7 x14 x15 := by
  after_results_simp
  simp only [h_main_arg15, h_main_v103, h_main_arg3, h_main_arg4]
  rfl

theorem c4_main_v123 (V : Valuation τ sig (Elt F)) (x15 : (⟨S50000, .i32⟩ : BufTy).Contents (Elt F))
    (h_main_v9 : V (Proc.devRef .tc main_v9) = val_main_v9 (F := F) x15) :
    after (ops4 (F := F)) V (Proc.devRef .tc main_v123) = val_main_v123 (F := F) x15 := by
  after_results_simp
  simp only [h_main_v9]
  rfl

theorem c4_main_v124 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_arg15 : V (Proc.devRef .tc main_arg15) = x15)
    (h_main_v103 : V (Proc.devRef .tc main_v103) = val_main_v103 (F := F) x0 x1 x2 x3 x4 x5 x6 x7 x14 x15)
    (h_main_arg3 : V (Proc.devRef .tc main_arg3) = x3)
    (h_main_arg4 : V (Proc.devRef .tc main_arg4) = x4)
    (h_main_v9 : V (Proc.devRef .tc main_v9) = val_main_v9 (F := F) x15) :
    after (ops4 (F := F)) V (Proc.devRef .tc main_v124) = val_main_v124 (F := F) x0 x1 x2 x3 x4 x5 x6 x7 x14 x15 := by
  after_results_simp
  simp only [h_main_arg15, h_main_v103, h_main_arg3, h_main_arg4, h_main_v9]
  rfl

theorem c4_main_c_15 (V : Valuation τ sig (Elt F)) :
    after (ops4 (F := F)) V (Proc.devRef .tc main_c_15) = val_main_c_15 (F := F) := by
  after_results_simp
  rfl

theorem c4_main_v125 (V : Valuation τ sig (Elt F)) :
    after (ops4 (F := F)) V (Proc.devRef .tc main_v125) = val_main_v125 (F := F) := by
  after_results_simp
  rfl

theorem c4_main_v126 (V : Valuation τ sig (Elt F)) (x15 : (⟨S50000, .i32⟩ : BufTy).Contents (Elt F))
    (h_main_arg15 : V (Proc.devRef .tc main_arg15) = x15) :
    after (ops4 (F := F)) V (Proc.devRef .tc main_v126) = val_main_v126 (F := F) x15 := by
  after_results_simp
  simp only [h_main_arg15]
  rfl

theorem c4_main_c_16 (V : Valuation τ sig (Elt F)) :
    after (ops4 (F := F)) V (Proc.devRef .tc main_c_16) = val_main_c_16 (F := F) := by
  after_results_simp
  rfl

theorem c4_main_v127 (V : Valuation τ sig (Elt F)) :
    after (ops4 (F := F)) V (Proc.devRef .tc main_v127) = val_main_v127 (F := F) := by
  after_results_simp
  rfl

theorem c4_main_v128 (V : Valuation τ sig (Elt F)) (x15 : (⟨S50000, .i32⟩ : BufTy).Contents (Elt F))
    (h_main_arg15 : V (Proc.devRef .tc main_arg15) = x15) :
    after (ops4 (F := F)) V (Proc.devRef .tc main_v128) = val_main_v128 (F := F) x15 := by
  after_results_simp
  simp only [h_main_arg15]
  rfl

end Cert.ReferenceIdeal.RunH

end
-- ==== Proof.RefRunC5.lean ====
import proofs.«408428_j10917806867267_1_alg».proof.Proof.RefRead

set_option maxHeartbeats 1000000

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 158 … 189 of the reference's @main, in order. -/
abbrev ops5 : List (HloOp τ sig (Elt F)) :=
  [ ternary main_v126 main_v128 main_arg15 main_v129 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v129 main_v130 (broadcastInDim S50000x1 ![0] bcast_S50000_S50000x1_0 : (⟨S50000, .i32⟩ : BufTy).Contents (Elt F) → (⟨S50000x1, .i32⟩ : BufTy).Contents (Elt F)),
    binary main_v124 main_v130 main_v131 ((fun x i => Host.gather gather_S128x128_S50000x1_S50000x128_1_0_n_n_0_1_1128 x i) : (⟨S128x128, .f32⟩ : BufTy).Contents (Elt F) → (⟨S50000x1, .i32⟩ : BufTy).Contents (Elt F) → (⟨S50000x128, .f32⟩ : BufTy).Contents (Elt F)),
    unary main_v119 main_v132 (broadcastInDim S1x128 ![1] bcast_S128_S1x128_1 : (⟨S128, .f32⟩ : BufTy).Contents (Elt F) → (⟨S1x128, .f32⟩ : BufTy).Contents (Elt F)),
    unary main_v132 main_v133 (broadcastInDim S50000x128 ![0, 1] bcast_S1x128_S50000x128_0_1 : (⟨S1x128, .f32⟩ : BufTy).Contents (Elt F) → (⟨S50000x128, .f32⟩ : BufTy).Contents (Elt F)),
    binary main_v131 main_v133 main_v134 (mulf : (⟨S50000x128, .f32⟩ : BufTy).Contents (Elt F) → (⟨S50000x128, .f32⟩ : BufTy).Contents (Elt F) → (⟨S50000x128, .f32⟩ : BufTy).Contents (Elt F)),
    binary main_v113 main_v134 main_v135 (subf : (⟨S50000x128, .f32⟩ : BufTy).Contents (Elt F) → (⟨S50000x128, .f32⟩ : BufTy).Contents (Elt F) → (⟨S50000x128, .f32⟩ : BufTy).Contents (Elt F)),
    binary main_v135 main_v135 main_v136 (mulf : (⟨S50000x128, .f32⟩ : BufTy).Contents (Elt F) → (⟨S50000x128, .f32⟩ : BufTy).Contents (Elt F) → (⟨S50000x128, .f32⟩ : BufTy).Contents (Elt F)),
    nullary main_cst_17 (constant S_ .f32 0x00000000#32),
    unary main_cst_17 main_v137 (broadcastInDim S128x128 ![] bcast_S_S128x128 : (⟨S_, .f32⟩ : BufTy).Contents (Elt F) → (⟨S128x128, .f32⟩ : BufTy).Contents (Elt F)),
    unary main_arg15 main_v138 (broadcastInDim S50000x1 ![0] bcast_S50000_S50000x1_0 : (⟨S50000, .i32⟩ : BufTy).Contents (Elt F) → (⟨S50000x1, .i32⟩ : BufTy).Contents (Elt F)),
    ternary main_v137 main_v138 main_v136 main_v139 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    unary main_v9 main_v140 (broadcastInDim S128x128 ![0, 1] bcast_S128x1_S128x128_0_1 : (⟨S128x1, .f32⟩ : BufTy).Contents (Elt F) → (⟨S128x128, .f32⟩ : BufTy).Contents (Elt F)),
    binary main_v139 main_v140 main_v141 (Host.divf : (⟨S128x128, .f32⟩ : BufTy).Contents (Elt F) → (⟨S128x128, .f32⟩ : BufTy).Contents (Elt F) → (⟨S128x128, .f32⟩ : BufTy).Contents (Elt F)),
    unary main_v115 main_v142 (broadcastInDim S1x128 ![1] bcast_S128_S1x128_1 : (⟨S128, .f32⟩ : BufTy).Contents (Elt F) → (⟨S1x128, .f32⟩ : BufTy).Contents (Elt F)),
    unary main_v142 main_v143 (broadcastInDim S50000x128 ![0, 1] bcast_S1x128_S50000x128_0_1 : (⟨S1x128, .f32⟩ : BufTy).Contents (Elt F) → (⟨S50000x128, .f32⟩ : BufTy).Contents (Elt F)),
    binary main_v143 main_v135 main_v144 (mulf : (⟨S50000x128, .f32⟩ : BufTy).Contents (Elt F) → (⟨S50000x128, .f32⟩ : BufTy).Contents (Elt F) → (⟨S50000x128, .f32⟩ : BufTy).Contents (Elt F)),
    nullary main_c_18 (constantI S_ 32 0#32),
    unary main_c_18 main_v145 (broadcastInDim S50000 ![] bcast_S_S50000 : (⟨S_, .i32⟩ : BufTy).Contents (Elt F) → (⟨S50000, .i32⟩ : BufTy).Contents (Elt F)),
    binary main_arg15 main_v145 main_v146 (cmpi .slt : (⟨S50000, .i32⟩ : BufTy).Contents (Elt F) → (⟨S50000, .i32⟩ : BufTy).Contents (Elt F) → (⟨S50000, .i1⟩ : BufTy).Contents (Elt F)),
    nullary main_c_19 (constantI S_ 32 128#32),
    unary main_c_19 main_v147 (broadcastInDim S50000 ![] bcast_S_S50000 : (⟨S_, .i32⟩ : BufTy).Contents (Elt F) → (⟨S50000, .i32⟩ : BufTy).Contents (Elt F)),
    binary main_arg15 main_v147 main_v148 (addi : (⟨S50000, .i32⟩ : BufTy).Contents (Elt F) → (⟨S50000, .i32⟩ : BufTy).Contents (Elt F) → (⟨S50000, .i32⟩ : BufTy).Contents (Elt F)),
    ternary main_v146 main_v148 main_arg15 main_v149 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v149 main_v150 (broadcastInDim S50000x1 ![0] bcast_S50000_S50000x1_0 : (⟨S50000, .i32⟩ : BufTy).Contents (Elt F) → (⟨S50000x1, .i32⟩ : BufTy).Contents (Elt F)),
    binary main_v141 main_v150 main_v151 ((fun x i => Host.gather gather_S128x128_S50000x1_S50000x128_1_0_n_n_0_1_1128 x i) : (⟨S128x128, .f32⟩ : BufTy).Contents (Elt F) → (⟨S50000x1, .i32⟩ : BufTy).Contents (Elt F) → (⟨S50000x128, .f32⟩ : BufTy).Contents (Elt F)),
    nullary main_cst_20 (constant S_ .f32 0x3727C5AC#32),
    unary main_cst_20 main_v152 (broadcastInDim S50000x128 ![] bcast_S_S50000x128 : (⟨S_, .f32⟩ : BufTy).Contents (Elt F) → (⟨S50000x128, .f32⟩ : BufTy).Contents (Elt F)),
    binary main_v151 main_v152 main_v153 (addf : (⟨S50000x128, .f32⟩ : BufTy).Contents (Elt F) → (⟨S50000x128, .f32⟩ : BufTy).Contents (Elt F) → (⟨S50000x128, .f32⟩ : BufTy).Contents (Elt F)),
    unary main_v153 main_v154 (Host.sqrt : (⟨S50000x128, .f32⟩ : BufTy).Contents (Elt F) → (⟨S50000x128, .f32⟩ : BufTy).Contents (Elt F)),
    binary main_v144 main_v154 main_v155 (Host.divf : (⟨S50000x128, .f32⟩ : BufTy).Contents (Elt F) → (⟨S50000x128, .f32⟩ : BufTy).Contents (Elt F) → (⟨S50000x128, .f32⟩ : BufTy).Contents (Elt F)),
    unary main_v117 main_v156 (broadcastInDim S1x128 ![1] bcast_S128_S1x128_1 : (⟨S128, .f32⟩ : BufTy).Contents (Elt F) → (⟨S1x128, .f32⟩ : BufTy).Contents (Elt F)) ]

set_option maxRecDepth 8192 in
theorem ops5_sub : (ops5 : List (HloOp τ sig (Elt F))).Forall fun op => op.bufs ⊆ tcRefs τ sig :=
  ⟨ternary_bufs_sub .., unary_bufs_sub .., binary_bufs_sub .., unary_bufs_sub .., unary_bufs_sub .., binary_bufs_sub .., binary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub .., unary_bufs_sub ..⟩

theorem ops5_fresh : (ops5 : List (HloOp τ sig (Elt F))).Forall fun op => op.fresh = ∅ := by
  simp only [List.Forall]; repeat' constructor

/-- The references these operations write. -/
abbrev ops5_W : List (Ref sig .tc) := [main_v129, main_v130, main_v131, main_v132, main_v133, main_v134, main_v135, main_v136, main_cst_17, main_v137, main_v138, main_v139, main_v140, main_v141, main_v142, main_v143, main_v144, main_c_18, main_v145, main_v146, main_c_19, main_v147, main_v148, main_v149, main_v150, main_v151, main_cst_20, main_v152, main_v153, main_v154, main_v155, main_v156]

theorem ops5_writes : (ops5 : List (HloOp τ sig (Elt F))).Forall fun op => op.writes ⊆ (ops5_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A reference these operations do not write keeps its contents. -/
theorem c5_keeps (V : Valuation τ sig (Elt F)) (r : Ref sig .tc) (h : r ∉ ops5_W) :
    after (ops5 (F := F)) V (Proc.devRef .tc r) = V (Proc.devRef .tc r) :=
  after_of_writes_sub ops5 V ops5_writes h

/-! From any contents V: each reference the stretch writes ends at its stage, given that the references the stage
    reads from before the stretch stand at theirs. -/

theorem c5_main_v129 (V : Valuation τ sig (Elt F)) (x15 : (⟨S50000, .i32⟩ : BufTy).Contents (Elt F))
    (h_main_v126 : V (Proc.devRef .tc main_v126) = val_main_v126 (F := F) x15)
    (h_main_v128 : V (Proc.devRef .tc main_v128) = val_main_v128 (F := F) x15)
    (h_main_arg15 : V (Proc.devRef .tc main_arg15) = x15) :
    after (ops5 (F := F)) V (Proc.devRef .tc main_v129) = val_main_v129 (F := F) x15 := by
  after_results_simp
  simp only [h_main_v126, h_main_v128, h_main_arg15]
  rfl

theorem c5_main_v130 (V : Valuation τ sig (Elt F)) (x15 : (⟨S50000, .i32⟩ : BufTy).Contents (Elt F))
    (h_main_v126 : V (Proc.devRef .tc main_v126) = val_main_v126 (F := F) x15)
    (h_main_v128 : V (Proc.devRef .tc main_v128) = val_main_v128 (F := F) x15)
    (h_main_arg15 : V (Proc.devRef .tc main_arg15) = x15) :
    after (ops5 (F := F)) V (Proc.devRef .tc main_v130) = val_main_v130 (F := F) x15 := by
  after_results_simp
  simp only [h_main_v126, h_main_v128, h_main_arg15]
  rfl

theorem c5_main_v131 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v124 : V (Proc.devRef .tc main_v124) = val_main_v124 (F := F) x0 x1 x2 x3 x4 x5 x6 x7 x14 x15)
    (h_main_v126 : V (Proc.devRef .tc main_v126) = val_main_v126 (F := F) x15)
    (h_main_v128 : V (Proc.devRef .tc main_v128) = val_main_v128 (F := F) x15)
    (h_main_arg15 : V (Proc.devRef .tc main_arg15) = x15) :
    after (ops5 (F := F)) V (Proc.devRef .tc main_v131) = val_main_v131 (F := F) x0 x1 x2 x3 x4 x5 x6 x7 x14 x15 := by
  after_results_simp
  simp only [h_main_v124, h_main_v126, h_main_v128, h_main_arg15]
  rfl

theorem c5_main_v132 (V : Valuation τ sig (Elt F)) (x7 : (⟨S4x128, .f32⟩ : BufTy).Contents (Elt F))
    (h_main_v119 : V (Proc.devRef .tc main_v119) = val_main_v119 (F := F) x7) :
    after (ops5 (F := F)) V (Proc.devRef .tc main_v132) = val_main_v132 (F := F) x7 := by
  after_results_simp
  simp only [h_main_v119]
  rfl

theorem c5_main_v133 (V : Valuation τ sig (Elt F)) (x7 : (⟨S4x128, .f32⟩ : BufTy).Contents (Elt F))
    (h_main_v119 : V (Proc.devRef .tc main_v119) = val_main_v119 (F := F) x7) :
    after (ops5 (F := F)) V (Proc.devRef .tc main_v133) = val_main_v133 (F := F) x7 := by
  after_results_simp
  simp only [h_main_v119]
  rfl

theorem c5_main_v134 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v124 : V (Proc.devRef .tc main_v124) = val_main_v124 (F := F) x0 x1 x2 x3 x4 x5 x6 x7 x14 x15)
    (h_main_v126 : V (Proc.devRef .tc main_v126) = val_main_v126 (F := F) x15)
    (h_main_v128 : V (Proc.devRef .tc main_v128) = val_main_v128 (F := F) x15)
    (h_main_arg15 : V (Proc.devRef .tc main_arg15) = x15)
    (h_main_v119 : V (Proc.devRef .tc main_v119) = val_main_v119 (F := F) x7) :
    after (ops5 (F := F)) V (Proc.devRef .tc main_v134) = val_main_v134 (F := F) x0 x1 x2 x3 x4 x5 x6 x7 x14 x15 := by
  after_results_simp
  simp only [h_main_v124, h_main_v126, h_main_v128, h_main_arg15, h_main_v119]
  rfl

theorem c5_main_v135 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v113 : V (Proc.devRef .tc main_v113) = val_main_v113 (F := F) x0 x1 x2 x3 x4 x5 x6 x7 x14 x15)
    (h_main_v124 : V (Proc.devRef .tc main_v124) = val_main_v124 (F := F) x0 x1 x2 x3 x4 x5 x6 x7 x14 x15)
    (h_main_v126 : V (Proc.devRef .tc main_v126) = val_main_v126 (F := F) x15)
    (h_main_v128 : V (Proc.devRef .tc main_v128) = val_main_v128 (F := F) x15)
    (h_main_arg15 : V (Proc.devRef .tc main_arg15) = x15)
    (h_main_v119 : V (Proc.devRef .tc main_v119) = val_main_v119 (F := F) x7) :
    after (ops5 (F := F)) V (Proc.devRef .tc main_v135) = val_main_v135 (F := F) x0 x1 x2 x3 x4 x5 x6 x7 x14 x15 := by
  after_results_simp
  simp only [h_main_v113, h_main_v124, h_main_v126, h_main_v128, h_main_arg15, h_main_v119]
  rfl

theorem c5_main_v136 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v113 : V (Proc.devRef .tc main_v113) = val_main_v113 (F := F) x0 x1 x2 x3 x4 x5 x6 x7 x14 x15)
    (h_main_v124 : V (Proc.devRef .tc main_v124) = val_main_v124 (F := F) x0 x1 x2 x3 x4 x5 x6 x7 x14 x15)
    (h_main_v126 : V (Proc.devRef .tc main_v126) = val_main_v126 (F := F) x15)
    (h_main_v128 : V (Proc.devRef .tc main_v128) = val_main_v128 (F := F) x15)
    (h_main_arg15 : V (Proc.devRef .tc main_arg15) = x15)
    (h_main_v119 : V (Proc.devRef .tc main_v119) = val_main_v119 (F := F) x7) :
    after (ops5 (F := F)) V (Proc.devRef .tc main_v136) = val_main_v136 (F := F) x0 x1 x2 x3 x4 x5 x6 x7 x14 x15 := by
  after_results_simp
  simp only [h_main_v113, h_main_v124, h_main_v126, h_main_v128, h_main_arg15, h_main_v119]
  rfl

theorem c5_main_cst_17 (V : Valuation τ sig (Elt F)) :
    after (ops5 (F := F)) V (Proc.devRef .tc main_cst_17) = val_main_cst_17 (F := F) := by
  after_results_simp
  rfl

theorem c5_main_v137 (V : Valuation τ sig (Elt F)) :
    after (ops5 (F := F)) V (Proc.devRef .tc main_v137) = val_main_v137 (F := F) := by
  after_results_simp
  rfl

theorem c5_main_v138 (V : Valuation τ sig (Elt F)) (x15 : (⟨S50000, .i32⟩ : BufTy).Contents (Elt F))
    (h_main_arg15 : V (Proc.devRef .tc main_arg15) = x15) :
    after (ops5 (F := F)) V (Proc.devRef .tc main_v138) = val_main_v138 (F := F) x15 := by
  after_results_simp
  simp only [h_main_arg15]
  rfl

theorem c5_main_v139 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_arg15 : V (Proc.devRef .tc main_arg15) = x15)
    (h_main_v113 : V (Proc.devRef .tc main_v113) = val_main_v113 (F := F) x0 x1 x2 x3 x4 x5 x6 x7 x14 x15)
    (h_main_v124 : V (Proc.devRef .tc main_v124) = val_main_v124 (F := F) x0 x1 x2 x3 x4 x5 x6 x7 x14 x15)
    (h_main_v126 : V (Proc.devRef .tc main_v126) = val_main_v126 (F := F) x15)
    (h_main_v128 : V (Proc.devRef .tc main_v128) = val_main_v128 (F := F) x15)
    (h_main_v119 : V (Proc.devRef .tc main_v119) = val_main_v119 (F := F) x7) :
    after (ops5 (F := F)) V (Proc.devRef .tc main_v139) = val_main_v139 (F := F) x0 x1 x2 x3 x4 x5 x6 x7 x14 x15 := by
  after_results_simp
  simp only [h_main_arg15, h_main_v113, h_main_v124, h_main_v126, h_main_v128, h_main_v119]
  rfl

theorem c5_main_v140 (V : Valuation τ sig (Elt F)) (x15 : (⟨S50000, .i32⟩ : BufTy).Contents (Elt F))
    (h_main_v9 : V (Proc.devRef .tc main_v9) = val_main_v9 (F := F) x15) :
    after (ops5 (F := F)) V (Proc.devRef .tc main_v140) = val_main_v140 (F := F) x15 := by
  after_results_simp
  simp only [h_main_v9]
  rfl

theorem c5_main_v141 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_arg15 : V (Proc.devRef .tc main_arg15) = x15)
    (h_main_v113 : V (Proc.devRef .tc main_v113) = val_main_v113 (F := F) x0 x1 x2 x3 x4 x5 x6 x7 x14 x15)
    (h_main_v124 : V (Proc.devRef .tc main_v124) = val_main_v124 (F := F) x0 x1 x2 x3 x4 x5 x6 x7 x14 x15)
    (h_main_v126 : V (Proc.devRef .tc main_v126) = val_main_v126 (F := F) x15)
    (h_main_v128 : V (Proc.devRef .tc main_v128) = val_main_v128 (F := F) x15)
    (h_main_v119 : V (Proc.devRef .tc main_v119) = val_main_v119 (F := F) x7)
    (h_main_v9 : V (Proc.devRef .tc main_v9) = val_main_v9 (F := F) x15) :
    after (ops5 (F := F)) V (Proc.devRef .tc main_v141) = val_main_v141 (F := F) x0 x1 x2 x3 x4 x5 x6 x7 x14 x15 := by
  after_results_simp
  simp only [h_main_arg15, h_main_v113, h_main_v124, h_main_v126, h_main_v128, h_main_v119, h_main_v9]
  rfl

theorem c5_main_v142 (V : Valuation τ sig (Elt F)) (x5 : (⟨S4x128, .f32⟩ : BufTy).Contents (Elt F))
    (h_main_v115 : V (Proc.devRef .tc main_v115) = val_main_v115 (F := F) x5) :
    after (ops5 (F := F)) V (Proc.devRef .tc main_v142) = val_main_v142 (F := F) x5 := by
  after_results_simp
  simp only [h_main_v115]
  rfl

theorem c5_main_v143 (V : Valuation τ sig (Elt F)) (x5 : (⟨S4x128, .f32⟩ : BufTy).Contents (Elt F))
    (h_main_v115 : V (Proc.devRef .tc main_v115) = val_main_v115 (F := F) x5) :
    after (ops5 (F := F)) V (Proc.devRef .tc main_v143) = val_main_v143 (F := F) x5 := by
  after_results_simp
  simp only [h_main_v115]
  rfl

theorem c5_main_v144 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v115 : V (Proc.devRef .tc main_v115) = val_main_v115 (F := F) x5)
    (h_main_v113 : V (Proc.devRef .tc main_v113) = val_main_v113 (F := F) x0 x1 x2 x3 x4 x5 x6 x7 x14 x15)
    (h_main_v124 : V (Proc.devRef .tc main_v124) = val_main_v124 (F := F) x0 x1 x2 x3 x4 x5 x6 x7 x14 x15)
    (h_main_v126 : V (Proc.devRef .tc main_v126) = val_main_v126 (F := F) x15)
    (h_main_v128 : V (Proc.devRef .tc main_v128) = val_main_v128 (F := F) x15)
    (h_main_arg15 : V (Proc.devRef .tc main_arg15) = x15)
    (h_main_v119 : V (Proc.devRef .tc main_v119) = val_main_v119 (F := F) x7) :
    after (ops5 (F := F)) V (Proc.devRef .tc main_v144) = val_main_v144 (F := F) x0 x1 x2 x3 x4 x5 x6 x7 x14 x15 := by
  after_results_simp
  simp only [h_main_v115, h_main_v113, h_main_v124, h_main_v126, h_main_v128, h_main_arg15, h_main_v119]
  rfl

theorem c5_main_c_18 (V : Valuation τ sig (Elt F)) :
    after (ops5 (F := F)) V (Proc.devRef .tc main_c_18) = val_main_c_18 (F := F) := by
  after_results_simp
  rfl

theorem c5_main_v145 (V : Valuation τ sig (Elt F)) :
    after (ops5 (F := F)) V (Proc.devRef .tc main_v145) = val_main_v145 (F := F) := by
  after_results_simp
  rfl

theorem c5_main_v146 (V : Valuation τ sig (Elt F)) (x15 : (⟨S50000, .i32⟩ : BufTy).Contents (Elt F))
    (h_main_arg15 : V (Proc.devRef .tc main_arg15) = x15) :
    after (ops5 (F := F)) V (Proc.devRef .tc main_v146) = val_main_v146 (F := F) x15 := by
  after_results_simp
  simp only [h_main_arg15]
  rfl

theorem c5_main_c_19 (V : Valuation τ sig (Elt F)) :
    after (ops5 (F := F)) V (Proc.devRef .tc main_c_19) = val_main_c_19 (F := F) := by
  after_results_simp
  rfl

theorem c5_main_v147 (V : Valuation τ sig (Elt F)) :
    after (ops5 (F := F)) V (Proc.devRef .tc main_v147) = val_main_v147 (F := F) := by
  after_results_simp
  rfl

theorem c5_main_v148 (V : Valuation τ sig (Elt F)) (x15 : (⟨S50000, .i32⟩ : BufTy).Contents (Elt F))
    (h_main_arg15 : V (Proc.devRef .tc main_arg15) = x15) :
    after (ops5 (F := F)) V (Proc.devRef .tc main_v148) = val_main_v148 (F := F) x15 := by
  after_results_simp
  simp only [h_main_arg15]
  rfl

theorem c5_main_v149 (V : Valuation τ sig (Elt F)) (x15 : (⟨S50000, .i32⟩ : BufTy).Contents (Elt F))
    (h_main_arg15 : V (Proc.devRef .tc main_arg15) = x15) :
    after (ops5 (F := F)) V (Proc.devRef .tc main_v149) = val_main_v149 (F := F) x15 := by
  after_results_simp
  simp only [h_main_arg15]
  rfl

theorem c5_main_v150 (V : Valuation τ sig (Elt F)) (x15 : (⟨S50000, .i32⟩ : BufTy).Contents (Elt F))
    (h_main_arg15 : V (Proc.devRef .tc main_arg15) = x15) :
    after (ops5 (F := F)) V (Proc.devRef .tc main_v150) = val_main_v150 (F := F) x15 := by
  after_results_simp
  simp only [h_main_arg15]
  rfl

theorem c5_main_v151 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_arg15 : V (Proc.devRef .tc main_arg15) = x15)
    (h_main_v113 : V (Proc.devRef .tc main_v113) = val_main_v113 (F := F) x0 x1 x2 x3 x4 x5 x6 x7 x14 x15)
    (h_main_v124 : V (Proc.devRef .tc main_v124) = val_main_v124 (F := F) x0 x1 x2 x3 x4 x5 x6 x7 x14 x15)
    (h_main_v126 : V (Proc.devRef .tc main_v126) = val_main_v126 (F := F) x15)
    (h_main_v128 : V (Proc.devRef .tc main_v128) = val_main_v128 (F := F) x15)
    (h_main_v119 : V (Proc.devRef .tc main_v119) = val_main_v119 (F := F) x7)
    (h_main_v9 : V (Proc.devRef .tc main_v9) = val_main_v9 (F := F) x15) :
    after (ops5 (F := F)) V (Proc.devRef .tc main_v151) = val_main_v151 (F := F) x0 x1 x2 x3 x4 x5 x6 x7 x14 x15 := by
  after_results_simp
  simp only [h_main_arg15, h_main_v113, h_main_v124, h_main_v126, h_main_v128, h_main_v119, h_main_v9]
  rfl

theorem c5_main_cst_20 (V : Valuation τ sig (Elt F)) :
    after (ops5 (F := F)) V (Proc.devRef .tc main_cst_20) = val_main_cst_20 (F := F) := by
  after_results_simp
  rfl

theorem c5_main_v152 (V : Valuation τ sig (Elt F)) :
    after (ops5 (F := F)) V (Proc.devRef .tc main_v152) = val_main_v152 (F := F) := by
  after_results_simp
  rfl

theorem c5_main_v153 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_arg15 : V (Proc.devRef .tc main_arg15) = x15)
    (h_main_v113 : V (Proc.devRef .tc main_v113) = val_main_v113 (F := F) x0 x1 x2 x3 x4 x5 x6 x7 x14 x15)
    (h_main_v124 : V (Proc.devRef .tc main_v124) = val_main_v124 (F := F) x0 x1 x2 x3 x4 x5 x6 x7 x14 x15)
    (h_main_v126 : V (Proc.devRef .tc main_v126) = val_main_v126 (F := F) x15)
    (h_main_v128 : V (Proc.devRef .tc main_v128) = val_main_v128 (F := F) x15)
    (h_main_v119 : V (Proc.devRef .tc main_v119) = val_main_v119 (F := F) x7)
    (h_main_v9 : V (Proc.devRef .tc main_v9) = val_main_v9 (F := F) x15) :
    after (ops5 (F := F)) V (Proc.devRef .tc main_v153) = val_main_v153 (F := F) x0 x1 x2 x3 x4 x5 x6 x7 x14 x15 := by
  after_results_simp
  simp only [h_main_arg15, h_main_v113, h_main_v124, h_main_v126, h_main_v128, h_main_v119, h_main_v9]
  rfl

theorem c5_main_v154 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_arg15 : V (Proc.devRef .tc main_arg15) = x15)
    (h_main_v113 : V (Proc.devRef .tc main_v113) = val_main_v113 (F := F) x0 x1 x2 x3 x4 x5 x6 x7 x14 x15)
    (h_main_v124 : V (Proc.devRef .tc main_v124) = val_main_v124 (F := F) x0 x1 x2 x3 x4 x5 x6 x7 x14 x15)
    (h_main_v126 : V (Proc.devRef .tc main_v126) = val_main_v126 (F := F) x15)
    (h_main_v128 : V (Proc.devRef .tc main_v128) = val_main_v128 (F := F) x15)
    (h_main_v119 : V (Proc.devRef .tc main_v119) = val_main_v119 (F := F) x7)
    (h_main_v9 : V (Proc.devRef .tc main_v9) = val_main_v9 (F := F) x15) :
    after (ops5 (F := F)) V (Proc.devRef .tc main_v154) = val_main_v154 (F := F) x0 x1 x2 x3 x4 x5 x6 x7 x14 x15 := by
  after_results_simp
  simp only [h_main_arg15, h_main_v113, h_main_v124, h_main_v126, h_main_v128, h_main_v119, h_main_v9]
  rfl

theorem c5_main_v155 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v115 : V (Proc.devRef .tc main_v115) = val_main_v115 (F := F) x5)
    (h_main_v113 : V (Proc.devRef .tc main_v113) = val_main_v113 (F := F) x0 x1 x2 x3 x4 x5 x6 x7 x14 x15)
    (h_main_v124 : V (Proc.devRef .tc main_v124) = val_main_v124 (F := F) x0 x1 x2 x3 x4 x5 x6 x7 x14 x15)
    (h_main_v126 : V (Proc.devRef .tc main_v126) = val_main_v126 (F := F) x15)
    (h_main_v128 : V (Proc.devRef .tc main_v128) = val_main_v128 (F := F) x15)
    (h_main_arg15 : V (Proc.devRef .tc main_arg15) = x15)
    (h_main_v119 : V (Proc.devRef .tc main_v119) = val_main_v119 (F := F) x7)
    (h_main_v9 : V (Proc.devRef .tc main_v9) = val_main_v9 (F := F) x15) :
    after (ops5 (F := F)) V (Proc.devRef .tc main_v155) = val_main_v155 (F := F) x0 x1 x2 x3 x4 x5 x6 x7 x14 x15 := by
  after_results_simp
  simp only [h_main_v115, h_main_v113, h_main_v124, h_main_v126, h_main_v128, h_main_arg15, h_main_v119, h_main_v9]
  rfl

theorem c5_main_v156 (V : Valuation τ sig (Elt F)) (x6 : (⟨S4x128, .f32⟩ : BufTy).Contents (Elt F))
    (h_main_v117 : V (Proc.devRef .tc main_v117) = val_main_v117 (F := F) x6) :
    after (ops5 (F := F)) V (Proc.devRef .tc main_v156) = val_main_v156 (F := F) x6 := by
  after_results_simp
  simp only [h_main_v117]
  rfl

end Cert.ReferenceIdeal.RunH

end
-- ==== Proof.RefRunC6.lean ====
import proofs.«408428_j10917806867267_1_alg».proof.Proof.RefRead

set_option maxHeartbeats 1000000

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 190 … 222 of the reference's @main, in order. -/
abbrev ops6 : List (HloOp τ sig (Elt F)) :=
  [ unary main_v156 main_v157 (broadcastInDim S50000x128 ![0, 1] bcast_S1x128_S50000x128_0_1 : (⟨S1x128, .f32⟩ : BufTy).Contents (Elt F) → (⟨S50000x128, .f32⟩ : BufTy).Contents (Elt F)),
    binary main_v155 main_v157 main_v158 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v158) (TRef.of (T := ⟨S50000x128, .f32⟩) main_call5_v0) (TRef.of (T := ⟨S50000x128, .f32⟩) main_v159) maximumf,
    nullary main_c_21 (constantI S_ 32 0#32),
    unary main_c_21 main_v160 (broadcastInDim S800000 ![] bcast_S_S800000 : (⟨S_, .i32⟩ : BufTy).Contents (Elt F) → (⟨S800000, .i32⟩ : BufTy).Contents (Elt F)),
    binary main_v1 main_v160 main_v161 (cmpi .slt : (⟨S800000, .i32⟩ : BufTy).Contents (Elt F) → (⟨S800000, .i32⟩ : BufTy).Contents (Elt F) → (⟨S800000, .i1⟩ : BufTy).Contents (Elt F)),
    nullary main_c_22 (constantI S_ 32 50000#32),
    unary main_c_22 main_v162 (broadcastInDim S800000 ![] bcast_S_S800000 : (⟨S_, .i32⟩ : BufTy).Contents (Elt F) → (⟨S800000, .i32⟩ : BufTy).Contents (Elt F)),
    binary main_v1 main_v162 main_v163 (addi : (⟨S800000, .i32⟩ : BufTy).Contents (Elt F) → (⟨S800000, .i32⟩ : BufTy).Contents (Elt F) → (⟨S800000, .i32⟩ : BufTy).Contents (Elt F)),
    ternary main_v161 main_v163 main_v1 main_v164 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v164 main_v165 (broadcastInDim S800000x1 ![0] bcast_S800000_S800000x1_0 : (⟨S800000, .i32⟩ : BufTy).Contents (Elt F) → (⟨S800000x1, .i32⟩ : BufTy).Contents (Elt F)),
    binary main_v159 main_v165 main_v166 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_23 (constant S_ .f32 0x00000000#32),
    unary main_cst_23 main_v167 (broadcastInDim S50000x128 ![] bcast_S_S50000x128 : (⟨S_, .f32⟩ : BufTy).Contents (Elt F) → (⟨S50000x128, .f32⟩ : BufTy).Contents (Elt F)),
    unary main_v3 main_v168 (broadcastInDim S800000x1 ![0] bcast_S800000_S800000x1_0 : (⟨S800000, .i32⟩ : BufTy).Contents (Elt F) → (⟨S800000x1, .i32⟩ : BufTy).Contents (Elt F)),
    ternary main_v167 main_v168 main_v166 main_v169 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v159 main_v169 main_v170 (addf : (⟨S50000x128, .f32⟩ : BufTy).Contents (Elt F) → (⟨S50000x128, .f32⟩ : BufTy).Contents (Elt F) → (⟨S50000x128, .f32⟩ : BufTy).Contents (Elt F)),
    unary main_arg1 main_v171 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v171 main_v172 rfl shapeCasts_S1x128x128_S128x128,
    binary main_v170 main_v172 main_v173 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg2 main_v174 ((extractStridedSlice S1x128 ![2, 0] · slices_S4x128_S1x128_2_0) : (⟨S4x128, .f32⟩ : BufTy).Contents (Elt F) → (⟨S1x128, .f32⟩ : BufTy).Contents (Elt F)),
    reshape main_v174 main_v175 rfl shapeCasts_S1x128_S128,
    unary main_v175 main_v176 (broadcastInDim S1x128 ![1] bcast_S128_S1x128_1 : (⟨S128, .f32⟩ : BufTy).Contents (Elt F) → (⟨S1x128, .f32⟩ : BufTy).Contents (Elt F)),
    unary main_v176 main_v177 (broadcastInDim S50000x128 ![0, 1] bcast_S1x128_S50000x128_0_1 : (⟨S1x128, .f32⟩ : BufTy).Contents (Elt F) → (⟨S50000x128, .f32⟩ : BufTy).Contents (Elt F)),
    binary main_v173 main_v177 main_v178 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S50000x128, .f32⟩) main_call6_v0) (broadcastInDim S50000x128 ![] bcast_S_S50000x128),
    TRef.binary (TRef.of (T := ⟨S50000x128, .f32⟩) main_v178) (TRef.of (T := ⟨S50000x128, .f32⟩) main_call6_v0) (TRef.of (T := ⟨S50000x128, .f32⟩) main_v179) maximumf,
    unary main_arg3 main_v180 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v180 main_v181 rfl shapeCasts_S1x128x128_S128x128,
    binary main_v179 main_v181 main_v182 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

set_option maxRecDepth 8192 in
theorem ops6_sub : (ops6 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub ..⟩

theorem ops6_fresh : (ops6 : List (HloOp τ sig (Elt F))).Forall fun op => op.fresh = ∅ := by
  simp only [List.Forall]; repeat' constructor

/-- The references these operations write. -/
abbrev ops6_W : List (Ref sig .tc) := [main_v157, main_v158, main_call5_cst, main_call5_v0, main_v159, main_c_21, main_v160, main_v161, main_c_22, main_v162, main_v163, main_v164, main_v165, main_v166, main_cst_23, main_v167, main_v168, main_v169, main_v170, main_v171, main_v172, main_v173, main_v174, main_v175, main_v176, main_v177, main_v178, main_call6_cst, main_call6_v0, main_v179, main_v180, main_v181, main_v182]

theorem ops6_writes : (ops6 : List (HloOp τ sig (Elt F))).Forall fun op => op.writes ⊆ (ops6_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A reference these operations do not write keeps its contents. -/
theorem c6_keeps (V : Valuation τ sig (Elt F)) (r : Ref sig .tc) (h : r ∉ ops6_W) :
    after (ops6 (F := F)) V (Proc.devRef .tc r) = V (Proc.devRef .tc r) :=
  after_of_writes_sub ops6 V ops6_writes h

/-! From any contents V: each reference the stretch writes ends at its stage, given that the references the stage
    reads from before the stretch stand at theirs. -/

theorem c6_main_v157 (V : Valuation τ sig (Elt F)) (x6 : (⟨S4x128, .f32⟩ : BufTy).Contents (Elt F))
    (h_main_v156 : V (Proc.devRef .tc main_v156) = val_main_v156 (F := F) x6) :
    after (ops6 (F := F)) V (Proc.devRef .tc main_v157) = val_main_v157 (F := F) x6 := by
  after_results_simp
  simp only [h_main_v156]
  rfl

theorem c6_main_v158 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v155 : V (Proc.devRef .tc main_v155) = val_main_v155 (F := F) x0 x1 x2 x3 x4 x5 x6 x7 x14 x15)
    (h_main_v156 : V (Proc.devRef .tc main_v156) = val_main_v156 (F := F) x6) :
    after (ops6 (F := F)) V (Proc.devRef .tc main_v158) = val_main_v158 (F := F) x0 x1 x2 x3 x4 x5 x6 x7 x14 x15 := by
  after_results_simp
  simp only [h_main_v155, h_main_v156]
  rfl

theorem c6_main_call5_cst (V : Valuation τ sig (Elt F)) :
    after (ops6 (F := F)) V (Proc.devRef .tc main_call5_cst) = val_main_call5_cst (F := F) := by
  after_results_simp
  rfl

theorem c6_main_call5_v0 (V : Valuation τ sig (Elt F)) :
    after (ops6 (F := F)) V (Proc.devRef .tc main_call5_v0) = val_main_call5_v0 (F := F) := by
  after_results_simp
  rfl

theorem c6_main_v159 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v155 : V (Proc.devRef .tc main_v155) = val_main_v155 (F := F) x0 x1 x2 x3 x4 x5 x6 x7 x14 x15)
    (h_main_v156 : V (Proc.devRef .tc main_v156) = val_main_v156 (F := F) x6) :
    after (ops6 (F := F)) V (Proc.devRef .tc main_v159) = val_main_v159 (F := F) x0 x1 x2 x3 x4 x5 x6 x7 x14 x15 := by
  after_results_simp
  simp only [h_main_v155, h_main_v156]
  rfl

theorem c6_main_c_21 (V : Valuation τ sig (Elt F)) :
    after (ops6 (F := F)) V (Proc.devRef .tc main_c_21) = val_main_c_21 (F := F) := by
  after_results_simp
  rfl

theorem c6_main_v160 (V : Valuation τ sig (Elt F)) :
    after (ops6 (F := F)) V (Proc.devRef .tc main_v160) = val_main_v160 (F := F) := by
  after_results_simp
  rfl

theorem c6_main_v161 (V : Valuation τ sig (Elt F)) (x14 : (⟨S2x800000, .i32⟩ : BufTy).Contents (Elt F))
    (h_main_v1 : V (Proc.devRef .tc main_v1) = val_main_v1 (F := F) x14) :
    after (ops6 (F := F)) V (Proc.devRef .tc main_v161) = val_main_v161 (F := F) x14 := by
  after_results_simp
  simp only [h_main_v1]
  rfl

theorem c6_main_c_22 (V : Valuation τ sig (Elt F)) :
    after (ops6 (F := F)) V (Proc.devRef .tc main_c_22) = val_main_c_22 (F := F) := by
  after_results_simp
  rfl

theorem c6_main_v162 (V : Valuation τ sig (Elt F)) :
    after (ops6 (F := F)) V (Proc.devRef .tc main_v162) = val_main_v162 (F := F) := by
  after_results_simp
  rfl

theorem c6_main_v163 (V : Valuation τ sig (Elt F)) (x14 : (⟨S2x800000, .i32⟩ : BufTy).Contents (Elt F))
    (h_main_v1 : V (Proc.devRef .tc main_v1) = val_main_v1 (F := F) x14) :
    after (ops6 (F := F)) V (Proc.devRef .tc main_v163) = val_main_v163 (F := F) x14 := by
  after_results_simp
  simp only [h_main_v1]
  rfl

theorem c6_main_v164 (V : Valuation τ sig (Elt F)) (x14 : (⟨S2x800000, .i32⟩ : BufTy).Contents (Elt F))
    (h_main_v1 : V (Proc.devRef .tc main_v1) = val_main_v1 (F := F) x14) :
    after (ops6 (F := F)) V (Proc.devRef .tc main_v164) = val_main_v164 (F := F) x14 := by
  after_results_simp
  simp only [h_main_v1]
  rfl

theorem c6_main_v165 (V : Valuation τ sig (Elt F)) (x14 : (⟨S2x800000, .i32⟩ : BufTy).Contents (Elt F))
    (h_main_v1 : V (Proc.devRef .tc main_v1) = val_main_v1 (F := F) x14) :
    after (ops6 (F := F)) V (Proc.devRef .tc main_v165) = val_main_v165 (F := F) x14 := by
  after_results_simp
  simp only [h_main_v1]
  rfl

theorem c6_main_v166 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v155 : V (Proc.devRef .tc main_v155) = val_main_v155 (F := F) x0 x1 x2 x3 x4 x5 x6 x7 x14 x15)
    (h_main_v156 : V (Proc.devRef .tc main_v156) = val_main_v156 (F := F) x6)
    (h_main_v1 : V (Proc.devRef .tc main_v1) = val_main_v1 (F := F) x14) :
    after (ops6 (F := F)) V (Proc.devRef .tc main_v166) = val_main_v166 (F := F) x0 x1 x2 x3 x4 x5 x6 x7 x14 x15 := by
  after_results_simp
  simp only [h_main_v155, h_main_v156, h_main_v1]
  rfl

theorem c6_main_cst_23 (V : Valuation τ sig (Elt F)) :
    after (ops6 (F := F)) V (Proc.devRef .tc main_cst_23) = val_main_cst_23 (F := F) := by
  after_results_simp
  rfl

theorem c6_main_v167 (V : Valuation τ sig (Elt F)) :
    after (ops6 (F := F)) V (Proc.devRef .tc main_v167) = val_main_v167 (F := F) := by
  after_results_simp
  rfl

theorem c6_main_v168 (V : Valuation τ sig (Elt F)) (x14 : (⟨S2x800000, .i32⟩ : BufTy).Contents (Elt F))
    (h_main_v3 : V (Proc.devRef .tc main_v3) = val_main_v3 (F := F) x14) :
    after (ops6 (F := F)) V (Proc.devRef .tc main_v168) = val_main_v168 (F := F) x14 := by
  after_results_simp
  simp only [h_main_v3]
  rfl

theorem c6_main_v169 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v3 : V (Proc.devRef .tc main_v3) = val_main_v3 (F := F) x14)
    (h_main_v155 : V (Proc.devRef .tc main_v155) = val_main_v155 (F := F) x0 x1 x2 x3 x4 x5 x6 x7 x14 x15)
    (h_main_v156 : V (Proc.devRef .tc main_v156) = val_main_v156 (F := F) x6)
    (h_main_v1 : V (Proc.devRef .tc main_v1) = val_main_v1 (F := F) x14) :
    after (ops6 (F := F)) V (Proc.devRef .tc main_v169) = val_main_v169 (F := F) x0 x1 x2 x3 x4 x5 x6 x7 x14 x15 := by
  after_results_simp
  simp only [h_main_v3, h_main_v155, h_main_v156, h_main_v1]
  rfl

theorem c6_main_v170 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v155 : V (Proc.devRef .tc main_v155) = val_main_v155 (F := F) x0 x1 x2 x3 x4 x5 x6 x7 x14 x15)
    (h_main_v156 : V (Proc.devRef .tc main_v156) = val_main_v156 (F := F) x6)
    (h_main_v3 : V (Proc.devRef .tc main_v3) = val_main_v3 (F := F) x14)
    (h_main_v1 : V (Proc.devRef .tc main_v1) = val_main_v1 (F := F) x14) :
    after (ops6 (F := F)) V (Proc.devRef .tc main_v170) = val_main_v170 (F := F) x0 x1 x2 x3 x4 x5 x6 x7 x14 x15 := by
  after_results_simp
  simp only [h_main_v155, h_main_v156, h_main_v3, h_main_v1]
  rfl

theorem c6_main_v171 (V : Valuation τ sig (Elt F)) (x1 : (⟨S4x128x128, .f32⟩ : BufTy).Contents (Elt F))
    (h_main_arg1 : V (Proc.devRef .tc main_arg1) = x1) :
    after (ops6 (F := F)) V (Proc.devRef .tc main_v171) = val_main_v171 (F := F) x1 := by
  after_results_simp
  simp only [h_main_arg1]
  rfl

theorem c6_main_v172 (V : Valuation τ sig (Elt F)) (x1 : (⟨S4x128x128, .f32⟩ : BufTy).Contents (Elt F))
    (h_main_arg1 : V (Proc.devRef .tc main_arg1) = x1) :
    after (ops6 (F := F)) V (Proc.devRef .tc main_v172) = val_main_v172 (F := F) x1 := by
  after_results_simp
  simp only [h_main_arg1]
  rfl

theorem c6_main_v173 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v155 : V (Proc.devRef .tc main_v155) = val_main_v155 (F := F) x0 x1 x2 x3 x4 x5 x6 x7 x14 x15)
    (h_main_v156 : V (Proc.devRef .tc main_v156) = val_main_v156 (F := F) x6)
    (h_main_v3 : V (Proc.devRef .tc main_v3) = val_main_v3 (F := F) x14)
    (h_main_v1 : V (Proc.devRef .tc main_v1) = val_main_v1 (F := F) x14)
    (h_main_arg1 : V (Proc.devRef .tc main_arg1) = x1) :
    after (ops6 (F := F)) V (Proc.devRef .tc main_v173) = val_main_v173 (F := F) x0 x1 x2 x3 x4 x5 x6 x7 x14 x15 := by
  after_results_simp
  simp only [h_main_v155, h_main_v156, h_main_v3, h_main_v1, h_main_arg1]
  rfl

theorem c6_main_v174 (V : Valuation τ sig (Elt F)) (x2 : (⟨S4x128, .f32⟩ : BufTy).Contents (Elt F))
    (h_main_arg2 : V (Proc.devRef .tc main_arg2) = x2) :
    after (ops6 (F := F)) V (Proc.devRef .tc main_v174) = val_main_v174 (F := F) x2 := by
  after_results_simp
  simp only [h_main_arg2]
  rfl

theorem c6_main_v175 (V : Valuation τ sig (Elt F)) (x2 : (⟨S4x128, .f32⟩ : BufTy).Contents (Elt F))
    (h_main_arg2 : V (Proc.devRef .tc main_arg2) = x2) :
    after (ops6 (F := F)) V (Proc.devRef .tc main_v175) = val_main_v175 (F := F) x2 := by
  after_results_simp
  simp only [h_main_arg2]
  rfl

theorem c6_main_v176 (V : Valuation τ sig (Elt F)) (x2 : (⟨S4x128, .f32⟩ : BufTy).Contents (Elt F))
    (h_main_arg2 : V (Proc.devRef .tc main_arg2) = x2) :
    after (ops6 (F := F)) V (Proc.devRef .tc main_v176) = val_main_v176 (F := F) x2 := by
  after_results_simp
  simp only [h_main_arg2]
  rfl

theorem c6_main_v177 (V : Valuation τ sig (Elt F)) (x2 : (⟨S4x128, .f32⟩ : BufTy).Contents (Elt F))
    (h_main_arg2 : V (Proc.devRef .tc main_arg2) = x2) :
    after (ops6 (F := F)) V (Proc.devRef .tc main_v177) = val_main_v177 (F := F) x2 := by
  after_results_simp
  simp only [h_main_arg2]
  rfl

theorem c6_main_v178 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v155 : V (Proc.devRef .tc main_v155) = val_main_v155 (F := F) x0 x1 x2 x3 x4 x5 x6 x7 x14 x15)
    (h_main_v156 : V (Proc.devRef .tc main_v156) = val_main_v156 (F := F) x6)
    (h_main_v3 : V (Proc.devRef .tc main_v3) = val_main_v3 (F := F) x14)
    (h_main_v1 : V (Proc.devRef .tc main_v1) = val_main_v1 (F := F) x14)
    (h_main_arg1 : V (Proc.devRef .tc main_arg1) = x1)
    (h_main_arg2 : V (Proc.devRef .tc main_arg2) = x2) :
    after (ops6 (F := F)) V (Proc.devRef .tc main_v178) = val_main_v178 (F := F) x0 x1 x2 x3 x4 x5 x6 x7 x14 x15 := by
  after_results_simp
  simp only [h_main_v155, h_main_v156, h_main_v3, h_main_v1, h_main_arg1, h_main_arg2]
  rfl

theorem c6_main_call6_cst (V : Valuation τ sig (Elt F)) :
    after (ops6 (F := F)) V (Proc.devRef .tc main_call6_cst) = val_main_call6_cst (F := F) := by
  after_results_simp
  rfl

theorem c6_main_call6_v0 (V : Valuation τ sig (Elt F)) :
    after (ops6 (F := F)) V (Proc.devRef .tc main_call6_v0) = val_main_call6_v0 (F := F) := by
  after_results_simp
  rfl

theorem c6_main_v179 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v155 : V (Proc.devRef .tc main_v155) = val_main_v155 (F := F) x0 x1 x2 x3 x4 x5 x6 x7 x14 x15)
    (h_main_v156 : V (Proc.devRef .tc main_v156) = val_main_v156 (F := F) x6)
    (h_main_v3 : V (Proc.devRef .tc main_v3) = val_main_v3 (F := F) x14)
    (h_main_v1 : V (Proc.devRef .tc main_v1) = val_main_v1 (F := F) x14)
    (h_main_arg1 : V (Proc.devRef .tc main_arg1) = x1)
    (h_main_arg2 : V (Proc.devRef .tc main_arg2) = x2) :
    after (ops6 (F := F)) V (Proc.devRef .tc main_v179) = val_main_v179 (F := F) x0 x1 x2 x3 x4 x5 x6 x7 x14 x15 := by
  after_results_simp
  simp only [h_main_v155, h_main_v156, h_main_v3, h_main_v1, h_main_arg1, h_main_arg2]
  rfl

theorem c6_main_v180 (V : Valuation τ sig (Elt F)) (x3 : (⟨S4x128x128, .f32⟩ : BufTy).Contents (Elt F))
    (h_main_arg3 : V (Proc.devRef .tc main_arg3) = x3) :
    after (ops6 (F := F)) V (Proc.devRef .tc main_v180) = val_main_v180 (F := F) x3 := by
  after_results_simp
  simp only [h_main_arg3]
  rfl

theorem c6_main_v181 (V : Valuation τ sig (Elt F)) (x3 : (⟨S4x128x128, .f32⟩ : BufTy).Contents (Elt F))
    (h_main_arg3 : V (Proc.devRef .tc main_arg3) = x3) :
    after (ops6 (F := F)) V (Proc.devRef .tc main_v181) = val_main_v181 (F := F) x3 := by
  after_results_simp
  simp only [h_main_arg3]
  rfl

theorem c6_main_v182 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v155 : V (Proc.devRef .tc main_v155) = val_main_v155 (F := F) x0 x1 x2 x3 x4 x5 x6 x7 x14 x15)
    (h_main_v156 : V (Proc.devRef .tc main_v156) = val_main_v156 (F := F) x6)
    (h_main_v3 : V (Proc.devRef .tc main_v3) = val_main_v3 (F := F) x14)
    (h_main_v1 : V (Proc.devRef .tc main_v1) = val_main_v1 (F := F) x14)
    (h_main_arg1 : V (Proc.devRef .tc main_arg1) = x1)
    (h_main_arg2 : V (Proc.devRef .tc main_arg2) = x2)
    (h_main_arg3 : V (Proc.devRef .tc main_arg3) = x3) :
    after (ops6 (F := F)) V (Proc.devRef .tc main_v182) = val_main_v182 (F := F) x0 x1 x2 x3 x4 x5 x6 x7 x14 x15 := by
  after_results_simp
  simp only [h_main_v155, h_main_v156, h_main_v3, h_main_v1, h_main_arg1, h_main_arg2, h_main_arg3]
  rfl

end Cert.ReferenceIdeal.RunH

end
-- ==== Proof.RefRunC7.lean ====
import proofs.«408428_j10917806867267_1_alg».proof.Proof.RefRead

set_option maxHeartbeats 1000000

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 223 … 255 of the reference's @main, in order. -/
abbrev ops7 : List (HloOp τ sig (Elt F)) :=
  [ unary main_arg4 main_v183 ((extractStridedSlice S1x128 ![2, 0] · slices_S4x128_S1x128_2_0) : (⟨S4x128, .f32⟩ : BufTy).Contents (Elt F) → (⟨S1x128, .f32⟩ : BufTy).Contents (Elt F)),
    reshape main_v183 main_v184 rfl shapeCasts_S1x128_S128,
    unary main_v184 main_v185 (broadcastInDim S1x128 ![1] bcast_S128_S1x128_1 : (⟨S128, .f32⟩ : BufTy).Contents (Elt F) → (⟨S1x128, .f32⟩ : BufTy).Contents (Elt F)),
    unary main_v185 main_v186 (broadcastInDim S50000x128 ![0, 1] bcast_S1x128_S50000x128_0_1 : (⟨S1x128, .f32⟩ : BufTy).Contents (Elt F) → (⟨S50000x128, .f32⟩ : BufTy).Contents (Elt F)),
    binary main_v182 main_v186 main_v187 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x128, .f32⟩) main_call7_v0) (broadcastInDim S50000x128 ![] bcast_S_S50000x128),
    TRef.binary (TRef.of (T := ⟨S50000x128, .f32⟩) main_v187) (TRef.of (T := ⟨S50000x128, .f32⟩) main_call7_v0) (TRef.of (T := ⟨S50000x128, .f32⟩) main_v188) maximumf,
    unary main_arg5 main_v189 ((extractStridedSlice S1x128 ![2, 0] · slices_S4x128_S1x128_2_0) : (⟨S4x128, .f32⟩ : BufTy).Contents (Elt F) → (⟨S1x128, .f32⟩ : BufTy).Contents (Elt F)),
    reshape main_v189 main_v190 rfl shapeCasts_S1x128_S128,
    unary main_arg6 main_v191 ((extractStridedSlice S1x128 ![2, 0] · slices_S4x128_S1x128_2_0) : (⟨S4x128, .f32⟩ : BufTy).Contents (Elt F) → (⟨S1x128, .f32⟩ : BufTy).Contents (Elt F)),
    reshape main_v191 main_v192 rfl shapeCasts_S1x128_S128,
    unary main_arg7 main_v193 ((extractStridedSlice S1x128 ![2, 0] · slices_S4x128_S1x128_2_0) : (⟨S4x128, .f32⟩ : BufTy).Contents (Elt F) → (⟨S1x128, .f32⟩ : BufTy).Contents (Elt F)),
    reshape main_v193 main_v194 rfl shapeCasts_S1x128_S128,
    nullary main_cst_24 (constant S_ .f32 0x00000000#32),
    unary main_cst_24 main_v195 (broadcastInDim S128x128 ![] bcast_S_S128x128 : (⟨S_, .f32⟩ : BufTy).Contents (Elt F) → (⟨S128x128, .f32⟩ : BufTy).Contents (Elt F)),
    unary main_arg15 main_v196 (broadcastInDim S50000x1 ![0] bcast_S50000_S50000x1_0 : (⟨S50000, .i32⟩ : BufTy).Contents (Elt F) → (⟨S50000x1, .i32⟩ : BufTy).Contents (Elt F)),
    ternary main_v195 main_v196 main_v188 main_v197 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    unary main_v9 main_v198 (broadcastInDim S128x128 ![0, 1] bcast_S128x1_S128x128_0_1 : (⟨S128x1, .f32⟩ : BufTy).Contents (Elt F) → (⟨S128x128, .f32⟩ : BufTy).Contents (Elt F)),
    binary main_v197 main_v198 main_v199 (Host.divf : (⟨S128x128, .f32⟩ : BufTy).Contents (Elt F) → (⟨S128x128, .f32⟩ : BufTy).Contents (Elt F) → (⟨S128x128, .f32⟩ : BufTy).Contents (Elt F)),
    nullary main_c_25 (constantI S_ 32 0#32),
    unary main_c_25 main_v200 (broadcastInDim S50000 ![] bcast_S_S50000 : (⟨S_, .i32⟩ : BufTy).Contents (Elt F) → (⟨S50000, .i32⟩ : BufTy).Contents (Elt F)),
    binary main_arg15 main_v200 main_v201 (cmpi .slt : (⟨S50000, .i32⟩ : BufTy).Contents (Elt F) → (⟨S50000, .i32⟩ : BufTy).Contents (Elt F) → (⟨S50000, .i1⟩ : BufTy).Contents (Elt F)),
    nullary main_c_26 (constantI S_ 32 128#32),
    unary main_c_26 main_v202 (broadcastInDim S50000 ![] bcast_S_S50000 : (⟨S_, .i32⟩ : BufTy).Contents (Elt F) → (⟨S50000, .i32⟩ : BufTy).Contents (Elt F)),
    binary main_arg15 main_v202 main_v203 (addi : (⟨S50000, .i32⟩ : BufTy).Contents (Elt F) → (⟨S50000, .i32⟩ : BufTy).Contents (Elt F) → (⟨S50000, .i32⟩ : BufTy).Contents (Elt F)),
    ternary main_v201 main_v203 main_arg15 main_v204 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v204 main_v205 (broadcastInDim S50000x1 ![0] bcast_S50000_S50000x1_0 : (⟨S50000, .i32⟩ : BufTy).Contents (Elt F) → (⟨S50000x1, .i32⟩ : BufTy).Contents (Elt F)),
    binary main_v199 main_v205 main_v206 ((fun x i => Host.gather gather_S128x128_S50000x1_S50000x128_1_0_n_n_0_1_1128 x i) : (⟨S128x128, .f32⟩ : BufTy).Contents (Elt F) → (⟨S50000x1, .i32⟩ : BufTy).Contents (Elt F) → (⟨S50000x128, .f32⟩ : BufTy).Contents (Elt F)),
    unary main_v194 main_v207 (broadcastInDim S1x128 ![1] bcast_S128_S1x128_1 : (⟨S128, .f32⟩ : BufTy).Contents (Elt F) → (⟨S1x128, .f32⟩ : BufTy).Contents (Elt F)),
    unary main_v207 main_v208 (broadcastInDim S50000x128 ![0, 1] bcast_S1x128_S50000x128_0_1 : (⟨S1x128, .f32⟩ : BufTy).Contents (Elt F) → (⟨S50000x128, .f32⟩ : BufTy).Contents (Elt F)),
    binary main_v206 main_v208 main_v209 (mulf : (⟨S50000x128, .f32⟩ : BufTy).Contents (Elt F) → (⟨S50000x128, .f32⟩ : BufTy).Contents (Elt F) → (⟨S50000x128, .f32⟩ : BufTy).Contents (Elt F)),
    binary main_v188 main_v209 main_v210 (subf : (⟨S50000x128, .f32⟩ : BufTy).Contents (Elt F) → (⟨S50000x128, .f32⟩ : BufTy).Contents (Elt F) → (⟨S50000x128, .f32⟩ : BufTy).Contents (Elt F)) ]

set_option maxRecDepth 8192 in
theorem ops7_sub : (ops7 : List (HloOp τ sig (Elt F))).Forall fun op => op.bufs ⊆ tcRefs τ sig :=
  ⟨unary_bufs_sub .., reshape_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub ..⟩

theorem ops7_fresh : (ops7 : List (HloOp τ sig (Elt F))).Forall fun op => op.fresh = ∅ := by
  simp only [List.Forall]; repeat' constructor

/-- The references these operations write. -/
abbrev ops7_W : List (Ref sig .tc) := [main_v183, main_v184, main_v185, main_v186, main_v187, main_call7_cst, main_call7_v0, main_v188, main_v189, main_v190, main_v191, main_v192, main_v193, main_v194, main_cst_24, main_v195, main_v196, main_v197, main_v198, main_v199, main_c_25, main_v200, main_v201, main_c_26, main_v202, main_v203, main_v204, main_v205, main_v206, main_v207, main_v208, main_v209, main_v210]

theorem ops7_writes : (ops7 : List (HloOp τ sig (Elt F))).Forall fun op => op.writes ⊆ (ops7_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A reference these operations do not write keeps its contents. -/
theorem c7_keeps (V : Valuation τ sig (Elt F)) (r : Ref sig .tc) (h : r ∉ ops7_W) :
    after (ops7 (F := F)) V (Proc.devRef .tc r) = V (Proc.devRef .tc r) :=
  after_of_writes_sub ops7 V ops7_writes h

/-! From any contents V: each reference the stretch writes ends at its stage, given that the references the stage
    reads from before the stretch stand at theirs. -/

theorem c7_main_v183 (V : Valuation τ sig (Elt F)) (x4 : (⟨S4x128, .f32⟩ : BufTy).Contents (Elt F))
    (h_main_arg4 : V (Proc.devRef .tc main_arg4) = x4) :
    after (ops7 (F := F)) V (Proc.devRef .tc main_v183) = val_main_v183 (F := F) x4 := by
  after_results_simp
  simp only [h_main_arg4]
  rfl

theorem c7_main_v184 (V : Valuation τ sig (Elt F)) (x4 : (⟨S4x128, .f32⟩ : BufTy).Contents (Elt F))
    (h_main_arg4 : V (Proc.devRef .tc main_arg4) = x4) :
    after (ops7 (F := F)) V (Proc.devRef .tc main_v184) = val_main_v184 (F := F) x4 := by
  after_results_simp
  simp only [h_main_arg4]
  rfl

theorem c7_main_v185 (V : Valuation τ sig (Elt F)) (x4 : (⟨S4x128, .f32⟩ : BufTy).Contents (Elt F))
    (h_main_arg4 : V (Proc.devRef .tc main_arg4) = x4) :
    after (ops7 (F := F)) V (Proc.devRef .tc main_v185) = val_main_v185 (F := F) x4 := by
  after_results_simp
  simp only [h_main_arg4]
  rfl

theorem c7_main_v186 (V : Valuation τ sig (Elt F)) (x4 : (⟨S4x128, .f32⟩ : BufTy).Contents (Elt F))
    (h_main_arg4 : V (Proc.devRef .tc main_arg4) = x4) :
    after (ops7 (F := F)) V (Proc.devRef .tc main_v186) = val_main_v186 (F := F) x4 := by
  after_results_simp
  simp only [h_main_arg4]
  rfl

theorem c7_main_v187 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v182 : V (Proc.devRef .tc main_v182) = val_main_v182 (F := F) x0 x1 x2 x3 x4 x5 x6 x7 x14 x15)
    (h_main_arg4 : V (Proc.devRef .tc main_arg4) = x4) :
    after (ops7 (F := F)) V (Proc.devRef .tc main_v187) = val_main_v187 (F := F) x0 x1 x2 x3 x4 x5 x6 x7 x14 x15 := by
  after_results_simp
  simp only [h_main_v182, h_main_arg4]
  rfl

theorem c7_main_call7_cst (V : Valuation τ sig (Elt F)) :
    after (ops7 (F := F)) V (Proc.devRef .tc main_call7_cst) = val_main_call7_cst (F := F) := by
  after_results_simp
  rfl

theorem c7_main_call7_v0 (V : Valuation τ sig (Elt F)) :
    after (ops7 (F := F)) V (Proc.devRef .tc main_call7_v0) = val_main_call7_v0 (F := F) := by
  after_results_simp
  rfl

theorem c7_main_v188 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v182 : V (Proc.devRef .tc main_v182) = val_main_v182 (F := F) x0 x1 x2 x3 x4 x5 x6 x7 x14 x15)
    (h_main_arg4 : V (Proc.devRef .tc main_arg4) = x4) :
    after (ops7 (F := F)) V (Proc.devRef .tc main_v188) = val_main_v188 (F := F) x0 x1 x2 x3 x4 x5 x6 x7 x14 x15 := by
  after_results_simp
  simp only [h_main_v182, h_main_arg4]
  rfl

theorem c7_main_v189 (V : Valuation τ sig (Elt F)) (x5 : (⟨S4x128, .f32⟩ : BufTy).Contents (Elt F))
    (h_main_arg5 : V (Proc.devRef .tc main_arg5) = x5) :
    after (ops7 (F := F)) V (Proc.devRef .tc main_v189) = val_main_v189 (F := F) x5 := by
  after_results_simp
  simp only [h_main_arg5]
  rfl

theorem c7_main_v190 (V : Valuation τ sig (Elt F)) (x5 : (⟨S4x128, .f32⟩ : BufTy).Contents (Elt F))
    (h_main_arg5 : V (Proc.devRef .tc main_arg5) = x5) :
    after (ops7 (F := F)) V (Proc.devRef .tc main_v190) = val_main_v190 (F := F) x5 := by
  after_results_simp
  simp only [h_main_arg5]
  rfl

theorem c7_main_v191 (V : Valuation τ sig (Elt F)) (x6 : (⟨S4x128, .f32⟩ : BufTy).Contents (Elt F))
    (h_main_arg6 : V (Proc.devRef .tc main_arg6) = x6) :
    after (ops7 (F := F)) V (Proc.devRef .tc main_v191) = val_main_v191 (F := F) x6 := by
  after_results_simp
  simp only [h_main_arg6]
  rfl

theorem c7_main_v192 (V : Valuation τ sig (Elt F)) (x6 : (⟨S4x128, .f32⟩ : BufTy).Contents (Elt F))
    (h_main_arg6 : V (Proc.devRef .tc main_arg6) = x6) :
    after (ops7 (F := F)) V (Proc.devRef .tc main_v192) = val_main_v192 (F := F) x6 := by
  after_results_simp
  simp only [h_main_arg6]
  rfl

theorem c7_main_v193 (V : Valuation τ sig (Elt F)) (x7 : (⟨S4x128, .f32⟩ : BufTy).Contents (Elt F))
    (h_main_arg7 : V (Proc.devRef .tc main_arg7) = x7) :
    after (ops7 (F := F)) V (Proc.devRef .tc main_v193) = val_main_v193 (F := F) x7 := by
  after_results_simp
  simp only [h_main_arg7]
  rfl

theorem c7_main_v194 (V : Valuation τ sig (Elt F)) (x7 : (⟨S4x128, .f32⟩ : BufTy).Contents (Elt F))
    (h_main_arg7 : V (Proc.devRef .tc main_arg7) = x7) :
    after (ops7 (F := F)) V (Proc.devRef .tc main_v194) = val_main_v194 (F := F) x7 := by
  after_results_simp
  simp only [h_main_arg7]
  rfl

theorem c7_main_cst_24 (V : Valuation τ sig (Elt F)) :
    after (ops7 (F := F)) V (Proc.devRef .tc main_cst_24) = val_main_cst_24 (F := F) := by
  after_results_simp
  rfl

theorem c7_main_v195 (V : Valuation τ sig (Elt F)) :
    after (ops7 (F := F)) V (Proc.devRef .tc main_v195) = val_main_v195 (F := F) := by
  after_results_simp
  rfl

theorem c7_main_v196 (V : Valuation τ sig (Elt F)) (x15 : (⟨S50000, .i32⟩ : BufTy).Contents (Elt F))
    (h_main_arg15 : V (Proc.devRef .tc main_arg15) = x15) :
    after (ops7 (F := F)) V (Proc.devRef .tc main_v196) = val_main_v196 (F := F) x15 := by
  after_results_simp
  simp only [h_main_arg15]
  rfl

theorem c7_main_v197 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_arg15 : V (Proc.devRef .tc main_arg15) = x15)
    (h_main_v182 : V (Proc.devRef .tc main_v182) = val_main_v182 (F := F) x0 x1 x2 x3 x4 x5 x6 x7 x14 x15)
    (h_main_arg4 : V (Proc.devRef .tc main_arg4) = x4) :
    after (ops7 (F := F)) V (Proc.devRef .tc main_v197) = val_main_v197 (F := F) x0 x1 x2 x3 x4 x5 x6 x7 x14 x15 := by
  after_results_simp
  simp only [h_main_arg15, h_main_v182, h_main_arg4]
  rfl

theorem c7_main_v198 (V : Valuation τ sig (Elt F)) (x15 : (⟨S50000, .i32⟩ : BufTy).Contents (Elt F))
    (h_main_v9 : V (Proc.devRef .tc main_v9) = val_main_v9 (F := F) x15) :
    after (ops7 (F := F)) V (Proc.devRef .tc main_v198) = val_main_v198 (F := F) x15 := by
  after_results_simp
  simp only [h_main_v9]
  rfl

theorem c7_main_v199 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_arg15 : V (Proc.devRef .tc main_arg15) = x15)
    (h_main_v182 : V (Proc.devRef .tc main_v182) = val_main_v182 (F := F) x0 x1 x2 x3 x4 x5 x6 x7 x14 x15)
    (h_main_arg4 : V (Proc.devRef .tc main_arg4) = x4)
    (h_main_v9 : V (Proc.devRef .tc main_v9) = val_main_v9 (F := F) x15) :
    after (ops7 (F := F)) V (Proc.devRef .tc main_v199) = val_main_v199 (F := F) x0 x1 x2 x3 x4 x5 x6 x7 x14 x15 := by
  after_results_simp
  simp only [h_main_arg15, h_main_v182, h_main_arg4, h_main_v9]
  rfl

theorem c7_main_c_25 (V : Valuation τ sig (Elt F)) :
    after (ops7 (F := F)) V (Proc.devRef .tc main_c_25) = val_main_c_25 (F := F) := by
  after_results_simp
  rfl

theorem c7_main_v200 (V : Valuation τ sig (Elt F)) :
    after (ops7 (F := F)) V (Proc.devRef .tc main_v200) = val_main_v200 (F := F) := by
  after_results_simp
  rfl

theorem c7_main_v201 (V : Valuation τ sig (Elt F)) (x15 : (⟨S50000, .i32⟩ : BufTy).Contents (Elt F))
    (h_main_arg15 : V (Proc.devRef .tc main_arg15) = x15) :
    after (ops7 (F := F)) V (Proc.devRef .tc main_v201) = val_main_v201 (F := F) x15 := by
  after_results_simp
  simp only [h_main_arg15]
  rfl

theorem c7_main_c_26 (V : Valuation τ sig (Elt F)) :
    after (ops7 (F := F)) V (Proc.devRef .tc main_c_26) = val_main_c_26 (F := F) := by
  after_results_simp
  rfl

theorem c7_main_v202 (V : Valuation τ sig (Elt F)) :
    after (ops7 (F := F)) V (Proc.devRef .tc main_v202) = val_main_v202 (F := F) := by
  after_results_simp
  rfl

theorem c7_main_v203 (V : Valuation τ sig (Elt F)) (x15 : (⟨S50000, .i32⟩ : BufTy).Contents (Elt F))
    (h_main_arg15 : V (Proc.devRef .tc main_arg15) = x15) :
    after (ops7 (F := F)) V (Proc.devRef .tc main_v203) = val_main_v203 (F := F) x15 := by
  after_results_simp
  simp only [h_main_arg15]
  rfl

theorem c7_main_v204 (V : Valuation τ sig (Elt F)) (x15 : (⟨S50000, .i32⟩ : BufTy).Contents (Elt F))
    (h_main_arg15 : V (Proc.devRef .tc main_arg15) = x15) :
    after (ops7 (F := F)) V (Proc.devRef .tc main_v204) = val_main_v204 (F := F) x15 := by
  after_results_simp
  simp only [h_main_arg15]
  rfl

theorem c7_main_v205 (V : Valuation τ sig (Elt F)) (x15 : (⟨S50000, .i32⟩ : BufTy).Contents (Elt F))
    (h_main_arg15 : V (Proc.devRef .tc main_arg15) = x15) :
    after (ops7 (F := F)) V (Proc.devRef .tc main_v205) = val_main_v205 (F := F) x15 := by
  after_results_simp
  simp only [h_main_arg15]
  rfl

theorem c7_main_v206 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_arg15 : V (Proc.devRef .tc main_arg15) = x15)
    (h_main_v182 : V (Proc.devRef .tc main_v182) = val_main_v182 (F := F) x0 x1 x2 x3 x4 x5 x6 x7 x14 x15)
    (h_main_arg4 : V (Proc.devRef .tc main_arg4) = x4)
    (h_main_v9 : V (Proc.devRef .tc main_v9) = val_main_v9 (F := F) x15) :
    after (ops7 (F := F)) V (Proc.devRef .tc main_v206) = val_main_v206 (F := F) x0 x1 x2 x3 x4 x5 x6 x7 x14 x15 := by
  after_results_simp
  simp only [h_main_arg15, h_main_v182, h_main_arg4, h_main_v9]
  rfl

theorem c7_main_v207 (V : Valuation τ sig (Elt F)) (x7 : (⟨S4x128, .f32⟩ : BufTy).Contents (Elt F))
    (h_main_arg7 : V (Proc.devRef .tc main_arg7) = x7) :
    after (ops7 (F := F)) V (Proc.devRef .tc main_v207) = val_main_v207 (F := F) x7 := by
  after_results_simp
  simp only [h_main_arg7]
  rfl

theorem c7_main_v208 (V : Valuation τ sig (Elt F)) (x7 : (⟨S4x128, .f32⟩ : BufTy).Contents (Elt F))
    (h_main_arg7 : V (Proc.devRef .tc main_arg7) = x7) :
    after (ops7 (F := F)) V (Proc.devRef .tc main_v208) = val_main_v208 (F := F) x7 := by
  after_results_simp
  simp only [h_main_arg7]
  rfl

theorem c7_main_v209 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_arg15 : V (Proc.devRef .tc main_arg15) = x15)
    (h_main_v182 : V (Proc.devRef .tc main_v182) = val_main_v182 (F := F) x0 x1 x2 x3 x4 x5 x6 x7 x14 x15)
    (h_main_arg4 : V (Proc.devRef .tc main_arg4) = x4)
    (h_main_v9 : V (Proc.devRef .tc main_v9) = val_main_v9 (F := F) x15)
    (h_main_arg7 : V (Proc.devRef .tc main_arg7) = x7) :
    after (ops7 (F := F)) V (Proc.devRef .tc main_v209) = val_main_v209 (F := F) x0 x1 x2 x3 x4 x5 x6 x7 x14 x15 := by
  after_results_simp
  simp only [h_main_arg15, h_main_v182, h_main_arg4, h_main_v9, h_main_arg7]
  rfl

theorem c7_main_v210 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v182 : V (Proc.devRef .tc main_v182) = val_main_v182 (F := F) x0 x1 x2 x3 x4 x5 x6 x7 x14 x15)
    (h_main_arg4 : V (Proc.devRef .tc main_arg4) = x4)
    (h_main_arg15 : V (Proc.devRef .tc main_arg15) = x15)
    (h_main_v9 : V (Proc.devRef .tc main_v9) = val_main_v9 (F := F) x15)
    (h_main_arg7 : V (Proc.devRef .tc main_arg7) = x7) :
    after (ops7 (F := F)) V (Proc.devRef .tc main_v210) = val_main_v210 (F := F) x0 x1 x2 x3 x4 x5 x6 x7 x14 x15 := by
  after_results_simp
  simp only [h_main_v182, h_main_arg4, h_main_arg15, h_main_v9, h_main_arg7]
  rfl

end Cert.ReferenceIdeal.RunH

end
-- ==== Proof.RefRunC8.lean ====
import proofs.«408428_j10917806867267_1_alg».proof.Proof.RefRead

set_option maxHeartbeats 1000000

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 256 … 288 of the reference's @main, in order. -/
abbrev ops8 : List (HloOp τ sig (Elt F)) :=
  [ binary main_v210 main_v210 main_v211 (mulf : (⟨S50000x128, .f32⟩ : BufTy).Contents (Elt F) → (⟨S50000x128, .f32⟩ : BufTy).Contents (Elt F) → (⟨S50000x128, .f32⟩ : BufTy).Contents (Elt F)),
    nullary main_cst_27 (constant S_ .f32 0x00000000#32),
    unary main_cst_27 main_v212 (broadcastInDim S128x128 ![] bcast_S_S128x128 : (⟨S_, .f32⟩ : BufTy).Contents (Elt F) → (⟨S128x128, .f32⟩ : BufTy).Contents (Elt F)),
    unary main_arg15 main_v213 (broadcastInDim S50000x1 ![0] bcast_S50000_S50000x1_0 : (⟨S50000, .i32⟩ : BufTy).Contents (Elt F) → (⟨S50000x1, .i32⟩ : BufTy).Contents (Elt F)),
    ternary main_v212 main_v213 main_v211 main_v214 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    unary main_v9 main_v215 (broadcastInDim S128x128 ![0, 1] bcast_S128x1_S128x128_0_1 : (⟨S128x1, .f32⟩ : BufTy).Contents (Elt F) → (⟨S128x128, .f32⟩ : BufTy).Contents (Elt F)),
    binary main_v214 main_v215 main_v216 (Host.divf : (⟨S128x128, .f32⟩ : BufTy).Contents (Elt F) → (⟨S128x128, .f32⟩ : BufTy).Contents (Elt F) → (⟨S128x128, .f32⟩ : BufTy).Contents (Elt F)),
    unary main_v190 main_v217 (broadcastInDim S1x128 ![1] bcast_S128_S1x128_1 : (⟨S128, .f32⟩ : BufTy).Contents (Elt F) → (⟨S1x128, .f32⟩ : BufTy).Contents (Elt F)),
    unary main_v217 main_v218 (broadcastInDim S50000x128 ![0, 1] bcast_S1x128_S50000x128_0_1 : (⟨S1x128, .f32⟩ : BufTy).Contents (Elt F) → (⟨S50000x128, .f32⟩ : BufTy).Contents (Elt F)),
    binary main_v218 main_v210 main_v219 (mulf : (⟨S50000x128, .f32⟩ : BufTy).Contents (Elt F) → (⟨S50000x128, .f32⟩ : BufTy).Contents (Elt F) → (⟨S50000x128, .f32⟩ : BufTy).Contents (Elt F)),
    nullary main_c_28 (constantI S_ 32 0#32),
    unary main_c_28 main_v220 (broadcastInDim S50000 ![] bcast_S_S50000 : (⟨S_, .i32⟩ : BufTy).Contents (Elt F) → (⟨S50000, .i32⟩ : BufTy).Contents (Elt F)),
    binary main_arg15 main_v220 main_v221 (cmpi .slt : (⟨S50000, .i32⟩ : BufTy).Contents (Elt F) → (⟨S50000, .i32⟩ : BufTy).Contents (Elt F) → (⟨S50000, .i1⟩ : BufTy).Contents (Elt F)),
    nullary main_c_29 (constantI S_ 32 128#32),
    unary main_c_29 main_v222 (broadcastInDim S50000 ![] bcast_S_S50000 : (⟨S_, .i32⟩ : BufTy).Contents (Elt F) → (⟨S50000, .i32⟩ : BufTy).Contents (Elt F)),
    binary main_arg15 main_v222 main_v223 (addi : (⟨S50000, .i32⟩ : BufTy).Contents (Elt F) → (⟨S50000, .i32⟩ : BufTy).Contents (Elt F) → (⟨S50000, .i32⟩ : BufTy).Contents (Elt F)),
    ternary main_v221 main_v223 main_arg15 main_v224 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v224 main_v225 (broadcastInDim S50000x1 ![0] bcast_S50000_S50000x1_0 : (⟨S50000, .i32⟩ : BufTy).Contents (Elt F) → (⟨S50000x1, .i32⟩ : BufTy).Contents (Elt F)),
    binary main_v216 main_v225 main_v226 ((fun x i => Host.gather gather_S128x128_S50000x1_S50000x128_1_0_n_n_0_1_1128 x i) : (⟨S128x128, .f32⟩ : BufTy).Contents (Elt F) → (⟨S50000x1, .i32⟩ : BufTy).Contents (Elt F) → (⟨S50000x128, .f32⟩ : BufTy).Contents (Elt F)),
    nullary main_cst_30 (constant S_ .f32 0x3727C5AC#32),
    unary main_cst_30 main_v227 (broadcastInDim S50000x128 ![] bcast_S_S50000x128 : (⟨S_, .f32⟩ : BufTy).Contents (Elt F) → (⟨S50000x128, .f32⟩ : BufTy).Contents (Elt F)),
    binary main_v226 main_v227 main_v228 (addf : (⟨S50000x128, .f32⟩ : BufTy).Contents (Elt F) → (⟨S50000x128, .f32⟩ : BufTy).Contents (Elt F) → (⟨S50000x128, .f32⟩ : BufTy).Contents (Elt F)),
    unary main_v228 main_v229 (Host.sqrt : (⟨S50000x128, .f32⟩ : BufTy).Contents (Elt F) → (⟨S50000x128, .f32⟩ : BufTy).Contents (Elt F)),
    binary main_v219 main_v229 main_v230 (Host.divf : (⟨S50000x128, .f32⟩ : BufTy).Contents (Elt F) → (⟨S50000x128, .f32⟩ : BufTy).Contents (Elt F) → (⟨S50000x128, .f32⟩ : BufTy).Contents (Elt F)),
    unary main_v192 main_v231 (broadcastInDim S1x128 ![1] bcast_S128_S1x128_1 : (⟨S128, .f32⟩ : BufTy).Contents (Elt F) → (⟨S1x128, .f32⟩ : BufTy).Contents (Elt F)),
    unary main_v231 main_v232 (broadcastInDim S50000x128 ![0, 1] bcast_S1x128_S50000x128_0_1 : (⟨S1x128, .f32⟩ : BufTy).Contents (Elt F) → (⟨S50000x128, .f32⟩ : BufTy).Contents (Elt F)),
    binary main_v230 main_v232 main_v233 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S50000x128, .f32⟩) main_call8_v0) (broadcastInDim S50000x128 ![] bcast_S_S50000x128),
    TRef.binary (TRef.of (T := ⟨S50000x128, .f32⟩) main_v233) (TRef.of (T := ⟨S50000x128, .f32⟩) main_call8_v0) (TRef.of (T := ⟨S50000x128, .f32⟩) main_v234) maximumf,
    nullary main_c_31 (constantI S_ 32 0#32),
    unary main_c_31 main_v235 (broadcastInDim S800000 ![] bcast_S_S800000 : (⟨S_, .i32⟩ : BufTy).Contents (Elt F) → (⟨S800000, .i32⟩ : BufTy).Contents (Elt F)),
    binary main_v1 main_v235 main_v236 (cmpi .slt : (⟨S800000, .i32⟩ : BufTy).Contents (Elt F) → (⟨S800000, .i32⟩ : BufTy).Contents (Elt F) → (⟨S800000, .i1⟩ : BufTy).Contents (Elt F)) ]

set_option maxRecDepth 8192 in
theorem ops8_sub : (ops8 : List (HloOp τ sig (Elt F))).Forall fun op => op.bufs ⊆ tcRefs τ sig :=
  ⟨binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub ..⟩

theorem ops8_fresh : (ops8 : List (HloOp τ sig (Elt F))).Forall fun op => op.fresh = ∅ := by
  simp only [List.Forall]; repeat' constructor

/-- The references these operations write. -/
abbrev ops8_W : List (Ref sig .tc) := [main_v211, main_cst_27, main_v212, main_v213, main_v214, main_v215, main_v216, main_v217, main_v218, main_v219, main_c_28, main_v220, main_v221, main_c_29, main_v222, main_v223, main_v224, main_v225, main_v226, main_cst_30, main_v227, main_v228, main_v229, main_v230, main_v231, main_v232, main_v233, main_call8_cst, main_call8_v0, main_v234, main_c_31, main_v235, main_v236]

theorem ops8_writes : (ops8 : List (HloOp τ sig (Elt F))).Forall fun op => op.writes ⊆ (ops8_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A reference these operations do not write keeps its contents. -/
theorem c8_keeps (V : Valuation τ sig (Elt F)) (r : Ref sig .tc) (h : r ∉ ops8_W) :
    after (ops8 (F := F)) V (Proc.devRef .tc r) = V (Proc.devRef .tc r) :=
  after_of_writes_sub ops8 V ops8_writes h

/-! From any contents V: each reference the stretch writes ends at its stage, given that the references the stage
    reads from before the stretch stand at theirs. -/

theorem c8_main_v211 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v210 : V (Proc.devRef .tc main_v210) = val_main_v210 (F := F) x0 x1 x2 x3 x4 x5 x6 x7 x14 x15) :
    after (ops8 (F := F)) V (Proc.devRef .tc main_v211) = val_main_v211 (F := F) x0 x1 x2 x3 x4 x5 x6 x7 x14 x15 := by
  after_results_simp
  simp only [h_main_v210]
  rfl

theorem c8_main_cst_27 (V : Valuation τ sig (Elt F)) :
    after (ops8 (F := F)) V (Proc.devRef .tc main_cst_27) = val_main_cst_27 (F := F) := by
  after_results_simp
  rfl

theorem c8_main_v212 (V : Valuation τ sig (Elt F)) :
    after (ops8 (F := F)) V (Proc.devRef .tc main_v212) = val_main_v212 (F := F) := by
  after_results_simp
  rfl

theorem c8_main_v213 (V : Valuation τ sig (Elt F)) (x15 : (⟨S50000, .i32⟩ : BufTy).Contents (Elt F))
    (h_main_arg15 : V (Proc.devRef .tc main_arg15) = x15) :
    after (ops8 (F := F)) V (Proc.devRef .tc main_v213) = val_main_v213 (F := F) x15 := by
  after_results_simp
  simp only [h_main_arg15]
  rfl

theorem c8_main_v214 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_arg15 : V (Proc.devRef .tc main_arg15) = x15)
    (h_main_v210 : V (Proc.devRef .tc main_v210) = val_main_v210 (F := F) x0 x1 x2 x3 x4 x5 x6 x7 x14 x15) :
    after (ops8 (F := F)) V (Proc.devRef .tc main_v214) = val_main_v214 (F := F) x0 x1 x2 x3 x4 x5 x6 x7 x14 x15 := by
  after_results_simp
  simp only [h_main_arg15, h_main_v210]
  rfl

theorem c8_main_v215 (V : Valuation τ sig (Elt F)) (x15 : (⟨S50000, .i32⟩ : BufTy).Contents (Elt F))
    (h_main_v9 : V (Proc.devRef .tc main_v9) = val_main_v9 (F := F) x15) :
    after (ops8 (F := F)) V (Proc.devRef .tc main_v215) = val_main_v215 (F := F) x15 := by
  after_results_simp
  simp only [h_main_v9]
  rfl

theorem c8_main_v216 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_arg15 : V (Proc.devRef .tc main_arg15) = x15)
    (h_main_v210 : V (Proc.devRef .tc main_v210) = val_main_v210 (F := F) x0 x1 x2 x3 x4 x5 x6 x7 x14 x15)
    (h_main_v9 : V (Proc.devRef .tc main_v9) = val_main_v9 (F := F) x15) :
    after (ops8 (F := F)) V (Proc.devRef .tc main_v216) = val_main_v216 (F := F) x0 x1 x2 x3 x4 x5 x6 x7 x14 x15 := by
  after_results_simp
  simp only [h_main_arg15, h_main_v210, h_main_v9]
  rfl

theorem c8_main_v217 (V : Valuation τ sig (Elt F)) (x5 : (⟨S4x128, .f32⟩ : BufTy).Contents (Elt F))
    (h_main_v190 : V (Proc.devRef .tc main_v190) = val_main_v190 (F := F) x5) :
    after (ops8 (F := F)) V (Proc.devRef .tc main_v217) = val_main_v217 (F := F) x5 := by
  after_results_simp
  simp only [h_main_v190]
  rfl

theorem c8_main_v218 (V : Valuation τ sig (Elt F)) (x5 : (⟨S4x128, .f32⟩ : BufTy).Contents (Elt F))
    (h_main_v190 : V (Proc.devRef .tc main_v190) = val_main_v190 (F := F) x5) :
    after (ops8 (F := F)) V (Proc.devRef .tc main_v218) = val_main_v218 (F := F) x5 := by
  after_results_simp
  simp only [h_main_v190]
  rfl

theorem c8_main_v219 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v190 : V (Proc.devRef .tc main_v190) = val_main_v190 (F := F) x5)
    (h_main_v210 : V (Proc.devRef .tc main_v210) = val_main_v210 (F := F) x0 x1 x2 x3 x4 x5 x6 x7 x14 x15) :
    after (ops8 (F := F)) V (Proc.devRef .tc main_v219) = val_main_v219 (F := F) x0 x1 x2 x3 x4 x5 x6 x7 x14 x15 := by
  after_results_simp
  simp only [h_main_v190, h_main_v210]
  rfl

theorem c8_main_c_28 (V : Valuation τ sig (Elt F)) :
    after (ops8 (F := F)) V (Proc.devRef .tc main_c_28) = val_main_c_28 (F := F) := by
  after_results_simp
  rfl

theorem c8_main_v220 (V : Valuation τ sig (Elt F)) :
    after (ops8 (F := F)) V (Proc.devRef .tc main_v220) = val_main_v220 (F := F) := by
  after_results_simp
  rfl

theorem c8_main_v221 (V : Valuation τ sig (Elt F)) (x15 : (⟨S50000, .i32⟩ : BufTy).Contents (Elt F))
    (h_main_arg15 : V (Proc.devRef .tc main_arg15) = x15) :
    after (ops8 (F := F)) V (Proc.devRef .tc main_v221) = val_main_v221 (F := F) x15 := by
  after_results_simp
  simp only [h_main_arg15]
  rfl

theorem c8_main_c_29 (V : Valuation τ sig (Elt F)) :
    after (ops8 (F := F)) V (Proc.devRef .tc main_c_29) = val_main_c_29 (F := F) := by
  after_results_simp
  rfl

theorem c8_main_v222 (V : Valuation τ sig (Elt F)) :
    after (ops8 (F := F)) V (Proc.devRef .tc main_v222) = val_main_v222 (F := F) := by
  after_results_simp
  rfl

theorem c8_main_v223 (V : Valuation τ sig (Elt F)) (x15 : (⟨S50000, .i32⟩ : BufTy).Contents (Elt F))
    (h_main_arg15 : V (Proc.devRef .tc main_arg15) = x15) :
    after (ops8 (F := F)) V (Proc.devRef .tc main_v223) = val_main_v223 (F := F) x15 := by
  after_results_simp
  simp only [h_main_arg15]
  rfl

theorem c8_main_v224 (V : Valuation τ sig (Elt F)) (x15 : (⟨S50000, .i32⟩ : BufTy).Contents (Elt F))
    (h_main_arg15 : V (Proc.devRef .tc main_arg15) = x15) :
    after (ops8 (F := F)) V (Proc.devRef .tc main_v224) = val_main_v224 (F := F) x15 := by
  after_results_simp
  simp only [h_main_arg15]
  rfl

theorem c8_main_v225 (V : Valuation τ sig (Elt F)) (x15 : (⟨S50000, .i32⟩ : BufTy).Contents (Elt F))
    (h_main_arg15 : V (Proc.devRef .tc main_arg15) = x15) :
    after (ops8 (F := F)) V (Proc.devRef .tc main_v225) = val_main_v225 (F := F) x15 := by
  after_results_simp
  simp only [h_main_arg15]
  rfl

theorem c8_main_v226 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_arg15 : V (Proc.devRef .tc main_arg15) = x15)
    (h_main_v210 : V (Proc.devRef .tc main_v210) = val_main_v210 (F := F) x0 x1 x2 x3 x4 x5 x6 x7 x14 x15)
    (h_main_v9 : V (Proc.devRef .tc main_v9) = val_main_v9 (F := F) x15) :
    after (ops8 (F := F)) V (Proc.devRef .tc main_v226) = val_main_v226 (F := F) x0 x1 x2 x3 x4 x5 x6 x7 x14 x15 := by
  after_results_simp
  simp only [h_main_arg15, h_main_v210, h_main_v9]
  rfl

theorem c8_main_cst_30 (V : Valuation τ sig (Elt F)) :
    after (ops8 (F := F)) V (Proc.devRef .tc main_cst_30) = val_main_cst_30 (F := F) := by
  after_results_simp
  rfl

theorem c8_main_v227 (V : Valuation τ sig (Elt F)) :
    after (ops8 (F := F)) V (Proc.devRef .tc main_v227) = val_main_v227 (F := F) := by
  after_results_simp
  rfl

theorem c8_main_v228 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_arg15 : V (Proc.devRef .tc main_arg15) = x15)
    (h_main_v210 : V (Proc.devRef .tc main_v210) = val_main_v210 (F := F) x0 x1 x2 x3 x4 x5 x6 x7 x14 x15)
    (h_main_v9 : V (Proc.devRef .tc main_v9) = val_main_v9 (F := F) x15) :
    after (ops8 (F := F)) V (Proc.devRef .tc main_v228) = val_main_v228 (F := F) x0 x1 x2 x3 x4 x5 x6 x7 x14 x15 := by
  after_results_simp
  simp only [h_main_arg15, h_main_v210, h_main_v9]
  rfl

theorem c8_main_v229 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_arg15 : V (Proc.devRef .tc main_arg15) = x15)
    (h_main_v210 : V (Proc.devRef .tc main_v210) = val_main_v210 (F := F) x0 x1 x2 x3 x4 x5 x6 x7 x14 x15)
    (h_main_v9 : V (Proc.devRef .tc main_v9) = val_main_v9 (F := F) x15) :
    after (ops8 (F := F)) V (Proc.devRef .tc main_v229) = val_main_v229 (F := F) x0 x1 x2 x3 x4 x5 x6 x7 x14 x15 := by
  after_results_simp
  simp only [h_main_arg15, h_main_v210, h_main_v9]
  rfl

theorem c8_main_v230 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v190 : V (Proc.devRef .tc main_v190) = val_main_v190 (F := F) x5)
    (h_main_v210 : V (Proc.devRef .tc main_v210) = val_main_v210 (F := F) x0 x1 x2 x3 x4 x5 x6 x7 x14 x15)
    (h_main_arg15 : V (Proc.devRef .tc main_arg15) = x15)
    (h_main_v9 : V (Proc.devRef .tc main_v9) = val_main_v9 (F := F) x15) :
    after (ops8 (F := F)) V (Proc.devRef .tc main_v230) = val_main_v230 (F := F) x0 x1 x2 x3 x4 x5 x6 x7 x14 x15 := by
  after_results_simp
  simp only [h_main_v190, h_main_v210, h_main_arg15, h_main_v9]
  rfl

theorem c8_main_v231 (V : Valuation τ sig (Elt F)) (x6 : (⟨S4x128, .f32⟩ : BufTy).Contents (Elt F))
    (h_main_v192 : V (Proc.devRef .tc main_v192) = val_main_v192 (F := F) x6) :
    after (ops8 (F := F)) V (Proc.devRef .tc main_v231) = val_main_v231 (F := F) x6 := by
  after_results_simp
  simp only [h_main_v192]
  rfl

theorem c8_main_v232 (V : Valuation τ sig (Elt F)) (x6 : (⟨S4x128, .f32⟩ : BufTy).Contents (Elt F))
    (h_main_v192 : V (Proc.devRef .tc main_v192) = val_main_v192 (F := F) x6) :
    after (ops8 (F := F)) V (Proc.devRef .tc main_v232) = val_main_v232 (F := F) x6 := by
  after_results_simp
  simp only [h_main_v192]
  rfl

theorem c8_main_v233 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v190 : V (Proc.devRef .tc main_v190) = val_main_v190 (F := F) x5)
    (h_main_v210 : V (Proc.devRef .tc main_v210) = val_main_v210 (F := F) x0 x1 x2 x3 x4 x5 x6 x7 x14 x15)
    (h_main_arg15 : V (Proc.devRef .tc main_arg15) = x15)
    (h_main_v9 : V (Proc.devRef .tc main_v9) = val_main_v9 (F := F) x15)
    (h_main_v192 : V (Proc.devRef .tc main_v192) = val_main_v192 (F := F) x6) :
    after (ops8 (F := F)) V (Proc.devRef .tc main_v233) = val_main_v233 (F := F) x0 x1 x2 x3 x4 x5 x6 x7 x14 x15 := by
  after_results_simp
  simp only [h_main_v190, h_main_v210, h_main_arg15, h_main_v9, h_main_v192]
  rfl

theorem c8_main_call8_cst (V : Valuation τ sig (Elt F)) :
    after (ops8 (F := F)) V (Proc.devRef .tc main_call8_cst) = val_main_call8_cst (F := F) := by
  after_results_simp
  rfl

theorem c8_main_call8_v0 (V : Valuation τ sig (Elt F)) :
    after (ops8 (F := F)) V (Proc.devRef .tc main_call8_v0) = val_main_call8_v0 (F := F) := by
  after_results_simp
  rfl

theorem c8_main_v234 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v190 : V (Proc.devRef .tc main_v190) = val_main_v190 (F := F) x5)
    (h_main_v210 : V (Proc.devRef .tc main_v210) = val_main_v210 (F := F) x0 x1 x2 x3 x4 x5 x6 x7 x14 x15)
    (h_main_arg15 : V (Proc.devRef .tc main_arg15) = x15)
    (h_main_v9 : V (Proc.devRef .tc main_v9) = val_main_v9 (F := F) x15)
    (h_main_v192 : V (Proc.devRef .tc main_v192) = val_main_v192 (F := F) x6) :
    after (ops8 (F := F)) V (Proc.devRef .tc main_v234) = val_main_v234 (F := F) x0 x1 x2 x3 x4 x5 x6 x7 x14 x15 := by
  after_results_simp
  simp only [h_main_v190, h_main_v210, h_main_arg15, h_main_v9, h_main_v192]
  rfl

theorem c8_main_c_31 (V : Valuation τ sig (Elt F)) :
    after (ops8 (F := F)) V (Proc.devRef .tc main_c_31) = val_main_c_31 (F := F) := by
  after_results_simp
  rfl

theorem c8_main_v235 (V : Valuation τ sig (Elt F)) :
    after (ops8 (F := F)) V (Proc.devRef .tc main_v235) = val_main_v235 (F := F) := by
  after_results_simp
  rfl

theorem c8_main_v236 (V : Valuation τ sig (Elt F)) (x14 : (⟨S2x800000, .i32⟩ : BufTy).Contents (Elt F))
    (h_main_v1 : V (Proc.devRef .tc main_v1) = val_main_v1 (F := F) x14) :
    after (ops8 (F := F)) V (Proc.devRef .tc main_v236) = val_main_v236 (F := F) x14 := by
  after_results_simp
  simp only [h_main_v1]
  rfl

end Cert.ReferenceIdeal.RunH

end
-- ==== Proof.RefRunC9.lean ====
import proofs.«408428_j10917806867267_1_alg».proof.Proof.RefRead

set_option maxHeartbeats 1000000

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 289 … 321 of the reference's @main, in order. -/
abbrev ops9 : List (HloOp τ sig (Elt F)) :=
  [ nullary main_c_32 (constantI S_ 32 50000#32),
    unary main_c_32 main_v237 (broadcastInDim S800000 ![] bcast_S_S800000 : (⟨S_, .i32⟩ : BufTy).Contents (Elt F) → (⟨S800000, .i32⟩ : BufTy).Contents (Elt F)),
    binary main_v1 main_v237 main_v238 (addi : (⟨S800000, .i32⟩ : BufTy).Contents (Elt F) → (⟨S800000, .i32⟩ : BufTy).Contents (Elt F) → (⟨S800000, .i32⟩ : BufTy).Contents (Elt F)),
    ternary main_v236 main_v238 main_v1 main_v239 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v239 main_v240 (broadcastInDim S800000x1 ![0] bcast_S800000_S800000x1_0 : (⟨S800000, .i32⟩ : BufTy).Contents (Elt F) → (⟨S800000x1, .i32⟩ : BufTy).Contents (Elt F)),
    binary main_v234 main_v240 main_v241 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_33 (constant S_ .f32 0x00000000#32),
    unary main_cst_33 main_v242 (broadcastInDim S50000x128 ![] bcast_S_S50000x128 : (⟨S_, .f32⟩ : BufTy).Contents (Elt F) → (⟨S50000x128, .f32⟩ : BufTy).Contents (Elt F)),
    unary main_v3 main_v243 (broadcastInDim S800000x1 ![0] bcast_S800000_S800000x1_0 : (⟨S800000, .i32⟩ : BufTy).Contents (Elt F) → (⟨S800000x1, .i32⟩ : BufTy).Contents (Elt F)),
    ternary main_v242 main_v243 main_v241 main_v244 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v234 main_v244 main_v245 (addf : (⟨S50000x128, .f32⟩ : BufTy).Contents (Elt F) → (⟨S50000x128, .f32⟩ : BufTy).Contents (Elt F) → (⟨S50000x128, .f32⟩ : BufTy).Contents (Elt F)),
    unary main_arg1 main_v246 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v246 main_v247 rfl shapeCasts_S1x128x128_S128x128,
    binary main_v245 main_v247 main_v248 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg2 main_v249 ((extractStridedSlice S1x128 ![3, 0] · slices_S4x128_S1x128_3_0) : (⟨S4x128, .f32⟩ : BufTy).Contents (Elt F) → (⟨S1x128, .f32⟩ : BufTy).Contents (Elt F)),
    reshape main_v249 main_v250 rfl shapeCasts_S1x128_S128,
    unary main_v250 main_v251 (broadcastInDim S1x128 ![1] bcast_S128_S1x128_1 : (⟨S128, .f32⟩ : BufTy).Contents (Elt F) → (⟨S1x128, .f32⟩ : BufTy).Contents (Elt F)),
    unary main_v251 main_v252 (broadcastInDim S50000x128 ![0, 1] bcast_S1x128_S50000x128_0_1 : (⟨S1x128, .f32⟩ : BufTy).Contents (Elt F) → (⟨S50000x128, .f32⟩ : BufTy).Contents (Elt F)),
    binary main_v248 main_v252 main_v253 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S50000x128, .f32⟩) main_call9_v0) (broadcastInDim S50000x128 ![] bcast_S_S50000x128),
    TRef.binary (TRef.of (T := ⟨S50000x128, .f32⟩) main_v253) (TRef.of (T := ⟨S50000x128, .f32⟩) main_call9_v0) (TRef.of (T := ⟨S50000x128, .f32⟩) main_v254) maximumf,
    unary main_arg3 main_v255 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v255 main_v256 rfl shapeCasts_S1x128x128_S128x128,
    binary main_v254 main_v256 main_v257 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v258 ((extractStridedSlice S1x128 ![3, 0] · slices_S4x128_S1x128_3_0) : (⟨S4x128, .f32⟩ : BufTy).Contents (Elt F) → (⟨S1x128, .f32⟩ : BufTy).Contents (Elt F)),
    reshape main_v258 main_v259 rfl shapeCasts_S1x128_S128,
    unary main_v259 main_v260 (broadcastInDim S1x128 ![1] bcast_S128_S1x128_1 : (⟨S128, .f32⟩ : BufTy).Contents (Elt F) → (⟨S1x128, .f32⟩ : BufTy).Contents (Elt F)),
    unary main_v260 main_v261 (broadcastInDim S50000x128 ![0, 1] bcast_S1x128_S50000x128_0_1 : (⟨S1x128, .f32⟩ : BufTy).Contents (Elt F) → (⟨S50000x128, .f32⟩ : BufTy).Contents (Elt F)),
    binary main_v257 main_v261 main_v262 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S50000x128, .f32⟩) main_call10_v0) (broadcastInDim S50000x128 ![] bcast_S_S50000x128),
    TRef.binary (TRef.of (T := ⟨S50000x128, .f32⟩) main_v262) (TRef.of (T := ⟨S50000x128, .f32⟩) main_call10_v0) (TRef.of (T := ⟨S50000x128, .f32⟩) main_v263) maximumf ]

set_option maxRecDepth 8192 in
theorem ops9_sub : (ops9 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

theorem ops9_fresh : (ops9 : List (HloOp τ sig (Elt F))).Forall fun op => op.fresh = ∅ := by
  simp only [List.Forall]; repeat' constructor

/-- The references these operations write. -/
abbrev ops9_W : List (Ref sig .tc) := [main_c_32, main_v237, main_v238, main_v239, main_v240, main_v241, main_cst_33, main_v242, main_v243, main_v244, main_v245, main_v246, main_v247, main_v248, main_v249, main_v250, main_v251, main_v252, main_v253, main_call9_cst, main_call9_v0, main_v254, main_v255, main_v256, main_v257, main_v258, main_v259, main_v260, main_v261, main_v262, main_call10_cst, main_call10_v0, main_v263]

theorem ops9_writes : (ops9 : List (HloOp τ sig (Elt F))).Forall fun op => op.writes ⊆ (ops9_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A reference these operations do not write keeps its contents. -/
theorem c9_keeps (V : Valuation τ sig (Elt F)) (r : Ref sig .tc) (h : r ∉ ops9_W) :
    after (ops9 (F := F)) V (Proc.devRef .tc r) = V (Proc.devRef .tc r) :=
  after_of_writes_sub ops9 V ops9_writes h

/-! From any contents V: each reference the stretch writes ends at its stage, given that the references the stage
    reads from before the stretch stand at theirs. -/

theorem c9_main_c_32 (V : Valuation τ sig (Elt F)) :
    after (ops9 (F := F)) V (Proc.devRef .tc main_c_32) = val_main_c_32 (F := F) := by
  after_results_simp
  rfl

theorem c9_main_v237 (V : Valuation τ sig (Elt F)) :
    after (ops9 (F := F)) V (Proc.devRef .tc main_v237) = val_main_v237 (F := F) := by
  after_results_simp
  rfl

theorem c9_main_v238 (V : Valuation τ sig (Elt F)) (x14 : (⟨S2x800000, .i32⟩ : BufTy).Contents (Elt F))
    (h_main_v1 : V (Proc.devRef .tc main_v1) = val_main_v1 (F := F) x14) :
    after (ops9 (F := F)) V (Proc.devRef .tc main_v238) = val_main_v238 (F := F) x14 := by
  after_results_simp
  simp only [h_main_v1]
  rfl

theorem c9_main_v239 (V : Valuation τ sig (Elt F)) (x14 : (⟨S2x800000, .i32⟩ : BufTy).Contents (Elt F))
    (h_main_v236 : V (Proc.devRef .tc main_v236) = val_main_v236 (F := F) x14)
    (h_main_v1 : V (Proc.devRef .tc main_v1) = val_main_v1 (F := F) x14) :
    after (ops9 (F := F)) V (Proc.devRef .tc main_v239) = val_main_v239 (F := F) x14 := by
  after_results_simp
  simp only [h_main_v236, h_main_v1]
  rfl

theorem c9_main_v240 (V : Valuation τ sig (Elt F)) (x14 : (⟨S2x800000, .i32⟩ : BufTy).Contents (Elt F))
    (h_main_v236 : V (Proc.devRef .tc main_v236) = val_main_v236 (F := F) x14)
    (h_main_v1 : V (Proc.devRef .tc main_v1) = val_main_v1 (F := F) x14) :
    after (ops9 (F := F)) V (Proc.devRef .tc main_v240) = val_main_v240 (F := F) x14 := by
  after_results_simp
  simp only [h_main_v236, h_main_v1]
  rfl

theorem c9_main_v241 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v234 : V (Proc.devRef .tc main_v234) = val_main_v234 (F := F) x0 x1 x2 x3 x4 x5 x6 x7 x14 x15)
    (h_main_v236 : V (Proc.devRef .tc main_v236) = val_main_v236 (F := F) x14)
    (h_main_v1 : V (Proc.devRef .tc main_v1) = val_main_v1 (F := F) x14) :
    after (ops9 (F := F)) V (Proc.devRef .tc main_v241) = val_main_v241 (F := F) x0 x1 x2 x3 x4 x5 x6 x7 x14 x15 := by
  after_results_simp
  simp only [h_main_v234, h_main_v236, h_main_v1]
  rfl

theorem c9_main_cst_33 (V : Valuation τ sig (Elt F)) :
    after (ops9 (F := F)) V (Proc.devRef .tc main_cst_33) = val_main_cst_33 (F := F) := by
  after_results_simp
  rfl

theorem c9_main_v242 (V : Valuation τ sig (Elt F)) :
    after (ops9 (F := F)) V (Proc.devRef .tc main_v242) = val_main_v242 (F := F) := by
  after_results_simp
  rfl

theorem c9_main_v243 (V : Valuation τ sig (Elt F)) (x14 : (⟨S2x800000, .i32⟩ : BufTy).Contents (Elt F))
    (h_main_v3 : V (Proc.devRef .tc main_v3) = val_main_v3 (F := F) x14) :
    after (ops9 (F := F)) V (Proc.devRef .tc main_v243) = val_main_v243 (F := F) x14 := by
  after_results_simp
  simp only [h_main_v3]
  rfl

theorem c9_main_v244 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v3 : V (Proc.devRef .tc main_v3) = val_main_v3 (F := F) x14)
    (h_main_v234 : V (Proc.devRef .tc main_v234) = val_main_v234 (F := F) x0 x1 x2 x3 x4 x5 x6 x7 x14 x15)
    (h_main_v236 : V (Proc.devRef .tc main_v236) = val_main_v236 (F := F) x14)
    (h_main_v1 : V (Proc.devRef .tc main_v1) = val_main_v1 (F := F) x14) :
    after (ops9 (F := F)) V (Proc.devRef .tc main_v244) = val_main_v244 (F := F) x0 x1 x2 x3 x4 x5 x6 x7 x14 x15 := by
  after_results_simp
  simp only [h_main_v3, h_main_v234, h_main_v236, h_main_v1]
  rfl

theorem c9_main_v245 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v234 : V (Proc.devRef .tc main_v234) = val_main_v234 (F := F) x0 x1 x2 x3 x4 x5 x6 x7 x14 x15)
    (h_main_v3 : V (Proc.devRef .tc main_v3) = val_main_v3 (F := F) x14)
    (h_main_v236 : V (Proc.devRef .tc main_v236) = val_main_v236 (F := F) x14)
    (h_main_v1 : V (Proc.devRef .tc main_v1) = val_main_v1 (F := F) x14) :
    after (ops9 (F := F)) V (Proc.devRef .tc main_v245) = val_main_v245 (F := F) x0 x1 x2 x3 x4 x5 x6 x7 x14 x15 := by
  after_results_simp
  simp only [h_main_v234, h_main_v3, h_main_v236, h_main_v1]
  rfl

theorem c9_main_v246 (V : Valuation τ sig (Elt F)) (x1 : (⟨S4x128x128, .f32⟩ : BufTy).Contents (Elt F))
    (h_main_arg1 : V (Proc.devRef .tc main_arg1) = x1) :
    after (ops9 (F := F)) V (Proc.devRef .tc main_v246) = val_main_v246 (F := F) x1 := by
  after_results_simp
  simp only [h_main_arg1]
  rfl

theorem c9_main_v247 (V : Valuation τ sig (Elt F)) (x1 : (⟨S4x128x128, .f32⟩ : BufTy).Contents (Elt F))
    (h_main_arg1 : V (Proc.devRef .tc main_arg1) = x1) :
    after (ops9 (F := F)) V (Proc.devRef .tc main_v247) = val_main_v247 (F := F) x1 := by
  after_results_simp
  simp only [h_main_arg1]
  rfl

theorem c9_main_v248 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v234 : V (Proc.devRef .tc main_v234) = val_main_v234 (F := F) x0 x1 x2 x3 x4 x5 x6 x7 x14 x15)
    (h_main_v3 : V (Proc.devRef .tc main_v3) = val_main_v3 (F := F) x14)
    (h_main_v236 : V (Proc.devRef .tc main_v236) = val_main_v236 (F := F) x14)
    (h_main_v1 : V (Proc.devRef .tc main_v1) = val_main_v1 (F := F) x14)
    (h_main_arg1 : V (Proc.devRef .tc main_arg1) = x1) :
    after (ops9 (F := F)) V (Proc.devRef .tc main_v248) = val_main_v248 (F := F) x0 x1 x2 x3 x4 x5 x6 x7 x14 x15 := by
  after_results_simp
  simp only [h_main_v234, h_main_v3, h_main_v236, h_main_v1, h_main_arg1]
  rfl

theorem c9_main_v249 (V : Valuation τ sig (Elt F)) (x2 : (⟨S4x128, .f32⟩ : BufTy).Contents (Elt F))
    (h_main_arg2 : V (Proc.devRef .tc main_arg2) = x2) :
    after (ops9 (F := F)) V (Proc.devRef .tc main_v249) = val_main_v249 (F := F) x2 := by
  after_results_simp
  simp only [h_main_arg2]
  rfl

theorem c9_main_v250 (V : Valuation τ sig (Elt F)) (x2 : (⟨S4x128, .f32⟩ : BufTy).Contents (Elt F))
    (h_main_arg2 : V (Proc.devRef .tc main_arg2) = x2) :
    after (ops9 (F := F)) V (Proc.devRef .tc main_v250) = val_main_v250 (F := F) x2 := by
  after_results_simp
  simp only [h_main_arg2]
  rfl

theorem c9_main_v251 (V : Valuation τ sig (Elt F)) (x2 : (⟨S4x128, .f32⟩ : BufTy).Contents (Elt F))
    (h_main_arg2 : V (Proc.devRef .tc main_arg2) = x2) :
    after (ops9 (F := F)) V (Proc.devRef .tc main_v251) = val_main_v251 (F := F) x2 := by
  after_results_simp
  simp only [h_main_arg2]
  rfl

theorem c9_main_v252 (V : Valuation τ sig (Elt F)) (x2 : (⟨S4x128, .f32⟩ : BufTy).Contents (Elt F))
    (h_main_arg2 : V (Proc.devRef .tc main_arg2) = x2) :
    after (ops9 (F := F)) V (Proc.devRef .tc main_v252) = val_main_v252 (F := F) x2 := by
  after_results_simp
  simp only [h_main_arg2]
  rfl

theorem c9_main_v253 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v234 : V (Proc.devRef .tc main_v234) = val_main_v234 (F := F) x0 x1 x2 x3 x4 x5 x6 x7 x14 x15)
    (h_main_v3 : V (Proc.devRef .tc main_v3) = val_main_v3 (F := F) x14)
    (h_main_v236 : V (Proc.devRef .tc main_v236) = val_main_v236 (F := F) x14)
    (h_main_v1 : V (Proc.devRef .tc main_v1) = val_main_v1 (F := F) x14)
    (h_main_arg1 : V (Proc.devRef .tc main_arg1) = x1)
    (h_main_arg2 : V (Proc.devRef .tc main_arg2) = x2) :
    after (ops9 (F := F)) V (Proc.devRef .tc main_v253) = val_main_v253 (F := F) x0 x1 x2 x3 x4 x5 x6 x7 x14 x15 := by
  after_results_simp
  simp only [h_main_v234, h_main_v3, h_main_v236, h_main_v1, h_main_arg1, h_main_arg2]
  rfl

theorem c9_main_call9_cst (V : Valuation τ sig (Elt F)) :
    after (ops9 (F := F)) V (Proc.devRef .tc main_call9_cst) = val_main_call9_cst (F := F) := by
  after_results_simp
  rfl

theorem c9_main_call9_v0 (V : Valuation τ sig (Elt F)) :
    after (ops9 (F := F)) V (Proc.devRef .tc main_call9_v0) = val_main_call9_v0 (F := F) := by
  after_results_simp
  rfl

theorem c9_main_v254 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v234 : V (Proc.devRef .tc main_v234) = val_main_v234 (F := F) x0 x1 x2 x3 x4 x5 x6 x7 x14 x15)
    (h_main_v3 : V (Proc.devRef .tc main_v3) = val_main_v3 (F := F) x14)
    (h_main_v236 : V (Proc.devRef .tc main_v236) = val_main_v236 (F := F) x14)
    (h_main_v1 : V (Proc.devRef .tc main_v1) = val_main_v1 (F := F) x14)
    (h_main_arg1 : V (Proc.devRef .tc main_arg1) = x1)
    (h_main_arg2 : V (Proc.devRef .tc main_arg2) = x2) :
    after (ops9 (F := F)) V (Proc.devRef .tc main_v254) = val_main_v254 (F := F) x0 x1 x2 x3 x4 x5 x6 x7 x14 x15 := by
  after_results_simp
  simp only [h_main_v234, h_main_v3, h_main_v236, h_main_v1, h_main_arg1, h_main_arg2]
  rfl

theorem c9_main_v255 (V : Valuation τ sig (Elt F)) (x3 : (⟨S4x128x128, .f32⟩ : BufTy).Contents (Elt F))
    (h_main_arg3 : V (Proc.devRef .tc main_arg3) = x3) :
    after (ops9 (F := F)) V (Proc.devRef .tc main_v255) = val_main_v255 (F := F) x3 := by
  after_results_simp
  simp only [h_main_arg3]
  rfl

theorem c9_main_v256 (V : Valuation τ sig (Elt F)) (x3 : (⟨S4x128x128, .f32⟩ : BufTy).Contents (Elt F))
    (h_main_arg3 : V (Proc.devRef .tc main_arg3) = x3) :
    after (ops9 (F := F)) V (Proc.devRef .tc main_v256) = val_main_v256 (F := F) x3 := by
  after_results_simp
  simp only [h_main_arg3]
  rfl

theorem c9_main_v257 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v234 : V (Proc.devRef .tc main_v234) = val_main_v234 (F := F) x0 x1 x2 x3 x4 x5 x6 x7 x14 x15)
    (h_main_v3 : V (Proc.devRef .tc main_v3) = val_main_v3 (F := F) x14)
    (h_main_v236 : V (Proc.devRef .tc main_v236) = val_main_v236 (F := F) x14)
    (h_main_v1 : V (Proc.devRef .tc main_v1) = val_main_v1 (F := F) x14)
    (h_main_arg1 : V (Proc.devRef .tc main_arg1) = x1)
    (h_main_arg2 : V (Proc.devRef .tc main_arg2) = x2)
    (h_main_arg3 : V (Proc.devRef .tc main_arg3) = x3) :
    after (ops9 (F := F)) V (Proc.devRef .tc main_v257) = val_main_v257 (F := F) x0 x1 x2 x3 x4 x5 x6 x7 x14 x15 := by
  after_results_simp
  simp only [h_main_v234, h_main_v3, h_main_v236, h_main_v1, h_main_arg1, h_main_arg2, h_main_arg3]
  rfl

theorem c9_main_v258 (V : Valuation τ sig (Elt F)) (x4 : (⟨S4x128, .f32⟩ : BufTy).Contents (Elt F))
    (h_main_arg4 : V (Proc.devRef .tc main_arg4) = x4) :
    after (ops9 (F := F)) V (Proc.devRef .tc main_v258) = val_main_v258 (F := F) x4 := by
  after_results_simp
  simp only [h_main_arg4]
  rfl

theorem c9_main_v259 (V : Valuation τ sig (Elt F)) (x4 : (⟨S4x128, .f32⟩ : BufTy).Contents (Elt F))
    (h_main_arg4 : V (Proc.devRef .tc main_arg4) = x4) :
    after (ops9 (F := F)) V (Proc.devRef .tc main_v259) = val_main_v259 (F := F) x4 := by
  after_results_simp
  simp only [h_main_arg4]
  rfl

theorem c9_main_v260 (V : Valuation τ sig (Elt F)) (x4 : (⟨S4x128, .f32⟩ : BufTy).Contents (Elt F))
    (h_main_arg4 : V (Proc.devRef .tc main_arg4) = x4) :
    after (ops9 (F := F)) V (Proc.devRef .tc main_v260) = val_main_v260 (F := F) x4 := by
  after_results_simp
  simp only [h_main_arg4]
  rfl

theorem c9_main_v261 (V : Valuation τ sig (Elt F)) (x4 : (⟨S4x128, .f32⟩ : BufTy).Contents (Elt F))
    (h_main_arg4 : V (Proc.devRef .tc main_arg4) = x4) :
    after (ops9 (F := F)) V (Proc.devRef .tc main_v261) = val_main_v261 (F := F) x4 := by
  after_results_simp
  simp only [h_main_arg4]
  rfl

theorem c9_main_v262 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v234 : V (Proc.devRef .tc main_v234) = val_main_v234 (F := F) x0 x1 x2 x3 x4 x5 x6 x7 x14 x15)
    (h_main_v3 : V (Proc.devRef .tc main_v3) = val_main_v3 (F := F) x14)
    (h_main_v236 : V (Proc.devRef .tc main_v236) = val_main_v236 (F := F) x14)
    (h_main_v1 : V (Proc.devRef .tc main_v1) = val_main_v1 (F := F) x14)
    (h_main_arg1 : V (Proc.devRef .tc main_arg1) = x1)
    (h_main_arg2 : V (Proc.devRef .tc main_arg2) = x2)
    (h_main_arg3 : V (Proc.devRef .tc main_arg3) = x3)
    (h_main_arg4 : V (Proc.devRef .tc main_arg4) = x4) :
    after (ops9 (F := F)) V (Proc.devRef .tc main_v262) = val_main_v262 (F := F) x0 x1 x2 x3 x4 x5 x6 x7 x14 x15 := by
  after_results_simp
  simp only [h_main_v234, h_main_v3, h_main_v236, h_main_v1, h_main_arg1, h_main_arg2, h_main_arg3, h_main_arg4]
  rfl

theorem c9_main_call10_cst (V : Valuation τ sig (Elt F)) :
    after (ops9 (F := F)) V (Proc.devRef .tc main_call10_cst) = val_main_call10_cst (F := F) := by
  after_results_simp
  rfl

theorem c9_main_call10_v0 (V : Valuation τ sig (Elt F)) :
    after (ops9 (F := F)) V (Proc.devRef .tc main_call10_v0) = val_main_call10_v0 (F := F) := by
  after_results_simp
  rfl

theorem c9_main_v263 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v234 : V (Proc.devRef .tc main_v234) = val_main_v234 (F := F) x0 x1 x2 x3 x4 x5 x6 x7 x14 x15)
    (h_main_v3 : V (Proc.devRef .tc main_v3) = val_main_v3 (F := F) x14)
    (h_main_v236 : V (Proc.devRef .tc main_v236) = val_main_v236 (F := F) x14)
    (h_main_v1 : V (Proc.devRef .tc main_v1) = val_main_v1 (F := F) x14)
    (h_main_arg1 : V (Proc.devRef .tc main_arg1) = x1)
    (h_main_arg2 : V (Proc.devRef .tc main_arg2) = x2)
    (h_main_arg3 : V (Proc.devRef .tc main_arg3) = x3)
    (h_main_arg4 : V (Proc.devRef .tc main_arg4) = x4) :
    after (ops9 (F := F)) V (Proc.devRef .tc main_v263) = val_main_v263 (F := F) x0 x1 x2 x3 x4 x5 x6 x7 x14 x15 := by
  after_results_simp
  simp only [h_main_v234, h_main_v3, h_main_v236, h_main_v1, h_main_arg1, h_main_arg2, h_main_arg3, h_main_arg4]
  rfl

end Cert.ReferenceIdeal.RunH

end
-- ==== Proof.RefRunC10.lean ====
import proofs.«408428_j10917806867267_1_alg».proof.Proof.RefRead

set_option maxHeartbeats 1000000

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 322 … 352 of the reference's @main, in order. -/
abbrev ops10 : List (HloOp τ sig (Elt F)) :=
  [ unary main_arg5 main_v264 ((extractStridedSlice S1x128 ![3, 0] · slices_S4x128_S1x128_3_0) : (⟨S4x128, .f32⟩ : BufTy).Contents (Elt F) → (⟨S1x128, .f32⟩ : BufTy).Contents (Elt F)),
    reshape main_v264 main_v265 rfl shapeCasts_S1x128_S128,
    unary main_arg6 main_v266 ((extractStridedSlice S1x128 ![3, 0] · slices_S4x128_S1x128_3_0) : (⟨S4x128, .f32⟩ : BufTy).Contents (Elt F) → (⟨S1x128, .f32⟩ : BufTy).Contents (Elt F)),
    reshape main_v266 main_v267 rfl shapeCasts_S1x128_S128,
    unary main_arg7 main_v268 ((extractStridedSlice S1x128 ![3, 0] · slices_S4x128_S1x128_3_0) : (⟨S4x128, .f32⟩ : BufTy).Contents (Elt F) → (⟨S1x128, .f32⟩ : BufTy).Contents (Elt F)),
    reshape main_v268 main_v269 rfl shapeCasts_S1x128_S128,
    nullary main_cst_34 (constant S_ .f32 0x00000000#32),
    unary main_cst_34 main_v270 (broadcastInDim S128x128 ![] bcast_S_S128x128 : (⟨S_, .f32⟩ : BufTy).Contents (Elt F) → (⟨S128x128, .f32⟩ : BufTy).Contents (Elt F)),
    unary main_arg15 main_v271 (broadcastInDim S50000x1 ![0] bcast_S50000_S50000x1_0 : (⟨S50000, .i32⟩ : BufTy).Contents (Elt F) → (⟨S50000x1, .i32⟩ : BufTy).Contents (Elt F)),
    ternary main_v270 main_v271 main_v263 main_v272 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    unary main_v9 main_v273 (broadcastInDim S128x128 ![0, 1] bcast_S128x1_S128x128_0_1 : (⟨S128x1, .f32⟩ : BufTy).Contents (Elt F) → (⟨S128x128, .f32⟩ : BufTy).Contents (Elt F)),
    binary main_v272 main_v273 main_v274 (Host.divf : (⟨S128x128, .f32⟩ : BufTy).Contents (Elt F) → (⟨S128x128, .f32⟩ : BufTy).Contents (Elt F) → (⟨S128x128, .f32⟩ : BufTy).Contents (Elt F)),
    nullary main_c_35 (constantI S_ 32 0#32),
    unary main_c_35 main_v275 (broadcastInDim S50000 ![] bcast_S_S50000 : (⟨S_, .i32⟩ : BufTy).Contents (Elt F) → (⟨S50000, .i32⟩ : BufTy).Contents (Elt F)),
    binary main_arg15 main_v275 main_v276 (cmpi .slt : (⟨S50000, .i32⟩ : BufTy).Contents (Elt F) → (⟨S50000, .i32⟩ : BufTy).Contents (Elt F) → (⟨S50000, .i1⟩ : BufTy).Contents (Elt F)),
    nullary main_c_36 (constantI S_ 32 128#32),
    unary main_c_36 main_v277 (broadcastInDim S50000 ![] bcast_S_S50000 : (⟨S_, .i32⟩ : BufTy).Contents (Elt F) → (⟨S50000, .i32⟩ : BufTy).Contents (Elt F)),
    binary main_arg15 main_v277 main_v278 (addi : (⟨S50000, .i32⟩ : BufTy).Contents (Elt F) → (⟨S50000, .i32⟩ : BufTy).Contents (Elt F) → (⟨S50000, .i32⟩ : BufTy).Contents (Elt F)),
    ternary main_v276 main_v278 main_arg15 main_v279 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v279 main_v280 (broadcastInDim S50000x1 ![0] bcast_S50000_S50000x1_0 : (⟨S50000, .i32⟩ : BufTy).Contents (Elt F) → (⟨S50000x1, .i32⟩ : BufTy).Contents (Elt F)),
    binary main_v274 main_v280 main_v281 ((fun x i => Host.gather gather_S128x128_S50000x1_S50000x128_1_0_n_n_0_1_1128 x i) : (⟨S128x128, .f32⟩ : BufTy).Contents (Elt F) → (⟨S50000x1, .i32⟩ : BufTy).Contents (Elt F) → (⟨S50000x128, .f32⟩ : BufTy).Contents (Elt F)),
    unary main_v269 main_v282 (broadcastInDim S1x128 ![1] bcast_S128_S1x128_1 : (⟨S128, .f32⟩ : BufTy).Contents (Elt F) → (⟨S1x128, .f32⟩ : BufTy).Contents (Elt F)),
    unary main_v282 main_v283 (broadcastInDim S50000x128 ![0, 1] bcast_S1x128_S50000x128_0_1 : (⟨S1x128, .f32⟩ : BufTy).Contents (Elt F) → (⟨S50000x128, .f32⟩ : BufTy).Contents (Elt F)),
    binary main_v281 main_v283 main_v284 (mulf : (⟨S50000x128, .f32⟩ : BufTy).Contents (Elt F) → (⟨S50000x128, .f32⟩ : BufTy).Contents (Elt F) → (⟨S50000x128, .f32⟩ : BufTy).Contents (Elt F)),
    binary main_v263 main_v284 main_v285 (subf : (⟨S50000x128, .f32⟩ : BufTy).Contents (Elt F) → (⟨S50000x128, .f32⟩ : BufTy).Contents (Elt F) → (⟨S50000x128, .f32⟩ : BufTy).Contents (Elt F)),
    binary main_v285 main_v285 main_v286 (mulf : (⟨S50000x128, .f32⟩ : BufTy).Contents (Elt F) → (⟨S50000x128, .f32⟩ : BufTy).Contents (Elt F) → (⟨S50000x128, .f32⟩ : BufTy).Contents (Elt F)),
    nullary main_cst_37 (constant S_ .f32 0x00000000#32),
    unary main_cst_37 main_v287 (broadcastInDim S128x128 ![] bcast_S_S128x128 : (⟨S_, .f32⟩ : BufTy).Contents (Elt F) → (⟨S128x128, .f32⟩ : BufTy).Contents (Elt F)),
    unary main_arg15 main_v288 (broadcastInDim S50000x1 ![0] bcast_S50000_S50000x1_0 : (⟨S50000, .i32⟩ : BufTy).Contents (Elt F) → (⟨S50000x1, .i32⟩ : BufTy).Contents (Elt F)),
    ternary main_v287 main_v288 main_v286 main_v289 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    unary main_v9 main_v290 (broadcastInDim S128x128 ![0, 1] bcast_S128x1_S128x128_0_1 : (⟨S128x1, .f32⟩ : BufTy).Contents (Elt F) → (⟨S128x128, .f32⟩ : BufTy).Contents (Elt F)) ]

set_option maxRecDepth 8192 in
theorem ops10_sub : (ops10 : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub .., binary_bufs_sub .., nullary_bufs_sub .., unary_bufs_sub .., unary_bufs_sub .., ternary_bufs_sub .., unary_bufs_sub ..⟩

theorem ops10_fresh : (ops10 : List (HloOp τ sig (Elt F))).Forall fun op => op.fresh = ∅ := by
  simp only [List.Forall]; repeat' constructor

/-- The references these operations write. -/
abbrev ops10_W : List (Ref sig .tc) := [main_v264, main_v265, main_v266, main_v267, main_v268, main_v269, main_cst_34, main_v270, main_v271, main_v272, main_v273, main_v274, main_c_35, main_v275, main_v276, main_c_36, main_v277, main_v278, main_v279, main_v280, main_v281, main_v282, main_v283, main_v284, main_v285, main_v286, main_cst_37, main_v287, main_v288, main_v289, main_v290]

theorem ops10_writes : (ops10 : List (HloOp τ sig (Elt F))).Forall fun op => op.writes ⊆ (ops10_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A reference these operations do not write keeps its contents. -/
theorem c10_keeps (V : Valuation τ sig (Elt F)) (r : Ref sig .tc) (h : r ∉ ops10_W) :
    after (ops10 (F := F)) V (Proc.devRef .tc r) = V (Proc.devRef .tc r) :=
  after_of_writes_sub ops10 V ops10_writes h

/-! From any contents V: each reference the stretch writes ends at its stage, given that the references the stage
    reads from before the stretch stand at theirs. -/

theorem c10_main_v264 (V : Valuation τ sig (Elt F)) (x5 : (⟨S4x128, .f32⟩ : BufTy).Contents (Elt F))
    (h_main_arg5 : V (Proc.devRef .tc main_arg5) = x5) :
    after (ops10 (F := F)) V (Proc.devRef .tc main_v264) = val_main_v264 (F := F) x5 := by
  after_results_simp
  simp only [h_main_arg5]
  rfl

theorem c10_main_v265 (V : Valuation τ sig (Elt F)) (x5 : (⟨S4x128, .f32⟩ : BufTy).Contents (Elt F))
    (h_main_arg5 : V (Proc.devRef .tc main_arg5) = x5) :
    after (ops10 (F := F)) V (Proc.devRef .tc main_v265) = val_main_v265 (F := F) x5 := by
  after_results_simp
  simp only [h_main_arg5]
  rfl

theorem c10_main_v266 (V : Valuation τ sig (Elt F)) (x6 : (⟨S4x128, .f32⟩ : BufTy).Contents (Elt F))
    (h_main_arg6 : V (Proc.devRef .tc main_arg6) = x6) :
    after (ops10 (F := F)) V (Proc.devRef .tc main_v266) = val_main_v266 (F := F) x6 := by
  after_results_simp
  simp only [h_main_arg6]
  rfl

theorem c10_main_v267 (V : Valuation τ sig (Elt F)) (x6 : (⟨S4x128, .f32⟩ : BufTy).Contents (Elt F))
    (h_main_arg6 : V (Proc.devRef .tc main_arg6) = x6) :
    after (ops10 (F := F)) V (Proc.devRef .tc main_v267) = val_main_v267 (F := F) x6 := by
  after_results_simp
  simp only [h_main_arg6]
  rfl

theorem c10_main_v268 (V : Valuation τ sig (Elt F)) (x7 : (⟨S4x128, .f32⟩ : BufTy).Contents (Elt F))
    (h_main_arg7 : V (Proc.devRef .tc main_arg7) = x7) :
    after (ops10 (F := F)) V (Proc.devRef .tc main_v268) = val_main_v268 (F := F) x7 := by
  after_results_simp
  simp only [h_main_arg7]
  rfl

theorem c10_main_v269 (V : Valuation τ sig (Elt F)) (x7 : (⟨S4x128, .f32⟩ : BufTy).Contents (Elt F))
    (h_main_arg7 : V (Proc.devRef .tc main_arg7) = x7) :
    after (ops10 (F := F)) V (Proc.devRef .tc main_v269) = val_main_v269 (F := F) x7 := by
  after_results_simp
  simp only [h_main_arg7]
  rfl

theorem c10_main_cst_34 (V : Valuation τ sig (Elt F)) :
    after (ops10 (F := F)) V (Proc.devRef .tc main_cst_34) = val_main_cst_34 (F := F) := by
  after_results_simp
  rfl

theorem c10_main_v270 (V : Valuation τ sig (Elt F)) :
    after (ops10 (F := F)) V (Proc.devRef .tc main_v270) = val_main_v270 (F := F) := by
  after_results_simp
  rfl

theorem c10_main_v271 (V : Valuation τ sig (Elt F)) (x15 : (⟨S50000, .i32⟩ : BufTy).Contents (Elt F))
    (h_main_arg15 : V (Proc.devRef .tc main_arg15) = x15) :
    after (ops10 (F := F)) V (Proc.devRef .tc main_v271) = val_main_v271 (F := F) x15 := by
  after_results_simp
  simp only [h_main_arg15]
  rfl

theorem c10_main_v272 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_arg15 : V (Proc.devRef .tc main_arg15) = x15)
    (h_main_v263 : V (Proc.devRef .tc main_v263) = val_main_v263 (F := F) x0 x1 x2 x3 x4 x5 x6 x7 x14 x15) :
    after (ops10 (F := F)) V (Proc.devRef .tc main_v272) = val_main_v272 (F := F) x0 x1 x2 x3 x4 x5 x6 x7 x14 x15 := by
  after_results_simp
  simp only [h_main_arg15, h_main_v263]
  rfl

theorem c10_main_v273 (V : Valuation τ sig (Elt F)) (x15 : (⟨S50000, .i32⟩ : BufTy).Contents (Elt F))
    (h_main_v9 : V (Proc.devRef .tc main_v9) = val_main_v9 (F := F) x15) :
    after (ops10 (F := F)) V (Proc.devRef .tc main_v273) = val_main_v273 (F := F) x15 := by
  after_results_simp
  simp only [h_main_v9]
  rfl

theorem c10_main_v274 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_arg15 : V (Proc.devRef .tc main_arg15) = x15)
    (h_main_v263 : V (Proc.devRef .tc main_v263) = val_main_v263 (F := F) x0 x1 x2 x3 x4 x5 x6 x7 x14 x15)
    (h_main_v9 : V (Proc.devRef .tc main_v9) = val_main_v9 (F := F) x15) :
    after (ops10 (F := F)) V (Proc.devRef .tc main_v274) = val_main_v274 (F := F) x0 x1 x2 x3 x4 x5 x6 x7 x14 x15 := by
  after_results_simp
  simp only [h_main_arg15, h_main_v263, h_main_v9]
  rfl

theorem c10_main_c_35 (V : Valuation τ sig (Elt F)) :
    after (ops10 (F := F)) V (Proc.devRef .tc main_c_35) = val_main_c_35 (F := F) := by
  after_results_simp
  rfl

theorem c10_main_v275 (V : Valuation τ sig (Elt F)) :
    after (ops10 (F := F)) V (Proc.devRef .tc main_v275) = val_main_v275 (F := F) := by
  after_results_simp
  rfl

theorem c10_main_v276 (V : Valuation τ sig (Elt F)) (x15 : (⟨S50000, .i32⟩ : BufTy).Contents (Elt F))
    (h_main_arg15 : V (Proc.devRef .tc main_arg15) = x15) :
    after (ops10 (F := F)) V (Proc.devRef .tc main_v276) = val_main_v276 (F := F) x15 := by
  after_results_simp
  simp only [h_main_arg15]
  rfl

theorem c10_main_c_36 (V : Valuation τ sig (Elt F)) :
    after (ops10 (F := F)) V (Proc.devRef .tc main_c_36) = val_main_c_36 (F := F) := by
  after_results_simp
  rfl

theorem c10_main_v277 (V : Valuation τ sig (Elt F)) :
    after (ops10 (F := F)) V (Proc.devRef .tc main_v277) = val_main_v277 (F := F) := by
  after_results_simp
  rfl

theorem c10_main_v278 (V : Valuation τ sig (Elt F)) (x15 : (⟨S50000, .i32⟩ : BufTy).Contents (Elt F))
    (h_main_arg15 : V (Proc.devRef .tc main_arg15) = x15) :
    after (ops10 (F := F)) V (Proc.devRef .tc main_v278) = val_main_v278 (F := F) x15 := by
  after_results_simp
  simp only [h_main_arg15]
  rfl

theorem c10_main_v279 (V : Valuation τ sig (Elt F)) (x15 : (⟨S50000, .i32⟩ : BufTy).Contents (Elt F))
    (h_main_arg15 : V (Proc.devRef .tc main_arg15) = x15) :
    after (ops10 (F := F)) V (Proc.devRef .tc main_v279) = val_main_v279 (F := F) x15 := by
  after_results_simp
  simp only [h_main_arg15]
  rfl

theorem c10_main_v280 (V : Valuation τ sig (Elt F)) (x15 : (⟨S50000, .i32⟩ : BufTy).Contents (Elt F))
    (h_main_arg15 : V (Proc.devRef .tc main_arg15) = x15) :
    after (ops10 (F := F)) V (Proc.devRef .tc main_v280) = val_main_v280 (F := F) x15 := by
  after_results_simp
  simp only [h_main_arg15]
  rfl

theorem c10_main_v281 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_arg15 : V (Proc.devRef .tc main_arg15) = x15)
    (h_main_v263 : V (Proc.devRef .tc main_v263) = val_main_v263 (F := F) x0 x1 x2 x3 x4 x5 x6 x7 x14 x15)
    (h_main_v9 : V (Proc.devRef .tc main_v9) = val_main_v9 (F := F) x15) :
    after (ops10 (F := F)) V (Proc.devRef .tc main_v281) = val_main_v281 (F := F) x0 x1 x2 x3 x4 x5 x6 x7 x14 x15 := by
  after_results_simp
  simp only [h_main_arg15, h_main_v263, h_main_v9]
  rfl

theorem c10_main_v282 (V : Valuation τ sig (Elt F)) (x7 : (⟨S4x128, .f32⟩ : BufTy).Contents (Elt F))
    (h_main_arg7 : V (Proc.devRef .tc main_arg7) = x7) :
    after (ops10 (F := F)) V (Proc.devRef .tc main_v282) = val_main_v282 (F := F) x7 := by
  after_results_simp
  simp only [h_main_arg7]
  rfl

theorem c10_main_v283 (V : Valuation τ sig (Elt F)) (x7 : (⟨S4x128, .f32⟩ : BufTy).Contents (Elt F))
    (h_main_arg7 : V (Proc.devRef .tc main_arg7) = x7) :
    after (ops10 (F := F)) V (Proc.devRef .tc main_v283) = val_main_v283 (F := F) x7 := by
  after_results_simp
  simp only [h_main_arg7]
  rfl

theorem c10_main_v284 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_arg15 : V (Proc.devRef .tc main_arg15) = x15)
    (h_main_v263 : V (Proc.devRef .tc main_v263) = val_main_v263 (F := F) x0 x1 x2 x3 x4 x5 x6 x7 x14 x15)
    (h_main_v9 : V (Proc.devRef .tc main_v9) = val_main_v9 (F := F) x15)
    (h_main_arg7 : V (Proc.devRef .tc main_arg7) = x7) :
    after (ops10 (F := F)) V (Proc.devRef .tc main_v284) = val_main_v284 (F := F) x0 x1 x2 x3 x4 x5 x6 x7 x14 x15 := by
  after_results_simp
  simp only [h_main_arg15, h_main_v263, h_main_v9, h_main_arg7]
  rfl

theorem c10_main_v285 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v263 : V (Proc.devRef .tc main_v263) = val_main_v263 (F := F) x0 x1 x2 x3 x4 x5 x6 x7 x14 x15)
    (h_main_arg15 : V (Proc.devRef .tc main_arg15) = x15)
    (h_main_v9 : V (Proc.devRef .tc main_v9) = val_main_v9 (F := F) x15)
    (h_main_arg7 : V (Proc.devRef .tc main_arg7) = x7) :
    after (ops10 (F := F)) V (Proc.devRef .tc main_v285) = val_main_v285 (F := F) x0 x1 x2 x3 x4 x5 x6 x7 x14 x15 := by
  after_results_simp
  simp only [h_main_v263, h_main_arg15, h_main_v9, h_main_arg7]
  rfl

theorem c10_main_v286 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v263 : V (Proc.devRef .tc main_v263) = val_main_v263 (F := F) x0 x1 x2 x3 x4 x5 x6 x7 x14 x15)
    (h_main_arg15 : V (Proc.devRef .tc main_arg15) = x15)
    (h_main_v9 : V (Proc.devRef .tc main_v9) = val_main_v9 (F := F) x15)
    (h_main_arg7 : V (Proc.devRef .tc main_arg7) = x7) :
    after (ops10 (F := F)) V (Proc.devRef .tc main_v286) = val_main_v286 (F := F) x0 x1 x2 x3 x4 x5 x6 x7 x14 x15 := by
  after_results_simp
  simp only [h_main_v263, h_main_arg15, h_main_v9, h_main_arg7]
  rfl

theorem c10_main_cst_37 (V : Valuation τ sig (Elt F)) :
    after (ops10 (F := F)) V (Proc.devRef .tc main_cst_37) = val_main_cst_37 (F := F) := by
  after_results_simp
  rfl

theorem c10_main_v287 (V : Valuation τ sig (Elt F)) :
    after (ops10 (F := F)) V (Proc.devRef .tc main_v287) = val_main_v287 (F := F) := by
  after_results_simp
  rfl

theorem c10_main_v288 (V : Valuation τ sig (Elt F)) (x15 : (⟨S50000, .i32⟩ : BufTy).Contents (Elt F))
    (h_main_arg15 : V (Proc.devRef .tc main_arg15) = x15) :
    after (ops10 (F := F)) V (Proc.devRef .tc main_v288) = val_main_v288 (F := F) x15 := by
  after_results_simp
  simp only [h_main_arg15]
  rfl

theorem c10_main_v289 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_arg15 : V (Proc.devRef .tc main_arg15) = x15)
    (h_main_v263 : V (Proc.devRef .tc main_v263) = val_main_v263 (F := F) x0 x1 x2 x3 x4 x5 x6 x7 x14 x15)
    (h_main_v9 : V (Proc.devRef .tc main_v9) = val_main_v9 (F := F) x15)
    (h_main_arg7 : V (Proc.devRef .tc main_arg7) = x7) :
    after (ops10 (F := F)) V (Proc.devRef .tc main_v289) = val_main_v289 (F := F) x0 x1 x2 x3 x4 x5 x6 x7 x14 x15 := by
  after_results_simp
  simp only [h_main_arg15, h_main_v263, h_main_v9, h_main_arg7]
  rfl

theorem c10_main_v290 (V : Valuation τ sig (Elt F)) (x15 : (⟨S50000, .i32⟩ : BufTy).Contents (Elt F))
    (h_main_v9 : V (Proc.devRef .tc main_v9) = val_main_v9 (F := F) x15) :
    after (ops10 (F := F)) V (Proc.devRef .tc main_v290) = val_main_v290 (F := F) x15 := by
  after_results_simp
  simp only [h_main_v9]
  rfl

end Cert.ReferenceIdeal.RunH

end
-- ==== Proof.RefRunC11.lean ====
import proofs.«408428_j10917806867267_1_alg».proof.Proof.RefRead

set_option maxHeartbeats 1000000

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 353 … 383 of the reference's @main, in order. -/
abbrev ops11 : List (HloOp τ sig (Elt F)) :=
  [ binary main_v289 main_v290 main_v291 (Host.divf : (⟨S128x128, .f32⟩ : BufTy).Contents (Elt F) → (⟨S128x128, .f32⟩ : BufTy).Contents (Elt F) → (⟨S128x128, .f32⟩ : BufTy).Contents (Elt F)),
    unary main_v265 main_v292 (broadcastInDim S1x128 ![1] bcast_S128_S1x128_1 : (⟨S128, .f32⟩ : BufTy).Contents (Elt F) → (⟨S1x128, .f32⟩ : BufTy).Contents (Elt F)),
    unary main_v292 main_v293 (broadcastInDim S50000x128 ![0, 1] bcast_S1x128_S50000x128_0_1 : (⟨S1x128, .f32⟩ : BufTy).Contents (Elt F) → (⟨S50000x128, .f32⟩ : BufTy).Contents (Elt F)),
    binary main_v293 main_v285 main_v294 (mulf : (⟨S50000x128, .f32⟩ : BufTy).Contents (Elt F) → (⟨S50000x128, .f32⟩ : BufTy).Contents (Elt F) → (⟨S50000x128, .f32⟩ : BufTy).Contents (Elt F)),
    nullary main_c_38 (constantI S_ 32 0#32),
    unary main_c_38 main_v295 (broadcastInDim S50000 ![] bcast_S_S50000 : (⟨S_, .i32⟩ : BufTy).Contents (Elt F) → (⟨S50000, .i32⟩ : BufTy).Contents (Elt F)),
    binary main_arg15 main_v295 main_v296 (cmpi .slt : (⟨S50000, .i32⟩ : BufTy).Contents (Elt F) → (⟨S50000, .i32⟩ : BufTy).Contents (Elt F) → (⟨S50000, .i1⟩ : BufTy).Contents (Elt F)),
    nullary main_c_39 (constantI S_ 32 128#32),
    unary main_c_39 main_v297 (broadcastInDim S50000 ![] bcast_S_S50000 : (⟨S_, .i32⟩ : BufTy).Contents (Elt F) → (⟨S50000, .i32⟩ : BufTy).Contents (Elt F)),
    binary main_arg15 main_v297 main_v298 (addi : (⟨S50000, .i32⟩ : BufTy).Contents (Elt F) → (⟨S50000, .i32⟩ : BufTy).Contents (Elt F) → (⟨S50000, .i32⟩ : BufTy).Contents (Elt F)),
    ternary main_v296 main_v298 main_arg15 main_v299 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v299 main_v300 (broadcastInDim S50000x1 ![0] bcast_S50000_S50000x1_0 : (⟨S50000, .i32⟩ : BufTy).Contents (Elt F) → (⟨S50000x1, .i32⟩ : BufTy).Contents (Elt F)),
    binary main_v291 main_v300 main_v301 ((fun x i => Host.gather gather_S128x128_S50000x1_S50000x128_1_0_n_n_0_1_1128 x i) : (⟨S128x128, .f32⟩ : BufTy).Contents (Elt F) → (⟨S50000x1, .i32⟩ : BufTy).Contents (Elt F) → (⟨S50000x128, .f32⟩ : BufTy).Contents (Elt F)),
    nullary main_cst_40 (constant S_ .f32 0x3727C5AC#32),
    unary main_cst_40 main_v302 (broadcastInDim S50000x128 ![] bcast_S_S50000x128 : (⟨S_, .f32⟩ : BufTy).Contents (Elt F) → (⟨S50000x128, .f32⟩ : BufTy).Contents (Elt F)),
    binary main_v301 main_v302 main_v303 (addf : (⟨S50000x128, .f32⟩ : BufTy).Contents (Elt F) → (⟨S50000x128, .f32⟩ : BufTy).Contents (Elt F) → (⟨S50000x128, .f32⟩ : BufTy).Contents (Elt F)),
    unary main_v303 main_v304 (Host.sqrt : (⟨S50000x128, .f32⟩ : BufTy).Contents (Elt F) → (⟨S50000x128, .f32⟩ : BufTy).Contents (Elt F)),
    binary main_v294 main_v304 main_v305 (Host.divf : (⟨S50000x128, .f32⟩ : BufTy).Contents (Elt F) → (⟨S50000x128, .f32⟩ : BufTy).Contents (Elt F) → (⟨S50000x128, .f32⟩ : BufTy).Contents (Elt F)),
    unary main_v267 main_v306 (broadcastInDim S1x128 ![1] bcast_S128_S1x128_1 : (⟨S128, .f32⟩ : BufTy).Contents (Elt F) → (⟨S1x128, .f32⟩ : BufTy).Contents (Elt F)),
    unary main_v306 main_v307 (broadcastInDim S50000x128 ![0, 1] bcast_S1x128_S50000x128_0_1 : (⟨S1x128, .f32⟩ : BufTy).Contents (Elt F) → (⟨S50000x128, .f32⟩ : BufTy).Contents (Elt F)),
    binary main_v305 main_v307 main_v308 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S50000x128, .f32⟩) main_call11_v0) (broadcastInDim S50000x128 ![] bcast_S_S50000x128),
    TRef.binary (TRef.of (T := ⟨S50000x128, .f32⟩) main_v308) (TRef.of (T := ⟨S50000x128, .f32⟩) main_call11_v0) (TRef.of (T := ⟨S50000x128, .f32⟩) main_v309) maximumf,
    nullary main_cst_41 (constant S_ .f32 0x00000000#32),
    unary main_cst_41 main_v310 (broadcastInDim S128x128 ![] bcast_S_S128x128 : (⟨S_, .f32⟩ : BufTy).Contents (Elt F) → (⟨S128x128, .f32⟩ : BufTy).Contents (Elt F)),
    unary main_arg15 main_v311 (broadcastInDim S50000x1 ![0] bcast_S50000_S50000x1_0 : (⟨S50000, .i32⟩ : BufTy).Contents (Elt F) → (⟨S50000x1, .i32⟩ : BufTy).Contents (Elt F)),
    ternary main_v310 main_v311 main_v309 main_v312 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    binary main_v312 main_arg8 main_v313 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    unary main_arg9 main_v314 (broadcastInDim S1x128 ![1] bcast_S128_S1x128_1 : (⟨S128, .f32⟩ : BufTy).Contents (Elt F) → (⟨S1x128, .f32⟩ : BufTy).Contents (Elt F)),
    unary main_v314 main_v315 (broadcastInDim S128x128 ![0, 1] bcast_S1x128_S128x128_0_1 : (⟨S1x128, .f32⟩ : BufTy).Contents (Elt F) → (⟨S128x128, .f32⟩ : BufTy).Contents (Elt F)) ]

set_option maxRecDepth 8192 in
theorem ops11_sub : (ops11 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., binary_bufs_sub .., unary_bufs_sub .., unary_bufs_sub ..⟩

theorem ops11_fresh : (ops11 : List (HloOp τ sig (Elt F))).Forall fun op => op.fresh = ∅ := by
  simp only [List.Forall]; repeat' constructor

/-- The references these operations write. -/
abbrev ops11_W : List (Ref sig .tc) := [main_v291, main_v292, main_v293, main_v294, main_c_38, main_v295, main_v296, main_c_39, main_v297, main_v298, main_v299, main_v300, main_v301, main_cst_40, main_v302, main_v303, main_v304, main_v305, main_v306, main_v307, main_v308, main_call11_cst, main_call11_v0, main_v309, main_cst_41, main_v310, main_v311, main_v312, main_v313, main_v314, main_v315]

theorem ops11_writes : (ops11 : List (HloOp τ sig (Elt F))).Forall fun op => op.writes ⊆ (ops11_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A reference these operations do not write keeps its contents. -/
theorem c11_keeps (V : Valuation τ sig (Elt F)) (r : Ref sig .tc) (h : r ∉ ops11_W) :
    after (ops11 (F := F)) V (Proc.devRef .tc r) = V (Proc.devRef .tc r) :=
  after_of_writes_sub ops11 V ops11_writes h

/-! From any contents V: each reference the stretch writes ends at its stage, given that the references the stage
    reads from before the stretch stand at theirs. -/

theorem c11_main_v291 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v289 : V (Proc.devRef .tc main_v289) = val_main_v289 (F := F) x0 x1 x2 x3 x4 x5 x6 x7 x14 x15)
    (h_main_v290 : V (Proc.devRef .tc main_v290) = val_main_v290 (F := F) x15) :
    after (ops11 (F := F)) V (Proc.devRef .tc main_v291) = val_main_v291 (F := F) x0 x1 x2 x3 x4 x5 x6 x7 x14 x15 := by
  after_results_simp
  simp only [h_main_v289, h_main_v290]
  rfl

theorem c11_main_v292 (V : Valuation τ sig (Elt F)) (x5 : (⟨S4x128, .f32⟩ : BufTy).Contents (Elt F))
    (h_main_v265 : V (Proc.devRef .tc main_v265) = val_main_v265 (F := F) x5) :
    after (ops11 (F := F)) V (Proc.devRef .tc main_v292) = val_main_v292 (F := F) x5 := by
  after_results_simp
  simp only [h_main_v265]
  rfl

theorem c11_main_v293 (V : Valuation τ sig (Elt F)) (x5 : (⟨S4x128, .f32⟩ : BufTy).Contents (Elt F))
    (h_main_v265 : V (Proc.devRef .tc main_v265) = val_main_v265 (F := F) x5) :
    after (ops11 (F := F)) V (Proc.devRef .tc main_v293) = val_main_v293 (F := F) x5 := by
  after_results_simp
  simp only [h_main_v265]
  rfl

theorem c11_main_v294 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v265 : V (Proc.devRef .tc main_v265) = val_main_v265 (F := F) x5)
    (h_main_v285 : V (Proc.devRef .tc main_v285) = val_main_v285 (F := F) x0 x1 x2 x3 x4 x5 x6 x7 x14 x15) :
    after (ops11 (F := F)) V (Proc.devRef .tc main_v294) = val_main_v294 (F := F) x0 x1 x2 x3 x4 x5 x6 x7 x14 x15 := by
  after_results_simp
  simp only [h_main_v265, h_main_v285]
  rfl

theorem c11_main_c_38 (V : Valuation τ sig (Elt F)) :
    after (ops11 (F := F)) V (Proc.devRef .tc main_c_38) = val_main_c_38 (F := F) := by
  after_results_simp
  rfl

theorem c11_main_v295 (V : Valuation τ sig (Elt F)) :
    after (ops11 (F := F)) V (Proc.devRef .tc main_v295) = val_main_v295 (F := F) := by
  after_results_simp
  rfl

theorem c11_main_v296 (V : Valuation τ sig (Elt F)) (x15 : (⟨S50000, .i32⟩ : BufTy).Contents (Elt F))
    (h_main_arg15 : V (Proc.devRef .tc main_arg15) = x15) :
    after (ops11 (F := F)) V (Proc.devRef .tc main_v296) = val_main_v296 (F := F) x15 := by
  after_results_simp
  simp only [h_main_arg15]
  rfl

theorem c11_main_c_39 (V : Valuation τ sig (Elt F)) :
    after (ops11 (F := F)) V (Proc.devRef .tc main_c_39) = val_main_c_39 (F := F) := by
  after_results_simp
  rfl

theorem c11_main_v297 (V : Valuation τ sig (Elt F)) :
    after (ops11 (F := F)) V (Proc.devRef .tc main_v297) = val_main_v297 (F := F) := by
  after_results_simp
  rfl

theorem c11_main_v298 (V : Valuation τ sig (Elt F)) (x15 : (⟨S50000, .i32⟩ : BufTy).Contents (Elt F))
    (h_main_arg15 : V (Proc.devRef .tc main_arg15) = x15) :
    after (ops11 (F := F)) V (Proc.devRef .tc main_v298) = val_main_v298 (F := F) x15 := by
  after_results_simp
  simp only [h_main_arg15]
  rfl

theorem c11_main_v299 (V : Valuation τ sig (Elt F)) (x15 : (⟨S50000, .i32⟩ : BufTy).Contents (Elt F))
    (h_main_arg15 : V (Proc.devRef .tc main_arg15) = x15) :
    after (ops11 (F := F)) V (Proc.devRef .tc main_v299) = val_main_v299 (F := F) x15 := by
  after_results_simp
  simp only [h_main_arg15]
  rfl

theorem c11_main_v300 (V : Valuation τ sig (Elt F)) (x15 : (⟨S50000, .i32⟩ : BufTy).Contents (Elt F))
    (h_main_arg15 : V (Proc.devRef .tc main_arg15) = x15) :
    after (ops11 (F := F)) V (Proc.devRef .tc main_v300) = val_main_v300 (F := F) x15 := by
  after_results_simp
  simp only [h_main_arg15]
  rfl

theorem c11_main_v301 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v289 : V (Proc.devRef .tc main_v289) = val_main_v289 (F := F) x0 x1 x2 x3 x4 x5 x6 x7 x14 x15)
    (h_main_v290 : V (Proc.devRef .tc main_v290) = val_main_v290 (F := F) x15)
    (h_main_arg15 : V (Proc.devRef .tc main_arg15) = x15) :
    after (ops11 (F := F)) V (Proc.devRef .tc main_v301) = val_main_v301 (F := F) x0 x1 x2 x3 x4 x5 x6 x7 x14 x15 := by
  after_results_simp
  simp only [h_main_v289, h_main_v290, h_main_arg15]
  rfl

theorem c11_main_cst_40 (V : Valuation τ sig (Elt F)) :
    after (ops11 (F := F)) V (Proc.devRef .tc main_cst_40) = val_main_cst_40 (F := F) := by
  after_results_simp
  rfl

theorem c11_main_v302 (V : Valuation τ sig (Elt F)) :
    after (ops11 (F := F)) V (Proc.devRef .tc main_v302) = val_main_v302 (F := F) := by
  after_results_simp
  rfl

theorem c11_main_v303 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v289 : V (Proc.devRef .tc main_v289) = val_main_v289 (F := F) x0 x1 x2 x3 x4 x5 x6 x7 x14 x15)
    (h_main_v290 : V (Proc.devRef .tc main_v290) = val_main_v290 (F := F) x15)
    (h_main_arg15 : V (Proc.devRef .tc main_arg15) = x15) :
    after (ops11 (F := F)) V (Proc.devRef .tc main_v303) = val_main_v303 (F := F) x0 x1 x2 x3 x4 x5 x6 x7 x14 x15 := by
  after_results_simp
  simp only [h_main_v289, h_main_v290, h_main_arg15]
  rfl

theorem c11_main_v304 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v289 : V (Proc.devRef .tc main_v289) = val_main_v289 (F := F) x0 x1 x2 x3 x4 x5 x6 x7 x14 x15)
    (h_main_v290 : V (Proc.devRef .tc main_v290) = val_main_v290 (F := F) x15)
    (h_main_arg15 : V (Proc.devRef .tc main_arg15) = x15) :
    after (ops11 (F := F)) V (Proc.devRef .tc main_v304) = val_main_v304 (F := F) x0 x1 x2 x3 x4 x5 x6 x7 x14 x15 := by
  after_results_simp
  simp only [h_main_v289, h_main_v290, h_main_arg15]
  rfl

theorem c11_main_v305 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v265 : V (Proc.devRef .tc main_v265) = val_main_v265 (F := F) x5)
    (h_main_v285 : V (Proc.devRef .tc main_v285) = val_main_v285 (F := F) x0 x1 x2 x3 x4 x5 x6 x7 x14 x15)
    (h_main_v289 : V (Proc.devRef .tc main_v289) = val_main_v289 (F := F) x0 x1 x2 x3 x4 x5 x6 x7 x14 x15)
    (h_main_v290 : V (Proc.devRef .tc main_v290) = val_main_v290 (F := F) x15)
    (h_main_arg15 : V (Proc.devRef .tc main_arg15) = x15) :
    after (ops11 (F := F)) V (Proc.devRef .tc main_v305) = val_main_v305 (F := F) x0 x1 x2 x3 x4 x5 x6 x7 x14 x15 := by
  after_results_simp
  simp only [h_main_v265, h_main_v285, h_main_v289, h_main_v290, h_main_arg15]
  rfl

theorem c11_main_v306 (V : Valuation τ sig (Elt F)) (x6 : (⟨S4x128, .f32⟩ : BufTy).Contents (Elt F))
    (h_main_v267 : V (Proc.devRef .tc main_v267) = val_main_v267 (F := F) x6) :
    after (ops11 (F := F)) V (Proc.devRef .tc main_v306) = val_main_v306 (F := F) x6 := by
  after_results_simp
  simp only [h_main_v267]
  rfl

theorem c11_main_v307 (V : Valuation τ sig (Elt F)) (x6 : (⟨S4x128, .f32⟩ : BufTy).Contents (Elt F))
    (h_main_v267 : V (Proc.devRef .tc main_v267) = val_main_v267 (F := F) x6) :
    after (ops11 (F := F)) V (Proc.devRef .tc main_v307) = val_main_v307 (F := F) x6 := by
  after_results_simp
  simp only [h_main_v267]
  rfl

theorem c11_main_v308 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v265 : V (Proc.devRef .tc main_v265) = val_main_v265 (F := F) x5)
    (h_main_v285 : V (Proc.devRef .tc main_v285) = val_main_v285 (F := F) x0 x1 x2 x3 x4 x5 x6 x7 x14 x15)
    (h_main_v289 : V (Proc.devRef .tc main_v289) = val_main_v289 (F := F) x0 x1 x2 x3 x4 x5 x6 x7 x14 x15)
    (h_main_v290 : V (Proc.devRef .tc main_v290) = val_main_v290 (F := F) x15)
    (h_main_arg15 : V (Proc.devRef .tc main_arg15) = x15)
    (h_main_v267 : V (Proc.devRef .tc main_v267) = val_main_v267 (F := F) x6) :
    after (ops11 (F := F)) V (Proc.devRef .tc main_v308) = val_main_v308 (F := F) x0 x1 x2 x3 x4 x5 x6 x7 x14 x15 := by
  after_results_simp
  simp only [h_main_v265, h_main_v285, h_main_v289, h_main_v290, h_main_arg15, h_main_v267]
  rfl

theorem c11_main_call11_cst (V : Valuation τ sig (Elt F)) :
    after (ops11 (F := F)) V (Proc.devRef .tc main_call11_cst) = val_main_call11_cst (F := F) := by
  after_results_simp
  rfl

theorem c11_main_call11_v0 (V : Valuation τ sig (Elt F)) :
    after (ops11 (F := F)) V (Proc.devRef .tc main_call11_v0) = val_main_call11_v0 (F := F) := by
  after_results_simp
  rfl

theorem c11_main_v309 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_v265 : V (Proc.devRef .tc main_v265) = val_main_v265 (F := F) x5)
    (h_main_v285 : V (Proc.devRef .tc main_v285) = val_main_v285 (F := F) x0 x1 x2 x3 x4 x5 x6 x7 x14 x15)
    (h_main_v289 : V (Proc.devRef .tc main_v289) = val_main_v289 (F := F) x0 x1 x2 x3 x4 x5 x6 x7 x14 x15)
    (h_main_v290 : V (Proc.devRef .tc main_v290) = val_main_v290 (F := F) x15)
    (h_main_arg15 : V (Proc.devRef .tc main_arg15) = x15)
    (h_main_v267 : V (Proc.devRef .tc main_v267) = val_main_v267 (F := F) x6) :
    after (ops11 (F := F)) V (Proc.devRef .tc main_v309) = val_main_v309 (F := F) x0 x1 x2 x3 x4 x5 x6 x7 x14 x15 := by
  after_results_simp
  simp only [h_main_v265, h_main_v285, h_main_v289, h_main_v290, h_main_arg15, h_main_v267]
  rfl

theorem c11_main_cst_41 (V : Valuation τ sig (Elt F)) :
    after (ops11 (F := F)) V (Proc.devRef .tc main_cst_41) = val_main_cst_41 (F := F) := by
  after_results_simp
  rfl

theorem c11_main_v310 (V : Valuation τ sig (Elt F)) :
    after (ops11 (F := F)) V (Proc.devRef .tc main_v310) = val_main_v310 (F := F) := by
  after_results_simp
  rfl

theorem c11_main_v311 (V : Valuation τ sig (Elt F)) (x15 : (⟨S50000, .i32⟩ : BufTy).Contents (Elt F))
    (h_main_arg15 : V (Proc.devRef .tc main_arg15) = x15) :
    after (ops11 (F := F)) V (Proc.devRef .tc main_v311) = val_main_v311 (F := F) x15 := by
  after_results_simp
  simp only [h_main_arg15]
  rfl

theorem c11_main_v312 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x14 : (⟨S2x800000, .i32⟩ : BufTy).Contents (Elt F)) (x15 : (⟨S50000, .i32⟩ : BufTy).Contents (Elt F))
    (h_main_arg15 : V (Proc.devRef .tc main_arg15) = x15)
    (h_main_v265 : V (Proc.devRef .tc main_v265) = val_main_v265 (F := F) x5)
    (h_main_v285 : V (Proc.devRef .tc main_v285) = val_main_v285 (F := F) x0 x1 x2 x3 x4 x5 x6 x7 x14 x15)
    (h_main_v289 : V (Proc.devRef .tc main_v289) = val_main_v289 (F := F) x0 x1 x2 x3 x4 x5 x6 x7 x14 x15)
    (h_main_v290 : V (Proc.devRef .tc main_v290) = val_main_v290 (F := F) x15)
    (h_main_v267 : V (Proc.devRef .tc main_v267) = val_main_v267 (F := F) x6) :
    after (ops11 (F := F)) V (Proc.devRef .tc main_v312) = val_main_v312 (F := F) x0 x1 x2 x3 x4 x5 x6 x7 x14 x15 := by
  after_results_simp
  simp only [h_main_arg15, h_main_v265, h_main_v285, h_main_v289, h_main_v290, h_main_v267]
  rfl

theorem c11_main_v313 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x8 : (⟨S128x128, .f32⟩ : BufTy).Contents (Elt F)) (x14 : (⟨S2x800000, .i32⟩ : BufTy).Contents (Elt F)) (x15 : (⟨S50000, .i32⟩ : BufTy).Contents (Elt F))
    (h_main_arg15 : V (Proc.devRef .tc main_arg15) = x15)
    (h_main_v265 : V (Proc.devRef .tc main_v265) = val_main_v265 (F := F) x5)
    (h_main_v285 : V (Proc.devRef .tc main_v285) = val_main_v285 (F := F) x0 x1 x2 x3 x4 x5 x6 x7 x14 x15)
    (h_main_v289 : V (Proc.devRef .tc main_v289) = val_main_v289 (F := F) x0 x1 x2 x3 x4 x5 x6 x7 x14 x15)
    (h_main_v290 : V (Proc.devRef .tc main_v290) = val_main_v290 (F := F) x15)
    (h_main_v267 : V (Proc.devRef .tc main_v267) = val_main_v267 (F := F) x6)
    (h_main_arg8 : V (Proc.devRef .tc main_arg8) = x8) :
    after (ops11 (F := F)) V (Proc.devRef .tc main_v313) = val_main_v313 (F := F) x0 x1 x2 x3 x4 x5 x6 x7 x8 x14 x15 := by
  after_results_simp
  simp only [h_main_arg15, h_main_v265, h_main_v285, h_main_v289, h_main_v290, h_main_v267, h_main_arg8]
  rfl

theorem c11_main_v314 (V : Valuation τ sig (Elt F)) (x9 : (⟨S128, .f32⟩ : BufTy).Contents (Elt F))
    (h_main_arg9 : V (Proc.devRef .tc main_arg9) = x9) :
    after (ops11 (F := F)) V (Proc.devRef .tc main_v314) = val_main_v314 (F := F) x9 := by
  after_results_simp
  simp only [h_main_arg9]
  rfl

theorem c11_main_v315 (V : Valuation τ sig (Elt F)) (x9 : (⟨S128, .f32⟩ : BufTy).Contents (Elt F))
    (h_main_arg9 : V (Proc.devRef .tc main_arg9) = x9) :
    after (ops11 (F := F)) V (Proc.devRef .tc main_v315) = val_main_v315 (F := F) x9 := by
  after_results_simp
  simp only [h_main_arg9]
  rfl

end Cert.ReferenceIdeal.RunH

end
-- ==== Proof.RefRunC12.lean ====
import proofs.«408428_j10917806867267_1_alg».proof.Proof.RefRead

set_option maxHeartbeats 1000000

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 384 … 413 of the reference's @main, in order. -/
abbrev ops12 : List (HloOp τ sig (Elt F)) :=
  [ binary main_v313 main_v315 main_v316 (addf : (⟨S128x128, .f32⟩ : BufTy).Contents (Elt F) → (⟨S128x128, .f32⟩ : BufTy).Contents (Elt F) → (⟨S128x128, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S128x128, .f32⟩) main_call12_v0) (broadcastInDim S128x128 ![] bcast_S_S128x128),
    TRef.binary (TRef.of (T := ⟨S128x128, .f32⟩) main_v316) (TRef.of (T := ⟨S128x128, .f32⟩) main_call12_v0) (TRef.of (T := ⟨S128x128, .f32⟩) main_v317) maximumf,
    binary main_v317 main_arg10 main_v318 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    unary main_arg11 main_v319 (broadcastInDim S1x128 ![1] bcast_S128_S1x128_1 : (⟨S128, .f32⟩ : BufTy).Contents (Elt F) → (⟨S1x128, .f32⟩ : BufTy).Contents (Elt F)),
    unary main_v319 main_v320 (broadcastInDim S128x128 ![0, 1] bcast_S1x128_S128x128_0_1 : (⟨S1x128, .f32⟩ : BufTy).Contents (Elt F) → (⟨S128x128, .f32⟩ : BufTy).Contents (Elt F)),
    binary main_v318 main_v320 main_v321 (addf : (⟨S128x128, .f32⟩ : BufTy).Contents (Elt F) → (⟨S128x128, .f32⟩ : BufTy).Contents (Elt F) → (⟨S128x128, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S128x128, .f32⟩) main_call13_v0) (broadcastInDim S128x128 ![] bcast_S_S128x128),
    TRef.binary (TRef.of (T := ⟨S128x128, .f32⟩) main_v321) (TRef.of (T := ⟨S128x128, .f32⟩) main_call13_v0) (TRef.of (T := ⟨S128x128, .f32⟩) main_v322) maximumf,
    binary main_v322 main_arg12 main_v323 ((fun l r => Host.dotGeneral dot_S128x128_S128x10_S128x10_1_0_0_1_n_n none l r) : (⟨S128x128, .f32⟩ : BufTy).Contents (Elt F) → (⟨S128x10, .f32⟩ : BufTy).Contents (Elt F) → (⟨S128x10, .f32⟩ : BufTy).Contents (Elt F)),
    unary main_arg13 main_v324 (broadcastInDim S1x10 ![1] bcast_S10_S1x10_1 : (⟨S10, .f32⟩ : BufTy).Contents (Elt F) → (⟨S1x10, .f32⟩ : BufTy).Contents (Elt F)),
    unary main_v324 main_v325 (broadcastInDim S128x10 ![0, 1] bcast_S1x10_S128x10_0_1 : (⟨S1x10, .f32⟩ : BufTy).Contents (Elt F) → (⟨S128x10, .f32⟩ : BufTy).Contents (Elt F)),
    binary main_v323 main_v325 main_v326 (addf : (⟨S128x10, .f32⟩ : BufTy).Contents (Elt F) → (⟨S128x10, .f32⟩ : BufTy).Contents (Elt F) → (⟨S128x10, .f32⟩ : BufTy).Contents (Elt F)),
    TRef.nullary (TRef.of (T := ⟨S_, .f32⟩) main_call14_cst) (constant S_ .f32 0xFF800000#32),
    TRef.binary (TRef.of (T := ⟨S128x10, .f32⟩) main_v326) (TRef.of (T := ⟨S_, .f32⟩) main_call14_cst) (TRef.of (T := ⟨S128, .f32⟩) main_call14_v0) (fun x v => Host.reduce FloatOps.maximumf x v reducesTo_S128x10_S128_d1 h_S_),
    TRef.nullary (TRef.of (T := ⟨S_, .f32⟩) main_call14_cst_0) (constant S_ .f32 0xFF800000#32),
    TRef.unary (TRef.of (T := ⟨S_, .f32⟩) main_call14_cst_0) (TRef.of (T := ⟨S128, .f32⟩) main_call14_v1) (broadcastInDim S128 ![] bcast_S_S128),
    TRef.binary (TRef.of (T := ⟨S128, .f32⟩) main_call14_v1) (TRef.of (T := ⟨S128, .f32⟩) main_call14_v0) (TRef.of (T := ⟨S128, .f32⟩) main_call14_v2) maximumf,
    TRef.unary (TRef.of (T := ⟨S128, .f32⟩) main_call14_v2) (TRef.of (T := ⟨S128x1, .f32⟩) main_call14_v3) (broadcastInDim S128x1 ![0] bcast_S128_S128x1_0),
    TRef.unary (TRef.of (T := ⟨S128x1, .f32⟩) main_call14_v3) (TRef.of (T := ⟨S128x10, .f32⟩) main_call14_v4) (broadcastInDim S128x10 ![0, 1] bcast_S128x1_S128x10_0_1),
    TRef.binary (TRef.of (T := ⟨S128x10, .f32⟩) main_v326) (TRef.of (T := ⟨S128x10, .f32⟩) main_call14_v4) (TRef.of (T := ⟨S128x10, .f32⟩) main_call14_v5) subf,
    TRef.unary (TRef.of (T := ⟨S128x10, .f32⟩) main_call14_v5) (TRef.of (T := ⟨S128x10, .f32⟩) main_call14_v6) Host.exp,
    TRef.nullary (TRef.of (T := ⟨S_, .f32⟩) main_call14_cst_1) (constant S_ .f32 0x00000000#32),
    TRef.binary (TRef.of (T := ⟨S128x10, .f32⟩) main_call14_v6) (TRef.of (T := ⟨S_, .f32⟩) main_call14_cst_1) (TRef.of (T := ⟨S128, .f32⟩) main_call14_v7) (fun x v => Host.reduceAdd x v reducesTo_S128x10_S128_d1 h_S_),
    TRef.unary (TRef.of (T := ⟨S128, .f32⟩) main_call14_v7) (TRef.of (T := ⟨S128x1, .f32⟩) main_call14_v8) (broadcastInDim S128x1 ![0] bcast_S128_S128x1_0),
    TRef.unary (TRef.of (T := ⟨S128x1, .f32⟩) main_call14_v8) (TRef.of (T := ⟨S128x1, .f32⟩) main_call14_v9) Host.log,
    TRef.unary (TRef.of (T := ⟨S128x1, .f32⟩) main_call14_v9) (TRef.of (T := ⟨S128x10, .f32⟩) main_call14_v10) (broadcastInDim S128x10 ![0, 1] bcast_S128x1_S128x10_0_1),
    TRef.binary (TRef.of (T := ⟨S128x10, .f32⟩) main_call14_v5) (TRef.of (T := ⟨S128x10, .f32⟩) main_call14_v10) (TRef.of (T := ⟨S128x10, .f32⟩) main_v327) subf ]

set_option maxRecDepth 8192 in
theorem ops12_sub : (ops12 : List (HloOp τ sig (Elt F))).Forall fun op => op.bufs ⊆ tcRefs τ sig :=
  ⟨binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem ops12_fresh : (ops12 : List (HloOp τ sig (Elt F))).Forall fun op => op.fresh = ∅ := by
  simp only [List.Forall]; repeat' constructor

/-- The references these operations write. -/
abbrev ops12_W : List (Ref sig .tc) := [main_v316, main_call12_cst, main_call12_v0, main_v317, main_v318, main_v319, main_v320, main_v321, main_call13_cst, main_call13_v0, main_v322, main_v323, main_v324, main_v325, main_v326, main_call14_cst, main_call14_v0, main_call14_cst_0, main_call14_v1, main_call14_v2, main_call14_v3, main_call14_v4, main_call14_v5, main_call14_v6, main_call14_cst_1, main_call14_v7, main_call14_v8, main_call14_v9, main_call14_v10, main_v327]

theorem ops12_writes : (ops12 : List (HloOp τ sig (Elt F))).Forall fun op => op.writes ⊆ (ops12_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A reference these operations do not write keeps its contents. -/
theorem c12_keeps (V : Valuation τ sig (Elt F)) (r : Ref sig .tc) (h : r ∉ ops12_W) :
    after (ops12 (F := F)) V (Proc.devRef .tc r) = V (Proc.devRef .tc r) :=
  after_of_writes_sub ops12 V ops12_writes h

/-! From any contents V: each reference the stretch writes ends at its stage, given that the references the stage
    reads from before the stretch stand at theirs. -/

theorem c12_main_v316 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x8 : (⟨S128x128, .f32⟩ : BufTy).Contents (Elt F)) (x9 : (⟨S128, .f32⟩ : BufTy).Contents (Elt F)) (x14 : (⟨S2x800000, .i32⟩ : BufTy).Contents (Elt F)) (x15 : (⟨S50000, .i32⟩ : BufTy).Contents (Elt F))
    (h_main_v313 : V (Proc.devRef .tc main_v313) = val_main_v313 (F := F) x0 x1 x2 x3 x4 x5 x6 x7 x8 x14 x15)
    (h_main_v315 : V (Proc.devRef .tc main_v315) = val_main_v315 (F := F) x9) :
    after (ops12 (F := F)) V (Proc.devRef .tc main_v316) = val_main_v316 (F := F) x0 x1 x2 x3 x4 x5 x6 x7 x8 x9 x14 x15 := by
  after_results_simp
  simp only [h_main_v313, h_main_v315]
  rfl

theorem c12_main_call12_cst (V : Valuation τ sig (Elt F)) :
    after (ops12 (F := F)) V (Proc.devRef .tc main_call12_cst) = val_main_call12_cst (F := F) := by
  after_results_simp
  rfl

theorem c12_main_call12_v0 (V : Valuation τ sig (Elt F)) :
    after (ops12 (F := F)) V (Proc.devRef .tc main_call12_v0) = val_main_call12_v0 (F := F) := by
  after_results_simp
  rfl

theorem c12_main_v317 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x8 : (⟨S128x128, .f32⟩ : BufTy).Contents (Elt F)) (x9 : (⟨S128, .f32⟩ : BufTy).Contents (Elt F)) (x14 : (⟨S2x800000, .i32⟩ : BufTy).Contents (Elt F)) (x15 : (⟨S50000, .i32⟩ : BufTy).Contents (Elt F))
    (h_main_v313 : V (Proc.devRef .tc main_v313) = val_main_v313 (F := F) x0 x1 x2 x3 x4 x5 x6 x7 x8 x14 x15)
    (h_main_v315 : V (Proc.devRef .tc main_v315) = val_main_v315 (F := F) x9) :
    after (ops12 (F := F)) V (Proc.devRef .tc main_v317) = val_main_v317 (F := F) x0 x1 x2 x3 x4 x5 x6 x7 x8 x9 x14 x15 := by
  after_results_simp
  simp only [h_main_v313, h_main_v315]
  rfl

theorem c12_main_v318 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x14 : (⟨S2x800000, .i32⟩ : BufTy).Contents (Elt F)) (x15 : (⟨S50000, .i32⟩ : BufTy).Contents (Elt F))
    (h_main_v313 : V (Proc.devRef .tc main_v313) = val_main_v313 (F := F) x0 x1 x2 x3 x4 x5 x6 x7 x8 x14 x15)
    (h_main_v315 : V (Proc.devRef .tc main_v315) = val_main_v315 (F := F) x9)
    (h_main_arg10 : V (Proc.devRef .tc main_arg10) = x10) :
    after (ops12 (F := F)) V (Proc.devRef .tc main_v318) = val_main_v318 (F := F) x0 x1 x2 x3 x4 x5 x6 x7 x8 x9 x10 x14 x15 := by
  after_results_simp
  simp only [h_main_v313, h_main_v315, h_main_arg10]
  rfl

theorem c12_main_v319 (V : Valuation τ sig (Elt F)) (x11 : (⟨S128, .f32⟩ : BufTy).Contents (Elt F))
    (h_main_arg11 : V (Proc.devRef .tc main_arg11) = x11) :
    after (ops12 (F := F)) V (Proc.devRef .tc main_v319) = val_main_v319 (F := F) x11 := by
  after_results_simp
  simp only [h_main_arg11]
  rfl

theorem c12_main_v320 (V : Valuation τ sig (Elt F)) (x11 : (⟨S128, .f32⟩ : BufTy).Contents (Elt F))
    (h_main_arg11 : V (Proc.devRef .tc main_arg11) = x11) :
    after (ops12 (F := F)) V (Proc.devRef .tc main_v320) = val_main_v320 (F := F) x11 := by
  after_results_simp
  simp only [h_main_arg11]
  rfl

theorem c12_main_v321 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x14 : (⟨S2x800000, .i32⟩ : BufTy).Contents (Elt F)) (x15 : (⟨S50000, .i32⟩ : BufTy).Contents (Elt F))
    (h_main_v313 : V (Proc.devRef .tc main_v313) = val_main_v313 (F := F) x0 x1 x2 x3 x4 x5 x6 x7 x8 x14 x15)
    (h_main_v315 : V (Proc.devRef .tc main_v315) = val_main_v315 (F := F) x9)
    (h_main_arg10 : V (Proc.devRef .tc main_arg10) = x10)
    (h_main_arg11 : V (Proc.devRef .tc main_arg11) = x11) :
    after (ops12 (F := F)) V (Proc.devRef .tc main_v321) = val_main_v321 (F := F) x0 x1 x2 x3 x4 x5 x6 x7 x8 x9 x10 x11 x14 x15 := by
  after_results_simp
  simp only [h_main_v313, h_main_v315, h_main_arg10, h_main_arg11]
  rfl

theorem c12_main_call13_cst (V : Valuation τ sig (Elt F)) :
    after (ops12 (F := F)) V (Proc.devRef .tc main_call13_cst) = val_main_call13_cst (F := F) := by
  after_results_simp
  rfl

theorem c12_main_call13_v0 (V : Valuation τ sig (Elt F)) :
    after (ops12 (F := F)) V (Proc.devRef .tc main_call13_v0) = val_main_call13_v0 (F := F) := by
  after_results_simp
  rfl

theorem c12_main_v322 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x14 : (⟨S2x800000, .i32⟩ : BufTy).Contents (Elt F)) (x15 : (⟨S50000, .i32⟩ : BufTy).Contents (Elt F))
    (h_main_v313 : V (Proc.devRef .tc main_v313) = val_main_v313 (F := F) x0 x1 x2 x3 x4 x5 x6 x7 x8 x14 x15)
    (h_main_v315 : V (Proc.devRef .tc main_v315) = val_main_v315 (F := F) x9)
    (h_main_arg10 : V (Proc.devRef .tc main_arg10) = x10)
    (h_main_arg11 : V (Proc.devRef .tc main_arg11) = x11) :
    after (ops12 (F := F)) V (Proc.devRef .tc main_v322) = val_main_v322 (F := F) x0 x1 x2 x3 x4 x5 x6 x7 x8 x9 x10 x11 x14 x15 := by
  after_results_simp
  simp only [h_main_v313, h_main_v315, h_main_arg10, h_main_arg11]
  rfl

theorem c12_main_v323 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x10, .f32⟩ : BufTy).Contents (Elt F)) (x14 : (⟨S2x800000, .i32⟩ : BufTy).Contents (Elt F)) (x15 : (⟨S50000, .i32⟩ : BufTy).Contents (Elt F))
    (h_main_v313 : V (Proc.devRef .tc main_v313) = val_main_v313 (F := F) x0 x1 x2 x3 x4 x5 x6 x7 x8 x14 x15)
    (h_main_v315 : V (Proc.devRef .tc main_v315) = val_main_v315 (F := F) x9)
    (h_main_arg10 : V (Proc.devRef .tc main_arg10) = x10)
    (h_main_arg11 : V (Proc.devRef .tc main_arg11) = x11)
    (h_main_arg12 : V (Proc.devRef .tc main_arg12) = x12) :
    after (ops12 (F := F)) V (Proc.devRef .tc main_v323) = val_main_v323 (F := F) x0 x1 x2 x3 x4 x5 x6 x7 x8 x9 x10 x11 x12 x14 x15 := by
  after_results_simp
  simp only [h_main_v313, h_main_v315, h_main_arg10, h_main_arg11, h_main_arg12]
  rfl

theorem c12_main_v324 (V : Valuation τ sig (Elt F)) (x13 : (⟨S10, .f32⟩ : BufTy).Contents (Elt F))
    (h_main_arg13 : V (Proc.devRef .tc main_arg13) = x13) :
    after (ops12 (F := F)) V (Proc.devRef .tc main_v324) = val_main_v324 (F := F) x13 := by
  after_results_simp
  simp only [h_main_arg13]
  rfl

theorem c12_main_v325 (V : Valuation τ sig (Elt F)) (x13 : (⟨S10, .f32⟩ : BufTy).Contents (Elt F))
    (h_main_arg13 : V (Proc.devRef .tc main_arg13) = x13) :
    after (ops12 (F := F)) V (Proc.devRef .tc main_v325) = val_main_v325 (F := F) x13 := by
  after_results_simp
  simp only [h_main_arg13]
  rfl

theorem c12_main_v326 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x10, .f32⟩ : BufTy).Contents (Elt F)) (x13 : (⟨S10, .f32⟩ : BufTy).Contents (Elt F)) (x14 : (⟨S2x800000, .i32⟩ : BufTy).Contents (Elt F)) (x15 : (⟨S50000, .i32⟩ : BufTy).Contents (Elt F))
    (h_main_v313 : V (Proc.devRef .tc main_v313) = val_main_v313 (F := F) x0 x1 x2 x3 x4 x5 x6 x7 x8 x14 x15)
    (h_main_v315 : V (Proc.devRef .tc main_v315) = val_main_v315 (F := F) x9)
    (h_main_arg10 : V (Proc.devRef .tc main_arg10) = x10)
    (h_main_arg11 : V (Proc.devRef .tc main_arg11) = x11)
    (h_main_arg12 : V (Proc.devRef .tc main_arg12) = x12)
    (h_main_arg13 : V (Proc.devRef .tc main_arg13) = x13) :
    after (ops12 (F := F)) V (Proc.devRef .tc main_v326) = val_main_v326 (F := F) x0 x1 x2 x3 x4 x5 x6 x7 x8 x9 x10 x11 x12 x13 x14 x15 := by
  after_results_simp
  simp only [h_main_v313, h_main_v315, h_main_arg10, h_main_arg11, h_main_arg12, h_main_arg13]
  rfl

theorem c12_main_call14_cst (V : Valuation τ sig (Elt F)) :
    after (ops12 (F := F)) V (Proc.devRef .tc main_call14_cst) = val_main_call14_cst (F := F) := by
  after_results_simp
  rfl

theorem c12_main_call14_v0 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x10, .f32⟩ : BufTy).Contents (Elt F)) (x13 : (⟨S10, .f32⟩ : BufTy).Contents (Elt F)) (x14 : (⟨S2x800000, .i32⟩ : BufTy).Contents (Elt F)) (x15 : (⟨S50000, .i32⟩ : BufTy).Contents (Elt F))
    (h_main_v313 : V (Proc.devRef .tc main_v313) = val_main_v313 (F := F) x0 x1 x2 x3 x4 x5 x6 x7 x8 x14 x15)
    (h_main_v315 : V (Proc.devRef .tc main_v315) = val_main_v315 (F := F) x9)
    (h_main_arg10 : V (Proc.devRef .tc main_arg10) = x10)
    (h_main_arg11 : V (Proc.devRef .tc main_arg11) = x11)
    (h_main_arg12 : V (Proc.devRef .tc main_arg12) = x12)
    (h_main_arg13 : V (Proc.devRef .tc main_arg13) = x13) :
    after (ops12 (F := F)) V (Proc.devRef .tc main_call14_v0) = val_main_call14_v0 (F := F) x0 x1 x2 x3 x4 x5 x6 x7 x8 x9 x10 x11 x12 x13 x14 x15 := by
  after_results_simp
  simp only [h_main_v313, h_main_v315, h_main_arg10, h_main_arg11, h_main_arg12, h_main_arg13]
  rfl

theorem c12_main_call14_cst_0 (V : Valuation τ sig (Elt F)) :
    after (ops12 (F := F)) V (Proc.devRef .tc main_call14_cst_0) = val_main_call14_cst_0 (F := F) := by
  after_results_simp
  rfl

theorem c12_main_call14_v1 (V : Valuation τ sig (Elt F)) :
    after (ops12 (F := F)) V (Proc.devRef .tc main_call14_v1) = val_main_call14_v1 (F := F) := by
  after_results_simp
  rfl

theorem c12_main_call14_v2 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x10, .f32⟩ : BufTy).Contents (Elt F)) (x13 : (⟨S10, .f32⟩ : BufTy).Contents (Elt F)) (x14 : (⟨S2x800000, .i32⟩ : BufTy).Contents (Elt F)) (x15 : (⟨S50000, .i32⟩ : BufTy).Contents (Elt F))
    (h_main_v313 : V (Proc.devRef .tc main_v313) = val_main_v313 (F := F) x0 x1 x2 x3 x4 x5 x6 x7 x8 x14 x15)
    (h_main_v315 : V (Proc.devRef .tc main_v315) = val_main_v315 (F := F) x9)
    (h_main_arg10 : V (Proc.devRef .tc main_arg10) = x10)
    (h_main_arg11 : V (Proc.devRef .tc main_arg11) = x11)
    (h_main_arg12 : V (Proc.devRef .tc main_arg12) = x12)
    (h_main_arg13 : V (Proc.devRef .tc main_arg13) = x13) :
    after (ops12 (F := F)) V (Proc.devRef .tc main_call14_v2) = val_main_call14_v2 (F := F) x0 x1 x2 x3 x4 x5 x6 x7 x8 x9 x10 x11 x12 x13 x14 x15 := by
  after_results_simp
  simp only [h_main_v313, h_main_v315, h_main_arg10, h_main_arg11, h_main_arg12, h_main_arg13]
  rfl

theorem c12_main_call14_v3 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x10, .f32⟩ : BufTy).Contents (Elt F)) (x13 : (⟨S10, .f32⟩ : BufTy).Contents (Elt F)) (x14 : (⟨S2x800000, .i32⟩ : BufTy).Contents (Elt F)) (x15 : (⟨S50000, .i32⟩ : BufTy).Contents (Elt F))
    (h_main_v313 : V (Proc.devRef .tc main_v313) = val_main_v313 (F := F) x0 x1 x2 x3 x4 x5 x6 x7 x8 x14 x15)
    (h_main_v315 : V (Proc.devRef .tc main_v315) = val_main_v315 (F := F) x9)
    (h_main_arg10 : V (Proc.devRef .tc main_arg10) = x10)
    (h_main_arg11 : V (Proc.devRef .tc main_arg11) = x11)
    (h_main_arg12 : V (Proc.devRef .tc main_arg12) = x12)
    (h_main_arg13 : V (Proc.devRef .tc main_arg13) = x13) :
    after (ops12 (F := F)) V (Proc.devRef .tc main_call14_v3) = val_main_call14_v3 (F := F) x0 x1 x2 x3 x4 x5 x6 x7 x8 x9 x10 x11 x12 x13 x14 x15 := by
  after_results_simp
  simp only [h_main_v313, h_main_v315, h_main_arg10, h_main_arg11, h_main_arg12, h_main_arg13]
  rfl

theorem c12_main_call14_v4 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x10, .f32⟩ : BufTy).Contents (Elt F)) (x13 : (⟨S10, .f32⟩ : BufTy).Contents (Elt F)) (x14 : (⟨S2x800000, .i32⟩ : BufTy).Contents (Elt F)) (x15 : (⟨S50000, .i32⟩ : BufTy).Contents (Elt F))
    (h_main_v313 : V (Proc.devRef .tc main_v313) = val_main_v313 (F := F) x0 x1 x2 x3 x4 x5 x6 x7 x8 x14 x15)
    (h_main_v315 : V (Proc.devRef .tc main_v315) = val_main_v315 (F := F) x9)
    (h_main_arg10 : V (Proc.devRef .tc main_arg10) = x10)
    (h_main_arg11 : V (Proc.devRef .tc main_arg11) = x11)
    (h_main_arg12 : V (Proc.devRef .tc main_arg12) = x12)
    (h_main_arg13 : V (Proc.devRef .tc main_arg13) = x13) :
    after (ops12 (F := F)) V (Proc.devRef .tc main_call14_v4) = val_main_call14_v4 (F := F) x0 x1 x2 x3 x4 x5 x6 x7 x8 x9 x10 x11 x12 x13 x14 x15 := by
  after_results_simp
  simp only [h_main_v313, h_main_v315, h_main_arg10, h_main_arg11, h_main_arg12, h_main_arg13]
  rfl

theorem c12_main_call14_v5 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x10, .f32⟩ : BufTy).Contents (Elt F)) (x13 : (⟨S10, .f32⟩ : BufTy).Contents (Elt F)) (x14 : (⟨S2x800000, .i32⟩ : BufTy).Contents (Elt F)) (x15 : (⟨S50000, .i32⟩ : BufTy).Contents (Elt F))
    (h_main_v313 : V (Proc.devRef .tc main_v313) = val_main_v313 (F := F) x0 x1 x2 x3 x4 x5 x6 x7 x8 x14 x15)
    (h_main_v315 : V (Proc.devRef .tc main_v315) = val_main_v315 (F := F) x9)
    (h_main_arg10 : V (Proc.devRef .tc main_arg10) = x10)
    (h_main_arg11 : V (Proc.devRef .tc main_arg11) = x11)
    (h_main_arg12 : V (Proc.devRef .tc main_arg12) = x12)
    (h_main_arg13 : V (Proc.devRef .tc main_arg13) = x13) :
    after (ops12 (F := F)) V (Proc.devRef .tc main_call14_v5) = val_main_call14_v5 (F := F) x0 x1 x2 x3 x4 x5 x6 x7 x8 x9 x10 x11 x12 x13 x14 x15 := by
  after_results_simp
  simp only [h_main_v313, h_main_v315, h_main_arg10, h_main_arg11, h_main_arg12, h_main_arg13]
  rfl

theorem c12_main_call14_v6 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x10, .f32⟩ : BufTy).Contents (Elt F)) (x13 : (⟨S10, .f32⟩ : BufTy).Contents (Elt F)) (x14 : (⟨S2x800000, .i32⟩ : BufTy).Contents (Elt F)) (x15 : (⟨S50000, .i32⟩ : BufTy).Contents (Elt F))
    (h_main_v313 : V (Proc.devRef .tc main_v313) = val_main_v313 (F := F) x0 x1 x2 x3 x4 x5 x6 x7 x8 x14 x15)
    (h_main_v315 : V (Proc.devRef .tc main_v315) = val_main_v315 (F := F) x9)
    (h_main_arg10 : V (Proc.devRef .tc main_arg10) = x10)
    (h_main_arg11 : V (Proc.devRef .tc main_arg11) = x11)
    (h_main_arg12 : V (Proc.devRef .tc main_arg12) = x12)
    (h_main_arg13 : V (Proc.devRef .tc main_arg13) = x13) :
    after (ops12 (F := F)) V (Proc.devRef .tc main_call14_v6) = val_main_call14_v6 (F := F) x0 x1 x2 x3 x4 x5 x6 x7 x8 x9 x10 x11 x12 x13 x14 x15 := by
  after_results_simp
  simp only [h_main_v313, h_main_v315, h_main_arg10, h_main_arg11, h_main_arg12, h_main_arg13]
  rfl

theorem c12_main_call14_cst_1 (V : Valuation τ sig (Elt F)) :
    after (ops12 (F := F)) V (Proc.devRef .tc main_call14_cst_1) = val_main_call14_cst_1 (F := F) := by
  after_results_simp
  rfl

theorem c12_main_call14_v7 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x10, .f32⟩ : BufTy).Contents (Elt F)) (x13 : (⟨S10, .f32⟩ : BufTy).Contents (Elt F)) (x14 : (⟨S2x800000, .i32⟩ : BufTy).Contents (Elt F)) (x15 : (⟨S50000, .i32⟩ : BufTy).Contents (Elt F))
    (h_main_v313 : V (Proc.devRef .tc main_v313) = val_main_v313 (F := F) x0 x1 x2 x3 x4 x5 x6 x7 x8 x14 x15)
    (h_main_v315 : V (Proc.devRef .tc main_v315) = val_main_v315 (F := F) x9)
    (h_main_arg10 : V (Proc.devRef .tc main_arg10) = x10)
    (h_main_arg11 : V (Proc.devRef .tc main_arg11) = x11)
    (h_main_arg12 : V (Proc.devRef .tc main_arg12) = x12)
    (h_main_arg13 : V (Proc.devRef .tc main_arg13) = x13) :
    after (ops12 (F := F)) V (Proc.devRef .tc main_call14_v7) = val_main_call14_v7 (F := F) x0 x1 x2 x3 x4 x5 x6 x7 x8 x9 x10 x11 x12 x13 x14 x15 := by
  after_results_simp
  simp only [h_main_v313, h_main_v315, h_main_arg10, h_main_arg11, h_main_arg12, h_main_arg13]
  rfl

theorem c12_main_call14_v8 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x10, .f32⟩ : BufTy).Contents (Elt F)) (x13 : (⟨S10, .f32⟩ : BufTy).Contents (Elt F)) (x14 : (⟨S2x800000, .i32⟩ : BufTy).Contents (Elt F)) (x15 : (⟨S50000, .i32⟩ : BufTy).Contents (Elt F))
    (h_main_v313 : V (Proc.devRef .tc main_v313) = val_main_v313 (F := F) x0 x1 x2 x3 x4 x5 x6 x7 x8 x14 x15)
    (h_main_v315 : V (Proc.devRef .tc main_v315) = val_main_v315 (F := F) x9)
    (h_main_arg10 : V (Proc.devRef .tc main_arg10) = x10)
    (h_main_arg11 : V (Proc.devRef .tc main_arg11) = x11)
    (h_main_arg12 : V (Proc.devRef .tc main_arg12) = x12)
    (h_main_arg13 : V (Proc.devRef .tc main_arg13) = x13) :
    after (ops12 (F := F)) V (Proc.devRef .tc main_call14_v8) = val_main_call14_v8 (F := F) x0 x1 x2 x3 x4 x5 x6 x7 x8 x9 x10 x11 x12 x13 x14 x15 := by
  after_results_simp
  simp only [h_main_v313, h_main_v315, h_main_arg10, h_main_arg11, h_main_arg12, h_main_arg13]
  rfl

theorem c12_main_call14_v9 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x10, .f32⟩ : BufTy).Contents (Elt F)) (x13 : (⟨S10, .f32⟩ : BufTy).Contents (Elt F)) (x14 : (⟨S2x800000, .i32⟩ : BufTy).Contents (Elt F)) (x15 : (⟨S50000, .i32⟩ : BufTy).Contents (Elt F))
    (h_main_v313 : V (Proc.devRef .tc main_v313) = val_main_v313 (F := F) x0 x1 x2 x3 x4 x5 x6 x7 x8 x14 x15)
    (h_main_v315 : V (Proc.devRef .tc main_v315) = val_main_v315 (F := F) x9)
    (h_main_arg10 : V (Proc.devRef .tc main_arg10) = x10)
    (h_main_arg11 : V (Proc.devRef .tc main_arg11) = x11)
    (h_main_arg12 : V (Proc.devRef .tc main_arg12) = x12)
    (h_main_arg13 : V (Proc.devRef .tc main_arg13) = x13) :
    after (ops12 (F := F)) V (Proc.devRef .tc main_call14_v9) = val_main_call14_v9 (F := F) x0 x1 x2 x3 x4 x5 x6 x7 x8 x9 x10 x11 x12 x13 x14 x15 := by
  after_results_simp
  simp only [h_main_v313, h_main_v315, h_main_arg10, h_main_arg11, h_main_arg12, h_main_arg13]
  rfl

theorem c12_main_call14_v10 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x10, .f32⟩ : BufTy).Contents (Elt F)) (x13 : (⟨S10, .f32⟩ : BufTy).Contents (Elt F)) (x14 : (⟨S2x800000, .i32⟩ : BufTy).Contents (Elt F)) (x15 : (⟨S50000, .i32⟩ : BufTy).Contents (Elt F))
    (h_main_v313 : V (Proc.devRef .tc main_v313) = val_main_v313 (F := F) x0 x1 x2 x3 x4 x5 x6 x7 x8 x14 x15)
    (h_main_v315 : V (Proc.devRef .tc main_v315) = val_main_v315 (F := F) x9)
    (h_main_arg10 : V (Proc.devRef .tc main_arg10) = x10)
    (h_main_arg11 : V (Proc.devRef .tc main_arg11) = x11)
    (h_main_arg12 : V (Proc.devRef .tc main_arg12) = x12)
    (h_main_arg13 : V (Proc.devRef .tc main_arg13) = x13) :
    after (ops12 (F := F)) V (Proc.devRef .tc main_call14_v10) = val_main_call14_v10 (F := F) x0 x1 x2 x3 x4 x5 x6 x7 x8 x9 x10 x11 x12 x13 x14 x15 := by
  after_results_simp
  simp only [h_main_v313, h_main_v315, h_main_arg10, h_main_arg11, h_main_arg12, h_main_arg13]
  rfl

theorem c12_main_v327 (V : Valuation τ sig (Elt F)) (x0 : (⟨S50000x128, .f32⟩ : BufTy).Contents (Elt F)) (x1 : (⟨S4x128x128, .f32⟩ : BufTy).Contents (Elt F)) (x2 : (⟨S4x128, .f32⟩ : BufTy).Contents (Elt F)) (x3 : (⟨S4x128x128, .f32⟩ : BufTy).Contents (Elt F)) (x4 : (⟨S4x128, .f32⟩ : BufTy).Contents (Elt F)) (x5 : (⟨S4x128, .f32⟩ : BufTy).Contents (Elt F)) (x6 : (⟨S4x128, .f32⟩ : BufTy).Contents (Elt F)) (x7 : (⟨S4x128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x10, .f32⟩ : BufTy).Contents (Elt F)) (x13 : (⟨S10, .f32⟩ : BufTy).Contents (Elt F)) (x14 : (⟨S2x800000, .i32⟩ : BufTy).Contents (Elt F)) (x15 : (⟨S50000, .i32⟩ : BufTy).Contents (Elt F))
    (h_main_v313 : V (Proc.devRef .tc main_v313) = val_main_v313 (F := F) x0 x1 x2 x3 x4 x5 x6 x7 x8 x14 x15)
    (h_main_v315 : V (Proc.devRef .tc main_v315) = val_main_v315 (F := F) x9)
    (h_main_arg10 : V (Proc.devRef .tc main_arg10) = x10)
    (h_main_arg11 : V (Proc.devRef .tc main_arg11) = x11)
    (h_main_arg12 : V (Proc.devRef .tc main_arg12) = x12)
    (h_main_arg13 : V (Proc.devRef .tc main_arg13) = x13) :
    after (ops12 (F := F)) V (Proc.devRef .tc main_v327) = val_main_v327 (F := F) x0 x1 x2 x3 x4 x5 x6 x7 x8 x9 x10 x11 x12 x13 x14 x15 := by
  after_results_simp
  simp only [h_main_v313, h_main_v315, h_main_arg10, h_main_arg11, h_main_arg12, h_main_arg13]
  rfl

end Cert.ReferenceIdeal.RunH

end
-- ==== Proof.RefRun.lean ====
import proofs.«408428_j10917806867267_1_alg».proof.Proof.RefRunC0
import proofs.«408428_j10917806867267_1_alg».proof.Proof.RefRunC1
import proofs.«408428_j10917806867267_1_alg».proof.Proof.RefRunC2
import proofs.«408428_j10917806867267_1_alg».proof.Proof.RefRunC3
import proofs.«408428_j10917806867267_1_alg».proof.Proof.RefRunC4
import proofs.«408428_j10917806867267_1_alg».proof.Proof.RefRunC5
import proofs.«408428_j10917806867267_1_alg».proof.Proof.RefRunC6
import proofs.«408428_j10917806867267_1_alg».proof.Proof.RefRunC7
import proofs.«408428_j10917806867267_1_alg».proof.Proof.RefRunC8
import proofs.«408428_j10917806867267_1_alg».proof.Proof.RefRunC9
import proofs.«408428_j10917806867267_1_alg».proof.Proof.RefRunC10
import proofs.«408428_j10917806867267_1_alg».proof.Proof.RefRunC11
import proofs.«408428_j10917806867267_1_alg».proof.Proof.RefRunC12
import Idealize.ShloMosaic.Lib.Pipeline.Frame

set_option maxHeartbeats 1000000

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of @main's window 0. -/
def part0 : List (HloOp τ sig (Elt F)) := ops0 ++ ops1

/-- The operations of @main's window 1. -/
def part1 : List (HloOp τ sig (Elt F)) := ops2 ++ ops3

/-- The operations of @main's window 2. -/
def part2 : List (HloOp τ sig (Elt F)) := ops4 ++ ops5

/-- The operations of @main's window 3. -/
def part3 : List (HloOp τ sig (Elt F)) := ops6 ++ ops7

/-- The operations of @main's window 4. -/
def part4 : List (HloOp τ sig (Elt F)) := ops8 ++ ops9

/-- The operations of @main's window 5. -/
def part5 : List (HloOp τ sig (Elt F)) := ops10 ++ ops11

/-- The operations of @main's window 6. -/
def part6 : List (HloOp τ sig (Elt F)) := ops12

/-- @main's 414 operations, in order. -/
abbrev ops : List (HloOp τ sig (Elt F)) :=
  part0 ++ (part1 ++ (part2 ++ (part3 ++ (part4 ++ (part5 ++ (part6))))))

set_option maxRecDepth 8192 in
set_option maxHeartbeats 4000000 in
theorem main_part0_eq (c : Dev nD) : main_part0 (F := F) c = seq part0 := rfl
set_option maxRecDepth 8192 in
set_option maxHeartbeats 4000000 in
theorem main_part1_eq (c : Dev nD) : main_part1 (F := F) c = seq part1 := rfl
set_option maxRecDepth 8192 in
set_option maxHeartbeats 4000000 in
theorem main_part2_eq (c : Dev nD) : main_part2 (F := F) c = seq part2 := rfl
set_option maxRecDepth 8192 in
set_option maxHeartbeats 4000000 in
theorem main_part3_eq (c : Dev nD) : main_part3 (F := F) c = seq part3 := rfl
set_option maxRecDepth 8192 in
set_option maxHeartbeats 4000000 in
theorem main_part4_eq (c : Dev nD) : main_part4 (F := F) c = seq part4 := rfl
set_option maxRecDepth 8192 in
set_option maxHeartbeats 4000000 in
theorem main_part5_eq (c : Dev nD) : main_part5 (F := F) c = seq part5 := rfl
set_option maxRecDepth 8192 in
set_option maxHeartbeats 4000000 in
theorem main_part6_eq (c : Dev nD) : main_part6 (F := F) c = seq part6 := rfl

set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c, ← main_part6_eq c]
  rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, part0, part1, part2, part3, part4, part5, part6, List.mem_append, or_assoc] at h
    rcases h with h | h | h | h | h | h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h, List.forall_iff_forall_mem.mp ops9_sub op h, List.forall_iff_forall_mem.mp ops10_sub op h, List.forall_iff_forall_mem.mp ops11_sub op h, List.forall_iff_forall_mem.mp ops12_sub op h]

theorem ops_fresh : ∀ op ∈ (ops : List (HloOp τ sig (Elt F))), op.fresh = ∅ := fun op h => by
  simp only [ops, part0, part1, part2, part3, part4, part5, part6, List.mem_append, or_assoc] at h
  rcases h with h | h | h | h | h | h | h | h | h | h | h | h | h
  exacts [List.forall_iff_forall_mem.mp ops0_fresh op h, List.forall_iff_forall_mem.mp ops1_fresh op h, List.forall_iff_forall_mem.mp ops2_fresh op h, List.forall_iff_forall_mem.mp ops3_fresh op h, List.forall_iff_forall_mem.mp ops4_fresh op h, List.forall_iff_forall_mem.mp ops5_fresh op h, List.forall_iff_forall_mem.mp ops6_fresh op h, List.forall_iff_forall_mem.mp ops7_fresh op h, List.forall_iff_forall_mem.mp ops8_fresh op h, List.forall_iff_forall_mem.mp ops9_fresh op h, List.forall_iff_forall_mem.mp ops10_fresh op h, List.forall_iff_forall_mem.mp ops11_fresh op h, List.forall_iff_forall_mem.mp ops12_fresh op h]

/-! The contents at launch, then after each stretch. -/

def U0 (m : (ℓ : Loc nD τ sig) → Buf (Elt F) ℓ) (c : Dev nD) : Valuation τ sig (Elt F) := launchContents m c
def U1 (m : (ℓ : Loc nD τ sig) → Buf (Elt F) ℓ) (c : Dev nD) : Valuation τ sig (Elt F) := after ops0 (U0 m c)
def U2 (m : (ℓ : Loc nD τ sig) → Buf (Elt F) ℓ) (c : Dev nD) : Valuation τ sig (Elt F) := after ops1 (U1 m c)
def U3 (m : (ℓ : Loc nD τ sig) → Buf (Elt F) ℓ) (c : Dev nD) : Valuation τ sig (Elt F) := after ops2 (U2 m c)
def U4 (m : (ℓ : Loc nD τ sig) → Buf (Elt F) ℓ) (c : Dev nD) : Valuation τ sig (Elt F) := after ops3 (U3 m c)
def U5 (m : (ℓ : Loc nD τ sig) → Buf (Elt F) ℓ) (c : Dev nD) : Valuation τ sig (Elt F) := after ops4 (U4 m c)
def U6 (m : (ℓ : Loc nD τ sig) → Buf (Elt F) ℓ) (c : Dev nD) : Valuation τ sig (Elt F) := after ops5 (U5 m c)
def U7 (m : (ℓ : Loc nD τ sig) → Buf (Elt F) ℓ) (c : Dev nD) : Valuation τ sig (Elt F) := after ops6 (U6 m c)
def U8 (m : (ℓ : Loc nD τ sig) → Buf (Elt F) ℓ) (c : Dev nD) : Valuation τ sig (Elt F) := after ops7 (U7 m c)
def U9 (m : (ℓ : Loc nD τ sig) → Buf (Elt F) ℓ) (c : Dev nD) : Valuation τ sig (Elt F) := after ops8 (U8 m c)
def U10 (m : (ℓ : Loc nD τ sig) → Buf (Elt F) ℓ) (c : Dev nD) : Valuation τ sig (Elt F) := after ops9 (U9 m c)
def U11 (m : (ℓ : Loc nD τ sig) → Buf (Elt F) ℓ) (c : Dev nD) : Valuation τ sig (Elt F) := after ops10 (U10 m c)
def U12 (m : (ℓ : Loc nD τ sig) → Buf (Elt F) ℓ) (c : Dev nD) : Valuation τ sig (Elt F) := after ops11 (U11 m c)
def U13 (m : (ℓ : Loc nD τ sig) → Buf (Elt F) ℓ) (c : Dev nD) : Valuation τ sig (Elt F) := after ops12 (U12 m c)

theorem after_ops (m : (ℓ : Loc nD τ sig) → Buf (Elt F) ℓ) (c : Dev nD) : after (ops (F := F)) (launchContents m c) = U13 m c := by
  simp only [ops, part0, part1, part2, part3, part4, part5, part6, after_append]
  rfl

/-! g<L>_<r>: after the first L stretches reference r stands at its stage. A stretch that writes r gives the fact
    from the facts of what the stage reads; a later stretch does not write r and keeps it. -/

theorem g0_main_arg0 (m : (ℓ : Loc nD τ sig) → Buf (Elt F) ℓ) (c : Dev nD) : U0 m c (Proc.devRef .tc main_arg0) = (m ((c.tc : Thread nD τ).loc main_arg0)) := rfl
theorem g0_main_arg1 (m : (ℓ : Loc nD τ sig) → Buf (Elt F) ℓ) (c : Dev nD) : U0 m c (Proc.devRef .tc main_arg1) = (m ((c.tc : Thread nD τ).loc main_arg1)) := rfl
theorem g0_main_arg2 (m : (ℓ : Loc nD τ sig) → Buf (Elt F) ℓ) (c : Dev nD) : U0 m c (Proc.devRef .tc main_arg2) = (m ((c.tc : Thread nD τ).loc main_arg2)) := rfl
theorem g0_main_arg3 (m : (ℓ : Loc nD τ sig) → Buf (Elt F) ℓ) (c : Dev nD) : U0 m c (Proc.devRef .tc main_arg3) = (m ((c.tc : Thread nD τ).loc main_arg3)) := rfl
theorem g0_main_arg4 (m : (ℓ : Loc nD τ sig) → Buf (Elt F) ℓ) (c : Dev nD) : U0 m c (Proc.devRef .tc main_arg4) = (m ((c.tc : Thread nD τ).loc main_arg4)) := rfl
theorem g0_main_arg5 (m : (ℓ : Loc nD τ sig) → Buf (Elt F) ℓ) (c : Dev nD) : U0 m c (Proc.devRef .tc main_arg5) = (m ((c.tc : Thread nD τ).loc main_arg5)) := rfl
theorem g0_main_arg6 (m : (ℓ : Loc nD τ sig) → Buf (Elt F) ℓ) (c : Dev nD) : U0 m c (Proc.devRef .tc main_arg6) = (m ((c.tc : Thread nD τ).loc main_arg6)) := rfl
theorem g0_main_arg7 (m : (ℓ : Loc nD τ sig) → Buf (Elt F) ℓ) (c : Dev nD) : U0 m c (Proc.devRef .tc main_arg7) = (m ((c.tc : Thread nD τ).loc main_arg7)) := rfl
theorem g0_main_arg8 (m : (ℓ : Loc nD τ sig) → Buf (Elt F) ℓ) (c : Dev nD) : U0 m c (Proc.devRef .tc main_arg8) = (m ((c.tc : Thread nD τ).loc main_arg8)) := rfl
theorem g0_main_arg9 (m : (ℓ : Loc nD τ sig) → Buf (Elt F) ℓ) (c : Dev nD) : U0 m c (Proc.devRef .tc main_arg9) = (m ((c.tc : Thread nD τ).loc main_arg9)) := rfl
theorem g0_main_arg10 (m : (ℓ : Loc nD τ sig) → Buf (Elt F) ℓ) (c : Dev nD) : U0 m c (Proc.devRef .tc main_arg10) = (m ((c.tc : Thread nD τ).loc main_arg10)) := rfl
theorem g0_main_arg11 (m : (ℓ : Loc nD τ sig) → Buf (Elt F) ℓ) (c : Dev nD) : U0 m c (Proc.devRef .tc main_arg11) = (m ((c.tc : Thread nD τ).loc main_arg11)) := rfl
theorem g0_main_arg12 (m : (ℓ : Loc nD τ sig) → Buf (Elt F) ℓ) (c : Dev nD) : U0 m c (Proc.devRef .tc main_arg12) = (m ((c.tc : Thread nD τ).loc main_arg12)) := rfl
theorem g0_main_arg13 (m : (ℓ : Loc nD τ sig) → Buf (Elt F) ℓ) (c : Dev nD) : U0 m c (Proc.devRef .tc main_arg13) = (m ((c.tc : Thread nD τ).loc main_arg13)) := rfl
theorem g0_main_arg14 (m : (ℓ : Loc nD τ sig) → Buf (Elt F) ℓ) (c : Dev nD) : U0 m c (Proc.devRef .tc main_arg14) = (m ((c.tc : Thread nD τ).loc main_arg14)) := rfl
theorem g0_main_arg15 (m : (ℓ : Loc nD τ sig) → Buf (Elt F) ℓ) (c : Dev nD) : U0 m c (Proc.devRef .tc main_arg15) = (m ((c.tc : Thread nD τ).loc main_arg15)) := rfl

theorem g1_main_v1 (m : (ℓ : Loc nD τ sig) → Buf (Elt F) ℓ) (c : Dev nD) : U1 m c (Proc.devRef .tc main_v1) = val_main_v1 (F := F) (m ((c.tc : Thread nD τ).loc main_arg14)) :=
  c0_main_v1 (U0 m c) (m ((c.tc : Thread nD τ).loc main_arg14)) (g0_main_arg14 m c)
theorem g1_main_v3 (m : (ℓ : Loc nD τ sig) → Buf (Elt F) ℓ) (c : Dev nD) : U1 m c (Proc.devRef .tc main_v3) = val_main_v3 (F := F) (m ((c.tc : Thread nD τ).loc main_arg14)) :=
  c0_main_v3 (U0 m c) (m ((c.tc : Thread nD τ).loc main_arg14)) (g0_main_arg14 m c)
theorem g1_main_v9 (m : (ℓ : Loc nD τ sig) → Buf (Elt F) ℓ) (c : Dev nD) : U1 m c (Proc.devRef .tc main_v9) = val_main_v9 (F := F) (m ((c.tc : Thread nD τ).loc main_arg15)) :=
  c0_main_v9 (U0 m c) (m ((c.tc : Thread nD τ).loc main_arg15)) (g0_main_arg15 m c)
theorem g1_main_v23 (m : (ℓ : Loc nD τ sig) → Buf (Elt F) ℓ) (c : Dev nD) : U1 m c (Proc.devRef .tc main_v23) = val_main_v23 (F := F) (m ((c.tc : Thread nD τ).loc main_arg0)) (m ((c.tc : Thread nD τ).loc main_arg1)) (m ((c.tc : Thread nD τ).loc main_arg14)) :=
  c0_main_v23 (U0 m c) (m ((c.tc : Thread nD τ).loc main_arg0)) (m ((c.tc : Thread nD τ).loc main_arg1)) (m ((c.tc : Thread nD τ).loc main_arg14)) (g0_main_arg0 m c) (g0_main_arg14 m c) (g0_main_arg1 m c)
theorem g1_main_v25 (m : (ℓ : Loc nD τ sig) → Buf (Elt F) ℓ) (c : Dev nD) : U1 m c (Proc.devRef .tc main_v25) = val_main_v25 (F := F) (m ((c.tc : Thread nD τ).loc main_arg2)) :=
  c0_main_v25 (U0 m c) (m ((c.tc : Thread nD τ).loc main_arg2)) (g0_main_arg2 m c)
theorem g1_main_arg14 (m : (ℓ : Loc nD τ sig) → Buf (Elt F) ℓ) (c : Dev nD) : U1 m c (Proc.devRef .tc main_arg14) = (m ((c.tc : Thread nD τ).loc main_arg14)) :=
  (c0_keeps (U0 m c) main_arg14 (by decide)).trans (g0_main_arg14 m c)
theorem g1_main_arg15 (m : (ℓ : Loc nD τ sig) → Buf (Elt F) ℓ) (c : Dev nD) : U1 m c (Proc.devRef .tc main_arg15) = (m ((c.tc : Thread nD τ).loc main_arg15)) :=
  (c0_keeps (U0 m c) main_arg15 (by decide)).trans (g0_main_arg15 m c)
theorem g1_main_arg0 (m : (ℓ : Loc nD τ sig) → Buf (Elt F) ℓ) (c : Dev nD) : U1 m c (Proc.devRef .tc main_arg0) = (m ((c.tc : Thread nD τ).loc main_arg0)) :=
  (c0_keeps (U0 m c) main_arg0 (by decide)).trans (g0_main_arg0 m c)
theorem g1_main_arg1 (m : (ℓ : Loc nD τ sig) → Buf (Elt F) ℓ) (c : Dev nD) : U1 m c (Proc.devRef .tc main_arg1) = (m ((c.tc : Thread nD τ).loc main_arg1)) :=
  (c0_keeps (U0 m c) main_arg1 (by decide)).trans (g0_main_arg1 m c)
theorem g1_main_arg2 (m : (ℓ : Loc nD τ sig) → Buf (Elt F) ℓ) (c : Dev nD) : U1 m c (Proc.devRef .tc main_arg2) = (m ((c.tc : Thread nD τ).loc main_arg2)) :=
  (c0_keeps (U0 m c) main_arg2 (by decide)).trans (g0_main_arg2 m c)
theorem g1_main_arg3 (m : (ℓ : Loc nD τ sig) → Buf (Elt F) ℓ) (c : Dev nD) : U1 m c (Proc.devRef .tc main_arg3) = (m ((c.tc : Thread nD τ).loc main_arg3)) :=
  (c0_keeps (U0 m c) main_arg3 (by decide)).trans (g0_main_arg3 m c)
theorem g1_main_arg4 (m : (ℓ : Loc nD τ sig) → Buf (Elt F) ℓ) (c : Dev nD) : U1 m c (Proc.devRef .tc main_arg4) = (m ((c.tc : Thread nD τ).loc main_arg4)) :=
  (c0_keeps (U0 m c) main_arg4 (by decide)).trans (g0_main_arg4 m c)
theorem g1_main_arg5 (m : (ℓ : Loc nD τ sig) → Buf (Elt F) ℓ) (c : Dev nD) : U1 m c (Proc.devRef .tc main_arg5) = (m ((c.tc : Thread nD τ).loc main_arg5)) :=
  (c0_keeps (U0 m c) main_arg5 (by decide)).trans (g0_main_arg5 m c)
theorem g1_main_arg6 (m : (ℓ : Loc nD τ sig) → Buf (Elt F) ℓ) (c : Dev nD) : U1 m c (Proc.devRef .tc main_arg6) = (m ((c.tc : Thread nD τ).loc main_arg6)) :=
  (c0_keeps (U0 m c) main_arg6 (by decide)).trans (g0_main_arg6 m c)
theorem g1_main_arg7 (m : (ℓ : Loc nD τ sig) → Buf (Elt F) ℓ) (c : Dev nD) : U1 m c (Proc.devRef .tc main_arg7) = (m ((c.tc : Thread nD τ).loc main_arg7)) :=
  (c0_keeps (U0 m c) main_arg7 (by decide)).trans (g0_main_arg7 m c)
theorem g1_main_arg8 (m : (ℓ : Loc nD τ sig) → Buf (Elt F) ℓ) (c : Dev nD) : U1 m c (Proc.devRef .tc main_arg8) = (m ((c.tc : Thread nD τ).loc main_arg8)) :=
  (c0_keeps (U0 m c) main_arg8 (by decide)).trans (g0_main_arg8 m c)
theorem g1_main_arg9 (m : (ℓ : Loc nD τ sig) → Buf (Elt F) ℓ) (c : Dev nD) : U1 m c (Proc.devRef .tc main_arg9) = (m ((c.tc : Thread nD τ).loc main_arg9)) :=
  (c0_keeps (U0 m c) main_arg9 (by decide)).trans (g0_main_arg9 m c)
theorem g1_main_arg10 (m : (ℓ : Loc nD τ sig) → Buf (Elt F) ℓ) (c : Dev nD) : U1 m c (Proc.devRef .tc main_arg10) = (m ((c.tc : Thread nD τ).loc main_arg10)) :=
  (c0_keeps (U0 m c) main_arg10 (by decide)).trans (g0_main_arg10 m c)
theorem g1_main_arg11 (m : (ℓ : Loc nD τ sig) → Buf (Elt F) ℓ) (c : Dev nD) : U1 m c (Proc.devRef .tc main_arg11) = (m ((c.tc : Thread nD τ).loc main_arg11)) :=
  (c0_keeps (U0 m c) main_arg11 (by decide)).trans (g0_main_arg11 m c)
theorem g1_main_arg12 (m : (ℓ : Loc nD τ sig) → Buf (Elt F) ℓ) (c : Dev nD) : U1 m c (Proc.devRef .tc main_arg12) = (m ((c.tc : Thread nD τ).loc main_arg12)) :=
  (c0_keeps (U0 m c) main_arg12 (by decide)).trans (g0_main_arg12 m c)
theorem g1_main_arg13 (m : (ℓ : Loc nD τ sig) → Buf (Elt F) ℓ) (c : Dev nD) : U1 m c (Proc.devRef .tc main_arg13) = (m ((c.tc : Thread nD τ).loc main_arg13)) :=
  (c0_keeps (U0 m c) main_arg13 (by decide)).trans (g0_main_arg13 m c)

theorem g2_main_v38 (m : (ℓ : Loc nD τ sig) → Buf (Elt F) ℓ) (c : Dev nD) : U2 m c (Proc.devRef .tc main_v38) = val_main_v38 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg14)) :=
  c1_main_v38 (U1 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg14)) (g1_main_v23 m c) (g1_main_v25 m c) (g1_main_arg3 m c) (g1_main_arg4 m c)
theorem g2_main_v40 (m : (ℓ : Loc nD τ sig) → Buf (Elt F) ℓ) (c : Dev nD) : U2 m c (Proc.devRef .tc main_v40) = val_main_v40 (F := F) (m ((c.tc : Thread nD τ).loc main_arg5)) :=
  c1_main_v40 (U1 m c) (m ((c.tc : Thread nD τ).loc main_arg5)) (g1_main_arg5 m c)
theorem g2_main_v42 (m : (ℓ : Loc nD τ sig) → Buf (Elt F) ℓ) (c : Dev nD) : U2 m c (Proc.devRef .tc main_v42) = val_main_v42 (F := F) (m ((c.tc : Thread nD τ).loc main_arg6)) :=
  c1_main_v42 (U1 m c) (m ((c.tc : Thread nD τ).loc main_arg6)) (g1_main_arg6 m c)
theorem g2_main_v44 (m : (ℓ : Loc nD τ sig) → Buf (Elt F) ℓ) (c : Dev nD) : U2 m c (Proc.devRef .tc main_v44) = val_main_v44 (F := F) (m ((c.tc : Thread nD τ).loc main_arg7)) :=
  c1_main_v44 (U1 m c) (m ((c.tc : Thread nD τ).loc main_arg7)) (g1_main_arg7 m c)
theorem g2_main_v49 (m : (ℓ : Loc nD τ sig) → Buf (Elt F) ℓ) (c : Dev nD) : U2 m c (Proc.devRef .tc main_v49) = val_main_v49 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)) :=
  c1_main_v49 (U1 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)) (g1_main_arg15 m c) (g1_main_v23 m c) (g1_main_v25 m c) (g1_main_arg3 m c) (g1_main_arg4 m c) (g1_main_v9 m c)
theorem g2_main_v51 (m : (ℓ : Loc nD τ sig) → Buf (Elt F) ℓ) (c : Dev nD) : U2 m c (Proc.devRef .tc main_v51) = val_main_v51 (F := F) (m ((c.tc : Thread nD τ).loc main_arg15)) :=
  c1_main_v51 (U1 m c) (m ((c.tc : Thread nD τ).loc main_arg15)) (g1_main_arg15 m c)
theorem g2_main_arg14 (m : (ℓ : Loc nD τ sig) → Buf (Elt F) ℓ) (c : Dev nD) : U2 m c (Proc.devRef .tc main_arg14) = (m ((c.tc : Thread nD τ).loc main_arg14)) :=
  (c1_keeps (U1 m c) main_arg14 (by decide)).trans (g1_main_arg14 m c)
theorem g2_main_arg15 (m : (ℓ : Loc nD τ sig) → Buf (Elt F) ℓ) (c : Dev nD) : U2 m c (Proc.devRef .tc main_arg15) = (m ((c.tc : Thread nD τ).loc main_arg15)) :=
  (c1_keeps (U1 m c) main_arg15 (by decide)).trans (g1_main_arg15 m c)
theorem g2_main_arg0 (m : (ℓ : Loc nD τ sig) → Buf (Elt F) ℓ) (c : Dev nD) : U2 m c (Proc.devRef .tc main_arg0) = (m ((c.tc : Thread nD τ).loc main_arg0)) :=
  (c1_keeps (U1 m c) main_arg0 (by decide)).trans (g1_main_arg0 m c)
theorem g2_main_arg1 (m : (ℓ : Loc nD τ sig) → Buf (Elt F) ℓ) (c : Dev nD) : U2 m c (Proc.devRef .tc main_arg1) = (m ((c.tc : Thread nD τ).loc main_arg1)) :=
  (c1_keeps (U1 m c) main_arg1 (by decide)).trans (g1_main_arg1 m c)
theorem g2_main_arg2 (m : (ℓ : Loc nD τ sig) → Buf (Elt F) ℓ) (c : Dev nD) : U2 m c (Proc.devRef .tc main_arg2) = (m ((c.tc : Thread nD τ).loc main_arg2)) :=
  (c1_keeps (U1 m c) main_arg2 (by decide)).trans (g1_main_arg2 m c)
theorem g2_main_arg3 (m : (ℓ : Loc nD τ sig) → Buf (Elt F) ℓ) (c : Dev nD) : U2 m c (Proc.devRef .tc main_arg3) = (m ((c.tc : Thread nD τ).loc main_arg3)) :=
  (c1_keeps (U1 m c) main_arg3 (by decide)).trans (g1_main_arg3 m c)
theorem g2_main_arg4 (m : (ℓ : Loc nD τ sig) → Buf (Elt F) ℓ) (c : Dev nD) : U2 m c (Proc.devRef .tc main_arg4) = (m ((c.tc : Thread nD τ).loc main_arg4)) :=
  (c1_keeps (U1 m c) main_arg4 (by decide)).trans (g1_main_arg4 m c)
theorem g2_main_arg5 (m : (ℓ : Loc nD τ sig) → Buf (Elt F) ℓ) (c : Dev nD) : U2 m c (Proc.devRef .tc main_arg5) = (m ((c.tc : Thread nD τ).loc main_arg5)) :=
  (c1_keeps (U1 m c) main_arg5 (by decide)).trans (g1_main_arg5 m c)
theorem g2_main_arg6 (m : (ℓ : Loc nD τ sig) → Buf (Elt F) ℓ) (c : Dev nD) : U2 m c (Proc.devRef .tc main_arg6) = (m ((c.tc : Thread nD τ).loc main_arg6)) :=
  (c1_keeps (U1 m c) main_arg6 (by decide)).trans (g1_main_arg6 m c)
theorem g2_main_arg7 (m : (ℓ : Loc nD τ sig) → Buf (Elt F) ℓ) (c : Dev nD) : U2 m c (Proc.devRef .tc main_arg7) = (m ((c.tc : Thread nD τ).loc main_arg7)) :=
  (c1_keeps (U1 m c) main_arg7 (by decide)).trans (g1_main_arg7 m c)
theorem g2_main_v9 (m : (ℓ : Loc nD τ sig) → Buf (Elt F) ℓ) (c : Dev nD) : U2 m c (Proc.devRef .tc main_v9) = val_main_v9 (F := F) (m ((c.tc : Thread nD τ).loc main_arg15)) :=
  (c1_keeps (U1 m c) main_v9 (by decide)).trans (g1_main_v9 m c)
theorem g2_main_v1 (m : (ℓ : Loc nD τ sig) → Buf (Elt F) ℓ) (c : Dev nD) : U2 m c (Proc.devRef .tc main_v1) = val_main_v1 (F := F) (m ((c.tc : Thread nD τ).loc main_arg14)) :=
  (c1_keeps (U1 m c) main_v1 (by decide)).trans (g1_main_v1 m c)
theorem g2_main_v3 (m : (ℓ : Loc nD τ sig) → Buf (Elt F) ℓ) (c : Dev nD) : U2 m c (Proc.devRef .tc main_v3) = val_main_v3 (F := F) (m ((c.tc : Thread nD τ).loc main_arg14)) :=
  (c1_keeps (U1 m c) main_v3 (by decide)).trans (g1_main_v3 m c)
theorem g2_main_arg8 (m : (ℓ : Loc nD τ sig) → Buf (Elt F) ℓ) (c : Dev nD) : U2 m c (Proc.devRef .tc main_arg8) = (m ((c.tc : Thread nD τ).loc main_arg8)) :=
  (c1_keeps (U1 m c) main_arg8 (by decide)).trans (g1_main_arg8 m c)
theorem g2_main_arg9 (m : (ℓ : Loc nD τ sig) → Buf (Elt F) ℓ) (c : Dev nD) : U2 m c (Proc.devRef .tc main_arg9) = (m ((c.tc : Thread nD τ).loc main_arg9)) :=
  (c1_keeps (U1 m c) main_arg9 (by decide)).trans (g1_main_arg9 m c)
theorem g2_main_arg10 (m : (ℓ : Loc nD τ sig) → Buf (Elt F) ℓ) (c : Dev nD) : U2 m c (Proc.devRef .tc main_arg10) = (m ((c.tc : Thread nD τ).loc main_arg10)) :=
  (c1_keeps (U1 m c) main_arg10 (by decide)).trans (g1_main_arg10 m c)
theorem g2_main_arg11 (m : (ℓ : Loc nD τ sig) → Buf (Elt F) ℓ) (c : Dev nD) : U2 m c (Proc.devRef .tc main_arg11) = (m ((c.tc : Thread nD τ).loc main_arg11)) :=
  (c1_keeps (U1 m c) main_arg11 (by decide)).trans (g1_main_arg11 m c)
theorem g2_main_arg12 (m : (ℓ : Loc nD τ sig) → Buf (Elt F) ℓ) (c : Dev nD) : U2 m c (Proc.devRef .tc main_arg12) = (m ((c.tc : Thread nD τ).loc main_arg12)) :=
  (c1_keeps (U1 m c) main_arg12 (by decide)).trans (g1_main_arg12 m c)
theorem g2_main_arg13 (m : (ℓ : Loc nD τ sig) → Buf (Elt F) ℓ) (c : Dev nD) : U2 m c (Proc.devRef .tc main_arg13) = (m ((c.tc : Thread nD τ).loc main_arg13)) :=
  (c1_keeps (U1 m c) main_arg13 (by decide)).trans (g1_main_arg13 m c)

theorem g3_main_v69 (m : (ℓ : Loc nD τ sig) → Buf (Elt F) ℓ) (c : Dev nD) : U3 m c (Proc.devRef .tc main_v69) = val_main_v69 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg14)) (m ((c.tc : Thread nD τ).loc main_arg15)) :=
  c2_main_v69 (U2 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg14)) (m ((c.tc : Thread nD τ).loc main_arg15)) (g2_main_v40 m c) (g2_main_v38 m c) (g2_main_v49 m c) (g2_main_v51 m c) (g2_main_arg15 m c) (g2_main_v44 m c)
theorem g3_main_v76 (m : (ℓ : Loc nD τ sig) → Buf (Elt F) ℓ) (c : Dev nD) : U3 m c (Proc.devRef .tc main_v76) = val_main_v76 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg14)) (m ((c.tc : Thread nD τ).loc main_arg15)) :=
  c2_main_v76 (U2 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg14)) (m ((c.tc : Thread nD τ).loc main_arg15)) (g2_main_arg15 m c) (g2_main_v38 m c) (g2_main_v49 m c) (g2_main_v51 m c) (g2_main_v44 m c) (g2_main_v9 m c)
theorem g3_main_v77 (m : (ℓ : Loc nD τ sig) → Buf (Elt F) ℓ) (c : Dev nD) : U3 m c (Proc.devRef .tc main_v77) = val_main_v77 (F := F) :=
  c2_main_v77 (U2 m c)
theorem g3_main_arg14 (m : (ℓ : Loc nD τ sig) → Buf (Elt F) ℓ) (c : Dev nD) : U3 m c (Proc.devRef .tc main_arg14) = (m ((c.tc : Thread nD τ).loc main_arg14)) :=
  (c2_keeps (U2 m c) main_arg14 (by decide)).trans (g2_main_arg14 m c)
theorem g3_main_arg15 (m : (ℓ : Loc nD τ sig) → Buf (Elt F) ℓ) (c : Dev nD) : U3 m c (Proc.devRef .tc main_arg15) = (m ((c.tc : Thread nD τ).loc main_arg15)) :=
  (c2_keeps (U2 m c) main_arg15 (by decide)).trans (g2_main_arg15 m c)
theorem g3_main_arg0 (m : (ℓ : Loc nD τ sig) → Buf (Elt F) ℓ) (c : Dev nD) : U3 m c (Proc.devRef .tc main_arg0) = (m ((c.tc : Thread nD τ).loc main_arg0)) :=
  (c2_keeps (U2 m c) main_arg0 (by decide)).trans (g2_main_arg0 m c)
theorem g3_main_arg1 (m : (ℓ : Loc nD τ sig) → Buf (Elt F) ℓ) (c : Dev nD) : U3 m c (Proc.devRef .tc main_arg1) = (m ((c.tc : Thread nD τ).loc main_arg1)) :=
  (c2_keeps (U2 m c) main_arg1 (by decide)).trans (g2_main_arg1 m c)
theorem g3_main_arg2 (m : (ℓ : Loc nD τ sig) → Buf (Elt F) ℓ) (c : Dev nD) : U3 m c (Proc.devRef .tc main_arg2) = (m ((c.tc : Thread nD τ).loc main_arg2)) :=
  (c2_keeps (U2 m c) main_arg2 (by decide)).trans (g2_main_arg2 m c)
theorem g3_main_arg3 (m : (ℓ : Loc nD τ sig) → Buf (Elt F) ℓ) (c : Dev nD) : U3 m c (Proc.devRef .tc main_arg3) = (m ((c.tc : Thread nD τ).loc main_arg3)) :=
  (c2_keeps (U2 m c) main_arg3 (by decide)).trans (g2_main_arg3 m c)
theorem g3_main_arg4 (m : (ℓ : Loc nD τ sig) → Buf (Elt F) ℓ) (c : Dev nD) : U3 m c (Proc.devRef .tc main_arg4) = (m ((c.tc : Thread nD τ).loc main_arg4)) :=
  (c2_keeps (U2 m c) main_arg4 (by decide)).trans (g2_main_arg4 m c)
theorem g3_main_arg5 (m : (ℓ : Loc nD τ sig) → Buf (Elt F) ℓ) (c : Dev nD) : U3 m c (Proc.devRef .tc main_arg5) = (m ((c.tc : Thread nD τ).loc main_arg5)) :=
  (c2_keeps (U2 m c) main_arg5 (by decide)).trans (g2_main_arg5 m c)
theorem g3_main_arg6 (m : (ℓ : Loc nD τ sig) → Buf (Elt F) ℓ) (c : Dev nD) : U3 m c (Proc.devRef .tc main_arg6) = (m ((c.tc : Thread nD τ).loc main_arg6)) :=
  (c2_keeps (U2 m c) main_arg6 (by decide)).trans (g2_main_arg6 m c)
theorem g3_main_arg7 (m : (ℓ : Loc nD τ sig) → Buf (Elt F) ℓ) (c : Dev nD) : U3 m c (Proc.devRef .tc main_arg7) = (m ((c.tc : Thread nD τ).loc main_arg7)) :=
  (c2_keeps (U2 m c) main_arg7 (by decide)).trans (g2_main_arg7 m c)
theorem g3_main_v9 (m : (ℓ : Loc nD τ sig) → Buf (Elt F) ℓ) (c : Dev nD) : U3 m c (Proc.devRef .tc main_v9) = val_main_v9 (F := F) (m ((c.tc : Thread nD τ).loc main_arg15)) :=
  (c2_keeps (U2 m c) main_v9 (by decide)).trans (g2_main_v9 m c)
theorem g3_main_v42 (m : (ℓ : Loc nD τ sig) → Buf (Elt F) ℓ) (c : Dev nD) : U3 m c (Proc.devRef .tc main_v42) = val_main_v42 (F := F) (m ((c.tc : Thread nD τ).loc main_arg6)) :=
  (c2_keeps (U2 m c) main_v42 (by decide)).trans (g2_main_v42 m c)
theorem g3_main_v1 (m : (ℓ : Loc nD τ sig) → Buf (Elt F) ℓ) (c : Dev nD) : U3 m c (Proc.devRef .tc main_v1) = val_main_v1 (F := F) (m ((c.tc : Thread nD τ).loc main_arg14)) :=
  (c2_keeps (U2 m c) main_v1 (by decide)).trans (g2_main_v1 m c)
theorem g3_main_v3 (m : (ℓ : Loc nD τ sig) → Buf (Elt F) ℓ) (c : Dev nD) : U3 m c (Proc.devRef .tc main_v3) = val_main_v3 (F := F) (m ((c.tc : Thread nD τ).loc main_arg14)) :=
  (c2_keeps (U2 m c) main_v3 (by decide)).trans (g2_main_v3 m c)
theorem g3_main_arg8 (m : (ℓ : Loc nD τ sig) → Buf (Elt F) ℓ) (c : Dev nD) : U3 m c (Proc.devRef .tc main_arg8) = (m ((c.tc : Thread nD τ).loc main_arg8)) :=
  (c2_keeps (U2 m c) main_arg8 (by decide)).trans (g2_main_arg8 m c)
theorem g3_main_arg9 (m : (ℓ : Loc nD τ sig) → Buf (Elt F) ℓ) (c : Dev nD) : U3 m c (Proc.devRef .tc main_arg9) = (m ((c.tc : Thread nD τ).loc main_arg9)) :=
  (c2_keeps (U2 m c) main_arg9 (by decide)).trans (g2_main_arg9 m c)
theorem g3_main_arg10 (m : (ℓ : Loc nD τ sig) → Buf (Elt F) ℓ) (c : Dev nD) : U3 m c (Proc.devRef .tc main_arg10) = (m ((c.tc : Thread nD τ).loc main_arg10)) :=
  (c2_keeps (U2 m c) main_arg10 (by decide)).trans (g2_main_arg10 m c)
theorem g3_main_arg11 (m : (ℓ : Loc nD τ sig) → Buf (Elt F) ℓ) (c : Dev nD) : U3 m c (Proc.devRef .tc main_arg11) = (m ((c.tc : Thread nD τ).loc main_arg11)) :=
  (c2_keeps (U2 m c) main_arg11 (by decide)).trans (g2_main_arg11 m c)
theorem g3_main_arg12 (m : (ℓ : Loc nD τ sig) → Buf (Elt F) ℓ) (c : Dev nD) : U3 m c (Proc.devRef .tc main_arg12) = (m ((c.tc : Thread nD τ).loc main_arg12)) :=
  (c2_keeps (U2 m c) main_arg12 (by decide)).trans (g2_main_arg12 m c)
theorem g3_main_arg13 (m : (ℓ : Loc nD τ sig) → Buf (Elt F) ℓ) (c : Dev nD) : U3 m c (Proc.devRef .tc main_arg13) = (m ((c.tc : Thread nD τ).loc main_arg13)) :=
  (c2_keeps (U2 m c) main_arg13 (by decide)).trans (g2_main_arg13 m c)

theorem g4_main_v103 (m : (ℓ : Loc nD τ sig) → Buf (Elt F) ℓ) (c : Dev nD) : U4 m c (Proc.devRef .tc main_v103) = val_main_v103 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg14)) (m ((c.tc : Thread nD τ).loc main_arg15)) :=
  c3_main_v103 (U3 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg14)) (m ((c.tc : Thread nD τ).loc main_arg15)) (g3_main_v69 m c) (g3_main_v76 m c) (g3_main_v77 m c) (g3_main_v42 m c) (g3_main_v3 m c) (g3_main_v1 m c) (g3_main_arg1 m c) (g3_main_arg2 m c)
theorem g4_main_arg14 (m : (ℓ : Loc nD τ sig) → Buf (Elt F) ℓ) (c : Dev nD) : U4 m c (Proc.devRef .tc main_arg14) = (m ((c.tc : Thread nD τ).loc main_arg14)) :=
  (c3_keeps (U3 m c) main_arg14 (by decide)).trans (g3_main_arg14 m c)
theorem g4_main_arg15 (m : (ℓ : Loc nD τ sig) → Buf (Elt F) ℓ) (c : Dev nD) : U4 m c (Proc.devRef .tc main_arg15) = (m ((c.tc : Thread nD τ).loc main_arg15)) :=
  (c3_keeps (U3 m c) main_arg15 (by decide)).trans (g3_main_arg15 m c)
theorem g4_main_arg0 (m : (ℓ : Loc nD τ sig) → Buf (Elt F) ℓ) (c : Dev nD) : U4 m c (Proc.devRef .tc main_arg0) = (m ((c.tc : Thread nD τ).loc main_arg0)) :=
  (c3_keeps (U3 m c) main_arg0 (by decide)).trans (g3_main_arg0 m c)
theorem g4_main_arg1 (m : (ℓ : Loc nD τ sig) → Buf (Elt F) ℓ) (c : Dev nD) : U4 m c (Proc.devRef .tc main_arg1) = (m ((c.tc : Thread nD τ).loc main_arg1)) :=
  (c3_keeps (U3 m c) main_arg1 (by decide)).trans (g3_main_arg1 m c)
theorem g4_main_arg2 (m : (ℓ : Loc nD τ sig) → Buf (Elt F) ℓ) (c : Dev nD) : U4 m c (Proc.devRef .tc main_arg2) = (m ((c.tc : Thread nD τ).loc main_arg2)) :=
  (c3_keeps (U3 m c) main_arg2 (by decide)).trans (g3_main_arg2 m c)
theorem g4_main_arg3 (m : (ℓ : Loc nD τ sig) → Buf (Elt F) ℓ) (c : Dev nD) : U4 m c (Proc.devRef .tc main_arg3) = (m ((c.tc : Thread nD τ).loc main_arg3)) :=
  (c3_keeps (U3 m c) main_arg3 (by decide)).trans (g3_main_arg3 m c)
theorem g4_main_arg4 (m : (ℓ : Loc nD τ sig) → Buf (Elt F) ℓ) (c : Dev nD) : U4 m c (Proc.devRef .tc main_arg4) = (m ((c.tc : Thread nD τ).loc main_arg4)) :=
  (c3_keeps (U3 m c) main_arg4 (by decide)).trans (g3_main_arg4 m c)
theorem g4_main_arg5 (m : (ℓ : Loc nD τ sig) → Buf (Elt F) ℓ) (c : Dev nD) : U4 m c (Proc.devRef .tc main_arg5) = (m ((c.tc : Thread nD τ).loc main_arg5)) :=
  (c3_keeps (U3 m c) main_arg5 (by decide)).trans (g3_main_arg5 m c)
theorem g4_main_arg6 (m : (ℓ : Loc nD τ sig) → Buf (Elt F) ℓ) (c : Dev nD) : U4 m c (Proc.devRef .tc main_arg6) = (m ((c.tc : Thread nD τ).loc main_arg6)) :=
  (c3_keeps (U3 m c) main_arg6 (by decide)).trans (g3_main_arg6 m c)
theorem g4_main_arg7 (m : (ℓ : Loc nD τ sig) → Buf (Elt F) ℓ) (c : Dev nD) : U4 m c (Proc.devRef .tc main_arg7) = (m ((c.tc : Thread nD τ).loc main_arg7)) :=
  (c3_keeps (U3 m c) main_arg7 (by decide)).trans (g3_main_arg7 m c)
theorem g4_main_v9 (m : (ℓ : Loc nD τ sig) → Buf (Elt F) ℓ) (c : Dev nD) : U4 m c (Proc.devRef .tc main_v9) = val_main_v9 (F := F) (m ((c.tc : Thread nD τ).loc main_arg15)) :=
  (c3_keeps (U3 m c) main_v9 (by decide)).trans (g3_main_v9 m c)
theorem g4_main_v1 (m : (ℓ : Loc nD τ sig) → Buf (Elt F) ℓ) (c : Dev nD) : U4 m c (Proc.devRef .tc main_v1) = val_main_v1 (F := F) (m ((c.tc : Thread nD τ).loc main_arg14)) :=
  (c3_keeps (U3 m c) main_v1 (by decide)).trans (g3_main_v1 m c)
theorem g4_main_v3 (m : (ℓ : Loc nD τ sig) → Buf (Elt F) ℓ) (c : Dev nD) : U4 m c (Proc.devRef .tc main_v3) = val_main_v3 (F := F) (m ((c.tc : Thread nD τ).loc main_arg14)) :=
  (c3_keeps (U3 m c) main_v3 (by decide)).trans (g3_main_v3 m c)
theorem g4_main_arg8 (m : (ℓ : Loc nD τ sig) → Buf (Elt F) ℓ) (c : Dev nD) : U4 m c (Proc.devRef .tc main_arg8) = (m ((c.tc : Thread nD τ).loc main_arg8)) :=
  (c3_keeps (U3 m c) main_arg8 (by decide)).trans (g3_main_arg8 m c)
theorem g4_main_arg9 (m : (ℓ : Loc nD τ sig) → Buf (Elt F) ℓ) (c : Dev nD) : U4 m c (Proc.devRef .tc main_arg9) = (m ((c.tc : Thread nD τ).loc main_arg9)) :=
  (c3_keeps (U3 m c) main_arg9 (by decide)).trans (g3_main_arg9 m c)
theorem g4_main_arg10 (m : (ℓ : Loc nD τ sig) → Buf (Elt F) ℓ) (c : Dev nD) : U4 m c (Proc.devRef .tc main_arg10) = (m ((c.tc : Thread nD τ).loc main_arg10)) :=
  (c3_keeps (U3 m c) main_arg10 (by decide)).trans (g3_main_arg10 m c)
theorem g4_main_arg11 (m : (ℓ : Loc nD τ sig) → Buf (Elt F) ℓ) (c : Dev nD) : U4 m c (Proc.devRef .tc main_arg11) = (m ((c.tc : Thread nD τ).loc main_arg11)) :=
  (c3_keeps (U3 m c) main_arg11 (by decide)).trans (g3_main_arg11 m c)
theorem g4_main_arg12 (m : (ℓ : Loc nD τ sig) → Buf (Elt F) ℓ) (c : Dev nD) : U4 m c (Proc.devRef .tc main_arg12) = (m ((c.tc : Thread nD τ).loc main_arg12)) :=
  (c3_keeps (U3 m c) main_arg12 (by decide)).trans (g3_main_arg12 m c)
theorem g4_main_arg13 (m : (ℓ : Loc nD τ sig) → Buf (Elt F) ℓ) (c : Dev nD) : U4 m c (Proc.devRef .tc main_arg13) = (m ((c.tc : Thread nD τ).loc main_arg13)) :=
  (c3_keeps (U3 m c) main_arg13 (by decide)).trans (g3_main_arg13 m c)

theorem g5_main_v113 (m : (ℓ : Loc nD τ sig) → Buf (Elt F) ℓ) (c : Dev nD) : U5 m c (Proc.devRef .tc main_v113) = val_main_v113 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg14)) (m ((c.tc : Thread nD τ).loc main_arg15)) :=
  c4_main_v113 (U4 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg14)) (m ((c.tc : Thread nD τ).loc main_arg15)) (g4_main_v103 m c) (g4_main_arg3 m c) (g4_main_arg4 m c)
theorem g5_main_v115 (m : (ℓ : Loc nD τ sig) → Buf (Elt F) ℓ) (c : Dev nD) : U5 m c (Proc.devRef .tc main_v115) = val_main_v115 (F := F) (m ((c.tc : Thread nD τ).loc main_arg5)) :=
  c4_main_v115 (U4 m c) (m ((c.tc : Thread nD τ).loc main_arg5)) (g4_main_arg5 m c)
theorem g5_main_v117 (m : (ℓ : Loc nD τ sig) → Buf (Elt F) ℓ) (c : Dev nD) : U5 m c (Proc.devRef .tc main_v117) = val_main_v117 (F := F) (m ((c.tc : Thread nD τ).loc main_arg6)) :=
  c4_main_v117 (U4 m c) (m ((c.tc : Thread nD τ).loc main_arg6)) (g4_main_arg6 m c)
theorem g5_main_v119 (m : (ℓ : Loc nD τ sig) → Buf (Elt F) ℓ) (c : Dev nD) : U5 m c (Proc.devRef .tc main_v119) = val_main_v119 (F := F) (m ((c.tc : Thread nD τ).loc main_arg7)) :=
  c4_main_v119 (U4 m c) (m ((c.tc : Thread nD τ).loc main_arg7)) (g4_main_arg7 m c)
theorem g5_main_v124 (m : (ℓ : Loc nD τ sig) → Buf (Elt F) ℓ) (c : Dev nD) : U5 m c (Proc.devRef .tc main_v124) = val_main_v124 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg14)) (m ((c.tc : Thread nD τ).loc main_arg15)) :=
  c4_main_v124 (U4 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg14)) (m ((c.tc : Thread nD τ).loc main_arg15)) (g4_main_arg15 m c) (g4_main_v103 m c) (g4_main_arg3 m c) (g4_main_arg4 m c) (g4_main_v9 m c)
theorem g5_main_v126 (m : (ℓ : Loc nD τ sig) → Buf (Elt F) ℓ) (c : Dev nD) : U5 m c (Proc.devRef .tc main_v126) = val_main_v126 (F := F) (m ((c.tc : Thread nD τ).loc main_arg15)) :=
  c4_main_v126 (U4 m c) (m ((c.tc : Thread nD τ).loc main_arg15)) (g4_main_arg15 m c)
theorem g5_main_v128 (m : (ℓ : Loc nD τ sig) → Buf (Elt F) ℓ) (c : Dev nD) : U5 m c (Proc.devRef .tc main_v128) = val_main_v128 (F := F) (m ((c.tc : Thread nD τ).loc main_arg15)) :=
  c4_main_v128 (U4 m c) (m ((c.tc : Thread nD τ).loc main_arg15)) (g4_main_arg15 m c)
theorem g5_main_arg14 (m : (ℓ : Loc nD τ sig) → Buf (Elt F) ℓ) (c : Dev nD) : U5 m c (Proc.devRef .tc main_arg14) = (m ((c.tc : Thread nD τ).loc main_arg14)) :=
  (c4_keeps (U4 m c) main_arg14 (by decide)).trans (g4_main_arg14 m c)
theorem g5_main_arg15 (m : (ℓ : Loc nD τ sig) → Buf (Elt F) ℓ) (c : Dev nD) : U5 m c (Proc.devRef .tc main_arg15) = (m ((c.tc : Thread nD τ).loc main_arg15)) :=
  (c4_keeps (U4 m c) main_arg15 (by decide)).trans (g4_main_arg15 m c)
theorem g5_main_arg0 (m : (ℓ : Loc nD τ sig) → Buf (Elt F) ℓ) (c : Dev nD) : U5 m c (Proc.devRef .tc main_arg0) = (m ((c.tc : Thread nD τ).loc main_arg0)) :=
  (c4_keeps (U4 m c) main_arg0 (by decide)).trans (g4_main_arg0 m c)
theorem g5_main_arg1 (m : (ℓ : Loc nD τ sig) → Buf (Elt F) ℓ) (c : Dev nD) : U5 m c (Proc.devRef .tc main_arg1) = (m ((c.tc : Thread nD τ).loc main_arg1)) :=
  (c4_keeps (U4 m c) main_arg1 (by decide)).trans (g4_main_arg1 m c)
theorem g5_main_arg2 (m : (ℓ : Loc nD τ sig) → Buf (Elt F) ℓ) (c : Dev nD) : U5 m c (Proc.devRef .tc main_arg2) = (m ((c.tc : Thread nD τ).loc main_arg2)) :=
  (c4_keeps (U4 m c) main_arg2 (by decide)).trans (g4_main_arg2 m c)
theorem g5_main_arg3 (m : (ℓ : Loc nD τ sig) → Buf (Elt F) ℓ) (c : Dev nD) : U5 m c (Proc.devRef .tc main_arg3) = (m ((c.tc : Thread nD τ).loc main_arg3)) :=
  (c4_keeps (U4 m c) main_arg3 (by decide)).trans (g4_main_arg3 m c)
theorem g5_main_arg4 (m : (ℓ : Loc nD τ sig) → Buf (Elt F) ℓ) (c : Dev nD) : U5 m c (Proc.devRef .tc main_arg4) = (m ((c.tc : Thread nD τ).loc main_arg4)) :=
  (c4_keeps (U4 m c) main_arg4 (by decide)).trans (g4_main_arg4 m c)
theorem g5_main_arg5 (m : (ℓ : Loc nD τ sig) → Buf (Elt F) ℓ) (c : Dev nD) : U5 m c (Proc.devRef .tc main_arg5) = (m ((c.tc : Thread nD τ).loc main_arg5)) :=
  (c4_keeps (U4 m c) main_arg5 (by decide)).trans (g4_main_arg5 m c)
theorem g5_main_arg6 (m : (ℓ : Loc nD τ sig) → Buf (Elt F) ℓ) (c : Dev nD) : U5 m c (Proc.devRef .tc main_arg6) = (m ((c.tc : Thread nD τ).loc main_arg6)) :=
  (c4_keeps (U4 m c) main_arg6 (by decide)).trans (g4_main_arg6 m c)
theorem g5_main_arg7 (m : (ℓ : Loc nD τ sig) → Buf (Elt F) ℓ) (c : Dev nD) : U5 m c (Proc.devRef .tc main_arg7) = (m ((c.tc : Thread nD τ).loc main_arg7)) :=
  (c4_keeps (U4 m c) main_arg7 (by decide)).trans (g4_main_arg7 m c)
theorem g5_main_v9 (m : (ℓ : Loc nD τ sig) → Buf (Elt F) ℓ) (c : Dev nD) : U5 m c (Proc.devRef .tc main_v9) = val_main_v9 (F := F) (m ((c.tc : Thread nD τ).loc main_arg15)) :=
  (c4_keeps (U4 m c) main_v9 (by decide)).trans (g4_main_v9 m c)
theorem g5_main_v1 (m : (ℓ : Loc nD τ sig) → Buf (Elt F) ℓ) (c : Dev nD) : U5 m c (Proc.devRef .tc main_v1) = val_main_v1 (F := F) (m ((c.tc : Thread nD τ).loc main_arg14)) :=
  (c4_keeps (U4 m c) main_v1 (by decide)).trans (g4_main_v1 m c)
theorem g5_main_v3 (m : (ℓ : Loc nD τ sig) → Buf (Elt F) ℓ) (c : Dev nD) : U5 m c (Proc.devRef .tc main_v3) = val_main_v3 (F := F) (m ((c.tc : Thread nD τ).loc main_arg14)) :=
  (c4_keeps (U4 m c) main_v3 (by decide)).trans (g4_main_v3 m c)
theorem g5_main_arg8 (m : (ℓ : Loc nD τ sig) → Buf (Elt F) ℓ) (c : Dev nD) : U5 m c (Proc.devRef .tc main_arg8) = (m ((c.tc : Thread nD τ).loc main_arg8)) :=
  (c4_keeps (U4 m c) main_arg8 (by decide)).trans (g4_main_arg8 m c)
theorem g5_main_arg9 (m : (ℓ : Loc nD τ sig) → Buf (Elt F) ℓ) (c : Dev nD) : U5 m c (Proc.devRef .tc main_arg9) = (m ((c.tc : Thread nD τ).loc main_arg9)) :=
  (c4_keeps (U4 m c) main_arg9 (by decide)).trans (g4_main_arg9 m c)
theorem g5_main_arg10 (m : (ℓ : Loc nD τ sig) → Buf (Elt F) ℓ) (c : Dev nD) : U5 m c (Proc.devRef .tc main_arg10) = (m ((c.tc : Thread nD τ).loc main_arg10)) :=
  (c4_keeps (U4 m c) main_arg10 (by decide)).trans (g4_main_arg10 m c)
theorem g5_main_arg11 (m : (ℓ : Loc nD τ sig) → Buf (Elt F) ℓ) (c : Dev nD) : U5 m c (Proc.devRef .tc main_arg11) = (m ((c.tc : Thread nD τ).loc main_arg11)) :=
  (c4_keeps (U4 m c) main_arg11 (by decide)).trans (g4_main_arg11 m c)
theorem g5_main_arg12 (m : (ℓ : Loc nD τ sig) → Buf (Elt F) ℓ) (c : Dev nD) : U5 m c (Proc.devRef .tc main_arg12) = (m ((c.tc : Thread nD τ).loc main_arg12)) :=
  (c4_keeps (U4 m c) main_arg12 (by decide)).trans (g4_main_arg12 m c)
theorem g5_main_arg13 (m : (ℓ : Loc nD τ sig) → Buf (Elt F) ℓ) (c : Dev nD) : U5 m c (Proc.devRef .tc main_arg13) = (m ((c.tc : Thread nD τ).loc main_arg13)) :=
  (c4_keeps (U4 m c) main_arg13 (by decide)).trans (g4_main_arg13 m c)

theorem g6_main_v155 (m : (ℓ : Loc nD τ sig) → Buf (Elt F) ℓ) (c : Dev nD) : U6 m c (Proc.devRef .tc main_v155) = val_main_v155 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg14)) (m ((c.tc : Thread nD τ).loc main_arg15)) :=
  c5_main_v155 (U5 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg14)) (m ((c.tc : Thread nD τ).loc main_arg15)) (g5_main_v115 m c) (g5_main_v113 m c) (g5_main_v124 m c) (g5_main_v126 m c) (g5_main_v128 m c) (g5_main_arg15 m c) (g5_main_v119 m c) (g5_main_v9 m c)
theorem g6_main_v156 (m : (ℓ : Loc nD τ sig) → Buf (Elt F) ℓ) (c : Dev nD) : U6 m c (Proc.devRef .tc main_v156) = val_main_v156 (F := F) (m ((c.tc : Thread nD τ).loc main_arg6)) :=
  c5_main_v156 (U5 m c) (m ((c.tc : Thread nD τ).loc main_arg6)) (g5_main_v117 m c)
theorem g6_main_arg14 (m : (ℓ : Loc nD τ sig) → Buf (Elt F) ℓ) (c : Dev nD) : U6 m c (Proc.devRef .tc main_arg14) = (m ((c.tc : Thread nD τ).loc main_arg14)) :=
  (c5_keeps (U5 m c) main_arg14 (by decide)).trans (g5_main_arg14 m c)
theorem g6_main_arg15 (m : (ℓ : Loc nD τ sig) → Buf (Elt F) ℓ) (c : Dev nD) : U6 m c (Proc.devRef .tc main_arg15) = (m ((c.tc : Thread nD τ).loc main_arg15)) :=
  (c5_keeps (U5 m c) main_arg15 (by decide)).trans (g5_main_arg15 m c)
theorem g6_main_arg0 (m : (ℓ : Loc nD τ sig) → Buf (Elt F) ℓ) (c : Dev nD) : U6 m c (Proc.devRef .tc main_arg0) = (m ((c.tc : Thread nD τ).loc main_arg0)) :=
  (c5_keeps (U5 m c) main_arg0 (by decide)).trans (g5_main_arg0 m c)
theorem g6_main_arg1 (m : (ℓ : Loc nD τ sig) → Buf (Elt F) ℓ) (c : Dev nD) : U6 m c (Proc.devRef .tc main_arg1) = (m ((c.tc : Thread nD τ).loc main_arg1)) :=
  (c5_keeps (U5 m c) main_arg1 (by decide)).trans (g5_main_arg1 m c)
theorem g6_main_arg2 (m : (ℓ : Loc nD τ sig) → Buf (Elt F) ℓ) (c : Dev nD) : U6 m c (Proc.devRef .tc main_arg2) = (m ((c.tc : Thread nD τ).loc main_arg2)) :=
  (c5_keeps (U5 m c) main_arg2 (by decide)).trans (g5_main_arg2 m c)
theorem g6_main_arg3 (m : (ℓ : Loc nD τ sig) → Buf (Elt F) ℓ) (c : Dev nD) : U6 m c (Proc.devRef .tc main_arg3) = (m ((c.tc : Thread nD τ).loc main_arg3)) :=
  (c5_keeps (U5 m c) main_arg3 (by decide)).trans (g5_main_arg3 m c)
theorem g6_main_arg4 (m : (ℓ : Loc nD τ sig) → Buf (Elt F) ℓ) (c : Dev nD) : U6 m c (Proc.devRef .tc main_arg4) = (m ((c.tc : Thread nD τ).loc main_arg4)) :=
  (c5_keeps (U5 m c) main_arg4 (by decide)).trans (g5_main_arg4 m c)
theorem g6_main_arg5 (m : (ℓ : Loc nD τ sig) → Buf (Elt F) ℓ) (c : Dev nD) : U6 m c (Proc.devRef .tc main_arg5) = (m ((c.tc : Thread nD τ).loc main_arg5)) :=
  (c5_keeps (U5 m c) main_arg5 (by decide)).trans (g5_main_arg5 m c)
theorem g6_main_arg6 (m : (ℓ : Loc nD τ sig) → Buf (Elt F) ℓ) (c : Dev nD) : U6 m c (Proc.devRef .tc main_arg6) = (m ((c.tc : Thread nD τ).loc main_arg6)) :=
  (c5_keeps (U5 m c) main_arg6 (by decide)).trans (g5_main_arg6 m c)
theorem g6_main_arg7 (m : (ℓ : Loc nD τ sig) → Buf (Elt F) ℓ) (c : Dev nD) : U6 m c (Proc.devRef .tc main_arg7) = (m ((c.tc : Thread nD τ).loc main_arg7)) :=
  (c5_keeps (U5 m c) main_arg7 (by decide)).trans (g5_main_arg7 m c)
theorem g6_main_v9 (m : (ℓ : Loc nD τ sig) → Buf (Elt F) ℓ) (c : Dev nD) : U6 m c (Proc.devRef .tc main_v9) = val_main_v9 (F := F) (m ((c.tc : Thread nD τ).loc main_arg15)) :=
  (c5_keeps (U5 m c) main_v9 (by decide)).trans (g5_main_v9 m c)
theorem g6_main_v1 (m : (ℓ : Loc nD τ sig) → Buf (Elt F) ℓ) (c : Dev nD) : U6 m c (Proc.devRef .tc main_v1) = val_main_v1 (F := F) (m ((c.tc : Thread nD τ).loc main_arg14)) :=
  (c5_keeps (U5 m c) main_v1 (by decide)).trans (g5_main_v1 m c)
theorem g6_main_v3 (m : (ℓ : Loc nD τ sig) → Buf (Elt F) ℓ) (c : Dev nD) : U6 m c (Proc.devRef .tc main_v3) = val_main_v3 (F := F) (m ((c.tc : Thread nD τ).loc main_arg14)) :=
  (c5_keeps (U5 m c) main_v3 (by decide)).trans (g5_main_v3 m c)
theorem g6_main_arg8 (m : (ℓ : Loc nD τ sig) → Buf (Elt F) ℓ) (c : Dev nD) : U6 m c (Proc.devRef .tc main_arg8) = (m ((c.tc : Thread nD τ).loc main_arg8)) :=
  (c5_keeps (U5 m c) main_arg8 (by decide)).trans (g5_main_arg8 m c)
theorem g6_main_arg9 (m : (ℓ : Loc nD τ sig) → Buf (Elt F) ℓ) (c : Dev nD) : U6 m c (Proc.devRef .tc main_arg9) = (m ((c.tc : Thread nD τ).loc main_arg9)) :=
  (c5_keeps (U5 m c) main_arg9 (by decide)).trans (g5_main_arg9 m c)
theorem g6_main_arg10 (m : (ℓ : Loc nD τ sig) → Buf (Elt F) ℓ) (c : Dev nD) : U6 m c (Proc.devRef .tc main_arg10) = (m ((c.tc : Thread nD τ).loc main_arg10)) :=
  (c5_keeps (U5 m c) main_arg10 (by decide)).trans (g5_main_arg10 m c)
theorem g6_main_arg11 (m : (ℓ : Loc nD τ sig) → Buf (Elt F) ℓ) (c : Dev nD) : U6 m c (Proc.devRef .tc main_arg11) = (m ((c.tc : Thread nD τ).loc main_arg11)) :=
  (c5_keeps (U5 m c) main_arg11 (by decide)).trans (g5_main_arg11 m c)
theorem g6_main_arg12 (m : (ℓ : Loc nD τ sig) → Buf (Elt F) ℓ) (c : Dev nD) : U6 m c (Proc.devRef .tc main_arg12) = (m ((c.tc : Thread nD τ).loc main_arg12)) :=
  (c5_keeps (U5 m c) main_arg12 (by decide)).trans (g5_main_arg12 m c)
theorem g6_main_arg13 (m : (ℓ : Loc nD τ sig) → Buf (Elt F) ℓ) (c : Dev nD) : U6 m c (Proc.devRef .tc main_arg13) = (m ((c.tc : Thread nD τ).loc main_arg13)) :=
  (c5_keeps (U5 m c) main_arg13 (by decide)).trans (g5_main_arg13 m c)

theorem g7_main_v182 (m : (ℓ : Loc nD τ sig) → Buf (Elt F) ℓ) (c : Dev nD) : U7 m c (Proc.devRef .tc main_v182) = val_main_v182 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg14)) (m ((c.tc : Thread nD τ).loc main_arg15)) :=
  c6_main_v182 (U6 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg14)) (m ((c.tc : Thread nD τ).loc main_arg15)) (g6_main_v155 m c) (g6_main_v156 m c) (g6_main_v3 m c) (g6_main_v1 m c) (g6_main_arg1 m c) (g6_main_arg2 m c) (g6_main_arg3 m c)
theorem g7_main_arg14 (m : (ℓ : Loc nD τ sig) → Buf (Elt F) ℓ) (c : Dev nD) : U7 m c (Proc.devRef .tc main_arg14) = (m ((c.tc : Thread nD τ).loc main_arg14)) :=
  (c6_keeps (U6 m c) main_arg14 (by decide)).trans (g6_main_arg14 m c)
theorem g7_main_arg15 (m : (ℓ : Loc nD τ sig) → Buf (Elt F) ℓ) (c : Dev nD) : U7 m c (Proc.devRef .tc main_arg15) = (m ((c.tc : Thread nD τ).loc main_arg15)) :=
  (c6_keeps (U6 m c) main_arg15 (by decide)).trans (g6_main_arg15 m c)
theorem g7_main_arg0 (m : (ℓ : Loc nD τ sig) → Buf (Elt F) ℓ) (c : Dev nD) : U7 m c (Proc.devRef .tc main_arg0) = (m ((c.tc : Thread nD τ).loc main_arg0)) :=
  (c6_keeps (U6 m c) main_arg0 (by decide)).trans (g6_main_arg0 m c)
theorem g7_main_arg1 (m : (ℓ : Loc nD τ sig) → Buf (Elt F) ℓ) (c : Dev nD) : U7 m c (Proc.devRef .tc main_arg1) = (m ((c.tc : Thread nD τ).loc main_arg1)) :=
  (c6_keeps (U6 m c) main_arg1 (by decide)).trans (g6_main_arg1 m c)
theorem g7_main_arg2 (m : (ℓ : Loc nD τ sig) → Buf (Elt F) ℓ) (c : Dev nD) : U7 m c (Proc.devRef .tc main_arg2) = (m ((c.tc : Thread nD τ).loc main_arg2)) :=
  (c6_keeps (U6 m c) main_arg2 (by decide)).trans (g6_main_arg2 m c)
theorem g7_main_arg3 (m : (ℓ : Loc nD τ sig) → Buf (Elt F) ℓ) (c : Dev nD) : U7 m c (Proc.devRef .tc main_arg3) = (m ((c.tc : Thread nD τ).loc main_arg3)) :=
  (c6_keeps (U6 m c) main_arg3 (by decide)).trans (g6_main_arg3 m c)
theorem g7_main_arg4 (m : (ℓ : Loc nD τ sig) → Buf (Elt F) ℓ) (c : Dev nD) : U7 m c (Proc.devRef .tc main_arg4) = (m ((c.tc : Thread nD τ).loc main_arg4)) :=
  (c6_keeps (U6 m c) main_arg4 (by decide)).trans (g6_main_arg4 m c)
theorem g7_main_arg5 (m : (ℓ : Loc nD τ sig) → Buf (Elt F) ℓ) (c : Dev nD) : U7 m c (Proc.devRef .tc main_arg5) = (m ((c.tc : Thread nD τ).loc main_arg5)) :=
  (c6_keeps (U6 m c) main_arg5 (by decide)).trans (g6_main_arg5 m c)
theorem g7_main_arg6 (m : (ℓ : Loc nD τ sig) → Buf (Elt F) ℓ) (c : Dev nD) : U7 m c (Proc.devRef .tc main_arg6) = (m ((c.tc : Thread nD τ).loc main_arg6)) :=
  (c6_keeps (U6 m c) main_arg6 (by decide)).trans (g6_main_arg6 m c)
theorem g7_main_arg7 (m : (ℓ : Loc nD τ sig) → Buf (Elt F) ℓ) (c : Dev nD) : U7 m c (Proc.devRef .tc main_arg7) = (m ((c.tc : Thread nD τ).loc main_arg7)) :=
  (c6_keeps (U6 m c) main_arg7 (by decide)).trans (g6_main_arg7 m c)
theorem g7_main_v9 (m : (ℓ : Loc nD τ sig) → Buf (Elt F) ℓ) (c : Dev nD) : U7 m c (Proc.devRef .tc main_v9) = val_main_v9 (F := F) (m ((c.tc : Thread nD τ).loc main_arg15)) :=
  (c6_keeps (U6 m c) main_v9 (by decide)).trans (g6_main_v9 m c)
theorem g7_main_v1 (m : (ℓ : Loc nD τ sig) → Buf (Elt F) ℓ) (c : Dev nD) : U7 m c (Proc.devRef .tc main_v1) = val_main_v1 (F := F) (m ((c.tc : Thread nD τ).loc main_arg14)) :=
  (c6_keeps (U6 m c) main_v1 (by decide)).trans (g6_main_v1 m c)
theorem g7_main_v3 (m : (ℓ : Loc nD τ sig) → Buf (Elt F) ℓ) (c : Dev nD) : U7 m c (Proc.devRef .tc main_v3) = val_main_v3 (F := F) (m ((c.tc : Thread nD τ).loc main_arg14)) :=
  (c6_keeps (U6 m c) main_v3 (by decide)).trans (g6_main_v3 m c)
theorem g7_main_arg8 (m : (ℓ : Loc nD τ sig) → Buf (Elt F) ℓ) (c : Dev nD) : U7 m c (Proc.devRef .tc main_arg8) = (m ((c.tc : Thread nD τ).loc main_arg8)) :=
  (c6_keeps (U6 m c) main_arg8 (by decide)).trans (g6_main_arg8 m c)
theorem g7_main_arg9 (m : (ℓ : Loc nD τ sig) → Buf (Elt F) ℓ) (c : Dev nD) : U7 m c (Proc.devRef .tc main_arg9) = (m ((c.tc : Thread nD τ).loc main_arg9)) :=
  (c6_keeps (U6 m c) main_arg9 (by decide)).trans (g6_main_arg9 m c)
theorem g7_main_arg10 (m : (ℓ : Loc nD τ sig) → Buf (Elt F) ℓ) (c : Dev nD) : U7 m c (Proc.devRef .tc main_arg10) = (m ((c.tc : Thread nD τ).loc main_arg10)) :=
  (c6_keeps (U6 m c) main_arg10 (by decide)).trans (g6_main_arg10 m c)
theorem g7_main_arg11 (m : (ℓ : Loc nD τ sig) → Buf (Elt F) ℓ) (c : Dev nD) : U7 m c (Proc.devRef .tc main_arg11) = (m ((c.tc : Thread nD τ).loc main_arg11)) :=
  (c6_keeps (U6 m c) main_arg11 (by decide)).trans (g6_main_arg11 m c)
theorem g7_main_arg12 (m : (ℓ : Loc nD τ sig) → Buf (Elt F) ℓ) (c : Dev nD) : U7 m c (Proc.devRef .tc main_arg12) = (m ((c.tc : Thread nD τ).loc main_arg12)) :=
  (c6_keeps (U6 m c) main_arg12 (by decide)).trans (g6_main_arg12 m c)
theorem g7_main_arg13 (m : (ℓ : Loc nD τ sig) → Buf (Elt F) ℓ) (c : Dev nD) : U7 m c (Proc.devRef .tc main_arg13) = (m ((c.tc : Thread nD τ).loc main_arg13)) :=
  (c6_keeps (U6 m c) main_arg13 (by decide)).trans (g6_main_arg13 m c)

theorem g8_main_v190 (m : (ℓ : Loc nD τ sig) → Buf (Elt F) ℓ) (c : Dev nD) : U8 m c (Proc.devRef .tc main_v190) = val_main_v190 (F := F) (m ((c.tc : Thread nD τ).loc main_arg5)) :=
  c7_main_v190 (U7 m c) (m ((c.tc : Thread nD τ).loc main_arg5)) (g7_main_arg5 m c)
theorem g8_main_v192 (m : (ℓ : Loc nD τ sig) → Buf (Elt F) ℓ) (c : Dev nD) : U8 m c (Proc.devRef .tc main_v192) = val_main_v192 (F := F) (m ((c.tc : Thread nD τ).loc main_arg6)) :=
  c7_main_v192 (U7 m c) (m ((c.tc : Thread nD τ).loc main_arg6)) (g7_main_arg6 m c)
theorem g8_main_v210 (m : (ℓ : Loc nD τ sig) → Buf (Elt F) ℓ) (c : Dev nD) : U8 m c (Proc.devRef .tc main_v210) = val_main_v210 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg14)) (m ((c.tc : Thread nD τ).loc main_arg15)) :=
  c7_main_v210 (U7 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg14)) (m ((c.tc : Thread nD τ).loc main_arg15)) (g7_main_v182 m c) (g7_main_arg4 m c) (g7_main_arg15 m c) (g7_main_v9 m c) (g7_main_arg7 m c)
theorem g8_main_arg14 (m : (ℓ : Loc nD τ sig) → Buf (Elt F) ℓ) (c : Dev nD) : U8 m c (Proc.devRef .tc main_arg14) = (m ((c.tc : Thread nD τ).loc main_arg14)) :=
  (c7_keeps (U7 m c) main_arg14 (by decide)).trans (g7_main_arg14 m c)
theorem g8_main_arg15 (m : (ℓ : Loc nD τ sig) → Buf (Elt F) ℓ) (c : Dev nD) : U8 m c (Proc.devRef .tc main_arg15) = (m ((c.tc : Thread nD τ).loc main_arg15)) :=
  (c7_keeps (U7 m c) main_arg15 (by decide)).trans (g7_main_arg15 m c)
theorem g8_main_arg0 (m : (ℓ : Loc nD τ sig) → Buf (Elt F) ℓ) (c : Dev nD) : U8 m c (Proc.devRef .tc main_arg0) = (m ((c.tc : Thread nD τ).loc main_arg0)) :=
  (c7_keeps (U7 m c) main_arg0 (by decide)).trans (g7_main_arg0 m c)
theorem g8_main_arg1 (m : (ℓ : Loc nD τ sig) → Buf (Elt F) ℓ) (c : Dev nD) : U8 m c (Proc.devRef .tc main_arg1) = (m ((c.tc : Thread nD τ).loc main_arg1)) :=
  (c7_keeps (U7 m c) main_arg1 (by decide)).trans (g7_main_arg1 m c)
theorem g8_main_arg2 (m : (ℓ : Loc nD τ sig) → Buf (Elt F) ℓ) (c : Dev nD) : U8 m c (Proc.devRef .tc main_arg2) = (m ((c.tc : Thread nD τ).loc main_arg2)) :=
  (c7_keeps (U7 m c) main_arg2 (by decide)).trans (g7_main_arg2 m c)
theorem g8_main_arg3 (m : (ℓ : Loc nD τ sig) → Buf (Elt F) ℓ) (c : Dev nD) : U8 m c (Proc.devRef .tc main_arg3) = (m ((c.tc : Thread nD τ).loc main_arg3)) :=
  (c7_keeps (U7 m c) main_arg3 (by decide)).trans (g7_main_arg3 m c)
theorem g8_main_arg4 (m : (ℓ : Loc nD τ sig) → Buf (Elt F) ℓ) (c : Dev nD) : U8 m c (Proc.devRef .tc main_arg4) = (m ((c.tc : Thread nD τ).loc main_arg4)) :=
  (c7_keeps (U7 m c) main_arg4 (by decide)).trans (g7_main_arg4 m c)
theorem g8_main_arg5 (m : (ℓ : Loc nD τ sig) → Buf (Elt F) ℓ) (c : Dev nD) : U8 m c (Proc.devRef .tc main_arg5) = (m ((c.tc : Thread nD τ).loc main_arg5)) :=
  (c7_keeps (U7 m c) main_arg5 (by decide)).trans (g7_main_arg5 m c)
theorem g8_main_arg6 (m : (ℓ : Loc nD τ sig) → Buf (Elt F) ℓ) (c : Dev nD) : U8 m c (Proc.devRef .tc main_arg6) = (m ((c.tc : Thread nD τ).loc main_arg6)) :=
  (c7_keeps (U7 m c) main_arg6 (by decide)).trans (g7_main_arg6 m c)
theorem g8_main_arg7 (m : (ℓ : Loc nD τ sig) → Buf (Elt F) ℓ) (c : Dev nD) : U8 m c (Proc.devRef .tc main_arg7) = (m ((c.tc : Thread nD τ).loc main_arg7)) :=
  (c7_keeps (U7 m c) main_arg7 (by decide)).trans (g7_main_arg7 m c)
theorem g8_main_v9 (m : (ℓ : Loc nD τ sig) → Buf (Elt F) ℓ) (c : Dev nD) : U8 m c (Proc.devRef .tc main_v9) = val_main_v9 (F := F) (m ((c.tc : Thread nD τ).loc main_arg15)) :=
  (c7_keeps (U7 m c) main_v9 (by decide)).trans (g7_main_v9 m c)
theorem g8_main_v1 (m : (ℓ : Loc nD τ sig) → Buf (Elt F) ℓ) (c : Dev nD) : U8 m c (Proc.devRef .tc main_v1) = val_main_v1 (F := F) (m ((c.tc : Thread nD τ).loc main_arg14)) :=
  (c7_keeps (U7 m c) main_v1 (by decide)).trans (g7_main_v1 m c)
theorem g8_main_v3 (m : (ℓ : Loc nD τ sig) → Buf (Elt F) ℓ) (c : Dev nD) : U8 m c (Proc.devRef .tc main_v3) = val_main_v3 (F := F) (m ((c.tc : Thread nD τ).loc main_arg14)) :=
  (c7_keeps (U7 m c) main_v3 (by decide)).trans (g7_main_v3 m c)
theorem g8_main_arg8 (m : (ℓ : Loc nD τ sig) → Buf (Elt F) ℓ) (c : Dev nD) : U8 m c (Proc.devRef .tc main_arg8) = (m ((c.tc : Thread nD τ).loc main_arg8)) :=
  (c7_keeps (U7 m c) main_arg8 (by decide)).trans (g7_main_arg8 m c)
theorem g8_main_arg9 (m : (ℓ : Loc nD τ sig) → Buf (Elt F) ℓ) (c : Dev nD) : U8 m c (Proc.devRef .tc main_arg9) = (m ((c.tc : Thread nD τ).loc main_arg9)) :=
  (c7_keeps (U7 m c) main_arg9 (by decide)).trans (g7_main_arg9 m c)
theorem g8_main_arg10 (m : (ℓ : Loc nD τ sig) → Buf (Elt F) ℓ) (c : Dev nD) : U8 m c (Proc.devRef .tc main_arg10) = (m ((c.tc : Thread nD τ).loc main_arg10)) :=
  (c7_keeps (U7 m c) main_arg10 (by decide)).trans (g7_main_arg10 m c)
theorem g8_main_arg11 (m : (ℓ : Loc nD τ sig) → Buf (Elt F) ℓ) (c : Dev nD) : U8 m c (Proc.devRef .tc main_arg11) = (m ((c.tc : Thread nD τ).loc main_arg11)) :=
  (c7_keeps (U7 m c) main_arg11 (by decide)).trans (g7_main_arg11 m c)
theorem g8_main_arg12 (m : (ℓ : Loc nD τ sig) → Buf (Elt F) ℓ) (c : Dev nD) : U8 m c (Proc.devRef .tc main_arg12) = (m ((c.tc : Thread nD τ).loc main_arg12)) :=
  (c7_keeps (U7 m c) main_arg12 (by decide)).trans (g7_main_arg12 m c)
theorem g8_main_arg13 (m : (ℓ : Loc nD τ sig) → Buf (Elt F) ℓ) (c : Dev nD) : U8 m c (Proc.devRef .tc main_arg13) = (m ((c.tc : Thread nD τ).loc main_arg13)) :=
  (c7_keeps (U7 m c) main_arg13 (by decide)).trans (g7_main_arg13 m c)

theorem g9_main_v234 (m : (ℓ : Loc nD τ sig) → Buf (Elt F) ℓ) (c : Dev nD) : U9 m c (Proc.devRef .tc main_v234) = val_main_v234 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg14)) (m ((c.tc : Thread nD τ).loc main_arg15)) :=
  c8_main_v234 (U8 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg14)) (m ((c.tc : Thread nD τ).loc main_arg15)) (g8_main_v190 m c) (g8_main_v210 m c) (g8_main_arg15 m c) (g8_main_v9 m c) (g8_main_v192 m c)
theorem g9_main_v236 (m : (ℓ : Loc nD τ sig) → Buf (Elt F) ℓ) (c : Dev nD) : U9 m c (Proc.devRef .tc main_v236) = val_main_v236 (F := F) (m ((c.tc : Thread nD τ).loc main_arg14)) :=
  c8_main_v236 (U8 m c) (m ((c.tc : Thread nD τ).loc main_arg14)) (g8_main_v1 m c)
theorem g9_main_arg14 (m : (ℓ : Loc nD τ sig) → Buf (Elt F) ℓ) (c : Dev nD) : U9 m c (Proc.devRef .tc main_arg14) = (m ((c.tc : Thread nD τ).loc main_arg14)) :=
  (c8_keeps (U8 m c) main_arg14 (by decide)).trans (g8_main_arg14 m c)
theorem g9_main_arg15 (m : (ℓ : Loc nD τ sig) → Buf (Elt F) ℓ) (c : Dev nD) : U9 m c (Proc.devRef .tc main_arg15) = (m ((c.tc : Thread nD τ).loc main_arg15)) :=
  (c8_keeps (U8 m c) main_arg15 (by decide)).trans (g8_main_arg15 m c)
theorem g9_main_arg0 (m : (ℓ : Loc nD τ sig) → Buf (Elt F) ℓ) (c : Dev nD) : U9 m c (Proc.devRef .tc main_arg0) = (m ((c.tc : Thread nD τ).loc main_arg0)) :=
  (c8_keeps (U8 m c) main_arg0 (by decide)).trans (g8_main_arg0 m c)
theorem g9_main_arg1 (m : (ℓ : Loc nD τ sig) → Buf (Elt F) ℓ) (c : Dev nD) : U9 m c (Proc.devRef .tc main_arg1) = (m ((c.tc : Thread nD τ).loc main_arg1)) :=
  (c8_keeps (U8 m c) main_arg1 (by decide)).trans (g8_main_arg1 m c)
theorem g9_main_arg2 (m : (ℓ : Loc nD τ sig) → Buf (Elt F) ℓ) (c : Dev nD) : U9 m c (Proc.devRef .tc main_arg2) = (m ((c.tc : Thread nD τ).loc main_arg2)) :=
  (c8_keeps (U8 m c) main_arg2 (by decide)).trans (g8_main_arg2 m c)
theorem g9_main_arg3 (m : (ℓ : Loc nD τ sig) → Buf (Elt F) ℓ) (c : Dev nD) : U9 m c (Proc.devRef .tc main_arg3) = (m ((c.tc : Thread nD τ).loc main_arg3)) :=
  (c8_keeps (U8 m c) main_arg3 (by decide)).trans (g8_main_arg3 m c)
theorem g9_main_arg4 (m : (ℓ : Loc nD τ sig) → Buf (Elt F) ℓ) (c : Dev nD) : U9 m c (Proc.devRef .tc main_arg4) = (m ((c.tc : Thread nD τ).loc main_arg4)) :=
  (c8_keeps (U8 m c) main_arg4 (by decide)).trans (g8_main_arg4 m c)
theorem g9_main_arg5 (m : (ℓ : Loc nD τ sig) → Buf (Elt F) ℓ) (c : Dev nD) : U9 m c (Proc.devRef .tc main_arg5) = (m ((c.tc : Thread nD τ).loc main_arg5)) :=
  (c8_keeps (U8 m c) main_arg5 (by decide)).trans (g8_main_arg5 m c)
theorem g9_main_arg6 (m : (ℓ : Loc nD τ sig) → Buf (Elt F) ℓ) (c : Dev nD) : U9 m c (Proc.devRef .tc main_arg6) = (m ((c.tc : Thread nD τ).loc main_arg6)) :=
  (c8_keeps (U8 m c) main_arg6 (by decide)).trans (g8_main_arg6 m c)
theorem g9_main_arg7 (m : (ℓ : Loc nD τ sig) → Buf (Elt F) ℓ) (c : Dev nD) : U9 m c (Proc.devRef .tc main_arg7) = (m ((c.tc : Thread nD τ).loc main_arg7)) :=
  (c8_keeps (U8 m c) main_arg7 (by decide)).trans (g8_main_arg7 m c)
theorem g9_main_v9 (m : (ℓ : Loc nD τ sig) → Buf (Elt F) ℓ) (c : Dev nD) : U9 m c (Proc.devRef .tc main_v9) = val_main_v9 (F := F) (m ((c.tc : Thread nD τ).loc main_arg15)) :=
  (c8_keeps (U8 m c) main_v9 (by decide)).trans (g8_main_v9 m c)
theorem g9_main_v1 (m : (ℓ : Loc nD τ sig) → Buf (Elt F) ℓ) (c : Dev nD) : U9 m c (Proc.devRef .tc main_v1) = val_main_v1 (F := F) (m ((c.tc : Thread nD τ).loc main_arg14)) :=
  (c8_keeps (U8 m c) main_v1 (by decide)).trans (g8_main_v1 m c)
theorem g9_main_v3 (m : (ℓ : Loc nD τ sig) → Buf (Elt F) ℓ) (c : Dev nD) : U9 m c (Proc.devRef .tc main_v3) = val_main_v3 (F := F) (m ((c.tc : Thread nD τ).loc main_arg14)) :=
  (c8_keeps (U8 m c) main_v3 (by decide)).trans (g8_main_v3 m c)
theorem g9_main_arg8 (m : (ℓ : Loc nD τ sig) → Buf (Elt F) ℓ) (c : Dev nD) : U9 m c (Proc.devRef .tc main_arg8) = (m ((c.tc : Thread nD τ).loc main_arg8)) :=
  (c8_keeps (U8 m c) main_arg8 (by decide)).trans (g8_main_arg8 m c)
theorem g9_main_arg9 (m : (ℓ : Loc nD τ sig) → Buf (Elt F) ℓ) (c : Dev nD) : U9 m c (Proc.devRef .tc main_arg9) = (m ((c.tc : Thread nD τ).loc main_arg9)) :=
  (c8_keeps (U8 m c) main_arg9 (by decide)).trans (g8_main_arg9 m c)
theorem g9_main_arg10 (m : (ℓ : Loc nD τ sig) → Buf (Elt F) ℓ) (c : Dev nD) : U9 m c (Proc.devRef .tc main_arg10) = (m ((c.tc : Thread nD τ).loc main_arg10)) :=
  (c8_keeps (U8 m c) main_arg10 (by decide)).trans (g8_main_arg10 m c)
theorem g9_main_arg11 (m : (ℓ : Loc nD τ sig) → Buf (Elt F) ℓ) (c : Dev nD) : U9 m c (Proc.devRef .tc main_arg11) = (m ((c.tc : Thread nD τ).loc main_arg11)) :=
  (c8_keeps (U8 m c) main_arg11 (by decide)).trans (g8_main_arg11 m c)
theorem g9_main_arg12 (m : (ℓ : Loc nD τ sig) → Buf (Elt F) ℓ) (c : Dev nD) : U9 m c (Proc.devRef .tc main_arg12) = (m ((c.tc : Thread nD τ).loc main_arg12)) :=
  (c8_keeps (U8 m c) main_arg12 (by decide)).trans (g8_main_arg12 m c)
theorem g9_main_arg13 (m : (ℓ : Loc nD τ sig) → Buf (Elt F) ℓ) (c : Dev nD) : U9 m c (Proc.devRef .tc main_arg13) = (m ((c.tc : Thread nD τ).loc main_arg13)) :=
  (c8_keeps (U8 m c) main_arg13 (by decide)).trans (g8_main_arg13 m c)

theorem g10_main_v263 (m : (ℓ : Loc nD τ sig) → Buf (Elt F) ℓ) (c : Dev nD) : U10 m c (Proc.devRef .tc main_v263) = val_main_v263 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg14)) (m ((c.tc : Thread nD τ).loc main_arg15)) :=
  c9_main_v263 (U9 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg14)) (m ((c.tc : Thread nD τ).loc main_arg15)) (g9_main_v234 m c) (g9_main_v3 m c) (g9_main_v236 m c) (g9_main_v1 m c) (g9_main_arg1 m c) (g9_main_arg2 m c) (g9_main_arg3 m c) (g9_main_arg4 m c)
theorem g10_main_arg14 (m : (ℓ : Loc nD τ sig) → Buf (Elt F) ℓ) (c : Dev nD) : U10 m c (Proc.devRef .tc main_arg14) = (m ((c.tc : Thread nD τ).loc main_arg14)) :=
  (c9_keeps (U9 m c) main_arg14 (by decide)).trans (g9_main_arg14 m c)
theorem g10_main_arg15 (m : (ℓ : Loc nD τ sig) → Buf (Elt F) ℓ) (c : Dev nD) : U10 m c (Proc.devRef .tc main_arg15) = (m ((c.tc : Thread nD τ).loc main_arg15)) :=
  (c9_keeps (U9 m c) main_arg15 (by decide)).trans (g9_main_arg15 m c)
theorem g10_main_arg0 (m : (ℓ : Loc nD τ sig) → Buf (Elt F) ℓ) (c : Dev nD) : U10 m c (Proc.devRef .tc main_arg0) = (m ((c.tc : Thread nD τ).loc main_arg0)) :=
  (c9_keeps (U9 m c) main_arg0 (by decide)).trans (g9_main_arg0 m c)
theorem g10_main_arg1 (m : (ℓ : Loc nD τ sig) → Buf (Elt F) ℓ) (c : Dev nD) : U10 m c (Proc.devRef .tc main_arg1) = (m ((c.tc : Thread nD τ).loc main_arg1)) :=
  (c9_keeps (U9 m c) main_arg1 (by decide)).trans (g9_main_arg1 m c)
theorem g10_main_arg2 (m : (ℓ : Loc nD τ sig) → Buf (Elt F) ℓ) (c : Dev nD) : U10 m c (Proc.devRef .tc main_arg2) = (m ((c.tc : Thread nD τ).loc main_arg2)) :=
  (c9_keeps (U9 m c) main_arg2 (by decide)).trans (g9_main_arg2 m c)
theorem g10_main_arg3 (m : (ℓ : Loc nD τ sig) → Buf (Elt F) ℓ) (c : Dev nD) : U10 m c (Proc.devRef .tc main_arg3) = (m ((c.tc : Thread nD τ).loc main_arg3)) :=
  (c9_keeps (U9 m c) main_arg3 (by decide)).trans (g9_main_arg3 m c)
theorem g10_main_arg4 (m : (ℓ : Loc nD τ sig) → Buf (Elt F) ℓ) (c : Dev nD) : U10 m c (Proc.devRef .tc main_arg4) = (m ((c.tc : Thread nD τ).loc main_arg4)) :=
  (c9_keeps (U9 m c) main_arg4 (by decide)).trans (g9_main_arg4 m c)
theorem g10_main_arg5 (m : (ℓ : Loc nD τ sig) → Buf (Elt F) ℓ) (c : Dev nD) : U10 m c (Proc.devRef .tc main_arg5) = (m ((c.tc : Thread nD τ).loc main_arg5)) :=
  (c9_keeps (U9 m c) main_arg5 (by decide)).trans (g9_main_arg5 m c)
theorem g10_main_arg6 (m : (ℓ : Loc nD τ sig) → Buf (Elt F) ℓ) (c : Dev nD) : U10 m c (Proc.devRef .tc main_arg6) = (m ((c.tc : Thread nD τ).loc main_arg6)) :=
  (c9_keeps (U9 m c) main_arg6 (by decide)).trans (g9_main_arg6 m c)
theorem g10_main_arg7 (m : (ℓ : Loc nD τ sig) → Buf (Elt F) ℓ) (c : Dev nD) : U10 m c (Proc.devRef .tc main_arg7) = (m ((c.tc : Thread nD τ).loc main_arg7)) :=
  (c9_keeps (U9 m c) main_arg7 (by decide)).trans (g9_main_arg7 m c)
theorem g10_main_v9 (m : (ℓ : Loc nD τ sig) → Buf (Elt F) ℓ) (c : Dev nD) : U10 m c (Proc.devRef .tc main_v9) = val_main_v9 (F := F) (m ((c.tc : Thread nD τ).loc main_arg15)) :=
  (c9_keeps (U9 m c) main_v9 (by decide)).trans (g9_main_v9 m c)
theorem g10_main_arg8 (m : (ℓ : Loc nD τ sig) → Buf (Elt F) ℓ) (c : Dev nD) : U10 m c (Proc.devRef .tc main_arg8) = (m ((c.tc : Thread nD τ).loc main_arg8)) :=
  (c9_keeps (U9 m c) main_arg8 (by decide)).trans (g9_main_arg8 m c)
theorem g10_main_arg9 (m : (ℓ : Loc nD τ sig) → Buf (Elt F) ℓ) (c : Dev nD) : U10 m c (Proc.devRef .tc main_arg9) = (m ((c.tc : Thread nD τ).loc main_arg9)) :=
  (c9_keeps (U9 m c) main_arg9 (by decide)).trans (g9_main_arg9 m c)
theorem g10_main_arg10 (m : (ℓ : Loc nD τ sig) → Buf (Elt F) ℓ) (c : Dev nD) : U10 m c (Proc.devRef .tc main_arg10) = (m ((c.tc : Thread nD τ).loc main_arg10)) :=
  (c9_keeps (U9 m c) main_arg10 (by decide)).trans (g9_main_arg10 m c)
theorem g10_main_arg11 (m : (ℓ : Loc nD τ sig) → Buf (Elt F) ℓ) (c : Dev nD) : U10 m c (Proc.devRef .tc main_arg11) = (m ((c.tc : Thread nD τ).loc main_arg11)) :=
  (c9_keeps (U9 m c) main_arg11 (by decide)).trans (g9_main_arg11 m c)
theorem g10_main_arg12 (m : (ℓ : Loc nD τ sig) → Buf (Elt F) ℓ) (c : Dev nD) : U10 m c (Proc.devRef .tc main_arg12) = (m ((c.tc : Thread nD τ).loc main_arg12)) :=
  (c9_keeps (U9 m c) main_arg12 (by decide)).trans (g9_main_arg12 m c)
theorem g10_main_arg13 (m : (ℓ : Loc nD τ sig) → Buf (Elt F) ℓ) (c : Dev nD) : U10 m c (Proc.devRef .tc main_arg13) = (m ((c.tc : Thread nD τ).loc main_arg13)) :=
  (c9_keeps (U9 m c) main_arg13 (by decide)).trans (g9_main_arg13 m c)

theorem g11_main_v265 (m : (ℓ : Loc nD τ sig) → Buf (Elt F) ℓ) (c : Dev nD) : U11 m c (Proc.devRef .tc main_v265) = val_main_v265 (F := F) (m ((c.tc : Thread nD τ).loc main_arg5)) :=
  c10_main_v265 (U10 m c) (m ((c.tc : Thread nD τ).loc main_arg5)) (g10_main_arg5 m c)
theorem g11_main_v267 (m : (ℓ : Loc nD τ sig) → Buf (Elt F) ℓ) (c : Dev nD) : U11 m c (Proc.devRef .tc main_v267) = val_main_v267 (F := F) (m ((c.tc : Thread nD τ).loc main_arg6)) :=
  c10_main_v267 (U10 m c) (m ((c.tc : Thread nD τ).loc main_arg6)) (g10_main_arg6 m c)
theorem g11_main_v285 (m : (ℓ : Loc nD τ sig) → Buf (Elt F) ℓ) (c : Dev nD) : U11 m c (Proc.devRef .tc main_v285) = val_main_v285 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg14)) (m ((c.tc : Thread nD τ).loc main_arg15)) :=
  c10_main_v285 (U10 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg14)) (m ((c.tc : Thread nD τ).loc main_arg15)) (g10_main_v263 m c) (g10_main_arg15 m c) (g10_main_v9 m c) (g10_main_arg7 m c)
theorem g11_main_v289 (m : (ℓ : Loc nD τ sig) → Buf (Elt F) ℓ) (c : Dev nD) : U11 m c (Proc.devRef .tc main_v289) = val_main_v289 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg14)) (m ((c.tc : Thread nD τ).loc main_arg15)) :=
  c10_main_v289 (U10 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg14)) (m ((c.tc : Thread nD τ).loc main_arg15)) (g10_main_arg15 m c) (g10_main_v263 m c) (g10_main_v9 m c) (g10_main_arg7 m c)
theorem g11_main_v290 (m : (ℓ : Loc nD τ sig) → Buf (Elt F) ℓ) (c : Dev nD) : U11 m c (Proc.devRef .tc main_v290) = val_main_v290 (F := F) (m ((c.tc : Thread nD τ).loc main_arg15)) :=
  c10_main_v290 (U10 m c) (m ((c.tc : Thread nD τ).loc main_arg15)) (g10_main_v9 m c)
theorem g11_main_arg14 (m : (ℓ : Loc nD τ sig) → Buf (Elt F) ℓ) (c : Dev nD) : U11 m c (Proc.devRef .tc main_arg14) = (m ((c.tc : Thread nD τ).loc main_arg14)) :=
  (c10_keeps (U10 m c) main_arg14 (by decide)).trans (g10_main_arg14 m c)
theorem g11_main_arg15 (m : (ℓ : Loc nD τ sig) → Buf (Elt F) ℓ) (c : Dev nD) : U11 m c (Proc.devRef .tc main_arg15) = (m ((c.tc : Thread nD τ).loc main_arg15)) :=
  (c10_keeps (U10 m c) main_arg15 (by decide)).trans (g10_main_arg15 m c)
theorem g11_main_arg0 (m : (ℓ : Loc nD τ sig) → Buf (Elt F) ℓ) (c : Dev nD) : U11 m c (Proc.devRef .tc main_arg0) = (m ((c.tc : Thread nD τ).loc main_arg0)) :=
  (c10_keeps (U10 m c) main_arg0 (by decide)).trans (g10_main_arg0 m c)
theorem g11_main_arg1 (m : (ℓ : Loc nD τ sig) → Buf (Elt F) ℓ) (c : Dev nD) : U11 m c (Proc.devRef .tc main_arg1) = (m ((c.tc : Thread nD τ).loc main_arg1)) :=
  (c10_keeps (U10 m c) main_arg1 (by decide)).trans (g10_main_arg1 m c)
theorem g11_main_arg2 (m : (ℓ : Loc nD τ sig) → Buf (Elt F) ℓ) (c : Dev nD) : U11 m c (Proc.devRef .tc main_arg2) = (m ((c.tc : Thread nD τ).loc main_arg2)) :=
  (c10_keeps (U10 m c) main_arg2 (by decide)).trans (g10_main_arg2 m c)
theorem g11_main_arg3 (m : (ℓ : Loc nD τ sig) → Buf (Elt F) ℓ) (c : Dev nD) : U11 m c (Proc.devRef .tc main_arg3) = (m ((c.tc : Thread nD τ).loc main_arg3)) :=
  (c10_keeps (U10 m c) main_arg3 (by decide)).trans (g10_main_arg3 m c)
theorem g11_main_arg4 (m : (ℓ : Loc nD τ sig) → Buf (Elt F) ℓ) (c : Dev nD) : U11 m c (Proc.devRef .tc main_arg4) = (m ((c.tc : Thread nD τ).loc main_arg4)) :=
  (c10_keeps (U10 m c) main_arg4 (by decide)).trans (g10_main_arg4 m c)
theorem g11_main_arg5 (m : (ℓ : Loc nD τ sig) → Buf (Elt F) ℓ) (c : Dev nD) : U11 m c (Proc.devRef .tc main_arg5) = (m ((c.tc : Thread nD τ).loc main_arg5)) :=
  (c10_keeps (U10 m c) main_arg5 (by decide)).trans (g10_main_arg5 m c)
theorem g11_main_arg6 (m : (ℓ : Loc nD τ sig) → Buf (Elt F) ℓ) (c : Dev nD) : U11 m c (Proc.devRef .tc main_arg6) = (m ((c.tc : Thread nD τ).loc main_arg6)) :=
  (c10_keeps (U10 m c) main_arg6 (by decide)).trans (g10_main_arg6 m c)
theorem g11_main_arg7 (m : (ℓ : Loc nD τ sig) → Buf (Elt F) ℓ) (c : Dev nD) : U11 m c (Proc.devRef .tc main_arg7) = (m ((c.tc : Thread nD τ).loc main_arg7)) :=
  (c10_keeps (U10 m c) main_arg7 (by decide)).trans (g10_main_arg7 m c)
theorem g11_main_arg8 (m : (ℓ : Loc nD τ sig) → Buf (Elt F) ℓ) (c : Dev nD) : U11 m c (Proc.devRef .tc main_arg8) = (m ((c.tc : Thread nD τ).loc main_arg8)) :=
  (c10_keeps (U10 m c) main_arg8 (by decide)).trans (g10_main_arg8 m c)
theorem g11_main_arg9 (m : (ℓ : Loc nD τ sig) → Buf (Elt F) ℓ) (c : Dev nD) : U11 m c (Proc.devRef .tc main_arg9) = (m ((c.tc : Thread nD τ).loc main_arg9)) :=
  (c10_keeps (U10 m c) main_arg9 (by decide)).trans (g10_main_arg9 m c)
theorem g11_main_arg10 (m : (ℓ : Loc nD τ sig) → Buf (Elt F) ℓ) (c : Dev nD) : U11 m c (Proc.devRef .tc main_arg10) = (m ((c.tc : Thread nD τ).loc main_arg10)) :=
  (c10_keeps (U10 m c) main_arg10 (by decide)).trans (g10_main_arg10 m c)
theorem g11_main_arg11 (m : (ℓ : Loc nD τ sig) → Buf (Elt F) ℓ) (c : Dev nD) : U11 m c (Proc.devRef .tc main_arg11) = (m ((c.tc : Thread nD τ).loc main_arg11)) :=
  (c10_keeps (U10 m c) main_arg11 (by decide)).trans (g10_main_arg11 m c)
theorem g11_main_arg12 (m : (ℓ : Loc nD τ sig) → Buf (Elt F) ℓ) (c : Dev nD) : U11 m c (Proc.devRef .tc main_arg12) = (m ((c.tc : Thread nD τ).loc main_arg12)) :=
  (c10_keeps (U10 m c) main_arg12 (by decide)).trans (g10_main_arg12 m c)
theorem g11_main_arg13 (m : (ℓ : Loc nD τ sig) → Buf (Elt F) ℓ) (c : Dev nD) : U11 m c (Proc.devRef .tc main_arg13) = (m ((c.tc : Thread nD τ).loc main_arg13)) :=
  (c10_keeps (U10 m c) main_arg13 (by decide)).trans (g10_main_arg13 m c)

theorem g12_main_v313 (m : (ℓ : Loc nD τ sig) → Buf (Elt F) ℓ) (c : Dev nD) : U12 m c (Proc.devRef .tc main_v313) = val_main_v313 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg14)) (m ((c.tc : Thread nD τ).loc main_arg15)) :=
  c11_main_v313 (U11 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg14)) (m ((c.tc : Thread nD τ).loc main_arg15)) (g11_main_arg15 m c) (g11_main_v265 m c) (g11_main_v285 m c) (g11_main_v289 m c) (g11_main_v290 m c) (g11_main_v267 m c) (g11_main_arg8 m c)
theorem g12_main_v315 (m : (ℓ : Loc nD τ sig) → Buf (Elt F) ℓ) (c : Dev nD) : U12 m c (Proc.devRef .tc main_v315) = val_main_v315 (F := F) (m ((c.tc : Thread nD τ).loc main_arg9)) :=
  c11_main_v315 (U11 m c) (m ((c.tc : Thread nD τ).loc main_arg9)) (g11_main_arg9 m c)
theorem g12_main_arg14 (m : (ℓ : Loc nD τ sig) → Buf (Elt F) ℓ) (c : Dev nD) : U12 m c (Proc.devRef .tc main_arg14) = (m ((c.tc : Thread nD τ).loc main_arg14)) :=
  (c11_keeps (U11 m c) main_arg14 (by decide)).trans (g11_main_arg14 m c)
theorem g12_main_arg15 (m : (ℓ : Loc nD τ sig) → Buf (Elt F) ℓ) (c : Dev nD) : U12 m c (Proc.devRef .tc main_arg15) = (m ((c.tc : Thread nD τ).loc main_arg15)) :=
  (c11_keeps (U11 m c) main_arg15 (by decide)).trans (g11_main_arg15 m c)
theorem g12_main_arg0 (m : (ℓ : Loc nD τ sig) → Buf (Elt F) ℓ) (c : Dev nD) : U12 m c (Proc.devRef .tc main_arg0) = (m ((c.tc : Thread nD τ).loc main_arg0)) :=
  (c11_keeps (U11 m c) main_arg0 (by decide)).trans (g11_main_arg0 m c)
theorem g12_main_arg1 (m : (ℓ : Loc nD τ sig) → Buf (Elt F) ℓ) (c : Dev nD) : U12 m c (Proc.devRef .tc main_arg1) = (m ((c.tc : Thread nD τ).loc main_arg1)) :=
  (c11_keeps (U11 m c) main_arg1 (by decide)).trans (g11_main_arg1 m c)
theorem g12_main_arg2 (m : (ℓ : Loc nD τ sig) → Buf (Elt F) ℓ) (c : Dev nD) : U12 m c (Proc.devRef .tc main_arg2) = (m ((c.tc : Thread nD τ).loc main_arg2)) :=
  (c11_keeps (U11 m c) main_arg2 (by decide)).trans (g11_main_arg2 m c)
theorem g12_main_arg3 (m : (ℓ : Loc nD τ sig) → Buf (Elt F) ℓ) (c : Dev nD) : U12 m c (Proc.devRef .tc main_arg3) = (m ((c.tc : Thread nD τ).loc main_arg3)) :=
  (c11_keeps (U11 m c) main_arg3 (by decide)).trans (g11_main_arg3 m c)
theorem g12_main_arg4 (m : (ℓ : Loc nD τ sig) → Buf (Elt F) ℓ) (c : Dev nD) : U12 m c (Proc.devRef .tc main_arg4) = (m ((c.tc : Thread nD τ).loc main_arg4)) :=
  (c11_keeps (U11 m c) main_arg4 (by decide)).trans (g11_main_arg4 m c)
theorem g12_main_arg5 (m : (ℓ : Loc nD τ sig) → Buf (Elt F) ℓ) (c : Dev nD) : U12 m c (Proc.devRef .tc main_arg5) = (m ((c.tc : Thread nD τ).loc main_arg5)) :=
  (c11_keeps (U11 m c) main_arg5 (by decide)).trans (g11_main_arg5 m c)
theorem g12_main_arg6 (m : (ℓ : Loc nD τ sig) → Buf (Elt F) ℓ) (c : Dev nD) : U12 m c (Proc.devRef .tc main_arg6) = (m ((c.tc : Thread nD τ).loc main_arg6)) :=
  (c11_keeps (U11 m c) main_arg6 (by decide)).trans (g11_main_arg6 m c)
theorem g12_main_arg7 (m : (ℓ : Loc nD τ sig) → Buf (Elt F) ℓ) (c : Dev nD) : U12 m c (Proc.devRef .tc main_arg7) = (m ((c.tc : Thread nD τ).loc main_arg7)) :=
  (c11_keeps (U11 m c) main_arg7 (by decide)).trans (g11_main_arg7 m c)
theorem g12_main_arg8 (m : (ℓ : Loc nD τ sig) → Buf (Elt F) ℓ) (c : Dev nD) : U12 m c (Proc.devRef .tc main_arg8) = (m ((c.tc : Thread nD τ).loc main_arg8)) :=
  (c11_keeps (U11 m c) main_arg8 (by decide)).trans (g11_main_arg8 m c)
theorem g12_main_arg9 (m : (ℓ : Loc nD τ sig) → Buf (Elt F) ℓ) (c : Dev nD) : U12 m c (Proc.devRef .tc main_arg9) = (m ((c.tc : Thread nD τ).loc main_arg9)) :=
  (c11_keeps (U11 m c) main_arg9 (by decide)).trans (g11_main_arg9 m c)
theorem g12_main_arg10 (m : (ℓ : Loc nD τ sig) → Buf (Elt F) ℓ) (c : Dev nD) : U12 m c (Proc.devRef .tc main_arg10) = (m ((c.tc : Thread nD τ).loc main_arg10)) :=
  (c11_keeps (U11 m c) main_arg10 (by decide)).trans (g11_main_arg10 m c)
theorem g12_main_arg11 (m : (ℓ : Loc nD τ sig) → Buf (Elt F) ℓ) (c : Dev nD) : U12 m c (Proc.devRef .tc main_arg11) = (m ((c.tc : Thread nD τ).loc main_arg11)) :=
  (c11_keeps (U11 m c) main_arg11 (by decide)).trans (g11_main_arg11 m c)
theorem g12_main_arg12 (m : (ℓ : Loc nD τ sig) → Buf (Elt F) ℓ) (c : Dev nD) : U12 m c (Proc.devRef .tc main_arg12) = (m ((c.tc : Thread nD τ).loc main_arg12)) :=
  (c11_keeps (U11 m c) main_arg12 (by decide)).trans (g11_main_arg12 m c)
theorem g12_main_arg13 (m : (ℓ : Loc nD τ sig) → Buf (Elt F) ℓ) (c : Dev nD) : U12 m c (Proc.devRef .tc main_arg13) = (m ((c.tc : Thread nD τ).loc main_arg13)) :=
  (c11_keeps (U11 m c) main_arg13 (by decide)).trans (g11_main_arg13 m c)

theorem g13_main_v327 (m : (ℓ : Loc nD τ sig) → Buf (Elt F) ℓ) (c : Dev nD) : U13 m c (Proc.devRef .tc main_v327) = val_main_v327 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  c12_main_v327 (U12 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (g12_main_v313 m c) (g12_main_v315 m c) (g12_main_arg10 m c) (g12_main_arg11 m c) (g12_main_arg12 m c) (g12_main_arg13 m c)
theorem g13_main_arg14 (m : (ℓ : Loc nD τ sig) → Buf (Elt F) ℓ) (c : Dev nD) : U13 m c (Proc.devRef .tc main_arg14) = (m ((c.tc : Thread nD τ).loc main_arg14)) :=
  (c12_keeps (U12 m c) main_arg14 (by decide)).trans (g12_main_arg14 m c)
theorem g13_main_arg15 (m : (ℓ : Loc nD τ sig) → Buf (Elt F) ℓ) (c : Dev nD) : U13 m c (Proc.devRef .tc main_arg15) = (m ((c.tc : Thread nD τ).loc main_arg15)) :=
  (c12_keeps (U12 m c) main_arg15 (by decide)).trans (g12_main_arg15 m c)
theorem g13_main_arg0 (m : (ℓ : Loc nD τ sig) → Buf (Elt F) ℓ) (c : Dev nD) : U13 m c (Proc.devRef .tc main_arg0) = (m ((c.tc : Thread nD τ).loc main_arg0)) :=
  (c12_keeps (U12 m c) main_arg0 (by decide)).trans (g12_main_arg0 m c)
theorem g13_main_arg1 (m : (ℓ : Loc nD τ sig) → Buf (Elt F) ℓ) (c : Dev nD) : U13 m c (Proc.devRef .tc main_arg1) = (m ((c.tc : Thread nD τ).loc main_arg1)) :=
  (c12_keeps (U12 m c) main_arg1 (by decide)).trans (g12_main_arg1 m c)
theorem g13_main_arg2 (m : (ℓ : Loc nD τ sig) → Buf (Elt F) ℓ) (c : Dev nD) : U13 m c (Proc.devRef .tc main_arg2) = (m ((c.tc : Thread nD τ).loc main_arg2)) :=
  (c12_keeps (U12 m c) main_arg2 (by decide)).trans (g12_main_arg2 m c)
theorem g13_main_arg3 (m : (ℓ : Loc nD τ sig) → Buf (Elt F) ℓ) (c : Dev nD) : U13 m c (Proc.devRef .tc main_arg3) = (m ((c.tc : Thread nD τ).loc main_arg3)) :=
  (c12_keeps (U12 m c) main_arg3 (by decide)).trans (g12_main_arg3 m c)
theorem g13_main_arg4 (m : (ℓ : Loc nD τ sig) → Buf (Elt F) ℓ) (c : Dev nD) : U13 m c (Proc.devRef .tc main_arg4) = (m ((c.tc : Thread nD τ).loc main_arg4)) :=
  (c12_keeps (U12 m c) main_arg4 (by decide)).trans (g12_main_arg4 m c)
theorem g13_main_arg5 (m : (ℓ : Loc nD τ sig) → Buf (Elt F) ℓ) (c : Dev nD) : U13 m c (Proc.devRef .tc main_arg5) = (m ((c.tc : Thread nD τ).loc main_arg5)) :=
  (c12_keeps (U12 m c) main_arg5 (by decide)).trans (g12_main_arg5 m c)
theorem g13_main_arg6 (m : (ℓ : Loc nD τ sig) → Buf (Elt F) ℓ) (c : Dev nD) : U13 m c (Proc.devRef .tc main_arg6) = (m ((c.tc : Thread nD τ).loc main_arg6)) :=
  (c12_keeps (U12 m c) main_arg6 (by decide)).trans (g12_main_arg6 m c)
theorem g13_main_arg7 (m : (ℓ : Loc nD τ sig) → Buf (Elt F) ℓ) (c : Dev nD) : U13 m c (Proc.devRef .tc main_arg7) = (m ((c.tc : Thread nD τ).loc main_arg7)) :=
  (c12_keeps (U12 m c) main_arg7 (by decide)).trans (g12_main_arg7 m c)
theorem g13_main_arg8 (m : (ℓ : Loc nD τ sig) → Buf (Elt F) ℓ) (c : Dev nD) : U13 m c (Proc.devRef .tc main_arg8) = (m ((c.tc : Thread nD τ).loc main_arg8)) :=
  (c12_keeps (U12 m c) main_arg8 (by decide)).trans (g12_main_arg8 m c)
theorem g13_main_arg9 (m : (ℓ : Loc nD τ sig) → Buf (Elt F) ℓ) (c : Dev nD) : U13 m c (Proc.devRef .tc main_arg9) = (m ((c.tc : Thread nD τ).loc main_arg9)) :=
  (c12_keeps (U12 m c) main_arg9 (by decide)).trans (g12_main_arg9 m c)
theorem g13_main_arg10 (m : (ℓ : Loc nD τ sig) → Buf (Elt F) ℓ) (c : Dev nD) : U13 m c (Proc.devRef .tc main_arg10) = (m ((c.tc : Thread nD τ).loc main_arg10)) :=
  (c12_keeps (U12 m c) main_arg10 (by decide)).trans (g12_main_arg10 m c)
theorem g13_main_arg11 (m : (ℓ : Loc nD τ sig) → Buf (Elt F) ℓ) (c : Dev nD) : U13 m c (Proc.devRef .tc main_arg11) = (m ((c.tc : Thread nD τ).loc main_arg11)) :=
  (c12_keeps (U12 m c) main_arg11 (by decide)).trans (g12_main_arg11 m c)
theorem g13_main_arg12 (m : (ℓ : Loc nD τ sig) → Buf (Elt F) ℓ) (c : Dev nD) : U13 m c (Proc.devRef .tc main_arg12) = (m ((c.tc : Thread nD τ).loc main_arg12)) :=
  (c12_keeps (U12 m c) main_arg12 (by decide)).trans (g12_main_arg12 m c)
theorem g13_main_arg13 (m : (ℓ : Loc nD τ sig) → Buf (Elt F) ℓ) (c : Dev nD) : U13 m c (Proc.devRef .tc main_arg13) = (m ((c.tc : Thread nD τ).loc main_arg13)) :=
  (c12_keeps (U12 m c) main_arg13 (by decide)).trans (g12_main_arg13 m c)

/-- On every device, for any float values, from any memory with zero counters: every weakly fair execution of @main
    terminates with the result at its stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v327) = val_main_v327 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v327).trans ((congrFun (after_ops m c) _).trans (g13_main_v327 m c)),
      (h c main_arg0).trans ((congrFun (after_ops m c) _).trans (g13_main_arg0 m c)),
      (h c main_arg1).trans ((congrFun (after_ops m c) _).trans (g13_main_arg1 m c)),
      (h c main_arg2).trans ((congrFun (after_ops m c) _).trans (g13_main_arg2 m c)),
      (h c main_arg3).trans ((congrFun (after_ops m c) _).trans (g13_main_arg3 m c)),
      (h c main_arg4).trans ((congrFun (after_ops m c) _).trans (g13_main_arg4 m c)),
      (h c main_arg5).trans ((congrFun (after_ops m c) _).trans (g13_main_arg5 m c)),
      (h c main_arg6).trans ((congrFun (after_ops m c) _).trans (g13_main_arg6 m c)),
      (h c main_arg7).trans ((congrFun (after_ops m c) _).trans (g13_main_arg7 m c)),
      (h c main_arg8).trans ((congrFun (after_ops m c) _).trans (g13_main_arg8 m c)),
      (h c main_arg9).trans ((congrFun (after_ops m c) _).trans (g13_main_arg9 m c)),
      (h c main_arg10).trans ((congrFun (after_ops m c) _).trans (g13_main_arg10 m c)),
      (h c main_arg11).trans ((congrFun (after_ops m c) _).trans (g13_main_arg11 m c)),
      (h c main_arg12).trans ((congrFun (after_ops m c) _).trans (g13_main_arg12 m c)),
      (h c main_arg13).trans ((congrFun (after_ops m c) _).trans (g13_main_arg13 m c)),
      (h c main_arg14).trans ((congrFun (after_ops m c) _).trans (g13_main_arg14 m c)),
      (h c main_arg15).trans ((congrFun (after_ops m c) _).trans (g13_main_arg15 m c))⟩)
    (run_seq scopedRefs_eq scopedSems_eq defs main (fun _ => ops) main_eq (fun _ => ops_sub) m ρ (fun _ => ops_fresh))

end Cert.ReferenceIdeal.RunH

end
-- ==== Proof.Spec.lean ====
/- Segment sums as contractions with a one-hot matrix, sums over tiles of rows, and the order facts on the extended reals that a normalisation by a variance needs. Everything is over the extended reals: 0 * x = 0 and 1 * x = x hold there for every x, an infinity included, so no finiteness is asked anywhere. -/
import Idealize.ShloMosaic.PureOps.Ideal
import Mathlib.Data.EReal.Inv
import Mathlib.Algebra.BigOperators.Fin
import Mathlib.Algebra.Order.BigOperators.Group.Finset

noncomputable section

open scoped BigOperators

namespace Cert.Spec

open Idealize.ShloMosaic

/-! ## One-hot rows and segment sums -/

/-- The one-hot matrix of an assignment of nodes to graphs: 1 where node n lies in graph g, else 0. -/
def oh {N G : Nat} (B : Fin N → Fin G) (n : Fin N) (g : Fin G) : EReal := if B n = g then 1 else 0

/-- The segment sum: column d of x summed over the nodes of graph g. -/
def segsum {N G D : Nat} (B : Fin N → Fin G) (x : Fin N → Fin D → EReal) (g : Fin G) (d : Fin D) : EReal :=
  ∑ n, if B n = g then x n d else 0

variable {N G D : Nat} (B : Fin N → Fin G)

theorem oh_mul (n : Fin N) (g : Fin G) (a : EReal) : oh B n g * a = if B n = g then a else 0 := by
  unfold oh; split_ifs <;> simp

theorem mul_oh (n : Fin N) (g : Fin G) (a : EReal) : a * oh B n g = if B n = g then a else 0 := by
  rw [mul_comm, oh_mul]

/-- The transposed one-hot matrix times x is the segment sum of x. -/
theorem ohT_sum (x : Fin N → Fin D → EReal) (g : Fin G) (d : Fin D) :
    ∑ n, oh B n g * x n d = segsum B x g d := by
  unfold segsum
  exact Finset.sum_congr rfl fun n _ => oh_mul B n g _

/-- The same with the one-hot factor on the right. -/
theorem ohT_sum' (x : Fin N → Fin D → EReal) (g : Fin G) (d : Fin D) :
    ∑ n, x n d * oh B n g = segsum B x g d := by
  unfold segsum
  exact Finset.sum_congr rfl fun n _ => mul_oh B n g _

/-- The one-hot matrix times y reads y at the node's own graph: a gather of rows. -/
theorem oh_sum (y : Fin G → Fin D → EReal) (n : Fin N) (d : Fin D) :
    ∑ g, oh B n g * y g d = y (B n) d := by
  simp only [oh_mul, Finset.sum_ite_eq, Finset.mem_univ, if_true]

/-- The same with the one-hot factor on the right. -/
theorem oh_sum' (y : Fin G → Fin D → EReal) (n : Fin N) (d : Fin D) :
    ∑ g, y g d * oh B n g = y (B n) d := by
  simp only [mul_oh, Finset.sum_ite_eq, Finset.mem_univ, if_true]

/-- The segment sum as a sum over the nodes of the graph. -/
theorem segsum_eq_filter (x : Fin N → Fin D → EReal) (g : Fin G) (d : Fin D) :
    segsum B x g d = ∑ n ∈ Finset.univ.filter (fun n => B n = g), x n d := by
  unfold segsum; rw [Finset.sum_filter]

/-! ## Sums over tiles of rows -/

/-- Row r of tile t is a row of the whole. -/
theorem tile_lt {a b : Nat} (t : Fin a) (r : Fin b) : t.val * b + r.val < a * b := by
  calc t.val * b + r.val < t.val * b + b := Nat.add_lt_add_left r.isLt _
    _ = (t.val + 1) * b := (Nat.succ_mul _ _).symm
    _ ≤ a * b := Nat.mul_le_mul_right b t.isLt

/-- A sum over a tiles of b rows each is the sum over all a * b rows. -/
theorem tile_sum_gen {a b M : Nat} (h : a * b = M) (f : Fin M → EReal) :
    (∑ t : Fin a, ∑ r : Fin b, f ⟨t.val * b + r.val, h ▸ tile_lt t r⟩) = ∑ n : Fin M, f n := by
  subst h
  rw [← finProdFinEquiv.sum_comp f, Fintype.sum_prod_type]
  refine Finset.sum_congr rfl fun t _ => Finset.sum_congr rfl fun r _ => ?_
  congr 1
  apply Fin.ext
  simp only [finProdFinEquiv_apply_val]
  rw [Nat.add_comm, Nat.mul_comm]

/-- Ten tiles of 5000 rows are the 50000 rows. -/
theorem tile_sum (f : Fin 50000 → EReal) :
    (∑ t : Fin 10, ∑ r : Fin 5000, f ⟨t.val * 5000 + r.val, by have := t.isLt; have := r.isLt; omega⟩)
      = ∑ n : Fin 50000, f n :=
  tile_sum_gen (a := 10) (b := 5000) rfl f

/-- The tiles before tile k are the rows before row k * b. -/
theorem tile_sum_lt_gen {a b M : Nat} (h : a * b = M) (f : Fin M → EReal) (k : Nat) :
    (∑ t ∈ Finset.univ.filter (fun t : Fin a => t.val < k), ∑ r : Fin b, f ⟨t.val * b + r.val, h ▸ tile_lt t r⟩)
      = ∑ n ∈ Finset.univ.filter (fun n : Fin M => n.val < k * b), f n := by
  rw [Finset.sum_filter, Finset.sum_filter, ← tile_sum_gen h (fun n => if n.val < k * b then f n else 0)]
  refine Finset.sum_congr rfl fun t _ => ?_
  by_cases ht : t.val < k
  · rw [if_pos ht]
    refine Finset.sum_congr rfl fun r _ => ?_
    rw [if_pos]
    calc t.val * b + r.val < t.val * b + b := Nat.add_lt_add_left r.isLt _
      _ = (t.val + 1) * b := (Nat.succ_mul _ _).symm
      _ ≤ k * b := Nat.mul_le_mul_right b ht
  · rw [if_neg ht]
    symm
    refine Finset.sum_eq_zero fun r _ => ?_
    rw [if_neg]
    intro hlt
    exact ht (Nat.lt_of_mul_lt_mul_right (lt_of_le_of_lt (Nat.le_add_right _ _) hlt))

/-- The tiles up to and including tile t are the rows before row (t + 1) * 5000. -/
theorem tile_sum_le (f : Fin 50000 → EReal) (t : Fin 10) :
    (∑ t' ∈ Finset.univ.filter (fun t' : Fin 10 => t' ≤ t), ∑ r : Fin 5000,
        f ⟨t'.val * 5000 + r.val, by have := t'.isLt; have := r.isLt; omega⟩)
      = ∑ n ∈ Finset.univ.filter (fun n : Fin 50000 => n.val < (t.val + 1) * 5000), f n := by
  rw [← tile_sum_lt_gen (a := 10) (b := 5000) rfl f (t.val + 1)]
  refine Finset.sum_congr ?_ fun _ _ => rfl
  ext t'
  simp only [Finset.mem_filter, Finset.mem_univ, true_and, Fin.le_def, Nat.lt_succ_iff]

/-- No tile comes before tile 0. -/
theorem tiles_lt_zero {a : Nat} (F : Fin a → EReal) :
    ∑ t ∈ Finset.univ.filter (fun t : Fin a => t.val < 0), F t = 0 := by
  rw [Finset.sum_filter]; simp

/-- The tiles before tile k + 1 are the tiles before tile k and tile k. -/
theorem tiles_lt_succ {a : Nat} (F : Fin a → EReal) (k : Nat) (hk : k < a) :
    ∑ t ∈ Finset.univ.filter (fun t : Fin a => t.val < k + 1), F t
      = (∑ t ∈ Finset.univ.filter (fun t : Fin a => t.val < k), F t) + F ⟨k, hk⟩ := by
  have hset : Finset.univ.filter (fun t : Fin a => t.val < k + 1)
      = insert (⟨k, hk⟩ : Fin a) (Finset.univ.filter (fun t : Fin a => t.val < k)) := by
    ext t
    simp only [Finset.mem_filter, Finset.mem_univ, true_and, Finset.mem_insert, Fin.ext_iff]
    omega
  rw [hset, Finset.sum_insert (by simp), add_comm]

/-- Every tile comes before tile a. -/
theorem tiles_lt_all {a : Nat} (F : Fin a → EReal) :
    ∑ t ∈ Finset.univ.filter (fun t : Fin a => t.val < a), F t = ∑ t, F t := by
  rw [Finset.sum_filter]
  exact Finset.sum_congr rfl fun t _ => if_pos t.isLt

/-! ## Square roots and quotients -/

/-- A product with the reciprocal square root of a positive extended real is the quotient by its square root;
    at the infinity both sides are 0. -/
theorem rsqrt_div (a v : EReal) (hv : 0 < v) : a * Ideal.rsqrt v = Ideal.div a (Ideal.sqrt v) := by
  induction v using EReal.rec with
  | bot => exact absurd hv (not_lt.2 bot_le)
  | coe r =>
    have hr : 0 < r := EReal.coe_pos.1 hv
    have hs : 0 < Real.sqrt r := Real.sqrt_pos.2 hr
    rw [Ideal.rsqrt_coe, if_neg (not_lt.2 hr.le), if_neg hr.ne', Ideal.sqrt_coe, if_neg (not_lt.2 hr.le),
      Ideal.div, if_neg (EReal.coe_ne_zero.2 hs.ne'), EReal.coe_inv]
  | top => rw [Ideal.rsqrt_top, mul_zero, Ideal.sqrt_top, Ideal.div, if_neg EReal.top_ne_zero, EReal.inv_top, mul_zero]

/-- The same with the reciprocal square root on the left. -/
theorem rsqrt_div' (a v : EReal) (hv : 0 < v) : Ideal.rsqrt v * a = Ideal.div a (Ideal.sqrt v) := by
  rw [mul_comm, rsqrt_div a v hv]

/-- A nonnegative extended real plus a positive one is positive. -/
theorem pos_add {v e : EReal} (hv : 0 ≤ v) (he : 0 < e) : 0 < v + e :=
  lt_of_lt_of_le he (le_add_of_nonneg_left hv)

/-- A nonnegative extended real plus a positive real is positive. -/
theorem pos_add_coe {v : EReal} {e : ℝ} (hv : 0 ≤ v) (he : 0 < e) : 0 < v + (e : EReal) :=
  pos_add hv (EReal.coe_pos.2 he)

/-- A square is nonnegative, at the infinities too. -/
theorem mul_self_nonneg' (x : EReal) : 0 ≤ x * x := by
  rcases le_total 0 x with h | h
  · exact EReal.mul_nonneg h h
  · exact EReal.mul_nonneg_iff.2 (Or.inr ⟨h, h⟩)

/-- A sum of nonnegative extended reals is nonnegative. -/
theorem sum_nonneg' {ι : Type} (s : Finset ι) (f : ι → EReal) (h : ∀ i ∈ s, 0 ≤ f i) : 0 ≤ ∑ i ∈ s, f i :=
  Finset.sum_nonneg h

/-- A segment sum of nonnegative terms is nonnegative. -/
theorem segsum_nonneg (x : Fin N → Fin D → EReal) (g : Fin G) (d : Fin D) (h : ∀ n, 0 ≤ x n d) :
    0 ≤ segsum B x g d := by
  unfold segsum
  exact Finset.sum_nonneg fun n _ => by split_ifs <;> [exact h n; exact le_rfl]

/-- A nonnegative extended real over a positive one is nonnegative (over the infinity it is 0). -/
theorem div_nonneg_of_pos {x c : EReal} (hx : 0 ≤ x) (hc : 0 < c) : 0 ≤ Ideal.div x c := by
  rw [Ideal.div, if_neg hc.ne']
  exact EReal.mul_nonneg hx (EReal.inv_nonneg_of_nonneg hc.le)

/-- A nonnegative extended real over a real that is at least 1 is nonnegative. -/
theorem div_nonneg' {x : EReal} {c : ℝ} (hx : 0 ≤ x) (hc : 1 ≤ c) : 0 ≤ Ideal.div x (c : EReal) :=
  div_nonneg_of_pos hx (EReal.coe_pos.2 (lt_of_lt_of_le one_pos hc))

end Cert.Spec
-- ==== Proof.Spec2.lean ====
/- One layer of the network as plain functions over the extended reals: a two-layer perceptron on each node, then a normalisation per graph (mean, centring, variance, scaling by the reciprocal square root or division by the square root, an affine map and a rectifier). The two ways of scaling agree because the variance is a nonnegative extended real and the count of a graph's nodes is positive. -/
import proofs.«408428_j10917806867267_1_alg».proof.Proof.Spec

noncomputable section

open scoped BigOperators

namespace Cert.Spec2

open Idealize.ShloMosaic Cert.Spec

/-! ## The perceptron -/

/-- The rectifier. -/
def relu (x : EReal) : EReal := max x 0

/-- A linear map with a bias, on each row. -/
def lin {N K M : Nat} (x : Fin N → Fin K → EReal) (w : Fin K → Fin M → EReal) (b : Fin M → EReal)
    (n : Fin N) (k : Fin M) : EReal :=
  (∑ j, x n j * w j k) + b k

/-- Two linear maps, a rectifier after each. -/
def mlp2 {N K M P : Nat} (x : Fin N → Fin K → EReal) (w1 : Fin K → Fin M → EReal) (b1 : Fin M → EReal)
    (w2 : Fin M → Fin P → EReal) (b2 : Fin P → EReal) (n : Fin N) (k : Fin P) : EReal :=
  relu (lin (fun n j => relu (lin x w1 b1 n j)) w2 b2 n k)

theorem relu_nonneg (x : EReal) : 0 ≤ relu x := le_max_right _ _

/-! ## The normalisation per graph -/

variable {N G D : Nat} (B : Fin N → Fin G) (one eps : EReal)

/-- The number of nodes of a graph, at least one. -/
def cnt (g : Fin G) : EReal := max (∑ n, if B n = g then one else 0) one

/-- The count as the column sum of the one-hot matrix. -/
theorem cnt_one_eq_oh (g : Fin G) : cnt B 1 g = max (∑ n, oh B n g) 1 := rfl

/-- The count as a segment sum of a column of ones. -/
theorem cnt_eq_segsum (g : Fin G) (c : Fin 1) : cnt B one g = max (segsum B (fun _ _ => one) g c) one := rfl

theorem cnt_pos {one : EReal} (h1 : 0 < one) (g : Fin G) : 0 < cnt B one g :=
  lt_of_lt_of_le h1 (le_max_right _ _)

/-- The mean of each column over each graph. -/
def mean (t : Fin N → Fin D → EReal) (g : Fin G) (d : Fin D) : EReal :=
  Ideal.div (segsum B t g d) (cnt B one g)

/-- The rows centred by a scaled mean of their graph. -/
def centred (t : Fin N → Fin D → EReal) (s : Fin D → EReal) (n : Fin N) (d : Fin D) : EReal :=
  t n d - mean B one t (B n) d * s d

/-- The variance of each column over each graph: the mean of the squares of the centred rows. -/
def var (t : Fin N → Fin D → EReal) (s : Fin D → EReal) (g : Fin G) (d : Fin D) : EReal :=
  Ideal.div (segsum B (fun n d => centred B one t s n d * centred B one t s n d) g d) (cnt B one g)

/-- The normalised rows, scaled by the reciprocal square root. -/
def hK (t : Fin N → Fin D → EReal) (s w b : Fin D → EReal) (n : Fin N) (d : Fin D) : EReal :=
  max ((w d * centred B one t s n d) * Ideal.rsqrt (var B one t s (B n) d + eps) + b d) 0

/-- The normalised rows, divided by the square root. -/
def hR (t : Fin N → Fin D → EReal) (s w b : Fin D → EReal) (n : Fin N) (d : Fin D) : EReal :=
  max (Ideal.div (w d * centred B one t s n d) (Ideal.sqrt (var B one t s (B n) d + eps)) + b d) 0

/-! ## One layer -/

/-- One layer, scaling by the reciprocal square root: the perceptron on a row plus its aggregate, then the normalisation. -/
def layerK (h a : Fin N → Fin D → EReal) (w1 : Fin D → Fin D → EReal) (b1 : Fin D → EReal) (w2 : Fin D → Fin D → EReal)
    (b2 s w b : Fin D → EReal) : Fin N → Fin D → EReal :=
  hK B one eps (mlp2 (fun n j => h n j + a n j) w1 b1 w2 b2) s w b

/-- One layer, dividing by the square root. -/
def layerR (h a : Fin N → Fin D → EReal) (w1 : Fin D → Fin D → EReal) (b1 : Fin D → EReal) (w2 : Fin D → Fin D → EReal)
    (b2 s w b : Fin D → EReal) : Fin N → Fin D → EReal :=
  hR B one eps (mlp2 (fun n j => h n j + a n j) w1 b1 w2 b2) s w b

variable {one eps}

/-- A variance is nonnegative: a sum of squares over a positive count. -/
theorem var_nonneg (h1 : 0 < one) (t : Fin N → Fin D → EReal) (s : Fin D → EReal) (g : Fin G) (d : Fin D) :
    0 ≤ var B one t s g d :=
  div_nonneg_of_pos (segsum_nonneg B _ g d fun _ => mul_self_nonneg' _) (cnt_pos B h1 g)

/-- A variance plus a positive constant is positive. -/
theorem var_add_pos (h1 : 0 < one) (he : 0 < eps) (t : Fin N → Fin D → EReal) (s : Fin D → EReal) (g : Fin G)
    (d : Fin D) : 0 < var B one t s g d + eps :=
  pos_add (var_nonneg B h1 t s g d) he

/-! ## The two scalings agree -/

/-- The two ways of scaling agree. -/
theorem hK_eq_hR (h1 : 0 < one) (he : 0 < eps) (t : Fin N → Fin D → EReal) (s w b : Fin D → EReal) (n : Fin N)
    (d : Fin D) : hK B one eps t s w b n d = hR B one eps t s w b n d := by
  unfold hK hR
  rw [rsqrt_div _ _ (var_add_pos B h1 he t s (B n) d)]

/-- The normalised rows are nonnegative. -/
theorem hR_nonneg (t : Fin N → Fin D → EReal) (s w b : Fin D → EReal) (n : Fin N) (d : Fin D) :
    0 ≤ hR B one eps t s w b n d := le_max_right _ _

theorem layerK_eq_layerR (h1 : 0 < one) (he : 0 < eps) (h a : Fin N → Fin D → EReal) (w1 : Fin D → Fin D → EReal)
    (b1 : Fin D → EReal) (w2 : Fin D → Fin D → EReal) (b2 s w b : Fin D → EReal) :
    layerK B one eps h a w1 b1 w2 b2 s w b = layerR B one eps h a w1 b1 w2 b2 s w b := by
  funext n d
  exact hK_eq_hR B h1 he _ s w b n d

end Cert.Spec2
-- ==== Proof.Spec3.lean ====
/- The readout of the network as plain functions over the extended reals: the sum of each graph's rows, a perceptron of three linear maps on each graph, and the logarithm of the softmax of each row of its result. Both programs compute these; the row maximum is the supremum from the bottom of the extended reals, which is what a fold of the maximum from minus infinity is. -/
import proofs.«408428_j10917806867267_1_alg».proof.Proof.Spec2
import Idealize.ShloMosaic.PureOps.Ideal.Laws

noncomputable section

open scoped BigOperators

namespace Cert.Spec3

open Idealize.ShloMosaic Cert.Spec Cert.Spec2

/-! ## The readout -/

/-- The sum of each graph's rows. -/
def pooled {N G D : Nat} (B : Fin N → Fin G) (h : Fin N → Fin D → EReal) (g : Fin G) (d : Fin D) : EReal :=
  segsum B h g d

/-- Three linear maps on each graph, a rectifier after the first two. -/
def logits {G D C : Nat} (p : Fin G → Fin D → EReal) (fw1 : Fin D → Fin D → EReal) (fb1 : Fin D → EReal)
    (fw2 : Fin D → Fin D → EReal) (fb2 : Fin D → EReal) (fw3 : Fin D → Fin C → EReal) (fb3 : Fin C → EReal)
    (g : Fin G) (k : Fin C) : EReal :=
  lin (fun g j => relu (lin (fun g j => relu (lin p fw1 fb1 g j)) fw2 fb2 g j)) fw3 fb3 g k

/-- The maximum of a row: the supremum from the bottom of the extended reals. -/
def rowMax {C : Nat} (x : Fin C → EReal) : EReal := Finset.univ.sup x

/-- The logarithm of the softmax of a row: the row shifted by its maximum, minus the logarithm of the sum of the
    exponentials of the shifted row. -/
def logSoftmax {C : Nat} (x : Fin C → EReal) (k : Fin C) : EReal :=
  (x k - rowMax x) - Ideal.log (∑ j, Ideal.exp (x j - rowMax x))

/-- The head: the logarithm of the softmax of each graph's logits. -/
def head {G D C : Nat} (p : Fin G → Fin D → EReal) (fw1 : Fin D → Fin D → EReal) (fb1 : Fin D → EReal)
    (fw2 : Fin D → Fin D → EReal) (fb2 : Fin D → EReal) (fw3 : Fin D → Fin C → EReal) (fb3 : Fin C → EReal)
    (g : Fin G) (k : Fin C) : EReal :=
  logSoftmax (logits p fw1 fb1 fw2 fb2 fw3 fb3 g) k

/-! ## A fold of the maximum from the bottom is the supremum -/

/-- A fold of the maximum from the bottom of the extended reals is the supremum. -/
theorem fold_max_bot {ι : Type} (s : Finset ι) (f : ι → EReal) : s.fold max ⊥ f = s.sup f := by
  classical
  induction s using Finset.induction_on with
  | empty => rw [Finset.fold_empty, Finset.sup_empty]
  | insert a s ha ih => rw [Finset.fold_insert ha, Finset.sup_insert, ih]

/-- The same for the maximum as a float operation of the extended reals. -/
theorem fold_maximumf_bot {φ : FTy} {ι : Type} (s : Finset ι) (f : ι → Ideal φ) :
    s.fold (FloatOps.maximumf (F := Ideal) (φ := φ)) ⊥ f = s.sup f := by
  classical
  induction s using Finset.induction_on with
  | empty => rw [Finset.fold_empty, Finset.sup_empty]
  | insert a s ha ih => rw [Finset.fold_insert ha, Finset.sup_insert, ih]; rfl

/-- The row maximum as a fold of the maximum from the bottom, over the row re-indexed by a map onto its positions. -/
theorem rowMax_eq_fold {C : Nat} (x : Fin C → EReal) : rowMax x = (Finset.univ : Finset (Fin C)).fold max ⊥ x :=
  (fold_max_bot _ _).symm

/-- The maximum with the bottom is the other operand. -/
theorem max_bot_left' (x : EReal) : max ⊥ x = x := max_eq_right bot_le

theorem max_bot_right' (x : EReal) : max x ⊥ = x := max_eq_left bot_le

/-- The row maximum bounds each entry. -/
theorem le_rowMax {C : Nat} (x : Fin C → EReal) (k : Fin C) : x k ≤ rowMax x :=
  Finset.le_sup (f := x) (Finset.mem_univ k)

end Cert.Spec3
-- ==== Proof.BridgeCore.lean ====
/- The two programs compute the same network: layer by layer the rows agree (the aggregation over the edges is the same term, the two scalings of the normalisation agree), hence the readouts agree. This module holds the steps over arrays read at pairs of coordinates; the programs' own terms are put in elsewhere. -/
import proofs.«408428_j10917806867267_1_alg».proof.Proof.Spec2
import proofs.«408428_j10917806867267_1_alg».proof.Proof.Spec3
import Idealize.ShloMosaic.Lib.ValueIdx

noncomputable section

open scoped BigOperators

namespace Cert.BridgeCore

open Idealize.ShloMosaic Idealize.ShloMosaic.ValueIdx Cert.Spec Cert.Spec2 Cert.Spec3

/-- Two matrices that agree at every pair of coordinates are equal. -/
theorem arr2_ext {α : Type} {n m : Nat} (a b : (⟨2, ![n, m]⟩ : Shape).Idx → α)
    (h : ∀ i j, a (ix2 i j) = b (ix2 i j)) : a = b := by
  funext j
  obtain ⟨p, q, rfl⟩ : ∃ p q, j = ix2 p q := ⟨j 0, j 1, eq_ix2 j⟩
  exact h p q

/-- A matrix of extended reals, as the programs' arrays are at the ideal values. -/
abbrev Arr (n m : Nat) : Type := (⟨2, ![n, m]⟩ : Shape).Idx → EReal

variable {N G D C : Nat} (B : Fin N → Fin G) {one eps : EReal}

/-- One layer: from equal inputs, equal outputs. -/
theorem layer_step (h1 : 0 < one) (he : 0 < eps) (aggK aggR : Arr N D → Arr N D) (hagg : ∀ h, aggK h = aggR h)
    (hK hR hK' hR' : Arr N D) (heq : hK = hR)
    (w1 : Fin D → Fin D → EReal) (b1 : Fin D → EReal) (w2 : Fin D → Fin D → EReal) (b2 s w b : Fin D → EReal)
    (hk : ∀ n d, hK' (ix2 n d) = layerK B one eps (fun n j => hK (ix2 n j)) (fun n j => aggK hK (ix2 n j))
      w1 b1 w2 b2 s w b n d)
    (hr : ∀ n d, hR' (ix2 n d) = layerR B one eps (fun n j => hR (ix2 n j)) (fun n j => aggR hR (ix2 n j))
      w1 b1 w2 b2 s w b n d) :
    hK' = hR' := by
  subst heq
  refine arr2_ext _ _ fun n d => ?_
  rw [hk n d, hr n d, hagg hK, layerK_eq_layerR B h1 he]

/-- Four layers: from the same input, equal outputs. -/
theorem net4_eq (h1 : 0 < one) (he : 0 < eps) (aggK aggR : Arr N D → Arr N D) (hagg : ∀ h, aggK h = aggR h)
    (x0 hK1 hK2 hK3 hK4 hR1 hR2 hR3 hR4 : Arr N D)
    (w1 : Fin 4 → Fin D → Fin D → EReal) (b1 : Fin 4 → Fin D → EReal) (w2 : Fin 4 → Fin D → Fin D → EReal)
    (b2 s w b : Fin 4 → Fin D → EReal)
    (hk0 : ∀ n d, hK1 (ix2 n d) = layerK B one eps (fun n j => x0 (ix2 n j)) (fun n j => aggK x0 (ix2 n j))
      (w1 0) (b1 0) (w2 0) (b2 0) (s 0) (w 0) (b 0) n d)
    (hk1 : ∀ n d, hK2 (ix2 n d) = layerK B one eps (fun n j => hK1 (ix2 n j)) (fun n j => aggK hK1 (ix2 n j))
      (w1 1) (b1 1) (w2 1) (b2 1) (s 1) (w 1) (b 1) n d)
    (hk2 : ∀ n d, hK3 (ix2 n d) = layerK B one eps (fun n j => hK2 (ix2 n j)) (fun n j => aggK hK2 (ix2 n j))
      (w1 2) (b1 2) (w2 2) (b2 2) (s 2) (w 2) (b 2) n d)
    (hk3 : ∀ n d, hK4 (ix2 n d) = layerK B one eps (fun n j => hK3 (ix2 n j)) (fun n j => aggK hK3 (ix2 n j))
      (w1 3) (b1 3) (w2 3) (b2 3) (s 3) (w 3) (b 3) n d)
    (hr0 : ∀ n d, hR1 (ix2 n d) = layerR B one eps (fun n j => x0 (ix2 n j)) (fun n j => aggR x0 (ix2 n j))
      (w1 0) (b1 0) (w2 0) (b2 0) (s 0) (w 0) (b 0) n d)
    (hr1 : ∀ n d, hR2 (ix2 n d) = layerR B one eps (fun n j => hR1 (ix2 n j)) (fun n j => aggR hR1 (ix2 n j))
      (w1 1) (b1 1) (w2 1) (b2 1) (s 1) (w 1) (b 1) n d)
    (hr2 : ∀ n d, hR3 (ix2 n d) = layerR B one eps (fun n j => hR2 (ix2 n j)) (fun n j => aggR hR2 (ix2 n j))
      (w1 2) (b1 2) (w2 2) (b2 2) (s 2) (w 2) (b 2) n d)
    (hr3 : ∀ n d, hR4 (ix2 n d) = layerR B one eps (fun n j => hR3 (ix2 n j)) (fun n j => aggR hR3 (ix2 n j))
      (w1 3) (b1 3) (w2 3) (b2 3) (s 3) (w 3) (b 3) n d) :
    hK4 = hR4 := by
  have e1 := layer_step B h1 he aggK aggR hagg x0 x0 hK1 hR1 rfl _ _ _ _ _ _ _ hk0 hr0
  have e2 := layer_step B h1 he aggK aggR hagg hK1 hR1 hK2 hR2 e1 _ _ _ _ _ _ _ hk1 hr1
  have e3 := layer_step B h1 he aggK aggR hagg hK2 hR2 hK3 hR3 e2 _ _ _ _ _ _ _ hk2 hr2
  exact layer_step B h1 he aggK aggR hagg hK3 hR3 hK4 hR4 e3 _ _ _ _ _ _ _ hk3 hr3

/-- The readout: from equal last layers, equal results. -/
theorem head_step (hK4 hR4 : Arr N D) (heq : hK4 = hR4) (resK resR : Arr G C)
    (fw1 : Fin D → Fin D → EReal) (fb1 : Fin D → EReal) (fw2 : Fin D → Fin D → EReal) (fb2 : Fin D → EReal)
    (fw3 : Fin D → Fin C → EReal) (fb3 : Fin C → EReal)
    (hk : ∀ g k, resK (ix2 g k) = head (pooled B fun n j => hK4 (ix2 n j)) fw1 fb1 fw2 fb2 fw3 fb3 g k)
    (hr : ∀ g k, resR (ix2 g k) = head (pooled B fun n j => hR4 (ix2 n j)) fw1 fb1 fw2 fb2 fw3 fb3 g k) :
    resK = resR := by
  subst heq
  exact arr2_ext _ _ fun g k => by rw [hk g k, hr g k]

/-- The whole network: from the same input, equal results. -/
theorem results_eq (h1 : 0 < one) (he : 0 < eps) (aggK aggR : Arr N D → Arr N D) (hagg : ∀ h, aggK h = aggR h)
    (x0 hK1 hK2 hK3 hK4 hR1 hR2 hR3 hR4 : Arr N D) (resK resR : Arr G C)
    (w1 : Fin 4 → Fin D → Fin D → EReal) (b1 : Fin 4 → Fin D → EReal) (w2 : Fin 4 → Fin D → Fin D → EReal)
    (b2 s w b : Fin 4 → Fin D → EReal)
    (fw1 : Fin D → Fin D → EReal) (fb1 : Fin D → EReal) (fw2 : Fin D → Fin D → EReal) (fb2 : Fin D → EReal)
    (fw3 : Fin D → Fin C → EReal) (fb3 : Fin C → EReal)
    (hk0 : ∀ n d, hK1 (ix2 n d) = layerK B one eps (fun n j => x0 (ix2 n j)) (fun n j => aggK x0 (ix2 n j))
      (w1 0) (b1 0) (w2 0) (b2 0) (s 0) (w 0) (b 0) n d)
    (hk1 : ∀ n d, hK2 (ix2 n d) = layerK B one eps (fun n j => hK1 (ix2 n j)) (fun n j => aggK hK1 (ix2 n j))
      (w1 1) (b1 1) (w2 1) (b2 1) (s 1) (w 1) (b 1) n d)
    (hk2 : ∀ n d, hK3 (ix2 n d) = layerK B one eps (fun n j => hK2 (ix2 n j)) (fun n j => aggK hK2 (ix2 n j))
      (w1 2) (b1 2) (w2 2) (b2 2) (s 2) (w 2) (b 2) n d)
    (hk3 : ∀ n d, hK4 (ix2 n d) = layerK B one eps (fun n j => hK3 (ix2 n j)) (fun n j => aggK hK3 (ix2 n j))
      (w1 3) (b1 3) (w2 3) (b2 3) (s 3) (w 3) (b 3) n d)
    (hkh : ∀ g k, resK (ix2 g k) = head (pooled B fun n j => hK4 (ix2 n j)) fw1 fb1 fw2 fb2 fw3 fb3 g k)
    (hr0 : ∀ n d, hR1 (ix2 n d) = layerR B one eps (fun n j => x0 (ix2 n j)) (fun n j => aggR x0 (ix2 n j))
      (w1 0) (b1 0) (w2 0) (b2 0) (s 0) (w 0) (b 0) n d)
    (hr1 : ∀ n d, hR2 (ix2 n d) = layerR B one eps (fun n j => hR1 (ix2 n j)) (fun n j => aggR hR1 (ix2 n j))
      (w1 1) (b1 1) (w2 1) (b2 1) (s 1) (w 1) (b 1) n d)
    (hr2 : ∀ n d, hR3 (ix2 n d) = layerR B one eps (fun n j => hR2 (ix2 n j)) (fun n j => aggR hR2 (ix2 n j))
      (w1 2) (b1 2) (w2 2) (b2 2) (s 2) (w 2) (b 2) n d)
    (hr3 : ∀ n d, hR4 (ix2 n d) = layerR B one eps (fun n j => hR3 (ix2 n j)) (fun n j => aggR hR3 (ix2 n j))
      (w1 3) (b1 3) (w2 3) (b2 3) (s 3) (w 3) (b 3) n d)
    (hrh : ∀ g k, resR (ix2 g k) = head (pooled B fun n j => hR4 (ix2 n j)) fw1 fb1 fw2 fb2 fw3 fb3 g k) :
    resK = resR :=
  head_step B hK4 hR4
    (net4_eq B h1 he aggK aggR hagg x0 hK1 hK2 hK3 hK4 hR1 hR2 hR3 hR4 w1 b1 w2 b2 s w b hk0 hk1 hk2 hk3 hr0 hr1 hr2 hr3)
    resK resR fw1 fb1 fw2 fb2 fw3 fb3 hkh hrh

end Cert.BridgeCore
-- ==== Proof.Consts.lean ====
/- The float constants the two programs spell, as the extended reals their patterns denote: zero, one, the small positive constant added to a variance, and minus infinity; each also in the spellings a program uses (a scalar constant, a splat, a broadcast scalar). One module unfolds the decoding of a pattern, the others read the constants here. -/
import Idealize.ShloMosaic.PureOps.Ideal

noncomputable section

namespace Cert.Consts

open Idealize.ShloMosaic

/-! ## The patterns -/

/-- The pattern of +0.0 denotes 0. -/
theorem ofBits_zero : Ideal.ofBits .f32 0x00000000#32 = 0 := by
  simp [Ideal.ofBits, Ideal.ieee]

/-- The pattern of 1.0 denotes 1. -/
theorem ofBits_one : Ideal.ofBits .f32 0x3F800000#32 = 1 := by
  rw [show (1 : EReal) = ((1 : ℝ) : EReal) by norm_cast]
  simp [Ideal.ofBits, Ideal.ieee, -EReal.coe_mul]; norm_num

/-- The real the pattern 0x3727C5AC denotes: (2^23 + 2606508) * 2^(110 - 127 - 23), about 1e-5. -/
def epsR : ℝ := ((2 ^ 23 + 2606508 : ℕ) : ℝ) * (2 : ℝ) ^ ((110 : ℤ) - 127 - 23)

theorem epsR_pos : 0 < epsR := by unfold epsR; positivity

/-- The pattern 0x3727C5AC denotes that real. -/
theorem ofBits_eps : Ideal.ofBits .f32 0x3727C5AC#32 = (epsR : EReal) := by
  unfold epsR
  simp [Ideal.ofBits, Ideal.ieee, -EReal.coe_mul]

/-- It is positive. -/
theorem ofBits_eps_pos : 0 < Ideal.ofBits .f32 0x3727C5AC#32 := by
  rw [ofBits_eps]; exact EReal.coe_pos.2 epsR_pos

/-- The pattern of minus infinity denotes the bottom of the extended reals. -/
theorem ofBits_neg_inf : Ideal.ofBits .f32 0xFF800000#32 = ⊥ := by
  simp [Ideal.ofBits, Ideal.ieee]

/-! ## The same in a program's spellings -/

/-- A scalar float constant is its pattern's extended real. -/
theorem scalar_ofBits (b : BitVec (FTy.f32).bits) : (Scalar.ofBits .f32 b : Ideal .f32) = Ideal.ofBits .f32 b := rfl

/-- A splat constant reads its pattern's extended real everywhere. -/
theorem constant_apply {s : Shape} (b : BitVec (FTy.f32).bits) (i : s.Idx) :
    constant (F := Ideal) s .f32 b i = Ideal.ofBits .f32 b := rfl

/-- A broadcast scalar reads the scalar everywhere. -/
theorem broadcast_apply {α : Type} {s : Shape} (x : α) (i : s.Idx) : broadcast s x i = x := rfl

theorem scalar_zero : (Scalar.ofBits .f32 0x00000000#32 : Ideal .f32) = 0 := ofBits_zero
theorem scalar_one : (Scalar.ofBits .f32 0x3F800000#32 : Ideal .f32) = 1 := ofBits_one
theorem scalar_eps : (Scalar.ofBits .f32 0x3727C5AC#32 : Ideal .f32) = (epsR : EReal) := ofBits_eps
theorem scalar_eps_pos : 0 < (Scalar.ofBits .f32 0x3727C5AC#32 : Ideal .f32) := ofBits_eps_pos
theorem scalar_neg_inf : (Scalar.ofBits .f32 0xFF800000#32 : Ideal .f32) = ⊥ := ofBits_neg_inf

theorem floatOps_zero : FloatOps.ofBits (F := Ideal) .f32 0x00000000#32 = 0 := ofBits_zero
theorem floatOps_one : FloatOps.ofBits (F := Ideal) .f32 0x3F800000#32 = 1 := ofBits_one
theorem floatOps_eps : FloatOps.ofBits (F := Ideal) .f32 0x3727C5AC#32 = (epsR : EReal) := ofBits_eps
theorem floatOps_eps_pos : 0 < FloatOps.ofBits (F := Ideal) .f32 0x3727C5AC#32 := ofBits_eps_pos
theorem floatOps_neg_inf : FloatOps.ofBits (F := Ideal) .f32 0xFF800000#32 = ⊥ := ofBits_neg_inf

theorem constant_zero {s : Shape} (i : s.Idx) : constant (F := Ideal) s .f32 0x00000000#32 i = 0 := ofBits_zero
theorem constant_one {s : Shape} (i : s.Idx) : constant (F := Ideal) s .f32 0x3F800000#32 i = 1 := ofBits_one
theorem constant_eps {s : Shape} (i : s.Idx) : constant (F := Ideal) s .f32 0x3727C5AC#32 i = (epsR : EReal) :=
  ofBits_eps
theorem constant_eps_pos {s : Shape} (i : s.Idx) : 0 < constant (F := Ideal) s .f32 0x3727C5AC#32 i := ofBits_eps_pos
theorem constant_neg_inf {s : Shape} (i : s.Idx) : constant (F := Ideal) s .f32 0xFF800000#32 i = ⊥ := ofBits_neg_inf

theorem broadcast_zero {s : Shape} (i : s.Idx) :
    broadcast s (Scalar.ofBits .f32 0x00000000#32 : Ideal .f32) i = 0 := ofBits_zero
theorem broadcast_one {s : Shape} (i : s.Idx) :
    broadcast s (Scalar.ofBits .f32 0x3F800000#32 : Ideal .f32) i = 1 := ofBits_one
theorem broadcast_eps {s : Shape} (i : s.Idx) :
    broadcast s (Scalar.ofBits .f32 0x3727C5AC#32 : Ideal .f32) i = (epsR : EReal) := ofBits_eps
theorem broadcast_eps_pos {s : Shape} (i : s.Idx) :
    0 < broadcast s (Scalar.ofBits .f32 0x3727C5AC#32 : Ideal .f32) i := ofBits_eps_pos

end Cert.Consts
-- ==== Proof.LibGatherRows.lean ====
/- The gather of whole rows: operand [N, C] (or [N, A, B]), start indices [n, 1], result [n, C] (or [n, A, B]); the operand's axis 0 is collapsed and named by the one component of the index vector, the other axes are offset axes taken whole. Result row j is the operand's row at start index j, read signed and clamped into [0, N - 1]. -/
import Idealize.ShloMosaic.PureOps.Ideal
import Idealize.ShloMosaic.Lib.ValueIdx

noncomputable section

open scoped BigOperators

namespace Cert.LibGatherRows

open Idealize.ShloMosaic Idealize.ShloMosaic.ValueIdx

/-- An entry of a list read through two equations: of the lists and of the positions. -/
theorem getElem_of_eq_of_eq {β : Type} {l l' : List β} (h : l = l') {i i' : Nat} (hi : i = i') (w : i < l.length) :
    l[i] = l'[i']'(by subst h; subst hi; exact w) := by
  subst h; subst hi; rfl

/-- THE ROW GATHER READ AT (j, c), one offset axis. On axis 0 (collapsed, named by the start index map) the operand
    coordinate is the start word read signed and clamped so that a slice of size 1 fits; on axis 1 (an offset axis, not
    named by the start index map) the start is 0 and the offset coordinate is the result's coordinate. -/
theorem gather_rows2_apply {α : Type} {N n C w : Nat} (hN : 0 < N) (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, C]⟩ : Shape).Idx → α) (idx : IVec ⟨2, ![n, 1]⟩ w) (j : Fin n) (c : Fin C) :
    Host.gather d x idx (ix2 j c)
      = x (ix2 (⟨min (idx (ix2 j (0 : Fin 1))).toInt.toNat (N - 1), by omega⟩ : Fin N) c) := by
  unfold Host.gather
  congr 1
  funext a
  apply Fin.ext
  have hb : ∀ a : Fin 2, a ∉ d.operandBatchingDims := fun a => by rw [hob]; exact List.not_mem_nil
  -- a batch axis of the result is its axis 0 (the one axis that is not an offset axis)
  have ebatch : ∀ X : Fin 2, X ∈ d.batchDims → ((ix2 j c : (⟨2, ![n, C]⟩ : Shape).Idx) X).val = j.val := by
    intro X hX
    have hX0 : X = 0 := by
      simp only [GatherDims.batchDims, Shape.kept, hoff, List.mem_filter] at hX
      have h1 : X ≠ 1 := by simpa using hX.2
      match X with
      | ⟨0, _⟩ => rfl
      | ⟨1, _⟩ => exact absurd rfl h1
    subst hX0; rfl
  -- an offset axis of the result is its axis 1
  have eoff : ∀ X : Fin 2, X ∈ d.offsetDims → ((ix2 j c : (⟨2, ![n, C]⟩ : Shape).Idx) X).val = c.val := by
    intro X hX
    have hX1 : X = 1 := by rw [hoff] at hX; exact List.mem_singleton.mp hX
    subst hX1; rfl
  match a with
  | ⟨0, _⟩ =>
    -- the collapsed axis: the clamped start, no batching and no offset coordinate
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 j c) idx 0 + d.batchCoord (ix2 j c) 0 + d.offCoord (ix2 j c) 0
      = min (idx (ix2 j (0 : Fin 1))).toInt.toNat (N - 1)
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 j (0 : Fin 1))).toInt.toNat (N - 1)
    rw [hsl]
    congr 3
    congr 1
    funext b
    apply Fin.ext
    match b with
    | ⟨0, _⟩ =>
      -- the start indices' axis 0 is read at the result's batch coordinate
      unfold GatherDims.siIdx
      rw [dif_neg (by rw [hivd]; simp)]
      unfold GatherDims.siCoord
      simp only [Fin.val_cast]
      exact ebatch _ (List.getElem_mem _)
    | ⟨1, _⟩ =>
      -- the index vector's axis is read at the component's position in the start index map, the first
      unfold GatherDims.siIdx
      rw [dif_pos (by rw [hivd])]
      show List.idxOf (0 : Fin 2) d.startIndexMap = 0
      rw [hsim]; simp
  | ⟨1, _⟩ =>
    -- an offset axis: no start (the start index map does not name it), no batching coordinate, the result's coordinate
    have hk : (1 : Fin 2) ∈ d.sKept := by rw [GatherDims.mem_sKept, hcoll, hob]; simp
    have hm : (1 : Fin 2) ∉ d.startIndexMap := by rw [hsim]; simp
    show d.start (ix2 j c) idx 1 + d.batchCoord (ix2 j c) 1 + d.offCoord (ix2 j c) 1 = c.val
    rw [GatherDims.batchCoord_eq_zero _ _ _ (hb 1)]
    unfold GatherDims.start GatherDims.offCoord
    rw [dif_neg hm, dif_pos hk]
    simp only [Nat.zero_add]
    exact eoff _ (List.getElem_mem _)

/-- The same with two offset axes: the operand's kept axes 1 and 2 are read, in order, at the result's offset axes 1
    and 2. -/
theorem gather_rows3_apply {α : Type} {N n A B w : Nat} (hN : 0 < N) (d : GatherDims ⟨3, ![N, A, B]⟩ ⟨2, ![n, 1]⟩ ⟨3, ![n, A, B]⟩)
    (hoff : d.offsetDims = [1, 2]) (hcoll : d.collapsedSliceDims = [0]) (hob : d.operandBatchingDims = [])
    (hsb : d.startIndicesBatchingDims = []) (hsim : d.startIndexMap = [0]) (hivd : d.indexVectorDim = 1)
    (x : (⟨3, ![N, A, B]⟩ : Shape).Idx → α) (idx : IVec ⟨2, ![n, 1]⟩ w) (j : Fin n) (a : Fin A) (b : Fin B) :
    Host.gather d x idx (ix3 j a b)
      = x (ix3 (⟨min (idx (ix2 j (0 : Fin 1))).toInt.toNat (N - 1), by omega⟩ : Fin N) a b) := by
  unfold Host.gather
  congr 1
  funext q
  apply Fin.ext
  have hb : ∀ q : Fin 3, q ∉ d.operandBatchingDims := fun q => by rw [hob]; exact List.not_mem_nil
  -- the operand's axes that are neither collapsed nor batching: 1 and 2, in order
  have hsk : d.sKept = [1, 2] := by
    simp only [GatherDims.sKept, Shape.kept, hcoll, hob]
    rfl
  -- a batch axis of the result is its axis 0 (the one axis that is not an offset axis)
  have ebatch : ∀ X : Fin 3, X ∈ d.batchDims → ((ix3 j a b : (⟨3, ![n, A, B]⟩ : Shape).Idx) X).val = j.val := by
    intro X hX
    have hX0 : X = 0 := by
      simp only [GatherDims.batchDims, Shape.kept, hoff, List.mem_filter] at hX
      have h12 : X ≠ 1 ∧ X ≠ 2 := by simpa using hX.2
      match X with
      | ⟨0, _⟩ => rfl
      | ⟨1, _⟩ => exact absurd rfl h12.1
      | ⟨2, _⟩ => exact absurd rfl h12.2
    subst hX0; rfl
  -- the result's coordinates on its axes 1 and 2
  have e1 : ∀ X : Fin 3, X = 1 → ((ix3 j a b : (⟨3, ![n, A, B]⟩ : Shape).Idx) X).val = a.val := by
    intro X hX; subst hX; rfl
  have e2 : ∀ X : Fin 3, X = 2 → ((ix3 j a b : (⟨3, ![n, A, B]⟩ : Shape).Idx) X).val = b.val := by
    intro X hX; subst hX; rfl
  have hm : ∀ q : Fin 3, q ≠ 0 → q ∉ d.startIndexMap := fun q hq => by
    rw [hsim]; exact fun h => hq (List.mem_singleton.mp h)
  match q with
  | ⟨0, _⟩ =>
    -- the collapsed axis: the clamped start, no batching and no offset coordinate
    have hk : (0 : Fin 3) ∉ d.sKept := by rw [GatherDims.mem_sKept, hcoll]; simp
    have hm0 : (0 : Fin 3) ∈ d.startIndexMap := by rw [hsim]; exact List.mem_singleton.mpr rfl
    have hsl : d.sliceSizes 0 = 1 := d.slice_collapsed 0 (by rw [hcoll]; exact List.mem_singleton.mpr rfl)
    show d.start (ix3 j a b) idx 0 + d.batchCoord (ix3 j a b) 0 + d.offCoord (ix3 j a b) 0
      = min (idx (ix2 j (0 : Fin 1))).toInt.toNat (N - 1)
    rw [GatherDims.batchCoord_eq_zero _ _ _ (hb 0), GatherDims.offCoord_eq_zero _ _ _ hk]
    simp only [Nat.add_zero]
    unfold GatherDims.start
    rw [dif_pos hm0]
    show min (idx _).toInt.toNat (N - d.sliceSizes 0) = min (idx (ix2 j (0 : Fin 1))).toInt.toNat (N - 1)
    rw [hsl]
    congr 3
    congr 1
    funext p
    apply Fin.ext
    match p with
    | ⟨0, _⟩ =>
      -- the start indices' axis 0 is read at the result's batch coordinate
      unfold GatherDims.siIdx
      rw [dif_neg (by rw [hivd]; simp)]
      unfold GatherDims.siCoord
      simp only [Fin.val_cast]
      exact ebatch _ (List.getElem_mem _)
    | ⟨1, _⟩ =>
      -- the index vector's axis is read at the component's position in the start index map, the first
      unfold GatherDims.siIdx
      rw [dif_pos (by rw [hivd])]
      show List.idxOf (0 : Fin 3) d.startIndexMap = 0
      rw [hsim]; simp
  | ⟨1, _⟩ =>
    -- the first offset axis: no start, no batching coordinate, the result's coordinate on its axis 1
    have hk : (1 : Fin 3) ∈ d.sKept := by rw [hsk]; simp
    show d.start (ix3 j a b) idx 1 + d.batchCoord (ix3 j a b) 1 + d.offCoord (ix3 j a b) 1 = a.val
    rw [GatherDims.batchCoord_eq_zero _ _ _ (hb 1)]
    unfold GatherDims.start GatherDims.offCoord
    rw [dif_neg (hm 1 (by decide)), dif_pos hk]
    simp only [Nat.zero_add]
    exact e1 _ ((getElem_of_eq_of_eq hoff (show List.idxOf (1 : Fin 3) d.sKept = 0 by rw [hsk]; rfl) _).trans rfl)
  | ⟨2, _⟩ =>
    -- the second offset axis: the result's coordinate on its axis 2
    have hk : (2 : Fin 3) ∈ d.sKept := by rw [hsk]; simp
    show d.start (ix3 j a b) idx 2 + d.batchCoord (ix3 j a b) 2 + d.offCoord (ix3 j a b) 2 = b.val
    rw [GatherDims.batchCoord_eq_zero _ _ _ (hb 2)]
    unfold GatherDims.start GatherDims.offCoord
    rw [dif_neg (hm 2 (by decide)), dif_pos hk]
    simp only [Nat.zero_add]
    exact e2 _ ((getElem_of_eq_of_eq hoff (show List.idxOf (2 : Fin 3) d.sKept = 1 by rw [hsk]; rfl) _).trans rfl)

end Cert.LibGatherRows

end
-- ==== Proof.LibScatterAddRows.lean ====
/- The accumulating scatter of whole rows: operand [N, C] (or [N, A, B]), start indices [n, 1], updates [n, C] (or [n, A, B]); the operand's axis 0 is inserted and named by the one component of the index vector, the other axes are the update window. Update row j lands on operand row i exactly when its start index, read signed, equals i; a row outside [0, N) lands nowhere. -/
import Idealize.ShloMosaic.PureOps.Ideal
import Idealize.ShloMosaic.Lib.ValueIdx

noncomputable section

open scoped BigOperators

namespace Cert.LibScatterAddRows

open Idealize.ShloMosaic Idealize.ShloMosaic.ValueIdx

/-! ## One window axis -/

/-- An axis of a rank-2 shape is axis 0 or axis 1. -/
theorem axis2_cases {N C : Nat} (a : Fin (⟨2, ![N, C]⟩ : Shape).rank) : a = 0 ∨ a = 1 := by
  match a with
  | ⟨0, _⟩ => exact Or.inl rfl
  | ⟨1, _⟩ => exact Or.inr rfl

/-- The dimension numbers of a scatter of whole rows, one window axis. -/
abbrev rows2Dims (N n C : Nat) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

section Rows2
variable {N n C w : Nat} (wf : ScatterDims.WF ⟨2, ![N, C]⟩ ⟨2, ![n, 1]⟩ ⟨2, ![n, C]⟩ [1] [0] [0] 1)
  (j : Fin n) (c : Fin C) (idx : IVec ⟨2, ![n, 1]⟩ w)

/-- On the inserted axis the window of update (j, c) starts at row j's start index, read signed. -/
theorem rows2_start0 : (rows2Dims N n C wf).start (ix2 j c) idx 0 = (idx (ix2 j (0 : Fin 1))).toInt := by
  unfold ScatterDims.start
  rw [dif_pos (show (0 : Fin 2) ∈ (rows2Dims N n C wf).scatterDimsToOperandDims from List.mem_singleton.mpr rfl)]
  have hsi : (rows2Dims N n C wf).siIdx (ix2 j c) ⟨List.idxOf (0 : Fin 2) (rows2Dims N n C wf).scatterDimsToOperandDims,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- On the window axis the start is 0. -/
theorem rows2_start1 : (rows2Dims N n C wf).start (ix2 j c) idx 1 = 0 := by
  unfold ScatterDims.start
  rw [dif_neg]
  simp

/-- The inserted axis has window coordinate 0. -/
theorem rows2_window0 : (rows2Dims N n C wf).window (ix2 j c) 0 = 0 := by
  unfold ScatterDims.window
  rw [dif_neg]
  simp [ScatterDims.sKept, Shape.kept, List.mem_filter, List.mem_finRange]

/-- The window axis has the update's column as window coordinate. -/
theorem rows2_window1 : (rows2Dims N n C wf).window (ix2 j c) 1 = c.val := by
  unfold ScatterDims.window
  rw [dif_pos (by simp [ScatterDims.sKept, Shape.kept, List.mem_filter, List.mem_finRange])]
  rfl

/-- Update (j, c) lands on (i, c') exactly when row j's start index, read signed, is i and the columns agree. -/
theorem rows2_resultIdx?_eq_some_iff (i : Fin N) (c' : Fin C) :
    (rows2Dims N n C wf).resultIdx? (ix2 j c) idx = some (ix2 i c')
      ↔ ((idx (ix2 j (0 : Fin 1))).toInt = (i.val : ℤ) ∧ c = c') := by
  unfold ScatterDims.resultIdx?
  have hs0 : (rows2Dims N n C wf).start (ix2 j c) idx 0 + ((rows2Dims N n C wf).window (ix2 j c) 0 : ℤ)
      = (idx (ix2 j (0 : Fin 1))).toInt := by
    rw [rows2_start0, rows2_window0]; simp
  have hs1 : (rows2Dims N n C wf).start (ix2 j c) idx 1 + ((rows2Dims N n C wf).window (ix2 j c) 1 : ℤ)
      = (c.val : ℤ) := by
    rw [rows2_start1, rows2_window1]; simp
  constructor
  · intro h
    split at h
    · rename_i hall
      have e := Option.some.inj h
      have h0 := congrArg Fin.val (congrFun e 0)
      have h1 := congrArg Fin.val (congrFun e 1)
      change ((rows2Dims N n C wf).start (ix2 j c) idx 0 + ((rows2Dims N n C wf).window (ix2 j c) 0 : ℤ)).toNat
        = i.val at h0
      change ((rows2Dims N n C wf).start (ix2 j c) idx 1 + ((rows2Dims N n C wf).window (ix2 j c) 1 : ℤ)).toNat
        = c'.val at h1
      have hp := (hall 0).1
      rw [hs0] at h0 hp
      rw [hs1] at h1
      exact ⟨by omega, Fin.ext (by omega)⟩
    · exact absurd h (by simp)
  · rintro ⟨h, rfl⟩
    have hall : ∀ a, 0 ≤ (rows2Dims N n C wf).start (ix2 j c) idx a + ((rows2Dims N n C wf).window (ix2 j c) a : ℤ) ∧
        (rows2Dims N n C wf).start (ix2 j c) idx a + ((rows2Dims N n C wf).window (ix2 j c) a : ℤ)
          < ((⟨2, ![N, C]⟩ : Shape).size a : ℤ) := by
      intro a
      rcases axis2_cases a with rfl | rfl
      · rw [hs0, h]
        have := i.isLt
        constructor
        · omega
        · change (i.val : ℤ) < (N : ℤ); omega
      · rw [hs1]
        have := c.isLt
        constructor
        · omega
        · change (c.val : ℤ) < (C : ℤ); omega
    rw [dif_pos hall]
    congr 1
    funext a
    refine Fin.ext ?_
    rcases axis2_cases a with rfl | rfl
    · change ((rows2Dims N n C wf).start (ix2 j c) idx 0 + ((rows2Dims N n C wf).window (ix2 j c) 0 : ℤ)).toNat = i.val
      rw [hs0, h]; simp
    · change ((rows2Dims N n C wf).start (ix2 j c) idx 1 + ((rows2Dims N n C wf).window (ix2 j c) 1 : ℤ)).toNat = c.val
      rw [hs1]; simp

end Rows2

/-- THE ROW SCATTER-ADD READ AT (i, c), one window axis: the operand there plus the sum, over the update rows whose
    start index is i, of the update at column c. -/
theorem scatterAdd_rows2_apply {N n C w : Nat} {φ : FTy} (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1)
    (x : FVec Ideal ⟨2, ![N, C]⟩ φ) (idx : IVec ⟨2, ![n, 1]⟩ w) (upd : FVec Ideal ⟨2, ![n, C]⟩ φ) (i : Fin N) (c : Fin C) :
    Host.scatterAdd d x idx upd (ix2 i c)
      = x (ix2 i c) + ∑ j ∈ Finset.univ.filter (fun j : Fin n => (idx (ix2 j (0 : Fin 1))).toInt = (i.val : ℤ)), upd (ix2 j c) := by
  obtain ⟨uw, iw, sd, iv, wf⟩ := d
  dsimp only at hu hi hs hv
  subst hu hi hs hv
  unfold Host.scatterAdd
  rw [Ideal.hostScatterAdd_def]
  unfold Ideal.hostScatterAdd
  congr 1
  symm
  refine Finset.sum_bij (fun j _ => ix2 j c) ?_ ?_ ?_ ?_
  · intro j hj
    simp only [Finset.mem_filter, Finset.mem_univ, true_and] at hj ⊢
    exact (rows2_resultIdx?_eq_some_iff wf j c idx i c).2 ⟨hj, rfl⟩
  · intro j _ j' _ hjj
    exact congrFun hjj 0
  · intro p hp
    simp only [Finset.mem_filter, Finset.mem_univ, true_and] at hp
    rw [eq_ix2 p] at hp ⊢
    obtain ⟨h0, h1⟩ := (rows2_resultIdx?_eq_some_iff wf (p 0) (p 1) idx i c).1 hp
    exact ⟨p 0, Finset.mem_filter.2 ⟨Finset.mem_univ _, h0⟩, congrArg (ix2 (p 0)) h1.symm⟩
  · intro j _
    rfl

/-! ## Two window axes -/

/-- An axis of a rank-3 shape is axis 0, 1 or 2. -/
theorem axis3_cases {N A B : Nat} (a : Fin (⟨3, ![N, A, B]⟩ : Shape).rank) : a = 0 ∨ a = 1 ∨ a = 2 := by
  match a with
  | ⟨0, _⟩ => exact Or.inl rfl
  | ⟨1, _⟩ => exact Or.inr (Or.inl rfl)
  | ⟨2, _⟩ => exact Or.inr (Or.inr rfl)

/-- The dimension numbers of a scatter of whole rows, two window axes. -/
abbrev rows3Dims (N n A B : Nat)
    (wf : ScatterDims.WF ⟨3, ![N, A, B]⟩ ⟨2, ![n, 1]⟩ ⟨3, ![n, A, B]⟩ [1, 2] [0] [0] 1) :
    ScatterDims ⟨3, ![N, A, B]⟩ ⟨2, ![n, 1]⟩ ⟨3, ![n, A, B]⟩ where
  updateWindowDims := [1, 2]
  insertedWindowDims := [0]
  scatterDimsToOperandDims := [0]
  indexVectorDim := 1
  wf := wf

section Rows3
variable {N n A B w : Nat} (wf : ScatterDims.WF ⟨3, ![N, A, B]⟩ ⟨2, ![n, 1]⟩ ⟨3, ![n, A, B]⟩ [1, 2] [0] [0] 1)
  (j : Fin n) (a : Fin A) (b : Fin B) (idx : IVec ⟨2, ![n, 1]⟩ w)

/-- On the inserted axis the window of update (j, a, b) starts at row j's start index, read signed. -/
theorem rows3_start0 : (rows3Dims N n A B wf).start (ix3 j a b) idx 0 = (idx (ix2 j (0 : Fin 1))).toInt := by
  unfold ScatterDims.start
  rw [dif_pos (show (0 : Fin 3) ∈ (rows3Dims N n A B wf).scatterDimsToOperandDims from List.mem_singleton.mpr rfl)]
  have hsi : (rows3Dims N n A B wf).siIdx (ix3 j a b)
      ⟨List.idxOf (0 : Fin 3) (rows3Dims N n A B wf).scatterDimsToOperandDims,
        List.idxOf_lt_length_iff.2 (List.mem_singleton.mpr rfl)⟩ = ix2 j (0 : Fin 1) := by
    funext e; refine Fin.ext ?_
    match e with
    | ⟨0, _⟩ => rfl
    | ⟨1, _⟩ => rfl
  rw [hsi]

/-- On the first window axis the start is 0. -/
theorem rows3_start1 : (rows3Dims N n A B wf).start (ix3 j a b) idx 1 = 0 := by
  unfold ScatterDims.start
  rw [dif_neg]
  simp

/-- On the second window axis the start is 0. -/
theorem rows3_start2 : (rows3Dims N n A B wf).start (ix3 j a b) idx 2 = 0 := by
  unfold ScatterDims.start
  rw [dif_neg]
  simp

/-- The inserted axis has window coordinate 0. -/
theorem rows3_window0 : (rows3Dims N n A B wf).window (ix3 j a b) 0 = 0 := by
  unfold ScatterDims.window
  rw [dif_neg]
  simp [ScatterDims.sKept, Shape.kept, List.mem_filter, List.mem_finRange]

/-- The first window axis has the update's second coordinate as window coordinate. -/
theorem rows3_window1 : (rows3Dims N n A B wf).window (ix3 j a b) 1 = a.val := by
  unfold ScatterDims.window
  rw [dif_pos (by simp [ScatterDims.sKept, Shape.kept, List.mem_filter, List.mem_finRange])]
  rfl

/-- The second window axis has the update's third coordinate as window coordinate. -/
theorem rows3_window2 : (rows3Dims N n A B wf).window (ix3 j a b) 2 = b.val := by
  unfold ScatterDims.window
  rw [dif_pos (by simp [ScatterDims.sKept, Shape.kept, List.mem_filter, List.mem_finRange])]
  rfl

/-- Update (j, a, b) lands on (i, a', b') exactly when row j's start index, read signed, is i and the window
    coordinates agree. -/
theorem rows3_resultIdx?_eq_some_iff (i : Fin N) (a' : Fin A) (b' : Fin B) :
    (rows3Dims N n A B wf).resultIdx? (ix3 j a b) idx = some (ix3 i a' b')
      ↔ ((idx (ix2 j (0 : Fin 1))).toInt = (i.val : ℤ) ∧ a = a' ∧ b = b') := by
  unfold ScatterDims.resultIdx?
  have hs0 : (rows3Dims N n A B wf).start (ix3 j a b) idx 0 + ((rows3Dims N n A B wf).window (ix3 j a b) 0 : ℤ)
      = (idx (ix2 j (0 : Fin 1))).toInt := by
    rw [rows3_start0, rows3_window0]; simp
  have hs1 : (rows3Dims N n A B wf).start (ix3 j a b) idx 1 + ((rows3Dims N n A B wf).window (ix3 j a b) 1 : ℤ)
      = (a.val : ℤ) := by
    rw [rows3_start1, rows3_window1]; simp
  have hs2 : (rows3Dims N n A B wf).start (ix3 j a b) idx 2 + ((rows3Dims N n A B wf).window (ix3 j a b) 2 : ℤ)
      = (b.val : ℤ) := by
    rw [rows3_start2, rows3_window2]; simp
  constructor
  · intro h
    split at h
    · rename_i hall
      have e := Option.some.inj h
      have h0 := congrArg Fin.val (congrFun e 0)
      have h1 := congrArg Fin.val (congrFun e 1)
      have h2 := congrArg Fin.val (congrFun e 2)
      change ((rows3Dims N n A B wf).start (ix3 j a b) idx 0 + ((rows3Dims N n A B wf).window (ix3 j a b) 0 : ℤ)).toNat
        = i.val at h0
      change ((rows3Dims N n A B wf).start (ix3 j a b) idx 1 + ((rows3Dims N n A B wf).window (ix3 j a b) 1 : ℤ)).toNat
        = a'.val at h1
      change ((rows3Dims N n A B wf).start (ix3 j a b) idx 2 + ((rows3Dims N n A B wf).window (ix3 j a b) 2 : ℤ)).toNat
        = b'.val at h2
      have hp := (hall 0).1
      rw [hs0] at h0 hp
      rw [hs1] at h1
      rw [hs2] at h2
      exact ⟨by omega, Fin.ext (by omega), Fin.ext (by omega)⟩
    · exact absurd h (by simp)
  · rintro ⟨h, rfl, rfl⟩
    have hall : ∀ e, 0 ≤ (rows3Dims N n A B wf).start (ix3 j a b) idx e + ((rows3Dims N n A B wf).window (ix3 j a b) e : ℤ) ∧
        (rows3Dims N n A B wf).start (ix3 j a b) idx e + ((rows3Dims N n A B wf).window (ix3 j a b) e : ℤ)
          < ((⟨3, ![N, A, B]⟩ : Shape).size e : ℤ) := by
      intro e
      rcases axis3_cases e with rfl | rfl | rfl
      · rw [hs0, h]
        have := i.isLt
        constructor
        · omega
        · change (i.val : ℤ) < (N : ℤ); omega
      · rw [hs1]
        have := a.isLt
        constructor
        · omega
        · change (a.val : ℤ) < (A : ℤ); omega
      · rw [hs2]
        have := b.isLt
        constructor
        · omega
        · change (b.val : ℤ) < (B : ℤ); omega
    rw [dif_pos hall]
    congr 1
    funext e
    refine Fin.ext ?_
    rcases axis3_cases e with rfl | rfl | rfl
    · change ((rows3Dims N n A B wf).start (ix3 j a b) idx 0 + ((rows3Dims N n A B wf).window (ix3 j a b) 0 : ℤ)).toNat = i.val
      rw [hs0, h]; simp
    · change ((rows3Dims N n A B wf).start (ix3 j a b) idx 1 + ((rows3Dims N n A B wf).window (ix3 j a b) 1 : ℤ)).toNat = a.val
      rw [hs1]; simp
    · change ((rows3Dims N n A B wf).start (ix3 j a b) idx 2 + ((rows3Dims N n A B wf).window (ix3 j a b) 2 : ℤ)).toNat = b.val
      rw [hs2]; simp

end Rows3

/-- The same with two window axes. -/
theorem scatterAdd_rows3_apply {N n A B w : Nat} {φ : FTy} (d : ScatterDims ⟨3, ![N, A, B]⟩ ⟨2, ![n, 1]⟩ ⟨3, ![n, A, B]⟩)
    (hu : d.updateWindowDims = [1, 2]) (hi : d.insertedWindowDims = [0]) (hs : d.scatterDimsToOperandDims = [0])
    (hv : d.indexVectorDim = 1)
    (x : FVec Ideal ⟨3, ![N, A, B]⟩ φ) (idx : IVec ⟨2, ![n, 1]⟩ w) (upd : FVec Ideal ⟨3, ![n, A, B]⟩ φ)
    (i : Fin N) (a : Fin A) (b : Fin B) :
    Host.scatterAdd d x idx upd (ix3 i a b)
      = x (ix3 i a b) + ∑ j ∈ Finset.univ.filter (fun j : Fin n => (idx (ix2 j (0 : Fin 1))).toInt = (i.val : ℤ)), upd (ix3 j a b) := by
  obtain ⟨uw, iw, sd, iv, wf⟩ := d
  dsimp only at hu hi hs hv
  subst hu hi hs hv
  unfold Host.scatterAdd
  rw [Ideal.hostScatterAdd_def]
  unfold Ideal.hostScatterAdd
  congr 1
  symm
  refine Finset.sum_bij (fun j _ => ix3 j a b) ?_ ?_ ?_ ?_
  · intro j hj
    simp only [Finset.mem_filter, Finset.mem_univ, true_and] at hj ⊢
    exact (rows3_resultIdx?_eq_some_iff wf j a b idx i a b).2 ⟨hj, rfl, rfl⟩
  · intro j _ j' _ hjj
    exact congrFun hjj 0
  · intro p hp
    simp only [Finset.mem_filter, Finset.mem_univ, true_and] at hp
    rw [eq_ix3 p] at hp ⊢
    obtain ⟨h0, h1, h2⟩ := (rows3_resultIdx?_eq_some_iff wf (p 0) (p 1) (p 2) idx i a b).1 hp
    exact ⟨p 0, Finset.mem_filter.2 ⟨Finset.mem_univ _, h0⟩, congrArg₂ (ix3 (p 0)) h1.symm h2.symm⟩
  · intro j _
    rfl

end Cert.LibScatterAddRows

end
-- ==== Proof.SegOps.lean ====
/- The host's scatter-add and gather of whole rows, read at an index, for index columns that name each row's graph: the scatter-add is the operand plus a segment sum, the gather reads the row of the node's own graph. Then the two index columns a program builds from the vector of graph ids (the plain column, and the column whose negative ids are wrapped by the number of graphs first) both name the graph the id says, once every id lies in range. -/
import proofs.«408428_j10917806867267_1_alg».proof.Proof.Spec
import proofs.«408428_j10917806867267_1_alg».proof.Proof.LibGatherRows
import proofs.«408428_j10917806867267_1_alg».proof.Proof.LibScatterAddRows
import Idealize.ShloMosaic.Lib.ValueIdx

noncomputable section

open scoped BigOperators

namespace Cert.SegOps

open Idealize.ShloMosaic Idealize.ShloMosaic.ValueIdx

/-! ## Scatter-add of rows as a segment sum -/

/-- The scatter-add of rows read at (g, c): the operand there plus the segment sum of the updates' column c over graph g,
    when row j's start index is the graph B j. -/
theorem scatterAdd_segsum {N n C w : Nat} {φ : FTy} (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1) (B : Fin n → Fin N) (idx : IVec ⟨2, ![n, 1]⟩ w)
    (hB : ∀ j, (idx (ix2 j (0 : Fin 1))).toInt = ((B j).val : ℤ))
    (x : FVec Ideal ⟨2, ![N, C]⟩ φ) (upd : FVec Ideal ⟨2, ![n, C]⟩ φ) (g : Fin N) (c : Fin C) :
    Host.scatterAdd d x idx upd (ix2 g c) = x (ix2 g c) + Cert.Spec.segsum B (fun n c => upd (ix2 n c)) g c := by
  rw [Cert.LibScatterAddRows.scatterAdd_rows2_apply d hu hi hs hv, Cert.Spec.segsum_eq_filter]
  congr 1
  refine Finset.sum_congr ?_ fun _ _ => rfl
  ext j
  simp only [Finset.mem_filter, Finset.mem_univ, true_and]
  rw [hB j]
  constructor
  · intro h; exact Fin.ext (by exact_mod_cast h)
  · intro h; rw [h]

/-- The same into an operand of zeros: the segment sum alone. -/
theorem scatterAdd_zero_segsum {N n C w : Nat} {φ : FTy} (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1) (B : Fin n → Fin N) (idx : IVec ⟨2, ![n, 1]⟩ w)
    (hB : ∀ j, (idx (ix2 j (0 : Fin 1))).toInt = ((B j).val : ℤ))
    (x : FVec Ideal ⟨2, ![N, C]⟩ φ) (hx : ∀ i, x i = 0) (upd : FVec Ideal ⟨2, ![n, C]⟩ φ) (g : Fin N) (c : Fin C) :
    Host.scatterAdd d x idx upd (ix2 g c) = Cert.Spec.segsum B (fun n c => upd (ix2 n c)) g c := by
  rw [scatterAdd_segsum d hu hi hs hv B idx hB, hx, zero_add]

/-! ## Gather of rows as a read at the node's graph -/

/-- The gather of rows read at (j, c): the operand's row B j, when row j's start index is the graph B j (the clamp is
    idle: a graph is below the number of graphs). -/
theorem gather_graph {α : Type} {N n C w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (B : Fin n → Fin N) (idx : IVec ⟨2, ![n, 1]⟩ w) (hB : ∀ j, (idx (ix2 j (0 : Fin 1))).toInt = ((B j).val : ℤ))
    (y : (⟨2, ![N, C]⟩ : Shape).Idx → α) (j : Fin n) (c : Fin C) :
    Host.gather d y idx (ix2 j c) = y (ix2 (B j) c) := by
  have hN : 0 < N := lt_of_le_of_lt (Nat.zero_le _) (B j).isLt
  rw [Cert.LibGatherRows.gather_rows2_apply hN d hoff hcoll hob hsb hsim hivd]
  refine congrArg (fun i => y (ix2 i c)) (Fin.ext ?_)
  show min (idx (ix2 j (0 : Fin 1))).toInt.toNat (N - 1) = (B j).val
  rw [hB j, Int.toNat_natCast]
  exact Nat.min_eq_left (by have := (B j).isLt; omega)

/-! ## The index columns -/

/-- A vector broadcast to a column reads, at row j, the vector at j. -/
theorem bcast_col_apply {α : Type} {n : Nat} (hn : n ≠ 1)
    (dims : Fin (⟨1, ![n]⟩ : Shape).rank → Fin (⟨2, ![n, 1]⟩ : Shape).rank) (hd : dims 0 = 0)
    (h : (⟨1, ![n]⟩ : Shape).BroadcastsInDim ⟨2, ![n, 1]⟩ dims) (x : (⟨1, ![n]⟩ : Shape).Idx → α) (j : Fin n) :
    broadcastInDim ⟨2, ![n, 1]⟩ dims h x (ix2 j (0 : Fin 1)) = x (ix1 j) := by
  unfold broadcastInDim
  refine congrArg x (funext fun a => ?_)
  match a with
  | ⟨0, h0⟩ =>
    rw [dif_neg (show ¬ (⟨1, ![n]⟩ : Shape).size ⟨0, h0⟩ = 1 from hn)]
    apply Fin.ext
    show (ix2 j (0 : Fin 1) (dims 0)).val = j.val
    rw [hd]
    rfl

/-- A scalar broadcast reads the scalar everywhere. -/
theorem bcast_scalar_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  congrArg x (funext fun a => a.elim0)

/-- Wrapping a nonnegative signed word by a modulus leaves it: the test "below zero" fails. -/
theorem wrap_word {b : BitVec 32} (h : 0 ≤ b.toInt) (c : BitVec 32) :
    Scalar.select (IntOp.cmpi .slt b 0#32) (IntOp.addi b c) b = b := by
  have hs : b.slt 0#32 = false := by
    rw [Bool.eq_false_iff]
    intro hlt
    rw [BitVec.slt_iff_toInt_lt] at hlt
    have h0 : (0#32 : BitVec 32).toInt = 0 := by decide
    omega
  have hc : IntOp.cmpi .slt b 0#32 = 0#1 := by
    show BitVec.ofBool (b.slt 0#32) = 0#1
    rw [hs]; rfl
  rw [hc, select_zero]

/-- The wrapped vector of ids read where the id is nonnegative: the id itself. -/
theorem wrapped_apply {s : Shape} (batch z c : IVec s 32) (i : s.Idx) (hz : z i = 0#32) (h0 : 0 ≤ (batch i).toInt) :
    select (cmpi .slt batch z) (addi batch c) batch i = batch i := by
  show Scalar.select (IntOp.cmpi .slt (batch i) (z i)) (IntOp.addi (batch i) (c i)) (batch i) = batch i
  rw [hz]
  exact wrap_word h0 _

/-- The graph of each node, from the vector of ids, once every id read unsigned is below the number of graphs. -/
def graphOf {n N w : Nat} (batch : IVec ⟨1, ![n]⟩ w)
    (hr : ∀ j : Fin n, (batch (ix1 j)).toNat < N ∧ (batch (ix1 j)).toInt = ((batch (ix1 j)).toNat : Int)) :
    Fin n → Fin N :=
  fun j => ⟨(batch (ix1 j)).toNat, (hr j).1⟩

/-- The plain column of ids names each node's graph. -/
theorem plain_col_graph {n N w : Nat} (hn : n ≠ 1) (batch : IVec ⟨1, ![n]⟩ w)
    (hr : ∀ j : Fin n, (batch (ix1 j)).toNat < N ∧ (batch (ix1 j)).toInt = ((batch (ix1 j)).toNat : Int))
    (dims : Fin (⟨1, ![n]⟩ : Shape).rank → Fin (⟨2, ![n, 1]⟩ : Shape).rank) (hd : dims 0 = 0)
    (h : (⟨1, ![n]⟩ : Shape).BroadcastsInDim ⟨2, ![n, 1]⟩ dims) (j : Fin n) :
    ((broadcastInDim ⟨2, ![n, 1]⟩ dims h batch : IVec ⟨2, ![n, 1]⟩ w) (ix2 j (0 : Fin 1))).toInt
      = ((graphOf batch hr j).val : ℤ) := by
  rw [bcast_col_apply hn dims hd h batch j]
  exact (hr j).2

/-- The column of wrapped ids names each node's graph too: no id is negative. -/
theorem wrapped_col_graph {n N : Nat} (hn : n ≠ 1) (batch z c : IVec ⟨1, ![n]⟩ 32) (hz : ∀ i, z i = 0#32)
    (hr : ∀ j : Fin n, (batch (ix1 j)).toNat < N ∧ (batch (ix1 j)).toInt = ((batch (ix1 j)).toNat : Int))
    (dims : Fin (⟨1, ![n]⟩ : Shape).rank → Fin (⟨2, ![n, 1]⟩ : Shape).rank) (hd : dims 0 = 0)
    (h : (⟨1, ![n]⟩ : Shape).BroadcastsInDim ⟨2, ![n, 1]⟩ dims) (j : Fin n) :
    ((broadcastInDim ⟨2, ![n, 1]⟩ dims h (select (cmpi .slt batch z) (addi batch c) batch) : IVec ⟨2, ![n, 1]⟩ 32)
        (ix2 j (0 : Fin 1))).toInt
      = ((graphOf batch hr j).val : ℤ) := by
  rw [bcast_col_apply hn dims hd h _ j,
    wrapped_apply batch z c (ix1 j) (hz _) (by rw [(hr j).2]; exact Int.natCast_nonneg _)]
  exact (hr j).2

end Cert.SegOps
-- ==== Proof.RefLayers.lean ====
/-
  The reference network read at an index, one layer at a time.

  The reference computes, per layer: an aggregation of each node's incoming rows over the edges; a perceptron of two linear
  maps with a rectifier after each on the row plus its aggregate; then a normalisation per graph (mean, centring by the
  scaled mean, variance, division by the square root of the variance plus a small constant, an affine map, a rectifier).
  Once every graph id lies below the number of graphs, each scatter-add into zeros by the column of ids is a segment sum
  and each gather by the (wrapped) column of ids reads the row of the node's own graph; so the layer's output at a node
  and a feature is the closed form `Cert.Spec2.layerR` of its input, its aggregate and its slices of the parameters.
-/
import proofs.«408428_j10917806867267_1_alg».proof.Proof.RefRead
import proofs.«408428_j10917806867267_1_alg».proof.Proof.SegOps
import proofs.«408428_j10917806867267_1_alg».proof.Proof.Spec2

noncomputable section

open scoped BigOperators

namespace Cert.RefLayers

open Cert.ReferenceIdeal Cert.ReferenceIdeal.Gen Cert.ReferenceIdeal.Read Idealize.ShloMosaic Idealize.ShloMosaic.ValueIdx

/-- The constant one and the stabiliser of the variance, as the words the program carries. -/
abbrev one : EReal := Ideal.ofBits .f32 0x3F800000#32
abbrev eps : EReal := Ideal.ofBits .f32 0x3727C5AC#32

/-- The reference's aggregation over the edges: each node's row is the sum of the rows of the sources of its incoming edges. -/
def aggR (h : FVec Ideal S50000x128 .f32) (x14 : IVec S2x800000 32) : FVec Ideal S50000x128 .f32 :=
  Host.scatterAdd scatter_S50000x128_S800000x1_S800000x128_1_0_0_1 (val_main_v17 (F := Ideal)) (val_main_v18 (F := Ideal) x14)
    (Host.gather gather_S50000x128_S800000x1_S800000x128_1_0_n_n_0_1_1128 h (val_main_v15 (F := Ideal) x14))

theorem v19_eq_aggR (x0 : FVec Ideal S50000x128 .f32) (x14 : IVec S2x800000 32) :
    val_main_v19 (F := Ideal) x0 x14 = aggR x0 x14 := rfl

variable (x15 : IVec S50000 32)
  (hr : ∀ j : Fin 50000, (x15 (ix1 j)).toNat < 128 ∧ (x15 (ix1 j)).toInt = ((x15 (ix1 j)).toNat : Int))

/-- The graph of each node. -/
abbrev B : Fin 50000 → Fin 128 := Cert.SegOps.graphOf x15 hr

/-- The count of a graph's nodes, at least one. -/
theorem counts (g : Fin 128) : val_main_v9 (F := Ideal) x15 (ix2 g (0 : Fin 1)) = Cert.Spec2.cnt (B x15 hr) one g := by
  rw [val_main_v9_apply]
  unfold val_main_v7
  rw [Cert.SegOps.scatterAdd_zero_segsum scatter_S128x1_S50000x1_S50000x1_1_0_0_1 rfl rfl rfl rfl (B x15 hr)
    (val_main_v6 (F := Ideal) x15)
    (fun j => Cert.SegOps.plain_col_graph (by decide) x15 hr _ rfl bcast_S50000_S50000x1_0 j)
    (val_main_v5 (F := Ideal)) (fun i => by rw [val_main_v5_apply]; exact Ideal.ofBits_zero_f32)]
  have h4 : ∀ i, val_main_v4 (F := Ideal) i = one := fun i => by rw [val_main_v4_apply]; rfl
  have h8 : ∀ i, val_main_v8 (F := Ideal) i = one := fun i => by rw [val_main_v8_apply]; rfl
  simp only [h4, h8]
  rfl

variable (x0 : FVec Ideal S50000x128 .f32) (x1 : FVec Ideal S4x128x128 .f32) (x2 : FVec Ideal S4x128 .f32)
  (x3 : FVec Ideal S4x128x128 .f32) (x4 x5 x6 x7 : FVec Ideal S4x128 .f32) (x14 : IVec S2x800000 32)

section Layer0

/-- The layer's input. -/
local notation "Hin" => x0

/-! ## The perceptron -/

/-- The first linear map and its rectifier, at a node and a hidden unit. -/
theorem mlp_hidden0 (n : Fin 50000) (k : Fin 128) :
    val_main_v29 (F := Ideal) x0 x1 x2 x14 (ix2 n k)
      = Cert.Spec2.relu (Cert.Spec2.lin (fun n j => Hin (ix2 n j) + aggR Hin x14 (ix2 n j))
          (fun j k => x1 (ix3 (0 : Fin 4) j k)) (fun k => x2 (ix2 (0 : Fin 4) k)) n k) := by
  have hk := k.isLt
  have e1 : ∀ j : Fin 128, lidx_main_v23 (ix2 n k) j = ix2 n j := fun j =>
    funext fun a => by match a with | ⟨0, _⟩ => rfl | ⟨1, _⟩ => rfl
  have e2 : ∀ j : Fin 128, idx_main_v21 (idx_main_v22 (ridx_main_v23 (ix2 n k) j)) = ix3 (0 : Fin 4) j k := fun j =>
    funext fun a => Fin.ext (by
      have hj := j.isLt
      match a with
      | ⟨0, _⟩ => rfl
      | ⟨1, _⟩ => show (j.val * 128 + k.val) / 128 % 128 = j.val; omega
      | ⟨2, _⟩ => show (j.val * 128 + k.val) % 128 = k.val; omega)
  have e3 : idx_main_v24 (idx_main_v25 (idx_main_v26 (idx_main_v27 (ix2 n k)))) = ix2 (0 : Fin 4) k :=
    funext fun a => Fin.ext (by
      match a with
      | ⟨0, _⟩ => rfl
      | ⟨1, _⟩ => show k.val % 128 = k.val; omega)
  rw [val_main_v29_apply, val_main_v28_apply, val_main_v23_apply, val_main_v27_apply, val_main_v26_apply,
    val_main_v25_apply, val_main_v24_apply, val_main_call0_v0_apply]
  simp only [val_main_v20_apply, val_main_v22_apply, val_main_v21_apply, e1, e2, e3]
  rw [show val_main_call0_cst (F := Ideal) _ = 0 from Ideal.ofBits_zero_f32]
  rfl

/-- The perceptron's output, at a node and a feature. -/
theorem mlp_out0 (n : Fin 50000) (k : Fin 128) :
    val_main_v38 (F := Ideal) x0 x1 x2 x3 x4 x14 (ix2 n k)
      = Cert.Spec2.mlp2 (fun n j => Hin (ix2 n j) + aggR Hin x14 (ix2 n j))
          (fun j k => x1 (ix3 (0 : Fin 4) j k)) (fun k => x2 (ix2 (0 : Fin 4) k))
          (fun j k => x3 (ix3 (0 : Fin 4) j k)) (fun k => x4 (ix2 (0 : Fin 4) k)) n k := by
  have hk := k.isLt
  have e1 : ∀ j : Fin 128, lidx_main_v32 (ix2 n k) j = ix2 n j := fun j =>
    funext fun a => by match a with | ⟨0, _⟩ => rfl | ⟨1, _⟩ => rfl
  have e2 : ∀ j : Fin 128, idx_main_v30 (idx_main_v31 (ridx_main_v32 (ix2 n k) j)) = ix3 (0 : Fin 4) j k := fun j =>
    funext fun a => Fin.ext (by
      have hj := j.isLt
      match a with
      | ⟨0, _⟩ => rfl
      | ⟨1, _⟩ => show (j.val * 128 + k.val) / 128 % 128 = j.val; omega
      | ⟨2, _⟩ => show (j.val * 128 + k.val) % 128 = k.val; omega)
  have e3 : idx_main_v33 (idx_main_v34 (idx_main_v35 (idx_main_v36 (ix2 n k)))) = ix2 (0 : Fin 4) k :=
    funext fun a => Fin.ext (by
      match a with
      | ⟨0, _⟩ => rfl
      | ⟨1, _⟩ => show k.val % 128 = k.val; omega)
  rw [val_main_v38_apply, val_main_v37_apply, val_main_v32_apply, val_main_v36_apply, val_main_v35_apply,
    val_main_v34_apply, val_main_v33_apply, val_main_call1_v0_apply]
  simp only [val_main_v31_apply, val_main_v30_apply, e1, e2, e3, mlp_hidden0]
  rw [show val_main_call1_cst (F := Ideal) _ = 0 from Ideal.ofBits_zero_f32]
  rfl

/-! ## The normalisation per graph -/

/-- The mean of the perceptron's output over each graph. -/
theorem seg_mean0 (g d : Fin 128) :
    val_main_v49 (F := Ideal) x0 x1 x2 x3 x4 x14 x15 (ix2 g d)
      = Cert.Spec2.mean (B x15 hr) one (fun n d => val_main_v38 (F := Ideal) x0 x1 x2 x3 x4 x14 (ix2 n d)) g d := by
  have e : idx_main_v48 (ix2 g d) = ix2 g (0 : Fin 1) :=
    funext fun a => by match a with | ⟨0, _⟩ => rfl | ⟨1, _⟩ => rfl
  rw [val_main_v49_apply, val_main_v48_apply, e, counts x15 hr g]
  unfold val_main_v47
  rw [Cert.SegOps.scatterAdd_zero_segsum scatter_S128x128_S50000x1_S50000x128_1_0_0_1 rfl rfl rfl rfl (B x15 hr)
    (val_main_v46 (F := Ideal) x15)
    (fun j => Cert.SegOps.plain_col_graph (by decide) x15 hr _ rfl bcast_S50000_S50000x1_0 j)
    (val_main_v45 (F := Ideal)) (fun i => by rw [val_main_v45_apply]; exact Ideal.ofBits_zero_f32)]
  rfl

/-- The perceptron's output centred by the scaled mean of the node's graph. -/
theorem centred_at0 (n : Fin 50000) (d : Fin 128) :
    val_main_v60 (F := Ideal) x0 x1 x2 x3 x4 x7 x14 x15 (ix2 n d)
      = Cert.Spec2.centred (B x15 hr) one (fun n d => val_main_v38 (F := Ideal) x0 x1 x2 x3 x4 x14 (ix2 n d))
          (fun d => x7 (ix2 (0 : Fin 4) d)) n d := by
  have hd := d.isLt
  have e : idx_main_v43 (idx_main_v44 (idx_main_v57 (idx_main_v58 (ix2 n d)))) = ix2 (0 : Fin 4) d :=
    funext fun a => Fin.ext (by
      match a with
      | ⟨0, _⟩ => rfl
      | ⟨1, _⟩ => show d.val % 128 = d.val; omega)
  rw [val_main_v60_apply, val_main_v59_apply, val_main_v58_apply, val_main_v57_apply, val_main_v44_apply,
    val_main_v43_apply, e]
  unfold val_main_v56
  rw [Cert.SegOps.gather_graph gather_S128x128_S50000x1_S50000x128_1_0_n_n_0_1_1128 rfl rfl rfl rfl rfl rfl (B x15 hr)
    (val_main_v55 (F := Ideal) x15)
    (fun j => Cert.SegOps.wrapped_col_graph (by decide) x15 (val_main_v50 (F := Ideal)) (val_main_v52 (F := Ideal))
      (fun i => by rw [val_main_v50_apply]; rfl) hr _ rfl bcast_S50000_S50000x1_0 j),
    seg_mean0 x15 hr]
  rfl

/-- The variance of the perceptron's output over each graph. -/
theorem seg_var0 (g d : Fin 128) :
    val_main_v66 (F := Ideal) x0 x1 x2 x3 x4 x7 x14 x15 (ix2 g d)
      = Cert.Spec2.var (B x15 hr) one (fun n d => val_main_v38 (F := Ideal) x0 x1 x2 x3 x4 x14 (ix2 n d))
          (fun d => x7 (ix2 (0 : Fin 4) d)) g d := by
  have e : idx_main_v65 (ix2 g d) = ix2 g (0 : Fin 1) :=
    funext fun a => by match a with | ⟨0, _⟩ => rfl | ⟨1, _⟩ => rfl
  rw [val_main_v66_apply, val_main_v65_apply, e, counts x15 hr g]
  unfold val_main_v64
  rw [Cert.SegOps.scatterAdd_zero_segsum scatter_S128x128_S50000x1_S50000x128_1_0_0_1 rfl rfl rfl rfl (B x15 hr)
    (val_main_v63 (F := Ideal) x15)
    (fun j => Cert.SegOps.plain_col_graph (by decide) x15 hr _ rfl bcast_S50000_S50000x1_0 j)
    (val_main_v62 (F := Ideal)) (fun i => by rw [val_main_v62_apply]; exact Ideal.ofBits_zero_f32)]
  simp only [val_main_v61_apply, centred_at0 x15 hr]
  rfl

/-- The layer's output: the centred rows over the square root of the variance, an affine map, the rectifier. -/
theorem norm_out0 (n : Fin 50000) (d : Fin 128) :
    val_main_v84 (F := Ideal) x0 x1 x2 x3 x4 x5 x6 x7 x14 x15 (ix2 n d)
      = Cert.Spec2.hR (B x15 hr) one eps (fun n d => val_main_v38 (F := Ideal) x0 x1 x2 x3 x4 x14 (ix2 n d))
          (fun d => x7 (ix2 (0 : Fin 4) d)) (fun d => x5 (ix2 (0 : Fin 4) d)) (fun d => x6 (ix2 (0 : Fin 4) d)) n d := by
  have hd := d.isLt
  have ew : idx_main_v39 (idx_main_v40 (idx_main_v67 (idx_main_v68 (ix2 n d)))) = ix2 (0 : Fin 4) d :=
    funext fun a => Fin.ext (by
      match a with
      | ⟨0, _⟩ => rfl
      | ⟨1, _⟩ => show d.val % 128 = d.val; omega)
  have eb : idx_main_v41 (idx_main_v42 (idx_main_v81 (idx_main_v82 (ix2 n d)))) = ix2 (0 : Fin 4) d :=
    funext fun a => Fin.ext (by
      match a with
      | ⟨0, _⟩ => rfl
      | ⟨1, _⟩ => show d.val % 128 = d.val; omega)
  rw [val_main_v84_apply, val_main_v83_apply, val_main_v80_apply, val_main_v69_apply, val_main_v79_apply,
    val_main_v78_apply, val_main_v68_apply, val_main_v67_apply, val_main_v40_apply, val_main_v39_apply, ew,
    val_main_v82_apply, val_main_v81_apply, val_main_v42_apply, val_main_v41_apply, eb, val_main_v77_apply,
    val_main_call2_v0_apply, centred_at0 x15 hr]
  unfold val_main_v76
  rw [Cert.SegOps.gather_graph gather_S128x128_S50000x1_S50000x128_1_0_n_n_0_1_1128 rfl rfl rfl rfl rfl rfl (B x15 hr)
    (val_main_v75 (F := Ideal) x15)
    (fun j => Cert.SegOps.wrapped_col_graph (by decide) x15 (val_main_v70 (F := Ideal)) (val_main_v72 (F := Ideal))
      (fun i => by rw [val_main_v70_apply]; rfl) hr _ rfl bcast_S50000_S50000x1_0 j),
    seg_var0 x15 hr, show val_main_call2_cst (F := Ideal) _ = 0 from Ideal.ofBits_zero_f32,
    show val_main_cst_10 (F := Ideal) _ = eps from rfl]
  simp only [Ideal.maximumf_def, Ideal.addf_def, Ideal.hostDivf_def, Ideal.mulf_def, Ideal.hostUnary_sqrt_def]
  rfl

/-- The layer: the perceptron on each row plus its aggregate, then the normalisation per graph. -/
theorem ref_layer0 (n : Fin 50000) (d : Fin 128) :
    val_main_v84 (F := Ideal) x0 x1 x2 x3 x4 x5 x6 x7 x14 x15 (ix2 n d)
      = Cert.Spec2.layerR (B x15 hr) one eps (fun n j => Hin (ix2 n j)) (fun n j => aggR Hin x14 (ix2 n j))
          (fun j k => x1 (ix3 (0 : Fin 4) j k)) (fun k => x2 (ix2 (0 : Fin 4) k))
          (fun j k => x3 (ix3 (0 : Fin 4) j k)) (fun k => x4 (ix2 (0 : Fin 4) k))
          (fun d => x7 (ix2 (0 : Fin 4) d)) (fun d => x5 (ix2 (0 : Fin 4) d)) (fun d => x6 (ix2 (0 : Fin 4) d)) n d := by
  have hT : (fun n d => val_main_v38 (F := Ideal) x0 x1 x2 x3 x4 x14 (ix2 n d))
      = Cert.Spec2.mlp2 (fun n j => Hin (ix2 n j) + aggR Hin x14 (ix2 n j))
          (fun j k => x1 (ix3 (0 : Fin 4) j k)) (fun k => x2 (ix2 (0 : Fin 4) k))
          (fun j k => x3 (ix3 (0 : Fin 4) j k)) (fun k => x4 (ix2 (0 : Fin 4) k)) :=
    funext fun n => funext fun d => by rw [mlp_out0]
  rw [norm_out0 x15 hr, hT]
  rfl

end Layer0

end Cert.RefLayers
-- ==== Proof.RefLayer1.lean ====
/-
  Layer 1 of the reference network read at an index: the same argument as for the first layer, over the layer's own
  stages, its input the output of the layer before, its parameters the slices at offset 1.
-/
import proofs.«408428_j10917806867267_1_alg».proof.Proof.RefLayers

noncomputable section

open scoped BigOperators

namespace Cert.RefLayers

open Cert.ReferenceIdeal Cert.ReferenceIdeal.Gen Cert.ReferenceIdeal.Read Idealize.ShloMosaic Idealize.ShloMosaic.ValueIdx

variable (x15 : IVec S50000 32)
  (hr : ∀ j : Fin 50000, (x15 (ix1 j)).toNat < 128 ∧ (x15 (ix1 j)).toInt = ((x15 (ix1 j)).toNat : Int))

variable (x0 : FVec Ideal S50000x128 .f32) (x1 : FVec Ideal S4x128x128 .f32) (x2 : FVec Ideal S4x128 .f32)
  (x3 : FVec Ideal S4x128x128 .f32) (x4 x5 x6 x7 : FVec Ideal S4x128 .f32) (x14 : IVec S2x800000 32)

section Layer1

/-- The layer's input. -/
local notation "Hin" => (val_main_v84 (F := Ideal) x0 x1 x2 x3 x4 x5 x6 x7 x14 x15)

/-! ## The perceptron -/

/-- The first linear map and its rectifier, at a node and a hidden unit. -/
theorem mlp_hidden1 (n : Fin 50000) (k : Fin 128) :
    val_main_v104 (F := Ideal) x0 x1 x2 x3 x4 x5 x6 x7 x14 x15 (ix2 n k)
      = Cert.Spec2.relu (Cert.Spec2.lin (fun n j => Hin (ix2 n j) + aggR Hin x14 (ix2 n j))
          (fun j k => x1 (ix3 (1 : Fin 4) j k)) (fun k => x2 (ix2 (1 : Fin 4) k)) n k) := by
  have hk := k.isLt
  have e1 : ∀ j : Fin 128, lidx_main_v98 (ix2 n k) j = ix2 n j := fun j =>
    funext fun a => by match a with | ⟨0, _⟩ => rfl | ⟨1, _⟩ => rfl
  have e2 : ∀ j : Fin 128, idx_main_v96 (idx_main_v97 (ridx_main_v98 (ix2 n k) j)) = ix3 (1 : Fin 4) j k := fun j =>
    funext fun a => Fin.ext (by
      have hj := j.isLt
      match a with
      | ⟨0, _⟩ => rfl
      | ⟨1, _⟩ => show (j.val * 128 + k.val) / 128 % 128 = j.val; omega
      | ⟨2, _⟩ => show (j.val * 128 + k.val) % 128 = k.val; omega)
  have e3 : idx_main_v99 (idx_main_v100 (idx_main_v101 (idx_main_v102 (ix2 n k)))) = ix2 (1 : Fin 4) k :=
    funext fun a => Fin.ext (by
      match a with
      | ⟨0, _⟩ => rfl
      | ⟨1, _⟩ => show k.val % 128 = k.val; omega)
  rw [val_main_v104_apply, val_main_v103_apply, val_main_v98_apply, val_main_v102_apply, val_main_v101_apply,
    val_main_v100_apply, val_main_v99_apply, val_main_call3_v0_apply]
  simp only [val_main_v95_apply, val_main_v97_apply, val_main_v96_apply, e1, e2, e3]
  rw [show val_main_call3_cst (F := Ideal) _ = 0 from Ideal.ofBits_zero_f32]
  rfl

/-- The perceptron's output, at a node and a feature. -/
theorem mlp_out1 (n : Fin 50000) (k : Fin 128) :
    val_main_v113 (F := Ideal) x0 x1 x2 x3 x4 x5 x6 x7 x14 x15 (ix2 n k)
      = Cert.Spec2.mlp2 (fun n j => Hin (ix2 n j) + aggR Hin x14 (ix2 n j))
          (fun j k => x1 (ix3 (1 : Fin 4) j k)) (fun k => x2 (ix2 (1 : Fin 4) k))
          (fun j k => x3 (ix3 (1 : Fin 4) j k)) (fun k => x4 (ix2 (1 : Fin 4) k)) n k := by
  have hk := k.isLt
  have e1 : ∀ j : Fin 128, lidx_main_v107 (ix2 n k) j = ix2 n j := fun j =>
    funext fun a => by match a with | ⟨0, _⟩ => rfl | ⟨1, _⟩ => rfl
  have e2 : ∀ j : Fin 128, idx_main_v105 (idx_main_v106 (ridx_main_v107 (ix2 n k) j)) = ix3 (1 : Fin 4) j k := fun j =>
    funext fun a => Fin.ext (by
      have hj := j.isLt
      match a with
      | ⟨0, _⟩ => rfl
      | ⟨1, _⟩ => show (j.val * 128 + k.val) / 128 % 128 = j.val; omega
      | ⟨2, _⟩ => show (j.val * 128 + k.val) % 128 = k.val; omega)
  have e3 : idx_main_v108 (idx_main_v109 (idx_main_v110 (idx_main_v111 (ix2 n k)))) = ix2 (1 : Fin 4) k :=
    funext fun a => Fin.ext (by
      match a with
      | ⟨0, _⟩ => rfl
      | ⟨1, _⟩ => show k.val % 128 = k.val; omega)
  rw [val_main_v113_apply, val_main_v112_apply, val_main_v107_apply, val_main_v111_apply, val_main_v110_apply,
    val_main_v109_apply, val_main_v108_apply, val_main_call4_v0_apply]
  simp only [val_main_v106_apply, val_main_v105_apply, e1, e2, e3, mlp_hidden1]
  rw [show val_main_call4_cst (F := Ideal) _ = 0 from Ideal.ofBits_zero_f32]
  rfl

/-! ## The normalisation per graph -/

/-- The mean of the perceptron's output over each graph. -/
theorem seg_mean1 (g d : Fin 128) :
    val_main_v124 (F := Ideal) x0 x1 x2 x3 x4 x5 x6 x7 x14 x15 (ix2 g d)
      = Cert.Spec2.mean (B x15 hr) one (fun n d => val_main_v113 (F := Ideal) x0 x1 x2 x3 x4 x5 x6 x7 x14 x15 (ix2 n d)) g d := by
  have e : idx_main_v123 (ix2 g d) = ix2 g (0 : Fin 1) :=
    funext fun a => by match a with | ⟨0, _⟩ => rfl | ⟨1, _⟩ => rfl
  rw [val_main_v124_apply, val_main_v123_apply, e, counts x15 hr g]
  unfold val_main_v122
  rw [Cert.SegOps.scatterAdd_zero_segsum scatter_S128x128_S50000x1_S50000x128_1_0_0_1 rfl rfl rfl rfl (B x15 hr)
    (val_main_v121 (F := Ideal) x15)
    (fun j => Cert.SegOps.plain_col_graph (by decide) x15 hr _ rfl bcast_S50000_S50000x1_0 j)
    (val_main_v120 (F := Ideal)) (fun i => by rw [val_main_v120_apply]; exact Ideal.ofBits_zero_f32)]
  rfl

/-- The perceptron's output centred by the scaled mean of the node's graph. -/
theorem centred_at1 (n : Fin 50000) (d : Fin 128) :
    val_main_v135 (F := Ideal) x0 x1 x2 x3 x4 x5 x6 x7 x14 x15 (ix2 n d)
      = Cert.Spec2.centred (B x15 hr) one (fun n d => val_main_v113 (F := Ideal) x0 x1 x2 x3 x4 x5 x6 x7 x14 x15 (ix2 n d))
          (fun d => x7 (ix2 (1 : Fin 4) d)) n d := by
  have hd := d.isLt
  have e : idx_main_v118 (idx_main_v119 (idx_main_v132 (idx_main_v133 (ix2 n d)))) = ix2 (1 : Fin 4) d :=
    funext fun a => Fin.ext (by
      match a with
      | ⟨0, _⟩ => rfl
      | ⟨1, _⟩ => show d.val % 128 = d.val; omega)
  rw [val_main_v135_apply, val_main_v134_apply, val_main_v133_apply, val_main_v132_apply, val_main_v119_apply,
    val_main_v118_apply, e]
  unfold val_main_v131
  rw [Cert.SegOps.gather_graph gather_S128x128_S50000x1_S50000x128_1_0_n_n_0_1_1128 rfl rfl rfl rfl rfl rfl (B x15 hr)
    (val_main_v130 (F := Ideal) x15)
    (fun j => Cert.SegOps.wrapped_col_graph (by decide) x15 (val_main_v125 (F := Ideal)) (val_main_v127 (F := Ideal))
      (fun i => by rw [val_main_v125_apply]; rfl) hr _ rfl bcast_S50000_S50000x1_0 j),
    seg_mean1 x15 hr]
  rfl

/-- The variance of the perceptron's output over each graph. -/
theorem seg_var1 (g d : Fin 128) :
    val_main_v141 (F := Ideal) x0 x1 x2 x3 x4 x5 x6 x7 x14 x15 (ix2 g d)
      = Cert.Spec2.var (B x15 hr) one (fun n d => val_main_v113 (F := Ideal) x0 x1 x2 x3 x4 x5 x6 x7 x14 x15 (ix2 n d))
          (fun d => x7 (ix2 (1 : Fin 4) d)) g d := by
  have e : idx_main_v140 (ix2 g d) = ix2 g (0 : Fin 1) :=
    funext fun a => by match a with | ⟨0, _⟩ => rfl | ⟨1, _⟩ => rfl
  rw [val_main_v141_apply, val_main_v140_apply, e, counts x15 hr g]
  unfold val_main_v139
  rw [Cert.SegOps.scatterAdd_zero_segsum scatter_S128x128_S50000x1_S50000x128_1_0_0_1 rfl rfl rfl rfl (B x15 hr)
    (val_main_v138 (F := Ideal) x15)
    (fun j => Cert.SegOps.plain_col_graph (by decide) x15 hr _ rfl bcast_S50000_S50000x1_0 j)
    (val_main_v137 (F := Ideal)) (fun i => by rw [val_main_v137_apply]; exact Ideal.ofBits_zero_f32)]
  simp only [val_main_v136_apply, centred_at1 x15 hr]
  rfl

/-- The layer's output: the centred rows over the square root of the variance, an affine map, the rectifier. -/
theorem norm_out1 (n : Fin 50000) (d : Fin 128) :
    val_main_v159 (F := Ideal) x0 x1 x2 x3 x4 x5 x6 x7 x14 x15 (ix2 n d)
      = Cert.Spec2.hR (B x15 hr) one eps (fun n d => val_main_v113 (F := Ideal) x0 x1 x2 x3 x4 x5 x6 x7 x14 x15 (ix2 n d))
          (fun d => x7 (ix2 (1 : Fin 4) d)) (fun d => x5 (ix2 (1 : Fin 4) d)) (fun d => x6 (ix2 (1 : Fin 4) d)) n d := by
  have hd := d.isLt
  have ew : idx_main_v114 (idx_main_v115 (idx_main_v142 (idx_main_v143 (ix2 n d)))) = ix2 (1 : Fin 4) d :=
    funext fun a => Fin.ext (by
      match a with
      | ⟨0, _⟩ => rfl
      | ⟨1, _⟩ => show d.val % 128 = d.val; omega)
  have eb : idx_main_v116 (idx_main_v117 (idx_main_v156 (idx_main_v157 (ix2 n d)))) = ix2 (1 : Fin 4) d :=
    funext fun a => Fin.ext (by
      match a with
      | ⟨0, _⟩ => rfl
      | ⟨1, _⟩ => show d.val % 128 = d.val; omega)
  rw [val_main_v159_apply, val_main_v158_apply, val_main_v155_apply, val_main_v144_apply, val_main_v154_apply,
    val_main_v153_apply, val_main_v143_apply, val_main_v142_apply, val_main_v115_apply, val_main_v114_apply, ew,
    val_main_v157_apply, val_main_v156_apply, val_main_v117_apply, val_main_v116_apply, eb, val_main_v152_apply,
    val_main_call5_v0_apply, centred_at1 x15 hr]
  unfold val_main_v151
  rw [Cert.SegOps.gather_graph gather_S128x128_S50000x1_S50000x128_1_0_n_n_0_1_1128 rfl rfl rfl rfl rfl rfl (B x15 hr)
    (val_main_v150 (F := Ideal) x15)
    (fun j => Cert.SegOps.wrapped_col_graph (by decide) x15 (val_main_v145 (F := Ideal)) (val_main_v147 (F := Ideal))
      (fun i => by rw [val_main_v145_apply]; rfl) hr _ rfl bcast_S50000_S50000x1_0 j),
    seg_var1 x15 hr, show val_main_call5_cst (F := Ideal) _ = 0 from Ideal.ofBits_zero_f32,
    show val_main_cst_20 (F := Ideal) _ = eps from rfl]
  simp only [Ideal.maximumf_def, Ideal.addf_def, Ideal.hostDivf_def, Ideal.mulf_def, Ideal.hostUnary_sqrt_def]
  rfl

/-- The layer: the perceptron on each row plus its aggregate, then the normalisation per graph. -/
theorem ref_layer1 (n : Fin 50000) (d : Fin 128) :
    val_main_v159 (F := Ideal) x0 x1 x2 x3 x4 x5 x6 x7 x14 x15 (ix2 n d)
      = Cert.Spec2.layerR (B x15 hr) one eps (fun n j => Hin (ix2 n j)) (fun n j => aggR Hin x14 (ix2 n j))
          (fun j k => x1 (ix3 (1 : Fin 4) j k)) (fun k => x2 (ix2 (1 : Fin 4) k))
          (fun j k => x3 (ix3 (1 : Fin 4) j k)) (fun k => x4 (ix2 (1 : Fin 4) k))
          (fun d => x7 (ix2 (1 : Fin 4) d)) (fun d => x5 (ix2 (1 : Fin 4) d)) (fun d => x6 (ix2 (1 : Fin 4) d)) n d := by
  have hT : (fun n d => val_main_v113 (F := Ideal) x0 x1 x2 x3 x4 x5 x6 x7 x14 x15 (ix2 n d))
      = Cert.Spec2.mlp2 (fun n j => Hin (ix2 n j) + aggR Hin x14 (ix2 n j))
          (fun j k => x1 (ix3 (1 : Fin 4) j k)) (fun k => x2 (ix2 (1 : Fin 4) k))
          (fun j k => x3 (ix3 (1 : Fin 4) j k)) (fun k => x4 (ix2 (1 : Fin 4) k)) :=
    funext fun n => funext fun d => by rw [mlp_out1]
  rw [norm_out1 x15 hr, hT]
  rfl

end Layer1

end Cert.RefLayers
-- ==== Proof.RefLayer2.lean ====
/-
  Layer 2 of the reference network read at an index: the same argument as for the first layer, over the layer's own
  stages, its input the output of the layer before, its parameters the slices at offset 2.
-/
import proofs.«408428_j10917806867267_1_alg».proof.Proof.RefLayers

noncomputable section

open scoped BigOperators

namespace Cert.RefLayers

open Cert.ReferenceIdeal Cert.ReferenceIdeal.Gen Cert.ReferenceIdeal.Read Idealize.ShloMosaic Idealize.ShloMosaic.ValueIdx

variable (x15 : IVec S50000 32)
  (hr : ∀ j : Fin 50000, (x15 (ix1 j)).toNat < 128 ∧ (x15 (ix1 j)).toInt = ((x15 (ix1 j)).toNat : Int))

variable (x0 : FVec Ideal S50000x128 .f32) (x1 : FVec Ideal S4x128x128 .f32) (x2 : FVec Ideal S4x128 .f32)
  (x3 : FVec Ideal S4x128x128 .f32) (x4 x5 x6 x7 : FVec Ideal S4x128 .f32) (x14 : IVec S2x800000 32)

section Layer2

/-- The layer's input. -/
local notation "Hin" => (val_main_v159 (F := Ideal) x0 x1 x2 x3 x4 x5 x6 x7 x14 x15)

/-! ## The perceptron -/

/-- The first linear map and its rectifier, at a node and a hidden unit. -/
theorem mlp_hidden2 (n : Fin 50000) (k : Fin 128) :
    val_main_v179 (F := Ideal) x0 x1 x2 x3 x4 x5 x6 x7 x14 x15 (ix2 n k)
      = Cert.Spec2.relu (Cert.Spec2.lin (fun n j => Hin (ix2 n j) + aggR Hin x14 (ix2 n j))
          (fun j k => x1 (ix3 (2 : Fin 4) j k)) (fun k => x2 (ix2 (2 : Fin 4) k)) n k) := by
  have hk := k.isLt
  have e1 : ∀ j : Fin 128, lidx_main_v173 (ix2 n k) j = ix2 n j := fun j =>
    funext fun a => by match a with | ⟨0, _⟩ => rfl | ⟨1, _⟩ => rfl
  have e2 : ∀ j : Fin 128, idx_main_v171 (idx_main_v172 (ridx_main_v173 (ix2 n k) j)) = ix3 (2 : Fin 4) j k := fun j =>
    funext fun a => Fin.ext (by
      have hj := j.isLt
      match a with
      | ⟨0, _⟩ => rfl
      | ⟨1, _⟩ => show (j.val * 128 + k.val) / 128 % 128 = j.val; omega
      | ⟨2, _⟩ => show (j.val * 128 + k.val) % 128 = k.val; omega)
  have e3 : idx_main_v174 (idx_main_v175 (idx_main_v176 (idx_main_v177 (ix2 n k)))) = ix2 (2 : Fin 4) k :=
    funext fun a => Fin.ext (by
      match a with
      | ⟨0, _⟩ => rfl
      | ⟨1, _⟩ => show k.val % 128 = k.val; omega)
  rw [val_main_v179_apply, val_main_v178_apply, val_main_v173_apply, val_main_v177_apply, val_main_v176_apply,
    val_main_v175_apply, val_main_v174_apply, val_main_call6_v0_apply]
  simp only [val_main_v170_apply, val_main_v172_apply, val_main_v171_apply, e1, e2, e3]
  rw [show val_main_call6_cst (F := Ideal) _ = 0 from Ideal.ofBits_zero_f32]
  rfl

/-- The perceptron's output, at a node and a feature. -/
theorem mlp_out2 (n : Fin 50000) (k : Fin 128) :
    val_main_v188 (F := Ideal) x0 x1 x2 x3 x4 x5 x6 x7 x14 x15 (ix2 n k)
      = Cert.Spec2.mlp2 (fun n j => Hin (ix2 n j) + aggR Hin x14 (ix2 n j))
          (fun j k => x1 (ix3 (2 : Fin 4) j k)) (fun k => x2 (ix2 (2 : Fin 4) k))
          (fun j k => x3 (ix3 (2 : Fin 4) j k)) (fun k => x4 (ix2 (2 : Fin 4) k)) n k := by
  have hk := k.isLt
  have e1 : ∀ j : Fin 128, lidx_main_v182 (ix2 n k) j = ix2 n j := fun j =>
    funext fun a => by match a with | ⟨0, _⟩ => rfl | ⟨1, _⟩ => rfl
  have e2 : ∀ j : Fin 128, idx_main_v180 (idx_main_v181 (ridx_main_v182 (ix2 n k) j)) = ix3 (2 : Fin 4) j k := fun j =>
    funext fun a => Fin.ext (by
      have hj := j.isLt
      match a with
      | ⟨0, _⟩ => rfl
      | ⟨1, _⟩ => show (j.val * 128 + k.val) / 128 % 128 = j.val; omega
      | ⟨2, _⟩ => show (j.val * 128 + k.val) % 128 = k.val; omega)
  have e3 : idx_main_v183 (idx_main_v184 (idx_main_v185 (idx_main_v186 (ix2 n k)))) = ix2 (2 : Fin 4) k :=
    funext fun a => Fin.ext (by
      match a with
      | ⟨0, _⟩ => rfl
      | ⟨1, _⟩ => show k.val % 128 = k.val; omega)
  rw [val_main_v188_apply, val_main_v187_apply, val_main_v182_apply, val_main_v186_apply, val_main_v185_apply,
    val_main_v184_apply, val_main_v183_apply, val_main_call7_v0_apply]
  simp only [val_main_v181_apply, val_main_v180_apply, e1, e2, e3, mlp_hidden2]
  rw [show val_main_call7_cst (F := Ideal) _ = 0 from Ideal.ofBits_zero_f32]
  rfl

/-! ## The normalisation per graph -/

/-- The mean of the perceptron's output over each graph. -/
theorem seg_mean2 (g d : Fin 128) :
    val_main_v199 (F := Ideal) x0 x1 x2 x3 x4 x5 x6 x7 x14 x15 (ix2 g d)
      = Cert.Spec2.mean (B x15 hr) one (fun n d => val_main_v188 (F := Ideal) x0 x1 x2 x3 x4 x5 x6 x7 x14 x15 (ix2 n d)) g d := by
  have e : idx_main_v198 (ix2 g d) = ix2 g (0 : Fin 1) :=
    funext fun a => by match a with | ⟨0, _⟩ => rfl | ⟨1, _⟩ => rfl
  rw [val_main_v199_apply, val_main_v198_apply, e, counts x15 hr g]
  unfold val_main_v197
  rw [Cert.SegOps.scatterAdd_zero_segsum scatter_S128x128_S50000x1_S50000x128_1_0_0_1 rfl rfl rfl rfl (B x15 hr)
    (val_main_v196 (F := Ideal) x15)
    (fun j => Cert.SegOps.plain_col_graph (by decide) x15 hr _ rfl bcast_S50000_S50000x1_0 j)
    (val_main_v195 (F := Ideal)) (fun i => by rw [val_main_v195_apply]; exact Ideal.ofBits_zero_f32)]
  rfl

/-- The perceptron's output centred by the scaled mean of the node's graph. -/
theorem centred_at2 (n : Fin 50000) (d : Fin 128) :
    val_main_v210 (F := Ideal) x0 x1 x2 x3 x4 x5 x6 x7 x14 x15 (ix2 n d)
      = Cert.Spec2.centred (B x15 hr) one (fun n d => val_main_v188 (F := Ideal) x0 x1 x2 x3 x4 x5 x6 x7 x14 x15 (ix2 n d))
          (fun d => x7 (ix2 (2 : Fin 4) d)) n d := by
  have hd := d.isLt
  have e : idx_main_v193 (idx_main_v194 (idx_main_v207 (idx_main_v208 (ix2 n d)))) = ix2 (2 : Fin 4) d :=
    funext fun a => Fin.ext (by
      match a with
      | ⟨0, _⟩ => rfl
      | ⟨1, _⟩ => show d.val % 128 = d.val; omega)
  rw [val_main_v210_apply, val_main_v209_apply, val_main_v208_apply, val_main_v207_apply, val_main_v194_apply,
    val_main_v193_apply, e]
  unfold val_main_v206
  rw [Cert.SegOps.gather_graph gather_S128x128_S50000x1_S50000x128_1_0_n_n_0_1_1128 rfl rfl rfl rfl rfl rfl (B x15 hr)
    (val_main_v205 (F := Ideal) x15)
    (fun j => Cert.SegOps.wrapped_col_graph (by decide) x15 (val_main_v200 (F := Ideal)) (val_main_v202 (F := Ideal))
      (fun i => by rw [val_main_v200_apply]; rfl) hr _ rfl bcast_S50000_S50000x1_0 j),
    seg_mean2 x15 hr]
  rfl

/-- The variance of the perceptron's output over each graph. -/
theorem seg_var2 (g d : Fin 128) :
    val_main_v216 (F := Ideal) x0 x1 x2 x3 x4 x5 x6 x7 x14 x15 (ix2 g d)
      = Cert.Spec2.var (B x15 hr) one (fun n d => val_main_v188 (F := Ideal) x0 x1 x2 x3 x4 x5 x6 x7 x14 x15 (ix2 n d))
          (fun d => x7 (ix2 (2 : Fin 4) d)) g d := by
  have e : idx_main_v215 (ix2 g d) = ix2 g (0 : Fin 1) :=
    funext fun a => by match a with | ⟨0, _⟩ => rfl | ⟨1, _⟩ => rfl
  rw [val_main_v216_apply, val_main_v215_apply, e, counts x15 hr g]
  unfold val_main_v214
  rw [Cert.SegOps.scatterAdd_zero_segsum scatter_S128x128_S50000x1_S50000x128_1_0_0_1 rfl rfl rfl rfl (B x15 hr)
    (val_main_v213 (F := Ideal) x15)
    (fun j => Cert.SegOps.plain_col_graph (by decide) x15 hr _ rfl bcast_S50000_S50000x1_0 j)
    (val_main_v212 (F := Ideal)) (fun i => by rw [val_main_v212_apply]; exact Ideal.ofBits_zero_f32)]
  simp only [val_main_v211_apply, centred_at2 x15 hr]
  rfl

/-- The layer's output: the centred rows over the square root of the variance, an affine map, the rectifier. -/
theorem norm_out2 (n : Fin 50000) (d : Fin 128) :
    val_main_v234 (F := Ideal) x0 x1 x2 x3 x4 x5 x6 x7 x14 x15 (ix2 n d)
      = Cert.Spec2.hR (B x15 hr) one eps (fun n d => val_main_v188 (F := Ideal) x0 x1 x2 x3 x4 x5 x6 x7 x14 x15 (ix2 n d))
          (fun d => x7 (ix2 (2 : Fin 4) d)) (fun d => x5 (ix2 (2 : Fin 4) d)) (fun d => x6 (ix2 (2 : Fin 4) d)) n d := by
  have hd := d.isLt
  have ew : idx_main_v189 (idx_main_v190 (idx_main_v217 (idx_main_v218 (ix2 n d)))) = ix2 (2 : Fin 4) d :=
    funext fun a => Fin.ext (by
      match a with
      | ⟨0, _⟩ => rfl
      | ⟨1, _⟩ => show d.val % 128 = d.val; omega)
  have eb : idx_main_v191 (idx_main_v192 (idx_main_v231 (idx_main_v232 (ix2 n d)))) = ix2 (2 : Fin 4) d :=
    funext fun a => Fin.ext (by
      match a with
      | ⟨0, _⟩ => rfl
      | ⟨1, _⟩ => show d.val % 128 = d.val; omega)
  rw [val_main_v234_apply, val_main_v233_apply, val_main_v230_apply, val_main_v219_apply, val_main_v229_apply,
    val_main_v228_apply, val_main_v218_apply, val_main_v217_apply, val_main_v190_apply, val_main_v189_apply, ew,
    val_main_v232_apply, val_main_v231_apply, val_main_v192_apply, val_main_v191_apply, eb, val_main_v227_apply,
    val_main_call8_v0_apply, centred_at2 x15 hr]
  unfold val_main_v226
  rw [Cert.SegOps.gather_graph gather_S128x128_S50000x1_S50000x128_1_0_n_n_0_1_1128 rfl rfl rfl rfl rfl rfl (B x15 hr)
    (val_main_v225 (F := Ideal) x15)
    (fun j => Cert.SegOps.wrapped_col_graph (by decide) x15 (val_main_v220 (F := Ideal)) (val_main_v222 (F := Ideal))
      (fun i => by rw [val_main_v220_apply]; rfl) hr _ rfl bcast_S50000_S50000x1_0 j),
    seg_var2 x15 hr, show val_main_call8_cst (F := Ideal) _ = 0 from Ideal.ofBits_zero_f32,
    show val_main_cst_30 (F := Ideal) _ = eps from rfl]
  simp only [Ideal.maximumf_def, Ideal.addf_def, Ideal.hostDivf_def, Ideal.mulf_def, Ideal.hostUnary_sqrt_def]
  rfl

/-- The layer: the perceptron on each row plus its aggregate, then the normalisation per graph. -/
theorem ref_layer2 (n : Fin 50000) (d : Fin 128) :
    val_main_v234 (F := Ideal) x0 x1 x2 x3 x4 x5 x6 x7 x14 x15 (ix2 n d)
      = Cert.Spec2.layerR (B x15 hr) one eps (fun n j => Hin (ix2 n j)) (fun n j => aggR Hin x14 (ix2 n j))
          (fun j k => x1 (ix3 (2 : Fin 4) j k)) (fun k => x2 (ix2 (2 : Fin 4) k))
          (fun j k => x3 (ix3 (2 : Fin 4) j k)) (fun k => x4 (ix2 (2 : Fin 4) k))
          (fun d => x7 (ix2 (2 : Fin 4) d)) (fun d => x5 (ix2 (2 : Fin 4) d)) (fun d => x6 (ix2 (2 : Fin 4) d)) n d := by
  have hT : (fun n d => val_main_v188 (F := Ideal) x0 x1 x2 x3 x4 x5 x6 x7 x14 x15 (ix2 n d))
      = Cert.Spec2.mlp2 (fun n j => Hin (ix2 n j) + aggR Hin x14 (ix2 n j))
          (fun j k => x1 (ix3 (2 : Fin 4) j k)) (fun k => x2 (ix2 (2 : Fin 4) k))
          (fun j k => x3 (ix3 (2 : Fin 4) j k)) (fun k => x4 (ix2 (2 : Fin 4) k)) :=
    funext fun n => funext fun d => by rw [mlp_out2]
  rw [norm_out2 x15 hr, hT]
  rfl

end Layer2

end Cert.RefLayers
-- ==== Proof.RefLayer3.lean ====
/-
  Layer 3 of the reference network read at an index: the same argument as for the first layer, over the layer's own
  stages, its input the output of the layer before, its parameters the slices at offset 3.
-/
import proofs.«408428_j10917806867267_1_alg».proof.Proof.RefLayers

noncomputable section

open scoped BigOperators

namespace Cert.RefLayers

open Cert.ReferenceIdeal Cert.ReferenceIdeal.Gen Cert.ReferenceIdeal.Read Idealize.ShloMosaic Idealize.ShloMosaic.ValueIdx

variable (x15 : IVec S50000 32)
  (hr : ∀ j : Fin 50000, (x15 (ix1 j)).toNat < 128 ∧ (x15 (ix1 j)).toInt = ((x15 (ix1 j)).toNat : Int))

variable (x0 : FVec Ideal S50000x128 .f32) (x1 : FVec Ideal S4x128x128 .f32) (x2 : FVec Ideal S4x128 .f32)
  (x3 : FVec Ideal S4x128x128 .f32) (x4 x5 x6 x7 : FVec Ideal S4x128 .f32) (x14 : IVec S2x800000 32)

section Layer3

/-- The layer's input. -/
local notation "Hin" => (val_main_v234 (F := Ideal) x0 x1 x2 x3 x4 x5 x6 x7 x14 x15)

/-! ## The perceptron -/

/-- The first linear map and its rectifier, at a node and a hidden unit. -/
theorem mlp_hidden3 (n : Fin 50000) (k : Fin 128) :
    val_main_v254 (F := Ideal) x0 x1 x2 x3 x4 x5 x6 x7 x14 x15 (ix2 n k)
      = Cert.Spec2.relu (Cert.Spec2.lin (fun n j => Hin (ix2 n j) + aggR Hin x14 (ix2 n j))
          (fun j k => x1 (ix3 (3 : Fin 4) j k)) (fun k => x2 (ix2 (3 : Fin 4) k)) n k) := by
  have hk := k.isLt
  have e1 : ∀ j : Fin 128, lidx_main_v248 (ix2 n k) j = ix2 n j := fun j =>
    funext fun a => by match a with | ⟨0, _⟩ => rfl | ⟨1, _⟩ => rfl
  have e2 : ∀ j : Fin 128, idx_main_v246 (idx_main_v247 (ridx_main_v248 (ix2 n k) j)) = ix3 (3 : Fin 4) j k := fun j =>
    funext fun a => Fin.ext (by
      have hj := j.isLt
      match a with
      | ⟨0, _⟩ => rfl
      | ⟨1, _⟩ => show (j.val * 128 + k.val) / 128 % 128 = j.val; omega
      | ⟨2, _⟩ => show (j.val * 128 + k.val) % 128 = k.val; omega)
  have e3 : idx_main_v249 (idx_main_v250 (idx_main_v251 (idx_main_v252 (ix2 n k)))) = ix2 (3 : Fin 4) k :=
    funext fun a => Fin.ext (by
      match a with
      | ⟨0, _⟩ => rfl
      | ⟨1, _⟩ => show k.val % 128 = k.val; omega)
  rw [val_main_v254_apply, val_main_v253_apply, val_main_v248_apply, val_main_v252_apply, val_main_v251_apply,
    val_main_v250_apply, val_main_v249_apply, val_main_call9_v0_apply]
  simp only [val_main_v245_apply, val_main_v247_apply, val_main_v246_apply, e1, e2, e3]
  rw [show val_main_call9_cst (F := Ideal) _ = 0 from Ideal.ofBits_zero_f32]
  rfl

/-- The perceptron's output, at a node and a feature. -/
theorem mlp_out3 (n : Fin 50000) (k : Fin 128) :
    val_main_v263 (F := Ideal) x0 x1 x2 x3 x4 x5 x6 x7 x14 x15 (ix2 n k)
      = Cert.Spec2.mlp2 (fun n j => Hin (ix2 n j) + aggR Hin x14 (ix2 n j))
          (fun j k => x1 (ix3 (3 : Fin 4) j k)) (fun k => x2 (ix2 (3 : Fin 4) k))
          (fun j k => x3 (ix3 (3 : Fin 4) j k)) (fun k => x4 (ix2 (3 : Fin 4) k)) n k := by
  have hk := k.isLt
  have e1 : ∀ j : Fin 128, lidx_main_v257 (ix2 n k) j = ix2 n j := fun j =>
    funext fun a => by match a with | ⟨0, _⟩ => rfl | ⟨1, _⟩ => rfl
  have e2 : ∀ j : Fin 128, idx_main_v255 (idx_main_v256 (ridx_main_v257 (ix2 n k) j)) = ix3 (3 : Fin 4) j k := fun j =>
    funext fun a => Fin.ext (by
      have hj := j.isLt
      match a with
      | ⟨0, _⟩ => rfl
      | ⟨1, _⟩ => show (j.val * 128 + k.val) / 128 % 128 = j.val; omega
      | ⟨2, _⟩ => show (j.val * 128 + k.val) % 128 = k.val; omega)
  have e3 : idx_main_v258 (idx_main_v259 (idx_main_v260 (idx_main_v261 (ix2 n k)))) = ix2 (3 : Fin 4) k :=
    funext fun a => Fin.ext (by
      match a with
      | ⟨0, _⟩ => rfl
      | ⟨1, _⟩ => show k.val % 128 = k.val; omega)
  rw [val_main_v263_apply, val_main_v262_apply, val_main_v257_apply, val_main_v261_apply, val_main_v260_apply,
    val_main_v259_apply, val_main_v258_apply, val_main_call10_v0_apply]
  simp only [val_main_v256_apply, val_main_v255_apply, e1, e2, e3, mlp_hidden3]
  rw [show val_main_call10_cst (F := Ideal) _ = 0 from Ideal.ofBits_zero_f32]
  rfl

/-! ## The normalisation per graph -/

/-- The mean of the perceptron's output over each graph. -/
theorem seg_mean3 (g d : Fin 128) :
    val_main_v274 (F := Ideal) x0 x1 x2 x3 x4 x5 x6 x7 x14 x15 (ix2 g d)
      = Cert.Spec2.mean (B x15 hr) one (fun n d => val_main_v263 (F := Ideal) x0 x1 x2 x3 x4 x5 x6 x7 x14 x15 (ix2 n d)) g d := by
  have e : idx_main_v273 (ix2 g d) = ix2 g (0 : Fin 1) :=
    funext fun a => by match a with | ⟨0, _⟩ => rfl | ⟨1, _⟩ => rfl
  rw [val_main_v274_apply, val_main_v273_apply, e, counts x15 hr g]
  unfold val_main_v272
  rw [Cert.SegOps.scatterAdd_zero_segsum scatter_S128x128_S50000x1_S50000x128_1_0_0_1 rfl rfl rfl rfl (B x15 hr)
    (val_main_v271 (F := Ideal) x15)
    (fun j => Cert.SegOps.plain_col_graph (by decide) x15 hr _ rfl bcast_S50000_S50000x1_0 j)
    (val_main_v270 (F := Ideal)) (fun i => by rw [val_main_v270_apply]; exact Ideal.ofBits_zero_f32)]
  rfl

/-- The perceptron's output centred by the scaled mean of the node's graph. -/
theorem centred_at3 (n : Fin 50000) (d : Fin 128) :
    val_main_v285 (F := Ideal) x0 x1 x2 x3 x4 x5 x6 x7 x14 x15 (ix2 n d)
      = Cert.Spec2.centred (B x15 hr) one (fun n d => val_main_v263 (F := Ideal) x0 x1 x2 x3 x4 x5 x6 x7 x14 x15 (ix2 n d))
          (fun d => x7 (ix2 (3 : Fin 4) d)) n d := by
  have hd := d.isLt
  have e : idx_main_v268 (idx_main_v269 (idx_main_v282 (idx_main_v283 (ix2 n d)))) = ix2 (3 : Fin 4) d :=
    funext fun a => Fin.ext (by
      match a with
      | ⟨0, _⟩ => rfl
      | ⟨1, _⟩ => show d.val % 128 = d.val; omega)
  rw [val_main_v285_apply, val_main_v284_apply, val_main_v283_apply, val_main_v282_apply, val_main_v269_apply,
    val_main_v268_apply, e]
  unfold val_main_v281
  rw [Cert.SegOps.gather_graph gather_S128x128_S50000x1_S50000x128_1_0_n_n_0_1_1128 rfl rfl rfl rfl rfl rfl (B x15 hr)
    (val_main_v280 (F := Ideal) x15)
    (fun j => Cert.SegOps.wrapped_col_graph (by decide) x15 (val_main_v275 (F := Ideal)) (val_main_v277 (F := Ideal))
      (fun i => by rw [val_main_v275_apply]; rfl) hr _ rfl bcast_S50000_S50000x1_0 j),
    seg_mean3 x15 hr]
  rfl

/-- The variance of the perceptron's output over each graph. -/
theorem seg_var3 (g d : Fin 128) :
    val_main_v291 (F := Ideal) x0 x1 x2 x3 x4 x5 x6 x7 x14 x15 (ix2 g d)
      = Cert.Spec2.var (B x15 hr) one (fun n d => val_main_v263 (F := Ideal) x0 x1 x2 x3 x4 x5 x6 x7 x14 x15 (ix2 n d))
          (fun d => x7 (ix2 (3 : Fin 4) d)) g d := by
  have e : idx_main_v290 (ix2 g d) = ix2 g (0 : Fin 1) :=
    funext fun a => by match a with | ⟨0, _⟩ => rfl | ⟨1, _⟩ => rfl
  rw [val_main_v291_apply, val_main_v290_apply, e, counts x15 hr g]
  unfold val_main_v289
  rw [Cert.SegOps.scatterAdd_zero_segsum scatter_S128x128_S50000x1_S50000x128_1_0_0_1 rfl rfl rfl rfl (B x15 hr)
    (val_main_v288 (F := Ideal) x15)
    (fun j => Cert.SegOps.plain_col_graph (by decide) x15 hr _ rfl bcast_S50000_S50000x1_0 j)
    (val_main_v287 (F := Ideal)) (fun i => by rw [val_main_v287_apply]; exact Ideal.ofBits_zero_f32)]
  simp only [val_main_v286_apply, centred_at3 x15 hr]
  rfl

/-- The layer's output: the centred rows over the square root of the variance, an affine map, the rectifier. -/
theorem norm_out3 (n : Fin 50000) (d : Fin 128) :
    val_main_v309 (F := Ideal) x0 x1 x2 x3 x4 x5 x6 x7 x14 x15 (ix2 n d)
      = Cert.Spec2.hR (B x15 hr) one eps (fun n d => val_main_v263 (F := Ideal) x0 x1 x2 x3 x4 x5 x6 x7 x14 x15 (ix2 n d))
          (fun d => x7 (ix2 (3 : Fin 4) d)) (fun d => x5 (ix2 (3 : Fin 4) d)) (fun d => x6 (ix2 (3 : Fin 4) d)) n d := by
  have hd := d.isLt
  have ew : idx_main_v264 (idx_main_v265 (idx_main_v292 (idx_main_v293 (ix2 n d)))) = ix2 (3 : Fin 4) d :=
    funext fun a => Fin.ext (by
      match a with
      | ⟨0, _⟩ => rfl
      | ⟨1, _⟩ => show d.val % 128 = d.val; omega)
  have eb : idx_main_v266 (idx_main_v267 (idx_main_v306 (idx_main_v307 (ix2 n d)))) = ix2 (3 : Fin 4) d :=
    funext fun a => Fin.ext (by
      match a with
      | ⟨0, _⟩ => rfl
      | ⟨1, _⟩ => show d.val % 128 = d.val; omega)
  rw [val_main_v309_apply, val_main_v308_apply, val_main_v305_apply, val_main_v294_apply, val_main_v304_apply,
    val_main_v303_apply, val_main_v293_apply, val_main_v292_apply, val_main_v265_apply, val_main_v264_apply, ew,
    val_main_v307_apply, val_main_v306_apply, val_main_v267_apply, val_main_v266_apply, eb, val_main_v302_apply,
    val_main_call11_v0_apply, centred_at3 x15 hr]
  unfold val_main_v301
  rw [Cert.SegOps.gather_graph gather_S128x128_S50000x1_S50000x128_1_0_n_n_0_1_1128 rfl rfl rfl rfl rfl rfl (B x15 hr)
    (val_main_v300 (F := Ideal) x15)
    (fun j => Cert.SegOps.wrapped_col_graph (by decide) x15 (val_main_v295 (F := Ideal)) (val_main_v297 (F := Ideal))
      (fun i => by rw [val_main_v295_apply]; rfl) hr _ rfl bcast_S50000_S50000x1_0 j),
    seg_var3 x15 hr, show val_main_call11_cst (F := Ideal) _ = 0 from Ideal.ofBits_zero_f32,
    show val_main_cst_40 (F := Ideal) _ = eps from rfl]
  simp only [Ideal.maximumf_def, Ideal.addf_def, Ideal.hostDivf_def, Ideal.mulf_def, Ideal.hostUnary_sqrt_def]
  rfl

/-- The layer: the perceptron on each row plus its aggregate, then the normalisation per graph. -/
theorem ref_layer3 (n : Fin 50000) (d : Fin 128) :
    val_main_v309 (F := Ideal) x0 x1 x2 x3 x4 x5 x6 x7 x14 x15 (ix2 n d)
      = Cert.Spec2.layerR (B x15 hr) one eps (fun n j => Hin (ix2 n j)) (fun n j => aggR Hin x14 (ix2 n j))
          (fun j k => x1 (ix3 (3 : Fin 4) j k)) (fun k => x2 (ix2 (3 : Fin 4) k))
          (fun j k => x3 (ix3 (3 : Fin 4) j k)) (fun k => x4 (ix2 (3 : Fin 4) k))
          (fun d => x7 (ix2 (3 : Fin 4) d)) (fun d => x5 (ix2 (3 : Fin 4) d)) (fun d => x6 (ix2 (3 : Fin 4) d)) n d := by
  have hT : (fun n d => val_main_v263 (F := Ideal) x0 x1 x2 x3 x4 x5 x6 x7 x14 x15 (ix2 n d))
      = Cert.Spec2.mlp2 (fun n j => Hin (ix2 n j) + aggR Hin x14 (ix2 n j))
          (fun j k => x1 (ix3 (3 : Fin 4) j k)) (fun k => x2 (ix2 (3 : Fin 4) k))
          (fun j k => x3 (ix3 (3 : Fin 4) j k)) (fun k => x4 (ix2 (3 : Fin 4) k)) :=
    funext fun n => funext fun d => by rw [mlp_out3]
  rw [norm_out3 x15 hr, hT]
  rfl

end Layer3

end Cert.RefLayers
-- ==== Proof.RefHead.lean ====
/-
  The readout of the reference network read at an index.

  After the last layer the reference sums each graph's rows (a scatter-add into zeros by the column of graph ids: a segment
  sum), applies three linear maps with a rectifier after the first two, and takes the logarithm of the softmax of each
  graph's row of logits: the row shifted by its maximum, minus the logarithm of the sum of the exponentials of the shifted
  row. The maximum is a fold of the maximum from minus infinity over the classes, that is the supremum from the bottom of
  the extended reals; the program takes the maximum with minus infinity once more, which leaves it.
-/
import proofs.«408428_j10917806867267_1_alg».proof.Proof.RefLayers
import proofs.«408428_j10917806867267_1_alg».proof.Proof.Spec3
import proofs.«408428_j10917806867267_1_alg».proof.Proof.Consts

noncomputable section

open scoped BigOperators

namespace Cert.RefLayers

open Cert.ReferenceIdeal Cert.ReferenceIdeal.Gen Cert.ReferenceIdeal.Read Idealize.ShloMosaic Idealize.ShloMosaic.ValueIdx

variable (x15 : IVec S50000 32)
  (hr : ∀ j : Fin 50000, (x15 (ix1 j)).toNat < 128 ∧ (x15 (ix1 j)).toInt = ((x15 (ix1 j)).toNat : Int))

variable (x0 : FVec Ideal S50000x128 .f32) (x1 : FVec Ideal S4x128x128 .f32) (x2 : FVec Ideal S4x128 .f32)
  (x3 : FVec Ideal S4x128x128 .f32) (x4 x5 x6 x7 : FVec Ideal S4x128 .f32) (x14 : IVec S2x800000 32)

/-! ## The readout -/

variable (x8 : FVec Ideal S128x128 .f32) (x9 : FVec Ideal S128 .f32) (x10 : FVec Ideal S128x128 .f32)
  (x11 : FVec Ideal S128 .f32) (x12 : FVec Ideal S128x10 .f32) (x13 : FVec Ideal S10 .f32)

/-- The sum of each graph's rows of the last layer's output. -/
theorem pooled_at (g d : Fin 128) :
    val_main_v312 (F := Ideal) x0 x1 x2 x3 x4 x5 x6 x7 x14 x15 (ix2 g d)
      = Cert.Spec3.pooled (B x15 hr) (fun n d => val_main_v309 (F := Ideal) x0 x1 x2 x3 x4 x5 x6 x7 x14 x15 (ix2 n d)) g d := by
  unfold val_main_v312
  rw [Cert.SegOps.scatterAdd_zero_segsum scatter_S128x128_S50000x1_S50000x128_1_0_0_1 rfl rfl rfl rfl (B x15 hr)
    (val_main_v311 (F := Ideal) x15)
    (fun j => Cert.SegOps.plain_col_graph (by decide) x15 hr _ rfl bcast_S50000_S50000x1_0 j)
    (val_main_v310 (F := Ideal)) (fun i => by rw [val_main_v310_apply]; exact Ideal.ofBits_zero_f32)]
  rfl

/-- The first linear map of the readout and its rectifier. -/
theorem head_hidden1 (g k : Fin 128) :
    val_main_v317 (F := Ideal) x0 x1 x2 x3 x4 x5 x6 x7 x8 x9 x14 x15 (ix2 g k)
      = Cert.Spec2.relu (Cert.Spec2.lin (fun g d => val_main_v312 (F := Ideal) x0 x1 x2 x3 x4 x5 x6 x7 x14 x15 (ix2 g d))
          (fun j k => x8 (ix2 j k)) (fun k => x9 (ix1 k)) g k) := by
  have e1 : ∀ j : Fin 128, lidx_main_v313 (ix2 g k) j = ix2 g j := fun j =>
    funext fun a => by match a with | ⟨0, _⟩ => rfl | ⟨1, _⟩ => rfl
  have e2 : ∀ j : Fin 128, ridx_main_v313 (ix2 g k) j = ix2 j k := fun j =>
    funext fun a => by match a with | ⟨0, _⟩ => rfl | ⟨1, _⟩ => rfl
  have e3 : idx_main_v314 (idx_main_v315 (ix2 g k)) = ix1 k :=
    funext fun a => by match a with | ⟨0, _⟩ => rfl
  rw [val_main_v317_apply, val_main_v316_apply, val_main_v313_apply, val_main_v315_apply, val_main_v314_apply, e3,
    val_main_call12_v0_apply, show val_main_call12_cst (F := Ideal) _ = 0 from Ideal.ofBits_zero_f32]
  simp only [e1, e2]
  rfl

/-- The second linear map of the readout and its rectifier. -/
theorem head_hidden2 (g k : Fin 128) :
    val_main_v322 (F := Ideal) x0 x1 x2 x3 x4 x5 x6 x7 x8 x9 x10 x11 x14 x15 (ix2 g k)
      = Cert.Spec2.relu (Cert.Spec2.lin (fun g j => Cert.Spec2.relu (Cert.Spec2.lin
            (fun g d => val_main_v312 (F := Ideal) x0 x1 x2 x3 x4 x5 x6 x7 x14 x15 (ix2 g d)) (fun j k => x8 (ix2 j k)) (fun k => x9 (ix1 k)) g j))
          (fun j k => x10 (ix2 j k)) (fun k => x11 (ix1 k)) g k) := by
  have e1 : ∀ j : Fin 128, lidx_main_v318 (ix2 g k) j = ix2 g j := fun j =>
    funext fun a => by match a with | ⟨0, _⟩ => rfl | ⟨1, _⟩ => rfl
  have e2 : ∀ j : Fin 128, ridx_main_v318 (ix2 g k) j = ix2 j k := fun j =>
    funext fun a => by match a with | ⟨0, _⟩ => rfl | ⟨1, _⟩ => rfl
  have e3 : idx_main_v319 (idx_main_v320 (ix2 g k)) = ix1 k :=
    funext fun a => by match a with | ⟨0, _⟩ => rfl
  rw [val_main_v322_apply, val_main_v321_apply, val_main_v318_apply, val_main_v320_apply, val_main_v319_apply, e3,
    val_main_call13_v0_apply, show val_main_call13_cst (F := Ideal) _ = 0 from Ideal.ofBits_zero_f32]
  simp only [e1, e2, head_hidden1]
  rfl

/-- The logits of each graph. -/
theorem logits_at (g : Fin 128) (c : Fin 10) :
    val_main_v326 (F := Ideal) x0 x1 x2 x3 x4 x5 x6 x7 x8 x9 x10 x11 x12 x13 x14 x15 (ix2 g c)
      = Cert.Spec3.logits (fun g d => val_main_v312 (F := Ideal) x0 x1 x2 x3 x4 x5 x6 x7 x14 x15 (ix2 g d))
          (fun j k => x8 (ix2 j k)) (fun k => x9 (ix1 k)) (fun j k => x10 (ix2 j k)) (fun k => x11 (ix1 k))
          (fun j c => x12 (ix2 j c)) (fun c => x13 (ix1 c)) g c := by
  have e1 : ∀ j : Fin 128, lidx_main_v323 (ix2 g c) j = ix2 g j := fun j =>
    funext fun a => by match a with | ⟨0, _⟩ => rfl | ⟨1, _⟩ => rfl
  have e2 : ∀ j : Fin 128, ridx_main_v323 (ix2 g c) j = ix2 j c := fun j =>
    funext fun a => by match a with | ⟨0, _⟩ => rfl | ⟨1, _⟩ => rfl
  have e3 : idx_main_v324 (idx_main_v325 (ix2 g c)) = ix1 c :=
    funext fun a => by match a with | ⟨0, _⟩ => rfl
  rw [val_main_v326_apply, val_main_v323_apply, val_main_v325_apply, val_main_v324_apply, e3]
  simp only [e1, e2, head_hidden2]
  rfl

/-- A graph's index with a class put back is the pair (graph, class). -/
theorem lift_class (h : S128x10.Reduces [1] S128) (g : Fin 128) (c : Fin (S128x10.size 1)) :
    h.lift (ix1 g) c = ix2 g (⟨c.val, c.isLt⟩ : Fin 10) := by
  funext a
  apply Fin.ext
  match a with
  | ⟨0, _⟩ => rfl
  | ⟨1, _⟩ => rfl

/-- The maximum of each graph's logits: the fold of the maximum from minus infinity is the supremum, and the maximum
    with minus infinity once more leaves it. -/
theorem rowmax_at (g : Fin 128) :
    val_main_call14_v2 (F := Ideal) x0 x1 x2 x3 x4 x5 x6 x7 x8 x9 x10 x11 x12 x13 x14 x15 (ix1 g)
      = Cert.Spec3.rowMax (fun c : Fin 10 =>
          val_main_v326 (F := Ideal) x0 x1 x2 x3 x4 x5 x6 x7 x8 x9 x10 x11 x12 x13 x14 x15 (ix2 g c)) := by
  rw [val_main_call14_v2_apply, val_main_call14_v1_apply,
    show val_main_call14_cst_0 (F := Ideal) _ = ⊥ from Cert.Consts.floatOps_neg_inf]
  unfold val_main_call14_v0
  rw [Host.reduce_eq_fold_single FloatOps.maximumf _ _ reducesTo_S128x10_S128_d1 (by decide) h_S_,
    show val_main_call14_cst (F := Ideal) _ = ⊥ from Cert.Consts.floatOps_neg_inf, Cert.Spec3.fold_maximumf_bot]
  show max ⊥ _ = _
  rw [Cert.Spec3.max_bot_left']
  unfold Cert.Spec3.rowMax
  refine congrArg (Finset.univ.sup) (funext fun c => ?_)
  show val_main_v326 (F := Ideal) x0 x1 x2 x3 x4 x5 x6 x7 x8 x9 x10 x11 x12 x13 x14 x15 (Shape.Reduces.lift _ (ix1 g) c) = _
  rw [lift_class]
  rfl

/-- The network's result: the logarithm of the softmax of each graph's logits. -/
theorem ref_head (g : Fin 128) (c : Fin 10) :
    val_main_v327 (F := Ideal) x0 x1 x2 x3 x4 x5 x6 x7 x8 x9 x10 x11 x12 x13 x14 x15 (ix2 g c)
      = Cert.Spec3.head
          (Cert.Spec3.pooled (B x15 hr) (fun n d => val_main_v309 (F := Ideal) x0 x1 x2 x3 x4 x5 x6 x7 x14 x15 (ix2 n d)))
          (fun j k => x8 (ix2 j k)) (fun k => x9 (ix1 k)) (fun j k => x10 (ix2 j k)) (fun k => x11 (ix1 k))
          (fun j c => x12 (ix2 j c)) (fun c => x13 (ix1 c)) g c := by
  have em : ∀ c' : Fin 10, idx_main_call14_v3 (idx_main_call14_v4 (ix2 g c')) = ix1 g := fun c' =>
    funext fun a => by match a with | ⟨0, _⟩ => rfl
  have es : idx_main_call14_v8 (idx_main_call14_v10 (ix2 g c)) = ix1 g :=
    funext fun a => by match a with | ⟨0, _⟩ => rfl
  have ek : ∀ k : Fin 10, idx_main_call14_v7 (ix1 g) k = ix2 g k := fun k =>
    funext fun a => by match a with | ⟨0, _⟩ => rfl | ⟨1, _⟩ => rfl
  have hP : (fun g d => val_main_v312 (F := Ideal) x0 x1 x2 x3 x4 x5 x6 x7 x14 x15 (ix2 g d))
      = Cert.Spec3.pooled (B x15 hr) (fun n d => val_main_v309 (F := Ideal) x0 x1 x2 x3 x4 x5 x6 x7 x14 x15 (ix2 n d)) :=
    funext fun g => funext fun d => pooled_at x15 hr x0 x1 x2 x3 x4 x5 x6 x7 x14 g d
  rw [val_main_v327_apply, val_main_call14_v10_apply, val_main_call14_v9_apply, val_main_call14_v8_apply, es,
    val_main_call14_v7_apply, show val_main_call14_cst_1 (F := Ideal) _ = 0 from Ideal.ofBits_zero_f32, zero_add]
  simp only [val_main_call14_v6_apply, val_main_call14_v5_apply, val_main_call14_v4_apply, val_main_call14_v3_apply,
    ek, em, rowmax_at, logits_at, hP, Ideal.subf_def, Ideal.hostUnary_log_def, Ideal.hostUnary_exp_def]
  rfl

end Cert.RefLayers
-- ==== Proof.KI.HostOut.lean ====
import proofs.«408428_j10917806867267_1_alg».proof.Proof.Gen.KernelIdeal.Launch
import proofs.«408428_j10917806867267_1_alg».proof.Proof.Gen.KernelIdeal.Regions
import Idealize.ShloMosaic.Lib.StableHlo.Run

/-! # What the host stretches leave in the buffers the launches read

Between two launches the program runs a short list of array operations on the host. For each such list, and each
array it writes that a later launch or a later list reads, the array after the list is stated as a term over the
buffer contents `W` the list was entered with, at the arrays it reads from outside itself; an array the list does
not write is left as found. The terms are built from a few named computations: a row of the edge list and the wrap
of ids below zero, the gather followed by a scatter-add that sums rows along the edge list, the membership matrix
of a vector of ids and the counts column made from it, one row or one matrix of a stacked array, and the division
of each row by its entry of a column. Everything holds at an arbitrary `W` and at any float model `F`. -/

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! ## The recurring host computations -/

/-- One row of the `2 × 800000` edge list as a vector of 800000 ids: the row sliced out, then flattened. -/
def edgeIds (off : Fin 2 → ℕ) (h : S2x800000.Slices off S1x800000) (e : Vec F S2x800000 .i32) : Vec F S800000 .i32 :=
  shapeCast S800000 (extractStridedSlice S1x800000 off e h) shapeCasts_S1x800000_S800000

/-- An id below zero counts from the end of 50000 rows: where `v < 0` (signed), `v + 50000`; elsewhere `v`. -/
def wrapId (v : Vec F S800000 .i32) : Vec F S800000 .i32 :=
  select (cmpi .slt v (broadcastInDim S800000 ![] bcast_S_S800000 (constantI S_ 32 0#32)))
    (addi v (broadcastInDim S800000 ![] bcast_S_S800000 (constantI S_ 32 50000#32))) v

/-- A vector of ids as a column of one-coordinate index tuples. -/
def idCol (v : Vec F S800000 .i32) : Vec F S800000x1 .i32 :=
  broadcastInDim S800000x1 ![0] bcast_S800000_S800000x1_0 v

/-- Neighbourhood sums: the rows of `h` gathered at the wrapped ids `src`, each added, into an array of zeros, at the row its id in `dst` names. -/
def edgeAgg (h : Vec F S50000x128 .f32) (src dst : Vec F S800000 .i32) : Vec F S50000x128 .f32 :=
  Host.scatterAdd (F := F) scatter_S50000x128_S800000x1_S800000x128_1_0_0_1
    (broadcastInDim S50000x128 ![] bcast_S_S50000x128 (constant (F := F) S_ .f32 0x00000000#32))
    (idCol dst)
    (Host.gather gather_S50000x128_S800000x1_S800000x128_1_0_n_n_0_1_1128 h (idCol (wrapId src)))

/-- The membership matrix of a vector of 50000 ids: entry `(n, g)`, for `g < 128`, is the float of the bit `batch n = g`. -/
def oneHot (batch : Vec F S50000 .i32) : Vec F S50000x128 .bf16 :=
  uitofp (F := F) .bf16 (cmpi .eq
    (broadcastInDim S50000x128 ![0, 1] bcast_S50000x1_S50000x128_0_1
      (broadcastInDim S50000x1 ![0] bcast_S50000_S50000x1_0 batch))
    (broadcastInDim S50000x128 ![0, 1] bcast_S1x128_S50000x128_0_1
      (broadcastInDim S1x128 ![1] bcast_S128_S1x128_1 (iotaInDim S128 32 0))))

/-- The counts column: the column sums of the membership matrix (each sum started at zero), `max` with one, transposed to `128 × 1`. -/
def countsCol (batch : Vec F S50000 .i32) : Vec F S128x1 .f32 :=
  transpose S128x1 [1, 0]
    (maximumf
      (broadcastInDim S1x128 ![1] bcast_S128_S1x128_1
        (Host.reduceAdd (F := F) (extf .f32 (oneHot (F := F) batch) bitsLt_bf16_f32)
          (constant (F := F) S_ .f32 0x00000000#32) reducesTo_S50000x128_S128_d0 h_S_))
      (broadcastInDim S1x128 ![] bcast_S_S1x128 (constant (F := F) S_ .f32 0x3F800000#32)))
    transposes_S1x128_S128x1_1_0

/-- One row of a `4 × 128` array as a `1 × 128` row: sliced out, flattened, laid out as a row again. -/
def paramRow (off : Fin 2 → ℕ) (h : S4x128.Slices off S1x128) (x : Vec F S4x128 .f32) : Vec F S1x128 .f32 :=
  shapeCast S1x128 (shapeCast S128 (extractStridedSlice S1x128 off x h) shapeCasts_S1x128_S128) shapeCasts_S128_S1x128

/-- One matrix of a `4 × 128 × 128` array: sliced out, the leading axis dropped. -/
def paramMat (off : Fin 3 → ℕ) (h : S4x128x128.Slices off S1x128x128) (x : Vec F S4x128x128 .f32) : Vec F S128x128 .f32 :=
  shapeCast S128x128 (extractStridedSlice S1x128x128 off x h) shapeCasts_S1x128x128_S128x128

/-- Each row `g` of a `128 × 128` array divided by entry `g` of a `128 × 1` column. -/
def perGraph (sum : Vec F S128x128 .f32) (cnt : Vec F S128x1 .f32) : Vec F S128x128 .f32 :=
  Host.divf (F := F) sum (broadcastInDim S128x128 ![0, 1] bcast_S128x1_S128x128_0_1 cnt)

/-- A vector of 128 entries as a `1 × 128` row. -/
def asRow128 (x : Vec F S128 .f32) : Vec F S1x128 .f32 := shapeCast S1x128 x shapeCasts_S128_S1x128

/-- A vector of 10 entries as a `1 × 10` row. -/
def asRow10 (x : Vec F S10 .f32) : Vec F S1x10 .f32 := shapeCast S1x10 x shapeCasts_S10_S1x10

/-! ## Stretch 0: the 42 operations before launch 0 -/

/-- What stretch 0 does not write it leaves as found. -/
theorem host0_keep (W : Valuation τ sig (Elt F)) {r : Ref sig .tc} (h : r ∉ hostOps0_W) :
    StableHlo.after hostOps0 W (Proc.devRef .tc r) = W (Proc.devRef .tc r) :=
  StableHlo.after_of_writes_sub hostOps0 W hostOps0_writes h

/-- Row 0 of argument 2, as a `1 × 128` row. -/
theorem host0_v35 (W : Valuation τ sig (Elt F)) :
    StableHlo.after hostOps0 W (Proc.devRef .tc main_v35) = paramRow (F := F) ![0, 0] slices_S4x128_S1x128_0_0 (W (Proc.devRef .tc main_arg2)) := by
  dsimp only [hostOps0]; after_results_simp; rfl

/-- Row 0 of argument 4, as a `1 × 128` row. -/
theorem host0_v36 (W : Valuation τ sig (Elt F)) :
    StableHlo.after hostOps0 W (Proc.devRef .tc main_v36) = paramRow (F := F) ![0, 0] slices_S4x128_S1x128_0_0 (W (Proc.devRef .tc main_arg4)) := by
  dsimp only [hostOps0]; after_results_simp; rfl

/-- Matrix 0 of argument 1. -/
theorem host0_v28 (W : Valuation τ sig (Elt F)) :
    StableHlo.after hostOps0 W (Proc.devRef .tc main_v28) = paramMat (F := F) ![0, 0, 0] slices_S4x128x128_S1x128x128_0_0_0 (W (Proc.devRef .tc main_arg1)) := by
  dsimp only [hostOps0]; after_results_simp; rfl

/-- Matrix 0 of argument 3. -/
theorem host0_v32 (W : Valuation τ sig (Elt F)) :
    StableHlo.after hostOps0 W (Proc.devRef .tc main_v32) = paramMat (F := F) ![0, 0, 0] slices_S4x128x128_S1x128x128_0_0_0 (W (Proc.devRef .tc main_arg3)) := by
  dsimp only [hostOps0]; after_results_simp; rfl

/-- Row 0 of the edge list, argument 14. -/
theorem host0_v1 (W : Valuation τ sig (Elt F)) :
    StableHlo.after hostOps0 W (Proc.devRef .tc main_v1) = edgeIds (F := F) ![0, 0] slices_S2x800000_S1x800000_0_0 (W (Proc.devRef .tc main_arg14)) := by
  dsimp only [hostOps0]; after_results_simp; rfl

/-- Row 1 of the edge list, argument 14. -/
theorem host0_v3 (W : Valuation τ sig (Elt F)) :
    StableHlo.after hostOps0 W (Proc.devRef .tc main_v3) = edgeIds (F := F) ![1, 0] slices_S2x800000_S1x800000_1_0 (W (Proc.devRef .tc main_arg14)) := by
  dsimp only [hostOps0]; after_results_simp; rfl

/-- The membership matrix of the ids in argument 15. -/
theorem host0_v10 (W : Valuation τ sig (Elt F)) :
    StableHlo.after hostOps0 W (Proc.devRef .tc main_v10) = oneHot (F := F) (W (Proc.devRef .tc main_arg15)) := by
  dsimp only [hostOps0]; after_results_simp; rfl

/-- The counts column of the ids in argument 15. -/
theorem host0_v16 (W : Valuation τ sig (Elt F)) :
    StableHlo.after hostOps0 W (Proc.devRef .tc main_v16) = countsCol (F := F) (W (Proc.devRef .tc main_arg15)) := by
  dsimp only [hostOps0]; after_results_simp; rfl

/-- The neighbourhood sums of the rows of argument 0, gathered at row 0 of the edge list and added at row 1 of it. -/
theorem host0_v26 (W : Valuation τ sig (Elt F)) :
    StableHlo.after hostOps0 W (Proc.devRef .tc main_v26) = edgeAgg (F := F) (W (Proc.devRef .tc main_arg0)) (edgeIds (F := F) ![0, 0] slices_S2x800000_S1x800000_0_0 (W (Proc.devRef .tc main_arg14))) (edgeIds (F := F) ![1, 0] slices_S2x800000_S1x800000_1_0 (W (Proc.devRef .tc main_arg14))) := by
  dsimp only [hostOps0]; after_results_simp; rfl

/-! ## Stretch 1: the 5 operations before launch 1 -/

/-- What stretch 1 does not write it leaves as found. -/
theorem host1_keep (W : Valuation τ sig (Elt F)) {r : Ref sig .tc} (h : r ∉ hostOps1_W) :
    StableHlo.after hostOps1 W (Proc.devRef .tc r) = W (Proc.devRef .tc r) :=
  StableHlo.after_of_writes_sub hostOps1 W hostOps1_writes h

/-- The array `main_v37_1` the launch before left, each row over its entry of the counts column `main_v16`. -/
theorem host1_v39 (W : Valuation τ sig (Elt F)) :
    StableHlo.after hostOps1 W (Proc.devRef .tc main_v39) = perGraph (F := F) (W (Proc.devRef .tc main_v37_1)) (W (Proc.devRef .tc main_v16)) := by
  dsimp only [hostOps1]; after_results; rfl

/-- Row 0 of argument 7, as a `1 × 128` row. -/
theorem host1_v42 (W : Valuation τ sig (Elt F)) :
    StableHlo.after hostOps1 W (Proc.devRef .tc main_v42) = paramRow (F := F) ![0, 0] slices_S4x128_S1x128_0_0 (W (Proc.devRef .tc main_arg7)) := by
  dsimp only [hostOps1]; after_results; rfl

/-! ## Stretch 2: the 8 operations before launch 2 -/

/-- What stretch 2 does not write it leaves as found. -/
theorem host2_keep (W : Valuation τ sig (Elt F)) {r : Ref sig .tc} (h : r ∉ hostOps2_W) :
    StableHlo.after hostOps2 W (Proc.devRef .tc r) = W (Proc.devRef .tc r) :=
  StableHlo.after_of_writes_sub hostOps2 W hostOps2_writes h

/-- The array `main_v43_1` the launch before left, each row over its entry of the counts column `main_v16`. -/
theorem host2_v45 (W : Valuation τ sig (Elt F)) :
    StableHlo.after hostOps2 W (Proc.devRef .tc main_v45) = perGraph (F := F) (W (Proc.devRef .tc main_v43_1)) (W (Proc.devRef .tc main_v16)) := by
  dsimp only [hostOps2]; after_results; rfl

/-- Row 0 of argument 5, as a `1 × 128` row. -/
theorem host2_v50 (W : Valuation τ sig (Elt F)) :
    StableHlo.after hostOps2 W (Proc.devRef .tc main_v50) = paramRow (F := F) ![0, 0] slices_S4x128_S1x128_0_0 (W (Proc.devRef .tc main_arg5)) := by
  dsimp only [hostOps2]; after_results; rfl

/-- Row 0 of argument 6, as a `1 × 128` row. -/
theorem host2_v51 (W : Valuation τ sig (Elt F)) :
    StableHlo.after hostOps2 W (Proc.devRef .tc main_v51) = paramRow (F := F) ![0, 0] slices_S4x128_S1x128_0_0 (W (Proc.devRef .tc main_arg6)) := by
  dsimp only [hostOps2]; after_results; rfl

/-! ## Stretch 3: the 23 operations before launch 3 -/

/-- What stretch 3 does not write it leaves as found. -/
theorem host3_keep (W : Valuation τ sig (Elt F)) {r : Ref sig .tc} (h : r ∉ hostOps3_W) :
    StableHlo.after hostOps3 W (Proc.devRef .tc r) = W (Proc.devRef .tc r) :=
  StableHlo.after_of_writes_sub hostOps3 W hostOps3_writes h

/-- The neighbourhood sums of the rows of `main_v52`, gathered at the ids `main_v1` and added at the ids `main_v3`. -/
theorem host3_v62 (W : Valuation τ sig (Elt F)) :
    StableHlo.after hostOps3 W (Proc.devRef .tc main_v62) = edgeAgg (F := F) (W (Proc.devRef .tc main_v52)) (W (Proc.devRef .tc main_v1)) (W (Proc.devRef .tc main_v3)) := by
  dsimp only [hostOps3]; after_results_simp; rfl

/-- Matrix 1 of argument 1. -/
theorem host3_v64 (W : Valuation τ sig (Elt F)) :
    StableHlo.after hostOps3 W (Proc.devRef .tc main_v64) = paramMat (F := F) ![1, 0, 0] slices_S4x128x128_S1x128x128_1_0_0 (W (Proc.devRef .tc main_arg1)) := by
  dsimp only [hostOps3]; after_results_simp; rfl

/-- Matrix 1 of argument 3. -/
theorem host3_v68 (W : Valuation τ sig (Elt F)) :
    StableHlo.after hostOps3 W (Proc.devRef .tc main_v68) = paramMat (F := F) ![1, 0, 0] slices_S4x128x128_S1x128x128_1_0_0 (W (Proc.devRef .tc main_arg3)) := by
  dsimp only [hostOps3]; after_results_simp; rfl

/-- Row 1 of argument 2, as a `1 × 128` row. -/
theorem host3_v71 (W : Valuation τ sig (Elt F)) :
    StableHlo.after hostOps3 W (Proc.devRef .tc main_v71) = paramRow (F := F) ![1, 0] slices_S4x128_S1x128_1_0 (W (Proc.devRef .tc main_arg2)) := by
  dsimp only [hostOps3]; after_results_simp; rfl

/-- Row 1 of argument 4, as a `1 × 128` row. -/
theorem host3_v72 (W : Valuation τ sig (Elt F)) :
    StableHlo.after hostOps3 W (Proc.devRef .tc main_v72) = paramRow (F := F) ![1, 0] slices_S4x128_S1x128_1_0 (W (Proc.devRef .tc main_arg4)) := by
  dsimp only [hostOps3]; after_results_simp; rfl

/-! ## Stretch 12: the 3 operations before launch 12 -/

/-- What stretch 12 does not write it leaves as found. -/
theorem host12_keep (W : Valuation τ sig (Elt F)) {r : Ref sig .tc} (h : r ∉ hostOps12_W) :
    StableHlo.after hostOps12 W (Proc.devRef .tc r) = W (Proc.devRef .tc r) :=
  StableHlo.after_of_writes_sub hostOps12 W hostOps12_writes h

/-- The 128 entries of argument 9 as a row. -/
theorem host12_v161 (W : Valuation τ sig (Elt F)) :
    StableHlo.after hostOps12 W (Proc.devRef .tc main_v161) = asRow128 (F := F) (W (Proc.devRef .tc main_arg9)) := by
  dsimp only [hostOps12]; after_results; rfl

/-- The 128 entries of argument 11 as a row. -/
theorem host12_v162 (W : Valuation τ sig (Elt F)) :
    StableHlo.after hostOps12 W (Proc.devRef .tc main_v162) = asRow128 (F := F) (W (Proc.devRef .tc main_arg11)) := by
  dsimp only [hostOps12]; after_results; rfl

/-- The 10 entries of argument 13 as a row. -/
theorem host12_v163 (W : Valuation τ sig (Elt F)) :
    StableHlo.after hostOps12 W (Proc.devRef .tc main_v163) = asRow10 (F := F) (W (Proc.devRef .tc main_arg13)) := by
  dsimp only [hostOps12]; after_results; rfl

end Cert.KernelIdeal.Hand
-- ==== Proof.Bridge.lean ====
/- The equality of the two programs' results at the ideal values. The reference's layers and readout are its own terms read as the plain network; the kernel program's are any arrays that read as the same plain network over the kernel's aggregation along the edges. That aggregation is the reference's, term for term, so the results are equal arrays. -/
import proofs.«408428_j10917806867267_1_alg».proof.Proof.BridgeCore
import proofs.«408428_j10917806867267_1_alg».proof.Proof.Consts
import proofs.«408428_j10917806867267_1_alg».proof.Proof.RefLayers
import proofs.«408428_j10917806867267_1_alg».proof.Proof.RefLayer1
import proofs.«408428_j10917806867267_1_alg».proof.Proof.RefLayer2
import proofs.«408428_j10917806867267_1_alg».proof.Proof.RefLayer3
import proofs.«408428_j10917806867267_1_alg».proof.Proof.RefHead
import proofs.«408428_j10917806867267_1_alg».proof.Proof.KI.HostOut

noncomputable section

open scoped BigOperators

namespace Cert.Bridge

open Idealize.ShloMosaic Idealize.ShloMosaic.ValueIdx
open Cert.Spec Cert.Spec2 Cert.Spec3 Cert.BridgeCore

/-! ## The aggregation along the edges -/

/-- The kernel program's aggregation along the edges, as a function of the rows and of the edge list: the sources' ids
    are row 0 of the list, the destinations' row 1. -/
def aggK (x14 : IVec Cert.KernelIdeal.S2x800000 32) (h : FVec Ideal Cert.KernelIdeal.S50000x128 .f32) :
    FVec Ideal Cert.KernelIdeal.S50000x128 .f32 :=
  Cert.KernelIdeal.Hand.edgeAgg (F := Ideal) h
    (Cert.KernelIdeal.Hand.edgeIds (F := Ideal) ![0, 0] Cert.KernelIdeal.Gen.slices_S2x800000_S1x800000_0_0 x14)
    (Cert.KernelIdeal.Hand.edgeIds (F := Ideal) ![1, 0] Cert.KernelIdeal.Gen.slices_S2x800000_S1x800000_1_0 x14)

/-- It is the reference's aggregation: the same operations in the same order over the same dimension numbers. -/
theorem aggK_eq_aggR (x14 : IVec Cert.KernelIdeal.S2x800000 32) (h : FVec Ideal Cert.KernelIdeal.S50000x128 .f32) :
    aggK x14 h = Cert.RefLayers.aggR h x14 := rfl

/-! ## The constants -/

theorem one_pos : 0 < Cert.RefLayers.one := by
  rw [show Cert.RefLayers.one = 1 from Cert.Consts.ofBits_one]
  exact zero_lt_one

theorem eps_pos : 0 < Cert.RefLayers.eps := Cert.Consts.ofBits_eps_pos

/-! ## The results -/

section Results

open Cert.ReferenceIdeal Cert.ReferenceIdeal.Read Cert.RefLayers

variable (x15 : IVec S50000 32)
  (hr : ∀ j : Fin 50000, (x15 (ix1 j)).toNat < 128 ∧ (x15 (ix1 j)).toInt = ((x15 (ix1 j)).toNat : Int))
  (x0 : FVec Ideal S50000x128 .f32) (x1 : FVec Ideal S4x128x128 .f32) (x2 : FVec Ideal S4x128 .f32)
  (x3 : FVec Ideal S4x128x128 .f32) (x4 x5 x6 x7 : FVec Ideal S4x128 .f32)
  (x8 : FVec Ideal S128x128 .f32) (x9 : FVec Ideal S128 .f32) (x10 : FVec Ideal S128x128 .f32)
  (x11 : FVec Ideal S128 .f32) (x12 : FVec Ideal S128x10 .f32) (x13 : FVec Ideal S10 .f32)
  (x14 : IVec S2x800000 32)

/-- Arrays that read as the plain network over the kernel program's aggregation are the reference's result: four
    layers, then the readout. -/
theorem kernel_eq_reference (hK1 hK2 hK3 hK4 : FVec Ideal S50000x128 .f32) (resK : FVec Ideal S128x10 .f32)
    (hk0 : ∀ n d, hK1 (ix2 n d) = layerK (B x15 hr) one eps (fun n j => x0 (ix2 n j)) (fun n j => aggK x14 x0 (ix2 n j))
      (fun j k => x1 (ix3 (0 : Fin 4) j k)) (fun k => x2 (ix2 (0 : Fin 4) k))
      (fun j k => x3 (ix3 (0 : Fin 4) j k)) (fun k => x4 (ix2 (0 : Fin 4) k))
      (fun d => x7 (ix2 (0 : Fin 4) d)) (fun d => x5 (ix2 (0 : Fin 4) d)) (fun d => x6 (ix2 (0 : Fin 4) d)) n d)
    (hk1 : ∀ n d, hK2 (ix2 n d) = layerK (B x15 hr) one eps (fun n j => hK1 (ix2 n j)) (fun n j => aggK x14 hK1 (ix2 n j))
      (fun j k => x1 (ix3 (1 : Fin 4) j k)) (fun k => x2 (ix2 (1 : Fin 4) k))
      (fun j k => x3 (ix3 (1 : Fin 4) j k)) (fun k => x4 (ix2 (1 : Fin 4) k))
      (fun d => x7 (ix2 (1 : Fin 4) d)) (fun d => x5 (ix2 (1 : Fin 4) d)) (fun d => x6 (ix2 (1 : Fin 4) d)) n d)
    (hk2 : ∀ n d, hK3 (ix2 n d) = layerK (B x15 hr) one eps (fun n j => hK2 (ix2 n j)) (fun n j => aggK x14 hK2 (ix2 n j))
      (fun j k => x1 (ix3 (2 : Fin 4) j k)) (fun k => x2 (ix2 (2 : Fin 4) k))
      (fun j k => x3 (ix3 (2 : Fin 4) j k)) (fun k => x4 (ix2 (2 : Fin 4) k))
      (fun d => x7 (ix2 (2 : Fin 4) d)) (fun d => x5 (ix2 (2 : Fin 4) d)) (fun d => x6 (ix2 (2 : Fin 4) d)) n d)
    (hk3 : ∀ n d, hK4 (ix2 n d) = layerK (B x15 hr) one eps (fun n j => hK3 (ix2 n j)) (fun n j => aggK x14 hK3 (ix2 n j))
      (fun j k => x1 (ix3 (3 : Fin 4) j k)) (fun k => x2 (ix2 (3 : Fin 4) k))
      (fun j k => x3 (ix3 (3 : Fin 4) j k)) (fun k => x4 (ix2 (3 : Fin 4) k))
      (fun d => x7 (ix2 (3 : Fin 4) d)) (fun d => x5 (ix2 (3 : Fin 4) d)) (fun d => x6 (ix2 (3 : Fin 4) d)) n d)
    (hkh : ∀ g c, resK (ix2 g c) = head (pooled (B x15 hr) fun n d => hK4 (ix2 n d))
      (fun j k => x8 (ix2 j k)) (fun k => x9 (ix1 k)) (fun j k => x10 (ix2 j k)) (fun k => x11 (ix1 k))
      (fun j c => x12 (ix2 j c)) (fun c => x13 (ix1 c)) g c) :
    resK = val_main_v327 (F := Ideal) x0 x1 x2 x3 x4 x5 x6 x7 x8 x9 x10 x11 x12 x13 x14 x15 :=
  results_eq (B x15 hr) one_pos eps_pos (aggK x14) (fun h => aggR h x14) (aggK_eq_aggR x14)
    x0 hK1 hK2 hK3 hK4
    (val_main_v84 (F := Ideal) x0 x1 x2 x3 x4 x5 x6 x7 x14 x15)
    (val_main_v159 (F := Ideal) x0 x1 x2 x3 x4 x5 x6 x7 x14 x15)
    (val_main_v234 (F := Ideal) x0 x1 x2 x3 x4 x5 x6 x7 x14 x15)
    (val_main_v309 (F := Ideal) x0 x1 x2 x3 x4 x5 x6 x7 x14 x15)
    resK (val_main_v327 (F := Ideal) x0 x1 x2 x3 x4 x5 x6 x7 x8 x9 x10 x11 x12 x13 x14 x15)
    (fun l j k => x1 (ix3 l j k)) (fun l k => x2 (ix2 l k)) (fun l j k => x3 (ix3 l j k)) (fun l k => x4 (ix2 l k))
    (fun l d => x7 (ix2 l d)) (fun l d => x5 (ix2 l d)) (fun l d => x6 (ix2 l d))
    (fun j k => x8 (ix2 j k)) (fun k => x9 (ix1 k)) (fun j k => x10 (ix2 j k)) (fun k => x11 (ix1 k))
    (fun j c => x12 (ix2 j c)) (fun c => x13 (ix1 c))
    hk0 hk1 hk2 hk3 hkh
    (ref_layer0 x15 hr x0 x1 x2 x3 x4 x5 x6 x7 x14)
    (ref_layer1 x15 hr x0 x1 x2 x3 x4 x5 x6 x7 x14)
    (ref_layer2 x15 hr x0 x1 x2 x3 x4 x5 x6 x7 x14)
    (ref_layer3 x15 hr x0 x1 x2 x3 x4 x5 x6 x7 x14)
    (ref_head x15 hr x0 x1 x2 x3 x4 x5 x6 x7 x14 x8 x9 x10 x11 x12 x13)

end Results

end Cert.Bridge
-- ==== Proof.KI.HostOutSib.lean ====
import proofs.«408428_j10917806867267_1_alg».proof.Proof.Gen.KernelIdeal.Launch
import proofs.«408428_j10917806867267_1_alg».proof.Proof.Gen.KernelIdeal.Regions
import Idealize.ShloMosaic.Lib.StableHlo.Run
import proofs.«408428_j10917806867267_1_alg».proof.Proof.KI.HostOut

/-! # The host stretches before launches 4, 5, 6, 7, 8, 9, 10, 11

The same lists of operations as the stretches before launches 1, 2, 3, on other arrays and on another row
of the stacked arrays: for each, the arrays it writes that are read later, as terms over the contents the
list was entered with, and that what it does not write is left as found. -/

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! ## Stretch 4: the 5 operations before launch 4 -/

/-- What stretch 4 does not write it leaves as found. -/
theorem host4_keep (W : Valuation τ sig (Elt F)) {r : Ref sig .tc} (h : r ∉ hostOps4_W) :
    StableHlo.after hostOps4 W (Proc.devRef .tc r) = W (Proc.devRef .tc r) :=
  StableHlo.after_of_writes_sub hostOps4 W hostOps4_writes h

/-- The array `main_v73_1` the launch before left, each row over its entry of the counts column `main_v16`. -/
theorem host4_v75 (W : Valuation τ sig (Elt F)) :
    StableHlo.after hostOps4 W (Proc.devRef .tc main_v75) = perGraph (F := F) (W (Proc.devRef .tc main_v73_1)) (W (Proc.devRef .tc main_v16)) := by
  dsimp only [hostOps4]; after_results; rfl

/-- Row 1 of argument 7, as a `1 × 128` row. -/
theorem host4_v78 (W : Valuation τ sig (Elt F)) :
    StableHlo.after hostOps4 W (Proc.devRef .tc main_v78) = paramRow (F := F) ![1, 0] slices_S4x128_S1x128_1_0 (W (Proc.devRef .tc main_arg7)) := by
  dsimp only [hostOps4]; after_results; rfl

/-! ## Stretch 5: the 8 operations before launch 5 -/

/-- What stretch 5 does not write it leaves as found. -/
theorem host5_keep (W : Valuation τ sig (Elt F)) {r : Ref sig .tc} (h : r ∉ hostOps5_W) :
    StableHlo.after hostOps5 W (Proc.devRef .tc r) = W (Proc.devRef .tc r) :=
  StableHlo.after_of_writes_sub hostOps5 W hostOps5_writes h

/-- The array `main_v79_1` the launch before left, each row over its entry of the counts column `main_v16`. -/
theorem host5_v81 (W : Valuation τ sig (Elt F)) :
    StableHlo.after hostOps5 W (Proc.devRef .tc main_v81) = perGraph (F := F) (W (Proc.devRef .tc main_v79_1)) (W (Proc.devRef .tc main_v16)) := by
  dsimp only [hostOps5]; after_results; rfl

/-- Row 1 of argument 5, as a `1 × 128` row. -/
theorem host5_v86 (W : Valuation τ sig (Elt F)) :
    StableHlo.after hostOps5 W (Proc.devRef .tc main_v86) = paramRow (F := F) ![1, 0] slices_S4x128_S1x128_1_0 (W (Proc.devRef .tc main_arg5)) := by
  dsimp only [hostOps5]; after_results; rfl

/-- Row 1 of argument 6, as a `1 × 128` row. -/
theorem host5_v87 (W : Valuation τ sig (Elt F)) :
    StableHlo.after hostOps5 W (Proc.devRef .tc main_v87) = paramRow (F := F) ![1, 0] slices_S4x128_S1x128_1_0 (W (Proc.devRef .tc main_arg6)) := by
  dsimp only [hostOps5]; after_results; rfl

/-! ## Stretch 6: the 23 operations before launch 6 -/

/-- What stretch 6 does not write it leaves as found. -/
theorem host6_keep (W : Valuation τ sig (Elt F)) {r : Ref sig .tc} (h : r ∉ hostOps6_W) :
    StableHlo.after hostOps6 W (Proc.devRef .tc r) = W (Proc.devRef .tc r) :=
  StableHlo.after_of_writes_sub hostOps6 W hostOps6_writes h

/-- The neighbourhood sums of the rows of `main_v88`, gathered at the ids `main_v1` and added at the ids `main_v3`. -/
theorem host6_v98 (W : Valuation τ sig (Elt F)) :
    StableHlo.after hostOps6 W (Proc.devRef .tc main_v98) = edgeAgg (F := F) (W (Proc.devRef .tc main_v88)) (W (Proc.devRef .tc main_v1)) (W (Proc.devRef .tc main_v3)) := by
  dsimp only [hostOps6]; after_results_simp; rfl

/-- Matrix 2 of argument 1. -/
theorem host6_v100 (W : Valuation τ sig (Elt F)) :
    StableHlo.after hostOps6 W (Proc.devRef .tc main_v100) = paramMat (F := F) ![2, 0, 0] slices_S4x128x128_S1x128x128_2_0_0 (W (Proc.devRef .tc main_arg1)) := by
  dsimp only [hostOps6]; after_results_simp; rfl

/-- Matrix 2 of argument 3. -/
theorem host6_v104 (W : Valuation τ sig (Elt F)) :
    StableHlo.after hostOps6 W (Proc.devRef .tc main_v104) = paramMat (F := F) ![2, 0, 0] slices_S4x128x128_S1x128x128_2_0_0 (W (Proc.devRef .tc main_arg3)) := by
  dsimp only [hostOps6]; after_results_simp; rfl

/-- Row 2 of argument 2, as a `1 × 128` row. -/
theorem host6_v107 (W : Valuation τ sig (Elt F)) :
    StableHlo.after hostOps6 W (Proc.devRef .tc main_v107) = paramRow (F := F) ![2, 0] slices_S4x128_S1x128_2_0 (W (Proc.devRef .tc main_arg2)) := by
  dsimp only [hostOps6]; after_results_simp; rfl

/-- Row 2 of argument 4, as a `1 × 128` row. -/
theorem host6_v108 (W : Valuation τ sig (Elt F)) :
    StableHlo.after hostOps6 W (Proc.devRef .tc main_v108) = paramRow (F := F) ![2, 0] slices_S4x128_S1x128_2_0 (W (Proc.devRef .tc main_arg4)) := by
  dsimp only [hostOps6]; after_results_simp; rfl

/-! ## Stretch 7: the 5 operations before launch 7 -/

/-- What stretch 7 does not write it leaves as found. -/
theorem host7_keep (W : Valuation τ sig (Elt F)) {r : Ref sig .tc} (h : r ∉ hostOps7_W) :
    StableHlo.after hostOps7 W (Proc.devRef .tc r) = W (Proc.devRef .tc r) :=
  StableHlo.after_of_writes_sub hostOps7 W hostOps7_writes h

/-- The array `main_v109_1` the launch before left, each row over its entry of the counts column `main_v16`. -/
theorem host7_v111 (W : Valuation τ sig (Elt F)) :
    StableHlo.after hostOps7 W (Proc.devRef .tc main_v111) = perGraph (F := F) (W (Proc.devRef .tc main_v109_1)) (W (Proc.devRef .tc main_v16)) := by
  dsimp only [hostOps7]; after_results; rfl

/-- Row 2 of argument 7, as a `1 × 128` row. -/
theorem host7_v114 (W : Valuation τ sig (Elt F)) :
    StableHlo.after hostOps7 W (Proc.devRef .tc main_v114) = paramRow (F := F) ![2, 0] slices_S4x128_S1x128_2_0 (W (Proc.devRef .tc main_arg7)) := by
  dsimp only [hostOps7]; after_results; rfl

/-! ## Stretch 8: the 8 operations before launch 8 -/

/-- What stretch 8 does not write it leaves as found. -/
theorem host8_keep (W : Valuation τ sig (Elt F)) {r : Ref sig .tc} (h : r ∉ hostOps8_W) :
    StableHlo.after hostOps8 W (Proc.devRef .tc r) = W (Proc.devRef .tc r) :=
  StableHlo.after_of_writes_sub hostOps8 W hostOps8_writes h

/-- The array `main_v115_1` the launch before left, each row over its entry of the counts column `main_v16`. -/
theorem host8_v117 (W : Valuation τ sig (Elt F)) :
    StableHlo.after hostOps8 W (Proc.devRef .tc main_v117) = perGraph (F := F) (W (Proc.devRef .tc main_v115_1)) (W (Proc.devRef .tc main_v16)) := by
  dsimp only [hostOps8]; after_results; rfl

/-- Row 2 of argument 5, as a `1 × 128` row. -/
theorem host8_v122 (W : Valuation τ sig (Elt F)) :
    StableHlo.after hostOps8 W (Proc.devRef .tc main_v122) = paramRow (F := F) ![2, 0] slices_S4x128_S1x128_2_0 (W (Proc.devRef .tc main_arg5)) := by
  dsimp only [hostOps8]; after_results; rfl

/-- Row 2 of argument 6, as a `1 × 128` row. -/
theorem host8_v123 (W : Valuation τ sig (Elt F)) :
    StableHlo.after hostOps8 W (Proc.devRef .tc main_v123) = paramRow (F := F) ![2, 0] slices_S4x128_S1x128_2_0 (W (Proc.devRef .tc main_arg6)) := by
  dsimp only [hostOps8]; after_results; rfl

/-! ## Stretch 9: the 23 operations before launch 9 -/

/-- What stretch 9 does not write it leaves as found. -/
theorem host9_keep (W : Valuation τ sig (Elt F)) {r : Ref sig .tc} (h : r ∉ hostOps9_W) :
    StableHlo.after hostOps9 W (Proc.devRef .tc r) = W (Proc.devRef .tc r) :=
  StableHlo.after_of_writes_sub hostOps9 W hostOps9_writes h

/-- The neighbourhood sums of the rows of `main_v124`, gathered at the ids `main_v1` and added at the ids `main_v3`. -/
theorem host9_v134 (W : Valuation τ sig (Elt F)) :
    StableHlo.after hostOps9 W (Proc.devRef .tc main_v134) = edgeAgg (F := F) (W (Proc.devRef .tc main_v124)) (W (Proc.devRef .tc main_v1)) (W (Proc.devRef .tc main_v3)) := by
  dsimp only [hostOps9]; after_results_simp; rfl

/-- Matrix 3 of argument 1. -/
theorem host9_v136 (W : Valuation τ sig (Elt F)) :
    StableHlo.after hostOps9 W (Proc.devRef .tc main_v136) = paramMat (F := F) ![3, 0, 0] slices_S4x128x128_S1x128x128_3_0_0 (W (Proc.devRef .tc main_arg1)) := by
  dsimp only [hostOps9]; after_results_simp; rfl

/-- Matrix 3 of argument 3. -/
theorem host9_v140 (W : Valuation τ sig (Elt F)) :
    StableHlo.after hostOps9 W (Proc.devRef .tc main_v140) = paramMat (F := F) ![3, 0, 0] slices_S4x128x128_S1x128x128_3_0_0 (W (Proc.devRef .tc main_arg3)) := by
  dsimp only [hostOps9]; after_results_simp; rfl

/-- Row 3 of argument 2, as a `1 × 128` row. -/
theorem host9_v143 (W : Valuation τ sig (Elt F)) :
    StableHlo.after hostOps9 W (Proc.devRef .tc main_v143) = paramRow (F := F) ![3, 0] slices_S4x128_S1x128_3_0 (W (Proc.devRef .tc main_arg2)) := by
  dsimp only [hostOps9]; after_results_simp; rfl

/-- Row 3 of argument 4, as a `1 × 128` row. -/
theorem host9_v144 (W : Valuation τ sig (Elt F)) :
    StableHlo.after hostOps9 W (Proc.devRef .tc main_v144) = paramRow (F := F) ![3, 0] slices_S4x128_S1x128_3_0 (W (Proc.devRef .tc main_arg4)) := by
  dsimp only [hostOps9]; after_results_simp; rfl

/-! ## Stretch 10: the 5 operations before launch 10 -/

/-- What stretch 10 does not write it leaves as found. -/
theorem host10_keep (W : Valuation τ sig (Elt F)) {r : Ref sig .tc} (h : r ∉ hostOps10_W) :
    StableHlo.after hostOps10 W (Proc.devRef .tc r) = W (Proc.devRef .tc r) :=
  StableHlo.after_of_writes_sub hostOps10 W hostOps10_writes h

/-- The array `main_v145_1` the launch before left, each row over its entry of the counts column `main_v16`. -/
theorem host10_v147 (W : Valuation τ sig (Elt F)) :
    StableHlo.after hostOps10 W (Proc.devRef .tc main_v147) = perGraph (F := F) (W (Proc.devRef .tc main_v145_1)) (W (Proc.devRef .tc main_v16)) := by
  dsimp only [hostOps10]; after_results; rfl

/-- Row 3 of argument 7, as a `1 × 128` row. -/
theorem host10_v150 (W : Valuation τ sig (Elt F)) :
    StableHlo.after hostOps10 W (Proc.devRef .tc main_v150) = paramRow (F := F) ![3, 0] slices_S4x128_S1x128_3_0 (W (Proc.devRef .tc main_arg7)) := by
  dsimp only [hostOps10]; after_results; rfl

/-! ## Stretch 11: the 8 operations before launch 11 -/

/-- What stretch 11 does not write it leaves as found. -/
theorem host11_keep (W : Valuation τ sig (Elt F)) {r : Ref sig .tc} (h : r ∉ hostOps11_W) :
    StableHlo.after hostOps11 W (Proc.devRef .tc r) = W (Proc.devRef .tc r) :=
  StableHlo.after_of_writes_sub hostOps11 W hostOps11_writes h

/-- The array `main_v151_1` the launch before left, each row over its entry of the counts column `main_v16`. -/
theorem host11_v153 (W : Valuation τ sig (Elt F)) :
    StableHlo.after hostOps11 W (Proc.devRef .tc main_v153) = perGraph (F := F) (W (Proc.devRef .tc main_v151_1)) (W (Proc.devRef .tc main_v16)) := by
  dsimp only [hostOps11]; after_results; rfl

/-- Row 3 of argument 5, as a `1 × 128` row. -/
theorem host11_v158 (W : Valuation τ sig (Elt F)) :
    StableHlo.after hostOps11 W (Proc.devRef .tc main_v158) = paramRow (F := F) ![3, 0] slices_S4x128_S1x128_3_0 (W (Proc.devRef .tc main_arg5)) := by
  dsimp only [hostOps11]; after_results; rfl

/-- Row 3 of argument 6, as a `1 × 128` row. -/
theorem host11_v159 (W : Valuation τ sig (Elt F)) :
    StableHlo.after hostOps11 W (Proc.devRef .tc main_v159) = paramRow (F := F) ![3, 0] slices_S4x128_S1x128_3_0 (W (Proc.devRef .tc main_arg6)) := by
  dsimp only [hostOps11]; after_results; rfl

end Cert.KernelIdeal.Hand
-- ==== Proof.KI.Walks.lean ====
import proofs.«408428_j10917806867267_1_alg».proof.Proof.KI.Run
import proofs.«408428_j10917806867267_1_alg».proof.Proof.KI.HostOut
import proofs.«408428_j10917806867267_1_alg».proof.Proof.KI.HostOutSib

/-! # Every region's entry arrays, followed back to where they were written

A buffer that nothing writes between two boundaries is the same at both: a host stretch leaves what is not among the
references it writes, a region leaves what is no window's array and leaves an input window's array as entered. So a
buffer read at a region's entry is followed back, boundary by boundary, to the host stretch or the region that wrote it
or to the launch memory. The buffers that many regions read (the membership matrix, the counts, the two rows of the edge
list, the stacked parameters) are followed once, one step per boundary; then each window's array at each region's entry
is stated as a term over the launch memory and the arrays the regions before it left. Everything holds at any float
model. -/

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

variable (m : (ℓ : Loc nD τ sig) → Buf (Elt F) ℓ)

/-! ## The shared buffers as terms over the launch memory -/

/-- The membership matrix of the graph ids the program was launched with. -/
abbrev memb (c : Dev nD) : Vec F S50000x128 .bf16 := oneHot (F := F) (m ((c : Thread nD τ).loc main_arg15))
/-- The per-graph counts column of those ids. -/
abbrev counts (c : Dev nD) : Vec F S128x1 .f32 := countsCol (F := F) (m ((c : Thread nD τ).loc main_arg15))
/-- The edges' source ids. -/
abbrev srcIds (c : Dev nD) : Vec F S800000 .i32 :=
  edgeIds (F := F) ![0, 0] slices_S2x800000_S1x800000_0_0 (m ((c : Thread nD τ).loc main_arg14))
/-- The edges' destination ids. -/
abbrev dstIds (c : Dev nD) : Vec F S800000 .i32 :=
  edgeIds (F := F) ![1, 0] slices_S2x800000_S1x800000_1_0 (m ((c : Thread nD τ).loc main_arg14))

/-! ## The shared buffers at every boundary that reads them -/

theorem keepWh0_main_v10 (c : Dev nD) : Wh0 m c (Proc.devRef .tc main_v10) = memb m c := host0_v10 (Wl m c)
theorem keepWr0_main_v10 (c : Dev nD) : Wr0 m c (Proc.devRef .tc main_v10) = memb m c := ((Wr0_arr m c 2).trans (((dat0 (Vh0 m) c).arrAt_in 2 rfl _).trans (A_eq0 (Vh0 m) c 2))).trans (keepWh0_main_v10 m c)
theorem keepWh1_main_v10 (c : Dev nD) : Wh1 m c (Proc.devRef .tc main_v10) = memb m c := (Wh1_of m c main_v10 (by decide)).trans (keepWr0_main_v10 m c)
theorem keepWr1_main_v10 (c : Dev nD) : Wr1 m c (Proc.devRef .tc main_v10) = memb m c := ((Wr1_arr m c 1).trans (((dat1 (Vh1 m) c).arrAt_in 1 rfl _).trans (A_eq1 (Vh1 m) c 1))).trans (keepWh1_main_v10 m c)
theorem keepWh2_main_v10 (c : Dev nD) : Wh2 m c (Proc.devRef .tc main_v10) = memb m c := (Wh2_of m c main_v10 (by decide)).trans (keepWr1_main_v10 m c)
theorem keepWr2_main_v10 (c : Dev nD) : Wr2 m c (Proc.devRef .tc main_v10) = memb m c := ((Wr2_arr m c 1).trans (((dat2 (Vh2 m) c).arrAt_in 1 rfl _).trans (A_eq2 (Vh2 m) c 1))).trans (keepWh2_main_v10 m c)
theorem keepWh3_main_v10 (c : Dev nD) : Wh3 m c (Proc.devRef .tc main_v10) = memb m c := (Wh3_of m c main_v10 (by decide)).trans (keepWr2_main_v10 m c)
theorem keepWr3_main_v10 (c : Dev nD) : Wr3 m c (Proc.devRef .tc main_v10) = memb m c := ((Wr3_arr m c 2).trans (((dat3 (Vh3 m) c).arrAt_in 2 rfl _).trans (A_eq3 (Vh3 m) c 2))).trans (keepWh3_main_v10 m c)
theorem keepWh4_main_v10 (c : Dev nD) : Wh4 m c (Proc.devRef .tc main_v10) = memb m c := (Wh4_of m c main_v10 (by decide)).trans (keepWr3_main_v10 m c)
theorem keepWr4_main_v10 (c : Dev nD) : Wr4 m c (Proc.devRef .tc main_v10) = memb m c := ((Wr4_arr m c 1).trans (((dat4 (Vh4 m) c).arrAt_in 1 rfl _).trans (A_eq4 (Vh4 m) c 1))).trans (keepWh4_main_v10 m c)
theorem keepWh5_main_v10 (c : Dev nD) : Wh5 m c (Proc.devRef .tc main_v10) = memb m c := (Wh5_of m c main_v10 (by decide)).trans (keepWr4_main_v10 m c)
theorem keepWr5_main_v10 (c : Dev nD) : Wr5 m c (Proc.devRef .tc main_v10) = memb m c := ((Wr5_arr m c 1).trans (((dat5 (Vh5 m) c).arrAt_in 1 rfl _).trans (A_eq5 (Vh5 m) c 1))).trans (keepWh5_main_v10 m c)
theorem keepWh6_main_v10 (c : Dev nD) : Wh6 m c (Proc.devRef .tc main_v10) = memb m c := (Wh6_of m c main_v10 (by decide)).trans (keepWr5_main_v10 m c)
theorem keepWr6_main_v10 (c : Dev nD) : Wr6 m c (Proc.devRef .tc main_v10) = memb m c := ((Wr6_arr m c 2).trans (((dat6 (Vh6 m) c).arrAt_in 2 rfl _).trans (A_eq6 (Vh6 m) c 2))).trans (keepWh6_main_v10 m c)
theorem keepWh7_main_v10 (c : Dev nD) : Wh7 m c (Proc.devRef .tc main_v10) = memb m c := (Wh7_of m c main_v10 (by decide)).trans (keepWr6_main_v10 m c)
theorem keepWr7_main_v10 (c : Dev nD) : Wr7 m c (Proc.devRef .tc main_v10) = memb m c := ((Wr7_arr m c 1).trans (((dat7 (Vh7 m) c).arrAt_in 1 rfl _).trans (A_eq7 (Vh7 m) c 1))).trans (keepWh7_main_v10 m c)
theorem keepWh8_main_v10 (c : Dev nD) : Wh8 m c (Proc.devRef .tc main_v10) = memb m c := (Wh8_of m c main_v10 (by decide)).trans (keepWr7_main_v10 m c)
theorem keepWr8_main_v10 (c : Dev nD) : Wr8 m c (Proc.devRef .tc main_v10) = memb m c := ((Wr8_arr m c 1).trans (((dat8 (Vh8 m) c).arrAt_in 1 rfl _).trans (A_eq8 (Vh8 m) c 1))).trans (keepWh8_main_v10 m c)
theorem keepWh9_main_v10 (c : Dev nD) : Wh9 m c (Proc.devRef .tc main_v10) = memb m c := (Wh9_of m c main_v10 (by decide)).trans (keepWr8_main_v10 m c)
theorem keepWr9_main_v10 (c : Dev nD) : Wr9 m c (Proc.devRef .tc main_v10) = memb m c := ((Wr9_arr m c 2).trans (((dat9 (Vh9 m) c).arrAt_in 2 rfl _).trans (A_eq9 (Vh9 m) c 2))).trans (keepWh9_main_v10 m c)
theorem keepWh10_main_v10 (c : Dev nD) : Wh10 m c (Proc.devRef .tc main_v10) = memb m c := (Wh10_of m c main_v10 (by decide)).trans (keepWr9_main_v10 m c)
theorem keepWr10_main_v10 (c : Dev nD) : Wr10 m c (Proc.devRef .tc main_v10) = memb m c := ((Wr10_arr m c 1).trans (((dat10 (Vh10 m) c).arrAt_in 1 rfl _).trans (A_eq10 (Vh10 m) c 1))).trans (keepWh10_main_v10 m c)
theorem keepWh11_main_v10 (c : Dev nD) : Wh11 m c (Proc.devRef .tc main_v10) = memb m c := (Wh11_of m c main_v10 (by decide)).trans (keepWr10_main_v10 m c)
theorem keepWr11_main_v10 (c : Dev nD) : Wr11 m c (Proc.devRef .tc main_v10) = memb m c := ((Wr11_arr m c 1).trans (((dat11 (Vh11 m) c).arrAt_in 1 rfl _).trans (A_eq11 (Vh11 m) c 1))).trans (keepWh11_main_v10 m c)
theorem keepWh12_main_v10 (c : Dev nD) : Wh12 m c (Proc.devRef .tc main_v10) = memb m c := (Wh12_of m c main_v10 (by decide)).trans (keepWr11_main_v10 m c)

theorem keepWh0_main_v16 (c : Dev nD) : Wh0 m c (Proc.devRef .tc main_v16) = counts m c := host0_v16 (Wl m c)
theorem keepWr0_main_v16 (c : Dev nD) : Wr0 m c (Proc.devRef .tc main_v16) = counts m c := (Wr0_of_ne m c main_v16 (by decide)).trans (keepWh0_main_v16 m c)
theorem keepWh1_main_v16 (c : Dev nD) : Wh1 m c (Proc.devRef .tc main_v16) = counts m c := (Wh1_of m c main_v16 (by decide)).trans (keepWr0_main_v16 m c)
theorem keepWr1_main_v16 (c : Dev nD) : Wr1 m c (Proc.devRef .tc main_v16) = counts m c := (Wr1_of_ne m c main_v16 (by decide)).trans (keepWh1_main_v16 m c)
theorem keepWh2_main_v16 (c : Dev nD) : Wh2 m c (Proc.devRef .tc main_v16) = counts m c := (Wh2_of m c main_v16 (by decide)).trans (keepWr1_main_v16 m c)
theorem keepWr2_main_v16 (c : Dev nD) : Wr2 m c (Proc.devRef .tc main_v16) = counts m c := (Wr2_of_ne m c main_v16 (by decide)).trans (keepWh2_main_v16 m c)
theorem keepWh3_main_v16 (c : Dev nD) : Wh3 m c (Proc.devRef .tc main_v16) = counts m c := (Wh3_of m c main_v16 (by decide)).trans (keepWr2_main_v16 m c)
theorem keepWr3_main_v16 (c : Dev nD) : Wr3 m c (Proc.devRef .tc main_v16) = counts m c := (Wr3_of_ne m c main_v16 (by decide)).trans (keepWh3_main_v16 m c)
theorem keepWh4_main_v16 (c : Dev nD) : Wh4 m c (Proc.devRef .tc main_v16) = counts m c := (Wh4_of m c main_v16 (by decide)).trans (keepWr3_main_v16 m c)
theorem keepWr4_main_v16 (c : Dev nD) : Wr4 m c (Proc.devRef .tc main_v16) = counts m c := (Wr4_of_ne m c main_v16 (by decide)).trans (keepWh4_main_v16 m c)
theorem keepWh5_main_v16 (c : Dev nD) : Wh5 m c (Proc.devRef .tc main_v16) = counts m c := (Wh5_of m c main_v16 (by decide)).trans (keepWr4_main_v16 m c)
theorem keepWr5_main_v16 (c : Dev nD) : Wr5 m c (Proc.devRef .tc main_v16) = counts m c := (Wr5_of_ne m c main_v16 (by decide)).trans (keepWh5_main_v16 m c)
theorem keepWh6_main_v16 (c : Dev nD) : Wh6 m c (Proc.devRef .tc main_v16) = counts m c := (Wh6_of m c main_v16 (by decide)).trans (keepWr5_main_v16 m c)
theorem keepWr6_main_v16 (c : Dev nD) : Wr6 m c (Proc.devRef .tc main_v16) = counts m c := (Wr6_of_ne m c main_v16 (by decide)).trans (keepWh6_main_v16 m c)
theorem keepWh7_main_v16 (c : Dev nD) : Wh7 m c (Proc.devRef .tc main_v16) = counts m c := (Wh7_of m c main_v16 (by decide)).trans (keepWr6_main_v16 m c)
theorem keepWr7_main_v16 (c : Dev nD) : Wr7 m c (Proc.devRef .tc main_v16) = counts m c := (Wr7_of_ne m c main_v16 (by decide)).trans (keepWh7_main_v16 m c)
theorem keepWh8_main_v16 (c : Dev nD) : Wh8 m c (Proc.devRef .tc main_v16) = counts m c := (Wh8_of m c main_v16 (by decide)).trans (keepWr7_main_v16 m c)
theorem keepWr8_main_v16 (c : Dev nD) : Wr8 m c (Proc.devRef .tc main_v16) = counts m c := (Wr8_of_ne m c main_v16 (by decide)).trans (keepWh8_main_v16 m c)
theorem keepWh9_main_v16 (c : Dev nD) : Wh9 m c (Proc.devRef .tc main_v16) = counts m c := (Wh9_of m c main_v16 (by decide)).trans (keepWr8_main_v16 m c)
theorem keepWr9_main_v16 (c : Dev nD) : Wr9 m c (Proc.devRef .tc main_v16) = counts m c := (Wr9_of_ne m c main_v16 (by decide)).trans (keepWh9_main_v16 m c)
theorem keepWh10_main_v16 (c : Dev nD) : Wh10 m c (Proc.devRef .tc main_v16) = counts m c := (Wh10_of m c main_v16 (by decide)).trans (keepWr9_main_v16 m c)
theorem keepWr10_main_v16 (c : Dev nD) : Wr10 m c (Proc.devRef .tc main_v16) = counts m c := (Wr10_of_ne m c main_v16 (by decide)).trans (keepWh10_main_v16 m c)

theorem keepWh0_main_v1 (c : Dev nD) : Wh0 m c (Proc.devRef .tc main_v1) = srcIds m c := host0_v1 (Wl m c)
theorem keepWr0_main_v1 (c : Dev nD) : Wr0 m c (Proc.devRef .tc main_v1) = srcIds m c := (Wr0_of_ne m c main_v1 (by decide)).trans (keepWh0_main_v1 m c)
theorem keepWh1_main_v1 (c : Dev nD) : Wh1 m c (Proc.devRef .tc main_v1) = srcIds m c := (Wh1_of m c main_v1 (by decide)).trans (keepWr0_main_v1 m c)
theorem keepWr1_main_v1 (c : Dev nD) : Wr1 m c (Proc.devRef .tc main_v1) = srcIds m c := (Wr1_of_ne m c main_v1 (by decide)).trans (keepWh1_main_v1 m c)
theorem keepWh2_main_v1 (c : Dev nD) : Wh2 m c (Proc.devRef .tc main_v1) = srcIds m c := (Wh2_of m c main_v1 (by decide)).trans (keepWr1_main_v1 m c)
theorem keepWr2_main_v1 (c : Dev nD) : Wr2 m c (Proc.devRef .tc main_v1) = srcIds m c := (Wr2_of_ne m c main_v1 (by decide)).trans (keepWh2_main_v1 m c)
theorem keepWh3_main_v1 (c : Dev nD) : Wh3 m c (Proc.devRef .tc main_v1) = srcIds m c := (Wh3_of m c main_v1 (by decide)).trans (keepWr2_main_v1 m c)
theorem keepWr3_main_v1 (c : Dev nD) : Wr3 m c (Proc.devRef .tc main_v1) = srcIds m c := (Wr3_of_ne m c main_v1 (by decide)).trans (keepWh3_main_v1 m c)
theorem keepWh4_main_v1 (c : Dev nD) : Wh4 m c (Proc.devRef .tc main_v1) = srcIds m c := (Wh4_of m c main_v1 (by decide)).trans (keepWr3_main_v1 m c)
theorem keepWr4_main_v1 (c : Dev nD) : Wr4 m c (Proc.devRef .tc main_v1) = srcIds m c := (Wr4_of_ne m c main_v1 (by decide)).trans (keepWh4_main_v1 m c)
theorem keepWh5_main_v1 (c : Dev nD) : Wh5 m c (Proc.devRef .tc main_v1) = srcIds m c := (Wh5_of m c main_v1 (by decide)).trans (keepWr4_main_v1 m c)
theorem keepWr5_main_v1 (c : Dev nD) : Wr5 m c (Proc.devRef .tc main_v1) = srcIds m c := (Wr5_of_ne m c main_v1 (by decide)).trans (keepWh5_main_v1 m c)
theorem keepWh6_main_v1 (c : Dev nD) : Wh6 m c (Proc.devRef .tc main_v1) = srcIds m c := (Wh6_of m c main_v1 (by decide)).trans (keepWr5_main_v1 m c)
theorem keepWr6_main_v1 (c : Dev nD) : Wr6 m c (Proc.devRef .tc main_v1) = srcIds m c := (Wr6_of_ne m c main_v1 (by decide)).trans (keepWh6_main_v1 m c)
theorem keepWh7_main_v1 (c : Dev nD) : Wh7 m c (Proc.devRef .tc main_v1) = srcIds m c := (Wh7_of m c main_v1 (by decide)).trans (keepWr6_main_v1 m c)
theorem keepWr7_main_v1 (c : Dev nD) : Wr7 m c (Proc.devRef .tc main_v1) = srcIds m c := (Wr7_of_ne m c main_v1 (by decide)).trans (keepWh7_main_v1 m c)
theorem keepWh8_main_v1 (c : Dev nD) : Wh8 m c (Proc.devRef .tc main_v1) = srcIds m c := (Wh8_of m c main_v1 (by decide)).trans (keepWr7_main_v1 m c)
theorem keepWr8_main_v1 (c : Dev nD) : Wr8 m c (Proc.devRef .tc main_v1) = srcIds m c := (Wr8_of_ne m c main_v1 (by decide)).trans (keepWh8_main_v1 m c)

theorem keepWh0_main_v3 (c : Dev nD) : Wh0 m c (Proc.devRef .tc main_v3) = dstIds m c := host0_v3 (Wl m c)
theorem keepWr0_main_v3 (c : Dev nD) : Wr0 m c (Proc.devRef .tc main_v3) = dstIds m c := (Wr0_of_ne m c main_v3 (by decide)).trans (keepWh0_main_v3 m c)
theorem keepWh1_main_v3 (c : Dev nD) : Wh1 m c (Proc.devRef .tc main_v3) = dstIds m c := (Wh1_of m c main_v3 (by decide)).trans (keepWr0_main_v3 m c)
theorem keepWr1_main_v3 (c : Dev nD) : Wr1 m c (Proc.devRef .tc main_v3) = dstIds m c := (Wr1_of_ne m c main_v3 (by decide)).trans (keepWh1_main_v3 m c)
theorem keepWh2_main_v3 (c : Dev nD) : Wh2 m c (Proc.devRef .tc main_v3) = dstIds m c := (Wh2_of m c main_v3 (by decide)).trans (keepWr1_main_v3 m c)
theorem keepWr2_main_v3 (c : Dev nD) : Wr2 m c (Proc.devRef .tc main_v3) = dstIds m c := (Wr2_of_ne m c main_v3 (by decide)).trans (keepWh2_main_v3 m c)
theorem keepWh3_main_v3 (c : Dev nD) : Wh3 m c (Proc.devRef .tc main_v3) = dstIds m c := (Wh3_of m c main_v3 (by decide)).trans (keepWr2_main_v3 m c)
theorem keepWr3_main_v3 (c : Dev nD) : Wr3 m c (Proc.devRef .tc main_v3) = dstIds m c := (Wr3_of_ne m c main_v3 (by decide)).trans (keepWh3_main_v3 m c)
theorem keepWh4_main_v3 (c : Dev nD) : Wh4 m c (Proc.devRef .tc main_v3) = dstIds m c := (Wh4_of m c main_v3 (by decide)).trans (keepWr3_main_v3 m c)
theorem keepWr4_main_v3 (c : Dev nD) : Wr4 m c (Proc.devRef .tc main_v3) = dstIds m c := (Wr4_of_ne m c main_v3 (by decide)).trans (keepWh4_main_v3 m c)
theorem keepWh5_main_v3 (c : Dev nD) : Wh5 m c (Proc.devRef .tc main_v3) = dstIds m c := (Wh5_of m c main_v3 (by decide)).trans (keepWr4_main_v3 m c)
theorem keepWr5_main_v3 (c : Dev nD) : Wr5 m c (Proc.devRef .tc main_v3) = dstIds m c := (Wr5_of_ne m c main_v3 (by decide)).trans (keepWh5_main_v3 m c)
theorem keepWh6_main_v3 (c : Dev nD) : Wh6 m c (Proc.devRef .tc main_v3) = dstIds m c := (Wh6_of m c main_v3 (by decide)).trans (keepWr5_main_v3 m c)
theorem keepWr6_main_v3 (c : Dev nD) : Wr6 m c (Proc.devRef .tc main_v3) = dstIds m c := (Wr6_of_ne m c main_v3 (by decide)).trans (keepWh6_main_v3 m c)
theorem keepWh7_main_v3 (c : Dev nD) : Wh7 m c (Proc.devRef .tc main_v3) = dstIds m c := (Wh7_of m c main_v3 (by decide)).trans (keepWr6_main_v3 m c)
theorem keepWr7_main_v3 (c : Dev nD) : Wr7 m c (Proc.devRef .tc main_v3) = dstIds m c := (Wr7_of_ne m c main_v3 (by decide)).trans (keepWh7_main_v3 m c)
theorem keepWh8_main_v3 (c : Dev nD) : Wh8 m c (Proc.devRef .tc main_v3) = dstIds m c := (Wh8_of m c main_v3 (by decide)).trans (keepWr7_main_v3 m c)
theorem keepWr8_main_v3 (c : Dev nD) : Wr8 m c (Proc.devRef .tc main_v3) = dstIds m c := (Wr8_of_ne m c main_v3 (by decide)).trans (keepWh8_main_v3 m c)

theorem keepWh0_main_arg1 (c : Dev nD) : Wh0 m c (Proc.devRef .tc main_arg1) = m ((c : Thread nD τ).loc main_arg1) := (Wh0_of m c main_arg1 (by decide)).trans rfl
theorem keepWr0_main_arg1 (c : Dev nD) : Wr0 m c (Proc.devRef .tc main_arg1) = m ((c : Thread nD τ).loc main_arg1) := (Wr0_of_ne m c main_arg1 (by decide)).trans (keepWh0_main_arg1 m c)
theorem keepWh1_main_arg1 (c : Dev nD) : Wh1 m c (Proc.devRef .tc main_arg1) = m ((c : Thread nD τ).loc main_arg1) := (Wh1_of m c main_arg1 (by decide)).trans (keepWr0_main_arg1 m c)
theorem keepWr1_main_arg1 (c : Dev nD) : Wr1 m c (Proc.devRef .tc main_arg1) = m ((c : Thread nD τ).loc main_arg1) := (Wr1_of_ne m c main_arg1 (by decide)).trans (keepWh1_main_arg1 m c)
theorem keepWh2_main_arg1 (c : Dev nD) : Wh2 m c (Proc.devRef .tc main_arg1) = m ((c : Thread nD τ).loc main_arg1) := (Wh2_of m c main_arg1 (by decide)).trans (keepWr1_main_arg1 m c)
theorem keepWr2_main_arg1 (c : Dev nD) : Wr2 m c (Proc.devRef .tc main_arg1) = m ((c : Thread nD τ).loc main_arg1) := (Wr2_of_ne m c main_arg1 (by decide)).trans (keepWh2_main_arg1 m c)
theorem keepWh3_main_arg1 (c : Dev nD) : Wh3 m c (Proc.devRef .tc main_arg1) = m ((c : Thread nD τ).loc main_arg1) := (Wh3_of m c main_arg1 (by decide)).trans (keepWr2_main_arg1 m c)
theorem keepWr3_main_arg1 (c : Dev nD) : Wr3 m c (Proc.devRef .tc main_arg1) = m ((c : Thread nD τ).loc main_arg1) := (Wr3_of_ne m c main_arg1 (by decide)).trans (keepWh3_main_arg1 m c)
theorem keepWh4_main_arg1 (c : Dev nD) : Wh4 m c (Proc.devRef .tc main_arg1) = m ((c : Thread nD τ).loc main_arg1) := (Wh4_of m c main_arg1 (by decide)).trans (keepWr3_main_arg1 m c)
theorem keepWr4_main_arg1 (c : Dev nD) : Wr4 m c (Proc.devRef .tc main_arg1) = m ((c : Thread nD τ).loc main_arg1) := (Wr4_of_ne m c main_arg1 (by decide)).trans (keepWh4_main_arg1 m c)
theorem keepWh5_main_arg1 (c : Dev nD) : Wh5 m c (Proc.devRef .tc main_arg1) = m ((c : Thread nD τ).loc main_arg1) := (Wh5_of m c main_arg1 (by decide)).trans (keepWr4_main_arg1 m c)
theorem keepWr5_main_arg1 (c : Dev nD) : Wr5 m c (Proc.devRef .tc main_arg1) = m ((c : Thread nD τ).loc main_arg1) := (Wr5_of_ne m c main_arg1 (by decide)).trans (keepWh5_main_arg1 m c)
theorem keepWh6_main_arg1 (c : Dev nD) : Wh6 m c (Proc.devRef .tc main_arg1) = m ((c : Thread nD τ).loc main_arg1) := (Wh6_of m c main_arg1 (by decide)).trans (keepWr5_main_arg1 m c)
theorem keepWr6_main_arg1 (c : Dev nD) : Wr6 m c (Proc.devRef .tc main_arg1) = m ((c : Thread nD τ).loc main_arg1) := (Wr6_of_ne m c main_arg1 (by decide)).trans (keepWh6_main_arg1 m c)
theorem keepWh7_main_arg1 (c : Dev nD) : Wh7 m c (Proc.devRef .tc main_arg1) = m ((c : Thread nD τ).loc main_arg1) := (Wh7_of m c main_arg1 (by decide)).trans (keepWr6_main_arg1 m c)
theorem keepWr7_main_arg1 (c : Dev nD) : Wr7 m c (Proc.devRef .tc main_arg1) = m ((c : Thread nD τ).loc main_arg1) := (Wr7_of_ne m c main_arg1 (by decide)).trans (keepWh7_main_arg1 m c)
theorem keepWh8_main_arg1 (c : Dev nD) : Wh8 m c (Proc.devRef .tc main_arg1) = m ((c : Thread nD τ).loc main_arg1) := (Wh8_of m c main_arg1 (by decide)).trans (keepWr7_main_arg1 m c)
theorem keepWr8_main_arg1 (c : Dev nD) : Wr8 m c (Proc.devRef .tc main_arg1) = m ((c : Thread nD τ).loc main_arg1) := (Wr8_of_ne m c main_arg1 (by decide)).trans (keepWh8_main_arg1 m c)

theorem keepWh0_main_arg2 (c : Dev nD) : Wh0 m c (Proc.devRef .tc main_arg2) = m ((c : Thread nD τ).loc main_arg2) := (Wh0_of m c main_arg2 (by decide)).trans rfl
theorem keepWr0_main_arg2 (c : Dev nD) : Wr0 m c (Proc.devRef .tc main_arg2) = m ((c : Thread nD τ).loc main_arg2) := (Wr0_of_ne m c main_arg2 (by decide)).trans (keepWh0_main_arg2 m c)
theorem keepWh1_main_arg2 (c : Dev nD) : Wh1 m c (Proc.devRef .tc main_arg2) = m ((c : Thread nD τ).loc main_arg2) := (Wh1_of m c main_arg2 (by decide)).trans (keepWr0_main_arg2 m c)
theorem keepWr1_main_arg2 (c : Dev nD) : Wr1 m c (Proc.devRef .tc main_arg2) = m ((c : Thread nD τ).loc main_arg2) := (Wr1_of_ne m c main_arg2 (by decide)).trans (keepWh1_main_arg2 m c)
theorem keepWh2_main_arg2 (c : Dev nD) : Wh2 m c (Proc.devRef .tc main_arg2) = m ((c : Thread nD τ).loc main_arg2) := (Wh2_of m c main_arg2 (by decide)).trans (keepWr1_main_arg2 m c)
theorem keepWr2_main_arg2 (c : Dev nD) : Wr2 m c (Proc.devRef .tc main_arg2) = m ((c : Thread nD τ).loc main_arg2) := (Wr2_of_ne m c main_arg2 (by decide)).trans (keepWh2_main_arg2 m c)
theorem keepWh3_main_arg2 (c : Dev nD) : Wh3 m c (Proc.devRef .tc main_arg2) = m ((c : Thread nD τ).loc main_arg2) := (Wh3_of m c main_arg2 (by decide)).trans (keepWr2_main_arg2 m c)
theorem keepWr3_main_arg2 (c : Dev nD) : Wr3 m c (Proc.devRef .tc main_arg2) = m ((c : Thread nD τ).loc main_arg2) := (Wr3_of_ne m c main_arg2 (by decide)).trans (keepWh3_main_arg2 m c)
theorem keepWh4_main_arg2 (c : Dev nD) : Wh4 m c (Proc.devRef .tc main_arg2) = m ((c : Thread nD τ).loc main_arg2) := (Wh4_of m c main_arg2 (by decide)).trans (keepWr3_main_arg2 m c)
theorem keepWr4_main_arg2 (c : Dev nD) : Wr4 m c (Proc.devRef .tc main_arg2) = m ((c : Thread nD τ).loc main_arg2) := (Wr4_of_ne m c main_arg2 (by decide)).trans (keepWh4_main_arg2 m c)
theorem keepWh5_main_arg2 (c : Dev nD) : Wh5 m c (Proc.devRef .tc main_arg2) = m ((c : Thread nD τ).loc main_arg2) := (Wh5_of m c main_arg2 (by decide)).trans (keepWr4_main_arg2 m c)
theorem keepWr5_main_arg2 (c : Dev nD) : Wr5 m c (Proc.devRef .tc main_arg2) = m ((c : Thread nD τ).loc main_arg2) := (Wr5_of_ne m c main_arg2 (by decide)).trans (keepWh5_main_arg2 m c)
theorem keepWh6_main_arg2 (c : Dev nD) : Wh6 m c (Proc.devRef .tc main_arg2) = m ((c : Thread nD τ).loc main_arg2) := (Wh6_of m c main_arg2 (by decide)).trans (keepWr5_main_arg2 m c)
theorem keepWr6_main_arg2 (c : Dev nD) : Wr6 m c (Proc.devRef .tc main_arg2) = m ((c : Thread nD τ).loc main_arg2) := (Wr6_of_ne m c main_arg2 (by decide)).trans (keepWh6_main_arg2 m c)
theorem keepWh7_main_arg2 (c : Dev nD) : Wh7 m c (Proc.devRef .tc main_arg2) = m ((c : Thread nD τ).loc main_arg2) := (Wh7_of m c main_arg2 (by decide)).trans (keepWr6_main_arg2 m c)
theorem keepWr7_main_arg2 (c : Dev nD) : Wr7 m c (Proc.devRef .tc main_arg2) = m ((c : Thread nD τ).loc main_arg2) := (Wr7_of_ne m c main_arg2 (by decide)).trans (keepWh7_main_arg2 m c)
theorem keepWh8_main_arg2 (c : Dev nD) : Wh8 m c (Proc.devRef .tc main_arg2) = m ((c : Thread nD τ).loc main_arg2) := (Wh8_of m c main_arg2 (by decide)).trans (keepWr7_main_arg2 m c)
theorem keepWr8_main_arg2 (c : Dev nD) : Wr8 m c (Proc.devRef .tc main_arg2) = m ((c : Thread nD τ).loc main_arg2) := (Wr8_of_ne m c main_arg2 (by decide)).trans (keepWh8_main_arg2 m c)

theorem keepWh0_main_arg3 (c : Dev nD) : Wh0 m c (Proc.devRef .tc main_arg3) = m ((c : Thread nD τ).loc main_arg3) := (Wh0_of m c main_arg3 (by decide)).trans rfl
theorem keepWr0_main_arg3 (c : Dev nD) : Wr0 m c (Proc.devRef .tc main_arg3) = m ((c : Thread nD τ).loc main_arg3) := (Wr0_of_ne m c main_arg3 (by decide)).trans (keepWh0_main_arg3 m c)
theorem keepWh1_main_arg3 (c : Dev nD) : Wh1 m c (Proc.devRef .tc main_arg3) = m ((c : Thread nD τ).loc main_arg3) := (Wh1_of m c main_arg3 (by decide)).trans (keepWr0_main_arg3 m c)
theorem keepWr1_main_arg3 (c : Dev nD) : Wr1 m c (Proc.devRef .tc main_arg3) = m ((c : Thread nD τ).loc main_arg3) := (Wr1_of_ne m c main_arg3 (by decide)).trans (keepWh1_main_arg3 m c)
theorem keepWh2_main_arg3 (c : Dev nD) : Wh2 m c (Proc.devRef .tc main_arg3) = m ((c : Thread nD τ).loc main_arg3) := (Wh2_of m c main_arg3 (by decide)).trans (keepWr1_main_arg3 m c)
theorem keepWr2_main_arg3 (c : Dev nD) : Wr2 m c (Proc.devRef .tc main_arg3) = m ((c : Thread nD τ).loc main_arg3) := (Wr2_of_ne m c main_arg3 (by decide)).trans (keepWh2_main_arg3 m c)
theorem keepWh3_main_arg3 (c : Dev nD) : Wh3 m c (Proc.devRef .tc main_arg3) = m ((c : Thread nD τ).loc main_arg3) := (Wh3_of m c main_arg3 (by decide)).trans (keepWr2_main_arg3 m c)
theorem keepWr3_main_arg3 (c : Dev nD) : Wr3 m c (Proc.devRef .tc main_arg3) = m ((c : Thread nD τ).loc main_arg3) := (Wr3_of_ne m c main_arg3 (by decide)).trans (keepWh3_main_arg3 m c)
theorem keepWh4_main_arg3 (c : Dev nD) : Wh4 m c (Proc.devRef .tc main_arg3) = m ((c : Thread nD τ).loc main_arg3) := (Wh4_of m c main_arg3 (by decide)).trans (keepWr3_main_arg3 m c)
theorem keepWr4_main_arg3 (c : Dev nD) : Wr4 m c (Proc.devRef .tc main_arg3) = m ((c : Thread nD τ).loc main_arg3) := (Wr4_of_ne m c main_arg3 (by decide)).trans (keepWh4_main_arg3 m c)
theorem keepWh5_main_arg3 (c : Dev nD) : Wh5 m c (Proc.devRef .tc main_arg3) = m ((c : Thread nD τ).loc main_arg3) := (Wh5_of m c main_arg3 (by decide)).trans (keepWr4_main_arg3 m c)
theorem keepWr5_main_arg3 (c : Dev nD) : Wr5 m c (Proc.devRef .tc main_arg3) = m ((c : Thread nD τ).loc main_arg3) := (Wr5_of_ne m c main_arg3 (by decide)).trans (keepWh5_main_arg3 m c)
theorem keepWh6_main_arg3 (c : Dev nD) : Wh6 m c (Proc.devRef .tc main_arg3) = m ((c : Thread nD τ).loc main_arg3) := (Wh6_of m c main_arg3 (by decide)).trans (keepWr5_main_arg3 m c)
theorem keepWr6_main_arg3 (c : Dev nD) : Wr6 m c (Proc.devRef .tc main_arg3) = m ((c : Thread nD τ).loc main_arg3) := (Wr6_of_ne m c main_arg3 (by decide)).trans (keepWh6_main_arg3 m c)
theorem keepWh7_main_arg3 (c : Dev nD) : Wh7 m c (Proc.devRef .tc main_arg3) = m ((c : Thread nD τ).loc main_arg3) := (Wh7_of m c main_arg3 (by decide)).trans (keepWr6_main_arg3 m c)
theorem keepWr7_main_arg3 (c : Dev nD) : Wr7 m c (Proc.devRef .tc main_arg3) = m ((c : Thread nD τ).loc main_arg3) := (Wr7_of_ne m c main_arg3 (by decide)).trans (keepWh7_main_arg3 m c)
theorem keepWh8_main_arg3 (c : Dev nD) : Wh8 m c (Proc.devRef .tc main_arg3) = m ((c : Thread nD τ).loc main_arg3) := (Wh8_of m c main_arg3 (by decide)).trans (keepWr7_main_arg3 m c)
theorem keepWr8_main_arg3 (c : Dev nD) : Wr8 m c (Proc.devRef .tc main_arg3) = m ((c : Thread nD τ).loc main_arg3) := (Wr8_of_ne m c main_arg3 (by decide)).trans (keepWh8_main_arg3 m c)

theorem keepWh0_main_arg4 (c : Dev nD) : Wh0 m c (Proc.devRef .tc main_arg4) = m ((c : Thread nD τ).loc main_arg4) := (Wh0_of m c main_arg4 (by decide)).trans rfl
theorem keepWr0_main_arg4 (c : Dev nD) : Wr0 m c (Proc.devRef .tc main_arg4) = m ((c : Thread nD τ).loc main_arg4) := (Wr0_of_ne m c main_arg4 (by decide)).trans (keepWh0_main_arg4 m c)
theorem keepWh1_main_arg4 (c : Dev nD) : Wh1 m c (Proc.devRef .tc main_arg4) = m ((c : Thread nD τ).loc main_arg4) := (Wh1_of m c main_arg4 (by decide)).trans (keepWr0_main_arg4 m c)
theorem keepWr1_main_arg4 (c : Dev nD) : Wr1 m c (Proc.devRef .tc main_arg4) = m ((c : Thread nD τ).loc main_arg4) := (Wr1_of_ne m c main_arg4 (by decide)).trans (keepWh1_main_arg4 m c)
theorem keepWh2_main_arg4 (c : Dev nD) : Wh2 m c (Proc.devRef .tc main_arg4) = m ((c : Thread nD τ).loc main_arg4) := (Wh2_of m c main_arg4 (by decide)).trans (keepWr1_main_arg4 m c)
theorem keepWr2_main_arg4 (c : Dev nD) : Wr2 m c (Proc.devRef .tc main_arg4) = m ((c : Thread nD τ).loc main_arg4) := (Wr2_of_ne m c main_arg4 (by decide)).trans (keepWh2_main_arg4 m c)
theorem keepWh3_main_arg4 (c : Dev nD) : Wh3 m c (Proc.devRef .tc main_arg4) = m ((c : Thread nD τ).loc main_arg4) := (Wh3_of m c main_arg4 (by decide)).trans (keepWr2_main_arg4 m c)
theorem keepWr3_main_arg4 (c : Dev nD) : Wr3 m c (Proc.devRef .tc main_arg4) = m ((c : Thread nD τ).loc main_arg4) := (Wr3_of_ne m c main_arg4 (by decide)).trans (keepWh3_main_arg4 m c)
theorem keepWh4_main_arg4 (c : Dev nD) : Wh4 m c (Proc.devRef .tc main_arg4) = m ((c : Thread nD τ).loc main_arg4) := (Wh4_of m c main_arg4 (by decide)).trans (keepWr3_main_arg4 m c)
theorem keepWr4_main_arg4 (c : Dev nD) : Wr4 m c (Proc.devRef .tc main_arg4) = m ((c : Thread nD τ).loc main_arg4) := (Wr4_of_ne m c main_arg4 (by decide)).trans (keepWh4_main_arg4 m c)
theorem keepWh5_main_arg4 (c : Dev nD) : Wh5 m c (Proc.devRef .tc main_arg4) = m ((c : Thread nD τ).loc main_arg4) := (Wh5_of m c main_arg4 (by decide)).trans (keepWr4_main_arg4 m c)
theorem keepWr5_main_arg4 (c : Dev nD) : Wr5 m c (Proc.devRef .tc main_arg4) = m ((c : Thread nD τ).loc main_arg4) := (Wr5_of_ne m c main_arg4 (by decide)).trans (keepWh5_main_arg4 m c)
theorem keepWh6_main_arg4 (c : Dev nD) : Wh6 m c (Proc.devRef .tc main_arg4) = m ((c : Thread nD τ).loc main_arg4) := (Wh6_of m c main_arg4 (by decide)).trans (keepWr5_main_arg4 m c)
theorem keepWr6_main_arg4 (c : Dev nD) : Wr6 m c (Proc.devRef .tc main_arg4) = m ((c : Thread nD τ).loc main_arg4) := (Wr6_of_ne m c main_arg4 (by decide)).trans (keepWh6_main_arg4 m c)
theorem keepWh7_main_arg4 (c : Dev nD) : Wh7 m c (Proc.devRef .tc main_arg4) = m ((c : Thread nD τ).loc main_arg4) := (Wh7_of m c main_arg4 (by decide)).trans (keepWr6_main_arg4 m c)
theorem keepWr7_main_arg4 (c : Dev nD) : Wr7 m c (Proc.devRef .tc main_arg4) = m ((c : Thread nD τ).loc main_arg4) := (Wr7_of_ne m c main_arg4 (by decide)).trans (keepWh7_main_arg4 m c)
theorem keepWh8_main_arg4 (c : Dev nD) : Wh8 m c (Proc.devRef .tc main_arg4) = m ((c : Thread nD τ).loc main_arg4) := (Wh8_of m c main_arg4 (by decide)).trans (keepWr7_main_arg4 m c)
theorem keepWr8_main_arg4 (c : Dev nD) : Wr8 m c (Proc.devRef .tc main_arg4) = m ((c : Thread nD τ).loc main_arg4) := (Wr8_of_ne m c main_arg4 (by decide)).trans (keepWh8_main_arg4 m c)

theorem keepWh0_main_arg5 (c : Dev nD) : Wh0 m c (Proc.devRef .tc main_arg5) = m ((c : Thread nD τ).loc main_arg5) := (Wh0_of m c main_arg5 (by decide)).trans rfl
theorem keepWr0_main_arg5 (c : Dev nD) : Wr0 m c (Proc.devRef .tc main_arg5) = m ((c : Thread nD τ).loc main_arg5) := (Wr0_of_ne m c main_arg5 (by decide)).trans (keepWh0_main_arg5 m c)
theorem keepWh1_main_arg5 (c : Dev nD) : Wh1 m c (Proc.devRef .tc main_arg5) = m ((c : Thread nD τ).loc main_arg5) := (Wh1_of m c main_arg5 (by decide)).trans (keepWr0_main_arg5 m c)
theorem keepWr1_main_arg5 (c : Dev nD) : Wr1 m c (Proc.devRef .tc main_arg5) = m ((c : Thread nD τ).loc main_arg5) := (Wr1_of_ne m c main_arg5 (by decide)).trans (keepWh1_main_arg5 m c)
theorem keepWh2_main_arg5 (c : Dev nD) : Wh2 m c (Proc.devRef .tc main_arg5) = m ((c : Thread nD τ).loc main_arg5) := (Wh2_of m c main_arg5 (by decide)).trans (keepWr1_main_arg5 m c)
theorem keepWr2_main_arg5 (c : Dev nD) : Wr2 m c (Proc.devRef .tc main_arg5) = m ((c : Thread nD τ).loc main_arg5) := (Wr2_of_ne m c main_arg5 (by decide)).trans (keepWh2_main_arg5 m c)
theorem keepWh3_main_arg5 (c : Dev nD) : Wh3 m c (Proc.devRef .tc main_arg5) = m ((c : Thread nD τ).loc main_arg5) := (Wh3_of m c main_arg5 (by decide)).trans (keepWr2_main_arg5 m c)
theorem keepWr3_main_arg5 (c : Dev nD) : Wr3 m c (Proc.devRef .tc main_arg5) = m ((c : Thread nD τ).loc main_arg5) := (Wr3_of_ne m c main_arg5 (by decide)).trans (keepWh3_main_arg5 m c)
theorem keepWh4_main_arg5 (c : Dev nD) : Wh4 m c (Proc.devRef .tc main_arg5) = m ((c : Thread nD τ).loc main_arg5) := (Wh4_of m c main_arg5 (by decide)).trans (keepWr3_main_arg5 m c)
theorem keepWr4_main_arg5 (c : Dev nD) : Wr4 m c (Proc.devRef .tc main_arg5) = m ((c : Thread nD τ).loc main_arg5) := (Wr4_of_ne m c main_arg5 (by decide)).trans (keepWh4_main_arg5 m c)
theorem keepWh5_main_arg5 (c : Dev nD) : Wh5 m c (Proc.devRef .tc main_arg5) = m ((c : Thread nD τ).loc main_arg5) := (Wh5_of m c main_arg5 (by decide)).trans (keepWr4_main_arg5 m c)
theorem keepWr5_main_arg5 (c : Dev nD) : Wr5 m c (Proc.devRef .tc main_arg5) = m ((c : Thread nD τ).loc main_arg5) := (Wr5_of_ne m c main_arg5 (by decide)).trans (keepWh5_main_arg5 m c)
theorem keepWh6_main_arg5 (c : Dev nD) : Wh6 m c (Proc.devRef .tc main_arg5) = m ((c : Thread nD τ).loc main_arg5) := (Wh6_of m c main_arg5 (by decide)).trans (keepWr5_main_arg5 m c)
theorem keepWr6_main_arg5 (c : Dev nD) : Wr6 m c (Proc.devRef .tc main_arg5) = m ((c : Thread nD τ).loc main_arg5) := (Wr6_of_ne m c main_arg5 (by decide)).trans (keepWh6_main_arg5 m c)
theorem keepWh7_main_arg5 (c : Dev nD) : Wh7 m c (Proc.devRef .tc main_arg5) = m ((c : Thread nD τ).loc main_arg5) := (Wh7_of m c main_arg5 (by decide)).trans (keepWr6_main_arg5 m c)
theorem keepWr7_main_arg5 (c : Dev nD) : Wr7 m c (Proc.devRef .tc main_arg5) = m ((c : Thread nD τ).loc main_arg5) := (Wr7_of_ne m c main_arg5 (by decide)).trans (keepWh7_main_arg5 m c)
theorem keepWh8_main_arg5 (c : Dev nD) : Wh8 m c (Proc.devRef .tc main_arg5) = m ((c : Thread nD τ).loc main_arg5) := (Wh8_of m c main_arg5 (by decide)).trans (keepWr7_main_arg5 m c)
theorem keepWr8_main_arg5 (c : Dev nD) : Wr8 m c (Proc.devRef .tc main_arg5) = m ((c : Thread nD τ).loc main_arg5) := (Wr8_of_ne m c main_arg5 (by decide)).trans (keepWh8_main_arg5 m c)
theorem keepWh9_main_arg5 (c : Dev nD) : Wh9 m c (Proc.devRef .tc main_arg5) = m ((c : Thread nD τ).loc main_arg5) := (Wh9_of m c main_arg5 (by decide)).trans (keepWr8_main_arg5 m c)
theorem keepWr9_main_arg5 (c : Dev nD) : Wr9 m c (Proc.devRef .tc main_arg5) = m ((c : Thread nD τ).loc main_arg5) := (Wr9_of_ne m c main_arg5 (by decide)).trans (keepWh9_main_arg5 m c)
theorem keepWh10_main_arg5 (c : Dev nD) : Wh10 m c (Proc.devRef .tc main_arg5) = m ((c : Thread nD τ).loc main_arg5) := (Wh10_of m c main_arg5 (by decide)).trans (keepWr9_main_arg5 m c)
theorem keepWr10_main_arg5 (c : Dev nD) : Wr10 m c (Proc.devRef .tc main_arg5) = m ((c : Thread nD τ).loc main_arg5) := (Wr10_of_ne m c main_arg5 (by decide)).trans (keepWh10_main_arg5 m c)

theorem keepWh0_main_arg6 (c : Dev nD) : Wh0 m c (Proc.devRef .tc main_arg6) = m ((c : Thread nD τ).loc main_arg6) := (Wh0_of m c main_arg6 (by decide)).trans rfl
theorem keepWr0_main_arg6 (c : Dev nD) : Wr0 m c (Proc.devRef .tc main_arg6) = m ((c : Thread nD τ).loc main_arg6) := (Wr0_of_ne m c main_arg6 (by decide)).trans (keepWh0_main_arg6 m c)
theorem keepWh1_main_arg6 (c : Dev nD) : Wh1 m c (Proc.devRef .tc main_arg6) = m ((c : Thread nD τ).loc main_arg6) := (Wh1_of m c main_arg6 (by decide)).trans (keepWr0_main_arg6 m c)
theorem keepWr1_main_arg6 (c : Dev nD) : Wr1 m c (Proc.devRef .tc main_arg6) = m ((c : Thread nD τ).loc main_arg6) := (Wr1_of_ne m c main_arg6 (by decide)).trans (keepWh1_main_arg6 m c)
theorem keepWh2_main_arg6 (c : Dev nD) : Wh2 m c (Proc.devRef .tc main_arg6) = m ((c : Thread nD τ).loc main_arg6) := (Wh2_of m c main_arg6 (by decide)).trans (keepWr1_main_arg6 m c)
theorem keepWr2_main_arg6 (c : Dev nD) : Wr2 m c (Proc.devRef .tc main_arg6) = m ((c : Thread nD τ).loc main_arg6) := (Wr2_of_ne m c main_arg6 (by decide)).trans (keepWh2_main_arg6 m c)
theorem keepWh3_main_arg6 (c : Dev nD) : Wh3 m c (Proc.devRef .tc main_arg6) = m ((c : Thread nD τ).loc main_arg6) := (Wh3_of m c main_arg6 (by decide)).trans (keepWr2_main_arg6 m c)
theorem keepWr3_main_arg6 (c : Dev nD) : Wr3 m c (Proc.devRef .tc main_arg6) = m ((c : Thread nD τ).loc main_arg6) := (Wr3_of_ne m c main_arg6 (by decide)).trans (keepWh3_main_arg6 m c)
theorem keepWh4_main_arg6 (c : Dev nD) : Wh4 m c (Proc.devRef .tc main_arg6) = m ((c : Thread nD τ).loc main_arg6) := (Wh4_of m c main_arg6 (by decide)).trans (keepWr3_main_arg6 m c)
theorem keepWr4_main_arg6 (c : Dev nD) : Wr4 m c (Proc.devRef .tc main_arg6) = m ((c : Thread nD τ).loc main_arg6) := (Wr4_of_ne m c main_arg6 (by decide)).trans (keepWh4_main_arg6 m c)
theorem keepWh5_main_arg6 (c : Dev nD) : Wh5 m c (Proc.devRef .tc main_arg6) = m ((c : Thread nD τ).loc main_arg6) := (Wh5_of m c main_arg6 (by decide)).trans (keepWr4_main_arg6 m c)
theorem keepWr5_main_arg6 (c : Dev nD) : Wr5 m c (Proc.devRef .tc main_arg6) = m ((c : Thread nD τ).loc main_arg6) := (Wr5_of_ne m c main_arg6 (by decide)).trans (keepWh5_main_arg6 m c)
theorem keepWh6_main_arg6 (c : Dev nD) : Wh6 m c (Proc.devRef .tc main_arg6) = m ((c : Thread nD τ).loc main_arg6) := (Wh6_of m c main_arg6 (by decide)).trans (keepWr5_main_arg6 m c)
theorem keepWr6_main_arg6 (c : Dev nD) : Wr6 m c (Proc.devRef .tc main_arg6) = m ((c : Thread nD τ).loc main_arg6) := (Wr6_of_ne m c main_arg6 (by decide)).trans (keepWh6_main_arg6 m c)
theorem keepWh7_main_arg6 (c : Dev nD) : Wh7 m c (Proc.devRef .tc main_arg6) = m ((c : Thread nD τ).loc main_arg6) := (Wh7_of m c main_arg6 (by decide)).trans (keepWr6_main_arg6 m c)
theorem keepWr7_main_arg6 (c : Dev nD) : Wr7 m c (Proc.devRef .tc main_arg6) = m ((c : Thread nD τ).loc main_arg6) := (Wr7_of_ne m c main_arg6 (by decide)).trans (keepWh7_main_arg6 m c)
theorem keepWh8_main_arg6 (c : Dev nD) : Wh8 m c (Proc.devRef .tc main_arg6) = m ((c : Thread nD τ).loc main_arg6) := (Wh8_of m c main_arg6 (by decide)).trans (keepWr7_main_arg6 m c)
theorem keepWr8_main_arg6 (c : Dev nD) : Wr8 m c (Proc.devRef .tc main_arg6) = m ((c : Thread nD τ).loc main_arg6) := (Wr8_of_ne m c main_arg6 (by decide)).trans (keepWh8_main_arg6 m c)
theorem keepWh9_main_arg6 (c : Dev nD) : Wh9 m c (Proc.devRef .tc main_arg6) = m ((c : Thread nD τ).loc main_arg6) := (Wh9_of m c main_arg6 (by decide)).trans (keepWr8_main_arg6 m c)
theorem keepWr9_main_arg6 (c : Dev nD) : Wr9 m c (Proc.devRef .tc main_arg6) = m ((c : Thread nD τ).loc main_arg6) := (Wr9_of_ne m c main_arg6 (by decide)).trans (keepWh9_main_arg6 m c)
theorem keepWh10_main_arg6 (c : Dev nD) : Wh10 m c (Proc.devRef .tc main_arg6) = m ((c : Thread nD τ).loc main_arg6) := (Wh10_of m c main_arg6 (by decide)).trans (keepWr9_main_arg6 m c)
theorem keepWr10_main_arg6 (c : Dev nD) : Wr10 m c (Proc.devRef .tc main_arg6) = m ((c : Thread nD τ).loc main_arg6) := (Wr10_of_ne m c main_arg6 (by decide)).trans (keepWh10_main_arg6 m c)

theorem keepWh0_main_arg7 (c : Dev nD) : Wh0 m c (Proc.devRef .tc main_arg7) = m ((c : Thread nD τ).loc main_arg7) := (Wh0_of m c main_arg7 (by decide)).trans rfl
theorem keepWr0_main_arg7 (c : Dev nD) : Wr0 m c (Proc.devRef .tc main_arg7) = m ((c : Thread nD τ).loc main_arg7) := (Wr0_of_ne m c main_arg7 (by decide)).trans (keepWh0_main_arg7 m c)
theorem keepWh1_main_arg7 (c : Dev nD) : Wh1 m c (Proc.devRef .tc main_arg7) = m ((c : Thread nD τ).loc main_arg7) := (Wh1_of m c main_arg7 (by decide)).trans (keepWr0_main_arg7 m c)
theorem keepWr1_main_arg7 (c : Dev nD) : Wr1 m c (Proc.devRef .tc main_arg7) = m ((c : Thread nD τ).loc main_arg7) := (Wr1_of_ne m c main_arg7 (by decide)).trans (keepWh1_main_arg7 m c)
theorem keepWh2_main_arg7 (c : Dev nD) : Wh2 m c (Proc.devRef .tc main_arg7) = m ((c : Thread nD τ).loc main_arg7) := (Wh2_of m c main_arg7 (by decide)).trans (keepWr1_main_arg7 m c)
theorem keepWr2_main_arg7 (c : Dev nD) : Wr2 m c (Proc.devRef .tc main_arg7) = m ((c : Thread nD τ).loc main_arg7) := (Wr2_of_ne m c main_arg7 (by decide)).trans (keepWh2_main_arg7 m c)
theorem keepWh3_main_arg7 (c : Dev nD) : Wh3 m c (Proc.devRef .tc main_arg7) = m ((c : Thread nD τ).loc main_arg7) := (Wh3_of m c main_arg7 (by decide)).trans (keepWr2_main_arg7 m c)
theorem keepWr3_main_arg7 (c : Dev nD) : Wr3 m c (Proc.devRef .tc main_arg7) = m ((c : Thread nD τ).loc main_arg7) := (Wr3_of_ne m c main_arg7 (by decide)).trans (keepWh3_main_arg7 m c)
theorem keepWh4_main_arg7 (c : Dev nD) : Wh4 m c (Proc.devRef .tc main_arg7) = m ((c : Thread nD τ).loc main_arg7) := (Wh4_of m c main_arg7 (by decide)).trans (keepWr3_main_arg7 m c)
theorem keepWr4_main_arg7 (c : Dev nD) : Wr4 m c (Proc.devRef .tc main_arg7) = m ((c : Thread nD τ).loc main_arg7) := (Wr4_of_ne m c main_arg7 (by decide)).trans (keepWh4_main_arg7 m c)
theorem keepWh5_main_arg7 (c : Dev nD) : Wh5 m c (Proc.devRef .tc main_arg7) = m ((c : Thread nD τ).loc main_arg7) := (Wh5_of m c main_arg7 (by decide)).trans (keepWr4_main_arg7 m c)
theorem keepWr5_main_arg7 (c : Dev nD) : Wr5 m c (Proc.devRef .tc main_arg7) = m ((c : Thread nD τ).loc main_arg7) := (Wr5_of_ne m c main_arg7 (by decide)).trans (keepWh5_main_arg7 m c)
theorem keepWh6_main_arg7 (c : Dev nD) : Wh6 m c (Proc.devRef .tc main_arg7) = m ((c : Thread nD τ).loc main_arg7) := (Wh6_of m c main_arg7 (by decide)).trans (keepWr5_main_arg7 m c)
theorem keepWr6_main_arg7 (c : Dev nD) : Wr6 m c (Proc.devRef .tc main_arg7) = m ((c : Thread nD τ).loc main_arg7) := (Wr6_of_ne m c main_arg7 (by decide)).trans (keepWh6_main_arg7 m c)
theorem keepWh7_main_arg7 (c : Dev nD) : Wh7 m c (Proc.devRef .tc main_arg7) = m ((c : Thread nD τ).loc main_arg7) := (Wh7_of m c main_arg7 (by decide)).trans (keepWr6_main_arg7 m c)
theorem keepWr7_main_arg7 (c : Dev nD) : Wr7 m c (Proc.devRef .tc main_arg7) = m ((c : Thread nD τ).loc main_arg7) := (Wr7_of_ne m c main_arg7 (by decide)).trans (keepWh7_main_arg7 m c)
theorem keepWh8_main_arg7 (c : Dev nD) : Wh8 m c (Proc.devRef .tc main_arg7) = m ((c : Thread nD τ).loc main_arg7) := (Wh8_of m c main_arg7 (by decide)).trans (keepWr7_main_arg7 m c)
theorem keepWr8_main_arg7 (c : Dev nD) : Wr8 m c (Proc.devRef .tc main_arg7) = m ((c : Thread nD τ).loc main_arg7) := (Wr8_of_ne m c main_arg7 (by decide)).trans (keepWh8_main_arg7 m c)
theorem keepWh9_main_arg7 (c : Dev nD) : Wh9 m c (Proc.devRef .tc main_arg7) = m ((c : Thread nD τ).loc main_arg7) := (Wh9_of m c main_arg7 (by decide)).trans (keepWr8_main_arg7 m c)
theorem keepWr9_main_arg7 (c : Dev nD) : Wr9 m c (Proc.devRef .tc main_arg7) = m ((c : Thread nD τ).loc main_arg7) := (Wr9_of_ne m c main_arg7 (by decide)).trans (keepWh9_main_arg7 m c)

theorem keepWh0_main_arg8 (c : Dev nD) : Wh0 m c (Proc.devRef .tc main_arg8) = m ((c : Thread nD τ).loc main_arg8) := (Wh0_of m c main_arg8 (by decide)).trans rfl
theorem keepWr0_main_arg8 (c : Dev nD) : Wr0 m c (Proc.devRef .tc main_arg8) = m ((c : Thread nD τ).loc main_arg8) := (Wr0_of_ne m c main_arg8 (by decide)).trans (keepWh0_main_arg8 m c)
theorem keepWh1_main_arg8 (c : Dev nD) : Wh1 m c (Proc.devRef .tc main_arg8) = m ((c : Thread nD τ).loc main_arg8) := (Wh1_of m c main_arg8 (by decide)).trans (keepWr0_main_arg8 m c)
theorem keepWr1_main_arg8 (c : Dev nD) : Wr1 m c (Proc.devRef .tc main_arg8) = m ((c : Thread nD τ).loc main_arg8) := (Wr1_of_ne m c main_arg8 (by decide)).trans (keepWh1_main_arg8 m c)
theorem keepWh2_main_arg8 (c : Dev nD) : Wh2 m c (Proc.devRef .tc main_arg8) = m ((c : Thread nD τ).loc main_arg8) := (Wh2_of m c main_arg8 (by decide)).trans (keepWr1_main_arg8 m c)
theorem keepWr2_main_arg8 (c : Dev nD) : Wr2 m c (Proc.devRef .tc main_arg8) = m ((c : Thread nD τ).loc main_arg8) := (Wr2_of_ne m c main_arg8 (by decide)).trans (keepWh2_main_arg8 m c)
theorem keepWh3_main_arg8 (c : Dev nD) : Wh3 m c (Proc.devRef .tc main_arg8) = m ((c : Thread nD τ).loc main_arg8) := (Wh3_of m c main_arg8 (by decide)).trans (keepWr2_main_arg8 m c)
theorem keepWr3_main_arg8 (c : Dev nD) : Wr3 m c (Proc.devRef .tc main_arg8) = m ((c : Thread nD τ).loc main_arg8) := (Wr3_of_ne m c main_arg8 (by decide)).trans (keepWh3_main_arg8 m c)
theorem keepWh4_main_arg8 (c : Dev nD) : Wh4 m c (Proc.devRef .tc main_arg8) = m ((c : Thread nD τ).loc main_arg8) := (Wh4_of m c main_arg8 (by decide)).trans (keepWr3_main_arg8 m c)
theorem keepWr4_main_arg8 (c : Dev nD) : Wr4 m c (Proc.devRef .tc main_arg8) = m ((c : Thread nD τ).loc main_arg8) := (Wr4_of_ne m c main_arg8 (by decide)).trans (keepWh4_main_arg8 m c)
theorem keepWh5_main_arg8 (c : Dev nD) : Wh5 m c (Proc.devRef .tc main_arg8) = m ((c : Thread nD τ).loc main_arg8) := (Wh5_of m c main_arg8 (by decide)).trans (keepWr4_main_arg8 m c)
theorem keepWr5_main_arg8 (c : Dev nD) : Wr5 m c (Proc.devRef .tc main_arg8) = m ((c : Thread nD τ).loc main_arg8) := (Wr5_of_ne m c main_arg8 (by decide)).trans (keepWh5_main_arg8 m c)
theorem keepWh6_main_arg8 (c : Dev nD) : Wh6 m c (Proc.devRef .tc main_arg8) = m ((c : Thread nD τ).loc main_arg8) := (Wh6_of m c main_arg8 (by decide)).trans (keepWr5_main_arg8 m c)
theorem keepWr6_main_arg8 (c : Dev nD) : Wr6 m c (Proc.devRef .tc main_arg8) = m ((c : Thread nD τ).loc main_arg8) := (Wr6_of_ne m c main_arg8 (by decide)).trans (keepWh6_main_arg8 m c)
theorem keepWh7_main_arg8 (c : Dev nD) : Wh7 m c (Proc.devRef .tc main_arg8) = m ((c : Thread nD τ).loc main_arg8) := (Wh7_of m c main_arg8 (by decide)).trans (keepWr6_main_arg8 m c)
theorem keepWr7_main_arg8 (c : Dev nD) : Wr7 m c (Proc.devRef .tc main_arg8) = m ((c : Thread nD τ).loc main_arg8) := (Wr7_of_ne m c main_arg8 (by decide)).trans (keepWh7_main_arg8 m c)
theorem keepWh8_main_arg8 (c : Dev nD) : Wh8 m c (Proc.devRef .tc main_arg8) = m ((c : Thread nD τ).loc main_arg8) := (Wh8_of m c main_arg8 (by decide)).trans (keepWr7_main_arg8 m c)
theorem keepWr8_main_arg8 (c : Dev nD) : Wr8 m c (Proc.devRef .tc main_arg8) = m ((c : Thread nD τ).loc main_arg8) := (Wr8_of_ne m c main_arg8 (by decide)).trans (keepWh8_main_arg8 m c)
theorem keepWh9_main_arg8 (c : Dev nD) : Wh9 m c (Proc.devRef .tc main_arg8) = m ((c : Thread nD τ).loc main_arg8) := (Wh9_of m c main_arg8 (by decide)).trans (keepWr8_main_arg8 m c)
theorem keepWr9_main_arg8 (c : Dev nD) : Wr9 m c (Proc.devRef .tc main_arg8) = m ((c : Thread nD τ).loc main_arg8) := (Wr9_of_ne m c main_arg8 (by decide)).trans (keepWh9_main_arg8 m c)
theorem keepWh10_main_arg8 (c : Dev nD) : Wh10 m c (Proc.devRef .tc main_arg8) = m ((c : Thread nD τ).loc main_arg8) := (Wh10_of m c main_arg8 (by decide)).trans (keepWr9_main_arg8 m c)
theorem keepWr10_main_arg8 (c : Dev nD) : Wr10 m c (Proc.devRef .tc main_arg8) = m ((c : Thread nD τ).loc main_arg8) := (Wr10_of_ne m c main_arg8 (by decide)).trans (keepWh10_main_arg8 m c)
theorem keepWh11_main_arg8 (c : Dev nD) : Wh11 m c (Proc.devRef .tc main_arg8) = m ((c : Thread nD τ).loc main_arg8) := (Wh11_of m c main_arg8 (by decide)).trans (keepWr10_main_arg8 m c)
theorem keepWr11_main_arg8 (c : Dev nD) : Wr11 m c (Proc.devRef .tc main_arg8) = m ((c : Thread nD τ).loc main_arg8) := (Wr11_of_ne m c main_arg8 (by decide)).trans (keepWh11_main_arg8 m c)
theorem keepWh12_main_arg8 (c : Dev nD) : Wh12 m c (Proc.devRef .tc main_arg8) = m ((c : Thread nD τ).loc main_arg8) := (Wh12_of m c main_arg8 (by decide)).trans (keepWr11_main_arg8 m c)

theorem keepWh0_main_arg9 (c : Dev nD) : Wh0 m c (Proc.devRef .tc main_arg9) = m ((c : Thread nD τ).loc main_arg9) := (Wh0_of m c main_arg9 (by decide)).trans rfl
theorem keepWr0_main_arg9 (c : Dev nD) : Wr0 m c (Proc.devRef .tc main_arg9) = m ((c : Thread nD τ).loc main_arg9) := (Wr0_of_ne m c main_arg9 (by decide)).trans (keepWh0_main_arg9 m c)
theorem keepWh1_main_arg9 (c : Dev nD) : Wh1 m c (Proc.devRef .tc main_arg9) = m ((c : Thread nD τ).loc main_arg9) := (Wh1_of m c main_arg9 (by decide)).trans (keepWr0_main_arg9 m c)
theorem keepWr1_main_arg9 (c : Dev nD) : Wr1 m c (Proc.devRef .tc main_arg9) = m ((c : Thread nD τ).loc main_arg9) := (Wr1_of_ne m c main_arg9 (by decide)).trans (keepWh1_main_arg9 m c)
theorem keepWh2_main_arg9 (c : Dev nD) : Wh2 m c (Proc.devRef .tc main_arg9) = m ((c : Thread nD τ).loc main_arg9) := (Wh2_of m c main_arg9 (by decide)).trans (keepWr1_main_arg9 m c)
theorem keepWr2_main_arg9 (c : Dev nD) : Wr2 m c (Proc.devRef .tc main_arg9) = m ((c : Thread nD τ).loc main_arg9) := (Wr2_of_ne m c main_arg9 (by decide)).trans (keepWh2_main_arg9 m c)
theorem keepWh3_main_arg9 (c : Dev nD) : Wh3 m c (Proc.devRef .tc main_arg9) = m ((c : Thread nD τ).loc main_arg9) := (Wh3_of m c main_arg9 (by decide)).trans (keepWr2_main_arg9 m c)
theorem keepWr3_main_arg9 (c : Dev nD) : Wr3 m c (Proc.devRef .tc main_arg9) = m ((c : Thread nD τ).loc main_arg9) := (Wr3_of_ne m c main_arg9 (by decide)).trans (keepWh3_main_arg9 m c)
theorem keepWh4_main_arg9 (c : Dev nD) : Wh4 m c (Proc.devRef .tc main_arg9) = m ((c : Thread nD τ).loc main_arg9) := (Wh4_of m c main_arg9 (by decide)).trans (keepWr3_main_arg9 m c)
theorem keepWr4_main_arg9 (c : Dev nD) : Wr4 m c (Proc.devRef .tc main_arg9) = m ((c : Thread nD τ).loc main_arg9) := (Wr4_of_ne m c main_arg9 (by decide)).trans (keepWh4_main_arg9 m c)
theorem keepWh5_main_arg9 (c : Dev nD) : Wh5 m c (Proc.devRef .tc main_arg9) = m ((c : Thread nD τ).loc main_arg9) := (Wh5_of m c main_arg9 (by decide)).trans (keepWr4_main_arg9 m c)
theorem keepWr5_main_arg9 (c : Dev nD) : Wr5 m c (Proc.devRef .tc main_arg9) = m ((c : Thread nD τ).loc main_arg9) := (Wr5_of_ne m c main_arg9 (by decide)).trans (keepWh5_main_arg9 m c)
theorem keepWh6_main_arg9 (c : Dev nD) : Wh6 m c (Proc.devRef .tc main_arg9) = m ((c : Thread nD τ).loc main_arg9) := (Wh6_of m c main_arg9 (by decide)).trans (keepWr5_main_arg9 m c)
theorem keepWr6_main_arg9 (c : Dev nD) : Wr6 m c (Proc.devRef .tc main_arg9) = m ((c : Thread nD τ).loc main_arg9) := (Wr6_of_ne m c main_arg9 (by decide)).trans (keepWh6_main_arg9 m c)
theorem keepWh7_main_arg9 (c : Dev nD) : Wh7 m c (Proc.devRef .tc main_arg9) = m ((c : Thread nD τ).loc main_arg9) := (Wh7_of m c main_arg9 (by decide)).trans (keepWr6_main_arg9 m c)
theorem keepWr7_main_arg9 (c : Dev nD) : Wr7 m c (Proc.devRef .tc main_arg9) = m ((c : Thread nD τ).loc main_arg9) := (Wr7_of_ne m c main_arg9 (by decide)).trans (keepWh7_main_arg9 m c)
theorem keepWh8_main_arg9 (c : Dev nD) : Wh8 m c (Proc.devRef .tc main_arg9) = m ((c : Thread nD τ).loc main_arg9) := (Wh8_of m c main_arg9 (by decide)).trans (keepWr7_main_arg9 m c)
theorem keepWr8_main_arg9 (c : Dev nD) : Wr8 m c (Proc.devRef .tc main_arg9) = m ((c : Thread nD τ).loc main_arg9) := (Wr8_of_ne m c main_arg9 (by decide)).trans (keepWh8_main_arg9 m c)
theorem keepWh9_main_arg9 (c : Dev nD) : Wh9 m c (Proc.devRef .tc main_arg9) = m ((c : Thread nD τ).loc main_arg9) := (Wh9_of m c main_arg9 (by decide)).trans (keepWr8_main_arg9 m c)
theorem keepWr9_main_arg9 (c : Dev nD) : Wr9 m c (Proc.devRef .tc main_arg9) = m ((c : Thread nD τ).loc main_arg9) := (Wr9_of_ne m c main_arg9 (by decide)).trans (keepWh9_main_arg9 m c)
theorem keepWh10_main_arg9 (c : Dev nD) : Wh10 m c (Proc.devRef .tc main_arg9) = m ((c : Thread nD τ).loc main_arg9) := (Wh10_of m c main_arg9 (by decide)).trans (keepWr9_main_arg9 m c)
theorem keepWr10_main_arg9 (c : Dev nD) : Wr10 m c (Proc.devRef .tc main_arg9) = m ((c : Thread nD τ).loc main_arg9) := (Wr10_of_ne m c main_arg9 (by decide)).trans (keepWh10_main_arg9 m c)
theorem keepWh11_main_arg9 (c : Dev nD) : Wh11 m c (Proc.devRef .tc main_arg9) = m ((c : Thread nD τ).loc main_arg9) := (Wh11_of m c main_arg9 (by decide)).trans (keepWr10_main_arg9 m c)
theorem keepWr11_main_arg9 (c : Dev nD) : Wr11 m c (Proc.devRef .tc main_arg9) = m ((c : Thread nD τ).loc main_arg9) := (Wr11_of_ne m c main_arg9 (by decide)).trans (keepWh11_main_arg9 m c)

theorem keepWh0_main_arg10 (c : Dev nD) : Wh0 m c (Proc.devRef .tc main_arg10) = m ((c : Thread nD τ).loc main_arg10) := (Wh0_of m c main_arg10 (by decide)).trans rfl
theorem keepWr0_main_arg10 (c : Dev nD) : Wr0 m c (Proc.devRef .tc main_arg10) = m ((c : Thread nD τ).loc main_arg10) := (Wr0_of_ne m c main_arg10 (by decide)).trans (keepWh0_main_arg10 m c)
theorem keepWh1_main_arg10 (c : Dev nD) : Wh1 m c (Proc.devRef .tc main_arg10) = m ((c : Thread nD τ).loc main_arg10) := (Wh1_of m c main_arg10 (by decide)).trans (keepWr0_main_arg10 m c)
theorem keepWr1_main_arg10 (c : Dev nD) : Wr1 m c (Proc.devRef .tc main_arg10) = m ((c : Thread nD τ).loc main_arg10) := (Wr1_of_ne m c main_arg10 (by decide)).trans (keepWh1_main_arg10 m c)
theorem keepWh2_main_arg10 (c : Dev nD) : Wh2 m c (Proc.devRef .tc main_arg10) = m ((c : Thread nD τ).loc main_arg10) := (Wh2_of m c main_arg10 (by decide)).trans (keepWr1_main_arg10 m c)
theorem keepWr2_main_arg10 (c : Dev nD) : Wr2 m c (Proc.devRef .tc main_arg10) = m ((c : Thread nD τ).loc main_arg10) := (Wr2_of_ne m c main_arg10 (by decide)).trans (keepWh2_main_arg10 m c)
theorem keepWh3_main_arg10 (c : Dev nD) : Wh3 m c (Proc.devRef .tc main_arg10) = m ((c : Thread nD τ).loc main_arg10) := (Wh3_of m c main_arg10 (by decide)).trans (keepWr2_main_arg10 m c)
theorem keepWr3_main_arg10 (c : Dev nD) : Wr3 m c (Proc.devRef .tc main_arg10) = m ((c : Thread nD τ).loc main_arg10) := (Wr3_of_ne m c main_arg10 (by decide)).trans (keepWh3_main_arg10 m c)
theorem keepWh4_main_arg10 (c : Dev nD) : Wh4 m c (Proc.devRef .tc main_arg10) = m ((c : Thread nD τ).loc main_arg10) := (Wh4_of m c main_arg10 (by decide)).trans (keepWr3_main_arg10 m c)
theorem keepWr4_main_arg10 (c : Dev nD) : Wr4 m c (Proc.devRef .tc main_arg10) = m ((c : Thread nD τ).loc main_arg10) := (Wr4_of_ne m c main_arg10 (by decide)).trans (keepWh4_main_arg10 m c)
theorem keepWh5_main_arg10 (c : Dev nD) : Wh5 m c (Proc.devRef .tc main_arg10) = m ((c : Thread nD τ).loc main_arg10) := (Wh5_of m c main_arg10 (by decide)).trans (keepWr4_main_arg10 m c)
theorem keepWr5_main_arg10 (c : Dev nD) : Wr5 m c (Proc.devRef .tc main_arg10) = m ((c : Thread nD τ).loc main_arg10) := (Wr5_of_ne m c main_arg10 (by decide)).trans (keepWh5_main_arg10 m c)
theorem keepWh6_main_arg10 (c : Dev nD) : Wh6 m c (Proc.devRef .tc main_arg10) = m ((c : Thread nD τ).loc main_arg10) := (Wh6_of m c main_arg10 (by decide)).trans (keepWr5_main_arg10 m c)
theorem keepWr6_main_arg10 (c : Dev nD) : Wr6 m c (Proc.devRef .tc main_arg10) = m ((c : Thread nD τ).loc main_arg10) := (Wr6_of_ne m c main_arg10 (by decide)).trans (keepWh6_main_arg10 m c)
theorem keepWh7_main_arg10 (c : Dev nD) : Wh7 m c (Proc.devRef .tc main_arg10) = m ((c : Thread nD τ).loc main_arg10) := (Wh7_of m c main_arg10 (by decide)).trans (keepWr6_main_arg10 m c)
theorem keepWr7_main_arg10 (c : Dev nD) : Wr7 m c (Proc.devRef .tc main_arg10) = m ((c : Thread nD τ).loc main_arg10) := (Wr7_of_ne m c main_arg10 (by decide)).trans (keepWh7_main_arg10 m c)
theorem keepWh8_main_arg10 (c : Dev nD) : Wh8 m c (Proc.devRef .tc main_arg10) = m ((c : Thread nD τ).loc main_arg10) := (Wh8_of m c main_arg10 (by decide)).trans (keepWr7_main_arg10 m c)
theorem keepWr8_main_arg10 (c : Dev nD) : Wr8 m c (Proc.devRef .tc main_arg10) = m ((c : Thread nD τ).loc main_arg10) := (Wr8_of_ne m c main_arg10 (by decide)).trans (keepWh8_main_arg10 m c)
theorem keepWh9_main_arg10 (c : Dev nD) : Wh9 m c (Proc.devRef .tc main_arg10) = m ((c : Thread nD τ).loc main_arg10) := (Wh9_of m c main_arg10 (by decide)).trans (keepWr8_main_arg10 m c)
theorem keepWr9_main_arg10 (c : Dev nD) : Wr9 m c (Proc.devRef .tc main_arg10) = m ((c : Thread nD τ).loc main_arg10) := (Wr9_of_ne m c main_arg10 (by decide)).trans (keepWh9_main_arg10 m c)
theorem keepWh10_main_arg10 (c : Dev nD) : Wh10 m c (Proc.devRef .tc main_arg10) = m ((c : Thread nD τ).loc main_arg10) := (Wh10_of m c main_arg10 (by decide)).trans (keepWr9_main_arg10 m c)
theorem keepWr10_main_arg10 (c : Dev nD) : Wr10 m c (Proc.devRef .tc main_arg10) = m ((c : Thread nD τ).loc main_arg10) := (Wr10_of_ne m c main_arg10 (by decide)).trans (keepWh10_main_arg10 m c)
theorem keepWh11_main_arg10 (c : Dev nD) : Wh11 m c (Proc.devRef .tc main_arg10) = m ((c : Thread nD τ).loc main_arg10) := (Wh11_of m c main_arg10 (by decide)).trans (keepWr10_main_arg10 m c)
theorem keepWr11_main_arg10 (c : Dev nD) : Wr11 m c (Proc.devRef .tc main_arg10) = m ((c : Thread nD τ).loc main_arg10) := (Wr11_of_ne m c main_arg10 (by decide)).trans (keepWh11_main_arg10 m c)
theorem keepWh12_main_arg10 (c : Dev nD) : Wh12 m c (Proc.devRef .tc main_arg10) = m ((c : Thread nD τ).loc main_arg10) := (Wh12_of m c main_arg10 (by decide)).trans (keepWr11_main_arg10 m c)

theorem keepWh0_main_arg11 (c : Dev nD) : Wh0 m c (Proc.devRef .tc main_arg11) = m ((c : Thread nD τ).loc main_arg11) := (Wh0_of m c main_arg11 (by decide)).trans rfl
theorem keepWr0_main_arg11 (c : Dev nD) : Wr0 m c (Proc.devRef .tc main_arg11) = m ((c : Thread nD τ).loc main_arg11) := (Wr0_of_ne m c main_arg11 (by decide)).trans (keepWh0_main_arg11 m c)
theorem keepWh1_main_arg11 (c : Dev nD) : Wh1 m c (Proc.devRef .tc main_arg11) = m ((c : Thread nD τ).loc main_arg11) := (Wh1_of m c main_arg11 (by decide)).trans (keepWr0_main_arg11 m c)
theorem keepWr1_main_arg11 (c : Dev nD) : Wr1 m c (Proc.devRef .tc main_arg11) = m ((c : Thread nD τ).loc main_arg11) := (Wr1_of_ne m c main_arg11 (by decide)).trans (keepWh1_main_arg11 m c)
theorem keepWh2_main_arg11 (c : Dev nD) : Wh2 m c (Proc.devRef .tc main_arg11) = m ((c : Thread nD τ).loc main_arg11) := (Wh2_of m c main_arg11 (by decide)).trans (keepWr1_main_arg11 m c)
theorem keepWr2_main_arg11 (c : Dev nD) : Wr2 m c (Proc.devRef .tc main_arg11) = m ((c : Thread nD τ).loc main_arg11) := (Wr2_of_ne m c main_arg11 (by decide)).trans (keepWh2_main_arg11 m c)
theorem keepWh3_main_arg11 (c : Dev nD) : Wh3 m c (Proc.devRef .tc main_arg11) = m ((c : Thread nD τ).loc main_arg11) := (Wh3_of m c main_arg11 (by decide)).trans (keepWr2_main_arg11 m c)
theorem keepWr3_main_arg11 (c : Dev nD) : Wr3 m c (Proc.devRef .tc main_arg11) = m ((c : Thread nD τ).loc main_arg11) := (Wr3_of_ne m c main_arg11 (by decide)).trans (keepWh3_main_arg11 m c)
theorem keepWh4_main_arg11 (c : Dev nD) : Wh4 m c (Proc.devRef .tc main_arg11) = m ((c : Thread nD τ).loc main_arg11) := (Wh4_of m c main_arg11 (by decide)).trans (keepWr3_main_arg11 m c)
theorem keepWr4_main_arg11 (c : Dev nD) : Wr4 m c (Proc.devRef .tc main_arg11) = m ((c : Thread nD τ).loc main_arg11) := (Wr4_of_ne m c main_arg11 (by decide)).trans (keepWh4_main_arg11 m c)
theorem keepWh5_main_arg11 (c : Dev nD) : Wh5 m c (Proc.devRef .tc main_arg11) = m ((c : Thread nD τ).loc main_arg11) := (Wh5_of m c main_arg11 (by decide)).trans (keepWr4_main_arg11 m c)
theorem keepWr5_main_arg11 (c : Dev nD) : Wr5 m c (Proc.devRef .tc main_arg11) = m ((c : Thread nD τ).loc main_arg11) := (Wr5_of_ne m c main_arg11 (by decide)).trans (keepWh5_main_arg11 m c)
theorem keepWh6_main_arg11 (c : Dev nD) : Wh6 m c (Proc.devRef .tc main_arg11) = m ((c : Thread nD τ).loc main_arg11) := (Wh6_of m c main_arg11 (by decide)).trans (keepWr5_main_arg11 m c)
theorem keepWr6_main_arg11 (c : Dev nD) : Wr6 m c (Proc.devRef .tc main_arg11) = m ((c : Thread nD τ).loc main_arg11) := (Wr6_of_ne m c main_arg11 (by decide)).trans (keepWh6_main_arg11 m c)
theorem keepWh7_main_arg11 (c : Dev nD) : Wh7 m c (Proc.devRef .tc main_arg11) = m ((c : Thread nD τ).loc main_arg11) := (Wh7_of m c main_arg11 (by decide)).trans (keepWr6_main_arg11 m c)
theorem keepWr7_main_arg11 (c : Dev nD) : Wr7 m c (Proc.devRef .tc main_arg11) = m ((c : Thread nD τ).loc main_arg11) := (Wr7_of_ne m c main_arg11 (by decide)).trans (keepWh7_main_arg11 m c)
theorem keepWh8_main_arg11 (c : Dev nD) : Wh8 m c (Proc.devRef .tc main_arg11) = m ((c : Thread nD τ).loc main_arg11) := (Wh8_of m c main_arg11 (by decide)).trans (keepWr7_main_arg11 m c)
theorem keepWr8_main_arg11 (c : Dev nD) : Wr8 m c (Proc.devRef .tc main_arg11) = m ((c : Thread nD τ).loc main_arg11) := (Wr8_of_ne m c main_arg11 (by decide)).trans (keepWh8_main_arg11 m c)
theorem keepWh9_main_arg11 (c : Dev nD) : Wh9 m c (Proc.devRef .tc main_arg11) = m ((c : Thread nD τ).loc main_arg11) := (Wh9_of m c main_arg11 (by decide)).trans (keepWr8_main_arg11 m c)
theorem keepWr9_main_arg11 (c : Dev nD) : Wr9 m c (Proc.devRef .tc main_arg11) = m ((c : Thread nD τ).loc main_arg11) := (Wr9_of_ne m c main_arg11 (by decide)).trans (keepWh9_main_arg11 m c)
theorem keepWh10_main_arg11 (c : Dev nD) : Wh10 m c (Proc.devRef .tc main_arg11) = m ((c : Thread nD τ).loc main_arg11) := (Wh10_of m c main_arg11 (by decide)).trans (keepWr9_main_arg11 m c)
theorem keepWr10_main_arg11 (c : Dev nD) : Wr10 m c (Proc.devRef .tc main_arg11) = m ((c : Thread nD τ).loc main_arg11) := (Wr10_of_ne m c main_arg11 (by decide)).trans (keepWh10_main_arg11 m c)
theorem keepWh11_main_arg11 (c : Dev nD) : Wh11 m c (Proc.devRef .tc main_arg11) = m ((c : Thread nD τ).loc main_arg11) := (Wh11_of m c main_arg11 (by decide)).trans (keepWr10_main_arg11 m c)
theorem keepWr11_main_arg11 (c : Dev nD) : Wr11 m c (Proc.devRef .tc main_arg11) = m ((c : Thread nD τ).loc main_arg11) := (Wr11_of_ne m c main_arg11 (by decide)).trans (keepWh11_main_arg11 m c)

theorem keepWh0_main_arg12 (c : Dev nD) : Wh0 m c (Proc.devRef .tc main_arg12) = m ((c : Thread nD τ).loc main_arg12) := (Wh0_of m c main_arg12 (by decide)).trans rfl
theorem keepWr0_main_arg12 (c : Dev nD) : Wr0 m c (Proc.devRef .tc main_arg12) = m ((c : Thread nD τ).loc main_arg12) := (Wr0_of_ne m c main_arg12 (by decide)).trans (keepWh0_main_arg12 m c)
theorem keepWh1_main_arg12 (c : Dev nD) : Wh1 m c (Proc.devRef .tc main_arg12) = m ((c : Thread nD τ).loc main_arg12) := (Wh1_of m c main_arg12 (by decide)).trans (keepWr0_main_arg12 m c)
theorem keepWr1_main_arg12 (c : Dev nD) : Wr1 m c (Proc.devRef .tc main_arg12) = m ((c : Thread nD τ).loc main_arg12) := (Wr1_of_ne m c main_arg12 (by decide)).trans (keepWh1_main_arg12 m c)
theorem keepWh2_main_arg12 (c : Dev nD) : Wh2 m c (Proc.devRef .tc main_arg12) = m ((c : Thread nD τ).loc main_arg12) := (Wh2_of m c main_arg12 (by decide)).trans (keepWr1_main_arg12 m c)
theorem keepWr2_main_arg12 (c : Dev nD) : Wr2 m c (Proc.devRef .tc main_arg12) = m ((c : Thread nD τ).loc main_arg12) := (Wr2_of_ne m c main_arg12 (by decide)).trans (keepWh2_main_arg12 m c)
theorem keepWh3_main_arg12 (c : Dev nD) : Wh3 m c (Proc.devRef .tc main_arg12) = m ((c : Thread nD τ).loc main_arg12) := (Wh3_of m c main_arg12 (by decide)).trans (keepWr2_main_arg12 m c)
theorem keepWr3_main_arg12 (c : Dev nD) : Wr3 m c (Proc.devRef .tc main_arg12) = m ((c : Thread nD τ).loc main_arg12) := (Wr3_of_ne m c main_arg12 (by decide)).trans (keepWh3_main_arg12 m c)
theorem keepWh4_main_arg12 (c : Dev nD) : Wh4 m c (Proc.devRef .tc main_arg12) = m ((c : Thread nD τ).loc main_arg12) := (Wh4_of m c main_arg12 (by decide)).trans (keepWr3_main_arg12 m c)
theorem keepWr4_main_arg12 (c : Dev nD) : Wr4 m c (Proc.devRef .tc main_arg12) = m ((c : Thread nD τ).loc main_arg12) := (Wr4_of_ne m c main_arg12 (by decide)).trans (keepWh4_main_arg12 m c)
theorem keepWh5_main_arg12 (c : Dev nD) : Wh5 m c (Proc.devRef .tc main_arg12) = m ((c : Thread nD τ).loc main_arg12) := (Wh5_of m c main_arg12 (by decide)).trans (keepWr4_main_arg12 m c)
theorem keepWr5_main_arg12 (c : Dev nD) : Wr5 m c (Proc.devRef .tc main_arg12) = m ((c : Thread nD τ).loc main_arg12) := (Wr5_of_ne m c main_arg12 (by decide)).trans (keepWh5_main_arg12 m c)
theorem keepWh6_main_arg12 (c : Dev nD) : Wh6 m c (Proc.devRef .tc main_arg12) = m ((c : Thread nD τ).loc main_arg12) := (Wh6_of m c main_arg12 (by decide)).trans (keepWr5_main_arg12 m c)
theorem keepWr6_main_arg12 (c : Dev nD) : Wr6 m c (Proc.devRef .tc main_arg12) = m ((c : Thread nD τ).loc main_arg12) := (Wr6_of_ne m c main_arg12 (by decide)).trans (keepWh6_main_arg12 m c)
theorem keepWh7_main_arg12 (c : Dev nD) : Wh7 m c (Proc.devRef .tc main_arg12) = m ((c : Thread nD τ).loc main_arg12) := (Wh7_of m c main_arg12 (by decide)).trans (keepWr6_main_arg12 m c)
theorem keepWr7_main_arg12 (c : Dev nD) : Wr7 m c (Proc.devRef .tc main_arg12) = m ((c : Thread nD τ).loc main_arg12) := (Wr7_of_ne m c main_arg12 (by decide)).trans (keepWh7_main_arg12 m c)
theorem keepWh8_main_arg12 (c : Dev nD) : Wh8 m c (Proc.devRef .tc main_arg12) = m ((c : Thread nD τ).loc main_arg12) := (Wh8_of m c main_arg12 (by decide)).trans (keepWr7_main_arg12 m c)
theorem keepWr8_main_arg12 (c : Dev nD) : Wr8 m c (Proc.devRef .tc main_arg12) = m ((c : Thread nD τ).loc main_arg12) := (Wr8_of_ne m c main_arg12 (by decide)).trans (keepWh8_main_arg12 m c)
theorem keepWh9_main_arg12 (c : Dev nD) : Wh9 m c (Proc.devRef .tc main_arg12) = m ((c : Thread nD τ).loc main_arg12) := (Wh9_of m c main_arg12 (by decide)).trans (keepWr8_main_arg12 m c)
theorem keepWr9_main_arg12 (c : Dev nD) : Wr9 m c (Proc.devRef .tc main_arg12) = m ((c : Thread nD τ).loc main_arg12) := (Wr9_of_ne m c main_arg12 (by decide)).trans (keepWh9_main_arg12 m c)
theorem keepWh10_main_arg12 (c : Dev nD) : Wh10 m c (Proc.devRef .tc main_arg12) = m ((c : Thread nD τ).loc main_arg12) := (Wh10_of m c main_arg12 (by decide)).trans (keepWr9_main_arg12 m c)
theorem keepWr10_main_arg12 (c : Dev nD) : Wr10 m c (Proc.devRef .tc main_arg12) = m ((c : Thread nD τ).loc main_arg12) := (Wr10_of_ne m c main_arg12 (by decide)).trans (keepWh10_main_arg12 m c)
theorem keepWh11_main_arg12 (c : Dev nD) : Wh11 m c (Proc.devRef .tc main_arg12) = m ((c : Thread nD τ).loc main_arg12) := (Wh11_of m c main_arg12 (by decide)).trans (keepWr10_main_arg12 m c)
theorem keepWr11_main_arg12 (c : Dev nD) : Wr11 m c (Proc.devRef .tc main_arg12) = m ((c : Thread nD τ).loc main_arg12) := (Wr11_of_ne m c main_arg12 (by decide)).trans (keepWh11_main_arg12 m c)
theorem keepWh12_main_arg12 (c : Dev nD) : Wh12 m c (Proc.devRef .tc main_arg12) = m ((c : Thread nD τ).loc main_arg12) := (Wh12_of m c main_arg12 (by decide)).trans (keepWr11_main_arg12 m c)

theorem keepWh0_main_arg13 (c : Dev nD) : Wh0 m c (Proc.devRef .tc main_arg13) = m ((c : Thread nD τ).loc main_arg13) := (Wh0_of m c main_arg13 (by decide)).trans rfl
theorem keepWr0_main_arg13 (c : Dev nD) : Wr0 m c (Proc.devRef .tc main_arg13) = m ((c : Thread nD τ).loc main_arg13) := (Wr0_of_ne m c main_arg13 (by decide)).trans (keepWh0_main_arg13 m c)
theorem keepWh1_main_arg13 (c : Dev nD) : Wh1 m c (Proc.devRef .tc main_arg13) = m ((c : Thread nD τ).loc main_arg13) := (Wh1_of m c main_arg13 (by decide)).trans (keepWr0_main_arg13 m c)
theorem keepWr1_main_arg13 (c : Dev nD) : Wr1 m c (Proc.devRef .tc main_arg13) = m ((c : Thread nD τ).loc main_arg13) := (Wr1_of_ne m c main_arg13 (by decide)).trans (keepWh1_main_arg13 m c)
theorem keepWh2_main_arg13 (c : Dev nD) : Wh2 m c (Proc.devRef .tc main_arg13) = m ((c : Thread nD τ).loc main_arg13) := (Wh2_of m c main_arg13 (by decide)).trans (keepWr1_main_arg13 m c)
theorem keepWr2_main_arg13 (c : Dev nD) : Wr2 m c (Proc.devRef .tc main_arg13) = m ((c : Thread nD τ).loc main_arg13) := (Wr2_of_ne m c main_arg13 (by decide)).trans (keepWh2_main_arg13 m c)
theorem keepWh3_main_arg13 (c : Dev nD) : Wh3 m c (Proc.devRef .tc main_arg13) = m ((c : Thread nD τ).loc main_arg13) := (Wh3_of m c main_arg13 (by decide)).trans (keepWr2_main_arg13 m c)
theorem keepWr3_main_arg13 (c : Dev nD) : Wr3 m c (Proc.devRef .tc main_arg13) = m ((c : Thread nD τ).loc main_arg13) := (Wr3_of_ne m c main_arg13 (by decide)).trans (keepWh3_main_arg13 m c)
theorem keepWh4_main_arg13 (c : Dev nD) : Wh4 m c (Proc.devRef .tc main_arg13) = m ((c : Thread nD τ).loc main_arg13) := (Wh4_of m c main_arg13 (by decide)).trans (keepWr3_main_arg13 m c)
theorem keepWr4_main_arg13 (c : Dev nD) : Wr4 m c (Proc.devRef .tc main_arg13) = m ((c : Thread nD τ).loc main_arg13) := (Wr4_of_ne m c main_arg13 (by decide)).trans (keepWh4_main_arg13 m c)
theorem keepWh5_main_arg13 (c : Dev nD) : Wh5 m c (Proc.devRef .tc main_arg13) = m ((c : Thread nD τ).loc main_arg13) := (Wh5_of m c main_arg13 (by decide)).trans (keepWr4_main_arg13 m c)
theorem keepWr5_main_arg13 (c : Dev nD) : Wr5 m c (Proc.devRef .tc main_arg13) = m ((c : Thread nD τ).loc main_arg13) := (Wr5_of_ne m c main_arg13 (by decide)).trans (keepWh5_main_arg13 m c)
theorem keepWh6_main_arg13 (c : Dev nD) : Wh6 m c (Proc.devRef .tc main_arg13) = m ((c : Thread nD τ).loc main_arg13) := (Wh6_of m c main_arg13 (by decide)).trans (keepWr5_main_arg13 m c)
theorem keepWr6_main_arg13 (c : Dev nD) : Wr6 m c (Proc.devRef .tc main_arg13) = m ((c : Thread nD τ).loc main_arg13) := (Wr6_of_ne m c main_arg13 (by decide)).trans (keepWh6_main_arg13 m c)
theorem keepWh7_main_arg13 (c : Dev nD) : Wh7 m c (Proc.devRef .tc main_arg13) = m ((c : Thread nD τ).loc main_arg13) := (Wh7_of m c main_arg13 (by decide)).trans (keepWr6_main_arg13 m c)
theorem keepWr7_main_arg13 (c : Dev nD) : Wr7 m c (Proc.devRef .tc main_arg13) = m ((c : Thread nD τ).loc main_arg13) := (Wr7_of_ne m c main_arg13 (by decide)).trans (keepWh7_main_arg13 m c)
theorem keepWh8_main_arg13 (c : Dev nD) : Wh8 m c (Proc.devRef .tc main_arg13) = m ((c : Thread nD τ).loc main_arg13) := (Wh8_of m c main_arg13 (by decide)).trans (keepWr7_main_arg13 m c)
theorem keepWr8_main_arg13 (c : Dev nD) : Wr8 m c (Proc.devRef .tc main_arg13) = m ((c : Thread nD τ).loc main_arg13) := (Wr8_of_ne m c main_arg13 (by decide)).trans (keepWh8_main_arg13 m c)
theorem keepWh9_main_arg13 (c : Dev nD) : Wh9 m c (Proc.devRef .tc main_arg13) = m ((c : Thread nD τ).loc main_arg13) := (Wh9_of m c main_arg13 (by decide)).trans (keepWr8_main_arg13 m c)
theorem keepWr9_main_arg13 (c : Dev nD) : Wr9 m c (Proc.devRef .tc main_arg13) = m ((c : Thread nD τ).loc main_arg13) := (Wr9_of_ne m c main_arg13 (by decide)).trans (keepWh9_main_arg13 m c)
theorem keepWh10_main_arg13 (c : Dev nD) : Wh10 m c (Proc.devRef .tc main_arg13) = m ((c : Thread nD τ).loc main_arg13) := (Wh10_of m c main_arg13 (by decide)).trans (keepWr9_main_arg13 m c)
theorem keepWr10_main_arg13 (c : Dev nD) : Wr10 m c (Proc.devRef .tc main_arg13) = m ((c : Thread nD τ).loc main_arg13) := (Wr10_of_ne m c main_arg13 (by decide)).trans (keepWh10_main_arg13 m c)
theorem keepWh11_main_arg13 (c : Dev nD) : Wh11 m c (Proc.devRef .tc main_arg13) = m ((c : Thread nD τ).loc main_arg13) := (Wh11_of m c main_arg13 (by decide)).trans (keepWr10_main_arg13 m c)
theorem keepWr11_main_arg13 (c : Dev nD) : Wr11 m c (Proc.devRef .tc main_arg13) = m ((c : Thread nD τ).loc main_arg13) := (Wr11_of_ne m c main_arg13 (by decide)).trans (keepWh11_main_arg13 m c)

/-! ## Each region's entry arrays -/

/-! ### Layer 0: regions 0, 1, 2 -/

/-- The features the perceptron reads: the input features as launched. -/
theorem entry0_0 (c : Dev nD) : Vh0 m c (Pipeline.arrRef spec0 0) = m ((c : Thread nD τ).loc main_arg0) :=
  (Wh0_of m c main_arg0 (by decide)).trans rfl
/-- Their neighbourhood sums. -/
theorem entry0_1 (c : Dev nD) : Vh0 m c (Pipeline.arrRef spec0 1) = edgeAgg (F := F) (m ((c : Thread nD τ).loc main_arg0)) (srcIds m c) (dstIds m c) :=
  host0_v26 (Wl m c)
/-- The membership matrix. -/
theorem entry0_2 (c : Dev nD) : Vh0 m c (Pipeline.arrRef spec0 2) = memb m c :=
  keepWh0_main_v10 m c
/-- The first weight matrix of the layer. -/
theorem entry0_3 (c : Dev nD) : Vh0 m c (Pipeline.arrRef spec0 3) = paramMat (F := F) ![0, 0, 0] slices_S4x128x128_S1x128x128_0_0_0 (m ((c : Thread nD τ).loc main_arg1)) :=
  host0_v28 (Wl m c)
/-- The first bias row of the layer. -/
theorem entry0_4 (c : Dev nD) : Vh0 m c (Pipeline.arrRef spec0 4) = paramRow (F := F) ![0, 0] slices_S4x128_S1x128_0_0 (m ((c : Thread nD τ).loc main_arg2)) :=
  host0_v35 (Wl m c)
/-- The second weight matrix of the layer. -/
theorem entry0_5 (c : Dev nD) : Vh0 m c (Pipeline.arrRef spec0 5) = paramMat (F := F) ![0, 0, 0] slices_S4x128x128_S1x128x128_0_0_0 (m ((c : Thread nD τ).loc main_arg3)) :=
  host0_v32 (Wl m c)
/-- The second bias row of the layer. -/
theorem entry0_6 (c : Dev nD) : Vh0 m c (Pipeline.arrRef spec0 6) = paramRow (F := F) ![0, 0] slices_S4x128_S1x128_0_0 (m ((c : Thread nD τ).loc main_arg4)) :=
  host0_v36 (Wl m c)
/-- The perceptron's rows, as the region before left them. -/
theorem entry1_0 (c : Dev nD) : Vh1 m c (Pipeline.arrRef spec1 0) = (dat0 (Vh0 m) c).arrAt 7 cfg0.N :=
  (Wh1_of m c main_v37_0 (by decide)).trans (Wr0_arr m c 7)
/-- The membership matrix. -/
theorem entry1_1 (c : Dev nD) : Vh1 m c (Pipeline.arrRef spec1 1) = memb m c :=
  keepWh1_main_v10 m c
/-- The per-graph means: the region before's per-graph sums over the counts. -/
theorem entry1_2 (c : Dev nD) : Vh1 m c (Pipeline.arrRef spec1 2) = perGraph (F := F) ((dat0 (Vh0 m) c).arrAt 8 cfg0.N) (counts m c) :=
  (host1_v39 (Wr0 m c)).trans (congr (congrArg (perGraph (F := F)) (Wr0_arr m c 8)) (keepWr0_main_v16 m c))
/-- The layer's mean-scale row. -/
theorem entry1_3 (c : Dev nD) : Vh1 m c (Pipeline.arrRef spec1 3) = paramRow (F := F) ![0, 0] slices_S4x128_S1x128_0_0 (m ((c : Thread nD τ).loc main_arg7)) :=
  (host1_v42 (Wr0 m c)).trans (congrArg (paramRow (F := F) ![0, 0] slices_S4x128_S1x128_0_0) (keepWr0_main_arg7 m c))
/-- The centred rows, as the region before left them. -/
theorem entry2_0 (c : Dev nD) : Vh2 m c (Pipeline.arrRef spec2 0) = (dat1 (Vh1 m) c).arrAt 4 cfg1.N :=
  (Wh2_of m c main_v43_0 (by decide)).trans (Wr1_arr m c 4)
/-- The membership matrix. -/
theorem entry2_1 (c : Dev nD) : Vh2 m c (Pipeline.arrRef spec2 1) = memb m c :=
  keepWh2_main_v10 m c
/-- The per-graph variances: the region before's per-graph sums of squares over the counts. -/
theorem entry2_2 (c : Dev nD) : Vh2 m c (Pipeline.arrRef spec2 2) = perGraph (F := F) ((dat1 (Vh1 m) c).arrAt 5 cfg1.N) (counts m c) :=
  (host2_v45 (Wr1 m c)).trans (congr (congrArg (perGraph (F := F)) (Wr1_arr m c 5)) (keepWr1_main_v16 m c))
/-- The layer's scale row. -/
theorem entry2_3 (c : Dev nD) : Vh2 m c (Pipeline.arrRef spec2 3) = paramRow (F := F) ![0, 0] slices_S4x128_S1x128_0_0 (m ((c : Thread nD τ).loc main_arg5)) :=
  (host2_v50 (Wr1 m c)).trans (congrArg (paramRow (F := F) ![0, 0] slices_S4x128_S1x128_0_0) (keepWr1_main_arg5 m c))
/-- The layer's shift row. -/
theorem entry2_4 (c : Dev nD) : Vh2 m c (Pipeline.arrRef spec2 4) = paramRow (F := F) ![0, 0] slices_S4x128_S1x128_0_0 (m ((c : Thread nD τ).loc main_arg6)) :=
  (host2_v51 (Wr1 m c)).trans (congrArg (paramRow (F := F) ![0, 0] slices_S4x128_S1x128_0_0) (keepWr1_main_arg6 m c))

/-! ### Layer 1: regions 3, 4, 5 -/

/-- The features the perceptron reads: what the layer before left. -/
theorem entry3_0 (c : Dev nD) : Vh3 m c (Pipeline.arrRef spec3 0) = (dat2 (Vh2 m) c).arrAt 5 cfg2.N :=
  (Wh3_of m c main_v52 (by decide)).trans (Wr2_arr m c 5)
/-- Their neighbourhood sums. -/
theorem entry3_1 (c : Dev nD) : Vh3 m c (Pipeline.arrRef spec3 1) = edgeAgg (F := F) ((dat2 (Vh2 m) c).arrAt 5 cfg2.N) (srcIds m c) (dstIds m c) :=
  (host3_v62 (Wr2 m c)).trans (congr (congr (congrArg (edgeAgg (F := F)) (Wr2_arr m c 5)) (keepWr2_main_v1 m c)) (keepWr2_main_v3 m c))
/-- The membership matrix. -/
theorem entry3_2 (c : Dev nD) : Vh3 m c (Pipeline.arrRef spec3 2) = memb m c :=
  keepWh3_main_v10 m c
/-- The first weight matrix of the layer. -/
theorem entry3_3 (c : Dev nD) : Vh3 m c (Pipeline.arrRef spec3 3) = paramMat (F := F) ![1, 0, 0] slices_S4x128x128_S1x128x128_1_0_0 (m ((c : Thread nD τ).loc main_arg1)) :=
  (host3_v64 (Wr2 m c)).trans (congrArg (paramMat (F := F) ![1, 0, 0] slices_S4x128x128_S1x128x128_1_0_0) (keepWr2_main_arg1 m c))
/-- The first bias row of the layer. -/
theorem entry3_4 (c : Dev nD) : Vh3 m c (Pipeline.arrRef spec3 4) = paramRow (F := F) ![1, 0] slices_S4x128_S1x128_1_0 (m ((c : Thread nD τ).loc main_arg2)) :=
  (host3_v71 (Wr2 m c)).trans (congrArg (paramRow (F := F) ![1, 0] slices_S4x128_S1x128_1_0) (keepWr2_main_arg2 m c))
/-- The second weight matrix of the layer. -/
theorem entry3_5 (c : Dev nD) : Vh3 m c (Pipeline.arrRef spec3 5) = paramMat (F := F) ![1, 0, 0] slices_S4x128x128_S1x128x128_1_0_0 (m ((c : Thread nD τ).loc main_arg3)) :=
  (host3_v68 (Wr2 m c)).trans (congrArg (paramMat (F := F) ![1, 0, 0] slices_S4x128x128_S1x128x128_1_0_0) (keepWr2_main_arg3 m c))
/-- The second bias row of the layer. -/
theorem entry3_6 (c : Dev nD) : Vh3 m c (Pipeline.arrRef spec3 6) = paramRow (F := F) ![1, 0] slices_S4x128_S1x128_1_0 (m ((c : Thread nD τ).loc main_arg4)) :=
  (host3_v72 (Wr2 m c)).trans (congrArg (paramRow (F := F) ![1, 0] slices_S4x128_S1x128_1_0) (keepWr2_main_arg4 m c))
/-- The perceptron's rows, as the region before left them. -/
theorem entry4_0 (c : Dev nD) : Vh4 m c (Pipeline.arrRef spec4 0) = (dat3 (Vh3 m) c).arrAt 7 cfg3.N :=
  (Wh4_of m c main_v73_0 (by decide)).trans (Wr3_arr m c 7)
/-- The membership matrix. -/
theorem entry4_1 (c : Dev nD) : Vh4 m c (Pipeline.arrRef spec4 1) = memb m c :=
  keepWh4_main_v10 m c
/-- The per-graph means: the region before's per-graph sums over the counts. -/
theorem entry4_2 (c : Dev nD) : Vh4 m c (Pipeline.arrRef spec4 2) = perGraph (F := F) ((dat3 (Vh3 m) c).arrAt 8 cfg3.N) (counts m c) :=
  (host4_v75 (Wr3 m c)).trans (congr (congrArg (perGraph (F := F)) (Wr3_arr m c 8)) (keepWr3_main_v16 m c))
/-- The layer's mean-scale row. -/
theorem entry4_3 (c : Dev nD) : Vh4 m c (Pipeline.arrRef spec4 3) = paramRow (F := F) ![1, 0] slices_S4x128_S1x128_1_0 (m ((c : Thread nD τ).loc main_arg7)) :=
  (host4_v78 (Wr3 m c)).trans (congrArg (paramRow (F := F) ![1, 0] slices_S4x128_S1x128_1_0) (keepWr3_main_arg7 m c))
/-- The centred rows, as the region before left them. -/
theorem entry5_0 (c : Dev nD) : Vh5 m c (Pipeline.arrRef spec5 0) = (dat4 (Vh4 m) c).arrAt 4 cfg4.N :=
  (Wh5_of m c main_v79_0 (by decide)).trans (Wr4_arr m c 4)
/-- The membership matrix. -/
theorem entry5_1 (c : Dev nD) : Vh5 m c (Pipeline.arrRef spec5 1) = memb m c :=
  keepWh5_main_v10 m c
/-- The per-graph variances: the region before's per-graph sums of squares over the counts. -/
theorem entry5_2 (c : Dev nD) : Vh5 m c (Pipeline.arrRef spec5 2) = perGraph (F := F) ((dat4 (Vh4 m) c).arrAt 5 cfg4.N) (counts m c) :=
  (host5_v81 (Wr4 m c)).trans (congr (congrArg (perGraph (F := F)) (Wr4_arr m c 5)) (keepWr4_main_v16 m c))
/-- The layer's scale row. -/
theorem entry5_3 (c : Dev nD) : Vh5 m c (Pipeline.arrRef spec5 3) = paramRow (F := F) ![1, 0] slices_S4x128_S1x128_1_0 (m ((c : Thread nD τ).loc main_arg5)) :=
  (host5_v86 (Wr4 m c)).trans (congrArg (paramRow (F := F) ![1, 0] slices_S4x128_S1x128_1_0) (keepWr4_main_arg5 m c))
/-- The layer's shift row. -/
theorem entry5_4 (c : Dev nD) : Vh5 m c (Pipeline.arrRef spec5 4) = paramRow (F := F) ![1, 0] slices_S4x128_S1x128_1_0 (m ((c : Thread nD τ).loc main_arg6)) :=
  (host5_v87 (Wr4 m c)).trans (congrArg (paramRow (F := F) ![1, 0] slices_S4x128_S1x128_1_0) (keepWr4_main_arg6 m c))

/-! ### Layer 2: regions 6, 7, 8 -/

/-- The features the perceptron reads: what the layer before left. -/
theorem entry6_0 (c : Dev nD) : Vh6 m c (Pipeline.arrRef spec6 0) = (dat5 (Vh5 m) c).arrAt 5 cfg5.N :=
  (Wh6_of m c main_v88 (by decide)).trans (Wr5_arr m c 5)
/-- Their neighbourhood sums. -/
theorem entry6_1 (c : Dev nD) : Vh6 m c (Pipeline.arrRef spec6 1) = edgeAgg (F := F) ((dat5 (Vh5 m) c).arrAt 5 cfg5.N) (srcIds m c) (dstIds m c) :=
  (host6_v98 (Wr5 m c)).trans (congr (congr (congrArg (edgeAgg (F := F)) (Wr5_arr m c 5)) (keepWr5_main_v1 m c)) (keepWr5_main_v3 m c))
/-- The membership matrix. -/
theorem entry6_2 (c : Dev nD) : Vh6 m c (Pipeline.arrRef spec6 2) = memb m c :=
  keepWh6_main_v10 m c
/-- The first weight matrix of the layer. -/
theorem entry6_3 (c : Dev nD) : Vh6 m c (Pipeline.arrRef spec6 3) = paramMat (F := F) ![2, 0, 0] slices_S4x128x128_S1x128x128_2_0_0 (m ((c : Thread nD τ).loc main_arg1)) :=
  (host6_v100 (Wr5 m c)).trans (congrArg (paramMat (F := F) ![2, 0, 0] slices_S4x128x128_S1x128x128_2_0_0) (keepWr5_main_arg1 m c))
/-- The first bias row of the layer. -/
theorem entry6_4 (c : Dev nD) : Vh6 m c (Pipeline.arrRef spec6 4) = paramRow (F := F) ![2, 0] slices_S4x128_S1x128_2_0 (m ((c : Thread nD τ).loc main_arg2)) :=
  (host6_v107 (Wr5 m c)).trans (congrArg (paramRow (F := F) ![2, 0] slices_S4x128_S1x128_2_0) (keepWr5_main_arg2 m c))
/-- The second weight matrix of the layer. -/
theorem entry6_5 (c : Dev nD) : Vh6 m c (Pipeline.arrRef spec6 5) = paramMat (F := F) ![2, 0, 0] slices_S4x128x128_S1x128x128_2_0_0 (m ((c : Thread nD τ).loc main_arg3)) :=
  (host6_v104 (Wr5 m c)).trans (congrArg (paramMat (F := F) ![2, 0, 0] slices_S4x128x128_S1x128x128_2_0_0) (keepWr5_main_arg3 m c))
/-- The second bias row of the layer. -/
theorem entry6_6 (c : Dev nD) : Vh6 m c (Pipeline.arrRef spec6 6) = paramRow (F := F) ![2, 0] slices_S4x128_S1x128_2_0 (m ((c : Thread nD τ).loc main_arg4)) :=
  (host6_v108 (Wr5 m c)).trans (congrArg (paramRow (F := F) ![2, 0] slices_S4x128_S1x128_2_0) (keepWr5_main_arg4 m c))
/-- The perceptron's rows, as the region before left them. -/
theorem entry7_0 (c : Dev nD) : Vh7 m c (Pipeline.arrRef spec7 0) = (dat6 (Vh6 m) c).arrAt 7 cfg6.N :=
  (Wh7_of m c main_v109_0 (by decide)).trans (Wr6_arr m c 7)
/-- The membership matrix. -/
theorem entry7_1 (c : Dev nD) : Vh7 m c (Pipeline.arrRef spec7 1) = memb m c :=
  keepWh7_main_v10 m c
/-- The per-graph means: the region before's per-graph sums over the counts. -/
theorem entry7_2 (c : Dev nD) : Vh7 m c (Pipeline.arrRef spec7 2) = perGraph (F := F) ((dat6 (Vh6 m) c).arrAt 8 cfg6.N) (counts m c) :=
  (host7_v111 (Wr6 m c)).trans (congr (congrArg (perGraph (F := F)) (Wr6_arr m c 8)) (keepWr6_main_v16 m c))
/-- The layer's mean-scale row. -/
theorem entry7_3 (c : Dev nD) : Vh7 m c (Pipeline.arrRef spec7 3) = paramRow (F := F) ![2, 0] slices_S4x128_S1x128_2_0 (m ((c : Thread nD τ).loc main_arg7)) :=
  (host7_v114 (Wr6 m c)).trans (congrArg (paramRow (F := F) ![2, 0] slices_S4x128_S1x128_2_0) (keepWr6_main_arg7 m c))
/-- The centred rows, as the region before left them. -/
theorem entry8_0 (c : Dev nD) : Vh8 m c (Pipeline.arrRef spec8 0) = (dat7 (Vh7 m) c).arrAt 4 cfg7.N :=
  (Wh8_of m c main_v115_0 (by decide)).trans (Wr7_arr m c 4)
/-- The membership matrix. -/
theorem entry8_1 (c : Dev nD) : Vh8 m c (Pipeline.arrRef spec8 1) = memb m c :=
  keepWh8_main_v10 m c
/-- The per-graph variances: the region before's per-graph sums of squares over the counts. -/
theorem entry8_2 (c : Dev nD) : Vh8 m c (Pipeline.arrRef spec8 2) = perGraph (F := F) ((dat7 (Vh7 m) c).arrAt 5 cfg7.N) (counts m c) :=
  (host8_v117 (Wr7 m c)).trans (congr (congrArg (perGraph (F := F)) (Wr7_arr m c 5)) (keepWr7_main_v16 m c))
/-- The layer's scale row. -/
theorem entry8_3 (c : Dev nD) : Vh8 m c (Pipeline.arrRef spec8 3) = paramRow (F := F) ![2, 0] slices_S4x128_S1x128_2_0 (m ((c : Thread nD τ).loc main_arg5)) :=
  (host8_v122 (Wr7 m c)).trans (congrArg (paramRow (F := F) ![2, 0] slices_S4x128_S1x128_2_0) (keepWr7_main_arg5 m c))
/-- The layer's shift row. -/
theorem entry8_4 (c : Dev nD) : Vh8 m c (Pipeline.arrRef spec8 4) = paramRow (F := F) ![2, 0] slices_S4x128_S1x128_2_0 (m ((c : Thread nD τ).loc main_arg6)) :=
  (host8_v123 (Wr7 m c)).trans (congrArg (paramRow (F := F) ![2, 0] slices_S4x128_S1x128_2_0) (keepWr7_main_arg6 m c))

/-! ### Layer 3: regions 9, 10, 11 -/

/-- The features the perceptron reads: what the layer before left. -/
theorem entry9_0 (c : Dev nD) : Vh9 m c (Pipeline.arrRef spec9 0) = (dat8 (Vh8 m) c).arrAt 5 cfg8.N :=
  (Wh9_of m c main_v124 (by decide)).trans (Wr8_arr m c 5)
/-- Their neighbourhood sums. -/
theorem entry9_1 (c : Dev nD) : Vh9 m c (Pipeline.arrRef spec9 1) = edgeAgg (F := F) ((dat8 (Vh8 m) c).arrAt 5 cfg8.N) (srcIds m c) (dstIds m c) :=
  (host9_v134 (Wr8 m c)).trans (congr (congr (congrArg (edgeAgg (F := F)) (Wr8_arr m c 5)) (keepWr8_main_v1 m c)) (keepWr8_main_v3 m c))
/-- The membership matrix. -/
theorem entry9_2 (c : Dev nD) : Vh9 m c (Pipeline.arrRef spec9 2) = memb m c :=
  keepWh9_main_v10 m c
/-- The first weight matrix of the layer. -/
theorem entry9_3 (c : Dev nD) : Vh9 m c (Pipeline.arrRef spec9 3) = paramMat (F := F) ![3, 0, 0] slices_S4x128x128_S1x128x128_3_0_0 (m ((c : Thread nD τ).loc main_arg1)) :=
  (host9_v136 (Wr8 m c)).trans (congrArg (paramMat (F := F) ![3, 0, 0] slices_S4x128x128_S1x128x128_3_0_0) (keepWr8_main_arg1 m c))
/-- The first bias row of the layer. -/
theorem entry9_4 (c : Dev nD) : Vh9 m c (Pipeline.arrRef spec9 4) = paramRow (F := F) ![3, 0] slices_S4x128_S1x128_3_0 (m ((c : Thread nD τ).loc main_arg2)) :=
  (host9_v143 (Wr8 m c)).trans (congrArg (paramRow (F := F) ![3, 0] slices_S4x128_S1x128_3_0) (keepWr8_main_arg2 m c))
/-- The second weight matrix of the layer. -/
theorem entry9_5 (c : Dev nD) : Vh9 m c (Pipeline.arrRef spec9 5) = paramMat (F := F) ![3, 0, 0] slices_S4x128x128_S1x128x128_3_0_0 (m ((c : Thread nD τ).loc main_arg3)) :=
  (host9_v140 (Wr8 m c)).trans (congrArg (paramMat (F := F) ![3, 0, 0] slices_S4x128x128_S1x128x128_3_0_0) (keepWr8_main_arg3 m c))
/-- The second bias row of the layer. -/
theorem entry9_6 (c : Dev nD) : Vh9 m c (Pipeline.arrRef spec9 6) = paramRow (F := F) ![3, 0] slices_S4x128_S1x128_3_0 (m ((c : Thread nD τ).loc main_arg4)) :=
  (host9_v144 (Wr8 m c)).trans (congrArg (paramRow (F := F) ![3, 0] slices_S4x128_S1x128_3_0) (keepWr8_main_arg4 m c))
/-- The perceptron's rows, as the region before left them. -/
theorem entry10_0 (c : Dev nD) : Vh10 m c (Pipeline.arrRef spec10 0) = (dat9 (Vh9 m) c).arrAt 7 cfg9.N :=
  (Wh10_of m c main_v145_0 (by decide)).trans (Wr9_arr m c 7)
/-- The membership matrix. -/
theorem entry10_1 (c : Dev nD) : Vh10 m c (Pipeline.arrRef spec10 1) = memb m c :=
  keepWh10_main_v10 m c
/-- The per-graph means: the region before's per-graph sums over the counts. -/
theorem entry10_2 (c : Dev nD) : Vh10 m c (Pipeline.arrRef spec10 2) = perGraph (F := F) ((dat9 (Vh9 m) c).arrAt 8 cfg9.N) (counts m c) :=
  (host10_v147 (Wr9 m c)).trans (congr (congrArg (perGraph (F := F)) (Wr9_arr m c 8)) (keepWr9_main_v16 m c))
/-- The layer's mean-scale row. -/
theorem entry10_3 (c : Dev nD) : Vh10 m c (Pipeline.arrRef spec10 3) = paramRow (F := F) ![3, 0] slices_S4x128_S1x128_3_0 (m ((c : Thread nD τ).loc main_arg7)) :=
  (host10_v150 (Wr9 m c)).trans (congrArg (paramRow (F := F) ![3, 0] slices_S4x128_S1x128_3_0) (keepWr9_main_arg7 m c))
/-- The centred rows, as the region before left them. -/
theorem entry11_0 (c : Dev nD) : Vh11 m c (Pipeline.arrRef spec11 0) = (dat10 (Vh10 m) c).arrAt 4 cfg10.N :=
  (Wh11_of m c main_v151_0 (by decide)).trans (Wr10_arr m c 4)
/-- The membership matrix. -/
theorem entry11_1 (c : Dev nD) : Vh11 m c (Pipeline.arrRef spec11 1) = memb m c :=
  keepWh11_main_v10 m c
/-- The per-graph variances: the region before's per-graph sums of squares over the counts. -/
theorem entry11_2 (c : Dev nD) : Vh11 m c (Pipeline.arrRef spec11 2) = perGraph (F := F) ((dat10 (Vh10 m) c).arrAt 5 cfg10.N) (counts m c) :=
  (host11_v153 (Wr10 m c)).trans (congr (congrArg (perGraph (F := F)) (Wr10_arr m c 5)) (keepWr10_main_v16 m c))
/-- The layer's scale row. -/
theorem entry11_3 (c : Dev nD) : Vh11 m c (Pipeline.arrRef spec11 3) = paramRow (F := F) ![3, 0] slices_S4x128_S1x128_3_0 (m ((c : Thread nD τ).loc main_arg5)) :=
  (host11_v158 (Wr10 m c)).trans (congrArg (paramRow (F := F) ![3, 0] slices_S4x128_S1x128_3_0) (keepWr10_main_arg5 m c))
/-- The layer's shift row. -/
theorem entry11_4 (c : Dev nD) : Vh11 m c (Pipeline.arrRef spec11 4) = paramRow (F := F) ![3, 0] slices_S4x128_S1x128_3_0 (m ((c : Thread nD τ).loc main_arg6)) :=
  (host11_v159 (Wr10 m c)).trans (congrArg (paramRow (F := F) ![3, 0] slices_S4x128_S1x128_3_0) (keepWr10_main_arg6 m c))

/-! ### The pooling and the head: region 12 -/

/-- The last layer's rows. -/
theorem entry12_0 (c : Dev nD) : Vh12 m c (Pipeline.arrRef spec12 0) = (dat11 (Vh11 m) c).arrAt 5 cfg11.N :=
  (Wh12_of m c main_v160 (by decide)).trans (Wr11_arr m c 5)
/-- The membership matrix. -/
theorem entry12_1 (c : Dev nD) : Vh12 m c (Pipeline.arrRef spec12 1) = memb m c :=
  keepWh12_main_v10 m c
/-- The head's first weight matrix, as launched. -/
theorem entry12_2 (c : Dev nD) : Vh12 m c (Pipeline.arrRef spec12 2) = m ((c : Thread nD τ).loc main_arg8) :=
  keepWh12_main_arg8 m c
/-- The head's first bias as a row. -/
theorem entry12_3 (c : Dev nD) : Vh12 m c (Pipeline.arrRef spec12 3) = asRow128 (F := F) (m ((c : Thread nD τ).loc main_arg9)) :=
  (host12_v161 (Wr11 m c)).trans (congrArg (asRow128 (F := F)) (keepWr11_main_arg9 m c))
/-- The head's second weight matrix, as launched. -/
theorem entry12_4 (c : Dev nD) : Vh12 m c (Pipeline.arrRef spec12 4) = m ((c : Thread nD τ).loc main_arg10) :=
  keepWh12_main_arg10 m c
/-- The head's second bias as a row. -/
theorem entry12_5 (c : Dev nD) : Vh12 m c (Pipeline.arrRef spec12 5) = asRow128 (F := F) (m ((c : Thread nD τ).loc main_arg11)) :=
  (host12_v162 (Wr11 m c)).trans (congrArg (asRow128 (F := F)) (keepWr11_main_arg11 m c))
/-- The head's output weight matrix, as launched. -/
theorem entry12_6 (c : Dev nD) : Vh12 m c (Pipeline.arrRef spec12 6) = m ((c : Thread nD τ).loc main_arg12) :=
  keepWh12_main_arg12 m c
/-- The head's output bias as a row. -/
theorem entry12_7 (c : Dev nD) : Vh12 m c (Pipeline.arrRef spec12 7) = asRow10 (F := F) (m ((c : Thread nD τ).loc main_arg13)) :=
  (host12_v163 (Wr11 m c)).trans (congrArg (asRow10 (F := F)) (keepWr11_main_arg13 m c))

end Cert.KernelIdeal.Hand

end
-- ==== Proof.KI.Reg0Val.lean ====
import proofs.«408428_j10917806867267_1_alg».proof.Proof.KI.Reg0
import proofs.«408428_j10917806867267_1_alg».proof.Proof.Spec2
import proofs.«408428_j10917806867267_1_alg».proof.Proof.Consts
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! # The first launch's two result arrays, entry by entry, at the ideal values

What the two output arrays hold after the region, as plain arithmetic of the seven input arrays as the region finds them.
Window 7's array is the two-layer perceptron of each row plus its aggregate. Window 8's array is, per graph and feature,
the sum over all rows of the row's membership in the graph times that output: the accumulator starts at zero, each point
adds its tile's term, and the ten tiles of 5000 rows are the 50000 rows. First the payloads at an entry; then each input
block as a restriction of its array, what each point writes back as a block of one whole-array function, the cover of
the arrays by the blocks, and the accumulator's value after each point. -/

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The payloads at an entry -/

/-- A row tile times a square matrix, at an entry: the sum over the inner axis of the products. -/
theorem mmRows0_apply (A : FVec Ideal S5000x128 .bf16) (B : FVec Ideal S128x128 .bf16) (p : Fin 5000) (d : Fin 128) :
    matmul dot_S5000x128_S128x128_S5000x128_1_0_0_1_n_n none A B (constant S5000x128 .f32 0x00000000#32) (ix2 p d)
      = ∑ g : Fin 128, A (ix2 p g) * B (ix2 g d) := by
  simp only [matmul]
  rw [Ideal.matmul_constant_zero_apply, ← Equiv.sum_comp (contrEquiv1 dot_S5000x128_S128x128_S5000x128_1_0_0_1_n_n 128 rfl rfl).symm]
  refine Finset.sum_congr rfl fun g _ => ?_
  have cg := contrEquiv1_symm_val dot_S5000x128_S128x128_S5000x128_1_0_0_1_n_n 128 rfl rfl g
  have hl : dot_S5000x128_S128x128_S5000x128_1_0_0_1_n_n.lhsIdx (ix2 p d) ((contrEquiv1 _ 128 rfl rfl).symm g) = ix2 p g := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact cg
  have hr : dot_S5000x128_S128x128_S5000x128_1_0_0_1_n_n.rhsIdx (ix2 p d) ((contrEquiv1 _ 128 rfl rfl).symm g) = ix2 g d := by
    funext ax; apply Fin.ext
    match ax with
    | ⟨0, _⟩ => simp [DotDims.rhsIdx, dot_S5000x128_S128x128_S5000x128_1_0_0_1_n_n]; exact cg
    | ⟨1, _⟩ => simp [DotDims.rhsIdx, dot_S5000x128_S128x128_S5000x128_1_0_0_1_n_n]; rfl
  rw [hl, hr]

/-- Two row tiles contracted along their rows, at an entry: the sum over the rows of the products. -/
theorem mmCols0_apply (A B : FVec Ideal S5000x128 .bf16) (g d : Fin 128) :
    matmul dot_S5000x128_S5000x128_S128x128_0_0_1_1_n_n none A B (constant S128x128 .f32 0x00000000#32) (ix2 g d)
      = ∑ p : Fin 5000, A (ix2 p g) * B (ix2 p d) := by
  simp only [matmul]
  rw [Ideal.matmul_constant_zero_apply, ← Equiv.sum_comp (contrEquiv1 dot_S5000x128_S5000x128_S128x128_0_0_1_1_n_n 5000 rfl rfl).symm]
  refine Finset.sum_congr rfl fun p _ => ?_
  have cp := contrEquiv1_symm_val dot_S5000x128_S5000x128_S128x128_0_0_1_1_n_n 5000 rfl rfl p
  have hl : dot_S5000x128_S5000x128_S128x128_0_0_1_1_n_n.lhsIdx (ix2 g d) ((contrEquiv1 _ 5000 rfl rfl).symm p) = ix2 p g := by
    funext ax; apply Fin.ext
    match ax with
    | ⟨0, _⟩ => simp [DotDims.lhsIdx, dot_S5000x128_S5000x128_S128x128_0_0_1_1_n_n]; exact cp
    | ⟨1, _⟩ => simp [DotDims.lhsIdx, dot_S5000x128_S5000x128_S128x128_0_0_1_1_n_n]; rfl
  have hr : dot_S5000x128_S5000x128_S128x128_0_0_1_1_n_n.rhsIdx (ix2 g d) ((contrEquiv1 _ 5000 rfl rfl).symm p) = ix2 p d := by
    funext ax; apply Fin.ext
    match ax with
    | ⟨0, _⟩ => simp [DotDims.rhsIdx, dot_S5000x128_S5000x128_S128x128_0_0_1_1_n_n]; exact cp
    | ⟨1, _⟩ => simp [DotDims.rhsIdx, dot_S5000x128_S5000x128_S128x128_0_0_1_1_n_n]; rfl
  rw [hl, hr]

/-- The perceptron's payload at row `p`, feature `d` of the tile: two linear maps over the row plus its aggregate, a
    rectifier after each. -/
theorem pay0_3_apply (v3 v4 : Vec Ideal S5000x128 .f32) (v7 : Vec Ideal S128x128 .f32) (v12 : Vec Ideal S1x128 .f32)
    (v18 : Vec Ideal S128x128 .f32) (v23 : Vec Ideal S1x128 .f32) (p : Fin 5000) (d : Fin 128) :
    (k0_pay3 v3 v4 v7 v12 v18 v23 : S5000x128.Idx → EReal) (ix2 p d)
      = Cert.Spec2.mlp2 (fun (q : Fin 5000) (j : Fin 128) => (v3 (ix2 q j) : EReal) + (v4 (ix2 q j) : EReal))
          (fun (j k : Fin 128) => (v7 (ix2 j k) : EReal)) (fun k : Fin 128 => (v12 (ix2 (0 : Fin 1) k) : EReal))
          (fun (k e : Fin 128) => (v18 (ix2 k e) : EReal)) (fun e : Fin 128 => (v23 (ix2 (0 : Fin 1) e) : EReal)) p d := by
  unfold k0_pay3
  rw [maximumf_apply, addf_apply, mmRows0_apply]
  simp only [shapeCast_self, broadcastTo_1b_ab_apply, broadcast_apply, truncf_apply, maximumf_apply, addf_apply, mmRows0_apply]
  unfold Cert.Spec2.mlp2 Cert.Spec2.lin Cert.Spec2.relu
  simp only [Cert.Consts.scalar_zero]

/-- The accumulator's payload at graph `g`, feature `d`: what it held plus the sum over the tile's rows of membership
    times the perceptron's output. -/
theorem pay0_1_apply (T : FVec Ideal S5000x128 .f32) (M : FVec Ideal S5000x128 .bf16) (s : Vec Ideal S128x128 .f32) (g d : Fin 128) :
    (k0_pay1 T M s : S128x128.Idx → EReal) (ix2 g d)
      = (s (ix2 g d) : EReal) + ∑ p : Fin 5000, (M (ix2 p g) : EReal) * (T (ix2 p d) : EReal) := by
  unfold k0_pay1
  rw [shapeCast_self, addf_apply, mmCols0_apply]
  simp only [truncf_apply]

/-- The zero splat reads zero everywhere. -/
theorem pay0_2_apply (i : S128x128.Idx) : (k0_pay2 (F := Ideal) : S128x128.Idx → EReal) i = 0 := by
  unfold k0_pay2
  rw [shapeCast_self, broadcast_apply]
  exact Cert.Consts.scalar_zero

/-- The membership tile passes through unchanged. -/
theorem pay0_4_eq (v30 : Vec Ideal S5000x128 .bf16) : (k0_pay4 v30 : FVec Ideal S5000x128 .bf16) = v30 := by
  unfold k0_pay4; rw [shapeCast_self]

variable (V : (c : Dev nD) → (b : Ref sig .tc) → Buf (Elt Ideal) ((c : Thread nD τ).loc b))

/-! ## The stores and loads are whole-buffer: what the body leaves, as payloads -/

theorem zeroOffsets0 : (![0, 0] : Fin 2 → Nat) = fun _ => 0 := funext fun a => by fin_cases a <;> rfl

theorem tval0_eq (x0 x1 : Vec Ideal S5000x128 .f32) (x3 : Vec Ideal S128x128 .f32) (x4 : Vec Ideal S1x128 .f32)
    (x5 : Vec Ideal S128x128 .f32) (x6 : Vec Ideal S1x128 .f32) :
    tval0 x0 x1 x3 x4 x5 x6 = (k0_pay3 x0 x1 x3 x4 x5 x6 : FVec Ideal S5000x128 .f32) := by
  unfold tval0
  simp only [View.ld_unit_zero (S := S5000x128) zeroOffsets0, View.ld_unit_zero (S := S128x128) zeroOffsets0,
    View.ld_unit_zero (S := S1x128) zeroOffsets0]

theorem out0_7_eq (x0 x1 : Vec Ideal S5000x128 .f32) (x3 : Vec Ideal S128x128 .f32) (x4 : Vec Ideal S1x128 .f32)
    (x5 : Vec Ideal S128x128 .f32) (x6 : Vec Ideal S1x128 .f32) :
    out0_7 x0 x1 x3 x4 x5 x6 = (k0_pay3 x0 x1 x3 x4 x5 x6 : Vec Ideal S5000x128 .f32) := by
  unfold out0_7
  rw [View.canon_unit_zero zeroOffsets0, tval0_eq]

theorem scr0_eq (x0 x1 : Vec Ideal S5000x128 .f32) (x2 : Vec Ideal S5000x128 .bf16) (x3 : Vec Ideal S128x128 .f32)
    (x4 : Vec Ideal S1x128 .f32) (x5 : Vec Ideal S128x128 .f32) (x6 : Vec Ideal S1x128 .f32) (s : Vec Ideal S128x128 .f32) :
    scr0 x0 x1 x2 x3 x4 x5 x6 s = (k0_pay1 (k0_pay3 x0 x1 x3 x4 x5 x6) x2 s : Vec Ideal S128x128 .f32) := by
  unfold scr0
  rw [View.canon_unit_zero zeroOffsets0, tval0_eq, pay0_4_eq]
  simp only [View.ld_unit_zero (S := S5000x128) zeroOffsets0, View.ld_unit_zero (S := S128x128) zeroOffsets0]

theorem zero0_apply (i : S128x128.Idx) : ((zero0 (F := Ideal) : S128x128.Idx → EReal) i) = 0 := by
  unfold zero0
  rw [View.canon_unit_zero zeroOffsets0]
  exact pay0_2_apply i

theorem out0_8_eq (s : Vec Ideal S128x128 .f32) : out0_8 s = s := by
  unfold out0_8
  rw [View.canon_unit_zero zeroOffsets0, View.ld_unit_zero (S := S128x128) zeroOffsets0]

/-! ## The blocks as restrictions of the arrays -/

/-- The windows' block indices, decided over the grid: the row tiles move with the point, the weights, the biases and the
    sums stay at the origin. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = 0 ∧ win0_8.index t (1 : Fin 2) = 0 ∧ True :=
  (by decide +kernel : ∀ t : Fin grid0.N, _)

/-- The seven input arrays as the region finds them, as functions of their indices: rows, aggregates, membership, the
    two weight matrices and the two bias rows. -/
abbrev ent0_0 (c : Dev nD) : S50000x128.Idx → EReal := V c (Pipeline.arrRef spec0 0)
abbrev ent0_1 (c : Dev nD) : S50000x128.Idx → EReal := V c (Pipeline.arrRef spec0 1)
abbrev ent0_2 (c : Dev nD) : S50000x128.Idx → EReal := V c (Pipeline.arrRef spec0 2)
abbrev ent0_3 (c : Dev nD) : S128x128.Idx → EReal := V c (Pipeline.arrRef spec0 3)
abbrev ent0_4 (c : Dev nD) : S1x128.Idx → EReal := V c (Pipeline.arrRef spec0 4)
abbrev ent0_5 (c : Dev nD) : S128x128.Idx → EReal := V c (Pipeline.arrRef spec0 5)
abbrev ent0_6 (c : Dev nD) : S1x128.Idx → EReal := V c (Pipeline.arrRef spec0 6)

theorem blk0_0_apply (c : Dev nD) (t : Fin cfg0.N) (y : S5000x128.Idx) (k : S50000x128.Idx)
    (hk0 : (k 0).val = 5000 * t.val + (y 0).val) (hk1 : (k 1).val = (y 1).val) :
    ((iblk0 V c 0 t : S5000x128.Idx → EReal) y) = ent0_0 V c k := by
  obtain ⟨e0, e1, -⟩ := blockIndex0 t
  unfold iblk0
  rw [View.read_apply]
  show V c (Pipeline.arrRef spec0 0) _ = V c (Pipeline.arrRef spec0 0) _
  congr 1
  funext a
  apply Fin.ext
  match a with
  | ⟨0, _⟩ => show win0_0.index t 0 * 5000 + 1 * (y 0).val = (k 0).val; rw [e0, hk0]; omega
  | ⟨1, _⟩ => show win0_0.index t 1 * 128 + 1 * (y 1).val = (k 1).val; rw [e1, hk1]; omega

theorem blk0_1_apply (c : Dev nD) (t : Fin cfg0.N) (y : S5000x128.Idx) (k : S50000x128.Idx)
    (hk0 : (k 0).val = 5000 * t.val + (y 0).val) (hk1 : (k 1).val = (y 1).val) :
    ((iblk0 V c 1 t : S5000x128.Idx → EReal) y) = ent0_1 V c k := by
  obtain ⟨-, -, e0, e1, -⟩ := blockIndex0 t
  unfold iblk0
  rw [View.read_apply]
  show V c (Pipeline.arrRef spec0 1) _ = V c (Pipeline.arrRef spec0 1) _
  congr 1
  funext a
  apply Fin.ext
  match a with
  | ⟨0, _⟩ => show win0_1.index t 0 * 5000 + 1 * (y 0).val = (k 0).val; rw [e0, hk0]; omega
  | ⟨1, _⟩ => show win0_1.index t 1 * 128 + 1 * (y 1).val = (k 1).val; rw [e1, hk1]; omega

theorem blk0_2_apply (c : Dev nD) (t : Fin cfg0.N) (y : S5000x128.Idx) (k : S50000x128.Idx)
    (hk0 : (k 0).val = 5000 * t.val + (y 0).val) (hk1 : (k 1).val = (y 1).val) :
    ((iblk0 V c 2 t : S5000x128.Idx → EReal) y) = ent0_2 V c k := by
  obtain ⟨-, -, -, -, e0, e1, -⟩ := blockIndex0 t
  unfold iblk0
  rw [View.read_apply]
  show V c (Pipeline.arrRef spec0 2) _ = V c (Pipeline.arrRef spec0 2) _
  congr 1
  funext a
  apply Fin.ext
  match a with
  | ⟨0, _⟩ => show win0_2.index t 0 * 5000 + 1 * (y 0).val = (k 0).val; rw [e0, hk0]; omega
  | ⟨1, _⟩ => show win0_2.index t 1 * 128 + 1 * (y 1).val = (k 1).val; rw [e1, hk1]; omega

theorem blk0_3_apply (c : Dev nD) (t : Fin cfg0.N) (y : S128x128.Idx) :
    ((iblk0 V c 3 t : S128x128.Idx → EReal) y) = ent0_3 V c y := by
  obtain ⟨-, -, -, -, -, -, e0, e1, -⟩ := blockIndex0 t
  unfold iblk0
  rw [View.read_apply]
  show V c (Pipeline.arrRef spec0 3) _ = V c (Pipeline.arrRef spec0 3) _
  congr 1
  funext a
  apply Fin.ext
  match a with
  | ⟨0, _⟩ => show win0_3.index t 0 * 128 + 1 * (y 0).val = (y 0).val; rw [e0]; omega
  | ⟨1, _⟩ => show win0_3.index t 1 * 128 + 1 * (y 1).val = (y 1).val; rw [e1]; omega

theorem blk0_4_apply (c : Dev nD) (t : Fin cfg0.N) (y : S1x128.Idx) :
    ((iblk0 V c 4 t : S1x128.Idx → EReal) y) = ent0_4 V c y := by
  obtain ⟨-, -, -, -, -, -, -, -, e0, e1, -⟩ := blockIndex0 t
  unfold iblk0
  rw [View.read_apply]
  show V c (Pipeline.arrRef spec0 4) _ = V c (Pipeline.arrRef spec0 4) _
  congr 1
  funext a
  apply Fin.ext
  match a with
  | ⟨0, _⟩ => show win0_4.index t 0 * 1 + 1 * (y 0).val = (y 0).val; rw [e0]; omega
  | ⟨1, _⟩ => show win0_4.index t 1 * 128 + 1 * (y 1).val = (y 1).val; rw [e1]; omega

theorem blk0_5_apply (c : Dev nD) (t : Fin cfg0.N) (y : S128x128.Idx) :
    ((iblk0 V c 5 t : S128x128.Idx → EReal) y) = ent0_5 V c y := by
  obtain ⟨-, -, -, -, -, -, -, -, -, -, e0, e1, -⟩ := blockIndex0 t
  unfold iblk0
  rw [View.read_apply]
  show V c (Pipeline.arrRef spec0 5) _ = V c (Pipeline.arrRef spec0 5) _
  congr 1
  funext a
  apply Fin.ext
  match a with
  | ⟨0, _⟩ => show win0_5.index t 0 * 128 + 1 * (y 0).val = (y 0).val; rw [e0]; omega
  | ⟨1, _⟩ => show win0_5.index t 1 * 128 + 1 * (y 1).val = (y 1).val; rw [e1]; omega

theorem blk0_6_apply (c : Dev nD) (t : Fin cfg0.N) (y : S1x128.Idx) :
    ((iblk0 V c 6 t : S1x128.Idx → EReal) y) = ent0_6 V c y := by
  obtain ⟨-, -, -, -, -, -, -, -, -, -, -, -, e0, e1, -⟩ := blockIndex0 t
  unfold iblk0
  rw [View.read_apply]
  show V c (Pipeline.arrRef spec0 6) _ = V c (Pipeline.arrRef spec0 6) _
  congr 1
  funext a
  apply Fin.ext
  match a with
  | ⟨0, _⟩ => show win0_6.index t 0 * 1 + 1 * (y 0).val = (y 0).val; rw [e0]; omega
  | ⟨1, _⟩ => show win0_6.index t 1 * 128 + 1 * (y 1).val = (y 1).val; rw [e1]; omega

/-! ## The perceptron's array as one function of the six arrays it reads -/

/-- The perceptron reads one row of its first operand only. -/
theorem mlp2_row0 {N N' K M P : Nat} (x : Fin N → Fin K → EReal) (x' : Fin N' → Fin K → EReal) (w1 : Fin K → Fin M → EReal)
    (b1 : Fin M → EReal) (w2 : Fin M → Fin P → EReal) (b2 : Fin P → EReal) (n : Fin N) (n' : Fin N') (k : Fin P)
    (h : ∀ j, x n j = x' n' j) : Cert.Spec2.mlp2 x w1 b1 w2 b2 n k = Cert.Spec2.mlp2 x' w1 b1 w2 b2 n' k := by
  unfold Cert.Spec2.mlp2 Cert.Spec2.lin
  simp only [h]

/-- Entry (row, feature) of the perceptron's output, from the whole input arrays. -/
def tArr0 (c : Dev nD) : S50000x128.Idx → EReal := fun i =>
  Cert.Spec2.mlp2 (fun (n : Fin 50000) (j : Fin 128) => ent0_0 V c (ix2 n j) + ent0_1 V c (ix2 n j))
    (fun (j k : Fin 128) => ent0_3 V c (ix2 j k)) (fun k : Fin 128 => ent0_4 V c (ix2 (0 : Fin 1) k))
    (fun (k e : Fin 128) => ent0_5 V c (ix2 k e)) (fun e : Fin 128 => ent0_6 V c (ix2 (0 : Fin 1) e))
    (i 0 : Fin 50000) (i 1 : Fin 128)

/-- The payload of the blocks at point `t`, at the entry (`p`, `d`) of the tile that sits at entry `i` of the array, is
    the perceptron's array there. -/
theorem tile0_apply (c : Dev nD) (t : Fin cfg0.N) (p : Fin 5000) (d : Fin 128) (i : S50000x128.Idx)
    (hi0 : (i 0).val = 5000 * t.val + p.val) (hi1 : (i 1).val = d.val) :
    ((k0_pay3 (iblk0 V c 0 t) (iblk0 V c 1 t) (iblk0 V c 3 t) (iblk0 V c 4 t) (iblk0 V c 5 t) (iblk0 V c 6 t)
      : S5000x128.Idx → EReal) (ix2 p d)) = tArr0 V c i := by
  rw [pay0_3_apply]
  unfold tArr0
  have hd : d = (i 1 : Fin 128) := Fin.ext hi1.symm
  subst hd
  have hw1 : (fun (j k : Fin 128) => ((iblk0 V c 3 t : S128x128.Idx → EReal) (ix2 j k))) = fun (j k : Fin 128) => ent0_3 V c (ix2 j k) :=
    funext fun j => funext fun k => blk0_3_apply V c t _
  have hb1 : (fun k : Fin 128 => ((iblk0 V c 4 t : S1x128.Idx → EReal) (ix2 (0 : Fin 1) k))) = fun k : Fin 128 => ent0_4 V c (ix2 (0 : Fin 1) k) :=
    funext fun k => blk0_4_apply V c t _
  have hw2 : (fun (k e : Fin 128) => ((iblk0 V c 5 t : S128x128.Idx → EReal) (ix2 k e))) = fun (k e : Fin 128) => ent0_5 V c (ix2 k e) :=
    funext fun k => funext fun e => blk0_5_apply V c t _
  have hb2 : (fun e : Fin 128 => ((iblk0 V c 6 t : S1x128.Idx → EReal) (ix2 (0 : Fin 1) e))) = fun e : Fin 128 => ent0_6 V c (ix2 (0 : Fin 1) e) :=
    funext fun e => blk0_6_apply V c t _
  rw [hw1, hb1, hw2, hb2]
  refine mlp2_row0 _ _ _ _ _ _ p (i 0 : Fin 50000) _ fun j => ?_
  beta_reduce
  rw [blk0_0_apply V c t (ix2 p j) (ix2 (i 0 : Fin 50000) j) hi0 rfl, blk0_1_apply V c t (ix2 p j) (ix2 (i 0 : Fin 50000) j) hi0 rfl]

/-- What point `t` writes back of window 7 is block `t` of the perceptron's array. -/
theorem flushed0_7_eq (c : Dev nD) (t : Fin cfg0.N) :
    (dat0 V c).flushed 7 t = ((cfg0.win 7).blk t).view.read (Elt Ideal) (tArr0 V c) := by
  show (cfg0.win 7).cut (grid0.coords t) ((dat0 V c).after 7 t) = _
  rw [after0_7, out0_7_eq]
  obtain ⟨-, -, -, -, -, -, -, -, -, -, -, -, -, -, e0, e1, -⟩ := blockIndex0 t
  refine funext fun (j : S5000x128.Idx) => ?_
  obtain ⟨p, d, rfl⟩ : ∃ (p : Fin 5000) (d : Fin 128), j = ix2 p d := ⟨j 0, j 1, eq_ix2 j⟩
  rw [View.read_apply]
  have hi0 : ((((cfg0.win 7).blk t).view.emb (ix2 p d)) 0).val = 5000 * t.val + p.val := by
    show win0_7.index t 0 * 5000 + 1 * p.val = _; rw [e0]; omega
  have hi1 : ((((cfg0.win 7).blk t).view.emb (ix2 p d)) 1).val = d.val := by
    show win0_7.index t 1 * 128 + 1 * d.val = _; rw [e1]; omega
  exact tile0_apply V c t p d _ hi0 hi1

/-- An entry of the array sits in point `t`'s block of window 7 as soon as its row is `5000 t` plus a row of the block
    and its feature the block's. -/
theorem mem_block0_7 (t : Fin cfg0.N) (y : S5000x128.Idx) (i : S50000x128.Idx)
    (h0 : (i 0).val = 5000 * t.val + (y 0).val) (h1 : (i 1).val = (y 1).val) :
    i ∈ ((cfg0.win 7).blk t).view.set := by
  obtain ⟨-, -, -, -, -, -, -, -, -, -, -, -, -, -, e0, e1, -⟩ := blockIndex0 t
  have hy : ((cfg0.win 7).blk t).view.emb y = i := by
    funext a
    apply Fin.ext
    match a with
    | ⟨0, _⟩ => show win0_7.index t 0 * 5000 + 1 * (y 0).val = (i 0).val; rw [e0, h0]; omega
    | ⟨1, _⟩ => show win0_7.index t 1 * 128 + 1 * (y 1).val = (i 1).val; rw [e1, h1]; omega
  subst hy
  exact ((cfg0.win 7).blk t).view.emb_mem_set y

/-- Every entry of the array is in the block of the point its row falls in. -/
theorem covered0_7 (i : S50000x128.Idx) :
    ∃ t : Fin cfg0.N, (cfg0.win 7).flush t = true ∧ i ∈ ((cfg0.win 7).blk t).view.set := by
  have h0 : (i 0).val < 50000 := (i 0).isLt
  have hN : cfg0.N = 10 := N_0
  have ht : (i 0).val / 5000 < cfg0.N := by rw [hN]; omega
  refine ⟨⟨(i 0).val / 5000, ht⟩, flush0_7 _,
    mem_block0_7 ⟨(i 0).val / 5000, ht⟩ (ix2 (⟨(i 0).val % 5000, Nat.mod_lt _ (by decide)⟩ : Fin 5000) (i 1 : Fin 128)) i ?_ rfl⟩
  show (i 0).val = 5000 * ((i 0).val / 5000) + (i 0).val % 5000
  omega

/-- So window 7's array ends holding the perceptron's array of the entry arrays. -/
theorem arr0_7_eq (c : Dev nD) : (dat0 V c).arrAt 7 cfg0.N = tArr0 V c :=
  (dat0 V c).arrAt_eq_of_cover 7 _ (fun t _ => flushed0_7_eq V c t) covered0_7

/-- Window 7's array after the region, at row `n` and feature `d`. -/
theorem arr0_7_apply (c : Dev nD) (n : Fin 50000) (d : Fin 128) :
    ((dat0 V c).arrAt 7 cfg0.N : S50000x128.Idx → EReal) (ix2 n d)
      = Cert.Spec2.mlp2 (fun (n : Fin 50000) (j : Fin 128) => ent0_0 V c (ix2 n j) + ent0_1 V c (ix2 n j))
          (fun (j k : Fin 128) => ent0_3 V c (ix2 j k)) (fun k : Fin 128 => ent0_4 V c (ix2 (0 : Fin 1) k))
          (fun (k e : Fin 128) => ent0_5 V c (ix2 k e)) (fun e : Fin 128 => ent0_6 V c (ix2 (0 : Fin 1) e)) n d := by
  rw [arr0_7_eq]; rfl

/-! ## The accumulator: the tiles' terms, summed -/

/-- Membership in graph `g` times feature `d` of the perceptron's output, at row `n` of the arrays. -/
def prod0 (c : Dev nD) (g d : Fin 128) (n : Fin 50000) : EReal := ent0_2 V c (ix2 n g) * tArr0 V c (ix2 n d)

/-- Row `r` of tile `k`, as a row of the arrays. -/
def rowOf0 (k : Fin 10) (r : Fin 5000) : Fin 50000 := ⟨k.val * 5000 + r.val, by have := k.isLt; have := r.isLt; omega⟩

/-- What tile `k` adds to the accumulator at (`g`, `d`). -/
def tileTerm0 (c : Dev nD) (g d : Fin 128) (k : Fin 10) : EReal := ∑ r : Fin 5000, prod0 V c g d (rowOf0 k r)

/-- One point's step: what the accumulator held plus the point's tile term. -/
theorem stepAt0_apply (c : Dev nD) (t : Fin cfg0.N) (k : Fin 10) (hk : k.val = t.val) (s : Vec Ideal S128x128 .f32) (g d : Fin 128) :
    ((stepAt0 V c t s : S128x128.Idx → EReal) (ix2 g d)) = (s (ix2 g d) : EReal) + tileTerm0 V c g d k := by
  unfold stepAt0
  rw [scr0_eq, pay0_1_apply]
  congr 1
  unfold tileTerm0 prod0
  refine Finset.sum_congr rfl fun r _ => ?_
  have hrow : (rowOf0 k r).val = 5000 * t.val + r.val := by show k.val * 5000 + r.val = _; rw [hk]; omega
  rw [blk0_2_apply V c t (ix2 r g) (ix2 (rowOf0 k r) g) hrow rfl, tile0_apply V c t r d (ix2 (rowOf0 k r) d) hrow rfl]

/-- The accumulator after point `n`: the terms of the tiles up to it. -/
theorem acc0_apply (c : Dev nD) (g d : Fin 128) : ∀ (n : ℕ) (hn : n < 10),
    ((acc0 V c n : S128x128.Idx → EReal) (ix2 g d)) = ∑ k ∈ Finset.univ.filter (fun k : Fin 10 => k.val < n + 1), tileTerm0 V c g d k
  | 0, hn => by
    have hN : cfg0.N = 10 := N_0
    rw [Cert.Spec.tiles_lt_succ _ 0 hn, Cert.Spec.tiles_lt_zero]
    show ((stepAt0 V c (pt0 0) (zero0 (F := Ideal)) : S128x128.Idx → EReal) (ix2 g d)) = _
    rw [stepAt0_apply V c (pt0 0) ⟨0, hn⟩ (Nat.mod_eq_of_lt (by rw [hN]; exact hn)).symm, zero0_apply]
  | n + 1, hn => by
    have hN : cfg0.N = 10 := N_0
    rw [Cert.Spec.tiles_lt_succ _ (n + 1) hn, ← acc0_apply c g d n (by omega)]
    show ((stepAt0 V c (pt0 (n + 1)) (acc0 V c n) : S128x128.Idx → EReal) (ix2 g d)) = _
    rw [stepAt0_apply V c (pt0 (n + 1)) ⟨n + 1, hn⟩ (Nat.mod_eq_of_lt (by rw [hN]; exact hn)).symm]

/-- After the last point: the sum over all rows of the arrays. -/
theorem acc0_total (c : Dev nD) (g d : Fin 128) :
    ((acc0 V c 9 : S128x128.Idx → EReal) (ix2 g d)) = ∑ n : Fin 50000, prod0 V c g d n := by
  rw [acc0_apply V c g d 9 (by decide), Cert.Spec.tiles_lt_all]
  exact Cert.Spec.tile_sum (prod0 V c g d)

/-! ## Window 8's array: the sums per graph -/

theorem emb0_8 (t : Fin cfg0.N) (y : S128x128.Idx) : ((cfg0.win 8).blk t).view.emb y = y := by
  obtain ⟨-, -, -, -, -, -, -, -, -, -, -, -, -, -, -, -, e0, e1, -⟩ := blockIndex0 t
  funext a
  apply Fin.ext
  match a with
  | ⟨0, _⟩ => show win0_8.index t 0 * 128 + 1 * (y 0).val = (y 0).val; rw [e0]; omega
  | ⟨1, _⟩ => show win0_8.index t 1 * 128 + 1 * (y 1).val = (y 1).val; rw [e1]; omega

/-- What the one write-back of window 8 writes — at the last point, whose block is the whole array — is the accumulator
    after the last point. -/
theorem flushed0_8_eq (c : Dev nD) (t : Fin cfg0.N) (hf : (cfg0.win 8).flush t = true) :
    (dat0 V c).flushed 8 t = ((cfg0.win 8).blk t).view.read (Elt Ideal) (acc0 V c 9) := by
  show (cfg0.win 8).cut (grid0.coords t) ((dat0 V c).after 8 t) = _
  rw [after0_8, out0_8_eq]
  have ht : t.val = 9 := by
    have h := hflush0_8 t; rw [hf] at h
    have h' : t.val + 1 = cfg0.N := of_decide_eq_true h.symm
    have hN : cfg0.N = 10 := N_0
    omega
  rw [ht]
  obtain ⟨-, -, -, -, -, -, -, -, -, -, -, -, -, -, -, -, e0, e1, -⟩ := blockIndex0 t
  refine funext fun (j : S128x128.Idx) => ?_
  rw [View.read_apply]
  show (acc0 V c 9 : S128x128.Idx → EReal) j = (acc0 V c 9 : S128x128.Idx → EReal) _
  congr 1
  funext a
  apply Fin.ext
  match a with
  | ⟨0, _⟩ => show (j 0).val = win0_8.index t 0 * 128 + 1 * (j 0).val; rw [e0]; omega
  | ⟨1, _⟩ => show (j 1).val = win0_8.index t 1 * 128 + 1 * (j 1).val; rw [e1]; omega

/-- Every entry of window 8's array is in the last point's block. -/
theorem covered0_8 (i : S128x128.Idx) :
    ∃ t : Fin cfg0.N, (cfg0.win 8).flush t = true ∧ i ∈ ((cfg0.win 8).blk t).view.set := by
  have hN : cfg0.N = 10 := N_0
  have h9 : 9 < cfg0.N := by rw [hN]; decide
  refine ⟨⟨9, h9⟩, ?_, ?_⟩
  · rw [hflush0_8]; exact decide_eq_true (by show 9 + 1 = cfg0.N; rw [hN])
  · have h := ((cfg0.win 8).blk ⟨9, h9⟩).view.emb_mem_set i
    rwa [emb0_8] at h

/-- So window 8's array ends holding the accumulator after the last point. -/
theorem arr0_8_eq (c : Dev nD) : (dat0 V c).arrAt 8 cfg0.N = acc0 V c 9 :=
  (dat0 V c).arrAt_eq_of_cover 8 _ (fun t hf => flushed0_8_eq V c t hf) covered0_8

/-- Window 8's array after the region, at graph `g` and feature `d`: the sum over the rows of membership times window
    7's array. -/
theorem arr0_8_apply (c : Dev nD) (g d : Fin 128) :
    ((dat0 V c).arrAt 8 cfg0.N : S128x128.Idx → EReal) (ix2 g d)
      = ∑ n : Fin 50000, ent0_2 V c (ix2 n g) * ((dat0 V c).arrAt 7 cfg0.N : S50000x128.Idx → EReal) (ix2 n d) := by
  rw [arr0_8_eq, arr0_7_eq]
  exact acc0_total V c g d

end Cert.KernelIdeal.Hand

end
-- ==== Proof.KI.Reg1Val.lean ====
import proofs.«408428_j10917806867267_1_alg».proof.Proof.KI.Reg1
import proofs.«408428_j10917806867267_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! # The centring launch's two result arrays, entry by entry, at the ideal values

What the two output arrays hold after the region, as plain arithmetic of the four input arrays as the region finds
them. The row output, at a row and a feature: the feature less the mean of the row's graph (the membership row picks
the graph: a sum over the graphs of membership times mean) times the feature's scale. The matrix output, at a graph and
a feature: the sum over ALL rows of membership times the square of the row output there — accumulated tile by tile
across the grid in the kernel's own buffer, reset at the first point and written back after the last.

First what each control case's stores leave, as payloads; then the accumulation in closed form, by induction on the
point; then the payloads at an entry; then each input block as a restriction of its array, what each point writes back
as a block of one whole-array function, and the covers; last the tiles' sums collapsed into one sum over the rows. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Pieces

/-! ## What each case's pieces leave, as payloads of the buffers' contents

Every store of the body is through the whole of its buffer and every load reads its buffer whole; so what a case's
pieces leave is the payload of the LAST store to that buffer, its loads read at the buffers' contents — a load of the
accumulator after a store to it in the same run reads that store's payload. -/

theorem zeroOffsets1 : (![0, 0] : Fin 2 → Nat) = fun _ => 0 := funext fun a => by fin_cases a <;> rfl

/-- The first point leaves the centred tile in the row output, -/
theorem row1_A_eq (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole) (hc0 : cond1_0 i) (hc1 : ¬cond1_1 i) (x0 : Vec F S5000x128 .f32) (x1 : Vec F S5000x128 .bf16) (x2 : Vec F S128x128 .f32) (x3 : Vec F S1x128 .f32) :
    row1_A c i arg1 harg1 arg2 harg2 arg3 harg3 arg4 harg4 arg5 harg5 arg6 harg6 arg7 harg7 hc0 hc1 x0 x1 x2 x3 = k1_pay3 x1 x2 x0 x3 := by
  unfold row1_A
  rw [View.read_writes_eq_canon _ _ _ (cover1_A_4 c i arg1 harg1 arg2 harg2 arg3 harg3 arg4 harg4 arg5 harg5 arg6 harg6 arg7 harg7 hc0 hc1 x0 x1 x2 x3)]
  unfold kernelRun1_A
  dsimp only
  sl_unfold_words
  rw [View.canon_unit_zero zeroOffsets1]
  simp only [View.readAt_eq_ld, harg1.read_unread, harg2.read_unread, harg3.read_unread, harg4.read_unread, harg7.read_unread,
    View.ld_unit_zero (S := S5000x128) zeroOffsets1, View.ld_unit_zero (S := S128x128) zeroOffsets1, View.ld_unit_zero (S := S1x128) zeroOffsets1]

/-- and in the accumulator the update of its reset. -/
theorem scr1_A_eq (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole) (hc0 : cond1_0 i) (hc1 : ¬cond1_1 i) (x0 : Vec F S5000x128 .f32) (x1 : Vec F S5000x128 .bf16) (x2 : Vec F S128x128 .f32) (x3 : Vec F S1x128 .f32) :
    scr1_A c i arg1 harg1 arg2 harg2 arg3 harg3 arg4 harg4 arg5 harg5 arg6 harg6 arg7 harg7 hc0 hc1 x0 x1 x2 x3 = k1_pay4 x1 x2 x0 x3 k1_pay1 := by
  unfold scr1_A
  rw [View.read_writes_eq_canon _ _ _ (cover1_A_s c i arg1 harg1 arg2 harg2 arg3 harg3 arg4 harg4 arg5 harg5 arg6 harg6 arg7 harg7 hc0 hc1 x0 x1 x2 x3)]
  unfold kernelRun1_A
  dsimp only
  sl_unfold_words
  rw [View.canon_cons_unit_zero (S := S128x128) zeroOffsets1, View.readCov_unit_zero (S := S128x128) _ zeroOffsets1]
  simp only [View.readAt_eq_ld, harg1.read_unread, harg2.read_unread, harg3.read_unread, harg4.read_unread, harg7.read_unread,
    View.ld_unit_zero (S := S5000x128) zeroOffsets1, View.ld_unit_zero (S := S128x128) zeroOffsets1, View.ld_unit_zero (S := S1x128) zeroOffsets1]

/-- A middle point leaves the centred tile in the row output, -/
theorem row1_B_eq (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole) (hc0 : ¬cond1_0 i) (hc1 : ¬cond1_1 i) (x0 : Vec F S5000x128 .f32) (x1 : Vec F S5000x128 .bf16) (x2 : Vec F S128x128 .f32) (x3 : Vec F S1x128 .f32) (s : Vec F S128x128 .f32) :
    row1_B c i arg1 harg1 arg2 harg2 arg3 harg3 arg4 harg4 arg5 harg5 arg6 harg6 arg7 harg7 hc0 hc1 x0 x1 x2 x3 s = k1_pay3 x1 x2 x0 x3 := by
  unfold row1_B
  rw [View.read_writes_eq_canon _ _ _ (cover1_B_4 c i arg1 harg1 arg2 harg2 arg3 harg3 arg4 harg4 arg5 harg5 arg6 harg6 arg7 harg7 hc0 hc1 x0 x1 x2 x3 s)]
  unfold kernelRun1_B
  dsimp only
  sl_unfold_words
  rw [View.canon_unit_zero zeroOffsets1]
  simp only [View.readAt_eq_ld, harg1.read_unread, harg2.read_unread, harg3.read_unread, harg4.read_unread, harg7.read_unread,
    View.ld_unit_zero (S := S5000x128) zeroOffsets1, View.ld_unit_zero (S := S128x128) zeroOffsets1, View.ld_unit_zero (S := S1x128) zeroOffsets1]

/-- and in the accumulator the update of what it held. -/
theorem scr1_B_eq (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole) (hc0 : ¬cond1_0 i) (hc1 : ¬cond1_1 i) (x0 : Vec F S5000x128 .f32) (x1 : Vec F S5000x128 .bf16) (x2 : Vec F S128x128 .f32) (x3 : Vec F S1x128 .f32) (s : Vec F S128x128 .f32) :
    scr1_B c i arg1 harg1 arg2 harg2 arg3 harg3 arg4 harg4 arg5 harg5 arg6 harg6 arg7 harg7 hc0 hc1 x0 x1 x2 x3 s = k1_pay4 x1 x2 x0 x3 s := by
  unfold scr1_B
  rw [View.read_writes_eq_canon _ _ _ (cover1_B_s c i arg1 harg1 arg2 harg2 arg3 harg3 arg4 harg4 arg5 harg5 arg6 harg6 arg7 harg7 hc0 hc1 x0 x1 x2 x3 s)]
  unfold kernelRun1_B
  dsimp only
  sl_unfold_words
  rw [View.canon_unit_zero zeroOffsets1]
  simp only [View.readAt_eq_ld, harg1.read_unread, harg2.read_unread, harg3.read_unread, harg4.read_unread, harg7.read_unread,
    View.ld_unit_zero (S := S5000x128) zeroOffsets1, View.ld_unit_zero (S := S128x128) zeroOffsets1, View.ld_unit_zero (S := S1x128) zeroOffsets1]

/-- The last point leaves the centred tile in the row output, -/
theorem row1_C_eq (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole) (hc0 : ¬cond1_0 i) (hc1 : cond1_1 i) (x0 : Vec F S5000x128 .f32) (x1 : Vec F S5000x128 .bf16) (x2 : Vec F S128x128 .f32) (x3 : Vec F S1x128 .f32) (s : Vec F S128x128 .f32) :
    row1_C c i arg1 harg1 arg2 harg2 arg3 harg3 arg4 harg4 arg5 harg5 arg6 harg6 arg7 harg7 hc0 hc1 x0 x1 x2 x3 s = k1_pay3 x1 x2 x0 x3 := by
  unfold row1_C
  rw [View.read_writes_eq_canon _ _ _ (cover1_C_4 c i arg1 harg1 arg2 harg2 arg3 harg3 arg4 harg4 arg5 harg5 arg6 harg6 arg7 harg7 hc0 hc1 x0 x1 x2 x3 s)]
  unfold kernelRun1_C
  dsimp only
  sl_unfold_words
  rw [View.canon_unit_zero zeroOffsets1]
  simp only [View.readAt_eq_ld, harg1.read_unread, harg2.read_unread, harg3.read_unread, harg4.read_unread, harg7.read_unread,
    View.ld_unit_zero (S := S5000x128) zeroOffsets1, View.ld_unit_zero (S := S128x128) zeroOffsets1, View.ld_unit_zero (S := S1x128) zeroOffsets1]

/-- in the matrix output the accumulator's update, read back after it is stored, -/
theorem mat1_C_eq (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole) (hc0 : ¬cond1_0 i) (hc1 : cond1_1 i) (x0 : Vec F S5000x128 .f32) (x1 : Vec F S5000x128 .bf16) (x2 : Vec F S128x128 .f32) (x3 : Vec F S1x128 .f32) (s : Vec F S128x128 .f32) :
    mat1_C c i arg1 harg1 arg2 harg2 arg3 harg3 arg4 harg4 arg5 harg5 arg6 harg6 arg7 harg7 hc0 hc1 x0 x1 x2 x3 s = k1_pay4 x1 x2 x0 x3 s := by
  unfold mat1_C
  rw [View.read_writes_eq_canon _ _ _ (cover1_C_5 c i arg1 harg1 arg2 harg2 arg3 harg3 arg4 harg4 arg5 harg5 arg6 harg6 arg7 harg7 hc0 hc1 x0 x1 x2 x3 s)]
  unfold kernelRun1_C
  dsimp only
  sl_unfold_words
  rw [View.canon_unit_zero zeroOffsets1, View.readCov_unit_zero (S := S128x128) _ zeroOffsets1]
  simp only [View.readAt_eq_ld, harg1.read_unread, harg2.read_unread, harg3.read_unread, harg4.read_unread, harg7.read_unread,
    View.ld_unit_zero (S := S5000x128) zeroOffsets1, View.ld_unit_zero (S := S128x128) zeroOffsets1, View.ld_unit_zero (S := S1x128) zeroOffsets1]

/-- and in the accumulator that update. -/
theorem scr1_C_eq (c : Dev nD) (i : grid1.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole) (hc0 : ¬cond1_0 i) (hc1 : cond1_1 i) (x0 : Vec F S5000x128 .f32) (x1 : Vec F S5000x128 .bf16) (x2 : Vec F S128x128 .f32) (x3 : Vec F S1x128 .f32) (s : Vec F S128x128 .f32) :
    scr1_C c i arg1 harg1 arg2 harg2 arg3 harg3 arg4 harg4 arg5 harg5 arg6 harg6 arg7 harg7 hc0 hc1 x0 x1 x2 x3 s = k1_pay4 x1 x2 x0 x3 s := by
  unfold scr1_C
  rw [View.read_writes_eq_canon _ _ _ (cover1_C_s c i arg1 harg1 arg2 harg2 arg3 harg3 arg4 harg4 arg5 harg5 arg6 harg6 arg7 harg7 hc0 hc1 x0 x1 x2 x3 s)]
  unfold kernelRun1_C
  dsimp only
  sl_unfold_words
  rw [View.canon_unit_zero zeroOffsets1]
  simp only [View.readAt_eq_ld, harg1.read_unread, harg2.read_unread, harg3.read_unread, harg4.read_unread, harg7.read_unread,
    View.ld_unit_zero (S := S5000x128) zeroOffsets1, View.ld_unit_zero (S := S128x128) zeroOffsets1, View.ld_unit_zero (S := S1x128) zeroOffsets1]

end Pieces

section Chain

variable (V : (c : Dev nD) → (b : Ref sig .tc) → Buf (Elt F) ((c : Thread nD τ).loc b))

/-! ## The accumulation in closed form -/

/-- The four input blocks at point `t`, at their literal types. -/
abbrev featTile1 (c : Dev nD) (t : Fin cfg1.N) : Vec F S5000x128 .f32 := iblk1 V c 0 t
abbrev memberTile1 (c : Dev nD) (t : Fin cfg1.N) : Vec F S5000x128 .bf16 := iblk1 V c 1 t
abbrev meansBlk1 (c : Dev nD) (t : Fin cfg1.N) : Vec F S128x128 .f32 := iblk1 V c 2 t
abbrev scaleBlk1 (c : Dev nD) (t : Fin cfg1.N) : Vec F S1x128 .f32 := iblk1 V c 3 t

/-- The accumulator after position `n`: reset to zero and updated with the first tile, then updated tile by tile. -/
def chain1 (c : Dev nD) : (n : ℕ) → n < cfg1.N → Vec F S128x128 .f32
  | 0, h => k1_pay4 (memberTile1 V c ⟨0, h⟩) (meansBlk1 V c ⟨0, h⟩) (featTile1 V c ⟨0, h⟩) (scaleBlk1 V c ⟨0, h⟩) k1_pay1
  | n + 1, h => k1_pay4 (memberTile1 V c ⟨n + 1, h⟩) (meansBlk1 V c ⟨n + 1, h⟩) (featTile1 V c ⟨n + 1, h⟩) (scaleBlk1 V c ⟨n + 1, h⟩) (chain1 c n (Nat.lt_of_succ_lt h))

/-- What every point leaves: the centred tile in the row output, the accumulator's chain in the accumulator (and in
    the matrix output's component) — by induction on the point, the case read off the position. -/
theorem outs1_eq (c : Dev nD) : ∀ (n : ℕ) (h : n < cfg1.N),
    outs1 V c n h = (k1_pay3 (memberTile1 V c ⟨n, h⟩) (meansBlk1 V c ⟨n, h⟩) (featTile1 V c ⟨n, h⟩) (scaleBlk1 V c ⟨n, h⟩), chain1 V c n h, chain1 V c n h)
  | 0, h => by
    have hc0 : cond1_0 (grid1.coords ⟨0, h⟩) := (hcond1_0 ⟨0, h⟩).mpr rfl
    have hc1 : ¬cond1_1 (grid1.coords ⟨0, h⟩) := fun hh => first_ne_last1 ((hcond1_1 ⟨0, h⟩).mp hh)
    rw [outs1_A V c ⟨0, h⟩ rfl hc0 hc1, row1_A_eq, scr1_A_eq]
    rfl
  | n + 1, h => by
    have hc0 : ¬cond1_0 (grid1.coords ⟨n + 1, h⟩) := fun hh => Nat.succ_ne_zero n ((hcond1_0 ⟨n + 1, h⟩).mp hh)
    by_cases h1 : n + 1 + 1 = cfg1.N
    · have hc1 : cond1_1 (grid1.coords ⟨n + 1, h⟩) := (hcond1_1 ⟨n + 1, h⟩).mpr h1
      rw [outs1_C V c ⟨n + 1, h⟩ (Nat.succ_ne_zero n) h1 hc0 hc1, row1_C_eq, mat1_C_eq, scr1_C_eq]
      show (_, k1_pay4 _ _ _ _ (outs1 V c n _).2.2, k1_pay4 _ _ _ _ (outs1 V c n _).2.2) = _
      rw [outs1_eq c n]
      rfl
    · have hc1 : ¬cond1_1 (grid1.coords ⟨n + 1, h⟩) := fun hh => h1 ((hcond1_1 ⟨n + 1, h⟩).mp hh)
      rw [outs1_B V c ⟨n + 1, h⟩ (Nat.succ_ne_zero n) h1 hc0 hc1, row1_B_eq, scr1_B_eq]
      show (_, k1_pay4 _ _ _ _ (outs1 V c n _).2.2, k1_pay4 _ _ _ _ (outs1 V c n _).2.2) = _
      rw [outs1_eq c n]
      rfl

end Chain

open scoped BigOperators
open Idealize.ShloMosaic.ValueIdx

/-! ## The payloads at an entry, at the ideal values -/

/-- The membership tile times a 128 × 128 matrix, at an entry: the sum over the graphs of the products. -/
theorem memberTimes1_apply (A : FVec Ideal S5000x128 .bf16) (B : FVec Ideal S128x128 .bf16) (p : Fin 5000) (d : Fin 128) :
    matmul dot_S5000x128_S128x128_S5000x128_1_0_0_1_n_n none A B (constant S5000x128 .f32 0x00000000#32) (ix2 p d)
      = ∑ g : Fin 128, A (ix2 p g) * B (ix2 g d) := by
  simp only [matmul]
  rw [Ideal.matmul_constant_zero_apply, ← Equiv.sum_comp (contrEquiv1 dot_S5000x128_S128x128_S5000x128_1_0_0_1_n_n 128 rfl rfl).symm]
  refine Finset.sum_congr rfl fun g _ => ?_
  have cg := contrEquiv1_symm_val dot_S5000x128_S128x128_S5000x128_1_0_0_1_n_n 128 rfl rfl g
  have hl : dot_S5000x128_S128x128_S5000x128_1_0_0_1_n_n.lhsIdx (ix2 p d) ((contrEquiv1 _ 128 rfl rfl).symm g) = ix2 p g := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact cg
  have hr : dot_S5000x128_S128x128_S5000x128_1_0_0_1_n_n.rhsIdx (ix2 p d) ((contrEquiv1 _ 128 rfl rfl).symm g) = ix2 g d := by
    funext ax; apply Fin.ext
    match ax with
    | ⟨0, _⟩ => simp [DotDims.rhsIdx, dot_S5000x128_S128x128_S5000x128_1_0_0_1_n_n]; exact cg
    | ⟨1, _⟩ => simp [DotDims.rhsIdx, dot_S5000x128_S128x128_S5000x128_1_0_0_1_n_n]; rfl
  rw [hl, hr]

/-- The membership tile transposed times a tile of rows, at an entry: the sum over the tile's rows of the products. -/
theorem memberTransposeTimes1_apply (A : FVec Ideal S5000x128 .bf16) (B : FVec Ideal S5000x128 .bf16) (g d : Fin 128) :
    matmul dot_S5000x128_S5000x128_S128x128_0_0_1_1_n_n none A B (constant S128x128 .f32 0x00000000#32) (ix2 g d)
      = ∑ p : Fin 5000, A (ix2 p g) * B (ix2 p d) := by
  simp only [matmul]
  rw [Ideal.matmul_constant_zero_apply, ← Equiv.sum_comp (contrEquiv1 dot_S5000x128_S5000x128_S128x128_0_0_1_1_n_n 5000 rfl rfl).symm]
  refine Finset.sum_congr rfl fun p _ => ?_
  have cp := contrEquiv1_symm_val dot_S5000x128_S5000x128_S128x128_0_0_1_1_n_n 5000 rfl rfl p
  have hl : dot_S5000x128_S5000x128_S128x128_0_0_1_1_n_n.lhsIdx (ix2 g d) ((contrEquiv1 _ 5000 rfl rfl).symm p) = ix2 p g := by
    funext ax; apply Fin.ext
    match ax with
    | ⟨0, _⟩ => simp [DotDims.lhsIdx, dot_S5000x128_S5000x128_S128x128_0_0_1_1_n_n]; exact cp
    | ⟨1, _⟩ => simp [DotDims.lhsIdx, dot_S5000x128_S5000x128_S128x128_0_0_1_1_n_n]; rfl
  have hr : dot_S5000x128_S5000x128_S128x128_0_0_1_1_n_n.rhsIdx (ix2 g d) ((contrEquiv1 _ 5000 rfl rfl).symm p) = ix2 p d := by
    funext ax; apply Fin.ext
    match ax with
    | ⟨0, _⟩ => simp [DotDims.rhsIdx, dot_S5000x128_S5000x128_S128x128_0_0_1_1_n_n]; exact cp
    | ⟨1, _⟩ => simp [DotDims.rhsIdx, dot_S5000x128_S5000x128_S128x128_0_0_1_1_n_n]; rfl
  rw [hl, hr]

/-- The centred tile at row `p`, feature `d`: the feature less its graph's mean (the graph picked by the membership
    row: a sum over the graphs of membership times mean) times the feature's scale. -/
theorem pay1_3_apply (x1 : Vec Ideal S5000x128 .bf16) (x2 : Vec Ideal S128x128 .f32) (x0 : Vec Ideal S5000x128 .f32)
    (x3 : Vec Ideal S1x128 .f32) (p : Fin 5000) (d : Fin 128) :
    (k1_pay3 x1 x2 x0 x3 : S5000x128.Idx → EReal) (ix2 p d)
      = (x0 (ix2 p d) : EReal) - (∑ g : Fin 128, (x1 (ix2 p g) : EReal) * (x2 (ix2 g d) : EReal)) * (x3 (ix2 (0 : Fin 1) d) : EReal) := by
  unfold k1_pay3 k1_pay2
  rw [subf_apply, mulf_apply]
  simp only [shapeCast_self, broadcastTo_1b_ab_apply]
  rw [memberTimes1_apply]
  rfl

/-- The accumulator's update at graph `g`, feature `d`: what it held plus the sum over the tile's rows of membership
    times the square of the centred feature. -/
theorem pay1_4_apply (x1 : Vec Ideal S5000x128 .bf16) (x2 : Vec Ideal S128x128 .f32) (x0 : Vec Ideal S5000x128 .f32)
    (x3 : Vec Ideal S1x128 .f32) (s : Vec Ideal S128x128 .f32) (g d : Fin 128) :
    (k1_pay4 x1 x2 x0 x3 s : S128x128.Idx → EReal) (ix2 g d)
      = (s (ix2 g d) : EReal) + ∑ p : Fin 5000, (x1 (ix2 p g) : EReal)
          * ((k1_pay3 x1 x2 x0 x3 : S5000x128.Idx → EReal) (ix2 p d) * (k1_pay3 x1 x2 x0 x3 : S5000x128.Idx → EReal) (ix2 p d)) := by
  unfold k1_pay4 k1_pay2
  simp only [shapeCast_self]
  rw [addf_apply, memberTransposeTimes1_apply]
  rfl

/-- The accumulator's reset is zero everywhere. -/
theorem pay1_1_apply (i : S128x128.Idx) : (k1_pay1 (F := Ideal) : S128x128.Idx → EReal) i = 0 := by
  unfold k1_pay1
  simp only [shapeCast_self, broadcast_apply]
  rw [Ideal.ofBits_def, Ideal.ofBits_zero_f32]

section Arrays

variable (V : (c : Dev nD) → (b : Ref sig .tc) → Buf (Elt Ideal) ((c : Thread nD τ).loc b))

/-! ## The centred array as one function of the four input arrays -/

/-- Entry `i` = (row, feature) of the centred array, from the whole input arrays: the feature less its graph's mean
    times the feature's scale. -/
def centred1 (X H : S50000x128.Idx → EReal) (M : S128x128.Idx → EReal) (Wv : S1x128.Idx → EReal) : S50000x128.Idx → EReal := fun i =>
  X i - (∑ g : Fin 128, H (ix2 (i 0 : Fin 50000) g) * M (ix2 g (i 1 : Fin 128))) * Wv (ix2 (0 : Fin 1) (i 1 : Fin 128))

/-- The centred tile of blocks that are restrictions of the arrays, at the entry (`p`, `d`) of the block that sits at
    entry `i` of the array, is the centred array there. -/
theorem pay1_3_eq_centred1 (X H : S50000x128.Idx → EReal) (M : S128x128.Idx → EReal) (Wv : S1x128.Idx → EReal)
    (x1 : Vec Ideal S5000x128 .bf16) (x2 : Vec Ideal S128x128 .f32) (x0 : Vec Ideal S5000x128 .f32) (x3 : Vec Ideal S1x128 .f32)
    (p : Fin 5000) (d : Fin 128) (i : S50000x128.Idx)
    (h0 : (x0 (ix2 p d) : EReal) = X i)
    (h1 : ∀ g : Fin 128, (x1 (ix2 p g) : EReal) = H (ix2 (i 0 : Fin 50000) g))
    (h2 : ∀ g : Fin 128, (x2 (ix2 g d) : EReal) = M (ix2 g (i 1 : Fin 128)))
    (h3 : (x3 (ix2 (0 : Fin 1) d) : EReal) = Wv (ix2 (0 : Fin 1) (i 1 : Fin 128))) :
    (k1_pay3 x1 x2 x0 x3 : S5000x128.Idx → EReal) (ix2 p d) = centred1 X H M Wv i := by
  rw [pay1_3_apply, h0, h3]
  unfold centred1
  simp only [h1, h2]

/-! ## From the blocks to the arrays -/

/-- The windows' block indices, decided over the grid: the row tiles move with the point, the means, the scale row and
    the matrix output stay at the origin. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0 :=
  (by decide +kernel : ∀ t : Fin grid1.N, _)

/-- The four input arrays as the region finds them, as functions of their indices. -/
abbrev feats1 (c : Dev nD) : S50000x128.Idx → EReal := V c (Pipeline.arrRef spec1 0)
abbrev member1 (c : Dev nD) : S50000x128.Idx → EReal := V c (Pipeline.arrRef spec1 1)
abbrev means1 (c : Dev nD) : S128x128.Idx → EReal := V c (Pipeline.arrRef spec1 2)
abbrev scale1 (c : Dev nD) : S1x128.Idx → EReal := V c (Pipeline.arrRef spec1 3)

/-- The feature tile at point `t` is rows `5000 t …` of the feature array. -/
theorem featsBlock1_apply (c : Dev nD) (t : Fin cfg1.N) (y : S5000x128.Idx) (k : S50000x128.Idx)
    (hk0 : (k 0).val = 5000 * t.val + (y 0).val) (hk1 : (k 1).val = (y 1).val) :
    ((iblk1 V c 0 t : Vec Ideal S5000x128 .f32) y : EReal) = feats1 V c k := by
  have e0 := (blockIndex1 t).1
  have e1 := (blockIndex1 t).2.1
  unfold iblk1
  rw [View.read_apply]
  show V c (Pipeline.arrRef spec1 0) _ = V c (Pipeline.arrRef spec1 0) _
  congr 1
  funext a
  apply Fin.ext
  match a with
  | ⟨0, _⟩ => show win1_0.index t 0 * 5000 + 1 * (y 0).val = (k 0).val; rw [e0, hk0]; omega
  | ⟨1, _⟩ => show win1_0.index t 1 * 128 + 1 * (y 1).val = (k 1).val; rw [e1, hk1]; omega

/-- The membership tile at point `t` is the same rows of the membership array. -/
theorem memberBlock1_apply (c : Dev nD) (t : Fin cfg1.N) (y : S5000x128.Idx) (k : S50000x128.Idx)
    (hk0 : (k 0).val = 5000 * t.val + (y 0).val) (hk1 : (k 1).val = (y 1).val) :
    ((iblk1 V c 1 t : Vec Ideal S5000x128 .bf16) y : EReal) = member1 V c k := by
  have e0 := (blockIndex1 t).2.2.1
  have e1 := (blockIndex1 t).2.2.2.1
  unfold iblk1
  rw [View.read_apply]
  show V c (Pipeline.arrRef spec1 1) _ = V c (Pipeline.arrRef spec1 1) _
  congr 1
  funext a
  apply Fin.ext
  match a with
  | ⟨0, _⟩ => show win1_1.index t 0 * 5000 + 1 * (y 0).val = (k 0).val; rw [e0, hk0]; omega
  | ⟨1, _⟩ => show win1_1.index t 1 * 128 + 1 * (y 1).val = (k 1).val; rw [e1, hk1]; omega

/-- The means' block is the whole array at every point. -/
theorem meansBlock1_apply (c : Dev nD) (t : Fin cfg1.N) (y : S128x128.Idx) :
    ((iblk1 V c 2 t : Vec Ideal S128x128 .f32) y : EReal) = means1 V c y := by
  have e0 := (blockIndex1 t).2.2.2.2.1
  have e1 := (blockIndex1 t).2.2.2.2.2.1
  unfold iblk1
  rw [View.read_apply]
  show V c (Pipeline.arrRef spec1 2) _ = V c (Pipeline.arrRef spec1 2) _
  congr 1
  funext a
  apply Fin.ext
  match a with
  | ⟨0, _⟩ => show win1_2.index t 0 * 128 + 1 * (y 0).val = (y 0).val; rw [e0]; omega
  | ⟨1, _⟩ => show win1_2.index t 1 * 128 + 1 * (y 1).val = (y 1).val; rw [e1]; omega

/-- The scale row's block is the whole row at every point. -/
theorem scaleBlock1_apply (c : Dev nD) (t : Fin cfg1.N) (y : S1x128.Idx) :
    ((iblk1 V c 3 t : Vec Ideal S1x128 .f32) y : EReal) = scale1 V c y := by
  have e0 := (blockIndex1 t).2.2.2.2.2.2.1
  have e1 := (blockIndex1 t).2.2.2.2.2.2.2.1
  unfold iblk1
  rw [View.read_apply]
  show V c (Pipeline.arrRef spec1 3) _ = V c (Pipeline.arrRef spec1 3) _
  congr 1
  funext a
  apply Fin.ext
  match a with
  | ⟨0, _⟩ => show win1_3.index t 0 * 1 + 1 * (y 0).val = (y 0).val; rw [e0]; omega
  | ⟨1, _⟩ => show win1_3.index t 1 * 128 + 1 * (y 1).val = (y 1).val; rw [e1]; omega

/-- The centred tile of point `t`'s blocks, at an entry, is the centred array at the entry of the array the tile's
    entry sits at. -/
theorem centredTile1_apply (c : Dev nD) (t : Fin cfg1.N) (p : Fin 5000) (d : Fin 128) (i : S50000x128.Idx)
    (hi0 : (i 0).val = 5000 * t.val + p.val) (hi1 : (i 1).val = d.val) :
    (k1_pay3 (iblk1 V c 1 t) (iblk1 V c 2 t) (iblk1 V c 0 t) (iblk1 V c 3 t) : S5000x128.Idx → EReal) (ix2 p d)
      = centred1 (feats1 V c) (member1 V c) (means1 V c) (scale1 V c) i := by
  refine pay1_3_eq_centred1 _ _ _ _ (iblk1 V c 1 t) (iblk1 V c 2 t) (iblk1 V c 0 t) (iblk1 V c 3 t) p d i ?_ ?_ ?_ ?_
  · exact featsBlock1_apply V c t (ix2 p d) i hi0 hi1
  · intro g; exact memberBlock1_apply V c t (ix2 p g) (ix2 (i 0 : Fin 50000) g) hi0 rfl
  · intro g
    rw [meansBlock1_apply]
    exact congrArg (means1 V c) (by funext a; apply Fin.ext; match a with | ⟨0, _⟩ => rfl | ⟨1, _⟩ => exact hi1.symm)
  · rw [scaleBlock1_apply]
    exact congrArg (scale1 V c) (by funext a; apply Fin.ext; match a with | ⟨0, _⟩ => rfl | ⟨1, _⟩ => exact hi1.symm)

/-- What point `t` writes back of the row output is block `t` of the centred array of the entry arrays. -/
theorem flushed1_4_eq (c : Dev nD) (t : Fin cfg1.N) :
    (dat1 V c).flushed 4 t = ((cfg1.win 4).blk t).view.read (Elt Ideal) (centred1 (feats1 V c) (member1 V c) (means1 V c) (scale1 V c)) := by
  show (cfg1.win 4).cut (grid1.coords t) ((dat1 V c).after 4 t) = _
  rw [after1_4, outs1_eq]
  have e0 := (blockIndex1 t).2.2.2.2.2.2.2.2.1
  have e1 := (blockIndex1 t).2.2.2.2.2.2.2.2.2.1
  refine funext fun (j : S5000x128.Idx) => ?_
  obtain ⟨p, d, rfl⟩ : ∃ (p : Fin 5000) (d : Fin 128), j = ix2 p d := ⟨j 0, j 1, eq_ix2 j⟩
  rw [View.read_apply]
  have hi0 : ((((cfg1.win 4).blk t).view.emb (ix2 p d)) 0).val = 5000 * t.val + p.val := by
    show win1_4.index t 0 * 5000 + 1 * p.val = _; rw [e0]; omega
  have hi1 : ((((cfg1.win 4).blk t).view.emb (ix2 p d)) 1).val = d.val := by
    show win1_4.index t 1 * 128 + 1 * d.val = _; rw [e1]; omega
  exact centredTile1_apply V c t p d (((cfg1.win 4).blk t).view.emb (ix2 p d)) hi0 hi1

/-- An entry of the row output's array sits in point `t`'s block as soon as its row is `5000 t` plus a row of the
    block and its feature the block's. -/
theorem mem_block1_4 (t : Fin cfg1.N) (y : S5000x128.Idx) (i : S50000x128.Idx)
    (h0 : (i 0).val = 5000 * t.val + (y 0).val) (h1 : (i 1).val = (y 1).val) :
    i ∈ ((cfg1.win 4).blk t).view.set := by
  have e0 := (blockIndex1 t).2.2.2.2.2.2.2.2.1
  have e1 := (blockIndex1 t).2.2.2.2.2.2.2.2.2.1
  have hy : ((cfg1.win 4).blk t).view.emb y = i := by
    funext a
    apply Fin.ext
    match a with
    | ⟨0, _⟩ => show win1_4.index t 0 * 5000 + 1 * (y 0).val = (i 0).val; rw [e0, h0]; omega
    | ⟨1, _⟩ => show win1_4.index t 1 * 128 + 1 * (y 1).val = (i 1).val; rw [e1, h1]; omega
  subst hy
  exact ((cfg1.win 4).blk t).view.emb_mem_set y

/-- Every entry of that array is in the block of the point its row falls in. -/
theorem covered1_4 (i : S50000x128.Idx) :
    ∃ t : Fin cfg1.N, (cfg1.win 4).flush t = true ∧ i ∈ ((cfg1.win 4).blk t).view.set := by
  have h0 : (i 0).val < 50000 := (i 0).isLt
  have hN : cfg1.N = 10 := N_1
  have ht : (i 0).val / 5000 < cfg1.N := by rw [hN]; omega
  refine ⟨⟨(i 0).val / 5000, ht⟩, flush1_4 _,
    mem_block1_4 ⟨(i 0).val / 5000, ht⟩ (ix2 (⟨(i 0).val % 5000, Nat.mod_lt _ (by decide)⟩ : Fin 5000) (i 1 : Fin 128)) i ?_ rfl⟩
  show (i 0).val = 5000 * ((i 0).val / 5000) + (i 0).val % 5000
  omega

/-- So the row output's array ends holding the centred array of the entry arrays. -/
theorem arr1_4_eq (c : Dev nD) :
    (dat1 V c).arrAt 4 cfg1.N = centred1 (feats1 V c) (member1 V c) (means1 V c) (scale1 V c) :=
  (dat1 V c).arrAt_eq_of_cover 4 _ (fun t _ => flushed1_4_eq V c t) covered1_4

/-! ## The matrix output: the sum over all rows of membership times the squared centred feature -/

/-- The two output arrays after the region, at their literal types. -/
abbrev rowOut1 (c : Dev nD) : S50000x128.Idx → EReal := (dat1 V c).arrAt 4 cfg1.N
abbrev matOut1 (c : Dev nD) : S128x128.Idx → EReal := (dat1 V c).arrAt 5 cfg1.N

/-- The term of row `n`: its membership of graph `g` times the square of its centred feature `d`. -/
def sqTerm1 (c : Dev nD) (g d : Fin 128) (n : Fin 50000) : EReal :=
  member1 V c (ix2 n g) * (centred1 (feats1 V c) (member1 V c) (means1 V c) (scale1 V c) (ix2 n d) * centred1 (feats1 V c) (member1 V c) (means1 V c) (scale1 V c) (ix2 n d))

/-- The update of point `t`, in terms of the arrays: the sum of the terms of the tile's rows. -/
theorem tileUpdate1 (c : Dev nD) (t : Fin cfg1.N) (g d : Fin 128) (ht : t.val < 10) :
    (∑ p : Fin 5000, (memberTile1 V c t (ix2 p g) : EReal)
        * ((k1_pay3 (memberTile1 V c t) (meansBlk1 V c t) (featTile1 V c t) (scaleBlk1 V c t) : S5000x128.Idx → EReal) (ix2 p d)
          * (k1_pay3 (memberTile1 V c t) (meansBlk1 V c t) (featTile1 V c t) (scaleBlk1 V c t) : S5000x128.Idx → EReal) (ix2 p d)))
      = ∑ r : Fin 5000, sqTerm1 V c g d ⟨t.val * 5000 + r.val, by have := r.isLt; omega⟩ := by
  refine Finset.sum_congr rfl fun p _ => ?_
  have hrow : t.val * 5000 + p.val < 50000 := by have := p.isLt; omega
  unfold sqTerm1
  rw [centredTile1_apply V c t p d (ix2 (⟨t.val * 5000 + p.val, hrow⟩ : Fin 50000) d) (by show t.val * 5000 + p.val = 5000 * t.val + p.val; omega) rfl]
  exact congrArg (· * _) (memberBlock1_apply V c t (ix2 p g) (ix2 (⟨t.val * 5000 + p.val, hrow⟩ : Fin 50000) g) (by show t.val * 5000 + p.val = 5000 * t.val + p.val; omega) rfl)

/-- The accumulator after position `n`, at an entry: the sum over the tiles up to `n` of their rows' terms. -/
theorem chain1_apply (c : Dev nD) (g d : Fin 128) : ∀ (n : ℕ) (h : n < cfg1.N),
    (chain1 V c n h : S128x128.Idx → EReal) (ix2 g d)
      = ∑ t' ∈ Finset.univ.filter (fun t' : Fin 10 => t'.val < n + 1),
          ∑ r : Fin 5000, sqTerm1 V c g d ⟨t'.val * 5000 + r.val, by have := t'.isLt; have := r.isLt; omega⟩
  | 0, h => by
    rw [Cert.Spec.tiles_lt_succ _ 0 (by decide), Cert.Spec.tiles_lt_zero, zero_add, chain1, pay1_4_apply, pay1_1_apply, zero_add]
    exact tileUpdate1 V c ⟨0, h⟩ g d (Nat.zero_lt_succ 9)
  | n + 1, h => by
    have hN : cfg1.N = 10 := N_1
    have hn : n + 1 < 10 := by rw [← hN]; exact h
    rw [Cert.Spec.tiles_lt_succ _ (n + 1) hn, chain1, pay1_4_apply, chain1_apply c g d n]
    exact congrArg _ (tileUpdate1 V c ⟨n + 1, h⟩ g d hn)

/-- The last position. -/
theorem lastPos1 : 9 < cfg1.N := by rw [show cfg1.N = 10 from N_1]; decide

/-- What the one write-back of the matrix output writes — at the last point, whose block is the whole array — is the
    accumulator's chain after the last point. -/
theorem flushed1_5_eq (c : Dev nD) (t : Fin cfg1.N) (hf : (cfg1.win 5).flush t = true) :
    (dat1 V c).flushed 5 t = ((cfg1.win 5).blk t).view.read (Elt Ideal) (chain1 V c 9 lastPos1) := by
  have hN : cfg1.N = 10 := N_1
  have h9 : t.val = 9 := by have := (flush1_5 t).mp hf; have := t.isLt; omega
  obtain rfl : t = ⟨9, lastPos1⟩ := Fin.ext h9
  show (cfg1.win 5).cut (grid1.coords ⟨9, lastPos1⟩) ((dat1 V c).after 5 ⟨9, lastPos1⟩) = _
  rw [after1_5, outs1_eq]
  have e0 := (blockIndex1 ⟨9, lastPos1⟩).2.2.2.2.2.2.2.2.2.2.1
  have e1 := (blockIndex1 ⟨9, lastPos1⟩).2.2.2.2.2.2.2.2.2.2.2
  refine funext fun (j : S128x128.Idx) => ?_
  rw [View.read_apply]
  show (chain1 V c 9 lastPos1 : S128x128.Idx → EReal) j = (chain1 V c 9 lastPos1 : S128x128.Idx → EReal) _
  congr 1
  funext a
  apply Fin.ext
  match a with
  | ⟨0, _⟩ => show (j 0).val = win1_5.index ⟨9, lastPos1⟩ 0 * 128 + 1 * (j 0).val; rw [e0]; omega
  | ⟨1, _⟩ => show (j 1).val = win1_5.index ⟨9, lastPos1⟩ 1 * 128 + 1 * (j 1).val; rw [e1]; omega

/-- Every entry of the matrix output's array is in the last point's block. -/
theorem covered1_5 (i : S128x128.Idx) :
    ∃ t : Fin cfg1.N, (cfg1.win 5).flush t = true ∧ i ∈ ((cfg1.win 5).blk t).view.set := by
  have e0 := (blockIndex1 ⟨9, lastPos1⟩).2.2.2.2.2.2.2.2.2.2.1
  have e1 := (blockIndex1 ⟨9, lastPos1⟩).2.2.2.2.2.2.2.2.2.2.2
  refine ⟨⟨9, lastPos1⟩, (flush1_5 _).mpr rfl, ?_⟩
  have hy : ((cfg1.win 5).blk ⟨9, lastPos1⟩).view.emb i = i := by
    funext a
    apply Fin.ext
    match a with
    | ⟨0, _⟩ => show win1_5.index ⟨9, lastPos1⟩ 0 * 128 + 1 * (i 0).val = (i 0).val; rw [e0]; omega
    | ⟨1, _⟩ => show win1_5.index ⟨9, lastPos1⟩ 1 * 128 + 1 * (i 1).val = (i 1).val; rw [e1]; omega
  have := ((cfg1.win 5).blk ⟨9, lastPos1⟩).view.emb_mem_set i
  rw [hy] at this
  exact this

/-- So the matrix output's array ends holding the accumulator's chain after the last point. -/
theorem arr1_5_eq (c : Dev nD) : (dat1 V c).arrAt 5 cfg1.N = chain1 V c 9 lastPos1 :=
  (dat1 V c).arrAt_eq_of_cover 5 _ (flushed1_5_eq V c) covered1_5

/-- The row output's array after the region, at row `n` and feature `d`, in plain arithmetic of the entry arrays. -/
theorem arr1_4_apply (c : Dev nD) (n : Fin 50000) (d : Fin 128) :
    rowOut1 V c (ix2 n d)
      = feats1 V c (ix2 n d) - (∑ g : Fin 128, member1 V c (ix2 n g) * means1 V c (ix2 g d)) * scale1 V c (ix2 (0 : Fin 1) d) := by
  have h4 : rowOut1 V c = centred1 (feats1 V c) (member1 V c) (means1 V c) (scale1 V c) := arr1_4_eq V c
  rw [h4]; rfl

/-- The matrix output's array after the region, at graph `g` and feature `d`: the sum over all rows of membership
    times the square of the row output's entry. -/
theorem arr1_5_apply (c : Dev nD) (g d : Fin 128) :
    matOut1 V c (ix2 g d)
      = ∑ n : Fin 50000, member1 V c (ix2 n g) * (rowOut1 V c (ix2 n d) * rowOut1 V c (ix2 n d)) := by
  have h4 : rowOut1 V c = centred1 (feats1 V c) (member1 V c) (means1 V c) (scale1 V c) := arr1_4_eq V c
  have h5 : matOut1 V c = (chain1 V c 9 lastPos1 : S128x128.Idx → EReal) := arr1_5_eq V c
  rw [h5, h4, chain1_apply V c g d 9 lastPos1, Cert.Spec.tiles_lt_all, Cert.Spec.tile_sum (sqTerm1 V c g d)]
  rfl

end Arrays

end Cert.KernelIdeal.Hand

end
-- ==== Proof.KI.Reg2Val.lean ====
import proofs.«408428_j10917806867267_1_alg».proof.Proof.KI.Reg2
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! # The normalising launch's result array, entry by entry, at the ideal values

What the output array holds after the region, read at a row and a feature, as plain arithmetic of the five input
arrays as the region finds them: the feature times its scale, divided by the root of the variance of the row's graph
plus a constant (the membership row picks the graph: a sum over the graphs of membership times variance), plus its
shift, cut off below at zero. First the payload at an entry; then each input block as a restriction of its array,
what each point writes back as a block of one whole-array function, and the cover of the array by the blocks. -/

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The payload at an entry -/

/-- The small constant added under the root. -/
abbrev eps2 : EReal := Ideal.ofBits .f32 0x3727C5AC#32

/-- The membership tile times the variances, at an entry: the sum over the graphs of the products. -/
theorem onehotTimes2_apply (A : FVec Ideal S5000x128 .bf16) (B : FVec Ideal S128x128 .bf16) (p : Fin 5000) (d : Fin 128) :
    matmul dot_S5000x128_S128x128_S5000x128_1_0_0_1_n_n none A B (constant S5000x128 .f32 0x00000000#32) (ix2 p d)
      = ∑ g : Fin 128, A (ix2 p g) * B (ix2 g d) := by
  simp only [matmul]
  rw [Ideal.matmul_constant_zero_apply, ← Equiv.sum_comp (contrEquiv1 dot_S5000x128_S128x128_S5000x128_1_0_0_1_n_n 128 rfl rfl).symm]
  refine Finset.sum_congr rfl fun g _ => ?_
  have cg := contrEquiv1_symm_val dot_S5000x128_S128x128_S5000x128_1_0_0_1_n_n 128 rfl rfl g
  have hl : dot_S5000x128_S128x128_S5000x128_1_0_0_1_n_n.lhsIdx (ix2 p d) ((contrEquiv1 _ 128 rfl rfl).symm g) = ix2 p g := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact cg
  have hr : dot_S5000x128_S128x128_S5000x128_1_0_0_1_n_n.rhsIdx (ix2 p d) ((contrEquiv1 _ 128 rfl rfl).symm g) = ix2 g d := by
    funext ax; apply Fin.ext
    match ax with
    | ⟨0, _⟩ => simp [DotDims.rhsIdx, dot_S5000x128_S128x128_S5000x128_1_0_0_1_n_n]; exact cg
    | ⟨1, _⟩ => simp [DotDims.rhsIdx, dot_S5000x128_S128x128_S5000x128_1_0_0_1_n_n]; rfl
  rw [hl, hr]

/-- The payload at row `p`, feature `d`: the feature scaled, divided by the root of its graph's variance plus the
    constant (the graph picked by the membership row), shifted, and cut off below at zero. -/
theorem pay2_apply (x1 : Vec Ideal S5000x128 .bf16) (x2 : Vec Ideal S128x128 .f32) (x3 : Vec Ideal S1x128 .f32)
    (x0 : Vec Ideal S5000x128 .f32) (x4 : Vec Ideal S1x128 .f32) (p : Fin 5000) (d : Fin 128) :
    (k2_pay1 x1 x2 x3 x0 x4 : S5000x128.Idx → EReal) (ix2 p d)
      = max ((x3 (ix2 (0 : Fin 1) d) : EReal) * (x0 (ix2 p d) : EReal)
              * Ideal.rsqrt ((∑ g : Fin 128, (x1 (ix2 p g) : EReal) * (x2 (ix2 g d) : EReal)) + eps2)
            + (x4 (ix2 (0 : Fin 1) d) : EReal)) 0 := by
  unfold k2_pay1
  rw [maximumf_apply, addf_apply, mulf_apply, mulf_apply]
  simp only [shapeCast_self, broadcastTo_1b_ab_apply, broadcast_apply]
  rw [show ∀ (v : FVec Ideal S5000x128 .f32) (i : S5000x128.Idx), rsqrt v i = Ideal.rsqrt (v i) from fun _ _ => rfl,
    addf_apply, broadcast_apply, onehotTimes2_apply, Ideal.ofBits_def, Ideal.ofBits_def, Ideal.ofBits_zero_f32]
  rfl

/-! ## The normalised array as one function of the five input arrays -/

/-- Entry `i` = (row, feature) of the result, from the whole input arrays. -/
def normalized2 (X H : S50000x128.Idx → EReal) (Vr : S128x128.Idx → EReal) (Wv Bv : S1x128.Idx → EReal) :
    S50000x128.Idx → EReal := fun i =>
  max (Wv (ix2 (0 : Fin 1) (i 1 : Fin 128)) * X i
        * Ideal.rsqrt ((∑ g : Fin 128, H (ix2 (i 0 : Fin 50000) g) * Vr (ix2 g (i 1 : Fin 128))) + eps2)
      + Bv (ix2 (0 : Fin 1) (i 1 : Fin 128))) 0

/-- The payload of blocks that are restrictions of the arrays, at the entry (`p`, `d`) of the block that sits at entry
    `i` of the array, is the normalised array there. -/
theorem pay2_eq_normalized2 (X H : S50000x128.Idx → EReal) (Vr : S128x128.Idx → EReal) (Wv Bv : S1x128.Idx → EReal)
    (x1 : Vec Ideal S5000x128 .bf16) (x2 : Vec Ideal S128x128 .f32) (x3 : Vec Ideal S1x128 .f32)
    (x0 : Vec Ideal S5000x128 .f32) (x4 : Vec Ideal S1x128 .f32) (p : Fin 5000) (d : Fin 128) (i : S50000x128.Idx)
    (h0 : (x0 (ix2 p d) : EReal) = X i)
    (h1 : ∀ g : Fin 128, (x1 (ix2 p g) : EReal) = H (ix2 (i 0 : Fin 50000) g))
    (h2 : ∀ g : Fin 128, (x2 (ix2 g d) : EReal) = Vr (ix2 g (i 1 : Fin 128)))
    (h3 : (x3 (ix2 (0 : Fin 1) d) : EReal) = Wv (ix2 (0 : Fin 1) (i 1 : Fin 128)))
    (h4 : (x4 (ix2 (0 : Fin 1) d) : EReal) = Bv (ix2 (0 : Fin 1) (i 1 : Fin 128))) :
    (k2_pay1 x1 x2 x3 x0 x4 : S5000x128.Idx → EReal) (ix2 p d) = normalized2 X H Vr Wv Bv i := by
  rw [pay2_apply, h0, h3, h4]
  unfold normalized2
  simp only [h1, h2]

/-! ## From the blocks to the array -/

theorem zeroOffsets2 : (![0, 0] : Fin 2 → Nat) = fun _ => 0 := funext fun a => by fin_cases a <;> rfl

/-- The output buffer after the body is the payload of the five input buffers: the single store is the whole buffer
    and every load reads its buffer whole. -/
theorem out2_5_eq (x0 : Vec Ideal S5000x128 .f32) (x1 : Vec Ideal S5000x128 .bf16) (x2 : Vec Ideal S128x128 .f32)
    (x3 : Vec Ideal S1x128 .f32) (x4 : Vec Ideal S1x128 .f32) :
    out2_5 x0 x1 x2 x3 x4 = (k2_pay1 x1 x2 x3 x0 x4 : Vec Ideal S5000x128 .f32) := by
  unfold out2_5
  rw [View.canon_unit_zero zeroOffsets2]
  simp only [View.ld_unit_zero (S := S5000x128) zeroOffsets2, View.ld_unit_zero (S := S128x128) zeroOffsets2,
    View.ld_unit_zero (S := S1x128) zeroOffsets2]

/-- The windows' block indices, decided over the grid: the row tiles move with the point, the variances and the two
    rows stay at the origin. -/
theorem blockIndex2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The five input arrays as the region finds them, as functions of their indices. -/
abbrev feats2 (c : Dev nD) : S50000x128.Idx → EReal := V c (Pipeline.arrRef spec2 0)
abbrev member2 (c : Dev nD) : S50000x128.Idx → EReal := V c (Pipeline.arrRef spec2 1)
abbrev vars2 (c : Dev nD) : S128x128.Idx → EReal := V c (Pipeline.arrRef spec2 2)
abbrev scale2 (c : Dev nD) : S1x128.Idx → EReal := V c (Pipeline.arrRef spec2 3)
abbrev shift2 (c : Dev nD) : S1x128.Idx → EReal := V c (Pipeline.arrRef spec2 4)

/-- The feature tile at point `t` is rows `5000 t …` of the feature array. -/
theorem featsBlock2_apply (c : Dev nD) (t : Fin cfg2.N) (y : S5000x128.Idx) (k : S50000x128.Idx)
    (hk0 : (k 0).val = 5000 * t.val + (y 0).val) (hk1 : (k 1).val = (y 1).val) :
    ((iblk2 V c 0 t : Vec Ideal S5000x128 .f32) y : EReal) = feats2 V c k := by
  obtain ⟨e0, e1, -⟩ := blockIndex2 t
  unfold iblk2
  rw [View.read_apply]
  show V c (Pipeline.arrRef spec2 0) _ = V c (Pipeline.arrRef spec2 0) _
  congr 1
  funext a
  apply Fin.ext
  match a with
  | ⟨0, _⟩ => show win2_0.index t 0 * 5000 + 1 * (y 0).val = (k 0).val; rw [e0, hk0]; omega
  | ⟨1, _⟩ => show win2_0.index t 1 * 128 + 1 * (y 1).val = (k 1).val; rw [e1, hk1]; omega

/-- The membership tile at point `t` is the same rows of the membership array. -/
theorem memberBlock2_apply (c : Dev nD) (t : Fin cfg2.N) (y : S5000x128.Idx) (k : S50000x128.Idx)
    (hk0 : (k 0).val = 5000 * t.val + (y 0).val) (hk1 : (k 1).val = (y 1).val) :
    ((iblk2 V c 1 t : Vec Ideal S5000x128 .bf16) y : EReal) = member2 V c k := by
  obtain ⟨-, -, e0, e1, -⟩ := blockIndex2 t
  unfold iblk2
  rw [View.read_apply]
  show V c (Pipeline.arrRef spec2 1) _ = V c (Pipeline.arrRef spec2 1) _
  congr 1
  funext a
  apply Fin.ext
  match a with
  | ⟨0, _⟩ => show win2_1.index t 0 * 5000 + 1 * (y 0).val = (k 0).val; rw [e0, hk0]; omega
  | ⟨1, _⟩ => show win2_1.index t 1 * 128 + 1 * (y 1).val = (k 1).val; rw [e1, hk1]; omega

/-- The variances' block is the whole array at every point. -/
theorem varsBlock2_apply (c : Dev nD) (t : Fin cfg2.N) (y : S128x128.Idx) :
    ((iblk2 V c 2 t : Vec Ideal S128x128 .f32) y : EReal) = vars2 V c y := by
  obtain ⟨-, -, -, -, e0, e1, -⟩ := blockIndex2 t
  unfold iblk2
  rw [View.read_apply]
  show V c (Pipeline.arrRef spec2 2) _ = V c (Pipeline.arrRef spec2 2) _
  congr 1
  funext a
  apply Fin.ext
  match a with
  | ⟨0, _⟩ => show win2_2.index t 0 * 128 + 1 * (y 0).val = (y 0).val; rw [e0]; omega
  | ⟨1, _⟩ => show win2_2.index t 1 * 128 + 1 * (y 1).val = (y 1).val; rw [e1]; omega

/-- The scale row's block is the whole row at every point. -/
theorem scaleBlock2_apply (c : Dev nD) (t : Fin cfg2.N) (y : S1x128.Idx) :
    ((iblk2 V c 3 t : Vec Ideal S1x128 .f32) y : EReal) = scale2 V c y := by
  obtain ⟨-, -, -, -, -, -, e0, e1, -⟩ := blockIndex2 t
  unfold iblk2
  rw [View.read_apply]
  show V c (Pipeline.arrRef spec2 3) _ = V c (Pipeline.arrRef spec2 3) _
  congr 1
  funext a
  apply Fin.ext
  match a with
  | ⟨0, _⟩ => show win2_3.index t 0 * 1 + 1 * (y 0).val = (y 0).val; rw [e0]; omega
  | ⟨1, _⟩ => show win2_3.index t 1 * 128 + 1 * (y 1).val = (y 1).val; rw [e1]; omega

/-- The shift row's block is the whole row at every point. -/
theorem shiftBlock2_apply (c : Dev nD) (t : Fin cfg2.N) (y : S1x128.Idx) :
    ((iblk2 V c 4 t : Vec Ideal S1x128 .f32) y : EReal) = shift2 V c y := by
  obtain ⟨-, -, -, -, -, -, -, -, e0, e1, -⟩ := blockIndex2 t
  unfold iblk2
  rw [View.read_apply]
  show V c (Pipeline.arrRef spec2 4) _ = V c (Pipeline.arrRef spec2 4) _
  congr 1
  funext a
  apply Fin.ext
  match a with
  | ⟨0, _⟩ => show win2_4.index t 0 * 1 + 1 * (y 0).val = (y 0).val; rw [e0]; omega
  | ⟨1, _⟩ => show win2_4.index t 1 * 128 + 1 * (y 1).val = (y 1).val; rw [e1]; omega

/-- What point `t` writes back is block `t` of the normalised array of the entry arrays. -/
theorem flushed2_5_eq (c : Dev nD) (t : Fin cfg2.N) :
    (dat2 V c).flushed 5 t = ((cfg2.win 5).blk t).view.read (Elt Ideal)
      (normalized2 (feats2 V c) (member2 V c) (vars2 V c) (scale2 V c) (shift2 V c)) := by
  show (cfg2.win 5).cut (grid2.coords t) ((dat2 V c).after 5 t) = _
  rw [after2_5, out2_5_eq]
  obtain ⟨-, -, -, -, -, -, -, -, -, -, e0, e1⟩ := blockIndex2 t
  refine funext fun (j : S5000x128.Idx) => ?_
  obtain ⟨p, d, rfl⟩ : ∃ (p : Fin 5000) (d : Fin 128), j = ix2 p d := ⟨j 0, j 1, eq_ix2 j⟩
  rw [View.read_apply]
  have hi0 : ((((cfg2.win 5).blk t).view.emb (ix2 p d)) 0).val = 5000 * t.val + p.val := by
    show win2_5.index t 0 * 5000 + 1 * p.val = _; rw [e0]; omega
  have hi1 : ((((cfg2.win 5).blk t).view.emb (ix2 p d)) 1).val = d.val := by
    show win2_5.index t 1 * 128 + 1 * d.val = _; rw [e1]; omega
  refine pay2_eq_normalized2 _ _ _ _ _ (iblk2 V c 1 t) (iblk2 V c 2 t) (iblk2 V c 3 t) (iblk2 V c 0 t) (iblk2 V c 4 t) p d
    (((cfg2.win 5).blk t).view.emb (ix2 p d)) ?_ ?_ ?_ ?_ ?_
  · exact featsBlock2_apply V c t (ix2 p d) _ hi0 hi1
  · intro g; exact memberBlock2_apply V c t _ _ hi0 rfl
  · intro g
    rw [varsBlock2_apply]
    exact congrArg (vars2 V c) (by funext a; apply Fin.ext; match a with | ⟨0, _⟩ => rfl | ⟨1, _⟩ => exact hi1.symm)
  · rw [scaleBlock2_apply]
    exact congrArg (scale2 V c) (by funext a; apply Fin.ext; match a with | ⟨0, _⟩ => rfl | ⟨1, _⟩ => exact hi1.symm)
  · rw [shiftBlock2_apply]
    exact congrArg (shift2 V c) (by funext a; apply Fin.ext; match a with | ⟨0, _⟩ => rfl | ⟨1, _⟩ => exact hi1.symm)

/-- An entry of the array sits in point `t`'s block as soon as its row is `5000 t` plus a row of the block and its
    feature the block's: it is the image of that block entry. -/
theorem mem_block2_5 (t : Fin cfg2.N) (y : S5000x128.Idx) (i : S50000x128.Idx)
    (h0 : (i 0).val = 5000 * t.val + (y 0).val) (h1 : (i 1).val = (y 1).val) :
    i ∈ ((cfg2.win 5).blk t).view.set := by
  obtain ⟨-, -, -, -, -, -, -, -, -, -, e0, e1⟩ := blockIndex2 t
  have hy : ((cfg2.win 5).blk t).view.emb y = i := by
    funext a
    apply Fin.ext
    match a with
    | ⟨0, _⟩ => show win2_5.index t 0 * 5000 + 1 * (y 0).val = (i 0).val; rw [e0, h0]; omega
    | ⟨1, _⟩ => show win2_5.index t 1 * 128 + 1 * (y 1).val = (i 1).val; rw [e1, h1]; omega
  subst hy
  exact ((cfg2.win 5).blk t).view.emb_mem_set y

/-- Every entry of the array is in the block of the point its row falls in. -/
theorem covered2_5 (i : S50000x128.Idx) :
    ∃ t : Fin cfg2.N, (cfg2.win 5).flush t = true ∧ i ∈ ((cfg2.win 5).blk t).view.set := by
  have h0 : (i 0).val < 50000 := (i 0).isLt
  have hN : cfg2.N = 10 := N_2
  have ht : (i 0).val / 5000 < cfg2.N := by rw [hN]; omega
  refine ⟨⟨(i 0).val / 5000, ht⟩, flush2_5 _,
    mem_block2_5 ⟨(i 0).val / 5000, ht⟩ (ix2 (⟨(i 0).val % 5000, Nat.mod_lt _ (by decide)⟩ : Fin 5000) (i 1 : Fin 128)) i ?_ rfl⟩
  show (i 0).val = 5000 * ((i 0).val / 5000) + (i 0).val % 5000
  omega

/-- So the output array ends holding the normalised array of the entry arrays. -/
theorem arr2_5_eq (c : Dev nD) :
    (dat2 V c).arrAt 5 cfg2.N = normalized2 (feats2 V c) (member2 V c) (vars2 V c) (scale2 V c) (shift2 V c) :=
  (dat2 V c).arrAt_eq_of_cover 5 _ (fun t _ => flushed2_5_eq V c t) covered2_5

/-- The output array after the region, at row `n` and feature `d`, in plain arithmetic of the entry arrays. -/
theorem arr2_5_apply (c : Dev nD) (n : Fin 50000) (d : Fin 128) :
    ((dat2 V c).arrAt 5 cfg2.N : S50000x128.Idx → EReal) (ix2 n d)
      = max (scale2 V c (ix2 (0 : Fin 1) d) * feats2 V c (ix2 n d)
              * Ideal.rsqrt ((∑ g : Fin 128, member2 V c (ix2 n g) * vars2 V c (ix2 g d)) + eps2)
            + shift2 V c (ix2 (0 : Fin 1) d)) 0 := by
  rw [arr2_5_eq]; rfl

end Cert.KernelIdeal.Hand
-- ==== Proof.KI.Reg3Val.lean ====
import proofs.«408428_j10917806867267_1_alg».proof.Proof.KI.Reg3
import proofs.«408428_j10917806867267_1_alg».proof.Proof.Spec2
import proofs.«408428_j10917806867267_1_alg».proof.Proof.Consts
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! # The first launch's two result arrays, entry by entry, at the ideal values

What the two output arrays hold after the region, as plain arithmetic of the seven input arrays as the region finds them.
Window 7's array is the two-layer perceptron of each row plus its aggregate. Window 8's array is, per graph and feature,
the sum over all rows of the row's membership in the graph times that output: the accumulator starts at zero, each point
adds its tile's term, and the ten tiles of 5000 rows are the 50000 rows. First the payloads at an entry; then each input
block as a restriction of its array, what each point writes back as a block of one whole-array function, the cover of
the arrays by the blocks, and the accumulator's value after each point. -/

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The payloads at an entry -/

/-- A row tile times a square matrix, at an entry: the sum over the inner axis of the products. -/
theorem mmRows3_apply (A : FVec Ideal S5000x128 .bf16) (B : FVec Ideal S128x128 .bf16) (p : Fin 5000) (d : Fin 128) :
    matmul dot_S5000x128_S128x128_S5000x128_1_0_0_1_n_n none A B (constant S5000x128 .f32 0x00000000#32) (ix2 p d)
      = ∑ g : Fin 128, A (ix2 p g) * B (ix2 g d) := by
  simp only [matmul]
  rw [Ideal.matmul_constant_zero_apply, ← Equiv.sum_comp (contrEquiv1 dot_S5000x128_S128x128_S5000x128_1_0_0_1_n_n 128 rfl rfl).symm]
  refine Finset.sum_congr rfl fun g _ => ?_
  have cg := contrEquiv1_symm_val dot_S5000x128_S128x128_S5000x128_1_0_0_1_n_n 128 rfl rfl g
  have hl : dot_S5000x128_S128x128_S5000x128_1_0_0_1_n_n.lhsIdx (ix2 p d) ((contrEquiv1 _ 128 rfl rfl).symm g) = ix2 p g := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact cg
  have hr : dot_S5000x128_S128x128_S5000x128_1_0_0_1_n_n.rhsIdx (ix2 p d) ((contrEquiv1 _ 128 rfl rfl).symm g) = ix2 g d := by
    funext ax; apply Fin.ext
    match ax with
    | ⟨0, _⟩ => simp [DotDims.rhsIdx, dot_S5000x128_S128x128_S5000x128_1_0_0_1_n_n]; exact cg
    | ⟨1, _⟩ => simp [DotDims.rhsIdx, dot_S5000x128_S128x128_S5000x128_1_0_0_1_n_n]; rfl
  rw [hl, hr]

/-- Two row tiles contracted along their rows, at an entry: the sum over the rows of the products. -/
theorem mmCols3_apply (A B : FVec Ideal S5000x128 .bf16) (g d : Fin 128) :
    matmul dot_S5000x128_S5000x128_S128x128_0_0_1_1_n_n none A B (constant S128x128 .f32 0x00000000#32) (ix2 g d)
      = ∑ p : Fin 5000, A (ix2 p g) * B (ix2 p d) := by
  simp only [matmul]
  rw [Ideal.matmul_constant_zero_apply, ← Equiv.sum_comp (contrEquiv1 dot_S5000x128_S5000x128_S128x128_0_0_1_1_n_n 5000 rfl rfl).symm]
  refine Finset.sum_congr rfl fun p _ => ?_
  have cp := contrEquiv1_symm_val dot_S5000x128_S5000x128_S128x128_0_0_1_1_n_n 5000 rfl rfl p
  have hl : dot_S5000x128_S5000x128_S128x128_0_0_1_1_n_n.lhsIdx (ix2 g d) ((contrEquiv1 _ 5000 rfl rfl).symm p) = ix2 p g := by
    funext ax; apply Fin.ext
    match ax with
    | ⟨0, _⟩ => simp [DotDims.lhsIdx, dot_S5000x128_S5000x128_S128x128_0_0_1_1_n_n]; exact cp
    | ⟨1, _⟩ => simp [DotDims.lhsIdx, dot_S5000x128_S5000x128_S128x128_0_0_1_1_n_n]; rfl
  have hr : dot_S5000x128_S5000x128_S128x128_0_0_1_1_n_n.rhsIdx (ix2 g d) ((contrEquiv1 _ 5000 rfl rfl).symm p) = ix2 p d := by
    funext ax; apply Fin.ext
    match ax with
    | ⟨0, _⟩ => simp [DotDims.rhsIdx, dot_S5000x128_S5000x128_S128x128_0_0_1_1_n_n]; exact cp
    | ⟨1, _⟩ => simp [DotDims.rhsIdx, dot_S5000x128_S5000x128_S128x128_0_0_1_1_n_n]; rfl
  rw [hl, hr]

/-- The perceptron's payload at row `p`, feature `d` of the tile: two linear maps over the row plus its aggregate, a
    rectifier after each. -/
theorem pay3_3_apply (v3 v4 : Vec Ideal S5000x128 .f32) (v7 : Vec Ideal S128x128 .f32) (v12 : Vec Ideal S1x128 .f32)
    (v18 : Vec Ideal S128x128 .f32) (v23 : Vec Ideal S1x128 .f32) (p : Fin 5000) (d : Fin 128) :
    (k3_pay3 v3 v4 v7 v12 v18 v23 : S5000x128.Idx → EReal) (ix2 p d)
      = Cert.Spec2.mlp2 (fun (q : Fin 5000) (j : Fin 128) => (v3 (ix2 q j) : EReal) + (v4 (ix2 q j) : EReal))
          (fun (j k : Fin 128) => (v7 (ix2 j k) : EReal)) (fun k : Fin 128 => (v12 (ix2 (0 : Fin 1) k) : EReal))
          (fun (k e : Fin 128) => (v18 (ix2 k e) : EReal)) (fun e : Fin 128 => (v23 (ix2 (0 : Fin 1) e) : EReal)) p d := by
  unfold k3_pay3
  rw [maximumf_apply, addf_apply, mmRows3_apply]
  simp only [shapeCast_self, broadcastTo_1b_ab_apply, broadcast_apply, truncf_apply, maximumf_apply, addf_apply, mmRows3_apply]
  unfold Cert.Spec2.mlp2 Cert.Spec2.lin Cert.Spec2.relu
  simp only [Cert.Consts.scalar_zero]

/-- The accumulator's payload at graph `g`, feature `d`: what it held plus the sum over the tile's rows of membership
    times the perceptron's output. -/
theorem pay3_1_apply (T : FVec Ideal S5000x128 .f32) (M : FVec Ideal S5000x128 .bf16) (s : Vec Ideal S128x128 .f32) (g d : Fin 128) :
    (k3_pay1 T M s : S128x128.Idx → EReal) (ix2 g d)
      = (s (ix2 g d) : EReal) + ∑ p : Fin 5000, (M (ix2 p g) : EReal) * (T (ix2 p d) : EReal) := by
  unfold k3_pay1
  rw [shapeCast_self, addf_apply, mmCols3_apply]
  simp only [truncf_apply]

/-- The zero splat reads zero everywhere. -/
theorem pay3_2_apply (i : S128x128.Idx) : (k3_pay2 (F := Ideal) : S128x128.Idx → EReal) i = 0 := by
  unfold k3_pay2
  rw [shapeCast_self, broadcast_apply]
  exact Cert.Consts.scalar_zero

/-- The membership tile passes through unchanged. -/
theorem pay3_4_eq (v30 : Vec Ideal S5000x128 .bf16) : (k3_pay4 v30 : FVec Ideal S5000x128 .bf16) = v30 := by
  unfold k3_pay4; rw [shapeCast_self]

variable (V : (c : Dev nD) → (b : Ref sig .tc) → Buf (Elt Ideal) ((c : Thread nD τ).loc b))

/-! ## The stores and loads are whole-buffer: what the body leaves, as payloads -/

theorem zeroOffsets3 : (![0, 0] : Fin 2 → Nat) = fun _ => 0 := funext fun a => by fin_cases a <;> rfl

theorem tval3_eq (x0 x1 : Vec Ideal S5000x128 .f32) (x3 : Vec Ideal S128x128 .f32) (x4 : Vec Ideal S1x128 .f32)
    (x5 : Vec Ideal S128x128 .f32) (x6 : Vec Ideal S1x128 .f32) :
    tval3 x0 x1 x3 x4 x5 x6 = (k3_pay3 x0 x1 x3 x4 x5 x6 : FVec Ideal S5000x128 .f32) := by
  unfold tval3
  simp only [View.ld_unit_zero (S := S5000x128) zeroOffsets3, View.ld_unit_zero (S := S128x128) zeroOffsets3,
    View.ld_unit_zero (S := S1x128) zeroOffsets3]

theorem out3_7_eq (x0 x1 : Vec Ideal S5000x128 .f32) (x3 : Vec Ideal S128x128 .f32) (x4 : Vec Ideal S1x128 .f32)
    (x5 : Vec Ideal S128x128 .f32) (x6 : Vec Ideal S1x128 .f32) :
    out3_7 x0 x1 x3 x4 x5 x6 = (k3_pay3 x0 x1 x3 x4 x5 x6 : Vec Ideal S5000x128 .f32) := by
  unfold out3_7
  rw [View.canon_unit_zero zeroOffsets3, tval3_eq]

theorem scr3_eq (x0 x1 : Vec Ideal S5000x128 .f32) (x2 : Vec Ideal S5000x128 .bf16) (x3 : Vec Ideal S128x128 .f32)
    (x4 : Vec Ideal S1x128 .f32) (x5 : Vec Ideal S128x128 .f32) (x6 : Vec Ideal S1x128 .f32) (s : Vec Ideal S128x128 .f32) :
    scr3 x0 x1 x2 x3 x4 x5 x6 s = (k3_pay1 (k3_pay3 x0 x1 x3 x4 x5 x6) x2 s : Vec Ideal S128x128 .f32) := by
  unfold scr3
  rw [View.canon_unit_zero zeroOffsets3, tval3_eq, pay3_4_eq]
  simp only [View.ld_unit_zero (S := S5000x128) zeroOffsets3, View.ld_unit_zero (S := S128x128) zeroOffsets3]

theorem zero3_apply (i : S128x128.Idx) : ((zero3 (F := Ideal) : S128x128.Idx → EReal) i) = 0 := by
  unfold zero3
  rw [View.canon_unit_zero zeroOffsets3]
  exact pay3_2_apply i

theorem out3_8_eq (s : Vec Ideal S128x128 .f32) : out3_8 s = s := by
  unfold out3_8
  rw [View.canon_unit_zero zeroOffsets3, View.ld_unit_zero (S := S128x128) zeroOffsets3]

/-! ## The blocks as restrictions of the arrays -/

/-- The windows' block indices, decided over the grid: the row tiles move with the point, the weights, the biases and the
    sums stay at the origin. -/
theorem blockIndex3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0
    ∧ win3_8.index t (0 : Fin 2) = 0 ∧ win3_8.index t (1 : Fin 2) = 0 ∧ True :=
  (by decide +kernel : ∀ t : Fin grid3.N, _)

/-- The seven input arrays as the region finds them, as functions of their indices: rows, aggregates, membership, the
    two weight matrices and the two bias rows. -/
abbrev ent3_0 (c : Dev nD) : S50000x128.Idx → EReal := V c (Pipeline.arrRef spec3 0)
abbrev ent3_1 (c : Dev nD) : S50000x128.Idx → EReal := V c (Pipeline.arrRef spec3 1)
abbrev ent3_2 (c : Dev nD) : S50000x128.Idx → EReal := V c (Pipeline.arrRef spec3 2)
abbrev ent3_3 (c : Dev nD) : S128x128.Idx → EReal := V c (Pipeline.arrRef spec3 3)
abbrev ent3_4 (c : Dev nD) : S1x128.Idx → EReal := V c (Pipeline.arrRef spec3 4)
abbrev ent3_5 (c : Dev nD) : S128x128.Idx → EReal := V c (Pipeline.arrRef spec3 5)
abbrev ent3_6 (c : Dev nD) : S1x128.Idx → EReal := V c (Pipeline.arrRef spec3 6)

theorem blk3_0_apply (c : Dev nD) (t : Fin cfg3.N) (y : S5000x128.Idx) (k : S50000x128.Idx)
    (hk0 : (k 0).val = 5000 * t.val + (y 0).val) (hk1 : (k 1).val = (y 1).val) :
    ((iblk3 V c 0 t : S5000x128.Idx → EReal) y) = ent3_0 V c k := by
  obtain ⟨e0, e1, -⟩ := blockIndex3 t
  unfold iblk3
  rw [View.read_apply]
  show V c (Pipeline.arrRef spec3 0) _ = V c (Pipeline.arrRef spec3 0) _
  congr 1
  funext a
  apply Fin.ext
  match a with
  | ⟨0, _⟩ => show win3_0.index t 0 * 5000 + 1 * (y 0).val = (k 0).val; rw [e0, hk0]; omega
  | ⟨1, _⟩ => show win3_0.index t 1 * 128 + 1 * (y 1).val = (k 1).val; rw [e1, hk1]; omega

theorem blk3_1_apply (c : Dev nD) (t : Fin cfg3.N) (y : S5000x128.Idx) (k : S50000x128.Idx)
    (hk0 : (k 0).val = 5000 * t.val + (y 0).val) (hk1 : (k 1).val = (y 1).val) :
    ((iblk3 V c 1 t : S5000x128.Idx → EReal) y) = ent3_1 V c k := by
  obtain ⟨-, -, e0, e1, -⟩ := blockIndex3 t
  unfold iblk3
  rw [View.read_apply]
  show V c (Pipeline.arrRef spec3 1) _ = V c (Pipeline.arrRef spec3 1) _
  congr 1
  funext a
  apply Fin.ext
  match a with
  | ⟨0, _⟩ => show win3_1.index t 0 * 5000 + 1 * (y 0).val = (k 0).val; rw [e0, hk0]; omega
  | ⟨1, _⟩ => show win3_1.index t 1 * 128 + 1 * (y 1).val = (k 1).val; rw [e1, hk1]; omega

theorem blk3_2_apply (c : Dev nD) (t : Fin cfg3.N) (y : S5000x128.Idx) (k : S50000x128.Idx)
    (hk0 : (k 0).val = 5000 * t.val + (y 0).val) (hk1 : (k 1).val = (y 1).val) :
    ((iblk3 V c 2 t : S5000x128.Idx → EReal) y) = ent3_2 V c k := by
  obtain ⟨-, -, -, -, e0, e1, -⟩ := blockIndex3 t
  unfold iblk3
  rw [View.read_apply]
  show V c (Pipeline.arrRef spec3 2) _ = V c (Pipeline.arrRef spec3 2) _
  congr 1
  funext a
  apply Fin.ext
  match a with
  | ⟨0, _⟩ => show win3_2.index t 0 * 5000 + 1 * (y 0).val = (k 0).val; rw [e0, hk0]; omega
  | ⟨1, _⟩ => show win3_2.index t 1 * 128 + 1 * (y 1).val = (k 1).val; rw [e1, hk1]; omega

theorem blk3_3_apply (c : Dev nD) (t : Fin cfg3.N) (y : S128x128.Idx) :
    ((iblk3 V c 3 t : S128x128.Idx → EReal) y) = ent3_3 V c y := by
  obtain ⟨-, -, -, -, -, -, e0, e1, -⟩ := blockIndex3 t
  unfold iblk3
  rw [View.read_apply]
  show V c (Pipeline.arrRef spec3 3) _ = V c (Pipeline.arrRef spec3 3) _
  congr 1
  funext a
  apply Fin.ext
  match a with
  | ⟨0, _⟩ => show win3_3.index t 0 * 128 + 1 * (y 0).val = (y 0).val; rw [e0]; omega
  | ⟨1, _⟩ => show win3_3.index t 1 * 128 + 1 * (y 1).val = (y 1).val; rw [e1]; omega

theorem blk3_4_apply (c : Dev nD) (t : Fin cfg3.N) (y : S1x128.Idx) :
    ((iblk3 V c 4 t : S1x128.Idx → EReal) y) = ent3_4 V c y := by
  obtain ⟨-, -, -, -, -, -, -, -, e0, e1, -⟩ := blockIndex3 t
  unfold iblk3
  rw [View.read_apply]
  show V c (Pipeline.arrRef spec3 4) _ = V c (Pipeline.arrRef spec3 4) _
  congr 1
  funext a
  apply Fin.ext
  match a with
  | ⟨0, _⟩ => show win3_4.index t 0 * 1 + 1 * (y 0).val = (y 0).val; rw [e0]; omega
  | ⟨1, _⟩ => show win3_4.index t 1 * 128 + 1 * (y 1).val = (y 1).val; rw [e1]; omega

theorem blk3_5_apply (c : Dev nD) (t : Fin cfg3.N) (y : S128x128.Idx) :
    ((iblk3 V c 5 t : S128x128.Idx → EReal) y) = ent3_5 V c y := by
  obtain ⟨-, -, -, -, -, -, -, -, -, -, e0, e1, -⟩ := blockIndex3 t
  unfold iblk3
  rw [View.read_apply]
  show V c (Pipeline.arrRef spec3 5) _ = V c (Pipeline.arrRef spec3 5) _
  congr 1
  funext a
  apply Fin.ext
  match a with
  | ⟨0, _⟩ => show win3_5.index t 0 * 128 + 1 * (y 0).val = (y 0).val; rw [e0]; omega
  | ⟨1, _⟩ => show win3_5.index t 1 * 128 + 1 * (y 1).val = (y 1).val; rw [e1]; omega

theorem blk3_6_apply (c : Dev nD) (t : Fin cfg3.N) (y : S1x128.Idx) :
    ((iblk3 V c 6 t : S1x128.Idx → EReal) y) = ent3_6 V c y := by
  obtain ⟨-, -, -, -, -, -, -, -, -, -, -, -, e0, e1, -⟩ := blockIndex3 t
  unfold iblk3
  rw [View.read_apply]
  show V c (Pipeline.arrRef spec3 6) _ = V c (Pipeline.arrRef spec3 6) _
  congr 1
  funext a
  apply Fin.ext
  match a with
  | ⟨0, _⟩ => show win3_6.index t 0 * 1 + 1 * (y 0).val = (y 0).val; rw [e0]; omega
  | ⟨1, _⟩ => show win3_6.index t 1 * 128 + 1 * (y 1).val = (y 1).val; rw [e1]; omega

/-! ## The perceptron's array as one function of the six arrays it reads -/

/-- The perceptron reads one row of its first operand only. -/
theorem mlp2_row3 {N N' K M P : Nat} (x : Fin N → Fin K → EReal) (x' : Fin N' → Fin K → EReal) (w1 : Fin K → Fin M → EReal)
    (b1 : Fin M → EReal) (w2 : Fin M → Fin P → EReal) (b2 : Fin P → EReal) (n : Fin N) (n' : Fin N') (k : Fin P)
    (h : ∀ j, x n j = x' n' j) : Cert.Spec2.mlp2 x w1 b1 w2 b2 n k = Cert.Spec2.mlp2 x' w1 b1 w2 b2 n' k := by
  unfold Cert.Spec2.mlp2 Cert.Spec2.lin
  simp only [h]

/-- Entry (row, feature) of the perceptron's output, from the whole input arrays. -/
def tArr3 (c : Dev nD) : S50000x128.Idx → EReal := fun i =>
  Cert.Spec2.mlp2 (fun (n : Fin 50000) (j : Fin 128) => ent3_0 V c (ix2 n j) + ent3_1 V c (ix2 n j))
    (fun (j k : Fin 128) => ent3_3 V c (ix2 j k)) (fun k : Fin 128 => ent3_4 V c (ix2 (0 : Fin 1) k))
    (fun (k e : Fin 128) => ent3_5 V c (ix2 k e)) (fun e : Fin 128 => ent3_6 V c (ix2 (0 : Fin 1) e))
    (i 0 : Fin 50000) (i 1 : Fin 128)

/-- The payload of the blocks at point `t`, at the entry (`p`, `d`) of the tile that sits at entry `i` of the array, is
    the perceptron's array there. -/
theorem tile3_apply (c : Dev nD) (t : Fin cfg3.N) (p : Fin 5000) (d : Fin 128) (i : S50000x128.Idx)
    (hi0 : (i 0).val = 5000 * t.val + p.val) (hi1 : (i 1).val = d.val) :
    ((k3_pay3 (iblk3 V c 0 t) (iblk3 V c 1 t) (iblk3 V c 3 t) (iblk3 V c 4 t) (iblk3 V c 5 t) (iblk3 V c 6 t)
      : S5000x128.Idx → EReal) (ix2 p d)) = tArr3 V c i := by
  rw [pay3_3_apply]
  unfold tArr3
  have hd : d = (i 1 : Fin 128) := Fin.ext hi1.symm
  subst hd
  have hw1 : (fun (j k : Fin 128) => ((iblk3 V c 3 t : S128x128.Idx → EReal) (ix2 j k))) = fun (j k : Fin 128) => ent3_3 V c (ix2 j k) :=
    funext fun j => funext fun k => blk3_3_apply V c t _
  have hb1 : (fun k : Fin 128 => ((iblk3 V c 4 t : S1x128.Idx → EReal) (ix2 (0 : Fin 1) k))) = fun k : Fin 128 => ent3_4 V c (ix2 (0 : Fin 1) k) :=
    funext fun k => blk3_4_apply V c t _
  have hw2 : (fun (k e : Fin 128) => ((iblk3 V c 5 t : S128x128.Idx → EReal) (ix2 k e))) = fun (k e : Fin 128) => ent3_5 V c (ix2 k e) :=
    funext fun k => funext fun e => blk3_5_apply V c t _
  have hb2 : (fun e : Fin 128 => ((iblk3 V c 6 t : S1x128.Idx → EReal) (ix2 (0 : Fin 1) e))) = fun e : Fin 128 => ent3_6 V c (ix2 (0 : Fin 1) e) :=
    funext fun e => blk3_6_apply V c t _
  rw [hw1, hb1, hw2, hb2]
  refine mlp2_row3 _ _ _ _ _ _ p (i 0 : Fin 50000) _ fun j => ?_
  beta_reduce
  rw [blk3_0_apply V c t (ix2 p j) (ix2 (i 0 : Fin 50000) j) hi0 rfl, blk3_1_apply V c t (ix2 p j) (ix2 (i 0 : Fin 50000) j) hi0 rfl]

/-- What point `t` writes back of window 7 is block `t` of the perceptron's array. -/
theorem flushed3_7_eq (c : Dev nD) (t : Fin cfg3.N) :
    (dat3 V c).flushed 7 t = ((cfg3.win 7).blk t).view.read (Elt Ideal) (tArr3 V c) := by
  show (cfg3.win 7).cut (grid3.coords t) ((dat3 V c).after 7 t) = _
  rw [after3_7, out3_7_eq]
  obtain ⟨-, -, -, -, -, -, -, -, -, -, -, -, -, -, e0, e1, -⟩ := blockIndex3 t
  refine funext fun (j : S5000x128.Idx) => ?_
  obtain ⟨p, d, rfl⟩ : ∃ (p : Fin 5000) (d : Fin 128), j = ix2 p d := ⟨j 0, j 1, eq_ix2 j⟩
  rw [View.read_apply]
  have hi0 : ((((cfg3.win 7).blk t).view.emb (ix2 p d)) 0).val = 5000 * t.val + p.val := by
    show win3_7.index t 0 * 5000 + 1 * p.val = _; rw [e0]; omega
  have hi1 : ((((cfg3.win 7).blk t).view.emb (ix2 p d)) 1).val = d.val := by
    show win3_7.index t 1 * 128 + 1 * d.val = _; rw [e1]; omega
  exact tile3_apply V c t p d _ hi0 hi1

/-- An entry of the array sits in point `t`'s block of window 7 as soon as its row is `5000 t` plus a row of the block
    and its feature the block's. -/
theorem mem_block3_7 (t : Fin cfg3.N) (y : S5000x128.Idx) (i : S50000x128.Idx)
    (h0 : (i 0).val = 5000 * t.val + (y 0).val) (h1 : (i 1).val = (y 1).val) :
    i ∈ ((cfg3.win 7).blk t).view.set := by
  obtain ⟨-, -, -, -, -, -, -, -, -, -, -, -, -, -, e0, e1, -⟩ := blockIndex3 t
  have hy : ((cfg3.win 7).blk t).view.emb y = i := by
    funext a
    apply Fin.ext
    match a with
    | ⟨0, _⟩ => show win3_7.index t 0 * 5000 + 1 * (y 0).val = (i 0).val; rw [e0, h0]; omega
    | ⟨1, _⟩ => show win3_7.index t 1 * 128 + 1 * (y 1).val = (i 1).val; rw [e1, h1]; omega
  subst hy
  exact ((cfg3.win 7).blk t).view.emb_mem_set y

/-- Every entry of the array is in the block of the point its row falls in. -/
theorem covered3_7 (i : S50000x128.Idx) :
    ∃ t : Fin cfg3.N, (cfg3.win 7).flush t = true ∧ i ∈ ((cfg3.win 7).blk t).view.set := by
  have h0 : (i 0).val < 50000 := (i 0).isLt
  have hN : cfg3.N = 10 := N_3
  have ht : (i 0).val / 5000 < cfg3.N := by rw [hN]; omega
  refine ⟨⟨(i 0).val / 5000, ht⟩, flush3_7 _,
    mem_block3_7 ⟨(i 0).val / 5000, ht⟩ (ix2 (⟨(i 0).val % 5000, Nat.mod_lt _ (by decide)⟩ : Fin 5000) (i 1 : Fin 128)) i ?_ rfl⟩
  show (i 0).val = 5000 * ((i 0).val / 5000) + (i 0).val % 5000
  omega

/-- So window 7's array ends holding the perceptron's array of the entry arrays. -/
theorem arr3_7_eq (c : Dev nD) : (dat3 V c).arrAt 7 cfg3.N = tArr3 V c :=
  (dat3 V c).arrAt_eq_of_cover 7 _ (fun t _ => flushed3_7_eq V c t) covered3_7

/-- Window 7's array after the region, at row `n` and feature `d`. -/
theorem arr3_7_apply (c : Dev nD) (n : Fin 50000) (d : Fin 128) :
    ((dat3 V c).arrAt 7 cfg3.N : S50000x128.Idx → EReal) (ix2 n d)
      = Cert.Spec2.mlp2 (fun (n : Fin 50000) (j : Fin 128) => ent3_0 V c (ix2 n j) + ent3_1 V c (ix2 n j))
          (fun (j k : Fin 128) => ent3_3 V c (ix2 j k)) (fun k : Fin 128 => ent3_4 V c (ix2 (0 : Fin 1) k))
          (fun (k e : Fin 128) => ent3_5 V c (ix2 k e)) (fun e : Fin 128 => ent3_6 V c (ix2 (0 : Fin 1) e)) n d := by
  rw [arr3_7_eq]; rfl

/-! ## The accumulator: the tiles' terms, summed -/

/-- Membership in graph `g` times feature `d` of the perceptron's output, at row `n` of the arrays. -/
def prod3 (c : Dev nD) (g d : Fin 128) (n : Fin 50000) : EReal := ent3_2 V c (ix2 n g) * tArr3 V c (ix2 n d)

/-- Row `r` of tile `k`, as a row of the arrays. -/
def rowOf3 (k : Fin 10) (r : Fin 5000) : Fin 50000 := ⟨k.val * 5000 + r.val, by have := k.isLt; have := r.isLt; omega⟩

/-- What tile `k` adds to the accumulator at (`g`, `d`). -/
def tileTerm3 (c : Dev nD) (g d : Fin 128) (k : Fin 10) : EReal := ∑ r : Fin 5000, prod3 V c g d (rowOf3 k r)

/-- One point's step: what the accumulator held plus the point's tile term. -/
theorem stepAt3_apply (c : Dev nD) (t : Fin cfg3.N) (k : Fin 10) (hk : k.val = t.val) (s : Vec Ideal S128x128 .f32) (g d : Fin 128) :
    ((stepAt3 V c t s : S128x128.Idx → EReal) (ix2 g d)) = (s (ix2 g d) : EReal) + tileTerm3 V c g d k := by
  unfold stepAt3
  rw [scr3_eq, pay3_1_apply]
  congr 1
  unfold tileTerm3 prod3
  refine Finset.sum_congr rfl fun r _ => ?_
  have hrow : (rowOf3 k r).val = 5000 * t.val + r.val := by show k.val * 5000 + r.val = _; rw [hk]; omega
  rw [blk3_2_apply V c t (ix2 r g) (ix2 (rowOf3 k r) g) hrow rfl, tile3_apply V c t r d (ix2 (rowOf3 k r) d) hrow rfl]

/-- The accumulator after point `n`: the terms of the tiles up to it. -/
theorem acc3_apply (c : Dev nD) (g d : Fin 128) : ∀ (n : ℕ) (hn : n < 10),
    ((acc3 V c n : S128x128.Idx → EReal) (ix2 g d)) = ∑ k ∈ Finset.univ.filter (fun k : Fin 10 => k.val < n + 1), tileTerm3 V c g d k
  | 0, hn => by
    have hN : cfg3.N = 10 := N_3
    rw [Cert.Spec.tiles_lt_succ _ 0 hn, Cert.Spec.tiles_lt_zero]
    show ((stepAt3 V c (pt3 0) (zero3 (F := Ideal)) : S128x128.Idx → EReal) (ix2 g d)) = _
    rw [stepAt3_apply V c (pt3 0) ⟨0, hn⟩ (Nat.mod_eq_of_lt (by rw [hN]; exact hn)).symm, zero3_apply]
  | n + 1, hn => by
    have hN : cfg3.N = 10 := N_3
    rw [Cert.Spec.tiles_lt_succ _ (n + 1) hn, ← acc3_apply c g d n (by omega)]
    show ((stepAt3 V c (pt3 (n + 1)) (acc3 V c n) : S128x128.Idx → EReal) (ix2 g d)) = _
    rw [stepAt3_apply V c (pt3 (n + 1)) ⟨n + 1, hn⟩ (Nat.mod_eq_of_lt (by rw [hN]; exact hn)).symm]

/-- After the last point: the sum over all rows of the arrays. -/
theorem acc3_total (c : Dev nD) (g d : Fin 128) :
    ((acc3 V c 9 : S128x128.Idx → EReal) (ix2 g d)) = ∑ n : Fin 50000, prod3 V c g d n := by
  rw [acc3_apply V c g d 9 (by decide), Cert.Spec.tiles_lt_all]
  exact Cert.Spec.tile_sum (prod3 V c g d)

/-! ## Window 8's array: the sums per graph -/

theorem emb3_8 (t : Fin cfg3.N) (y : S128x128.Idx) : ((cfg3.win 8).blk t).view.emb y = y := by
  obtain ⟨-, -, -, -, -, -, -, -, -, -, -, -, -, -, -, -, e0, e1, -⟩ := blockIndex3 t
  funext a
  apply Fin.ext
  match a with
  | ⟨0, _⟩ => show win3_8.index t 0 * 128 + 1 * (y 0).val = (y 0).val; rw [e0]; omega
  | ⟨1, _⟩ => show win3_8.index t 1 * 128 + 1 * (y 1).val = (y 1).val; rw [e1]; omega

/-- What the one write-back of window 8 writes — at the last point, whose block is the whole array — is the accumulator
    after the last point. -/
theorem flushed3_8_eq (c : Dev nD) (t : Fin cfg3.N) (hf : (cfg3.win 8).flush t = true) :
    (dat3 V c).flushed 8 t = ((cfg3.win 8).blk t).view.read (Elt Ideal) (acc3 V c 9) := by
  show (cfg3.win 8).cut (grid3.coords t) ((dat3 V c).after 8 t) = _
  rw [after3_8, out3_8_eq]
  have ht : t.val = 9 := by
    have h := hflush3_8 t; rw [hf] at h
    have h' : t.val + 1 = cfg3.N := of_decide_eq_true h.symm
    have hN : cfg3.N = 10 := N_3
    omega
  rw [ht]
  obtain ⟨-, -, -, -, -, -, -, -, -, -, -, -, -, -, -, -, e0, e1, -⟩ := blockIndex3 t
  refine funext fun (j : S128x128.Idx) => ?_
  rw [View.read_apply]
  show (acc3 V c 9 : S128x128.Idx → EReal) j = (acc3 V c 9 : S128x128.Idx → EReal) _
  congr 1
  funext a
  apply Fin.ext
  match a with
  | ⟨0, _⟩ => show (j 0).val = win3_8.index t 0 * 128 + 1 * (j 0).val; rw [e0]; omega
  | ⟨1, _⟩ => show (j 1).val = win3_8.index t 1 * 128 + 1 * (j 1).val; rw [e1]; omega

/-- Every entry of window 8's array is in the last point's block. -/
theorem covered3_8 (i : S128x128.Idx) :
    ∃ t : Fin cfg3.N, (cfg3.win 8).flush t = true ∧ i ∈ ((cfg3.win 8).blk t).view.set := by
  have hN : cfg3.N = 10 := N_3
  have h9 : 9 < cfg3.N := by rw [hN]; decide
  refine ⟨⟨9, h9⟩, ?_, ?_⟩
  · rw [hflush3_8]; exact decide_eq_true (by show 9 + 1 = cfg3.N; rw [hN])
  · have h := ((cfg3.win 8).blk ⟨9, h9⟩).view.emb_mem_set i
    rwa [emb3_8] at h

/-- So window 8's array ends holding the accumulator after the last point. -/
theorem arr3_8_eq (c : Dev nD) : (dat3 V c).arrAt 8 cfg3.N = acc3 V c 9 :=
  (dat3 V c).arrAt_eq_of_cover 8 _ (fun t hf => flushed3_8_eq V c t hf) covered3_8

/-- Window 8's array after the region, at graph `g` and feature `d`: the sum over the rows of membership times window
    7's array. -/
theorem arr3_8_apply (c : Dev nD) (g d : Fin 128) :
    ((dat3 V c).arrAt 8 cfg3.N : S128x128.Idx → EReal) (ix2 g d)
      = ∑ n : Fin 50000, ent3_2 V c (ix2 n g) * ((dat3 V c).arrAt 7 cfg3.N : S50000x128.Idx → EReal) (ix2 n d) := by
  rw [arr3_8_eq, arr3_7_eq]
  exact acc3_total V c g d

end Cert.KernelIdeal.Hand

end
-- ==== Proof.KI.Reg4Val.lean ====
import proofs.«408428_j10917806867267_1_alg».proof.Proof.KI.Reg4
import proofs.«408428_j10917806867267_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! # The centring launch's two result arrays, entry by entry, at the ideal values

What the two output arrays hold after the region, as plain arithmetic of the four input arrays as the region finds
them. The row output, at a row and a feature: the feature less the mean of the row's graph (the membership row picks
the graph: a sum over the graphs of membership times mean) times the feature's scale. The matrix output, at a graph and
a feature: the sum over ALL rows of membership times the square of the row output there — accumulated tile by tile
across the grid in the kernel's own buffer, reset at the first point and written back after the last.

First what each control case's stores leave, as payloads; then the accumulation in closed form, by induction on the
point; then the payloads at an entry; then each input block as a restriction of its array, what each point writes back
as a block of one whole-array function, and the covers; last the tiles' sums collapsed into one sum over the rows. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Pieces

/-! ## What each case's pieces leave, as payloads of the buffers' contents

Every store of the body is through the whole of its buffer and every load reads its buffer whole; so what a case's
pieces leave is the payload of the LAST store to that buffer, its loads read at the buffers' contents — a load of the
accumulator after a store to it in the same run reads that store's payload. -/

theorem zeroOffsets4 : (![0, 0] : Fin 2 → Nat) = fun _ => 0 := funext fun a => by fin_cases a <;> rfl

/-- The first point leaves the centred tile in the row output, -/
theorem row4_A_eq (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole) (hc0 : cond4_0 i) (hc1 : ¬cond4_1 i) (x0 : Vec F S5000x128 .f32) (x1 : Vec F S5000x128 .bf16) (x2 : Vec F S128x128 .f32) (x3 : Vec F S1x128 .f32) :
    row4_A c i arg1 harg1 arg2 harg2 arg3 harg3 arg4 harg4 arg5 harg5 arg6 harg6 arg7 harg7 hc0 hc1 x0 x1 x2 x3 = k4_pay3 x1 x2 x0 x3 := by
  unfold row4_A
  rw [View.read_writes_eq_canon _ _ _ (cover4_A_4 c i arg1 harg1 arg2 harg2 arg3 harg3 arg4 harg4 arg5 harg5 arg6 harg6 arg7 harg7 hc0 hc1 x0 x1 x2 x3)]
  unfold kernelRun4_A
  dsimp only
  sl_unfold_words
  rw [View.canon_unit_zero zeroOffsets4]
  simp only [View.readAt_eq_ld, harg1.read_unread, harg2.read_unread, harg3.read_unread, harg4.read_unread, harg7.read_unread,
    View.ld_unit_zero (S := S5000x128) zeroOffsets4, View.ld_unit_zero (S := S128x128) zeroOffsets4, View.ld_unit_zero (S := S1x128) zeroOffsets4]

/-- and in the accumulator the update of its reset. -/
theorem scr4_A_eq (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole) (hc0 : cond4_0 i) (hc1 : ¬cond4_1 i) (x0 : Vec F S5000x128 .f32) (x1 : Vec F S5000x128 .bf16) (x2 : Vec F S128x128 .f32) (x3 : Vec F S1x128 .f32) :
    scr4_A c i arg1 harg1 arg2 harg2 arg3 harg3 arg4 harg4 arg5 harg5 arg6 harg6 arg7 harg7 hc0 hc1 x0 x1 x2 x3 = k4_pay4 x1 x2 x0 x3 k4_pay1 := by
  unfold scr4_A
  rw [View.read_writes_eq_canon _ _ _ (cover4_A_s c i arg1 harg1 arg2 harg2 arg3 harg3 arg4 harg4 arg5 harg5 arg6 harg6 arg7 harg7 hc0 hc1 x0 x1 x2 x3)]
  unfold kernelRun4_A
  dsimp only
  sl_unfold_words
  rw [View.canon_cons_unit_zero (S := S128x128) zeroOffsets4, View.readCov_unit_zero (S := S128x128) _ zeroOffsets4]
  simp only [View.readAt_eq_ld, harg1.read_unread, harg2.read_unread, harg3.read_unread, harg4.read_unread, harg7.read_unread,
    View.ld_unit_zero (S := S5000x128) zeroOffsets4, View.ld_unit_zero (S := S128x128) zeroOffsets4, View.ld_unit_zero (S := S1x128) zeroOffsets4]

/-- A middle point leaves the centred tile in the row output, -/
theorem row4_B_eq (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole) (hc0 : ¬cond4_0 i) (hc1 : ¬cond4_1 i) (x0 : Vec F S5000x128 .f32) (x1 : Vec F S5000x128 .bf16) (x2 : Vec F S128x128 .f32) (x3 : Vec F S1x128 .f32) (s : Vec F S128x128 .f32) :
    row4_B c i arg1 harg1 arg2 harg2 arg3 harg3 arg4 harg4 arg5 harg5 arg6 harg6 arg7 harg7 hc0 hc1 x0 x1 x2 x3 s = k4_pay3 x1 x2 x0 x3 := by
  unfold row4_B
  rw [View.read_writes_eq_canon _ _ _ (cover4_B_4 c i arg1 harg1 arg2 harg2 arg3 harg3 arg4 harg4 arg5 harg5 arg6 harg6 arg7 harg7 hc0 hc1 x0 x1 x2 x3 s)]
  unfold kernelRun4_B
  dsimp only
  sl_unfold_words
  rw [View.canon_unit_zero zeroOffsets4]
  simp only [View.readAt_eq_ld, harg1.read_unread, harg2.read_unread, harg3.read_unread, harg4.read_unread, harg7.read_unread,
    View.ld_unit_zero (S := S5000x128) zeroOffsets4, View.ld_unit_zero (S := S128x128) zeroOffsets4, View.ld_unit_zero (S := S1x128) zeroOffsets4]

/-- and in the accumulator the update of what it held. -/
theorem scr4_B_eq (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole) (hc0 : ¬cond4_0 i) (hc1 : ¬cond4_1 i) (x0 : Vec F S5000x128 .f32) (x1 : Vec F S5000x128 .bf16) (x2 : Vec F S128x128 .f32) (x3 : Vec F S1x128 .f32) (s : Vec F S128x128 .f32) :
    scr4_B c i arg1 harg1 arg2 harg2 arg3 harg3 arg4 harg4 arg5 harg5 arg6 harg6 arg7 harg7 hc0 hc1 x0 x1 x2 x3 s = k4_pay4 x1 x2 x0 x3 s := by
  unfold scr4_B
  rw [View.read_writes_eq_canon _ _ _ (cover4_B_s c i arg1 harg1 arg2 harg2 arg3 harg3 arg4 harg4 arg5 harg5 arg6 harg6 arg7 harg7 hc0 hc1 x0 x1 x2 x3 s)]
  unfold kernelRun4_B
  dsimp only
  sl_unfold_words
  rw [View.canon_unit_zero zeroOffsets4]
  simp only [View.readAt_eq_ld, harg1.read_unread, harg2.read_unread, harg3.read_unread, harg4.read_unread, harg7.read_unread,
    View.ld_unit_zero (S := S5000x128) zeroOffsets4, View.ld_unit_zero (S := S128x128) zeroOffsets4, View.ld_unit_zero (S := S1x128) zeroOffsets4]

/-- The last point leaves the centred tile in the row output, -/
theorem row4_C_eq (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole) (hc0 : ¬cond4_0 i) (hc1 : cond4_1 i) (x0 : Vec F S5000x128 .f32) (x1 : Vec F S5000x128 .bf16) (x2 : Vec F S128x128 .f32) (x3 : Vec F S1x128 .f32) (s : Vec F S128x128 .f32) :
    row4_C c i arg1 harg1 arg2 harg2 arg3 harg3 arg4 harg4 arg5 harg5 arg6 harg6 arg7 harg7 hc0 hc1 x0 x1 x2 x3 s = k4_pay3 x1 x2 x0 x3 := by
  unfold row4_C
  rw [View.read_writes_eq_canon _ _ _ (cover4_C_4 c i arg1 harg1 arg2 harg2 arg3 harg3 arg4 harg4 arg5 harg5 arg6 harg6 arg7 harg7 hc0 hc1 x0 x1 x2 x3 s)]
  unfold kernelRun4_C
  dsimp only
  sl_unfold_words
  rw [View.canon_unit_zero zeroOffsets4]
  simp only [View.readAt_eq_ld, harg1.read_unread, harg2.read_unread, harg3.read_unread, harg4.read_unread, harg7.read_unread,
    View.ld_unit_zero (S := S5000x128) zeroOffsets4, View.ld_unit_zero (S := S128x128) zeroOffsets4, View.ld_unit_zero (S := S1x128) zeroOffsets4]

/-- in the matrix output the accumulator's update, read back after it is stored, -/
theorem mat4_C_eq (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole) (hc0 : ¬cond4_0 i) (hc1 : cond4_1 i) (x0 : Vec F S5000x128 .f32) (x1 : Vec F S5000x128 .bf16) (x2 : Vec F S128x128 .f32) (x3 : Vec F S1x128 .f32) (s : Vec F S128x128 .f32) :
    mat4_C c i arg1 harg1 arg2 harg2 arg3 harg3 arg4 harg4 arg5 harg5 arg6 harg6 arg7 harg7 hc0 hc1 x0 x1 x2 x3 s = k4_pay4 x1 x2 x0 x3 s := by
  unfold mat4_C
  rw [View.read_writes_eq_canon _ _ _ (cover4_C_5 c i arg1 harg1 arg2 harg2 arg3 harg3 arg4 harg4 arg5 harg5 arg6 harg6 arg7 harg7 hc0 hc1 x0 x1 x2 x3 s)]
  unfold kernelRun4_C
  dsimp only
  sl_unfold_words
  rw [View.canon_unit_zero zeroOffsets4, View.readCov_unit_zero (S := S128x128) _ zeroOffsets4]
  simp only [View.readAt_eq_ld, harg1.read_unread, harg2.read_unread, harg3.read_unread, harg4.read_unread, harg7.read_unread,
    View.ld_unit_zero (S := S5000x128) zeroOffsets4, View.ld_unit_zero (S := S128x128) zeroOffsets4, View.ld_unit_zero (S := S1x128) zeroOffsets4]

/-- and in the accumulator that update. -/
theorem scr4_C_eq (c : Dev nD) (i : grid4.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole) (hc0 : ¬cond4_0 i) (hc1 : cond4_1 i) (x0 : Vec F S5000x128 .f32) (x1 : Vec F S5000x128 .bf16) (x2 : Vec F S128x128 .f32) (x3 : Vec F S1x128 .f32) (s : Vec F S128x128 .f32) :
    scr4_C c i arg1 harg1 arg2 harg2 arg3 harg3 arg4 harg4 arg5 harg5 arg6 harg6 arg7 harg7 hc0 hc1 x0 x1 x2 x3 s = k4_pay4 x1 x2 x0 x3 s := by
  unfold scr4_C
  rw [View.read_writes_eq_canon _ _ _ (cover4_C_s c i arg1 harg1 arg2 harg2 arg3 harg3 arg4 harg4 arg5 harg5 arg6 harg6 arg7 harg7 hc0 hc1 x0 x1 x2 x3 s)]
  unfold kernelRun4_C
  dsimp only
  sl_unfold_words
  rw [View.canon_unit_zero zeroOffsets4]
  simp only [View.readAt_eq_ld, harg1.read_unread, harg2.read_unread, harg3.read_unread, harg4.read_unread, harg7.read_unread,
    View.ld_unit_zero (S := S5000x128) zeroOffsets4, View.ld_unit_zero (S := S128x128) zeroOffsets4, View.ld_unit_zero (S := S1x128) zeroOffsets4]

end Pieces

section Chain

variable (V : (c : Dev nD) → (b : Ref sig .tc) → Buf (Elt F) ((c : Thread nD τ).loc b))

/-! ## The accumulation in closed form -/

/-- The four input blocks at point `t`, at their literal types. -/
abbrev featTile4 (c : Dev nD) (t : Fin cfg4.N) : Vec F S5000x128 .f32 := iblk4 V c 0 t
abbrev memberTile4 (c : Dev nD) (t : Fin cfg4.N) : Vec F S5000x128 .bf16 := iblk4 V c 1 t
abbrev meansBlk4 (c : Dev nD) (t : Fin cfg4.N) : Vec F S128x128 .f32 := iblk4 V c 2 t
abbrev scaleBlk4 (c : Dev nD) (t : Fin cfg4.N) : Vec F S1x128 .f32 := iblk4 V c 3 t

/-- The accumulator after position `n`: reset to zero and updated with the first tile, then updated tile by tile. -/
def chain4 (c : Dev nD) : (n : ℕ) → n < cfg4.N → Vec F S128x128 .f32
  | 0, h => k4_pay4 (memberTile4 V c ⟨0, h⟩) (meansBlk4 V c ⟨0, h⟩) (featTile4 V c ⟨0, h⟩) (scaleBlk4 V c ⟨0, h⟩) k4_pay1
  | n + 1, h => k4_pay4 (memberTile4 V c ⟨n + 1, h⟩) (meansBlk4 V c ⟨n + 1, h⟩) (featTile4 V c ⟨n + 1, h⟩) (scaleBlk4 V c ⟨n + 1, h⟩) (chain4 c n (Nat.lt_of_succ_lt h))

/-- What every point leaves: the centred tile in the row output, the accumulator's chain in the accumulator (and in
    the matrix output's component) — by induction on the point, the case read off the position. -/
theorem outs4_eq (c : Dev nD) : ∀ (n : ℕ) (h : n < cfg4.N),
    outs4 V c n h = (k4_pay3 (memberTile4 V c ⟨n, h⟩) (meansBlk4 V c ⟨n, h⟩) (featTile4 V c ⟨n, h⟩) (scaleBlk4 V c ⟨n, h⟩), chain4 V c n h, chain4 V c n h)
  | 0, h => by
    have hc0 : cond4_0 (grid4.coords ⟨0, h⟩) := (hcond4_0 ⟨0, h⟩).mpr rfl
    have hc1 : ¬cond4_1 (grid4.coords ⟨0, h⟩) := fun hh => first_ne_last4 ((hcond4_1 ⟨0, h⟩).mp hh)
    rw [outs4_A V c ⟨0, h⟩ rfl hc0 hc1, row4_A_eq, scr4_A_eq]
    rfl
  | n + 1, h => by
    have hc0 : ¬cond4_0 (grid4.coords ⟨n + 1, h⟩) := fun hh => Nat.succ_ne_zero n ((hcond4_0 ⟨n + 1, h⟩).mp hh)
    by_cases h1 : n + 1 + 1 = cfg4.N
    · have hc1 : cond4_1 (grid4.coords ⟨n + 1, h⟩) := (hcond4_1 ⟨n + 1, h⟩).mpr h1
      rw [outs4_C V c ⟨n + 1, h⟩ (Nat.succ_ne_zero n) h1 hc0 hc1, row4_C_eq, mat4_C_eq, scr4_C_eq]
      show (_, k4_pay4 _ _ _ _ (outs4 V c n _).2.2, k4_pay4 _ _ _ _ (outs4 V c n _).2.2) = _
      rw [outs4_eq c n]
      rfl
    · have hc1 : ¬cond4_1 (grid4.coords ⟨n + 1, h⟩) := fun hh => h1 ((hcond4_1 ⟨n + 1, h⟩).mp hh)
      rw [outs4_B V c ⟨n + 1, h⟩ (Nat.succ_ne_zero n) h1 hc0 hc1, row4_B_eq, scr4_B_eq]
      show (_, k4_pay4 _ _ _ _ (outs4 V c n _).2.2, k4_pay4 _ _ _ _ (outs4 V c n _).2.2) = _
      rw [outs4_eq c n]
      rfl

end Chain

open scoped BigOperators
open Idealize.ShloMosaic.ValueIdx

/-! ## The payloads at an entry, at the ideal values -/

/-- The membership tile times a 128 × 128 matrix, at an entry: the sum over the graphs of the products. -/
theorem memberTimes4_apply (A : FVec Ideal S5000x128 .bf16) (B : FVec Ideal S128x128 .bf16) (p : Fin 5000) (d : Fin 128) :
    matmul dot_S5000x128_S128x128_S5000x128_1_0_0_1_n_n none A B (constant S5000x128 .f32 0x00000000#32) (ix2 p d)
      = ∑ g : Fin 128, A (ix2 p g) * B (ix2 g d) := by
  simp only [matmul]
  rw [Ideal.matmul_constant_zero_apply, ← Equiv.sum_comp (contrEquiv1 dot_S5000x128_S128x128_S5000x128_1_0_0_1_n_n 128 rfl rfl).symm]
  refine Finset.sum_congr rfl fun g _ => ?_
  have cg := contrEquiv1_symm_val dot_S5000x128_S128x128_S5000x128_1_0_0_1_n_n 128 rfl rfl g
  have hl : dot_S5000x128_S128x128_S5000x128_1_0_0_1_n_n.lhsIdx (ix2 p d) ((contrEquiv1 _ 128 rfl rfl).symm g) = ix2 p g := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact cg
  have hr : dot_S5000x128_S128x128_S5000x128_1_0_0_1_n_n.rhsIdx (ix2 p d) ((contrEquiv1 _ 128 rfl rfl).symm g) = ix2 g d := by
    funext ax; apply Fin.ext
    match ax with
    | ⟨0, _⟩ => simp [DotDims.rhsIdx, dot_S5000x128_S128x128_S5000x128_1_0_0_1_n_n]; exact cg
    | ⟨1, _⟩ => simp [DotDims.rhsIdx, dot_S5000x128_S128x128_S5000x128_1_0_0_1_n_n]; rfl
  rw [hl, hr]

/-- The membership tile transposed times a tile of rows, at an entry: the sum over the tile's rows of the products. -/
theorem memberTransposeTimes4_apply (A : FVec Ideal S5000x128 .bf16) (B : FVec Ideal S5000x128 .bf16) (g d : Fin 128) :
    matmul dot_S5000x128_S5000x128_S128x128_0_0_1_1_n_n none A B (constant S128x128 .f32 0x00000000#32) (ix2 g d)
      = ∑ p : Fin 5000, A (ix2 p g) * B (ix2 p d) := by
  simp only [matmul]
  rw [Ideal.matmul_constant_zero_apply, ← Equiv.sum_comp (contrEquiv1 dot_S5000x128_S5000x128_S128x128_0_0_1_1_n_n 5000 rfl rfl).symm]
  refine Finset.sum_congr rfl fun p _ => ?_
  have cp := contrEquiv1_symm_val dot_S5000x128_S5000x128_S128x128_0_0_1_1_n_n 5000 rfl rfl p
  have hl : dot_S5000x128_S5000x128_S128x128_0_0_1_1_n_n.lhsIdx (ix2 g d) ((contrEquiv1 _ 5000 rfl rfl).symm p) = ix2 p g := by
    funext ax; apply Fin.ext
    match ax with
    | ⟨0, _⟩ => simp [DotDims.lhsIdx, dot_S5000x128_S5000x128_S128x128_0_0_1_1_n_n]; exact cp
    | ⟨1, _⟩ => simp [DotDims.lhsIdx, dot_S5000x128_S5000x128_S128x128_0_0_1_1_n_n]; rfl
  have hr : dot_S5000x128_S5000x128_S128x128_0_0_1_1_n_n.rhsIdx (ix2 g d) ((contrEquiv1 _ 5000 rfl rfl).symm p) = ix2 p d := by
    funext ax; apply Fin.ext
    match ax with
    | ⟨0, _⟩ => simp [DotDims.rhsIdx, dot_S5000x128_S5000x128_S128x128_0_0_1_1_n_n]; exact cp
    | ⟨1, _⟩ => simp [DotDims.rhsIdx, dot_S5000x128_S5000x128_S128x128_0_0_1_1_n_n]; rfl
  rw [hl, hr]

/-- The centred tile at row `p`, feature `d`: the feature less its graph's mean (the graph picked by the membership
    row: a sum over the graphs of membership times mean) times the feature's scale. -/
theorem pay4_3_apply (x1 : Vec Ideal S5000x128 .bf16) (x2 : Vec Ideal S128x128 .f32) (x0 : Vec Ideal S5000x128 .f32)
    (x3 : Vec Ideal S1x128 .f32) (p : Fin 5000) (d : Fin 128) :
    (k4_pay3 x1 x2 x0 x3 : S5000x128.Idx → EReal) (ix2 p d)
      = (x0 (ix2 p d) : EReal) - (∑ g : Fin 128, (x1 (ix2 p g) : EReal) * (x2 (ix2 g d) : EReal)) * (x3 (ix2 (0 : Fin 1) d) : EReal) := by
  unfold k4_pay3 k4_pay2
  rw [subf_apply, mulf_apply]
  simp only [shapeCast_self, broadcastTo_1b_ab_apply]
  rw [memberTimes4_apply]
  rfl

/-- The accumulator's update at graph `g`, feature `d`: what it held plus the sum over the tile's rows of membership
    times the square of the centred feature. -/
theorem pay4_4_apply (x1 : Vec Ideal S5000x128 .bf16) (x2 : Vec Ideal S128x128 .f32) (x0 : Vec Ideal S5000x128 .f32)
    (x3 : Vec Ideal S1x128 .f32) (s : Vec Ideal S128x128 .f32) (g d : Fin 128) :
    (k4_pay4 x1 x2 x0 x3 s : S128x128.Idx → EReal) (ix2 g d)
      = (s (ix2 g d) : EReal) + ∑ p : Fin 5000, (x1 (ix2 p g) : EReal)
          * ((k4_pay3 x1 x2 x0 x3 : S5000x128.Idx → EReal) (ix2 p d) * (k4_pay3 x1 x2 x0 x3 : S5000x128.Idx → EReal) (ix2 p d)) := by
  unfold k4_pay4 k4_pay2
  simp only [shapeCast_self]
  rw [addf_apply, memberTransposeTimes4_apply]
  rfl

/-- The accumulator's reset is zero everywhere. -/
theorem pay4_1_apply (i : S128x128.Idx) : (k4_pay1 (F := Ideal) : S128x128.Idx → EReal) i = 0 := by
  unfold k4_pay1
  simp only [shapeCast_self, broadcast_apply]
  rw [Ideal.ofBits_def, Ideal.ofBits_zero_f32]

section Arrays

variable (V : (c : Dev nD) → (b : Ref sig .tc) → Buf (Elt Ideal) ((c : Thread nD τ).loc b))

/-! ## The centred array as one function of the four input arrays -/

/-- Entry `i` = (row, feature) of the centred array, from the whole input arrays: the feature less its graph's mean
    times the feature's scale. -/
def centred4 (X H : S50000x128.Idx → EReal) (M : S128x128.Idx → EReal) (Wv : S1x128.Idx → EReal) : S50000x128.Idx → EReal := fun i =>
  X i - (∑ g : Fin 128, H (ix2 (i 0 : Fin 50000) g) * M (ix2 g (i 1 : Fin 128))) * Wv (ix2 (0 : Fin 1) (i 1 : Fin 128))

/-- The centred tile of blocks that are restrictions of the arrays, at the entry (`p`, `d`) of the block that sits at
    entry `i` of the array, is the centred array there. -/
theorem pay4_3_eq_centred4 (X H : S50000x128.Idx → EReal) (M : S128x128.Idx → EReal) (Wv : S1x128.Idx → EReal)
    (x1 : Vec Ideal S5000x128 .bf16) (x2 : Vec Ideal S128x128 .f32) (x0 : Vec Ideal S5000x128 .f32) (x3 : Vec Ideal S1x128 .f32)
    (p : Fin 5000) (d : Fin 128) (i : S50000x128.Idx)
    (h0 : (x0 (ix2 p d) : EReal) = X i)
    (h1 : ∀ g : Fin 128, (x1 (ix2 p g) : EReal) = H (ix2 (i 0 : Fin 50000) g))
    (h2 : ∀ g : Fin 128, (x2 (ix2 g d) : EReal) = M (ix2 g (i 1 : Fin 128)))
    (h3 : (x3 (ix2 (0 : Fin 1) d) : EReal) = Wv (ix2 (0 : Fin 1) (i 1 : Fin 128))) :
    (k4_pay3 x1 x2 x0 x3 : S5000x128.Idx → EReal) (ix2 p d) = centred4 X H M Wv i := by
  rw [pay4_3_apply, h0, h3]
  unfold centred4
  simp only [h1, h2]

/-! ## From the blocks to the arrays -/

/-- The windows' block indices, decided over the grid: the row tiles move with the point, the means, the scale row and
    the matrix output stay at the origin. -/
theorem blockIndex4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0 :=
  (by decide +kernel : ∀ t : Fin grid4.N, _)

/-- The four input arrays as the region finds them, as functions of their indices. -/
abbrev feats4 (c : Dev nD) : S50000x128.Idx → EReal := V c (Pipeline.arrRef spec4 0)
abbrev member4 (c : Dev nD) : S50000x128.Idx → EReal := V c (Pipeline.arrRef spec4 1)
abbrev means4 (c : Dev nD) : S128x128.Idx → EReal := V c (Pipeline.arrRef spec4 2)
abbrev scale4 (c : Dev nD) : S1x128.Idx → EReal := V c (Pipeline.arrRef spec4 3)

/-- The feature tile at point `t` is rows `5000 t …` of the feature array. -/
theorem featsBlock4_apply (c : Dev nD) (t : Fin cfg4.N) (y : S5000x128.Idx) (k : S50000x128.Idx)
    (hk0 : (k 0).val = 5000 * t.val + (y 0).val) (hk1 : (k 1).val = (y 1).val) :
    ((iblk4 V c 0 t : Vec Ideal S5000x128 .f32) y : EReal) = feats4 V c k := by
  have e0 := (blockIndex4 t).1
  have e1 := (blockIndex4 t).2.1
  unfold iblk4
  rw [View.read_apply]
  show V c (Pipeline.arrRef spec4 0) _ = V c (Pipeline.arrRef spec4 0) _
  congr 1
  funext a
  apply Fin.ext
  match a with
  | ⟨0, _⟩ => show win4_0.index t 0 * 5000 + 1 * (y 0).val = (k 0).val; rw [e0, hk0]; omega
  | ⟨1, _⟩ => show win4_0.index t 1 * 128 + 1 * (y 1).val = (k 1).val; rw [e1, hk1]; omega

/-- The membership tile at point `t` is the same rows of the membership array. -/
theorem memberBlock4_apply (c : Dev nD) (t : Fin cfg4.N) (y : S5000x128.Idx) (k : S50000x128.Idx)
    (hk0 : (k 0).val = 5000 * t.val + (y 0).val) (hk1 : (k 1).val = (y 1).val) :
    ((iblk4 V c 1 t : Vec Ideal S5000x128 .bf16) y : EReal) = member4 V c k := by
  have e0 := (blockIndex4 t).2.2.1
  have e1 := (blockIndex4 t).2.2.2.1
  unfold iblk4
  rw [View.read_apply]
  show V c (Pipeline.arrRef spec4 1) _ = V c (Pipeline.arrRef spec4 1) _
  congr 1
  funext a
  apply Fin.ext
  match a with
  | ⟨0, _⟩ => show win4_1.index t 0 * 5000 + 1 * (y 0).val = (k 0).val; rw [e0, hk0]; omega
  | ⟨1, _⟩ => show win4_1.index t 1 * 128 + 1 * (y 1).val = (k 1).val; rw [e1, hk1]; omega

/-- The means' block is the whole array at every point. -/
theorem meansBlock4_apply (c : Dev nD) (t : Fin cfg4.N) (y : S128x128.Idx) :
    ((iblk4 V c 2 t : Vec Ideal S128x128 .f32) y : EReal) = means4 V c y := by
  have e0 := (blockIndex4 t).2.2.2.2.1
  have e1 := (blockIndex4 t).2.2.2.2.2.1
  unfold iblk4
  rw [View.read_apply]
  show V c (Pipeline.arrRef spec4 2) _ = V c (Pipeline.arrRef spec4 2) _
  congr 1
  funext a
  apply Fin.ext
  match a with
  | ⟨0, _⟩ => show win4_2.index t 0 * 128 + 1 * (y 0).val = (y 0).val; rw [e0]; omega
  | ⟨1, _⟩ => show win4_2.index t 1 * 128 + 1 * (y 1).val = (y 1).val; rw [e1]; omega

/-- The scale row's block is the whole row at every point. -/
theorem scaleBlock4_apply (c : Dev nD) (t : Fin cfg4.N) (y : S1x128.Idx) :
    ((iblk4 V c 3 t : Vec Ideal S1x128 .f32) y : EReal) = scale4 V c y := by
  have e0 := (blockIndex4 t).2.2.2.2.2.2.1
  have e1 := (blockIndex4 t).2.2.2.2.2.2.2.1
  unfold iblk4
  rw [View.read_apply]
  show V c (Pipeline.arrRef spec4 3) _ = V c (Pipeline.arrRef spec4 3) _
  congr 1
  funext a
  apply Fin.ext
  match a with
  | ⟨0, _⟩ => show win4_3.index t 0 * 1 + 1 * (y 0).val = (y 0).val; rw [e0]; omega
  | ⟨1, _⟩ => show win4_3.index t 1 * 128 + 1 * (y 1).val = (y 1).val; rw [e1]; omega

/-- The centred tile of point `t`'s blocks, at an entry, is the centred array at the entry of the array the tile's
    entry sits at. -/
theorem centredTile4_apply (c : Dev nD) (t : Fin cfg4.N) (p : Fin 5000) (d : Fin 128) (i : S50000x128.Idx)
    (hi0 : (i 0).val = 5000 * t.val + p.val) (hi1 : (i 1).val = d.val) :
    (k4_pay3 (iblk4 V c 1 t) (iblk4 V c 2 t) (iblk4 V c 0 t) (iblk4 V c 3 t) : S5000x128.Idx → EReal) (ix2 p d)
      = centred4 (feats4 V c) (member4 V c) (means4 V c) (scale4 V c) i := by
  refine pay4_3_eq_centred4 _ _ _ _ (iblk4 V c 1 t) (iblk4 V c 2 t) (iblk4 V c 0 t) (iblk4 V c 3 t) p d i ?_ ?_ ?_ ?_
  · exact featsBlock4_apply V c t (ix2 p d) i hi0 hi1
  · intro g; exact memberBlock4_apply V c t (ix2 p g) (ix2 (i 0 : Fin 50000) g) hi0 rfl
  · intro g
    rw [meansBlock4_apply]
    exact congrArg (means4 V c) (by funext a; apply Fin.ext; match a with | ⟨0, _⟩ => rfl | ⟨1, _⟩ => exact hi1.symm)
  · rw [scaleBlock4_apply]
    exact congrArg (scale4 V c) (by funext a; apply Fin.ext; match a with | ⟨0, _⟩ => rfl | ⟨1, _⟩ => exact hi1.symm)

/-- What point `t` writes back of the row output is block `t` of the centred array of the entry arrays. -/
theorem flushed4_4_eq (c : Dev nD) (t : Fin cfg4.N) :
    (dat4 V c).flushed 4 t = ((cfg4.win 4).blk t).view.read (Elt Ideal) (centred4 (feats4 V c) (member4 V c) (means4 V c) (scale4 V c)) := by
  show (cfg4.win 4).cut (grid4.coords t) ((dat4 V c).after 4 t) = _
  rw [after4_4, outs4_eq]
  have e0 := (blockIndex4 t).2.2.2.2.2.2.2.2.1
  have e1 := (blockIndex4 t).2.2.2.2.2.2.2.2.2.1
  refine funext fun (j : S5000x128.Idx) => ?_
  obtain ⟨p, d, rfl⟩ : ∃ (p : Fin 5000) (d : Fin 128), j = ix2 p d := ⟨j 0, j 1, eq_ix2 j⟩
  rw [View.read_apply]
  have hi0 : ((((cfg4.win 4).blk t).view.emb (ix2 p d)) 0).val = 5000 * t.val + p.val := by
    show win4_4.index t 0 * 5000 + 1 * p.val = _; rw [e0]; omega
  have hi1 : ((((cfg4.win 4).blk t).view.emb (ix2 p d)) 1).val = d.val := by
    show win4_4.index t 1 * 128 + 1 * d.val = _; rw [e1]; omega
  exact centredTile4_apply V c t p d (((cfg4.win 4).blk t).view.emb (ix2 p d)) hi0 hi1

/-- An entry of the row output's array sits in point `t`'s block as soon as its row is `5000 t` plus a row of the
    block and its feature the block's. -/
theorem mem_block4_4 (t : Fin cfg4.N) (y : S5000x128.Idx) (i : S50000x128.Idx)
    (h0 : (i 0).val = 5000 * t.val + (y 0).val) (h1 : (i 1).val = (y 1).val) :
    i ∈ ((cfg4.win 4).blk t).view.set := by
  have e0 := (blockIndex4 t).2.2.2.2.2.2.2.2.1
  have e1 := (blockIndex4 t).2.2.2.2.2.2.2.2.2.1
  have hy : ((cfg4.win 4).blk t).view.emb y = i := by
    funext a
    apply Fin.ext
    match a with
    | ⟨0, _⟩ => show win4_4.index t 0 * 5000 + 1 * (y 0).val = (i 0).val; rw [e0, h0]; omega
    | ⟨1, _⟩ => show win4_4.index t 1 * 128 + 1 * (y 1).val = (i 1).val; rw [e1, h1]; omega
  subst hy
  exact ((cfg4.win 4).blk t).view.emb_mem_set y

/-- Every entry of that array is in the block of the point its row falls in. -/
theorem covered4_4 (i : S50000x128.Idx) :
    ∃ t : Fin cfg4.N, (cfg4.win 4).flush t = true ∧ i ∈ ((cfg4.win 4).blk t).view.set := by
  have h0 : (i 0).val < 50000 := (i 0).isLt
  have hN : cfg4.N = 10 := N_4
  have ht : (i 0).val / 5000 < cfg4.N := by rw [hN]; omega
  refine ⟨⟨(i 0).val / 5000, ht⟩, flush4_4 _,
    mem_block4_4 ⟨(i 0).val / 5000, ht⟩ (ix2 (⟨(i 0).val % 5000, Nat.mod_lt _ (by decide)⟩ : Fin 5000) (i 1 : Fin 128)) i ?_ rfl⟩
  show (i 0).val = 5000 * ((i 0).val / 5000) + (i 0).val % 5000
  omega

/-- So the row output's array ends holding the centred array of the entry arrays. -/
theorem arr4_4_eq (c : Dev nD) :
    (dat4 V c).arrAt 4 cfg4.N = centred4 (feats4 V c) (member4 V c) (means4 V c) (scale4 V c) :=
  (dat4 V c).arrAt_eq_of_cover 4 _ (fun t _ => flushed4_4_eq V c t) covered4_4

/-! ## The matrix output: the sum over all rows of membership times the squared centred feature -/

/-- The two output arrays after the region, at their literal types. -/
abbrev rowOut4 (c : Dev nD) : S50000x128.Idx → EReal := (dat4 V c).arrAt 4 cfg4.N
abbrev matOut4 (c : Dev nD) : S128x128.Idx → EReal := (dat4 V c).arrAt 5 cfg4.N

/-- The term of row `n`: its membership of graph `g` times the square of its centred feature `d`. -/
def sqTerm4 (c : Dev nD) (g d : Fin 128) (n : Fin 50000) : EReal :=
  member4 V c (ix2 n g) * (centred4 (feats4 V c) (member4 V c) (means4 V c) (scale4 V c) (ix2 n d) * centred4 (feats4 V c) (member4 V c) (means4 V c) (scale4 V c) (ix2 n d))

/-- The update of point `t`, in terms of the arrays: the sum of the terms of the tile's rows. -/
theorem tileUpdate4 (c : Dev nD) (t : Fin cfg4.N) (g d : Fin 128) (ht : t.val < 10) :
    (∑ p : Fin 5000, (memberTile4 V c t (ix2 p g) : EReal)
        * ((k4_pay3 (memberTile4 V c t) (meansBlk4 V c t) (featTile4 V c t) (scaleBlk4 V c t) : S5000x128.Idx → EReal) (ix2 p d)
          * (k4_pay3 (memberTile4 V c t) (meansBlk4 V c t) (featTile4 V c t) (scaleBlk4 V c t) : S5000x128.Idx → EReal) (ix2 p d)))
      = ∑ r : Fin 5000, sqTerm4 V c g d ⟨t.val * 5000 + r.val, by have := r.isLt; omega⟩ := by
  refine Finset.sum_congr rfl fun p _ => ?_
  have hrow : t.val * 5000 + p.val < 50000 := by have := p.isLt; omega
  unfold sqTerm4
  rw [centredTile4_apply V c t p d (ix2 (⟨t.val * 5000 + p.val, hrow⟩ : Fin 50000) d) (by show t.val * 5000 + p.val = 5000 * t.val + p.val; omega) rfl]
  exact congrArg (· * _) (memberBlock4_apply V c t (ix2 p g) (ix2 (⟨t.val * 5000 + p.val, hrow⟩ : Fin 50000) g) (by show t.val * 5000 + p.val = 5000 * t.val + p.val; omega) rfl)

/-- The accumulator after position `n`, at an entry: the sum over the tiles up to `n` of their rows' terms. -/
theorem chain4_apply (c : Dev nD) (g d : Fin 128) : ∀ (n : ℕ) (h : n < cfg4.N),
    (chain4 V c n h : S128x128.Idx → EReal) (ix2 g d)
      = ∑ t' ∈ Finset.univ.filter (fun t' : Fin 10 => t'.val < n + 1),
          ∑ r : Fin 5000, sqTerm4 V c g d ⟨t'.val * 5000 + r.val, by have := t'.isLt; have := r.isLt; omega⟩
  | 0, h => by
    rw [Cert.Spec.tiles_lt_succ _ 0 (by decide), Cert.Spec.tiles_lt_zero, zero_add, chain4, pay4_4_apply, pay4_1_apply, zero_add]
    exact tileUpdate4 V c ⟨0, h⟩ g d (Nat.zero_lt_succ 9)
  | n + 1, h => by
    have hN : cfg4.N = 10 := N_4
    have hn : n + 1 < 10 := by rw [← hN]; exact h
    rw [Cert.Spec.tiles_lt_succ _ (n + 1) hn, chain4, pay4_4_apply, chain4_apply c g d n]
    exact congrArg _ (tileUpdate4 V c ⟨n + 1, h⟩ g d hn)

/-- The last position. -/
theorem lastPos4 : 9 < cfg4.N := by rw [show cfg4.N = 10 from N_4]; decide

/-- What the one write-back of the matrix output writes — at the last point, whose block is the whole array — is the
    accumulator's chain after the last point. -/
theorem flushed4_5_eq (c : Dev nD) (t : Fin cfg4.N) (hf : (cfg4.win 5).flush t = true) :
    (dat4 V c).flushed 5 t = ((cfg4.win 5).blk t).view.read (Elt Ideal) (chain4 V c 9 lastPos4) := by
  have hN : cfg4.N = 10 := N_4
  have h9 : t.val = 9 := by have := (flush4_5 t).mp hf; have := t.isLt; omega
  obtain rfl : t = ⟨9, lastPos4⟩ := Fin.ext h9
  show (cfg4.win 5).cut (grid4.coords ⟨9, lastPos4⟩) ((dat4 V c).after 5 ⟨9, lastPos4⟩) = _
  rw [after4_5, outs4_eq]
  have e0 := (blockIndex4 ⟨9, lastPos4⟩).2.2.2.2.2.2.2.2.2.2.1
  have e1 := (blockIndex4 ⟨9, lastPos4⟩).2.2.2.2.2.2.2.2.2.2.2
  refine funext fun (j : S128x128.Idx) => ?_
  rw [View.read_apply]
  show (chain4 V c 9 lastPos4 : S128x128.Idx → EReal) j = (chain4 V c 9 lastPos4 : S128x128.Idx → EReal) _
  congr 1
  funext a
  apply Fin.ext
  match a with
  | ⟨0, _⟩ => show (j 0).val = win4_5.index ⟨9, lastPos4⟩ 0 * 128 + 1 * (j 0).val; rw [e0]; omega
  | ⟨1, _⟩ => show (j 1).val = win4_5.index ⟨9, lastPos4⟩ 1 * 128 + 1 * (j 1).val; rw [e1]; omega

/-- Every entry of the matrix output's array is in the last point's block. -/
theorem covered4_5 (i : S128x128.Idx) :
    ∃ t : Fin cfg4.N, (cfg4.win 5).flush t = true ∧ i ∈ ((cfg4.win 5).blk t).view.set := by
  have e0 := (blockIndex4 ⟨9, lastPos4⟩).2.2.2.2.2.2.2.2.2.2.1
  have e1 := (blockIndex4 ⟨9, lastPos4⟩).2.2.2.2.2.2.2.2.2.2.2
  refine ⟨⟨9, lastPos4⟩, (flush4_5 _).mpr rfl, ?_⟩
  have hy : ((cfg4.win 5).blk ⟨9, lastPos4⟩).view.emb i = i := by
    funext a
    apply Fin.ext
    match a with
    | ⟨0, _⟩ => show win4_5.index ⟨9, lastPos4⟩ 0 * 128 + 1 * (i 0).val = (i 0).val; rw [e0]; omega
    | ⟨1, _⟩ => show win4_5.index ⟨9, lastPos4⟩ 1 * 128 + 1 * (i 1).val = (i 1).val; rw [e1]; omega
  have := ((cfg4.win 5).blk ⟨9, lastPos4⟩).view.emb_mem_set i
  rw [hy] at this
  exact this

/-- So the matrix output's array ends holding the accumulator's chain after the last point. -/
theorem arr4_5_eq (c : Dev nD) : (dat4 V c).arrAt 5 cfg4.N = chain4 V c 9 lastPos4 :=
  (dat4 V c).arrAt_eq_of_cover 5 _ (flushed4_5_eq V c) covered4_5

/-- The row output's array after the region, at row `n` and feature `d`, in plain arithmetic of the entry arrays. -/
theorem arr4_4_apply (c : Dev nD) (n : Fin 50000) (d : Fin 128) :
    rowOut4 V c (ix2 n d)
      = feats4 V c (ix2 n d) - (∑ g : Fin 128, member4 V c (ix2 n g) * means4 V c (ix2 g d)) * scale4 V c (ix2 (0 : Fin 1) d) := by
  have h4 : rowOut4 V c = centred4 (feats4 V c) (member4 V c) (means4 V c) (scale4 V c) := arr4_4_eq V c
  rw [h4]; rfl

/-- The matrix output's array after the region, at graph `g` and feature `d`: the sum over all rows of membership
    times the square of the row output's entry. -/
theorem arr4_5_apply (c : Dev nD) (g d : Fin 128) :
    matOut4 V c (ix2 g d)
      = ∑ n : Fin 50000, member4 V c (ix2 n g) * (rowOut4 V c (ix2 n d) * rowOut4 V c (ix2 n d)) := by
  have h4 : rowOut4 V c = centred4 (feats4 V c) (member4 V c) (means4 V c) (scale4 V c) := arr4_4_eq V c
  have h5 : matOut4 V c = (chain4 V c 9 lastPos4 : S128x128.Idx → EReal) := arr4_5_eq V c
  rw [h5, h4, chain4_apply V c g d 9 lastPos4, Cert.Spec.tiles_lt_all, Cert.Spec.tile_sum (sqTerm4 V c g d)]
  rfl

end Arrays

end Cert.KernelIdeal.Hand

end
-- ==== Proof.KI.Reg5Val.lean ====
import proofs.«408428_j10917806867267_1_alg».proof.Proof.KI.Reg5
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! # The normalising launch's result array, entry by entry, at the ideal values

What the output array holds after the region, read at a row and a feature, as plain arithmetic of the five input
arrays as the region finds them: the feature times its scale, divided by the root of the variance of the row's graph
plus a constant (the membership row picks the graph: a sum over the graphs of membership times variance), plus its
shift, cut off below at zero. First the payload at an entry; then each input block as a restriction of its array,
what each point writes back as a block of one whole-array function, and the cover of the array by the blocks. -/

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The payload at an entry -/

/-- The small constant added under the root. -/
abbrev eps5 : EReal := Ideal.ofBits .f32 0x3727C5AC#32

/-- The membership tile times the variances, at an entry: the sum over the graphs of the products. -/
theorem onehotTimes5_apply (A : FVec Ideal S5000x128 .bf16) (B : FVec Ideal S128x128 .bf16) (p : Fin 5000) (d : Fin 128) :
    matmul dot_S5000x128_S128x128_S5000x128_1_0_0_1_n_n none A B (constant S5000x128 .f32 0x00000000#32) (ix2 p d)
      = ∑ g : Fin 128, A (ix2 p g) * B (ix2 g d) := by
  simp only [matmul]
  rw [Ideal.matmul_constant_zero_apply, ← Equiv.sum_comp (contrEquiv1 dot_S5000x128_S128x128_S5000x128_1_0_0_1_n_n 128 rfl rfl).symm]
  refine Finset.sum_congr rfl fun g _ => ?_
  have cg := contrEquiv1_symm_val dot_S5000x128_S128x128_S5000x128_1_0_0_1_n_n 128 rfl rfl g
  have hl : dot_S5000x128_S128x128_S5000x128_1_0_0_1_n_n.lhsIdx (ix2 p d) ((contrEquiv1 _ 128 rfl rfl).symm g) = ix2 p g := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact cg
  have hr : dot_S5000x128_S128x128_S5000x128_1_0_0_1_n_n.rhsIdx (ix2 p d) ((contrEquiv1 _ 128 rfl rfl).symm g) = ix2 g d := by
    funext ax; apply Fin.ext
    match ax with
    | ⟨0, _⟩ => simp [DotDims.rhsIdx, dot_S5000x128_S128x128_S5000x128_1_0_0_1_n_n]; exact cg
    | ⟨1, _⟩ => simp [DotDims.rhsIdx, dot_S5000x128_S128x128_S5000x128_1_0_0_1_n_n]; rfl
  rw [hl, hr]

/-- The payload at row `p`, feature `d`: the feature scaled, divided by the root of its graph's variance plus the
    constant (the graph picked by the membership row), shifted, and cut off below at zero. -/
theorem pay5_apply (x1 : Vec Ideal S5000x128 .bf16) (x2 : Vec Ideal S128x128 .f32) (x3 : Vec Ideal S1x128 .f32)
    (x0 : Vec Ideal S5000x128 .f32) (x4 : Vec Ideal S1x128 .f32) (p : Fin 5000) (d : Fin 128) :
    (k5_pay1 x1 x2 x3 x0 x4 : S5000x128.Idx → EReal) (ix2 p d)
      = max ((x3 (ix2 (0 : Fin 1) d) : EReal) * (x0 (ix2 p d) : EReal)
              * Ideal.rsqrt ((∑ g : Fin 128, (x1 (ix2 p g) : EReal) * (x2 (ix2 g d) : EReal)) + eps5)
            + (x4 (ix2 (0 : Fin 1) d) : EReal)) 0 := by
  unfold k5_pay1
  rw [maximumf_apply, addf_apply, mulf_apply, mulf_apply]
  simp only [shapeCast_self, broadcastTo_1b_ab_apply, broadcast_apply]
  rw [show ∀ (v : FVec Ideal S5000x128 .f32) (i : S5000x128.Idx), rsqrt v i = Ideal.rsqrt (v i) from fun _ _ => rfl,
    addf_apply, broadcast_apply, onehotTimes5_apply, Ideal.ofBits_def, Ideal.ofBits_def, Ideal.ofBits_zero_f32]
  rfl

/-! ## The normalised array as one function of the five input arrays -/

/-- Entry `i` = (row, feature) of the result, from the whole input arrays. -/
def normalized5 (X H : S50000x128.Idx → EReal) (Vr : S128x128.Idx → EReal) (Wv Bv : S1x128.Idx → EReal) :
    S50000x128.Idx → EReal := fun i =>
  max (Wv (ix2 (0 : Fin 1) (i 1 : Fin 128)) * X i
        * Ideal.rsqrt ((∑ g : Fin 128, H (ix2 (i 0 : Fin 50000) g) * Vr (ix2 g (i 1 : Fin 128))) + eps5)
      + Bv (ix2 (0 : Fin 1) (i 1 : Fin 128))) 0

/-- The payload of blocks that are restrictions of the arrays, at the entry (`p`, `d`) of the block that sits at entry
    `i` of the array, is the normalised array there. -/
theorem pay5_eq_normalized5 (X H : S50000x128.Idx → EReal) (Vr : S128x128.Idx → EReal) (Wv Bv : S1x128.Idx → EReal)
    (x1 : Vec Ideal S5000x128 .bf16) (x2 : Vec Ideal S128x128 .f32) (x3 : Vec Ideal S1x128 .f32)
    (x0 : Vec Ideal S5000x128 .f32) (x4 : Vec Ideal S1x128 .f32) (p : Fin 5000) (d : Fin 128) (i : S50000x128.Idx)
    (h0 : (x0 (ix2 p d) : EReal) = X i)
    (h1 : ∀ g : Fin 128, (x1 (ix2 p g) : EReal) = H (ix2 (i 0 : Fin 50000) g))
    (h2 : ∀ g : Fin 128, (x2 (ix2 g d) : EReal) = Vr (ix2 g (i 1 : Fin 128)))
    (h3 : (x3 (ix2 (0 : Fin 1) d) : EReal) = Wv (ix2 (0 : Fin 1) (i 1 : Fin 128)))
    (h4 : (x4 (ix2 (0 : Fin 1) d) : EReal) = Bv (ix2 (0 : Fin 1) (i 1 : Fin 128))) :
    (k5_pay1 x1 x2 x3 x0 x4 : S5000x128.Idx → EReal) (ix2 p d) = normalized5 X H Vr Wv Bv i := by
  rw [pay5_apply, h0, h3, h4]
  unfold normalized5
  simp only [h1, h2]

/-! ## From the blocks to the array -/

theorem zeroOffsets5 : (![0, 0] : Fin 2 → Nat) = fun _ => 0 := funext fun a => by fin_cases a <;> rfl

/-- The output buffer after the body is the payload of the five input buffers: the single store is the whole buffer
    and every load reads its buffer whole. -/
theorem out5_5_eq (x0 : Vec Ideal S5000x128 .f32) (x1 : Vec Ideal S5000x128 .bf16) (x2 : Vec Ideal S128x128 .f32)
    (x3 : Vec Ideal S1x128 .f32) (x4 : Vec Ideal S1x128 .f32) :
    out5_5 x0 x1 x2 x3 x4 = (k5_pay1 x1 x2 x3 x0 x4 : Vec Ideal S5000x128 .f32) := by
  unfold out5_5
  rw [View.canon_unit_zero zeroOffsets5]
  simp only [View.ld_unit_zero (S := S5000x128) zeroOffsets5, View.ld_unit_zero (S := S128x128) zeroOffsets5,
    View.ld_unit_zero (S := S1x128) zeroOffsets5]

/-- The windows' block indices, decided over the grid: the row tiles move with the point, the variances and the two
    rows stay at the origin. -/
theorem blockIndex5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The five input arrays as the region finds them, as functions of their indices. -/
abbrev feats5 (c : Dev nD) : S50000x128.Idx → EReal := V c (Pipeline.arrRef spec5 0)
abbrev member5 (c : Dev nD) : S50000x128.Idx → EReal := V c (Pipeline.arrRef spec5 1)
abbrev vars5 (c : Dev nD) : S128x128.Idx → EReal := V c (Pipeline.arrRef spec5 2)
abbrev scale5 (c : Dev nD) : S1x128.Idx → EReal := V c (Pipeline.arrRef spec5 3)
abbrev shift5 (c : Dev nD) : S1x128.Idx → EReal := V c (Pipeline.arrRef spec5 4)

/-- The feature tile at point `t` is rows `5000 t …` of the feature array. -/
theorem featsBlock5_apply (c : Dev nD) (t : Fin cfg5.N) (y : S5000x128.Idx) (k : S50000x128.Idx)
    (hk0 : (k 0).val = 5000 * t.val + (y 0).val) (hk1 : (k 1).val = (y 1).val) :
    ((iblk5 V c 0 t : Vec Ideal S5000x128 .f32) y : EReal) = feats5 V c k := by
  obtain ⟨e0, e1, -⟩ := blockIndex5 t
  unfold iblk5
  rw [View.read_apply]
  show V c (Pipeline.arrRef spec5 0) _ = V c (Pipeline.arrRef spec5 0) _
  congr 1
  funext a
  apply Fin.ext
  match a with
  | ⟨0, _⟩ => show win5_0.index t 0 * 5000 + 1 * (y 0).val = (k 0).val; rw [e0, hk0]; omega
  | ⟨1, _⟩ => show win5_0.index t 1 * 128 + 1 * (y 1).val = (k 1).val; rw [e1, hk1]; omega

/-- The membership tile at point `t` is the same rows of the membership array. -/
theorem memberBlock5_apply (c : Dev nD) (t : Fin cfg5.N) (y : S5000x128.Idx) (k : S50000x128.Idx)
    (hk0 : (k 0).val = 5000 * t.val + (y 0).val) (hk1 : (k 1).val = (y 1).val) :
    ((iblk5 V c 1 t : Vec Ideal S5000x128 .bf16) y : EReal) = member5 V c k := by
  obtain ⟨-, -, e0, e1, -⟩ := blockIndex5 t
  unfold iblk5
  rw [View.read_apply]
  show V c (Pipeline.arrRef spec5 1) _ = V c (Pipeline.arrRef spec5 1) _
  congr 1
  funext a
  apply Fin.ext
  match a with
  | ⟨0, _⟩ => show win5_1.index t 0 * 5000 + 1 * (y 0).val = (k 0).val; rw [e0, hk0]; omega
  | ⟨1, _⟩ => show win5_1.index t 1 * 128 + 1 * (y 1).val = (k 1).val; rw [e1, hk1]; omega

/-- The variances' block is the whole array at every point. -/
theorem varsBlock5_apply (c : Dev nD) (t : Fin cfg5.N) (y : S128x128.Idx) :
    ((iblk5 V c 2 t : Vec Ideal S128x128 .f32) y : EReal) = vars5 V c y := by
  obtain ⟨-, -, -, -, e0, e1, -⟩ := blockIndex5 t
  unfold iblk5
  rw [View.read_apply]
  show V c (Pipeline.arrRef spec5 2) _ = V c (Pipeline.arrRef spec5 2) _
  congr 1
  funext a
  apply Fin.ext
  match a with
  | ⟨0, _⟩ => show win5_2.index t 0 * 128 + 1 * (y 0).val = (y 0).val; rw [e0]; omega
  | ⟨1, _⟩ => show win5_2.index t 1 * 128 + 1 * (y 1).val = (y 1).val; rw [e1]; omega

/-- The scale row's block is the whole row at every point. -/
theorem scaleBlock5_apply (c : Dev nD) (t : Fin cfg5.N) (y : S1x128.Idx) :
    ((iblk5 V c 3 t : Vec Ideal S1x128 .f32) y : EReal) = scale5 V c y := by
  obtain ⟨-, -, -, -, -, -, e0, e1, -⟩ := blockIndex5 t
  unfold iblk5
  rw [View.read_apply]
  show V c (Pipeline.arrRef spec5 3) _ = V c (Pipeline.arrRef spec5 3) _
  congr 1
  funext a
  apply Fin.ext
  match a with
  | ⟨0, _⟩ => show win5_3.index t 0 * 1 + 1 * (y 0).val = (y 0).val; rw [e0]; omega
  | ⟨1, _⟩ => show win5_3.index t 1 * 128 + 1 * (y 1).val = (y 1).val; rw [e1]; omega

/-- The shift row's block is the whole row at every point. -/
theorem shiftBlock5_apply (c : Dev nD) (t : Fin cfg5.N) (y : S1x128.Idx) :
    ((iblk5 V c 4 t : Vec Ideal S1x128 .f32) y : EReal) = shift5 V c y := by
  obtain ⟨-, -, -, -, -, -, -, -, e0, e1, -⟩ := blockIndex5 t
  unfold iblk5
  rw [View.read_apply]
  show V c (Pipeline.arrRef spec5 4) _ = V c (Pipeline.arrRef spec5 4) _
  congr 1
  funext a
  apply Fin.ext
  match a with
  | ⟨0, _⟩ => show win5_4.index t 0 * 1 + 1 * (y 0).val = (y 0).val; rw [e0]; omega
  | ⟨1, _⟩ => show win5_4.index t 1 * 128 + 1 * (y 1).val = (y 1).val; rw [e1]; omega

/-- What point `t` writes back is block `t` of the normalised array of the entry arrays. -/
theorem flushed5_5_eq (c : Dev nD) (t : Fin cfg5.N) :
    (dat5 V c).flushed 5 t = ((cfg5.win 5).blk t).view.read (Elt Ideal)
      (normalized5 (feats5 V c) (member5 V c) (vars5 V c) (scale5 V c) (shift5 V c)) := by
  show (cfg5.win 5).cut (grid5.coords t) ((dat5 V c).after 5 t) = _
  rw [after5_5, out5_5_eq]
  obtain ⟨-, -, -, -, -, -, -, -, -, -, e0, e1⟩ := blockIndex5 t
  refine funext fun (j : S5000x128.Idx) => ?_
  obtain ⟨p, d, rfl⟩ : ∃ (p : Fin 5000) (d : Fin 128), j = ix2 p d := ⟨j 0, j 1, eq_ix2 j⟩
  rw [View.read_apply]
  have hi0 : ((((cfg5.win 5).blk t).view.emb (ix2 p d)) 0).val = 5000 * t.val + p.val := by
    show win5_5.index t 0 * 5000 + 1 * p.val = _; rw [e0]; omega
  have hi1 : ((((cfg5.win 5).blk t).view.emb (ix2 p d)) 1).val = d.val := by
    show win5_5.index t 1 * 128 + 1 * d.val = _; rw [e1]; omega
  refine pay5_eq_normalized5 _ _ _ _ _ (iblk5 V c 1 t) (iblk5 V c 2 t) (iblk5 V c 3 t) (iblk5 V c 0 t) (iblk5 V c 4 t) p d
    (((cfg5.win 5).blk t).view.emb (ix2 p d)) ?_ ?_ ?_ ?_ ?_
  · exact featsBlock5_apply V c t (ix2 p d) _ hi0 hi1
  · intro g; exact memberBlock5_apply V c t _ _ hi0 rfl
  · intro g
    rw [varsBlock5_apply]
    exact congrArg (vars5 V c) (by funext a; apply Fin.ext; match a with | ⟨0, _⟩ => rfl | ⟨1, _⟩ => exact hi1.symm)
  · rw [scaleBlock5_apply]
    exact congrArg (scale5 V c) (by funext a; apply Fin.ext; match a with | ⟨0, _⟩ => rfl | ⟨1, _⟩ => exact hi1.symm)
  · rw [shiftBlock5_apply]
    exact congrArg (shift5 V c) (by funext a; apply Fin.ext; match a with | ⟨0, _⟩ => rfl | ⟨1, _⟩ => exact hi1.symm)

/-- An entry of the array sits in point `t`'s block as soon as its row is `5000 t` plus a row of the block and its
    feature the block's: it is the image of that block entry. -/
theorem mem_block5_5 (t : Fin cfg5.N) (y : S5000x128.Idx) (i : S50000x128.Idx)
    (h0 : (i 0).val = 5000 * t.val + (y 0).val) (h1 : (i 1).val = (y 1).val) :
    i ∈ ((cfg5.win 5).blk t).view.set := by
  obtain ⟨-, -, -, -, -, -, -, -, -, -, e0, e1⟩ := blockIndex5 t
  have hy : ((cfg5.win 5).blk t).view.emb y = i := by
    funext a
    apply Fin.ext
    match a with
    | ⟨0, _⟩ => show win5_5.index t 0 * 5000 + 1 * (y 0).val = (i 0).val; rw [e0, h0]; omega
    | ⟨1, _⟩ => show win5_5.index t 1 * 128 + 1 * (y 1).val = (i 1).val; rw [e1, h1]; omega
  subst hy
  exact ((cfg5.win 5).blk t).view.emb_mem_set y

/-- Every entry of the array is in the block of the point its row falls in. -/
theorem covered5_5 (i : S50000x128.Idx) :
    ∃ t : Fin cfg5.N, (cfg5.win 5).flush t = true ∧ i ∈ ((cfg5.win 5).blk t).view.set := by
  have h0 : (i 0).val < 50000 := (i 0).isLt
  have hN : cfg5.N = 10 := N_5
  have ht : (i 0).val / 5000 < cfg5.N := by rw [hN]; omega
  refine ⟨⟨(i 0).val / 5000, ht⟩, flush5_5 _,
    mem_block5_5 ⟨(i 0).val / 5000, ht⟩ (ix2 (⟨(i 0).val % 5000, Nat.mod_lt _ (by decide)⟩ : Fin 5000) (i 1 : Fin 128)) i ?_ rfl⟩
  show (i 0).val = 5000 * ((i 0).val / 5000) + (i 0).val % 5000
  omega

/-- So the output array ends holding the normalised array of the entry arrays. -/
theorem arr5_5_eq (c : Dev nD) :
    (dat5 V c).arrAt 5 cfg5.N = normalized5 (feats5 V c) (member5 V c) (vars5 V c) (scale5 V c) (shift5 V c) :=
  (dat5 V c).arrAt_eq_of_cover 5 _ (fun t _ => flushed5_5_eq V c t) covered5_5

/-- The output array after the region, at row `n` and feature `d`, in plain arithmetic of the entry arrays. -/
theorem arr5_5_apply (c : Dev nD) (n : Fin 50000) (d : Fin 128) :
    ((dat5 V c).arrAt 5 cfg5.N : S50000x128.Idx → EReal) (ix2 n d)
      = max (scale5 V c (ix2 (0 : Fin 1) d) * feats5 V c (ix2 n d)
              * Ideal.rsqrt ((∑ g : Fin 128, member5 V c (ix2 n g) * vars5 V c (ix2 g d)) + eps5)
            + shift5 V c (ix2 (0 : Fin 1) d)) 0 := by
  rw [arr5_5_eq]; rfl

end Cert.KernelIdeal.Hand
-- ==== Proof.KI.Reg6Val.lean ====
import proofs.«408428_j10917806867267_1_alg».proof.Proof.KI.Reg6
import proofs.«408428_j10917806867267_1_alg».proof.Proof.Spec2
import proofs.«408428_j10917806867267_1_alg».proof.Proof.Consts
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! # The first launch's two result arrays, entry by entry, at the ideal values

What the two output arrays hold after the region, as plain arithmetic of the seven input arrays as the region finds them.
Window 7's array is the two-layer perceptron of each row plus its aggregate. Window 8's array is, per graph and feature,
the sum over all rows of the row's membership in the graph times that output: the accumulator starts at zero, each point
adds its tile's term, and the ten tiles of 5000 rows are the 50000 rows. First the payloads at an entry; then each input
block as a restriction of its array, what each point writes back as a block of one whole-array function, the cover of
the arrays by the blocks, and the accumulator's value after each point. -/

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The payloads at an entry -/

/-- A row tile times a square matrix, at an entry: the sum over the inner axis of the products. -/
theorem mmRows6_apply (A : FVec Ideal S5000x128 .bf16) (B : FVec Ideal S128x128 .bf16) (p : Fin 5000) (d : Fin 128) :
    matmul dot_S5000x128_S128x128_S5000x128_1_0_0_1_n_n none A B (constant S5000x128 .f32 0x00000000#32) (ix2 p d)
      = ∑ g : Fin 128, A (ix2 p g) * B (ix2 g d) := by
  simp only [matmul]
  rw [Ideal.matmul_constant_zero_apply, ← Equiv.sum_comp (contrEquiv1 dot_S5000x128_S128x128_S5000x128_1_0_0_1_n_n 128 rfl rfl).symm]
  refine Finset.sum_congr rfl fun g _ => ?_
  have cg := contrEquiv1_symm_val dot_S5000x128_S128x128_S5000x128_1_0_0_1_n_n 128 rfl rfl g
  have hl : dot_S5000x128_S128x128_S5000x128_1_0_0_1_n_n.lhsIdx (ix2 p d) ((contrEquiv1 _ 128 rfl rfl).symm g) = ix2 p g := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact cg
  have hr : dot_S5000x128_S128x128_S5000x128_1_0_0_1_n_n.rhsIdx (ix2 p d) ((contrEquiv1 _ 128 rfl rfl).symm g) = ix2 g d := by
    funext ax; apply Fin.ext
    match ax with
    | ⟨0, _⟩ => simp [DotDims.rhsIdx, dot_S5000x128_S128x128_S5000x128_1_0_0_1_n_n]; exact cg
    | ⟨1, _⟩ => simp [DotDims.rhsIdx, dot_S5000x128_S128x128_S5000x128_1_0_0_1_n_n]; rfl
  rw [hl, hr]

/-- Two row tiles contracted along their rows, at an entry: the sum over the rows of the products. -/
theorem mmCols6_apply (A B : FVec Ideal S5000x128 .bf16) (g d : Fin 128) :
    matmul dot_S5000x128_S5000x128_S128x128_0_0_1_1_n_n none A B (constant S128x128 .f32 0x00000000#32) (ix2 g d)
      = ∑ p : Fin 5000, A (ix2 p g) * B (ix2 p d) := by
  simp only [matmul]
  rw [Ideal.matmul_constant_zero_apply, ← Equiv.sum_comp (contrEquiv1 dot_S5000x128_S5000x128_S128x128_0_0_1_1_n_n 5000 rfl rfl).symm]
  refine Finset.sum_congr rfl fun p _ => ?_
  have cp := contrEquiv1_symm_val dot_S5000x128_S5000x128_S128x128_0_0_1_1_n_n 5000 rfl rfl p
  have hl : dot_S5000x128_S5000x128_S128x128_0_0_1_1_n_n.lhsIdx (ix2 g d) ((contrEquiv1 _ 5000 rfl rfl).symm p) = ix2 p g := by
    funext ax; apply Fin.ext
    match ax with
    | ⟨0, _⟩ => simp [DotDims.lhsIdx, dot_S5000x128_S5000x128_S128x128_0_0_1_1_n_n]; exact cp
    | ⟨1, _⟩ => simp [DotDims.lhsIdx, dot_S5000x128_S5000x128_S128x128_0_0_1_1_n_n]; rfl
  have hr : dot_S5000x128_S5000x128_S128x128_0_0_1_1_n_n.rhsIdx (ix2 g d) ((contrEquiv1 _ 5000 rfl rfl).symm p) = ix2 p d := by
    funext ax; apply Fin.ext
    match ax with
    | ⟨0, _⟩ => simp [DotDims.rhsIdx, dot_S5000x128_S5000x128_S128x128_0_0_1_1_n_n]; exact cp
    | ⟨1, _⟩ => simp [DotDims.rhsIdx, dot_S5000x128_S5000x128_S128x128_0_0_1_1_n_n]; rfl
  rw [hl, hr]

/-- The perceptron's payload at row `p`, feature `d` of the tile: two linear maps over the row plus its aggregate, a
    rectifier after each. -/
theorem pay6_3_apply (v3 v4 : Vec Ideal S5000x128 .f32) (v7 : Vec Ideal S128x128 .f32) (v12 : Vec Ideal S1x128 .f32)
    (v18 : Vec Ideal S128x128 .f32) (v23 : Vec Ideal S1x128 .f32) (p : Fin 5000) (d : Fin 128) :
    (k6_pay3 v3 v4 v7 v12 v18 v23 : S5000x128.Idx → EReal) (ix2 p d)
      = Cert.Spec2.mlp2 (fun (q : Fin 5000) (j : Fin 128) => (v3 (ix2 q j) : EReal) + (v4 (ix2 q j) : EReal))
          (fun (j k : Fin 128) => (v7 (ix2 j k) : EReal)) (fun k : Fin 128 => (v12 (ix2 (0 : Fin 1) k) : EReal))
          (fun (k e : Fin 128) => (v18 (ix2 k e) : EReal)) (fun e : Fin 128 => (v23 (ix2 (0 : Fin 1) e) : EReal)) p d := by
  unfold k6_pay3
  rw [maximumf_apply, addf_apply, mmRows6_apply]
  simp only [shapeCast_self, broadcastTo_1b_ab_apply, broadcast_apply, truncf_apply, maximumf_apply, addf_apply, mmRows6_apply]
  unfold Cert.Spec2.mlp2 Cert.Spec2.lin Cert.Spec2.relu
  simp only [Cert.Consts.scalar_zero]

/-- The accumulator's payload at graph `g`, feature `d`: what it held plus the sum over the tile's rows of membership
    times the perceptron's output. -/
theorem pay6_1_apply (T : FVec Ideal S5000x128 .f32) (M : FVec Ideal S5000x128 .bf16) (s : Vec Ideal S128x128 .f32) (g d : Fin 128) :
    (k6_pay1 T M s : S128x128.Idx → EReal) (ix2 g d)
      = (s (ix2 g d) : EReal) + ∑ p : Fin 5000, (M (ix2 p g) : EReal) * (T (ix2 p d) : EReal) := by
  unfold k6_pay1
  rw [shapeCast_self, addf_apply, mmCols6_apply]
  simp only [truncf_apply]

/-- The zero splat reads zero everywhere. -/
theorem pay6_2_apply (i : S128x128.Idx) : (k6_pay2 (F := Ideal) : S128x128.Idx → EReal) i = 0 := by
  unfold k6_pay2
  rw [shapeCast_self, broadcast_apply]
  exact Cert.Consts.scalar_zero

/-- The membership tile passes through unchanged. -/
theorem pay6_4_eq (v30 : Vec Ideal S5000x128 .bf16) : (k6_pay4 v30 : FVec Ideal S5000x128 .bf16) = v30 := by
  unfold k6_pay4; rw [shapeCast_self]

variable (V : (c : Dev nD) → (b : Ref sig .tc) → Buf (Elt Ideal) ((c : Thread nD τ).loc b))

/-! ## The stores and loads are whole-buffer: what the body leaves, as payloads -/

theorem zeroOffsets6 : (![0, 0] : Fin 2 → Nat) = fun _ => 0 := funext fun a => by fin_cases a <;> rfl

theorem tval6_eq (x0 x1 : Vec Ideal S5000x128 .f32) (x3 : Vec Ideal S128x128 .f32) (x4 : Vec Ideal S1x128 .f32)
    (x5 : Vec Ideal S128x128 .f32) (x6 : Vec Ideal S1x128 .f32) :
    tval6 x0 x1 x3 x4 x5 x6 = (k6_pay3 x0 x1 x3 x4 x5 x6 : FVec Ideal S5000x128 .f32) := by
  unfold tval6
  simp only [View.ld_unit_zero (S := S5000x128) zeroOffsets6, View.ld_unit_zero (S := S128x128) zeroOffsets6,
    View.ld_unit_zero (S := S1x128) zeroOffsets6]

theorem out6_7_eq (x0 x1 : Vec Ideal S5000x128 .f32) (x3 : Vec Ideal S128x128 .f32) (x4 : Vec Ideal S1x128 .f32)
    (x5 : Vec Ideal S128x128 .f32) (x6 : Vec Ideal S1x128 .f32) :
    out6_7 x0 x1 x3 x4 x5 x6 = (k6_pay3 x0 x1 x3 x4 x5 x6 : Vec Ideal S5000x128 .f32) := by
  unfold out6_7
  rw [View.canon_unit_zero zeroOffsets6, tval6_eq]

theorem scr6_eq (x0 x1 : Vec Ideal S5000x128 .f32) (x2 : Vec Ideal S5000x128 .bf16) (x3 : Vec Ideal S128x128 .f32)
    (x4 : Vec Ideal S1x128 .f32) (x5 : Vec Ideal S128x128 .f32) (x6 : Vec Ideal S1x128 .f32) (s : Vec Ideal S128x128 .f32) :
    scr6 x0 x1 x2 x3 x4 x5 x6 s = (k6_pay1 (k6_pay3 x0 x1 x3 x4 x5 x6) x2 s : Vec Ideal S128x128 .f32) := by
  unfold scr6
  rw [View.canon_unit_zero zeroOffsets6, tval6_eq, pay6_4_eq]
  simp only [View.ld_unit_zero (S := S5000x128) zeroOffsets6, View.ld_unit_zero (S := S128x128) zeroOffsets6]

theorem zero6_apply (i : S128x128.Idx) : ((zero6 (F := Ideal) : S128x128.Idx → EReal) i) = 0 := by
  unfold zero6
  rw [View.canon_unit_zero zeroOffsets6]
  exact pay6_2_apply i

theorem out6_8_eq (s : Vec Ideal S128x128 .f32) : out6_8 s = s := by
  unfold out6_8
  rw [View.canon_unit_zero zeroOffsets6, View.ld_unit_zero (S := S128x128) zeroOffsets6]

/-! ## The blocks as restrictions of the arrays -/

/-- The windows' block indices, decided over the grid: the row tiles move with the point, the weights, the biases and the
    sums stay at the origin. -/
theorem blockIndex6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0
    ∧ win6_8.index t (0 : Fin 2) = 0 ∧ win6_8.index t (1 : Fin 2) = 0 ∧ True :=
  (by decide +kernel : ∀ t : Fin grid6.N, _)

/-- The seven input arrays as the region finds them, as functions of their indices: rows, aggregates, membership, the
    two weight matrices and the two bias rows. -/
abbrev ent6_0 (c : Dev nD) : S50000x128.Idx → EReal := V c (Pipeline.arrRef spec6 0)
abbrev ent6_1 (c : Dev nD) : S50000x128.Idx → EReal := V c (Pipeline.arrRef spec6 1)
abbrev ent6_2 (c : Dev nD) : S50000x128.Idx → EReal := V c (Pipeline.arrRef spec6 2)
abbrev ent6_3 (c : Dev nD) : S128x128.Idx → EReal := V c (Pipeline.arrRef spec6 3)
abbrev ent6_4 (c : Dev nD) : S1x128.Idx → EReal := V c (Pipeline.arrRef spec6 4)
abbrev ent6_5 (c : Dev nD) : S128x128.Idx → EReal := V c (Pipeline.arrRef spec6 5)
abbrev ent6_6 (c : Dev nD) : S1x128.Idx → EReal := V c (Pipeline.arrRef spec6 6)

theorem blk6_0_apply (c : Dev nD) (t : Fin cfg6.N) (y : S5000x128.Idx) (k : S50000x128.Idx)
    (hk0 : (k 0).val = 5000 * t.val + (y 0).val) (hk1 : (k 1).val = (y 1).val) :
    ((iblk6 V c 0 t : S5000x128.Idx → EReal) y) = ent6_0 V c k := by
  obtain ⟨e0, e1, -⟩ := blockIndex6 t
  unfold iblk6
  rw [View.read_apply]
  show V c (Pipeline.arrRef spec6 0) _ = V c (Pipeline.arrRef spec6 0) _
  congr 1
  funext a
  apply Fin.ext
  match a with
  | ⟨0, _⟩ => show win6_0.index t 0 * 5000 + 1 * (y 0).val = (k 0).val; rw [e0, hk0]; omega
  | ⟨1, _⟩ => show win6_0.index t 1 * 128 + 1 * (y 1).val = (k 1).val; rw [e1, hk1]; omega

theorem blk6_1_apply (c : Dev nD) (t : Fin cfg6.N) (y : S5000x128.Idx) (k : S50000x128.Idx)
    (hk0 : (k 0).val = 5000 * t.val + (y 0).val) (hk1 : (k 1).val = (y 1).val) :
    ((iblk6 V c 1 t : S5000x128.Idx → EReal) y) = ent6_1 V c k := by
  obtain ⟨-, -, e0, e1, -⟩ := blockIndex6 t
  unfold iblk6
  rw [View.read_apply]
  show V c (Pipeline.arrRef spec6 1) _ = V c (Pipeline.arrRef spec6 1) _
  congr 1
  funext a
  apply Fin.ext
  match a with
  | ⟨0, _⟩ => show win6_1.index t 0 * 5000 + 1 * (y 0).val = (k 0).val; rw [e0, hk0]; omega
  | ⟨1, _⟩ => show win6_1.index t 1 * 128 + 1 * (y 1).val = (k 1).val; rw [e1, hk1]; omega

theorem blk6_2_apply (c : Dev nD) (t : Fin cfg6.N) (y : S5000x128.Idx) (k : S50000x128.Idx)
    (hk0 : (k 0).val = 5000 * t.val + (y 0).val) (hk1 : (k 1).val = (y 1).val) :
    ((iblk6 V c 2 t : S5000x128.Idx → EReal) y) = ent6_2 V c k := by
  obtain ⟨-, -, -, -, e0, e1, -⟩ := blockIndex6 t
  unfold iblk6
  rw [View.read_apply]
  show V c (Pipeline.arrRef spec6 2) _ = V c (Pipeline.arrRef spec6 2) _
  congr 1
  funext a
  apply Fin.ext
  match a with
  | ⟨0, _⟩ => show win6_2.index t 0 * 5000 + 1 * (y 0).val = (k 0).val; rw [e0, hk0]; omega
  | ⟨1, _⟩ => show win6_2.index t 1 * 128 + 1 * (y 1).val = (k 1).val; rw [e1, hk1]; omega

theorem blk6_3_apply (c : Dev nD) (t : Fin cfg6.N) (y : S128x128.Idx) :
    ((iblk6 V c 3 t : S128x128.Idx → EReal) y) = ent6_3 V c y := by
  obtain ⟨-, -, -, -, -, -, e0, e1, -⟩ := blockIndex6 t
  unfold iblk6
  rw [View.read_apply]
  show V c (Pipeline.arrRef spec6 3) _ = V c (Pipeline.arrRef spec6 3) _
  congr 1
  funext a
  apply Fin.ext
  match a with
  | ⟨0, _⟩ => show win6_3.index t 0 * 128 + 1 * (y 0).val = (y 0).val; rw [e0]; omega
  | ⟨1, _⟩ => show win6_3.index t 1 * 128 + 1 * (y 1).val = (y 1).val; rw [e1]; omega

theorem blk6_4_apply (c : Dev nD) (t : Fin cfg6.N) (y : S1x128.Idx) :
    ((iblk6 V c 4 t : S1x128.Idx → EReal) y) = ent6_4 V c y := by
  obtain ⟨-, -, -, -, -, -, -, -, e0, e1, -⟩ := blockIndex6 t
  unfold iblk6
  rw [View.read_apply]
  show V c (Pipeline.arrRef spec6 4) _ = V c (Pipeline.arrRef spec6 4) _
  congr 1
  funext a
  apply Fin.ext
  match a with
  | ⟨0, _⟩ => show win6_4.index t 0 * 1 + 1 * (y 0).val = (y 0).val; rw [e0]; omega
  | ⟨1, _⟩ => show win6_4.index t 1 * 128 + 1 * (y 1).val = (y 1).val; rw [e1]; omega

theorem blk6_5_apply (c : Dev nD) (t : Fin cfg6.N) (y : S128x128.Idx) :
    ((iblk6 V c 5 t : S128x128.Idx → EReal) y) = ent6_5 V c y := by
  obtain ⟨-, -, -, -, -, -, -, -, -, -, e0, e1, -⟩ := blockIndex6 t
  unfold iblk6
  rw [View.read_apply]
  show V c (Pipeline.arrRef spec6 5) _ = V c (Pipeline.arrRef spec6 5) _
  congr 1
  funext a
  apply Fin.ext
  match a with
  | ⟨0, _⟩ => show win6_5.index t 0 * 128 + 1 * (y 0).val = (y 0).val; rw [e0]; omega
  | ⟨1, _⟩ => show win6_5.index t 1 * 128 + 1 * (y 1).val = (y 1).val; rw [e1]; omega

theorem blk6_6_apply (c : Dev nD) (t : Fin cfg6.N) (y : S1x128.Idx) :
    ((iblk6 V c 6 t : S1x128.Idx → EReal) y) = ent6_6 V c y := by
  obtain ⟨-, -, -, -, -, -, -, -, -, -, -, -, e0, e1, -⟩ := blockIndex6 t
  unfold iblk6
  rw [View.read_apply]
  show V c (Pipeline.arrRef spec6 6) _ = V c (Pipeline.arrRef spec6 6) _
  congr 1
  funext a
  apply Fin.ext
  match a with
  | ⟨0, _⟩ => show win6_6.index t 0 * 1 + 1 * (y 0).val = (y 0).val; rw [e0]; omega
  | ⟨1, _⟩ => show win6_6.index t 1 * 128 + 1 * (y 1).val = (y 1).val; rw [e1]; omega

/-! ## The perceptron's array as one function of the six arrays it reads -/

/-- The perceptron reads one row of its first operand only. -/
theorem mlp2_row6 {N N' K M P : Nat} (x : Fin N → Fin K → EReal) (x' : Fin N' → Fin K → EReal) (w1 : Fin K → Fin M → EReal)
    (b1 : Fin M → EReal) (w2 : Fin M → Fin P → EReal) (b2 : Fin P → EReal) (n : Fin N) (n' : Fin N') (k : Fin P)
    (h : ∀ j, x n j = x' n' j) : Cert.Spec2.mlp2 x w1 b1 w2 b2 n k = Cert.Spec2.mlp2 x' w1 b1 w2 b2 n' k := by
  unfold Cert.Spec2.mlp2 Cert.Spec2.lin
  simp only [h]

/-- Entry (row, feature) of the perceptron's output, from the whole input arrays. -/
def tArr6 (c : Dev nD) : S50000x128.Idx → EReal := fun i =>
  Cert.Spec2.mlp2 (fun (n : Fin 50000) (j : Fin 128) => ent6_0 V c (ix2 n j) + ent6_1 V c (ix2 n j))
    (fun (j k : Fin 128) => ent6_3 V c (ix2 j k)) (fun k : Fin 128 => ent6_4 V c (ix2 (0 : Fin 1) k))
    (fun (k e : Fin 128) => ent6_5 V c (ix2 k e)) (fun e : Fin 128 => ent6_6 V c (ix2 (0 : Fin 1) e))
    (i 0 : Fin 50000) (i 1 : Fin 128)

/-- The payload of the blocks at point `t`, at the entry (`p`, `d`) of the tile that sits at entry `i` of the array, is
    the perceptron's array there. -/
theorem tile6_apply (c : Dev nD) (t : Fin cfg6.N) (p : Fin 5000) (d : Fin 128) (i : S50000x128.Idx)
    (hi0 : (i 0).val = 5000 * t.val + p.val) (hi1 : (i 1).val = d.val) :
    ((k6_pay3 (iblk6 V c 0 t) (iblk6 V c 1 t) (iblk6 V c 3 t) (iblk6 V c 4 t) (iblk6 V c 5 t) (iblk6 V c 6 t)
      : S5000x128.Idx → EReal) (ix2 p d)) = tArr6 V c i := by
  rw [pay6_3_apply]
  unfold tArr6
  have hd : d = (i 1 : Fin 128) := Fin.ext hi1.symm
  subst hd
  have hw1 : (fun (j k : Fin 128) => ((iblk6 V c 3 t : S128x128.Idx → EReal) (ix2 j k))) = fun (j k : Fin 128) => ent6_3 V c (ix2 j k) :=
    funext fun j => funext fun k => blk6_3_apply V c t _
  have hb1 : (fun k : Fin 128 => ((iblk6 V c 4 t : S1x128.Idx → EReal) (ix2 (0 : Fin 1) k))) = fun k : Fin 128 => ent6_4 V c (ix2 (0 : Fin 1) k) :=
    funext fun k => blk6_4_apply V c t _
  have hw2 : (fun (k e : Fin 128) => ((iblk6 V c 5 t : S128x128.Idx → EReal) (ix2 k e))) = fun (k e : Fin 128) => ent6_5 V c (ix2 k e) :=
    funext fun k => funext fun e => blk6_5_apply V c t _
  have hb2 : (fun e : Fin 128 => ((iblk6 V c 6 t : S1x128.Idx → EReal) (ix2 (0 : Fin 1) e))) = fun e : Fin 128 => ent6_6 V c (ix2 (0 : Fin 1) e) :=
    funext fun e => blk6_6_apply V c t _
  rw [hw1, hb1, hw2, hb2]
  refine mlp2_row6 _ _ _ _ _ _ p (i 0 : Fin 50000) _ fun j => ?_
  beta_reduce
  rw [blk6_0_apply V c t (ix2 p j) (ix2 (i 0 : Fin 50000) j) hi0 rfl, blk6_1_apply V c t (ix2 p j) (ix2 (i 0 : Fin 50000) j) hi0 rfl]

/-- What point `t` writes back of window 7 is block `t` of the perceptron's array. -/
theorem flushed6_7_eq (c : Dev nD) (t : Fin cfg6.N) :
    (dat6 V c).flushed 7 t = ((cfg6.win 7).blk t).view.read (Elt Ideal) (tArr6 V c) := by
  show (cfg6.win 7).cut (grid6.coords t) ((dat6 V c).after 7 t) = _
  rw [after6_7, out6_7_eq]
  obtain ⟨-, -, -, -, -, -, -, -, -, -, -, -, -, -, e0, e1, -⟩ := blockIndex6 t
  refine funext fun (j : S5000x128.Idx) => ?_
  obtain ⟨p, d, rfl⟩ : ∃ (p : Fin 5000) (d : Fin 128), j = ix2 p d := ⟨j 0, j 1, eq_ix2 j⟩
  rw [View.read_apply]
  have hi0 : ((((cfg6.win 7).blk t).view.emb (ix2 p d)) 0).val = 5000 * t.val + p.val := by
    show win6_7.index t 0 * 5000 + 1 * p.val = _; rw [e0]; omega
  have hi1 : ((((cfg6.win 7).blk t).view.emb (ix2 p d)) 1).val = d.val := by
    show win6_7.index t 1 * 128 + 1 * d.val = _; rw [e1]; omega
  exact tile6_apply V c t p d _ hi0 hi1

/-- An entry of the array sits in point `t`'s block of window 7 as soon as its row is `5000 t` plus a row of the block
    and its feature the block's. -/
theorem mem_block6_7 (t : Fin cfg6.N) (y : S5000x128.Idx) (i : S50000x128.Idx)
    (h0 : (i 0).val = 5000 * t.val + (y 0).val) (h1 : (i 1).val = (y 1).val) :
    i ∈ ((cfg6.win 7).blk t).view.set := by
  obtain ⟨-, -, -, -, -, -, -, -, -, -, -, -, -, -, e0, e1, -⟩ := blockIndex6 t
  have hy : ((cfg6.win 7).blk t).view.emb y = i := by
    funext a
    apply Fin.ext
    match a with
    | ⟨0, _⟩ => show win6_7.index t 0 * 5000 + 1 * (y 0).val = (i 0).val; rw [e0, h0]; omega
    | ⟨1, _⟩ => show win6_7.index t 1 * 128 + 1 * (y 1).val = (i 1).val; rw [e1, h1]; omega
  subst hy
  exact ((cfg6.win 7).blk t).view.emb_mem_set y

/-- Every entry of the array is in the block of the point its row falls in. -/
theorem covered6_7 (i : S50000x128.Idx) :
    ∃ t : Fin cfg6.N, (cfg6.win 7).flush t = true ∧ i ∈ ((cfg6.win 7).blk t).view.set := by
  have h0 : (i 0).val < 50000 := (i 0).isLt
  have hN : cfg6.N = 10 := N_6
  have ht : (i 0).val / 5000 < cfg6.N := by rw [hN]; omega
  refine ⟨⟨(i 0).val / 5000, ht⟩, flush6_7 _,
    mem_block6_7 ⟨(i 0).val / 5000, ht⟩ (ix2 (⟨(i 0).val % 5000, Nat.mod_lt _ (by decide)⟩ : Fin 5000) (i 1 : Fin 128)) i ?_ rfl⟩
  show (i 0).val = 5000 * ((i 0).val / 5000) + (i 0).val % 5000
  omega

/-- So window 7's array ends holding the perceptron's array of the entry arrays. -/
theorem arr6_7_eq (c : Dev nD) : (dat6 V c).arrAt 7 cfg6.N = tArr6 V c :=
  (dat6 V c).arrAt_eq_of_cover 7 _ (fun t _ => flushed6_7_eq V c t) covered6_7

/-- Window 7's array after the region, at row `n` and feature `d`. -/
theorem arr6_7_apply (c : Dev nD) (n : Fin 50000) (d : Fin 128) :
    ((dat6 V c).arrAt 7 cfg6.N : S50000x128.Idx → EReal) (ix2 n d)
      = Cert.Spec2.mlp2 (fun (n : Fin 50000) (j : Fin 128) => ent6_0 V c (ix2 n j) + ent6_1 V c (ix2 n j))
          (fun (j k : Fin 128) => ent6_3 V c (ix2 j k)) (fun k : Fin 128 => ent6_4 V c (ix2 (0 : Fin 1) k))
          (fun (k e : Fin 128) => ent6_5 V c (ix2 k e)) (fun e : Fin 128 => ent6_6 V c (ix2 (0 : Fin 1) e)) n d := by
  rw [arr6_7_eq]; rfl

/-! ## The accumulator: the tiles' terms, summed -/

/-- Membership in graph `g` times feature `d` of the perceptron's output, at row `n` of the arrays. -/
def prod6 (c : Dev nD) (g d : Fin 128) (n : Fin 50000) : EReal := ent6_2 V c (ix2 n g) * tArr6 V c (ix2 n d)

/-- Row `r` of tile `k`, as a row of the arrays. -/
def rowOf6 (k : Fin 10) (r : Fin 5000) : Fin 50000 := ⟨k.val * 5000 + r.val, by have := k.isLt; have := r.isLt; omega⟩

/-- What tile `k` adds to the accumulator at (`g`, `d`). -/
def tileTerm6 (c : Dev nD) (g d : Fin 128) (k : Fin 10) : EReal := ∑ r : Fin 5000, prod6 V c g d (rowOf6 k r)

/-- One point's step: what the accumulator held plus the point's tile term. -/
theorem stepAt6_apply (c : Dev nD) (t : Fin cfg6.N) (k : Fin 10) (hk : k.val = t.val) (s : Vec Ideal S128x128 .f32) (g d : Fin 128) :
    ((stepAt6 V c t s : S128x128.Idx → EReal) (ix2 g d)) = (s (ix2 g d) : EReal) + tileTerm6 V c g d k := by
  unfold stepAt6
  rw [scr6_eq, pay6_1_apply]
  congr 1
  unfold tileTerm6 prod6
  refine Finset.sum_congr rfl fun r _ => ?_
  have hrow : (rowOf6 k r).val = 5000 * t.val + r.val := by show k.val * 5000 + r.val = _; rw [hk]; omega
  rw [blk6_2_apply V c t (ix2 r g) (ix2 (rowOf6 k r) g) hrow rfl, tile6_apply V c t r d (ix2 (rowOf6 k r) d) hrow rfl]

/-- The accumulator after point `n`: the terms of the tiles up to it. -/
theorem acc6_apply (c : Dev nD) (g d : Fin 128) : ∀ (n : ℕ) (hn : n < 10),
    ((acc6 V c n : S128x128.Idx → EReal) (ix2 g d)) = ∑ k ∈ Finset.univ.filter (fun k : Fin 10 => k.val < n + 1), tileTerm6 V c g d k
  | 0, hn => by
    have hN : cfg6.N = 10 := N_6
    rw [Cert.Spec.tiles_lt_succ _ 0 hn, Cert.Spec.tiles_lt_zero]
    show ((stepAt6 V c (pt6 0) (zero6 (F := Ideal)) : S128x128.Idx → EReal) (ix2 g d)) = _
    rw [stepAt6_apply V c (pt6 0) ⟨0, hn⟩ (Nat.mod_eq_of_lt (by rw [hN]; exact hn)).symm, zero6_apply]
  | n + 1, hn => by
    have hN : cfg6.N = 10 := N_6
    rw [Cert.Spec.tiles_lt_succ _ (n + 1) hn, ← acc6_apply c g d n (by omega)]
    show ((stepAt6 V c (pt6 (n + 1)) (acc6 V c n) : S128x128.Idx → EReal) (ix2 g d)) = _
    rw [stepAt6_apply V c (pt6 (n + 1)) ⟨n + 1, hn⟩ (Nat.mod_eq_of_lt (by rw [hN]; exact hn)).symm]

/-- After the last point: the sum over all rows of the arrays. -/
theorem acc6_total (c : Dev nD) (g d : Fin 128) :
    ((acc6 V c 9 : S128x128.Idx → EReal) (ix2 g d)) = ∑ n : Fin 50000, prod6 V c g d n := by
  rw [acc6_apply V c g d 9 (by decide), Cert.Spec.tiles_lt_all]
  exact Cert.Spec.tile_sum (prod6 V c g d)

/-! ## Window 8's array: the sums per graph -/

theorem emb6_8 (t : Fin cfg6.N) (y : S128x128.Idx) : ((cfg6.win 8).blk t).view.emb y = y := by
  obtain ⟨-, -, -, -, -, -, -, -, -, -, -, -, -, -, -, -, e0, e1, -⟩ := blockIndex6 t
  funext a
  apply Fin.ext
  match a with
  | ⟨0, _⟩ => show win6_8.index t 0 * 128 + 1 * (y 0).val = (y 0).val; rw [e0]; omega
  | ⟨1, _⟩ => show win6_8.index t 1 * 128 + 1 * (y 1).val = (y 1).val; rw [e1]; omega

/-- What the one write-back of window 8 writes — at the last point, whose block is the whole array — is the accumulator
    after the last point. -/
theorem flushed6_8_eq (c : Dev nD) (t : Fin cfg6.N) (hf : (cfg6.win 8).flush t = true) :
    (dat6 V c).flushed 8 t = ((cfg6.win 8).blk t).view.read (Elt Ideal) (acc6 V c 9) := by
  show (cfg6.win 8).cut (grid6.coords t) ((dat6 V c).after 8 t) = _
  rw [after6_8, out6_8_eq]
  have ht : t.val = 9 := by
    have h := hflush6_8 t; rw [hf] at h
    have h' : t.val + 1 = cfg6.N := of_decide_eq_true h.symm
    have hN : cfg6.N = 10 := N_6
    omega
  rw [ht]
  obtain ⟨-, -, -, -, -, -, -, -, -, -, -, -, -, -, -, -, e0, e1, -⟩ := blockIndex6 t
  refine funext fun (j : S128x128.Idx) => ?_
  rw [View.read_apply]
  show (acc6 V c 9 : S128x128.Idx → EReal) j = (acc6 V c 9 : S128x128.Idx → EReal) _
  congr 1
  funext a
  apply Fin.ext
  match a with
  | ⟨0, _⟩ => show (j 0).val = win6_8.index t 0 * 128 + 1 * (j 0).val; rw [e0]; omega
  | ⟨1, _⟩ => show (j 1).val = win6_8.index t 1 * 128 + 1 * (j 1).val; rw [e1]; omega

/-- Every entry of window 8's array is in the last point's block. -/
theorem covered6_8 (i : S128x128.Idx) :
    ∃ t : Fin cfg6.N, (cfg6.win 8).flush t = true ∧ i ∈ ((cfg6.win 8).blk t).view.set := by
  have hN : cfg6.N = 10 := N_6
  have h9 : 9 < cfg6.N := by rw [hN]; decide
  refine ⟨⟨9, h9⟩, ?_, ?_⟩
  · rw [hflush6_8]; exact decide_eq_true (by show 9 + 1 = cfg6.N; rw [hN])
  · have h := ((cfg6.win 8).blk ⟨9, h9⟩).view.emb_mem_set i
    rwa [emb6_8] at h

/-- So window 8's array ends holding the accumulator after the last point. -/
theorem arr6_8_eq (c : Dev nD) : (dat6 V c).arrAt 8 cfg6.N = acc6 V c 9 :=
  (dat6 V c).arrAt_eq_of_cover 8 _ (fun t hf => flushed6_8_eq V c t hf) covered6_8

/-- Window 8's array after the region, at graph `g` and feature `d`: the sum over the rows of membership times window
    7's array. -/
theorem arr6_8_apply (c : Dev nD) (g d : Fin 128) :
    ((dat6 V c).arrAt 8 cfg6.N : S128x128.Idx → EReal) (ix2 g d)
      = ∑ n : Fin 50000, ent6_2 V c (ix2 n g) * ((dat6 V c).arrAt 7 cfg6.N : S50000x128.Idx → EReal) (ix2 n d) := by
  rw [arr6_8_eq, arr6_7_eq]
  exact acc6_total V c g d

end Cert.KernelIdeal.Hand

end
-- ==== Proof.KI.Reg7Val.lean ====
import proofs.«408428_j10917806867267_1_alg».proof.Proof.KI.Reg7
import proofs.«408428_j10917806867267_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! # The centring launch's two result arrays, entry by entry, at the ideal values

What the two output arrays hold after the region, as plain arithmetic of the four input arrays as the region finds
them. The row output, at a row and a feature: the feature less the mean of the row's graph (the membership row picks
the graph: a sum over the graphs of membership times mean) times the feature's scale. The matrix output, at a graph and
a feature: the sum over ALL rows of membership times the square of the row output there — accumulated tile by tile
across the grid in the kernel's own buffer, reset at the first point and written back after the last.

First what each control case's stores leave, as payloads; then the accumulation in closed form, by induction on the
point; then the payloads at an entry; then each input block as a restriction of its array, what each point writes back
as a block of one whole-array function, and the covers; last the tiles' sums collapsed into one sum over the rows. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Pieces

/-! ## What each case's pieces leave, as payloads of the buffers' contents

Every store of the body is through the whole of its buffer and every load reads its buffer whole; so what a case's
pieces leave is the payload of the LAST store to that buffer, its loads read at the buffers' contents — a load of the
accumulator after a store to it in the same run reads that store's payload. -/

theorem zeroOffsets7 : (![0, 0] : Fin 2 → Nat) = fun _ => 0 := funext fun a => by fin_cases a <;> rfl

/-- The first point leaves the centred tile in the row output, -/
theorem row7_A_eq (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole) (hc0 : cond7_0 i) (hc1 : ¬cond7_1 i) (x0 : Vec F S5000x128 .f32) (x1 : Vec F S5000x128 .bf16) (x2 : Vec F S128x128 .f32) (x3 : Vec F S1x128 .f32) :
    row7_A c i arg1 harg1 arg2 harg2 arg3 harg3 arg4 harg4 arg5 harg5 arg6 harg6 arg7 harg7 hc0 hc1 x0 x1 x2 x3 = k7_pay3 x1 x2 x0 x3 := by
  unfold row7_A
  rw [View.read_writes_eq_canon _ _ _ (cover7_A_4 c i arg1 harg1 arg2 harg2 arg3 harg3 arg4 harg4 arg5 harg5 arg6 harg6 arg7 harg7 hc0 hc1 x0 x1 x2 x3)]
  unfold kernelRun7_A
  dsimp only
  sl_unfold_words
  rw [View.canon_unit_zero zeroOffsets7]
  simp only [View.readAt_eq_ld, harg1.read_unread, harg2.read_unread, harg3.read_unread, harg4.read_unread, harg7.read_unread,
    View.ld_unit_zero (S := S5000x128) zeroOffsets7, View.ld_unit_zero (S := S128x128) zeroOffsets7, View.ld_unit_zero (S := S1x128) zeroOffsets7]

/-- and in the accumulator the update of its reset. -/
theorem scr7_A_eq (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole) (hc0 : cond7_0 i) (hc1 : ¬cond7_1 i) (x0 : Vec F S5000x128 .f32) (x1 : Vec F S5000x128 .bf16) (x2 : Vec F S128x128 .f32) (x3 : Vec F S1x128 .f32) :
    scr7_A c i arg1 harg1 arg2 harg2 arg3 harg3 arg4 harg4 arg5 harg5 arg6 harg6 arg7 harg7 hc0 hc1 x0 x1 x2 x3 = k7_pay4 x1 x2 x0 x3 k7_pay1 := by
  unfold scr7_A
  rw [View.read_writes_eq_canon _ _ _ (cover7_A_s c i arg1 harg1 arg2 harg2 arg3 harg3 arg4 harg4 arg5 harg5 arg6 harg6 arg7 harg7 hc0 hc1 x0 x1 x2 x3)]
  unfold kernelRun7_A
  dsimp only
  sl_unfold_words
  rw [View.canon_cons_unit_zero (S := S128x128) zeroOffsets7, View.readCov_unit_zero (S := S128x128) _ zeroOffsets7]
  simp only [View.readAt_eq_ld, harg1.read_unread, harg2.read_unread, harg3.read_unread, harg4.read_unread, harg7.read_unread,
    View.ld_unit_zero (S := S5000x128) zeroOffsets7, View.ld_unit_zero (S := S128x128) zeroOffsets7, View.ld_unit_zero (S := S1x128) zeroOffsets7]

/-- A middle point leaves the centred tile in the row output, -/
theorem row7_B_eq (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole) (hc0 : ¬cond7_0 i) (hc1 : ¬cond7_1 i) (x0 : Vec F S5000x128 .f32) (x1 : Vec F S5000x128 .bf16) (x2 : Vec F S128x128 .f32) (x3 : Vec F S1x128 .f32) (s : Vec F S128x128 .f32) :
    row7_B c i arg1 harg1 arg2 harg2 arg3 harg3 arg4 harg4 arg5 harg5 arg6 harg6 arg7 harg7 hc0 hc1 x0 x1 x2 x3 s = k7_pay3 x1 x2 x0 x3 := by
  unfold row7_B
  rw [View.read_writes_eq_canon _ _ _ (cover7_B_4 c i arg1 harg1 arg2 harg2 arg3 harg3 arg4 harg4 arg5 harg5 arg6 harg6 arg7 harg7 hc0 hc1 x0 x1 x2 x3 s)]
  unfold kernelRun7_B
  dsimp only
  sl_unfold_words
  rw [View.canon_unit_zero zeroOffsets7]
  simp only [View.readAt_eq_ld, harg1.read_unread, harg2.read_unread, harg3.read_unread, harg4.read_unread, harg7.read_unread,
    View.ld_unit_zero (S := S5000x128) zeroOffsets7, View.ld_unit_zero (S := S128x128) zeroOffsets7, View.ld_unit_zero (S := S1x128) zeroOffsets7]

/-- and in the accumulator the update of what it held. -/
theorem scr7_B_eq (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole) (hc0 : ¬cond7_0 i) (hc1 : ¬cond7_1 i) (x0 : Vec F S5000x128 .f32) (x1 : Vec F S5000x128 .bf16) (x2 : Vec F S128x128 .f32) (x3 : Vec F S1x128 .f32) (s : Vec F S128x128 .f32) :
    scr7_B c i arg1 harg1 arg2 harg2 arg3 harg3 arg4 harg4 arg5 harg5 arg6 harg6 arg7 harg7 hc0 hc1 x0 x1 x2 x3 s = k7_pay4 x1 x2 x0 x3 s := by
  unfold scr7_B
  rw [View.read_writes_eq_canon _ _ _ (cover7_B_s c i arg1 harg1 arg2 harg2 arg3 harg3 arg4 harg4 arg5 harg5 arg6 harg6 arg7 harg7 hc0 hc1 x0 x1 x2 x3 s)]
  unfold kernelRun7_B
  dsimp only
  sl_unfold_words
  rw [View.canon_unit_zero zeroOffsets7]
  simp only [View.readAt_eq_ld, harg1.read_unread, harg2.read_unread, harg3.read_unread, harg4.read_unread, harg7.read_unread,
    View.ld_unit_zero (S := S5000x128) zeroOffsets7, View.ld_unit_zero (S := S128x128) zeroOffsets7, View.ld_unit_zero (S := S1x128) zeroOffsets7]

/-- The last point leaves the centred tile in the row output, -/
theorem row7_C_eq (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole) (hc0 : ¬cond7_0 i) (hc1 : cond7_1 i) (x0 : Vec F S5000x128 .f32) (x1 : Vec F S5000x128 .bf16) (x2 : Vec F S128x128 .f32) (x3 : Vec F S1x128 .f32) (s : Vec F S128x128 .f32) :
    row7_C c i arg1 harg1 arg2 harg2 arg3 harg3 arg4 harg4 arg5 harg5 arg6 harg6 arg7 harg7 hc0 hc1 x0 x1 x2 x3 s = k7_pay3 x1 x2 x0 x3 := by
  unfold row7_C
  rw [View.read_writes_eq_canon _ _ _ (cover7_C_4 c i arg1 harg1 arg2 harg2 arg3 harg3 arg4 harg4 arg5 harg5 arg6 harg6 arg7 harg7 hc0 hc1 x0 x1 x2 x3 s)]
  unfold kernelRun7_C
  dsimp only
  sl_unfold_words
  rw [View.canon_unit_zero zeroOffsets7]
  simp only [View.readAt_eq_ld, harg1.read_unread, harg2.read_unread, harg3.read_unread, harg4.read_unread, harg7.read_unread,
    View.ld_unit_zero (S := S5000x128) zeroOffsets7, View.ld_unit_zero (S := S128x128) zeroOffsets7, View.ld_unit_zero (S := S1x128) zeroOffsets7]

/-- in the matrix output the accumulator's update, read back after it is stored, -/
theorem mat7_C_eq (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole) (hc0 : ¬cond7_0 i) (hc1 : cond7_1 i) (x0 : Vec F S5000x128 .f32) (x1 : Vec F S5000x128 .bf16) (x2 : Vec F S128x128 .f32) (x3 : Vec F S1x128 .f32) (s : Vec F S128x128 .f32) :
    mat7_C c i arg1 harg1 arg2 harg2 arg3 harg3 arg4 harg4 arg5 harg5 arg6 harg6 arg7 harg7 hc0 hc1 x0 x1 x2 x3 s = k7_pay4 x1 x2 x0 x3 s := by
  unfold mat7_C
  rw [View.read_writes_eq_canon _ _ _ (cover7_C_5 c i arg1 harg1 arg2 harg2 arg3 harg3 arg4 harg4 arg5 harg5 arg6 harg6 arg7 harg7 hc0 hc1 x0 x1 x2 x3 s)]
  unfold kernelRun7_C
  dsimp only
  sl_unfold_words
  rw [View.canon_unit_zero zeroOffsets7, View.readCov_unit_zero (S := S128x128) _ zeroOffsets7]
  simp only [View.readAt_eq_ld, harg1.read_unread, harg2.read_unread, harg3.read_unread, harg4.read_unread, harg7.read_unread,
    View.ld_unit_zero (S := S5000x128) zeroOffsets7, View.ld_unit_zero (S := S128x128) zeroOffsets7, View.ld_unit_zero (S := S1x128) zeroOffsets7]

/-- and in the accumulator that update. -/
theorem scr7_C_eq (c : Dev nD) (i : grid7.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole) (hc0 : ¬cond7_0 i) (hc1 : cond7_1 i) (x0 : Vec F S5000x128 .f32) (x1 : Vec F S5000x128 .bf16) (x2 : Vec F S128x128 .f32) (x3 : Vec F S1x128 .f32) (s : Vec F S128x128 .f32) :
    scr7_C c i arg1 harg1 arg2 harg2 arg3 harg3 arg4 harg4 arg5 harg5 arg6 harg6 arg7 harg7 hc0 hc1 x0 x1 x2 x3 s = k7_pay4 x1 x2 x0 x3 s := by
  unfold scr7_C
  rw [View.read_writes_eq_canon _ _ _ (cover7_C_s c i arg1 harg1 arg2 harg2 arg3 harg3 arg4 harg4 arg5 harg5 arg6 harg6 arg7 harg7 hc0 hc1 x0 x1 x2 x3 s)]
  unfold kernelRun7_C
  dsimp only
  sl_unfold_words
  rw [View.canon_unit_zero zeroOffsets7]
  simp only [View.readAt_eq_ld, harg1.read_unread, harg2.read_unread, harg3.read_unread, harg4.read_unread, harg7.read_unread,
    View.ld_unit_zero (S := S5000x128) zeroOffsets7, View.ld_unit_zero (S := S128x128) zeroOffsets7, View.ld_unit_zero (S := S1x128) zeroOffsets7]

end Pieces

section Chain

variable (V : (c : Dev nD) → (b : Ref sig .tc) → Buf (Elt F) ((c : Thread nD τ).loc b))

/-! ## The accumulation in closed form -/

/-- The four input blocks at point `t`, at their literal types. -/
abbrev featTile7 (c : Dev nD) (t : Fin cfg7.N) : Vec F S5000x128 .f32 := iblk7 V c 0 t
abbrev memberTile7 (c : Dev nD) (t : Fin cfg7.N) : Vec F S5000x128 .bf16 := iblk7 V c 1 t
abbrev meansBlk7 (c : Dev nD) (t : Fin cfg7.N) : Vec F S128x128 .f32 := iblk7 V c 2 t
abbrev scaleBlk7 (c : Dev nD) (t : Fin cfg7.N) : Vec F S1x128 .f32 := iblk7 V c 3 t

/-- The accumulator after position `n`: reset to zero and updated with the first tile, then updated tile by tile. -/
def chain7 (c : Dev nD) : (n : ℕ) → n < cfg7.N → Vec F S128x128 .f32
  | 0, h => k7_pay4 (memberTile7 V c ⟨0, h⟩) (meansBlk7 V c ⟨0, h⟩) (featTile7 V c ⟨0, h⟩) (scaleBlk7 V c ⟨0, h⟩) k7_pay1
  | n + 1, h => k7_pay4 (memberTile7 V c ⟨n + 1, h⟩) (meansBlk7 V c ⟨n + 1, h⟩) (featTile7 V c ⟨n + 1, h⟩) (scaleBlk7 V c ⟨n + 1, h⟩) (chain7 c n (Nat.lt_of_succ_lt h))

/-- What every point leaves: the centred tile in the row output, the accumulator's chain in the accumulator (and in
    the matrix output's component) — by induction on the point, the case read off the position. -/
theorem outs7_eq (c : Dev nD) : ∀ (n : ℕ) (h : n < cfg7.N),
    outs7 V c n h = (k7_pay3 (memberTile7 V c ⟨n, h⟩) (meansBlk7 V c ⟨n, h⟩) (featTile7 V c ⟨n, h⟩) (scaleBlk7 V c ⟨n, h⟩), chain7 V c n h, chain7 V c n h)
  | 0, h => by
    have hc0 : cond7_0 (grid7.coords ⟨0, h⟩) := (hcond7_0 ⟨0, h⟩).mpr rfl
    have hc1 : ¬cond7_1 (grid7.coords ⟨0, h⟩) := fun hh => first_ne_last7 ((hcond7_1 ⟨0, h⟩).mp hh)
    rw [outs7_A V c ⟨0, h⟩ rfl hc0 hc1, row7_A_eq, scr7_A_eq]
    rfl
  | n + 1, h => by
    have hc0 : ¬cond7_0 (grid7.coords ⟨n + 1, h⟩) := fun hh => Nat.succ_ne_zero n ((hcond7_0 ⟨n + 1, h⟩).mp hh)
    by_cases h1 : n + 1 + 1 = cfg7.N
    · have hc1 : cond7_1 (grid7.coords ⟨n + 1, h⟩) := (hcond7_1 ⟨n + 1, h⟩).mpr h1
      rw [outs7_C V c ⟨n + 1, h⟩ (Nat.succ_ne_zero n) h1 hc0 hc1, row7_C_eq, mat7_C_eq, scr7_C_eq]
      show (_, k7_pay4 _ _ _ _ (outs7 V c n _).2.2, k7_pay4 _ _ _ _ (outs7 V c n _).2.2) = _
      rw [outs7_eq c n]
      rfl
    · have hc1 : ¬cond7_1 (grid7.coords ⟨n + 1, h⟩) := fun hh => h1 ((hcond7_1 ⟨n + 1, h⟩).mp hh)
      rw [outs7_B V c ⟨n + 1, h⟩ (Nat.succ_ne_zero n) h1 hc0 hc1, row7_B_eq, scr7_B_eq]
      show (_, k7_pay4 _ _ _ _ (outs7 V c n _).2.2, k7_pay4 _ _ _ _ (outs7 V c n _).2.2) = _
      rw [outs7_eq c n]
      rfl

end Chain

open scoped BigOperators
open Idealize.ShloMosaic.ValueIdx

/-! ## The payloads at an entry, at the ideal values -/

/-- The membership tile times a 128 × 128 matrix, at an entry: the sum over the graphs of the products. -/
theorem memberTimes7_apply (A : FVec Ideal S5000x128 .bf16) (B : FVec Ideal S128x128 .bf16) (p : Fin 5000) (d : Fin 128) :
    matmul dot_S5000x128_S128x128_S5000x128_1_0_0_1_n_n none A B (constant S5000x128 .f32 0x00000000#32) (ix2 p d)
      = ∑ g : Fin 128, A (ix2 p g) * B (ix2 g d) := by
  simp only [matmul]
  rw [Ideal.matmul_constant_zero_apply, ← Equiv.sum_comp (contrEquiv1 dot_S5000x128_S128x128_S5000x128_1_0_0_1_n_n 128 rfl rfl).symm]
  refine Finset.sum_congr rfl fun g _ => ?_
  have cg := contrEquiv1_symm_val dot_S5000x128_S128x128_S5000x128_1_0_0_1_n_n 128 rfl rfl g
  have hl : dot_S5000x128_S128x128_S5000x128_1_0_0_1_n_n.lhsIdx (ix2 p d) ((contrEquiv1 _ 128 rfl rfl).symm g) = ix2 p g := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact cg
  have hr : dot_S5000x128_S128x128_S5000x128_1_0_0_1_n_n.rhsIdx (ix2 p d) ((contrEquiv1 _ 128 rfl rfl).symm g) = ix2 g d := by
    funext ax; apply Fin.ext
    match ax with
    | ⟨0, _⟩ => simp [DotDims.rhsIdx, dot_S5000x128_S128x128_S5000x128_1_0_0_1_n_n]; exact cg
    | ⟨1, _⟩ => simp [DotDims.rhsIdx, dot_S5000x128_S128x128_S5000x128_1_0_0_1_n_n]; rfl
  rw [hl, hr]

/-- The membership tile transposed times a tile of rows, at an entry: the sum over the tile's rows of the products. -/
theorem memberTransposeTimes7_apply (A : FVec Ideal S5000x128 .bf16) (B : FVec Ideal S5000x128 .bf16) (g d : Fin 128) :
    matmul dot_S5000x128_S5000x128_S128x128_0_0_1_1_n_n none A B (constant S128x128 .f32 0x00000000#32) (ix2 g d)
      = ∑ p : Fin 5000, A (ix2 p g) * B (ix2 p d) := by
  simp only [matmul]
  rw [Ideal.matmul_constant_zero_apply, ← Equiv.sum_comp (contrEquiv1 dot_S5000x128_S5000x128_S128x128_0_0_1_1_n_n 5000 rfl rfl).symm]
  refine Finset.sum_congr rfl fun p _ => ?_
  have cp := contrEquiv1_symm_val dot_S5000x128_S5000x128_S128x128_0_0_1_1_n_n 5000 rfl rfl p
  have hl : dot_S5000x128_S5000x128_S128x128_0_0_1_1_n_n.lhsIdx (ix2 g d) ((contrEquiv1 _ 5000 rfl rfl).symm p) = ix2 p g := by
    funext ax; apply Fin.ext
    match ax with
    | ⟨0, _⟩ => simp [DotDims.lhsIdx, dot_S5000x128_S5000x128_S128x128_0_0_1_1_n_n]; exact cp
    | ⟨1, _⟩ => simp [DotDims.lhsIdx, dot_S5000x128_S5000x128_S128x128_0_0_1_1_n_n]; rfl
  have hr : dot_S5000x128_S5000x128_S128x128_0_0_1_1_n_n.rhsIdx (ix2 g d) ((contrEquiv1 _ 5000 rfl rfl).symm p) = ix2 p d := by
    funext ax; apply Fin.ext
    match ax with
    | ⟨0, _⟩ => simp [DotDims.rhsIdx, dot_S5000x128_S5000x128_S128x128_0_0_1_1_n_n]; exact cp
    | ⟨1, _⟩ => simp [DotDims.rhsIdx, dot_S5000x128_S5000x128_S128x128_0_0_1_1_n_n]; rfl
  rw [hl, hr]

/-- The centred tile at row `p`, feature `d`: the feature less its graph's mean (the graph picked by the membership
    row: a sum over the graphs of membership times mean) times the feature's scale. -/
theorem pay7_3_apply (x1 : Vec Ideal S5000x128 .bf16) (x2 : Vec Ideal S128x128 .f32) (x0 : Vec Ideal S5000x128 .f32)
    (x3 : Vec Ideal S1x128 .f32) (p : Fin 5000) (d : Fin 128) :
    (k7_pay3 x1 x2 x0 x3 : S5000x128.Idx → EReal) (ix2 p d)
      = (x0 (ix2 p d) : EReal) - (∑ g : Fin 128, (x1 (ix2 p g) : EReal) * (x2 (ix2 g d) : EReal)) * (x3 (ix2 (0 : Fin 1) d) : EReal) := by
  unfold k7_pay3 k7_pay2
  rw [subf_apply, mulf_apply]
  simp only [shapeCast_self, broadcastTo_1b_ab_apply]
  rw [memberTimes7_apply]
  rfl

/-- The accumulator's update at graph `g`, feature `d`: what it held plus the sum over the tile's rows of membership
    times the square of the centred feature. -/
theorem pay7_4_apply (x1 : Vec Ideal S5000x128 .bf16) (x2 : Vec Ideal S128x128 .f32) (x0 : Vec Ideal S5000x128 .f32)
    (x3 : Vec Ideal S1x128 .f32) (s : Vec Ideal S128x128 .f32) (g d : Fin 128) :
    (k7_pay4 x1 x2 x0 x3 s : S128x128.Idx → EReal) (ix2 g d)
      = (s (ix2 g d) : EReal) + ∑ p : Fin 5000, (x1 (ix2 p g) : EReal)
          * ((k7_pay3 x1 x2 x0 x3 : S5000x128.Idx → EReal) (ix2 p d) * (k7_pay3 x1 x2 x0 x3 : S5000x128.Idx → EReal) (ix2 p d)) := by
  unfold k7_pay4 k7_pay2
  simp only [shapeCast_self]
  rw [addf_apply, memberTransposeTimes7_apply]
  rfl

/-- The accumulator's reset is zero everywhere. -/
theorem pay7_1_apply (i : S128x128.Idx) : (k7_pay1 (F := Ideal) : S128x128.Idx → EReal) i = 0 := by
  unfold k7_pay1
  simp only [shapeCast_self, broadcast_apply]
  rw [Ideal.ofBits_def, Ideal.ofBits_zero_f32]

section Arrays

variable (V : (c : Dev nD) → (b : Ref sig .tc) → Buf (Elt Ideal) ((c : Thread nD τ).loc b))

/-! ## The centred array as one function of the four input arrays -/

/-- Entry `i` = (row, feature) of the centred array, from the whole input arrays: the feature less its graph's mean
    times the feature's scale. -/
def centred7 (X H : S50000x128.Idx → EReal) (M : S128x128.Idx → EReal) (Wv : S1x128.Idx → EReal) : S50000x128.Idx → EReal := fun i =>
  X i - (∑ g : Fin 128, H (ix2 (i 0 : Fin 50000) g) * M (ix2 g (i 1 : Fin 128))) * Wv (ix2 (0 : Fin 1) (i 1 : Fin 128))

/-- The centred tile of blocks that are restrictions of the arrays, at the entry (`p`, `d`) of the block that sits at
    entry `i` of the array, is the centred array there. -/
theorem pay7_3_eq_centred7 (X H : S50000x128.Idx → EReal) (M : S128x128.Idx → EReal) (Wv : S1x128.Idx → EReal)
    (x1 : Vec Ideal S5000x128 .bf16) (x2 : Vec Ideal S128x128 .f32) (x0 : Vec Ideal S5000x128 .f32) (x3 : Vec Ideal S1x128 .f32)
    (p : Fin 5000) (d : Fin 128) (i : S50000x128.Idx)
    (h0 : (x0 (ix2 p d) : EReal) = X i)
    (h1 : ∀ g : Fin 128, (x1 (ix2 p g) : EReal) = H (ix2 (i 0 : Fin 50000) g))
    (h2 : ∀ g : Fin 128, (x2 (ix2 g d) : EReal) = M (ix2 g (i 1 : Fin 128)))
    (h3 : (x3 (ix2 (0 : Fin 1) d) : EReal) = Wv (ix2 (0 : Fin 1) (i 1 : Fin 128))) :
    (k7_pay3 x1 x2 x0 x3 : S5000x128.Idx → EReal) (ix2 p d) = centred7 X H M Wv i := by
  rw [pay7_3_apply, h0, h3]
  unfold centred7
  simp only [h1, h2]

/-! ## From the blocks to the arrays -/

/-- The windows' block indices, decided over the grid: the row tiles move with the point, the means, the scale row and
    the matrix output stay at the origin. -/
theorem blockIndex7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0
    ∧ win7_5.index t (0 : Fin 2) = 0 ∧ win7_5.index t (1 : Fin 2) = 0 :=
  (by decide +kernel : ∀ t : Fin grid7.N, _)

/-- The four input arrays as the region finds them, as functions of their indices. -/
abbrev feats7 (c : Dev nD) : S50000x128.Idx → EReal := V c (Pipeline.arrRef spec7 0)
abbrev member7 (c : Dev nD) : S50000x128.Idx → EReal := V c (Pipeline.arrRef spec7 1)
abbrev means7 (c : Dev nD) : S128x128.Idx → EReal := V c (Pipeline.arrRef spec7 2)
abbrev scale7 (c : Dev nD) : S1x128.Idx → EReal := V c (Pipeline.arrRef spec7 3)

/-- The feature tile at point `t` is rows `5000 t …` of the feature array. -/
theorem featsBlock7_apply (c : Dev nD) (t : Fin cfg7.N) (y : S5000x128.Idx) (k : S50000x128.Idx)
    (hk0 : (k 0).val = 5000 * t.val + (y 0).val) (hk1 : (k 1).val = (y 1).val) :
    ((iblk7 V c 0 t : Vec Ideal S5000x128 .f32) y : EReal) = feats7 V c k := by
  have e0 := (blockIndex7 t).1
  have e1 := (blockIndex7 t).2.1
  unfold iblk7
  rw [View.read_apply]
  show V c (Pipeline.arrRef spec7 0) _ = V c (Pipeline.arrRef spec7 0) _
  congr 1
  funext a
  apply Fin.ext
  match a with
  | ⟨0, _⟩ => show win7_0.index t 0 * 5000 + 1 * (y 0).val = (k 0).val; rw [e0, hk0]; omega
  | ⟨1, _⟩ => show win7_0.index t 1 * 128 + 1 * (y 1).val = (k 1).val; rw [e1, hk1]; omega

/-- The membership tile at point `t` is the same rows of the membership array. -/
theorem memberBlock7_apply (c : Dev nD) (t : Fin cfg7.N) (y : S5000x128.Idx) (k : S50000x128.Idx)
    (hk0 : (k 0).val = 5000 * t.val + (y 0).val) (hk1 : (k 1).val = (y 1).val) :
    ((iblk7 V c 1 t : Vec Ideal S5000x128 .bf16) y : EReal) = member7 V c k := by
  have e0 := (blockIndex7 t).2.2.1
  have e1 := (blockIndex7 t).2.2.2.1
  unfold iblk7
  rw [View.read_apply]
  show V c (Pipeline.arrRef spec7 1) _ = V c (Pipeline.arrRef spec7 1) _
  congr 1
  funext a
  apply Fin.ext
  match a with
  | ⟨0, _⟩ => show win7_1.index t 0 * 5000 + 1 * (y 0).val = (k 0).val; rw [e0, hk0]; omega
  | ⟨1, _⟩ => show win7_1.index t 1 * 128 + 1 * (y 1).val = (k 1).val; rw [e1, hk1]; omega

/-- The means' block is the whole array at every point. -/
theorem meansBlock7_apply (c : Dev nD) (t : Fin cfg7.N) (y : S128x128.Idx) :
    ((iblk7 V c 2 t : Vec Ideal S128x128 .f32) y : EReal) = means7 V c y := by
  have e0 := (blockIndex7 t).2.2.2.2.1
  have e1 := (blockIndex7 t).2.2.2.2.2.1
  unfold iblk7
  rw [View.read_apply]
  show V c (Pipeline.arrRef spec7 2) _ = V c (Pipeline.arrRef spec7 2) _
  congr 1
  funext a
  apply Fin.ext
  match a with
  | ⟨0, _⟩ => show win7_2.index t 0 * 128 + 1 * (y 0).val = (y 0).val; rw [e0]; omega
  | ⟨1, _⟩ => show win7_2.index t 1 * 128 + 1 * (y 1).val = (y 1).val; rw [e1]; omega

/-- The scale row's block is the whole row at every point. -/
theorem scaleBlock7_apply (c : Dev nD) (t : Fin cfg7.N) (y : S1x128.Idx) :
    ((iblk7 V c 3 t : Vec Ideal S1x128 .f32) y : EReal) = scale7 V c y := by
  have e0 := (blockIndex7 t).2.2.2.2.2.2.1
  have e1 := (blockIndex7 t).2.2.2.2.2.2.2.1
  unfold iblk7
  rw [View.read_apply]
  show V c (Pipeline.arrRef spec7 3) _ = V c (Pipeline.arrRef spec7 3) _
  congr 1
  funext a
  apply Fin.ext
  match a with
  | ⟨0, _⟩ => show win7_3.index t 0 * 1 + 1 * (y 0).val = (y 0).val; rw [e0]; omega
  | ⟨1, _⟩ => show win7_3.index t 1 * 128 + 1 * (y 1).val = (y 1).val; rw [e1]; omega

/-- The centred tile of point `t`'s blocks, at an entry, is the centred array at the entry of the array the tile's
    entry sits at. -/
theorem centredTile7_apply (c : Dev nD) (t : Fin cfg7.N) (p : Fin 5000) (d : Fin 128) (i : S50000x128.Idx)
    (hi0 : (i 0).val = 5000 * t.val + p.val) (hi1 : (i 1).val = d.val) :
    (k7_pay3 (iblk7 V c 1 t) (iblk7 V c 2 t) (iblk7 V c 0 t) (iblk7 V c 3 t) : S5000x128.Idx → EReal) (ix2 p d)
      = centred7 (feats7 V c) (member7 V c) (means7 V c) (scale7 V c) i := by
  refine pay7_3_eq_centred7 _ _ _ _ (iblk7 V c 1 t) (iblk7 V c 2 t) (iblk7 V c 0 t) (iblk7 V c 3 t) p d i ?_ ?_ ?_ ?_
  · exact featsBlock7_apply V c t (ix2 p d) i hi0 hi1
  · intro g; exact memberBlock7_apply V c t (ix2 p g) (ix2 (i 0 : Fin 50000) g) hi0 rfl
  · intro g
    rw [meansBlock7_apply]
    exact congrArg (means7 V c) (by funext a; apply Fin.ext; match a with | ⟨0, _⟩ => rfl | ⟨1, _⟩ => exact hi1.symm)
  · rw [scaleBlock7_apply]
    exact congrArg (scale7 V c) (by funext a; apply Fin.ext; match a with | ⟨0, _⟩ => rfl | ⟨1, _⟩ => exact hi1.symm)

/-- What point `t` writes back of the row output is block `t` of the centred array of the entry arrays. -/
theorem flushed7_4_eq (c : Dev nD) (t : Fin cfg7.N) :
    (dat7 V c).flushed 4 t = ((cfg7.win 4).blk t).view.read (Elt Ideal) (centred7 (feats7 V c) (member7 V c) (means7 V c) (scale7 V c)) := by
  show (cfg7.win 4).cut (grid7.coords t) ((dat7 V c).after 4 t) = _
  rw [after7_4, outs7_eq]
  have e0 := (blockIndex7 t).2.2.2.2.2.2.2.2.1
  have e1 := (blockIndex7 t).2.2.2.2.2.2.2.2.2.1
  refine funext fun (j : S5000x128.Idx) => ?_
  obtain ⟨p, d, rfl⟩ : ∃ (p : Fin 5000) (d : Fin 128), j = ix2 p d := ⟨j 0, j 1, eq_ix2 j⟩
  rw [View.read_apply]
  have hi0 : ((((cfg7.win 4).blk t).view.emb (ix2 p d)) 0).val = 5000 * t.val + p.val := by
    show win7_4.index t 0 * 5000 + 1 * p.val = _; rw [e0]; omega
  have hi1 : ((((cfg7.win 4).blk t).view.emb (ix2 p d)) 1).val = d.val := by
    show win7_4.index t 1 * 128 + 1 * d.val = _; rw [e1]; omega
  exact centredTile7_apply V c t p d (((cfg7.win 4).blk t).view.emb (ix2 p d)) hi0 hi1

/-- An entry of the row output's array sits in point `t`'s block as soon as its row is `5000 t` plus a row of the
    block and its feature the block's. -/
theorem mem_block7_4 (t : Fin cfg7.N) (y : S5000x128.Idx) (i : S50000x128.Idx)
    (h0 : (i 0).val = 5000 * t.val + (y 0).val) (h1 : (i 1).val = (y 1).val) :
    i ∈ ((cfg7.win 4).blk t).view.set := by
  have e0 := (blockIndex7 t).2.2.2.2.2.2.2.2.1
  have e1 := (blockIndex7 t).2.2.2.2.2.2.2.2.2.1
  have hy : ((cfg7.win 4).blk t).view.emb y = i := by
    funext a
    apply Fin.ext
    match a with
    | ⟨0, _⟩ => show win7_4.index t 0 * 5000 + 1 * (y 0).val = (i 0).val; rw [e0, h0]; omega
    | ⟨1, _⟩ => show win7_4.index t 1 * 128 + 1 * (y 1).val = (i 1).val; rw [e1, h1]; omega
  subst hy
  exact ((cfg7.win 4).blk t).view.emb_mem_set y

/-- Every entry of that array is in the block of the point its row falls in. -/
theorem covered7_4 (i : S50000x128.Idx) :
    ∃ t : Fin cfg7.N, (cfg7.win 4).flush t = true ∧ i ∈ ((cfg7.win 4).blk t).view.set := by
  have h0 : (i 0).val < 50000 := (i 0).isLt
  have hN : cfg7.N = 10 := N_7
  have ht : (i 0).val / 5000 < cfg7.N := by rw [hN]; omega
  refine ⟨⟨(i 0).val / 5000, ht⟩, flush7_4 _,
    mem_block7_4 ⟨(i 0).val / 5000, ht⟩ (ix2 (⟨(i 0).val % 5000, Nat.mod_lt _ (by decide)⟩ : Fin 5000) (i 1 : Fin 128)) i ?_ rfl⟩
  show (i 0).val = 5000 * ((i 0).val / 5000) + (i 0).val % 5000
  omega

/-- So the row output's array ends holding the centred array of the entry arrays. -/
theorem arr7_4_eq (c : Dev nD) :
    (dat7 V c).arrAt 4 cfg7.N = centred7 (feats7 V c) (member7 V c) (means7 V c) (scale7 V c) :=
  (dat7 V c).arrAt_eq_of_cover 4 _ (fun t _ => flushed7_4_eq V c t) covered7_4

/-! ## The matrix output: the sum over all rows of membership times the squared centred feature -/

/-- The two output arrays after the region, at their literal types. -/
abbrev rowOut7 (c : Dev nD) : S50000x128.Idx → EReal := (dat7 V c).arrAt 4 cfg7.N
abbrev matOut7 (c : Dev nD) : S128x128.Idx → EReal := (dat7 V c).arrAt 5 cfg7.N

/-- The term of row `n`: its membership of graph `g` times the square of its centred feature `d`. -/
def sqTerm7 (c : Dev nD) (g d : Fin 128) (n : Fin 50000) : EReal :=
  member7 V c (ix2 n g) * (centred7 (feats7 V c) (member7 V c) (means7 V c) (scale7 V c) (ix2 n d) * centred7 (feats7 V c) (member7 V c) (means7 V c) (scale7 V c) (ix2 n d))

/-- The update of point `t`, in terms of the arrays: the sum of the terms of the tile's rows. -/
theorem tileUpdate7 (c : Dev nD) (t : Fin cfg7.N) (g d : Fin 128) (ht : t.val < 10) :
    (∑ p : Fin 5000, (memberTile7 V c t (ix2 p g) : EReal)
        * ((k7_pay3 (memberTile7 V c t) (meansBlk7 V c t) (featTile7 V c t) (scaleBlk7 V c t) : S5000x128.Idx → EReal) (ix2 p d)
          * (k7_pay3 (memberTile7 V c t) (meansBlk7 V c t) (featTile7 V c t) (scaleBlk7 V c t) : S5000x128.Idx → EReal) (ix2 p d)))
      = ∑ r : Fin 5000, sqTerm7 V c g d ⟨t.val * 5000 + r.val, by have := r.isLt; omega⟩ := by
  refine Finset.sum_congr rfl fun p _ => ?_
  have hrow : t.val * 5000 + p.val < 50000 := by have := p.isLt; omega
  unfold sqTerm7
  rw [centredTile7_apply V c t p d (ix2 (⟨t.val * 5000 + p.val, hrow⟩ : Fin 50000) d) (by show t.val * 5000 + p.val = 5000 * t.val + p.val; omega) rfl]
  exact congrArg (· * _) (memberBlock7_apply V c t (ix2 p g) (ix2 (⟨t.val * 5000 + p.val, hrow⟩ : Fin 50000) g) (by show t.val * 5000 + p.val = 5000 * t.val + p.val; omega) rfl)

/-- The accumulator after position `n`, at an entry: the sum over the tiles up to `n` of their rows' terms. -/
theorem chain7_apply (c : Dev nD) (g d : Fin 128) : ∀ (n : ℕ) (h : n < cfg7.N),
    (chain7 V c n h : S128x128.Idx → EReal) (ix2 g d)
      = ∑ t' ∈ Finset.univ.filter (fun t' : Fin 10 => t'.val < n + 1),
          ∑ r : Fin 5000, sqTerm7 V c g d ⟨t'.val * 5000 + r.val, by have := t'.isLt; have := r.isLt; omega⟩
  | 0, h => by
    rw [Cert.Spec.tiles_lt_succ _ 0 (by decide), Cert.Spec.tiles_lt_zero, zero_add, chain7, pay7_4_apply, pay7_1_apply, zero_add]
    exact tileUpdate7 V c ⟨0, h⟩ g d (Nat.zero_lt_succ 9)
  | n + 1, h => by
    have hN : cfg7.N = 10 := N_7
    have hn : n + 1 < 10 := by rw [← hN]; exact h
    rw [Cert.Spec.tiles_lt_succ _ (n + 1) hn, chain7, pay7_4_apply, chain7_apply c g d n]
    exact congrArg _ (tileUpdate7 V c ⟨n + 1, h⟩ g d hn)

/-- The last position. -/
theorem lastPos7 : 9 < cfg7.N := by rw [show cfg7.N = 10 from N_7]; decide

/-- What the one write-back of the matrix output writes — at the last point, whose block is the whole array — is the
    accumulator's chain after the last point. -/
theorem flushed7_5_eq (c : Dev nD) (t : Fin cfg7.N) (hf : (cfg7.win 5).flush t = true) :
    (dat7 V c).flushed 5 t = ((cfg7.win 5).blk t).view.read (Elt Ideal) (chain7 V c 9 lastPos7) := by
  have hN : cfg7.N = 10 := N_7
  have h9 : t.val = 9 := by have := (flush7_5 t).mp hf; have := t.isLt; omega
  obtain rfl : t = ⟨9, lastPos7⟩ := Fin.ext h9
  show (cfg7.win 5).cut (grid7.coords ⟨9, lastPos7⟩) ((dat7 V c).after 5 ⟨9, lastPos7⟩) = _
  rw [after7_5, outs7_eq]
  have e0 := (blockIndex7 ⟨9, lastPos7⟩).2.2.2.2.2.2.2.2.2.2.1
  have e1 := (blockIndex7 ⟨9, lastPos7⟩).2.2.2.2.2.2.2.2.2.2.2
  refine funext fun (j : S128x128.Idx) => ?_
  rw [View.read_apply]
  show (chain7 V c 9 lastPos7 : S128x128.Idx → EReal) j = (chain7 V c 9 lastPos7 : S128x128.Idx → EReal) _
  congr 1
  funext a
  apply Fin.ext
  match a with
  | ⟨0, _⟩ => show (j 0).val = win7_5.index ⟨9, lastPos7⟩ 0 * 128 + 1 * (j 0).val; rw [e0]; omega
  | ⟨1, _⟩ => show (j 1).val = win7_5.index ⟨9, lastPos7⟩ 1 * 128 + 1 * (j 1).val; rw [e1]; omega

/-- Every entry of the matrix output's array is in the last point's block. -/
theorem covered7_5 (i : S128x128.Idx) :
    ∃ t : Fin cfg7.N, (cfg7.win 5).flush t = true ∧ i ∈ ((cfg7.win 5).blk t).view.set := by
  have e0 := (blockIndex7 ⟨9, lastPos7⟩).2.2.2.2.2.2.2.2.2.2.1
  have e1 := (blockIndex7 ⟨9, lastPos7⟩).2.2.2.2.2.2.2.2.2.2.2
  refine ⟨⟨9, lastPos7⟩, (flush7_5 _).mpr rfl, ?_⟩
  have hy : ((cfg7.win 5).blk ⟨9, lastPos7⟩).view.emb i = i := by
    funext a
    apply Fin.ext
    match a with
    | ⟨0, _⟩ => show win7_5.index ⟨9, lastPos7⟩ 0 * 128 + 1 * (i 0).val = (i 0).val; rw [e0]; omega
    | ⟨1, _⟩ => show win7_5.index ⟨9, lastPos7⟩ 1 * 128 + 1 * (i 1).val = (i 1).val; rw [e1]; omega
  have := ((cfg7.win 5).blk ⟨9, lastPos7⟩).view.emb_mem_set i
  rw [hy] at this
  exact this

/-- So the matrix output's array ends holding the accumulator's chain after the last point. -/
theorem arr7_5_eq (c : Dev nD) : (dat7 V c).arrAt 5 cfg7.N = chain7 V c 9 lastPos7 :=
  (dat7 V c).arrAt_eq_of_cover 5 _ (flushed7_5_eq V c) covered7_5

/-- The row output's array after the region, at row `n` and feature `d`, in plain arithmetic of the entry arrays. -/
theorem arr7_4_apply (c : Dev nD) (n : Fin 50000) (d : Fin 128) :
    rowOut7 V c (ix2 n d)
      = feats7 V c (ix2 n d) - (∑ g : Fin 128, member7 V c (ix2 n g) * means7 V c (ix2 g d)) * scale7 V c (ix2 (0 : Fin 1) d) := by
  have h4 : rowOut7 V c = centred7 (feats7 V c) (member7 V c) (means7 V c) (scale7 V c) := arr7_4_eq V c
  rw [h4]; rfl

/-- The matrix output's array after the region, at graph `g` and feature `d`: the sum over all rows of membership
    times the square of the row output's entry. -/
theorem arr7_5_apply (c : Dev nD) (g d : Fin 128) :
    matOut7 V c (ix2 g d)
      = ∑ n : Fin 50000, member7 V c (ix2 n g) * (rowOut7 V c (ix2 n d) * rowOut7 V c (ix2 n d)) := by
  have h4 : rowOut7 V c = centred7 (feats7 V c) (member7 V c) (means7 V c) (scale7 V c) := arr7_4_eq V c
  have h5 : matOut7 V c = (chain7 V c 9 lastPos7 : S128x128.Idx → EReal) := arr7_5_eq V c
  rw [h5, h4, chain7_apply V c g d 9 lastPos7, Cert.Spec.tiles_lt_all, Cert.Spec.tile_sum (sqTerm7 V c g d)]
  rfl

end Arrays

end Cert.KernelIdeal.Hand

end
-- ==== Proof.KI.Reg8Val.lean ====
import proofs.«408428_j10917806867267_1_alg».proof.Proof.KI.Reg8
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! # The normalising launch's result array, entry by entry, at the ideal values

What the output array holds after the region, read at a row and a feature, as plain arithmetic of the five input
arrays as the region finds them: the feature times its scale, divided by the root of the variance of the row's graph
plus a constant (the membership row picks the graph: a sum over the graphs of membership times variance), plus its
shift, cut off below at zero. First the payload at an entry; then each input block as a restriction of its array,
what each point writes back as a block of one whole-array function, and the cover of the array by the blocks. -/

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The payload at an entry -/

/-- The small constant added under the root. -/
abbrev eps8 : EReal := Ideal.ofBits .f32 0x3727C5AC#32

/-- The membership tile times the variances, at an entry: the sum over the graphs of the products. -/
theorem onehotTimes8_apply (A : FVec Ideal S5000x128 .bf16) (B : FVec Ideal S128x128 .bf16) (p : Fin 5000) (d : Fin 128) :
    matmul dot_S5000x128_S128x128_S5000x128_1_0_0_1_n_n none A B (constant S5000x128 .f32 0x00000000#32) (ix2 p d)
      = ∑ g : Fin 128, A (ix2 p g) * B (ix2 g d) := by
  simp only [matmul]
  rw [Ideal.matmul_constant_zero_apply, ← Equiv.sum_comp (contrEquiv1 dot_S5000x128_S128x128_S5000x128_1_0_0_1_n_n 128 rfl rfl).symm]
  refine Finset.sum_congr rfl fun g _ => ?_
  have cg := contrEquiv1_symm_val dot_S5000x128_S128x128_S5000x128_1_0_0_1_n_n 128 rfl rfl g
  have hl : dot_S5000x128_S128x128_S5000x128_1_0_0_1_n_n.lhsIdx (ix2 p d) ((contrEquiv1 _ 128 rfl rfl).symm g) = ix2 p g := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact cg
  have hr : dot_S5000x128_S128x128_S5000x128_1_0_0_1_n_n.rhsIdx (ix2 p d) ((contrEquiv1 _ 128 rfl rfl).symm g) = ix2 g d := by
    funext ax; apply Fin.ext
    match ax with
    | ⟨0, _⟩ => simp [DotDims.rhsIdx, dot_S5000x128_S128x128_S5000x128_1_0_0_1_n_n]; exact cg
    | ⟨1, _⟩ => simp [DotDims.rhsIdx, dot_S5000x128_S128x128_S5000x128_1_0_0_1_n_n]; rfl
  rw [hl, hr]

/-- The payload at row `p`, feature `d`: the feature scaled, divided by the root of its graph's variance plus the
    constant (the graph picked by the membership row), shifted, and cut off below at zero. -/
theorem pay8_apply (x1 : Vec Ideal S5000x128 .bf16) (x2 : Vec Ideal S128x128 .f32) (x3 : Vec Ideal S1x128 .f32)
    (x0 : Vec Ideal S5000x128 .f32) (x4 : Vec Ideal S1x128 .f32) (p : Fin 5000) (d : Fin 128) :
    (k8_pay1 x1 x2 x3 x0 x4 : S5000x128.Idx → EReal) (ix2 p d)
      = max ((x3 (ix2 (0 : Fin 1) d) : EReal) * (x0 (ix2 p d) : EReal)
              * Ideal.rsqrt ((∑ g : Fin 128, (x1 (ix2 p g) : EReal) * (x2 (ix2 g d) : EReal)) + eps8)
            + (x4 (ix2 (0 : Fin 1) d) : EReal)) 0 := by
  unfold k8_pay1
  rw [maximumf_apply, addf_apply, mulf_apply, mulf_apply]
  simp only [shapeCast_self, broadcastTo_1b_ab_apply, broadcast_apply]
  rw [show ∀ (v : FVec Ideal S5000x128 .f32) (i : S5000x128.Idx), rsqrt v i = Ideal.rsqrt (v i) from fun _ _ => rfl,
    addf_apply, broadcast_apply, onehotTimes8_apply, Ideal.ofBits_def, Ideal.ofBits_def, Ideal.ofBits_zero_f32]
  rfl

/-! ## The normalised array as one function of the five input arrays -/

/-- Entry `i` = (row, feature) of the result, from the whole input arrays. -/
def normalized8 (X H : S50000x128.Idx → EReal) (Vr : S128x128.Idx → EReal) (Wv Bv : S1x128.Idx → EReal) :
    S50000x128.Idx → EReal := fun i =>
  max (Wv (ix2 (0 : Fin 1) (i 1 : Fin 128)) * X i
        * Ideal.rsqrt ((∑ g : Fin 128, H (ix2 (i 0 : Fin 50000) g) * Vr (ix2 g (i 1 : Fin 128))) + eps8)
      + Bv (ix2 (0 : Fin 1) (i 1 : Fin 128))) 0

/-- The payload of blocks that are restrictions of the arrays, at the entry (`p`, `d`) of the block that sits at entry
    `i` of the array, is the normalised array there. -/
theorem pay8_eq_normalized8 (X H : S50000x128.Idx → EReal) (Vr : S128x128.Idx → EReal) (Wv Bv : S1x128.Idx → EReal)
    (x1 : Vec Ideal S5000x128 .bf16) (x2 : Vec Ideal S128x128 .f32) (x3 : Vec Ideal S1x128 .f32)
    (x0 : Vec Ideal S5000x128 .f32) (x4 : Vec Ideal S1x128 .f32) (p : Fin 5000) (d : Fin 128) (i : S50000x128.Idx)
    (h0 : (x0 (ix2 p d) : EReal) = X i)
    (h1 : ∀ g : Fin 128, (x1 (ix2 p g) : EReal) = H (ix2 (i 0 : Fin 50000) g))
    (h2 : ∀ g : Fin 128, (x2 (ix2 g d) : EReal) = Vr (ix2 g (i 1 : Fin 128)))
    (h3 : (x3 (ix2 (0 : Fin 1) d) : EReal) = Wv (ix2 (0 : Fin 1) (i 1 : Fin 128)))
    (h4 : (x4 (ix2 (0 : Fin 1) d) : EReal) = Bv (ix2 (0 : Fin 1) (i 1 : Fin 128))) :
    (k8_pay1 x1 x2 x3 x0 x4 : S5000x128.Idx → EReal) (ix2 p d) = normalized8 X H Vr Wv Bv i := by
  rw [pay8_apply, h0, h3, h4]
  unfold normalized8
  simp only [h1, h2]

/-! ## From the blocks to the array -/

theorem zeroOffsets8 : (![0, 0] : Fin 2 → Nat) = fun _ => 0 := funext fun a => by fin_cases a <;> rfl

/-- The output buffer after the body is the payload of the five input buffers: the single store is the whole buffer
    and every load reads its buffer whole. -/
theorem out8_5_eq (x0 : Vec Ideal S5000x128 .f32) (x1 : Vec Ideal S5000x128 .bf16) (x2 : Vec Ideal S128x128 .f32)
    (x3 : Vec Ideal S1x128 .f32) (x4 : Vec Ideal S1x128 .f32) :
    out8_5 x0 x1 x2 x3 x4 = (k8_pay1 x1 x2 x3 x0 x4 : Vec Ideal S5000x128 .f32) := by
  unfold out8_5
  rw [View.canon_unit_zero zeroOffsets8]
  simp only [View.ld_unit_zero (S := S5000x128) zeroOffsets8, View.ld_unit_zero (S := S128x128) zeroOffsets8,
    View.ld_unit_zero (S := S1x128) zeroOffsets8]

/-- The windows' block indices, decided over the grid: the row tiles move with the point, the variances and the two
    rows stay at the origin. -/
theorem blockIndex8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- The five input arrays as the region finds them, as functions of their indices. -/
abbrev feats8 (c : Dev nD) : S50000x128.Idx → EReal := V c (Pipeline.arrRef spec8 0)
abbrev member8 (c : Dev nD) : S50000x128.Idx → EReal := V c (Pipeline.arrRef spec8 1)
abbrev vars8 (c : Dev nD) : S128x128.Idx → EReal := V c (Pipeline.arrRef spec8 2)
abbrev scale8 (c : Dev nD) : S1x128.Idx → EReal := V c (Pipeline.arrRef spec8 3)
abbrev shift8 (c : Dev nD) : S1x128.Idx → EReal := V c (Pipeline.arrRef spec8 4)

/-- The feature tile at point `t` is rows `5000 t …` of the feature array. -/
theorem featsBlock8_apply (c : Dev nD) (t : Fin cfg8.N) (y : S5000x128.Idx) (k : S50000x128.Idx)
    (hk0 : (k 0).val = 5000 * t.val + (y 0).val) (hk1 : (k 1).val = (y 1).val) :
    ((iblk8 V c 0 t : Vec Ideal S5000x128 .f32) y : EReal) = feats8 V c k := by
  obtain ⟨e0, e1, -⟩ := blockIndex8 t
  unfold iblk8
  rw [View.read_apply]
  show V c (Pipeline.arrRef spec8 0) _ = V c (Pipeline.arrRef spec8 0) _
  congr 1
  funext a
  apply Fin.ext
  match a with
  | ⟨0, _⟩ => show win8_0.index t 0 * 5000 + 1 * (y 0).val = (k 0).val; rw [e0, hk0]; omega
  | ⟨1, _⟩ => show win8_0.index t 1 * 128 + 1 * (y 1).val = (k 1).val; rw [e1, hk1]; omega

/-- The membership tile at point `t` is the same rows of the membership array. -/
theorem memberBlock8_apply (c : Dev nD) (t : Fin cfg8.N) (y : S5000x128.Idx) (k : S50000x128.Idx)
    (hk0 : (k 0).val = 5000 * t.val + (y 0).val) (hk1 : (k 1).val = (y 1).val) :
    ((iblk8 V c 1 t : Vec Ideal S5000x128 .bf16) y : EReal) = member8 V c k := by
  obtain ⟨-, -, e0, e1, -⟩ := blockIndex8 t
  unfold iblk8
  rw [View.read_apply]
  show V c (Pipeline.arrRef spec8 1) _ = V c (Pipeline.arrRef spec8 1) _
  congr 1
  funext a
  apply Fin.ext
  match a with
  | ⟨0, _⟩ => show win8_1.index t 0 * 5000 + 1 * (y 0).val = (k 0).val; rw [e0, hk0]; omega
  | ⟨1, _⟩ => show win8_1.index t 1 * 128 + 1 * (y 1).val = (k 1).val; rw [e1, hk1]; omega

/-- The variances' block is the whole array at every point. -/
theorem varsBlock8_apply (c : Dev nD) (t : Fin cfg8.N) (y : S128x128.Idx) :
    ((iblk8 V c 2 t : Vec Ideal S128x128 .f32) y : EReal) = vars8 V c y := by
  obtain ⟨-, -, -, -, e0, e1, -⟩ := blockIndex8 t
  unfold iblk8
  rw [View.read_apply]
  show V c (Pipeline.arrRef spec8 2) _ = V c (Pipeline.arrRef spec8 2) _
  congr 1
  funext a
  apply Fin.ext
  match a with
  | ⟨0, _⟩ => show win8_2.index t 0 * 128 + 1 * (y 0).val = (y 0).val; rw [e0]; omega
  | ⟨1, _⟩ => show win8_2.index t 1 * 128 + 1 * (y 1).val = (y 1).val; rw [e1]; omega

/-- The scale row's block is the whole row at every point. -/
theorem scaleBlock8_apply (c : Dev nD) (t : Fin cfg8.N) (y : S1x128.Idx) :
    ((iblk8 V c 3 t : Vec Ideal S1x128 .f32) y : EReal) = scale8 V c y := by
  obtain ⟨-, -, -, -, -, -, e0, e1, -⟩ := blockIndex8 t
  unfold iblk8
  rw [View.read_apply]
  show V c (Pipeline.arrRef spec8 3) _ = V c (Pipeline.arrRef spec8 3) _
  congr 1
  funext a
  apply Fin.ext
  match a with
  | ⟨0, _⟩ => show win8_3.index t 0 * 1 + 1 * (y 0).val = (y 0).val; rw [e0]; omega
  | ⟨1, _⟩ => show win8_3.index t 1 * 128 + 1 * (y 1).val = (y 1).val; rw [e1]; omega

/-- The shift row's block is the whole row at every point. -/
theorem shiftBlock8_apply (c : Dev nD) (t : Fin cfg8.N) (y : S1x128.Idx) :
    ((iblk8 V c 4 t : Vec Ideal S1x128 .f32) y : EReal) = shift8 V c y := by
  obtain ⟨-, -, -, -, -, -, -, -, e0, e1, -⟩ := blockIndex8 t
  unfold iblk8
  rw [View.read_apply]
  show V c (Pipeline.arrRef spec8 4) _ = V c (Pipeline.arrRef spec8 4) _
  congr 1
  funext a
  apply Fin.ext
  match a with
  | ⟨0, _⟩ => show win8_4.index t 0 * 1 + 1 * (y 0).val = (y 0).val; rw [e0]; omega
  | ⟨1, _⟩ => show win8_4.index t 1 * 128 + 1 * (y 1).val = (y 1).val; rw [e1]; omega

/-- What point `t` writes back is block `t` of the normalised array of the entry arrays. -/
theorem flushed8_5_eq (c : Dev nD) (t : Fin cfg8.N) :
    (dat8 V c).flushed 5 t = ((cfg8.win 5).blk t).view.read (Elt Ideal)
      (normalized8 (feats8 V c) (member8 V c) (vars8 V c) (scale8 V c) (shift8 V c)) := by
  show (cfg8.win 5).cut (grid8.coords t) ((dat8 V c).after 5 t) = _
  rw [after8_5, out8_5_eq]
  obtain ⟨-, -, -, -, -, -, -, -, -, -, e0, e1⟩ := blockIndex8 t
  refine funext fun (j : S5000x128.Idx) => ?_
  obtain ⟨p, d, rfl⟩ : ∃ (p : Fin 5000) (d : Fin 128), j = ix2 p d := ⟨j 0, j 1, eq_ix2 j⟩
  rw [View.read_apply]
  have hi0 : ((((cfg8.win 5).blk t).view.emb (ix2 p d)) 0).val = 5000 * t.val + p.val := by
    show win8_5.index t 0 * 5000 + 1 * p.val = _; rw [e0]; omega
  have hi1 : ((((cfg8.win 5).blk t).view.emb (ix2 p d)) 1).val = d.val := by
    show win8_5.index t 1 * 128 + 1 * d.val = _; rw [e1]; omega
  refine pay8_eq_normalized8 _ _ _ _ _ (iblk8 V c 1 t) (iblk8 V c 2 t) (iblk8 V c 3 t) (iblk8 V c 0 t) (iblk8 V c 4 t) p d
    (((cfg8.win 5).blk t).view.emb (ix2 p d)) ?_ ?_ ?_ ?_ ?_
  · exact featsBlock8_apply V c t (ix2 p d) _ hi0 hi1
  · intro g; exact memberBlock8_apply V c t _ _ hi0 rfl
  · intro g
    rw [varsBlock8_apply]
    exact congrArg (vars8 V c) (by funext a; apply Fin.ext; match a with | ⟨0, _⟩ => rfl | ⟨1, _⟩ => exact hi1.symm)
  · rw [scaleBlock8_apply]
    exact congrArg (scale8 V c) (by funext a; apply Fin.ext; match a with | ⟨0, _⟩ => rfl | ⟨1, _⟩ => exact hi1.symm)
  · rw [shiftBlock8_apply]
    exact congrArg (shift8 V c) (by funext a; apply Fin.ext; match a with | ⟨0, _⟩ => rfl | ⟨1, _⟩ => exact hi1.symm)

/-- An entry of the array sits in point `t`'s block as soon as its row is `5000 t` plus a row of the block and its
    feature the block's: it is the image of that block entry. -/
theorem mem_block8_5 (t : Fin cfg8.N) (y : S5000x128.Idx) (i : S50000x128.Idx)
    (h0 : (i 0).val = 5000 * t.val + (y 0).val) (h1 : (i 1).val = (y 1).val) :
    i ∈ ((cfg8.win 5).blk t).view.set := by
  obtain ⟨-, -, -, -, -, -, -, -, -, -, e0, e1⟩ := blockIndex8 t
  have hy : ((cfg8.win 5).blk t).view.emb y = i := by
    funext a
    apply Fin.ext
    match a with
    | ⟨0, _⟩ => show win8_5.index t 0 * 5000 + 1 * (y 0).val = (i 0).val; rw [e0, h0]; omega
    | ⟨1, _⟩ => show win8_5.index t 1 * 128 + 1 * (y 1).val = (i 1).val; rw [e1, h1]; omega
  subst hy
  exact ((cfg8.win 5).blk t).view.emb_mem_set y

/-- Every entry of the array is in the block of the point its row falls in. -/
theorem covered8_5 (i : S50000x128.Idx) :
    ∃ t : Fin cfg8.N, (cfg8.win 5).flush t = true ∧ i ∈ ((cfg8.win 5).blk t).view.set := by
  have h0 : (i 0).val < 50000 := (i 0).isLt
  have hN : cfg8.N = 10 := N_8
  have ht : (i 0).val / 5000 < cfg8.N := by rw [hN]; omega
  refine ⟨⟨(i 0).val / 5000, ht⟩, flush8_5 _,
    mem_block8_5 ⟨(i 0).val / 5000, ht⟩ (ix2 (⟨(i 0).val % 5000, Nat.mod_lt _ (by decide)⟩ : Fin 5000) (i 1 : Fin 128)) i ?_ rfl⟩
  show (i 0).val = 5000 * ((i 0).val / 5000) + (i 0).val % 5000
  omega

/-- So the output array ends holding the normalised array of the entry arrays. -/
theorem arr8_5_eq (c : Dev nD) :
    (dat8 V c).arrAt 5 cfg8.N = normalized8 (feats8 V c) (member8 V c) (vars8 V c) (scale8 V c) (shift8 V c) :=
  (dat8 V c).arrAt_eq_of_cover 5 _ (fun t _ => flushed8_5_eq V c t) covered8_5

/-- The output array after the region, at row `n` and feature `d`, in plain arithmetic of the entry arrays. -/
theorem arr8_5_apply (c : Dev nD) (n : Fin 50000) (d : Fin 128) :
    ((dat8 V c).arrAt 5 cfg8.N : S50000x128.Idx → EReal) (ix2 n d)
      = max (scale8 V c (ix2 (0 : Fin 1) d) * feats8 V c (ix2 n d)
              * Ideal.rsqrt ((∑ g : Fin 128, member8 V c (ix2 n g) * vars8 V c (ix2 g d)) + eps8)
            + shift8 V c (ix2 (0 : Fin 1) d)) 0 := by
  rw [arr8_5_eq]; rfl

end Cert.KernelIdeal.Hand
-- ==== Proof.KI.Reg9Val.lean ====
import proofs.«408428_j10917806867267_1_alg».proof.Proof.KI.Reg9
import proofs.«408428_j10917806867267_1_alg».proof.Proof.Spec2
import proofs.«408428_j10917806867267_1_alg».proof.Proof.Consts
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! # The first launch's two result arrays, entry by entry, at the ideal values

What the two output arrays hold after the region, as plain arithmetic of the seven input arrays as the region finds them.
Window 7's array is the two-layer perceptron of each row plus its aggregate. Window 8's array is, per graph and feature,
the sum over all rows of the row's membership in the graph times that output: the accumulator starts at zero, each point
adds its tile's term, and the ten tiles of 5000 rows are the 50000 rows. First the payloads at an entry; then each input
block as a restriction of its array, what each point writes back as a block of one whole-array function, the cover of
the arrays by the blocks, and the accumulator's value after each point. -/

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The payloads at an entry -/

/-- A row tile times a square matrix, at an entry: the sum over the inner axis of the products. -/
theorem mmRows9_apply (A : FVec Ideal S5000x128 .bf16) (B : FVec Ideal S128x128 .bf16) (p : Fin 5000) (d : Fin 128) :
    matmul dot_S5000x128_S128x128_S5000x128_1_0_0_1_n_n none A B (constant S5000x128 .f32 0x00000000#32) (ix2 p d)
      = ∑ g : Fin 128, A (ix2 p g) * B (ix2 g d) := by
  simp only [matmul]
  rw [Ideal.matmul_constant_zero_apply, ← Equiv.sum_comp (contrEquiv1 dot_S5000x128_S128x128_S5000x128_1_0_0_1_n_n 128 rfl rfl).symm]
  refine Finset.sum_congr rfl fun g _ => ?_
  have cg := contrEquiv1_symm_val dot_S5000x128_S128x128_S5000x128_1_0_0_1_n_n 128 rfl rfl g
  have hl : dot_S5000x128_S128x128_S5000x128_1_0_0_1_n_n.lhsIdx (ix2 p d) ((contrEquiv1 _ 128 rfl rfl).symm g) = ix2 p g := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact cg
  have hr : dot_S5000x128_S128x128_S5000x128_1_0_0_1_n_n.rhsIdx (ix2 p d) ((contrEquiv1 _ 128 rfl rfl).symm g) = ix2 g d := by
    funext ax; apply Fin.ext
    match ax with
    | ⟨0, _⟩ => simp [DotDims.rhsIdx, dot_S5000x128_S128x128_S5000x128_1_0_0_1_n_n]; exact cg
    | ⟨1, _⟩ => simp [DotDims.rhsIdx, dot_S5000x128_S128x128_S5000x128_1_0_0_1_n_n]; rfl
  rw [hl, hr]

/-- Two row tiles contracted along their rows, at an entry: the sum over the rows of the products. -/
theorem mmCols9_apply (A B : FVec Ideal S5000x128 .bf16) (g d : Fin 128) :
    matmul dot_S5000x128_S5000x128_S128x128_0_0_1_1_n_n none A B (constant S128x128 .f32 0x00000000#32) (ix2 g d)
      = ∑ p : Fin 5000, A (ix2 p g) * B (ix2 p d) := by
  simp only [matmul]
  rw [Ideal.matmul_constant_zero_apply, ← Equiv.sum_comp (contrEquiv1 dot_S5000x128_S5000x128_S128x128_0_0_1_1_n_n 5000 rfl rfl).symm]
  refine Finset.sum_congr rfl fun p _ => ?_
  have cp := contrEquiv1_symm_val dot_S5000x128_S5000x128_S128x128_0_0_1_1_n_n 5000 rfl rfl p
  have hl : dot_S5000x128_S5000x128_S128x128_0_0_1_1_n_n.lhsIdx (ix2 g d) ((contrEquiv1 _ 5000 rfl rfl).symm p) = ix2 p g := by
    funext ax; apply Fin.ext
    match ax with
    | ⟨0, _⟩ => simp [DotDims.lhsIdx, dot_S5000x128_S5000x128_S128x128_0_0_1_1_n_n]; exact cp
    | ⟨1, _⟩ => simp [DotDims.lhsIdx, dot_S5000x128_S5000x128_S128x128_0_0_1_1_n_n]; rfl
  have hr : dot_S5000x128_S5000x128_S128x128_0_0_1_1_n_n.rhsIdx (ix2 g d) ((contrEquiv1 _ 5000 rfl rfl).symm p) = ix2 p d := by
    funext ax; apply Fin.ext
    match ax with
    | ⟨0, _⟩ => simp [DotDims.rhsIdx, dot_S5000x128_S5000x128_S128x128_0_0_1_1_n_n]; exact cp
    | ⟨1, _⟩ => simp [DotDims.rhsIdx, dot_S5000x128_S5000x128_S128x128_0_0_1_1_n_n]; rfl
  rw [hl, hr]

/-- The perceptron's payload at row `p`, feature `d` of the tile: two linear maps over the row plus its aggregate, a
    rectifier after each. -/
theorem pay9_3_apply (v3 v4 : Vec Ideal S5000x128 .f32) (v7 : Vec Ideal S128x128 .f32) (v12 : Vec Ideal S1x128 .f32)
    (v18 : Vec Ideal S128x128 .f32) (v23 : Vec Ideal S1x128 .f32) (p : Fin 5000) (d : Fin 128) :
    (k9_pay3 v3 v4 v7 v12 v18 v23 : S5000x128.Idx → EReal) (ix2 p d)
      = Cert.Spec2.mlp2 (fun (q : Fin 5000) (j : Fin 128) => (v3 (ix2 q j) : EReal) + (v4 (ix2 q j) : EReal))
          (fun (j k : Fin 128) => (v7 (ix2 j k) : EReal)) (fun k : Fin 128 => (v12 (ix2 (0 : Fin 1) k) : EReal))
          (fun (k e : Fin 128) => (v18 (ix2 k e) : EReal)) (fun e : Fin 128 => (v23 (ix2 (0 : Fin 1) e) : EReal)) p d := by
  unfold k9_pay3
  rw [maximumf_apply, addf_apply, mmRows9_apply]
  simp only [shapeCast_self, broadcastTo_1b_ab_apply, broadcast_apply, truncf_apply, maximumf_apply, addf_apply, mmRows9_apply]
  unfold Cert.Spec2.mlp2 Cert.Spec2.lin Cert.Spec2.relu
  simp only [Cert.Consts.scalar_zero]

/-- The accumulator's payload at graph `g`, feature `d`: what it held plus the sum over the tile's rows of membership
    times the perceptron's output. -/
theorem pay9_1_apply (T : FVec Ideal S5000x128 .f32) (M : FVec Ideal S5000x128 .bf16) (s : Vec Ideal S128x128 .f32) (g d : Fin 128) :
    (k9_pay1 T M s : S128x128.Idx → EReal) (ix2 g d)
      = (s (ix2 g d) : EReal) + ∑ p : Fin 5000, (M (ix2 p g) : EReal) * (T (ix2 p d) : EReal) := by
  unfold k9_pay1
  rw [shapeCast_self, addf_apply, mmCols9_apply]
  simp only [truncf_apply]

/-- The zero splat reads zero everywhere. -/
theorem pay9_2_apply (i : S128x128.Idx) : (k9_pay2 (F := Ideal) : S128x128.Idx → EReal) i = 0 := by
  unfold k9_pay2
  rw [shapeCast_self, broadcast_apply]
  exact Cert.Consts.scalar_zero

/-- The membership tile passes through unchanged. -/
theorem pay9_4_eq (v30 : Vec Ideal S5000x128 .bf16) : (k9_pay4 v30 : FVec Ideal S5000x128 .bf16) = v30 := by
  unfold k9_pay4; rw [shapeCast_self]

variable (V : (c : Dev nD) → (b : Ref sig .tc) → Buf (Elt Ideal) ((c : Thread nD τ).loc b))

/-! ## The stores and loads are whole-buffer: what the body leaves, as payloads -/

theorem zeroOffsets9 : (![0, 0] : Fin 2 → Nat) = fun _ => 0 := funext fun a => by fin_cases a <;> rfl

theorem tval9_eq (x0 x1 : Vec Ideal S5000x128 .f32) (x3 : Vec Ideal S128x128 .f32) (x4 : Vec Ideal S1x128 .f32)
    (x5 : Vec Ideal S128x128 .f32) (x6 : Vec Ideal S1x128 .f32) :
    tval9 x0 x1 x3 x4 x5 x6 = (k9_pay3 x0 x1 x3 x4 x5 x6 : FVec Ideal S5000x128 .f32) := by
  unfold tval9
  simp only [View.ld_unit_zero (S := S5000x128) zeroOffsets9, View.ld_unit_zero (S := S128x128) zeroOffsets9,
    View.ld_unit_zero (S := S1x128) zeroOffsets9]

theorem out9_7_eq (x0 x1 : Vec Ideal S5000x128 .f32) (x3 : Vec Ideal S128x128 .f32) (x4 : Vec Ideal S1x128 .f32)
    (x5 : Vec Ideal S128x128 .f32) (x6 : Vec Ideal S1x128 .f32) :
    out9_7 x0 x1 x3 x4 x5 x6 = (k9_pay3 x0 x1 x3 x4 x5 x6 : Vec Ideal S5000x128 .f32) := by
  unfold out9_7
  rw [View.canon_unit_zero zeroOffsets9, tval9_eq]

theorem scr9_eq (x0 x1 : Vec Ideal S5000x128 .f32) (x2 : Vec Ideal S5000x128 .bf16) (x3 : Vec Ideal S128x128 .f32)
    (x4 : Vec Ideal S1x128 .f32) (x5 : Vec Ideal S128x128 .f32) (x6 : Vec Ideal S1x128 .f32) (s : Vec Ideal S128x128 .f32) :
    scr9 x0 x1 x2 x3 x4 x5 x6 s = (k9_pay1 (k9_pay3 x0 x1 x3 x4 x5 x6) x2 s : Vec Ideal S128x128 .f32) := by
  unfold scr9
  rw [View.canon_unit_zero zeroOffsets9, tval9_eq, pay9_4_eq]
  simp only [View.ld_unit_zero (S := S5000x128) zeroOffsets9, View.ld_unit_zero (S := S128x128) zeroOffsets9]

theorem zero9_apply (i : S128x128.Idx) : ((zero9 (F := Ideal) : S128x128.Idx → EReal) i) = 0 := by
  unfold zero9
  rw [View.canon_unit_zero zeroOffsets9]
  exact pay9_2_apply i

theorem out9_8_eq (s : Vec Ideal S128x128 .f32) : out9_8 s = s := by
  unfold out9_8
  rw [View.canon_unit_zero zeroOffsets9, View.ld_unit_zero (S := S128x128) zeroOffsets9]

/-! ## The blocks as restrictions of the arrays -/

/-- The windows' block indices, decided over the grid: the row tiles move with the point, the weights, the biases and the
    sums stay at the origin. -/
theorem blockIndex9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0
    ∧ win9_7.index t (0 : Fin 2) = t.val ∧ win9_7.index t (1 : Fin 2) = 0
    ∧ win9_8.index t (0 : Fin 2) = 0 ∧ win9_8.index t (1 : Fin 2) = 0 ∧ True :=
  (by decide +kernel : ∀ t : Fin grid9.N, _)

/-- The seven input arrays as the region finds them, as functions of their indices: rows, aggregates, membership, the
    two weight matrices and the two bias rows. -/
abbrev ent9_0 (c : Dev nD) : S50000x128.Idx → EReal := V c (Pipeline.arrRef spec9 0)
abbrev ent9_1 (c : Dev nD) : S50000x128.Idx → EReal := V c (Pipeline.arrRef spec9 1)
abbrev ent9_2 (c : Dev nD) : S50000x128.Idx → EReal := V c (Pipeline.arrRef spec9 2)
abbrev ent9_3 (c : Dev nD) : S128x128.Idx → EReal := V c (Pipeline.arrRef spec9 3)
abbrev ent9_4 (c : Dev nD) : S1x128.Idx → EReal := V c (Pipeline.arrRef spec9 4)
abbrev ent9_5 (c : Dev nD) : S128x128.Idx → EReal := V c (Pipeline.arrRef spec9 5)
abbrev ent9_6 (c : Dev nD) : S1x128.Idx → EReal := V c (Pipeline.arrRef spec9 6)

theorem blk9_0_apply (c : Dev nD) (t : Fin cfg9.N) (y : S5000x128.Idx) (k : S50000x128.Idx)
    (hk0 : (k 0).val = 5000 * t.val + (y 0).val) (hk1 : (k 1).val = (y 1).val) :
    ((iblk9 V c 0 t : S5000x128.Idx → EReal) y) = ent9_0 V c k := by
  obtain ⟨e0, e1, -⟩ := blockIndex9 t
  unfold iblk9
  rw [View.read_apply]
  show V c (Pipeline.arrRef spec9 0) _ = V c (Pipeline.arrRef spec9 0) _
  congr 1
  funext a
  apply Fin.ext
  match a with
  | ⟨0, _⟩ => show win9_0.index t 0 * 5000 + 1 * (y 0).val = (k 0).val; rw [e0, hk0]; omega
  | ⟨1, _⟩ => show win9_0.index t 1 * 128 + 1 * (y 1).val = (k 1).val; rw [e1, hk1]; omega

theorem blk9_1_apply (c : Dev nD) (t : Fin cfg9.N) (y : S5000x128.Idx) (k : S50000x128.Idx)
    (hk0 : (k 0).val = 5000 * t.val + (y 0).val) (hk1 : (k 1).val = (y 1).val) :
    ((iblk9 V c 1 t : S5000x128.Idx → EReal) y) = ent9_1 V c k := by
  obtain ⟨-, -, e0, e1, -⟩ := blockIndex9 t
  unfold iblk9
  rw [View.read_apply]
  show V c (Pipeline.arrRef spec9 1) _ = V c (Pipeline.arrRef spec9 1) _
  congr 1
  funext a
  apply Fin.ext
  match a with
  | ⟨0, _⟩ => show win9_1.index t 0 * 5000 + 1 * (y 0).val = (k 0).val; rw [e0, hk0]; omega
  | ⟨1, _⟩ => show win9_1.index t 1 * 128 + 1 * (y 1).val = (k 1).val; rw [e1, hk1]; omega

theorem blk9_2_apply (c : Dev nD) (t : Fin cfg9.N) (y : S5000x128.Idx) (k : S50000x128.Idx)
    (hk0 : (k 0).val = 5000 * t.val + (y 0).val) (hk1 : (k 1).val = (y 1).val) :
    ((iblk9 V c 2 t : S5000x128.Idx → EReal) y) = ent9_2 V c k := by
  obtain ⟨-, -, -, -, e0, e1, -⟩ := blockIndex9 t
  unfold iblk9
  rw [View.read_apply]
  show V c (Pipeline.arrRef spec9 2) _ = V c (Pipeline.arrRef spec9 2) _
  congr 1
  funext a
  apply Fin.ext
  match a with
  | ⟨0, _⟩ => show win9_2.index t 0 * 5000 + 1 * (y 0).val = (k 0).val; rw [e0, hk0]; omega
  | ⟨1, _⟩ => show win9_2.index t 1 * 128 + 1 * (y 1).val = (k 1).val; rw [e1, hk1]; omega

theorem blk9_3_apply (c : Dev nD) (t : Fin cfg9.N) (y : S128x128.Idx) :
    ((iblk9 V c 3 t : S128x128.Idx → EReal) y) = ent9_3 V c y := by
  obtain ⟨-, -, -, -, -, -, e0, e1, -⟩ := blockIndex9 t
  unfold iblk9
  rw [View.read_apply]
  show V c (Pipeline.arrRef spec9 3) _ = V c (Pipeline.arrRef spec9 3) _
  congr 1
  funext a
  apply Fin.ext
  match a with
  | ⟨0, _⟩ => show win9_3.index t 0 * 128 + 1 * (y 0).val = (y 0).val; rw [e0]; omega
  | ⟨1, _⟩ => show win9_3.index t 1 * 128 + 1 * (y 1).val = (y 1).val; rw [e1]; omega

theorem blk9_4_apply (c : Dev nD) (t : Fin cfg9.N) (y : S1x128.Idx) :
    ((iblk9 V c 4 t : S1x128.Idx → EReal) y) = ent9_4 V c y := by
  obtain ⟨-, -, -, -, -, -, -, -, e0, e1, -⟩ := blockIndex9 t
  unfold iblk9
  rw [View.read_apply]
  show V c (Pipeline.arrRef spec9 4) _ = V c (Pipeline.arrRef spec9 4) _
  congr 1
  funext a
  apply Fin.ext
  match a with
  | ⟨0, _⟩ => show win9_4.index t 0 * 1 + 1 * (y 0).val = (y 0).val; rw [e0]; omega
  | ⟨1, _⟩ => show win9_4.index t 1 * 128 + 1 * (y 1).val = (y 1).val; rw [e1]; omega

theorem blk9_5_apply (c : Dev nD) (t : Fin cfg9.N) (y : S128x128.Idx) :
    ((iblk9 V c 5 t : S128x128.Idx → EReal) y) = ent9_5 V c y := by
  obtain ⟨-, -, -, -, -, -, -, -, -, -, e0, e1, -⟩ := blockIndex9 t
  unfold iblk9
  rw [View.read_apply]
  show V c (Pipeline.arrRef spec9 5) _ = V c (Pipeline.arrRef spec9 5) _
  congr 1
  funext a
  apply Fin.ext
  match a with
  | ⟨0, _⟩ => show win9_5.index t 0 * 128 + 1 * (y 0).val = (y 0).val; rw [e0]; omega
  | ⟨1, _⟩ => show win9_5.index t 1 * 128 + 1 * (y 1).val = (y 1).val; rw [e1]; omega

theorem blk9_6_apply (c : Dev nD) (t : Fin cfg9.N) (y : S1x128.Idx) :
    ((iblk9 V c 6 t : S1x128.Idx → EReal) y) = ent9_6 V c y := by
  obtain ⟨-, -, -, -, -, -, -, -, -, -, -, -, e0, e1, -⟩ := blockIndex9 t
  unfold iblk9
  rw [View.read_apply]
  show V c (Pipeline.arrRef spec9 6) _ = V c (Pipeline.arrRef spec9 6) _
  congr 1
  funext a
  apply Fin.ext
  match a with
  | ⟨0, _⟩ => show win9_6.index t 0 * 1 + 1 * (y 0).val = (y 0).val; rw [e0]; omega
  | ⟨1, _⟩ => show win9_6.index t 1 * 128 + 1 * (y 1).val = (y 1).val; rw [e1]; omega

/-! ## The perceptron's array as one function of the six arrays it reads -/

/-- The perceptron reads one row of its first operand only. -/
theorem mlp2_row9 {N N' K M P : Nat} (x : Fin N → Fin K → EReal) (x' : Fin N' → Fin K → EReal) (w1 : Fin K → Fin M → EReal)
    (b1 : Fin M → EReal) (w2 : Fin M → Fin P → EReal) (b2 : Fin P → EReal) (n : Fin N) (n' : Fin N') (k : Fin P)
    (h : ∀ j, x n j = x' n' j) : Cert.Spec2.mlp2 x w1 b1 w2 b2 n k = Cert.Spec2.mlp2 x' w1 b1 w2 b2 n' k := by
  unfold Cert.Spec2.mlp2 Cert.Spec2.lin
  simp only [h]

/-- Entry (row, feature) of the perceptron's output, from the whole input arrays. -/
def tArr9 (c : Dev nD) : S50000x128.Idx → EReal := fun i =>
  Cert.Spec2.mlp2 (fun (n : Fin 50000) (j : Fin 128) => ent9_0 V c (ix2 n j) + ent9_1 V c (ix2 n j))
    (fun (j k : Fin 128) => ent9_3 V c (ix2 j k)) (fun k : Fin 128 => ent9_4 V c (ix2 (0 : Fin 1) k))
    (fun (k e : Fin 128) => ent9_5 V c (ix2 k e)) (fun e : Fin 128 => ent9_6 V c (ix2 (0 : Fin 1) e))
    (i 0 : Fin 50000) (i 1 : Fin 128)

/-- The payload of the blocks at point `t`, at the entry (`p`, `d`) of the tile that sits at entry `i` of the array, is
    the perceptron's array there. -/
theorem tile9_apply (c : Dev nD) (t : Fin cfg9.N) (p : Fin 5000) (d : Fin 128) (i : S50000x128.Idx)
    (hi0 : (i 0).val = 5000 * t.val + p.val) (hi1 : (i 1).val = d.val) :
    ((k9_pay3 (iblk9 V c 0 t) (iblk9 V c 1 t) (iblk9 V c 3 t) (iblk9 V c 4 t) (iblk9 V c 5 t) (iblk9 V c 6 t)
      : S5000x128.Idx → EReal) (ix2 p d)) = tArr9 V c i := by
  rw [pay9_3_apply]
  unfold tArr9
  have hd : d = (i 1 : Fin 128) := Fin.ext hi1.symm
  subst hd
  have hw1 : (fun (j k : Fin 128) => ((iblk9 V c 3 t : S128x128.Idx → EReal) (ix2 j k))) = fun (j k : Fin 128) => ent9_3 V c (ix2 j k) :=
    funext fun j => funext fun k => blk9_3_apply V c t _
  have hb1 : (fun k : Fin 128 => ((iblk9 V c 4 t : S1x128.Idx → EReal) (ix2 (0 : Fin 1) k))) = fun k : Fin 128 => ent9_4 V c (ix2 (0 : Fin 1) k) :=
    funext fun k => blk9_4_apply V c t _
  have hw2 : (fun (k e : Fin 128) => ((iblk9 V c 5 t : S128x128.Idx → EReal) (ix2 k e))) = fun (k e : Fin 128) => ent9_5 V c (ix2 k e) :=
    funext fun k => funext fun e => blk9_5_apply V c t _
  have hb2 : (fun e : Fin 128 => ((iblk9 V c 6 t : S1x128.Idx → EReal) (ix2 (0 : Fin 1) e))) = fun e : Fin 128 => ent9_6 V c (ix2 (0 : Fin 1) e) :=
    funext fun e => blk9_6_apply V c t _
  rw [hw1, hb1, hw2, hb2]
  refine mlp2_row9 _ _ _ _ _ _ p (i 0 : Fin 50000) _ fun j => ?_
  beta_reduce
  rw [blk9_0_apply V c t (ix2 p j) (ix2 (i 0 : Fin 50000) j) hi0 rfl, blk9_1_apply V c t (ix2 p j) (ix2 (i 0 : Fin 50000) j) hi0 rfl]

/-- What point `t` writes back of window 7 is block `t` of the perceptron's array. -/
theorem flushed9_7_eq (c : Dev nD) (t : Fin cfg9.N) :
    (dat9 V c).flushed 7 t = ((cfg9.win 7).blk t).view.read (Elt Ideal) (tArr9 V c) := by
  show (cfg9.win 7).cut (grid9.coords t) ((dat9 V c).after 7 t) = _
  rw [after9_7, out9_7_eq]
  obtain ⟨-, -, -, -, -, -, -, -, -, -, -, -, -, -, e0, e1, -⟩ := blockIndex9 t
  refine funext fun (j : S5000x128.Idx) => ?_
  obtain ⟨p, d, rfl⟩ : ∃ (p : Fin 5000) (d : Fin 128), j = ix2 p d := ⟨j 0, j 1, eq_ix2 j⟩
  rw [View.read_apply]
  have hi0 : ((((cfg9.win 7).blk t).view.emb (ix2 p d)) 0).val = 5000 * t.val + p.val := by
    show win9_7.index t 0 * 5000 + 1 * p.val = _; rw [e0]; omega
  have hi1 : ((((cfg9.win 7).blk t).view.emb (ix2 p d)) 1).val = d.val := by
    show win9_7.index t 1 * 128 + 1 * d.val = _; rw [e1]; omega
  exact tile9_apply V c t p d _ hi0 hi1

/-- An entry of the array sits in point `t`'s block of window 7 as soon as its row is `5000 t` plus a row of the block
    and its feature the block's. -/
theorem mem_block9_7 (t : Fin cfg9.N) (y : S5000x128.Idx) (i : S50000x128.Idx)
    (h0 : (i 0).val = 5000 * t.val + (y 0).val) (h1 : (i 1).val = (y 1).val) :
    i ∈ ((cfg9.win 7).blk t).view.set := by
  obtain ⟨-, -, -, -, -, -, -, -, -, -, -, -, -, -, e0, e1, -⟩ := blockIndex9 t
  have hy : ((cfg9.win 7).blk t).view.emb y = i := by
    funext a
    apply Fin.ext
    match a with
    | ⟨0, _⟩ => show win9_7.index t 0 * 5000 + 1 * (y 0).val = (i 0).val; rw [e0, h0]; omega
    | ⟨1, _⟩ => show win9_7.index t 1 * 128 + 1 * (y 1).val = (i 1).val; rw [e1, h1]; omega
  subst hy
  exact ((cfg9.win 7).blk t).view.emb_mem_set y

/-- Every entry of the array is in the block of the point its row falls in. -/
theorem covered9_7 (i : S50000x128.Idx) :
    ∃ t : Fin cfg9.N, (cfg9.win 7).flush t = true ∧ i ∈ ((cfg9.win 7).blk t).view.set := by
  have h0 : (i 0).val < 50000 := (i 0).isLt
  have hN : cfg9.N = 10 := N_9
  have ht : (i 0).val / 5000 < cfg9.N := by rw [hN]; omega
  refine ⟨⟨(i 0).val / 5000, ht⟩, flush9_7 _,
    mem_block9_7 ⟨(i 0).val / 5000, ht⟩ (ix2 (⟨(i 0).val % 5000, Nat.mod_lt _ (by decide)⟩ : Fin 5000) (i 1 : Fin 128)) i ?_ rfl⟩
  show (i 0).val = 5000 * ((i 0).val / 5000) + (i 0).val % 5000
  omega

/-- So window 7's array ends holding the perceptron's array of the entry arrays. -/
theorem arr9_7_eq (c : Dev nD) : (dat9 V c).arrAt 7 cfg9.N = tArr9 V c :=
  (dat9 V c).arrAt_eq_of_cover 7 _ (fun t _ => flushed9_7_eq V c t) covered9_7

/-- Window 7's array after the region, at row `n` and feature `d`. -/
theorem arr9_7_apply (c : Dev nD) (n : Fin 50000) (d : Fin 128) :
    ((dat9 V c).arrAt 7 cfg9.N : S50000x128.Idx → EReal) (ix2 n d)
      = Cert.Spec2.mlp2 (fun (n : Fin 50000) (j : Fin 128) => ent9_0 V c (ix2 n j) + ent9_1 V c (ix2 n j))
          (fun (j k : Fin 128) => ent9_3 V c (ix2 j k)) (fun k : Fin 128 => ent9_4 V c (ix2 (0 : Fin 1) k))
          (fun (k e : Fin 128) => ent9_5 V c (ix2 k e)) (fun e : Fin 128 => ent9_6 V c (ix2 (0 : Fin 1) e)) n d := by
  rw [arr9_7_eq]; rfl

/-! ## The accumulator: the tiles' terms, summed -/

/-- Membership in graph `g` times feature `d` of the perceptron's output, at row `n` of the arrays. -/
def prod9 (c : Dev nD) (g d : Fin 128) (n : Fin 50000) : EReal := ent9_2 V c (ix2 n g) * tArr9 V c (ix2 n d)

/-- Row `r` of tile `k`, as a row of the arrays. -/
def rowOf9 (k : Fin 10) (r : Fin 5000) : Fin 50000 := ⟨k.val * 5000 + r.val, by have := k.isLt; have := r.isLt; omega⟩

/-- What tile `k` adds to the accumulator at (`g`, `d`). -/
def tileTerm9 (c : Dev nD) (g d : Fin 128) (k : Fin 10) : EReal := ∑ r : Fin 5000, prod9 V c g d (rowOf9 k r)

/-- One point's step: what the accumulator held plus the point's tile term. -/
theorem stepAt9_apply (c : Dev nD) (t : Fin cfg9.N) (k : Fin 10) (hk : k.val = t.val) (s : Vec Ideal S128x128 .f32) (g d : Fin 128) :
    ((stepAt9 V c t s : S128x128.Idx → EReal) (ix2 g d)) = (s (ix2 g d) : EReal) + tileTerm9 V c g d k := by
  unfold stepAt9
  rw [scr9_eq, pay9_1_apply]
  congr 1
  unfold tileTerm9 prod9
  refine Finset.sum_congr rfl fun r _ => ?_
  have hrow : (rowOf9 k r).val = 5000 * t.val + r.val := by show k.val * 5000 + r.val = _; rw [hk]; omega
  rw [blk9_2_apply V c t (ix2 r g) (ix2 (rowOf9 k r) g) hrow rfl, tile9_apply V c t r d (ix2 (rowOf9 k r) d) hrow rfl]

/-- The accumulator after point `n`: the terms of the tiles up to it. -/
theorem acc9_apply (c : Dev nD) (g d : Fin 128) : ∀ (n : ℕ) (hn : n < 10),
    ((acc9 V c n : S128x128.Idx → EReal) (ix2 g d)) = ∑ k ∈ Finset.univ.filter (fun k : Fin 10 => k.val < n + 1), tileTerm9 V c g d k
  | 0, hn => by
    have hN : cfg9.N = 10 := N_9
    rw [Cert.Spec.tiles_lt_succ _ 0 hn, Cert.Spec.tiles_lt_zero]
    show ((stepAt9 V c (pt9 0) (zero9 (F := Ideal)) : S128x128.Idx → EReal) (ix2 g d)) = _
    rw [stepAt9_apply V c (pt9 0) ⟨0, hn⟩ (Nat.mod_eq_of_lt (by rw [hN]; exact hn)).symm, zero9_apply]
  | n + 1, hn => by
    have hN : cfg9.N = 10 := N_9
    rw [Cert.Spec.tiles_lt_succ _ (n + 1) hn, ← acc9_apply c g d n (by omega)]
    show ((stepAt9 V c (pt9 (n + 1)) (acc9 V c n) : S128x128.Idx → EReal) (ix2 g d)) = _
    rw [stepAt9_apply V c (pt9 (n + 1)) ⟨n + 1, hn⟩ (Nat.mod_eq_of_lt (by rw [hN]; exact hn)).symm]

/-- After the last point: the sum over all rows of the arrays. -/
theorem acc9_total (c : Dev nD) (g d : Fin 128) :
    ((acc9 V c 9 : S128x128.Idx → EReal) (ix2 g d)) = ∑ n : Fin 50000, prod9 V c g d n := by
  rw [acc9_apply V c g d 9 (by decide), Cert.Spec.tiles_lt_all]
  exact Cert.Spec.tile_sum (prod9 V c g d)

/-! ## Window 8's array: the sums per graph -/

theorem emb9_8 (t : Fin cfg9.N) (y : S128x128.Idx) : ((cfg9.win 8).blk t).view.emb y = y := by
  obtain ⟨-, -, -, -, -, -, -, -, -, -, -, -, -, -, -, -, e0, e1, -⟩ := blockIndex9 t
  funext a
  apply Fin.ext
  match a with
  | ⟨0, _⟩ => show win9_8.index t 0 * 128 + 1 * (y 0).val = (y 0).val; rw [e0]; omega
  | ⟨1, _⟩ => show win9_8.index t 1 * 128 + 1 * (y 1).val = (y 1).val; rw [e1]; omega

/-- What the one write-back of window 8 writes — at the last point, whose block is the whole array — is the accumulator
    after the last point. -/
theorem flushed9_8_eq (c : Dev nD) (t : Fin cfg9.N) (hf : (cfg9.win 8).flush t = true) :
    (dat9 V c).flushed 8 t = ((cfg9.win 8).blk t).view.read (Elt Ideal) (acc9 V c 9) := by
  show (cfg9.win 8).cut (grid9.coords t) ((dat9 V c).after 8 t) = _
  rw [after9_8, out9_8_eq]
  have ht : t.val = 9 := by
    have h := hflush9_8 t; rw [hf] at h
    have h' : t.val + 1 = cfg9.N := of_decide_eq_true h.symm
    have hN : cfg9.N = 10 := N_9
    omega
  rw [ht]
  obtain ⟨-, -, -, -, -, -, -, -, -, -, -, -, -, -, -, -, e0, e1, -⟩ := blockIndex9 t
  refine funext fun (j : S128x128.Idx) => ?_
  rw [View.read_apply]
  show (acc9 V c 9 : S128x128.Idx → EReal) j = (acc9 V c 9 : S128x128.Idx → EReal) _
  congr 1
  funext a
  apply Fin.ext
  match a with
  | ⟨0, _⟩ => show (j 0).val = win9_8.index t 0 * 128 + 1 * (j 0).val; rw [e0]; omega
  | ⟨1, _⟩ => show (j 1).val = win9_8.index t 1 * 128 + 1 * (j 1).val; rw [e1]; omega

/-- Every entry of window 8's array is in the last point's block. -/
theorem covered9_8 (i : S128x128.Idx) :
    ∃ t : Fin cfg9.N, (cfg9.win 8).flush t = true ∧ i ∈ ((cfg9.win 8).blk t).view.set := by
  have hN : cfg9.N = 10 := N_9
  have h9 : 9 < cfg9.N := by rw [hN]; decide
  refine ⟨⟨9, h9⟩, ?_, ?_⟩
  · rw [hflush9_8]; exact decide_eq_true (by show 9 + 1 = cfg9.N; rw [hN])
  · have h := ((cfg9.win 8).blk ⟨9, h9⟩).view.emb_mem_set i
    rwa [emb9_8] at h

/-- So window 8's array ends holding the accumulator after the last point. -/
theorem arr9_8_eq (c : Dev nD) : (dat9 V c).arrAt 8 cfg9.N = acc9 V c 9 :=
  (dat9 V c).arrAt_eq_of_cover 8 _ (fun t hf => flushed9_8_eq V c t hf) covered9_8

/-- Window 8's array after the region, at graph `g` and feature `d`: the sum over the rows of membership times window
    7's array. -/
theorem arr9_8_apply (c : Dev nD) (g d : Fin 128) :
    ((dat9 V c).arrAt 8 cfg9.N : S128x128.Idx → EReal) (ix2 g d)
      = ∑ n : Fin 50000, ent9_2 V c (ix2 n g) * ((dat9 V c).arrAt 7 cfg9.N : S50000x128.Idx → EReal) (ix2 n d) := by
  rw [arr9_8_eq, arr9_7_eq]
  exact acc9_total V c g d

end Cert.KernelIdeal.Hand

end
-- ==== Proof.KI.Reg10Val.lean ====
import proofs.«408428_j10917806867267_1_alg».proof.Proof.KI.Reg10
import proofs.«408428_j10917806867267_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! # The centring launch's two result arrays, entry by entry, at the ideal values

What the two output arrays hold after the region, as plain arithmetic of the four input arrays as the region finds
them. The row output, at a row and a feature: the feature less the mean of the row's graph (the membership row picks
the graph: a sum over the graphs of membership times mean) times the feature's scale. The matrix output, at a graph and
a feature: the sum over ALL rows of membership times the square of the row output there — accumulated tile by tile
across the grid in the kernel's own buffer, reset at the first point and written back after the last.

First what each control case's stores leave, as payloads; then the accumulation in closed form, by induction on the
point; then the payloads at an entry; then each input block as a restriction of its array, what each point writes back
as a block of one whole-array function, and the covers; last the tiles' sums collapsed into one sum over the rows. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Pieces

/-! ## What each case's pieces leave, as payloads of the buffers' contents

Every store of the body is through the whole of its buffer and every load reads its buffer whole; so what a case's
pieces leave is the payload of the LAST store to that buffer, its loads read at the buffers' contents — a load of the
accumulator after a store to it in the same run reads that store's payload. -/

theorem zeroOffsets10 : (![0, 0] : Fin 2 → Nat) = fun _ => 0 := funext fun a => by fin_cases a <;> rfl

/-- The first point leaves the centred tile in the row output, -/
theorem row10_A_eq (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole) (hc0 : cond10_0 i) (hc1 : ¬cond10_1 i) (x0 : Vec F S5000x128 .f32) (x1 : Vec F S5000x128 .bf16) (x2 : Vec F S128x128 .f32) (x3 : Vec F S1x128 .f32) :
    row10_A c i arg1 harg1 arg2 harg2 arg3 harg3 arg4 harg4 arg5 harg5 arg6 harg6 arg7 harg7 hc0 hc1 x0 x1 x2 x3 = k10_pay3 x1 x2 x0 x3 := by
  unfold row10_A
  rw [View.read_writes_eq_canon _ _ _ (cover10_A_4 c i arg1 harg1 arg2 harg2 arg3 harg3 arg4 harg4 arg5 harg5 arg6 harg6 arg7 harg7 hc0 hc1 x0 x1 x2 x3)]
  unfold kernelRun10_A
  dsimp only
  sl_unfold_words
  rw [View.canon_unit_zero zeroOffsets10]
  simp only [View.readAt_eq_ld, harg1.read_unread, harg2.read_unread, harg3.read_unread, harg4.read_unread, harg7.read_unread,
    View.ld_unit_zero (S := S5000x128) zeroOffsets10, View.ld_unit_zero (S := S128x128) zeroOffsets10, View.ld_unit_zero (S := S1x128) zeroOffsets10]

/-- and in the accumulator the update of its reset. -/
theorem scr10_A_eq (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole) (hc0 : cond10_0 i) (hc1 : ¬cond10_1 i) (x0 : Vec F S5000x128 .f32) (x1 : Vec F S5000x128 .bf16) (x2 : Vec F S128x128 .f32) (x3 : Vec F S1x128 .f32) :
    scr10_A c i arg1 harg1 arg2 harg2 arg3 harg3 arg4 harg4 arg5 harg5 arg6 harg6 arg7 harg7 hc0 hc1 x0 x1 x2 x3 = k10_pay4 x1 x2 x0 x3 k10_pay1 := by
  unfold scr10_A
  rw [View.read_writes_eq_canon _ _ _ (cover10_A_s c i arg1 harg1 arg2 harg2 arg3 harg3 arg4 harg4 arg5 harg5 arg6 harg6 arg7 harg7 hc0 hc1 x0 x1 x2 x3)]
  unfold kernelRun10_A
  dsimp only
  sl_unfold_words
  rw [View.canon_cons_unit_zero (S := S128x128) zeroOffsets10, View.readCov_unit_zero (S := S128x128) _ zeroOffsets10]
  simp only [View.readAt_eq_ld, harg1.read_unread, harg2.read_unread, harg3.read_unread, harg4.read_unread, harg7.read_unread,
    View.ld_unit_zero (S := S5000x128) zeroOffsets10, View.ld_unit_zero (S := S128x128) zeroOffsets10, View.ld_unit_zero (S := S1x128) zeroOffsets10]

/-- A middle point leaves the centred tile in the row output, -/
theorem row10_B_eq (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole) (hc0 : ¬cond10_0 i) (hc1 : ¬cond10_1 i) (x0 : Vec F S5000x128 .f32) (x1 : Vec F S5000x128 .bf16) (x2 : Vec F S128x128 .f32) (x3 : Vec F S1x128 .f32) (s : Vec F S128x128 .f32) :
    row10_B c i arg1 harg1 arg2 harg2 arg3 harg3 arg4 harg4 arg5 harg5 arg6 harg6 arg7 harg7 hc0 hc1 x0 x1 x2 x3 s = k10_pay3 x1 x2 x0 x3 := by
  unfold row10_B
  rw [View.read_writes_eq_canon _ _ _ (cover10_B_4 c i arg1 harg1 arg2 harg2 arg3 harg3 arg4 harg4 arg5 harg5 arg6 harg6 arg7 harg7 hc0 hc1 x0 x1 x2 x3 s)]
  unfold kernelRun10_B
  dsimp only
  sl_unfold_words
  rw [View.canon_unit_zero zeroOffsets10]
  simp only [View.readAt_eq_ld, harg1.read_unread, harg2.read_unread, harg3.read_unread, harg4.read_unread, harg7.read_unread,
    View.ld_unit_zero (S := S5000x128) zeroOffsets10, View.ld_unit_zero (S := S128x128) zeroOffsets10, View.ld_unit_zero (S := S1x128) zeroOffsets10]

/-- and in the accumulator the update of what it held. -/
theorem scr10_B_eq (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole) (hc0 : ¬cond10_0 i) (hc1 : ¬cond10_1 i) (x0 : Vec F S5000x128 .f32) (x1 : Vec F S5000x128 .bf16) (x2 : Vec F S128x128 .f32) (x3 : Vec F S1x128 .f32) (s : Vec F S128x128 .f32) :
    scr10_B c i arg1 harg1 arg2 harg2 arg3 harg3 arg4 harg4 arg5 harg5 arg6 harg6 arg7 harg7 hc0 hc1 x0 x1 x2 x3 s = k10_pay4 x1 x2 x0 x3 s := by
  unfold scr10_B
  rw [View.read_writes_eq_canon _ _ _ (cover10_B_s c i arg1 harg1 arg2 harg2 arg3 harg3 arg4 harg4 arg5 harg5 arg6 harg6 arg7 harg7 hc0 hc1 x0 x1 x2 x3 s)]
  unfold kernelRun10_B
  dsimp only
  sl_unfold_words
  rw [View.canon_unit_zero zeroOffsets10]
  simp only [View.readAt_eq_ld, harg1.read_unread, harg2.read_unread, harg3.read_unread, harg4.read_unread, harg7.read_unread,
    View.ld_unit_zero (S := S5000x128) zeroOffsets10, View.ld_unit_zero (S := S128x128) zeroOffsets10, View.ld_unit_zero (S := S1x128) zeroOffsets10]

/-- The last point leaves the centred tile in the row output, -/
theorem row10_C_eq (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole) (hc0 : ¬cond10_0 i) (hc1 : cond10_1 i) (x0 : Vec F S5000x128 .f32) (x1 : Vec F S5000x128 .bf16) (x2 : Vec F S128x128 .f32) (x3 : Vec F S1x128 .f32) (s : Vec F S128x128 .f32) :
    row10_C c i arg1 harg1 arg2 harg2 arg3 harg3 arg4 harg4 arg5 harg5 arg6 harg6 arg7 harg7 hc0 hc1 x0 x1 x2 x3 s = k10_pay3 x1 x2 x0 x3 := by
  unfold row10_C
  rw [View.read_writes_eq_canon _ _ _ (cover10_C_4 c i arg1 harg1 arg2 harg2 arg3 harg3 arg4 harg4 arg5 harg5 arg6 harg6 arg7 harg7 hc0 hc1 x0 x1 x2 x3 s)]
  unfold kernelRun10_C
  dsimp only
  sl_unfold_words
  rw [View.canon_unit_zero zeroOffsets10]
  simp only [View.readAt_eq_ld, harg1.read_unread, harg2.read_unread, harg3.read_unread, harg4.read_unread, harg7.read_unread,
    View.ld_unit_zero (S := S5000x128) zeroOffsets10, View.ld_unit_zero (S := S128x128) zeroOffsets10, View.ld_unit_zero (S := S1x128) zeroOffsets10]

/-- in the matrix output the accumulator's update, read back after it is stored, -/
theorem mat10_C_eq (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole) (hc0 : ¬cond10_0 i) (hc1 : cond10_1 i) (x0 : Vec F S5000x128 .f32) (x1 : Vec F S5000x128 .bf16) (x2 : Vec F S128x128 .f32) (x3 : Vec F S1x128 .f32) (s : Vec F S128x128 .f32) :
    mat10_C c i arg1 harg1 arg2 harg2 arg3 harg3 arg4 harg4 arg5 harg5 arg6 harg6 arg7 harg7 hc0 hc1 x0 x1 x2 x3 s = k10_pay4 x1 x2 x0 x3 s := by
  unfold mat10_C
  rw [View.read_writes_eq_canon _ _ _ (cover10_C_5 c i arg1 harg1 arg2 harg2 arg3 harg3 arg4 harg4 arg5 harg5 arg6 harg6 arg7 harg7 hc0 hc1 x0 x1 x2 x3 s)]
  unfold kernelRun10_C
  dsimp only
  sl_unfold_words
  rw [View.canon_unit_zero zeroOffsets10, View.readCov_unit_zero (S := S128x128) _ zeroOffsets10]
  simp only [View.readAt_eq_ld, harg1.read_unread, harg2.read_unread, harg3.read_unread, harg4.read_unread, harg7.read_unread,
    View.ld_unit_zero (S := S5000x128) zeroOffsets10, View.ld_unit_zero (S := S128x128) zeroOffsets10, View.ld_unit_zero (S := S1x128) zeroOffsets10]

/-- and in the accumulator that update. -/
theorem scr10_C_eq (c : Dev nD) (i : grid10.Coords) (arg1 : Memref sig .tc .vmem S5000x128 .f32) (harg1 : arg1.IsWhole) (arg2 : Memref sig .tc .vmem S5000x128 .bf16) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S128x128 .f32) (harg6 : arg6.IsWhole) (arg7 : Memref sig .tc .vmem S128x128 .f32) (harg7 : arg7.IsWhole) (hc0 : ¬cond10_0 i) (hc1 : cond10_1 i) (x0 : Vec F S5000x128 .f32) (x1 : Vec F S5000x128 .bf16) (x2 : Vec F S128x128 .f32) (x3 : Vec F S1x128 .f32) (s : Vec F S128x128 .f32) :
    scr10_C c i arg1 harg1 arg2 harg2 arg3 harg3 arg4 harg4 arg5 harg5 arg6 harg6 arg7 harg7 hc0 hc1 x0 x1 x2 x3 s = k10_pay4 x1 x2 x0 x3 s := by
  unfold scr10_C
  rw [View.read_writes_eq_canon _ _ _ (cover10_C_s c i arg1 harg1 arg2 harg2 arg3 harg3 arg4 harg4 arg5 harg5 arg6 harg6 arg7 harg7 hc0 hc1 x0 x1 x2 x3 s)]
  unfold kernelRun10_C
  dsimp only
  sl_unfold_words
  rw [View.canon_unit_zero zeroOffsets10]
  simp only [View.readAt_eq_ld, harg1.read_unread, harg2.read_unread, harg3.read_unread, harg4.read_unread, harg7.read_unread,
    View.ld_unit_zero (S := S5000x128) zeroOffsets10, View.ld_unit_zero (S := S128x128) zeroOffsets10, View.ld_unit_zero (S := S1x128) zeroOffsets10]

end Pieces

section Chain

variable (V : (c : Dev nD) → (b : Ref sig .tc) → Buf (Elt F) ((c : Thread nD τ).loc b))

/-! ## The accumulation in closed form -/

/-- The four input blocks at point `t`, at their literal types. -/
abbrev featTile10 (c : Dev nD) (t : Fin cfg10.N) : Vec F S5000x128 .f32 := iblk10 V c 0 t
abbrev memberTile10 (c : Dev nD) (t : Fin cfg10.N) : Vec F S5000x128 .bf16 := iblk10 V c 1 t
abbrev meansBlk10 (c : Dev nD) (t : Fin cfg10.N) : Vec F S128x128 .f32 := iblk10 V c 2 t
abbrev scaleBlk10 (c : Dev nD) (t : Fin cfg10.N) : Vec F S1x128 .f32 := iblk10 V c 3 t

/-- The accumulator after position `n`: reset to zero and updated with the first tile, then updated tile by tile. -/
def chain10 (c : Dev nD) : (n : ℕ) → n < cfg10.N → Vec F S128x128 .f32
  | 0, h => k10_pay4 (memberTile10 V c ⟨0, h⟩) (meansBlk10 V c ⟨0, h⟩) (featTile10 V c ⟨0, h⟩) (scaleBlk10 V c ⟨0, h⟩) k10_pay1
  | n + 1, h => k10_pay4 (memberTile10 V c ⟨n + 1, h⟩) (meansBlk10 V c ⟨n + 1, h⟩) (featTile10 V c ⟨n + 1, h⟩) (scaleBlk10 V c ⟨n + 1, h⟩) (chain10 c n (Nat.lt_of_succ_lt h))

/-- What every point leaves: the centred tile in the row output, the accumulator's chain in the accumulator (and in
    the matrix output's component) — by induction on the point, the case read off the position. -/
theorem outs10_eq (c : Dev nD) : ∀ (n : ℕ) (h : n < cfg10.N),
    outs10 V c n h = (k10_pay3 (memberTile10 V c ⟨n, h⟩) (meansBlk10 V c ⟨n, h⟩) (featTile10 V c ⟨n, h⟩) (scaleBlk10 V c ⟨n, h⟩), chain10 V c n h, chain10 V c n h)
  | 0, h => by
    have hc0 : cond10_0 (grid10.coords ⟨0, h⟩) := (hcond10_0 ⟨0, h⟩).mpr rfl
    have hc1 : ¬cond10_1 (grid10.coords ⟨0, h⟩) := fun hh => first_ne_last10 ((hcond10_1 ⟨0, h⟩).mp hh)
    rw [outs10_A V c ⟨0, h⟩ rfl hc0 hc1, row10_A_eq, scr10_A_eq]
    rfl
  | n + 1, h => by
    have hc0 : ¬cond10_0 (grid10.coords ⟨n + 1, h⟩) := fun hh => Nat.succ_ne_zero n ((hcond10_0 ⟨n + 1, h⟩).mp hh)
    by_cases h1 : n + 1 + 1 = cfg10.N
    · have hc1 : cond10_1 (grid10.coords ⟨n + 1, h⟩) := (hcond10_1 ⟨n + 1, h⟩).mpr h1
      rw [outs10_C V c ⟨n + 1, h⟩ (Nat.succ_ne_zero n) h1 hc0 hc1, row10_C_eq, mat10_C_eq, scr10_C_eq]
      show (_, k10_pay4 _ _ _ _ (outs10 V c n _).2.2, k10_pay4 _ _ _ _ (outs10 V c n _).2.2) = _
      rw [outs10_eq c n]
      rfl
    · have hc1 : ¬cond10_1 (grid10.coords ⟨n + 1, h⟩) := fun hh => h1 ((hcond10_1 ⟨n + 1, h⟩).mp hh)
      rw [outs10_B V c ⟨n + 1, h⟩ (Nat.succ_ne_zero n) h1 hc0 hc1, row10_B_eq, scr10_B_eq]
      show (_, k10_pay4 _ _ _ _ (outs10 V c n _).2.2, k10_pay4 _ _ _ _ (outs10 V c n _).2.2) = _
      rw [outs10_eq c n]
      rfl

end Chain

open scoped BigOperators
open Idealize.ShloMosaic.ValueIdx

/-! ## The payloads at an entry, at the ideal values -/

/-- The membership tile times a 128 × 128 matrix, at an entry: the sum over the graphs of the products. -/
theorem memberTimes10_apply (A : FVec Ideal S5000x128 .bf16) (B : FVec Ideal S128x128 .bf16) (p : Fin 5000) (d : Fin 128) :
    matmul dot_S5000x128_S128x128_S5000x128_1_0_0_1_n_n none A B (constant S5000x128 .f32 0x00000000#32) (ix2 p d)
      = ∑ g : Fin 128, A (ix2 p g) * B (ix2 g d) := by
  simp only [matmul]
  rw [Ideal.matmul_constant_zero_apply, ← Equiv.sum_comp (contrEquiv1 dot_S5000x128_S128x128_S5000x128_1_0_0_1_n_n 128 rfl rfl).symm]
  refine Finset.sum_congr rfl fun g _ => ?_
  have cg := contrEquiv1_symm_val dot_S5000x128_S128x128_S5000x128_1_0_0_1_n_n 128 rfl rfl g
  have hl : dot_S5000x128_S128x128_S5000x128_1_0_0_1_n_n.lhsIdx (ix2 p d) ((contrEquiv1 _ 128 rfl rfl).symm g) = ix2 p g := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact cg
  have hr : dot_S5000x128_S128x128_S5000x128_1_0_0_1_n_n.rhsIdx (ix2 p d) ((contrEquiv1 _ 128 rfl rfl).symm g) = ix2 g d := by
    funext ax; apply Fin.ext
    match ax with
    | ⟨0, _⟩ => simp [DotDims.rhsIdx, dot_S5000x128_S128x128_S5000x128_1_0_0_1_n_n]; exact cg
    | ⟨1, _⟩ => simp [DotDims.rhsIdx, dot_S5000x128_S128x128_S5000x128_1_0_0_1_n_n]; rfl
  rw [hl, hr]

/-- The membership tile transposed times a tile of rows, at an entry: the sum over the tile's rows of the products. -/
theorem memberTransposeTimes10_apply (A : FVec Ideal S5000x128 .bf16) (B : FVec Ideal S5000x128 .bf16) (g d : Fin 128) :
    matmul dot_S5000x128_S5000x128_S128x128_0_0_1_1_n_n none A B (constant S128x128 .f32 0x00000000#32) (ix2 g d)
      = ∑ p : Fin 5000, A (ix2 p g) * B (ix2 p d) := by
  simp only [matmul]
  rw [Ideal.matmul_constant_zero_apply, ← Equiv.sum_comp (contrEquiv1 dot_S5000x128_S5000x128_S128x128_0_0_1_1_n_n 5000 rfl rfl).symm]
  refine Finset.sum_congr rfl fun p _ => ?_
  have cp := contrEquiv1_symm_val dot_S5000x128_S5000x128_S128x128_0_0_1_1_n_n 5000 rfl rfl p
  have hl : dot_S5000x128_S5000x128_S128x128_0_0_1_1_n_n.lhsIdx (ix2 g d) ((contrEquiv1 _ 5000 rfl rfl).symm p) = ix2 p g := by
    funext ax; apply Fin.ext
    match ax with
    | ⟨0, _⟩ => simp [DotDims.lhsIdx, dot_S5000x128_S5000x128_S128x128_0_0_1_1_n_n]; exact cp
    | ⟨1, _⟩ => simp [DotDims.lhsIdx, dot_S5000x128_S5000x128_S128x128_0_0_1_1_n_n]; rfl
  have hr : dot_S5000x128_S5000x128_S128x128_0_0_1_1_n_n.rhsIdx (ix2 g d) ((contrEquiv1 _ 5000 rfl rfl).symm p) = ix2 p d := by
    funext ax; apply Fin.ext
    match ax with
    | ⟨0, _⟩ => simp [DotDims.rhsIdx, dot_S5000x128_S5000x128_S128x128_0_0_1_1_n_n]; exact cp
    | ⟨1, _⟩ => simp [DotDims.rhsIdx, dot_S5000x128_S5000x128_S128x128_0_0_1_1_n_n]; rfl
  rw [hl, hr]

/-- The centred tile at row `p`, feature `d`: the feature less its graph's mean (the graph picked by the membership
    row: a sum over the graphs of membership times mean) times the feature's scale. -/
theorem pay10_3_apply (x1 : Vec Ideal S5000x128 .bf16) (x2 : Vec Ideal S128x128 .f32) (x0 : Vec Ideal S5000x128 .f32)
    (x3 : Vec Ideal S1x128 .f32) (p : Fin 5000) (d : Fin 128) :
    (k10_pay3 x1 x2 x0 x3 : S5000x128.Idx → EReal) (ix2 p d)
      = (x0 (ix2 p d) : EReal) - (∑ g : Fin 128, (x1 (ix2 p g) : EReal) * (x2 (ix2 g d) : EReal)) * (x3 (ix2 (0 : Fin 1) d) : EReal) := by
  unfold k10_pay3 k10_pay2
  rw [subf_apply, mulf_apply]
  simp only [shapeCast_self, broadcastTo_1b_ab_apply]
  rw [memberTimes10_apply]
  rfl

/-- The accumulator's update at graph `g`, feature `d`: what it held plus the sum over the tile's rows of membership
    times the square of the centred feature. -/
theorem pay10_4_apply (x1 : Vec Ideal S5000x128 .bf16) (x2 : Vec Ideal S128x128 .f32) (x0 : Vec Ideal S5000x128 .f32)
    (x3 : Vec Ideal S1x128 .f32) (s : Vec Ideal S128x128 .f32) (g d : Fin 128) :
    (k10_pay4 x1 x2 x0 x3 s : S128x128.Idx → EReal) (ix2 g d)
      = (s (ix2 g d) : EReal) + ∑ p : Fin 5000, (x1 (ix2 p g) : EReal)
          * ((k10_pay3 x1 x2 x0 x3 : S5000x128.Idx → EReal) (ix2 p d) * (k10_pay3 x1 x2 x0 x3 : S5000x128.Idx → EReal) (ix2 p d)) := by
  unfold k10_pay4 k10_pay2
  simp only [shapeCast_self]
  rw [addf_apply, memberTransposeTimes10_apply]
  rfl

/-- The accumulator's reset is zero everywhere. -/
theorem pay10_1_apply (i : S128x128.Idx) : (k10_pay1 (F := Ideal) : S128x128.Idx → EReal) i = 0 := by
  unfold k10_pay1
  simp only [shapeCast_self, broadcast_apply]
  rw [Ideal.ofBits_def, Ideal.ofBits_zero_f32]

section Arrays

variable (V : (c : Dev nD) → (b : Ref sig .tc) → Buf (Elt Ideal) ((c : Thread nD τ).loc b))

/-! ## The centred array as one function of the four input arrays -/

/-- Entry `i` = (row, feature) of the centred array, from the whole input arrays: the feature less its graph's mean
    times the feature's scale. -/
def centred10 (X H : S50000x128.Idx → EReal) (M : S128x128.Idx → EReal) (Wv : S1x128.Idx → EReal) : S50000x128.Idx → EReal := fun i =>
  X i - (∑ g : Fin 128, H (ix2 (i 0 : Fin 50000) g) * M (ix2 g (i 1 : Fin 128))) * Wv (ix2 (0 : Fin 1) (i 1 : Fin 128))

/-- The centred tile of blocks that are restrictions of the arrays, at the entry (`p`, `d`) of the block that sits at
    entry `i` of the array, is the centred array there. -/
theorem pay10_3_eq_centred10 (X H : S50000x128.Idx → EReal) (M : S128x128.Idx → EReal) (Wv : S1x128.Idx → EReal)
    (x1 : Vec Ideal S5000x128 .bf16) (x2 : Vec Ideal S128x128 .f32) (x0 : Vec Ideal S5000x128 .f32) (x3 : Vec Ideal S1x128 .f32)
    (p : Fin 5000) (d : Fin 128) (i : S50000x128.Idx)
    (h0 : (x0 (ix2 p d) : EReal) = X i)
    (h1 : ∀ g : Fin 128, (x1 (ix2 p g) : EReal) = H (ix2 (i 0 : Fin 50000) g))
    (h2 : ∀ g : Fin 128, (x2 (ix2 g d) : EReal) = M (ix2 g (i 1 : Fin 128)))
    (h3 : (x3 (ix2 (0 : Fin 1) d) : EReal) = Wv (ix2 (0 : Fin 1) (i 1 : Fin 128))) :
    (k10_pay3 x1 x2 x0 x3 : S5000x128.Idx → EReal) (ix2 p d) = centred10 X H M Wv i := by
  rw [pay10_3_apply, h0, h3]
  unfold centred10
  simp only [h1, h2]

/-! ## From the blocks to the arrays -/

/-- The windows' block indices, decided over the grid: the row tiles move with the point, the means, the scale row and
    the matrix output stay at the origin. -/
theorem blockIndex10 : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = t.val ∧ win10_4.index t (1 : Fin 2) = 0
    ∧ win10_5.index t (0 : Fin 2) = 0 ∧ win10_5.index t (1 : Fin 2) = 0 :=
  (by decide +kernel : ∀ t : Fin grid10.N, _)

/-- The four input arrays as the region finds them, as functions of their indices. -/
abbrev feats10 (c : Dev nD) : S50000x128.Idx → EReal := V c (Pipeline.arrRef spec10 0)
abbrev member10 (c : Dev nD) : S50000x128.Idx → EReal := V c (Pipeline.arrRef spec10 1)
abbrev means10 (c : Dev nD) : S128x128.Idx → EReal := V c (Pipeline.arrRef spec10 2)
abbrev scale10 (c : Dev nD) : S1x128.Idx → EReal := V c (Pipeline.arrRef spec10 3)

/-- The feature tile at point `t` is rows `5000 t …` of the feature array. -/
theorem featsBlock10_apply (c : Dev nD) (t : Fin cfg10.N) (y : S5000x128.Idx) (k : S50000x128.Idx)
    (hk0 : (k 0).val = 5000 * t.val + (y 0).val) (hk1 : (k 1).val = (y 1).val) :
    ((iblk10 V c 0 t : Vec Ideal S5000x128 .f32) y : EReal) = feats10 V c k := by
  have e0 := (blockIndex10 t).1
  have e1 := (blockIndex10 t).2.1
  unfold iblk10
  rw [View.read_apply]
  show V c (Pipeline.arrRef spec10 0) _ = V c (Pipeline.arrRef spec10 0) _
  congr 1
  funext a
  apply Fin.ext
  match a with
  | ⟨0, _⟩ => show win10_0.index t 0 * 5000 + 1 * (y 0).val = (k 0).val; rw [e0, hk0]; omega
  | ⟨1, _⟩ => show win10_0.index t 1 * 128 + 1 * (y 1).val = (k 1).val; rw [e1, hk1]; omega

/-- The membership tile at point `t` is the same rows of the membership array. -/
theorem memberBlock10_apply (c : Dev nD) (t : Fin cfg10.N) (y : S5000x128.Idx) (k : S50000x128.Idx)
    (hk0 : (k 0).val = 5000 * t.val + (y 0).val) (hk1 : (k 1).val = (y 1).val) :
    ((iblk10 V c 1 t : Vec Ideal S5000x128 .bf16) y : EReal) = member10 V c k := by
  have e0 := (blockIndex10 t).2.2.1
  have e1 := (blockIndex10 t).2.2.2.1
  unfold iblk10
  rw [View.read_apply]
  show V c (Pipeline.arrRef spec10 1) _ = V c (Pipeline.arrRef spec10 1) _
  congr 1
  funext a
  apply Fin.ext
  match a with
  | ⟨0, _⟩ => show win10_1.index t 0 * 5000 + 1 * (y 0).val = (k 0).val; rw [e0, hk0]; omega
  | ⟨1, _⟩ => show win10_1.index t 1 * 128 + 1 * (y 1).val = (k 1).val; rw [e1, hk1]; omega

/-- The means' block is the whole array at every point. -/
theorem meansBlock10_apply (c : Dev nD) (t : Fin cfg10.N) (y : S128x128.Idx) :
    ((iblk10 V c 2 t : Vec Ideal S128x128 .f32) y : EReal) = means10 V c y := by
  have e0 := (blockIndex10 t).2.2.2.2.1
  have e1 := (blockIndex10 t).2.2.2.2.2.1
  unfold iblk10
  rw [View.read_apply]
  show V c (Pipeline.arrRef spec10 2) _ = V c (Pipeline.arrRef spec10 2) _
  congr 1
  funext a
  apply Fin.ext
  match a with
  | ⟨0, _⟩ => show win10_2.index t 0 * 128 + 1 * (y 0).val = (y 0).val; rw [e0]; omega
  | ⟨1, _⟩ => show win10_2.index t 1 * 128 + 1 * (y 1).val = (y 1).val; rw [e1]; omega

/-- The scale row's block is the whole row at every point. -/
theorem scaleBlock10_apply (c : Dev nD) (t : Fin cfg10.N) (y : S1x128.Idx) :
    ((iblk10 V c 3 t : Vec Ideal S1x128 .f32) y : EReal) = scale10 V c y := by
  have e0 := (blockIndex10 t).2.2.2.2.2.2.1
  have e1 := (blockIndex10 t).2.2.2.2.2.2.2.1
  unfold iblk10
  rw [View.read_apply]
  show V c (Pipeline.arrRef spec10 3) _ = V c (Pipeline.arrRef spec10 3) _
  congr 1
  funext a
  apply Fin.ext
  match a with
  | ⟨0, _⟩ => show win10_3.index t 0 * 1 + 1 * (y 0).val = (y 0).val; rw [e0]; omega
  | ⟨1, _⟩ => show win10_3.index t 1 * 128 + 1 * (y 1).val = (y 1).val; rw [e1]; omega

/-- The centred tile of point `t`'s blocks, at an entry, is the centred array at the entry of the array the tile's
    entry sits at. -/
theorem centredTile10_apply (c : Dev nD) (t : Fin cfg10.N) (p : Fin 5000) (d : Fin 128) (i : S50000x128.Idx)
    (hi0 : (i 0).val = 5000 * t.val + p.val) (hi1 : (i 1).val = d.val) :
    (k10_pay3 (iblk10 V c 1 t) (iblk10 V c 2 t) (iblk10 V c 0 t) (iblk10 V c 3 t) : S5000x128.Idx → EReal) (ix2 p d)
      = centred10 (feats10 V c) (member10 V c) (means10 V c) (scale10 V c) i := by
  refine pay10_3_eq_centred10 _ _ _ _ (iblk10 V c 1 t) (iblk10 V c 2 t) (iblk10 V c 0 t) (iblk10 V c 3 t) p d i ?_ ?_ ?_ ?_
  · exact featsBlock10_apply V c t (ix2 p d) i hi0 hi1
  · intro g; exact memberBlock10_apply V c t (ix2 p g) (ix2 (i 0 : Fin 50000) g) hi0 rfl
  · intro g
    rw [meansBlock10_apply]
    exact congrArg (means10 V c) (by funext a; apply Fin.ext; match a with | ⟨0, _⟩ => rfl | ⟨1, _⟩ => exact hi1.symm)
  · rw [scaleBlock10_apply]
    exact congrArg (scale10 V c) (by funext a; apply Fin.ext; match a with | ⟨0, _⟩ => rfl | ⟨1, _⟩ => exact hi1.symm)

/-- What point `t` writes back of the row output is block `t` of the centred array of the entry arrays. -/
theorem flushed10_4_eq (c : Dev nD) (t : Fin cfg10.N) :
    (dat10 V c).flushed 4 t = ((cfg10.win 4).blk t).view.read (Elt Ideal) (centred10 (feats10 V c) (member10 V c) (means10 V c) (scale10 V c)) := by
  show (cfg10.win 4).cut (grid10.coords t) ((dat10 V c).after 4 t) = _
  rw [after10_4, outs10_eq]
  have e0 := (blockIndex10 t).2.2.2.2.2.2.2.2.1
  have e1 := (blockIndex10 t).2.2.2.2.2.2.2.2.2.1
  refine funext fun (j : S5000x128.Idx) => ?_
  obtain ⟨p, d, rfl⟩ : ∃ (p : Fin 5000) (d : Fin 128), j = ix2 p d := ⟨j 0, j 1, eq_ix2 j⟩
  rw [View.read_apply]
  have hi0 : ((((cfg10.win 4).blk t).view.emb (ix2 p d)) 0).val = 5000 * t.val + p.val := by
    show win10_4.index t 0 * 5000 + 1 * p.val = _; rw [e0]; omega
  have hi1 : ((((cfg10.win 4).blk t).view.emb (ix2 p d)) 1).val = d.val := by
    show win10_4.index t 1 * 128 + 1 * d.val = _; rw [e1]; omega
  exact centredTile10_apply V c t p d (((cfg10.win 4).blk t).view.emb (ix2 p d)) hi0 hi1

/-- An entry of the row output's array sits in point `t`'s block as soon as its row is `5000 t` plus a row of the
    block and its feature the block's. -/
theorem mem_block10_4 (t : Fin cfg10.N) (y : S5000x128.Idx) (i : S50000x128.Idx)
    (h0 : (i 0).val = 5000 * t.val + (y 0).val) (h1 : (i 1).val = (y 1).val) :
    i ∈ ((cfg10.win 4).blk t).view.set := by
  have e0 := (blockIndex10 t).2.2.2.2.2.2.2.2.1
  have e1 := (blockIndex10 t).2.2.2.2.2.2.2.2.2.1
  have hy : ((cfg10.win 4).blk t).view.emb y = i := by
    funext a
    apply Fin.ext
    match a with
    | ⟨0, _⟩ => show win10_4.index t 0 * 5000 + 1 * (y 0).val = (i 0).val; rw [e0, h0]; omega
    | ⟨1, _⟩ => show win10_4.index t 1 * 128 + 1 * (y 1).val = (i 1).val; rw [e1, h1]; omega
  subst hy
  exact ((cfg10.win 4).blk t).view.emb_mem_set y

/-- Every entry of that array is in the block of the point its row falls in. -/
theorem covered10_4 (i : S50000x128.Idx) :
    ∃ t : Fin cfg10.N, (cfg10.win 4).flush t = true ∧ i ∈ ((cfg10.win 4).blk t).view.set := by
  have h0 : (i 0).val < 50000 := (i 0).isLt
  have hN : cfg10.N = 10 := N_10
  have ht : (i 0).val / 5000 < cfg10.N := by rw [hN]; omega
  refine ⟨⟨(i 0).val / 5000, ht⟩, flush10_4 _,
    mem_block10_4 ⟨(i 0).val / 5000, ht⟩ (ix2 (⟨(i 0).val % 5000, Nat.mod_lt _ (by decide)⟩ : Fin 5000) (i 1 : Fin 128)) i ?_ rfl⟩
  show (i 0).val = 5000 * ((i 0).val / 5000) + (i 0).val % 5000
  omega

/-- So the row output's array ends holding the centred array of the entry arrays. -/
theorem arr10_4_eq (c : Dev nD) :
    (dat10 V c).arrAt 4 cfg10.N = centred10 (feats10 V c) (member10 V c) (means10 V c) (scale10 V c) :=
  (dat10 V c).arrAt_eq_of_cover 4 _ (fun t _ => flushed10_4_eq V c t) covered10_4

/-! ## The matrix output: the sum over all rows of membership times the squared centred feature -/

/-- The two output arrays after the region, at their literal types. -/
abbrev rowOut10 (c : Dev nD) : S50000x128.Idx → EReal := (dat10 V c).arrAt 4 cfg10.N
abbrev matOut10 (c : Dev nD) : S128x128.Idx → EReal := (dat10 V c).arrAt 5 cfg10.N

/-- The term of row `n`: its membership of graph `g` times the square of its centred feature `d`. -/
def sqTerm10 (c : Dev nD) (g d : Fin 128) (n : Fin 50000) : EReal :=
  member10 V c (ix2 n g) * (centred10 (feats10 V c) (member10 V c) (means10 V c) (scale10 V c) (ix2 n d) * centred10 (feats10 V c) (member10 V c) (means10 V c) (scale10 V c) (ix2 n d))

/-- The update of point `t`, in terms of the arrays: the sum of the terms of the tile's rows. -/
theorem tileUpdate10 (c : Dev nD) (t : Fin cfg10.N) (g d : Fin 128) (ht : t.val < 10) :
    (∑ p : Fin 5000, (memberTile10 V c t (ix2 p g) : EReal)
        * ((k10_pay3 (memberTile10 V c t) (meansBlk10 V c t) (featTile10 V c t) (scaleBlk10 V c t) : S5000x128.Idx → EReal) (ix2 p d)
          * (k10_pay3 (memberTile10 V c t) (meansBlk10 V c t) (featTile10 V c t) (scaleBlk10 V c t) : S5000x128.Idx → EReal) (ix2 p d)))
      = ∑ r : Fin 5000, sqTerm10 V c g d ⟨t.val * 5000 + r.val, by have := r.isLt; omega⟩ := by
  refine Finset.sum_congr rfl fun p _ => ?_
  have hrow : t.val * 5000 + p.val < 50000 := by have := p.isLt; omega
  unfold sqTerm10
  rw [centredTile10_apply V c t p d (ix2 (⟨t.val * 5000 + p.val, hrow⟩ : Fin 50000) d) (by show t.val * 5000 + p.val = 5000 * t.val + p.val; omega) rfl]
  exact congrArg (· * _) (memberBlock10_apply V c t (ix2 p g) (ix2 (⟨t.val * 5000 + p.val, hrow⟩ : Fin 50000) g) (by show t.val * 5000 + p.val = 5000 * t.val + p.val; omega) rfl)

/-- The accumulator after position `n`, at an entry: the sum over the tiles up to `n` of their rows' terms. -/
theorem chain10_apply (c : Dev nD) (g d : Fin 128) : ∀ (n : ℕ) (h : n < cfg10.N),
    (chain10 V c n h : S128x128.Idx → EReal) (ix2 g d)
      = ∑ t' ∈ Finset.univ.filter (fun t' : Fin 10 => t'.val < n + 1),
          ∑ r : Fin 5000, sqTerm10 V c g d ⟨t'.val * 5000 + r.val, by have := t'.isLt; have := r.isLt; omega⟩
  | 0, h => by
    rw [Cert.Spec.tiles_lt_succ _ 0 (by decide), Cert.Spec.tiles_lt_zero, zero_add, chain10, pay10_4_apply, pay10_1_apply, zero_add]
    exact tileUpdate10 V c ⟨0, h⟩ g d (Nat.zero_lt_succ 9)
  | n + 1, h => by
    have hN : cfg10.N = 10 := N_10
    have hn : n + 1 < 10 := by rw [← hN]; exact h
    rw [Cert.Spec.tiles_lt_succ _ (n + 1) hn, chain10, pay10_4_apply, chain10_apply c g d n]
    exact congrArg _ (tileUpdate10 V c ⟨n + 1, h⟩ g d hn)

/-- The last position. -/
theorem lastPos10 : 9 < cfg10.N := by rw [show cfg10.N = 10 from N_10]; decide

/-- What the one write-back of the matrix output writes — at the last point, whose block is the whole array — is the
    accumulator's chain after the last point. -/
theorem flushed10_5_eq (c : Dev nD) (t : Fin cfg10.N) (hf : (cfg10.win 5).flush t = true) :
    (dat10 V c).flushed 5 t = ((cfg10.win 5).blk t).view.read (Elt Ideal) (chain10 V c 9 lastPos10) := by
  have hN : cfg10.N = 10 := N_10
  have h9 : t.val = 9 := by have := (flush10_5 t).mp hf; have := t.isLt; omega
  obtain rfl : t = ⟨9, lastPos10⟩ := Fin.ext h9
  show (cfg10.win 5).cut (grid10.coords ⟨9, lastPos10⟩) ((dat10 V c).after 5 ⟨9, lastPos10⟩) = _
  rw [after10_5, outs10_eq]
  have e0 := (blockIndex10 ⟨9, lastPos10⟩).2.2.2.2.2.2.2.2.2.2.1
  have e1 := (blockIndex10 ⟨9, lastPos10⟩).2.2.2.2.2.2.2.2.2.2.2
  refine funext fun (j : S128x128.Idx) => ?_
  rw [View.read_apply]
  show (chain10 V c 9 lastPos10 : S128x128.Idx → EReal) j = (chain10 V c 9 lastPos10 : S128x128.Idx → EReal) _
  congr 1
  funext a
  apply Fin.ext
  match a with
  | ⟨0, _⟩ => show (j 0).val = win10_5.index ⟨9, lastPos10⟩ 0 * 128 + 1 * (j 0).val; rw [e0]; omega
  | ⟨1, _⟩ => show (j 1).val = win10_5.index ⟨9, lastPos10⟩ 1 * 128 + 1 * (j 1).val; rw [e1]; omega

/-- Every entry of the matrix output's array is in the last point's block. -/
theorem covered10_5 (i : S128x128.Idx) :
    ∃ t : Fin cfg10.N, (cfg10.win 5).flush t = true ∧ i ∈ ((cfg10.win 5).blk t).view.set := by
  have e0 := (blockIndex10 ⟨9, lastPos10⟩).2.2.2.2.2.2.2.2.2.2.1
  have e1 := (blockIndex10 ⟨9, lastPos10⟩).2.2.2.2.2.2.2.2.2.2.2
  refine ⟨⟨9, lastPos10⟩, (flush10_5 _).mpr rfl, ?_⟩
  have hy : ((cfg10.win 5).blk ⟨9, lastPos10⟩).view.emb i = i := by
    funext a
    apply Fin.ext
    match a with
    | ⟨0, _⟩ => show win10_5.index ⟨9, lastPos10⟩ 0 * 128 + 1 * (i 0).val = (i 0).val; rw [e0]; omega
    | ⟨1, _⟩ => show win10_5.index ⟨9, lastPos10⟩ 1 * 128 + 1 * (i 1).val = (i 1).val; rw [e1]; omega
  have := ((cfg10.win 5).blk ⟨9, lastPos10⟩).view.emb_mem_set i
  rw [hy] at this
  exact this

/-- So the matrix output's array ends holding the accumulator's chain after the last point. -/
theorem arr10_5_eq (c : Dev nD) : (dat10 V c).arrAt 5 cfg10.N = chain10 V c 9 lastPos10 :=
  (dat10 V c).arrAt_eq_of_cover 5 _ (flushed10_5_eq V c) covered10_5

/-- The row output's array after the region, at row `n` and feature `d`, in plain arithmetic of the entry arrays. -/
theorem arr10_4_apply (c : Dev nD) (n : Fin 50000) (d : Fin 128) :
    rowOut10 V c (ix2 n d)
      = feats10 V c (ix2 n d) - (∑ g : Fin 128, member10 V c (ix2 n g) * means10 V c (ix2 g d)) * scale10 V c (ix2 (0 : Fin 1) d) := by
  have h4 : rowOut10 V c = centred10 (feats10 V c) (member10 V c) (means10 V c) (scale10 V c) := arr10_4_eq V c
  rw [h4]; rfl

/-- The matrix output's array after the region, at graph `g` and feature `d`: the sum over all rows of membership
    times the square of the row output's entry. -/
theorem arr10_5_apply (c : Dev nD) (g d : Fin 128) :
    matOut10 V c (ix2 g d)
      = ∑ n : Fin 50000, member10 V c (ix2 n g) * (rowOut10 V c (ix2 n d) * rowOut10 V c (ix2 n d)) := by
  have h4 : rowOut10 V c = centred10 (feats10 V c) (member10 V c) (means10 V c) (scale10 V c) := arr10_4_eq V c
  have h5 : matOut10 V c = (chain10 V c 9 lastPos10 : S128x128.Idx → EReal) := arr10_5_eq V c
  rw [h5, h4, chain10_apply V c g d 9 lastPos10, Cert.Spec.tiles_lt_all, Cert.Spec.tile_sum (sqTerm10 V c g d)]
  rfl

end Arrays

end Cert.KernelIdeal.Hand

end
-- ==== Proof.KI.Reg11Val.lean ====
import proofs.«408428_j10917806867267_1_alg».proof.Proof.KI.Reg11
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! # The normalising launch's result array, entry by entry, at the ideal values

What the output array holds after the region, read at a row and a feature, as plain arithmetic of the five input
arrays as the region finds them: the feature times its scale, divided by the root of the variance of the row's graph
plus a constant (the membership row picks the graph: a sum over the graphs of membership times variance), plus its
shift, cut off below at zero. First the payload at an entry; then each input block as a restriction of its array,
what each point writes back as a block of one whole-array function, and the cover of the array by the blocks. -/

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The payload at an entry -/

/-- The small constant added under the root. -/
abbrev eps11 : EReal := Ideal.ofBits .f32 0x3727C5AC#32

/-- The membership tile times the variances, at an entry: the sum over the graphs of the products. -/
theorem onehotTimes11_apply (A : FVec Ideal S5000x128 .bf16) (B : FVec Ideal S128x128 .bf16) (p : Fin 5000) (d : Fin 128) :
    matmul dot_S5000x128_S128x128_S5000x128_1_0_0_1_n_n none A B (constant S5000x128 .f32 0x00000000#32) (ix2 p d)
      = ∑ g : Fin 128, A (ix2 p g) * B (ix2 g d) := by
  simp only [matmul]
  rw [Ideal.matmul_constant_zero_apply, ← Equiv.sum_comp (contrEquiv1 dot_S5000x128_S128x128_S5000x128_1_0_0_1_n_n 128 rfl rfl).symm]
  refine Finset.sum_congr rfl fun g _ => ?_
  have cg := contrEquiv1_symm_val dot_S5000x128_S128x128_S5000x128_1_0_0_1_n_n 128 rfl rfl g
  have hl : dot_S5000x128_S128x128_S5000x128_1_0_0_1_n_n.lhsIdx (ix2 p d) ((contrEquiv1 _ 128 rfl rfl).symm g) = ix2 p g := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact cg
  have hr : dot_S5000x128_S128x128_S5000x128_1_0_0_1_n_n.rhsIdx (ix2 p d) ((contrEquiv1 _ 128 rfl rfl).symm g) = ix2 g d := by
    funext ax; apply Fin.ext
    match ax with
    | ⟨0, _⟩ => simp [DotDims.rhsIdx, dot_S5000x128_S128x128_S5000x128_1_0_0_1_n_n]; exact cg
    | ⟨1, _⟩ => simp [DotDims.rhsIdx, dot_S5000x128_S128x128_S5000x128_1_0_0_1_n_n]; rfl
  rw [hl, hr]

/-- The payload at row `p`, feature `d`: the feature scaled, divided by the root of its graph's variance plus the
    constant (the graph picked by the membership row), shifted, and cut off below at zero. -/
theorem pay11_apply (x1 : Vec Ideal S5000x128 .bf16) (x2 : Vec Ideal S128x128 .f32) (x3 : Vec Ideal S1x128 .f32)
    (x0 : Vec Ideal S5000x128 .f32) (x4 : Vec Ideal S1x128 .f32) (p : Fin 5000) (d : Fin 128) :
    (k11_pay1 x1 x2 x3 x0 x4 : S5000x128.Idx → EReal) (ix2 p d)
      = max ((x3 (ix2 (0 : Fin 1) d) : EReal) * (x0 (ix2 p d) : EReal)
              * Ideal.rsqrt ((∑ g : Fin 128, (x1 (ix2 p g) : EReal) * (x2 (ix2 g d) : EReal)) + eps11)
            + (x4 (ix2 (0 : Fin 1) d) : EReal)) 0 := by
  unfold k11_pay1
  rw [maximumf_apply, addf_apply, mulf_apply, mulf_apply]
  simp only [shapeCast_self, broadcastTo_1b_ab_apply, broadcast_apply]
  rw [show ∀ (v : FVec Ideal S5000x128 .f32) (i : S5000x128.Idx), rsqrt v i = Ideal.rsqrt (v i) from fun _ _ => rfl,
    addf_apply, broadcast_apply, onehotTimes11_apply, Ideal.ofBits_def, Ideal.ofBits_def, Ideal.ofBits_zero_f32]
  rfl

/-! ## The normalised array as one function of the five input arrays -/

/-- Entry `i` = (row, feature) of the result, from the whole input arrays. -/
def normalized11 (X H : S50000x128.Idx → EReal) (Vr : S128x128.Idx → EReal) (Wv Bv : S1x128.Idx → EReal) :
    S50000x128.Idx → EReal := fun i =>
  max (Wv (ix2 (0 : Fin 1) (i 1 : Fin 128)) * X i
        * Ideal.rsqrt ((∑ g : Fin 128, H (ix2 (i 0 : Fin 50000) g) * Vr (ix2 g (i 1 : Fin 128))) + eps11)
      + Bv (ix2 (0 : Fin 1) (i 1 : Fin 128))) 0

/-- The payload of blocks that are restrictions of the arrays, at the entry (`p`, `d`) of the block that sits at entry
    `i` of the array, is the normalised array there. -/
theorem pay11_eq_normalized11 (X H : S50000x128.Idx → EReal) (Vr : S128x128.Idx → EReal) (Wv Bv : S1x128.Idx → EReal)
    (x1 : Vec Ideal S5000x128 .bf16) (x2 : Vec Ideal S128x128 .f32) (x3 : Vec Ideal S1x128 .f32)
    (x0 : Vec Ideal S5000x128 .f32) (x4 : Vec Ideal S1x128 .f32) (p : Fin 5000) (d : Fin 128) (i : S50000x128.Idx)
    (h0 : (x0 (ix2 p d) : EReal) = X i)
    (h1 : ∀ g : Fin 128, (x1 (ix2 p g) : EReal) = H (ix2 (i 0 : Fin 50000) g))
    (h2 : ∀ g : Fin 128, (x2 (ix2 g d) : EReal) = Vr (ix2 g (i 1 : Fin 128)))
    (h3 : (x3 (ix2 (0 : Fin 1) d) : EReal) = Wv (ix2 (0 : Fin 1) (i 1 : Fin 128)))
    (h4 : (x4 (ix2 (0 : Fin 1) d) : EReal) = Bv (ix2 (0 : Fin 1) (i 1 : Fin 128))) :
    (k11_pay1 x1 x2 x3 x0 x4 : S5000x128.Idx → EReal) (ix2 p d) = normalized11 X H Vr Wv Bv i := by
  rw [pay11_apply, h0, h3, h4]
  unfold normalized11
  simp only [h1, h2]

/-! ## From the blocks to the array -/

theorem zeroOffsets11 : (![0, 0] : Fin 2 → Nat) = fun _ => 0 := funext fun a => by fin_cases a <;> rfl

/-- The output buffer after the body is the payload of the five input buffers: the single store is the whole buffer
    and every load reads its buffer whole. -/
theorem out11_5_eq (x0 : Vec Ideal S5000x128 .f32) (x1 : Vec Ideal S5000x128 .bf16) (x2 : Vec Ideal S128x128 .f32)
    (x3 : Vec Ideal S1x128 .f32) (x4 : Vec Ideal S1x128 .f32) :
    out11_5 x0 x1 x2 x3 x4 = (k11_pay1 x1 x2 x3 x0 x4 : Vec Ideal S5000x128 .f32) := by
  unfold out11_5
  rw [View.canon_unit_zero zeroOffsets11]
  simp only [View.ld_unit_zero (S := S5000x128) zeroOffsets11, View.ld_unit_zero (S := S128x128) zeroOffsets11,
    View.ld_unit_zero (S := S1x128) zeroOffsets11]

/-- The windows' block indices, decided over the grid: the row tiles move with the point, the variances and the two
    rows stay at the origin. -/
theorem blockIndex11 : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

/-- The five input arrays as the region finds them, as functions of their indices. -/
abbrev feats11 (c : Dev nD) : S50000x128.Idx → EReal := V c (Pipeline.arrRef spec11 0)
abbrev member11 (c : Dev nD) : S50000x128.Idx → EReal := V c (Pipeline.arrRef spec11 1)
abbrev vars11 (c : Dev nD) : S128x128.Idx → EReal := V c (Pipeline.arrRef spec11 2)
abbrev scale11 (c : Dev nD) : S1x128.Idx → EReal := V c (Pipeline.arrRef spec11 3)
abbrev shift11 (c : Dev nD) : S1x128.Idx → EReal := V c (Pipeline.arrRef spec11 4)

/-- The feature tile at point `t` is rows `5000 t …` of the feature array. -/
theorem featsBlock11_apply (c : Dev nD) (t : Fin cfg11.N) (y : S5000x128.Idx) (k : S50000x128.Idx)
    (hk0 : (k 0).val = 5000 * t.val + (y 0).val) (hk1 : (k 1).val = (y 1).val) :
    ((iblk11 V c 0 t : Vec Ideal S5000x128 .f32) y : EReal) = feats11 V c k := by
  obtain ⟨e0, e1, -⟩ := blockIndex11 t
  unfold iblk11
  rw [View.read_apply]
  show V c (Pipeline.arrRef spec11 0) _ = V c (Pipeline.arrRef spec11 0) _
  congr 1
  funext a
  apply Fin.ext
  match a with
  | ⟨0, _⟩ => show win11_0.index t 0 * 5000 + 1 * (y 0).val = (k 0).val; rw [e0, hk0]; omega
  | ⟨1, _⟩ => show win11_0.index t 1 * 128 + 1 * (y 1).val = (k 1).val; rw [e1, hk1]; omega

/-- The membership tile at point `t` is the same rows of the membership array. -/
theorem memberBlock11_apply (c : Dev nD) (t : Fin cfg11.N) (y : S5000x128.Idx) (k : S50000x128.Idx)
    (hk0 : (k 0).val = 5000 * t.val + (y 0).val) (hk1 : (k 1).val = (y 1).val) :
    ((iblk11 V c 1 t : Vec Ideal S5000x128 .bf16) y : EReal) = member11 V c k := by
  obtain ⟨-, -, e0, e1, -⟩ := blockIndex11 t
  unfold iblk11
  rw [View.read_apply]
  show V c (Pipeline.arrRef spec11 1) _ = V c (Pipeline.arrRef spec11 1) _
  congr 1
  funext a
  apply Fin.ext
  match a with
  | ⟨0, _⟩ => show win11_1.index t 0 * 5000 + 1 * (y 0).val = (k 0).val; rw [e0, hk0]; omega
  | ⟨1, _⟩ => show win11_1.index t 1 * 128 + 1 * (y 1).val = (k 1).val; rw [e1, hk1]; omega

/-- The variances' block is the whole array at every point. -/
theorem varsBlock11_apply (c : Dev nD) (t : Fin cfg11.N) (y : S128x128.Idx) :
    ((iblk11 V c 2 t : Vec Ideal S128x128 .f32) y : EReal) = vars11 V c y := by
  obtain ⟨-, -, -, -, e0, e1, -⟩ := blockIndex11 t
  unfold iblk11
  rw [View.read_apply]
  show V c (Pipeline.arrRef spec11 2) _ = V c (Pipeline.arrRef spec11 2) _
  congr 1
  funext a
  apply Fin.ext
  match a with
  | ⟨0, _⟩ => show win11_2.index t 0 * 128 + 1 * (y 0).val = (y 0).val; rw [e0]; omega
  | ⟨1, _⟩ => show win11_2.index t 1 * 128 + 1 * (y 1).val = (y 1).val; rw [e1]; omega

/-- The scale row's block is the whole row at every point. -/
theorem scaleBlock11_apply (c : Dev nD) (t : Fin cfg11.N) (y : S1x128.Idx) :
    ((iblk11 V c 3 t : Vec Ideal S1x128 .f32) y : EReal) = scale11 V c y := by
  obtain ⟨-, -, -, -, -, -, e0, e1, -⟩ := blockIndex11 t
  unfold iblk11
  rw [View.read_apply]
  show V c (Pipeline.arrRef spec11 3) _ = V c (Pipeline.arrRef spec11 3) _
  congr 1
  funext a
  apply Fin.ext
  match a with
  | ⟨0, _⟩ => show win11_3.index t 0 * 1 + 1 * (y 0).val = (y 0).val; rw [e0]; omega
  | ⟨1, _⟩ => show win11_3.index t 1 * 128 + 1 * (y 1).val = (y 1).val; rw [e1]; omega

/-- The shift row's block is the whole row at every point. -/
theorem shiftBlock11_apply (c : Dev nD) (t : Fin cfg11.N) (y : S1x128.Idx) :
    ((iblk11 V c 4 t : Vec Ideal S1x128 .f32) y : EReal) = shift11 V c y := by
  obtain ⟨-, -, -, -, -, -, -, -, e0, e1, -⟩ := blockIndex11 t
  unfold iblk11
  rw [View.read_apply]
  show V c (Pipeline.arrRef spec11 4) _ = V c (Pipeline.arrRef spec11 4) _
  congr 1
  funext a
  apply Fin.ext
  match a with
  | ⟨0, _⟩ => show win11_4.index t 0 * 1 + 1 * (y 0).val = (y 0).val; rw [e0]; omega
  | ⟨1, _⟩ => show win11_4.index t 1 * 128 + 1 * (y 1).val = (y 1).val; rw [e1]; omega

/-- What point `t` writes back is block `t` of the normalised array of the entry arrays. -/
theorem flushed11_5_eq (c : Dev nD) (t : Fin cfg11.N) :
    (dat11 V c).flushed 5 t = ((cfg11.win 5).blk t).view.read (Elt Ideal)
      (normalized11 (feats11 V c) (member11 V c) (vars11 V c) (scale11 V c) (shift11 V c)) := by
  show (cfg11.win 5).cut (grid11.coords t) ((dat11 V c).after 5 t) = _
  rw [after11_5, out11_5_eq]
  obtain ⟨-, -, -, -, -, -, -, -, -, -, e0, e1⟩ := blockIndex11 t
  refine funext fun (j : S5000x128.Idx) => ?_
  obtain ⟨p, d, rfl⟩ : ∃ (p : Fin 5000) (d : Fin 128), j = ix2 p d := ⟨j 0, j 1, eq_ix2 j⟩
  rw [View.read_apply]
  have hi0 : ((((cfg11.win 5).blk t).view.emb (ix2 p d)) 0).val = 5000 * t.val + p.val := by
    show win11_5.index t 0 * 5000 + 1 * p.val = _; rw [e0]; omega
  have hi1 : ((((cfg11.win 5).blk t).view.emb (ix2 p d)) 1).val = d.val := by
    show win11_5.index t 1 * 128 + 1 * d.val = _; rw [e1]; omega
  refine pay11_eq_normalized11 _ _ _ _ _ (iblk11 V c 1 t) (iblk11 V c 2 t) (iblk11 V c 3 t) (iblk11 V c 0 t) (iblk11 V c 4 t) p d
    (((cfg11.win 5).blk t).view.emb (ix2 p d)) ?_ ?_ ?_ ?_ ?_
  · exact featsBlock11_apply V c t (ix2 p d) _ hi0 hi1
  · intro g; exact memberBlock11_apply V c t _ _ hi0 rfl
  · intro g
    rw [varsBlock11_apply]
    exact congrArg (vars11 V c) (by funext a; apply Fin.ext; match a with | ⟨0, _⟩ => rfl | ⟨1, _⟩ => exact hi1.symm)
  · rw [scaleBlock11_apply]
    exact congrArg (scale11 V c) (by funext a; apply Fin.ext; match a with | ⟨0, _⟩ => rfl | ⟨1, _⟩ => exact hi1.symm)
  · rw [shiftBlock11_apply]
    exact congrArg (shift11 V c) (by funext a; apply Fin.ext; match a with | ⟨0, _⟩ => rfl | ⟨1, _⟩ => exact hi1.symm)

/-- An entry of the array sits in point `t`'s block as soon as its row is `5000 t` plus a row of the block and its
    feature the block's: it is the image of that block entry. -/
theorem mem_block11_5 (t : Fin cfg11.N) (y : S5000x128.Idx) (i : S50000x128.Idx)
    (h0 : (i 0).val = 5000 * t.val + (y 0).val) (h1 : (i 1).val = (y 1).val) :
    i ∈ ((cfg11.win 5).blk t).view.set := by
  obtain ⟨-, -, -, -, -, -, -, -, -, -, e0, e1⟩ := blockIndex11 t
  have hy : ((cfg11.win 5).blk t).view.emb y = i := by
    funext a
    apply Fin.ext
    match a with
    | ⟨0, _⟩ => show win11_5.index t 0 * 5000 + 1 * (y 0).val = (i 0).val; rw [e0, h0]; omega
    | ⟨1, _⟩ => show win11_5.index t 1 * 128 + 1 * (y 1).val = (i 1).val; rw [e1, h1]; omega
  subst hy
  exact ((cfg11.win 5).blk t).view.emb_mem_set y

/-- Every entry of the array is in the block of the point its row falls in. -/
theorem covered11_5 (i : S50000x128.Idx) :
    ∃ t : Fin cfg11.N, (cfg11.win 5).flush t = true ∧ i ∈ ((cfg11.win 5).blk t).view.set := by
  have h0 : (i 0).val < 50000 := (i 0).isLt
  have hN : cfg11.N = 10 := N_11
  have ht : (i 0).val / 5000 < cfg11.N := by rw [hN]; omega
  refine ⟨⟨(i 0).val / 5000, ht⟩, flush11_5 _,
    mem_block11_5 ⟨(i 0).val / 5000, ht⟩ (ix2 (⟨(i 0).val % 5000, Nat.mod_lt _ (by decide)⟩ : Fin 5000) (i 1 : Fin 128)) i ?_ rfl⟩
  show (i 0).val = 5000 * ((i 0).val / 5000) + (i 0).val % 5000
  omega

/-- So the output array ends holding the normalised array of the entry arrays. -/
theorem arr11_5_eq (c : Dev nD) :
    (dat11 V c).arrAt 5 cfg11.N = normalized11 (feats11 V c) (member11 V c) (vars11 V c) (scale11 V c) (shift11 V c) :=
  (dat11 V c).arrAt_eq_of_cover 5 _ (fun t _ => flushed11_5_eq V c t) covered11_5

/-- The output array after the region, at row `n` and feature `d`, in plain arithmetic of the entry arrays. -/
theorem arr11_5_apply (c : Dev nD) (n : Fin 50000) (d : Fin 128) :
    ((dat11 V c).arrAt 5 cfg11.N : S50000x128.Idx → EReal) (ix2 n d)
      = max (scale11 V c (ix2 (0 : Fin 1) d) * feats11 V c (ix2 n d)
              * Ideal.rsqrt ((∑ g : Fin 128, member11 V c (ix2 n g) * vars11 V c (ix2 g d)) + eps11)
            + shift11 V c (ix2 (0 : Fin 1) d)) 0 := by
  rw [arr11_5_eq]; rfl

end Cert.KernelIdeal.Hand
-- ==== Proof.KI.Reg12Val.lean ====
import proofs.«408428_j10917806867267_1_alg».proof.Proof.KI.Reg12
import proofs.«408428_j10917806867267_1_alg».proof.Proof.Spec3
import proofs.«408428_j10917806867267_1_alg».proof.Proof.Consts
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! # The pooling head's result array, entry by entry, at the ideal values

What the result array holds after the region, read at a graph and a class, as plain arithmetic of the eight input
arrays as the region finds them: each graph's features summed over its nodes (the membership matrix transposed times
the features, accumulated tile by tile), three affine layers with a rectifier after the first two, and the logarithm
of the softmax of each graph's row. First the payloads at an entry (the products as sums, the row maximum as a
supremum, the row sum of exponentials); then each block as a restriction of its array, the accumulated value by
induction on the point, what the last point writes back, and the cover of the array by that one block. -/

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Spec Cert.Spec2 Cert.Spec3

/-! ## Three layouts read at an entry -/

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The entry of a `[128, 10]` array over row `g` with lane `k` put back on the reduced axis. -/
theorem lift12 (g : Fin 128) (k : Fin (S128x10.size 1)) :
    reduces_S128x10_S128.lift (ix1 g) k = (ix2 g (k : Fin 10) : S128x10.Idx) := by
  funext c
  apply Fin.ext
  show Shape.Reduces.liftVal reduces_S128x10_S128 (ix1 g) k.val c = (ix2 g (k : Fin 10) c).val
  unfold Shape.Reduces.liftVal
  match c with
  | ⟨0, _⟩ => simp
  | ⟨1, _⟩ => simp

/-! ## The products as sums -/

/-- The transposed membership tile times the feature tile, at an entry: the sum over the tile's rows of the products. -/
theorem ohT12_apply (A : FVec Ideal S5000x128 .bf16) (B : FVec Ideal S5000x128 .bf16) (p : Fin 128) (q : Fin 128) :
    matmul dot_S5000x128_S5000x128_S128x128_0_0_1_1_n_n none A B (constant S128x128 .f32 0x00000000#32) (ix2 p q)
      = ∑ r : Fin 5000, A (ix2 r p) * B (ix2 r q) := by
  simp only [matmul]
  rw [Ideal.matmul_constant_zero_apply, ← Equiv.sum_comp (contrEquiv1 dot_S5000x128_S5000x128_S128x128_0_0_1_1_n_n 5000 rfl rfl).symm]
  refine Finset.sum_congr rfl fun r _ => ?_
  have cg := contrEquiv1_symm_val dot_S5000x128_S5000x128_S128x128_0_0_1_1_n_n 5000 rfl rfl r
  have hl : dot_S5000x128_S5000x128_S128x128_0_0_1_1_n_n.lhsIdx (ix2 p q) ((contrEquiv1 _ 5000 rfl rfl).symm r) = ix2 r p := by
    funext ax; apply Fin.ext
    match ax with
    | ⟨0, _⟩ => simp [DotDims.lhsIdx, dot_S5000x128_S5000x128_S128x128_0_0_1_1_n_n]; exact cg
    | ⟨1, _⟩ => simp [DotDims.lhsIdx, dot_S5000x128_S5000x128_S128x128_0_0_1_1_n_n]; rfl
  have hr : dot_S5000x128_S5000x128_S128x128_0_0_1_1_n_n.rhsIdx (ix2 p q) ((contrEquiv1 _ 5000 rfl rfl).symm r) = ix2 r q := by
    funext ax; apply Fin.ext
    match ax with
    | ⟨0, _⟩ => simp [DotDims.rhsIdx, dot_S5000x128_S5000x128_S128x128_0_0_1_1_n_n]; exact cg
    | ⟨1, _⟩ => simp [DotDims.rhsIdx, dot_S5000x128_S5000x128_S128x128_0_0_1_1_n_n]; rfl
  rw [hl, hr]

/-- A square product at an entry. -/
theorem mm12_apply (A : FVec Ideal S128x128 .bf16) (B : FVec Ideal S128x128 .bf16) (p : Fin 128) (q : Fin 128) :
    matmul dot_S128x128_S128x128_S128x128_1_0_0_1_n_n none A B (constant S128x128 .f32 0x00000000#32) (ix2 p q)
      = ∑ r : Fin 128, A (ix2 p r) * B (ix2 r q) := by
  simp only [matmul]
  rw [Ideal.matmul_constant_zero_apply, ← Equiv.sum_comp (contrEquiv1 dot_S128x128_S128x128_S128x128_1_0_0_1_n_n 128 rfl rfl).symm]
  refine Finset.sum_congr rfl fun r _ => ?_
  have cg := contrEquiv1_symm_val dot_S128x128_S128x128_S128x128_1_0_0_1_n_n 128 rfl rfl r
  have hl : dot_S128x128_S128x128_S128x128_1_0_0_1_n_n.lhsIdx (ix2 p q) ((contrEquiv1 _ 128 rfl rfl).symm r) = ix2 p r := by
    funext ax; apply Fin.ext
    match ax with
    | ⟨0, _⟩ => simp [DotDims.lhsIdx, dot_S128x128_S128x128_S128x128_1_0_0_1_n_n]; rfl
    | ⟨1, _⟩ => simp [DotDims.lhsIdx, dot_S128x128_S128x128_S128x128_1_0_0_1_n_n]; exact cg
  have hr : dot_S128x128_S128x128_S128x128_1_0_0_1_n_n.rhsIdx (ix2 p q) ((contrEquiv1 _ 128 rfl rfl).symm r) = ix2 r q := by
    funext ax; apply Fin.ext
    match ax with
    | ⟨0, _⟩ => simp [DotDims.rhsIdx, dot_S128x128_S128x128_S128x128_1_0_0_1_n_n]; exact cg
    | ⟨1, _⟩ => simp [DotDims.rhsIdx, dot_S128x128_S128x128_S128x128_1_0_0_1_n_n]; rfl
  rw [hl, hr]

/-- The product with the last layer's weights at an entry. -/
theorem mm12o_apply (A : FVec Ideal S128x128 .bf16) (B : FVec Ideal S128x10 .bf16) (p : Fin 128) (q : Fin 10) :
    matmul dot_S128x128_S128x10_S128x10_1_0_0_1_n_n none A B (constant S128x10 .f32 0x00000000#32) (ix2 p q)
      = ∑ r : Fin 128, A (ix2 p r) * B (ix2 r q) := by
  simp only [matmul]
  rw [Ideal.matmul_constant_zero_apply, ← Equiv.sum_comp (contrEquiv1 dot_S128x128_S128x10_S128x10_1_0_0_1_n_n 128 rfl rfl).symm]
  refine Finset.sum_congr rfl fun r _ => ?_
  have cg := contrEquiv1_symm_val dot_S128x128_S128x10_S128x10_1_0_0_1_n_n 128 rfl rfl r
  have hl : dot_S128x128_S128x10_S128x10_1_0_0_1_n_n.lhsIdx (ix2 p q) ((contrEquiv1 _ 128 rfl rfl).symm r) = ix2 p r := by
    funext ax; apply Fin.ext
    match ax with
    | ⟨0, _⟩ => simp [DotDims.lhsIdx, dot_S128x128_S128x10_S128x10_1_0_0_1_n_n]; rfl
    | ⟨1, _⟩ => simp [DotDims.lhsIdx, dot_S128x128_S128x10_S128x10_1_0_0_1_n_n]; exact cg
  have hr : dot_S128x128_S128x10_S128x10_1_0_0_1_n_n.rhsIdx (ix2 p q) ((contrEquiv1 _ 128 rfl rfl).symm r) = ix2 r q := by
    funext ax; apply Fin.ext
    match ax with
    | ⟨0, _⟩ => simp [DotDims.rhsIdx, dot_S128x128_S128x10_S128x10_1_0_0_1_n_n]; exact cg
    | ⟨1, _⟩ => simp [DotDims.rhsIdx, dot_S128x128_S128x10_S128x10_1_0_0_1_n_n]; rfl
  rw [hl, hr]

/-! ## One accumulation step at an entry -/

/-- The accumulated payload at graph `g`, feature `d`: the old value plus the sum over the tile's rows of membership
    times feature. -/
theorem pay12_2_apply (v3 : Vec Ideal S5000x128 .bf16) (v5 : Vec Ideal S5000x128 .f32) (v8 : Vec Ideal S128x128 .f32)
    (g d : Fin 128) :
    (k12_pay2 v3 v5 v8 : S128x128.Idx → EReal) (ix2 g d)
      = (v8 (ix2 g d) : EReal) + ∑ r : Fin 5000, (v3 (ix2 r g) : EReal) * (v5 (ix2 r d) : EReal) := by
  unfold k12_pay2
  simp only [shapeCast_self]
  rw [addf_apply, ohT12_apply]
  simp only [truncf_apply]

/-! ## The head at an entry -/

theorem exp_apply12 {s : Shape} (v : FVec Ideal s .f32) (i : s.Idx) : exp v i = Ideal.exp (v i) := rfl
theorem log_apply12 {s : Shape} (v : FVec Ideal s .f32) (i : s.Idx) : log v i = Ideal.log (v i) := rfl

/-- The row maximum of a `[128, 10]` array taken from minus infinity, at row `g`, is the supremum of the row. -/
theorem rowmax12 (v : FVec Ideal S128x10 .f32) (hφ : FKind.Formats .f32)
    (hacc : (0xFF800000#32 : BitVec (FTy.f32).bits) = FKind.maximumf.neutral .f32 hφ) (g : Fin 128) :
    multiReduction .maximumf [1] S128 v 0xFF800000#32 reduces_S128x10_S128 hφ hacc (ix1 g)
      = rowMax (fun k : Fin 10 => (v (ix2 g k) : EReal)) := by
  rw [Ideal.multiReduction_maximumf_single, Cert.Consts.floatOps_neg_inf, fold_max_bot]
  show (Finset.univ : Finset (Fin 10)).sup (fun k => (v (reduces_S128x10_S128.lift (ix1 g) k) : EReal)) = _
  unfold rowMax
  exact congrArg (Finset.sup Finset.univ) (funext fun k => congrArg v (lift12 g k))

/-- The shifted logits at graph `g`, class `k`: the logit minus the row's maximum. -/
theorem pay12_4_apply (v17 : Vec Ideal S128x128 .f32) (v19 : Vec Ideal S128x128 .f32) (v22 : Vec Ideal S1x128 .f32) (v29 : Vec Ideal S128x128 .f32) (v32 : Vec Ideal S1x128 .f32) (v39 : Vec Ideal S128x10 .f32) (v42 : Vec Ideal S1x10 .f32) (g : Fin 128) (k : Fin 10) :
    (k12_pay4 v17 v19 v22 v29 v32 v39 v42 : S128x10.Idx → EReal) (ix2 g k)
      = (logits (fun g i => (v17 (ix2 g i) : EReal)) (fun i j => (v19 (ix2 i j) : EReal)) (fun j => (v22 (ix2 (0 : Fin 1) j) : EReal))
        (fun i j => (v29 (ix2 i j) : EReal)) (fun j => (v32 (ix2 (0 : Fin 1) j) : EReal)) (fun i k => (v39 (ix2 i k) : EReal))
        (fun k => (v42 (ix2 (0 : Fin 1) k) : EReal)) g) k
        - rowMax (logits (fun g i => (v17 (ix2 g i) : EReal)) (fun i j => (v19 (ix2 i j) : EReal)) (fun j => (v22 (ix2 (0 : Fin 1) j) : EReal))
        (fun i j => (v29 (ix2 i j) : EReal)) (fun j => (v32 (ix2 (0 : Fin 1) j) : EReal)) (fun i k => (v39 (ix2 i k) : EReal))
        (fun k => (v42 (ix2 (0 : Fin 1) k) : EReal)) g) := by
  unfold k12_pay4
  rw [subf_apply, broadcastTo_a1_ab_apply, shapeCast_a_a1_apply, maximumf_apply]
  erw [rowmax12]
  simp only [broadcast_apply, Cert.Consts.scalar_neg_inf, max_bot_left', addf_apply, mm12o_apply, mm12_apply, truncf_apply, maximumf_apply, broadcastTo_1b_ab_apply,
    shapeCast_self, Cert.Consts.scalar_zero]
  rfl

/-- The sum of the exponentials of a row's shifted logits. -/
theorem pay12_5_apply (v17 : Vec Ideal S128x128 .f32) (v19 : Vec Ideal S128x128 .f32) (v22 : Vec Ideal S1x128 .f32) (v29 : Vec Ideal S128x128 .f32) (v32 : Vec Ideal S1x128 .f32) (v39 : Vec Ideal S128x10 .f32) (v42 : Vec Ideal S1x10 .f32) (g : Fin 128) (u : Fin 1) :
    (k12_pay5 v17 v19 v22 v29 v32 v39 v42 : S128x1.Idx → EReal) (ix2 g u)
      = ∑ j : Fin 10, Ideal.exp ((k12_pay4 v17 v19 v22 v29 v32 v39 v42 : S128x10.Idx → EReal) (ix2 g j)) := by
  unfold k12_pay5
  rw [shapeCast_a_a1_apply]
  erw [Ideal.multiReduction_add_single]
  refine Finset.sum_congr rfl fun j _ => ?_
  rw [lift12, exp_apply12]

/-- The stored payload: the shifted logit minus the logarithm of the row's sum of exponentials. -/
theorem pay12_3_apply (v51 : FVec Ideal S128x10 .f32) (v54 : FVec Ideal S128x1 .f32) (g : Fin 128) (k : Fin 10) :
    (k12_pay3 v51 v54 : S128x10.Idx → EReal) (ix2 g k) = v51 (ix2 g k) - Ideal.log (v54 (ix2 g (0 : Fin 1))) := by
  unfold k12_pay3
  rw [subf_apply, broadcastTo_a1_ab_apply, log_apply12]

/-- The head's payload at graph `g`, class `k`, is the logarithm of the softmax of the graph's logits. -/
theorem head12_pay_apply (v17 : Vec Ideal S128x128 .f32) (v19 : Vec Ideal S128x128 .f32) (v22 : Vec Ideal S1x128 .f32) (v29 : Vec Ideal S128x128 .f32) (v32 : Vec Ideal S1x128 .f32) (v39 : Vec Ideal S128x10 .f32) (v42 : Vec Ideal S1x10 .f32) (g : Fin 128) (k : Fin 10) :
    (k12_pay3 (k12_pay4 v17 v19 v22 v29 v32 v39 v42) (k12_pay5 v17 v19 v22 v29 v32 v39 v42) : S128x10.Idx → EReal) (ix2 g k)
      = head (fun g i => (v17 (ix2 g i) : EReal)) (fun i j => (v19 (ix2 i j) : EReal)) (fun j => (v22 (ix2 (0 : Fin 1) j) : EReal))
        (fun i j => (v29 (ix2 i j) : EReal)) (fun j => (v32 (ix2 (0 : Fin 1) j) : EReal)) (fun i k => (v39 (ix2 i k) : EReal))
        (fun k => (v42 (ix2 (0 : Fin 1) k) : EReal)) g k := by
  rw [pay12_3_apply, pay12_5_apply, pay12_4_apply]
  simp only [pay12_4_apply]
  rfl

/-! ## From the blocks to the arrays -/

section Arrays

variable (V : (c : Dev nD) → (b : Ref sig .tc) → Buf (Elt Ideal) ((c : Thread nD τ).loc b))

theorem zeroOffsets12 : (![0, 0] : Fin 2 → Nat) = fun _ => 0 := funext fun a => by fin_cases a <;> rfl

/-- One accumulation step is its payload of the two tiles and the old value: the store is the whole buffer and every
    load reads its buffer whole. -/
theorem acc12_eq (x0 : Vec Ideal S5000x128 .f32) (x1 : Vec Ideal S5000x128 .bf16) (s : Vec Ideal S128x128 .f32) :
    acc12 x0 x1 s = (k12_pay2 x1 x0 s : Vec Ideal S128x128 .f32) := by
  unfold acc12
  rw [View.canon_unit_zero zeroOffsets12]
  simp only [View.ld_unit_zero (S := S5000x128) zeroOffsets12, View.ld_unit_zero (S := S128x128) zeroOffsets12]

/-- The zero fill reads zero everywhere. -/
theorem zero12_apply (g d : Fin 128) : ((zero12 : Vec Ideal S128x128 .f32) (ix2 g d) : EReal) = 0 := by
  unfold zero12
  rw [View.canon_unit_zero zeroOffsets12]
  unfold k12_pay1
  simp only [shapeCast_self, broadcast_apply]
  exact Cert.Consts.scalar_zero

/-- The head's store is its payload of the accumulated value and the six parameter blocks. -/
theorem head12_eq (a : Vec Ideal S128x128 .f32) (x2 : Vec Ideal S128x128 .f32) (x3 : Vec Ideal S1x128 .f32)
    (x4 : Vec Ideal S128x128 .f32) (x5 : Vec Ideal S1x128 .f32) (x6 : Vec Ideal S128x10 .f32) (x7 : Vec Ideal S1x10 .f32) :
    head12 a x2 x3 x4 x5 x6 x7
      = (k12_pay3 (k12_pay4 a x2 x3 x4 x5 x6 x7) (k12_pay5 a x2 x3 x4 x5 x6 x7) : Vec Ideal S128x10 .f32) := by
  unfold head12
  rw [View.canon_unit_zero zeroOffsets12]
  simp only [View.ld_unit_zero (S := S128x128) zeroOffsets12, View.ld_unit_zero (S := S1x128) zeroOffsets12,
    View.ld_unit_zero (S := S128x10) zeroOffsets12, View.ld_unit_zero (S := S1x10) zeroOffsets12]

/-- The windows' block indices, decided over the grid: the two row tiles move with the point, every other window stays
    at the origin. -/
theorem blockIndex12 : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = 0 ∧ win12_5.index t (1 : Fin 2) = 0
    ∧ win12_6.index t (0 : Fin 2) = 0 ∧ win12_6.index t (1 : Fin 2) = 0
    ∧ win12_7.index t (0 : Fin 2) = 0 ∧ win12_7.index t (1 : Fin 2) = 0
    ∧ win12_8.index t (0 : Fin 2) = 0 ∧ win12_8.index t (1 : Fin 2) = 0 :=
  (by decide +kernel : ∀ t : Fin grid12.N, _)

/-- The eight input arrays as the region finds them, as functions of their indices. -/
abbrev feats12 (c : Dev nD) : S50000x128.Idx → EReal := V c (Pipeline.arrRef spec12 0)
abbrev member12 (c : Dev nD) : S50000x128.Idx → EReal := V c (Pipeline.arrRef spec12 1)
abbrev fw1_12 (c : Dev nD) : S128x128.Idx → EReal := V c (Pipeline.arrRef spec12 2)
abbrev fb1_12 (c : Dev nD) : S1x128.Idx → EReal := V c (Pipeline.arrRef spec12 3)
abbrev fw2_12 (c : Dev nD) : S128x128.Idx → EReal := V c (Pipeline.arrRef spec12 4)
abbrev fb2_12 (c : Dev nD) : S1x128.Idx → EReal := V c (Pipeline.arrRef spec12 5)
abbrev fw3_12 (c : Dev nD) : S128x10.Idx → EReal := V c (Pipeline.arrRef spec12 6)
abbrev fb3_12 (c : Dev nD) : S1x10.Idx → EReal := V c (Pipeline.arrRef spec12 7)

/-- The feature tile at point `t` is rows `5000 t …` of the feature array. -/
theorem featsBlock12_apply (c : Dev nD) (t : Fin cfg12.N) (y : S5000x128.Idx) (k : S50000x128.Idx)
    (hk0 : (k 0).val = 5000 * t.val + (y 0).val) (hk1 : (k 1).val = (y 1).val) :
    ((iblk12 V c 0 t : Vec Ideal S5000x128 .f32) y : EReal) = feats12 V c k := by
  obtain ⟨e0, e1, -⟩ := blockIndex12 t
  unfold iblk12
  rw [View.read_apply]
  show V c (Pipeline.arrRef spec12 0) _ = V c (Pipeline.arrRef spec12 0) _
  congr 1
  funext a
  apply Fin.ext
  match a with
  | ⟨0, _⟩ => show win12_0.index t 0 * 5000 + 1 * (y 0).val = (k 0).val; rw [e0, hk0]; omega
  | ⟨1, _⟩ => show win12_0.index t 1 * 128 + 1 * (y 1).val = (k 1).val; rw [e1, hk1]; omega

/-- The membership tile at point `t` is the same rows of the membership array. -/
theorem memberBlock12_apply (c : Dev nD) (t : Fin cfg12.N) (y : S5000x128.Idx) (k : S50000x128.Idx)
    (hk0 : (k 0).val = 5000 * t.val + (y 0).val) (hk1 : (k 1).val = (y 1).val) :
    ((iblk12 V c 1 t : Vec Ideal S5000x128 .bf16) y : EReal) = member12 V c k := by
  obtain ⟨-, -, e0, e1, -⟩ := blockIndex12 t
  unfold iblk12
  rw [View.read_apply]
  show V c (Pipeline.arrRef spec12 1) _ = V c (Pipeline.arrRef spec12 1) _
  congr 1
  funext a
  apply Fin.ext
  match a with
  | ⟨0, _⟩ => show win12_1.index t 0 * 5000 + 1 * (y 0).val = (k 0).val; rw [e0, hk0]; omega
  | ⟨1, _⟩ => show win12_1.index t 1 * 128 + 1 * (y 1).val = (k 1).val; rw [e1, hk1]; omega

/-- Each parameter's block is its whole array at every point. -/
theorem wBlock12_2_apply (c : Dev nD) (t : Fin cfg12.N) (y : S128x128.Idx) :
    ((iblk12 V c 2 t : Vec Ideal S128x128 .f32) y : EReal) = fw1_12 V c y := by
  obtain ⟨-, -, -, -, e0, e1, -⟩ := blockIndex12 t
  unfold iblk12
  rw [View.read_apply]
  show V c (Pipeline.arrRef spec12 2) _ = V c (Pipeline.arrRef spec12 2) _
  congr 1
  funext a
  apply Fin.ext
  match a with
  | ⟨0, _⟩ => show win12_2.index t 0 * 128 + 1 * (y 0).val = (y 0).val; rw [e0]; omega
  | ⟨1, _⟩ => show win12_2.index t 1 * 128 + 1 * (y 1).val = (y 1).val; rw [e1]; omega

theorem wBlock12_3_apply (c : Dev nD) (t : Fin cfg12.N) (y : S1x128.Idx) :
    ((iblk12 V c 3 t : Vec Ideal S1x128 .f32) y : EReal) = fb1_12 V c y := by
  obtain ⟨-, -, -, -, -, -, e0, e1, -⟩ := blockIndex12 t
  unfold iblk12
  rw [View.read_apply]
  show V c (Pipeline.arrRef spec12 3) _ = V c (Pipeline.arrRef spec12 3) _
  congr 1
  funext a
  apply Fin.ext
  match a with
  | ⟨0, _⟩ => show win12_3.index t 0 * 1 + 1 * (y 0).val = (y 0).val; rw [e0]; omega
  | ⟨1, _⟩ => show win12_3.index t 1 * 128 + 1 * (y 1).val = (y 1).val; rw [e1]; omega

theorem wBlock12_4_apply (c : Dev nD) (t : Fin cfg12.N) (y : S128x128.Idx) :
    ((iblk12 V c 4 t : Vec Ideal S128x128 .f32) y : EReal) = fw2_12 V c y := by
  obtain ⟨-, -, -, -, -, -, -, -, e0, e1, -⟩ := blockIndex12 t
  unfold iblk12
  rw [View.read_apply]
  show V c (Pipeline.arrRef spec12 4) _ = V c (Pipeline.arrRef spec12 4) _
  congr 1
  funext a
  apply Fin.ext
  match a with
  | ⟨0, _⟩ => show win12_4.index t 0 * 128 + 1 * (y 0).val = (y 0).val; rw [e0]; omega
  | ⟨1, _⟩ => show win12_4.index t 1 * 128 + 1 * (y 1).val = (y 1).val; rw [e1]; omega

theorem wBlock12_5_apply (c : Dev nD) (t : Fin cfg12.N) (y : S1x128.Idx) :
    ((iblk12 V c 5 t : Vec Ideal S1x128 .f32) y : EReal) = fb2_12 V c y := by
  obtain ⟨-, -, -, -, -, -, -, -, -, -, e0, e1, -⟩ := blockIndex12 t
  unfold iblk12
  rw [View.read_apply]
  show V c (Pipeline.arrRef spec12 5) _ = V c (Pipeline.arrRef spec12 5) _
  congr 1
  funext a
  apply Fin.ext
  match a with
  | ⟨0, _⟩ => show win12_5.index t 0 * 1 + 1 * (y 0).val = (y 0).val; rw [e0]; omega
  | ⟨1, _⟩ => show win12_5.index t 1 * 128 + 1 * (y 1).val = (y 1).val; rw [e1]; omega

theorem wBlock12_6_apply (c : Dev nD) (t : Fin cfg12.N) (y : S128x10.Idx) :
    ((iblk12 V c 6 t : Vec Ideal S128x10 .f32) y : EReal) = fw3_12 V c y := by
  obtain ⟨-, -, -, -, -, -, -, -, -, -, -, -, e0, e1, -⟩ := blockIndex12 t
  unfold iblk12
  rw [View.read_apply]
  show V c (Pipeline.arrRef spec12 6) _ = V c (Pipeline.arrRef spec12 6) _
  congr 1
  funext a
  apply Fin.ext
  match a with
  | ⟨0, _⟩ => show win12_6.index t 0 * 128 + 1 * (y 0).val = (y 0).val; rw [e0]; omega
  | ⟨1, _⟩ => show win12_6.index t 1 * 10 + 1 * (y 1).val = (y 1).val; rw [e1]; omega

theorem wBlock12_7_apply (c : Dev nD) (t : Fin cfg12.N) (y : S1x10.Idx) :
    ((iblk12 V c 7 t : Vec Ideal S1x10 .f32) y : EReal) = fb3_12 V c y := by
  obtain ⟨-, -, -, -, -, -, -, -, -, -, -, -, -, -, e0, e1, -⟩ := blockIndex12 t
  unfold iblk12
  rw [View.read_apply]
  show V c (Pipeline.arrRef spec12 7) _ = V c (Pipeline.arrRef spec12 7) _
  congr 1
  funext a
  apply Fin.ext
  match a with
  | ⟨0, _⟩ => show win12_7.index t 0 * 1 + 1 * (y 0).val = (y 0).val; rw [e0]; omega
  | ⟨1, _⟩ => show win12_7.index t 1 * 10 + 1 * (y 1).val = (y 1).val; rw [e1]; omega

/-! ## The accumulated value -/

/-- One node's term of a graph's pooled feature. -/
def term12 (c : Dev nD) (g d : Fin 128) (n : Fin 50000) : EReal := member12 V c (ix2 n g) * feats12 V c (ix2 n d)

/-- Before point `n` the scratch holds the sum over the tiles below `n` of their rows' terms. -/
theorem accAt12_apply (c : Dev nD) (g d : Fin 128) : ∀ n : ℕ, n ≤ 10 →
    ((accAt12 V c n : Vec Ideal S128x128 .f32) (ix2 g d) : EReal)
      = ∑ t ∈ Finset.univ.filter (fun t : Fin 10 => t.val < n), ∑ r : Fin 5000,
          term12 V c g d ⟨t.val * 5000 + r.val, by have := t.isLt; have := r.isLt; omega⟩
  | 0, _ => by
    rw [accAt12_zero V c 0 rfl, zero12_apply]
    exact (tiles_lt_zero _).symm
  | n + 1, hn => by
    have hlt : n < cfg12.N := by rw [show cfg12.N = 10 from N_12]; omega
    rw [show accAt12 V c (n + 1) = acc12 (iblk12 V c 0 ⟨n, hlt⟩) (iblk12 V c 1 ⟨n, hlt⟩) (accAt12 V c n) from
        accAt12_succ V c ⟨n, hlt⟩,
      acc12_eq, pay12_2_apply, accAt12_apply c g d n (by omega), tiles_lt_succ _ n (by omega)]
    congr 1
    refine Finset.sum_congr rfl fun r _ => ?_
    unfold term12
    rw [memberBlock12_apply V c ⟨n, hlt⟩ (ix2 r g) (ix2 (⟨n * 5000 + r.val, by have := r.isLt; omega⟩ : Fin 50000) g)
        (by show n * 5000 + r.val = 5000 * n + r.val; omega) rfl,
      featsBlock12_apply V c ⟨n, hlt⟩ (ix2 r d) (ix2 (⟨n * 5000 + r.val, by have := r.isLt; omega⟩ : Fin 50000) d)
        (by show n * 5000 + r.val = 5000 * n + r.val; omega) rfl]

/-- After the last point the scratch holds each graph's pooled features: the sum over all nodes. -/
theorem pooled12_apply (c : Dev nD) (g d : Fin 128) :
    ((accAt12 V c 10 : Vec Ideal S128x128 .f32) (ix2 g d) : EReal)
      = ∑ n : Fin 50000, member12 V c (ix2 n g) * feats12 V c (ix2 n d) := by
  rw [accAt12_apply V c g d 10 le_rfl, tiles_lt_all, tile_sum]
  rfl

/-! ## The result array -/

/-- The result array as one function of the eight input arrays: the head of the pooled features. -/
def result12 (c : Dev nD) : S128x10.Idx → EReal := fun i =>
  head (fun g d => ∑ n : Fin 50000, member12 V c (ix2 n g) * feats12 V c (ix2 n d))
    (fun i j => fw1_12 V c (ix2 i j)) (fun j => fb1_12 V c (ix2 (0 : Fin 1) j))
    (fun i j => fw2_12 V c (ix2 i j)) (fun j => fb2_12 V c (ix2 (0 : Fin 1) j))
    (fun i k => fw3_12 V c (ix2 i k)) (fun k => fb3_12 V c (ix2 (0 : Fin 1) k)) (i 0 : Fin 128) (i 1 : Fin 10)

/-- What the last point writes back is the one block of that array. -/
theorem flushed12_8_eq (c : Dev nD) (t : Fin cfg12.N) (hf : (cfg12.win 8).flush t = true) :
    (dat12 V c).flushed 8 t = ((cfg12.win 8).blk t).view.read (Elt Ideal) (result12 V c) := by
  have hN : t.val < 10 := lt_of_lt_of_eq t.isLt (show cfg12.N = 10 from N_12)
  have h9 : t.val = 9 := by have := (flush12_8 t).mp hf; omega
  show (cfg12.win 8).cut (grid12.coords t) ((dat12 V c).after 8 t) = _
  rw [after12_8, head12_eq, show accAt12 V c (t.val + 1) = accAt12 V c 10 from by rw [h9]]
  obtain ⟨-, -, -, -, -, -, -, -, -, -, -, -, -, -, -, -, e0, e1⟩ := blockIndex12 t
  refine funext fun (j : S128x10.Idx) => ?_
  obtain ⟨g, k, rfl⟩ : ∃ (g : Fin 128) (k : Fin 10), j = ix2 g k := ⟨j 0, j 1, eq_ix2 j⟩
  rw [View.read_apply]
  have hi : ((cfg12.win 8).blk t).view.emb (ix2 g k) = ix2 g k := by
    funext a
    apply Fin.ext
    match a with
    | ⟨0, _⟩ => show win12_8.index t 0 * 128 + 1 * g.val = g.val; rw [e0]; omega
    | ⟨1, _⟩ => show win12_8.index t 1 * 10 + 1 * k.val = k.val; rw [e1]; omega
  refine (head12_pay_apply _ _ _ _ _ _ _ g k).trans ?_
  show _ = result12 V c (((cfg12.win 8).blk t).view.emb (ix2 g k))
  rw [hi]
  unfold result12
  simp only [pooled12_apply, wBlock12_2_apply, wBlock12_3_apply, wBlock12_4_apply, wBlock12_5_apply, wBlock12_6_apply, wBlock12_7_apply]

/-- Every entry of the array is in the last point's block: the block is the whole array. -/
theorem covered12_8 (i : S128x10.Idx) :
    ∃ t : Fin cfg12.N, (cfg12.win 8).flush t = true ∧ i ∈ ((cfg12.win 8).blk t).view.set := by
  refine ⟨t12_9, (flush12_8 t12_9).mpr rfl, ?_⟩
  obtain ⟨-, -, -, -, -, -, -, -, -, -, -, -, -, -, -, -, e0, e1⟩ := blockIndex12 t12_9
  have hy : ((cfg12.win 8).blk t12_9).view.emb i = i := by
    funext a
    apply Fin.ext
    match a with
    | ⟨0, _⟩ => show win12_8.index t12_9 0 * 128 + 1 * (i 0).val = (i 0).val; rw [e0]; omega
    | ⟨1, _⟩ => show win12_8.index t12_9 1 * 10 + 1 * (i 1).val = (i 1).val; rw [e1]; omega
  have hm := ((cfg12.win 8).blk t12_9).view.emb_mem_set i
  rwa [hy] at hm

/-- So the result array ends holding the head of the pooled features. -/
theorem arr12_8_eq (c : Dev nD) : (dat12 V c).arrAt 8 cfg12.N = result12 V c :=
  (dat12 V c).arrAt_eq_of_cover 8 _ (fun t hf => flushed12_8_eq V c t hf) covered12_8

/-- The result array after the region, at graph `g` and class `k`, in plain arithmetic of the entry arrays. -/
theorem arr12_8_apply (c : Dev nD) (g : Fin 128) (k : Fin 10) :
    ((dat12 V c).arrAt 8 cfg12.N : S128x10.Idx → EReal) (ix2 g k)
      = head (fun g d => ∑ n : Fin 50000, member12 V c (ix2 n g) * feats12 V c (ix2 n d))
    (fun i j => fw1_12 V c (ix2 i j)) (fun j => fb1_12 V c (ix2 (0 : Fin 1) j))
    (fun i j => fw2_12 V c (ix2 i j)) (fun j => fb2_12 V c (ix2 (0 : Fin 1) j))
    (fun i k => fw3_12 V c (ix2 i k)) (fun k => fb3_12 V c (ix2 (0 : Fin 1) k)) g k := by
  rw [arr12_8_eq]; rfl

end Arrays

end Cert.KernelIdeal.Hand
-- ==== Proof.OneHot.lean ====
/- The one-hot matrix and the counts a program builds on the host from the vector of graph ids, read at an index: the comparison of the ids' column with a row of graph numbers, converted to a float, is the one-hot matrix of the assignment of nodes to graphs; its column sums, floored at one and transposed, are the counts of the graphs' nodes. -/
import proofs.«408428_j10917806867267_1_alg».proof.Proof.Spec
import proofs.«408428_j10917806867267_1_alg».proof.Proof.Spec2
import proofs.«408428_j10917806867267_1_alg».proof.Proof.SegOps
import Idealize.ShloMosaic.Lib.ValueLayout
import Idealize.ShloMosaic.Lib.IdealHost

noncomputable section

open scoped BigOperators

namespace Cert.OneHot

open Idealize.ShloMosaic Idealize.ShloMosaic.ValueIdx Cert.Spec Cert.SegOps

variable {α : Type}

/-! ## Broadcasts read at an index -/

/-- A column broadcast across m columns reads, at (i, j), the column at i. -/
theorem bcast_colmat_apply {n m : Nat} (hn : n ≠ 1)
    (dims : Fin (⟨2, ![n, 1]⟩ : Shape).rank → Fin (⟨2, ![n, m]⟩ : Shape).rank) (hd : dims 0 = 0)
    (h : (⟨2, ![n, 1]⟩ : Shape).BroadcastsInDim ⟨2, ![n, m]⟩ dims) (x : (⟨2, ![n, 1]⟩ : Shape).Idx → α)
    (i : Fin n) (j : Fin m) :
    broadcastInDim ⟨2, ![n, m]⟩ dims h x (ix2 i j) = x (ix2 i (0 : Fin 1)) := by
  refine broadcastInDim_apply dims h x _ _ fun a => ?_
  match a with
  | ⟨0, _⟩ =>
    show i.val = if n = 1 then 0 else (ix2 i j (dims 0)).val
    rw [if_neg hn, hd]
    rfl
  | ⟨1, _⟩ =>
    show (0 : ℕ) = if (1 : ℕ) = 1 then 0 else _
    rw [if_pos rfl]

/-- A row broadcast down n rows reads, at (i, j), the row at j. -/
theorem bcast_rowmat_apply {n m : Nat} (hm : m ≠ 1)
    (dims : Fin (⟨2, ![1, m]⟩ : Shape).rank → Fin (⟨2, ![n, m]⟩ : Shape).rank) (hd : dims 1 = 1)
    (h : (⟨2, ![1, m]⟩ : Shape).BroadcastsInDim ⟨2, ![n, m]⟩ dims) (x : (⟨2, ![1, m]⟩ : Shape).Idx → α)
    (i : Fin n) (j : Fin m) :
    broadcastInDim ⟨2, ![n, m]⟩ dims h x (ix2 i j) = x (ix2 (0 : Fin 1) j) := by
  refine broadcastInDim_apply dims h x _ _ fun a => ?_
  match a with
  | ⟨0, _⟩ =>
    show (0 : ℕ) = if (1 : ℕ) = 1 then 0 else _
    rw [if_pos rfl]
  | ⟨1, _⟩ =>
    show j.val = if m = 1 then 0 else (ix2 i j (dims 1)).val
    rw [if_neg hm, hd]
    rfl

/-- A vector laid out as a one-row matrix reads, at (0, j), the vector at j. -/
theorem bcast_vecrow_apply {m : Nat} (hm : m ≠ 1)
    (dims : Fin (⟨1, ![m]⟩ : Shape).rank → Fin (⟨2, ![1, m]⟩ : Shape).rank) (hd : dims 0 = 1)
    (h : (⟨1, ![m]⟩ : Shape).BroadcastsInDim ⟨2, ![1, m]⟩ dims) (x : (⟨1, ![m]⟩ : Shape).Idx → α) (j : Fin m) :
    broadcastInDim ⟨2, ![1, m]⟩ dims h x (ix2 (0 : Fin 1) j) = x (ix1 j) := by
  refine broadcastInDim_apply dims h x _ _ fun a => ?_
  match a with
  | ⟨0, _⟩ =>
    show j.val = if m = 1 then 0 else (ix2 (0 : Fin 1) j (dims 0)).val
    rw [if_neg hm, hd]
    rfl

/-! ## The one-hot matrix -/

/-- One word of the comparison, as a float: 1 where the id is the graph number, else 0. -/
theorem onehot_word {b : BitVec 32} {g : Nat} (hg : g < 2 ^ 32) :
    FloatOps.uitofp (F := Ideal) .bf16 (IntOp.cmpi .eq b (BitVec.ofNat 32 g)) = if b.toNat = g then 1 else 0 := by
  show (((IntOp.cmpi .eq b (BitVec.ofNat 32 g)).toNat : ℝ) : EReal) = _
  have hc : IntOp.cmpi .eq b (BitVec.ofNat 32 g) = BitVec.ofBool (b == BitVec.ofNat 32 g) := rfl
  rw [hc]
  have h1 : (BitVec.ofBool true).toNat = 1 := by decide
  have h0 : (BitVec.ofBool false).toNat = 0 := by decide
  by_cases h : b.toNat = g
  · have hb : b = BitVec.ofNat 32 g := by rw [← h, BitVec.ofNat_toNat, BitVec.setWidth_eq]
    rw [if_pos h, ← hb, beq_self_eq_true, h1]
    norm_num
  · have hb : (b == BitVec.ofNat 32 g) = false := by
      rw [beq_eq_false_iff_ne]
      intro hb
      apply h
      rw [hb, BitVec.toNat_ofNat, Nat.mod_eq_of_lt hg]
    rw [if_neg h, hb, h0]
    norm_num

/-- The comparison of the ids' column with the row of graph numbers, converted to a float, read at (n, g): the one-hot
    matrix of the assignment of nodes to graphs. -/
theorem onehot_apply (batch : IVec ⟨1, ![50000]⟩ 32)
    (hr : ∀ j : Fin 50000, (batch (ix1 j)).toNat < 128 ∧ (batch (ix1 j)).toInt = ((batch (ix1 j)).toNat : Int))
    (d5 : Fin (⟨1, ![50000]⟩ : Shape).rank → Fin (⟨2, ![50000, 1]⟩ : Shape).rank) (hd5 : d5 0 = 0)
    (h5 : (⟨1, ![50000]⟩ : Shape).BroadcastsInDim ⟨2, ![50000, 1]⟩ d5)
    (d6 : Fin (⟨1, ![128]⟩ : Shape).rank → Fin (⟨2, ![1, 128]⟩ : Shape).rank) (hd6 : d6 0 = 1)
    (h6 : (⟨1, ![128]⟩ : Shape).BroadcastsInDim ⟨2, ![1, 128]⟩ d6)
    (d7 : Fin (⟨2, ![50000, 1]⟩ : Shape).rank → Fin (⟨2, ![50000, 128]⟩ : Shape).rank) (hd7 : d7 0 = 0)
    (h7 : (⟨2, ![50000, 1]⟩ : Shape).BroadcastsInDim ⟨2, ![50000, 128]⟩ d7)
    (d8 : Fin (⟨2, ![1, 128]⟩ : Shape).rank → Fin (⟨2, ![50000, 128]⟩ : Shape).rank) (hd8 : d8 1 = 1)
    (h8 : (⟨2, ![1, 128]⟩ : Shape).BroadcastsInDim ⟨2, ![50000, 128]⟩ d8)
    (n : Fin 50000) (g : Fin 128) :
    (uitofp .bf16 (cmpi .eq
        (broadcastInDim ⟨2, ![50000, 128]⟩ d7 h7 (broadcastInDim ⟨2, ![50000, 1]⟩ d5 h5 batch))
        (broadcastInDim ⟨2, ![50000, 128]⟩ d8 h8 (broadcastInDim ⟨2, ![1, 128]⟩ d6 h6 (iotaInDim ⟨1, ![128]⟩ 32 0))))
      : FVec Ideal ⟨2, ![50000, 128]⟩ .bf16) (ix2 n g) = oh (graphOf batch hr) n g := by
  show FloatOps.uitofp (F := Ideal) .bf16 (IntOp.cmpi .eq
      (broadcastInDim ⟨2, ![50000, 128]⟩ d7 h7 (broadcastInDim ⟨2, ![50000, 1]⟩ d5 h5 batch) (ix2 n g))
      (broadcastInDim ⟨2, ![50000, 128]⟩ d8 h8 (broadcastInDim ⟨2, ![1, 128]⟩ d6 h6 (iotaInDim ⟨1, ![128]⟩ 32 0))
        (ix2 n g))) = _
  rw [bcast_colmat_apply (by decide) d7 hd7 h7, bcast_col_apply (by decide) d5 hd5 h5,
    bcast_rowmat_apply (by decide) d8 hd8 h8, bcast_vecrow_apply (by decide) d6 hd6 h6]
  show FloatOps.uitofp (F := Ideal) .bf16 (IntOp.cmpi .eq (batch (ix1 n)) (BitVec.ofNat 32 g.val)) = _
  rw [onehot_word (lt_trans g.isLt (by decide))]
  unfold oh graphOf
  simp only [Fin.ext_iff]

/-- The same widened to another float format: a change of format is the identity on the extended reals. -/
theorem onehot_extf_apply {s : Shape} (x : FVec Ideal s .bf16) (hlt : FTy.bits .bf16 < FTy.bits .f32) (i : s.Idx) :
    (extf .f32 x hlt : FVec Ideal s .f32) i = x i := rfl

/-! ## The counts -/

/-- The index a sum over the rows inserts: row k of column g. -/
theorem lift_col {n m : Nat} (hred : Shape.Reduces ⟨2, ![n, m]⟩ [0] ⟨1, ![m]⟩) (g : Fin m) (k : Fin n) :
    hred.lift (ix1 g) k = ix2 k g := by
  funext a
  apply Fin.ext
  show hred.liftVal (ix1 g) k.val a = (ix2 k g a).val
  match a with
  | ⟨0, _⟩ => rfl
  | ⟨1, _⟩ => rfl

/-- A matrix reduces over its rows to a vector of its columns. -/
theorem reduces_col (n m : Nat) : Shape.Reduces ⟨2, ![n, m]⟩ [0] ⟨1, ![m]⟩ :=
  ⟨rfl, Nat.one_pos, fun b => match b with | ⟨0, _⟩ => rfl⟩

/-- The host's sum over the rows of a matrix, read at column g: the initial value plus the sum of the column. -/
theorem colsum_apply {n m : Nat} (x : FVec Ideal ⟨2, ![n, m]⟩ .f32) (init : (⟨0, ![]⟩ : Shape).Idx → Ideal .f32)
    (hto : (⟨2, ![n, m]⟩ : Shape).ReducesTo [0] ⟨1, ![m]⟩) (hred : Shape.Reduces ⟨2, ![n, m]⟩ [0] ⟨1, ![m]⟩)
    (hu : 0 < (⟨0, ![]⟩ : Shape).numel) (g : Fin m) :
    Host.reduceAdd x init hto hu (ix1 g) = init (Shape.Idx.first hu) + ∑ k : Fin n, x (ix2 k g) := by
  rw [hostReduceAdd_apply, Ideal.hostReduceAdd_single hto hred]
  congr 1
  exact Finset.sum_congr rfl fun k _ => by rw [lift_col hred g k]

/-- The column sums of the one-hot matrix, floored at one and transposed, read at (g, 0): the count of graph g. -/
theorem counts_apply (B : Fin 50000 → Fin 128) (ohf : FVec Ideal ⟨2, ![50000, 128]⟩ .f32)
    (hoh : ∀ n g, ohf (ix2 n g) = oh B n g)
    (init : (⟨0, ![]⟩ : Shape).Idx → Ideal .f32) (hinit : ∀ i, init i = 0)
    (hto : (⟨2, ![50000, 128]⟩ : Shape).ReducesTo [0] ⟨1, ![128]⟩) (hu : 0 < (⟨0, ![]⟩ : Shape).numel)
    (d13 : Fin (⟨1, ![128]⟩ : Shape).rank → Fin (⟨2, ![1, 128]⟩ : Shape).rank) (hd13 : d13 0 = 1)
    (h13 : (⟨1, ![128]⟩ : Shape).BroadcastsInDim ⟨2, ![1, 128]⟩ d13)
    (ones : FVec Ideal ⟨2, ![1, 128]⟩ .f32) (hones : ∀ i, ones i = 1)
    (htr : (⟨2, ![1, 128]⟩ : Shape).Transposes [1, 0] ⟨2, ![128, 1]⟩) (g : Fin 128) :
    transpose ⟨2, ![128, 1]⟩ [1, 0]
        (maximumf (broadcastInDim ⟨2, ![1, 128]⟩ d13 h13 (Host.reduceAdd ohf init hto hu)) ones) htr
        (ix2 g (0 : Fin 1))
      = Cert.Spec2.cnt B 1 g := by
  rw [transpose_ix2_apply, maximumf_apply, bcast_vecrow_apply (by decide) d13 hd13 h13,
    colsum_apply ohf init hto (reduces_col 50000 128) hu g, hinit, zero_add, hones]
  have hs : (∑ k : Fin 50000, ohf (ix2 k g)) = ∑ n, if B n = g then (1 : EReal) else 0 :=
    Finset.sum_congr rfl fun n _ => hoh n g
  rw [hs]
  rfl

end Cert.OneHot
-- ==== Proof.KLayers.lean ====
import proofs.«408428_j10917806867267_1_alg».proof.Proof.KI.Walks
import proofs.«408428_j10917806867267_1_alg».proof.Proof.KI.Reg0Val
import proofs.«408428_j10917806867267_1_alg».proof.Proof.KI.Reg1Val
import proofs.«408428_j10917806867267_1_alg».proof.Proof.KI.Reg2Val
import proofs.«408428_j10917806867267_1_alg».proof.Proof.KI.Reg3Val
import proofs.«408428_j10917806867267_1_alg».proof.Proof.KI.Reg4Val
import proofs.«408428_j10917806867267_1_alg».proof.Proof.KI.Reg5Val
import proofs.«408428_j10917806867267_1_alg».proof.Proof.KI.Reg6Val
import proofs.«408428_j10917806867267_1_alg».proof.Proof.KI.Reg7Val
import proofs.«408428_j10917806867267_1_alg».proof.Proof.KI.Reg8Val
import proofs.«408428_j10917806867267_1_alg».proof.Proof.KI.Reg9Val
import proofs.«408428_j10917806867267_1_alg».proof.Proof.KI.Reg10Val
import proofs.«408428_j10917806867267_1_alg».proof.Proof.KI.Reg11Val
import proofs.«408428_j10917806867267_1_alg».proof.Proof.KI.Reg12Val
import proofs.«408428_j10917806867267_1_alg».proof.Proof.Spec2
import proofs.«408428_j10917806867267_1_alg».proof.Proof.Spec3
import proofs.«408428_j10917806867267_1_alg».proof.Proof.SegOps
import proofs.«408428_j10917806867267_1_alg».proof.Proof.Consts
import proofs.«408428_j10917806867267_1_alg».proof.Proof.OneHot
import Idealize.ShloMosaic.Lib.Pipeline.Value
import Idealize.ShloMosaic.Lib.ValueIdx
import Idealize.ShloMosaic.Lib.IdealHost

/-! # The launched program's result as plain mathematics, layer by layer

The program's result array is followed back through its thirteen launches. Each launch's output array is what its
value module says of its entry arrays; each entry array is a term over the launch memory and the arrays the launches
before left; the host's small computations between launches (a layer's row or matrix of a stacked parameter, a
per-graph sum over the counts, the membership matrix, the counts) are read at an index. With the membership matrix
one-hot, a contraction with it over the nodes is a segment sum and a contraction with a node's membership row reads
the node's own graph, so three launches and the two quotients between them compose to one layer of the network, four
times; the last launch pools the last layer's rows per graph and applies the head. -/

set_option maxRecDepth 16384

noncomputable section

open scoped BigOperators

namespace Cert.KLayers

open Cert.KernelIdeal Cert.KernelIdeal.Gen Cert.KernelIdeal.Hand
open Idealize.ShloMosaic Idealize.ShloMosaic.TcCoe Idealize.ShloMosaic.ValueIdx Idealize.SL.Sem
open Cert.Spec Cert.Spec2

/-! ## The host's small computations read at an index -/

/-- A per-graph quotient at (g, d): the sum there over graph g's count. -/
theorem perGraph_apply (s : Vec Ideal S128x128 .f32) (cn : Vec Ideal S128x1 .f32) (g d : Fin 128) :
    (perGraph (F := Ideal) s cn : S128x128.Idx → EReal) (ix2 g d)
      = Ideal.div (s (ix2 g d)) (cn (ix2 g (0 : Fin 1))) := by
  unfold perGraph
  rw [hostDivf_apply]
  congr 1
  exact broadcastInDim_apply ![0, 1] bcast_S128x1_S128x128_0_1 cn (ix2 g d) (ix2 g (0 : Fin 1))
    (fun a => match a with
      | ⟨0, _⟩ => rfl
      | ⟨1, _⟩ => rfl)

/-- One layer's row of a stacked parameter, read at a feature: the parameter at (layer, feature). -/
theorem paramRow_apply (off : Fin 2 → ℕ) (h : S4x128.Slices off S1x128) (x : Vec Ideal S4x128 .f32) (l : Fin 4)
    (h0 : off 0 = l.val) (h1 : off 1 = 0) (d : Fin 128) :
    (paramRow (F := Ideal) off h x : S1x128.Idx → EReal) (ix2 (0 : Fin 1) d) = x (ix2 l d) := by
  unfold paramRow
  rw [shapeCast_apply _ shapeCasts_S128_S1x128 (ix2 (0 : Fin 1) d) (ix1 d)
      (by rewrite [Shape.rowMajor_val_one, Shape.rowMajor_val_two]; show d.val = 0 * 128 + d.val; omega),
    shapeCast_apply _ shapeCasts_S1x128_S128 (ix1 d) (ix2 (0 : Fin 1) d)
      (by rewrite [Shape.rowMajor_val_two, Shape.rowMajor_val_one]; show 0 * 128 + d.val = d.val; omega)]
  exact extractStridedSlice_apply off x h (ix2 (0 : Fin 1) d) (ix2 l d) (fun a => match a with
    | ⟨0, _⟩ => by show l.val = off 0 + 0; omega
    | ⟨1, _⟩ => by show d.val = off 1 + d.val; omega)

/-- One layer's matrix of a stacked parameter, read at an entry: the parameter at (layer, row, column). -/
theorem paramMat_apply (off : Fin 3 → ℕ) (h : S4x128x128.Slices off S1x128x128) (x : Vec Ideal S4x128x128 .f32) (l : Fin 4)
    (h0 : off 0 = l.val) (h1 : off 1 = 0) (h2 : off 2 = 0) (j k : Fin 128) :
    (paramMat (F := Ideal) off h x : S128x128.Idx → EReal) (ix2 j k) = x (ix3 l j k) := by
  unfold paramMat
  rw [shapeCast_apply _ shapeCasts_S1x128x128_S128x128 (ix2 j k) (ix3 (0 : Fin 1) j k)
      (by rewrite [Shape.rowMajor_val_three, Shape.rowMajor_val_two]
          show (0 * 128 + j.val) * 128 + k.val = j.val * 128 + k.val; omega)]
  exact extractStridedSlice_apply off x h (ix3 (0 : Fin 1) j k) (ix3 l j k) (fun a => match a with
    | ⟨0, _⟩ => by show l.val = off 0 + 0; omega
    | ⟨1, _⟩ => by show j.val = off 1 + j.val; omega
    | ⟨2, _⟩ => by show k.val = off 2 + k.val; omega)

/-- A vector of 128 entries as a row, read at an entry. -/
theorem asRow128_apply (x : Vec Ideal S128 .f32) (d : Fin 128) :
    (asRow128 (F := Ideal) x : S1x128.Idx → EReal) (ix2 (0 : Fin 1) d) = x (ix1 d) := by
  unfold asRow128
  exact shapeCast_apply x shapeCasts_S128_S1x128 (ix2 (0 : Fin 1) d) (ix1 d)
    (by rewrite [Shape.rowMajor_val_one, Shape.rowMajor_val_two]; show d.val = 0 * 128 + d.val; omega)

/-- A vector of 10 entries as a row, read at an entry. -/
theorem asRow10_apply (x : Vec Ideal S10 .f32) (d : Fin 10) :
    (asRow10 (F := Ideal) x : S1x10.Idx → EReal) (ix2 (0 : Fin 1) d) = x (ix1 d) := by
  unfold asRow10
  exact shapeCast_apply x shapeCasts_S10_S1x10 (ix2 (0 : Fin 1) d) (ix1 d)
    (by rewrite [Shape.rowMajor_val_one, Shape.rowMajor_val_two]; show d.val = 0 * 10 + d.val; omega)

/-! ## The membership matrix and the counts -/

/-- The constant one and the stabiliser of the variance, as the words the program carries. -/
abbrev one : EReal := Ideal.ofBits .f32 0x3F800000#32
abbrev eps : EReal := Ideal.ofBits .f32 0x3727C5AC#32

section Ids

variable (batch : IVec S50000 32)
  (hr : ∀ j : Fin 50000, (batch (ix1 j)).toNat < 128 ∧ (batch (ix1 j)).toInt = ((batch (ix1 j)).toNat : Int))

/-- The membership matrix at (n, g): one where node n lies in graph g, else zero. -/
theorem oneHot_apply (n : Fin 50000) (g : Fin 128) :
    (oneHot (F := Ideal) batch : S50000x128.Idx → EReal) (ix2 n g) = oh (Cert.SegOps.graphOf batch hr) n g :=
  Cert.OneHot.onehot_apply batch hr ![0] rfl bcast_S50000_S50000x1_0 ![1] rfl bcast_S128_S1x128_1
    ![0, 1] rfl bcast_S50000x1_S50000x128_0_1 ![0, 1] rfl bcast_S1x128_S50000x128_0_1 n g

/-- The counts column at (g, 0): the number of nodes of graph g, at least one. -/
theorem countsCol_apply (g : Fin 128) :
    (countsCol (F := Ideal) batch : S128x1.Idx → EReal) (ix2 g (0 : Fin 1))
      = cnt (Cert.SegOps.graphOf batch hr) one g := by
  rw [show (one : EReal) = 1 from Cert.Consts.ofBits_one]
  exact Cert.OneHot.counts_apply (Cert.SegOps.graphOf batch hr) (extf .f32 (oneHot (F := Ideal) batch) bitsLt_bf16_f32)
    (fun n g => (Cert.OneHot.onehot_extf_apply _ _ _).trans (oneHot_apply batch hr n g))
    (constant (F := Ideal) S_ .f32 0x00000000#32) (fun i => Cert.Consts.constant_zero i)
    reducesTo_S50000x128_S128_d0 h_S_ ![1] rfl bcast_S128_S1x128_1
    (broadcastInDim S1x128 ![] bcast_S_S1x128 (constant (F := Ideal) S_ .f32 0x3F800000#32))
    (fun i => (broadcastInDim_scalar_apply bcast_S_S1x128 _ i).trans (Cert.Consts.constant_one _))
    transposes_S1x128_S128x1_1_0 g

end Ids

/-! ## One layer from its parts

A layer is computed in three passes with two small per-graph computations between them: the perceptron and the
per-graph sums of its output; the mean as those sums over the counts; the centred rows and the per-graph sums of their
squares; the variance as those sums over the counts; the normalised rows. Each per-graph sum is a contraction with the
membership matrix, and each read of a per-graph quantity at a node is a contraction with the node's membership row.
With the membership matrix one-hot, the contractions are segment sums and reads at the node's own graph, and the
three passes compose to the layer. -/

/-- The three passes and the two per-graph quotients between them compose to one layer. -/
theorem layer_of_parts {N G D : Nat} (B : Fin N → Fin G) (one eps : EReal)
    (h a : Fin N → Fin D → EReal) (w1 : Fin D → Fin D → EReal) (b1 : Fin D → EReal) (w2 : Fin D → Fin D → EReal)
    (b2 s w b : Fin D → EReal)
    (H : Fin N → Fin G → EReal) (hH : ∀ n g, H n g = oh B n g)
    (cn : Fin G → EReal) (hcn : ∀ g, cn g = cnt B one g)
    (t : Fin N → Fin D → EReal) (ht : ∀ n d, t n d = mlp2 (fun n j => h n j + a n j) w1 b1 w2 b2 n d)
    (sm : Fin G → Fin D → EReal) (hsm : ∀ g d, sm g d = ∑ n, H n g * t n d)
    (mu : Fin G → Fin D → EReal) (hmu : ∀ g d, mu g d = Ideal.div (sm g d) (cn g))
    (ce : Fin N → Fin D → EReal) (hce : ∀ n d, ce n d = t n d - (∑ g, H n g * mu g d) * s d)
    (sq : Fin G → Fin D → EReal) (hsq : ∀ g d, sq g d = ∑ n, H n g * (ce n d * ce n d))
    (va : Fin G → Fin D → EReal) (hva : ∀ g d, va g d = Ideal.div (sq g d) (cn g))
    (o : Fin N → Fin D → EReal)
    (ho : ∀ n d, o n d = max ((w d * ce n d) * Ideal.rsqrt ((∑ g, H n g * va g d) + eps) + b d) 0) :
    ∀ n d, o n d = layerK B one eps h a w1 b1 w2 b2 s w b n d := by
  have hH' : H = oh B := funext fun n => funext fun g => hH n g
  subst hH'
  have ht' : t = mlp2 (fun n j => h n j + a n j) w1 b1 w2 b2 := funext fun n => funext fun d => ht n d
  have hmu' : mu = mean B one t := by
    funext g d
    rw [hmu, hsm, hcn, ohT_sum B t g d]
    rfl
  have hce' : ce = centred B one t s := by
    funext n d
    rw [hce, hmu', oh_sum B (mean B one t) n d]
    rfl
  have hva' : va = var B one t s := by
    funext g d
    rw [hva, hsq, hcn, ohT_sum B (fun n d => ce n d * ce n d) g d, hce']
    rfl
  intro n d
  rw [ho, hva', oh_sum B (var B one t s) n d, hce', ht']
  rfl

/-! ## The arrays the launches leave, as functions of their indices -/

variable (m : (ℓ : Loc nD τ sig) → Buf (Elt Ideal) ℓ)

/-- The graph ids the program was launched with. -/
abbrev batch (c : Dev nD) : IVec S50000 32 := m ((c : Thread nD τ).loc main_arg15)
/-- The input features as launched. -/
abbrev feats (c : Dev nD) : S50000x128.Idx → EReal := m ((c : Thread nD τ).loc main_arg0)

/-- Layer 0: the perceptron's rows and their per-graph sums (launch 0), the centred rows and the per-graph sums of
    their squares (launch 1), the normalised rows (launch 2). -/
abbrev tRows0 (c : Dev nD) : S50000x128.Idx → EReal := (dat0 (Vh0 m) c).arrAt 7 cfg0.N
abbrev tSums0 (c : Dev nD) : S128x128.Idx → EReal := (dat0 (Vh0 m) c).arrAt 8 cfg0.N
abbrev cRows0 (c : Dev nD) : S50000x128.Idx → EReal := (dat1 (Vh1 m) c).arrAt 4 cfg1.N
abbrev cSums0 (c : Dev nD) : S128x128.Idx → EReal := (dat1 (Vh1 m) c).arrAt 5 cfg1.N
abbrev hRows0 (c : Dev nD) : S50000x128.Idx → EReal := (dat2 (Vh2 m) c).arrAt 5 cfg2.N

/-- Layer 1: the perceptron's rows and their per-graph sums (launch 3), the centred rows and the per-graph sums of
    their squares (launch 4), the normalised rows (launch 5). -/
abbrev tRows1 (c : Dev nD) : S50000x128.Idx → EReal := (dat3 (Vh3 m) c).arrAt 7 cfg3.N
abbrev tSums1 (c : Dev nD) : S128x128.Idx → EReal := (dat3 (Vh3 m) c).arrAt 8 cfg3.N
abbrev cRows1 (c : Dev nD) : S50000x128.Idx → EReal := (dat4 (Vh4 m) c).arrAt 4 cfg4.N
abbrev cSums1 (c : Dev nD) : S128x128.Idx → EReal := (dat4 (Vh4 m) c).arrAt 5 cfg4.N
abbrev hRows1 (c : Dev nD) : S50000x128.Idx → EReal := (dat5 (Vh5 m) c).arrAt 5 cfg5.N

/-- Layer 2: the perceptron's rows and their per-graph sums (launch 6), the centred rows and the per-graph sums of
    their squares (launch 7), the normalised rows (launch 8). -/
abbrev tRows2 (c : Dev nD) : S50000x128.Idx → EReal := (dat6 (Vh6 m) c).arrAt 7 cfg6.N
abbrev tSums2 (c : Dev nD) : S128x128.Idx → EReal := (dat6 (Vh6 m) c).arrAt 8 cfg6.N
abbrev cRows2 (c : Dev nD) : S50000x128.Idx → EReal := (dat7 (Vh7 m) c).arrAt 4 cfg7.N
abbrev cSums2 (c : Dev nD) : S128x128.Idx → EReal := (dat7 (Vh7 m) c).arrAt 5 cfg7.N
abbrev hRows2 (c : Dev nD) : S50000x128.Idx → EReal := (dat8 (Vh8 m) c).arrAt 5 cfg8.N

/-- Layer 3: the perceptron's rows and their per-graph sums (launch 9), the centred rows and the per-graph sums of
    their squares (launch 10), the normalised rows (launch 11). -/
abbrev tRows3 (c : Dev nD) : S50000x128.Idx → EReal := (dat9 (Vh9 m) c).arrAt 7 cfg9.N
abbrev tSums3 (c : Dev nD) : S128x128.Idx → EReal := (dat9 (Vh9 m) c).arrAt 8 cfg9.N
abbrev cRows3 (c : Dev nD) : S50000x128.Idx → EReal := (dat10 (Vh10 m) c).arrAt 4 cfg10.N
abbrev cSums3 (c : Dev nD) : S128x128.Idx → EReal := (dat10 (Vh10 m) c).arrAt 5 cfg10.N
abbrev hRows3 (c : Dev nD) : S50000x128.Idx → EReal := (dat11 (Vh11 m) c).arrAt 5 cfg11.N

/-- The result array (launch 12). -/
abbrev result (c : Dev nD) : S128x10.Idx → EReal := (dat12 (Vh12 m) c).arrAt 8 cfg12.N

/-- The stacked parameters as launched. -/
abbrev ginW1 (c : Dev nD) : S4x128x128.Idx → EReal := m ((c : Thread nD τ).loc main_arg1)
abbrev ginB1 (c : Dev nD) : S4x128.Idx → EReal := m ((c : Thread nD τ).loc main_arg2)
abbrev ginW2 (c : Dev nD) : S4x128x128.Idx → EReal := m ((c : Thread nD τ).loc main_arg3)
abbrev ginB2 (c : Dev nD) : S4x128.Idx → EReal := m ((c : Thread nD τ).loc main_arg4)
abbrev gnWeight (c : Dev nD) : S4x128.Idx → EReal := m ((c : Thread nD τ).loc main_arg5)
abbrev gnBias (c : Dev nD) : S4x128.Idx → EReal := m ((c : Thread nD τ).loc main_arg6)
abbrev gnScale (c : Dev nD) : S4x128.Idx → EReal := m ((c : Thread nD τ).loc main_arg7)
/-- The head's parameters as launched. -/
abbrev headW1 (c : Dev nD) : S128x128.Idx → EReal := m ((c : Thread nD τ).loc main_arg8)
abbrev headB1 (c : Dev nD) : S128.Idx → EReal := m ((c : Thread nD τ).loc main_arg9)
abbrev headW2 (c : Dev nD) : S128x128.Idx → EReal := m ((c : Thread nD τ).loc main_arg10)
abbrev headB2 (c : Dev nD) : S128.Idx → EReal := m ((c : Thread nD τ).loc main_arg11)
abbrev headW3 (c : Dev nD) : S128x10.Idx → EReal := m ((c : Thread nD τ).loc main_arg12)
abbrev headB3 (c : Dev nD) : S10.Idx → EReal := m ((c : Thread nD τ).loc main_arg13)

/-- The neighbourhood sums of an array of rows, over the edge list as launched. -/
abbrev aggK (c : Dev nD) (h : S50000x128.Idx → EReal) : S50000x128.Idx → EReal :=
  edgeAgg (F := Ideal) h (srcIds m c) (dstIds m c)

/-! ## The four layers -/

/-- Layer 0: the array launch 2 leaves is one layer of the network applied to the input features. -/
theorem kernel_layer0 (c : Dev nD)
    (hr : ∀ j : Fin 50000, (batch m c (ix1 j)).toNat < 128 ∧ (batch m c (ix1 j)).toInt = ((batch m c (ix1 j)).toNat : Int))
    (n : Fin 50000) (d : Fin 128) :
    hRows0 m c (ix2 n d)
      = layerK (Cert.SegOps.graphOf (batch m c) hr) one eps
          (fun n j => feats m c (ix2 n j))
          (fun n j => aggK m c (feats m c) (ix2 n j))
          (fun j k => ginW1 m c (ix3 (0 : Fin 4) j k)) (fun k => ginB1 m c (ix2 (0 : Fin 4) k))
          (fun j k => ginW2 m c (ix3 (0 : Fin 4) j k)) (fun k => ginB2 m c (ix2 (0 : Fin 4) k))
          (fun k => gnScale m c (ix2 (0 : Fin 4) k)) (fun k => gnWeight m c (ix2 (0 : Fin 4) k)) (fun k => gnBias m c (ix2 (0 : Fin 4) k)) n d := by
  have pm1 : ∀ j k, (paramMat (F := Ideal) ![0, 0, 0] slices_S4x128x128_S1x128x128_0_0_0 (m ((c : Thread nD τ).loc main_arg1)) : S128x128.Idx → EReal) (ix2 j k) = ginW1 m c (ix3 (0 : Fin 4) j k) :=
    fun j k => paramMat_apply _ _ _ (0 : Fin 4) rfl rfl rfl j k
  have pm3 : ∀ j k, (paramMat (F := Ideal) ![0, 0, 0] slices_S4x128x128_S1x128x128_0_0_0 (m ((c : Thread nD τ).loc main_arg3)) : S128x128.Idx → EReal) (ix2 j k) = ginW2 m c (ix3 (0 : Fin 4) j k) :=
    fun j k => paramMat_apply _ _ _ (0 : Fin 4) rfl rfl rfl j k
  have pr2 : ∀ k, (paramRow (F := Ideal) ![0, 0] slices_S4x128_S1x128_0_0 (m ((c : Thread nD τ).loc main_arg2)) : S1x128.Idx → EReal) (ix2 (0 : Fin 1) k) = ginB1 m c (ix2 (0 : Fin 4) k) :=
    fun k => paramRow_apply _ _ _ (0 : Fin 4) rfl rfl k
  have pr4 : ∀ k, (paramRow (F := Ideal) ![0, 0] slices_S4x128_S1x128_0_0 (m ((c : Thread nD τ).loc main_arg4)) : S1x128.Idx → EReal) (ix2 (0 : Fin 1) k) = ginB2 m c (ix2 (0 : Fin 4) k) :=
    fun k => paramRow_apply _ _ _ (0 : Fin 4) rfl rfl k
  have pr5 : ∀ k, (paramRow (F := Ideal) ![0, 0] slices_S4x128_S1x128_0_0 (m ((c : Thread nD τ).loc main_arg5)) : S1x128.Idx → EReal) (ix2 (0 : Fin 1) k) = gnWeight m c (ix2 (0 : Fin 4) k) :=
    fun k => paramRow_apply _ _ _ (0 : Fin 4) rfl rfl k
  have pr6 : ∀ k, (paramRow (F := Ideal) ![0, 0] slices_S4x128_S1x128_0_0 (m ((c : Thread nD τ).loc main_arg6)) : S1x128.Idx → EReal) (ix2 (0 : Fin 1) k) = gnBias m c (ix2 (0 : Fin 4) k) :=
    fun k => paramRow_apply _ _ _ (0 : Fin 4) rfl rfl k
  have pr7 : ∀ k, (paramRow (F := Ideal) ![0, 0] slices_S4x128_S1x128_0_0 (m ((c : Thread nD τ).loc main_arg7)) : S1x128.Idx → EReal) (ix2 (0 : Fin 1) k) = gnScale m c (ix2 (0 : Fin 4) k) :=
    fun k => paramRow_apply _ _ _ (0 : Fin 4) rfl rfl k
  refine layer_of_parts (Cert.SegOps.graphOf (batch m c) hr) one eps _ _ _ _ _ _ _ _ _
    (fun n g => (memb m c : S50000x128.Idx → EReal) (ix2 n g)) (fun n g => oneHot_apply (batch m c) hr n g)
    (fun g => (counts m c : S128x1.Idx → EReal) (ix2 g (0 : Fin 1))) (fun g => countsCol_apply (batch m c) hr g)
    (fun n d => tRows0 m c (ix2 n d)) ?ht
    (fun g d => tSums0 m c (ix2 g d)) ?hsm
    (fun g d => (perGraph (F := Ideal) (tSums0 m c) (counts m c) : S128x128.Idx → EReal) (ix2 g d)) (fun g d => perGraph_apply _ _ g d)
    (fun n d => cRows0 m c (ix2 n d)) ?hce
    (fun g d => cSums0 m c (ix2 g d)) ?hsq
    (fun g d => (perGraph (F := Ideal) (cSums0 m c) (counts m c) : S128x128.Idx → EReal) (ix2 g d)) (fun g d => perGraph_apply _ _ g d)
    (fun n d => hRows0 m c (ix2 n d)) ?ho n d
  case ht =>
    intro n d
    refine (arr0_7_apply (Vh0 m) c n d).trans ?_
    simp only [entry0_0 m c, entry0_1 m c, entry0_3 m c, entry0_4 m c, entry0_5 m c, entry0_6 m c, pm1, pm3, pr2, pr4]
  case hsm =>
    intro g d
    refine (arr0_8_apply (Vh0 m) c g d).trans ?_
    simp only [entry0_2 m c]
  case hce =>
    intro n d
    refine (arr1_4_apply (Vh1 m) c n d).trans ?_
    simp only [entry1_0 m c, entry1_1 m c, entry1_2 m c, entry1_3 m c, pr7]
  case hsq =>
    intro g d
    refine (arr1_5_apply (Vh1 m) c g d).trans ?_
    simp only [entry1_1 m c]
  case ho =>
    intro n d
    refine (arr2_5_apply (Vh2 m) c n d).trans ?_
    simp only [entry2_0 m c, entry2_1 m c, entry2_2 m c, entry2_3 m c, entry2_4 m c, pr5, pr6]

/-- The same as an equation of arrays. -/
theorem kernel_layer0_arr (c : Dev nD)
    (hr : ∀ j : Fin 50000, (batch m c (ix1 j)).toNat < 128 ∧ (batch m c (ix1 j)).toInt = ((batch m c (ix1 j)).toNat : Int)) :
    hRows0 m c
      = fun i => layerK (Cert.SegOps.graphOf (batch m c) hr) one eps
          (fun n j => feats m c (ix2 n j))
          (fun n j => aggK m c (feats m c) (ix2 n j))
          (fun j k => ginW1 m c (ix3 (0 : Fin 4) j k)) (fun k => ginB1 m c (ix2 (0 : Fin 4) k))
          (fun j k => ginW2 m c (ix3 (0 : Fin 4) j k)) (fun k => ginB2 m c (ix2 (0 : Fin 4) k))
          (fun k => gnScale m c (ix2 (0 : Fin 4) k)) (fun k => gnWeight m c (ix2 (0 : Fin 4) k)) (fun k => gnBias m c (ix2 (0 : Fin 4) k)) (i 0) (i 1) := by
  funext i
  exact (congrArg (hRows0 m c) (eq_ix2 i)).trans (kernel_layer0 m c hr (i 0) (i 1))

/-- Layer 1: the array launch 5 leaves is one layer of the network applied to the array launch 2 left. -/
theorem kernel_layer1 (c : Dev nD)
    (hr : ∀ j : Fin 50000, (batch m c (ix1 j)).toNat < 128 ∧ (batch m c (ix1 j)).toInt = ((batch m c (ix1 j)).toNat : Int))
    (n : Fin 50000) (d : Fin 128) :
    hRows1 m c (ix2 n d)
      = layerK (Cert.SegOps.graphOf (batch m c) hr) one eps
          (fun n j => (hRows0 m c) (ix2 n j))
          (fun n j => aggK m c (hRows0 m c) (ix2 n j))
          (fun j k => ginW1 m c (ix3 (1 : Fin 4) j k)) (fun k => ginB1 m c (ix2 (1 : Fin 4) k))
          (fun j k => ginW2 m c (ix3 (1 : Fin 4) j k)) (fun k => ginB2 m c (ix2 (1 : Fin 4) k))
          (fun k => gnScale m c (ix2 (1 : Fin 4) k)) (fun k => gnWeight m c (ix2 (1 : Fin 4) k)) (fun k => gnBias m c (ix2 (1 : Fin 4) k)) n d := by
  have pm1 : ∀ j k, (paramMat (F := Ideal) ![1, 0, 0] slices_S4x128x128_S1x128x128_1_0_0 (m ((c : Thread nD τ).loc main_arg1)) : S128x128.Idx → EReal) (ix2 j k) = ginW1 m c (ix3 (1 : Fin 4) j k) :=
    fun j k => paramMat_apply _ _ _ (1 : Fin 4) rfl rfl rfl j k
  have pm3 : ∀ j k, (paramMat (F := Ideal) ![1, 0, 0] slices_S4x128x128_S1x128x128_1_0_0 (m ((c : Thread nD τ).loc main_arg3)) : S128x128.Idx → EReal) (ix2 j k) = ginW2 m c (ix3 (1 : Fin 4) j k) :=
    fun j k => paramMat_apply _ _ _ (1 : Fin 4) rfl rfl rfl j k
  have pr2 : ∀ k, (paramRow (F := Ideal) ![1, 0] slices_S4x128_S1x128_1_0 (m ((c : Thread nD τ).loc main_arg2)) : S1x128.Idx → EReal) (ix2 (0 : Fin 1) k) = ginB1 m c (ix2 (1 : Fin 4) k) :=
    fun k => paramRow_apply _ _ _ (1 : Fin 4) rfl rfl k
  have pr4 : ∀ k, (paramRow (F := Ideal) ![1, 0] slices_S4x128_S1x128_1_0 (m ((c : Thread nD τ).loc main_arg4)) : S1x128.Idx → EReal) (ix2 (0 : Fin 1) k) = ginB2 m c (ix2 (1 : Fin 4) k) :=
    fun k => paramRow_apply _ _ _ (1 : Fin 4) rfl rfl k
  have pr5 : ∀ k, (paramRow (F := Ideal) ![1, 0] slices_S4x128_S1x128_1_0 (m ((c : Thread nD τ).loc main_arg5)) : S1x128.Idx → EReal) (ix2 (0 : Fin 1) k) = gnWeight m c (ix2 (1 : Fin 4) k) :=
    fun k => paramRow_apply _ _ _ (1 : Fin 4) rfl rfl k
  have pr6 : ∀ k, (paramRow (F := Ideal) ![1, 0] slices_S4x128_S1x128_1_0 (m ((c : Thread nD τ).loc main_arg6)) : S1x128.Idx → EReal) (ix2 (0 : Fin 1) k) = gnBias m c (ix2 (1 : Fin 4) k) :=
    fun k => paramRow_apply _ _ _ (1 : Fin 4) rfl rfl k
  have pr7 : ∀ k, (paramRow (F := Ideal) ![1, 0] slices_S4x128_S1x128_1_0 (m ((c : Thread nD τ).loc main_arg7)) : S1x128.Idx → EReal) (ix2 (0 : Fin 1) k) = gnScale m c (ix2 (1 : Fin 4) k) :=
    fun k => paramRow_apply _ _ _ (1 : Fin 4) rfl rfl k
  refine layer_of_parts (Cert.SegOps.graphOf (batch m c) hr) one eps _ _ _ _ _ _ _ _ _
    (fun n g => (memb m c : S50000x128.Idx → EReal) (ix2 n g)) (fun n g => oneHot_apply (batch m c) hr n g)
    (fun g => (counts m c : S128x1.Idx → EReal) (ix2 g (0 : Fin 1))) (fun g => countsCol_apply (batch m c) hr g)
    (fun n d => tRows1 m c (ix2 n d)) ?ht
    (fun g d => tSums1 m c (ix2 g d)) ?hsm
    (fun g d => (perGraph (F := Ideal) (tSums1 m c) (counts m c) : S128x128.Idx → EReal) (ix2 g d)) (fun g d => perGraph_apply _ _ g d)
    (fun n d => cRows1 m c (ix2 n d)) ?hce
    (fun g d => cSums1 m c (ix2 g d)) ?hsq
    (fun g d => (perGraph (F := Ideal) (cSums1 m c) (counts m c) : S128x128.Idx → EReal) (ix2 g d)) (fun g d => perGraph_apply _ _ g d)
    (fun n d => hRows1 m c (ix2 n d)) ?ho n d
  case ht =>
    intro n d
    refine (arr3_7_apply (Vh3 m) c n d).trans ?_
    simp only [entry3_0 m c, entry3_1 m c, entry3_3 m c, entry3_4 m c, entry3_5 m c, entry3_6 m c, pm1, pm3, pr2, pr4]
  case hsm =>
    intro g d
    refine (arr3_8_apply (Vh3 m) c g d).trans ?_
    simp only [entry3_2 m c]
  case hce =>
    intro n d
    refine (arr4_4_apply (Vh4 m) c n d).trans ?_
    simp only [entry4_0 m c, entry4_1 m c, entry4_2 m c, entry4_3 m c, pr7]
  case hsq =>
    intro g d
    refine (arr4_5_apply (Vh4 m) c g d).trans ?_
    simp only [entry4_1 m c]
  case ho =>
    intro n d
    refine (arr5_5_apply (Vh5 m) c n d).trans ?_
    simp only [entry5_0 m c, entry5_1 m c, entry5_2 m c, entry5_3 m c, entry5_4 m c, pr5, pr6]

/-- The same as an equation of arrays. -/
theorem kernel_layer1_arr (c : Dev nD)
    (hr : ∀ j : Fin 50000, (batch m c (ix1 j)).toNat < 128 ∧ (batch m c (ix1 j)).toInt = ((batch m c (ix1 j)).toNat : Int)) :
    hRows1 m c
      = fun i => layerK (Cert.SegOps.graphOf (batch m c) hr) one eps
          (fun n j => (hRows0 m c) (ix2 n j))
          (fun n j => aggK m c (hRows0 m c) (ix2 n j))
          (fun j k => ginW1 m c (ix3 (1 : Fin 4) j k)) (fun k => ginB1 m c (ix2 (1 : Fin 4) k))
          (fun j k => ginW2 m c (ix3 (1 : Fin 4) j k)) (fun k => ginB2 m c (ix2 (1 : Fin 4) k))
          (fun k => gnScale m c (ix2 (1 : Fin 4) k)) (fun k => gnWeight m c (ix2 (1 : Fin 4) k)) (fun k => gnBias m c (ix2 (1 : Fin 4) k)) (i 0) (i 1) := by
  funext i
  exact (congrArg (hRows1 m c) (eq_ix2 i)).trans (kernel_layer1 m c hr (i 0) (i 1))

/-- Layer 2: the array launch 8 leaves is one layer of the network applied to the array launch 5 left. -/
theorem kernel_layer2 (c : Dev nD)
    (hr : ∀ j : Fin 50000, (batch m c (ix1 j)).toNat < 128 ∧ (batch m c (ix1 j)).toInt = ((batch m c (ix1 j)).toNat : Int))
    (n : Fin 50000) (d : Fin 128) :
    hRows2 m c (ix2 n d)
      = layerK (Cert.SegOps.graphOf (batch m c) hr) one eps
          (fun n j => (hRows1 m c) (ix2 n j))
          (fun n j => aggK m c (hRows1 m c) (ix2 n j))
          (fun j k => ginW1 m c (ix3 (2 : Fin 4) j k)) (fun k => ginB1 m c (ix2 (2 : Fin 4) k))
          (fun j k => ginW2 m c (ix3 (2 : Fin 4) j k)) (fun k => ginB2 m c (ix2 (2 : Fin 4) k))
          (fun k => gnScale m c (ix2 (2 : Fin 4) k)) (fun k => gnWeight m c (ix2 (2 : Fin 4) k)) (fun k => gnBias m c (ix2 (2 : Fin 4) k)) n d := by
  have pm1 : ∀ j k, (paramMat (F := Ideal) ![2, 0, 0] slices_S4x128x128_S1x128x128_2_0_0 (m ((c : Thread nD τ).loc main_arg1)) : S128x128.Idx → EReal) (ix2 j k) = ginW1 m c (ix3 (2 : Fin 4) j k) :=
    fun j k => paramMat_apply _ _ _ (2 : Fin 4) rfl rfl rfl j k
  have pm3 : ∀ j k, (paramMat (F := Ideal) ![2, 0, 0] slices_S4x128x128_S1x128x128_2_0_0 (m ((c : Thread nD τ).loc main_arg3)) : S128x128.Idx → EReal) (ix2 j k) = ginW2 m c (ix3 (2 : Fin 4) j k) :=
    fun j k => paramMat_apply _ _ _ (2 : Fin 4) rfl rfl rfl j k
  have pr2 : ∀ k, (paramRow (F := Ideal) ![2, 0] slices_S4x128_S1x128_2_0 (m ((c : Thread nD τ).loc main_arg2)) : S1x128.Idx → EReal) (ix2 (0 : Fin 1) k) = ginB1 m c (ix2 (2 : Fin 4) k) :=
    fun k => paramRow_apply _ _ _ (2 : Fin 4) rfl rfl k
  have pr4 : ∀ k, (paramRow (F := Ideal) ![2, 0] slices_S4x128_S1x128_2_0 (m ((c : Thread nD τ).loc main_arg4)) : S1x128.Idx → EReal) (ix2 (0 : Fin 1) k) = ginB2 m c (ix2 (2 : Fin 4) k) :=
    fun k => paramRow_apply _ _ _ (2 : Fin 4) rfl rfl k
  have pr5 : ∀ k, (paramRow (F := Ideal) ![2, 0] slices_S4x128_S1x128_2_0 (m ((c : Thread nD τ).loc main_arg5)) : S1x128.Idx → EReal) (ix2 (0 : Fin 1) k) = gnWeight m c (ix2 (2 : Fin 4) k) :=
    fun k => paramRow_apply _ _ _ (2 : Fin 4) rfl rfl k
  have pr6 : ∀ k, (paramRow (F := Ideal) ![2, 0] slices_S4x128_S1x128_2_0 (m ((c : Thread nD τ).loc main_arg6)) : S1x128.Idx → EReal) (ix2 (0 : Fin 1) k) = gnBias m c (ix2 (2 : Fin 4) k) :=
    fun k => paramRow_apply _ _ _ (2 : Fin 4) rfl rfl k
  have pr7 : ∀ k, (paramRow (F := Ideal) ![2, 0] slices_S4x128_S1x128_2_0 (m ((c : Thread nD τ).loc main_arg7)) : S1x128.Idx → EReal) (ix2 (0 : Fin 1) k) = gnScale m c (ix2 (2 : Fin 4) k) :=
    fun k => paramRow_apply _ _ _ (2 : Fin 4) rfl rfl k
  refine layer_of_parts (Cert.SegOps.graphOf (batch m c) hr) one eps _ _ _ _ _ _ _ _ _
    (fun n g => (memb m c : S50000x128.Idx → EReal) (ix2 n g)) (fun n g => oneHot_apply (batch m c) hr n g)
    (fun g => (counts m c : S128x1.Idx → EReal) (ix2 g (0 : Fin 1))) (fun g => countsCol_apply (batch m c) hr g)
    (fun n d => tRows2 m c (ix2 n d)) ?ht
    (fun g d => tSums2 m c (ix2 g d)) ?hsm
    (fun g d => (perGraph (F := Ideal) (tSums2 m c) (counts m c) : S128x128.Idx → EReal) (ix2 g d)) (fun g d => perGraph_apply _ _ g d)
    (fun n d => cRows2 m c (ix2 n d)) ?hce
    (fun g d => cSums2 m c (ix2 g d)) ?hsq
    (fun g d => (perGraph (F := Ideal) (cSums2 m c) (counts m c) : S128x128.Idx → EReal) (ix2 g d)) (fun g d => perGraph_apply _ _ g d)
    (fun n d => hRows2 m c (ix2 n d)) ?ho n d
  case ht =>
    intro n d
    refine (arr6_7_apply (Vh6 m) c n d).trans ?_
    simp only [entry6_0 m c, entry6_1 m c, entry6_3 m c, entry6_4 m c, entry6_5 m c, entry6_6 m c, pm1, pm3, pr2, pr4]
  case hsm =>
    intro g d
    refine (arr6_8_apply (Vh6 m) c g d).trans ?_
    simp only [entry6_2 m c]
  case hce =>
    intro n d
    refine (arr7_4_apply (Vh7 m) c n d).trans ?_
    simp only [entry7_0 m c, entry7_1 m c, entry7_2 m c, entry7_3 m c, pr7]
  case hsq =>
    intro g d
    refine (arr7_5_apply (Vh7 m) c g d).trans ?_
    simp only [entry7_1 m c]
  case ho =>
    intro n d
    refine (arr8_5_apply (Vh8 m) c n d).trans ?_
    simp only [entry8_0 m c, entry8_1 m c, entry8_2 m c, entry8_3 m c, entry8_4 m c, pr5, pr6]

/-- The same as an equation of arrays. -/
theorem kernel_layer2_arr (c : Dev nD)
    (hr : ∀ j : Fin 50000, (batch m c (ix1 j)).toNat < 128 ∧ (batch m c (ix1 j)).toInt = ((batch m c (ix1 j)).toNat : Int)) :
    hRows2 m c
      = fun i => layerK (Cert.SegOps.graphOf (batch m c) hr) one eps
          (fun n j => (hRows1 m c) (ix2 n j))
          (fun n j => aggK m c (hRows1 m c) (ix2 n j))
          (fun j k => ginW1 m c (ix3 (2 : Fin 4) j k)) (fun k => ginB1 m c (ix2 (2 : Fin 4) k))
          (fun j k => ginW2 m c (ix3 (2 : Fin 4) j k)) (fun k => ginB2 m c (ix2 (2 : Fin 4) k))
          (fun k => gnScale m c (ix2 (2 : Fin 4) k)) (fun k => gnWeight m c (ix2 (2 : Fin 4) k)) (fun k => gnBias m c (ix2 (2 : Fin 4) k)) (i 0) (i 1) := by
  funext i
  exact (congrArg (hRows2 m c) (eq_ix2 i)).trans (kernel_layer2 m c hr (i 0) (i 1))

/-- Layer 3: the array launch 11 leaves is one layer of the network applied to the array launch 8 left. -/
theorem kernel_layer3 (c : Dev nD)
    (hr : ∀ j : Fin 50000, (batch m c (ix1 j)).toNat < 128 ∧ (batch m c (ix1 j)).toInt = ((batch m c (ix1 j)).toNat : Int))
    (n : Fin 50000) (d : Fin 128) :
    hRows3 m c (ix2 n d)
      = layerK (Cert.SegOps.graphOf (batch m c) hr) one eps
          (fun n j => (hRows2 m c) (ix2 n j))
          (fun n j => aggK m c (hRows2 m c) (ix2 n j))
          (fun j k => ginW1 m c (ix3 (3 : Fin 4) j k)) (fun k => ginB1 m c (ix2 (3 : Fin 4) k))
          (fun j k => ginW2 m c (ix3 (3 : Fin 4) j k)) (fun k => ginB2 m c (ix2 (3 : Fin 4) k))
          (fun k => gnScale m c (ix2 (3 : Fin 4) k)) (fun k => gnWeight m c (ix2 (3 : Fin 4) k)) (fun k => gnBias m c (ix2 (3 : Fin 4) k)) n d := by
  have pm1 : ∀ j k, (paramMat (F := Ideal) ![3, 0, 0] slices_S4x128x128_S1x128x128_3_0_0 (m ((c : Thread nD τ).loc main_arg1)) : S128x128.Idx → EReal) (ix2 j k) = ginW1 m c (ix3 (3 : Fin 4) j k) :=
    fun j k => paramMat_apply _ _ _ (3 : Fin 4) rfl rfl rfl j k
  have pm3 : ∀ j k, (paramMat (F := Ideal) ![3, 0, 0] slices_S4x128x128_S1x128x128_3_0_0 (m ((c : Thread nD τ).loc main_arg3)) : S128x128.Idx → EReal) (ix2 j k) = ginW2 m c (ix3 (3 : Fin 4) j k) :=
    fun j k => paramMat_apply _ _ _ (3 : Fin 4) rfl rfl rfl j k
  have pr2 : ∀ k, (paramRow (F := Ideal) ![3, 0] slices_S4x128_S1x128_3_0 (m ((c : Thread nD τ).loc main_arg2)) : S1x128.Idx → EReal) (ix2 (0 : Fin 1) k) = ginB1 m c (ix2 (3 : Fin 4) k) :=
    fun k => paramRow_apply _ _ _ (3 : Fin 4) rfl rfl k
  have pr4 : ∀ k, (paramRow (F := Ideal) ![3, 0] slices_S4x128_S1x128_3_0 (m ((c : Thread nD τ).loc main_arg4)) : S1x128.Idx → EReal) (ix2 (0 : Fin 1) k) = ginB2 m c (ix2 (3 : Fin 4) k) :=
    fun k => paramRow_apply _ _ _ (3 : Fin 4) rfl rfl k
  have pr5 : ∀ k, (paramRow (F := Ideal) ![3, 0] slices_S4x128_S1x128_3_0 (m ((c : Thread nD τ).loc main_arg5)) : S1x128.Idx → EReal) (ix2 (0 : Fin 1) k) = gnWeight m c (ix2 (3 : Fin 4) k) :=
    fun k => paramRow_apply _ _ _ (3 : Fin 4) rfl rfl k
  have pr6 : ∀ k, (paramRow (F := Ideal) ![3, 0] slices_S4x128_S1x128_3_0 (m ((c : Thread nD τ).loc main_arg6)) : S1x128.Idx → EReal) (ix2 (0 : Fin 1) k) = gnBias m c (ix2 (3 : Fin 4) k) :=
    fun k => paramRow_apply _ _ _ (3 : Fin 4) rfl rfl k
  have pr7 : ∀ k, (paramRow (F := Ideal) ![3, 0] slices_S4x128_S1x128_3_0 (m ((c : Thread nD τ).loc main_arg7)) : S1x128.Idx → EReal) (ix2 (0 : Fin 1) k) = gnScale m c (ix2 (3 : Fin 4) k) :=
    fun k => paramRow_apply _ _ _ (3 : Fin 4) rfl rfl k
  refine layer_of_parts (Cert.SegOps.graphOf (batch m c) hr) one eps _ _ _ _ _ _ _ _ _
    (fun n g => (memb m c : S50000x128.Idx → EReal) (ix2 n g)) (fun n g => oneHot_apply (batch m c) hr n g)
    (fun g => (counts m c : S128x1.Idx → EReal) (ix2 g (0 : Fin 1))) (fun g => countsCol_apply (batch m c) hr g)
    (fun n d => tRows3 m c (ix2 n d)) ?ht
    (fun g d => tSums3 m c (ix2 g d)) ?hsm
    (fun g d => (perGraph (F := Ideal) (tSums3 m c) (counts m c) : S128x128.Idx → EReal) (ix2 g d)) (fun g d => perGraph_apply _ _ g d)
    (fun n d => cRows3 m c (ix2 n d)) ?hce
    (fun g d => cSums3 m c (ix2 g d)) ?hsq
    (fun g d => (perGraph (F := Ideal) (cSums3 m c) (counts m c) : S128x128.Idx → EReal) (ix2 g d)) (fun g d => perGraph_apply _ _ g d)
    (fun n d => hRows3 m c (ix2 n d)) ?ho n d
  case ht =>
    intro n d
    refine (arr9_7_apply (Vh9 m) c n d).trans ?_
    simp only [entry9_0 m c, entry9_1 m c, entry9_3 m c, entry9_4 m c, entry9_5 m c, entry9_6 m c, pm1, pm3, pr2, pr4]
  case hsm =>
    intro g d
    refine (arr9_8_apply (Vh9 m) c g d).trans ?_
    simp only [entry9_2 m c]
  case hce =>
    intro n d
    refine (arr10_4_apply (Vh10 m) c n d).trans ?_
    simp only [entry10_0 m c, entry10_1 m c, entry10_2 m c, entry10_3 m c, pr7]
  case hsq =>
    intro g d
    refine (arr10_5_apply (Vh10 m) c g d).trans ?_
    simp only [entry10_1 m c]
  case ho =>
    intro n d
    refine (arr11_5_apply (Vh11 m) c n d).trans ?_
    simp only [entry11_0 m c, entry11_1 m c, entry11_2 m c, entry11_3 m c, entry11_4 m c, pr5, pr6]

/-- The same as an equation of arrays. -/
theorem kernel_layer3_arr (c : Dev nD)
    (hr : ∀ j : Fin 50000, (batch m c (ix1 j)).toNat < 128 ∧ (batch m c (ix1 j)).toInt = ((batch m c (ix1 j)).toNat : Int)) :
    hRows3 m c
      = fun i => layerK (Cert.SegOps.graphOf (batch m c) hr) one eps
          (fun n j => (hRows2 m c) (ix2 n j))
          (fun n j => aggK m c (hRows2 m c) (ix2 n j))
          (fun j k => ginW1 m c (ix3 (3 : Fin 4) j k)) (fun k => ginB1 m c (ix2 (3 : Fin 4) k))
          (fun j k => ginW2 m c (ix3 (3 : Fin 4) j k)) (fun k => ginB2 m c (ix2 (3 : Fin 4) k))
          (fun k => gnScale m c (ix2 (3 : Fin 4) k)) (fun k => gnWeight m c (ix2 (3 : Fin 4) k)) (fun k => gnBias m c (ix2 (3 : Fin 4) k)) (i 0) (i 1) := by
  funext i
  exact (congrArg (hRows3 m c) (eq_ix2 i)).trans (kernel_layer3 m c hr (i 0) (i 1))

/-! ## The pooling and the head -/

/-- The result: the head applied to the per-graph sums of the rows launch 11 left. -/
theorem kernel_head (c : Dev nD)
    (hr : ∀ j : Fin 50000, (batch m c (ix1 j)).toNat < 128 ∧ (batch m c (ix1 j)).toInt = ((batch m c (ix1 j)).toNat : Int))
    (g : Fin 128) (k : Fin 10) :
    result m c (ix2 g k)
      = Cert.Spec3.head
          (Cert.Spec3.pooled (Cert.SegOps.graphOf (batch m c) hr) (fun n d => hRows3 m c (ix2 n d)))
          (fun j k => headW1 m c (ix2 j k)) (fun k => headB1 m c (ix1 k))
          (fun j k => headW2 m c (ix2 j k)) (fun k => headB2 m c (ix1 k))
          (fun j k => headW3 m c (ix2 j k)) (fun k => headB3 m c (ix1 k)) g k := by
  refine (arr12_8_apply (Vh12 m) c g k).trans ?_
  simp only [entry12_0 m c, entry12_1 m c, entry12_2 m c, entry12_3 m c, entry12_4 m c, entry12_5 m c, entry12_6 m c, entry12_7 m c,
    asRow128_apply, asRow10_apply, oneHot_apply (batch m c) hr,
    ohT_sum (Cert.SegOps.graphOf (batch m c) hr) (fun n d => hRows3 m c (ix2 n d))]
  rfl

/-- The same as an equation of arrays. -/
theorem kernel_head_arr (c : Dev nD)
    (hr : ∀ j : Fin 50000, (batch m c (ix1 j)).toNat < 128 ∧ (batch m c (ix1 j)).toInt = ((batch m c (ix1 j)).toNat : Int)) :
    result m c
      = fun i => Cert.Spec3.head
          (Cert.Spec3.pooled (Cert.SegOps.graphOf (batch m c) hr) (fun n d => hRows3 m c (ix2 n d)))
          (fun j k => headW1 m c (ix2 j k)) (fun k => headB1 m c (ix1 k))
          (fun j k => headW2 m c (ix2 j k)) (fun k => headB2 m c (ix1 k))
          (fun j k => headW3 m c (ix2 j k)) (fun k => headB3 m c (ix1 k)) (i 0) (i 1) := by
  funext i
  exact (congrArg (result m c) (eq_ix2 i)).trans (kernel_head m c hr (i 0) (i 1))

end Cert.KLayers

end
-- ==== Proof.PreDecode.lean ====
/-
  The precondition, read back at the batch vector.

  The printed precondition is a conjunction of sixteen `jnp.all` bits, folded to the left by `and`; its last conjunct is
  `jnp.all((batch ≥ 0) ∧ (batch < 128))` over the sixteenth argument, a vector of 50000 signed 32-bit words. From
  "the precondition is the bit 1" this module derives, for every position, that the batch word read as a signed integer
  lies in [0, 128); hence its unsigned reading is the same number and is below 128. The fifteen conjuncts before it are
  only peeled off: a left fold by `and` that is 1 has its last operand 1.
-/
import proofs.«408428_j10917806867267_1_alg».proof.Pre_finite_inputs
import Idealize.ShloMosaic.Lib.ReduceAll
import Idealize.ShloMosaic.Lib.StableHlo.Predicate
import Idealize.ShloMosaic.Lib.ValueIdx

namespace Cert.PreDecode

open Idealize.ShloMosaic Cert.Pre_finite_inputs

/-- The scalar shape has one index. -/
instance subsingleton_scalar_idx : Subsingleton S_.Idx := ⟨fun a b => funext fun d => d.elim0⟩

/-! ## One word -/

/-- A 32-bit word that tests `≥ 0` and `< 128`, both signed, is a signed integer in [0, 128). -/
theorem word_range {w : BitVec 32} (h0 : IntOp.cmpi .sge w 0#32 = 1#1) (h1 : IntOp.cmpi .slt w 128#32 = 1#1) :
    0 ≤ w.toInt ∧ w.toInt < 128 := by
  rw [IntOp.cmpi_sge, show (0#32 : BitVec 32).toInt = 0 from by decide] at h0
  rw [IntOp.cmpi_slt, show (128#32 : BitVec 32).toInt = 128 from by decide] at h1
  exact ⟨h0, h1⟩

/-- A nonnegative signed word reads the same unsigned. -/
theorem toInt_eq_toNat_of_nonneg {w : BitVec 32} (h : 0 ≤ w.toInt) : w.toInt = (w.toNat : Int) :=
  BitVec.toInt_eq_toNat_of_lt (BitVec.toInt_pos_iff.1 h)

/-- A signed word in [0, 128) is, unsigned, a natural number below 128. -/
theorem toNat_lt_of_range {w : BitVec 32} (h : 0 ≤ w.toInt ∧ w.toInt < 128) : w.toNat < 128 := by
  have e := toInt_eq_toNat_of_nonneg h.1
  have := h.2
  omega

/-! ## The last conjunct -/

variable {F : FTy → Type} [FloatOps F] [Cert.Pre_finite_inputs.Facts]

/-- The tail of the precondition (its last two `and`s): whatever the two bits carried in are, if the result is 1 then
    every batch word is a signed integer in [0, 128). -/
theorem part4_range (a15 : IVec S50000 32) (p q : IVec S_ 1)
    (h : fn_part4 (F := F) a15 p q = fun _ => 1#1) (j : S50000.Idx) :
    0 ≤ (a15 j).toInt ∧ (a15 j).toInt < 128 := by
  have h0 := congrFun h ValueIdx.ix0
  dsimp only [fn_part4, andi] at h0
  have hall := (IntOp.andi_eq_one.1 h0).2
  have hj := Host.reduce_andi_all _ _ _ _ _ hall j
  dsimp only [andi, cmpi] at hj
  obtain ⟨hge, hlt⟩ := IntOp.andi_eq_one.1 hj
  rw [StableHlo.Predicate.bcast_scalar _ Facts.h_S_] at hge hlt
  exact word_range hge hlt

/-! ## The precondition -/

/-- Under the precondition every batch word, read as a signed integer, lies in [0, 128). -/
theorem batch_range
    (a0 : FVec F S50000x128 .f32) (a1 : FVec F S4x128x128 .f32) (a2 : FVec F S4x128 .f32) (a3 : FVec F S4x128x128 .f32)
    (a4 a5 a6 a7 : FVec F S4x128 .f32) (a8 : FVec F S128x128 .f32) (a9 : FVec F S128 .f32) (a10 : FVec F S128x128 .f32)
    (a11 : FVec F S128 .f32) (a12 : FVec F S128x10 .f32) (a13 : FVec F S10 .f32) (a14 : IVec S2x800000 32)
    (a15 : IVec S50000 32)
    (h : Cert.Pre_finite_inputs.fn (F := F) a0 a1 a2 a3 a4 a5 a6 a7 a8 a9 a10 a11 a12 a13 a14 a15 = fun _ => 1#1)
    (j : S50000.Idx) :
    0 ≤ (a15 j).toInt ∧ (a15 j).toInt < 128 := by
  have h4 : fn_part4 (F := F) a15 _ _ = fun _ => 1#1 := h
  exact part4_range a15 _ _ h4 j

/-- The same at a position given as a number below 50000. -/
theorem batch_range_ix1
    (a0 : FVec F S50000x128 .f32) (a1 : FVec F S4x128x128 .f32) (a2 : FVec F S4x128 .f32) (a3 : FVec F S4x128x128 .f32)
    (a4 a5 a6 a7 : FVec F S4x128 .f32) (a8 : FVec F S128x128 .f32) (a9 : FVec F S128 .f32) (a10 : FVec F S128x128 .f32)
    (a11 : FVec F S128 .f32) (a12 : FVec F S128x10 .f32) (a13 : FVec F S10 .f32) (a14 : IVec S2x800000 32)
    (a15 : IVec S50000 32)
    (h : Cert.Pre_finite_inputs.fn (F := F) a0 a1 a2 a3 a4 a5 a6 a7 a8 a9 a10 a11 a12 a13 a14 a15 = fun _ => 1#1) :
    ∀ n : Fin 50000, 0 ≤ (a15 (ValueIdx.ix1 n)).toInt ∧ (a15 (ValueIdx.ix1 n)).toInt < 128 :=
  fun n => batch_range a0 a1 a2 a3 a4 a5 a6 a7 a8 a9 a10 a11 a12 a13 a14 a15 h (ValueIdx.ix1 n)

/-- Under the precondition every batch word, read unsigned, is a natural number below 128, and its signed reading is
    that number. -/
theorem batch_toNat
    (a0 : FVec F S50000x128 .f32) (a1 : FVec F S4x128x128 .f32) (a2 : FVec F S4x128 .f32) (a3 : FVec F S4x128x128 .f32)
    (a4 a5 a6 a7 : FVec F S4x128 .f32) (a8 : FVec F S128x128 .f32) (a9 : FVec F S128 .f32) (a10 : FVec F S128x128 .f32)
    (a11 : FVec F S128 .f32) (a12 : FVec F S128x10 .f32) (a13 : FVec F S10 .f32) (a14 : IVec S2x800000 32)
    (a15 : IVec S50000 32)
    (h : Cert.Pre_finite_inputs.fn (F := F) a0 a1 a2 a3 a4 a5 a6 a7 a8 a9 a10 a11 a12 a13 a14 a15 = fun _ => 1#1)
    (j : S50000.Idx) :
    (a15 j).toNat < 128 ∧ (a15 j).toInt = ((a15 j).toNat : Int) := by
  have r := batch_range a0 a1 a2 a3 a4 a5 a6 a7 a8 a9 a10 a11 a12 a13 a14 a15 h j
  exact ⟨toNat_lt_of_range r, toInt_eq_toNat_of_nonneg r.1⟩

/-- The same at a position given as a number below 50000. -/
theorem batch_toNat_ix1
    (a0 : FVec F S50000x128 .f32) (a1 : FVec F S4x128x128 .f32) (a2 : FVec F S4x128 .f32) (a3 : FVec F S4x128x128 .f32)
    (a4 a5 a6 a7 : FVec F S4x128 .f32) (a8 : FVec F S128x128 .f32) (a9 : FVec F S128 .f32) (a10 : FVec F S128x128 .f32)
    (a11 : FVec F S128 .f32) (a12 : FVec F S128x10 .f32) (a13 : FVec F S10 .f32) (a14 : IVec S2x800000 32)
    (a15 : IVec S50000 32)
    (h : Cert.Pre_finite_inputs.fn (F := F) a0 a1 a2 a3 a4 a5 a6 a7 a8 a9 a10 a11 a12 a13 a14 a15 = fun _ => 1#1) :
    ∀ n : Fin 50000, (a15 (ValueIdx.ix1 n)).toNat < 128 ∧
      (a15 (ValueIdx.ix1 n)).toInt = ((a15 (ValueIdx.ix1 n)).toNat : Int) :=
  fun n => batch_toNat a0 a1 a2 a3 a4 a5 a6 a7 a8 a9 a10 a11 a12 a13 a14 a15 h (ValueIdx.ix1 n)

end Cert.PreDecode
-- ==== Proof.BridgeTop.lean ====
/- The kernel program's result array is the reference's result term at the kernel program's own arguments, under the precondition: the precondition puts every graph id in range, the kernel program's layers and readout read as the plain network over its aggregation along the edges, and that network is the reference's. -/
import proofs.«408428_j10917806867267_1_alg».proof.Proof.Bridge
import proofs.«408428_j10917806867267_1_alg».proof.Proof.KLayers
import proofs.«408428_j10917806867267_1_alg».proof.Proof.PreDecode
import proofs.«408428_j10917806867267_1_alg».proof.Proof.Gen.Pre_finite_inputs
import proofs.«408428_j10917806867267_1_alg».proof.Defs

noncomputable section

namespace Cert.BridgeTop

open Idealize.ShloMosaic Idealize.ShloMosaic.ValueIdx Idealize.SL.Sem

/-- The kernel program's result is the reference's result at the same arguments. -/
theorem kernel_result_eq
    (m : (ℓ : Loc Cert.KernelIdeal.nD Cert.KernelIdeal.τ Cert.KernelIdeal.sig) → Buf (Elt Ideal) ℓ)
    (hpre : Cert.Pre_KernelIdeal m) (c : Dev Cert.KernelIdeal.nD) :
    (Cert.KernelIdeal.Hand.dat12 (Cert.KernelIdeal.Hand.Vh12 m) c).arrAt 8 Cert.KernelIdeal.cfg12.N
      = Cert.ReferenceIdeal.Read.val_main_v327 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15)) := by
  have hr := Cert.PreDecode.batch_toNat_ix1 (F := Ideal) _ _ _ _ _ _ _ _ _ _ _ _ _ _ _ _ (hpre c)
  exact Cert.Bridge.kernel_eq_reference _ hr _ _ _ _ _ _ _ _ _ _ _ _ _ _ _
    (Cert.KLayers.hRows0 m c) (Cert.KLayers.hRows1 m c) (Cert.KLayers.hRows2 m c) (Cert.KLayers.hRows3 m c)
    (Cert.KLayers.result m c)
    (Cert.KLayers.kernel_layer0 m c hr) (Cert.KLayers.kernel_layer1 m c hr) (Cert.KLayers.kernel_layer2 m c hr)
    (Cert.KLayers.kernel_layer3 m c hr) (Cert.KLayers.kernel_head m c hr)

end Cert.BridgeTop
-- ==== Proof.lean ====
/- The certificate of the graph network: four rounds of neighbour aggregation, a two-layer perceptron, per-graph
   normalisation, then a per-graph sum and a three-layer head with a log-softmax over ten classes.

   The kernel program runs thirteen pipelined launches over tiles of 5000 nodes with host steps between them. Its
   frame, at the word-level float model and at the exact one, follows each core's buffers through the thirteen host
   stretches and thirteen regions: every region certified from its own body (the accumulating ones carry the running sum
   of their scratch buffer in the invariant), every host stretch a function of the buffers before it, and no step writes
   an argument. The reference's frame is its run with the result dropped.

   The equality of the two results holds over the extended reals for graph ids in [0, 128), which the precondition
   states: the kernel's products with the 0/1 membership matrix are then the per-graph sums and the row selections the
   reference computes by scatter-add and gather (0 · x = 0 and 1 · x = x on all of the extended reals), the two edge
   aggregations are one term, the per-graph variances are non-negative, so x · rsqrt(v + ε) = x / sqrt(v + ε), and the
   heads agree term by term. -/
import proofs.«408428_j10917806867267_1_alg».proof.Defs
import proofs.«408428_j10917806867267_1_alg».proof.Proof.Gen.Kernel
import proofs.«408428_j10917806867267_1_alg».proof.Proof.Gen.KernelIdeal
import proofs.«408428_j10917806867267_1_alg».proof.Proof.Gen.ReferenceIdeal
import proofs.«408428_j10917806867267_1_alg».proof.Proof.Gen.Pre_finite_inputs
import proofs.«408428_j10917806867267_1_alg».proof.Proof.K.RunFacts
import proofs.«408428_j10917806867267_1_alg».proof.Proof.KI.RunFacts
import proofs.«408428_j10917806867267_1_alg».proof.Proof.RefRun
import proofs.«408428_j10917806867267_1_alg».proof.Proof.BridgeTop
import Idealize.ShloMosaic.Adequacy
import Idealize.ShloMosaic.Init

noncomputable section

namespace Cert.Proof

open Idealize.ShloMosaic Idealize.SL.Sem

/-- The kernel program at the word-level float model runs to the end and leaves its arguments as launched. -/
theorem frame_kernel : Cert.frame_Kernel := fun m ρ _ => Cert.Kernel.Hand.frame m ρ

/-- The same at the exact float model. -/
theorem frame_kernelIdeal : Cert.frame_KernelIdeal := fun m ρ _ => Cert.KernelIdeal.Hand.frame m ρ

/-- The reference runs to the end and leaves its arguments as launched: its run, the result dropped. -/
theorem frame_reference : Cert.frame_ReferenceIdeal := fun m ρ _ =>
  (θ_run Cert.ReferenceIdeal.defs _ _).mono (fun _ h c => (h c).2) (Cert.ReferenceIdeal.RunH.run (F := Ideal) m ρ)

/-- From memories that agree on the arguments both programs end, with the same result: the kernel's last region folds
    its output window to the array that the reference's last stage computes. -/
theorem algebraic : Cert.algebraic_KernelIdeal_ReferenceIdeal := by
  intro m ρ m' ρ' hpre hagree
  refine ⟨fun c => (Cert.KernelIdeal.Hand.dat12 (Cert.KernelIdeal.Hand.Vh12 m) c).arrAt 8 Cert.KernelIdeal.cfg12.N,
    Cert.KernelIdeal.Hand.run_result m ρ, ?_⟩
  refine (θ_run Cert.ReferenceIdeal.defs _ _).mono (fun _ h c => ⟨(h c).1.trans ?_, (h c).2⟩)
    (Cert.ReferenceIdeal.RunH.run (F := Ideal) m' ρ')
  obtain ⟨h0, h1, h2, h3, h4, h5, h6, h7, h8, h9, h10, h11, h12, h13, h14, h15⟩ := hagree c
  rw [h0, h1, h2, h3, h4, h5, h6, h7, h8, h9, h10, h11, h12, h13, h14, h15]
  exact (Cert.BridgeTop.kernel_result_eq m hpre c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
